-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v417_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v417_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1790) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x128 : Shape := ⟨2, ![12000, 128]⟩
abbrev S50000x4 : Shape := ⟨2, ![50000, 4]⟩
abbrev S12000x4 : Shape := ⟨2, ![12000, 4]⟩
abbrev S2x128x128 : Shape := ⟨3, ![2, 128, 128]⟩
abbrev S2x128x4 : Shape := ⟨3, ![2, 128, 4]⟩
abbrev S2x128 : Shape := ⟨2, ![2, 128]⟩
abbrev S2x128x256 : Shape := ⟨3, ![2, 128, 256]⟩
abbrev S2x2x128 : Shape := ⟨3, ![2, 2, 128]⟩
abbrev S4x128x128 : Shape := ⟨3, ![4, 128, 128]⟩
abbrev S4x12x128x128 : Shape := ⟨4, ![4, 12, 128, 128]⟩
abbrev S4x2x128 : Shape := ⟨3, ![4, 2, 128]⟩
abbrev S150000 : Shape := ⟨1, ![150000]⟩
abbrev S12x50000 : Shape := ⟨2, ![12, 50000]⟩
abbrev S2x5000 : Shape := ⟨2, ![2, 5000]⟩
abbrev S_ : Shape := ⟨0, ![]⟩

class Facts : Prop where
  bcast_S_S12000x128 : S_.BroadcastsInDim S12000x128 (![] : Fin 0 → Fin S12000x128.rank)
  reducesTo_S12000x128_S_d0_1 : S12000x128.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S12000x4 : S_.BroadcastsInDim S12000x4 (![] : Fin 0 → Fin S12000x4.rank)
  reducesTo_S12000x4_S_d0_1 : S12000x4.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128x4 : S_.BroadcastsInDim S2x128x4 (![] : Fin 0 → Fin S2x128x4.rank)
  reducesTo_S2x128x4_S_d0_1_2 : S2x128x4.ReducesTo [0, 1, 2] S_
  bcast_S_S2x128 : S_.BroadcastsInDim S2x128 (![] : Fin 0 → Fin S2x128.rank)
  reducesTo_S2x128_S_d0_1 : S2x128.ReducesTo [0, 1] S_
  bcast_S_S2x128x256 : S_.BroadcastsInDim S2x128x256 (![] : Fin 0 → Fin S2x128x256.rank)
  reducesTo_S2x128x256_S_d0_1_2 : S2x128x256.ReducesTo [0, 1, 2] S_
  bcast_S_S2x2x128 : S_.BroadcastsInDim S2x2x128 (![] : Fin 0 → Fin S2x2x128.rank)
  reducesTo_S2x2x128_S_d0_1_2 : S2x2x128.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S4x12x128x128 : S_.BroadcastsInDim S4x12x128x128 (![] : Fin 0 → Fin S4x12x128x128.rank)
  reducesTo_S4x12x128x128_S_d0_1_2_3 : S4x12x128x128.ReducesTo [0, 1, 2, 3] S_
  bcast_S_S4x2x128 : S_.BroadcastsInDim S4x2x128 (![] : Fin 0 → Fin S4x2x128.rank)
  reducesTo_S4x2x128_S_d0_1_2 : S4x2x128.ReducesTo [0, 1, 2] S_

variable [Facts]

def fn_part6 {F : FTy → Type} [FloatOps F] (main_v98 : IVec S_ 1) (main_v101 : IVec S4x2x128 1) (main_c_39 : IVec S_ 1) : IVec S_ 1 :=
  let main_v102 : IVec S_ 1 := (fun x v => Host.reduce IntOp.andi x v reducesTo_S4x2x128_S_d0_1_2 h_S_) main_v101 main_c_39
  let main_v103 : IVec S_ 1 := andi main_v98 main_v102
  main_v103

def fn_part5 {F : FTy → Type} [FloatOps F] (main_arg18 : FVec F S4x2x128 .f32) (main_arg19 : FVec F S4x128x128 .f32) (main_arg20 : FVec F S4x2x128 .f32) (main_v83 : IVec S_ 1) (main_v84 : FVec F S4x128x128 .f32) (main_cst_32 : FVec F S_ .f32) : IVec S_ 1 :=
  let main_v85 : FVec F S4x128x128 .f32 := broadcastInDim S4x128x128 ![] bcast_S_S4x128x128 main_cst_32
  let main_v86 : IVec S4x128x128 1 := cmpf .olt main_v84 main_v85
  let main_c_33 : IVec S_ 1 := constantI S_ 1 1#1
  let main_v87 : IVec S_ 1 := (fun x v => Host.reduce IntOp.andi x v reducesTo_S4x128x128_S_d0_1_2 h_S_) main_v86 main_c_33
  let main_v88 : IVec S_ 1 := andi main_v83 main_v87
  let main_v89 : FVec F S4x2x128 .f32 := Host.absf main_arg18
  let main_cst_34 : FVec F S_ .f32 := constant S_ .f32 0x7F800000#32
  let main_v90 : FVec F S4x2x128 .f32 := broadcastInDim S4x2x128 ![] bcast_S_S4x2x128 main_cst_34
  let main_v91 : IVec S4x2x128 1 := cmpf .olt main_v89 main_v90
  let main_c_35 : IVec S_ 1 := constantI S_ 1 1#1
  let main_v92 : IVec S_ 1 := (fun x v => Host.reduce IntOp.andi x v reducesTo_S4x2x128_S_d0_1_2 h_S_) main_v91 main_c_35
  let main_v93 : IVec S_ 1 := andi main_v88 main_v92
  let main_v94 : FVec F S4x128x128 .f32 := Host.absf main_arg19
  let main_cst_36 : FVec F S_ .f32 := constant S_ .f32 0x7F800000#32
  let main_v95 : FVec F S4x128x128 .f32 := broadcastInDim S4x128x128 ![] bcast_S_S4x128x128 main_cst_36
  let main_v96 : IVec S4x128x128 1 := cmpf .olt main_v94 main_v95
  let main_c_37 : IVec S_ 1 := constantI S_ 1 1#1
  let main_v97 : IVec S_ 1 := (fun x v => Host.reduce IntOp.andi x v reducesTo_S4x128x128_S_d0_1_2 h_S_) main_v96 main_c_37
  let main_v98 : IVec S_ 1 := andi main_v93 main_v97
  let main_v99 : FVec F S4x2x128 .f32 := Host.absf main_arg20
  let main_cst_38 : FVec F S_ .f32 := constant S_ .f32 0x7F800000#32
  let main_v100 : FVec F S4x2x128 .f32 := broadcastInDim S4x2x128 ![] bcast_S_S4x2x128 main_cst_38
  let main_v101 : IVec S4x2x128 1 := cmpf .olt main_v99 main_v100
  let main_c_39 : IVec S_ 1 := constantI S_ 1 1#1
  fn_part6 (F := F) main_v98 main_v101 main_c_39

def fn_part4 {F : FTy → Type} [FloatOps F] (main_arg14 : FVec F S4x128x128 .f32) (main_arg15 : FVec F S4x12x128x128 .f32) (main_arg16 : FVec F S4x128x128 .f32) (main_arg17 : FVec F S4x128x128 .f32) (main_arg18 : FVec F S4x2x128 .f32) (main_arg19 : FVec F S4x128x128 .f32) (main_arg20 : FVec F S4x2x128 .f32) (main_v63 : IVec S_ 1) (main_v67 : IVec S_ 1) : IVec S_ 1 :=
  let main_v68 : IVec S_ 1 := andi main_v63 main_v67
  let main_v69 : FVec F S4x128x128 .f32 := Host.absf main_arg14
  let main_cst_26 : FVec F S_ .f32 := constant S_ .f32 0x7F800000#32
  let main_v70 : FVec F S4x128x128 .f32 := broadcastInDim S4x128x128 ![] bcast_S_S4x128x128 main_cst_26
  let main_v71 : IVec S4x128x128 1 := cmpf .olt main_v69 main_v70
  let main_c_27 : IVec S_ 1 := constantI S_ 1 1#1
  let main_v72 : IVec S_ 1 := (fun x v => Host.reduce IntOp.andi x v reducesTo_S4x128x128_S_d0_1_2 h_S_) main_v71 main_c_27
  let main_v73 : IVec S_ 1 := andi main_v68 main_v72
  let main_v74 : FVec F S4x12x128x128 .f32 := Host.absf main_arg15
  let main_cst_28 : FVec F S_ .f32 := constant S_ .f32 0x7F800000#32
  let main_v75 : FVec F S4x12x128x128 .f32 := broadcastInDim S4x12x128x128 ![] bcast_S_S4x12x128x128 main_cst_28
  let main_v76 : IVec S4x12x128x128 1 := cmpf .olt main_v74 main_v75
  let main_c_29 : IVec S_ 1 := constantI S_ 1 1#1
  let main_v77 : IVec S_ 1 := (fun x v => Host.reduce IntOp.andi x v reducesTo_S4x12x128x128_S_d0_1_2_3 h_S_) main_v76 main_c_29
  let main_v78 : IVec S_ 1 := andi main_v73 main_v77
  let main_v79 : FVec F S4x128x128 .f32 := Host.absf main_arg16
  let main_cst_30 : FVec F S_ .f32 := constant S_ .f32 0x7F800000#32
  let main_v80 : FVec F S4x128x128 .f32 := broadcastInDim S4x128x128 ![] bcast_S_S4x128x128 main_cst_30
  let main_v81 : IVec S4x128x128 1 := cmpf .olt main_v79 main_v80
  let main_c_31 : IVec S_ 1 := constantI S_ 1 1#1
  let main_v82 : IVec S_ 1 := (fun x v => Host.reduce IntOp.andi x v reducesTo_S4x128x128_S_d0_1_2 h_S_) main_v81 main_c_31
  let main_v83 : IVec S_ 1 := andi main_v78 main_v82
  let main_v84 : FVec F S4x128x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S2x128x128 .f32) (main_arg12 : FVec F S2x2x128 .f32) (main_arg13 : FVec F S2x2x128 .f32) (main_arg14 : FVec F S4x128x128 .f32) (main_arg15 : FVec F S4x12x128x128 .f32) (main_arg16 : FVec F S4x128x128 .f32) (main_arg17 : FVec F S4x128x128 .f32) (main_arg18 : FVec F S4x2x128 .f32) (main_arg19 : FVec F S4x128x128 .f32) (main_arg20 : FVec F S4x2x128 .f32) (main_v48 : IVec S_ 1) (main_v49 : FVec F S2x2x128 .f32) (main_v50 : FVec F S2x2x128 .f32) : IVec S_ 1 :=
  let main_v51 : IVec S2x2x128 1 := cmpf .olt main_v49 main_v50
  let main_c_19 : IVec S_ 1 := constantI S_ 1 1#1
  let main_v52 : IVec S_ 1 := (fun x v => Host.reduce IntOp.andi x v reducesTo_S2x2x128_S_d0_1_2 h_S_) main_v51 main_c_19
  let main_v53 : IVec S_ 1 := andi main_v48 main_v52
  let main_v54 : FVec F S2x128x128 .f32 := Host.absf main_arg11
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x2x128 .f32 := Host.absf main_arg12
  let main_cst_22 : FVec F S_ .f32 := constant S_ .f32 0x7F800000#32
  let main_v60 : FVec F S2x2x128 .f32 := broadcastInDim S2x2x128 ![] bcast_S_S2x2x128 main_cst_22
  let main_v61 : IVec S2x2x128 1 := cmpf .olt main_v59 main_v60
  let main_c_23 : IVec S_ 1 := constantI S_ 1 1#1
  let main_v62 : IVec S_ 1 := (fun x v => Host.reduce IntOp.andi x v reducesTo_S2x2x128_S_d0_1_2 h_S_) main_v61 main_c_23
  let main_v63 : IVec S_ 1 := andi main_v58 main_v62
  let main_v64 : FVec F S2x2x128 .f32 := Host.absf main_arg13
  let main_cst_24 : FVec F S_ .f32 := constant S_ .f32 0x7F800000#32
  let main_v65 : FVec F S2x2x128 .f32 := broadcastInDim S2x2x128 ![] bcast_S_S2x2x128 main_cst_24
  let main_v66 : IVec S2x2x128 1 := cmpf .olt main_v64 main_v65
  let main_c_25 : IVec S_ 1 := constantI S_ 1 1#1
  let main_v67 : IVec S_ 1 := (fun x v => Host.reduce IntOp.andi x v reducesTo_S2x2x128_S_d0_1_2 h_S_) main_v66 main_c_25
  fn_part4 (F := F) main_arg14 main_arg15 main_arg16 main_arg17 main_arg18 main_arg19 main_arg20 main_v63 main_v67

def fn_part2 {F : FTy → Type} [FloatOps F] (main_arg7 : FVec F S2x2x128 .f32) (main_arg8 : FVec F S2x128x128 .f32) (main_arg9 : FVec F S2x128x128 .f32) (main_arg10 : FVec F S2x2x128 .f32) (main_arg11 : FVec F S2x128x128 .f32) (main_arg12 : FVec F S2x2x128 .f32) (main_arg13 : FVec F S2x2x128 .f32) (main_arg14 : FVec F S4x128x128 .f32) (main_arg15 : FVec F S4x12x128x128 .f32) (main_arg16 : FVec F S4x128x128 .f32) (main_arg17 : FVec F S4x128x128 .f32) (main_arg18 : FVec F S4x2x128 .f32) (main_arg19 : FVec F S4x128x128 .f32) (main_arg20 : FVec F S4x2x128 .f32) (main_v33 : IVec S_ 1) : IVec S_ 1 :=
  let main_v34 : FVec F S2x2x128 .f32 := Host.absf main_arg7
  let main_cst_12 : FVec F S_ .f32 := constant S_ .f32 0x7F800000#32
  let main_v35 : FVec F S2x2x128 .f32 := broadcastInDim S2x2x128 ![] bcast_S_S2x2x128 main_cst_12
  let main_v36 : IVec S2x2x128 1 := cmpf .olt main_v34 main_v35
  let main_c_13 : IVec S_ 1 := constantI S_ 1 1#1
  let main_v37 : IVec S_ 1 := (fun x v => Host.reduce IntOp.andi x v reducesTo_S2x2x128_S_d0_1_2 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128x128 .f32 := Host.absf main_arg9
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x2x128 .f32 := Host.absf main_arg10
  let main_cst_18 : FVec F S_ .f32 := constant S_ .f32 0x7F800000#32
  let main_v50 : FVec F S2x2x128 .f32 := broadcastInDim S2x2x128 ![] bcast_S_S2x2x128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S2x128x4 .f32) (main_arg5 : FVec F S2x128 .f32) (main_arg6 : FVec F S2x128x256 .f32) (main_arg7 : FVec F S2x2x128 .f32) (main_arg8 : FVec F S2x128x128 .f32) (main_arg9 : FVec F S2x128x128 .f32) (main_arg10 : FVec F S2x2x128 .f32) (main_arg11 : FVec F S2x128x128 .f32) (main_arg12 : FVec F S2x2x128 .f32) (main_arg13 : FVec F S2x2x128 .f32) (main_arg14 : FVec F S4x128x128 .f32) (main_arg15 : FVec F S4x12x128x128 .f32) (main_arg16 : FVec F S4x128x128 .f32) (main_arg17 : FVec F S4x128x128 .f32) (main_arg18 : FVec F S4x2x128 .f32) (main_arg19 : FVec F S4x128x128 .f32) (main_arg20 : FVec F S4x2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x4 .f32 := Host.absf main_arg4
  let main_cst_6 : FVec F S_ .f32 := constant S_ .f32 0x7F800000#32
  let main_v20 : FVec F S2x128x4 .f32 := broadcastInDim S2x128x4 ![] bcast_S_S2x128x4 main_cst_6
  let main_v21 : IVec S2x128x4 1 := cmpf .olt main_v19 main_v20
  let main_c_7 : IVec S_ 1 := constantI S_ 1 1#1
  let main_v22 : IVec S_ 1 := (fun x v => Host.reduce IntOp.andi x v reducesTo_S2x128x4_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x256 .f32 := Host.absf main_arg6
  let main_cst_10 : FVec F S_ .f32 := constant S_ .f32 0x7F800000#32
  let main_v30 : FVec F S2x128x256 .f32 := broadcastInDim S2x128x256 ![] bcast_S_S2x128x256 main_cst_10
  let main_v31 : IVec S2x128x256 1 := cmpf .olt main_v29 main_v30
  let main_c_11 : IVec S_ 1 := constantI S_ 1 1#1
  let main_v32 : IVec S_ 1 := (fun x v => Host.reduce IntOp.andi x v reducesTo_S2x128x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S12000x128 .f32) (main_arg1 : FVec F S50000x4 .f32) (main_arg2 : FVec F S12000x4 .f32) (main_arg3 : FVec F S2x128x128 .f32) (main_arg4 : FVec F S2x128x4 .f32) (main_arg5 : FVec F S2x128 .f32) (main_arg6 : FVec F S2x128x256 .f32) (main_arg7 : FVec F S2x2x128 .f32) (main_arg8 : FVec F S2x128x128 .f32) (main_arg9 : FVec F S2x128x128 .f32) (main_arg10 : FVec F S2x2x128 .f32) (main_arg11 : FVec F S2x128x128 .f32) (main_arg12 : FVec F S2x2x128 .f32) (main_arg13 : FVec F S2x2x128 .f32) (main_arg14 : FVec F S4x128x128 .f32) (main_arg15 : FVec F S4x12x128x128 .f32) (main_arg16 : FVec F S4x128x128 .f32) (main_arg17 : FVec F S4x128x128 .f32) (main_arg18 : FVec F S4x2x128 .f32) (main_arg19 : FVec F S4x128x128 .f32) (main_arg20 : FVec F S4x2x128 .f32) (main_arg21 : IVec S150000 32) (main_arg22 : IVec S150000 32) (main_arg23 : IVec S150000 32) (main_arg24 : IVec S150000 32) (main_arg25 : IVec S12x50000 32) (main_arg26 : IVec S12x50000 32) (main_arg27 : IVec S2x5000 32) (main_arg28 : IVec S2x5000 32) : IVec S_ 1 :=
  let main_v0 : FVec F S12000x128 .f32 := Host.absf main_arg0
  let main_cst : FVec F S_ .f32 := constant S_ .f32 0x7F800000#32
  let main_v1 : FVec F S12000x128 .f32 := broadcastInDim S12000x128 ![] bcast_S_S12000x128 main_cst
  let main_v2 : IVec S12000x128 1 := cmpf .olt main_v0 main_v1
  let main_c : IVec S_ 1 := constantI S_ 1 1#1
  let main_v3 : IVec S_ 1 := (fun x v => Host.reduce IntOp.andi x v reducesTo_S12000x128_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S12000x4 .f32 := Host.absf main_arg2
  let main_cst_2 : FVec F S_ .f32 := constant S_ .f32 0x7F800000#32
  let main_v10 : FVec F S12000x4 .f32 := broadcastInDim S12000x4 ![] bcast_S_S12000x4 main_cst_2
  let main_v11 : IVec S12000x4 1 := cmpf .olt main_v9 main_v10
  let main_c_3 : IVec S_ 1 := constantI S_ 1 1#1
  let main_v12 : IVec S_ 1 := (fun x v => Host.reduce IntOp.andi x v reducesTo_S12000x4_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S12000x128 : Shape := ⟨2, ![12000, 128]⟩
abbrev S50000x4 : Shape := ⟨2, ![50000, 4]⟩
abbrev S12000x4 : Shape := ⟨2, ![12000, 4]⟩
abbrev S2x128x128 : Shape := ⟨3, ![2, 128, 128]⟩
abbrev S2x128x4 : Shape := ⟨3, ![2, 128, 4]⟩
abbrev S2x128 : Shape := ⟨2, ![2, 128]⟩
abbrev S2x128x256 : Shape := ⟨3, ![2, 128, 256]⟩
abbrev S2x2x128 : Shape := ⟨3, ![2, 2, 128]⟩
abbrev S4x128x128 : Shape := ⟨3, ![4, 128, 128]⟩
abbrev S4x12x128x128 : Shape := ⟨4, ![4, 12, 128, 128]⟩
abbrev S4x2x128 : Shape := ⟨3, ![4, 2, 128]⟩
abbrev S150000 : Shape := ⟨1, ![150000]⟩
abbrev S12x50000 : Shape := ⟨2, ![12, 50000]⟩
abbrev S2x5000 : Shape := ⟨2, ![2, 5000]⟩
abbrev S1x128x128 : Shape := ⟨3, ![1, 128, 128]⟩
abbrev S128x128 : Shape := ⟨2, ![128, 128]⟩
abbrev S1x128x4 : Shape := ⟨3, ![1, 128, 4]⟩
abbrev S128x4 : Shape := ⟨2, ![128, 4]⟩
abbrev S1x128 : Shape := ⟨2, ![1, 128]⟩
abbrev S128 : Shape := ⟨1, ![128]⟩
abbrev S1x128x256 : Shape := ⟨3, ![1, 128, 256]⟩
abbrev S128x256 : Shape := ⟨2, ![128, 256]⟩
abbrev S1x2x128 : Shape := ⟨3, ![1, 2, 128]⟩
abbrev S_ : Shape := ⟨0, ![]⟩
abbrev S150000x1 : Shape := ⟨2, ![150000, 1]⟩
abbrev S150000x4 : Shape := ⟨2, ![150000, 4]⟩
abbrev S150000x128 : Shape := ⟨2, ![150000, 128]⟩
abbrev S5000x4 : Shape := ⟨2, ![5000, 4]⟩
abbrev S5000x128 : Shape := ⟨2, ![5000, 128]⟩
abbrev S4x128 : Shape := ⟨2, ![4, 128]⟩
abbrev S5000 : Shape := ⟨1, ![5000]⟩
abbrev S5000x1 : Shape := ⟨2, ![5000, 1]⟩
abbrev S50000x128 : Shape := ⟨2, ![50000, 128]⟩
abbrev S12x50000x1 : Shape := ⟨3, ![12, 50000, 1]⟩
abbrev S12x50000x128 : Shape := ⟨3, ![12, 50000, 128]⟩
abbrev S1x12x128x128 : Shape := ⟨4, ![1, 12, 128, 128]⟩
abbrev S12x128x128 : Shape := ⟨3, ![12, 128, 128]⟩
abbrev S1x5000x128 : Shape := ⟨3, ![1, 5000, 128]⟩
abbrev S600000 : Shape := ⟨1, ![600000]⟩
abbrev S600000x128 : Shape := ⟨2, ![600000, 128]⟩
abbrev S600000x1 : Shape := ⟨2, ![600000, 1]⟩
abbrev S2x5000x1 : Shape := ⟨3, ![2, 5000, 1]⟩
abbrev S2x5000x128 : Shape := ⟨3, ![2, 5000, 128]⟩
abbrev S10000 : Shape := ⟨1, ![10000]⟩
abbrev S10000x128 : Shape := ⟨2, ![10000, 128]⟩
abbrev S10000x1 : Shape := ⟨2, ![10000, 1]⟩
abbrev S1x1x128 : Shape := ⟨3, ![1, 1, 128]⟩
abbrev S3000x128 : Shape := ⟨2, ![3000, 128]⟩
abbrev S3000 : Shape := ⟨1, ![3000]⟩
abbrev S3000x1 : Shape := ⟨2, ![3000, 1]⟩

abbrev nBuf : Space → Nat
  | .hbm => 502
  | .vmem => 183
  | .smem => 0
  | _ => 0

abbrev hbmTy0_0 (i : Nat) : BufTy := match i % 128 with
  | 0 => ⟨S12000x128, .f32⟩
  | 1 => ⟨S50000x4, .f32⟩
  | 2 => ⟨S12000x4, .f32⟩
  | 3 => ⟨S2x128x128, .f32⟩
  | 4 => ⟨S2x128x4, .f32⟩
  | 5 => ⟨S2x128, .f32⟩
  | 6 => ⟨S2x128x256, .f32⟩
  | 7 => ⟨S2x2x128, .f32⟩
  | 8 => ⟨S2x128x128, .f32⟩
  | 9 => ⟨S2x128x128, .f32⟩
  | 10 => ⟨S2x2x128, .f32⟩
  | 11 => ⟨S2x128x128, .f32⟩
  | 12 => ⟨S2x2x128, .f32⟩
  | 13 => ⟨S2x2x128, .f32⟩
  | 14 => ⟨S4x128x128, .f32⟩
  | 15 => ⟨S4x12x128x128, .f32⟩
  | 16 => ⟨S4x128x128, .f32⟩
  | 17 => ⟨S4x128x128, .f32⟩
  | 18 => ⟨S4x2x128, .f32⟩
  | 19 => ⟨S4x128x128, .f32⟩
  | 20 => ⟨S4x2x128, .f32⟩
  | 21 => ⟨S150000, .i32⟩
  | 22 => ⟨S150000, .i32⟩
  | 23 => ⟨S150000, .i32⟩
  | 24 => ⟨S150000, .i32⟩
  | 25 => ⟨S12x50000, .i32⟩
  | 26 => ⟨S12x50000, .i32⟩
  | 27 => ⟨S2x5000, .i32⟩
  | 28 => ⟨S2x5000, .i32⟩
  | 29 => ⟨S1x128x128, .f32⟩
  | 30 => ⟨S128x128, .f32⟩
  | 31 => ⟨S1x128x4, .f32⟩
  | 32 => ⟨S128x4, .f32⟩
  | 33 => ⟨S1x128, .f32⟩
  | 34 => ⟨S128, .f32⟩
  | 35 => ⟨S1x128x256, .f32⟩
  | 36 => ⟨S128x256, .f32⟩
  | 37 => ⟨S1x2x128, .f32⟩
  | 38 => ⟨S2x128, .f32⟩
  | 39 => ⟨S1x128x128, .f32⟩
  | 40 => ⟨S128x128, .f32⟩
  | 41 => ⟨S1x128x128, .f32⟩
  | 42 => ⟨S128x128, .f32⟩
  | 43 => ⟨S1x2x128, .f32⟩
  | 44 => ⟨S2x128, .f32⟩
  | 45 => ⟨S1x128x128, .f32⟩
  | 46 => ⟨S128x128, .f32⟩
  | 47 => ⟨S1x2x128, .f32⟩
  | 48 => ⟨S2x128, .f32⟩
  | 49 => ⟨S1x2x128, .f32⟩
  | 50 => ⟨S2x128, .f32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x4, .f32⟩
  | 60 => ⟨S_, .i32⟩
  | 61 => ⟨S150000, .i32⟩
  | 62 => ⟨S150000, .i1⟩
  | 63 => ⟨S_, .i32⟩
  | 64 => ⟨S150000, .i32⟩
  | 65 => ⟨S150000, .i32⟩
  | 66 => ⟨S150000, .i32⟩
  | 67 => ⟨S150000x1, .i32⟩
  | 68 => ⟨S150000x4, .f32⟩
  | 69 => ⟨S150000x4, .f32⟩
  | 70 => ⟨S12000x128, .bf16⟩
  | 71 => ⟨S_, .i32⟩
  | 72 => ⟨S150000, .i32⟩
  | 73 => ⟨S150000, .i1⟩
  | 74 => ⟨S_, .i32⟩
  | 75 => ⟨S150000, .i32⟩
  | 76 => ⟨S150000, .i32⟩
  | 77 => ⟨S150000, .i32⟩
  | 78 => ⟨S150000x1, .i32⟩
  | 79 => ⟨S150000x128, .bf16⟩
  | 80 => ⟨S128x128, .f32⟩
  | 81 => ⟨S128x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S1x128, .f32⟩
  | 88 => ⟨S1x128, .f32⟩
  | 89 => ⟨S150000x128, .bf16⟩
  | 90 => ⟨S_, .f32⟩
  | 91 => ⟨S50000x128, .f32⟩
  | 92 => ⟨S150000x128, .f32⟩
  | 93 => ⟨S_, .i32⟩
  | 94 => ⟨S150000, .i32⟩
  | 95 => ⟨S150000, .i1⟩
  | 96 => ⟨S_, .i32⟩
  | 97 => ⟨S150000, .i32⟩
  | 98 => ⟨S150000, .i32⟩
  | 99 => ⟨S150000, .i32⟩
  | 100 => ⟨S150000x1, .i32⟩
  | 101 => ⟨S50000x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S50000x128, .f32⟩
  | 121 => ⟨S50000x128, .bf16⟩
  | 122 => ⟨S1x128x128, .f32⟩
  | 123 => ⟨S128x128, .f32⟩
  | 124 => ⟨S50000x128, .f32⟩
  | 125 => ⟨S_, .i32⟩
  | 126 => ⟨S12x50000, .i32⟩
  | 127 => ⟨S12x50000, .i1⟩
  | _ => ⟨S12000x128, .f32⟩

abbrev hbmTy0_1 (i : Nat) : BufTy := match i % 128 with
  | 0 => ⟨S_, .i32⟩
  | 1 => ⟨S12x50000, .i32⟩
  | 2 => ⟨S12x50000, .i32⟩
  | 3 => ⟨S12x50000, .i32⟩
  | 4 => ⟨S12x50000x1, .i32⟩
  | 5 => ⟨S12x50000x128, .bf16⟩
  | 6 => ⟨S1x12x128x128, .f32⟩
  | 7 => ⟨S12x128x128, .f32⟩
  | 8 => ⟨S12x50000x128, .bf16⟩
  | 9 => ⟨S600000, .i32⟩
  | 10 => ⟨S600000x128, .bf16⟩
  | 11 => ⟨S600000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S50000x128, .f32⟩
  | 21 => ⟨S1x128x128, .f32⟩
  | 22 => ⟨S128x128, .f32⟩
  | 23 => ⟨S1x128x128, .f32⟩
  | 24 => ⟨S128x128, .f32⟩
  | 25 => ⟨S1x128x128, .f32⟩
  | 26 => ⟨S1x128x128, .f32⟩
  | 27 => ⟨S2x128x128, .f32⟩
  | 28 => ⟨S_, .i32⟩
  | 29 => ⟨S2x5000, .i32⟩
  | 30 => ⟨S2x5000, .i1⟩
  | 31 => ⟨S_, .i32⟩
  | 32 => ⟨S2x5000, .i32⟩
  | 33 => ⟨S2x5000, .i32⟩
  | 34 => ⟨S2x5000, .i32⟩
  | 35 => ⟨S2x5000x1, .i32⟩
  | 36 => ⟨S2x5000x128, .bf16⟩
  | 37 => ⟨S2x5000x128, .bf16⟩
  | 38 => ⟨S10000, .i32⟩
  | 39 => ⟨S10000x128, .bf16⟩
  | 40 => ⟨S10000x128, .f32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S10000x1, .i32⟩
  | 49 => ⟨S50000x128, .f32⟩
  | 50 => ⟨S1x1x128, .f32⟩
  | 51 => ⟨S128, .f32⟩
  | 52 => ⟨S1x1x128, .f32⟩
  | 53 => ⟨S128, .f32⟩
  | 54 => ⟨S1x128x128, .f32⟩
  | 55 => ⟨S128x128, .f32⟩
  | 56 => ⟨S1x1x128, .f32⟩
  | 57 => ⟨S128, .f32⟩
  | 58 => ⟨S1x1x128, .f32⟩
  | 59 => ⟨S128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S50000x128, .bf16⟩
  | 66 => ⟨S1x128x128, .f32⟩
  | 67 => ⟨S128x128, .f32⟩
  | 68 => ⟨S50000x128, .f32⟩
  | 69 => ⟨S_, .i32⟩
  | 70 => ⟨S12x50000, .i32⟩
  | 71 => ⟨S12x50000, .i1⟩
  | 72 => ⟨S_, .i32⟩
  | 73 => ⟨S12x50000, .i32⟩
  | 74 => ⟨S12x50000, .i32⟩
  | 75 => ⟨S12x50000, .i32⟩
  | 76 => ⟨S12x50000x1, .i32⟩
  | 77 => ⟨S12x50000x128, .bf16⟩
  | 78 => ⟨S1x12x128x128, .f32⟩
  | 79 => ⟨S12x128x128, .f32⟩
  | 80 => ⟨S12x50000x128, .bf16⟩
  | 81 => ⟨S600000, .i32⟩
  | 82 => ⟨S600000x128, .bf16⟩
  | 83 => ⟨S600000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S50000x128, .f32⟩
  | 93 => ⟨S1x128x128, .f32⟩
  | 94 => ⟨S128x128, .f32⟩
  | 95 => ⟨S1x128x128, .f32⟩
  | 96 => ⟨S128x128, .f32⟩
  | 97 => ⟨S1x128x128, .f32⟩
  | 98 => ⟨S1x128x128, .f32⟩
  | 99 => ⟨S2x128x128, .f32⟩
  | 100 => ⟨S_, .i32⟩
  | 101 => ⟨S2x5000, .i32⟩
  | 102 => ⟨S2x5000, .i1⟩
  | 103 => ⟨S_, .i32⟩
  | 104 => ⟨S2x5000, .i32⟩
  | 105 => ⟨S2x5000, .i32⟩
  | 106 => ⟨S2x5000, .i32⟩
  | 107 => ⟨S2x5000x1, .i32⟩
  | 108 => ⟨S2x5000x128, .bf16⟩
  | 109 => ⟨S2x5000x128, .bf16⟩
  | 110 => ⟨S10000, .i32⟩
  | 111 => ⟨S10000x128, .bf16⟩
  | 112 => ⟨S10000x128, .f32⟩
  | 113 => ⟨S_, .i32⟩
  | 114 => ⟨S10000, .i32⟩
  | 115 => ⟨S10000, .i1⟩
  | 116 => ⟨S_, .i32⟩
  | 117 => ⟨S10000, .i32⟩
  | 118 => ⟨S10000, .i32⟩
  | 119 => ⟨S10000, .i32⟩
  | 120 => ⟨S10000x1, .i32⟩
  | 121 => ⟨S50000x128, .f32⟩
  | 122 => ⟨S1x1x128, .f32⟩
  | 123 => ⟨S128, .f32⟩
  | 124 => ⟨S1x1x128, .f32⟩
  | 125 => ⟨S128, .f32⟩
  | 126 => ⟨S1x128x128, .f32⟩
  | 127 => ⟨S128x128, .f32⟩
  | _ => ⟨S12000x128, .f32⟩

abbrev hbmTy0_2 (i : Nat) : BufTy := match i % 128 with
  | 0 => ⟨S1x1x128, .f32⟩
  | 1 => ⟨S128, .f32⟩
  | 2 => ⟨S1x1x128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S50000x128, .bf16⟩
  | 10 => ⟨S1x128x128, .f32⟩
  | 11 => ⟨S128x128, .f32⟩
  | 12 => ⟨S50000x128, .f32⟩
  | 13 => ⟨S_, .i32⟩
  | 14 => ⟨S12x50000, .i32⟩
  | 15 => ⟨S12x50000, .i1⟩
  | 16 => ⟨S_, .i32⟩
  | 17 => ⟨S12x50000, .i32⟩
  | 18 => ⟨S12x50000, .i32⟩
  | 19 => ⟨S12x50000, .i32⟩
  | 20 => ⟨S12x50000x1, .i32⟩
  | 21 => ⟨S12x50000x128, .bf16⟩
  | 22 => ⟨S1x12x128x128, .f32⟩
  | 23 => ⟨S12x128x128, .f32⟩
  | 24 => ⟨S12x50000x128, .bf16⟩
  | 25 => ⟨S600000, .i32⟩
  | 26 => ⟨S600000x128, .bf16⟩
  | 27 => ⟨S600000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S50000x128, .f32⟩
  | 37 => ⟨S1x128x128, .f32⟩
  | 38 => ⟨S128x128, .f32⟩
  | 39 => ⟨S1x128x128, .f32⟩
  | 40 => ⟨S128x128, .f32⟩
  | 41 => ⟨S1x128x128, .f32⟩
  | 42 => ⟨S1x128x128, .f32⟩
  | 43 => ⟨S2x128x128, .f32⟩
  | 44 => ⟨S_, .i32⟩
  | 45 => ⟨S2x5000, .i32⟩
  | 46 => ⟨S2x5000, .i1⟩
  | 47 => ⟨S_, .i32⟩
  | 48 => ⟨S2x5000, .i32⟩
  | 49 => ⟨S2x5000, .i32⟩
  | 50 => ⟨S2x5000, .i32⟩
  | 51 => ⟨S2x5000x1, .i32⟩
  | 52 => ⟨S2x5000x128, .bf16⟩
  | 53 => ⟨S2x5000x128, .bf16⟩
  | 54 => ⟨S10000, .i32⟩
  | 55 => ⟨S10000x128, .bf16⟩
  | 56 => ⟨S10000x128, .f32⟩
  | 57 => ⟨S_, .i32⟩
  | 58 => ⟨S10000, .i32⟩
  | 59 => ⟨S10000, .i1⟩
  | 60 => ⟨S_, .i32⟩
  | 61 => ⟨S10000, .i32⟩
  | 62 => ⟨S10000, .i32⟩
  | 63 => ⟨S10000, .i32⟩
  | 64 => ⟨S10000x1, .i32⟩
  | 65 => ⟨S50000x128, .f32⟩
  | 66 => ⟨S1x1x128, .f32⟩
  | 67 => ⟨S128, .f32⟩
  | 68 => ⟨S1x1x128, .f32⟩
  | 69 => ⟨S128, .f32⟩
  | 70 => ⟨S1x128x128, .f32⟩
  | 71 => ⟨S128x128, .f32⟩
  | 72 => ⟨S1x1x128, .f32⟩
  | 73 => ⟨S128, .f32⟩
  | 74 => ⟨S1x1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S50000x128, .bf16⟩
  | 82 => ⟨S1x128x128, .f32⟩
  | 83 => ⟨S128x128, .f32⟩
  | 84 => ⟨S50000x128, .f32⟩
  | 85 => ⟨S_, .i32⟩
  | 86 => ⟨S12x50000, .i32⟩
  | 87 => ⟨S12x50000, .i1⟩
  | 88 => ⟨S_, .i32⟩
  | 89 => ⟨S12x50000, .i32⟩
  | 90 => ⟨S12x50000, .i32⟩
  | 91 => ⟨S12x50000, .i32⟩
  | 92 => ⟨S12x50000x1, .i32⟩
  | 93 => ⟨S12x50000x128, .bf16⟩
  | 94 => ⟨S1x12x128x128, .f32⟩
  | 95 => ⟨S12x128x128, .f32⟩
  | 96 => ⟨S12x50000x128, .bf16⟩
  | 97 => ⟨S600000, .i32⟩
  | 98 => ⟨S600000x128, .bf16⟩
  | 99 => ⟨S600000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S50000x128, .f32⟩
  | 109 => ⟨S1x128x128, .f32⟩
  | 110 => ⟨S128x128, .f32⟩
  | 111 => ⟨S1x128x128, .f32⟩
  | 112 => ⟨S128x128, .f32⟩
  | 113 => ⟨S1x128x128, .f32⟩
  | 114 => ⟨S1x128x128, .f32⟩
  | 115 => ⟨S2x128x128, .f32⟩
  | 116 => ⟨S_, .i32⟩
  | 117 => ⟨S2x5000, .i32⟩
  | 118 => ⟨S2x5000, .i1⟩
  | 119 => ⟨S_, .i32⟩
  | 120 => ⟨S2x5000, .i32⟩
  | 121 => ⟨S2x5000, .i32⟩
  | 122 => ⟨S2x5000, .i32⟩
  | 123 => ⟨S2x5000x1, .i32⟩
  | 124 => ⟨S2x5000x128, .bf16⟩
  | 125 => ⟨S2x5000x128, .bf16⟩
  | 126 => ⟨S10000, .i32⟩
  | 127 => ⟨S10000x128, .bf16⟩
  | _ => ⟨S12000x128, .f32⟩

abbrev hbmTy0_3 (i : Nat) : BufTy := match i % 128 with
  | 0 => ⟨S10000x128, .f32⟩
  | 1 => ⟨S_, .i32⟩
  | 2 => ⟨S10000, .i32⟩
  | 3 => ⟨S10000, .i1⟩
  | 4 => ⟨S_, .i32⟩
  | 5 => ⟨S10000, .i32⟩
  | 6 => ⟨S10000, .i32⟩
  | 7 => ⟨S10000, .i32⟩
  | 8 => ⟨S10000x1, .i32⟩
  | 9 => ⟨S50000x128, .f32⟩
  | 10 => ⟨S1x1x128, .f32⟩
  | 11 => ⟨S128, .f32⟩
  | 12 => ⟨S1x1x128, .f32⟩
  | 13 => ⟨S128, .f32⟩
  | 14 => ⟨S1x128x128, .f32⟩
  | 15 => ⟨S128x128, .f32⟩
  | 16 => ⟨S1x1x128, .f32⟩
  | 17 => ⟨S128, .f32⟩
  | 18 => ⟨S1x1x128, .f32⟩
  | 19 => ⟨S128, .f32⟩
  | 20 => ⟨S1x128, .f32⟩
  | 21 => ⟨S1x128, .f32⟩
  | 22 => ⟨S1x128, .f32⟩
  | 23 => ⟨S1x128, .f32⟩
  | 24 => ⟨S50000x128, .f32⟩
  | 25 => ⟨S50000x128, .bf16⟩
  | 26 => ⟨S1x128x128, .f32⟩
  | 27 => ⟨S128x128, .f32⟩
  | 28 => ⟨S1x128x4, .f32⟩
  | 29 => ⟨S128x4, .f32⟩
  | 30 => ⟨S1x128, .f32⟩
  | 31 => ⟨S128, .f32⟩
  | 32 => ⟨S1x128x256, .f32⟩
  | 33 => ⟨S128x256, .f32⟩
  | 34 => ⟨S1x2x128, .f32⟩
  | 35 => ⟨S2x128, .f32⟩
  | 36 => ⟨S1x128x128, .f32⟩
  | 37 => ⟨S128x128, .f32⟩
  | 38 => ⟨S1x128x128, .f32⟩
  | 39 => ⟨S128x128, .f32⟩
  | 40 => ⟨S1x2x128, .f32⟩
  | 41 => ⟨S2x128, .f32⟩
  | 42 => ⟨S1x128x128, .f32⟩
  | 43 => ⟨S128x128, .f32⟩
  | 44 => ⟨S1x2x128, .f32⟩
  | 45 => ⟨S2x128, .f32⟩
  | 46 => ⟨S1x2x128, .f32⟩
  | 47 => ⟨S2x128, .f32⟩
  | 48 => ⟨S_, .i32⟩
  | 49 => ⟨S150000, .i32⟩
  | 50 => ⟨S150000, .i1⟩
  | 51 => ⟨S_, .i32⟩
  | 52 => ⟨S150000, .i32⟩
  | 53 => ⟨S150000, .i32⟩
  | 54 => ⟨S150000, .i32⟩
  | 55 => ⟨S150000x1, .i32⟩
  | 56 => ⟨S150000x4, .f32⟩
  | 57 => ⟨S_, .i32⟩
  | 58 => ⟨S150000, .i32⟩
  | 59 => ⟨S150000, .i1⟩
  | 60 => ⟨S_, .i32⟩
  | 61 => ⟨S150000, .i32⟩
  | 62 => ⟨S150000, .i32⟩
  | 63 => ⟨S150000, .i32⟩
  | 64 => ⟨S150000x1, .i32⟩
  | 65 => ⟨S150000x4, .f32⟩
  | 66 => ⟨S150000x4, .f32⟩
  | 67 => ⟨S_, .i32⟩
  | 68 => ⟨S150000, .i32⟩
  | 69 => ⟨S150000, .i1⟩
  | 70 => ⟨S_, .i32⟩
  | 71 => ⟨S150000, .i32⟩
  | 72 => ⟨S150000, .i32⟩
  | 73 => ⟨S150000, .i32⟩
  | 74 => ⟨S150000x1, .i32⟩
  | 75 => ⟨S150000x128, .bf16⟩
  | 76 => ⟨S128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S1x128, .f32⟩
  | 84 => ⟨S1x128, .f32⟩
  | 85 => ⟨S150000x128, .bf16⟩
  | 86 => ⟨S12000x128, .bf16⟩
  | 87 => ⟨S12000x128, .f32⟩
  | 88 => ⟨S150000x128, .f32⟩
  | 89 => ⟨S_, .i32⟩
  | 90 => ⟨S150000, .i32⟩
  | 91 => ⟨S150000, .i1⟩
  | 92 => ⟨S_, .i32⟩
  | 93 => ⟨S150000, .i32⟩
  | 94 => ⟨S150000, .i32⟩
  | 95 => ⟨S150000, .i32⟩
  | 96 => ⟨S150000x1, .i32⟩
  | 97 => ⟨S12000x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S12000x128, .f32⟩
  | 117 => ⟨S12000x128, .bf16⟩
  | _ => ⟨S12000x128, .f32⟩

abbrev hbmTy (i : Nat) : BufTy := match i / 128 with
  | 0 => hbmTy0_0 i
  | 1 => hbmTy0_1 i
  | 2 => hbmTy0_2 i
  | 3 => hbmTy0_3 i
  | _ => ⟨S12000x128, .f32⟩

abbrev vmemTy0_0 (i : Nat) : BufTy := match i % 128 with
  | 0 => ⟨S5000x4, .f32⟩
  | 1 => ⟨S5000x4, .f32⟩
  | 2 => ⟨S5000x128, .bf16⟩
  | 3 => ⟨S5000x128, .bf16⟩
  | 4 => ⟨S128x4, .f32⟩
  | 5 => ⟨S1x128, .f32⟩
  | 6 => ⟨S128x128, .f32⟩
  | 7 => ⟨S128x128, .f32⟩
  | 8 => ⟨S1x128, .f32⟩
  | 9 => ⟨S1x128, .f32⟩
  | 10 => ⟨S128x128, .f32⟩
  | 11 => ⟨S5000x128, .bf16⟩
  | 12 => ⟨S5000x128, .bf16⟩
  | 13 => ⟨S5000x128, .f32⟩
  | 14 => ⟨S5000x128, .f32⟩
  | 15 => ⟨S5000x128, .f32⟩
  | 16 => ⟨S5000x128, .f32⟩
  | 17 => ⟨S1x128, .f32⟩
  | 18 => ⟨S1x128, .f32⟩
  | 19 => ⟨S128x128, .f32⟩
  | 20 => ⟨S1x128, .f32⟩
  | 21 => ⟨S1x128, .f32⟩
  | 22 => ⟨S128x128, .f32⟩
  | 23 => ⟨S1x128, .f32⟩
  | 24 => ⟨S1x128, .f32⟩
  | 25 => ⟨S5000x128, .f32⟩
  | 26 => ⟨S5000x128, .f32⟩
  | 27 => ⟨S5000x128, .bf16⟩
  | 28 => ⟨S5000x128, .bf16⟩
  | 29 => ⟨S5000x128, .bf16⟩
  | 30 => ⟨S5000x128, .bf16⟩
  | 31 => ⟨S128x128, .f32⟩
  | 32 => ⟨S5000x128, .f32⟩
  | 33 => ⟨S5000x128, .f32⟩
  | 34 => ⟨S1x5000x128, .bf16⟩
  | 35 => ⟨S1x5000x128, .bf16⟩
  | 36 => ⟨S1x128x128, .f32⟩
  | 37 => ⟨S1x128x128, .f32⟩
  | 38 => ⟨S1x5000x128, .bf16⟩
  | 39 => ⟨S1x5000x128, .bf16⟩
  | 40 => ⟨S1x5000x128, .bf16⟩
  | 41 => ⟨S1x5000x128, .bf16⟩
  | 42 => ⟨S1x128x128, .f32⟩
  | 43 => ⟨S1x128x128, .f32⟩
  | 44 => ⟨S1x5000x128, .bf16⟩
  | 45 => ⟨S1x5000x128, .bf16⟩
  | 46 => ⟨S5000x128, .f32⟩
  | 47 => ⟨S5000x128, .f32⟩
  | 48 => ⟨S5000x128, .f32⟩
  | 49 => ⟨S5000x128, .f32⟩
  | 50 => ⟨S1x128, .f32⟩
  | 51 => ⟨S1x128, .f32⟩
  | 52 => ⟨S128x128, .f32⟩
  | 53 => ⟨S1x128, .f32⟩
  | 54 => ⟨S1x128, .f32⟩
  | 55 => ⟨S5000x128, .f32⟩
  | 56 => ⟨S5000x128, .f32⟩
  | 57 => ⟨S5000x128, .bf16⟩
  | 58 => ⟨S5000x128, .bf16⟩
  | 59 => ⟨S5000x128, .bf16⟩
  | 60 => ⟨S5000x128, .bf16⟩
  | 61 => ⟨S128x128, .f32⟩
  | 62 => ⟨S5000x128, .f32⟩
  | 63 => ⟨S5000x128, .f32⟩
  | 64 => ⟨S1x5000x128, .bf16⟩
  | 65 => ⟨S1x5000x128, .bf16⟩
  | 66 => ⟨S1x128x128, .f32⟩
  | 67 => ⟨S1x128x128, .f32⟩
  | 68 => ⟨S1x5000x128, .bf16⟩
  | 69 => ⟨S1x5000x128, .bf16⟩
  | 70 => ⟨S1x5000x128, .bf16⟩
  | 71 => ⟨S1x5000x128, .bf16⟩
  | 72 => ⟨S1x128x128, .f32⟩
  | 73 => ⟨S1x128x128, .f32⟩
  | 74 => ⟨S1x5000x128, .bf16⟩
  | 75 => ⟨S1x5000x128, .bf16⟩
  | 76 => ⟨S5000x128, .f32⟩
  | 77 => ⟨S5000x128, .f32⟩
  | 78 => ⟨S5000x128, .f32⟩
  | 79 => ⟨S5000x128, .f32⟩
  | 80 => ⟨S1x128, .f32⟩
  | 81 => ⟨S1x128, .f32⟩
  | 82 => ⟨S128x128, .f32⟩
  | 83 => ⟨S1x128, .f32⟩
  | 84 => ⟨S1x128, .f32⟩
  | 85 => ⟨S5000x128, .f32⟩
  | 86 => ⟨S5000x128, .f32⟩
  | 87 => ⟨S5000x128, .bf16⟩
  | 88 => ⟨S5000x128, .bf16⟩
  | 89 => ⟨S5000x128, .bf16⟩
  | 90 => ⟨S5000x128, .bf16⟩
  | 91 => ⟨S128x128, .f32⟩
  | 92 => ⟨S5000x128, .f32⟩
  | 93 => ⟨S5000x128, .f32⟩
  | 94 => ⟨S1x5000x128, .bf16⟩
  | 95 => ⟨S1x5000x128, .bf16⟩
  | 96 => ⟨S1x128x128, .f32⟩
  | 97 => ⟨S1x128x128, .f32⟩
  | 98 => ⟨S1x5000x128, .bf16⟩
  | 99 => ⟨S1x5000x128, .bf16⟩
  | 100 => ⟨S1x5000x128, .bf16⟩
  | 101 => ⟨S1x5000x128, .bf16⟩
  | 102 => ⟨S1x128x128, .f32⟩
  | 103 => ⟨S1x128x128, .f32⟩
  | 104 => ⟨S1x5000x128, .bf16⟩
  | 105 => ⟨S1x5000x128, .bf16⟩
  | 106 => ⟨S5000x128, .f32⟩
  | 107 => ⟨S5000x128, .f32⟩
  | 108 => ⟨S5000x128, .f32⟩
  | 109 => ⟨S5000x128, .f32⟩
  | 110 => ⟨S1x128, .f32⟩
  | 111 => ⟨S1x128, .f32⟩
  | 112 => ⟨S128x128, .f32⟩
  | 113 => ⟨S1x128, .f32⟩
  | 114 => ⟨S1x128, .f32⟩
  | 115 => ⟨S5000x128, .f32⟩
  | 116 => ⟨S5000x128, .f32⟩
  | 117 => ⟨S5000x128, .bf16⟩
  | 118 => ⟨S5000x128, .bf16⟩
  | 119 => ⟨S5000x128, .bf16⟩
  | 120 => ⟨S5000x128, .bf16⟩
  | 121 => ⟨S128x128, .f32⟩
  | 122 => ⟨S5000x128, .f32⟩
  | 123 => ⟨S5000x128, .f32⟩
  | 124 => ⟨S1x5000x128, .bf16⟩
  | 125 => ⟨S1x5000x128, .bf16⟩
  | 126 => ⟨S1x128x128, .f32⟩
  | 127 => ⟨S1x128x128, .f32⟩
  | _ => ⟨S12000x128, .f32⟩

abbrev vmemTy0_1 (i : Nat) : BufTy := match i % 128 with
  | 0 => ⟨S1x5000x128, .bf16⟩
  | 1 => ⟨S1x5000x128, .bf16⟩
  | 2 => ⟨S1x5000x128, .bf16⟩
  | 3 => ⟨S1x5000x128, .bf16⟩
  | 4 => ⟨S1x128x128, .f32⟩
  | 5 => ⟨S1x128x128, .f32⟩
  | 6 => ⟨S1x5000x128, .bf16⟩
  | 7 => ⟨S1x5000x128, .bf16⟩
  | 8 => ⟨S5000x128, .f32⟩
  | 9 => ⟨S5000x128, .f32⟩
  | 10 => ⟨S5000x128, .f32⟩
  | 11 => ⟨S5000x128, .f32⟩
  | 12 => ⟨S1x128, .f32⟩
  | 13 => ⟨S1x128, .f32⟩
  | 14 => ⟨S128x128, .f32⟩
  | 15 => ⟨S1x128, .f32⟩
  | 16 => ⟨S1x128, .f32⟩
  | 17 => ⟨S5000x128, .f32⟩
  | 18 => ⟨S5000x128, .f32⟩
  | 19 => ⟨S5000x128, .bf16⟩
  | 20 => ⟨S5000x128, .bf16⟩
  | 21 => ⟨S5000x4, .f32⟩
  | 22 => ⟨S5000x4, .f32⟩
  | 23 => ⟨S5000x128, .bf16⟩
  | 24 => ⟨S5000x128, .bf16⟩
  | 25 => ⟨S128x4, .f32⟩
  | 26 => ⟨S1x128, .f32⟩
  | 27 => ⟨S128x128, .f32⟩
  | 28 => ⟨S128x128, .f32⟩
  | 29 => ⟨S1x128, .f32⟩
  | 30 => ⟨S1x128, .f32⟩
  | 31 => ⟨S128x128, .f32⟩
  | 32 => ⟨S5000x128, .bf16⟩
  | 33 => ⟨S5000x128, .bf16⟩
  | 34 => ⟨S3000x128, .bf16⟩
  | 35 => ⟨S3000x128, .bf16⟩
  | 36 => ⟨S128x128, .f32⟩
  | 37 => ⟨S3000x128, .f32⟩
  | 38 => ⟨S3000x128, .f32⟩
  | 39 => ⟨S3000x128, .f32⟩
  | 40 => ⟨S3000x128, .f32⟩
  | 41 => ⟨S3000x128, .f32⟩
  | 42 => ⟨S3000x128, .f32⟩
  | 43 => ⟨S1x128, .f32⟩
  | 44 => ⟨S1x128, .f32⟩
  | 45 => ⟨S128x128, .f32⟩
  | 46 => ⟨S1x128, .f32⟩
  | 47 => ⟨S1x128, .f32⟩
  | 48 => ⟨S128x128, .f32⟩
  | 49 => ⟨S1x128, .f32⟩
  | 50 => ⟨S1x128, .f32⟩
  | 51 => ⟨S3000x128, .f32⟩
  | 52 => ⟨S3000x128, .f32⟩
  | 53 => ⟨S3000x128, .bf16⟩
  | 54 => ⟨S3000x128, .bf16⟩
  | _ => ⟨S12000x128, .f32⟩

abbrev vmemTy (i : Nat) : BufTy := match i / 128 with
  | 0 => vmemTy0_0 i
  | 1 => vmemTy0_1 i
  | _ => ⟨S12000x128, .f32⟩

abbrev bufTy : (tb : Table) → Fin (tcTables nBuf tb) → BufTy
  | .hbm, ⟨i, _⟩ => hbmTy i
  | .local _ .vmem, ⟨i, _⟩ => vmemTy i
  | _, _ => ⟨S12000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 183 → Bool
  | ⟨i, _⟩ => dmaSemScopedAt i

abbrev sig : RefSig :=
  ofTc nBuf bufTy 0 183 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_1 : Ref sig .tc := ⟨.hbm, 60, rfl⟩
abbrev main_v29 : Ref sig .tc := ⟨.hbm, 61, rfl⟩
abbrev main_v30 : Ref sig .tc := ⟨.hbm, 62, rfl⟩
abbrev main_c_2 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_3 : Ref sig .tc := ⟨.hbm, 71, rfl⟩
abbrev main_v38 : Ref sig .tc := ⟨.hbm, 72, rfl⟩
abbrev main_v39 : Ref sig .tc := ⟨.hbm, 73, rfl⟩
abbrev main_c_4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst : Ref sig .tc := ⟨.hbm, 90, rfl⟩
abbrev main_v55 : Ref sig .tc := ⟨.hbm, 91, rfl⟩
abbrev main_v56 : Ref sig .tc := ⟨.hbm, 92, rfl⟩
abbrev main_c_5 : Ref sig .tc := ⟨.hbm, 93, rfl⟩
abbrev main_v57 : Ref sig .tc := ⟨.hbm, 94, rfl⟩
abbrev main_v58 : Ref sig .tc := ⟨.hbm, 95, rfl⟩
abbrev main_c_6 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82_0 : Ref sig .tc := ⟨.hbm, 120, rfl⟩
abbrev main_v82_1 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_7 : Ref sig .tc := ⟨.hbm, 125, rfl⟩
abbrev main_v86 : Ref sig .tc := ⟨.hbm, 126, rfl⟩
abbrev main_v87 : Ref sig .tc := ⟨.hbm, 127, rfl⟩
abbrev main_c_8 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_9 : Ref sig .tc := ⟨.hbm, 140, rfl⟩
abbrev main_v99 : Ref sig .tc := ⟨.hbm, 141, rfl⟩
abbrev main_v100 : Ref sig .tc := ⟨.hbm, 142, rfl⟩
abbrev main_c_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_11 : Ref sig .tc := ⟨.hbm, 156, rfl⟩
abbrev main_v113 : Ref sig .tc := ⟨.hbm, 157, rfl⟩
abbrev main_v114 : Ref sig .tc := ⟨.hbm, 158, rfl⟩
abbrev main_c_12 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_13 : Ref sig .tc := ⟨.hbm, 169, rfl⟩
abbrev main_v124 : Ref sig .tc := ⟨.hbm, 170, rfl⟩
abbrev main_v125 : Ref sig .tc := ⟨.hbm, 171, rfl⟩
abbrev main_c_14 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145_0 : Ref sig .tc := ⟨.hbm, 192, rfl⟩
abbrev main_v145_1 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_c_15 : Ref sig .tc := ⟨.hbm, 197, rfl⟩
abbrev main_v149 : Ref sig .tc := ⟨.hbm, 198, rfl⟩
abbrev main_v150 : Ref sig .tc := ⟨.hbm, 199, rfl⟩
abbrev main_c_16 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_17 : Ref sig .tc := ⟨.hbm, 212, rfl⟩
abbrev main_v162 : Ref sig .tc := ⟨.hbm, 213, rfl⟩
abbrev main_v163 : Ref sig .tc := ⟨.hbm, 214, rfl⟩
abbrev main_c_18 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_19 : Ref sig .tc := ⟨.hbm, 228, rfl⟩
abbrev main_v176 : Ref sig .tc := ⟨.hbm, 229, rfl⟩
abbrev main_v177 : Ref sig .tc := ⟨.hbm, 230, rfl⟩
abbrev main_c_20 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_c_21 : Ref sig .tc := ⟨.hbm, 241, rfl⟩
abbrev main_v187 : Ref sig .tc := ⟨.hbm, 242, rfl⟩
abbrev main_v188 : Ref sig .tc := ⟨.hbm, 243, rfl⟩
abbrev main_c_22 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208_0 : Ref sig .tc := ⟨.hbm, 264, rfl⟩
abbrev main_v208_1 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_c_23 : Ref sig .tc := ⟨.hbm, 269, rfl⟩
abbrev main_v212 : Ref sig .tc := ⟨.hbm, 270, rfl⟩
abbrev main_v213 : Ref sig .tc := ⟨.hbm, 271, rfl⟩
abbrev main_c_24 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_c_25 : Ref sig .tc := ⟨.hbm, 284, rfl⟩
abbrev main_v225 : Ref sig .tc := ⟨.hbm, 285, rfl⟩
abbrev main_v226 : Ref sig .tc := ⟨.hbm, 286, rfl⟩
abbrev main_c_26 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_c_27 : Ref sig .tc := ⟨.hbm, 300, rfl⟩
abbrev main_v239 : Ref sig .tc := ⟨.hbm, 301, rfl⟩
abbrev main_v240 : Ref sig .tc := ⟨.hbm, 302, rfl⟩
abbrev main_c_28 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_c_29 : Ref sig .tc := ⟨.hbm, 313, rfl⟩
abbrev main_v250 : Ref sig .tc := ⟨.hbm, 314, rfl⟩
abbrev main_v251 : Ref sig .tc := ⟨.hbm, 315, rfl⟩
abbrev main_c_30 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271_0 : Ref sig .tc := ⟨.hbm, 336, rfl⟩
abbrev main_v271_1 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_c_31 : Ref sig .tc := ⟨.hbm, 341, rfl⟩
abbrev main_v275 : Ref sig .tc := ⟨.hbm, 342, rfl⟩
abbrev main_v276 : Ref sig .tc := ⟨.hbm, 343, rfl⟩
abbrev main_c_32 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_c_33 : Ref sig .tc := ⟨.hbm, 356, rfl⟩
abbrev main_v288 : Ref sig .tc := ⟨.hbm, 357, rfl⟩
abbrev main_v289 : Ref sig .tc := ⟨.hbm, 358, rfl⟩
abbrev main_c_34 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_c_35 : Ref sig .tc := ⟨.hbm, 372, rfl⟩
abbrev main_v302 : Ref sig .tc := ⟨.hbm, 373, rfl⟩
abbrev main_v303 : Ref sig .tc := ⟨.hbm, 374, rfl⟩
abbrev main_c_36 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_c_37 : Ref sig .tc := ⟨.hbm, 385, rfl⟩
abbrev main_v313 : Ref sig .tc := ⟨.hbm, 386, rfl⟩
abbrev main_v314 : Ref sig .tc := ⟨.hbm, 387, rfl⟩
abbrev main_c_38 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334_0 : Ref sig .tc := ⟨.hbm, 408, rfl⟩
abbrev main_v334_1 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_v356 : Ref sig .tc := ⟨.hbm, 431, rfl⟩
abbrev main_c_39 : Ref sig .tc := ⟨.hbm, 432, rfl⟩
abbrev main_v357 : Ref sig .tc := ⟨.hbm, 433, rfl⟩
abbrev main_v358 : Ref sig .tc := ⟨.hbm, 434, rfl⟩
abbrev main_c_40 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_c_41 : Ref sig .tc := ⟨.hbm, 441, rfl⟩
abbrev main_v364 : Ref sig .tc := ⟨.hbm, 442, rfl⟩
abbrev main_v365 : Ref sig .tc := ⟨.hbm, 443, rfl⟩
abbrev main_c_42 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_c_43 : Ref sig .tc := ⟨.hbm, 451, rfl⟩
abbrev main_v372 : Ref sig .tc := ⟨.hbm, 452, rfl⟩
abbrev main_v373 : Ref sig .tc := ⟨.hbm, 453, rfl⟩
abbrev main_c_44 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_c_45 : Ref sig .tc := ⟨.hbm, 473, rfl⟩
abbrev main_v392 : Ref sig .tc := ⟨.hbm, 474, rfl⟩
abbrev main_v393 : Ref sig .tc := ⟨.hbm, 475, rfl⟩
abbrev main_c_46 : Ref sig .tc := ⟨.hbm, 476, rfl⟩
abbrev main_v394 : Ref sig .tc := ⟨.hbm, 477, rfl⟩
abbrev main_v395 : Ref sig .tc := ⟨.hbm, 478, rfl⟩
abbrev main_v396 : Ref sig .tc := ⟨.hbm, 479, rfl⟩
abbrev main_v397 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417_0 : Ref sig .tc := ⟨.hbm, 500, rfl⟩
abbrev main_v417_1 : Ref sig .tc := ⟨.hbm, 501, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg7_1 : Ref sig .tc := ⟨.vmem, 56, rfl⟩
abbrev cc5_stg8_0 : Ref sig .tc := ⟨.vmem, 57, rfl⟩
abbrev cc5_stg8_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg2_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg2_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg2_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg6_0 : Ref sig .tc := ⟨.vmem, 84, rfl⟩
abbrev cc9_stg7_0 : Ref sig .tc := ⟨.vmem, 85, rfl⟩
abbrev cc9_stg7_1 : Ref sig .tc := ⟨.vmem, 86, rfl⟩
abbrev cc9_stg8_0 : Ref sig .tc := ⟨.vmem, 87, rfl⟩
abbrev cc9_stg8_1 : Ref sig .tc := ⟨.vmem, 88, rfl⟩
abbrev cc10_stg0_0 : Ref sig .tc := ⟨.vmem, 89, rfl⟩
abbrev cc10_stg0_1 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg2_1 : Ref sig .tc := ⟨.vmem, 93, rfl⟩
abbrev cc11_stg0_0 : Ref sig .tc := ⟨.vmem, 94, rfl⟩
abbrev cc11_stg0_1 : Ref sig .tc := ⟨.vmem, 95, rfl⟩
abbrev cc11_stg1_0 : Ref sig .tc := ⟨.vmem, 96, rfl⟩
abbrev cc11_stg1_1 : Ref sig .tc := ⟨.vmem, 97, rfl⟩
abbrev cc11_stg2_0 : Ref sig .tc := ⟨.vmem, 98, rfl⟩
abbrev cc11_stg2_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg2_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg1_1 : Ref sig .tc := ⟨.vmem, 109, rfl⟩
abbrev cc13_stg2_0 : Ref sig .tc := ⟨.vmem, 110, rfl⟩
abbrev cc13_stg3_0 : Ref sig .tc := ⟨.vmem, 111, rfl⟩
abbrev cc13_stg4_0 : Ref sig .tc := ⟨.vmem, 112, rfl⟩
abbrev cc13_stg5_0 : Ref sig .tc := ⟨.vmem, 113, rfl⟩
abbrev cc13_stg6_0 : Ref sig .tc := ⟨.vmem, 114, rfl⟩
abbrev cc13_stg7_0 : Ref sig .tc := ⟨.vmem, 115, rfl⟩
abbrev cc13_stg7_1 : Ref sig .tc := ⟨.vmem, 116, rfl⟩
abbrev cc13_stg8_0 : Ref sig .tc := ⟨.vmem, 117, rfl⟩
abbrev cc13_stg8_1 : Ref sig .tc := ⟨.vmem, 118, rfl⟩
abbrev cc14_stg0_0 : Ref sig .tc := ⟨.vmem, 119, rfl⟩
abbrev cc14_stg0_1 : Ref sig .tc := ⟨.vmem, 120, rfl⟩
abbrev cc14_stg1_0 : Ref sig .tc := ⟨.vmem, 121, rfl⟩
abbrev cc14_stg2_0 : Ref sig .tc := ⟨.vmem, 122, rfl⟩
abbrev cc14_stg2_1 : Ref sig .tc := ⟨.vmem, 123, rfl⟩
abbrev cc15_stg0_0 : Ref sig .tc := ⟨.vmem, 124, rfl⟩
abbrev cc15_stg0_1 : Ref sig .tc := ⟨.vmem, 125, rfl⟩
abbrev cc15_stg1_0 : Ref sig .tc := ⟨.vmem, 126, rfl⟩
abbrev cc15_stg1_1 : Ref sig .tc := ⟨.vmem, 127, rfl⟩
abbrev cc15_stg2_0 : Ref sig .tc := ⟨.vmem, 128, rfl⟩
abbrev cc15_stg2_1 : Ref sig .tc := ⟨.vmem, 129, rfl⟩
abbrev cc16_stg0_0 : Ref sig .tc := ⟨.vmem, 130, rfl⟩
abbrev cc16_stg0_1 : Ref sig .tc := ⟨.vmem, 131, rfl⟩
abbrev cc16_stg1_0 : Ref sig .tc := ⟨.vmem, 132, rfl⟩
abbrev cc16_stg1_1 : Ref sig .tc := ⟨.vmem, 133, rfl⟩
abbrev cc16_stg2_0 : Ref sig .tc := ⟨.vmem, 134, rfl⟩
abbrev cc16_stg2_1 : Ref sig .tc := ⟨.vmem, 135, rfl⟩
abbrev cc17_stg0_0 : Ref sig .tc := ⟨.vmem, 136, rfl⟩
abbrev cc17_stg0_1 : Ref sig .tc := ⟨.vmem, 137, rfl⟩
abbrev cc17_stg1_0 : Ref sig .tc := ⟨.vmem, 138, rfl⟩
abbrev cc17_stg1_1 : Ref sig .tc := ⟨.vmem, 139, rfl⟩
abbrev cc17_stg2_0 : Ref sig .tc := ⟨.vmem, 140, rfl⟩
abbrev cc17_stg3_0 : Ref sig .tc := ⟨.vmem, 141, rfl⟩
abbrev cc17_stg4_0 : Ref sig .tc := ⟨.vmem, 142, rfl⟩
abbrev cc17_stg5_0 : Ref sig .tc := ⟨.vmem, 143, rfl⟩
abbrev cc17_stg6_0 : Ref sig .tc := ⟨.vmem, 144, rfl⟩
abbrev cc17_stg7_0 : Ref sig .tc := ⟨.vmem, 145, rfl⟩
abbrev cc17_stg7_1 : Ref sig .tc := ⟨.vmem, 146, rfl⟩
abbrev cc17_stg8_0 : Ref sig .tc := ⟨.vmem, 147, rfl⟩
abbrev cc17_stg8_1 : Ref sig .tc := ⟨.vmem, 148, rfl⟩
abbrev cc18_stg0_0 : Ref sig .tc := ⟨.vmem, 149, rfl⟩
abbrev cc18_stg0_1 : Ref sig .tc := ⟨.vmem, 150, rfl⟩
abbrev cc18_stg1_0 : Ref sig .tc := ⟨.vmem, 151, rfl⟩
abbrev cc18_stg1_1 : Ref sig .tc := ⟨.vmem, 152, rfl⟩
abbrev cc18_stg2_0 : Ref sig .tc := ⟨.vmem, 153, rfl⟩
abbrev cc18_stg3_0 : Ref sig .tc := ⟨.vmem, 154, rfl⟩
abbrev cc18_stg4_0 : Ref sig .tc := ⟨.vmem, 155, rfl⟩
abbrev cc18_stg5_0 : Ref sig .tc := ⟨.vmem, 156, rfl⟩
abbrev cc18_stg6_0 : Ref sig .tc := ⟨.vmem, 157, rfl⟩
abbrev cc18_stg7_0 : Ref sig .tc := ⟨.vmem, 158, rfl⟩
abbrev cc18_stg8_0 : Ref sig .tc := ⟨.vmem, 159, rfl⟩
abbrev cc18_stg9_0 : Ref sig .tc := ⟨.vmem, 160, rfl⟩
abbrev cc18_stg9_1 : Ref sig .tc := ⟨.vmem, 161, rfl⟩
abbrev cc19_stg0_0 : Ref sig .tc := ⟨.vmem, 162, rfl⟩
abbrev cc19_stg0_1 : Ref sig .tc := ⟨.vmem, 163, rfl⟩
abbrev cc19_stg1_0 : Ref sig .tc := ⟨.vmem, 164, rfl⟩
abbrev cc19_stg2_0 : Ref sig .tc := ⟨.vmem, 165, rfl⟩
abbrev cc19_stg2_1 : Ref sig .tc := ⟨.vmem, 166, rfl⟩
abbrev cc20_stg0_0 : Ref sig .tc := ⟨.vmem, 167, rfl⟩
abbrev cc20_stg0_1 : Ref sig .tc := ⟨.vmem, 168, rfl⟩
abbrev cc20_stg1_0 : Ref sig .tc := ⟨.vmem, 169, rfl⟩
abbrev cc20_stg1_1 : Ref sig .tc := ⟨.vmem, 170, rfl⟩
abbrev cc20_stg2_0 : Ref sig .tc := ⟨.vmem, 171, rfl⟩
abbrev cc20_stg3_0 : Ref sig .tc := ⟨.vmem, 172, rfl⟩
abbrev cc20_stg4_0 : Ref sig .tc := ⟨.vmem, 173, rfl⟩
abbrev cc20_stg5_0 : Ref sig .tc := ⟨.vmem, 174, rfl⟩
abbrev cc20_stg6_0 : Ref sig .tc := ⟨.vmem, 175, rfl⟩
abbrev cc20_stg7_0 : Ref sig .tc := ⟨.vmem, 176, rfl⟩
abbrev cc20_stg8_0 : Ref sig .tc := ⟨.vmem, 177, rfl⟩
abbrev cc20_stg9_0 : Ref sig .tc := ⟨.vmem, 178, rfl⟩
abbrev cc20_stg10_0 : Ref sig .tc := ⟨.vmem, 179, rfl⟩
abbrev cc20_stg10_1 : Ref sig .tc := ⟨.vmem, 180, rfl⟩
abbrev cc20_stg11_0 : Ref sig .tc := ⟨.vmem, 181, rfl⟩
abbrev cc20_stg11_1 : Ref sig .tc := ⟨.vmem, 182, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem7_1 : DmaSem sig := 56
abbrev cc5_sem8_0 : DmaSem sig := 57
abbrev cc5_sem8_1 : DmaSem sig := 58
abbrev cc6_sem0_0 : DmaSem sig := 59
abbrev cc6_sem0_1 : DmaSem sig := 60
abbrev cc6_sem1_0 : DmaSem sig := 61
abbrev cc6_sem2_0 : DmaSem sig := 62
abbrev cc6_sem2_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem2_1 : DmaSem sig := 69
abbrev cc8_sem0_0 : DmaSem sig := 70
abbrev cc8_sem0_1 : DmaSem sig := 71
abbrev cc8_sem1_0 : DmaSem sig := 72
abbrev cc8_sem1_1 : DmaSem sig := 73
abbrev cc8_sem2_0 : DmaSem sig := 74
abbrev cc8_sem2_1 : DmaSem sig := 75
abbrev cc9_sem0_0 : DmaSem sig := 76
abbrev cc9_sem0_1 : DmaSem sig := 77
abbrev cc9_sem1_0 : DmaSem sig := 78
abbrev cc9_sem1_1 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem6_0 : DmaSem sig := 84
abbrev cc9_sem7_0 : DmaSem sig := 85
abbrev cc9_sem7_1 : DmaSem sig := 86
abbrev cc9_sem8_0 : DmaSem sig := 87
abbrev cc9_sem8_1 : DmaSem sig := 88
abbrev cc10_sem0_0 : DmaSem sig := 89
abbrev cc10_sem0_1 : DmaSem sig := 90
abbrev cc10_sem1_0 : DmaSem sig := 91
abbrev cc10_sem2_0 : DmaSem sig := 92
abbrev cc10_sem2_1 : DmaSem sig := 93
abbrev cc11_sem0_0 : DmaSem sig := 94
abbrev cc11_sem0_1 : DmaSem sig := 95
abbrev cc11_sem1_0 : DmaSem sig := 96
abbrev cc11_sem1_1 : DmaSem sig := 97
abbrev cc11_sem2_0 : DmaSem sig := 98
abbrev cc11_sem2_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem2_1 : DmaSem sig := 105
abbrev cc13_sem0_0 : DmaSem sig := 106
abbrev cc13_sem0_1 : DmaSem sig := 107
abbrev cc13_sem1_0 : DmaSem sig := 108
abbrev cc13_sem1_1 : DmaSem sig := 109
abbrev cc13_sem2_0 : DmaSem sig := 110
abbrev cc13_sem3_0 : DmaSem sig := 111
abbrev cc13_sem4_0 : DmaSem sig := 112
abbrev cc13_sem5_0 : DmaSem sig := 113
abbrev cc13_sem6_0 : DmaSem sig := 114
abbrev cc13_sem7_0 : DmaSem sig := 115
abbrev cc13_sem7_1 : DmaSem sig := 116
abbrev cc13_sem8_0 : DmaSem sig := 117
abbrev cc13_sem8_1 : DmaSem sig := 118
abbrev cc14_sem0_0 : DmaSem sig := 119
abbrev cc14_sem0_1 : DmaSem sig := 120
abbrev cc14_sem1_0 : DmaSem sig := 121
abbrev cc14_sem2_0 : DmaSem sig := 122
abbrev cc14_sem2_1 : DmaSem sig := 123
abbrev cc15_sem0_0 : DmaSem sig := 124
abbrev cc15_sem0_1 : DmaSem sig := 125
abbrev cc15_sem1_0 : DmaSem sig := 126
abbrev cc15_sem1_1 : DmaSem sig := 127
abbrev cc15_sem2_0 : DmaSem sig := 128
abbrev cc15_sem2_1 : DmaSem sig := 129
abbrev cc16_sem0_0 : DmaSem sig := 130
abbrev cc16_sem0_1 : DmaSem sig := 131
abbrev cc16_sem1_0 : DmaSem sig := 132
abbrev cc16_sem1_1 : DmaSem sig := 133
abbrev cc16_sem2_0 : DmaSem sig := 134
abbrev cc16_sem2_1 : DmaSem sig := 135
abbrev cc17_sem0_0 : DmaSem sig := 136
abbrev cc17_sem0_1 : DmaSem sig := 137
abbrev cc17_sem1_0 : DmaSem sig := 138
abbrev cc17_sem1_1 : DmaSem sig := 139
abbrev cc17_sem2_0 : DmaSem sig := 140
abbrev cc17_sem3_0 : DmaSem sig := 141
abbrev cc17_sem4_0 : DmaSem sig := 142
abbrev cc17_sem5_0 : DmaSem sig := 143
abbrev cc17_sem6_0 : DmaSem sig := 144
abbrev cc17_sem7_0 : DmaSem sig := 145
abbrev cc17_sem7_1 : DmaSem sig := 146
abbrev cc17_sem8_0 : DmaSem sig := 147
abbrev cc17_sem8_1 : DmaSem sig := 148
abbrev cc18_sem0_0 : DmaSem sig := 149
abbrev cc18_sem0_1 : DmaSem sig := 150
abbrev cc18_sem1_0 : DmaSem sig := 151
abbrev cc18_sem1_1 : DmaSem sig := 152
abbrev cc18_sem2_0 : DmaSem sig := 153
abbrev cc18_sem3_0 : DmaSem sig := 154
abbrev cc18_sem4_0 : DmaSem sig := 155
abbrev cc18_sem5_0 : DmaSem sig := 156
abbrev cc18_sem6_0 : DmaSem sig := 157
abbrev cc18_sem7_0 : DmaSem sig := 158
abbrev cc18_sem8_0 : DmaSem sig := 159
abbrev cc18_sem9_0 : DmaSem sig := 160
abbrev cc18_sem9_1 : DmaSem sig := 161
abbrev cc19_sem0_0 : DmaSem sig := 162
abbrev cc19_sem0_1 : DmaSem sig := 163
abbrev cc19_sem1_0 : DmaSem sig := 164
abbrev cc19_sem2_0 : DmaSem sig := 165
abbrev cc19_sem2_1 : DmaSem sig := 166
abbrev cc20_sem0_0 : DmaSem sig := 167
abbrev cc20_sem0_1 : DmaSem sig := 168
abbrev cc20_sem1_0 : DmaSem sig := 169
abbrev cc20_sem1_1 : DmaSem sig := 170
abbrev cc20_sem2_0 : DmaSem sig := 171
abbrev cc20_sem3_0 : DmaSem sig := 172
abbrev cc20_sem4_0 : DmaSem sig := 173
abbrev cc20_sem5_0 : DmaSem sig := 174
abbrev cc20_sem6_0 : DmaSem sig := 175
abbrev cc20_sem7_0 : DmaSem sig := 176
abbrev cc20_sem8_0 : DmaSem sig := 177
abbrev cc20_sem9_0 : DmaSem sig := 178
abbrev cc20_sem10_0 : DmaSem sig := 179
abbrev cc20_sem10_1 : DmaSem sig := 180
abbrev cc20_sem11_0 : DmaSem sig := 181
abbrev cc20_sem11_1 : DmaSem sig := 182

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![12, 10], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x5000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x128 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![12, 10], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x5000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x128x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x5000x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 1], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x5000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1x5000x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S5000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S5000x128 .bf16 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![12, 10], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S1x5000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1x128x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S1x5000x128 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![2, 1], ![false, false]⟩

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage12_0 : Fin 2 → Memref sig .tc .vmem S1x5000x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1x128x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, false]

abbrev stage12_2 : Fin 2 → Memref sig .tc .vmem S1x5000x128 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S128x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S5000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S5000x128 .bf16 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨2, ![12, 10], ![false, false]⟩

def cc15_transform_0 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc15_transform_1 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage15_0 : Fin 2 → Memref sig .tc .vmem S1x5000x128 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1x128x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true, false]

abbrev stage15_2 : Fin 2 → Memref sig .tc .vmem S1x5000x128 .bf16 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]

abbrev grid16 : Pipeline.Grid := ⟨2, ![2, 1], ![false, false]⟩

def cc16_transform_0 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc16_transform_1 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc16_transform_2 (i : grid16.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage16_0 : Fin 2 → Memref sig .tc .vmem S1x5000x128 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, true]

abbrev stage16_1 : Fin 2 → Memref sig .tc .vmem S1x128x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true, false]

abbrev stage16_2 : Fin 2 → Memref sig .tc .vmem S1x5000x128 .bf16 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_8 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S128x128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S1x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S1x128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 2 → Memref sig .tc .vmem S5000x128 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true]

abbrev stage17_8 : Fin 2 → Memref sig .tc .vmem S5000x128 .bf16 := fun | 0 => Memref.whole cc17_stg8_0 | 1 => Memref.whole cc17_stg8_1 | ⟨_ + 2, h⟩ => absurd h (Nat.not_lt.2 (Nat.le_add_left _ _))
abbrev sem17_8 : Fin 2 → DmaSem sig := fun | 0 => cc17_sem8_0 | 1 => cc17_sem8_1 | ⟨_ + 2, h⟩ => absurd h (Nat.not_lt.2 (Nat.le_add_left _ _))
abbrev reads17_8 : Fin grid17.rank → Bool := ![true]

abbrev grid18 : Pipeline.Grid := ⟨1, ![30], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_7 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_8 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_9 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x4 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x128 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x4 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S128x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S128x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1x128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S1x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev stage18_8 : Fin 1 → Memref sig .tc .vmem S128x128 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))
abbrev reads18_8 : Fin grid18.rank → Bool := ![false]

abbrev stage18_9 : Fin 2 → Memref sig .tc .vmem S5000x128 .bf16 := fun | 0 => Memref.whole cc18_stg9_0 | 1 => Memref.whole cc18_stg9_1 | ⟨_ + 2, h⟩ => absurd h (Nat.not_lt.2 (Nat.le_add_left _ _))
abbrev sem18_9 : Fin 2 → DmaSem sig := fun | 0 => cc18_sem9_0 | 1 => cc18_sem9_1 | ⟨_ + 2, h⟩ => absurd h (Nat.not_lt.2 (Nat.le_add_left _ _))
abbrev reads18_9 : Fin grid18.rank → Bool := ![true]

abbrev grid19 : Pipeline.Grid := ⟨1, ![4], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S3000x128 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S128x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S3000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![4], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_7 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_8 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_9 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_10 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_11 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S3000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S3000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S128x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 1 → Memref sig .tc .vmem S1x128 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]

abbrev stage20_7 : Fin 1 → Memref sig .tc .vmem S128x128 .f32 := fun | 0 => Memref.whole cc20_stg7_0 | ⟨_ + 1, h⟩ => absurd h (Nat.not_lt.2 (Nat.le_add_left _ _))
abbrev sem20_7 : Fin 1 → DmaSem sig := fun | 0 => cc20_sem7_0 | ⟨_ + 1, h⟩ => absurd h (Nat.not_lt.2 (Nat.le_add_left _ _))
abbrev reads20_7 : Fin grid20.rank → Bool := ![false]

abbrev stage20_8 : Fin 1 → Memref sig .tc .vmem S1x128 .f32 := fun | 0 => Memref.whole cc20_stg8_0 | ⟨_ + 1, h⟩ => absurd h (Nat.not_lt.2 (Nat.le_add_left _ _))
abbrev sem20_8 : Fin 1 → DmaSem sig := fun | 0 => cc20_sem8_0 | ⟨_ + 1, h⟩ => absurd h (Nat.not_lt.2 (Nat.le_add_left _ _))
abbrev reads20_8 : Fin grid20.rank → Bool := ![false]

abbrev stage20_9 : Fin 1 → Memref sig .tc .vmem S1x128 .f32 := fun | 0 => Memref.whole cc20_stg9_0 | ⟨_ + 1, h⟩ => absurd h (Nat.not_lt.2 (Nat.le_add_left _ _))
abbrev sem20_9 : Fin 1 → DmaSem sig := fun | 0 => cc20_sem9_0 | ⟨_ + 1, h⟩ => absurd h (Nat.not_lt.2 (Nat.le_add_left _ _))
abbrev reads20_9 : Fin grid20.rank → Bool := ![false]

abbrev stage20_10 : Fin 2 → Memref sig .tc .vmem S3000x128 .f32 := fun | 0 => Memref.whole cc20_stg10_0 | 1 => Memref.whole cc20_stg10_1 | ⟨_ + 2, h⟩ => absurd h (Nat.not_lt.2 (Nat.le_add_left _ _))
abbrev sem20_10 : Fin 2 → DmaSem sig := fun | 0 => cc20_sem10_0 | 1 => cc20_sem10_1 | ⟨_ + 2, h⟩ => absurd h (Nat.not_lt.2 (Nat.le_add_left _ _))
abbrev reads20_10 : Fin grid20.rank → Bool := ![true]

abbrev stage20_11 : Fin 2 → Memref sig .tc .vmem S3000x128 .bf16 := fun | 0 => Memref.whole cc20_stg11_0 | 1 => Memref.whole cc20_stg11_1 | ⟨_ + 2, h⟩ => absurd h (Nat.not_lt.2 (Nat.le_add_left _ _))
abbrev sem20_11 : Fin 2 → DmaSem sig := fun | 0 => cc20_sem11_0 | 1 => cc20_sem11_1 | ⟨_ + 2, h⟩ => absurd h (Nat.not_lt.2 (Nat.le_add_left _ _))
abbrev reads20_11 : Fin grid20.rank → Bool := ![true]

class Facts₀ : Prop where
  slices_S2x128x128_S1x128x128_0_0_0 : S2x128x128.Slices ![0, 0, 0] S1x128x128
  shapeCasts_S1x128x128_S128x128 : S1x128x128.ShapeCasts S128x128
  slices_S2x128x4_S1x128x4_0_0_0 : S2x128x4.Slices ![0, 0, 0] S1x128x4
  shapeCasts_S1x128x4_S128x4 : S1x128x4.ShapeCasts S128x4
  slices_S2x128_S1x128_0_0 : S2x128.Slices ![0, 0] S1x128
  shapeCasts_S1x128_S128 : S1x128.ShapeCasts S128
  slices_S2x128x256_S1x128x256_0_0_0 : S2x128x256.Slices ![0, 0, 0] S1x128x256
  shapeCasts_S1x128x256_S128x256 : S1x128x256.ShapeCasts S128x256
  slices_S2x2x128_S1x2x128_0_0_0 : S2x2x128.Slices ![0, 0, 0] S1x2x128
  shapeCasts_S1x2x128_S2x128 : S1x2x128.ShapeCasts S2x128
  bcast_S_S150000 : S_.BroadcastsInDim S150000 (![] : Fin 0 → Fin S150000.rank)
  bcast_S150000_S150000x1_0 : S150000.BroadcastsInDim S150000x1 (![0] : Fin 1 → Fin S150000x1.rank)
  bitsLt_bf16_f32 : FTy.bits .bf16 < FTy.bits .f32
  slices_S128x256_S128x128_0_0 : S128x256.Slices ![0, 0] S128x128
  slices_S128x256_S128x128_0_128 : S128x256.Slices ![0, 128] S128x128
  slices_S2x128_S1x128_1_0 : S2x128.Slices ![1, 0] S1x128
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S128x4_S128x4_0_0 : ∀ a, (![0, 0] : Fin 2 → Nat) a + S128x4.size a ≤ S128x4.size a
  h_S128x4 : 0 < S128x4.numel
  shapeCasts_S128x4_S128x4 : S128x4.ShapeCasts S128x4
  transposes_S128x4_p1_0_S4x128 : S128x4.Transposes [1, 0] S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  reduces_S5000x128_S5000 : S5000x128.Reduces [1] S5000
  shapeCasts_S5000_S5000x1 : S5000.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  slices_S4x128x128_S1x128x128_0_0_0 : S4x128x128.Slices ![0, 0, 0] S1x128x128
  bcast_S_S12x50000 : S_.BroadcastsInDim S12x50000 (![] : Fin 0 → Fin S12x50000.rank)
  bcast_S12x50000_S12x50000x1_0_1 : S12x50000.BroadcastsInDim S12x50000x1 (![0, 1] : Fin 2 → Fin S12x50000x1.rank)
  slices_S4x12x128x128_S1x12x128x128_0_0_0_0 : S4x12x128x128.Slices ![0, 0, 0, 0] S1x12x128x128
  shapeCasts_S1x12x128x128_S12x128x128 : S1x12x128x128.ShapeCasts S12x128x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S5000x128_S1x5000x128 : S5000x128.ShapeCasts S1x5000x128
  packedbf16_S1x5000x128_S1x5000x128_0_0_0 : (Rect.unit (s := S1x5000x128) ![0, 0, 0] S1x5000x128.size inb_S1x5000x128_S1x5000x128_0_0_0).PackedRows (EltTy.packing .bf16)
  shapeCasts_S12x50000_S600000 : S12x50000.ShapeCasts S600000
  shapeCasts_S12x50000x128_S600000x128 : S12x50000x128.ShapeCasts S600000x128
  bcast_S_S600000 : S_.BroadcastsInDim S600000 (![] : Fin 0 → Fin S600000.rank)
  bcast_S600000_S600000x1_0 : S600000.BroadcastsInDim S600000x1 (![0] : Fin 1 → Fin S600000x1.rank)
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  bcast_S_S2x5000 : S_.BroadcastsInDim S2x5000 (![] : Fin 0 → Fin S2x5000.rank)
  bcast_S2x5000_S2x5000x1_0_1 : S2x5000.BroadcastsInDim S2x5000x1 (![0, 1] : Fin 2 → Fin S2x5000x1.rank)
  shapeCasts_S2x5000_S10000 : S2x5000.ShapeCasts S10000
  shapeCasts_S2x5000x128_S10000x128 : S2x5000x128.ShapeCasts S10000x128
  bcast_S_S10000 : S_.BroadcastsInDim S10000 (![] : Fin 0 → Fin S10000.rank)
  bcast_S10000_S10000x1_0 : S10000.BroadcastsInDim S10000x1 (![0] : Fin 1 → Fin S10000x1.rank)
  slices_S4x2x128_S1x1x128_0_0_0 : S4x2x128.Slices ![0, 0, 0] S1x1x128
  shapeCasts_S1x1x128_S128 : S1x1x128.ShapeCasts S128
  slices_S4x2x128_S1x1x128_0_1_0 : S4x2x128.Slices ![0, 1, 0] S1x1x128
  slices_S4x128x128_S1x128x128_1_0_0 : S4x128x128.Slices ![1, 0, 0] S1x128x128
  slices_S4x12x128x128_S1x12x128x128_1_0_0_0 : S4x12x128x128.Slices ![1, 0, 0, 0] S1x12x128x128
  slices_S4x2x128_S1x1x128_1_0_0 : S4x2x128.Slices ![1, 0, 0] S1x1x128
  slices_S4x2x128_S1x1x128_1_1_0 : S4x2x128.Slices ![1, 1, 0] S1x1x128
  slices_S4x128x128_S1x128x128_2_0_0 : S4x128x128.Slices ![2, 0, 0] S1x128x128
  slices_S4x12x128x128_S1x12x128x128_2_0_0_0 : S4x12x128x128.Slices ![2, 0, 0, 0] S1x12x128x128
  slices_S4x2x128_S1x1x128_2_0_0 : S4x2x128.Slices ![2, 0, 0] S1x1x128
  slices_S4x2x128_S1x1x128_2_1_0 : S4x2x128.Slices ![2, 1, 0] S1x1x128
  slices_S4x128x128_S1x128x128_3_0_0 : S4x128x128.Slices ![3, 0, 0] S1x128x128
  slices_S4x12x128x128_S1x12x128x128_3_0_0_0 : S4x12x128x128.Slices ![3, 0, 0, 0] S1x12x128x128
  slices_S4x2x128_S1x1x128_3_0_0 : S4x2x128.Slices ![3, 0, 0] S1x1x128
  slices_S4x2x128_S1x1x128_3_1_0 : S4x2x128.Slices ![3, 1, 0] S1x1x128
  slices_S2x128x128_S1x128x128_1_0_0 : S2x128x128.Slices ![1, 0, 0] S1x128x128
  slices_S2x128x4_S1x128x4_1_0_0 : S2x128x4.Slices ![1, 0, 0] S1x128x4
  slices_S2x128x256_S1x128x256_1_0_0 : S2x128x256.Slices ![1, 0, 0] S1x128x256
  slices_S2x2x128_S1x2x128_1_0_0 : S2x2x128.Slices ![1, 0, 0] S1x2x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  reduces_S3000x128_S3000 : S3000x128.Reduces [1] S3000
  shapeCasts_S3000_S3000x1 : S3000.ShapeCasts S3000x1
  broadcasts_S3000x1_S3000x128 : S3000x1.Broadcasts S3000x128
  broadcasts_S1x128_S3000x128 : S1x128.Broadcasts S3000x128
  packedbf16_S3000x128_S3000x128_0_0 : (Rect.unit (s := S3000x128) ![0, 0] S3000x128.size inb_S3000x128_S3000x128_0_0).PackedRows (EltTy.packing .bf16)
  gather_S12000x4_S150000x1_S150000x4_1_0_n_n_0_1_14_wf : GatherDims.WF S12000x4 S150000x1 S150000x4 [1] [0] [] [0] [] 1 ![1, 4]
  gather_S50000x4_S150000x1_S150000x4_1_0_n_n_0_1_14_wf : GatherDims.WF S50000x4 S150000x1 S150000x4 [1] [0] [] [0] [] 1 ![1, 4]
  gather_S12000x128_S150000x1_S150000x128_1_0_n_n_0_1_1128_wf : GatherDims.WF S12000x128 S150000x1 S150000x128 [1] [0] [] [0] [] 1 ![1, 128]
  dot_S5000x4_S4x128_S5000x128_1_0_0_1_n_n_wf : DotDims.WF S5000x4 S4x128 S5000x128 [1] [0] [0] [1] [] []
  dot_S5000x128_S128x128_S5000x128_1_0_0_1_n_n_wf : DotDims.WF S5000x128 S128x128 S5000x128 [1] [0] [0] [1] [] []
  scatter_S50000x128_S150000x1_S150000x128_1_0_0_1_wf : ScatterDims.WF S50000x128 S150000x1 S150000x128 [1] [0] [0] 1
  gather_S50000x128_S12x50000x1_S12x50000x128_2_0_n_n_0_2_1128_wf : GatherDims.WF S50000x128 S12x50000x1 S12x50000x128 [2] [0] [] [0] [] 2 ![1, 128]
  scatter_S50000x128_S600000x1_S600000x128_1_0_0_1_wf : ScatterDims.WF S50000x128 S600000x1 S600000x128 [1] [0] [0] 1
  gather_S50000x128_S2x5000x1_S2x5000x128_2_0_n_n_0_2_1128_wf : GatherDims.WF S50000x128 S2x5000x1 S2x5000x128 [2] [0] [] [0] [] 2 ![1, 128]
  scatter_S50000x128_S10000x1_S10000x128_1_0_0_1_wf : ScatterDims.WF S50000x128 S10000x1 S10000x128 [1] [0] [0] 1
  gather_S50000x128_S150000x1_S150000x128_1_0_n_n_0_1_1128_wf : GatherDims.WF S50000x128 S150000x1 S150000x128 [1] [0] [] [0] [] 1 ![1, 128]
  dot_S3000x128_S128x128_S3000x128_1_0_0_1_n_n_wf : DotDims.WF S3000x128 S128x128 S3000x128 [1] [0] [0] [1] [] []
  scatter_S12000x128_S150000x1_S150000x128_1_0_0_1_wf : ScatterDims.WF S12000x128 S150000x1 S150000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S150000x4.size a
  hwx0_0 : ∀ i : grid0.Coords, EltTy.bits .f32 = 32 ∨ (Rect.block (s := S150000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S150000x128.size a
  hwx0_1 : ∀ i : grid0.Coords, EltTy.bits .bf16 = 32 ∨ (Rect.block (s := S150000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S150000x128.size a
  hwx0_9 : ∀ i : grid0.Coords, EltTy.bits .bf16 = 32 ∨ (Rect.block (s := S150000x128) S5000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .bf16 = 32 ∨ (Rect.block (s := S50000x128) S5000x128.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x5000x128.size a ≤ S12x50000x128.size a
  hwx3_0 : ∀ i : grid3.Coords, EltTy.bits .bf16 = 32 ∨ (Rect.block (s := S12x50000x128) S1x5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S12x128x128.size a
  hwx3_1 : ∀ i : grid3.Coords, EltTy.bits .f32 = 32 ∨ (Rect.block (s := S12x128x128) S1x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x5000x128.size a ≤ S12x50000x128.size a
  hwx3_2 : ∀ i : grid3.Coords, EltTy.bits .bf16 = 32 ∨ (Rect.block (s := S12x50000x128) S1x5000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x5000x128.size a ≤ S2x5000x128.size a
  hwx4_0 : ∀ i : grid4.Coords, EltTy.bits .bf16 = 32 ∨ (Rect.block (s := S2x5000x128) S1x5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x128x128.size a ≤ S2x128x128.size a
  hwx4_1 : ∀ i : grid4.Coords, EltTy.bits .f32 = 32 ∨ (Rect.block (s := S2x128x128) S1x128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x5000x128.size a ≤ S2x5000x128.size a
  hwx4_2 : ∀ i : grid4.Coords, EltTy.bits .bf16 = 32 ∨ (Rect.block (s := S2x5000x128) S1x5000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .bf16 = 32 ∨ (Rect.block (s := S50000x128) S5000x128.size (cc5_transform_8 i) (hinb5_8 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .bf16 = 32 ∨ (Rect.block (s := S50000x128) S5000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x5000x128.size a ≤ S12x50000x128.size a
  hwx7_0 : ∀ i : grid7.Coords, EltTy.bits .bf16 = 32 ∨ (Rect.block (s := S12x50000x128) S1x5000x128.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x128x128.size a ≤ S12x128x128.size a
  hwx7_1 : ∀ i : grid7.Coords, EltTy.bits .f32 = 32 ∨ (Rect.block (s := S12x128x128) S1x128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x5000x128.size a ≤ S12x50000x128.size a
  hwx7_2 : ∀ i : grid7.Coords, EltTy.bits .bf16 = 32 ∨ (Rect.block (s := S12x50000x128) S1x5000x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x5000x128.size a ≤ S2x5000x128.size a
  hwx8_0 : ∀ i : grid8.Coords, EltTy.bits .bf16 = 32 ∨ (Rect.block (s := S2x5000x128) S1x5000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x128x128.size a ≤ S2x128x128.size a
  hwx8_1 : ∀ i : grid8.Coords, EltTy.bits .f32 = 32 ∨ (Rect.block (s := S2x128x128) S1x128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x5000x128.size a ≤ S2x5000x128.size a
  hwx8_2 : ∀ i : grid8.Coords, EltTy.bits .bf16 = 32 ∨ (Rect.block (s := S2x5000x128) S1x5000x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x128.size a ≤ S50000x128.size a
  hwx9_7 : ∀ i : grid9.Coords, EltTy.bits .f32 = 32 ∨ (Rect.block (s := S50000x128) S5000x128.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S5000x128.size a ≤ S50000x128.size a
  hwx9_8 : ∀ i : grid9.Coords, EltTy.bits .bf16 = 32 ∨ (Rect.block (s := S50000x128) S5000x128.size (cc9_transform_8 i) (hinb9_8 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .bf16 = 32 ∨ (Rect.block (s := S50000x128) S5000x128.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x5000x128.size a ≤ S12x50000x128.size a
  hwx11_0 : ∀ i : grid11.Coords, EltTy.bits .bf16 = 32 ∨ (Rect.block (s := S12x50000x128) S1x5000x128.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x128x128.size a ≤ S12x128x128.size a
  hwx11_1 : ∀ i : grid11.Coords, EltTy.bits .f32 = 32 ∨ (Rect.block (s := S12x128x128) S1x128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x5000x128.size a ≤ S12x50000x128.size a
  hwx11_2 : ∀ i : grid11.Coords, EltTy.bits .bf16 = 32 ∨ (Rect.block (s := S12x50000x128) S1x5000x128.size (cc11_transform_2 i) (hinb11_2 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x5000x128.size a ≤ S2x5000x128.size a
  hwx12_0 : ∀ i : grid12.Coords, EltTy.bits .bf16 = 32 ∨ (Rect.block (s := S2x5000x128) S1x5000x128.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x128x128.size a ≤ S2x128x128.size a
  hwx12_1 : ∀ i : grid12.Coords, EltTy.bits .f32 = 32 ∨ (Rect.block (s := S2x128x128) S1x128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x5000x128.size a ≤ S2x5000x128.size a
  hwx12_2 : ∀ i : grid12.Coords, EltTy.bits .bf16 = 32 ∨ (Rect.block (s := S2x5000x128) S1x5000x128.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S50000x128.size a
  hwx13_1 : ∀ i : grid13.Coords, EltTy.bits .f32 = 32 ∨ (Rect.block (s := S50000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S128x128.size a ≤ S128x128.size a
  hwx13_4 : ∀ i : grid13.Coords, EltTy.bits .f32 = 32 ∨ (Rect.block (s := S128x128) S128x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S5000x128.size a ≤ S50000x128.size a
  hwx13_7 : ∀ i : grid13.Coords, EltTy.bits .f32 = 32 ∨ (Rect.block (s := S50000x128) S5000x128.size (cc13_transform_7 i) (hinb13_7 i)).WholeWords (EltTy.packing .f32)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S5000x128.size a ≤ S50000x128.size a
  hwx13_8 : ∀ i : grid13.Coords, EltTy.bits .bf16 = 32 ∨ (Rect.block (s := S50000x128) S5000x128.size (cc13_transform_8 i) (hinb13_8 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .bf16 = 32 ∨ (Rect.block (s := S50000x128) S5000x128.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S50000x128.size a
  hwx14_2 : ∀ i : grid14.Coords, EltTy.bits .f32 = 32 ∨ (Rect.block (s := S50000x128) S5000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x5000x128.size a ≤ S12x50000x128.size a
  hwx15_0 : ∀ i : grid15.Coords, EltTy.bits .bf16 = 32 ∨ (Rect.block (s := S12x50000x128) S1x5000x128.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x128x128.size a ≤ S12x128x128.size a
  hwx15_1 : ∀ i : grid15.Coords, EltTy.bits .f32 = 32 ∨ (Rect.block (s := S12x128x128) S1x128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x5000x128.size a ≤ S12x50000x128.size a
  hwx15_2 : ∀ i : grid15.Coords, EltTy.bits .bf16 = 32 ∨ (Rect.block (s := S12x50000x128) S1x5000x128.size (cc15_transform_2 i) (hinb15_2 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x5000x128.size a ≤ S2x5000x128.size a
  hwx16_0 : ∀ i : grid16.Coords, EltTy.bits .bf16 = 32 ∨ (Rect.block (s := S2x5000x128) S1x5000x128.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x128x128.size a ≤ S2x128x128.size a
  hwx16_1 : ∀ i : grid16.Coords, EltTy.bits .f32 = 32 ∨ (Rect.block (s := S2x128x128) S1x128x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x5000x128.size a ≤ S2x5000x128.size a
  hwx16_2 : ∀ i : grid16.Coords, EltTy.bits .bf16 = 32 ∨ (Rect.block (s := S2x5000x128) S1x5000x128.size (cc16_transform_2 i) (hinb16_2 i)).WholeWords (EltTy.packing .bf16)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x128.size a ≤ S50000x128.size a
  hwx17_0 : ∀ i : grid17.Coords, EltTy.bits .f32 = 32 ∨ (Rect.block (s := S50000x128) S5000x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x128.size a ≤ S50000x128.size a
  hwx17_1 : ∀ i : grid17.Coords, EltTy.bits .f32 = 32 ∨ (Rect.block (s := S50000x128) S5000x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x128.size a ≤ S1x128.size a
  hwx17_3 : ∀ i : grid17.Coords, EltTy.bits .f32 = 32 ∨ (Rect.block (s := S1x128) S1x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S128x128.size a ≤ S128x128.size a
  hwx17_4 : ∀ i : grid17.Coords, EltTy.bits .f32 = 32 ∨ (Rect.block (s := S128x128) S128x128.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S1x128.size a ≤ S1x128.size a
  hwx17_5 : ∀ i : grid17.Coords, EltTy.bits .f32 = 32 ∨ (Rect.block (s := S1x128) S1x128.size (cc17_transform_5 i) (hinb17_5 i)).WholeWords (EltTy.packing .f32)
  hstage17_6 : ∀ j, (stage17_6 j).IsWhole
  nbuf17_6 : grid17.bufCount reads17_6 true = 1
  hreads17_6 : ∀ i i' : grid17.Coords, (∀ a, reads17_6 a = true → i a = i' a) → cc17_transform_6 i = cc17_transform_6 i'
  hinb17_6 : ∀ (i : grid17.Coords) a, (cc17_transform_6 i a + 1) * S1x128.size a ≤ S1x128.size a
  hwx17_6 : ∀ i : grid17.Coords, EltTy.bits .f32 = 32 ∨ (Rect.block (s := S1x128) S1x128.size (cc17_transform_6 i) (hinb17_6 i)).WholeWords (EltTy.packing .f32)
  hstage17_7 : ∀ j, (stage17_7 j).IsWhole
  nbuf17_7 : grid17.bufCount reads17_7 false = 2
  hreads17_7 : ∀ i i' : grid17.Coords, (∀ a, reads17_7 a = true → i a = i' a) → cc17_transform_7 i = cc17_transform_7 i'
  hinb17_7 : ∀ (i : grid17.Coords) a, (cc17_transform_7 i a + 1) * S5000x128.size a ≤ S50000x128.size a
  hwx17_7 : ∀ i : grid17.Coords, EltTy.bits .f32 = 32 ∨ (Rect.block (s := S50000x128) S5000x128.size (cc17_transform_7 i) (hinb17_7 i)).WholeWords (EltTy.packing .f32)
  hstage17_8 : ∀ j, (stage17_8 j).IsWhole
  nbuf17_8 : grid17.bufCount reads17_8 false = 2
  hreads17_8 : ∀ i i' : grid17.Coords, (∀ a, reads17_8 a = true → i a = i' a) → cc17_transform_8 i = cc17_transform_8 i'
  hinb17_8 : ∀ (i : grid17.Coords) a, (cc17_transform_8 i a + 1) * S5000x128.size a ≤ S50000x128.size a
  hwx17_8 : ∀ i : grid17.Coords, EltTy.bits .bf16 = 32 ∨ (Rect.block (s := S50000x128) S5000x128.size (cc17_transform_8 i) (hinb17_8 i)).WholeWords (EltTy.packing .bf16)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x4.size a ≤ S150000x4.size a
  hwx18_0 : ∀ i : grid18.Coords, EltTy.bits .f32 = 32 ∨ (Rect.block (s := S150000x4) S5000x4.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x128.size a ≤ S150000x128.size a
  hwx18_1 : ∀ i : grid18.Coords, EltTy.bits .bf16 = 32 ∨ (Rect.block (s := S150000x128) S5000x128.size (cc18_transform_1 i) (hinb18_1 i)).WholeWords (EltTy.packing .bf16)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x4.size a ≤ S128x4.size a
  hwx18_2 : ∀ i : grid18.Coords, EltTy.bits .f32 = 32 ∨ (Rect.block (s := S128x4) S128x4.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S128x128.size a ≤ S128x128.size a
  hwx18_4 : ∀ i : grid18.Coords, EltTy.bits .f32 = 32 ∨ (Rect.block (s := S128x128) S128x128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S128x128.size a ≤ S128x128.size a
  hwx18_5 : ∀ i : grid18.Coords, EltTy.bits .f32 = 32 ∨ (Rect.block (s := S128x128) S128x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x128.size a ≤ S1x128.size a
  hwx18_6 : ∀ i : grid18.Coords, EltTy.bits .f32 = 32 ∨ (Rect.block (s := S1x128) S1x128.size (cc18_transform_6 i) (hinb18_6 i)).WholeWords (EltTy.packing .f32)
  hstage18_7 : ∀ j, (stage18_7 j).IsWhole
  nbuf18_7 : grid18.bufCount reads18_7 true = 1
  hreads18_7 : ∀ i i' : grid18.Coords, (∀ a, reads18_7 a = true → i a = i' a) → cc18_transform_7 i = cc18_transform_7 i'
  hinb18_7 : ∀ (i : grid18.Coords) a, (cc18_transform_7 i a + 1) * S1x128.size a ≤ S1x128.size a
  hwx18_7 : ∀ i : grid18.Coords, EltTy.bits .f32 = 32 ∨ (Rect.block (s := S1x128) S1x128.size (cc18_transform_7 i) (hinb18_7 i)).WholeWords (EltTy.packing .f32)
  hstage18_8 : ∀ j, (stage18_8 j).IsWhole
  nbuf18_8 : grid18.bufCount reads18_8 true = 1
  hreads18_8 : ∀ i i' : grid18.Coords, (∀ a, reads18_8 a = true → i a = i' a) → cc18_transform_8 i = cc18_transform_8 i'
  hinb18_8 : ∀ (i : grid18.Coords) a, (cc18_transform_8 i a + 1) * S128x128.size a ≤ S128x128.size a
  hwx18_8 : ∀ i : grid18.Coords, EltTy.bits .f32 = 32 ∨ (Rect.block (s := S128x128) S128x128.size (cc18_transform_8 i) (hinb18_8 i)).WholeWords (EltTy.packing .f32)
  hstage18_9 : ∀ j, (stage18_9 j).IsWhole
  nbuf18_9 : grid18.bufCount reads18_9 false = 2
  hreads18_9 : ∀ i i' : grid18.Coords, (∀ a, reads18_9 a = true → i a = i' a) → cc18_transform_9 i = cc18_transform_9 i'
  hinb18_9 : ∀ (i : grid18.Coords) a, (cc18_transform_9 i a + 1) * S5000x128.size a ≤ S150000x128.size a
  hwx18_9 : ∀ i : grid18.Coords, EltTy.bits .bf16 = 32 ∨ (Rect.block (s := S150000x128) S5000x128.size (cc18_transform_9 i) (hinb18_9 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S3000x128.size a ≤ S12000x128.size a
  hwx19_0 : ∀ i : grid19.Coords, EltTy.bits .bf16 = 32 ∨ (Rect.block (s := S12000x128) S3000x128.size (cc19_transform_0 i) (hinb19_0 i)).WholeWords (EltTy.packing .bf16)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S128x128.size a ≤ S128x128.size a
  hwx19_1 : ∀ i : grid19.Coords, EltTy.bits .f32 = 32 ∨ (Rect.block (s := S128x128) S128x128.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S3000x128.size a ≤ S12000x128.size a
  hwx19_2 : ∀ i : grid19.Coords, EltTy.bits .f32 = 32 ∨ (Rect.block (s := S12000x128) S3000x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S3000x128.size a ≤ S12000x128.size a
  hwx20_0 : ∀ i : grid20.Coords, EltTy.bits .f32 = 32 ∨ (Rect.block (s := S12000x128) S3000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S3000x128.size a ≤ S12000x128.size a
  hwx20_1 : ∀ i : grid20.Coords, EltTy.bits .f32 = 32 ∨ (Rect.block (s := S12000x128) S3000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x128.size a ≤ S1x128.size a
  hwx20_3 : ∀ i : grid20.Coords, EltTy.bits .f32 = 32 ∨ (Rect.block (s := S1x128) S1x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S128x128.size a ≤ S128x128.size a
  hwx20_4 : ∀ i : grid20.Coords, EltTy.bits .f32 = 32 ∨ (Rect.block (s := S128x128) S128x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 true = 1
  hreads20_6 : ∀ i i' : grid20.Coords, (∀ a, reads20_6 a = true → i a = i' a) → cc20_transform_6 i = cc20_transform_6 i'
  hinb20_6 : ∀ (i : grid20.Coords) a, (cc20_transform_6 i a + 1) * S1x128.size a ≤ S1x128.size a
  hwx20_6 : ∀ i : grid20.Coords, EltTy.bits .f32 = 32 ∨ (Rect.block (s := S1x128) S1x128.size (cc20_transform_6 i) (hinb20_6 i)).WholeWords (EltTy.packing .f32)
  hstage20_7 : ∀ j, (stage20_7 j).IsWhole
  nbuf20_7 : grid20.bufCount reads20_7 true = 1
  hreads20_7 : ∀ i i' : grid20.Coords, (∀ a, reads20_7 a = true → i a = i' a) → cc20_transform_7 i = cc20_transform_7 i'
  hinb20_7 : ∀ (i : grid20.Coords) a, (cc20_transform_7 i a + 1) * S128x128.size a ≤ S128x128.size a
  hwx20_7 : ∀ i : grid20.Coords, EltTy.bits .f32 = 32 ∨ (Rect.block (s := S128x128) S128x128.size (cc20_transform_7 i) (hinb20_7 i)).WholeWords (EltTy.packing .f32)
  hstage20_8 : ∀ j, (stage20_8 j).IsWhole
  nbuf20_8 : grid20.bufCount reads20_8 true = 1
  hreads20_8 : ∀ i i' : grid20.Coords, (∀ a, reads20_8 a = true → i a = i' a) → cc20_transform_8 i = cc20_transform_8 i'
  hinb20_8 : ∀ (i : grid20.Coords) a, (cc20_transform_8 i a + 1) * S1x128.size a ≤ S1x128.size a
  hwx20_8 : ∀ i : grid20.Coords, EltTy.bits .f32 = 32 ∨ (Rect.block (s := S1x128) S1x128.size (cc20_transform_8 i) (hinb20_8 i)).WholeWords (EltTy.packing .f32)
  hstage20_9 : ∀ j, (stage20_9 j).IsWhole
  nbuf20_9 : grid20.bufCount reads20_9 true = 1
  hreads20_9 : ∀ i i' : grid20.Coords, (∀ a, reads20_9 a = true → i a = i' a) → cc20_transform_9 i = cc20_transform_9 i'
  hinb20_9 : ∀ (i : grid20.Coords) a, (cc20_transform_9 i a + 1) * S1x128.size a ≤ S1x128.size a
  hwx20_9 : ∀ i : grid20.Coords, EltTy.bits .f32 = 32 ∨ (Rect.block (s := S1x128) S1x128.size (cc20_transform_9 i) (hinb20_9 i)).WholeWords (EltTy.packing .f32)
  hstage20_10 : ∀ j, (stage20_10 j).IsWhole
  nbuf20_10 : grid20.bufCount reads20_10 false = 2
  hreads20_10 : ∀ i i' : grid20.Coords, (∀ a, reads20_10 a = true → i a = i' a) → cc20_transform_10 i = cc20_transform_10 i'
  hinb20_10 : ∀ (i : grid20.Coords) a, (cc20_transform_10 i a + 1) * S3000x128.size a ≤ S12000x128.size a
  hwx20_10 : ∀ i : grid20.Coords, EltTy.bits .f32 = 32 ∨ (Rect.block (s := S12000x128) S3000x128.size (cc20_transform_10 i) (hinb20_10 i)).WholeWords (EltTy.packing .f32)
  hstage20_11 : ∀ j, (stage20_11 j).IsWhole
  nbuf20_11 : grid20.bufCount reads20_11 false = 2
  hreads20_11 : ∀ i i' : grid20.Coords, (∀ a, reads20_11 a = true → i a = i' a) → cc20_transform_11 i = cc20_transform_11 i'
  hinb20_11 : ∀ (i : grid20.Coords) a, (cc20_transform_11 i a + 1) * S3000x128.size a ≤ S12000x128.size a
  hwx20_11 : ∀ i : grid20.Coords, EltTy.bits .bf16 = 32 ∨ (Rect.block (s := S12000x128) S3000x128.size (cc20_transform_11 i) (hinb20_11 i)).WholeWords (EltTy.packing .bf16)

variable [Facts₀]

def gather_S12000x4_S150000x1_S150000x4_1_0_n_n_0_1_14 : GatherDims S12000x4 S150000x1 S150000x4 where
  offsetDims := [1]
  collapsedSliceDims := [0]
  operandBatchingDims := []
  startIndicesBatchingDims := []
  startIndexMap := [0]
  indexVectorDim := 1
  sliceSizes := ![1, 4]
  wf := gather_S12000x4_S150000x1_S150000x4_1_0_n_n_0_1_14_wf
def gather_S50000x4_S150000x1_S150000x4_1_0_n_n_0_1_14 : GatherDims S50000x4 S150000x1 S150000x4 where
  offsetDims := [1]
  collapsedSliceDims := [0]
  operandBatchingDims := []
  startIndicesBatchingDims := []
  startIndexMap := [0]
  indexVectorDim := 1
  sliceSizes := ![1, 4]
  wf := gather_S50000x4_S150000x1_S150000x4_1_0_n_n_0_1_14_wf
def gather_S12000x128_S150000x1_S150000x128_1_0_n_n_0_1_1128 : GatherDims S12000x128 S150000x1 S150000x128 where
  offsetDims := [1]
  collapsedSliceDims := [0]
  operandBatchingDims := []
  startIndicesBatchingDims := []
  startIndexMap := [0]
  indexVectorDim := 1
  sliceSizes := ![1, 128]
  wf := gather_S12000x128_S150000x1_S150000x128_1_0_n_n_0_1_1128_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def gather_S50000x128_S12x50000x1_S12x50000x128_2_0_n_n_0_2_1128 : GatherDims S50000x128 S12x50000x1 S12x50000x128 where
  offsetDims := [2]
  collapsedSliceDims := [0]
  operandBatchingDims := []
  startIndicesBatchingDims := []
  startIndexMap := [0]
  indexVectorDim := 2
  sliceSizes := ![1, 128]
  wf := gather_S50000x128_S12x50000x1_S12x50000x128_2_0_n_n_0_2_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S2x5000x1_S2x5000x128_2_0_n_n_0_2_1128 : GatherDims S50000x128 S2x5000x1 S2x5000x128 where
  offsetDims := [2]
  collapsedSliceDims := [0]
  operandBatchingDims := []
  startIndicesBatchingDims := []
  startIndexMap := [0]
  indexVectorDim := 2
  sliceSizes := ![1, 128]
  wf := gather_S50000x128_S2x5000x1_S2x5000x128_2_0_n_n_0_2_1128_wf
def scatter_S50000x128_S10000x1_S10000x128_1_0_0_1 : ScatterDims S50000x128 S10000x1 S10000x128 where
  updateWindowDims := [1]
  insertedWindowDims := [0]
  scatterDimsToOperandDims := [0]
  indexVectorDim := 1
  wf := scatter_S50000x128_S10000x1_S10000x128_1_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S12000x128_S150000x1_S150000x128_1_0_0_1 : ScatterDims S12000x128 S150000x1 S150000x128 where
  updateWindowDims := [1]
  insertedWindowDims := [0]
  scatterDimsToOperandDims := [0]
  indexVectorDim := 1
  wf := scatter_S12000x128_S150000x1_S150000x128_1_0_0_1_wf

abbrev win0_0 : Pipeline.Window sig grid0 :=
  Pipeline.Window.ofSpec (Memref.whole main_v36) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v63) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v80) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v81) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v82_0) S5000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v82_1) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v82_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v85) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S1x5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v119) S1x5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v112) S1x128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S1x5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v130) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82_0) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v141) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v142) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v136) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v143) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v144) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v145_0) S5000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v145_1) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v145_1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v148) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v155) S1x5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v157) S1x128x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v182) S1x5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v175) S1x128x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v183) S1x5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v193) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v145_0) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v204) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v205) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v199) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v206) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v207) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v208_0) S5000x128.size cc9_transform_7 reads9_7 true false 2 stage9_7 sem9_7
    hrank9 hreads9_7 hinb9_7 nbuf9_7 (Memref.isWhole_whole _) hwx9_7 hstage9_7

abbrev win9_8 : Pipeline.Window sig grid9 :=
  Pipeline.Window.ofSpec (Memref.whole main_v208_1) S5000x128.size cc9_transform_8 reads9_8 true false 2 stage9_8 sem9_8
    hrank9 hreads9_8 hinb9_8 nbuf9_8 (Memref.isWhole_whole _) hwx9_8 hstage9_8

abbrev win9 : Fin 9 → Pipeline.Window sig grid9 := fun | 0 => win9_0 | 1 => win9_1 | 2 => win9_2 | 3 => win9_3 | 4 => win9_4 | 5 => win9_5 | 6 => win9_6 | 7 => win9_7 | 8 => win9_8 | ⟨_ + 9, h⟩ => absurd h (Nat.not_lt.2 (Nat.le_add_left _ _))
abbrev spec9 : Fin 9 → Pipeline.WinSpec sig grid9.rank := fun w => (win9 w).toWinSpec

abbrev win10_0 : Pipeline.Window sig grid10 :=
  Pipeline.Window.ofSpec (Memref.whole main_v208_1) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v210) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v211) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v218) S1x5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v220) S1x128x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v221) S1x5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v245) S1x5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v238) S1x128x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v246) S1x5000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v256) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v208_0) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v267) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v268) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v262) S128x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v269) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v270) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v271_0) S5000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v271_1) S5000x128.size cc13_transform_8 reads13_8 true false 2 stage13_8 sem13_8
    hrank13 hreads13_8 hinb13_8 nbuf13_8 (Memref.isWhole_whole _) hwx13_8 hstage13_8

abbrev win13 : Fin 9 → Pipeline.Window sig grid13 := fun | 0 => win13_0 | 1 => win13_1 | 2 => win13_2 | 3 => win13_3 | 4 => win13_4 | 5 => win13_5 | 6 => win13_6 | 7 => win13_7 | 8 => win13_8 | ⟨_ + 9, h⟩ => absurd h (Nat.not_lt.2 (Nat.le_add_left _ _))
abbrev spec13 : Fin 9 → Pipeline.WinSpec sig grid13.rank := fun w => (win13 w).toWinSpec

abbrev win14_0 : Pipeline.Window sig grid14 :=
  Pipeline.Window.ofSpec (Memref.whole main_v271_1) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v273) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v274) S5000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v281) S1x5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v283) S1x128x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v284) S1x5000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v308) S1x5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v301) S1x128x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v309) S1x5000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v319) S5000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v271_0) S5000x128.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v330) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v331) S1x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v325) S128x128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v332) S1x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v333) S1x128.size cc17_transform_6 reads17_6 false true 1 stage17_6 sem17_6
    hrank17 hreads17_6 hinb17_6 nbuf17_6 (Memref.isWhole_whole _) hwx17_6 hstage17_6

abbrev win17_7 : Pipeline.Window sig grid17 :=
  Pipeline.Window.ofSpec (Memref.whole main_v334_0) S5000x128.size cc17_transform_7 reads17_7 true false 2 stage17_7 sem17_7
    hrank17 hreads17_7 hinb17_7 nbuf17_7 (Memref.isWhole_whole _) hwx17_7 hstage17_7

abbrev win17_8 : Pipeline.Window sig grid17 :=
  Pipeline.Window.ofSpec (Memref.whole main_v334_1) S5000x128.size cc17_transform_8 reads17_8 true false 2 stage17_8 sem17_8
    hrank17 hreads17_8 hinb17_8 nbuf17_8 (Memref.isWhole_whole _) hwx17_8 hstage17_8

abbrev win17 : Fin 9 → Pipeline.Window sig grid17 := fun | 0 => win17_0 | 1 => win17_1 | 2 => win17_2 | 3 => win17_3 | 4 => win17_4 | 5 => win17_5 | 6 => win17_6 | 7 => win17_7 | 8 => win17_8 | ⟨_ + 9, h⟩ => absurd h (Nat.not_lt.2 (Nat.le_add_left _ _))
abbrev spec17 : Fin 9 → Pipeline.WinSpec sig grid17.rank := fun w => (win17 w).toWinSpec

abbrev win18_0 : Pipeline.Window sig grid18 :=
  Pipeline.Window.ofSpec (Memref.whole main_v371) S5000x4.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v378) S5000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v338) S128x4.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v385) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v379) S128x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v380) S128x128.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v386) S1x128.size cc18_transform_6 reads18_6 false true 1 stage18_6 sem18_6
    hrank18 hreads18_6 hinb18_6 nbuf18_6 (Memref.isWhole_whole _) hwx18_6 hstage18_6

abbrev win18_7 : Pipeline.Window sig grid18 :=
  Pipeline.Window.ofSpec (Memref.whole main_v387) S1x128.size cc18_transform_7 reads18_7 false true 1 stage18_7 sem18_7
    hrank18 hreads18_7 hinb18_7 nbuf18_7 (Memref.isWhole_whole _) hwx18_7 hstage18_7

abbrev win18_8 : Pipeline.Window sig grid18 :=
  Pipeline.Window.ofSpec (Memref.whole main_v346) S128x128.size cc18_transform_8 reads18_8 false true 1 stage18_8 sem18_8
    hrank18 hreads18_8 hinb18_8 nbuf18_8 (Memref.isWhole_whole _) hwx18_8 hstage18_8

abbrev win18_9 : Pipeline.Window sig grid18 :=
  Pipeline.Window.ofSpec (Memref.whole main_v388) S5000x128.size cc18_transform_9 reads18_9 true false 2 stage18_9 sem18_9
    hrank18 hreads18_9 hinb18_9 nbuf18_9 (Memref.isWhole_whole _) hwx18_9 hstage18_9

abbrev win18 : Fin 10 → Pipeline.Window sig grid18 := fun | 0 => win18_0 | 1 => win18_1 | 2 => win18_2 | 3 => win18_3 | 4 => win18_4 | 5 => win18_5 | 6 => win18_6 | 7 => win18_7 | 8 => win18_8 | 9 => win18_9 | ⟨_ + 10, h⟩ => absurd h (Nat.not_lt.2 (Nat.le_add_left _ _))
abbrev spec18 : Fin 10 → Pipeline.WinSpec sig grid18.rank := fun w => (win18 w).toWinSpec

abbrev win19_0 : Pipeline.Window sig grid19 :=
  Pipeline.Window.ofSpec (Memref.whole main_v389) S3000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v336) S128x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v390) S3000x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v398) S3000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_arg0) S3000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v411) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v412) S1x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v348) S128x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v413) S1x128.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v414) S1x128.size cc20_transform_6 reads20_6 false true 1 stage20_6 sem20_6
    hrank20 hreads20_6 hinb20_6 nbuf20_6 (Memref.isWhole_whole _) hwx20_6 hstage20_6

abbrev win20_7 : Pipeline.Window sig grid20 :=
  Pipeline.Window.ofSpec (Memref.whole main_v352) S128x128.size cc20_transform_7 reads20_7 false true 1 stage20_7 sem20_7
    hrank20 hreads20_7 hinb20_7 nbuf20_7 (Memref.isWhole_whole _) hwx20_7 hstage20_7

abbrev win20_8 : Pipeline.Window sig grid20 :=
  Pipeline.Window.ofSpec (Memref.whole main_v415) S1x128.size cc20_transform_8 reads20_8 false true 1 stage20_8 sem20_8
    hrank20 hreads20_8 hinb20_8 nbuf20_8 (Memref.isWhole_whole _) hwx20_8 hstage20_8

abbrev win20_9 : Pipeline.Window sig grid20 :=
  Pipeline.Window.ofSpec (Memref.whole main_v416) S1x128.size cc20_transform_9 reads20_9 false true 1 stage20_9 sem20_9
    hrank20 hreads20_9 hinb20_9 nbuf20_9 (Memref.isWhole_whole _) hwx20_9 hstage20_9

abbrev win20_10 : Pipeline.Window sig grid20 :=
  Pipeline.Window.ofSpec (Memref.whole main_v417_0) S3000x128.size cc20_transform_10 reads20_10 true false 2 stage20_10 sem20_10
    hrank20 hreads20_10 hinb20_10 nbuf20_10 (Memref.isWhole_whole _) hwx20_10 hstage20_10

abbrev win20_11 : Pipeline.Window sig grid20 :=
  Pipeline.Window.ofSpec (Memref.whole main_v417_1) S3000x128.size cc20_transform_11 reads20_11 true false 2 stage20_11 sem20_11
    hrank20 hreads20_11 hinb20_11 nbuf20_11 (Memref.isWhole_whole _) hwx20_11 hstage20_11

abbrev win20 : Fin 12 → Pipeline.Window sig grid20 := fun | 0 => win20_0 | 1 => win20_1 | 2 => win20_2 | 3 => win20_3 | 4 => win20_4 | 5 => win20_5 | 6 => win20_6 | 7 => win20_7 | 8 => win20_8 | 9 => win20_9 | 10 => win20_10 | 11 => win20_11 | ⟨_ + 12, h⟩ => absurd h (Nat.not_lt.2 (Nat.le_add_left _ _))
abbrev spec20 : Fin 12 → Pipeline.WinSpec sig grid20.rank := fun w => (win20 w).toWinSpec

class Facts : Prop extends Facts₀ where

variable [Facts]
-- ==== ReferenceIdeal.lean ====
abbrev S12000x128 : Shape := ⟨2, ![12000, 128]⟩
abbrev S50000x4 : Shape := ⟨2, ![50000, 4]⟩
abbrev S12000x4 : Shape := ⟨2, ![12000, 4]⟩
abbrev S2x128x128 : Shape := ⟨3, ![2, 128, 128]⟩
abbrev S2x128x4 : Shape := ⟨3, ![2, 128, 4]⟩
abbrev S2x128 : Shape := ⟨2, ![2, 128]⟩
abbrev S2x128x256 : Shape := ⟨3, ![2, 128, 256]⟩
abbrev S2x2x128 : Shape := ⟨3, ![2, 2, 128]⟩
abbrev S4x128x128 : Shape := ⟨3, ![4, 128, 128]⟩
abbrev S4x12x128x128 : Shape := ⟨4, ![4, 12, 128, 128]⟩
abbrev S4x2x128 : Shape := ⟨3, ![4, 2, 128]⟩
abbrev S150000 : Shape := ⟨1, ![150000]⟩
abbrev S12x50000 : Shape := ⟨2, ![12, 50000]⟩
abbrev S2x5000 : Shape := ⟨2, ![2, 5000]⟩
abbrev S_ : Shape := ⟨0, ![]⟩
abbrev S50000x128 : Shape := ⟨2, ![50000, 128]⟩
abbrev S1x128x128 : Shape := ⟨3, ![1, 128, 128]⟩
abbrev S128x128 : Shape := ⟨2, ![128, 128]⟩
abbrev S1x128x4 : Shape := ⟨3, ![1, 128, 4]⟩
abbrev S128x4 : Shape := ⟨2, ![128, 4]⟩
abbrev S1x128 : Shape := ⟨2, ![1, 128]⟩
abbrev S128 : Shape := ⟨1, ![128]⟩
abbrev S1x128x256 : Shape := ⟨3, ![1, 128, 256]⟩
abbrev S128x256 : Shape := ⟨2, ![128, 256]⟩
abbrev S1x2x128 : Shape := ⟨3, ![1, 2, 128]⟩
abbrev S150000x1 : Shape := ⟨2, ![150000, 1]⟩
abbrev S150000x4 : Shape := ⟨2, ![150000, 4]⟩
abbrev S4x128 : Shape := ⟨2, ![4, 128]⟩
abbrev S150000x128 : Shape := ⟨2, ![150000, 128]⟩
abbrev S150000x256 : Shape := ⟨2, ![150000, 256]⟩
abbrev S256x128 : Shape := ⟨2, ![256, 128]⟩
abbrev S50000 : Shape := ⟨1, ![50000]⟩
abbrev S50000x1 : Shape := ⟨2, ![50000, 1]⟩
abbrev S1x50000 : Shape := ⟨2, ![1, 50000]⟩
abbrev S1x1x128x128 : Shape := ⟨4, ![1, 1, 128, 128]⟩
abbrev S1x5000 : Shape := ⟨2, ![1, 5000]⟩
abbrev S5000 : Shape := ⟨1, ![5000]⟩
abbrev S5000x1 : Shape := ⟨2, ![5000, 1]⟩
abbrev S5000x128 : Shape := ⟨2, ![5000, 128]⟩
abbrev S12000 : Shape := ⟨1, ![12000]⟩
abbrev S12000x1 : Shape := ⟨2, ![12000, 1]⟩

abbrev nBuf : Space → Nat
  | .hbm => 2513
  | .vmem => 0
  | .smem => 0
  | _ => 0

abbrev hbmTy0_0 (i : Nat) : BufTy := match i % 128 with
  | 0 => ⟨S12000x128, .f32⟩
  | 1 => ⟨S50000x4, .f32⟩
  | 2 => ⟨S12000x4, .f32⟩
  | 3 => ⟨S2x128x128, .f32⟩
  | 4 => ⟨S2x128x4, .f32⟩
  | 5 => ⟨S2x128, .f32⟩
  | 6 => ⟨S2x128x256, .f32⟩
  | 7 => ⟨S2x2x128, .f32⟩
  | 8 => ⟨S2x128x128, .f32⟩
  | 9 => ⟨S2x128x128, .f32⟩
  | 10 => ⟨S2x2x128, .f32⟩
  | 11 => ⟨S2x128x128, .f32⟩
  | 12 => ⟨S2x2x128, .f32⟩
  | 13 => ⟨S2x2x128, .f32⟩
  | 14 => ⟨S4x128x128, .f32⟩
  | 15 => ⟨S4x12x128x128, .f32⟩
  | 16 => ⟨S4x128x128, .f32⟩
  | 17 => ⟨S4x128x128, .f32⟩
  | 18 => ⟨S4x2x128, .f32⟩
  | 19 => ⟨S4x128x128, .f32⟩
  | 20 => ⟨S4x2x128, .f32⟩
  | 21 => ⟨S150000, .i32⟩
  | 22 => ⟨S150000, .i32⟩
  | 23 => ⟨S150000, .i32⟩
  | 24 => ⟨S150000, .i32⟩
  | 25 => ⟨S12x50000, .i32⟩
  | 26 => ⟨S12x50000, .i32⟩
  | 27 => ⟨S2x5000, .i32⟩
  | 28 => ⟨S2x5000, .i32⟩
  | 29 => ⟨S_, .f32⟩
  | 30 => ⟨S50000x128, .f32⟩
  | 31 => ⟨S1x128x128, .f32⟩
  | 32 => ⟨S128x128, .f32⟩
  | 33 => ⟨S1x128x4, .f32⟩
  | 34 => ⟨S128x4, .f32⟩
  | 35 => ⟨S1x128, .f32⟩
  | 36 => ⟨S128, .f32⟩
  | 37 => ⟨S1x128x256, .f32⟩
  | 38 => ⟨S128x256, .f32⟩
  | 39 => ⟨S1x2x128, .f32⟩
  | 40 => ⟨S2x128, .f32⟩
  | 41 => ⟨S1x128x128, .f32⟩
  | 42 => ⟨S128x128, .f32⟩
  | 43 => ⟨S1x128x128, .f32⟩
  | 44 => ⟨S128x128, .f32⟩
  | 45 => ⟨S1x2x128, .f32⟩
  | 46 => ⟨S2x128, .f32⟩
  | 47 => ⟨S1x128x128, .f32⟩
  | 48 => ⟨S128x128, .f32⟩
  | 49 => ⟨S1x2x128, .f32⟩
  | 50 => ⟨S2x128, .f32⟩
  | 51 => ⟨S1x2x128, .f32⟩
  | 52 => ⟨S2x128, .f32⟩
  | 53 => ⟨S_, .i32⟩
  | 54 => ⟨S150000, .i32⟩
  | 55 => ⟨S150000, .i1⟩
  | 56 => ⟨S_, .i32⟩
  | 57 => ⟨S150000, .i32⟩
  | 58 => ⟨S150000, .i32⟩
  | 59 => ⟨S150000, .i32⟩
  | 60 => ⟨S150000x1, .i32⟩
  | 61 => ⟨S150000x4, .f32⟩
  | 62 => ⟨S_, .i32⟩
  | 63 => ⟨S150000, .i32⟩
  | 64 => ⟨S150000, .i1⟩
  | 65 => ⟨S_, .i32⟩
  | 66 => ⟨S150000, .i32⟩
  | 67 => ⟨S150000, .i32⟩
  | 68 => ⟨S150000, .i32⟩
  | 69 => ⟨S150000x1, .i32⟩
  | 70 => ⟨S150000x4, .f32⟩
  | 71 => ⟨S150000x4, .f32⟩
  | 72 => ⟨S4x128, .f32⟩
  | 73 => ⟨S150000x128, .f32⟩
  | 74 => ⟨S1x128, .f32⟩
  | 75 => ⟨S150000x128, .f32⟩
  | 76 => ⟨S150000x128, .f32⟩
  | 77 => ⟨S_, .f32⟩
  | 78 => ⟨S150000x128, .f32⟩
  | 79 => ⟨S150000x128, .f32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x128, .f32⟩
  | 89 => ⟨S150000x256, .f32⟩
  | 90 => ⟨S256x128, .f32⟩
  | 91 => ⟨S150000x128, .f32⟩
  | 92 => ⟨S_, .f32⟩
  | 93 => ⟨S150000, .f32⟩
  | 94 => ⟨S150000x1, .f32⟩
  | 95 => ⟨S_, .f32⟩
  | 96 => ⟨S150000x1, .f32⟩
  | 97 => ⟨S150000x1, .f32⟩
  | 98 => ⟨S_, .i32⟩
  | 99 => ⟨S_, .f32⟩
  | 100 => ⟨S150000, .f32⟩
  | 101 => ⟨S150000x1, .f32⟩
  | 102 => ⟨S_, .f32⟩
  | 103 => ⟨S150000x1, .f32⟩
  | 104 => ⟨S150000x1, .f32⟩
  | 105 => ⟨S150000x128, .f32⟩
  | 106 => ⟨S150000x128, .f32⟩
  | 107 => ⟨S150000x128, .f32⟩
  | 108 => ⟨S_, .f32⟩
  | 109 => ⟨S_, .f32⟩
  | 110 => ⟨S_, .f32⟩
  | 111 => ⟨S_, .f32⟩
  | 112 => ⟨S150000, .f32⟩
  | 113 => ⟨S150000x1, .f32⟩
  | 114 => ⟨S150000x1, .f32⟩
  | 115 => ⟨S150000x1, .f32⟩
  | 116 => ⟨S_, .f32⟩
  | 117 => ⟨S_, .i1⟩
  | 118 => ⟨S_, .f32⟩
  | 119 => ⟨S_, .f32⟩
  | 120 => ⟨S150000x1, .f32⟩
  | 121 => ⟨S150000x1, .f32⟩
  | 122 => ⟨S150000x128, .f32⟩
  | 123 => ⟨S150000x128, .f32⟩
  | 124 => ⟨S_, .f32⟩
  | 125 => ⟨S150000x1, .f32⟩
  | 126 => ⟨S150000x1, .f32⟩
  | 127 => ⟨S150000x1, .f32⟩
  | _ => ⟨S12000x128, .f32⟩

abbrev hbmTy0_1 (i : Nat) : BufTy := match i % 128 with
  | 0 => ⟨S150000x128, .f32⟩
  | 1 => ⟨S150000x128, .f32⟩
  | 2 => ⟨S1x128, .f32⟩
  | 3 => ⟨S128, .f32⟩
  | 4 => ⟨S1x128, .f32⟩
  | 5 => ⟨S150000x128, .f32⟩
  | 6 => ⟨S150000x128, .f32⟩
  | 7 => ⟨S1x128, .f32⟩
  | 8 => ⟨S128, .f32⟩
  | 9 => ⟨S1x128, .f32⟩
  | 10 => ⟨S150000x128, .f32⟩
  | 11 => ⟨S150000x128, .f32⟩
  | 12 => ⟨S_, .f32⟩
  | 13 => ⟨S150000x128, .f32⟩
  | 14 => ⟨S150000x128, .f32⟩
  | 15 => ⟨S128x128, .f32⟩
  | 16 => ⟨S150000x128, .f32⟩
  | 17 => ⟨S128x128, .f32⟩
  | 18 => ⟨S50000x128, .f32⟩
  | 19 => ⟨S_, .i32⟩
  | 20 => ⟨S150000, .i32⟩
  | 21 => ⟨S150000, .i1⟩
  | 22 => ⟨S_, .i32⟩
  | 23 => ⟨S150000, .i32⟩
  | 24 => ⟨S150000, .i32⟩
  | 25 => ⟨S150000, .i32⟩
  | 26 => ⟨S150000x1, .i32⟩
  | 27 => ⟨S50000x128, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S_, .i32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S_, .f32⟩
  | 45 => ⟨S_, .f32⟩
  | 46 => ⟨S_, .f32⟩
  | 47 => ⟨S_, .f32⟩
  | 48 => ⟨S50000, .f32⟩
  | 49 => ⟨S50000x1, .f32⟩
  | 50 => ⟨S50000x1, .f32⟩
  | 51 => ⟨S50000x1, .f32⟩
  | 52 => ⟨S_, .f32⟩
  | 53 => ⟨S_, .i1⟩
  | 54 => ⟨S_, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S_, .f32⟩
  | 61 => ⟨S50000x1, .f32⟩
  | 62 => ⟨S50000x1, .f32⟩
  | 63 => ⟨S50000x1, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S128x128, .f32⟩
  | 80 => ⟨S50000x128, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S_, .i32⟩
  | 88 => ⟨S_, .f32⟩
  | 89 => ⟨S50000, .f32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S50000, .f32⟩
  | 102 => ⟨S50000x1, .f32⟩
  | 103 => ⟨S50000x1, .f32⟩
  | 104 => ⟨S50000x1, .f32⟩
  | 105 => ⟨S_, .f32⟩
  | 106 => ⟨S_, .i1⟩
  | 107 => ⟨S_, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S_, .f32⟩
  | 114 => ⟨S50000x1, .f32⟩
  | 115 => ⟨S50000x1, .f32⟩
  | 116 => ⟨S50000x1, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S12000x128, .f32⟩

abbrev hbmTy0_2 (i : Nat) : BufTy := match i % 128 with
  | 0 => ⟨S50000x128, .f32⟩
  | 1 => ⟨S_, .f32⟩
  | 2 => ⟨S50000x128, .f32⟩
  | 3 => ⟨S50000x128, .f32⟩
  | 4 => ⟨S128x128, .f32⟩
  | 5 => ⟨S50000x128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S_, .i32⟩
  | 13 => ⟨S_, .f32⟩
  | 14 => ⟨S50000, .f32⟩
  | 15 => ⟨S50000x1, .f32⟩
  | 16 => ⟨S_, .f32⟩
  | 17 => ⟨S50000x1, .f32⟩
  | 18 => ⟨S50000x1, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S50000, .f32⟩
  | 27 => ⟨S50000x1, .f32⟩
  | 28 => ⟨S50000x1, .f32⟩
  | 29 => ⟨S50000x1, .f32⟩
  | 30 => ⟨S_, .f32⟩
  | 31 => ⟨S_, .i1⟩
  | 32 => ⟨S_, .f32⟩
  | 33 => ⟨S_, .f32⟩
  | 34 => ⟨S50000x1, .f32⟩
  | 35 => ⟨S50000x1, .f32⟩
  | 36 => ⟨S50000x128, .f32⟩
  | 37 => ⟨S50000x128, .f32⟩
  | 38 => ⟨S_, .f32⟩
  | 39 => ⟨S50000x1, .f32⟩
  | 40 => ⟨S50000x1, .f32⟩
  | 41 => ⟨S50000x1, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x128x128, .f32⟩
  | 59 => ⟨S128x128, .f32⟩
  | 60 => ⟨S128x128, .f32⟩
  | 61 => ⟨S50000x128, .f32⟩
  | 62 => ⟨S1x50000, .i32⟩
  | 63 => ⟨S50000, .i32⟩
  | 64 => ⟨S1x50000, .i32⟩
  | 65 => ⟨S50000, .i32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S50000x128, .f32⟩
  | 75 => ⟨S1x1x128x128, .f32⟩
  | 76 => ⟨S128x128, .f32⟩
  | 77 => ⟨S128x128, .f32⟩
  | 78 => ⟨S50000x128, .f32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x128, .f32⟩
  | 88 => ⟨S1x50000, .i32⟩
  | 89 => ⟨S50000, .i32⟩
  | 90 => ⟨S1x50000, .i32⟩
  | 91 => ⟨S50000, .i32⟩
  | 92 => ⟨S_, .i32⟩
  | 93 => ⟨S50000, .i32⟩
  | 94 => ⟨S50000, .i1⟩
  | 95 => ⟨S_, .i32⟩
  | 96 => ⟨S50000, .i32⟩
  | 97 => ⟨S50000, .i32⟩
  | 98 => ⟨S50000, .i32⟩
  | 99 => ⟨S50000x1, .i32⟩
  | 100 => ⟨S50000x128, .f32⟩
  | 101 => ⟨S1x1x128x128, .f32⟩
  | 102 => ⟨S128x128, .f32⟩
  | 103 => ⟨S128x128, .f32⟩
  | 104 => ⟨S50000x128, .f32⟩
  | 105 => ⟨S_, .i32⟩
  | 106 => ⟨S50000, .i32⟩
  | 107 => ⟨S50000, .i1⟩
  | 108 => ⟨S_, .i32⟩
  | 109 => ⟨S50000, .i32⟩
  | 110 => ⟨S50000, .i32⟩
  | 111 => ⟨S50000, .i32⟩
  | 112 => ⟨S50000x1, .i32⟩
  | 113 => ⟨S50000x128, .f32⟩
  | 114 => ⟨S1x50000, .i32⟩
  | 115 => ⟨S50000, .i32⟩
  | 116 => ⟨S1x50000, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S50000x128, .f32⟩
  | 127 => ⟨S1x1x128x128, .f32⟩
  | _ => ⟨S12000x128, .f32⟩

abbrev hbmTy0_3 (i : Nat) : BufTy := match i % 128 with
  | 0 => ⟨S128x128, .f32⟩
  | 1 => ⟨S128x128, .f32⟩
  | 2 => ⟨S50000x128, .f32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x128, .f32⟩
  | 12 => ⟨S1x50000, .i32⟩
  | 13 => ⟨S50000, .i32⟩
  | 14 => ⟨S1x50000, .i32⟩
  | 15 => ⟨S50000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S1x1x128x128, .f32⟩
  | 26 => ⟨S128x128, .f32⟩
  | 27 => ⟨S128x128, .f32⟩
  | 28 => ⟨S50000x128, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x128, .f32⟩
  | 38 => ⟨S1x50000, .i32⟩
  | 39 => ⟨S50000, .i32⟩
  | 40 => ⟨S1x50000, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x128, .f32⟩
  | 51 => ⟨S1x1x128x128, .f32⟩
  | 52 => ⟨S128x128, .f32⟩
  | 53 => ⟨S128x128, .f32⟩
  | 54 => ⟨S50000x128, .f32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x128, .f32⟩
  | 64 => ⟨S1x50000, .i32⟩
  | 65 => ⟨S50000, .i32⟩
  | 66 => ⟨S1x50000, .i32⟩
  | 67 => ⟨S50000, .i32⟩
  | 68 => ⟨S_, .i32⟩
  | 69 => ⟨S50000, .i32⟩
  | 70 => ⟨S50000, .i1⟩
  | 71 => ⟨S_, .i32⟩
  | 72 => ⟨S50000, .i32⟩
  | 73 => ⟨S50000, .i32⟩
  | 74 => ⟨S50000, .i32⟩
  | 75 => ⟨S50000x1, .i32⟩
  | 76 => ⟨S50000x128, .f32⟩
  | 77 => ⟨S1x1x128x128, .f32⟩
  | 78 => ⟨S128x128, .f32⟩
  | 79 => ⟨S128x128, .f32⟩
  | 80 => ⟨S50000x128, .f32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x128, .f32⟩
  | 90 => ⟨S1x50000, .i32⟩
  | 91 => ⟨S50000, .i32⟩
  | 92 => ⟨S1x50000, .i32⟩
  | 93 => ⟨S50000, .i32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x128, .f32⟩
  | 103 => ⟨S1x1x128x128, .f32⟩
  | 104 => ⟨S128x128, .f32⟩
  | 105 => ⟨S128x128, .f32⟩
  | 106 => ⟨S50000x128, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x128, .f32⟩
  | 116 => ⟨S1x50000, .i32⟩
  | 117 => ⟨S50000, .i32⟩
  | 118 => ⟨S1x50000, .i32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S12000x128, .f32⟩

abbrev hbmTy0_4 (i : Nat) : BufTy := match i % 128 with
  | 0 => ⟨S50000x128, .f32⟩
  | 1 => ⟨S1x1x128x128, .f32⟩
  | 2 => ⟨S128x128, .f32⟩
  | 3 => ⟨S128x128, .f32⟩
  | 4 => ⟨S50000x128, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000x128, .f32⟩
  | 14 => ⟨S1x50000, .i32⟩
  | 15 => ⟨S50000, .i32⟩
  | 16 => ⟨S1x50000, .i32⟩
  | 17 => ⟨S50000, .i32⟩
  | 18 => ⟨S_, .i32⟩
  | 19 => ⟨S50000, .i32⟩
  | 20 => ⟨S50000, .i1⟩
  | 21 => ⟨S_, .i32⟩
  | 22 => ⟨S50000, .i32⟩
  | 23 => ⟨S50000, .i32⟩
  | 24 => ⟨S50000, .i32⟩
  | 25 => ⟨S50000x1, .i32⟩
  | 26 => ⟨S50000x128, .f32⟩
  | 27 => ⟨S1x1x128x128, .f32⟩
  | 28 => ⟨S128x128, .f32⟩
  | 29 => ⟨S128x128, .f32⟩
  | 30 => ⟨S50000x128, .f32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x128, .f32⟩
  | 40 => ⟨S1x50000, .i32⟩
  | 41 => ⟨S50000, .i32⟩
  | 42 => ⟨S1x50000, .i32⟩
  | 43 => ⟨S50000, .i32⟩
  | 44 => ⟨S_, .i32⟩
  | 45 => ⟨S50000, .i32⟩
  | 46 => ⟨S50000, .i1⟩
  | 47 => ⟨S_, .i32⟩
  | 48 => ⟨S50000, .i32⟩
  | 49 => ⟨S50000, .i32⟩
  | 50 => ⟨S50000, .i32⟩
  | 51 => ⟨S50000x1, .i32⟩
  | 52 => ⟨S50000x128, .f32⟩
  | 53 => ⟨S1x1x128x128, .f32⟩
  | 54 => ⟨S128x128, .f32⟩
  | 55 => ⟨S128x128, .f32⟩
  | 56 => ⟨S50000x128, .f32⟩
  | 57 => ⟨S_, .i32⟩
  | 58 => ⟨S50000, .i32⟩
  | 59 => ⟨S50000, .i1⟩
  | 60 => ⟨S_, .i32⟩
  | 61 => ⟨S50000, .i32⟩
  | 62 => ⟨S50000, .i32⟩
  | 63 => ⟨S50000, .i32⟩
  | 64 => ⟨S50000x1, .i32⟩
  | 65 => ⟨S50000x128, .f32⟩
  | 66 => ⟨S1x50000, .i32⟩
  | 67 => ⟨S50000, .i32⟩
  | 68 => ⟨S1x50000, .i32⟩
  | 69 => ⟨S50000, .i32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x128, .f32⟩
  | 79 => ⟨S1x1x128x128, .f32⟩
  | 80 => ⟨S128x128, .f32⟩
  | 81 => ⟨S128x128, .f32⟩
  | 82 => ⟨S50000x128, .f32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000x128, .f32⟩
  | 92 => ⟨S1x50000, .i32⟩
  | 93 => ⟨S50000, .i32⟩
  | 94 => ⟨S1x50000, .i32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x128, .f32⟩
  | 105 => ⟨S1x1x128x128, .f32⟩
  | 106 => ⟨S128x128, .f32⟩
  | 107 => ⟨S128x128, .f32⟩
  | 108 => ⟨S50000x128, .f32⟩
  | 109 => ⟨S_, .i32⟩
  | 110 => ⟨S50000, .i32⟩
  | 111 => ⟨S50000, .i1⟩
  | 112 => ⟨S_, .i32⟩
  | 113 => ⟨S50000, .i32⟩
  | 114 => ⟨S50000, .i32⟩
  | 115 => ⟨S50000, .i32⟩
  | 116 => ⟨S50000x1, .i32⟩
  | 117 => ⟨S50000x128, .f32⟩
  | 118 => ⟨S1x5000, .i32⟩
  | 119 => ⟨S5000, .i32⟩
  | 120 => ⟨S1x5000, .i32⟩
  | 121 => ⟨S5000, .i32⟩
  | 122 => ⟨S_, .i32⟩
  | 123 => ⟨S5000, .i32⟩
  | 124 => ⟨S5000, .i1⟩
  | 125 => ⟨S_, .i32⟩
  | 126 => ⟨S5000, .i32⟩
  | 127 => ⟨S5000, .i32⟩
  | _ => ⟨S12000x128, .f32⟩

abbrev hbmTy0_5 (i : Nat) : BufTy := match i % 128 with
  | 0 => ⟨S5000, .i32⟩
  | 1 => ⟨S5000x1, .i32⟩
  | 2 => ⟨S5000x128, .f32⟩
  | 3 => ⟨S1x128x128, .f32⟩
  | 4 => ⟨S128x128, .f32⟩
  | 5 => ⟨S128x128, .f32⟩
  | 6 => ⟨S5000x128, .f32⟩
  | 7 => ⟨S_, .i32⟩
  | 8 => ⟨S5000, .i32⟩
  | 9 => ⟨S5000, .i1⟩
  | 10 => ⟨S_, .i32⟩
  | 11 => ⟨S5000, .i32⟩
  | 12 => ⟨S5000, .i32⟩
  | 13 => ⟨S5000, .i32⟩
  | 14 => ⟨S5000x1, .i32⟩
  | 15 => ⟨S50000x128, .f32⟩
  | 16 => ⟨S1x5000, .i32⟩
  | 17 => ⟨S5000, .i32⟩
  | 18 => ⟨S1x5000, .i32⟩
  | 19 => ⟨S5000, .i32⟩
  | 20 => ⟨S_, .i32⟩
  | 21 => ⟨S5000, .i32⟩
  | 22 => ⟨S5000, .i1⟩
  | 23 => ⟨S_, .i32⟩
  | 24 => ⟨S5000, .i32⟩
  | 25 => ⟨S5000, .i32⟩
  | 26 => ⟨S5000, .i32⟩
  | 27 => ⟨S5000x1, .i32⟩
  | 28 => ⟨S5000x128, .f32⟩
  | 29 => ⟨S1x128x128, .f32⟩
  | 30 => ⟨S128x128, .f32⟩
  | 31 => ⟨S128x128, .f32⟩
  | 32 => ⟨S5000x128, .f32⟩
  | 33 => ⟨S_, .i32⟩
  | 34 => ⟨S5000, .i32⟩
  | 35 => ⟨S5000, .i1⟩
  | 36 => ⟨S_, .i32⟩
  | 37 => ⟨S5000, .i32⟩
  | 38 => ⟨S5000, .i32⟩
  | 39 => ⟨S5000, .i32⟩
  | 40 => ⟨S5000x1, .i32⟩
  | 41 => ⟨S50000x128, .f32⟩
  | 42 => ⟨S1x2x128, .f32⟩
  | 43 => ⟨S2x128, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S_, .i32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S50000, .f32⟩
  | 65 => ⟨S50000x1, .f32⟩
  | 66 => ⟨S50000x1, .f32⟩
  | 67 => ⟨S50000x1, .f32⟩
  | 68 => ⟨S_, .f32⟩
  | 69 => ⟨S_, .i1⟩
  | 70 => ⟨S_, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S_, .f32⟩
  | 77 => ⟨S50000x1, .f32⟩
  | 78 => ⟨S50000x1, .f32⟩
  | 79 => ⟨S50000x1, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S128x128, .f32⟩
  | 98 => ⟨S50000x128, .f32⟩
  | 99 => ⟨S1x2x128, .f32⟩
  | 100 => ⟨S2x128, .f32⟩
  | 101 => ⟨S_, .f32⟩
  | 102 => ⟨S50000, .f32⟩
  | 103 => ⟨S50000x1, .f32⟩
  | 104 => ⟨S_, .f32⟩
  | 105 => ⟨S50000x1, .f32⟩
  | 106 => ⟨S50000x1, .f32⟩
  | 107 => ⟨S_, .i32⟩
  | 108 => ⟨S_, .f32⟩
  | 109 => ⟨S50000, .f32⟩
  | 110 => ⟨S50000x1, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S50000, .f32⟩
  | 122 => ⟨S50000x1, .f32⟩
  | 123 => ⟨S50000x1, .f32⟩
  | 124 => ⟨S50000x1, .f32⟩
  | 125 => ⟨S_, .f32⟩
  | 126 => ⟨S_, .i1⟩
  | 127 => ⟨S_, .f32⟩
  | _ => ⟨S12000x128, .f32⟩

abbrev hbmTy0_6 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S_, .f32⟩
  | 6 => ⟨S50000x1, .f32⟩
  | 7 => ⟨S50000x1, .f32⟩
  | 8 => ⟨S50000x1, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S1x128x128, .f32⟩
  | 26 => ⟨S128x128, .f32⟩
  | 27 => ⟨S128x128, .f32⟩
  | 28 => ⟨S50000x128, .f32⟩
  | 29 => ⟨S1x50000, .i32⟩
  | 30 => ⟨S50000, .i32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x128, .f32⟩
  | 42 => ⟨S1x1x128x128, .f32⟩
  | 43 => ⟨S128x128, .f32⟩
  | 44 => ⟨S128x128, .f32⟩
  | 45 => ⟨S50000x128, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x128, .f32⟩
  | 55 => ⟨S1x50000, .i32⟩
  | 56 => ⟨S50000, .i32⟩
  | 57 => ⟨S1x50000, .i32⟩
  | 58 => ⟨S50000, .i32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x128, .f32⟩
  | 68 => ⟨S1x1x128x128, .f32⟩
  | 69 => ⟨S128x128, .f32⟩
  | 70 => ⟨S128x128, .f32⟩
  | 71 => ⟨S50000x128, .f32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000x128, .f32⟩
  | 81 => ⟨S1x50000, .i32⟩
  | 82 => ⟨S50000, .i32⟩
  | 83 => ⟨S1x50000, .i32⟩
  | 84 => ⟨S50000, .i32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x128, .f32⟩
  | 94 => ⟨S1x1x128x128, .f32⟩
  | 95 => ⟨S128x128, .f32⟩
  | 96 => ⟨S128x128, .f32⟩
  | 97 => ⟨S50000x128, .f32⟩
  | 98 => ⟨S_, .i32⟩
  | 99 => ⟨S50000, .i32⟩
  | 100 => ⟨S50000, .i1⟩
  | 101 => ⟨S_, .i32⟩
  | 102 => ⟨S50000, .i32⟩
  | 103 => ⟨S50000, .i32⟩
  | 104 => ⟨S50000, .i32⟩
  | 105 => ⟨S50000x1, .i32⟩
  | 106 => ⟨S50000x128, .f32⟩
  | 107 => ⟨S1x50000, .i32⟩
  | 108 => ⟨S50000, .i32⟩
  | 109 => ⟨S1x50000, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x128, .f32⟩
  | 120 => ⟨S1x1x128x128, .f32⟩
  | 121 => ⟨S128x128, .f32⟩
  | 122 => ⟨S128x128, .f32⟩
  | 123 => ⟨S50000x128, .f32⟩
  | 124 => ⟨S_, .i32⟩
  | 125 => ⟨S50000, .i32⟩
  | 126 => ⟨S50000, .i1⟩
  | 127 => ⟨S_, .i32⟩
  | _ => ⟨S12000x128, .f32⟩

abbrev hbmTy0_7 (i : Nat) : BufTy := match i % 128 with
  | 0 => ⟨S50000, .i32⟩
  | 1 => ⟨S50000, .i32⟩
  | 2 => ⟨S50000, .i32⟩
  | 3 => ⟨S50000x1, .i32⟩
  | 4 => ⟨S50000x128, .f32⟩
  | 5 => ⟨S1x50000, .i32⟩
  | 6 => ⟨S50000, .i32⟩
  | 7 => ⟨S1x50000, .i32⟩
  | 8 => ⟨S50000, .i32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S50000x128, .f32⟩
  | 18 => ⟨S1x1x128x128, .f32⟩
  | 19 => ⟨S128x128, .f32⟩
  | 20 => ⟨S128x128, .f32⟩
  | 21 => ⟨S50000x128, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S50000x128, .f32⟩
  | 31 => ⟨S1x50000, .i32⟩
  | 32 => ⟨S50000, .i32⟩
  | 33 => ⟨S1x50000, .i32⟩
  | 34 => ⟨S50000, .i32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x128, .f32⟩
  | 44 => ⟨S1x1x128x128, .f32⟩
  | 45 => ⟨S128x128, .f32⟩
  | 46 => ⟨S128x128, .f32⟩
  | 47 => ⟨S50000x128, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x128, .f32⟩
  | 57 => ⟨S1x50000, .i32⟩
  | 58 => ⟨S50000, .i32⟩
  | 59 => ⟨S1x50000, .i32⟩
  | 60 => ⟨S50000, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S50000x128, .f32⟩
  | 70 => ⟨S1x1x128x128, .f32⟩
  | 71 => ⟨S128x128, .f32⟩
  | 72 => ⟨S128x128, .f32⟩
  | 73 => ⟨S50000x128, .f32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000x128, .f32⟩
  | 83 => ⟨S1x50000, .i32⟩
  | 84 => ⟨S50000, .i32⟩
  | 85 => ⟨S1x50000, .i32⟩
  | 86 => ⟨S50000, .i32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S50000x128, .f32⟩
  | 96 => ⟨S1x1x128x128, .f32⟩
  | 97 => ⟨S128x128, .f32⟩
  | 98 => ⟨S128x128, .f32⟩
  | 99 => ⟨S50000x128, .f32⟩
  | 100 => ⟨S_, .i32⟩
  | 101 => ⟨S50000, .i32⟩
  | 102 => ⟨S50000, .i1⟩
  | 103 => ⟨S_, .i32⟩
  | 104 => ⟨S50000, .i32⟩
  | 105 => ⟨S50000, .i32⟩
  | 106 => ⟨S50000, .i32⟩
  | 107 => ⟨S50000x1, .i32⟩
  | 108 => ⟨S50000x128, .f32⟩
  | 109 => ⟨S1x50000, .i32⟩
  | 110 => ⟨S50000, .i32⟩
  | 111 => ⟨S1x50000, .i32⟩
  | 112 => ⟨S50000, .i32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x128, .f32⟩
  | 122 => ⟨S1x1x128x128, .f32⟩
  | 123 => ⟨S128x128, .f32⟩
  | 124 => ⟨S128x128, .f32⟩
  | 125 => ⟨S50000x128, .f32⟩
  | 126 => ⟨S_, .i32⟩
  | 127 => ⟨S50000, .i32⟩
  | _ => ⟨S12000x128, .f32⟩

abbrev hbmTy0_8 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S50000x128, .f32⟩
  | 7 => ⟨S1x50000, .i32⟩
  | 8 => ⟨S50000, .i32⟩
  | 9 => ⟨S1x50000, .i32⟩
  | 10 => ⟨S50000, .i32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x128, .f32⟩
  | 20 => ⟨S1x1x128x128, .f32⟩
  | 21 => ⟨S128x128, .f32⟩
  | 22 => ⟨S128x128, .f32⟩
  | 23 => ⟨S50000x128, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000x128, .f32⟩
  | 33 => ⟨S1x50000, .i32⟩
  | 34 => ⟨S50000, .i32⟩
  | 35 => ⟨S1x50000, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x128, .f32⟩
  | 46 => ⟨S1x1x128x128, .f32⟩
  | 47 => ⟨S128x128, .f32⟩
  | 48 => ⟨S128x128, .f32⟩
  | 49 => ⟨S50000x128, .f32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S50000x128, .f32⟩
  | 59 => ⟨S1x50000, .i32⟩
  | 60 => ⟨S50000, .i32⟩
  | 61 => ⟨S1x50000, .i32⟩
  | 62 => ⟨S50000, .i32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S50000x128, .f32⟩
  | 72 => ⟨S1x1x128x128, .f32⟩
  | 73 => ⟨S128x128, .f32⟩
  | 74 => ⟨S128x128, .f32⟩
  | 75 => ⟨S50000x128, .f32⟩
  | 76 => ⟨S_, .i32⟩
  | 77 => ⟨S50000, .i32⟩
  | 78 => ⟨S50000, .i1⟩
  | 79 => ⟨S_, .i32⟩
  | 80 => ⟨S50000, .i32⟩
  | 81 => ⟨S50000, .i32⟩
  | 82 => ⟨S50000, .i32⟩
  | 83 => ⟨S50000x1, .i32⟩
  | 84 => ⟨S50000x128, .f32⟩
  | 85 => ⟨S1x5000, .i32⟩
  | 86 => ⟨S5000, .i32⟩
  | 87 => ⟨S1x5000, .i32⟩
  | 88 => ⟨S5000, .i32⟩
  | 89 => ⟨S_, .i32⟩
  | 90 => ⟨S5000, .i32⟩
  | 91 => ⟨S5000, .i1⟩
  | 92 => ⟨S_, .i32⟩
  | 93 => ⟨S5000, .i32⟩
  | 94 => ⟨S5000, .i32⟩
  | 95 => ⟨S5000, .i32⟩
  | 96 => ⟨S5000x1, .i32⟩
  | 97 => ⟨S5000x128, .f32⟩
  | 98 => ⟨S1x128x128, .f32⟩
  | 99 => ⟨S128x128, .f32⟩
  | 100 => ⟨S128x128, .f32⟩
  | 101 => ⟨S5000x128, .f32⟩
  | 102 => ⟨S_, .i32⟩
  | 103 => ⟨S5000, .i32⟩
  | 104 => ⟨S5000, .i1⟩
  | 105 => ⟨S_, .i32⟩
  | 106 => ⟨S5000, .i32⟩
  | 107 => ⟨S5000, .i32⟩
  | 108 => ⟨S5000, .i32⟩
  | 109 => ⟨S5000x1, .i32⟩
  | 110 => ⟨S50000x128, .f32⟩
  | 111 => ⟨S1x5000, .i32⟩
  | 112 => ⟨S5000, .i32⟩
  | 113 => ⟨S1x5000, .i32⟩
  | 114 => ⟨S5000, .i32⟩
  | 115 => ⟨S_, .i32⟩
  | 116 => ⟨S5000, .i32⟩
  | 117 => ⟨S5000, .i1⟩
  | 118 => ⟨S_, .i32⟩
  | 119 => ⟨S5000, .i32⟩
  | 120 => ⟨S5000, .i32⟩
  | 121 => ⟨S5000, .i32⟩
  | 122 => ⟨S5000x1, .i32⟩
  | 123 => ⟨S5000x128, .f32⟩
  | 124 => ⟨S1x128x128, .f32⟩
  | 125 => ⟨S128x128, .f32⟩
  | 126 => ⟨S128x128, .f32⟩
  | 127 => ⟨S5000x128, .f32⟩
  | _ => ⟨S12000x128, .f32⟩

abbrev hbmTy0_9 (i : Nat) : BufTy := match i % 128 with
  | 0 => ⟨S_, .i32⟩
  | 1 => ⟨S5000, .i32⟩
  | 2 => ⟨S5000, .i1⟩
  | 3 => ⟨S_, .i32⟩
  | 4 => ⟨S5000, .i32⟩
  | 5 => ⟨S5000, .i32⟩
  | 6 => ⟨S5000, .i32⟩
  | 7 => ⟨S5000x1, .i32⟩
  | 8 => ⟨S50000x128, .f32⟩
  | 9 => ⟨S1x2x128, .f32⟩
  | 10 => ⟨S2x128, .f32⟩
  | 11 => ⟨S_, .f32⟩
  | 12 => ⟨S50000, .f32⟩
  | 13 => ⟨S50000x1, .f32⟩
  | 14 => ⟨S_, .f32⟩
  | 15 => ⟨S50000x1, .f32⟩
  | 16 => ⟨S50000x1, .f32⟩
  | 17 => ⟨S_, .i32⟩
  | 18 => ⟨S_, .f32⟩
  | 19 => ⟨S50000, .f32⟩
  | 20 => ⟨S50000x1, .f32⟩
  | 21 => ⟨S_, .f32⟩
  | 22 => ⟨S50000x1, .f32⟩
  | 23 => ⟨S50000x1, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S50000, .f32⟩
  | 32 => ⟨S50000x1, .f32⟩
  | 33 => ⟨S50000x1, .f32⟩
  | 34 => ⟨S50000x1, .f32⟩
  | 35 => ⟨S_, .f32⟩
  | 36 => ⟨S_, .i1⟩
  | 37 => ⟨S_, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S_, .f32⟩
  | 44 => ⟨S50000x1, .f32⟩
  | 45 => ⟨S50000x1, .f32⟩
  | 46 => ⟨S50000x1, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S1x128x128, .f32⟩
  | 63 => ⟨S128x128, .f32⟩
  | 64 => ⟨S128x128, .f32⟩
  | 65 => ⟨S50000x128, .f32⟩
  | 66 => ⟨S1x2x128, .f32⟩
  | 67 => ⟨S2x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S_, .i32⟩
  | 75 => ⟨S_, .f32⟩
  | 76 => ⟨S50000, .f32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S50000, .f32⟩
  | 89 => ⟨S50000x1, .f32⟩
  | 90 => ⟨S50000x1, .f32⟩
  | 91 => ⟨S50000x1, .f32⟩
  | 92 => ⟨S_, .f32⟩
  | 93 => ⟨S_, .i1⟩
  | 94 => ⟨S_, .f32⟩
  | 95 => ⟨S_, .f32⟩
  | 96 => ⟨S50000x1, .f32⟩
  | 97 => ⟨S50000x1, .f32⟩
  | 98 => ⟨S50000x128, .f32⟩
  | 99 => ⟨S50000x128, .f32⟩
  | 100 => ⟨S_, .f32⟩
  | 101 => ⟨S50000x1, .f32⟩
  | 102 => ⟨S50000x1, .f32⟩
  | 103 => ⟨S50000x1, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S1x128x128, .f32⟩
  | 121 => ⟨S128x128, .f32⟩
  | 122 => ⟨S128x128, .f32⟩
  | 123 => ⟨S50000x128, .f32⟩
  | 124 => ⟨S1x50000, .i32⟩
  | 125 => ⟨S50000, .i32⟩
  | 126 => ⟨S1x50000, .i32⟩
  | 127 => ⟨S50000, .i32⟩
  | _ => ⟨S12000x128, .f32⟩

abbrev hbmTy0_10 (i : Nat) : BufTy := match i % 128 with
  | 0 => ⟨S_, .i32⟩
  | 1 => ⟨S50000, .i32⟩
  | 2 => ⟨S50000, .i1⟩
  | 3 => ⟨S_, .i32⟩
  | 4 => ⟨S50000, .i32⟩
  | 5 => ⟨S50000, .i32⟩
  | 6 => ⟨S50000, .i32⟩
  | 7 => ⟨S50000x1, .i32⟩
  | 8 => ⟨S50000x128, .f32⟩
  | 9 => ⟨S1x1x128x128, .f32⟩
  | 10 => ⟨S128x128, .f32⟩
  | 11 => ⟨S128x128, .f32⟩
  | 12 => ⟨S50000x128, .f32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x128, .f32⟩
  | 22 => ⟨S1x50000, .i32⟩
  | 23 => ⟨S50000, .i32⟩
  | 24 => ⟨S1x50000, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S1x1x128x128, .f32⟩
  | 36 => ⟨S128x128, .f32⟩
  | 37 => ⟨S128x128, .f32⟩
  | 38 => ⟨S50000x128, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x128, .f32⟩
  | 48 => ⟨S1x50000, .i32⟩
  | 49 => ⟨S50000, .i32⟩
  | 50 => ⟨S1x50000, .i32⟩
  | 51 => ⟨S50000, .i32⟩
  | 52 => ⟨S_, .i32⟩
  | 53 => ⟨S50000, .i32⟩
  | 54 => ⟨S50000, .i1⟩
  | 55 => ⟨S_, .i32⟩
  | 56 => ⟨S50000, .i32⟩
  | 57 => ⟨S50000, .i32⟩
  | 58 => ⟨S50000, .i32⟩
  | 59 => ⟨S50000x1, .i32⟩
  | 60 => ⟨S50000x128, .f32⟩
  | 61 => ⟨S1x1x128x128, .f32⟩
  | 62 => ⟨S128x128, .f32⟩
  | 63 => ⟨S128x128, .f32⟩
  | 64 => ⟨S50000x128, .f32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S50000x128, .f32⟩
  | 74 => ⟨S1x50000, .i32⟩
  | 75 => ⟨S50000, .i32⟩
  | 76 => ⟨S1x50000, .i32⟩
  | 77 => ⟨S50000, .i32⟩
  | 78 => ⟨S_, .i32⟩
  | 79 => ⟨S50000, .i32⟩
  | 80 => ⟨S50000, .i1⟩
  | 81 => ⟨S_, .i32⟩
  | 82 => ⟨S50000, .i32⟩
  | 83 => ⟨S50000, .i32⟩
  | 84 => ⟨S50000, .i32⟩
  | 85 => ⟨S50000x1, .i32⟩
  | 86 => ⟨S50000x128, .f32⟩
  | 87 => ⟨S1x1x128x128, .f32⟩
  | 88 => ⟨S128x128, .f32⟩
  | 89 => ⟨S128x128, .f32⟩
  | 90 => ⟨S50000x128, .f32⟩
  | 91 => ⟨S_, .i32⟩
  | 92 => ⟨S50000, .i32⟩
  | 93 => ⟨S50000, .i1⟩
  | 94 => ⟨S_, .i32⟩
  | 95 => ⟨S50000, .i32⟩
  | 96 => ⟨S50000, .i32⟩
  | 97 => ⟨S50000, .i32⟩
  | 98 => ⟨S50000x1, .i32⟩
  | 99 => ⟨S50000x128, .f32⟩
  | 100 => ⟨S1x50000, .i32⟩
  | 101 => ⟨S50000, .i32⟩
  | 102 => ⟨S1x50000, .i32⟩
  | 103 => ⟨S50000, .i32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x128, .f32⟩
  | 113 => ⟨S1x1x128x128, .f32⟩
  | 114 => ⟨S128x128, .f32⟩
  | 115 => ⟨S128x128, .f32⟩
  | 116 => ⟨S50000x128, .f32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S1x50000, .i32⟩
  | 127 => ⟨S50000, .i32⟩
  | _ => ⟨S12000x128, .f32⟩

abbrev hbmTy0_11 (i : Nat) : BufTy := match i % 128 with
  | 0 => ⟨S1x50000, .i32⟩
  | 1 => ⟨S50000, .i32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000x128, .f32⟩
  | 11 => ⟨S1x1x128x128, .f32⟩
  | 12 => ⟨S128x128, .f32⟩
  | 13 => ⟨S128x128, .f32⟩
  | 14 => ⟨S50000x128, .f32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S1x50000, .i32⟩
  | 25 => ⟨S50000, .i32⟩
  | 26 => ⟨S1x50000, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x128, .f32⟩
  | 37 => ⟨S1x1x128x128, .f32⟩
  | 38 => ⟨S128x128, .f32⟩
  | 39 => ⟨S128x128, .f32⟩
  | 40 => ⟨S50000x128, .f32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000x128, .f32⟩
  | 50 => ⟨S1x50000, .i32⟩
  | 51 => ⟨S50000, .i32⟩
  | 52 => ⟨S1x50000, .i32⟩
  | 53 => ⟨S50000, .i32⟩
  | 54 => ⟨S_, .i32⟩
  | 55 => ⟨S50000, .i32⟩
  | 56 => ⟨S50000, .i1⟩
  | 57 => ⟨S_, .i32⟩
  | 58 => ⟨S50000, .i32⟩
  | 59 => ⟨S50000, .i32⟩
  | 60 => ⟨S50000, .i32⟩
  | 61 => ⟨S50000x1, .i32⟩
  | 62 => ⟨S50000x128, .f32⟩
  | 63 => ⟨S1x1x128x128, .f32⟩
  | 64 => ⟨S128x128, .f32⟩
  | 65 => ⟨S128x128, .f32⟩
  | 66 => ⟨S50000x128, .f32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x128, .f32⟩
  | 76 => ⟨S1x50000, .i32⟩
  | 77 => ⟨S50000, .i32⟩
  | 78 => ⟨S1x50000, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x128, .f32⟩
  | 89 => ⟨S1x1x128x128, .f32⟩
  | 90 => ⟨S128x128, .f32⟩
  | 91 => ⟨S128x128, .f32⟩
  | 92 => ⟨S50000x128, .f32⟩
  | 93 => ⟨S_, .i32⟩
  | 94 => ⟨S50000, .i32⟩
  | 95 => ⟨S50000, .i1⟩
  | 96 => ⟨S_, .i32⟩
  | 97 => ⟨S50000, .i32⟩
  | 98 => ⟨S50000, .i32⟩
  | 99 => ⟨S50000, .i32⟩
  | 100 => ⟨S50000x1, .i32⟩
  | 101 => ⟨S50000x128, .f32⟩
  | 102 => ⟨S1x50000, .i32⟩
  | 103 => ⟨S50000, .i32⟩
  | 104 => ⟨S1x50000, .i32⟩
  | 105 => ⟨S50000, .i32⟩
  | 106 => ⟨S_, .i32⟩
  | 107 => ⟨S50000, .i32⟩
  | 108 => ⟨S50000, .i1⟩
  | 109 => ⟨S_, .i32⟩
  | 110 => ⟨S50000, .i32⟩
  | 111 => ⟨S50000, .i32⟩
  | 112 => ⟨S50000, .i32⟩
  | 113 => ⟨S50000x1, .i32⟩
  | 114 => ⟨S50000x128, .f32⟩
  | 115 => ⟨S1x1x128x128, .f32⟩
  | 116 => ⟨S128x128, .f32⟩
  | 117 => ⟨S128x128, .f32⟩
  | 118 => ⟨S50000x128, .f32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S50000x128, .f32⟩
  | _ => ⟨S12000x128, .f32⟩

abbrev hbmTy0_12 (i : Nat) : BufTy := match i % 128 with
  | 0 => ⟨S1x50000, .i32⟩
  | 1 => ⟨S50000, .i32⟩
  | 2 => ⟨S1x50000, .i32⟩
  | 3 => ⟨S50000, .i32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x128, .f32⟩
  | 13 => ⟨S1x1x128x128, .f32⟩
  | 14 => ⟨S128x128, .f32⟩
  | 15 => ⟨S128x128, .f32⟩
  | 16 => ⟨S50000x128, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x128, .f32⟩
  | 26 => ⟨S1x50000, .i32⟩
  | 27 => ⟨S50000, .i32⟩
  | 28 => ⟨S1x50000, .i32⟩
  | 29 => ⟨S50000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x128, .f32⟩
  | 39 => ⟨S1x1x128x128, .f32⟩
  | 40 => ⟨S128x128, .f32⟩
  | 41 => ⟨S128x128, .f32⟩
  | 42 => ⟨S50000x128, .f32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S50000x128, .f32⟩
  | 52 => ⟨S1x5000, .i32⟩
  | 53 => ⟨S5000, .i32⟩
  | 54 => ⟨S1x5000, .i32⟩
  | 55 => ⟨S5000, .i32⟩
  | 56 => ⟨S_, .i32⟩
  | 57 => ⟨S5000, .i32⟩
  | 58 => ⟨S5000, .i1⟩
  | 59 => ⟨S_, .i32⟩
  | 60 => ⟨S5000, .i32⟩
  | 61 => ⟨S5000, .i32⟩
  | 62 => ⟨S5000, .i32⟩
  | 63 => ⟨S5000x1, .i32⟩
  | 64 => ⟨S5000x128, .f32⟩
  | 65 => ⟨S1x128x128, .f32⟩
  | 66 => ⟨S128x128, .f32⟩
  | 67 => ⟨S128x128, .f32⟩
  | 68 => ⟨S5000x128, .f32⟩
  | 69 => ⟨S_, .i32⟩
  | 70 => ⟨S5000, .i32⟩
  | 71 => ⟨S5000, .i1⟩
  | 72 => ⟨S_, .i32⟩
  | 73 => ⟨S5000, .i32⟩
  | 74 => ⟨S5000, .i32⟩
  | 75 => ⟨S5000, .i32⟩
  | 76 => ⟨S5000x1, .i32⟩
  | 77 => ⟨S50000x128, .f32⟩
  | 78 => ⟨S1x5000, .i32⟩
  | 79 => ⟨S5000, .i32⟩
  | 80 => ⟨S1x5000, .i32⟩
  | 81 => ⟨S5000, .i32⟩
  | 82 => ⟨S_, .i32⟩
  | 83 => ⟨S5000, .i32⟩
  | 84 => ⟨S5000, .i1⟩
  | 85 => ⟨S_, .i32⟩
  | 86 => ⟨S5000, .i32⟩
  | 87 => ⟨S5000, .i32⟩
  | 88 => ⟨S5000, .i32⟩
  | 89 => ⟨S5000x1, .i32⟩
  | 90 => ⟨S5000x128, .f32⟩
  | 91 => ⟨S1x128x128, .f32⟩
  | 92 => ⟨S128x128, .f32⟩
  | 93 => ⟨S128x128, .f32⟩
  | 94 => ⟨S5000x128, .f32⟩
  | 95 => ⟨S_, .i32⟩
  | 96 => ⟨S5000, .i32⟩
  | 97 => ⟨S5000, .i1⟩
  | 98 => ⟨S_, .i32⟩
  | 99 => ⟨S5000, .i32⟩
  | 100 => ⟨S5000, .i32⟩
  | 101 => ⟨S5000, .i32⟩
  | 102 => ⟨S5000x1, .i32⟩
  | 103 => ⟨S50000x128, .f32⟩
  | 104 => ⟨S1x2x128, .f32⟩
  | 105 => ⟨S2x128, .f32⟩
  | 106 => ⟨S_, .f32⟩
  | 107 => ⟨S50000, .f32⟩
  | 108 => ⟨S50000x1, .f32⟩
  | 109 => ⟨S_, .f32⟩
  | 110 => ⟨S50000x1, .f32⟩
  | 111 => ⟨S50000x1, .f32⟩
  | 112 => ⟨S_, .i32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S_, .f32⟩
  | 124 => ⟨S_, .f32⟩
  | 125 => ⟨S_, .f32⟩
  | 126 => ⟨S50000, .f32⟩
  | 127 => ⟨S50000x1, .f32⟩
  | _ => ⟨S12000x128, .f32⟩

abbrev hbmTy0_13 (i : Nat) : BufTy := match i % 128 with
  | 0 => ⟨S50000x1, .f32⟩
  | 1 => ⟨S50000x1, .f32⟩
  | 2 => ⟨S_, .f32⟩
  | 3 => ⟨S_, .i1⟩
  | 4 => ⟨S_, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S_, .f32⟩
  | 11 => ⟨S50000x1, .f32⟩
  | 12 => ⟨S50000x1, .f32⟩
  | 13 => ⟨S50000x1, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S1x128x128, .f32⟩
  | 30 => ⟨S128x128, .f32⟩
  | 31 => ⟨S128x128, .f32⟩
  | 32 => ⟨S50000x128, .f32⟩
  | 33 => ⟨S1x2x128, .f32⟩
  | 34 => ⟨S2x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S_, .i32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S50000, .f32⟩
  | 56 => ⟨S50000x1, .f32⟩
  | 57 => ⟨S50000x1, .f32⟩
  | 58 => ⟨S50000x1, .f32⟩
  | 59 => ⟨S_, .f32⟩
  | 60 => ⟨S_, .i1⟩
  | 61 => ⟨S_, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S1x128x128, .f32⟩
  | 88 => ⟨S128x128, .f32⟩
  | 89 => ⟨S128x128, .f32⟩
  | 90 => ⟨S50000x128, .f32⟩
  | 91 => ⟨S1x50000, .i32⟩
  | 92 => ⟨S50000, .i32⟩
  | 93 => ⟨S1x50000, .i32⟩
  | 94 => ⟨S50000, .i32⟩
  | 95 => ⟨S_, .i32⟩
  | 96 => ⟨S50000, .i32⟩
  | 97 => ⟨S50000, .i1⟩
  | 98 => ⟨S_, .i32⟩
  | 99 => ⟨S50000, .i32⟩
  | 100 => ⟨S50000, .i32⟩
  | 101 => ⟨S50000, .i32⟩
  | 102 => ⟨S50000x1, .i32⟩
  | 103 => ⟨S50000x128, .f32⟩
  | 104 => ⟨S1x1x128x128, .f32⟩
  | 105 => ⟨S128x128, .f32⟩
  | 106 => ⟨S128x128, .f32⟩
  | 107 => ⟨S50000x128, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x128, .f32⟩
  | 117 => ⟨S1x50000, .i32⟩
  | 118 => ⟨S50000, .i32⟩
  | 119 => ⟨S1x50000, .i32⟩
  | 120 => ⟨S50000, .i32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S12000x128, .f32⟩

abbrev hbmTy0_14 (i : Nat) : BufTy := match i % 128 with
  | 0 => ⟨S50000x1, .i32⟩
  | 1 => ⟨S50000x128, .f32⟩
  | 2 => ⟨S1x1x128x128, .f32⟩
  | 3 => ⟨S128x128, .f32⟩
  | 4 => ⟨S128x128, .f32⟩
  | 5 => ⟨S50000x128, .f32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S50000x128, .f32⟩
  | 15 => ⟨S1x50000, .i32⟩
  | 16 => ⟨S50000, .i32⟩
  | 17 => ⟨S1x50000, .i32⟩
  | 18 => ⟨S50000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x128, .f32⟩
  | 28 => ⟨S1x1x128x128, .f32⟩
  | 29 => ⟨S128x128, .f32⟩
  | 30 => ⟨S128x128, .f32⟩
  | 31 => ⟨S50000x128, .f32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S1x50000, .i32⟩
  | 42 => ⟨S50000, .i32⟩
  | 43 => ⟨S1x50000, .i32⟩
  | 44 => ⟨S50000, .i32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000x128, .f32⟩
  | 54 => ⟨S1x1x128x128, .f32⟩
  | 55 => ⟨S128x128, .f32⟩
  | 56 => ⟨S128x128, .f32⟩
  | 57 => ⟨S50000x128, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x128, .f32⟩
  | 67 => ⟨S1x50000, .i32⟩
  | 68 => ⟨S50000, .i32⟩
  | 69 => ⟨S1x50000, .i32⟩
  | 70 => ⟨S50000, .i32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S50000x128, .f32⟩
  | 80 => ⟨S1x1x128x128, .f32⟩
  | 81 => ⟨S128x128, .f32⟩
  | 82 => ⟨S128x128, .f32⟩
  | 83 => ⟨S50000x128, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x128, .f32⟩
  | 93 => ⟨S1x50000, .i32⟩
  | 94 => ⟨S50000, .i32⟩
  | 95 => ⟨S1x50000, .i32⟩
  | 96 => ⟨S50000, .i32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x128, .f32⟩
  | 106 => ⟨S1x1x128x128, .f32⟩
  | 107 => ⟨S128x128, .f32⟩
  | 108 => ⟨S128x128, .f32⟩
  | 109 => ⟨S50000x128, .f32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S50000x128, .f32⟩
  | 119 => ⟨S1x50000, .i32⟩
  | 120 => ⟨S50000, .i32⟩
  | 121 => ⟨S1x50000, .i32⟩
  | 122 => ⟨S50000, .i32⟩
  | 123 => ⟨S_, .i32⟩
  | 124 => ⟨S50000, .i32⟩
  | 125 => ⟨S50000, .i1⟩
  | 126 => ⟨S_, .i32⟩
  | 127 => ⟨S50000, .i32⟩
  | _ => ⟨S12000x128, .f32⟩

abbrev hbmTy0_15 (i : Nat) : BufTy := match i % 128 with
  | 0 => ⟨S50000, .i32⟩
  | 1 => ⟨S50000, .i32⟩
  | 2 => ⟨S50000x1, .i32⟩
  | 3 => ⟨S50000x128, .f32⟩
  | 4 => ⟨S1x1x128x128, .f32⟩
  | 5 => ⟨S128x128, .f32⟩
  | 6 => ⟨S128x128, .f32⟩
  | 7 => ⟨S50000x128, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x128, .f32⟩
  | 17 => ⟨S1x50000, .i32⟩
  | 18 => ⟨S50000, .i32⟩
  | 19 => ⟨S1x50000, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x128, .f32⟩
  | 30 => ⟨S1x1x128x128, .f32⟩
  | 31 => ⟨S128x128, .f32⟩
  | 32 => ⟨S128x128, .f32⟩
  | 33 => ⟨S50000x128, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x128, .f32⟩
  | 43 => ⟨S1x50000, .i32⟩
  | 44 => ⟨S50000, .i32⟩
  | 45 => ⟨S1x50000, .i32⟩
  | 46 => ⟨S50000, .i32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x128, .f32⟩
  | 56 => ⟨S1x1x128x128, .f32⟩
  | 57 => ⟨S128x128, .f32⟩
  | 58 => ⟨S128x128, .f32⟩
  | 59 => ⟨S50000x128, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x128, .f32⟩
  | 69 => ⟨S1x50000, .i32⟩
  | 70 => ⟨S50000, .i32⟩
  | 71 => ⟨S1x50000, .i32⟩
  | 72 => ⟨S50000, .i32⟩
  | 73 => ⟨S_, .i32⟩
  | 74 => ⟨S50000, .i32⟩
  | 75 => ⟨S50000, .i1⟩
  | 76 => ⟨S_, .i32⟩
  | 77 => ⟨S50000, .i32⟩
  | 78 => ⟨S50000, .i32⟩
  | 79 => ⟨S50000, .i32⟩
  | 80 => ⟨S50000x1, .i32⟩
  | 81 => ⟨S50000x128, .f32⟩
  | 82 => ⟨S1x1x128x128, .f32⟩
  | 83 => ⟨S128x128, .f32⟩
  | 84 => ⟨S128x128, .f32⟩
  | 85 => ⟨S50000x128, .f32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000x128, .f32⟩
  | 95 => ⟨S1x50000, .i32⟩
  | 96 => ⟨S50000, .i32⟩
  | 97 => ⟨S1x50000, .i32⟩
  | 98 => ⟨S50000, .i32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S50000x128, .f32⟩
  | 108 => ⟨S1x1x128x128, .f32⟩
  | 109 => ⟨S128x128, .f32⟩
  | 110 => ⟨S128x128, .f32⟩
  | 111 => ⟨S50000x128, .f32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S50000x128, .f32⟩
  | 121 => ⟨S1x50000, .i32⟩
  | 122 => ⟨S50000, .i32⟩
  | 123 => ⟨S1x50000, .i32⟩
  | 124 => ⟨S50000, .i32⟩
  | 125 => ⟨S_, .i32⟩
  | 126 => ⟨S50000, .i32⟩
  | 127 => ⟨S50000, .i1⟩
  | _ => ⟨S12000x128, .f32⟩

abbrev hbmTy0_16 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S50000x128, .f32⟩
  | 6 => ⟨S1x1x128x128, .f32⟩
  | 7 => ⟨S128x128, .f32⟩
  | 8 => ⟨S128x128, .f32⟩
  | 9 => ⟨S50000x128, .f32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x128, .f32⟩
  | 19 => ⟨S1x5000, .i32⟩
  | 20 => ⟨S5000, .i32⟩
  | 21 => ⟨S1x5000, .i32⟩
  | 22 => ⟨S5000, .i32⟩
  | 23 => ⟨S_, .i32⟩
  | 24 => ⟨S5000, .i32⟩
  | 25 => ⟨S5000, .i1⟩
  | 26 => ⟨S_, .i32⟩
  | 27 => ⟨S5000, .i32⟩
  | 28 => ⟨S5000, .i32⟩
  | 29 => ⟨S5000, .i32⟩
  | 30 => ⟨S5000x1, .i32⟩
  | 31 => ⟨S5000x128, .f32⟩
  | 32 => ⟨S1x128x128, .f32⟩
  | 33 => ⟨S128x128, .f32⟩
  | 34 => ⟨S128x128, .f32⟩
  | 35 => ⟨S5000x128, .f32⟩
  | 36 => ⟨S_, .i32⟩
  | 37 => ⟨S5000, .i32⟩
  | 38 => ⟨S5000, .i1⟩
  | 39 => ⟨S_, .i32⟩
  | 40 => ⟨S5000, .i32⟩
  | 41 => ⟨S5000, .i32⟩
  | 42 => ⟨S5000, .i32⟩
  | 43 => ⟨S5000x1, .i32⟩
  | 44 => ⟨S50000x128, .f32⟩
  | 45 => ⟨S1x5000, .i32⟩
  | 46 => ⟨S5000, .i32⟩
  | 47 => ⟨S1x5000, .i32⟩
  | 48 => ⟨S5000, .i32⟩
  | 49 => ⟨S_, .i32⟩
  | 50 => ⟨S5000, .i32⟩
  | 51 => ⟨S5000, .i1⟩
  | 52 => ⟨S_, .i32⟩
  | 53 => ⟨S5000, .i32⟩
  | 54 => ⟨S5000, .i32⟩
  | 55 => ⟨S5000, .i32⟩
  | 56 => ⟨S5000x1, .i32⟩
  | 57 => ⟨S5000x128, .f32⟩
  | 58 => ⟨S1x128x128, .f32⟩
  | 59 => ⟨S128x128, .f32⟩
  | 60 => ⟨S128x128, .f32⟩
  | 61 => ⟨S5000x128, .f32⟩
  | 62 => ⟨S_, .i32⟩
  | 63 => ⟨S5000, .i32⟩
  | 64 => ⟨S5000, .i1⟩
  | 65 => ⟨S_, .i32⟩
  | 66 => ⟨S5000, .i32⟩
  | 67 => ⟨S5000, .i32⟩
  | 68 => ⟨S5000, .i32⟩
  | 69 => ⟨S5000x1, .i32⟩
  | 70 => ⟨S50000x128, .f32⟩
  | 71 => ⟨S1x2x128, .f32⟩
  | 72 => ⟨S2x128, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S_, .i32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S50000, .f32⟩
  | 94 => ⟨S50000x1, .f32⟩
  | 95 => ⟨S50000x1, .f32⟩
  | 96 => ⟨S50000x1, .f32⟩
  | 97 => ⟨S_, .f32⟩
  | 98 => ⟨S_, .i1⟩
  | 99 => ⟨S_, .f32⟩
  | 100 => ⟨S_, .f32⟩
  | 101 => ⟨S50000x1, .f32⟩
  | 102 => ⟨S50000x1, .f32⟩
  | 103 => ⟨S50000x128, .f32⟩
  | 104 => ⟨S50000x128, .f32⟩
  | 105 => ⟨S_, .f32⟩
  | 106 => ⟨S50000x1, .f32⟩
  | 107 => ⟨S50000x1, .f32⟩
  | 108 => ⟨S50000x1, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S128x128, .f32⟩
  | 127 => ⟨S50000x128, .f32⟩
  | _ => ⟨S12000x128, .f32⟩

abbrev hbmTy0_17 (i : Nat) : BufTy := match i % 128 with
  | 0 => ⟨S1x2x128, .f32⟩
  | 1 => ⟨S2x128, .f32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S_, .i32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S_, .f32⟩
  | 21 => ⟨S_, .f32⟩
  | 22 => ⟨S50000, .f32⟩
  | 23 => ⟨S50000x1, .f32⟩
  | 24 => ⟨S50000x1, .f32⟩
  | 25 => ⟨S50000x1, .f32⟩
  | 26 => ⟨S_, .f32⟩
  | 27 => ⟨S_, .i1⟩
  | 28 => ⟨S_, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S_, .f32⟩
  | 35 => ⟨S50000x1, .f32⟩
  | 36 => ⟨S50000x1, .f32⟩
  | 37 => ⟨S50000x1, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S1x128x4, .f32⟩
  | 57 => ⟨S128x4, .f32⟩
  | 58 => ⟨S1x128, .f32⟩
  | 59 => ⟨S128, .f32⟩
  | 60 => ⟨S1x128x256, .f32⟩
  | 61 => ⟨S128x256, .f32⟩
  | 62 => ⟨S1x2x128, .f32⟩
  | 63 => ⟨S2x128, .f32⟩
  | 64 => ⟨S1x128x128, .f32⟩
  | 65 => ⟨S128x128, .f32⟩
  | 66 => ⟨S1x128x128, .f32⟩
  | 67 => ⟨S128x128, .f32⟩
  | 68 => ⟨S1x2x128, .f32⟩
  | 69 => ⟨S2x128, .f32⟩
  | 70 => ⟨S1x128x128, .f32⟩
  | 71 => ⟨S128x128, .f32⟩
  | 72 => ⟨S1x2x128, .f32⟩
  | 73 => ⟨S2x128, .f32⟩
  | 74 => ⟨S1x2x128, .f32⟩
  | 75 => ⟨S2x128, .f32⟩
  | 76 => ⟨S_, .i32⟩
  | 77 => ⟨S150000, .i32⟩
  | 78 => ⟨S150000, .i1⟩
  | 79 => ⟨S_, .i32⟩
  | 80 => ⟨S150000, .i32⟩
  | 81 => ⟨S150000, .i32⟩
  | 82 => ⟨S150000, .i32⟩
  | 83 => ⟨S150000x1, .i32⟩
  | 84 => ⟨S150000x4, .f32⟩
  | 85 => ⟨S_, .i32⟩
  | 86 => ⟨S150000, .i32⟩
  | 87 => ⟨S150000, .i1⟩
  | 88 => ⟨S_, .i32⟩
  | 89 => ⟨S150000, .i32⟩
  | 90 => ⟨S150000, .i32⟩
  | 91 => ⟨S150000, .i32⟩
  | 92 => ⟨S150000x1, .i32⟩
  | 93 => ⟨S150000x4, .f32⟩
  | 94 => ⟨S150000x4, .f32⟩
  | 95 => ⟨S4x128, .f32⟩
  | 96 => ⟨S150000x128, .f32⟩
  | 97 => ⟨S1x128, .f32⟩
  | 98 => ⟨S150000x128, .f32⟩
  | 99 => ⟨S150000x128, .f32⟩
  | 100 => ⟨S_, .f32⟩
  | 101 => ⟨S150000x128, .f32⟩
  | 102 => ⟨S150000x128, .f32⟩
  | 103 => ⟨S_, .i32⟩
  | 104 => ⟨S150000, .i32⟩
  | 105 => ⟨S150000, .i1⟩
  | 106 => ⟨S_, .i32⟩
  | 107 => ⟨S150000, .i32⟩
  | 108 => ⟨S150000, .i32⟩
  | 109 => ⟨S150000, .i32⟩
  | 110 => ⟨S150000x1, .i32⟩
  | 111 => ⟨S150000x128, .f32⟩
  | 112 => ⟨S150000x256, .f32⟩
  | 113 => ⟨S256x128, .f32⟩
  | 114 => ⟨S150000x128, .f32⟩
  | 115 => ⟨S_, .f32⟩
  | 116 => ⟨S150000, .f32⟩
  | 117 => ⟨S150000x1, .f32⟩
  | 118 => ⟨S_, .f32⟩
  | 119 => ⟨S150000x1, .f32⟩
  | 120 => ⟨S150000x1, .f32⟩
  | 121 => ⟨S_, .i32⟩
  | 122 => ⟨S_, .f32⟩
  | 123 => ⟨S150000, .f32⟩
  | 124 => ⟨S150000x1, .f32⟩
  | 125 => ⟨S_, .f32⟩
  | 126 => ⟨S150000x1, .f32⟩
  | 127 => ⟨S150000x1, .f32⟩
  | _ => ⟨S12000x128, .f32⟩

abbrev hbmTy0_18 (i : Nat) : BufTy := match i % 128 with
  | 0 => ⟨S150000x128, .f32⟩
  | 1 => ⟨S150000x128, .f32⟩
  | 2 => ⟨S150000x128, .f32⟩
  | 3 => ⟨S_, .f32⟩
  | 4 => ⟨S_, .f32⟩
  | 5 => ⟨S_, .f32⟩
  | 6 => ⟨S_, .f32⟩
  | 7 => ⟨S150000, .f32⟩
  | 8 => ⟨S150000x1, .f32⟩
  | 9 => ⟨S150000x1, .f32⟩
  | 10 => ⟨S150000x1, .f32⟩
  | 11 => ⟨S_, .f32⟩
  | 12 => ⟨S_, .i1⟩
  | 13 => ⟨S_, .f32⟩
  | 14 => ⟨S_, .f32⟩
  | 15 => ⟨S150000x1, .f32⟩
  | 16 => ⟨S150000x1, .f32⟩
  | 17 => ⟨S150000x128, .f32⟩
  | 18 => ⟨S150000x128, .f32⟩
  | 19 => ⟨S_, .f32⟩
  | 20 => ⟨S150000x1, .f32⟩
  | 21 => ⟨S150000x1, .f32⟩
  | 22 => ⟨S150000x1, .f32⟩
  | 23 => ⟨S150000x128, .f32⟩
  | 24 => ⟨S150000x128, .f32⟩
  | 25 => ⟨S1x128, .f32⟩
  | 26 => ⟨S128, .f32⟩
  | 27 => ⟨S1x128, .f32⟩
  | 28 => ⟨S150000x128, .f32⟩
  | 29 => ⟨S150000x128, .f32⟩
  | 30 => ⟨S1x128, .f32⟩
  | 31 => ⟨S128, .f32⟩
  | 32 => ⟨S1x128, .f32⟩
  | 33 => ⟨S150000x128, .f32⟩
  | 34 => ⟨S150000x128, .f32⟩
  | 35 => ⟨S_, .f32⟩
  | 36 => ⟨S150000x128, .f32⟩
  | 37 => ⟨S150000x128, .f32⟩
  | 38 => ⟨S128x128, .f32⟩
  | 39 => ⟨S150000x128, .f32⟩
  | 40 => ⟨S128x128, .f32⟩
  | 41 => ⟨S12000x128, .f32⟩
  | 42 => ⟨S_, .i32⟩
  | 43 => ⟨S150000, .i32⟩
  | 44 => ⟨S150000, .i1⟩
  | 45 => ⟨S_, .i32⟩
  | 46 => ⟨S150000, .i32⟩
  | 47 => ⟨S150000, .i32⟩
  | 48 => ⟨S150000, .i32⟩
  | 49 => ⟨S150000x1, .i32⟩
  | 50 => ⟨S12000x128, .f32⟩
  | 51 => ⟨S_, .f32⟩
  | 52 => ⟨S12000, .f32⟩
  | 53 => ⟨S12000x1, .f32⟩
  | 54 => ⟨S_, .f32⟩
  | 55 => ⟨S12000x1, .f32⟩
  | 56 => ⟨S12000x1, .f32⟩
  | 57 => ⟨S_, .i32⟩
  | 58 => ⟨S_, .f32⟩
  | 59 => ⟨S12000, .f32⟩
  | 60 => ⟨S12000x1, .f32⟩
  | 61 => ⟨S_, .f32⟩
  | 62 => ⟨S12000x1, .f32⟩
  | 63 => ⟨S12000x1, .f32⟩
  | 64 => ⟨S12000x128, .f32⟩
  | 65 => ⟨S12000x128, .f32⟩
  | 66 => ⟨S12000x128, .f32⟩
  | 67 => ⟨S_, .f32⟩
  | 68 => ⟨S_, .f32⟩
  | 69 => ⟨S_, .f32⟩
  | 70 => ⟨S_, .f32⟩
  | 71 => ⟨S12000, .f32⟩
  | 72 => ⟨S12000x1, .f32⟩
  | 73 => ⟨S12000x1, .f32⟩
  | 74 => ⟨S12000x1, .f32⟩
  | 75 => ⟨S_, .f32⟩
  | 76 => ⟨S_, .i1⟩
  | 77 => ⟨S_, .f32⟩
  | 78 => ⟨S_, .f32⟩
  | 79 => ⟨S12000x1, .f32⟩
  | 80 => ⟨S12000x1, .f32⟩
  | 81 => ⟨S12000x128, .f32⟩
  | 82 => ⟨S12000x128, .f32⟩
  | 83 => ⟨S_, .f32⟩
  | 84 => ⟨S12000x1, .f32⟩
  | 85 => ⟨S12000x1, .f32⟩
  | 86 => ⟨S12000x1, .f32⟩
  | 87 => ⟨S12000x128, .f32⟩
  | 88 => ⟨S12000x128, .f32⟩
  | 89 => ⟨S1x128, .f32⟩
  | 90 => ⟨S128, .f32⟩
  | 91 => ⟨S1x128, .f32⟩
  | 92 => ⟨S12000x128, .f32⟩
  | 93 => ⟨S12000x128, .f32⟩
  | 94 => ⟨S1x128, .f32⟩
  | 95 => ⟨S128, .f32⟩
  | 96 => ⟨S1x128, .f32⟩
  | 97 => ⟨S12000x128, .f32⟩
  | 98 => ⟨S12000x128, .f32⟩
  | 99 => ⟨S_, .f32⟩
  | 100 => ⟨S12000x128, .f32⟩
  | 101 => ⟨S12000x128, .f32⟩
  | 102 => ⟨S128x128, .f32⟩
  | 103 => ⟨S12000x128, .f32⟩
  | 104 => ⟨S_, .f32⟩
  | 105 => ⟨S12000, .f32⟩
  | 106 => ⟨S12000x1, .f32⟩
  | 107 => ⟨S_, .f32⟩
  | 108 => ⟨S12000x1, .f32⟩
  | 109 => ⟨S12000x1, .f32⟩
  | 110 => ⟨S_, .i32⟩
  | 111 => ⟨S_, .f32⟩
  | 112 => ⟨S12000, .f32⟩
  | 113 => ⟨S12000x1, .f32⟩
  | 114 => ⟨S_, .f32⟩
  | 115 => ⟨S12000x1, .f32⟩
  | 116 => ⟨S12000x1, .f32⟩
  | 117 => ⟨S12000x128, .f32⟩
  | 118 => ⟨S12000x128, .f32⟩
  | 119 => ⟨S12000x128, .f32⟩
  | 120 => ⟨S_, .f32⟩
  | 121 => ⟨S_, .f32⟩
  | 122 => ⟨S_, .f32⟩
  | 123 => ⟨S_, .f32⟩
  | 124 => ⟨S12000, .f32⟩
  | 125 => ⟨S12000x1, .f32⟩
  | 126 => ⟨S12000x1, .f32⟩
  | 127 => ⟨S12000x1, .f32⟩
  | _ => ⟨S12000x128, .f32⟩

abbrev hbmTy0_19 (i : Nat) : BufTy := match i % 128 with
  | 0 => ⟨S_, .f32⟩
  | 1 => ⟨S_, .i1⟩
  | 2 => ⟨S_, .f32⟩
  | 3 => ⟨S_, .f32⟩
  | 4 => ⟨S12000x1, .f32⟩
  | 5 => ⟨S12000x1, .f32⟩
  | 6 => ⟨S12000x128, .f32⟩
  | 7 => ⟨S12000x128, .f32⟩
  | 8 => ⟨S_, .f32⟩
  | 9 => ⟨S12000x1, .f32⟩
  | 10 => ⟨S12000x1, .f32⟩
  | 11 => ⟨S12000x1, .f32⟩
  | 12 => ⟨S12000x128, .f32⟩
  | 13 => ⟨S12000x128, .f32⟩
  | 14 => ⟨S1x128, .f32⟩
  | 15 => ⟨S128, .f32⟩
  | 16 => ⟨S1x128, .f32⟩
  | 17 => ⟨S12000x128, .f32⟩
  | 18 => ⟨S12000x128, .f32⟩
  | 19 => ⟨S1x128, .f32⟩
  | 20 => ⟨S128, .f32⟩
  | 21 => ⟨S1x128, .f32⟩
  | 22 => ⟨S12000x128, .f32⟩
  | 23 => ⟨S12000x128, .f32⟩
  | 24 => ⟨S_, .f32⟩
  | 25 => ⟨S12000x128, .f32⟩
  | 26 => ⟨S12000x128, .f32⟩
  | 27 => ⟨S128x128, .f32⟩
  | 28 => ⟨S12000x128, .f32⟩
  | 29 => ⟨S_, .f32⟩
  | 30 => ⟨S12000, .f32⟩
  | 31 => ⟨S12000x1, .f32⟩
  | 32 => ⟨S_, .f32⟩
  | 33 => ⟨S12000x1, .f32⟩
  | 34 => ⟨S12000x1, .f32⟩
  | 35 => ⟨S_, .i32⟩
  | 36 => ⟨S_, .f32⟩
  | 37 => ⟨S12000, .f32⟩
  | 38 => ⟨S12000x1, .f32⟩
  | 39 => ⟨S_, .f32⟩
  | 40 => ⟨S12000x1, .f32⟩
  | 41 => ⟨S12000x1, .f32⟩
  | 42 => ⟨S12000x128, .f32⟩
  | 43 => ⟨S12000x128, .f32⟩
  | 44 => ⟨S12000x128, .f32⟩
  | 45 => ⟨S_, .f32⟩
  | 46 => ⟨S_, .f32⟩
  | 47 => ⟨S_, .f32⟩
  | 48 => ⟨S_, .f32⟩
  | 49 => ⟨S12000, .f32⟩
  | 50 => ⟨S12000x1, .f32⟩
  | 51 => ⟨S12000x1, .f32⟩
  | 52 => ⟨S12000x1, .f32⟩
  | 53 => ⟨S_, .f32⟩
  | 54 => ⟨S_, .i1⟩
  | 55 => ⟨S_, .f32⟩
  | 56 => ⟨S_, .f32⟩
  | 57 => ⟨S12000x1, .f32⟩
  | 58 => ⟨S12000x1, .f32⟩
  | 59 => ⟨S12000x128, .f32⟩
  | 60 => ⟨S12000x128, .f32⟩
  | 61 => ⟨S_, .f32⟩
  | 62 => ⟨S12000x1, .f32⟩
  | 63 => ⟨S12000x1, .f32⟩
  | 64 => ⟨S12000x1, .f32⟩
  | 65 => ⟨S12000x128, .f32⟩
  | 66 => ⟨S12000x128, .f32⟩
  | 67 => ⟨S1x128, .f32⟩
  | 68 => ⟨S128, .f32⟩
  | 69 => ⟨S1x128, .f32⟩
  | 70 => ⟨S12000x128, .f32⟩
  | 71 => ⟨S12000x128, .f32⟩
  | 72 => ⟨S1x128, .f32⟩
  | 73 => ⟨S128, .f32⟩
  | 74 => ⟨S1x128, .f32⟩
  | 75 => ⟨S12000x128, .f32⟩
  | 76 => ⟨S12000x128, .f32⟩
  | 77 => ⟨S12000x128, .f32⟩
  | 78 => ⟨S_, .f32⟩
  | 79 => ⟨S12000x128, .f32⟩
  | 80 => ⟨S12000x128, .f32⟩
  | _ => ⟨S12000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S12000x128, .f32⟩

abbrev bufTy : (tb : Table) → Fin (tcTables nBuf tb) → BufTy
  | .hbm, ⟨i, _⟩ => hbmTy i
  | _, _ => ⟨S12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_0 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_1 : Ref sig .tc := ⟨.hbm, 62, rfl⟩
abbrev main_v30 : Ref sig .tc := ⟨.hbm, 63, rfl⟩
abbrev main_v31 : Ref sig .tc := ⟨.hbm, 64, rfl⟩
abbrev main_c_2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call0_cst : Ref sig .tc := ⟨.hbm, 77, rfl⟩
abbrev main_call0_v0 : Ref sig .tc := ⟨.hbm, 78, rfl⟩
abbrev main_v43 : Ref sig .tc := ⟨.hbm, 79, rfl⟩
abbrev main_c_3 : Ref sig .tc := ⟨.hbm, 80, rfl⟩
abbrev main_v44 : Ref sig .tc := ⟨.hbm, 81, rfl⟩
abbrev main_v45 : Ref sig .tc := ⟨.hbm, 82, rfl⟩
abbrev main_c_4 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_5 : Ref sig .tc := ⟨.hbm, 92, rfl⟩
abbrev main_v54 : Ref sig .tc := ⟨.hbm, 93, rfl⟩
abbrev main_v55 : Ref sig .tc := ⟨.hbm, 94, rfl⟩
abbrev main_cst_6 : Ref sig .tc := ⟨.hbm, 95, rfl⟩
abbrev main_v56 : Ref sig .tc := ⟨.hbm, 96, rfl⟩
abbrev main_v57 : Ref sig .tc := ⟨.hbm, 97, rfl⟩
abbrev main_c_7 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_cst_1 : Ref sig .tc := ⟨.hbm, 109, rfl⟩
abbrev main_call1_v8 : Ref sig .tc := ⟨.hbm, 110, rfl⟩
abbrev main_call1_cst_2 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_cst_3 : Ref sig .tc := ⟨.hbm, 116, rfl⟩
abbrev main_call1_v13 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_8 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call2_cst : Ref sig .tc := ⟨.hbm, 140, rfl⟩
abbrev main_call2_v0 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_c_9 : Ref sig .tc := ⟨.hbm, 147, rfl⟩
abbrev main_v81 : Ref sig .tc := ⟨.hbm, 148, rfl⟩
abbrev main_v82 : Ref sig .tc := ⟨.hbm, 149, rfl⟩
abbrev main_c_10 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_11 : Ref sig .tc := ⟨.hbm, 156, rfl⟩
abbrev main_v88 : Ref sig .tc := ⟨.hbm, 157, rfl⟩
abbrev main_v89 : Ref sig .tc := ⟨.hbm, 158, rfl⟩
abbrev main_cst_12 : Ref sig .tc := ⟨.hbm, 159, rfl⟩
abbrev main_v90 : Ref sig .tc := ⟨.hbm, 160, rfl⟩
abbrev main_v91 : Ref sig .tc := ⟨.hbm, 161, rfl⟩
abbrev main_c_13 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_cst_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_cst_1 : Ref sig .tc := ⟨.hbm, 173, rfl⟩
abbrev main_call3_v8 : Ref sig .tc := ⟨.hbm, 174, rfl⟩
abbrev main_call3_cst_2 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_v12 : Ref sig .tc := ⟨.hbm, 179, rfl⟩
abbrev main_call3_cst_3 : Ref sig .tc := ⟨.hbm, 180, rfl⟩
abbrev main_call3_v13 : Ref sig .tc := ⟨.hbm, 181, rfl⟩
abbrev main_call3_cst_4 : Ref sig .tc := ⟨.hbm, 182, rfl⟩
abbrev main_call3_call0_v0 : Ref sig .tc := ⟨.hbm, 183, rfl⟩
abbrev main_call3_call0_v1 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_cst_14 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_call4_cst : Ref sig .tc := ⟨.hbm, 204, rfl⟩
abbrev main_call4_v0 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_cst_15 : Ref sig .tc := ⟨.hbm, 209, rfl⟩
abbrev main_v113 : Ref sig .tc := ⟨.hbm, 210, rfl⟩
abbrev main_v114 : Ref sig .tc := ⟨.hbm, 211, rfl⟩
abbrev main_cst_16 : Ref sig .tc := ⟨.hbm, 212, rfl⟩
abbrev main_v115 : Ref sig .tc := ⟨.hbm, 213, rfl⟩
abbrev main_v116 : Ref sig .tc := ⟨.hbm, 214, rfl⟩
abbrev main_c_17 : Ref sig .tc := ⟨.hbm, 215, rfl⟩
abbrev main_call5_cst : Ref sig .tc := ⟨.hbm, 216, rfl⟩
abbrev main_call5_v0 : Ref sig .tc := ⟨.hbm, 217, rfl⟩
abbrev main_call5_v1 : Ref sig .tc := ⟨.hbm, 218, rfl⟩
abbrev main_call5_cst_0 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_call5_v5 : Ref sig .tc := ⟨.hbm, 223, rfl⟩
abbrev main_call5_v6 : Ref sig .tc := ⟨.hbm, 224, rfl⟩
abbrev main_call5_v7 : Ref sig .tc := ⟨.hbm, 225, rfl⟩
abbrev main_call5_cst_1 : Ref sig .tc := ⟨.hbm, 226, rfl⟩
abbrev main_call5_v8 : Ref sig .tc := ⟨.hbm, 227, rfl⟩
abbrev main_call5_cst_2 : Ref sig .tc := ⟨.hbm, 228, rfl⟩
abbrev main_call5_v9 : Ref sig .tc := ⟨.hbm, 229, rfl⟩
abbrev main_call5_v10 : Ref sig .tc := ⟨.hbm, 230, rfl⟩
abbrev main_call5_v11 : Ref sig .tc := ⟨.hbm, 231, rfl⟩
abbrev main_call5_v12 : Ref sig .tc := ⟨.hbm, 232, rfl⟩
abbrev main_call5_cst_3 : Ref sig .tc := ⟨.hbm, 233, rfl⟩
abbrev main_call5_v13 : Ref sig .tc := ⟨.hbm, 234, rfl⟩
abbrev main_call5_cst_4 : Ref sig .tc := ⟨.hbm, 235, rfl⟩
abbrev main_call5_call0_v0 : Ref sig .tc := ⟨.hbm, 236, rfl⟩
abbrev main_call5_call0_v1 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_cst_18 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_call6_cst : Ref sig .tc := ⟨.hbm, 257, rfl⟩
abbrev main_call6_v0 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_cst_19 : Ref sig .tc := ⟨.hbm, 262, rfl⟩
abbrev main_v138 : Ref sig .tc := ⟨.hbm, 263, rfl⟩
abbrev main_v139 : Ref sig .tc := ⟨.hbm, 264, rfl⟩
abbrev main_cst_20 : Ref sig .tc := ⟨.hbm, 265, rfl⟩
abbrev main_v140 : Ref sig .tc := ⟨.hbm, 266, rfl⟩
abbrev main_v141 : Ref sig .tc := ⟨.hbm, 267, rfl⟩
abbrev main_c_21 : Ref sig .tc := ⟨.hbm, 268, rfl⟩
abbrev main_call7_cst : Ref sig .tc := ⟨.hbm, 269, rfl⟩
abbrev main_call7_v0 : Ref sig .tc := ⟨.hbm, 270, rfl⟩
abbrev main_call7_v1 : Ref sig .tc := ⟨.hbm, 271, rfl⟩
abbrev main_call7_cst_0 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_call7_v5 : Ref sig .tc := ⟨.hbm, 276, rfl⟩
abbrev main_call7_v6 : Ref sig .tc := ⟨.hbm, 277, rfl⟩
abbrev main_call7_v7 : Ref sig .tc := ⟨.hbm, 278, rfl⟩
abbrev main_call7_cst_1 : Ref sig .tc := ⟨.hbm, 279, rfl⟩
abbrev main_call7_v8 : Ref sig .tc := ⟨.hbm, 280, rfl⟩
abbrev main_call7_cst_2 : Ref sig .tc := ⟨.hbm, 281, rfl⟩
abbrev main_call7_v9 : Ref sig .tc := ⟨.hbm, 282, rfl⟩
abbrev main_call7_v10 : Ref sig .tc := ⟨.hbm, 283, rfl⟩
abbrev main_call7_v11 : Ref sig .tc := ⟨.hbm, 284, rfl⟩
abbrev main_call7_v12 : Ref sig .tc := ⟨.hbm, 285, rfl⟩
abbrev main_call7_cst_3 : Ref sig .tc := ⟨.hbm, 286, rfl⟩
abbrev main_call7_v13 : Ref sig .tc := ⟨.hbm, 287, rfl⟩
abbrev main_call7_cst_4 : Ref sig .tc := ⟨.hbm, 288, rfl⟩
abbrev main_call7_call0_v0 : Ref sig .tc := ⟨.hbm, 289, rfl⟩
abbrev main_call7_call0_v1 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_cst_22 : Ref sig .tc := ⟨.hbm, 294, rfl⟩
abbrev main_v145 : Ref sig .tc := ⟨.hbm, 295, rfl⟩
abbrev main_v146 : Ref sig .tc := ⟨.hbm, 296, rfl⟩
abbrev main_v147 : Ref sig .tc := ⟨.hbm, 297, rfl⟩
abbrev main_v148 : Ref sig .tc := ⟨.hbm, 298, rfl⟩
abbrev main_v149 : Ref sig .tc := ⟨.hbm, 299, rfl⟩
abbrev main_v150 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_call8_cst : Ref sig .tc := ⟨.hbm, 311, rfl⟩
abbrev main_call8_v0 : Ref sig .tc := ⟨.hbm, 312, rfl⟩
abbrev main_v161 : Ref sig .tc := ⟨.hbm, 313, rfl⟩
abbrev main_v162 : Ref sig .tc := ⟨.hbm, 314, rfl⟩
abbrev main_v163 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_v168 : Ref sig .tc := ⟨.hbm, 320, rfl⟩
abbrev main_v169 : Ref sig .tc := ⟨.hbm, 321, rfl⟩
abbrev main_c_23 : Ref sig .tc := ⟨.hbm, 322, rfl⟩
abbrev main_v170 : Ref sig .tc := ⟨.hbm, 323, rfl⟩
abbrev main_v171 : Ref sig .tc := ⟨.hbm, 324, rfl⟩
abbrev main_c_24 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_v179 : Ref sig .tc := ⟨.hbm, 333, rfl⟩
abbrev main_v180 : Ref sig .tc := ⟨.hbm, 334, rfl⟩
abbrev main_c_25 : Ref sig .tc := ⟨.hbm, 335, rfl⟩
abbrev main_v181 : Ref sig .tc := ⟨.hbm, 336, rfl⟩
abbrev main_v182 : Ref sig .tc := ⟨.hbm, 337, rfl⟩
abbrev main_c_26 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_c_27 : Ref sig .tc := ⟨.hbm, 348, rfl⟩
abbrev main_v192 : Ref sig .tc := ⟨.hbm, 349, rfl⟩
abbrev main_v193 : Ref sig .tc := ⟨.hbm, 350, rfl⟩
abbrev main_c_28 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_v202 : Ref sig .tc := ⟨.hbm, 360, rfl⟩
abbrev main_c_29 : Ref sig .tc := ⟨.hbm, 361, rfl⟩
abbrev main_v203 : Ref sig .tc := ⟨.hbm, 362, rfl⟩
abbrev main_v204 : Ref sig .tc := ⟨.hbm, 363, rfl⟩
abbrev main_c_30 : Ref sig .tc := ⟨.hbm, 364, rfl⟩
abbrev main_v205 : Ref sig .tc := ⟨.hbm, 365, rfl⟩
abbrev main_v206 : Ref sig .tc := ⟨.hbm, 366, rfl⟩
abbrev main_v207 : Ref sig .tc := ⟨.hbm, 367, rfl⟩
abbrev main_v208 : Ref sig .tc := ⟨.hbm, 368, rfl⟩
abbrev main_v209 : Ref sig .tc := ⟨.hbm, 369, rfl⟩
abbrev main_v210 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_c_31 : Ref sig .tc := ⟨.hbm, 374, rfl⟩
abbrev main_v214 : Ref sig .tc := ⟨.hbm, 375, rfl⟩
abbrev main_v215 : Ref sig .tc := ⟨.hbm, 376, rfl⟩
abbrev main_c_32 : Ref sig .tc := ⟨.hbm, 377, rfl⟩
abbrev main_v216 : Ref sig .tc := ⟨.hbm, 378, rfl⟩
abbrev main_v217 : Ref sig .tc := ⟨.hbm, 379, rfl⟩
abbrev main_v218 : Ref sig .tc := ⟨.hbm, 380, rfl⟩
abbrev main_v219 : Ref sig .tc := ⟨.hbm, 381, rfl⟩
abbrev main_v220 : Ref sig .tc := ⟨.hbm, 382, rfl⟩
abbrev main_v221 : Ref sig .tc := ⟨.hbm, 383, rfl⟩
abbrev main_v222 : Ref sig .tc := ⟨.hbm, 384, rfl⟩
abbrev main_v223 : Ref sig .tc := ⟨.hbm, 385, rfl⟩
abbrev main_v224 : Ref sig .tc := ⟨.hbm, 386, rfl⟩
abbrev main_c_33 : Ref sig .tc := ⟨.hbm, 387, rfl⟩
abbrev main_v225 : Ref sig .tc := ⟨.hbm, 388, rfl⟩
abbrev main_v226 : Ref sig .tc := ⟨.hbm, 389, rfl⟩
abbrev main_c_34 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_v230 : Ref sig .tc := ⟨.hbm, 394, rfl⟩
abbrev main_v231 : Ref sig .tc := ⟨.hbm, 395, rfl⟩
abbrev main_v232 : Ref sig .tc := ⟨.hbm, 396, rfl⟩
abbrev main_v233 : Ref sig .tc := ⟨.hbm, 397, rfl⟩
abbrev main_v234 : Ref sig .tc := ⟨.hbm, 398, rfl⟩
abbrev main_v235 : Ref sig .tc := ⟨.hbm, 399, rfl⟩
abbrev main_c_35 : Ref sig .tc := ⟨.hbm, 400, rfl⟩
abbrev main_v236 : Ref sig .tc := ⟨.hbm, 401, rfl⟩
abbrev main_v237 : Ref sig .tc := ⟨.hbm, 402, rfl⟩
abbrev main_c_36 : Ref sig .tc := ⟨.hbm, 403, rfl⟩
abbrev main_v238 : Ref sig .tc := ⟨.hbm, 404, rfl⟩
abbrev main_v239 : Ref sig .tc := ⟨.hbm, 405, rfl⟩
abbrev main_v240 : Ref sig .tc := ⟨.hbm, 406, rfl⟩
abbrev main_v241 : Ref sig .tc := ⟨.hbm, 407, rfl⟩
abbrev main_v242 : Ref sig .tc := ⟨.hbm, 408, rfl⟩
abbrev main_v243 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_37 : Ref sig .tc := ⟨.hbm, 413, rfl⟩
abbrev main_v247 : Ref sig .tc := ⟨.hbm, 414, rfl⟩
abbrev main_v248 : Ref sig .tc := ⟨.hbm, 415, rfl⟩
abbrev main_c_38 : Ref sig .tc := ⟨.hbm, 416, rfl⟩
abbrev main_v249 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_v256 : Ref sig .tc := ⟨.hbm, 424, rfl⟩
abbrev main_v257 : Ref sig .tc := ⟨.hbm, 425, rfl⟩
abbrev main_c_39 : Ref sig .tc := ⟨.hbm, 426, rfl⟩
abbrev main_v258 : Ref sig .tc := ⟨.hbm, 427, rfl⟩
abbrev main_v259 : Ref sig .tc := ⟨.hbm, 428, rfl⟩
abbrev main_c_40 : Ref sig .tc := ⟨.hbm, 429, rfl⟩
abbrev main_v260 : Ref sig .tc := ⟨.hbm, 430, rfl⟩
abbrev main_v261 : Ref sig .tc := ⟨.hbm, 431, rfl⟩
abbrev main_v262 : Ref sig .tc := ⟨.hbm, 432, rfl⟩
abbrev main_v263 : Ref sig .tc := ⟨.hbm, 433, rfl⟩
abbrev main_v264 : Ref sig .tc := ⟨.hbm, 434, rfl⟩
abbrev main_v265 : Ref sig .tc := ⟨.hbm, 435, rfl⟩
abbrev main_v266 : Ref sig .tc := ⟨.hbm, 436, rfl⟩
abbrev main_v267 : Ref sig .tc := ⟨.hbm, 437, rfl⟩
abbrev main_v268 : Ref sig .tc := ⟨.hbm, 438, rfl⟩
abbrev main_c_41 : Ref sig .tc := ⟨.hbm, 439, rfl⟩
abbrev main_v269 : Ref sig .tc := ⟨.hbm, 440, rfl⟩
abbrev main_v270 : Ref sig .tc := ⟨.hbm, 441, rfl⟩
abbrev main_c_42 : Ref sig .tc := ⟨.hbm, 442, rfl⟩
abbrev main_v271 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_v279 : Ref sig .tc := ⟨.hbm, 451, rfl⟩
abbrev main_c_43 : Ref sig .tc := ⟨.hbm, 452, rfl⟩
abbrev main_v280 : Ref sig .tc := ⟨.hbm, 453, rfl⟩
abbrev main_v281 : Ref sig .tc := ⟨.hbm, 454, rfl⟩
abbrev main_c_44 : Ref sig .tc := ⟨.hbm, 455, rfl⟩
abbrev main_v282 : Ref sig .tc := ⟨.hbm, 456, rfl⟩
abbrev main_v283 : Ref sig .tc := ⟨.hbm, 457, rfl⟩
abbrev main_v284 : Ref sig .tc := ⟨.hbm, 458, rfl⟩
abbrev main_v285 : Ref sig .tc := ⟨.hbm, 459, rfl⟩
abbrev main_v286 : Ref sig .tc := ⟨.hbm, 460, rfl⟩
abbrev main_v287 : Ref sig .tc := ⟨.hbm, 461, rfl⟩
abbrev main_v288 : Ref sig .tc := ⟨.hbm, 462, rfl⟩
abbrev main_v289 : Ref sig .tc := ⟨.hbm, 463, rfl⟩
abbrev main_v290 : Ref sig .tc := ⟨.hbm, 464, rfl⟩
abbrev main_c_45 : Ref sig .tc := ⟨.hbm, 465, rfl⟩
abbrev main_v291 : Ref sig .tc := ⟨.hbm, 466, rfl⟩
abbrev main_v292 : Ref sig .tc := ⟨.hbm, 467, rfl⟩
abbrev main_c_46 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_v299 : Ref sig .tc := ⟨.hbm, 475, rfl⟩
abbrev main_v300 : Ref sig .tc := ⟨.hbm, 476, rfl⟩
abbrev main_v301 : Ref sig .tc := ⟨.hbm, 477, rfl⟩
abbrev main_c_47 : Ref sig .tc := ⟨.hbm, 478, rfl⟩
abbrev main_v302 : Ref sig .tc := ⟨.hbm, 479, rfl⟩
abbrev main_v303 : Ref sig .tc := ⟨.hbm, 480, rfl⟩
abbrev main_c_48 : Ref sig .tc := ⟨.hbm, 481, rfl⟩
abbrev main_v304 : Ref sig .tc := ⟨.hbm, 482, rfl⟩
abbrev main_v305 : Ref sig .tc := ⟨.hbm, 483, rfl⟩
abbrev main_v306 : Ref sig .tc := ⟨.hbm, 484, rfl⟩
abbrev main_v307 : Ref sig .tc := ⟨.hbm, 485, rfl⟩
abbrev main_v308 : Ref sig .tc := ⟨.hbm, 486, rfl⟩
abbrev main_v309 : Ref sig .tc := ⟨.hbm, 487, rfl⟩
abbrev main_v310 : Ref sig .tc := ⟨.hbm, 488, rfl⟩
abbrev main_v311 : Ref sig .tc := ⟨.hbm, 489, rfl⟩
abbrev main_v312 : Ref sig .tc := ⟨.hbm, 490, rfl⟩
abbrev main_c_49 : Ref sig .tc := ⟨.hbm, 491, rfl⟩
abbrev main_v313 : Ref sig .tc := ⟨.hbm, 492, rfl⟩
abbrev main_v314 : Ref sig .tc := ⟨.hbm, 493, rfl⟩
abbrev main_c_50 : Ref sig .tc := ⟨.hbm, 494, rfl⟩
abbrev main_v315 : Ref sig .tc := ⟨.hbm, 495, rfl⟩
abbrev main_v316 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_v320 : Ref sig .tc := ⟨.hbm, 500, rfl⟩
abbrev main_v321 : Ref sig .tc := ⟨.hbm, 501, rfl⟩
abbrev main_v322 : Ref sig .tc := ⟨.hbm, 502, rfl⟩
abbrev main_v323 : Ref sig .tc := ⟨.hbm, 503, rfl⟩
abbrev main_c_51 : Ref sig .tc := ⟨.hbm, 504, rfl⟩
abbrev main_v324 : Ref sig .tc := ⟨.hbm, 505, rfl⟩
abbrev main_v325 : Ref sig .tc := ⟨.hbm, 506, rfl⟩
abbrev main_c_52 : Ref sig .tc := ⟨.hbm, 507, rfl⟩
abbrev main_v326 : Ref sig .tc := ⟨.hbm, 508, rfl⟩
abbrev main_v327 : Ref sig .tc := ⟨.hbm, 509, rfl⟩
abbrev main_v328 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_c_53 : Ref sig .tc := ⟨.hbm, 517, rfl⟩
abbrev main_v335 : Ref sig .tc := ⟨.hbm, 518, rfl⟩
abbrev main_v336 : Ref sig .tc := ⟨.hbm, 519, rfl⟩
abbrev main_c_54 : Ref sig .tc := ⟨.hbm, 520, rfl⟩
abbrev main_v337 : Ref sig .tc := ⟨.hbm, 521, rfl⟩
abbrev main_v338 : Ref sig .tc := ⟨.hbm, 522, rfl⟩
abbrev main_v339 : Ref sig .tc := ⟨.hbm, 523, rfl⟩
abbrev main_v340 : Ref sig .tc := ⟨.hbm, 524, rfl⟩
abbrev main_v341 : Ref sig .tc := ⟨.hbm, 525, rfl⟩
abbrev main_v342 : Ref sig .tc := ⟨.hbm, 526, rfl⟩
abbrev main_v343 : Ref sig .tc := ⟨.hbm, 527, rfl⟩
abbrev main_v344 : Ref sig .tc := ⟨.hbm, 528, rfl⟩
abbrev main_v345 : Ref sig .tc := ⟨.hbm, 529, rfl⟩
abbrev main_c_55 : Ref sig .tc := ⟨.hbm, 530, rfl⟩
abbrev main_v346 : Ref sig .tc := ⟨.hbm, 531, rfl⟩
abbrev main_v347 : Ref sig .tc := ⟨.hbm, 532, rfl⟩
abbrev main_c_56 : Ref sig .tc := ⟨.hbm, 533, rfl⟩
abbrev main_v348 : Ref sig .tc := ⟨.hbm, 534, rfl⟩
abbrev main_v349 : Ref sig .tc := ⟨.hbm, 535, rfl⟩
abbrev main_v350 : Ref sig .tc := ⟨.hbm, 536, rfl⟩
abbrev main_v351 : Ref sig .tc := ⟨.hbm, 537, rfl⟩
abbrev main_v352 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_c_57 : Ref sig .tc := ⟨.hbm, 543, rfl⟩
abbrev main_v357 : Ref sig .tc := ⟨.hbm, 544, rfl⟩
abbrev main_v358 : Ref sig .tc := ⟨.hbm, 545, rfl⟩
abbrev main_c_58 : Ref sig .tc := ⟨.hbm, 546, rfl⟩
abbrev main_v359 : Ref sig .tc := ⟨.hbm, 547, rfl⟩
abbrev main_v360 : Ref sig .tc := ⟨.hbm, 548, rfl⟩
abbrev main_v361 : Ref sig .tc := ⟨.hbm, 549, rfl⟩
abbrev main_v362 : Ref sig .tc := ⟨.hbm, 550, rfl⟩
abbrev main_v363 : Ref sig .tc := ⟨.hbm, 551, rfl⟩
abbrev main_v364 : Ref sig .tc := ⟨.hbm, 552, rfl⟩
abbrev main_v365 : Ref sig .tc := ⟨.hbm, 553, rfl⟩
abbrev main_v366 : Ref sig .tc := ⟨.hbm, 554, rfl⟩
abbrev main_v367 : Ref sig .tc := ⟨.hbm, 555, rfl⟩
abbrev main_c_59 : Ref sig .tc := ⟨.hbm, 556, rfl⟩
abbrev main_v368 : Ref sig .tc := ⟨.hbm, 557, rfl⟩
abbrev main_v369 : Ref sig .tc := ⟨.hbm, 558, rfl⟩
abbrev main_c_60 : Ref sig .tc := ⟨.hbm, 559, rfl⟩
abbrev main_v370 : Ref sig .tc := ⟨.hbm, 560, rfl⟩
abbrev main_v371 : Ref sig .tc := ⟨.hbm, 561, rfl⟩
abbrev main_v372 : Ref sig .tc := ⟨.hbm, 562, rfl⟩
abbrev main_v373 : Ref sig .tc := ⟨.hbm, 563, rfl⟩
abbrev main_v374 : Ref sig .tc := ⟨.hbm, 564, rfl⟩
abbrev main_v375 : Ref sig .tc := ⟨.hbm, 565, rfl⟩
abbrev main_v376 : Ref sig .tc := ⟨.hbm, 566, rfl⟩
abbrev main_v377 : Ref sig .tc := ⟨.hbm, 567, rfl⟩
abbrev main_v378 : Ref sig .tc := ⟨.hbm, 568, rfl⟩
abbrev main_c_61 : Ref sig .tc := ⟨.hbm, 569, rfl⟩
abbrev main_v379 : Ref sig .tc := ⟨.hbm, 570, rfl⟩
abbrev main_v380 : Ref sig .tc := ⟨.hbm, 571, rfl⟩
abbrev main_c_62 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_v386 : Ref sig .tc := ⟨.hbm, 578, rfl⟩
abbrev main_v387 : Ref sig .tc := ⟨.hbm, 579, rfl⟩
abbrev main_v388 : Ref sig .tc := ⟨.hbm, 580, rfl⟩
abbrev main_v389 : Ref sig .tc := ⟨.hbm, 581, rfl⟩
abbrev main_c_63 : Ref sig .tc := ⟨.hbm, 582, rfl⟩
abbrev main_v390 : Ref sig .tc := ⟨.hbm, 583, rfl⟩
abbrev main_v391 : Ref sig .tc := ⟨.hbm, 584, rfl⟩
abbrev main_c_64 : Ref sig .tc := ⟨.hbm, 585, rfl⟩
abbrev main_v392 : Ref sig .tc := ⟨.hbm, 586, rfl⟩
abbrev main_v393 : Ref sig .tc := ⟨.hbm, 587, rfl⟩
abbrev main_v394 : Ref sig .tc := ⟨.hbm, 588, rfl⟩
abbrev main_v395 : Ref sig .tc := ⟨.hbm, 589, rfl⟩
abbrev main_v396 : Ref sig .tc := ⟨.hbm, 590, rfl⟩
abbrev main_v397 : Ref sig .tc := ⟨.hbm, 591, rfl⟩
abbrev main_v398 : Ref sig .tc := ⟨.hbm, 592, rfl⟩
abbrev main_v399 : Ref sig .tc := ⟨.hbm, 593, rfl⟩
abbrev main_v400 : Ref sig .tc := ⟨.hbm, 594, rfl⟩
abbrev main_c_65 : Ref sig .tc := ⟨.hbm, 595, rfl⟩
abbrev main_v401 : Ref sig .tc := ⟨.hbm, 596, rfl⟩
abbrev main_v402 : Ref sig .tc := ⟨.hbm, 597, rfl⟩
abbrev main_c_66 : Ref sig .tc := ⟨.hbm, 598, rfl⟩
abbrev main_v403 : Ref sig .tc := ⟨.hbm, 599, rfl⟩
abbrev main_v404 : Ref sig .tc := ⟨.hbm, 600, rfl⟩
abbrev main_v405 : Ref sig .tc := ⟨.hbm, 601, rfl⟩
abbrev main_v406 : Ref sig .tc := ⟨.hbm, 602, rfl⟩
abbrev main_v407 : Ref sig .tc := ⟨.hbm, 603, rfl⟩
abbrev main_v408 : Ref sig .tc := ⟨.hbm, 604, rfl⟩
abbrev main_v409 : Ref sig .tc := ⟨.hbm, 605, rfl⟩
abbrev main_v410 : Ref sig .tc := ⟨.hbm, 606, rfl⟩
abbrev main_v411 : Ref sig .tc := ⟨.hbm, 607, rfl⟩
abbrev main_c_67 : Ref sig .tc := ⟨.hbm, 608, rfl⟩
abbrev main_v412 : Ref sig .tc := ⟨.hbm, 609, rfl⟩
abbrev main_v413 : Ref sig .tc := ⟨.hbm, 610, rfl⟩
abbrev main_c_68 : Ref sig .tc := ⟨.hbm, 611, rfl⟩
abbrev main_v414 : Ref sig .tc := ⟨.hbm, 612, rfl⟩
abbrev main_v415 : Ref sig .tc := ⟨.hbm, 613, rfl⟩
abbrev main_v416 : Ref sig .tc := ⟨.hbm, 614, rfl⟩
abbrev main_v417 : Ref sig .tc := ⟨.hbm, 615, rfl⟩
abbrev main_v418 : Ref sig .tc := ⟨.hbm, 616, rfl⟩
abbrev main_v419 : Ref sig .tc := ⟨.hbm, 617, rfl⟩
abbrev main_v420 : Ref sig .tc := ⟨.hbm, 618, rfl⟩
abbrev main_v421 : Ref sig .tc := ⟨.hbm, 619, rfl⟩
abbrev main_v422 : Ref sig .tc := ⟨.hbm, 620, rfl⟩
abbrev main_c_69 : Ref sig .tc := ⟨.hbm, 621, rfl⟩
abbrev main_v423 : Ref sig .tc := ⟨.hbm, 622, rfl⟩
abbrev main_v424 : Ref sig .tc := ⟨.hbm, 623, rfl⟩
abbrev main_c_70 : Ref sig .tc := ⟨.hbm, 624, rfl⟩
abbrev main_v425 : Ref sig .tc := ⟨.hbm, 625, rfl⟩
abbrev main_v426 : Ref sig .tc := ⟨.hbm, 626, rfl⟩
abbrev main_v427 : Ref sig .tc := ⟨.hbm, 627, rfl⟩
abbrev main_v428 : Ref sig .tc := ⟨.hbm, 628, rfl⟩
abbrev main_v429 : Ref sig .tc := ⟨.hbm, 629, rfl⟩
abbrev main_v430 : Ref sig .tc := ⟨.hbm, 630, rfl⟩
abbrev main_v431 : Ref sig .tc := ⟨.hbm, 631, rfl⟩
abbrev main_v432 : Ref sig .tc := ⟨.hbm, 632, rfl⟩
abbrev main_v433 : Ref sig .tc := ⟨.hbm, 633, rfl⟩
abbrev main_c_71 : Ref sig .tc := ⟨.hbm, 634, rfl⟩
abbrev main_v434 : Ref sig .tc := ⟨.hbm, 635, rfl⟩
abbrev main_v435 : Ref sig .tc := ⟨.hbm, 636, rfl⟩
abbrev main_c_72 : Ref sig .tc := ⟨.hbm, 637, rfl⟩
abbrev main_v436 : Ref sig .tc := ⟨.hbm, 638, rfl⟩
abbrev main_v437 : Ref sig .tc := ⟨.hbm, 639, rfl⟩
abbrev main_v438 : Ref sig .tc := ⟨.hbm, 640, rfl⟩
abbrev main_v439 : Ref sig .tc := ⟨.hbm, 641, rfl⟩
abbrev main_v440 : Ref sig .tc := ⟨.hbm, 642, rfl⟩
abbrev main_v441 : Ref sig .tc := ⟨.hbm, 643, rfl⟩
abbrev main_v442 : Ref sig .tc := ⟨.hbm, 644, rfl⟩
abbrev main_v443 : Ref sig .tc := ⟨.hbm, 645, rfl⟩
abbrev main_v444 : Ref sig .tc := ⟨.hbm, 646, rfl⟩
abbrev main_c_73 : Ref sig .tc := ⟨.hbm, 647, rfl⟩
abbrev main_v445 : Ref sig .tc := ⟨.hbm, 648, rfl⟩
abbrev main_v446 : Ref sig .tc := ⟨.hbm, 649, rfl⟩
abbrev main_c_74 : Ref sig .tc := ⟨.hbm, 650, rfl⟩
abbrev main_v447 : Ref sig .tc := ⟨.hbm, 651, rfl⟩
abbrev main_v448 : Ref sig .tc := ⟨.hbm, 652, rfl⟩
abbrev main_v449 : Ref sig .tc := ⟨.hbm, 653, rfl⟩
abbrev main_v450 : Ref sig .tc := ⟨.hbm, 654, rfl⟩
abbrev main_v451 : Ref sig .tc := ⟨.hbm, 655, rfl⟩
abbrev main_v452 : Ref sig .tc := ⟨.hbm, 656, rfl⟩
abbrev main_v453 : Ref sig .tc := ⟨.hbm, 657, rfl⟩
abbrev main_v454 : Ref sig .tc := ⟨.hbm, 658, rfl⟩
abbrev main_v455 : Ref sig .tc := ⟨.hbm, 659, rfl⟩
abbrev main_c_75 : Ref sig .tc := ⟨.hbm, 660, rfl⟩
abbrev main_v456 : Ref sig .tc := ⟨.hbm, 661, rfl⟩
abbrev main_v457 : Ref sig .tc := ⟨.hbm, 662, rfl⟩
abbrev main_c_76 : Ref sig .tc := ⟨.hbm, 663, rfl⟩
abbrev main_v458 : Ref sig .tc := ⟨.hbm, 664, rfl⟩
abbrev main_v459 : Ref sig .tc := ⟨.hbm, 665, rfl⟩
abbrev main_v460 : Ref sig .tc := ⟨.hbm, 666, rfl⟩
abbrev main_v461 : Ref sig .tc := ⟨.hbm, 667, rfl⟩
abbrev main_v462 : Ref sig .tc := ⟨.hbm, 668, rfl⟩
abbrev main_v463 : Ref sig .tc := ⟨.hbm, 669, rfl⟩
abbrev main_v464 : Ref sig .tc := ⟨.hbm, 670, rfl⟩
abbrev main_v465 : Ref sig .tc := ⟨.hbm, 671, rfl⟩
abbrev main_v466 : Ref sig .tc := ⟨.hbm, 672, rfl⟩
abbrev main_c_77 : Ref sig .tc := ⟨.hbm, 673, rfl⟩
abbrev main_v467 : Ref sig .tc := ⟨.hbm, 674, rfl⟩
abbrev main_v468 : Ref sig .tc := ⟨.hbm, 675, rfl⟩
abbrev main_c_78 : Ref sig .tc := ⟨.hbm, 676, rfl⟩
abbrev main_v469 : Ref sig .tc := ⟨.hbm, 677, rfl⟩
abbrev main_v470 : Ref sig .tc := ⟨.hbm, 678, rfl⟩
abbrev main_v471 : Ref sig .tc := ⟨.hbm, 679, rfl⟩
abbrev main_v472 : Ref sig .tc := ⟨.hbm, 680, rfl⟩
abbrev main_v473 : Ref sig .tc := ⟨.hbm, 681, rfl⟩
abbrev main_v474 : Ref sig .tc := ⟨.hbm, 682, rfl⟩
abbrev main_v475 : Ref sig .tc := ⟨.hbm, 683, rfl⟩
abbrev main_cst_79 : Ref sig .tc := ⟨.hbm, 684, rfl⟩
abbrev main_v476 : Ref sig .tc := ⟨.hbm, 685, rfl⟩
abbrev main_v477 : Ref sig .tc := ⟨.hbm, 686, rfl⟩
abbrev main_cst_80 : Ref sig .tc := ⟨.hbm, 687, rfl⟩
abbrev main_v478 : Ref sig .tc := ⟨.hbm, 688, rfl⟩
abbrev main_v479 : Ref sig .tc := ⟨.hbm, 689, rfl⟩
abbrev main_c_81 : Ref sig .tc := ⟨.hbm, 690, rfl⟩
abbrev main_call9_cst : Ref sig .tc := ⟨.hbm, 691, rfl⟩
abbrev main_call9_v0 : Ref sig .tc := ⟨.hbm, 692, rfl⟩
abbrev main_call9_v1 : Ref sig .tc := ⟨.hbm, 693, rfl⟩
abbrev main_call9_cst_0 : Ref sig .tc := ⟨.hbm, 694, rfl⟩
abbrev main_call9_v2 : Ref sig .tc := ⟨.hbm, 695, rfl⟩
abbrev main_call9_v3 : Ref sig .tc := ⟨.hbm, 696, rfl⟩
abbrev main_call9_v4 : Ref sig .tc := ⟨.hbm, 697, rfl⟩
abbrev main_call9_v5 : Ref sig .tc := ⟨.hbm, 698, rfl⟩
abbrev main_call9_v6 : Ref sig .tc := ⟨.hbm, 699, rfl⟩
abbrev main_call9_v7 : Ref sig .tc := ⟨.hbm, 700, rfl⟩
abbrev main_call9_cst_1 : Ref sig .tc := ⟨.hbm, 701, rfl⟩
abbrev main_call9_v8 : Ref sig .tc := ⟨.hbm, 702, rfl⟩
abbrev main_call9_cst_2 : Ref sig .tc := ⟨.hbm, 703, rfl⟩
abbrev main_call9_v9 : Ref sig .tc := ⟨.hbm, 704, rfl⟩
abbrev main_call9_v10 : Ref sig .tc := ⟨.hbm, 705, rfl⟩
abbrev main_call9_v11 : Ref sig .tc := ⟨.hbm, 706, rfl⟩
abbrev main_call9_v12 : Ref sig .tc := ⟨.hbm, 707, rfl⟩
abbrev main_call9_cst_3 : Ref sig .tc := ⟨.hbm, 708, rfl⟩
abbrev main_call9_v13 : Ref sig .tc := ⟨.hbm, 709, rfl⟩
abbrev main_call9_cst_4 : Ref sig .tc := ⟨.hbm, 710, rfl⟩
abbrev main_call9_call0_v0 : Ref sig .tc := ⟨.hbm, 711, rfl⟩
abbrev main_call9_call0_v1 : Ref sig .tc := ⟨.hbm, 712, rfl⟩
abbrev main_v480 : Ref sig .tc := ⟨.hbm, 713, rfl⟩
abbrev main_v481 : Ref sig .tc := ⟨.hbm, 714, rfl⟩
abbrev main_v482 : Ref sig .tc := ⟨.hbm, 715, rfl⟩
abbrev main_cst_82 : Ref sig .tc := ⟨.hbm, 716, rfl⟩
abbrev main_v483 : Ref sig .tc := ⟨.hbm, 717, rfl⟩
abbrev main_v484 : Ref sig .tc := ⟨.hbm, 718, rfl⟩
abbrev main_v485 : Ref sig .tc := ⟨.hbm, 719, rfl⟩
abbrev main_v486 : Ref sig .tc := ⟨.hbm, 720, rfl⟩
abbrev main_v487 : Ref sig .tc := ⟨.hbm, 721, rfl⟩
abbrev main_v488 : Ref sig .tc := ⟨.hbm, 722, rfl⟩
abbrev main_v489 : Ref sig .tc := ⟨.hbm, 723, rfl⟩
abbrev main_v490 : Ref sig .tc := ⟨.hbm, 724, rfl⟩
abbrev main_v491 : Ref sig .tc := ⟨.hbm, 725, rfl⟩
abbrev main_v492 : Ref sig .tc := ⟨.hbm, 726, rfl⟩
abbrev main_v493 : Ref sig .tc := ⟨.hbm, 727, rfl⟩
abbrev main_v494 : Ref sig .tc := ⟨.hbm, 728, rfl⟩
abbrev main_v495 : Ref sig .tc := ⟨.hbm, 729, rfl⟩
abbrev main_v496 : Ref sig .tc := ⟨.hbm, 730, rfl⟩
abbrev main_v497 : Ref sig .tc := ⟨.hbm, 731, rfl⟩
abbrev main_call10_cst : Ref sig .tc := ⟨.hbm, 732, rfl⟩
abbrev main_call10_v0 : Ref sig .tc := ⟨.hbm, 733, rfl⟩
abbrev main_v498 : Ref sig .tc := ⟨.hbm, 734, rfl⟩
abbrev main_v499 : Ref sig .tc := ⟨.hbm, 735, rfl⟩
abbrev main_v500 : Ref sig .tc := ⟨.hbm, 736, rfl⟩
abbrev main_v501 : Ref sig .tc := ⟨.hbm, 737, rfl⟩
abbrev main_v502 : Ref sig .tc := ⟨.hbm, 738, rfl⟩
abbrev main_v503 : Ref sig .tc := ⟨.hbm, 739, rfl⟩
abbrev main_v504 : Ref sig .tc := ⟨.hbm, 740, rfl⟩
abbrev main_cst_83 : Ref sig .tc := ⟨.hbm, 741, rfl⟩
abbrev main_v505 : Ref sig .tc := ⟨.hbm, 742, rfl⟩
abbrev main_v506 : Ref sig .tc := ⟨.hbm, 743, rfl⟩
abbrev main_cst_84 : Ref sig .tc := ⟨.hbm, 744, rfl⟩
abbrev main_v507 : Ref sig .tc := ⟨.hbm, 745, rfl⟩
abbrev main_v508 : Ref sig .tc := ⟨.hbm, 746, rfl⟩
abbrev main_c_85 : Ref sig .tc := ⟨.hbm, 747, rfl⟩
abbrev main_call11_cst : Ref sig .tc := ⟨.hbm, 748, rfl⟩
abbrev main_call11_v0 : Ref sig .tc := ⟨.hbm, 749, rfl⟩
abbrev main_call11_v1 : Ref sig .tc := ⟨.hbm, 750, rfl⟩
abbrev main_call11_cst_0 : Ref sig .tc := ⟨.hbm, 751, rfl⟩
abbrev main_call11_v2 : Ref sig .tc := ⟨.hbm, 752, rfl⟩
abbrev main_call11_v3 : Ref sig .tc := ⟨.hbm, 753, rfl⟩
abbrev main_call11_v4 : Ref sig .tc := ⟨.hbm, 754, rfl⟩
abbrev main_call11_v5 : Ref sig .tc := ⟨.hbm, 755, rfl⟩
abbrev main_call11_v6 : Ref sig .tc := ⟨.hbm, 756, rfl⟩
abbrev main_call11_v7 : Ref sig .tc := ⟨.hbm, 757, rfl⟩
abbrev main_call11_cst_1 : Ref sig .tc := ⟨.hbm, 758, rfl⟩
abbrev main_call11_v8 : Ref sig .tc := ⟨.hbm, 759, rfl⟩
abbrev main_call11_cst_2 : Ref sig .tc := ⟨.hbm, 760, rfl⟩
abbrev main_call11_v9 : Ref sig .tc := ⟨.hbm, 761, rfl⟩
abbrev main_call11_v10 : Ref sig .tc := ⟨.hbm, 762, rfl⟩
abbrev main_call11_v11 : Ref sig .tc := ⟨.hbm, 763, rfl⟩
abbrev main_call11_v12 : Ref sig .tc := ⟨.hbm, 764, rfl⟩
abbrev main_call11_cst_3 : Ref sig .tc := ⟨.hbm, 765, rfl⟩
abbrev main_call11_v13 : Ref sig .tc := ⟨.hbm, 766, rfl⟩
abbrev main_call11_cst_4 : Ref sig .tc := ⟨.hbm, 767, rfl⟩
abbrev main_call11_call0_v0 : Ref sig .tc := ⟨.hbm, 768, rfl⟩
abbrev main_call11_call0_v1 : Ref sig .tc := ⟨.hbm, 769, rfl⟩
abbrev main_v509 : Ref sig .tc := ⟨.hbm, 770, rfl⟩
abbrev main_v510 : Ref sig .tc := ⟨.hbm, 771, rfl⟩
abbrev main_v511 : Ref sig .tc := ⟨.hbm, 772, rfl⟩
abbrev main_cst_86 : Ref sig .tc := ⟨.hbm, 773, rfl⟩
abbrev main_v512 : Ref sig .tc := ⟨.hbm, 774, rfl⟩
abbrev main_v513 : Ref sig .tc := ⟨.hbm, 775, rfl⟩
abbrev main_v514 : Ref sig .tc := ⟨.hbm, 776, rfl⟩
abbrev main_v515 : Ref sig .tc := ⟨.hbm, 777, rfl⟩
abbrev main_v516 : Ref sig .tc := ⟨.hbm, 778, rfl⟩
abbrev main_v517 : Ref sig .tc := ⟨.hbm, 779, rfl⟩
abbrev main_v518 : Ref sig .tc := ⟨.hbm, 780, rfl⟩
abbrev main_v519 : Ref sig .tc := ⟨.hbm, 781, rfl⟩
abbrev main_v520 : Ref sig .tc := ⟨.hbm, 782, rfl⟩
abbrev main_v521 : Ref sig .tc := ⟨.hbm, 783, rfl⟩
abbrev main_v522 : Ref sig .tc := ⟨.hbm, 784, rfl⟩
abbrev main_v523 : Ref sig .tc := ⟨.hbm, 785, rfl⟩
abbrev main_v524 : Ref sig .tc := ⟨.hbm, 786, rfl⟩
abbrev main_v525 : Ref sig .tc := ⟨.hbm, 787, rfl⟩
abbrev main_v526 : Ref sig .tc := ⟨.hbm, 788, rfl⟩
abbrev main_v527 : Ref sig .tc := ⟨.hbm, 789, rfl⟩
abbrev main_call12_cst : Ref sig .tc := ⟨.hbm, 790, rfl⟩
abbrev main_call12_v0 : Ref sig .tc := ⟨.hbm, 791, rfl⟩
abbrev main_v528 : Ref sig .tc := ⟨.hbm, 792, rfl⟩
abbrev main_v529 : Ref sig .tc := ⟨.hbm, 793, rfl⟩
abbrev main_v530 : Ref sig .tc := ⟨.hbm, 794, rfl⟩
abbrev main_v531 : Ref sig .tc := ⟨.hbm, 795, rfl⟩
abbrev main_v532 : Ref sig .tc := ⟨.hbm, 796, rfl⟩
abbrev main_v533 : Ref sig .tc := ⟨.hbm, 797, rfl⟩
abbrev main_v534 : Ref sig .tc := ⟨.hbm, 798, rfl⟩
abbrev main_v535 : Ref sig .tc := ⟨.hbm, 799, rfl⟩
abbrev main_v536 : Ref sig .tc := ⟨.hbm, 800, rfl⟩
abbrev main_c_87 : Ref sig .tc := ⟨.hbm, 801, rfl⟩
abbrev main_v537 : Ref sig .tc := ⟨.hbm, 802, rfl⟩
abbrev main_v538 : Ref sig .tc := ⟨.hbm, 803, rfl⟩
abbrev main_c_88 : Ref sig .tc := ⟨.hbm, 804, rfl⟩
abbrev main_v539 : Ref sig .tc := ⟨.hbm, 805, rfl⟩
abbrev main_v540 : Ref sig .tc := ⟨.hbm, 806, rfl⟩
abbrev main_v541 : Ref sig .tc := ⟨.hbm, 807, rfl⟩
abbrev main_v542 : Ref sig .tc := ⟨.hbm, 808, rfl⟩
abbrev main_v543 : Ref sig .tc := ⟨.hbm, 809, rfl⟩
abbrev main_v544 : Ref sig .tc := ⟨.hbm, 810, rfl⟩
abbrev main_v545 : Ref sig .tc := ⟨.hbm, 811, rfl⟩
abbrev main_v546 : Ref sig .tc := ⟨.hbm, 812, rfl⟩
abbrev main_v547 : Ref sig .tc := ⟨.hbm, 813, rfl⟩
abbrev main_c_89 : Ref sig .tc := ⟨.hbm, 814, rfl⟩
abbrev main_v548 : Ref sig .tc := ⟨.hbm, 815, rfl⟩
abbrev main_v549 : Ref sig .tc := ⟨.hbm, 816, rfl⟩
abbrev main_c_90 : Ref sig .tc := ⟨.hbm, 817, rfl⟩
abbrev main_v550 : Ref sig .tc := ⟨.hbm, 818, rfl⟩
abbrev main_v551 : Ref sig .tc := ⟨.hbm, 819, rfl⟩
abbrev main_v552 : Ref sig .tc := ⟨.hbm, 820, rfl⟩
abbrev main_v553 : Ref sig .tc := ⟨.hbm, 821, rfl⟩
abbrev main_v554 : Ref sig .tc := ⟨.hbm, 822, rfl⟩
abbrev main_v555 : Ref sig .tc := ⟨.hbm, 823, rfl⟩
abbrev main_v556 : Ref sig .tc := ⟨.hbm, 824, rfl⟩
abbrev main_v557 : Ref sig .tc := ⟨.hbm, 825, rfl⟩
abbrev main_v558 : Ref sig .tc := ⟨.hbm, 826, rfl⟩
abbrev main_c_91 : Ref sig .tc := ⟨.hbm, 827, rfl⟩
abbrev main_v559 : Ref sig .tc := ⟨.hbm, 828, rfl⟩
abbrev main_v560 : Ref sig .tc := ⟨.hbm, 829, rfl⟩
abbrev main_c_92 : Ref sig .tc := ⟨.hbm, 830, rfl⟩
abbrev main_v561 : Ref sig .tc := ⟨.hbm, 831, rfl⟩
abbrev main_v562 : Ref sig .tc := ⟨.hbm, 832, rfl⟩
abbrev main_v563 : Ref sig .tc := ⟨.hbm, 833, rfl⟩
abbrev main_v564 : Ref sig .tc := ⟨.hbm, 834, rfl⟩
abbrev main_v565 : Ref sig .tc := ⟨.hbm, 835, rfl⟩
abbrev main_v566 : Ref sig .tc := ⟨.hbm, 836, rfl⟩
abbrev main_v567 : Ref sig .tc := ⟨.hbm, 837, rfl⟩
abbrev main_v568 : Ref sig .tc := ⟨.hbm, 838, rfl⟩
abbrev main_v569 : Ref sig .tc := ⟨.hbm, 839, rfl⟩
abbrev main_c_93 : Ref sig .tc := ⟨.hbm, 840, rfl⟩
abbrev main_v570 : Ref sig .tc := ⟨.hbm, 841, rfl⟩
abbrev main_v571 : Ref sig .tc := ⟨.hbm, 842, rfl⟩
abbrev main_c_94 : Ref sig .tc := ⟨.hbm, 843, rfl⟩
abbrev main_v572 : Ref sig .tc := ⟨.hbm, 844, rfl⟩
abbrev main_v573 : Ref sig .tc := ⟨.hbm, 845, rfl⟩
abbrev main_v574 : Ref sig .tc := ⟨.hbm, 846, rfl⟩
abbrev main_v575 : Ref sig .tc := ⟨.hbm, 847, rfl⟩
abbrev main_v576 : Ref sig .tc := ⟨.hbm, 848, rfl⟩
abbrev main_v577 : Ref sig .tc := ⟨.hbm, 849, rfl⟩
abbrev main_v578 : Ref sig .tc := ⟨.hbm, 850, rfl⟩
abbrev main_v579 : Ref sig .tc := ⟨.hbm, 851, rfl⟩
abbrev main_v580 : Ref sig .tc := ⟨.hbm, 852, rfl⟩
abbrev main_c_95 : Ref sig .tc := ⟨.hbm, 853, rfl⟩
abbrev main_v581 : Ref sig .tc := ⟨.hbm, 854, rfl⟩
abbrev main_v582 : Ref sig .tc := ⟨.hbm, 855, rfl⟩
abbrev main_c_96 : Ref sig .tc := ⟨.hbm, 856, rfl⟩
abbrev main_v583 : Ref sig .tc := ⟨.hbm, 857, rfl⟩
abbrev main_v584 : Ref sig .tc := ⟨.hbm, 858, rfl⟩
abbrev main_v585 : Ref sig .tc := ⟨.hbm, 859, rfl⟩
abbrev main_v586 : Ref sig .tc := ⟨.hbm, 860, rfl⟩
abbrev main_v587 : Ref sig .tc := ⟨.hbm, 861, rfl⟩
abbrev main_v588 : Ref sig .tc := ⟨.hbm, 862, rfl⟩
abbrev main_v589 : Ref sig .tc := ⟨.hbm, 863, rfl⟩
abbrev main_v590 : Ref sig .tc := ⟨.hbm, 864, rfl⟩
abbrev main_v591 : Ref sig .tc := ⟨.hbm, 865, rfl⟩
abbrev main_c_97 : Ref sig .tc := ⟨.hbm, 866, rfl⟩
abbrev main_v592 : Ref sig .tc := ⟨.hbm, 867, rfl⟩
abbrev main_v593 : Ref sig .tc := ⟨.hbm, 868, rfl⟩
abbrev main_c_98 : Ref sig .tc := ⟨.hbm, 869, rfl⟩
abbrev main_v594 : Ref sig .tc := ⟨.hbm, 870, rfl⟩
abbrev main_v595 : Ref sig .tc := ⟨.hbm, 871, rfl⟩
abbrev main_v596 : Ref sig .tc := ⟨.hbm, 872, rfl⟩
abbrev main_v597 : Ref sig .tc := ⟨.hbm, 873, rfl⟩
abbrev main_v598 : Ref sig .tc := ⟨.hbm, 874, rfl⟩
abbrev main_v599 : Ref sig .tc := ⟨.hbm, 875, rfl⟩
abbrev main_v600 : Ref sig .tc := ⟨.hbm, 876, rfl⟩
abbrev main_v601 : Ref sig .tc := ⟨.hbm, 877, rfl⟩
abbrev main_v602 : Ref sig .tc := ⟨.hbm, 878, rfl⟩
abbrev main_c_99 : Ref sig .tc := ⟨.hbm, 879, rfl⟩
abbrev main_v603 : Ref sig .tc := ⟨.hbm, 880, rfl⟩
abbrev main_v604 : Ref sig .tc := ⟨.hbm, 881, rfl⟩
abbrev main_c_100 : Ref sig .tc := ⟨.hbm, 882, rfl⟩
abbrev main_v605 : Ref sig .tc := ⟨.hbm, 883, rfl⟩
abbrev main_v606 : Ref sig .tc := ⟨.hbm, 884, rfl⟩
abbrev main_v607 : Ref sig .tc := ⟨.hbm, 885, rfl⟩
abbrev main_v608 : Ref sig .tc := ⟨.hbm, 886, rfl⟩
abbrev main_v609 : Ref sig .tc := ⟨.hbm, 887, rfl⟩
abbrev main_v610 : Ref sig .tc := ⟨.hbm, 888, rfl⟩
abbrev main_v611 : Ref sig .tc := ⟨.hbm, 889, rfl⟩
abbrev main_v612 : Ref sig .tc := ⟨.hbm, 890, rfl⟩
abbrev main_v613 : Ref sig .tc := ⟨.hbm, 891, rfl⟩
abbrev main_c_101 : Ref sig .tc := ⟨.hbm, 892, rfl⟩
abbrev main_v614 : Ref sig .tc := ⟨.hbm, 893, rfl⟩
abbrev main_v615 : Ref sig .tc := ⟨.hbm, 894, rfl⟩
abbrev main_c_102 : Ref sig .tc := ⟨.hbm, 895, rfl⟩
abbrev main_v616 : Ref sig .tc := ⟨.hbm, 896, rfl⟩
abbrev main_v617 : Ref sig .tc := ⟨.hbm, 897, rfl⟩
abbrev main_v618 : Ref sig .tc := ⟨.hbm, 898, rfl⟩
abbrev main_v619 : Ref sig .tc := ⟨.hbm, 899, rfl⟩
abbrev main_v620 : Ref sig .tc := ⟨.hbm, 900, rfl⟩
abbrev main_v621 : Ref sig .tc := ⟨.hbm, 901, rfl⟩
abbrev main_v622 : Ref sig .tc := ⟨.hbm, 902, rfl⟩
abbrev main_v623 : Ref sig .tc := ⟨.hbm, 903, rfl⟩
abbrev main_v624 : Ref sig .tc := ⟨.hbm, 904, rfl⟩
abbrev main_c_103 : Ref sig .tc := ⟨.hbm, 905, rfl⟩
abbrev main_v625 : Ref sig .tc := ⟨.hbm, 906, rfl⟩
abbrev main_v626 : Ref sig .tc := ⟨.hbm, 907, rfl⟩
abbrev main_c_104 : Ref sig .tc := ⟨.hbm, 908, rfl⟩
abbrev main_v627 : Ref sig .tc := ⟨.hbm, 909, rfl⟩
abbrev main_v628 : Ref sig .tc := ⟨.hbm, 910, rfl⟩
abbrev main_v629 : Ref sig .tc := ⟨.hbm, 911, rfl⟩
abbrev main_v630 : Ref sig .tc := ⟨.hbm, 912, rfl⟩
abbrev main_v631 : Ref sig .tc := ⟨.hbm, 913, rfl⟩
abbrev main_v632 : Ref sig .tc := ⟨.hbm, 914, rfl⟩
abbrev main_v633 : Ref sig .tc := ⟨.hbm, 915, rfl⟩
abbrev main_v634 : Ref sig .tc := ⟨.hbm, 916, rfl⟩
abbrev main_v635 : Ref sig .tc := ⟨.hbm, 917, rfl⟩
abbrev main_c_105 : Ref sig .tc := ⟨.hbm, 918, rfl⟩
abbrev main_v636 : Ref sig .tc := ⟨.hbm, 919, rfl⟩
abbrev main_v637 : Ref sig .tc := ⟨.hbm, 920, rfl⟩
abbrev main_c_106 : Ref sig .tc := ⟨.hbm, 921, rfl⟩
abbrev main_v638 : Ref sig .tc := ⟨.hbm, 922, rfl⟩
abbrev main_v639 : Ref sig .tc := ⟨.hbm, 923, rfl⟩
abbrev main_v640 : Ref sig .tc := ⟨.hbm, 924, rfl⟩
abbrev main_v641 : Ref sig .tc := ⟨.hbm, 925, rfl⟩
abbrev main_v642 : Ref sig .tc := ⟨.hbm, 926, rfl⟩
abbrev main_v643 : Ref sig .tc := ⟨.hbm, 927, rfl⟩
abbrev main_v644 : Ref sig .tc := ⟨.hbm, 928, rfl⟩
abbrev main_v645 : Ref sig .tc := ⟨.hbm, 929, rfl⟩
abbrev main_v646 : Ref sig .tc := ⟨.hbm, 930, rfl⟩
abbrev main_c_107 : Ref sig .tc := ⟨.hbm, 931, rfl⟩
abbrev main_v647 : Ref sig .tc := ⟨.hbm, 932, rfl⟩
abbrev main_v648 : Ref sig .tc := ⟨.hbm, 933, rfl⟩
abbrev main_c_108 : Ref sig .tc := ⟨.hbm, 934, rfl⟩
abbrev main_v649 : Ref sig .tc := ⟨.hbm, 935, rfl⟩
abbrev main_v650 : Ref sig .tc := ⟨.hbm, 936, rfl⟩
abbrev main_v651 : Ref sig .tc := ⟨.hbm, 937, rfl⟩
abbrev main_v652 : Ref sig .tc := ⟨.hbm, 938, rfl⟩
abbrev main_v653 : Ref sig .tc := ⟨.hbm, 939, rfl⟩
abbrev main_v654 : Ref sig .tc := ⟨.hbm, 940, rfl⟩
abbrev main_v655 : Ref sig .tc := ⟨.hbm, 941, rfl⟩
abbrev main_v656 : Ref sig .tc := ⟨.hbm, 942, rfl⟩
abbrev main_v657 : Ref sig .tc := ⟨.hbm, 943, rfl⟩
abbrev main_c_109 : Ref sig .tc := ⟨.hbm, 944, rfl⟩
abbrev main_v658 : Ref sig .tc := ⟨.hbm, 945, rfl⟩
abbrev main_v659 : Ref sig .tc := ⟨.hbm, 946, rfl⟩
abbrev main_c_110 : Ref sig .tc := ⟨.hbm, 947, rfl⟩
abbrev main_v660 : Ref sig .tc := ⟨.hbm, 948, rfl⟩
abbrev main_v661 : Ref sig .tc := ⟨.hbm, 949, rfl⟩
abbrev main_v662 : Ref sig .tc := ⟨.hbm, 950, rfl⟩
abbrev main_v663 : Ref sig .tc := ⟨.hbm, 951, rfl⟩
abbrev main_v664 : Ref sig .tc := ⟨.hbm, 952, rfl⟩
abbrev main_v665 : Ref sig .tc := ⟨.hbm, 953, rfl⟩
abbrev main_v666 : Ref sig .tc := ⟨.hbm, 954, rfl⟩
abbrev main_v667 : Ref sig .tc := ⟨.hbm, 955, rfl⟩
abbrev main_v668 : Ref sig .tc := ⟨.hbm, 956, rfl⟩
abbrev main_c_111 : Ref sig .tc := ⟨.hbm, 957, rfl⟩
abbrev main_v669 : Ref sig .tc := ⟨.hbm, 958, rfl⟩
abbrev main_v670 : Ref sig .tc := ⟨.hbm, 959, rfl⟩
abbrev main_c_112 : Ref sig .tc := ⟨.hbm, 960, rfl⟩
abbrev main_v671 : Ref sig .tc := ⟨.hbm, 961, rfl⟩
abbrev main_v672 : Ref sig .tc := ⟨.hbm, 962, rfl⟩
abbrev main_v673 : Ref sig .tc := ⟨.hbm, 963, rfl⟩
abbrev main_v674 : Ref sig .tc := ⟨.hbm, 964, rfl⟩
abbrev main_v675 : Ref sig .tc := ⟨.hbm, 965, rfl⟩
abbrev main_v676 : Ref sig .tc := ⟨.hbm, 966, rfl⟩
abbrev main_v677 : Ref sig .tc := ⟨.hbm, 967, rfl⟩
abbrev main_v678 : Ref sig .tc := ⟨.hbm, 968, rfl⟩
abbrev main_v679 : Ref sig .tc := ⟨.hbm, 969, rfl⟩
abbrev main_c_113 : Ref sig .tc := ⟨.hbm, 970, rfl⟩
abbrev main_v680 : Ref sig .tc := ⟨.hbm, 971, rfl⟩
abbrev main_v681 : Ref sig .tc := ⟨.hbm, 972, rfl⟩
abbrev main_c_114 : Ref sig .tc := ⟨.hbm, 973, rfl⟩
abbrev main_v682 : Ref sig .tc := ⟨.hbm, 974, rfl⟩
abbrev main_v683 : Ref sig .tc := ⟨.hbm, 975, rfl⟩
abbrev main_v684 : Ref sig .tc := ⟨.hbm, 976, rfl⟩
abbrev main_v685 : Ref sig .tc := ⟨.hbm, 977, rfl⟩
abbrev main_v686 : Ref sig .tc := ⟨.hbm, 978, rfl⟩
abbrev main_v687 : Ref sig .tc := ⟨.hbm, 979, rfl⟩
abbrev main_v688 : Ref sig .tc := ⟨.hbm, 980, rfl⟩
abbrev main_v689 : Ref sig .tc := ⟨.hbm, 981, rfl⟩
abbrev main_v690 : Ref sig .tc := ⟨.hbm, 982, rfl⟩
abbrev main_c_115 : Ref sig .tc := ⟨.hbm, 983, rfl⟩
abbrev main_v691 : Ref sig .tc := ⟨.hbm, 984, rfl⟩
abbrev main_v692 : Ref sig .tc := ⟨.hbm, 985, rfl⟩
abbrev main_c_116 : Ref sig .tc := ⟨.hbm, 986, rfl⟩
abbrev main_v693 : Ref sig .tc := ⟨.hbm, 987, rfl⟩
abbrev main_v694 : Ref sig .tc := ⟨.hbm, 988, rfl⟩
abbrev main_v695 : Ref sig .tc := ⟨.hbm, 989, rfl⟩
abbrev main_v696 : Ref sig .tc := ⟨.hbm, 990, rfl⟩
abbrev main_v697 : Ref sig .tc := ⟨.hbm, 991, rfl⟩
abbrev main_v698 : Ref sig .tc := ⟨.hbm, 992, rfl⟩
abbrev main_v699 : Ref sig .tc := ⟨.hbm, 993, rfl⟩
abbrev main_v700 : Ref sig .tc := ⟨.hbm, 994, rfl⟩
abbrev main_v701 : Ref sig .tc := ⟨.hbm, 995, rfl⟩
abbrev main_c_117 : Ref sig .tc := ⟨.hbm, 996, rfl⟩
abbrev main_v702 : Ref sig .tc := ⟨.hbm, 997, rfl⟩
abbrev main_v703 : Ref sig .tc := ⟨.hbm, 998, rfl⟩
abbrev main_c_118 : Ref sig .tc := ⟨.hbm, 999, rfl⟩
abbrev main_v704 : Ref sig .tc := ⟨.hbm, 1000, rfl⟩
abbrev main_v705 : Ref sig .tc := ⟨.hbm, 1001, rfl⟩
abbrev main_v706 : Ref sig .tc := ⟨.hbm, 1002, rfl⟩
abbrev main_v707 : Ref sig .tc := ⟨.hbm, 1003, rfl⟩
abbrev main_v708 : Ref sig .tc := ⟨.hbm, 1004, rfl⟩
abbrev main_v709 : Ref sig .tc := ⟨.hbm, 1005, rfl⟩
abbrev main_v710 : Ref sig .tc := ⟨.hbm, 1006, rfl⟩
abbrev main_v711 : Ref sig .tc := ⟨.hbm, 1007, rfl⟩
abbrev main_v712 : Ref sig .tc := ⟨.hbm, 1008, rfl⟩
abbrev main_c_119 : Ref sig .tc := ⟨.hbm, 1009, rfl⟩
abbrev main_v713 : Ref sig .tc := ⟨.hbm, 1010, rfl⟩
abbrev main_v714 : Ref sig .tc := ⟨.hbm, 1011, rfl⟩
abbrev main_c_120 : Ref sig .tc := ⟨.hbm, 1012, rfl⟩
abbrev main_v715 : Ref sig .tc := ⟨.hbm, 1013, rfl⟩
abbrev main_v716 : Ref sig .tc := ⟨.hbm, 1014, rfl⟩
abbrev main_v717 : Ref sig .tc := ⟨.hbm, 1015, rfl⟩
abbrev main_v718 : Ref sig .tc := ⟨.hbm, 1016, rfl⟩
abbrev main_v719 : Ref sig .tc := ⟨.hbm, 1017, rfl⟩
abbrev main_v720 : Ref sig .tc := ⟨.hbm, 1018, rfl⟩
abbrev main_v721 : Ref sig .tc := ⟨.hbm, 1019, rfl⟩
abbrev main_v722 : Ref sig .tc := ⟨.hbm, 1020, rfl⟩
abbrev main_v723 : Ref sig .tc := ⟨.hbm, 1021, rfl⟩
abbrev main_c_121 : Ref sig .tc := ⟨.hbm, 1022, rfl⟩
abbrev main_v724 : Ref sig .tc := ⟨.hbm, 1023, rfl⟩
abbrev main_v725 : Ref sig .tc := ⟨.hbm, 1024, rfl⟩
abbrev main_c_122 : Ref sig .tc := ⟨.hbm, 1025, rfl⟩
abbrev main_v726 : Ref sig .tc := ⟨.hbm, 1026, rfl⟩
abbrev main_v727 : Ref sig .tc := ⟨.hbm, 1027, rfl⟩
abbrev main_v728 : Ref sig .tc := ⟨.hbm, 1028, rfl⟩
abbrev main_v729 : Ref sig .tc := ⟨.hbm, 1029, rfl⟩
abbrev main_v730 : Ref sig .tc := ⟨.hbm, 1030, rfl⟩
abbrev main_v731 : Ref sig .tc := ⟨.hbm, 1031, rfl⟩
abbrev main_v732 : Ref sig .tc := ⟨.hbm, 1032, rfl⟩
abbrev main_v733 : Ref sig .tc := ⟨.hbm, 1033, rfl⟩
abbrev main_v734 : Ref sig .tc := ⟨.hbm, 1034, rfl⟩
abbrev main_c_123 : Ref sig .tc := ⟨.hbm, 1035, rfl⟩
abbrev main_v735 : Ref sig .tc := ⟨.hbm, 1036, rfl⟩
abbrev main_v736 : Ref sig .tc := ⟨.hbm, 1037, rfl⟩
abbrev main_c_124 : Ref sig .tc := ⟨.hbm, 1038, rfl⟩
abbrev main_v737 : Ref sig .tc := ⟨.hbm, 1039, rfl⟩
abbrev main_v738 : Ref sig .tc := ⟨.hbm, 1040, rfl⟩
abbrev main_v739 : Ref sig .tc := ⟨.hbm, 1041, rfl⟩
abbrev main_v740 : Ref sig .tc := ⟨.hbm, 1042, rfl⟩
abbrev main_v741 : Ref sig .tc := ⟨.hbm, 1043, rfl⟩
abbrev main_v742 : Ref sig .tc := ⟨.hbm, 1044, rfl⟩
abbrev main_v743 : Ref sig .tc := ⟨.hbm, 1045, rfl⟩
abbrev main_v744 : Ref sig .tc := ⟨.hbm, 1046, rfl⟩
abbrev main_v745 : Ref sig .tc := ⟨.hbm, 1047, rfl⟩
abbrev main_c_125 : Ref sig .tc := ⟨.hbm, 1048, rfl⟩
abbrev main_v746 : Ref sig .tc := ⟨.hbm, 1049, rfl⟩
abbrev main_v747 : Ref sig .tc := ⟨.hbm, 1050, rfl⟩
abbrev main_c_126 : Ref sig .tc := ⟨.hbm, 1051, rfl⟩
abbrev main_v748 : Ref sig .tc := ⟨.hbm, 1052, rfl⟩
abbrev main_v749 : Ref sig .tc := ⟨.hbm, 1053, rfl⟩
abbrev main_v750 : Ref sig .tc := ⟨.hbm, 1054, rfl⟩
abbrev main_v751 : Ref sig .tc := ⟨.hbm, 1055, rfl⟩
abbrev main_v752 : Ref sig .tc := ⟨.hbm, 1056, rfl⟩
abbrev main_v753 : Ref sig .tc := ⟨.hbm, 1057, rfl⟩
abbrev main_v754 : Ref sig .tc := ⟨.hbm, 1058, rfl⟩
abbrev main_v755 : Ref sig .tc := ⟨.hbm, 1059, rfl⟩
abbrev main_v756 : Ref sig .tc := ⟨.hbm, 1060, rfl⟩
abbrev main_c_127 : Ref sig .tc := ⟨.hbm, 1061, rfl⟩
abbrev main_v757 : Ref sig .tc := ⟨.hbm, 1062, rfl⟩
abbrev main_v758 : Ref sig .tc := ⟨.hbm, 1063, rfl⟩
abbrev main_c_128 : Ref sig .tc := ⟨.hbm, 1064, rfl⟩
abbrev main_v759 : Ref sig .tc := ⟨.hbm, 1065, rfl⟩
abbrev main_v760 : Ref sig .tc := ⟨.hbm, 1066, rfl⟩
abbrev main_v761 : Ref sig .tc := ⟨.hbm, 1067, rfl⟩
abbrev main_v762 : Ref sig .tc := ⟨.hbm, 1068, rfl⟩
abbrev main_v763 : Ref sig .tc := ⟨.hbm, 1069, rfl⟩
abbrev main_v764 : Ref sig .tc := ⟨.hbm, 1070, rfl⟩
abbrev main_v765 : Ref sig .tc := ⟨.hbm, 1071, rfl⟩
abbrev main_v766 : Ref sig .tc := ⟨.hbm, 1072, rfl⟩
abbrev main_v767 : Ref sig .tc := ⟨.hbm, 1073, rfl⟩
abbrev main_c_129 : Ref sig .tc := ⟨.hbm, 1074, rfl⟩
abbrev main_v768 : Ref sig .tc := ⟨.hbm, 1075, rfl⟩
abbrev main_v769 : Ref sig .tc := ⟨.hbm, 1076, rfl⟩
abbrev main_c_130 : Ref sig .tc := ⟨.hbm, 1077, rfl⟩
abbrev main_v770 : Ref sig .tc := ⟨.hbm, 1078, rfl⟩
abbrev main_v771 : Ref sig .tc := ⟨.hbm, 1079, rfl⟩
abbrev main_v772 : Ref sig .tc := ⟨.hbm, 1080, rfl⟩
abbrev main_v773 : Ref sig .tc := ⟨.hbm, 1081, rfl⟩
abbrev main_v774 : Ref sig .tc := ⟨.hbm, 1082, rfl⟩
abbrev main_v775 : Ref sig .tc := ⟨.hbm, 1083, rfl⟩
abbrev main_v776 : Ref sig .tc := ⟨.hbm, 1084, rfl⟩
abbrev main_v777 : Ref sig .tc := ⟨.hbm, 1085, rfl⟩
abbrev main_v778 : Ref sig .tc := ⟨.hbm, 1086, rfl⟩
abbrev main_c_131 : Ref sig .tc := ⟨.hbm, 1087, rfl⟩
abbrev main_v779 : Ref sig .tc := ⟨.hbm, 1088, rfl⟩
abbrev main_v780 : Ref sig .tc := ⟨.hbm, 1089, rfl⟩
abbrev main_c_132 : Ref sig .tc := ⟨.hbm, 1090, rfl⟩
abbrev main_v781 : Ref sig .tc := ⟨.hbm, 1091, rfl⟩
abbrev main_v782 : Ref sig .tc := ⟨.hbm, 1092, rfl⟩
abbrev main_v783 : Ref sig .tc := ⟨.hbm, 1093, rfl⟩
abbrev main_v784 : Ref sig .tc := ⟨.hbm, 1094, rfl⟩
abbrev main_v785 : Ref sig .tc := ⟨.hbm, 1095, rfl⟩
abbrev main_v786 : Ref sig .tc := ⟨.hbm, 1096, rfl⟩
abbrev main_v787 : Ref sig .tc := ⟨.hbm, 1097, rfl⟩
abbrev main_v788 : Ref sig .tc := ⟨.hbm, 1098, rfl⟩
abbrev main_v789 : Ref sig .tc := ⟨.hbm, 1099, rfl⟩
abbrev main_c_133 : Ref sig .tc := ⟨.hbm, 1100, rfl⟩
abbrev main_v790 : Ref sig .tc := ⟨.hbm, 1101, rfl⟩
abbrev main_v791 : Ref sig .tc := ⟨.hbm, 1102, rfl⟩
abbrev main_c_134 : Ref sig .tc := ⟨.hbm, 1103, rfl⟩
abbrev main_v792 : Ref sig .tc := ⟨.hbm, 1104, rfl⟩
abbrev main_v793 : Ref sig .tc := ⟨.hbm, 1105, rfl⟩
abbrev main_v794 : Ref sig .tc := ⟨.hbm, 1106, rfl⟩
abbrev main_v795 : Ref sig .tc := ⟨.hbm, 1107, rfl⟩
abbrev main_v796 : Ref sig .tc := ⟨.hbm, 1108, rfl⟩
abbrev main_v797 : Ref sig .tc := ⟨.hbm, 1109, rfl⟩
abbrev main_v798 : Ref sig .tc := ⟨.hbm, 1110, rfl⟩
abbrev main_v799 : Ref sig .tc := ⟨.hbm, 1111, rfl⟩
abbrev main_v800 : Ref sig .tc := ⟨.hbm, 1112, rfl⟩
abbrev main_c_135 : Ref sig .tc := ⟨.hbm, 1113, rfl⟩
abbrev main_v801 : Ref sig .tc := ⟨.hbm, 1114, rfl⟩
abbrev main_v802 : Ref sig .tc := ⟨.hbm, 1115, rfl⟩
abbrev main_c_136 : Ref sig .tc := ⟨.hbm, 1116, rfl⟩
abbrev main_v803 : Ref sig .tc := ⟨.hbm, 1117, rfl⟩
abbrev main_v804 : Ref sig .tc := ⟨.hbm, 1118, rfl⟩
abbrev main_v805 : Ref sig .tc := ⟨.hbm, 1119, rfl⟩
abbrev main_v806 : Ref sig .tc := ⟨.hbm, 1120, rfl⟩
abbrev main_v807 : Ref sig .tc := ⟨.hbm, 1121, rfl⟩
abbrev main_v808 : Ref sig .tc := ⟨.hbm, 1122, rfl⟩
abbrev main_v809 : Ref sig .tc := ⟨.hbm, 1123, rfl⟩
abbrev main_v810 : Ref sig .tc := ⟨.hbm, 1124, rfl⟩
abbrev main_v811 : Ref sig .tc := ⟨.hbm, 1125, rfl⟩
abbrev main_c_137 : Ref sig .tc := ⟨.hbm, 1126, rfl⟩
abbrev main_v812 : Ref sig .tc := ⟨.hbm, 1127, rfl⟩
abbrev main_v813 : Ref sig .tc := ⟨.hbm, 1128, rfl⟩
abbrev main_c_138 : Ref sig .tc := ⟨.hbm, 1129, rfl⟩
abbrev main_v814 : Ref sig .tc := ⟨.hbm, 1130, rfl⟩
abbrev main_v815 : Ref sig .tc := ⟨.hbm, 1131, rfl⟩
abbrev main_v816 : Ref sig .tc := ⟨.hbm, 1132, rfl⟩
abbrev main_v817 : Ref sig .tc := ⟨.hbm, 1133, rfl⟩
abbrev main_v818 : Ref sig .tc := ⟨.hbm, 1134, rfl⟩
abbrev main_v819 : Ref sig .tc := ⟨.hbm, 1135, rfl⟩
abbrev main_v820 : Ref sig .tc := ⟨.hbm, 1136, rfl⟩
abbrev main_v821 : Ref sig .tc := ⟨.hbm, 1137, rfl⟩
abbrev main_v822 : Ref sig .tc := ⟨.hbm, 1138, rfl⟩
abbrev main_c_139 : Ref sig .tc := ⟨.hbm, 1139, rfl⟩
abbrev main_v823 : Ref sig .tc := ⟨.hbm, 1140, rfl⟩
abbrev main_v824 : Ref sig .tc := ⟨.hbm, 1141, rfl⟩
abbrev main_c_140 : Ref sig .tc := ⟨.hbm, 1142, rfl⟩
abbrev main_v825 : Ref sig .tc := ⟨.hbm, 1143, rfl⟩
abbrev main_v826 : Ref sig .tc := ⟨.hbm, 1144, rfl⟩
abbrev main_v827 : Ref sig .tc := ⟨.hbm, 1145, rfl⟩
abbrev main_v828 : Ref sig .tc := ⟨.hbm, 1146, rfl⟩
abbrev main_v829 : Ref sig .tc := ⟨.hbm, 1147, rfl⟩
abbrev main_v830 : Ref sig .tc := ⟨.hbm, 1148, rfl⟩
abbrev main_v831 : Ref sig .tc := ⟨.hbm, 1149, rfl⟩
abbrev main_v832 : Ref sig .tc := ⟨.hbm, 1150, rfl⟩
abbrev main_v833 : Ref sig .tc := ⟨.hbm, 1151, rfl⟩
abbrev main_c_141 : Ref sig .tc := ⟨.hbm, 1152, rfl⟩
abbrev main_v834 : Ref sig .tc := ⟨.hbm, 1153, rfl⟩
abbrev main_v835 : Ref sig .tc := ⟨.hbm, 1154, rfl⟩
abbrev main_c_142 : Ref sig .tc := ⟨.hbm, 1155, rfl⟩
abbrev main_v836 : Ref sig .tc := ⟨.hbm, 1156, rfl⟩
abbrev main_v837 : Ref sig .tc := ⟨.hbm, 1157, rfl⟩
abbrev main_v838 : Ref sig .tc := ⟨.hbm, 1158, rfl⟩
abbrev main_v839 : Ref sig .tc := ⟨.hbm, 1159, rfl⟩
abbrev main_v840 : Ref sig .tc := ⟨.hbm, 1160, rfl⟩
abbrev main_v841 : Ref sig .tc := ⟨.hbm, 1161, rfl⟩
abbrev main_v842 : Ref sig .tc := ⟨.hbm, 1162, rfl⟩
abbrev main_cst_143 : Ref sig .tc := ⟨.hbm, 1163, rfl⟩
abbrev main_v843 : Ref sig .tc := ⟨.hbm, 1164, rfl⟩
abbrev main_v844 : Ref sig .tc := ⟨.hbm, 1165, rfl⟩
abbrev main_cst_144 : Ref sig .tc := ⟨.hbm, 1166, rfl⟩
abbrev main_v845 : Ref sig .tc := ⟨.hbm, 1167, rfl⟩
abbrev main_v846 : Ref sig .tc := ⟨.hbm, 1168, rfl⟩
abbrev main_c_145 : Ref sig .tc := ⟨.hbm, 1169, rfl⟩
abbrev main_call13_cst : Ref sig .tc := ⟨.hbm, 1170, rfl⟩
abbrev main_call13_v0 : Ref sig .tc := ⟨.hbm, 1171, rfl⟩
abbrev main_call13_v1 : Ref sig .tc := ⟨.hbm, 1172, rfl⟩
abbrev main_call13_cst_0 : Ref sig .tc := ⟨.hbm, 1173, rfl⟩
abbrev main_call13_v2 : Ref sig .tc := ⟨.hbm, 1174, rfl⟩
abbrev main_call13_v3 : Ref sig .tc := ⟨.hbm, 1175, rfl⟩
abbrev main_call13_v4 : Ref sig .tc := ⟨.hbm, 1176, rfl⟩
abbrev main_call13_v5 : Ref sig .tc := ⟨.hbm, 1177, rfl⟩
abbrev main_call13_v6 : Ref sig .tc := ⟨.hbm, 1178, rfl⟩
abbrev main_call13_v7 : Ref sig .tc := ⟨.hbm, 1179, rfl⟩
abbrev main_call13_cst_1 : Ref sig .tc := ⟨.hbm, 1180, rfl⟩
abbrev main_call13_v8 : Ref sig .tc := ⟨.hbm, 1181, rfl⟩
abbrev main_call13_cst_2 : Ref sig .tc := ⟨.hbm, 1182, rfl⟩
abbrev main_call13_v9 : Ref sig .tc := ⟨.hbm, 1183, rfl⟩
abbrev main_call13_v10 : Ref sig .tc := ⟨.hbm, 1184, rfl⟩
abbrev main_call13_v11 : Ref sig .tc := ⟨.hbm, 1185, rfl⟩
abbrev main_call13_v12 : Ref sig .tc := ⟨.hbm, 1186, rfl⟩
abbrev main_call13_cst_3 : Ref sig .tc := ⟨.hbm, 1187, rfl⟩
abbrev main_call13_v13 : Ref sig .tc := ⟨.hbm, 1188, rfl⟩
abbrev main_call13_cst_4 : Ref sig .tc := ⟨.hbm, 1189, rfl⟩
abbrev main_call13_call0_v0 : Ref sig .tc := ⟨.hbm, 1190, rfl⟩
abbrev main_call13_call0_v1 : Ref sig .tc := ⟨.hbm, 1191, rfl⟩
abbrev main_v847 : Ref sig .tc := ⟨.hbm, 1192, rfl⟩
abbrev main_v848 : Ref sig .tc := ⟨.hbm, 1193, rfl⟩
abbrev main_v849 : Ref sig .tc := ⟨.hbm, 1194, rfl⟩
abbrev main_cst_146 : Ref sig .tc := ⟨.hbm, 1195, rfl⟩
abbrev main_v850 : Ref sig .tc := ⟨.hbm, 1196, rfl⟩
abbrev main_v851 : Ref sig .tc := ⟨.hbm, 1197, rfl⟩
abbrev main_v852 : Ref sig .tc := ⟨.hbm, 1198, rfl⟩
abbrev main_v853 : Ref sig .tc := ⟨.hbm, 1199, rfl⟩
abbrev main_v854 : Ref sig .tc := ⟨.hbm, 1200, rfl⟩
abbrev main_v855 : Ref sig .tc := ⟨.hbm, 1201, rfl⟩
abbrev main_v856 : Ref sig .tc := ⟨.hbm, 1202, rfl⟩
abbrev main_v857 : Ref sig .tc := ⟨.hbm, 1203, rfl⟩
abbrev main_v858 : Ref sig .tc := ⟨.hbm, 1204, rfl⟩
abbrev main_v859 : Ref sig .tc := ⟨.hbm, 1205, rfl⟩
abbrev main_v860 : Ref sig .tc := ⟨.hbm, 1206, rfl⟩
abbrev main_v861 : Ref sig .tc := ⟨.hbm, 1207, rfl⟩
abbrev main_v862 : Ref sig .tc := ⟨.hbm, 1208, rfl⟩
abbrev main_v863 : Ref sig .tc := ⟨.hbm, 1209, rfl⟩
abbrev main_v864 : Ref sig .tc := ⟨.hbm, 1210, rfl⟩
abbrev main_call14_cst : Ref sig .tc := ⟨.hbm, 1211, rfl⟩
abbrev main_call14_v0 : Ref sig .tc := ⟨.hbm, 1212, rfl⟩
abbrev main_v865 : Ref sig .tc := ⟨.hbm, 1213, rfl⟩
abbrev main_v866 : Ref sig .tc := ⟨.hbm, 1214, rfl⟩
abbrev main_v867 : Ref sig .tc := ⟨.hbm, 1215, rfl⟩
abbrev main_v868 : Ref sig .tc := ⟨.hbm, 1216, rfl⟩
abbrev main_v869 : Ref sig .tc := ⟨.hbm, 1217, rfl⟩
abbrev main_v870 : Ref sig .tc := ⟨.hbm, 1218, rfl⟩
abbrev main_v871 : Ref sig .tc := ⟨.hbm, 1219, rfl⟩
abbrev main_cst_147 : Ref sig .tc := ⟨.hbm, 1220, rfl⟩
abbrev main_v872 : Ref sig .tc := ⟨.hbm, 1221, rfl⟩
abbrev main_v873 : Ref sig .tc := ⟨.hbm, 1222, rfl⟩
abbrev main_cst_148 : Ref sig .tc := ⟨.hbm, 1223, rfl⟩
abbrev main_v874 : Ref sig .tc := ⟨.hbm, 1224, rfl⟩
abbrev main_v875 : Ref sig .tc := ⟨.hbm, 1225, rfl⟩
abbrev main_c_149 : Ref sig .tc := ⟨.hbm, 1226, rfl⟩
abbrev main_call15_cst : Ref sig .tc := ⟨.hbm, 1227, rfl⟩
abbrev main_call15_v0 : Ref sig .tc := ⟨.hbm, 1228, rfl⟩
abbrev main_call15_v1 : Ref sig .tc := ⟨.hbm, 1229, rfl⟩
abbrev main_call15_cst_0 : Ref sig .tc := ⟨.hbm, 1230, rfl⟩
abbrev main_call15_v2 : Ref sig .tc := ⟨.hbm, 1231, rfl⟩
abbrev main_call15_v3 : Ref sig .tc := ⟨.hbm, 1232, rfl⟩
abbrev main_call15_v4 : Ref sig .tc := ⟨.hbm, 1233, rfl⟩
abbrev main_call15_v5 : Ref sig .tc := ⟨.hbm, 1234, rfl⟩
abbrev main_call15_v6 : Ref sig .tc := ⟨.hbm, 1235, rfl⟩
abbrev main_call15_v7 : Ref sig .tc := ⟨.hbm, 1236, rfl⟩
abbrev main_call15_cst_1 : Ref sig .tc := ⟨.hbm, 1237, rfl⟩
abbrev main_call15_v8 : Ref sig .tc := ⟨.hbm, 1238, rfl⟩
abbrev main_call15_cst_2 : Ref sig .tc := ⟨.hbm, 1239, rfl⟩
abbrev main_call15_v9 : Ref sig .tc := ⟨.hbm, 1240, rfl⟩
abbrev main_call15_v10 : Ref sig .tc := ⟨.hbm, 1241, rfl⟩
abbrev main_call15_v11 : Ref sig .tc := ⟨.hbm, 1242, rfl⟩
abbrev main_call15_v12 : Ref sig .tc := ⟨.hbm, 1243, rfl⟩
abbrev main_call15_cst_3 : Ref sig .tc := ⟨.hbm, 1244, rfl⟩
abbrev main_call15_v13 : Ref sig .tc := ⟨.hbm, 1245, rfl⟩
abbrev main_call15_cst_4 : Ref sig .tc := ⟨.hbm, 1246, rfl⟩
abbrev main_call15_call0_v0 : Ref sig .tc := ⟨.hbm, 1247, rfl⟩
abbrev main_call15_call0_v1 : Ref sig .tc := ⟨.hbm, 1248, rfl⟩
abbrev main_v876 : Ref sig .tc := ⟨.hbm, 1249, rfl⟩
abbrev main_v877 : Ref sig .tc := ⟨.hbm, 1250, rfl⟩
abbrev main_v878 : Ref sig .tc := ⟨.hbm, 1251, rfl⟩
abbrev main_cst_150 : Ref sig .tc := ⟨.hbm, 1252, rfl⟩
abbrev main_v879 : Ref sig .tc := ⟨.hbm, 1253, rfl⟩
abbrev main_v880 : Ref sig .tc := ⟨.hbm, 1254, rfl⟩
abbrev main_v881 : Ref sig .tc := ⟨.hbm, 1255, rfl⟩
abbrev main_v882 : Ref sig .tc := ⟨.hbm, 1256, rfl⟩
abbrev main_v883 : Ref sig .tc := ⟨.hbm, 1257, rfl⟩
abbrev main_v884 : Ref sig .tc := ⟨.hbm, 1258, rfl⟩
abbrev main_v885 : Ref sig .tc := ⟨.hbm, 1259, rfl⟩
abbrev main_v886 : Ref sig .tc := ⟨.hbm, 1260, rfl⟩
abbrev main_v887 : Ref sig .tc := ⟨.hbm, 1261, rfl⟩
abbrev main_v888 : Ref sig .tc := ⟨.hbm, 1262, rfl⟩
abbrev main_v889 : Ref sig .tc := ⟨.hbm, 1263, rfl⟩
abbrev main_v890 : Ref sig .tc := ⟨.hbm, 1264, rfl⟩
abbrev main_v891 : Ref sig .tc := ⟨.hbm, 1265, rfl⟩
abbrev main_v892 : Ref sig .tc := ⟨.hbm, 1266, rfl⟩
abbrev main_v893 : Ref sig .tc := ⟨.hbm, 1267, rfl⟩
abbrev main_v894 : Ref sig .tc := ⟨.hbm, 1268, rfl⟩
abbrev main_call16_cst : Ref sig .tc := ⟨.hbm, 1269, rfl⟩
abbrev main_call16_v0 : Ref sig .tc := ⟨.hbm, 1270, rfl⟩
abbrev main_v895 : Ref sig .tc := ⟨.hbm, 1271, rfl⟩
abbrev main_v896 : Ref sig .tc := ⟨.hbm, 1272, rfl⟩
abbrev main_v897 : Ref sig .tc := ⟨.hbm, 1273, rfl⟩
abbrev main_v898 : Ref sig .tc := ⟨.hbm, 1274, rfl⟩
abbrev main_v899 : Ref sig .tc := ⟨.hbm, 1275, rfl⟩
abbrev main_v900 : Ref sig .tc := ⟨.hbm, 1276, rfl⟩
abbrev main_v901 : Ref sig .tc := ⟨.hbm, 1277, rfl⟩
abbrev main_v902 : Ref sig .tc := ⟨.hbm, 1278, rfl⟩
abbrev main_v903 : Ref sig .tc := ⟨.hbm, 1279, rfl⟩
abbrev main_c_151 : Ref sig .tc := ⟨.hbm, 1280, rfl⟩
abbrev main_v904 : Ref sig .tc := ⟨.hbm, 1281, rfl⟩
abbrev main_v905 : Ref sig .tc := ⟨.hbm, 1282, rfl⟩
abbrev main_c_152 : Ref sig .tc := ⟨.hbm, 1283, rfl⟩
abbrev main_v906 : Ref sig .tc := ⟨.hbm, 1284, rfl⟩
abbrev main_v907 : Ref sig .tc := ⟨.hbm, 1285, rfl⟩
abbrev main_v908 : Ref sig .tc := ⟨.hbm, 1286, rfl⟩
abbrev main_v909 : Ref sig .tc := ⟨.hbm, 1287, rfl⟩
abbrev main_v910 : Ref sig .tc := ⟨.hbm, 1288, rfl⟩
abbrev main_v911 : Ref sig .tc := ⟨.hbm, 1289, rfl⟩
abbrev main_v912 : Ref sig .tc := ⟨.hbm, 1290, rfl⟩
abbrev main_v913 : Ref sig .tc := ⟨.hbm, 1291, rfl⟩
abbrev main_v914 : Ref sig .tc := ⟨.hbm, 1292, rfl⟩
abbrev main_c_153 : Ref sig .tc := ⟨.hbm, 1293, rfl⟩
abbrev main_v915 : Ref sig .tc := ⟨.hbm, 1294, rfl⟩
abbrev main_v916 : Ref sig .tc := ⟨.hbm, 1295, rfl⟩
abbrev main_c_154 : Ref sig .tc := ⟨.hbm, 1296, rfl⟩
abbrev main_v917 : Ref sig .tc := ⟨.hbm, 1297, rfl⟩
abbrev main_v918 : Ref sig .tc := ⟨.hbm, 1298, rfl⟩
abbrev main_v919 : Ref sig .tc := ⟨.hbm, 1299, rfl⟩
abbrev main_v920 : Ref sig .tc := ⟨.hbm, 1300, rfl⟩
abbrev main_v921 : Ref sig .tc := ⟨.hbm, 1301, rfl⟩
abbrev main_v922 : Ref sig .tc := ⟨.hbm, 1302, rfl⟩
abbrev main_v923 : Ref sig .tc := ⟨.hbm, 1303, rfl⟩
abbrev main_v924 : Ref sig .tc := ⟨.hbm, 1304, rfl⟩
abbrev main_v925 : Ref sig .tc := ⟨.hbm, 1305, rfl⟩
abbrev main_c_155 : Ref sig .tc := ⟨.hbm, 1306, rfl⟩
abbrev main_v926 : Ref sig .tc := ⟨.hbm, 1307, rfl⟩
abbrev main_v927 : Ref sig .tc := ⟨.hbm, 1308, rfl⟩
abbrev main_c_156 : Ref sig .tc := ⟨.hbm, 1309, rfl⟩
abbrev main_v928 : Ref sig .tc := ⟨.hbm, 1310, rfl⟩
abbrev main_v929 : Ref sig .tc := ⟨.hbm, 1311, rfl⟩
abbrev main_v930 : Ref sig .tc := ⟨.hbm, 1312, rfl⟩
abbrev main_v931 : Ref sig .tc := ⟨.hbm, 1313, rfl⟩
abbrev main_v932 : Ref sig .tc := ⟨.hbm, 1314, rfl⟩
abbrev main_v933 : Ref sig .tc := ⟨.hbm, 1315, rfl⟩
abbrev main_v934 : Ref sig .tc := ⟨.hbm, 1316, rfl⟩
abbrev main_v935 : Ref sig .tc := ⟨.hbm, 1317, rfl⟩
abbrev main_v936 : Ref sig .tc := ⟨.hbm, 1318, rfl⟩
abbrev main_c_157 : Ref sig .tc := ⟨.hbm, 1319, rfl⟩
abbrev main_v937 : Ref sig .tc := ⟨.hbm, 1320, rfl⟩
abbrev main_v938 : Ref sig .tc := ⟨.hbm, 1321, rfl⟩
abbrev main_c_158 : Ref sig .tc := ⟨.hbm, 1322, rfl⟩
abbrev main_v939 : Ref sig .tc := ⟨.hbm, 1323, rfl⟩
abbrev main_v940 : Ref sig .tc := ⟨.hbm, 1324, rfl⟩
abbrev main_v941 : Ref sig .tc := ⟨.hbm, 1325, rfl⟩
abbrev main_v942 : Ref sig .tc := ⟨.hbm, 1326, rfl⟩
abbrev main_v943 : Ref sig .tc := ⟨.hbm, 1327, rfl⟩
abbrev main_v944 : Ref sig .tc := ⟨.hbm, 1328, rfl⟩
abbrev main_v945 : Ref sig .tc := ⟨.hbm, 1329, rfl⟩
abbrev main_v946 : Ref sig .tc := ⟨.hbm, 1330, rfl⟩
abbrev main_v947 : Ref sig .tc := ⟨.hbm, 1331, rfl⟩
abbrev main_c_159 : Ref sig .tc := ⟨.hbm, 1332, rfl⟩
abbrev main_v948 : Ref sig .tc := ⟨.hbm, 1333, rfl⟩
abbrev main_v949 : Ref sig .tc := ⟨.hbm, 1334, rfl⟩
abbrev main_c_160 : Ref sig .tc := ⟨.hbm, 1335, rfl⟩
abbrev main_v950 : Ref sig .tc := ⟨.hbm, 1336, rfl⟩
abbrev main_v951 : Ref sig .tc := ⟨.hbm, 1337, rfl⟩
abbrev main_v952 : Ref sig .tc := ⟨.hbm, 1338, rfl⟩
abbrev main_v953 : Ref sig .tc := ⟨.hbm, 1339, rfl⟩
abbrev main_v954 : Ref sig .tc := ⟨.hbm, 1340, rfl⟩
abbrev main_v955 : Ref sig .tc := ⟨.hbm, 1341, rfl⟩
abbrev main_v956 : Ref sig .tc := ⟨.hbm, 1342, rfl⟩
abbrev main_v957 : Ref sig .tc := ⟨.hbm, 1343, rfl⟩
abbrev main_v958 : Ref sig .tc := ⟨.hbm, 1344, rfl⟩
abbrev main_c_161 : Ref sig .tc := ⟨.hbm, 1345, rfl⟩
abbrev main_v959 : Ref sig .tc := ⟨.hbm, 1346, rfl⟩
abbrev main_v960 : Ref sig .tc := ⟨.hbm, 1347, rfl⟩
abbrev main_c_162 : Ref sig .tc := ⟨.hbm, 1348, rfl⟩
abbrev main_v961 : Ref sig .tc := ⟨.hbm, 1349, rfl⟩
abbrev main_v962 : Ref sig .tc := ⟨.hbm, 1350, rfl⟩
abbrev main_v963 : Ref sig .tc := ⟨.hbm, 1351, rfl⟩
abbrev main_v964 : Ref sig .tc := ⟨.hbm, 1352, rfl⟩
abbrev main_v965 : Ref sig .tc := ⟨.hbm, 1353, rfl⟩
abbrev main_v966 : Ref sig .tc := ⟨.hbm, 1354, rfl⟩
abbrev main_v967 : Ref sig .tc := ⟨.hbm, 1355, rfl⟩
abbrev main_v968 : Ref sig .tc := ⟨.hbm, 1356, rfl⟩
abbrev main_v969 : Ref sig .tc := ⟨.hbm, 1357, rfl⟩
abbrev main_c_163 : Ref sig .tc := ⟨.hbm, 1358, rfl⟩
abbrev main_v970 : Ref sig .tc := ⟨.hbm, 1359, rfl⟩
abbrev main_v971 : Ref sig .tc := ⟨.hbm, 1360, rfl⟩
abbrev main_c_164 : Ref sig .tc := ⟨.hbm, 1361, rfl⟩
abbrev main_v972 : Ref sig .tc := ⟨.hbm, 1362, rfl⟩
abbrev main_v973 : Ref sig .tc := ⟨.hbm, 1363, rfl⟩
abbrev main_v974 : Ref sig .tc := ⟨.hbm, 1364, rfl⟩
abbrev main_v975 : Ref sig .tc := ⟨.hbm, 1365, rfl⟩
abbrev main_v976 : Ref sig .tc := ⟨.hbm, 1366, rfl⟩
abbrev main_v977 : Ref sig .tc := ⟨.hbm, 1367, rfl⟩
abbrev main_v978 : Ref sig .tc := ⟨.hbm, 1368, rfl⟩
abbrev main_v979 : Ref sig .tc := ⟨.hbm, 1369, rfl⟩
abbrev main_v980 : Ref sig .tc := ⟨.hbm, 1370, rfl⟩
abbrev main_c_165 : Ref sig .tc := ⟨.hbm, 1371, rfl⟩
abbrev main_v981 : Ref sig .tc := ⟨.hbm, 1372, rfl⟩
abbrev main_v982 : Ref sig .tc := ⟨.hbm, 1373, rfl⟩
abbrev main_c_166 : Ref sig .tc := ⟨.hbm, 1374, rfl⟩
abbrev main_v983 : Ref sig .tc := ⟨.hbm, 1375, rfl⟩
abbrev main_v984 : Ref sig .tc := ⟨.hbm, 1376, rfl⟩
abbrev main_v985 : Ref sig .tc := ⟨.hbm, 1377, rfl⟩
abbrev main_v986 : Ref sig .tc := ⟨.hbm, 1378, rfl⟩
abbrev main_v987 : Ref sig .tc := ⟨.hbm, 1379, rfl⟩
abbrev main_v988 : Ref sig .tc := ⟨.hbm, 1380, rfl⟩
abbrev main_v989 : Ref sig .tc := ⟨.hbm, 1381, rfl⟩
abbrev main_v990 : Ref sig .tc := ⟨.hbm, 1382, rfl⟩
abbrev main_v991 : Ref sig .tc := ⟨.hbm, 1383, rfl⟩
abbrev main_c_167 : Ref sig .tc := ⟨.hbm, 1384, rfl⟩
abbrev main_v992 : Ref sig .tc := ⟨.hbm, 1385, rfl⟩
abbrev main_v993 : Ref sig .tc := ⟨.hbm, 1386, rfl⟩
abbrev main_c_168 : Ref sig .tc := ⟨.hbm, 1387, rfl⟩
abbrev main_v994 : Ref sig .tc := ⟨.hbm, 1388, rfl⟩
abbrev main_v995 : Ref sig .tc := ⟨.hbm, 1389, rfl⟩
abbrev main_v996 : Ref sig .tc := ⟨.hbm, 1390, rfl⟩
abbrev main_v997 : Ref sig .tc := ⟨.hbm, 1391, rfl⟩
abbrev main_v998 : Ref sig .tc := ⟨.hbm, 1392, rfl⟩
abbrev main_v999 : Ref sig .tc := ⟨.hbm, 1393, rfl⟩
abbrev main_v1000 : Ref sig .tc := ⟨.hbm, 1394, rfl⟩
abbrev main_v1001 : Ref sig .tc := ⟨.hbm, 1395, rfl⟩
abbrev main_v1002 : Ref sig .tc := ⟨.hbm, 1396, rfl⟩
abbrev main_c_169 : Ref sig .tc := ⟨.hbm, 1397, rfl⟩
abbrev main_v1003 : Ref sig .tc := ⟨.hbm, 1398, rfl⟩
abbrev main_v1004 : Ref sig .tc := ⟨.hbm, 1399, rfl⟩
abbrev main_c_170 : Ref sig .tc := ⟨.hbm, 1400, rfl⟩
abbrev main_v1005 : Ref sig .tc := ⟨.hbm, 1401, rfl⟩
abbrev main_v1006 : Ref sig .tc := ⟨.hbm, 1402, rfl⟩
abbrev main_v1007 : Ref sig .tc := ⟨.hbm, 1403, rfl⟩
abbrev main_v1008 : Ref sig .tc := ⟨.hbm, 1404, rfl⟩
abbrev main_v1009 : Ref sig .tc := ⟨.hbm, 1405, rfl⟩
abbrev main_v1010 : Ref sig .tc := ⟨.hbm, 1406, rfl⟩
abbrev main_v1011 : Ref sig .tc := ⟨.hbm, 1407, rfl⟩
abbrev main_v1012 : Ref sig .tc := ⟨.hbm, 1408, rfl⟩
abbrev main_v1013 : Ref sig .tc := ⟨.hbm, 1409, rfl⟩
abbrev main_c_171 : Ref sig .tc := ⟨.hbm, 1410, rfl⟩
abbrev main_v1014 : Ref sig .tc := ⟨.hbm, 1411, rfl⟩
abbrev main_v1015 : Ref sig .tc := ⟨.hbm, 1412, rfl⟩
abbrev main_c_172 : Ref sig .tc := ⟨.hbm, 1413, rfl⟩
abbrev main_v1016 : Ref sig .tc := ⟨.hbm, 1414, rfl⟩
abbrev main_v1017 : Ref sig .tc := ⟨.hbm, 1415, rfl⟩
abbrev main_v1018 : Ref sig .tc := ⟨.hbm, 1416, rfl⟩
abbrev main_v1019 : Ref sig .tc := ⟨.hbm, 1417, rfl⟩
abbrev main_v1020 : Ref sig .tc := ⟨.hbm, 1418, rfl⟩
abbrev main_v1021 : Ref sig .tc := ⟨.hbm, 1419, rfl⟩
abbrev main_v1022 : Ref sig .tc := ⟨.hbm, 1420, rfl⟩
abbrev main_v1023 : Ref sig .tc := ⟨.hbm, 1421, rfl⟩
abbrev main_v1024 : Ref sig .tc := ⟨.hbm, 1422, rfl⟩
abbrev main_c_173 : Ref sig .tc := ⟨.hbm, 1423, rfl⟩
abbrev main_v1025 : Ref sig .tc := ⟨.hbm, 1424, rfl⟩
abbrev main_v1026 : Ref sig .tc := ⟨.hbm, 1425, rfl⟩
abbrev main_c_174 : Ref sig .tc := ⟨.hbm, 1426, rfl⟩
abbrev main_v1027 : Ref sig .tc := ⟨.hbm, 1427, rfl⟩
abbrev main_v1028 : Ref sig .tc := ⟨.hbm, 1428, rfl⟩
abbrev main_v1029 : Ref sig .tc := ⟨.hbm, 1429, rfl⟩
abbrev main_v1030 : Ref sig .tc := ⟨.hbm, 1430, rfl⟩
abbrev main_v1031 : Ref sig .tc := ⟨.hbm, 1431, rfl⟩
abbrev main_v1032 : Ref sig .tc := ⟨.hbm, 1432, rfl⟩
abbrev main_v1033 : Ref sig .tc := ⟨.hbm, 1433, rfl⟩
abbrev main_v1034 : Ref sig .tc := ⟨.hbm, 1434, rfl⟩
abbrev main_v1035 : Ref sig .tc := ⟨.hbm, 1435, rfl⟩
abbrev main_c_175 : Ref sig .tc := ⟨.hbm, 1436, rfl⟩
abbrev main_v1036 : Ref sig .tc := ⟨.hbm, 1437, rfl⟩
abbrev main_v1037 : Ref sig .tc := ⟨.hbm, 1438, rfl⟩
abbrev main_c_176 : Ref sig .tc := ⟨.hbm, 1439, rfl⟩
abbrev main_v1038 : Ref sig .tc := ⟨.hbm, 1440, rfl⟩
abbrev main_v1039 : Ref sig .tc := ⟨.hbm, 1441, rfl⟩
abbrev main_v1040 : Ref sig .tc := ⟨.hbm, 1442, rfl⟩
abbrev main_v1041 : Ref sig .tc := ⟨.hbm, 1443, rfl⟩
abbrev main_v1042 : Ref sig .tc := ⟨.hbm, 1444, rfl⟩
abbrev main_v1043 : Ref sig .tc := ⟨.hbm, 1445, rfl⟩
abbrev main_v1044 : Ref sig .tc := ⟨.hbm, 1446, rfl⟩
abbrev main_v1045 : Ref sig .tc := ⟨.hbm, 1447, rfl⟩
abbrev main_v1046 : Ref sig .tc := ⟨.hbm, 1448, rfl⟩
abbrev main_c_177 : Ref sig .tc := ⟨.hbm, 1449, rfl⟩
abbrev main_v1047 : Ref sig .tc := ⟨.hbm, 1450, rfl⟩
abbrev main_v1048 : Ref sig .tc := ⟨.hbm, 1451, rfl⟩
abbrev main_c_178 : Ref sig .tc := ⟨.hbm, 1452, rfl⟩
abbrev main_v1049 : Ref sig .tc := ⟨.hbm, 1453, rfl⟩
abbrev main_v1050 : Ref sig .tc := ⟨.hbm, 1454, rfl⟩
abbrev main_v1051 : Ref sig .tc := ⟨.hbm, 1455, rfl⟩
abbrev main_v1052 : Ref sig .tc := ⟨.hbm, 1456, rfl⟩
abbrev main_v1053 : Ref sig .tc := ⟨.hbm, 1457, rfl⟩
abbrev main_v1054 : Ref sig .tc := ⟨.hbm, 1458, rfl⟩
abbrev main_v1055 : Ref sig .tc := ⟨.hbm, 1459, rfl⟩
abbrev main_v1056 : Ref sig .tc := ⟨.hbm, 1460, rfl⟩
abbrev main_v1057 : Ref sig .tc := ⟨.hbm, 1461, rfl⟩
abbrev main_c_179 : Ref sig .tc := ⟨.hbm, 1462, rfl⟩
abbrev main_v1058 : Ref sig .tc := ⟨.hbm, 1463, rfl⟩
abbrev main_v1059 : Ref sig .tc := ⟨.hbm, 1464, rfl⟩
abbrev main_c_180 : Ref sig .tc := ⟨.hbm, 1465, rfl⟩
abbrev main_v1060 : Ref sig .tc := ⟨.hbm, 1466, rfl⟩
abbrev main_v1061 : Ref sig .tc := ⟨.hbm, 1467, rfl⟩
abbrev main_v1062 : Ref sig .tc := ⟨.hbm, 1468, rfl⟩
abbrev main_v1063 : Ref sig .tc := ⟨.hbm, 1469, rfl⟩
abbrev main_v1064 : Ref sig .tc := ⟨.hbm, 1470, rfl⟩
abbrev main_v1065 : Ref sig .tc := ⟨.hbm, 1471, rfl⟩
abbrev main_v1066 : Ref sig .tc := ⟨.hbm, 1472, rfl⟩
abbrev main_v1067 : Ref sig .tc := ⟨.hbm, 1473, rfl⟩
abbrev main_v1068 : Ref sig .tc := ⟨.hbm, 1474, rfl⟩
abbrev main_c_181 : Ref sig .tc := ⟨.hbm, 1475, rfl⟩
abbrev main_v1069 : Ref sig .tc := ⟨.hbm, 1476, rfl⟩
abbrev main_v1070 : Ref sig .tc := ⟨.hbm, 1477, rfl⟩
abbrev main_c_182 : Ref sig .tc := ⟨.hbm, 1478, rfl⟩
abbrev main_v1071 : Ref sig .tc := ⟨.hbm, 1479, rfl⟩
abbrev main_v1072 : Ref sig .tc := ⟨.hbm, 1480, rfl⟩
abbrev main_v1073 : Ref sig .tc := ⟨.hbm, 1481, rfl⟩
abbrev main_v1074 : Ref sig .tc := ⟨.hbm, 1482, rfl⟩
abbrev main_v1075 : Ref sig .tc := ⟨.hbm, 1483, rfl⟩
abbrev main_v1076 : Ref sig .tc := ⟨.hbm, 1484, rfl⟩
abbrev main_v1077 : Ref sig .tc := ⟨.hbm, 1485, rfl⟩
abbrev main_v1078 : Ref sig .tc := ⟨.hbm, 1486, rfl⟩
abbrev main_v1079 : Ref sig .tc := ⟨.hbm, 1487, rfl⟩
abbrev main_c_183 : Ref sig .tc := ⟨.hbm, 1488, rfl⟩
abbrev main_v1080 : Ref sig .tc := ⟨.hbm, 1489, rfl⟩
abbrev main_v1081 : Ref sig .tc := ⟨.hbm, 1490, rfl⟩
abbrev main_c_184 : Ref sig .tc := ⟨.hbm, 1491, rfl⟩
abbrev main_v1082 : Ref sig .tc := ⟨.hbm, 1492, rfl⟩
abbrev main_v1083 : Ref sig .tc := ⟨.hbm, 1493, rfl⟩
abbrev main_v1084 : Ref sig .tc := ⟨.hbm, 1494, rfl⟩
abbrev main_v1085 : Ref sig .tc := ⟨.hbm, 1495, rfl⟩
abbrev main_v1086 : Ref sig .tc := ⟨.hbm, 1496, rfl⟩
abbrev main_v1087 : Ref sig .tc := ⟨.hbm, 1497, rfl⟩
abbrev main_v1088 : Ref sig .tc := ⟨.hbm, 1498, rfl⟩
abbrev main_v1089 : Ref sig .tc := ⟨.hbm, 1499, rfl⟩
abbrev main_v1090 : Ref sig .tc := ⟨.hbm, 1500, rfl⟩
abbrev main_c_185 : Ref sig .tc := ⟨.hbm, 1501, rfl⟩
abbrev main_v1091 : Ref sig .tc := ⟨.hbm, 1502, rfl⟩
abbrev main_v1092 : Ref sig .tc := ⟨.hbm, 1503, rfl⟩
abbrev main_c_186 : Ref sig .tc := ⟨.hbm, 1504, rfl⟩
abbrev main_v1093 : Ref sig .tc := ⟨.hbm, 1505, rfl⟩
abbrev main_v1094 : Ref sig .tc := ⟨.hbm, 1506, rfl⟩
abbrev main_v1095 : Ref sig .tc := ⟨.hbm, 1507, rfl⟩
abbrev main_v1096 : Ref sig .tc := ⟨.hbm, 1508, rfl⟩
abbrev main_v1097 : Ref sig .tc := ⟨.hbm, 1509, rfl⟩
abbrev main_v1098 : Ref sig .tc := ⟨.hbm, 1510, rfl⟩
abbrev main_v1099 : Ref sig .tc := ⟨.hbm, 1511, rfl⟩
abbrev main_v1100 : Ref sig .tc := ⟨.hbm, 1512, rfl⟩
abbrev main_v1101 : Ref sig .tc := ⟨.hbm, 1513, rfl⟩
abbrev main_c_187 : Ref sig .tc := ⟨.hbm, 1514, rfl⟩
abbrev main_v1102 : Ref sig .tc := ⟨.hbm, 1515, rfl⟩
abbrev main_v1103 : Ref sig .tc := ⟨.hbm, 1516, rfl⟩
abbrev main_c_188 : Ref sig .tc := ⟨.hbm, 1517, rfl⟩
abbrev main_v1104 : Ref sig .tc := ⟨.hbm, 1518, rfl⟩
abbrev main_v1105 : Ref sig .tc := ⟨.hbm, 1519, rfl⟩
abbrev main_v1106 : Ref sig .tc := ⟨.hbm, 1520, rfl⟩
abbrev main_v1107 : Ref sig .tc := ⟨.hbm, 1521, rfl⟩
abbrev main_v1108 : Ref sig .tc := ⟨.hbm, 1522, rfl⟩
abbrev main_v1109 : Ref sig .tc := ⟨.hbm, 1523, rfl⟩
abbrev main_v1110 : Ref sig .tc := ⟨.hbm, 1524, rfl⟩
abbrev main_v1111 : Ref sig .tc := ⟨.hbm, 1525, rfl⟩
abbrev main_v1112 : Ref sig .tc := ⟨.hbm, 1526, rfl⟩
abbrev main_c_189 : Ref sig .tc := ⟨.hbm, 1527, rfl⟩
abbrev main_v1113 : Ref sig .tc := ⟨.hbm, 1528, rfl⟩
abbrev main_v1114 : Ref sig .tc := ⟨.hbm, 1529, rfl⟩
abbrev main_c_190 : Ref sig .tc := ⟨.hbm, 1530, rfl⟩
abbrev main_v1115 : Ref sig .tc := ⟨.hbm, 1531, rfl⟩
abbrev main_v1116 : Ref sig .tc := ⟨.hbm, 1532, rfl⟩
abbrev main_v1117 : Ref sig .tc := ⟨.hbm, 1533, rfl⟩
abbrev main_v1118 : Ref sig .tc := ⟨.hbm, 1534, rfl⟩
abbrev main_v1119 : Ref sig .tc := ⟨.hbm, 1535, rfl⟩
abbrev main_v1120 : Ref sig .tc := ⟨.hbm, 1536, rfl⟩
abbrev main_v1121 : Ref sig .tc := ⟨.hbm, 1537, rfl⟩
abbrev main_v1122 : Ref sig .tc := ⟨.hbm, 1538, rfl⟩
abbrev main_v1123 : Ref sig .tc := ⟨.hbm, 1539, rfl⟩
abbrev main_c_191 : Ref sig .tc := ⟨.hbm, 1540, rfl⟩
abbrev main_v1124 : Ref sig .tc := ⟨.hbm, 1541, rfl⟩
abbrev main_v1125 : Ref sig .tc := ⟨.hbm, 1542, rfl⟩
abbrev main_c_192 : Ref sig .tc := ⟨.hbm, 1543, rfl⟩
abbrev main_v1126 : Ref sig .tc := ⟨.hbm, 1544, rfl⟩
abbrev main_v1127 : Ref sig .tc := ⟨.hbm, 1545, rfl⟩
abbrev main_v1128 : Ref sig .tc := ⟨.hbm, 1546, rfl⟩
abbrev main_v1129 : Ref sig .tc := ⟨.hbm, 1547, rfl⟩
abbrev main_v1130 : Ref sig .tc := ⟨.hbm, 1548, rfl⟩
abbrev main_v1131 : Ref sig .tc := ⟨.hbm, 1549, rfl⟩
abbrev main_v1132 : Ref sig .tc := ⟨.hbm, 1550, rfl⟩
abbrev main_v1133 : Ref sig .tc := ⟨.hbm, 1551, rfl⟩
abbrev main_v1134 : Ref sig .tc := ⟨.hbm, 1552, rfl⟩
abbrev main_c_193 : Ref sig .tc := ⟨.hbm, 1553, rfl⟩
abbrev main_v1135 : Ref sig .tc := ⟨.hbm, 1554, rfl⟩
abbrev main_v1136 : Ref sig .tc := ⟨.hbm, 1555, rfl⟩
abbrev main_c_194 : Ref sig .tc := ⟨.hbm, 1556, rfl⟩
abbrev main_v1137 : Ref sig .tc := ⟨.hbm, 1557, rfl⟩
abbrev main_v1138 : Ref sig .tc := ⟨.hbm, 1558, rfl⟩
abbrev main_v1139 : Ref sig .tc := ⟨.hbm, 1559, rfl⟩
abbrev main_v1140 : Ref sig .tc := ⟨.hbm, 1560, rfl⟩
abbrev main_v1141 : Ref sig .tc := ⟨.hbm, 1561, rfl⟩
abbrev main_v1142 : Ref sig .tc := ⟨.hbm, 1562, rfl⟩
abbrev main_v1143 : Ref sig .tc := ⟨.hbm, 1563, rfl⟩
abbrev main_v1144 : Ref sig .tc := ⟨.hbm, 1564, rfl⟩
abbrev main_v1145 : Ref sig .tc := ⟨.hbm, 1565, rfl⟩
abbrev main_c_195 : Ref sig .tc := ⟨.hbm, 1566, rfl⟩
abbrev main_v1146 : Ref sig .tc := ⟨.hbm, 1567, rfl⟩
abbrev main_v1147 : Ref sig .tc := ⟨.hbm, 1568, rfl⟩
abbrev main_c_196 : Ref sig .tc := ⟨.hbm, 1569, rfl⟩
abbrev main_v1148 : Ref sig .tc := ⟨.hbm, 1570, rfl⟩
abbrev main_v1149 : Ref sig .tc := ⟨.hbm, 1571, rfl⟩
abbrev main_v1150 : Ref sig .tc := ⟨.hbm, 1572, rfl⟩
abbrev main_v1151 : Ref sig .tc := ⟨.hbm, 1573, rfl⟩
abbrev main_v1152 : Ref sig .tc := ⟨.hbm, 1574, rfl⟩
abbrev main_v1153 : Ref sig .tc := ⟨.hbm, 1575, rfl⟩
abbrev main_v1154 : Ref sig .tc := ⟨.hbm, 1576, rfl⟩
abbrev main_v1155 : Ref sig .tc := ⟨.hbm, 1577, rfl⟩
abbrev main_v1156 : Ref sig .tc := ⟨.hbm, 1578, rfl⟩
abbrev main_c_197 : Ref sig .tc := ⟨.hbm, 1579, rfl⟩
abbrev main_v1157 : Ref sig .tc := ⟨.hbm, 1580, rfl⟩
abbrev main_v1158 : Ref sig .tc := ⟨.hbm, 1581, rfl⟩
abbrev main_c_198 : Ref sig .tc := ⟨.hbm, 1582, rfl⟩
abbrev main_v1159 : Ref sig .tc := ⟨.hbm, 1583, rfl⟩
abbrev main_v1160 : Ref sig .tc := ⟨.hbm, 1584, rfl⟩
abbrev main_v1161 : Ref sig .tc := ⟨.hbm, 1585, rfl⟩
abbrev main_v1162 : Ref sig .tc := ⟨.hbm, 1586, rfl⟩
abbrev main_v1163 : Ref sig .tc := ⟨.hbm, 1587, rfl⟩
abbrev main_v1164 : Ref sig .tc := ⟨.hbm, 1588, rfl⟩
abbrev main_v1165 : Ref sig .tc := ⟨.hbm, 1589, rfl⟩
abbrev main_v1166 : Ref sig .tc := ⟨.hbm, 1590, rfl⟩
abbrev main_v1167 : Ref sig .tc := ⟨.hbm, 1591, rfl⟩
abbrev main_c_199 : Ref sig .tc := ⟨.hbm, 1592, rfl⟩
abbrev main_v1168 : Ref sig .tc := ⟨.hbm, 1593, rfl⟩
abbrev main_v1169 : Ref sig .tc := ⟨.hbm, 1594, rfl⟩
abbrev main_c_200 : Ref sig .tc := ⟨.hbm, 1595, rfl⟩
abbrev main_v1170 : Ref sig .tc := ⟨.hbm, 1596, rfl⟩
abbrev main_v1171 : Ref sig .tc := ⟨.hbm, 1597, rfl⟩
abbrev main_v1172 : Ref sig .tc := ⟨.hbm, 1598, rfl⟩
abbrev main_v1173 : Ref sig .tc := ⟨.hbm, 1599, rfl⟩
abbrev main_v1174 : Ref sig .tc := ⟨.hbm, 1600, rfl⟩
abbrev main_v1175 : Ref sig .tc := ⟨.hbm, 1601, rfl⟩
abbrev main_v1176 : Ref sig .tc := ⟨.hbm, 1602, rfl⟩
abbrev main_v1177 : Ref sig .tc := ⟨.hbm, 1603, rfl⟩
abbrev main_v1178 : Ref sig .tc := ⟨.hbm, 1604, rfl⟩
abbrev main_c_201 : Ref sig .tc := ⟨.hbm, 1605, rfl⟩
abbrev main_v1179 : Ref sig .tc := ⟨.hbm, 1606, rfl⟩
abbrev main_v1180 : Ref sig .tc := ⟨.hbm, 1607, rfl⟩
abbrev main_c_202 : Ref sig .tc := ⟨.hbm, 1608, rfl⟩
abbrev main_v1181 : Ref sig .tc := ⟨.hbm, 1609, rfl⟩
abbrev main_v1182 : Ref sig .tc := ⟨.hbm, 1610, rfl⟩
abbrev main_v1183 : Ref sig .tc := ⟨.hbm, 1611, rfl⟩
abbrev main_v1184 : Ref sig .tc := ⟨.hbm, 1612, rfl⟩
abbrev main_v1185 : Ref sig .tc := ⟨.hbm, 1613, rfl⟩
abbrev main_v1186 : Ref sig .tc := ⟨.hbm, 1614, rfl⟩
abbrev main_v1187 : Ref sig .tc := ⟨.hbm, 1615, rfl⟩
abbrev main_v1188 : Ref sig .tc := ⟨.hbm, 1616, rfl⟩
abbrev main_v1189 : Ref sig .tc := ⟨.hbm, 1617, rfl⟩
abbrev main_c_203 : Ref sig .tc := ⟨.hbm, 1618, rfl⟩
abbrev main_v1190 : Ref sig .tc := ⟨.hbm, 1619, rfl⟩
abbrev main_v1191 : Ref sig .tc := ⟨.hbm, 1620, rfl⟩
abbrev main_c_204 : Ref sig .tc := ⟨.hbm, 1621, rfl⟩
abbrev main_v1192 : Ref sig .tc := ⟨.hbm, 1622, rfl⟩
abbrev main_v1193 : Ref sig .tc := ⟨.hbm, 1623, rfl⟩
abbrev main_v1194 : Ref sig .tc := ⟨.hbm, 1624, rfl⟩
abbrev main_v1195 : Ref sig .tc := ⟨.hbm, 1625, rfl⟩
abbrev main_v1196 : Ref sig .tc := ⟨.hbm, 1626, rfl⟩
abbrev main_v1197 : Ref sig .tc := ⟨.hbm, 1627, rfl⟩
abbrev main_v1198 : Ref sig .tc := ⟨.hbm, 1628, rfl⟩
abbrev main_v1199 : Ref sig .tc := ⟨.hbm, 1629, rfl⟩
abbrev main_v1200 : Ref sig .tc := ⟨.hbm, 1630, rfl⟩
abbrev main_c_205 : Ref sig .tc := ⟨.hbm, 1631, rfl⟩
abbrev main_v1201 : Ref sig .tc := ⟨.hbm, 1632, rfl⟩
abbrev main_v1202 : Ref sig .tc := ⟨.hbm, 1633, rfl⟩
abbrev main_c_206 : Ref sig .tc := ⟨.hbm, 1634, rfl⟩
abbrev main_v1203 : Ref sig .tc := ⟨.hbm, 1635, rfl⟩
abbrev main_v1204 : Ref sig .tc := ⟨.hbm, 1636, rfl⟩
abbrev main_v1205 : Ref sig .tc := ⟨.hbm, 1637, rfl⟩
abbrev main_v1206 : Ref sig .tc := ⟨.hbm, 1638, rfl⟩
abbrev main_v1207 : Ref sig .tc := ⟨.hbm, 1639, rfl⟩
abbrev main_v1208 : Ref sig .tc := ⟨.hbm, 1640, rfl⟩
abbrev main_v1209 : Ref sig .tc := ⟨.hbm, 1641, rfl⟩
abbrev main_cst_207 : Ref sig .tc := ⟨.hbm, 1642, rfl⟩
abbrev main_v1210 : Ref sig .tc := ⟨.hbm, 1643, rfl⟩
abbrev main_v1211 : Ref sig .tc := ⟨.hbm, 1644, rfl⟩
abbrev main_cst_208 : Ref sig .tc := ⟨.hbm, 1645, rfl⟩
abbrev main_v1212 : Ref sig .tc := ⟨.hbm, 1646, rfl⟩
abbrev main_v1213 : Ref sig .tc := ⟨.hbm, 1647, rfl⟩
abbrev main_c_209 : Ref sig .tc := ⟨.hbm, 1648, rfl⟩
abbrev main_call17_cst : Ref sig .tc := ⟨.hbm, 1649, rfl⟩
abbrev main_call17_v0 : Ref sig .tc := ⟨.hbm, 1650, rfl⟩
abbrev main_call17_v1 : Ref sig .tc := ⟨.hbm, 1651, rfl⟩
abbrev main_call17_cst_0 : Ref sig .tc := ⟨.hbm, 1652, rfl⟩
abbrev main_call17_v2 : Ref sig .tc := ⟨.hbm, 1653, rfl⟩
abbrev main_call17_v3 : Ref sig .tc := ⟨.hbm, 1654, rfl⟩
abbrev main_call17_v4 : Ref sig .tc := ⟨.hbm, 1655, rfl⟩
abbrev main_call17_v5 : Ref sig .tc := ⟨.hbm, 1656, rfl⟩
abbrev main_call17_v6 : Ref sig .tc := ⟨.hbm, 1657, rfl⟩
abbrev main_call17_v7 : Ref sig .tc := ⟨.hbm, 1658, rfl⟩
abbrev main_call17_cst_1 : Ref sig .tc := ⟨.hbm, 1659, rfl⟩
abbrev main_call17_v8 : Ref sig .tc := ⟨.hbm, 1660, rfl⟩
abbrev main_call17_cst_2 : Ref sig .tc := ⟨.hbm, 1661, rfl⟩
abbrev main_call17_v9 : Ref sig .tc := ⟨.hbm, 1662, rfl⟩
abbrev main_call17_v10 : Ref sig .tc := ⟨.hbm, 1663, rfl⟩
abbrev main_call17_v11 : Ref sig .tc := ⟨.hbm, 1664, rfl⟩
abbrev main_call17_v12 : Ref sig .tc := ⟨.hbm, 1665, rfl⟩
abbrev main_call17_cst_3 : Ref sig .tc := ⟨.hbm, 1666, rfl⟩
abbrev main_call17_v13 : Ref sig .tc := ⟨.hbm, 1667, rfl⟩
abbrev main_call17_cst_4 : Ref sig .tc := ⟨.hbm, 1668, rfl⟩
abbrev main_call17_call0_v0 : Ref sig .tc := ⟨.hbm, 1669, rfl⟩
abbrev main_call17_call0_v1 : Ref sig .tc := ⟨.hbm, 1670, rfl⟩
abbrev main_v1214 : Ref sig .tc := ⟨.hbm, 1671, rfl⟩
abbrev main_v1215 : Ref sig .tc := ⟨.hbm, 1672, rfl⟩
abbrev main_v1216 : Ref sig .tc := ⟨.hbm, 1673, rfl⟩
abbrev main_cst_210 : Ref sig .tc := ⟨.hbm, 1674, rfl⟩
abbrev main_v1217 : Ref sig .tc := ⟨.hbm, 1675, rfl⟩
abbrev main_v1218 : Ref sig .tc := ⟨.hbm, 1676, rfl⟩
abbrev main_v1219 : Ref sig .tc := ⟨.hbm, 1677, rfl⟩
abbrev main_v1220 : Ref sig .tc := ⟨.hbm, 1678, rfl⟩
abbrev main_v1221 : Ref sig .tc := ⟨.hbm, 1679, rfl⟩
abbrev main_v1222 : Ref sig .tc := ⟨.hbm, 1680, rfl⟩
abbrev main_v1223 : Ref sig .tc := ⟨.hbm, 1681, rfl⟩
abbrev main_v1224 : Ref sig .tc := ⟨.hbm, 1682, rfl⟩
abbrev main_v1225 : Ref sig .tc := ⟨.hbm, 1683, rfl⟩
abbrev main_v1226 : Ref sig .tc := ⟨.hbm, 1684, rfl⟩
abbrev main_v1227 : Ref sig .tc := ⟨.hbm, 1685, rfl⟩
abbrev main_v1228 : Ref sig .tc := ⟨.hbm, 1686, rfl⟩
abbrev main_v1229 : Ref sig .tc := ⟨.hbm, 1687, rfl⟩
abbrev main_v1230 : Ref sig .tc := ⟨.hbm, 1688, rfl⟩
abbrev main_v1231 : Ref sig .tc := ⟨.hbm, 1689, rfl⟩
abbrev main_call18_cst : Ref sig .tc := ⟨.hbm, 1690, rfl⟩
abbrev main_call18_v0 : Ref sig .tc := ⟨.hbm, 1691, rfl⟩
abbrev main_v1232 : Ref sig .tc := ⟨.hbm, 1692, rfl⟩
abbrev main_v1233 : Ref sig .tc := ⟨.hbm, 1693, rfl⟩
abbrev main_v1234 : Ref sig .tc := ⟨.hbm, 1694, rfl⟩
abbrev main_v1235 : Ref sig .tc := ⟨.hbm, 1695, rfl⟩
abbrev main_v1236 : Ref sig .tc := ⟨.hbm, 1696, rfl⟩
abbrev main_v1237 : Ref sig .tc := ⟨.hbm, 1697, rfl⟩
abbrev main_v1238 : Ref sig .tc := ⟨.hbm, 1698, rfl⟩
abbrev main_cst_211 : Ref sig .tc := ⟨.hbm, 1699, rfl⟩
abbrev main_v1239 : Ref sig .tc := ⟨.hbm, 1700, rfl⟩
abbrev main_v1240 : Ref sig .tc := ⟨.hbm, 1701, rfl⟩
abbrev main_cst_212 : Ref sig .tc := ⟨.hbm, 1702, rfl⟩
abbrev main_v1241 : Ref sig .tc := ⟨.hbm, 1703, rfl⟩
abbrev main_v1242 : Ref sig .tc := ⟨.hbm, 1704, rfl⟩
abbrev main_c_213 : Ref sig .tc := ⟨.hbm, 1705, rfl⟩
abbrev main_call19_cst : Ref sig .tc := ⟨.hbm, 1706, rfl⟩
abbrev main_call19_v0 : Ref sig .tc := ⟨.hbm, 1707, rfl⟩
abbrev main_call19_v1 : Ref sig .tc := ⟨.hbm, 1708, rfl⟩
abbrev main_call19_cst_0 : Ref sig .tc := ⟨.hbm, 1709, rfl⟩
abbrev main_call19_v2 : Ref sig .tc := ⟨.hbm, 1710, rfl⟩
abbrev main_call19_v3 : Ref sig .tc := ⟨.hbm, 1711, rfl⟩
abbrev main_call19_v4 : Ref sig .tc := ⟨.hbm, 1712, rfl⟩
abbrev main_call19_v5 : Ref sig .tc := ⟨.hbm, 1713, rfl⟩
abbrev main_call19_v6 : Ref sig .tc := ⟨.hbm, 1714, rfl⟩
abbrev main_call19_v7 : Ref sig .tc := ⟨.hbm, 1715, rfl⟩
abbrev main_call19_cst_1 : Ref sig .tc := ⟨.hbm, 1716, rfl⟩
abbrev main_call19_v8 : Ref sig .tc := ⟨.hbm, 1717, rfl⟩
abbrev main_call19_cst_2 : Ref sig .tc := ⟨.hbm, 1718, rfl⟩
abbrev main_call19_v9 : Ref sig .tc := ⟨.hbm, 1719, rfl⟩
abbrev main_call19_v10 : Ref sig .tc := ⟨.hbm, 1720, rfl⟩
abbrev main_call19_v11 : Ref sig .tc := ⟨.hbm, 1721, rfl⟩
abbrev main_call19_v12 : Ref sig .tc := ⟨.hbm, 1722, rfl⟩
abbrev main_call19_cst_3 : Ref sig .tc := ⟨.hbm, 1723, rfl⟩
abbrev main_call19_v13 : Ref sig .tc := ⟨.hbm, 1724, rfl⟩
abbrev main_call19_cst_4 : Ref sig .tc := ⟨.hbm, 1725, rfl⟩
abbrev main_call19_call0_v0 : Ref sig .tc := ⟨.hbm, 1726, rfl⟩
abbrev main_call19_call0_v1 : Ref sig .tc := ⟨.hbm, 1727, rfl⟩
abbrev main_v1243 : Ref sig .tc := ⟨.hbm, 1728, rfl⟩
abbrev main_v1244 : Ref sig .tc := ⟨.hbm, 1729, rfl⟩
abbrev main_v1245 : Ref sig .tc := ⟨.hbm, 1730, rfl⟩
abbrev main_cst_214 : Ref sig .tc := ⟨.hbm, 1731, rfl⟩
abbrev main_v1246 : Ref sig .tc := ⟨.hbm, 1732, rfl⟩
abbrev main_v1247 : Ref sig .tc := ⟨.hbm, 1733, rfl⟩
abbrev main_v1248 : Ref sig .tc := ⟨.hbm, 1734, rfl⟩
abbrev main_v1249 : Ref sig .tc := ⟨.hbm, 1735, rfl⟩
abbrev main_v1250 : Ref sig .tc := ⟨.hbm, 1736, rfl⟩
abbrev main_v1251 : Ref sig .tc := ⟨.hbm, 1737, rfl⟩
abbrev main_v1252 : Ref sig .tc := ⟨.hbm, 1738, rfl⟩
abbrev main_v1253 : Ref sig .tc := ⟨.hbm, 1739, rfl⟩
abbrev main_v1254 : Ref sig .tc := ⟨.hbm, 1740, rfl⟩
abbrev main_v1255 : Ref sig .tc := ⟨.hbm, 1741, rfl⟩
abbrev main_v1256 : Ref sig .tc := ⟨.hbm, 1742, rfl⟩
abbrev main_v1257 : Ref sig .tc := ⟨.hbm, 1743, rfl⟩
abbrev main_v1258 : Ref sig .tc := ⟨.hbm, 1744, rfl⟩
abbrev main_v1259 : Ref sig .tc := ⟨.hbm, 1745, rfl⟩
abbrev main_v1260 : Ref sig .tc := ⟨.hbm, 1746, rfl⟩
abbrev main_v1261 : Ref sig .tc := ⟨.hbm, 1747, rfl⟩
abbrev main_call20_cst : Ref sig .tc := ⟨.hbm, 1748, rfl⟩
abbrev main_call20_v0 : Ref sig .tc := ⟨.hbm, 1749, rfl⟩
abbrev main_v1262 : Ref sig .tc := ⟨.hbm, 1750, rfl⟩
abbrev main_v1263 : Ref sig .tc := ⟨.hbm, 1751, rfl⟩
abbrev main_v1264 : Ref sig .tc := ⟨.hbm, 1752, rfl⟩
abbrev main_v1265 : Ref sig .tc := ⟨.hbm, 1753, rfl⟩
abbrev main_v1266 : Ref sig .tc := ⟨.hbm, 1754, rfl⟩
abbrev main_v1267 : Ref sig .tc := ⟨.hbm, 1755, rfl⟩
abbrev main_v1268 : Ref sig .tc := ⟨.hbm, 1756, rfl⟩
abbrev main_v1269 : Ref sig .tc := ⟨.hbm, 1757, rfl⟩
abbrev main_v1270 : Ref sig .tc := ⟨.hbm, 1758, rfl⟩
abbrev main_c_215 : Ref sig .tc := ⟨.hbm, 1759, rfl⟩
abbrev main_v1271 : Ref sig .tc := ⟨.hbm, 1760, rfl⟩
abbrev main_v1272 : Ref sig .tc := ⟨.hbm, 1761, rfl⟩
abbrev main_c_216 : Ref sig .tc := ⟨.hbm, 1762, rfl⟩
abbrev main_v1273 : Ref sig .tc := ⟨.hbm, 1763, rfl⟩
abbrev main_v1274 : Ref sig .tc := ⟨.hbm, 1764, rfl⟩
abbrev main_v1275 : Ref sig .tc := ⟨.hbm, 1765, rfl⟩
abbrev main_v1276 : Ref sig .tc := ⟨.hbm, 1766, rfl⟩
abbrev main_v1277 : Ref sig .tc := ⟨.hbm, 1767, rfl⟩
abbrev main_v1278 : Ref sig .tc := ⟨.hbm, 1768, rfl⟩
abbrev main_v1279 : Ref sig .tc := ⟨.hbm, 1769, rfl⟩
abbrev main_v1280 : Ref sig .tc := ⟨.hbm, 1770, rfl⟩
abbrev main_v1281 : Ref sig .tc := ⟨.hbm, 1771, rfl⟩
abbrev main_c_217 : Ref sig .tc := ⟨.hbm, 1772, rfl⟩
abbrev main_v1282 : Ref sig .tc := ⟨.hbm, 1773, rfl⟩
abbrev main_v1283 : Ref sig .tc := ⟨.hbm, 1774, rfl⟩
abbrev main_c_218 : Ref sig .tc := ⟨.hbm, 1775, rfl⟩
abbrev main_v1284 : Ref sig .tc := ⟨.hbm, 1776, rfl⟩
abbrev main_v1285 : Ref sig .tc := ⟨.hbm, 1777, rfl⟩
abbrev main_v1286 : Ref sig .tc := ⟨.hbm, 1778, rfl⟩
abbrev main_v1287 : Ref sig .tc := ⟨.hbm, 1779, rfl⟩
abbrev main_v1288 : Ref sig .tc := ⟨.hbm, 1780, rfl⟩
abbrev main_v1289 : Ref sig .tc := ⟨.hbm, 1781, rfl⟩
abbrev main_v1290 : Ref sig .tc := ⟨.hbm, 1782, rfl⟩
abbrev main_v1291 : Ref sig .tc := ⟨.hbm, 1783, rfl⟩
abbrev main_v1292 : Ref sig .tc := ⟨.hbm, 1784, rfl⟩
abbrev main_c_219 : Ref sig .tc := ⟨.hbm, 1785, rfl⟩
abbrev main_v1293 : Ref sig .tc := ⟨.hbm, 1786, rfl⟩
abbrev main_v1294 : Ref sig .tc := ⟨.hbm, 1787, rfl⟩
abbrev main_c_220 : Ref sig .tc := ⟨.hbm, 1788, rfl⟩
abbrev main_v1295 : Ref sig .tc := ⟨.hbm, 1789, rfl⟩
abbrev main_v1296 : Ref sig .tc := ⟨.hbm, 1790, rfl⟩
abbrev main_v1297 : Ref sig .tc := ⟨.hbm, 1791, rfl⟩
abbrev main_v1298 : Ref sig .tc := ⟨.hbm, 1792, rfl⟩
abbrev main_v1299 : Ref sig .tc := ⟨.hbm, 1793, rfl⟩
abbrev main_v1300 : Ref sig .tc := ⟨.hbm, 1794, rfl⟩
abbrev main_v1301 : Ref sig .tc := ⟨.hbm, 1795, rfl⟩
abbrev main_v1302 : Ref sig .tc := ⟨.hbm, 1796, rfl⟩
abbrev main_v1303 : Ref sig .tc := ⟨.hbm, 1797, rfl⟩
abbrev main_c_221 : Ref sig .tc := ⟨.hbm, 1798, rfl⟩
abbrev main_v1304 : Ref sig .tc := ⟨.hbm, 1799, rfl⟩
abbrev main_v1305 : Ref sig .tc := ⟨.hbm, 1800, rfl⟩
abbrev main_c_222 : Ref sig .tc := ⟨.hbm, 1801, rfl⟩
abbrev main_v1306 : Ref sig .tc := ⟨.hbm, 1802, rfl⟩
abbrev main_v1307 : Ref sig .tc := ⟨.hbm, 1803, rfl⟩
abbrev main_v1308 : Ref sig .tc := ⟨.hbm, 1804, rfl⟩
abbrev main_v1309 : Ref sig .tc := ⟨.hbm, 1805, rfl⟩
abbrev main_v1310 : Ref sig .tc := ⟨.hbm, 1806, rfl⟩
abbrev main_v1311 : Ref sig .tc := ⟨.hbm, 1807, rfl⟩
abbrev main_v1312 : Ref sig .tc := ⟨.hbm, 1808, rfl⟩
abbrev main_v1313 : Ref sig .tc := ⟨.hbm, 1809, rfl⟩
abbrev main_v1314 : Ref sig .tc := ⟨.hbm, 1810, rfl⟩
abbrev main_c_223 : Ref sig .tc := ⟨.hbm, 1811, rfl⟩
abbrev main_v1315 : Ref sig .tc := ⟨.hbm, 1812, rfl⟩
abbrev main_v1316 : Ref sig .tc := ⟨.hbm, 1813, rfl⟩
abbrev main_c_224 : Ref sig .tc := ⟨.hbm, 1814, rfl⟩
abbrev main_v1317 : Ref sig .tc := ⟨.hbm, 1815, rfl⟩
abbrev main_v1318 : Ref sig .tc := ⟨.hbm, 1816, rfl⟩
abbrev main_v1319 : Ref sig .tc := ⟨.hbm, 1817, rfl⟩
abbrev main_v1320 : Ref sig .tc := ⟨.hbm, 1818, rfl⟩
abbrev main_v1321 : Ref sig .tc := ⟨.hbm, 1819, rfl⟩
abbrev main_v1322 : Ref sig .tc := ⟨.hbm, 1820, rfl⟩
abbrev main_v1323 : Ref sig .tc := ⟨.hbm, 1821, rfl⟩
abbrev main_v1324 : Ref sig .tc := ⟨.hbm, 1822, rfl⟩
abbrev main_v1325 : Ref sig .tc := ⟨.hbm, 1823, rfl⟩
abbrev main_c_225 : Ref sig .tc := ⟨.hbm, 1824, rfl⟩
abbrev main_v1326 : Ref sig .tc := ⟨.hbm, 1825, rfl⟩
abbrev main_v1327 : Ref sig .tc := ⟨.hbm, 1826, rfl⟩
abbrev main_c_226 : Ref sig .tc := ⟨.hbm, 1827, rfl⟩
abbrev main_v1328 : Ref sig .tc := ⟨.hbm, 1828, rfl⟩
abbrev main_v1329 : Ref sig .tc := ⟨.hbm, 1829, rfl⟩
abbrev main_v1330 : Ref sig .tc := ⟨.hbm, 1830, rfl⟩
abbrev main_v1331 : Ref sig .tc := ⟨.hbm, 1831, rfl⟩
abbrev main_v1332 : Ref sig .tc := ⟨.hbm, 1832, rfl⟩
abbrev main_v1333 : Ref sig .tc := ⟨.hbm, 1833, rfl⟩
abbrev main_v1334 : Ref sig .tc := ⟨.hbm, 1834, rfl⟩
abbrev main_v1335 : Ref sig .tc := ⟨.hbm, 1835, rfl⟩
abbrev main_v1336 : Ref sig .tc := ⟨.hbm, 1836, rfl⟩
abbrev main_c_227 : Ref sig .tc := ⟨.hbm, 1837, rfl⟩
abbrev main_v1337 : Ref sig .tc := ⟨.hbm, 1838, rfl⟩
abbrev main_v1338 : Ref sig .tc := ⟨.hbm, 1839, rfl⟩
abbrev main_c_228 : Ref sig .tc := ⟨.hbm, 1840, rfl⟩
abbrev main_v1339 : Ref sig .tc := ⟨.hbm, 1841, rfl⟩
abbrev main_v1340 : Ref sig .tc := ⟨.hbm, 1842, rfl⟩
abbrev main_v1341 : Ref sig .tc := ⟨.hbm, 1843, rfl⟩
abbrev main_v1342 : Ref sig .tc := ⟨.hbm, 1844, rfl⟩
abbrev main_v1343 : Ref sig .tc := ⟨.hbm, 1845, rfl⟩
abbrev main_v1344 : Ref sig .tc := ⟨.hbm, 1846, rfl⟩
abbrev main_v1345 : Ref sig .tc := ⟨.hbm, 1847, rfl⟩
abbrev main_v1346 : Ref sig .tc := ⟨.hbm, 1848, rfl⟩
abbrev main_v1347 : Ref sig .tc := ⟨.hbm, 1849, rfl⟩
abbrev main_c_229 : Ref sig .tc := ⟨.hbm, 1850, rfl⟩
abbrev main_v1348 : Ref sig .tc := ⟨.hbm, 1851, rfl⟩
abbrev main_v1349 : Ref sig .tc := ⟨.hbm, 1852, rfl⟩
abbrev main_c_230 : Ref sig .tc := ⟨.hbm, 1853, rfl⟩
abbrev main_v1350 : Ref sig .tc := ⟨.hbm, 1854, rfl⟩
abbrev main_v1351 : Ref sig .tc := ⟨.hbm, 1855, rfl⟩
abbrev main_v1352 : Ref sig .tc := ⟨.hbm, 1856, rfl⟩
abbrev main_v1353 : Ref sig .tc := ⟨.hbm, 1857, rfl⟩
abbrev main_v1354 : Ref sig .tc := ⟨.hbm, 1858, rfl⟩
abbrev main_v1355 : Ref sig .tc := ⟨.hbm, 1859, rfl⟩
abbrev main_v1356 : Ref sig .tc := ⟨.hbm, 1860, rfl⟩
abbrev main_v1357 : Ref sig .tc := ⟨.hbm, 1861, rfl⟩
abbrev main_v1358 : Ref sig .tc := ⟨.hbm, 1862, rfl⟩
abbrev main_c_231 : Ref sig .tc := ⟨.hbm, 1863, rfl⟩
abbrev main_v1359 : Ref sig .tc := ⟨.hbm, 1864, rfl⟩
abbrev main_v1360 : Ref sig .tc := ⟨.hbm, 1865, rfl⟩
abbrev main_c_232 : Ref sig .tc := ⟨.hbm, 1866, rfl⟩
abbrev main_v1361 : Ref sig .tc := ⟨.hbm, 1867, rfl⟩
abbrev main_v1362 : Ref sig .tc := ⟨.hbm, 1868, rfl⟩
abbrev main_v1363 : Ref sig .tc := ⟨.hbm, 1869, rfl⟩
abbrev main_v1364 : Ref sig .tc := ⟨.hbm, 1870, rfl⟩
abbrev main_v1365 : Ref sig .tc := ⟨.hbm, 1871, rfl⟩
abbrev main_v1366 : Ref sig .tc := ⟨.hbm, 1872, rfl⟩
abbrev main_v1367 : Ref sig .tc := ⟨.hbm, 1873, rfl⟩
abbrev main_v1368 : Ref sig .tc := ⟨.hbm, 1874, rfl⟩
abbrev main_v1369 : Ref sig .tc := ⟨.hbm, 1875, rfl⟩
abbrev main_c_233 : Ref sig .tc := ⟨.hbm, 1876, rfl⟩
abbrev main_v1370 : Ref sig .tc := ⟨.hbm, 1877, rfl⟩
abbrev main_v1371 : Ref sig .tc := ⟨.hbm, 1878, rfl⟩
abbrev main_c_234 : Ref sig .tc := ⟨.hbm, 1879, rfl⟩
abbrev main_v1372 : Ref sig .tc := ⟨.hbm, 1880, rfl⟩
abbrev main_v1373 : Ref sig .tc := ⟨.hbm, 1881, rfl⟩
abbrev main_v1374 : Ref sig .tc := ⟨.hbm, 1882, rfl⟩
abbrev main_v1375 : Ref sig .tc := ⟨.hbm, 1883, rfl⟩
abbrev main_v1376 : Ref sig .tc := ⟨.hbm, 1884, rfl⟩
abbrev main_v1377 : Ref sig .tc := ⟨.hbm, 1885, rfl⟩
abbrev main_v1378 : Ref sig .tc := ⟨.hbm, 1886, rfl⟩
abbrev main_v1379 : Ref sig .tc := ⟨.hbm, 1887, rfl⟩
abbrev main_v1380 : Ref sig .tc := ⟨.hbm, 1888, rfl⟩
abbrev main_c_235 : Ref sig .tc := ⟨.hbm, 1889, rfl⟩
abbrev main_v1381 : Ref sig .tc := ⟨.hbm, 1890, rfl⟩
abbrev main_v1382 : Ref sig .tc := ⟨.hbm, 1891, rfl⟩
abbrev main_c_236 : Ref sig .tc := ⟨.hbm, 1892, rfl⟩
abbrev main_v1383 : Ref sig .tc := ⟨.hbm, 1893, rfl⟩
abbrev main_v1384 : Ref sig .tc := ⟨.hbm, 1894, rfl⟩
abbrev main_v1385 : Ref sig .tc := ⟨.hbm, 1895, rfl⟩
abbrev main_v1386 : Ref sig .tc := ⟨.hbm, 1896, rfl⟩
abbrev main_v1387 : Ref sig .tc := ⟨.hbm, 1897, rfl⟩
abbrev main_v1388 : Ref sig .tc := ⟨.hbm, 1898, rfl⟩
abbrev main_v1389 : Ref sig .tc := ⟨.hbm, 1899, rfl⟩
abbrev main_v1390 : Ref sig .tc := ⟨.hbm, 1900, rfl⟩
abbrev main_v1391 : Ref sig .tc := ⟨.hbm, 1901, rfl⟩
abbrev main_c_237 : Ref sig .tc := ⟨.hbm, 1902, rfl⟩
abbrev main_v1392 : Ref sig .tc := ⟨.hbm, 1903, rfl⟩
abbrev main_v1393 : Ref sig .tc := ⟨.hbm, 1904, rfl⟩
abbrev main_c_238 : Ref sig .tc := ⟨.hbm, 1905, rfl⟩
abbrev main_v1394 : Ref sig .tc := ⟨.hbm, 1906, rfl⟩
abbrev main_v1395 : Ref sig .tc := ⟨.hbm, 1907, rfl⟩
abbrev main_v1396 : Ref sig .tc := ⟨.hbm, 1908, rfl⟩
abbrev main_v1397 : Ref sig .tc := ⟨.hbm, 1909, rfl⟩
abbrev main_v1398 : Ref sig .tc := ⟨.hbm, 1910, rfl⟩
abbrev main_v1399 : Ref sig .tc := ⟨.hbm, 1911, rfl⟩
abbrev main_v1400 : Ref sig .tc := ⟨.hbm, 1912, rfl⟩
abbrev main_v1401 : Ref sig .tc := ⟨.hbm, 1913, rfl⟩
abbrev main_v1402 : Ref sig .tc := ⟨.hbm, 1914, rfl⟩
abbrev main_c_239 : Ref sig .tc := ⟨.hbm, 1915, rfl⟩
abbrev main_v1403 : Ref sig .tc := ⟨.hbm, 1916, rfl⟩
abbrev main_v1404 : Ref sig .tc := ⟨.hbm, 1917, rfl⟩
abbrev main_c_240 : Ref sig .tc := ⟨.hbm, 1918, rfl⟩
abbrev main_v1405 : Ref sig .tc := ⟨.hbm, 1919, rfl⟩
abbrev main_v1406 : Ref sig .tc := ⟨.hbm, 1920, rfl⟩
abbrev main_v1407 : Ref sig .tc := ⟨.hbm, 1921, rfl⟩
abbrev main_v1408 : Ref sig .tc := ⟨.hbm, 1922, rfl⟩
abbrev main_v1409 : Ref sig .tc := ⟨.hbm, 1923, rfl⟩
abbrev main_v1410 : Ref sig .tc := ⟨.hbm, 1924, rfl⟩
abbrev main_v1411 : Ref sig .tc := ⟨.hbm, 1925, rfl⟩
abbrev main_v1412 : Ref sig .tc := ⟨.hbm, 1926, rfl⟩
abbrev main_v1413 : Ref sig .tc := ⟨.hbm, 1927, rfl⟩
abbrev main_c_241 : Ref sig .tc := ⟨.hbm, 1928, rfl⟩
abbrev main_v1414 : Ref sig .tc := ⟨.hbm, 1929, rfl⟩
abbrev main_v1415 : Ref sig .tc := ⟨.hbm, 1930, rfl⟩
abbrev main_c_242 : Ref sig .tc := ⟨.hbm, 1931, rfl⟩
abbrev main_v1416 : Ref sig .tc := ⟨.hbm, 1932, rfl⟩
abbrev main_v1417 : Ref sig .tc := ⟨.hbm, 1933, rfl⟩
abbrev main_v1418 : Ref sig .tc := ⟨.hbm, 1934, rfl⟩
abbrev main_v1419 : Ref sig .tc := ⟨.hbm, 1935, rfl⟩
abbrev main_v1420 : Ref sig .tc := ⟨.hbm, 1936, rfl⟩
abbrev main_v1421 : Ref sig .tc := ⟨.hbm, 1937, rfl⟩
abbrev main_v1422 : Ref sig .tc := ⟨.hbm, 1938, rfl⟩
abbrev main_v1423 : Ref sig .tc := ⟨.hbm, 1939, rfl⟩
abbrev main_v1424 : Ref sig .tc := ⟨.hbm, 1940, rfl⟩
abbrev main_c_243 : Ref sig .tc := ⟨.hbm, 1941, rfl⟩
abbrev main_v1425 : Ref sig .tc := ⟨.hbm, 1942, rfl⟩
abbrev main_v1426 : Ref sig .tc := ⟨.hbm, 1943, rfl⟩
abbrev main_c_244 : Ref sig .tc := ⟨.hbm, 1944, rfl⟩
abbrev main_v1427 : Ref sig .tc := ⟨.hbm, 1945, rfl⟩
abbrev main_v1428 : Ref sig .tc := ⟨.hbm, 1946, rfl⟩
abbrev main_v1429 : Ref sig .tc := ⟨.hbm, 1947, rfl⟩
abbrev main_v1430 : Ref sig .tc := ⟨.hbm, 1948, rfl⟩
abbrev main_v1431 : Ref sig .tc := ⟨.hbm, 1949, rfl⟩
abbrev main_v1432 : Ref sig .tc := ⟨.hbm, 1950, rfl⟩
abbrev main_v1433 : Ref sig .tc := ⟨.hbm, 1951, rfl⟩
abbrev main_v1434 : Ref sig .tc := ⟨.hbm, 1952, rfl⟩
abbrev main_v1435 : Ref sig .tc := ⟨.hbm, 1953, rfl⟩
abbrev main_c_245 : Ref sig .tc := ⟨.hbm, 1954, rfl⟩
abbrev main_v1436 : Ref sig .tc := ⟨.hbm, 1955, rfl⟩
abbrev main_v1437 : Ref sig .tc := ⟨.hbm, 1956, rfl⟩
abbrev main_c_246 : Ref sig .tc := ⟨.hbm, 1957, rfl⟩
abbrev main_v1438 : Ref sig .tc := ⟨.hbm, 1958, rfl⟩
abbrev main_v1439 : Ref sig .tc := ⟨.hbm, 1959, rfl⟩
abbrev main_v1440 : Ref sig .tc := ⟨.hbm, 1960, rfl⟩
abbrev main_v1441 : Ref sig .tc := ⟨.hbm, 1961, rfl⟩
abbrev main_v1442 : Ref sig .tc := ⟨.hbm, 1962, rfl⟩
abbrev main_v1443 : Ref sig .tc := ⟨.hbm, 1963, rfl⟩
abbrev main_v1444 : Ref sig .tc := ⟨.hbm, 1964, rfl⟩
abbrev main_v1445 : Ref sig .tc := ⟨.hbm, 1965, rfl⟩
abbrev main_v1446 : Ref sig .tc := ⟨.hbm, 1966, rfl⟩
abbrev main_c_247 : Ref sig .tc := ⟨.hbm, 1967, rfl⟩
abbrev main_v1447 : Ref sig .tc := ⟨.hbm, 1968, rfl⟩
abbrev main_v1448 : Ref sig .tc := ⟨.hbm, 1969, rfl⟩
abbrev main_c_248 : Ref sig .tc := ⟨.hbm, 1970, rfl⟩
abbrev main_v1449 : Ref sig .tc := ⟨.hbm, 1971, rfl⟩
abbrev main_v1450 : Ref sig .tc := ⟨.hbm, 1972, rfl⟩
abbrev main_v1451 : Ref sig .tc := ⟨.hbm, 1973, rfl⟩
abbrev main_v1452 : Ref sig .tc := ⟨.hbm, 1974, rfl⟩
abbrev main_v1453 : Ref sig .tc := ⟨.hbm, 1975, rfl⟩
abbrev main_v1454 : Ref sig .tc := ⟨.hbm, 1976, rfl⟩
abbrev main_v1455 : Ref sig .tc := ⟨.hbm, 1977, rfl⟩
abbrev main_v1456 : Ref sig .tc := ⟨.hbm, 1978, rfl⟩
abbrev main_v1457 : Ref sig .tc := ⟨.hbm, 1979, rfl⟩
abbrev main_c_249 : Ref sig .tc := ⟨.hbm, 1980, rfl⟩
abbrev main_v1458 : Ref sig .tc := ⟨.hbm, 1981, rfl⟩
abbrev main_v1459 : Ref sig .tc := ⟨.hbm, 1982, rfl⟩
abbrev main_c_250 : Ref sig .tc := ⟨.hbm, 1983, rfl⟩
abbrev main_v1460 : Ref sig .tc := ⟨.hbm, 1984, rfl⟩
abbrev main_v1461 : Ref sig .tc := ⟨.hbm, 1985, rfl⟩
abbrev main_v1462 : Ref sig .tc := ⟨.hbm, 1986, rfl⟩
abbrev main_v1463 : Ref sig .tc := ⟨.hbm, 1987, rfl⟩
abbrev main_v1464 : Ref sig .tc := ⟨.hbm, 1988, rfl⟩
abbrev main_v1465 : Ref sig .tc := ⟨.hbm, 1989, rfl⟩
abbrev main_v1466 : Ref sig .tc := ⟨.hbm, 1990, rfl⟩
abbrev main_v1467 : Ref sig .tc := ⟨.hbm, 1991, rfl⟩
abbrev main_v1468 : Ref sig .tc := ⟨.hbm, 1992, rfl⟩
abbrev main_c_251 : Ref sig .tc := ⟨.hbm, 1993, rfl⟩
abbrev main_v1469 : Ref sig .tc := ⟨.hbm, 1994, rfl⟩
abbrev main_v1470 : Ref sig .tc := ⟨.hbm, 1995, rfl⟩
abbrev main_c_252 : Ref sig .tc := ⟨.hbm, 1996, rfl⟩
abbrev main_v1471 : Ref sig .tc := ⟨.hbm, 1997, rfl⟩
abbrev main_v1472 : Ref sig .tc := ⟨.hbm, 1998, rfl⟩
abbrev main_v1473 : Ref sig .tc := ⟨.hbm, 1999, rfl⟩
abbrev main_v1474 : Ref sig .tc := ⟨.hbm, 2000, rfl⟩
abbrev main_v1475 : Ref sig .tc := ⟨.hbm, 2001, rfl⟩
abbrev main_v1476 : Ref sig .tc := ⟨.hbm, 2002, rfl⟩
abbrev main_v1477 : Ref sig .tc := ⟨.hbm, 2003, rfl⟩
abbrev main_v1478 : Ref sig .tc := ⟨.hbm, 2004, rfl⟩
abbrev main_v1479 : Ref sig .tc := ⟨.hbm, 2005, rfl⟩
abbrev main_c_253 : Ref sig .tc := ⟨.hbm, 2006, rfl⟩
abbrev main_v1480 : Ref sig .tc := ⟨.hbm, 2007, rfl⟩
abbrev main_v1481 : Ref sig .tc := ⟨.hbm, 2008, rfl⟩
abbrev main_c_254 : Ref sig .tc := ⟨.hbm, 2009, rfl⟩
abbrev main_v1482 : Ref sig .tc := ⟨.hbm, 2010, rfl⟩
abbrev main_v1483 : Ref sig .tc := ⟨.hbm, 2011, rfl⟩
abbrev main_v1484 : Ref sig .tc := ⟨.hbm, 2012, rfl⟩
abbrev main_v1485 : Ref sig .tc := ⟨.hbm, 2013, rfl⟩
abbrev main_v1486 : Ref sig .tc := ⟨.hbm, 2014, rfl⟩
abbrev main_v1487 : Ref sig .tc := ⟨.hbm, 2015, rfl⟩
abbrev main_v1488 : Ref sig .tc := ⟨.hbm, 2016, rfl⟩
abbrev main_v1489 : Ref sig .tc := ⟨.hbm, 2017, rfl⟩
abbrev main_v1490 : Ref sig .tc := ⟨.hbm, 2018, rfl⟩
abbrev main_c_255 : Ref sig .tc := ⟨.hbm, 2019, rfl⟩
abbrev main_v1491 : Ref sig .tc := ⟨.hbm, 2020, rfl⟩
abbrev main_v1492 : Ref sig .tc := ⟨.hbm, 2021, rfl⟩
abbrev main_c_256 : Ref sig .tc := ⟨.hbm, 2022, rfl⟩
abbrev main_v1493 : Ref sig .tc := ⟨.hbm, 2023, rfl⟩
abbrev main_v1494 : Ref sig .tc := ⟨.hbm, 2024, rfl⟩
abbrev main_v1495 : Ref sig .tc := ⟨.hbm, 2025, rfl⟩
abbrev main_v1496 : Ref sig .tc := ⟨.hbm, 2026, rfl⟩
abbrev main_v1497 : Ref sig .tc := ⟨.hbm, 2027, rfl⟩
abbrev main_v1498 : Ref sig .tc := ⟨.hbm, 2028, rfl⟩
abbrev main_v1499 : Ref sig .tc := ⟨.hbm, 2029, rfl⟩
abbrev main_v1500 : Ref sig .tc := ⟨.hbm, 2030, rfl⟩
abbrev main_v1501 : Ref sig .tc := ⟨.hbm, 2031, rfl⟩
abbrev main_c_257 : Ref sig .tc := ⟨.hbm, 2032, rfl⟩
abbrev main_v1502 : Ref sig .tc := ⟨.hbm, 2033, rfl⟩
abbrev main_v1503 : Ref sig .tc := ⟨.hbm, 2034, rfl⟩
abbrev main_c_258 : Ref sig .tc := ⟨.hbm, 2035, rfl⟩
abbrev main_v1504 : Ref sig .tc := ⟨.hbm, 2036, rfl⟩
abbrev main_v1505 : Ref sig .tc := ⟨.hbm, 2037, rfl⟩
abbrev main_v1506 : Ref sig .tc := ⟨.hbm, 2038, rfl⟩
abbrev main_v1507 : Ref sig .tc := ⟨.hbm, 2039, rfl⟩
abbrev main_v1508 : Ref sig .tc := ⟨.hbm, 2040, rfl⟩
abbrev main_v1509 : Ref sig .tc := ⟨.hbm, 2041, rfl⟩
abbrev main_v1510 : Ref sig .tc := ⟨.hbm, 2042, rfl⟩
abbrev main_v1511 : Ref sig .tc := ⟨.hbm, 2043, rfl⟩
abbrev main_v1512 : Ref sig .tc := ⟨.hbm, 2044, rfl⟩
abbrev main_c_259 : Ref sig .tc := ⟨.hbm, 2045, rfl⟩
abbrev main_v1513 : Ref sig .tc := ⟨.hbm, 2046, rfl⟩
abbrev main_v1514 : Ref sig .tc := ⟨.hbm, 2047, rfl⟩
abbrev main_c_260 : Ref sig .tc := ⟨.hbm, 2048, rfl⟩
abbrev main_v1515 : Ref sig .tc := ⟨.hbm, 2049, rfl⟩
abbrev main_v1516 : Ref sig .tc := ⟨.hbm, 2050, rfl⟩
abbrev main_v1517 : Ref sig .tc := ⟨.hbm, 2051, rfl⟩
abbrev main_v1518 : Ref sig .tc := ⟨.hbm, 2052, rfl⟩
abbrev main_v1519 : Ref sig .tc := ⟨.hbm, 2053, rfl⟩
abbrev main_v1520 : Ref sig .tc := ⟨.hbm, 2054, rfl⟩
abbrev main_v1521 : Ref sig .tc := ⟨.hbm, 2055, rfl⟩
abbrev main_v1522 : Ref sig .tc := ⟨.hbm, 2056, rfl⟩
abbrev main_v1523 : Ref sig .tc := ⟨.hbm, 2057, rfl⟩
abbrev main_c_261 : Ref sig .tc := ⟨.hbm, 2058, rfl⟩
abbrev main_v1524 : Ref sig .tc := ⟨.hbm, 2059, rfl⟩
abbrev main_v1525 : Ref sig .tc := ⟨.hbm, 2060, rfl⟩
abbrev main_c_262 : Ref sig .tc := ⟨.hbm, 2061, rfl⟩
abbrev main_v1526 : Ref sig .tc := ⟨.hbm, 2062, rfl⟩
abbrev main_v1527 : Ref sig .tc := ⟨.hbm, 2063, rfl⟩
abbrev main_v1528 : Ref sig .tc := ⟨.hbm, 2064, rfl⟩
abbrev main_v1529 : Ref sig .tc := ⟨.hbm, 2065, rfl⟩
abbrev main_v1530 : Ref sig .tc := ⟨.hbm, 2066, rfl⟩
abbrev main_v1531 : Ref sig .tc := ⟨.hbm, 2067, rfl⟩
abbrev main_v1532 : Ref sig .tc := ⟨.hbm, 2068, rfl⟩
abbrev main_v1533 : Ref sig .tc := ⟨.hbm, 2069, rfl⟩
abbrev main_v1534 : Ref sig .tc := ⟨.hbm, 2070, rfl⟩
abbrev main_c_263 : Ref sig .tc := ⟨.hbm, 2071, rfl⟩
abbrev main_v1535 : Ref sig .tc := ⟨.hbm, 2072, rfl⟩
abbrev main_v1536 : Ref sig .tc := ⟨.hbm, 2073, rfl⟩
abbrev main_c_264 : Ref sig .tc := ⟨.hbm, 2074, rfl⟩
abbrev main_v1537 : Ref sig .tc := ⟨.hbm, 2075, rfl⟩
abbrev main_v1538 : Ref sig .tc := ⟨.hbm, 2076, rfl⟩
abbrev main_v1539 : Ref sig .tc := ⟨.hbm, 2077, rfl⟩
abbrev main_v1540 : Ref sig .tc := ⟨.hbm, 2078, rfl⟩
abbrev main_v1541 : Ref sig .tc := ⟨.hbm, 2079, rfl⟩
abbrev main_v1542 : Ref sig .tc := ⟨.hbm, 2080, rfl⟩
abbrev main_v1543 : Ref sig .tc := ⟨.hbm, 2081, rfl⟩
abbrev main_v1544 : Ref sig .tc := ⟨.hbm, 2082, rfl⟩
abbrev main_v1545 : Ref sig .tc := ⟨.hbm, 2083, rfl⟩
abbrev main_c_265 : Ref sig .tc := ⟨.hbm, 2084, rfl⟩
abbrev main_v1546 : Ref sig .tc := ⟨.hbm, 2085, rfl⟩
abbrev main_v1547 : Ref sig .tc := ⟨.hbm, 2086, rfl⟩
abbrev main_c_266 : Ref sig .tc := ⟨.hbm, 2087, rfl⟩
abbrev main_v1548 : Ref sig .tc := ⟨.hbm, 2088, rfl⟩
abbrev main_v1549 : Ref sig .tc := ⟨.hbm, 2089, rfl⟩
abbrev main_v1550 : Ref sig .tc := ⟨.hbm, 2090, rfl⟩
abbrev main_v1551 : Ref sig .tc := ⟨.hbm, 2091, rfl⟩
abbrev main_v1552 : Ref sig .tc := ⟨.hbm, 2092, rfl⟩
abbrev main_v1553 : Ref sig .tc := ⟨.hbm, 2093, rfl⟩
abbrev main_v1554 : Ref sig .tc := ⟨.hbm, 2094, rfl⟩
abbrev main_v1555 : Ref sig .tc := ⟨.hbm, 2095, rfl⟩
abbrev main_v1556 : Ref sig .tc := ⟨.hbm, 2096, rfl⟩
abbrev main_c_267 : Ref sig .tc := ⟨.hbm, 2097, rfl⟩
abbrev main_v1557 : Ref sig .tc := ⟨.hbm, 2098, rfl⟩
abbrev main_v1558 : Ref sig .tc := ⟨.hbm, 2099, rfl⟩
abbrev main_c_268 : Ref sig .tc := ⟨.hbm, 2100, rfl⟩
abbrev main_v1559 : Ref sig .tc := ⟨.hbm, 2101, rfl⟩
abbrev main_v1560 : Ref sig .tc := ⟨.hbm, 2102, rfl⟩
abbrev main_v1561 : Ref sig .tc := ⟨.hbm, 2103, rfl⟩
abbrev main_v1562 : Ref sig .tc := ⟨.hbm, 2104, rfl⟩
abbrev main_v1563 : Ref sig .tc := ⟨.hbm, 2105, rfl⟩
abbrev main_v1564 : Ref sig .tc := ⟨.hbm, 2106, rfl⟩
abbrev main_v1565 : Ref sig .tc := ⟨.hbm, 2107, rfl⟩
abbrev main_v1566 : Ref sig .tc := ⟨.hbm, 2108, rfl⟩
abbrev main_v1567 : Ref sig .tc := ⟨.hbm, 2109, rfl⟩
abbrev main_c_269 : Ref sig .tc := ⟨.hbm, 2110, rfl⟩
abbrev main_v1568 : Ref sig .tc := ⟨.hbm, 2111, rfl⟩
abbrev main_v1569 : Ref sig .tc := ⟨.hbm, 2112, rfl⟩
abbrev main_c_270 : Ref sig .tc := ⟨.hbm, 2113, rfl⟩
abbrev main_v1570 : Ref sig .tc := ⟨.hbm, 2114, rfl⟩
abbrev main_v1571 : Ref sig .tc := ⟨.hbm, 2115, rfl⟩
abbrev main_v1572 : Ref sig .tc := ⟨.hbm, 2116, rfl⟩
abbrev main_v1573 : Ref sig .tc := ⟨.hbm, 2117, rfl⟩
abbrev main_v1574 : Ref sig .tc := ⟨.hbm, 2118, rfl⟩
abbrev main_v1575 : Ref sig .tc := ⟨.hbm, 2119, rfl⟩
abbrev main_v1576 : Ref sig .tc := ⟨.hbm, 2120, rfl⟩
abbrev main_cst_271 : Ref sig .tc := ⟨.hbm, 2121, rfl⟩
abbrev main_v1577 : Ref sig .tc := ⟨.hbm, 2122, rfl⟩
abbrev main_v1578 : Ref sig .tc := ⟨.hbm, 2123, rfl⟩
abbrev main_cst_272 : Ref sig .tc := ⟨.hbm, 2124, rfl⟩
abbrev main_v1579 : Ref sig .tc := ⟨.hbm, 2125, rfl⟩
abbrev main_v1580 : Ref sig .tc := ⟨.hbm, 2126, rfl⟩
abbrev main_c_273 : Ref sig .tc := ⟨.hbm, 2127, rfl⟩
abbrev main_call21_cst : Ref sig .tc := ⟨.hbm, 2128, rfl⟩
abbrev main_call21_v0 : Ref sig .tc := ⟨.hbm, 2129, rfl⟩
abbrev main_call21_v1 : Ref sig .tc := ⟨.hbm, 2130, rfl⟩
abbrev main_call21_cst_0 : Ref sig .tc := ⟨.hbm, 2131, rfl⟩
abbrev main_call21_v2 : Ref sig .tc := ⟨.hbm, 2132, rfl⟩
abbrev main_call21_v3 : Ref sig .tc := ⟨.hbm, 2133, rfl⟩
abbrev main_call21_v4 : Ref sig .tc := ⟨.hbm, 2134, rfl⟩
abbrev main_call21_v5 : Ref sig .tc := ⟨.hbm, 2135, rfl⟩
abbrev main_call21_v6 : Ref sig .tc := ⟨.hbm, 2136, rfl⟩
abbrev main_call21_v7 : Ref sig .tc := ⟨.hbm, 2137, rfl⟩
abbrev main_call21_cst_1 : Ref sig .tc := ⟨.hbm, 2138, rfl⟩
abbrev main_call21_v8 : Ref sig .tc := ⟨.hbm, 2139, rfl⟩
abbrev main_call21_cst_2 : Ref sig .tc := ⟨.hbm, 2140, rfl⟩
abbrev main_call21_v9 : Ref sig .tc := ⟨.hbm, 2141, rfl⟩
abbrev main_call21_v10 : Ref sig .tc := ⟨.hbm, 2142, rfl⟩
abbrev main_call21_v11 : Ref sig .tc := ⟨.hbm, 2143, rfl⟩
abbrev main_call21_v12 : Ref sig .tc := ⟨.hbm, 2144, rfl⟩
abbrev main_call21_cst_3 : Ref sig .tc := ⟨.hbm, 2145, rfl⟩
abbrev main_call21_v13 : Ref sig .tc := ⟨.hbm, 2146, rfl⟩
abbrev main_call21_cst_4 : Ref sig .tc := ⟨.hbm, 2147, rfl⟩
abbrev main_call21_call0_v0 : Ref sig .tc := ⟨.hbm, 2148, rfl⟩
abbrev main_call21_call0_v1 : Ref sig .tc := ⟨.hbm, 2149, rfl⟩
abbrev main_v1581 : Ref sig .tc := ⟨.hbm, 2150, rfl⟩
abbrev main_v1582 : Ref sig .tc := ⟨.hbm, 2151, rfl⟩
abbrev main_v1583 : Ref sig .tc := ⟨.hbm, 2152, rfl⟩
abbrev main_cst_274 : Ref sig .tc := ⟨.hbm, 2153, rfl⟩
abbrev main_v1584 : Ref sig .tc := ⟨.hbm, 2154, rfl⟩
abbrev main_v1585 : Ref sig .tc := ⟨.hbm, 2155, rfl⟩
abbrev main_v1586 : Ref sig .tc := ⟨.hbm, 2156, rfl⟩
abbrev main_v1587 : Ref sig .tc := ⟨.hbm, 2157, rfl⟩
abbrev main_v1588 : Ref sig .tc := ⟨.hbm, 2158, rfl⟩
abbrev main_v1589 : Ref sig .tc := ⟨.hbm, 2159, rfl⟩
abbrev main_v1590 : Ref sig .tc := ⟨.hbm, 2160, rfl⟩
abbrev main_v1591 : Ref sig .tc := ⟨.hbm, 2161, rfl⟩
abbrev main_v1592 : Ref sig .tc := ⟨.hbm, 2162, rfl⟩
abbrev main_v1593 : Ref sig .tc := ⟨.hbm, 2163, rfl⟩
abbrev main_v1594 : Ref sig .tc := ⟨.hbm, 2164, rfl⟩
abbrev main_v1595 : Ref sig .tc := ⟨.hbm, 2165, rfl⟩
abbrev main_v1596 : Ref sig .tc := ⟨.hbm, 2166, rfl⟩
abbrev main_v1597 : Ref sig .tc := ⟨.hbm, 2167, rfl⟩
abbrev main_v1598 : Ref sig .tc := ⟨.hbm, 2168, rfl⟩
abbrev main_call22_cst : Ref sig .tc := ⟨.hbm, 2169, rfl⟩
abbrev main_call22_v0 : Ref sig .tc := ⟨.hbm, 2170, rfl⟩
abbrev main_v1599 : Ref sig .tc := ⟨.hbm, 2171, rfl⟩
abbrev main_v1600 : Ref sig .tc := ⟨.hbm, 2172, rfl⟩
abbrev main_v1601 : Ref sig .tc := ⟨.hbm, 2173, rfl⟩
abbrev main_v1602 : Ref sig .tc := ⟨.hbm, 2174, rfl⟩
abbrev main_v1603 : Ref sig .tc := ⟨.hbm, 2175, rfl⟩
abbrev main_v1604 : Ref sig .tc := ⟨.hbm, 2176, rfl⟩
abbrev main_v1605 : Ref sig .tc := ⟨.hbm, 2177, rfl⟩
abbrev main_cst_275 : Ref sig .tc := ⟨.hbm, 2178, rfl⟩
abbrev main_v1606 : Ref sig .tc := ⟨.hbm, 2179, rfl⟩
abbrev main_v1607 : Ref sig .tc := ⟨.hbm, 2180, rfl⟩
abbrev main_cst_276 : Ref sig .tc := ⟨.hbm, 2181, rfl⟩
abbrev main_v1608 : Ref sig .tc := ⟨.hbm, 2182, rfl⟩
abbrev main_v1609 : Ref sig .tc := ⟨.hbm, 2183, rfl⟩
abbrev main_c_277 : Ref sig .tc := ⟨.hbm, 2184, rfl⟩
abbrev main_call23_cst : Ref sig .tc := ⟨.hbm, 2185, rfl⟩
abbrev main_call23_v0 : Ref sig .tc := ⟨.hbm, 2186, rfl⟩
abbrev main_call23_v1 : Ref sig .tc := ⟨.hbm, 2187, rfl⟩
abbrev main_call23_cst_0 : Ref sig .tc := ⟨.hbm, 2188, rfl⟩
abbrev main_call23_v2 : Ref sig .tc := ⟨.hbm, 2189, rfl⟩
abbrev main_call23_v3 : Ref sig .tc := ⟨.hbm, 2190, rfl⟩
abbrev main_call23_v4 : Ref sig .tc := ⟨.hbm, 2191, rfl⟩
abbrev main_call23_v5 : Ref sig .tc := ⟨.hbm, 2192, rfl⟩
abbrev main_call23_v6 : Ref sig .tc := ⟨.hbm, 2193, rfl⟩
abbrev main_call23_v7 : Ref sig .tc := ⟨.hbm, 2194, rfl⟩
abbrev main_call23_cst_1 : Ref sig .tc := ⟨.hbm, 2195, rfl⟩
abbrev main_call23_v8 : Ref sig .tc := ⟨.hbm, 2196, rfl⟩
abbrev main_call23_cst_2 : Ref sig .tc := ⟨.hbm, 2197, rfl⟩
abbrev main_call23_v9 : Ref sig .tc := ⟨.hbm, 2198, rfl⟩
abbrev main_call23_v10 : Ref sig .tc := ⟨.hbm, 2199, rfl⟩
abbrev main_call23_v11 : Ref sig .tc := ⟨.hbm, 2200, rfl⟩
abbrev main_call23_v12 : Ref sig .tc := ⟨.hbm, 2201, rfl⟩
abbrev main_call23_cst_3 : Ref sig .tc := ⟨.hbm, 2202, rfl⟩
abbrev main_call23_v13 : Ref sig .tc := ⟨.hbm, 2203, rfl⟩
abbrev main_call23_cst_4 : Ref sig .tc := ⟨.hbm, 2204, rfl⟩
abbrev main_call23_call0_v0 : Ref sig .tc := ⟨.hbm, 2205, rfl⟩
abbrev main_call23_call0_v1 : Ref sig .tc := ⟨.hbm, 2206, rfl⟩
abbrev main_v1610 : Ref sig .tc := ⟨.hbm, 2207, rfl⟩
abbrev main_v1611 : Ref sig .tc := ⟨.hbm, 2208, rfl⟩
abbrev main_v1612 : Ref sig .tc := ⟨.hbm, 2209, rfl⟩
abbrev main_cst_278 : Ref sig .tc := ⟨.hbm, 2210, rfl⟩
abbrev main_v1613 : Ref sig .tc := ⟨.hbm, 2211, rfl⟩
abbrev main_v1614 : Ref sig .tc := ⟨.hbm, 2212, rfl⟩
abbrev main_v1615 : Ref sig .tc := ⟨.hbm, 2213, rfl⟩
abbrev main_v1616 : Ref sig .tc := ⟨.hbm, 2214, rfl⟩
abbrev main_v1617 : Ref sig .tc := ⟨.hbm, 2215, rfl⟩
abbrev main_v1618 : Ref sig .tc := ⟨.hbm, 2216, rfl⟩
abbrev main_v1619 : Ref sig .tc := ⟨.hbm, 2217, rfl⟩
abbrev main_v1620 : Ref sig .tc := ⟨.hbm, 2218, rfl⟩
abbrev main_v1621 : Ref sig .tc := ⟨.hbm, 2219, rfl⟩
abbrev main_v1622 : Ref sig .tc := ⟨.hbm, 2220, rfl⟩
abbrev main_v1623 : Ref sig .tc := ⟨.hbm, 2221, rfl⟩
abbrev main_v1624 : Ref sig .tc := ⟨.hbm, 2222, rfl⟩
abbrev main_v1625 : Ref sig .tc := ⟨.hbm, 2223, rfl⟩
abbrev main_v1626 : Ref sig .tc := ⟨.hbm, 2224, rfl⟩
abbrev main_v1627 : Ref sig .tc := ⟨.hbm, 2225, rfl⟩
abbrev main_v1628 : Ref sig .tc := ⟨.hbm, 2226, rfl⟩
abbrev main_call24_cst : Ref sig .tc := ⟨.hbm, 2227, rfl⟩
abbrev main_call24_v0 : Ref sig .tc := ⟨.hbm, 2228, rfl⟩
abbrev main_v1629 : Ref sig .tc := ⟨.hbm, 2229, rfl⟩
abbrev main_v1630 : Ref sig .tc := ⟨.hbm, 2230, rfl⟩
abbrev main_v1631 : Ref sig .tc := ⟨.hbm, 2231, rfl⟩
abbrev main_v1632 : Ref sig .tc := ⟨.hbm, 2232, rfl⟩
abbrev main_v1633 : Ref sig .tc := ⟨.hbm, 2233, rfl⟩
abbrev main_v1634 : Ref sig .tc := ⟨.hbm, 2234, rfl⟩
abbrev main_v1635 : Ref sig .tc := ⟨.hbm, 2235, rfl⟩
abbrev main_v1636 : Ref sig .tc := ⟨.hbm, 2236, rfl⟩
abbrev main_v1637 : Ref sig .tc := ⟨.hbm, 2237, rfl⟩
abbrev main_v1638 : Ref sig .tc := ⟨.hbm, 2238, rfl⟩
abbrev main_v1639 : Ref sig .tc := ⟨.hbm, 2239, rfl⟩
abbrev main_v1640 : Ref sig .tc := ⟨.hbm, 2240, rfl⟩
abbrev main_v1641 : Ref sig .tc := ⟨.hbm, 2241, rfl⟩
abbrev main_v1642 : Ref sig .tc := ⟨.hbm, 2242, rfl⟩
abbrev main_v1643 : Ref sig .tc := ⟨.hbm, 2243, rfl⟩
abbrev main_v1644 : Ref sig .tc := ⟨.hbm, 2244, rfl⟩
abbrev main_v1645 : Ref sig .tc := ⟨.hbm, 2245, rfl⟩
abbrev main_v1646 : Ref sig .tc := ⟨.hbm, 2246, rfl⟩
abbrev main_v1647 : Ref sig .tc := ⟨.hbm, 2247, rfl⟩
abbrev main_v1648 : Ref sig .tc := ⟨.hbm, 2248, rfl⟩
abbrev main_v1649 : Ref sig .tc := ⟨.hbm, 2249, rfl⟩
abbrev main_v1650 : Ref sig .tc := ⟨.hbm, 2250, rfl⟩
abbrev main_v1651 : Ref sig .tc := ⟨.hbm, 2251, rfl⟩
abbrev main_c_279 : Ref sig .tc := ⟨.hbm, 2252, rfl⟩
abbrev main_v1652 : Ref sig .tc := ⟨.hbm, 2253, rfl⟩
abbrev main_v1653 : Ref sig .tc := ⟨.hbm, 2254, rfl⟩
abbrev main_c_280 : Ref sig .tc := ⟨.hbm, 2255, rfl⟩
abbrev main_v1654 : Ref sig .tc := ⟨.hbm, 2256, rfl⟩
abbrev main_v1655 : Ref sig .tc := ⟨.hbm, 2257, rfl⟩
abbrev main_v1656 : Ref sig .tc := ⟨.hbm, 2258, rfl⟩
abbrev main_v1657 : Ref sig .tc := ⟨.hbm, 2259, rfl⟩
abbrev main_v1658 : Ref sig .tc := ⟨.hbm, 2260, rfl⟩
abbrev main_c_281 : Ref sig .tc := ⟨.hbm, 2261, rfl⟩
abbrev main_v1659 : Ref sig .tc := ⟨.hbm, 2262, rfl⟩
abbrev main_v1660 : Ref sig .tc := ⟨.hbm, 2263, rfl⟩
abbrev main_c_282 : Ref sig .tc := ⟨.hbm, 2264, rfl⟩
abbrev main_v1661 : Ref sig .tc := ⟨.hbm, 2265, rfl⟩
abbrev main_v1662 : Ref sig .tc := ⟨.hbm, 2266, rfl⟩
abbrev main_v1663 : Ref sig .tc := ⟨.hbm, 2267, rfl⟩
abbrev main_v1664 : Ref sig .tc := ⟨.hbm, 2268, rfl⟩
abbrev main_v1665 : Ref sig .tc := ⟨.hbm, 2269, rfl⟩
abbrev main_v1666 : Ref sig .tc := ⟨.hbm, 2270, rfl⟩
abbrev main_v1667 : Ref sig .tc := ⟨.hbm, 2271, rfl⟩
abbrev main_v1668 : Ref sig .tc := ⟨.hbm, 2272, rfl⟩
abbrev main_v1669 : Ref sig .tc := ⟨.hbm, 2273, rfl⟩
abbrev main_v1670 : Ref sig .tc := ⟨.hbm, 2274, rfl⟩
abbrev main_v1671 : Ref sig .tc := ⟨.hbm, 2275, rfl⟩
abbrev main_call25_cst : Ref sig .tc := ⟨.hbm, 2276, rfl⟩
abbrev main_call25_v0 : Ref sig .tc := ⟨.hbm, 2277, rfl⟩
abbrev main_v1672 : Ref sig .tc := ⟨.hbm, 2278, rfl⟩
abbrev main_c_283 : Ref sig .tc := ⟨.hbm, 2279, rfl⟩
abbrev main_v1673 : Ref sig .tc := ⟨.hbm, 2280, rfl⟩
abbrev main_v1674 : Ref sig .tc := ⟨.hbm, 2281, rfl⟩
abbrev main_c_284 : Ref sig .tc := ⟨.hbm, 2282, rfl⟩
abbrev main_v1675 : Ref sig .tc := ⟨.hbm, 2283, rfl⟩
abbrev main_v1676 : Ref sig .tc := ⟨.hbm, 2284, rfl⟩
abbrev main_v1677 : Ref sig .tc := ⟨.hbm, 2285, rfl⟩
abbrev main_v1678 : Ref sig .tc := ⟨.hbm, 2286, rfl⟩
abbrev main_v1679 : Ref sig .tc := ⟨.hbm, 2287, rfl⟩
abbrev main_v1680 : Ref sig .tc := ⟨.hbm, 2288, rfl⟩
abbrev main_v1681 : Ref sig .tc := ⟨.hbm, 2289, rfl⟩
abbrev main_v1682 : Ref sig .tc := ⟨.hbm, 2290, rfl⟩
abbrev main_cst_285 : Ref sig .tc := ⟨.hbm, 2291, rfl⟩
abbrev main_v1683 : Ref sig .tc := ⟨.hbm, 2292, rfl⟩
abbrev main_v1684 : Ref sig .tc := ⟨.hbm, 2293, rfl⟩
abbrev main_cst_286 : Ref sig .tc := ⟨.hbm, 2294, rfl⟩
abbrev main_v1685 : Ref sig .tc := ⟨.hbm, 2295, rfl⟩
abbrev main_v1686 : Ref sig .tc := ⟨.hbm, 2296, rfl⟩
abbrev main_c_287 : Ref sig .tc := ⟨.hbm, 2297, rfl⟩
abbrev main_call26_cst : Ref sig .tc := ⟨.hbm, 2298, rfl⟩
abbrev main_call26_v0 : Ref sig .tc := ⟨.hbm, 2299, rfl⟩
abbrev main_call26_v1 : Ref sig .tc := ⟨.hbm, 2300, rfl⟩
abbrev main_call26_cst_0 : Ref sig .tc := ⟨.hbm, 2301, rfl⟩
abbrev main_call26_v2 : Ref sig .tc := ⟨.hbm, 2302, rfl⟩
abbrev main_call26_v3 : Ref sig .tc := ⟨.hbm, 2303, rfl⟩
abbrev main_call26_v4 : Ref sig .tc := ⟨.hbm, 2304, rfl⟩
abbrev main_call26_v5 : Ref sig .tc := ⟨.hbm, 2305, rfl⟩
abbrev main_call26_v6 : Ref sig .tc := ⟨.hbm, 2306, rfl⟩
abbrev main_call26_v7 : Ref sig .tc := ⟨.hbm, 2307, rfl⟩
abbrev main_call26_cst_1 : Ref sig .tc := ⟨.hbm, 2308, rfl⟩
abbrev main_call26_v8 : Ref sig .tc := ⟨.hbm, 2309, rfl⟩
abbrev main_call26_cst_2 : Ref sig .tc := ⟨.hbm, 2310, rfl⟩
abbrev main_call26_v9 : Ref sig .tc := ⟨.hbm, 2311, rfl⟩
abbrev main_call26_v10 : Ref sig .tc := ⟨.hbm, 2312, rfl⟩
abbrev main_call26_v11 : Ref sig .tc := ⟨.hbm, 2313, rfl⟩
abbrev main_call26_v12 : Ref sig .tc := ⟨.hbm, 2314, rfl⟩
abbrev main_call26_cst_3 : Ref sig .tc := ⟨.hbm, 2315, rfl⟩
abbrev main_call26_v13 : Ref sig .tc := ⟨.hbm, 2316, rfl⟩
abbrev main_call26_cst_4 : Ref sig .tc := ⟨.hbm, 2317, rfl⟩
abbrev main_call26_call0_v0 : Ref sig .tc := ⟨.hbm, 2318, rfl⟩
abbrev main_call26_call0_v1 : Ref sig .tc := ⟨.hbm, 2319, rfl⟩
abbrev main_v1687 : Ref sig .tc := ⟨.hbm, 2320, rfl⟩
abbrev main_v1688 : Ref sig .tc := ⟨.hbm, 2321, rfl⟩
abbrev main_v1689 : Ref sig .tc := ⟨.hbm, 2322, rfl⟩
abbrev main_cst_288 : Ref sig .tc := ⟨.hbm, 2323, rfl⟩
abbrev main_v1690 : Ref sig .tc := ⟨.hbm, 2324, rfl⟩
abbrev main_v1691 : Ref sig .tc := ⟨.hbm, 2325, rfl⟩
abbrev main_v1692 : Ref sig .tc := ⟨.hbm, 2326, rfl⟩
abbrev main_v1693 : Ref sig .tc := ⟨.hbm, 2327, rfl⟩
abbrev main_v1694 : Ref sig .tc := ⟨.hbm, 2328, rfl⟩
abbrev main_v1695 : Ref sig .tc := ⟨.hbm, 2329, rfl⟩
abbrev main_v1696 : Ref sig .tc := ⟨.hbm, 2330, rfl⟩
abbrev main_v1697 : Ref sig .tc := ⟨.hbm, 2331, rfl⟩
abbrev main_v1698 : Ref sig .tc := ⟨.hbm, 2332, rfl⟩
abbrev main_v1699 : Ref sig .tc := ⟨.hbm, 2333, rfl⟩
abbrev main_v1700 : Ref sig .tc := ⟨.hbm, 2334, rfl⟩
abbrev main_v1701 : Ref sig .tc := ⟨.hbm, 2335, rfl⟩
abbrev main_v1702 : Ref sig .tc := ⟨.hbm, 2336, rfl⟩
abbrev main_v1703 : Ref sig .tc := ⟨.hbm, 2337, rfl⟩
abbrev main_v1704 : Ref sig .tc := ⟨.hbm, 2338, rfl⟩
abbrev main_call27_cst : Ref sig .tc := ⟨.hbm, 2339, rfl⟩
abbrev main_call27_v0 : Ref sig .tc := ⟨.hbm, 2340, rfl⟩
abbrev main_v1705 : Ref sig .tc := ⟨.hbm, 2341, rfl⟩
abbrev main_v1706 : Ref sig .tc := ⟨.hbm, 2342, rfl⟩
abbrev main_v1707 : Ref sig .tc := ⟨.hbm, 2343, rfl⟩
abbrev main_v1708 : Ref sig .tc := ⟨.hbm, 2344, rfl⟩
abbrev main_v1709 : Ref sig .tc := ⟨.hbm, 2345, rfl⟩
abbrev main_c_289 : Ref sig .tc := ⟨.hbm, 2346, rfl⟩
abbrev main_v1710 : Ref sig .tc := ⟨.hbm, 2347, rfl⟩
abbrev main_v1711 : Ref sig .tc := ⟨.hbm, 2348, rfl⟩
abbrev main_c_290 : Ref sig .tc := ⟨.hbm, 2349, rfl⟩
abbrev main_v1712 : Ref sig .tc := ⟨.hbm, 2350, rfl⟩
abbrev main_v1713 : Ref sig .tc := ⟨.hbm, 2351, rfl⟩
abbrev main_v1714 : Ref sig .tc := ⟨.hbm, 2352, rfl⟩
abbrev main_v1715 : Ref sig .tc := ⟨.hbm, 2353, rfl⟩
abbrev main_v1716 : Ref sig .tc := ⟨.hbm, 2354, rfl⟩
abbrev main_cst_291 : Ref sig .tc := ⟨.hbm, 2355, rfl⟩
abbrev main_v1717 : Ref sig .tc := ⟨.hbm, 2356, rfl⟩
abbrev main_v1718 : Ref sig .tc := ⟨.hbm, 2357, rfl⟩
abbrev main_cst_292 : Ref sig .tc := ⟨.hbm, 2358, rfl⟩
abbrev main_v1719 : Ref sig .tc := ⟨.hbm, 2359, rfl⟩
abbrev main_v1720 : Ref sig .tc := ⟨.hbm, 2360, rfl⟩
abbrev main_c_293 : Ref sig .tc := ⟨.hbm, 2361, rfl⟩
abbrev main_call28_cst : Ref sig .tc := ⟨.hbm, 2362, rfl⟩
abbrev main_call28_v0 : Ref sig .tc := ⟨.hbm, 2363, rfl⟩
abbrev main_call28_v1 : Ref sig .tc := ⟨.hbm, 2364, rfl⟩
abbrev main_call28_cst_0 : Ref sig .tc := ⟨.hbm, 2365, rfl⟩
abbrev main_call28_v2 : Ref sig .tc := ⟨.hbm, 2366, rfl⟩
abbrev main_call28_v3 : Ref sig .tc := ⟨.hbm, 2367, rfl⟩
abbrev main_call28_v4 : Ref sig .tc := ⟨.hbm, 2368, rfl⟩
abbrev main_call28_v5 : Ref sig .tc := ⟨.hbm, 2369, rfl⟩
abbrev main_call28_v6 : Ref sig .tc := ⟨.hbm, 2370, rfl⟩
abbrev main_call28_v7 : Ref sig .tc := ⟨.hbm, 2371, rfl⟩
abbrev main_call28_cst_1 : Ref sig .tc := ⟨.hbm, 2372, rfl⟩
abbrev main_call28_v8 : Ref sig .tc := ⟨.hbm, 2373, rfl⟩
abbrev main_call28_cst_2 : Ref sig .tc := ⟨.hbm, 2374, rfl⟩
abbrev main_call28_v9 : Ref sig .tc := ⟨.hbm, 2375, rfl⟩
abbrev main_call28_v10 : Ref sig .tc := ⟨.hbm, 2376, rfl⟩
abbrev main_call28_v11 : Ref sig .tc := ⟨.hbm, 2377, rfl⟩
abbrev main_call28_v12 : Ref sig .tc := ⟨.hbm, 2378, rfl⟩
abbrev main_call28_cst_3 : Ref sig .tc := ⟨.hbm, 2379, rfl⟩
abbrev main_call28_v13 : Ref sig .tc := ⟨.hbm, 2380, rfl⟩
abbrev main_call28_cst_4 : Ref sig .tc := ⟨.hbm, 2381, rfl⟩
abbrev main_call28_call0_v0 : Ref sig .tc := ⟨.hbm, 2382, rfl⟩
abbrev main_call28_call0_v1 : Ref sig .tc := ⟨.hbm, 2383, rfl⟩
abbrev main_v1721 : Ref sig .tc := ⟨.hbm, 2384, rfl⟩
abbrev main_v1722 : Ref sig .tc := ⟨.hbm, 2385, rfl⟩
abbrev main_v1723 : Ref sig .tc := ⟨.hbm, 2386, rfl⟩
abbrev main_cst_294 : Ref sig .tc := ⟨.hbm, 2387, rfl⟩
abbrev main_v1724 : Ref sig .tc := ⟨.hbm, 2388, rfl⟩
abbrev main_v1725 : Ref sig .tc := ⟨.hbm, 2389, rfl⟩
abbrev main_v1726 : Ref sig .tc := ⟨.hbm, 2390, rfl⟩
abbrev main_v1727 : Ref sig .tc := ⟨.hbm, 2391, rfl⟩
abbrev main_v1728 : Ref sig .tc := ⟨.hbm, 2392, rfl⟩
abbrev main_v1729 : Ref sig .tc := ⟨.hbm, 2393, rfl⟩
abbrev main_v1730 : Ref sig .tc := ⟨.hbm, 2394, rfl⟩
abbrev main_v1731 : Ref sig .tc := ⟨.hbm, 2395, rfl⟩
abbrev main_v1732 : Ref sig .tc := ⟨.hbm, 2396, rfl⟩
abbrev main_v1733 : Ref sig .tc := ⟨.hbm, 2397, rfl⟩
abbrev main_v1734 : Ref sig .tc := ⟨.hbm, 2398, rfl⟩
abbrev main_v1735 : Ref sig .tc := ⟨.hbm, 2399, rfl⟩
abbrev main_v1736 : Ref sig .tc := ⟨.hbm, 2400, rfl⟩
abbrev main_v1737 : Ref sig .tc := ⟨.hbm, 2401, rfl⟩
abbrev main_v1738 : Ref sig .tc := ⟨.hbm, 2402, rfl⟩
abbrev main_call29_cst : Ref sig .tc := ⟨.hbm, 2403, rfl⟩
abbrev main_call29_v0 : Ref sig .tc := ⟨.hbm, 2404, rfl⟩
abbrev main_v1739 : Ref sig .tc := ⟨.hbm, 2405, rfl⟩
abbrev main_v1740 : Ref sig .tc := ⟨.hbm, 2406, rfl⟩
abbrev main_v1741 : Ref sig .tc := ⟨.hbm, 2407, rfl⟩
abbrev main_cst_295 : Ref sig .tc := ⟨.hbm, 2408, rfl⟩
abbrev main_v1742 : Ref sig .tc := ⟨.hbm, 2409, rfl⟩
abbrev main_v1743 : Ref sig .tc := ⟨.hbm, 2410, rfl⟩
abbrev main_cst_296 : Ref sig .tc := ⟨.hbm, 2411, rfl⟩
abbrev main_v1744 : Ref sig .tc := ⟨.hbm, 2412, rfl⟩
abbrev main_v1745 : Ref sig .tc := ⟨.hbm, 2413, rfl⟩
abbrev main_c_297 : Ref sig .tc := ⟨.hbm, 2414, rfl⟩
abbrev main_call30_cst : Ref sig .tc := ⟨.hbm, 2415, rfl⟩
abbrev main_call30_v0 : Ref sig .tc := ⟨.hbm, 2416, rfl⟩
abbrev main_call30_v1 : Ref sig .tc := ⟨.hbm, 2417, rfl⟩
abbrev main_call30_cst_0 : Ref sig .tc := ⟨.hbm, 2418, rfl⟩
abbrev main_call30_v2 : Ref sig .tc := ⟨.hbm, 2419, rfl⟩
abbrev main_call30_v3 : Ref sig .tc := ⟨.hbm, 2420, rfl⟩
abbrev main_call30_v4 : Ref sig .tc := ⟨.hbm, 2421, rfl⟩
abbrev main_call30_v5 : Ref sig .tc := ⟨.hbm, 2422, rfl⟩
abbrev main_call30_v6 : Ref sig .tc := ⟨.hbm, 2423, rfl⟩
abbrev main_call30_v7 : Ref sig .tc := ⟨.hbm, 2424, rfl⟩
abbrev main_call30_cst_1 : Ref sig .tc := ⟨.hbm, 2425, rfl⟩
abbrev main_call30_v8 : Ref sig .tc := ⟨.hbm, 2426, rfl⟩
abbrev main_call30_cst_2 : Ref sig .tc := ⟨.hbm, 2427, rfl⟩
abbrev main_call30_v9 : Ref sig .tc := ⟨.hbm, 2428, rfl⟩
abbrev main_call30_v10 : Ref sig .tc := ⟨.hbm, 2429, rfl⟩
abbrev main_call30_v11 : Ref sig .tc := ⟨.hbm, 2430, rfl⟩
abbrev main_call30_v12 : Ref sig .tc := ⟨.hbm, 2431, rfl⟩
abbrev main_call30_cst_3 : Ref sig .tc := ⟨.hbm, 2432, rfl⟩
abbrev main_call30_v13 : Ref sig .tc := ⟨.hbm, 2433, rfl⟩
abbrev main_call30_cst_4 : Ref sig .tc := ⟨.hbm, 2434, rfl⟩
abbrev main_call30_call0_v0 : Ref sig .tc := ⟨.hbm, 2435, rfl⟩
abbrev main_call30_call0_v1 : Ref sig .tc := ⟨.hbm, 2436, rfl⟩
abbrev main_v1746 : Ref sig .tc := ⟨.hbm, 2437, rfl⟩
abbrev main_v1747 : Ref sig .tc := ⟨.hbm, 2438, rfl⟩
abbrev main_v1748 : Ref sig .tc := ⟨.hbm, 2439, rfl⟩
abbrev main_cst_298 : Ref sig .tc := ⟨.hbm, 2440, rfl⟩
abbrev main_v1749 : Ref sig .tc := ⟨.hbm, 2441, rfl⟩
abbrev main_v1750 : Ref sig .tc := ⟨.hbm, 2442, rfl⟩
abbrev main_v1751 : Ref sig .tc := ⟨.hbm, 2443, rfl⟩
abbrev main_v1752 : Ref sig .tc := ⟨.hbm, 2444, rfl⟩
abbrev main_v1753 : Ref sig .tc := ⟨.hbm, 2445, rfl⟩
abbrev main_v1754 : Ref sig .tc := ⟨.hbm, 2446, rfl⟩
abbrev main_v1755 : Ref sig .tc := ⟨.hbm, 2447, rfl⟩
abbrev main_v1756 : Ref sig .tc := ⟨.hbm, 2448, rfl⟩
abbrev main_v1757 : Ref sig .tc := ⟨.hbm, 2449, rfl⟩
abbrev main_v1758 : Ref sig .tc := ⟨.hbm, 2450, rfl⟩
abbrev main_v1759 : Ref sig .tc := ⟨.hbm, 2451, rfl⟩
abbrev main_v1760 : Ref sig .tc := ⟨.hbm, 2452, rfl⟩
abbrev main_v1761 : Ref sig .tc := ⟨.hbm, 2453, rfl⟩
abbrev main_v1762 : Ref sig .tc := ⟨.hbm, 2454, rfl⟩
abbrev main_v1763 : Ref sig .tc := ⟨.hbm, 2455, rfl⟩
abbrev main_call31_cst : Ref sig .tc := ⟨.hbm, 2456, rfl⟩
abbrev main_call31_v0 : Ref sig .tc := ⟨.hbm, 2457, rfl⟩
abbrev main_v1764 : Ref sig .tc := ⟨.hbm, 2458, rfl⟩
abbrev main_v1765 : Ref sig .tc := ⟨.hbm, 2459, rfl⟩
abbrev main_v1766 : Ref sig .tc := ⟨.hbm, 2460, rfl⟩
abbrev main_cst_299 : Ref sig .tc := ⟨.hbm, 2461, rfl⟩
abbrev main_v1767 : Ref sig .tc := ⟨.hbm, 2462, rfl⟩
abbrev main_v1768 : Ref sig .tc := ⟨.hbm, 2463, rfl⟩
abbrev main_cst_300 : Ref sig .tc := ⟨.hbm, 2464, rfl⟩
abbrev main_v1769 : Ref sig .tc := ⟨.hbm, 2465, rfl⟩
abbrev main_v1770 : Ref sig .tc := ⟨.hbm, 2466, rfl⟩
abbrev main_c_301 : Ref sig .tc := ⟨.hbm, 2467, rfl⟩
abbrev main_call32_cst : Ref sig .tc := ⟨.hbm, 2468, rfl⟩
abbrev main_call32_v0 : Ref sig .tc := ⟨.hbm, 2469, rfl⟩
abbrev main_call32_v1 : Ref sig .tc := ⟨.hbm, 2470, rfl⟩
abbrev main_call32_cst_0 : Ref sig .tc := ⟨.hbm, 2471, rfl⟩
abbrev main_call32_v2 : Ref sig .tc := ⟨.hbm, 2472, rfl⟩
abbrev main_call32_v3 : Ref sig .tc := ⟨.hbm, 2473, rfl⟩
abbrev main_call32_v4 : Ref sig .tc := ⟨.hbm, 2474, rfl⟩
abbrev main_call32_v5 : Ref sig .tc := ⟨.hbm, 2475, rfl⟩
abbrev main_call32_v6 : Ref sig .tc := ⟨.hbm, 2476, rfl⟩
abbrev main_call32_v7 : Ref sig .tc := ⟨.hbm, 2477, rfl⟩
abbrev main_call32_cst_1 : Ref sig .tc := ⟨.hbm, 2478, rfl⟩
abbrev main_call32_v8 : Ref sig .tc := ⟨.hbm, 2479, rfl⟩
abbrev main_call32_cst_2 : Ref sig .tc := ⟨.hbm, 2480, rfl⟩
abbrev main_call32_v9 : Ref sig .tc := ⟨.hbm, 2481, rfl⟩
abbrev main_call32_v10 : Ref sig .tc := ⟨.hbm, 2482, rfl⟩
abbrev main_call32_v11 : Ref sig .tc := ⟨.hbm, 2483, rfl⟩
abbrev main_call32_v12 : Ref sig .tc := ⟨.hbm, 2484, rfl⟩
abbrev main_call32_cst_3 : Ref sig .tc := ⟨.hbm, 2485, rfl⟩
abbrev main_call32_v13 : Ref sig .tc := ⟨.hbm, 2486, rfl⟩
abbrev main_call32_cst_4 : Ref sig .tc := ⟨.hbm, 2487, rfl⟩
abbrev main_call32_call0_v0 : Ref sig .tc := ⟨.hbm, 2488, rfl⟩
abbrev main_call32_call0_v1 : Ref sig .tc := ⟨.hbm, 2489, rfl⟩
abbrev main_v1771 : Ref sig .tc := ⟨.hbm, 2490, rfl⟩
abbrev main_v1772 : Ref sig .tc := ⟨.hbm, 2491, rfl⟩
abbrev main_v1773 : Ref sig .tc := ⟨.hbm, 2492, rfl⟩
abbrev main_cst_302 : Ref sig .tc := ⟨.hbm, 2493, rfl⟩
abbrev main_v1774 : Ref sig .tc := ⟨.hbm, 2494, rfl⟩
abbrev main_v1775 : Ref sig .tc := ⟨.hbm, 2495, rfl⟩
abbrev main_v1776 : Ref sig .tc := ⟨.hbm, 2496, rfl⟩
abbrev main_v1777 : Ref sig .tc := ⟨.hbm, 2497, rfl⟩
abbrev main_v1778 : Ref sig .tc := ⟨.hbm, 2498, rfl⟩
abbrev main_v1779 : Ref sig .tc := ⟨.hbm, 2499, rfl⟩
abbrev main_v1780 : Ref sig .tc := ⟨.hbm, 2500, rfl⟩
abbrev main_v1781 : Ref sig .tc := ⟨.hbm, 2501, rfl⟩
abbrev main_v1782 : Ref sig .tc := ⟨.hbm, 2502, rfl⟩
abbrev main_v1783 : Ref sig .tc := ⟨.hbm, 2503, rfl⟩
abbrev main_v1784 : Ref sig .tc := ⟨.hbm, 2504, rfl⟩
abbrev main_v1785 : Ref sig .tc := ⟨.hbm, 2505, rfl⟩
abbrev main_v1786 : Ref sig .tc := ⟨.hbm, 2506, rfl⟩
abbrev main_v1787 : Ref sig .tc := ⟨.hbm, 2507, rfl⟩
abbrev main_v1788 : Ref sig .tc := ⟨.hbm, 2508, rfl⟩
abbrev main_v1789 : Ref sig .tc := ⟨.hbm, 2509, rfl⟩
abbrev main_call33_cst : Ref sig .tc := ⟨.hbm, 2510, rfl⟩
abbrev main_call33_v0 : Ref sig .tc := ⟨.hbm, 2511, rfl⟩
abbrev main_v1790 : Ref sig .tc := ⟨.hbm, 2512, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128x4_S1x128x4_0_0_0 : S2x128x4.Slices ![0, 0, 0] S1x128x4
  shapeCasts_S1x128x4_S128x4 : S1x128x4.ShapeCasts S128x4
  slices_S2x128_S1x128_0_0 : S2x128.Slices ![0, 0] S1x128
  shapeCasts_S1x128_S128 : S1x128.ShapeCasts S128
  slices_S2x128x256_S1x128x256_0_0_0 : S2x128x256.Slices ![0, 0, 0] S1x128x256
  shapeCasts_S1x128x256_S128x256 : S1x128x256.ShapeCasts S128x256
  slices_S2x2x128_S1x2x128_0_0_0 : S2x2x128.Slices ![0, 0, 0] S1x2x128
  shapeCasts_S1x2x128_S2x128 : S1x2x128.ShapeCasts S2x128
  bcast_S_S150000 : S_.BroadcastsInDim S150000 (![] : Fin 0 → Fin S150000.rank)
  bcast_S150000_S150000x1_0 : S150000.BroadcastsInDim S150000x1 (![0] : Fin 1 → Fin S150000x1.rank)
  transposes_S128x4_S4x128_1_0 : S128x4.Transposes [1, 0] S4x128
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  concatenates_S150000x128_S150000x128_S150000x256_d1 : Shape.Concatenates [S150000x128, S150000x128] S150000x256 1
  transposes_S128x256_S256x128_1_0 : S128x256.Transposes [1, 0] S256x128
  reducesTo_S150000x128_S150000_d1 : S150000x128.ReducesTo [1] S150000
  h_S_ : 0 < S_.numel
  bcast_S_S150000x1 : S_.BroadcastsInDim S150000x1 (![] : Fin 0 → Fin S150000x1.rank)
  bcast_S150000x1_S150000x128_0_1 : S150000x1.BroadcastsInDim S150000x128 (![0, 1] : Fin 2 → Fin S150000x128.rank)
  slices_S2x128_S1x128_1_0 : S2x128.Slices ![1, 0] S1x128
  transposes_S128x128_S128x128_1_0 : S128x128.Transposes [1, 0] S128x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  slices_S12x50000_S1x50000_0_0 : S12x50000.Slices ![0, 0] S1x50000
  shapeCasts_S1x50000_S50000 : S1x50000.ShapeCasts S50000
  bcast_S_S50000 : S_.BroadcastsInDim S50000 (![] : Fin 0 → Fin S50000.rank)
  slices_S4x12x128x128_S1x1x128x128_0_0_0_0 : S4x12x128x128.Slices ![0, 0, 0, 0] S1x1x128x128
  shapeCasts_S1x1x128x128_S128x128 : S1x1x128x128.ShapeCasts S128x128
  slices_S12x50000_S1x50000_1_0 : S12x50000.Slices ![1, 0] S1x50000
  slices_S4x12x128x128_S1x1x128x128_0_1_0_0 : S4x12x128x128.Slices ![0, 1, 0, 0] S1x1x128x128
  slices_S12x50000_S1x50000_2_0 : S12x50000.Slices ![2, 0] S1x50000
  slices_S4x12x128x128_S1x1x128x128_0_2_0_0 : S4x12x128x128.Slices ![0, 2, 0, 0] S1x1x128x128
  slices_S12x50000_S1x50000_3_0 : S12x50000.Slices ![3, 0] S1x50000
  slices_S4x12x128x128_S1x1x128x128_0_3_0_0 : S4x12x128x128.Slices ![0, 3, 0, 0] S1x1x128x128
  slices_S12x50000_S1x50000_4_0 : S12x50000.Slices ![4, 0] S1x50000
  slices_S4x12x128x128_S1x1x128x128_0_4_0_0 : S4x12x128x128.Slices ![0, 4, 0, 0] S1x1x128x128
  slices_S12x50000_S1x50000_5_0 : S12x50000.Slices ![5, 0] S1x50000
  slices_S4x12x128x128_S1x1x128x128_0_5_0_0 : S4x12x128x128.Slices ![0, 5, 0, 0] S1x1x128x128
  slices_S12x50000_S1x50000_6_0 : S12x50000.Slices ![6, 0] S1x50000
  slices_S4x12x128x128_S1x1x128x128_0_6_0_0 : S4x12x128x128.Slices ![0, 6, 0, 0] S1x1x128x128
  slices_S12x50000_S1x50000_7_0 : S12x50000.Slices ![7, 0] S1x50000
  slices_S4x12x128x128_S1x1x128x128_0_7_0_0 : S4x12x128x128.Slices ![0, 7, 0, 0] S1x1x128x128
  slices_S12x50000_S1x50000_8_0 : S12x50000.Slices ![8, 0] S1x50000
  slices_S4x12x128x128_S1x1x128x128_0_8_0_0 : S4x12x128x128.Slices ![0, 8, 0, 0] S1x1x128x128
  slices_S12x50000_S1x50000_9_0 : S12x50000.Slices ![9, 0] S1x50000
  slices_S4x12x128x128_S1x1x128x128_0_9_0_0 : S4x12x128x128.Slices ![0, 9, 0, 0] S1x1x128x128
  slices_S12x50000_S1x50000_10_0 : S12x50000.Slices ![10, 0] S1x50000
  slices_S4x12x128x128_S1x1x128x128_0_10_0_0 : S4x12x128x128.Slices ![0, 10, 0, 0] S1x1x128x128
  slices_S12x50000_S1x50000_11_0 : S12x50000.Slices ![11, 0] S1x50000
  slices_S4x12x128x128_S1x1x128x128_0_11_0_0 : S4x12x128x128.Slices ![0, 11, 0, 0] S1x1x128x128
  slices_S2x5000_S1x5000_0_0 : S2x5000.Slices ![0, 0] S1x5000
  shapeCasts_S1x5000_S5000 : S1x5000.ShapeCasts S5000
  bcast_S_S5000 : S_.BroadcastsInDim S5000 (![] : Fin 0 → Fin S5000.rank)
  bcast_S5000_S5000x1_0 : S5000.BroadcastsInDim S5000x1 (![0] : Fin 1 → Fin S5000x1.rank)
  slices_S2x5000_S1x5000_1_0 : S2x5000.Slices ![1, 0] S1x5000
  slices_S4x2x128_S1x2x128_0_0_0 : S4x2x128.Slices ![0, 0, 0] S1x2x128
  slices_S4x128x128_S1x128x128_1_0_0 : S4x128x128.Slices ![1, 0, 0] S1x128x128
  slices_S4x12x128x128_S1x1x128x128_1_0_0_0 : S4x12x128x128.Slices ![1, 0, 0, 0] S1x1x128x128
  slices_S4x12x128x128_S1x1x128x128_1_1_0_0 : S4x12x128x128.Slices ![1, 1, 0, 0] S1x1x128x128
  slices_S4x12x128x128_S1x1x128x128_1_2_0_0 : S4x12x128x128.Slices ![1, 2, 0, 0] S1x1x128x128
  slices_S4x12x128x128_S1x1x128x128_1_3_0_0 : S4x12x128x128.Slices ![1, 3, 0, 0] S1x1x128x128
  slices_S4x12x128x128_S1x1x128x128_1_4_0_0 : S4x12x128x128.Slices ![1, 4, 0, 0] S1x1x128x128
  slices_S4x12x128x128_S1x1x128x128_1_5_0_0 : S4x12x128x128.Slices ![1, 5, 0, 0] S1x1x128x128
  slices_S4x12x128x128_S1x1x128x128_1_6_0_0 : S4x12x128x128.Slices ![1, 6, 0, 0] S1x1x128x128
  slices_S4x12x128x128_S1x1x128x128_1_7_0_0 : S4x12x128x128.Slices ![1, 7, 0, 0] S1x1x128x128
  slices_S4x12x128x128_S1x1x128x128_1_8_0_0 : S4x12x128x128.Slices ![1, 8, 0, 0] S1x1x128x128
  slices_S4x12x128x128_S1x1x128x128_1_9_0_0 : S4x12x128x128.Slices ![1, 9, 0, 0] S1x1x128x128
  slices_S4x12x128x128_S1x1x128x128_1_10_0_0 : S4x12x128x128.Slices ![1, 10, 0, 0] S1x1x128x128
  slices_S4x12x128x128_S1x1x128x128_1_11_0_0 : S4x12x128x128.Slices ![1, 11, 0, 0] S1x1x128x128
  slices_S4x2x128_S1x2x128_1_0_0 : S4x2x128.Slices ![1, 0, 0] S1x2x128
  slices_S4x128x128_S1x128x128_2_0_0 : S4x128x128.Slices ![2, 0, 0] S1x128x128
  slices_S4x12x128x128_S1x1x128x128_2_0_0_0 : S4x12x128x128.Slices ![2, 0, 0, 0] S1x1x128x128
  slices_S4x12x128x128_S1x1x128x128_2_1_0_0 : S4x12x128x128.Slices ![2, 1, 0, 0] S1x1x128x128
  slices_S4x12x128x128_S1x1x128x128_2_2_0_0 : S4x12x128x128.Slices ![2, 2, 0, 0] S1x1x128x128
  slices_S4x12x128x128_S1x1x128x128_2_3_0_0 : S4x12x128x128.Slices ![2, 3, 0, 0] S1x1x128x128
  slices_S4x12x128x128_S1x1x128x128_2_4_0_0 : S4x12x128x128.Slices ![2, 4, 0, 0] S1x1x128x128
  slices_S4x12x128x128_S1x1x128x128_2_5_0_0 : S4x12x128x128.Slices ![2, 5, 0, 0] S1x1x128x128
  slices_S4x12x128x128_S1x1x128x128_2_6_0_0 : S4x12x128x128.Slices ![2, 6, 0, 0] S1x1x128x128
  slices_S4x12x128x128_S1x1x128x128_2_7_0_0 : S4x12x128x128.Slices ![2, 7, 0, 0] S1x1x128x128
  slices_S4x12x128x128_S1x1x128x128_2_8_0_0 : S4x12x128x128.Slices ![2, 8, 0, 0] S1x1x128x128
  slices_S4x12x128x128_S1x1x128x128_2_9_0_0 : S4x12x128x128.Slices ![2, 9, 0, 0] S1x1x128x128
  slices_S4x12x128x128_S1x1x128x128_2_10_0_0 : S4x12x128x128.Slices ![2, 10, 0, 0] S1x1x128x128
  slices_S4x12x128x128_S1x1x128x128_2_11_0_0 : S4x12x128x128.Slices ![2, 11, 0, 0] S1x1x128x128
  slices_S4x2x128_S1x2x128_2_0_0 : S4x2x128.Slices ![2, 0, 0] S1x2x128
  slices_S4x128x128_S1x128x128_3_0_0 : S4x128x128.Slices ![3, 0, 0] S1x128x128
  slices_S4x12x128x128_S1x1x128x128_3_0_0_0 : S4x12x128x128.Slices ![3, 0, 0, 0] S1x1x128x128
  slices_S4x12x128x128_S1x1x128x128_3_1_0_0 : S4x12x128x128.Slices ![3, 1, 0, 0] S1x1x128x128
  slices_S4x12x128x128_S1x1x128x128_3_2_0_0 : S4x12x128x128.Slices ![3, 2, 0, 0] S1x1x128x128
  slices_S4x12x128x128_S1x1x128x128_3_3_0_0 : S4x12x128x128.Slices ![3, 3, 0, 0] S1x1x128x128
  slices_S4x12x128x128_S1x1x128x128_3_4_0_0 : S4x12x128x128.Slices ![3, 4, 0, 0] S1x1x128x128
  slices_S4x12x128x128_S1x1x128x128_3_5_0_0 : S4x12x128x128.Slices ![3, 5, 0, 0] S1x1x128x128
  slices_S4x12x128x128_S1x1x128x128_3_6_0_0 : S4x12x128x128.Slices ![3, 6, 0, 0] S1x1x128x128
  slices_S4x12x128x128_S1x1x128x128_3_7_0_0 : S4x12x128x128.Slices ![3, 7, 0, 0] S1x1x128x128
  slices_S4x12x128x128_S1x1x128x128_3_8_0_0 : S4x12x128x128.Slices ![3, 8, 0, 0] S1x1x128x128
  slices_S4x12x128x128_S1x1x128x128_3_9_0_0 : S4x12x128x128.Slices ![3, 9, 0, 0] S1x1x128x128
  slices_S4x12x128x128_S1x1x128x128_3_10_0_0 : S4x12x128x128.Slices ![3, 10, 0, 0] S1x1x128x128
  slices_S4x12x128x128_S1x1x128x128_3_11_0_0 : S4x12x128x128.Slices ![3, 11, 0, 0] S1x1x128x128
  slices_S4x2x128_S1x2x128_3_0_0 : S4x2x128.Slices ![3, 0, 0] S1x2x128
  slices_S2x128x128_S1x128x128_1_0_0 : S2x128x128.Slices ![1, 0, 0] S1x128x128
  slices_S2x128x4_S1x128x4_1_0_0 : S2x128x4.Slices ![1, 0, 0] S1x128x4
  slices_S2x128x256_S1x128x256_1_0_0 : S2x128x256.Slices ![1, 0, 0] S1x128x256
  slices_S2x2x128_S1x2x128_1_0_0 : S2x2x128.Slices ![1, 0, 0] S1x2x128
  reducesTo_S12000x128_S12000_d1 : S12000x128.ReducesTo [1] S12000
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x128_0_1 : S12000x1.BroadcastsInDim S12000x128 (![0, 1] : Fin 2 → Fin S12000x128.rank)
  bcast_S1x128_S12000x128_0_1 : S1x128.BroadcastsInDim S12000x128 (![0, 1] : Fin 2 → Fin S12000x128.rank)
  bcast_S_S12000x128 : S_.BroadcastsInDim S12000x128 (![] : Fin 0 → Fin S12000x128.rank)
  gather_S12000x4_S150000x1_S150000x4_1_0_n_n_0_1_14_wf : GatherDims.WF S12000x4 S150000x1 S150000x4 [1] [0] [] [0] [] 1 ![1, 4]
  gather_S50000x4_S150000x1_S150000x4_1_0_n_n_0_1_14_wf : GatherDims.WF S50000x4 S150000x1 S150000x4 [1] [0] [] [0] [] 1 ![1, 4]
  dot_S150000x4_S4x128_S150000x128_1_0_0_1_n_n_wf : DotDims.WF S150000x4 S4x128 S150000x128 [1] [0] [0] [1] [] []
  gather_S12000x128_S150000x1_S150000x128_1_0_n_n_0_1_1128_wf : GatherDims.WF S12000x128 S150000x1 S150000x128 [1] [0] [] [0] [] 1 ![1, 128]
  dot_S150000x256_S256x128_S150000x128_1_0_0_1_n_n_wf : DotDims.WF S150000x256 S256x128 S150000x128 [1] [0] [0] [1] [] []
  dot_S150000x128_S128x128_S150000x128_1_0_0_1_n_n_wf : DotDims.WF S150000x128 S128x128 S150000x128 [1] [0] [0] [1] [] []
  dot_S50000x128_S128x128_S50000x128_1_0_0_1_n_n_wf : DotDims.WF S50000x128 S128x128 S50000x128 [1] [0] [0] [1] [] []
  scatter_S50000x128_S150000x1_S150000x128_1_0_0_1_wf : ScatterDims.WF S50000x128 S150000x1 S150000x128 [1] [0] [0] 1
  gather_S50000x128_S50000x1_S50000x128_1_0_n_n_0_1_1128_wf : GatherDims.WF S50000x128 S50000x1 S50000x128 [1] [0] [] [0] [] 1 ![1, 128]
  scatter_S50000x128_S50000x1_S50000x128_1_0_0_1_wf : ScatterDims.WF S50000x128 S50000x1 S50000x128 [1] [0] [0] 1
  gather_S50000x128_S5000x1_S5000x128_1_0_n_n_0_1_1128_wf : GatherDims.WF S50000x128 S5000x1 S5000x128 [1] [0] [] [0] [] 1 ![1, 128]
  dot_S5000x128_S128x128_S5000x128_1_0_0_1_n_n_wf : DotDims.WF S5000x128 S128x128 S5000x128 [1] [0] [0] [1] [] []
  scatter_S50000x128_S5000x1_S5000x128_1_0_0_1_wf : ScatterDims.WF S50000x128 S5000x1 S5000x128 [1] [0] [0] 1
  gather_S50000x128_S150000x1_S150000x128_1_0_n_n_0_1_1128_wf : GatherDims.WF S50000x128 S150000x1 S150000x128 [1] [0] [] [0] [] 1 ![1, 128]
  dot_S12000x128_S128x128_S12000x128_1_0_0_1_n_n_wf : DotDims.WF S12000x128 S128x128 S12000x128 [1] [0] [0] [1] [] []
  scatter_S12000x128_S150000x1_S150000x128_1_0_0_1_wf : ScatterDims.WF S12000x128 S150000x1 S150000x128 [1] [0] [0] 1

variable [Facts₀]

def gather_S12000x4_S150000x1_S150000x4_1_0_n_n_0_1_14 : GatherDims S12000x4 S150000x1 S150000x4 where
  offsetDims := [1]
  collapsedSliceDims := [0]
  operandBatchingDims := []
  startIndicesBatchingDims := []
  startIndexMap := [0]
  indexVectorDim := 1
  sliceSizes := ![1, 4]
  wf := gather_S12000x4_S150000x1_S150000x4_1_0_n_n_0_1_14_wf
def gather_S50000x4_S150000x1_S150000x4_1_0_n_n_0_1_14 : GatherDims S50000x4 S150000x1 S150000x4 where
  offsetDims := [1]
  collapsedSliceDims := [0]
  operandBatchingDims := []
  startIndicesBatchingDims := []
  startIndexMap := [0]
  indexVectorDim := 1
  sliceSizes := ![1, 4]
  wf := gather_S50000x4_S150000x1_S150000x4_1_0_n_n_0_1_14_wf
def dot_S150000x4_S4x128_S150000x128_1_0_0_1_n_n : DotDims S150000x4 S4x128 S150000x128 where
  lhsContracting := [1]
  rhsContracting := [0]
  lhsNonContracting := [0]
  rhsNonContracting := [1]
  lhsBatch := []
  rhsBatch := []
  wf := dot_S150000x4_S4x128_S150000x128_1_0_0_1_n_n_wf
def gather_S12000x128_S150000x1_S150000x128_1_0_n_n_0_1_1128 : GatherDims S12000x128 S150000x1 S150000x128 where
  offsetDims := [1]
  collapsedSliceDims := [0]
  operandBatchingDims := []
  startIndicesBatchingDims := []
  startIndexMap := [0]
  indexVectorDim := 1
  sliceSizes := ![1, 128]
  wf := gather_S12000x128_S150000x1_S150000x128_1_0_n_n_0_1_1128_wf
def dot_S150000x256_S256x128_S150000x128_1_0_0_1_n_n : DotDims S150000x256 S256x128 S150000x128 where
  lhsContracting := [1]
  rhsContracting := [0]
  lhsNonContracting := [0]
  rhsNonContracting := [1]
  lhsBatch := []
  rhsBatch := []
  wf := dot_S150000x256_S256x128_S150000x128_1_0_0_1_n_n_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000x128_S50000x1_S50000x128_1_0_0_1 : ScatterDims S50000x128 S50000x1 S50000x128 where
  updateWindowDims := [1]
  insertedWindowDims := [0]
  scatterDimsToOperandDims := [0]
  indexVectorDim := 1
  wf := scatter_S50000x128_S50000x1_S50000x128_1_0_0_1_wf
def gather_S50000x128_S5000x1_S5000x128_1_0_n_n_0_1_1128 : GatherDims S50000x128 S5000x1 S5000x128 where
  offsetDims := [1]
  collapsedSliceDims := [0]
  operandBatchingDims := []
  startIndicesBatchingDims := []
  startIndexMap := [0]
  indexVectorDim := 1
  sliceSizes := ![1, 128]
  wf := gather_S50000x128_S5000x1_S5000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S5000x1_S5000x128_1_0_0_1 : ScatterDims S50000x128 S5000x1 S5000x128 where
  updateWindowDims := [1]
  insertedWindowDims := [0]
  scatterDimsToOperandDims := [0]
  indexVectorDim := 1
  wf := scatter_S50000x128_S5000x1_S5000x128_1_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def dot_S12000x128_S128x128_S12000x128_1_0_0_1_n_n : DotDims S12000x128 S128x128 S12000x128 where
  lhsContracting := [1]
  rhsContracting := [0]
  lhsNonContracting := [0]
  rhsNonContracting := [1]
  lhsBatch := []
  rhsBatch := []
  wf := dot_S12000x128_S128x128_S12000x128_1_0_0_1_n_n_wf
def scatter_S12000x128_S150000x1_S150000x128_1_0_0_1 : ScatterDims S12000x128 S150000x1 S150000x128 where
  updateWindowDims := [1]
  insertedWindowDims := [0]
  scatterDimsToOperandDims := [0]
  indexVectorDim := 1
  wf := scatter_S12000x128_S150000x1_S150000x128_1_0_0_1_wf

class Facts : Prop extends Facts₀ where

variable [Facts]
-- ==== Proof.KChainKeep.lean ====
/-
  Which buffers each host stretch of @main writes, and, for every buffer read at a later segment than the one that
  wrote it, that it is carried unchanged to where it is read: a host stretch keeps every buffer outside its written
  list, a region keeps every buffer that is not one of its arrays and leaves its input arrays as entered.
-/
import proofs.«413166_j32323923870246_3_alg».proof.Proof.KIFrameW

set_option maxRecDepth 16384

noncomputable section

namespace Cert.KChain

open Cert.KernelIdeal Cert.KernelIdeal.Gen Cert.KernelIdeal.GenP
open Idealize.ShloMosaic Idealize.ShloMosaic.TcCoe

variable {F : FTy → Type} [FloatOps F]

/-! ## What each host stretch writes -/

/-- The references host stretch 0 writes, in order. -/
abbrev host0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_c, main_v22, main_v23, main_c_0, main_v24, main_v25, main_v26, main_v27, main_v28, main_c_1, main_v29, main_v30, main_c_2, main_v31, main_v32, main_v33, main_v34, main_v35, main_v36, main_v37, main_c_3, main_v38, main_v39, main_c_4, main_v40, main_v41, main_v42, main_v43, main_v44, main_v45, main_v46, main_v47, main_v48, main_v49, main_v50, main_v51, main_v52, main_v53]
theorem host0_writes : (hostOps0 : List (HloOp τ sig (Elt F))).Forall fun op => op.writes ⊆ (host0_W.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 1 writes, in order. -/
abbrev host1_W : List (Ref sig .tc) := [main_cst, main_v55, main_v56, main_c_5, main_v57, main_v58, main_c_6, main_v59, main_v60, main_v61, main_v62, main_v63, main_v64, main_v65, main_v66, main_v67, main_v68, main_v69, main_v70, main_v71, main_v72, main_v73, main_v74, main_v75, main_v76, main_v77, main_v78, main_v79, main_v80, main_v81]
theorem host1_writes : (hostOps1 : List (HloOp τ sig (Elt F))).Forall fun op => op.writes ⊆ (host1_W.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 2 writes, in order. -/
abbrev host2_W : List (Ref sig .tc) := [main_v83, main_v84]
theorem host2_writes : (hostOps2 : List (HloOp τ sig (Elt F))).Forall fun op => op.writes ⊆ (host2_W.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 3 writes, in order. -/
abbrev host3_W : List (Ref sig .tc) := [main_c_7, main_v86, main_v87, main_c_8, main_v88, main_v89, main_v90, main_v91, main_v92, main_v93, main_v94]
theorem host3_writes : (hostOps3 : List (HloOp τ sig (Elt F))).Forall fun op => op.writes ⊆ (host3_W.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 4 writes, in order. -/
abbrev host4_W : List (Ref sig .tc) := [main_v96, main_v97, main_v98, main_c_9, main_v99, main_v100, main_c_10, main_v101, main_v102, main_v103, main_v104, main_v105, main_v106, main_v107, main_v108, main_v109, main_v110, main_v111, main_v112, main_c_11, main_v113, main_v114, main_c_12, main_v115, main_v116, main_v117, main_v118, main_v119]
theorem host4_writes : (hostOps4 : List (HloOp τ sig (Elt F))).Forall fun op => op.writes ⊆ (host4_W.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 5 writes, in order. -/
abbrev host5_W : List (Ref sig .tc) := [main_v121, main_v122, main_v123, main_c_13, main_v124, main_v125, main_c_14, main_v126, main_v127, main_v128, main_v129, main_v130, main_v131, main_v132, main_v133, main_v134, main_v135, main_v136, main_v137, main_v138, main_v139, main_v140, main_v141, main_v142, main_v143, main_v144]
theorem host5_writes : (hostOps5 : List (HloOp τ sig (Elt F))).Forall fun op => op.writes ⊆ (host5_W.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 6 writes, in order. -/
abbrev host6_W : List (Ref sig .tc) := [main_v146, main_v147]
theorem host6_writes : (hostOps6 : List (HloOp τ sig (Elt F))).Forall fun op => op.writes ⊆ (host6_W.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 7 writes, in order. -/
abbrev host7_W : List (Ref sig .tc) := [main_c_15, main_v149, main_v150, main_c_16, main_v151, main_v152, main_v153, main_v154, main_v155, main_v156, main_v157]
theorem host7_writes : (hostOps7 : List (HloOp τ sig (Elt F))).Forall fun op => op.writes ⊆ (host7_W.map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 8 writes, in order. -/
abbrev host8_W : List (Ref sig .tc) := [main_v159, main_v160, main_v161, main_c_17, main_v162, main_v163, main_c_18, main_v164, main_v165, main_v166, main_v167, main_v168, main_v169, main_v170, main_v171, main_v172, main_v173, main_v174, main_v175, main_c_19, main_v176, main_v177, main_c_20, main_v178, main_v179, main_v180, main_v181, main_v182]
theorem host8_writes : (hostOps8 : List (HloOp τ sig (Elt F))).Forall fun op => op.writes ⊆ (host8_W.map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 9 writes, in order. -/
abbrev host9_W : List (Ref sig .tc) := [main_v184, main_v185, main_v186, main_c_21, main_v187, main_v188, main_c_22, main_v189, main_v190, main_v191, main_v192, main_v193, main_v194, main_v195, main_v196, main_v197, main_v198, main_v199, main_v200, main_v201, main_v202, main_v203, main_v204, main_v205, main_v206, main_v207]
theorem host9_writes : (hostOps9 : List (HloOp τ sig (Elt F))).Forall fun op => op.writes ⊆ (host9_W.map (Proc.devRef (τ := τ) .tc)).toFinset := by
  simp only [hostOps9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 10 writes, in order. -/
abbrev host10_W : List (Ref sig .tc) := [main_v209, main_v210]
theorem host10_writes : (hostOps10 : List (HloOp τ sig (Elt F))).Forall fun op => op.writes ⊆ (host10_W.map (Proc.devRef (τ := τ) .tc)).toFinset := by
  simp only [hostOps10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 11 writes, in order. -/
abbrev host11_W : List (Ref sig .tc) := [main_c_23, main_v212, main_v213, main_c_24, main_v214, main_v215, main_v216, main_v217, main_v218, main_v219, main_v220]
theorem host11_writes : (hostOps11 : List (HloOp τ sig (Elt F))).Forall fun op => op.writes ⊆ (host11_W.map (Proc.devRef (τ := τ) .tc)).toFinset := by
  simp only [hostOps11, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 12 writes, in order. -/
abbrev host12_W : List (Ref sig .tc) := [main_v222, main_v223, main_v224, main_c_25, main_v225, main_v226, main_c_26, main_v227, main_v228, main_v229, main_v230, main_v231, main_v232, main_v233, main_v234, main_v235, main_v236, main_v237, main_v238, main_c_27, main_v239, main_v240, main_c_28, main_v241, main_v242, main_v243, main_v244, main_v245]
theorem host12_writes : (hostOps12 : List (HloOp τ sig (Elt F))).Forall fun op => op.writes ⊆ (host12_W.map (Proc.devRef (τ := τ) .tc)).toFinset := by
  simp only [hostOps12, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 13 writes, in order. -/
abbrev host13_W : List (Ref sig .tc) := [main_v247, main_v248, main_v249, main_c_29, main_v250, main_v251, main_c_30, main_v252, main_v253, main_v254, main_v255, main_v256, main_v257, main_v258, main_v259, main_v260, main_v261, main_v262, main_v263, main_v264, main_v265, main_v266, main_v267, main_v268, main_v269, main_v270]
theorem host13_writes : (hostOps13 : List (HloOp τ sig (Elt F))).Forall fun op => op.writes ⊆ (host13_W.map (Proc.devRef (τ := τ) .tc)).toFinset := by
  simp only [hostOps13, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 14 writes, in order. -/
abbrev host14_W : List (Ref sig .tc) := [main_v272, main_v273]
theorem host14_writes : (hostOps14 : List (HloOp τ sig (Elt F))).Forall fun op => op.writes ⊆ (host14_W.map (Proc.devRef (τ := τ) .tc)).toFinset := by
  simp only [hostOps14, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 15 writes, in order. -/
abbrev host15_W : List (Ref sig .tc) := [main_c_31, main_v275, main_v276, main_c_32, main_v277, main_v278, main_v279, main_v280, main_v281, main_v282, main_v283]
theorem host15_writes : (hostOps15 : List (HloOp τ sig (Elt F))).Forall fun op => op.writes ⊆ (host15_W.map (Proc.devRef (τ := τ) .tc)).toFinset := by
  simp only [hostOps15, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 16 writes, in order. -/
abbrev host16_W : List (Ref sig .tc) := [main_v285, main_v286, main_v287, main_c_33, main_v288, main_v289, main_c_34, main_v290, main_v291, main_v292, main_v293, main_v294, main_v295, main_v296, main_v297, main_v298, main_v299, main_v300, main_v301, main_c_35, main_v302, main_v303, main_c_36, main_v304, main_v305, main_v306, main_v307, main_v308]
theorem host16_writes : (hostOps16 : List (HloOp τ sig (Elt F))).Forall fun op => op.writes ⊆ (host16_W.map (Proc.devRef (τ := τ) .tc)).toFinset := by
  simp only [hostOps16, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 17 writes, in order. -/
abbrev host17_W : List (Ref sig .tc) := [main_v310, main_v311, main_v312, main_c_37, main_v313, main_v314, main_c_38, main_v315, main_v316, main_v317, main_v318, main_v319, main_v320, main_v321, main_v322, main_v323, main_v324, main_v325, main_v326, main_v327, main_v328, main_v329, main_v330, main_v331, main_v332, main_v333]
theorem host17_writes : (hostOps17 : List (HloOp τ sig (Elt F))).Forall fun op => op.writes ⊆ (host17_W.map (Proc.devRef (τ := τ) .tc)).toFinset := by
  simp only [hostOps17, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 18 writes, in order. -/
abbrev host18_W : List (Ref sig .tc) := [main_v335, main_v336, main_v337, main_v338, main_v339, main_v340, main_v341, main_v342, main_v343, main_v344, main_v345, main_v346, main_v347, main_v348, main_v349, main_v350, main_v351, main_v352, main_v353, main_v354, main_v355, main_v356, main_c_39, main_v357, main_v358, main_c_40, main_v359, main_v360, main_v361, main_v362, main_v363, main_c_41, main_v364, main_v365, main_c_42, main_v366, main_v367, main_v368, main_v369, main_v370, main_v371, main_c_43, main_v372, main_v373, main_c_44, main_v374, main_v375, main_v376, main_v377, main_v378, main_v379, main_v380, main_v381, main_v382, main_v383, main_v384, main_v385, main_v386, main_v387]
theorem host18_writes : (hostOps18 : List (HloOp τ sig (Elt F))).Forall fun op => op.writes ⊆ (host18_W.map (Proc.devRef (τ := τ) .tc)).toFinset := by
  simp only [hostOps18, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- The references host stretch 19 writes, in order. -/
abbrev host19_W : List (Ref sig .tc) := [main_v389]
theorem host19_writes : (hostOps19 : List (HloOp τ sig (Elt F))).Forall fun op => op.writes ⊆ (host19_W.map (Proc.devRef (τ := τ) .tc)).toFinset := by
  simp only [hostOps19, List.Forall, StableHlo.nullary_writes, StableHlo.unary_writes, StableHlo.binary_writes, StableHlo.ternary_writes, StableHlo.reshape_writes, Finset.singleton_subset_iff, List.mem_toFinset]
  all_goals exact List.mem_map_of_mem (by decide)
/-- The references host stretch 20 writes, in order. -/
abbrev host20_W : List (Ref sig .tc) := [main_v391, main_c_45, main_v392, main_v393, main_c_46, main_v394, main_v395, main_v396, main_v397, main_v398, main_v399, main_v400, main_v401, main_v402, main_v403, main_v404, main_v405, main_v406, main_v407, main_v408, main_v409, main_v410, main_v411, main_v412, main_v413, main_v414, main_v415, main_v416]
theorem host20_writes : (hostOps20 : List (HloOp τ sig (Elt F))).Forall fun op => op.writes ⊆ (host20_W.map (Proc.devRef (τ := τ) .tc)).toFinset := by
  simp only [hostOps20, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg)

/-! ## A host stretch keeps what it does not write -/

theorem keepH0 (c : Dev nD) (r : Ref sig .tc) (h : r ∉ host0_W) : W1 m ρ c (Proc.devRef .tc r) = W0 m ρ c (Proc.devRef .tc r) :=
  StableHlo.after_of_writes_sub hostOps0 _ host0_writes h
theorem keepH1 (c : Dev nD) (r : Ref sig .tc) (h : r ∉ host1_W) : W3 m ρ c (Proc.devRef .tc r) = W2 m ρ c (Proc.devRef .tc r) :=
  StableHlo.after_of_writes_sub hostOps1 _ host1_writes h
theorem keepH2 (c : Dev nD) (r : Ref sig .tc) (h : r ∉ host2_W) : W5 m ρ c (Proc.devRef .tc r) = W4 m ρ c (Proc.devRef .tc r) :=
  StableHlo.after_of_writes_sub hostOps2 _ host2_writes h
theorem keepH3 (c : Dev nD) (r : Ref sig .tc) (h : r ∉ host3_W) : W7 m ρ c (Proc.devRef .tc r) = W6 m ρ c (Proc.devRef .tc r) :=
  StableHlo.after_of_writes_sub hostOps3 _ host3_writes h
theorem keepH4 (c : Dev nD) (r : Ref sig .tc) (h : r ∉ host4_W) : W9 m ρ c (Proc.devRef .tc r) = W8 m ρ c (Proc.devRef .tc r) :=
  StableHlo.after_of_writes_sub hostOps4 _ host4_writes h
theorem keepH5 (c : Dev nD) (r : Ref sig .tc) (h : r ∉ host5_W) : W11 m ρ c (Proc.devRef .tc r) = W10 m ρ c (Proc.devRef .tc r) :=
  StableHlo.after_of_writes_sub hostOps5 _ host5_writes h
theorem keepH6 (c : Dev nD) (r : Ref sig .tc) (h : r ∉ host6_W) : W13 m ρ c (Proc.devRef .tc r) = W12 m ρ c (Proc.devRef .tc r) :=
  StableHlo.after_of_writes_sub hostOps6 _ host6_writes h
theorem keepH7 (c : Dev nD) (r : Ref sig .tc) (h : r ∉ host7_W) : W15 m ρ c (Proc.devRef .tc r) = W14 m ρ c (Proc.devRef .tc r) :=
  StableHlo.after_of_writes_sub hostOps7 _ host7_writes h
theorem keepH8 (c : Dev nD) (r : Ref sig .tc) (h : r ∉ host8_W) : W17 m ρ c (Proc.devRef .tc r) = W16 m ρ c (Proc.devRef .tc r) :=
  StableHlo.after_of_writes_sub hostOps8 _ host8_writes h
theorem keepH9 (c : Dev nD) (r : Ref sig .tc) (h : r ∉ host9_W) : W19 m ρ c (Proc.devRef .tc r) = W18 m ρ c (Proc.devRef .tc r) :=
  StableHlo.after_of_writes_sub hostOps9 _ host9_writes h
theorem keepH10 (c : Dev nD) (r : Ref sig .tc) (h : r ∉ host10_W) : W21 m ρ c (Proc.devRef .tc r) = W20 m ρ c (Proc.devRef .tc r) :=
  StableHlo.after_of_writes_sub hostOps10 _ host10_writes h
theorem keepH11 (c : Dev nD) (r : Ref sig .tc) (h : r ∉ host11_W) : W23 m ρ c (Proc.devRef .tc r) = W22 m ρ c (Proc.devRef .tc r) :=
  StableHlo.after_of_writes_sub hostOps11 _ host11_writes h
theorem keepH12 (c : Dev nD) (r : Ref sig .tc) (h : r ∉ host12_W) : W25 m ρ c (Proc.devRef .tc r) = W24 m ρ c (Proc.devRef .tc r) :=
  StableHlo.after_of_writes_sub hostOps12 _ host12_writes h
theorem keepH13 (c : Dev nD) (r : Ref sig .tc) (h : r ∉ host13_W) : W27 m ρ c (Proc.devRef .tc r) = W26 m ρ c (Proc.devRef .tc r) :=
  StableHlo.after_of_writes_sub hostOps13 _ host13_writes h
theorem keepH14 (c : Dev nD) (r : Ref sig .tc) (h : r ∉ host14_W) : W29 m ρ c (Proc.devRef .tc r) = W28 m ρ c (Proc.devRef .tc r) :=
  StableHlo.after_of_writes_sub hostOps14 _ host14_writes h
theorem keepH15 (c : Dev nD) (r : Ref sig .tc) (h : r ∉ host15_W) : W31 m ρ c (Proc.devRef .tc r) = W30 m ρ c (Proc.devRef .tc r) :=
  StableHlo.after_of_writes_sub hostOps15 _ host15_writes h
theorem keepH16 (c : Dev nD) (r : Ref sig .tc) (h : r ∉ host16_W) : W33 m ρ c (Proc.devRef .tc r) = W32 m ρ c (Proc.devRef .tc r) :=
  StableHlo.after_of_writes_sub hostOps16 _ host16_writes h
theorem keepH17 (c : Dev nD) (r : Ref sig .tc) (h : r ∉ host17_W) : W35 m ρ c (Proc.devRef .tc r) = W34 m ρ c (Proc.devRef .tc r) :=
  StableHlo.after_of_writes_sub hostOps17 _ host17_writes h
theorem keepH18 (c : Dev nD) (r : Ref sig .tc) (h : r ∉ host18_W) : W37 m ρ c (Proc.devRef .tc r) = W36 m ρ c (Proc.devRef .tc r) :=
  StableHlo.after_of_writes_sub hostOps18 _ host18_writes h
theorem keepH19 (c : Dev nD) (r : Ref sig .tc) (h : r ∉ host19_W) : W39 m ρ c (Proc.devRef .tc r) = W38 m ρ c (Proc.devRef .tc r) :=
  StableHlo.after_of_writes_sub hostOps19 _ host19_writes h
theorem keepH20 (c : Dev nD) (r : Ref sig .tc) (h : r ∉ host20_W) : W41 m ρ c (Proc.devRef .tc r) = W40 m ρ c (Proc.devRef .tc r) :=
  StableHlo.after_of_writes_sub hostOps20 _ host20_writes h

/-! ## Each buffer carried to where it is read -/

theorem kept_arg0_W38 (c : Dev nD) : W38 m ρ c (Proc.devRef .tc main_arg0) = m ((c : Thread nD τ).loc main_arg0) :=
  calc W38 m ρ c (Proc.devRef .tc main_arg0)
    _ = W37 m ρ c (Proc.devRef .tc main_arg0) := W38_of_ne m ρ c main_arg0 (by decide)
    _ = W36 m ρ c (Proc.devRef .tc main_arg0) := keepH18 m ρ c main_arg0 (by decide)
    _ = W35 m ρ c (Proc.devRef .tc main_arg0) := W36_of_ne m ρ c main_arg0 (by decide)
    _ = W34 m ρ c (Proc.devRef .tc main_arg0) := keepH17 m ρ c main_arg0 (by decide)
    _ = W33 m ρ c (Proc.devRef .tc main_arg0) := W34_of_ne m ρ c main_arg0 (by decide)
    _ = W32 m ρ c (Proc.devRef .tc main_arg0) := keepH16 m ρ c main_arg0 (by decide)
    _ = W31 m ρ c (Proc.devRef .tc main_arg0) := W32_of_ne m ρ c main_arg0 (by decide)
    _ = W30 m ρ c (Proc.devRef .tc main_arg0) := keepH15 m ρ c main_arg0 (by decide)
    _ = W29 m ρ c (Proc.devRef .tc main_arg0) := W30_of_ne m ρ c main_arg0 (by decide)
    _ = W28 m ρ c (Proc.devRef .tc main_arg0) := keepH14 m ρ c main_arg0 (by decide)
    _ = W27 m ρ c (Proc.devRef .tc main_arg0) := W28_of_ne m ρ c main_arg0 (by decide)
    _ = W26 m ρ c (Proc.devRef .tc main_arg0) := keepH13 m ρ c main_arg0 (by decide)
    _ = W25 m ρ c (Proc.devRef .tc main_arg0) := W26_of_ne m ρ c main_arg0 (by decide)
    _ = W24 m ρ c (Proc.devRef .tc main_arg0) := keepH12 m ρ c main_arg0 (by decide)
    _ = W23 m ρ c (Proc.devRef .tc main_arg0) := W24_of_ne m ρ c main_arg0 (by decide)
    _ = W22 m ρ c (Proc.devRef .tc main_arg0) := keepH11 m ρ c main_arg0 (by decide)
    _ = W21 m ρ c (Proc.devRef .tc main_arg0) := W22_of_ne m ρ c main_arg0 (by decide)
    _ = W20 m ρ c (Proc.devRef .tc main_arg0) := keepH10 m ρ c main_arg0 (by decide)
    _ = W19 m ρ c (Proc.devRef .tc main_arg0) := W20_of_ne m ρ c main_arg0 (by decide)
    _ = W18 m ρ c (Proc.devRef .tc main_arg0) := keepH9 m ρ c main_arg0 (by decide)
    _ = W17 m ρ c (Proc.devRef .tc main_arg0) := W18_of_ne m ρ c main_arg0 (by decide)
    _ = W16 m ρ c (Proc.devRef .tc main_arg0) := keepH8 m ρ c main_arg0 (by decide)
    _ = W15 m ρ c (Proc.devRef .tc main_arg0) := W16_of_ne m ρ c main_arg0 (by decide)
    _ = W14 m ρ c (Proc.devRef .tc main_arg0) := keepH7 m ρ c main_arg0 (by decide)
    _ = W13 m ρ c (Proc.devRef .tc main_arg0) := W14_of_ne m ρ c main_arg0 (by decide)
    _ = W12 m ρ c (Proc.devRef .tc main_arg0) := keepH6 m ρ c main_arg0 (by decide)
    _ = W11 m ρ c (Proc.devRef .tc main_arg0) := W12_of_ne m ρ c main_arg0 (by decide)
    _ = W10 m ρ c (Proc.devRef .tc main_arg0) := keepH5 m ρ c main_arg0 (by decide)
    _ = W9 m ρ c (Proc.devRef .tc main_arg0) := W10_of_ne m ρ c main_arg0 (by decide)
    _ = W8 m ρ c (Proc.devRef .tc main_arg0) := keepH4 m ρ c main_arg0 (by decide)
    _ = W7 m ρ c (Proc.devRef .tc main_arg0) := W8_of_ne m ρ c main_arg0 (by decide)
    _ = W6 m ρ c (Proc.devRef .tc main_arg0) := keepH3 m ρ c main_arg0 (by decide)
    _ = W5 m ρ c (Proc.devRef .tc main_arg0) := W6_of_ne m ρ c main_arg0 (by decide)
    _ = W4 m ρ c (Proc.devRef .tc main_arg0) := keepH2 m ρ c main_arg0 (by decide)
    _ = W3 m ρ c (Proc.devRef .tc main_arg0) := W4_of_ne m ρ c main_arg0 (by decide)
    _ = W2 m ρ c (Proc.devRef .tc main_arg0) := keepH1 m ρ c main_arg0 (by decide)
    _ = W1 m ρ c (Proc.devRef .tc main_arg0) := W2_of_ne m ρ c main_arg0 (by decide)
    _ = W0 m ρ c (Proc.devRef .tc main_arg0) := keepH0 m ρ c main_arg0 (by decide)
    _ = m ((c : Thread nD τ).loc main_arg0) := rfl
theorem kept_arg0_W41 (c : Dev nD) : W41 m ρ c (Proc.devRef .tc main_arg0) = m ((c : Thread nD τ).loc main_arg0) :=
  calc W41 m ρ c (Proc.devRef .tc main_arg0)
    _ = W40 m ρ c (Proc.devRef .tc main_arg0) := keepH20 m ρ c main_arg0 (by decide)
    _ = W39 m ρ c (Proc.devRef .tc main_arg0) := W40_of_ne m ρ c main_arg0 (by decide)
    _ = W38 m ρ c (Proc.devRef .tc main_arg0) := keepH19 m ρ c main_arg0 (by decide)
    _ = m ((c : Thread nD τ).loc main_arg0) := kept_arg0_W38 m ρ c
theorem kept_arg1_W36 (c : Dev nD) : W36 m ρ c (Proc.devRef .tc main_arg1) = m ((c : Thread nD τ).loc main_arg1) :=
  calc W36 m ρ c (Proc.devRef .tc main_arg1)
    _ = W35 m ρ c (Proc.devRef .tc main_arg1) := W36_of_ne m ρ c main_arg1 (by decide)
    _ = W34 m ρ c (Proc.devRef .tc main_arg1) := keepH17 m ρ c main_arg1 (by decide)
    _ = W33 m ρ c (Proc.devRef .tc main_arg1) := W34_of_ne m ρ c main_arg1 (by decide)
    _ = W32 m ρ c (Proc.devRef .tc main_arg1) := keepH16 m ρ c main_arg1 (by decide)
    _ = W31 m ρ c (Proc.devRef .tc main_arg1) := W32_of_ne m ρ c main_arg1 (by decide)
    _ = W30 m ρ c (Proc.devRef .tc main_arg1) := keepH15 m ρ c main_arg1 (by decide)
    _ = W29 m ρ c (Proc.devRef .tc main_arg1) := W30_of_ne m ρ c main_arg1 (by decide)
    _ = W28 m ρ c (Proc.devRef .tc main_arg1) := keepH14 m ρ c main_arg1 (by decide)
    _ = W27 m ρ c (Proc.devRef .tc main_arg1) := W28_of_ne m ρ c main_arg1 (by decide)
    _ = W26 m ρ c (Proc.devRef .tc main_arg1) := keepH13 m ρ c main_arg1 (by decide)
    _ = W25 m ρ c (Proc.devRef .tc main_arg1) := W26_of_ne m ρ c main_arg1 (by decide)
    _ = W24 m ρ c (Proc.devRef .tc main_arg1) := keepH12 m ρ c main_arg1 (by decide)
    _ = W23 m ρ c (Proc.devRef .tc main_arg1) := W24_of_ne m ρ c main_arg1 (by decide)
    _ = W22 m ρ c (Proc.devRef .tc main_arg1) := keepH11 m ρ c main_arg1 (by decide)
    _ = W21 m ρ c (Proc.devRef .tc main_arg1) := W22_of_ne m ρ c main_arg1 (by decide)
    _ = W20 m ρ c (Proc.devRef .tc main_arg1) := keepH10 m ρ c main_arg1 (by decide)
    _ = W19 m ρ c (Proc.devRef .tc main_arg1) := W20_of_ne m ρ c main_arg1 (by decide)
    _ = W18 m ρ c (Proc.devRef .tc main_arg1) := keepH9 m ρ c main_arg1 (by decide)
    _ = W17 m ρ c (Proc.devRef .tc main_arg1) := W18_of_ne m ρ c main_arg1 (by decide)
    _ = W16 m ρ c (Proc.devRef .tc main_arg1) := keepH8 m ρ c main_arg1 (by decide)
    _ = W15 m ρ c (Proc.devRef .tc main_arg1) := W16_of_ne m ρ c main_arg1 (by decide)
    _ = W14 m ρ c (Proc.devRef .tc main_arg1) := keepH7 m ρ c main_arg1 (by decide)
    _ = W13 m ρ c (Proc.devRef .tc main_arg1) := W14_of_ne m ρ c main_arg1 (by decide)
    _ = W12 m ρ c (Proc.devRef .tc main_arg1) := keepH6 m ρ c main_arg1 (by decide)
    _ = W11 m ρ c (Proc.devRef .tc main_arg1) := W12_of_ne m ρ c main_arg1 (by decide)
    _ = W10 m ρ c (Proc.devRef .tc main_arg1) := keepH5 m ρ c main_arg1 (by decide)
    _ = W9 m ρ c (Proc.devRef .tc main_arg1) := W10_of_ne m ρ c main_arg1 (by decide)
    _ = W8 m ρ c (Proc.devRef .tc main_arg1) := keepH4 m ρ c main_arg1 (by decide)
    _ = W7 m ρ c (Proc.devRef .tc main_arg1) := W8_of_ne m ρ c main_arg1 (by decide)
    _ = W6 m ρ c (Proc.devRef .tc main_arg1) := keepH3 m ρ c main_arg1 (by decide)
    _ = W5 m ρ c (Proc.devRef .tc main_arg1) := W6_of_ne m ρ c main_arg1 (by decide)
    _ = W4 m ρ c (Proc.devRef .tc main_arg1) := keepH2 m ρ c main_arg1 (by decide)
    _ = W3 m ρ c (Proc.devRef .tc main_arg1) := W4_of_ne m ρ c main_arg1 (by decide)
    _ = W2 m ρ c (Proc.devRef .tc main_arg1) := keepH1 m ρ c main_arg1 (by decide)
    _ = W1 m ρ c (Proc.devRef .tc main_arg1) := W2_of_ne m ρ c main_arg1 (by decide)
    _ = W0 m ρ c (Proc.devRef .tc main_arg1) := keepH0 m ρ c main_arg1 (by decide)
    _ = m ((c : Thread nD τ).loc main_arg1) := rfl
theorem kept_arg2_W36 (c : Dev nD) : W36 m ρ c (Proc.devRef .tc main_arg2) = m ((c : Thread nD τ).loc main_arg2) :=
  calc W36 m ρ c (Proc.devRef .tc main_arg2)
    _ = W35 m ρ c (Proc.devRef .tc main_arg2) := W36_of_ne m ρ c main_arg2 (by decide)
    _ = W34 m ρ c (Proc.devRef .tc main_arg2) := keepH17 m ρ c main_arg2 (by decide)
    _ = W33 m ρ c (Proc.devRef .tc main_arg2) := W34_of_ne m ρ c main_arg2 (by decide)
    _ = W32 m ρ c (Proc.devRef .tc main_arg2) := keepH16 m ρ c main_arg2 (by decide)
    _ = W31 m ρ c (Proc.devRef .tc main_arg2) := W32_of_ne m ρ c main_arg2 (by decide)
    _ = W30 m ρ c (Proc.devRef .tc main_arg2) := keepH15 m ρ c main_arg2 (by decide)
    _ = W29 m ρ c (Proc.devRef .tc main_arg2) := W30_of_ne m ρ c main_arg2 (by decide)
    _ = W28 m ρ c (Proc.devRef .tc main_arg2) := keepH14 m ρ c main_arg2 (by decide)
    _ = W27 m ρ c (Proc.devRef .tc main_arg2) := W28_of_ne m ρ c main_arg2 (by decide)
    _ = W26 m ρ c (Proc.devRef .tc main_arg2) := keepH13 m ρ c main_arg2 (by decide)
    _ = W25 m ρ c (Proc.devRef .tc main_arg2) := W26_of_ne m ρ c main_arg2 (by decide)
    _ = W24 m ρ c (Proc.devRef .tc main_arg2) := keepH12 m ρ c main_arg2 (by decide)
    _ = W23 m ρ c (Proc.devRef .tc main_arg2) := W24_of_ne m ρ c main_arg2 (by decide)
    _ = W22 m ρ c (Proc.devRef .tc main_arg2) := keepH11 m ρ c main_arg2 (by decide)
    _ = W21 m ρ c (Proc.devRef .tc main_arg2) := W22_of_ne m ρ c main_arg2 (by decide)
    _ = W20 m ρ c (Proc.devRef .tc main_arg2) := keepH10 m ρ c main_arg2 (by decide)
    _ = W19 m ρ c (Proc.devRef .tc main_arg2) := W20_of_ne m ρ c main_arg2 (by decide)
    _ = W18 m ρ c (Proc.devRef .tc main_arg2) := keepH9 m ρ c main_arg2 (by decide)
    _ = W17 m ρ c (Proc.devRef .tc main_arg2) := W18_of_ne m ρ c main_arg2 (by decide)
    _ = W16 m ρ c (Proc.devRef .tc main_arg2) := keepH8 m ρ c main_arg2 (by decide)
    _ = W15 m ρ c (Proc.devRef .tc main_arg2) := W16_of_ne m ρ c main_arg2 (by decide)
    _ = W14 m ρ c (Proc.devRef .tc main_arg2) := keepH7 m ρ c main_arg2 (by decide)
    _ = W13 m ρ c (Proc.devRef .tc main_arg2) := W14_of_ne m ρ c main_arg2 (by decide)
    _ = W12 m ρ c (Proc.devRef .tc main_arg2) := keepH6 m ρ c main_arg2 (by decide)
    _ = W11 m ρ c (Proc.devRef .tc main_arg2) := W12_of_ne m ρ c main_arg2 (by decide)
    _ = W10 m ρ c (Proc.devRef .tc main_arg2) := keepH5 m ρ c main_arg2 (by decide)
    _ = W9 m ρ c (Proc.devRef .tc main_arg2) := W10_of_ne m ρ c main_arg2 (by decide)
    _ = W8 m ρ c (Proc.devRef .tc main_arg2) := keepH4 m ρ c main_arg2 (by decide)
    _ = W7 m ρ c (Proc.devRef .tc main_arg2) := W8_of_ne m ρ c main_arg2 (by decide)
    _ = W6 m ρ c (Proc.devRef .tc main_arg2) := keepH3 m ρ c main_arg2 (by decide)
    _ = W5 m ρ c (Proc.devRef .tc main_arg2) := W6_of_ne m ρ c main_arg2 (by decide)
    _ = W4 m ρ c (Proc.devRef .tc main_arg2) := keepH2 m ρ c main_arg2 (by decide)
    _ = W3 m ρ c (Proc.devRef .tc main_arg2) := W4_of_ne m ρ c main_arg2 (by decide)
    _ = W2 m ρ c (Proc.devRef .tc main_arg2) := keepH1 m ρ c main_arg2 (by decide)
    _ = W1 m ρ c (Proc.devRef .tc main_arg2) := W2_of_ne m ρ c main_arg2 (by decide)
    _ = W0 m ρ c (Proc.devRef .tc main_arg2) := keepH0 m ρ c main_arg2 (by decide)
    _ = m ((c : Thread nD τ).loc main_arg2) := rfl
theorem kept_arg3_W36 (c : Dev nD) : W36 m ρ c (Proc.devRef .tc main_arg3) = m ((c : Thread nD τ).loc main_arg3) :=
  calc W36 m ρ c (Proc.devRef .tc main_arg3)
    _ = W35 m ρ c (Proc.devRef .tc main_arg3) := W36_of_ne m ρ c main_arg3 (by decide)
    _ = W34 m ρ c (Proc.devRef .tc main_arg3) := keepH17 m ρ c main_arg3 (by decide)
    _ = W33 m ρ c (Proc.devRef .tc main_arg3) := W34_of_ne m ρ c main_arg3 (by decide)
    _ = W32 m ρ c (Proc.devRef .tc main_arg3) := keepH16 m ρ c main_arg3 (by decide)
    _ = W31 m ρ c (Proc.devRef .tc main_arg3) := W32_of_ne m ρ c main_arg3 (by decide)
    _ = W30 m ρ c (Proc.devRef .tc main_arg3) := keepH15 m ρ c main_arg3 (by decide)
    _ = W29 m ρ c (Proc.devRef .tc main_arg3) := W30_of_ne m ρ c main_arg3 (by decide)
    _ = W28 m ρ c (Proc.devRef .tc main_arg3) := keepH14 m ρ c main_arg3 (by decide)
    _ = W27 m ρ c (Proc.devRef .tc main_arg3) := W28_of_ne m ρ c main_arg3 (by decide)
    _ = W26 m ρ c (Proc.devRef .tc main_arg3) := keepH13 m ρ c main_arg3 (by decide)
    _ = W25 m ρ c (Proc.devRef .tc main_arg3) := W26_of_ne m ρ c main_arg3 (by decide)
    _ = W24 m ρ c (Proc.devRef .tc main_arg3) := keepH12 m ρ c main_arg3 (by decide)
    _ = W23 m ρ c (Proc.devRef .tc main_arg3) := W24_of_ne m ρ c main_arg3 (by decide)
    _ = W22 m ρ c (Proc.devRef .tc main_arg3) := keepH11 m ρ c main_arg3 (by decide)
    _ = W21 m ρ c (Proc.devRef .tc main_arg3) := W22_of_ne m ρ c main_arg3 (by decide)
    _ = W20 m ρ c (Proc.devRef .tc main_arg3) := keepH10 m ρ c main_arg3 (by decide)
    _ = W19 m ρ c (Proc.devRef .tc main_arg3) := W20_of_ne m ρ c main_arg3 (by decide)
    _ = W18 m ρ c (Proc.devRef .tc main_arg3) := keepH9 m ρ c main_arg3 (by decide)
    _ = W17 m ρ c (Proc.devRef .tc main_arg3) := W18_of_ne m ρ c main_arg3 (by decide)
    _ = W16 m ρ c (Proc.devRef .tc main_arg3) := keepH8 m ρ c main_arg3 (by decide)
    _ = W15 m ρ c (Proc.devRef .tc main_arg3) := W16_of_ne m ρ c main_arg3 (by decide)
    _ = W14 m ρ c (Proc.devRef .tc main_arg3) := keepH7 m ρ c main_arg3 (by decide)
    _ = W13 m ρ c (Proc.devRef .tc main_arg3) := W14_of_ne m ρ c main_arg3 (by decide)
    _ = W12 m ρ c (Proc.devRef .tc main_arg3) := keepH6 m ρ c main_arg3 (by decide)
    _ = W11 m ρ c (Proc.devRef .tc main_arg3) := W12_of_ne m ρ c main_arg3 (by decide)
    _ = W10 m ρ c (Proc.devRef .tc main_arg3) := keepH5 m ρ c main_arg3 (by decide)
    _ = W9 m ρ c (Proc.devRef .tc main_arg3) := W10_of_ne m ρ c main_arg3 (by decide)
    _ = W8 m ρ c (Proc.devRef .tc main_arg3) := keepH4 m ρ c main_arg3 (by decide)
    _ = W7 m ρ c (Proc.devRef .tc main_arg3) := W8_of_ne m ρ c main_arg3 (by decide)
    _ = W6 m ρ c (Proc.devRef .tc main_arg3) := keepH3 m ρ c main_arg3 (by decide)
    _ = W5 m ρ c (Proc.devRef .tc main_arg3) := W6_of_ne m ρ c main_arg3 (by decide)
    _ = W4 m ρ c (Proc.devRef .tc main_arg3) := keepH2 m ρ c main_arg3 (by decide)
    _ = W3 m ρ c (Proc.devRef .tc main_arg3) := W4_of_ne m ρ c main_arg3 (by decide)
    _ = W2 m ρ c (Proc.devRef .tc main_arg3) := keepH1 m ρ c main_arg3 (by decide)
    _ = W1 m ρ c (Proc.devRef .tc main_arg3) := W2_of_ne m ρ c main_arg3 (by decide)
    _ = W0 m ρ c (Proc.devRef .tc main_arg3) := keepH0 m ρ c main_arg3 (by decide)
    _ = m ((c : Thread nD τ).loc main_arg3) := rfl
theorem kept_arg4_W36 (c : Dev nD) : W36 m ρ c (Proc.devRef .tc main_arg4) = m ((c : Thread nD τ).loc main_arg4) :=
  calc W36 m ρ c (Proc.devRef .tc main_arg4)
    _ = W35 m ρ c (Proc.devRef .tc main_arg4) := W36_of_ne m ρ c main_arg4 (by decide)
    _ = W34 m ρ c (Proc.devRef .tc main_arg4) := keepH17 m ρ c main_arg4 (by decide)
    _ = W33 m ρ c (Proc.devRef .tc main_arg4) := W34_of_ne m ρ c main_arg4 (by decide)
    _ = W32 m ρ c (Proc.devRef .tc main_arg4) := keepH16 m ρ c main_arg4 (by decide)
    _ = W31 m ρ c (Proc.devRef .tc main_arg4) := W32_of_ne m ρ c main_arg4 (by decide)
    _ = W30 m ρ c (Proc.devRef .tc main_arg4) := keepH15 m ρ c main_arg4 (by decide)
    _ = W29 m ρ c (Proc.devRef .tc main_arg4) := W30_of_ne m ρ c main_arg4 (by decide)
    _ = W28 m ρ c (Proc.devRef .tc main_arg4) := keepH14 m ρ c main_arg4 (by decide)
    _ = W27 m ρ c (Proc.devRef .tc main_arg4) := W28_of_ne m ρ c main_arg4 (by decide)
    _ = W26 m ρ c (Proc.devRef .tc main_arg4) := keepH13 m ρ c main_arg4 (by decide)
    _ = W25 m ρ c (Proc.devRef .tc main_arg4) := W26_of_ne m ρ c main_arg4 (by decide)
    _ = W24 m ρ c (Proc.devRef .tc main_arg4) := keepH12 m ρ c main_arg4 (by decide)
    _ = W23 m ρ c (Proc.devRef .tc main_arg4) := W24_of_ne m ρ c main_arg4 (by decide)
    _ = W22 m ρ c (Proc.devRef .tc main_arg4) := keepH11 m ρ c main_arg4 (by decide)
    _ = W21 m ρ c (Proc.devRef .tc main_arg4) := W22_of_ne m ρ c main_arg4 (by decide)
    _ = W20 m ρ c (Proc.devRef .tc main_arg4) := keepH10 m ρ c main_arg4 (by decide)
    _ = W19 m ρ c (Proc.devRef .tc main_arg4) := W20_of_ne m ρ c main_arg4 (by decide)
    _ = W18 m ρ c (Proc.devRef .tc main_arg4) := keepH9 m ρ c main_arg4 (by decide)
    _ = W17 m ρ c (Proc.devRef .tc main_arg4) := W18_of_ne m ρ c main_arg4 (by decide)
    _ = W16 m ρ c (Proc.devRef .tc main_arg4) := keepH8 m ρ c main_arg4 (by decide)
    _ = W15 m ρ c (Proc.devRef .tc main_arg4) := W16_of_ne m ρ c main_arg4 (by decide)
    _ = W14 m ρ c (Proc.devRef .tc main_arg4) := keepH7 m ρ c main_arg4 (by decide)
    _ = W13 m ρ c (Proc.devRef .tc main_arg4) := W14_of_ne m ρ c main_arg4 (by decide)
    _ = W12 m ρ c (Proc.devRef .tc main_arg4) := keepH6 m ρ c main_arg4 (by decide)
    _ = W11 m ρ c (Proc.devRef .tc main_arg4) := W12_of_ne m ρ c main_arg4 (by decide)
    _ = W10 m ρ c (Proc.devRef .tc main_arg4) := keepH5 m ρ c main_arg4 (by decide)
    _ = W9 m ρ c (Proc.devRef .tc main_arg4) := W10_of_ne m ρ c main_arg4 (by decide)
    _ = W8 m ρ c (Proc.devRef .tc main_arg4) := keepH4 m ρ c main_arg4 (by decide)
    _ = W7 m ρ c (Proc.devRef .tc main_arg4) := W8_of_ne m ρ c main_arg4 (by decide)
    _ = W6 m ρ c (Proc.devRef .tc main_arg4) := keepH3 m ρ c main_arg4 (by decide)
    _ = W5 m ρ c (Proc.devRef .tc main_arg4) := W6_of_ne m ρ c main_arg4 (by decide)
    _ = W4 m ρ c (Proc.devRef .tc main_arg4) := keepH2 m ρ c main_arg4 (by decide)
    _ = W3 m ρ c (Proc.devRef .tc main_arg4) := W4_of_ne m ρ c main_arg4 (by decide)
    _ = W2 m ρ c (Proc.devRef .tc main_arg4) := keepH1 m ρ c main_arg4 (by decide)
    _ = W1 m ρ c (Proc.devRef .tc main_arg4) := W2_of_ne m ρ c main_arg4 (by decide)
    _ = W0 m ρ c (Proc.devRef .tc main_arg4) := keepH0 m ρ c main_arg4 (by decide)
    _ = m ((c : Thread nD τ).loc main_arg4) := rfl
theorem kept_arg5_W36 (c : Dev nD) : W36 m ρ c (Proc.devRef .tc main_arg5) = m ((c : Thread nD τ).loc main_arg5) :=
  calc W36 m ρ c (Proc.devRef .tc main_arg5)
    _ = W35 m ρ c (Proc.devRef .tc main_arg5) := W36_of_ne m ρ c main_arg5 (by decide)
    _ = W34 m ρ c (Proc.devRef .tc main_arg5) := keepH17 m ρ c main_arg5 (by decide)
    _ = W33 m ρ c (Proc.devRef .tc main_arg5) := W34_of_ne m ρ c main_arg5 (by decide)
    _ = W32 m ρ c (Proc.devRef .tc main_arg5) := keepH16 m ρ c main_arg5 (by decide)
    _ = W31 m ρ c (Proc.devRef .tc main_arg5) := W32_of_ne m ρ c main_arg5 (by decide)
    _ = W30 m ρ c (Proc.devRef .tc main_arg5) := keepH15 m ρ c main_arg5 (by decide)
    _ = W29 m ρ c (Proc.devRef .tc main_arg5) := W30_of_ne m ρ c main_arg5 (by decide)
    _ = W28 m ρ c (Proc.devRef .tc main_arg5) := keepH14 m ρ c main_arg5 (by decide)
    _ = W27 m ρ c (Proc.devRef .tc main_arg5) := W28_of_ne m ρ c main_arg5 (by decide)
    _ = W26 m ρ c (Proc.devRef .tc main_arg5) := keepH13 m ρ c main_arg5 (by decide)
    _ = W25 m ρ c (Proc.devRef .tc main_arg5) := W26_of_ne m ρ c main_arg5 (by decide)
    _ = W24 m ρ c (Proc.devRef .tc main_arg5) := keepH12 m ρ c main_arg5 (by decide)
    _ = W23 m ρ c (Proc.devRef .tc main_arg5) := W24_of_ne m ρ c main_arg5 (by decide)
    _ = W22 m ρ c (Proc.devRef .tc main_arg5) := keepH11 m ρ c main_arg5 (by decide)
    _ = W21 m ρ c (Proc.devRef .tc main_arg5) := W22_of_ne m ρ c main_arg5 (by decide)
    _ = W20 m ρ c (Proc.devRef .tc main_arg5) := keepH10 m ρ c main_arg5 (by decide)
    _ = W19 m ρ c (Proc.devRef .tc main_arg5) := W20_of_ne m ρ c main_arg5 (by decide)
    _ = W18 m ρ c (Proc.devRef .tc main_arg5) := keepH9 m ρ c main_arg5 (by decide)
    _ = W17 m ρ c (Proc.devRef .tc main_arg5) := W18_of_ne m ρ c main_arg5 (by decide)
    _ = W16 m ρ c (Proc.devRef .tc main_arg5) := keepH8 m ρ c main_arg5 (by decide)
    _ = W15 m ρ c (Proc.devRef .tc main_arg5) := W16_of_ne m ρ c main_arg5 (by decide)
    _ = W14 m ρ c (Proc.devRef .tc main_arg5) := keepH7 m ρ c main_arg5 (by decide)
    _ = W13 m ρ c (Proc.devRef .tc main_arg5) := W14_of_ne m ρ c main_arg5 (by decide)
    _ = W12 m ρ c (Proc.devRef .tc main_arg5) := keepH6 m ρ c main_arg5 (by decide)
    _ = W11 m ρ c (Proc.devRef .tc main_arg5) := W12_of_ne m ρ c main_arg5 (by decide)
    _ = W10 m ρ c (Proc.devRef .tc main_arg5) := keepH5 m ρ c main_arg5 (by decide)
    _ = W9 m ρ c (Proc.devRef .tc main_arg5) := W10_of_ne m ρ c main_arg5 (by decide)
    _ = W8 m ρ c (Proc.devRef .tc main_arg5) := keepH4 m ρ c main_arg5 (by decide)
    _ = W7 m ρ c (Proc.devRef .tc main_arg5) := W8_of_ne m ρ c main_arg5 (by decide)
    _ = W6 m ρ c (Proc.devRef .tc main_arg5) := keepH3 m ρ c main_arg5 (by decide)
    _ = W5 m ρ c (Proc.devRef .tc main_arg5) := W6_of_ne m ρ c main_arg5 (by decide)
    _ = W4 m ρ c (Proc.devRef .tc main_arg5) := keepH2 m ρ c main_arg5 (by decide)
    _ = W3 m ρ c (Proc.devRef .tc main_arg5) := W4_of_ne m ρ c main_arg5 (by decide)
    _ = W2 m ρ c (Proc.devRef .tc main_arg5) := keepH1 m ρ c main_arg5 (by decide)
    _ = W1 m ρ c (Proc.devRef .tc main_arg5) := W2_of_ne m ρ c main_arg5 (by decide)
    _ = W0 m ρ c (Proc.devRef .tc main_arg5) := keepH0 m ρ c main_arg5 (by decide)
    _ = m ((c : Thread nD τ).loc main_arg5) := rfl
theorem kept_arg6_W36 (c : Dev nD) : W36 m ρ c (Proc.devRef .tc main_arg6) = m ((c : Thread nD τ).loc main_arg6) :=
  calc W36 m ρ c (Proc.devRef .tc main_arg6)
    _ = W35 m ρ c (Proc.devRef .tc main_arg6) := W36_of_ne m ρ c main_arg6 (by decide)
    _ = W34 m ρ c (Proc.devRef .tc main_arg6) := keepH17 m ρ c main_arg6 (by decide)
    _ = W33 m ρ c (Proc.devRef .tc main_arg6) := W34_of_ne m ρ c main_arg6 (by decide)
    _ = W32 m ρ c (Proc.devRef .tc main_arg6) := keepH16 m ρ c main_arg6 (by decide)
    _ = W31 m ρ c (Proc.devRef .tc main_arg6) := W32_of_ne m ρ c main_arg6 (by decide)
    _ = W30 m ρ c (Proc.devRef .tc main_arg6) := keepH15 m ρ c main_arg6 (by decide)
    _ = W29 m ρ c (Proc.devRef .tc main_arg6) := W30_of_ne m ρ c main_arg6 (by decide)
    _ = W28 m ρ c (Proc.devRef .tc main_arg6) := keepH14 m ρ c main_arg6 (by decide)
    _ = W27 m ρ c (Proc.devRef .tc main_arg6) := W28_of_ne m ρ c main_arg6 (by decide)
    _ = W26 m ρ c (Proc.devRef .tc main_arg6) := keepH13 m ρ c main_arg6 (by decide)
    _ = W25 m ρ c (Proc.devRef .tc main_arg6) := W26_of_ne m ρ c main_arg6 (by decide)
    _ = W24 m ρ c (Proc.devRef .tc main_arg6) := keepH12 m ρ c main_arg6 (by decide)
    _ = W23 m ρ c (Proc.devRef .tc main_arg6) := W24_of_ne m ρ c main_arg6 (by decide)
    _ = W22 m ρ c (Proc.devRef .tc main_arg6) := keepH11 m ρ c main_arg6 (by decide)
    _ = W21 m ρ c (Proc.devRef .tc main_arg6) := W22_of_ne m ρ c main_arg6 (by decide)
    _ = W20 m ρ c (Proc.devRef .tc main_arg6) := keepH10 m ρ c main_arg6 (by decide)
    _ = W19 m ρ c (Proc.devRef .tc main_arg6) := W20_of_ne m ρ c main_arg6 (by decide)
    _ = W18 m ρ c (Proc.devRef .tc main_arg6) := keepH9 m ρ c main_arg6 (by decide)
    _ = W17 m ρ c (Proc.devRef .tc main_arg6) := W18_of_ne m ρ c main_arg6 (by decide)
    _ = W16 m ρ c (Proc.devRef .tc main_arg6) := keepH8 m ρ c main_arg6 (by decide)
    _ = W15 m ρ c (Proc.devRef .tc main_arg6) := W16_of_ne m ρ c main_arg6 (by decide)
    _ = W14 m ρ c (Proc.devRef .tc main_arg6) := keepH7 m ρ c main_arg6 (by decide)
    _ = W13 m ρ c (Proc.devRef .tc main_arg6) := W14_of_ne m ρ c main_arg6 (by decide)
    _ = W12 m ρ c (Proc.devRef .tc main_arg6) := keepH6 m ρ c main_arg6 (by decide)
    _ = W11 m ρ c (Proc.devRef .tc main_arg6) := W12_of_ne m ρ c main_arg6 (by decide)
    _ = W10 m ρ c (Proc.devRef .tc main_arg6) := keepH5 m ρ c main_arg6 (by decide)
    _ = W9 m ρ c (Proc.devRef .tc main_arg6) := W10_of_ne m ρ c main_arg6 (by decide)
    _ = W8 m ρ c (Proc.devRef .tc main_arg6) := keepH4 m ρ c main_arg6 (by decide)
    _ = W7 m ρ c (Proc.devRef .tc main_arg6) := W8_of_ne m ρ c main_arg6 (by decide)
    _ = W6 m ρ c (Proc.devRef .tc main_arg6) := keepH3 m ρ c main_arg6 (by decide)
    _ = W5 m ρ c (Proc.devRef .tc main_arg6) := W6_of_ne m ρ c main_arg6 (by decide)
    _ = W4 m ρ c (Proc.devRef .tc main_arg6) := keepH2 m ρ c main_arg6 (by decide)
    _ = W3 m ρ c (Proc.devRef .tc main_arg6) := W4_of_ne m ρ c main_arg6 (by decide)
    _ = W2 m ρ c (Proc.devRef .tc main_arg6) := keepH1 m ρ c main_arg6 (by decide)
    _ = W1 m ρ c (Proc.devRef .tc main_arg6) := W2_of_ne m ρ c main_arg6 (by decide)
    _ = W0 m ρ c (Proc.devRef .tc main_arg6) := keepH0 m ρ c main_arg6 (by decide)
    _ = m ((c : Thread nD τ).loc main_arg6) := rfl
theorem kept_arg7_W36 (c : Dev nD) : W36 m ρ c (Proc.devRef .tc main_arg7) = m ((c : Thread nD τ).loc main_arg7) :=
  calc W36 m ρ c (Proc.devRef .tc main_arg7)
    _ = W35 m ρ c (Proc.devRef .tc main_arg7) := W36_of_ne m ρ c main_arg7 (by decide)
    _ = W34 m ρ c (Proc.devRef .tc main_arg7) := keepH17 m ρ c main_arg7 (by decide)
    _ = W33 m ρ c (Proc.devRef .tc main_arg7) := W34_of_ne m ρ c main_arg7 (by decide)
    _ = W32 m ρ c (Proc.devRef .tc main_arg7) := keepH16 m ρ c main_arg7 (by decide)
    _ = W31 m ρ c (Proc.devRef .tc main_arg7) := W32_of_ne m ρ c main_arg7 (by decide)
    _ = W30 m ρ c (Proc.devRef .tc main_arg7) := keepH15 m ρ c main_arg7 (by decide)
    _ = W29 m ρ c (Proc.devRef .tc main_arg7) := W30_of_ne m ρ c main_arg7 (by decide)
    _ = W28 m ρ c (Proc.devRef .tc main_arg7) := keepH14 m ρ c main_arg7 (by decide)
    _ = W27 m ρ c (Proc.devRef .tc main_arg7) := W28_of_ne m ρ c main_arg7 (by decide)
    _ = W26 m ρ c (Proc.devRef .tc main_arg7) := keepH13 m ρ c main_arg7 (by decide)
    _ = W25 m ρ c (Proc.devRef .tc main_arg7) := W26_of_ne m ρ c main_arg7 (by decide)
    _ = W24 m ρ c (Proc.devRef .tc main_arg7) := keepH12 m ρ c main_arg7 (by decide)
    _ = W23 m ρ c (Proc.devRef .tc main_arg7) := W24_of_ne m ρ c main_arg7 (by decide)
    _ = W22 m ρ c (Proc.devRef .tc main_arg7) := keepH11 m ρ c main_arg7 (by decide)
    _ = W21 m ρ c (Proc.devRef .tc main_arg7) := W22_of_ne m ρ c main_arg7 (by decide)
    _ = W20 m ρ c (Proc.devRef .tc main_arg7) := keepH10 m ρ c main_arg7 (by decide)
    _ = W19 m ρ c (Proc.devRef .tc main_arg7) := W20_of_ne m ρ c main_arg7 (by decide)
    _ = W18 m ρ c (Proc.devRef .tc main_arg7) := keepH9 m ρ c main_arg7 (by decide)
    _ = W17 m ρ c (Proc.devRef .tc main_arg7) := W18_of_ne m ρ c main_arg7 (by decide)
    _ = W16 m ρ c (Proc.devRef .tc main_arg7) := keepH8 m ρ c main_arg7 (by decide)
    _ = W15 m ρ c (Proc.devRef .tc main_arg7) := W16_of_ne m ρ c main_arg7 (by decide)
    _ = W14 m ρ c (Proc.devRef .tc main_arg7) := keepH7 m ρ c main_arg7 (by decide)
    _ = W13 m ρ c (Proc.devRef .tc main_arg7) := W14_of_ne m ρ c main_arg7 (by decide)
    _ = W12 m ρ c (Proc.devRef .tc main_arg7) := keepH6 m ρ c main_arg7 (by decide)
    _ = W11 m ρ c (Proc.devRef .tc main_arg7) := W12_of_ne m ρ c main_arg7 (by decide)
    _ = W10 m ρ c (Proc.devRef .tc main_arg7) := keepH5 m ρ c main_arg7 (by decide)
    _ = W9 m ρ c (Proc.devRef .tc main_arg7) := W10_of_ne m ρ c main_arg7 (by decide)
    _ = W8 m ρ c (Proc.devRef .tc main_arg7) := keepH4 m ρ c main_arg7 (by decide)
    _ = W7 m ρ c (Proc.devRef .tc main_arg7) := W8_of_ne m ρ c main_arg7 (by decide)
    _ = W6 m ρ c (Proc.devRef .tc main_arg7) := keepH3 m ρ c main_arg7 (by decide)
    _ = W5 m ρ c (Proc.devRef .tc main_arg7) := W6_of_ne m ρ c main_arg7 (by decide)
    _ = W4 m ρ c (Proc.devRef .tc main_arg7) := keepH2 m ρ c main_arg7 (by decide)
    _ = W3 m ρ c (Proc.devRef .tc main_arg7) := W4_of_ne m ρ c main_arg7 (by decide)
    _ = W2 m ρ c (Proc.devRef .tc main_arg7) := keepH1 m ρ c main_arg7 (by decide)
    _ = W1 m ρ c (Proc.devRef .tc main_arg7) := W2_of_ne m ρ c main_arg7 (by decide)
    _ = W0 m ρ c (Proc.devRef .tc main_arg7) := keepH0 m ρ c main_arg7 (by decide)
    _ = m ((c : Thread nD τ).loc main_arg7) := rfl
theorem kept_arg8_W36 (c : Dev nD) : W36 m ρ c (Proc.devRef .tc main_arg8) = m ((c : Thread nD τ).loc main_arg8) :=
  calc W36 m ρ c (Proc.devRef .tc main_arg8)
    _ = W35 m ρ c (Proc.devRef .tc main_arg8) := W36_of_ne m ρ c main_arg8 (by decide)
    _ = W34 m ρ c (Proc.devRef .tc main_arg8) := keepH17 m ρ c main_arg8 (by decide)
    _ = W33 m ρ c (Proc.devRef .tc main_arg8) := W34_of_ne m ρ c main_arg8 (by decide)
    _ = W32 m ρ c (Proc.devRef .tc main_arg8) := keepH16 m ρ c main_arg8 (by decide)
    _ = W31 m ρ c (Proc.devRef .tc main_arg8) := W32_of_ne m ρ c main_arg8 (by decide)
    _ = W30 m ρ c (Proc.devRef .tc main_arg8) := keepH15 m ρ c main_arg8 (by decide)
    _ = W29 m ρ c (Proc.devRef .tc main_arg8) := W30_of_ne m ρ c main_arg8 (by decide)
    _ = W28 m ρ c (Proc.devRef .tc main_arg8) := keepH14 m ρ c main_arg8 (by decide)
    _ = W27 m ρ c (Proc.devRef .tc main_arg8) := W28_of_ne m ρ c main_arg8 (by decide)
    _ = W26 m ρ c (Proc.devRef .tc main_arg8) := keepH13 m ρ c main_arg8 (by decide)
    _ = W25 m ρ c (Proc.devRef .tc main_arg8) := W26_of_ne m ρ c main_arg8 (by decide)
    _ = W24 m ρ c (Proc.devRef .tc main_arg8) := keepH12 m ρ c main_arg8 (by decide)
    _ = W23 m ρ c (Proc.devRef .tc main_arg8) := W24_of_ne m ρ c main_arg8 (by decide)
    _ = W22 m ρ c (Proc.devRef .tc main_arg8) := keepH11 m ρ c main_arg8 (by decide)
    _ = W21 m ρ c (Proc.devRef .tc main_arg8) := W22_of_ne m ρ c main_arg8 (by decide)
    _ = W20 m ρ c (Proc.devRef .tc main_arg8) := keepH10 m ρ c main_arg8 (by decide)
    _ = W19 m ρ c (Proc.devRef .tc main_arg8) := W20_of_ne m ρ c main_arg8 (by decide)
    _ = W18 m ρ c (Proc.devRef .tc main_arg8) := keepH9 m ρ c main_arg8 (by decide)
    _ = W17 m ρ c (Proc.devRef .tc main_arg8) := W18_of_ne m ρ c main_arg8 (by decide)
    _ = W16 m ρ c (Proc.devRef .tc main_arg8) := keepH8 m ρ c main_arg8 (by decide)
    _ = W15 m ρ c (Proc.devRef .tc main_arg8) := W16_of_ne m ρ c main_arg8 (by decide)
    _ = W14 m ρ c (Proc.devRef .tc main_arg8) := keepH7 m ρ c main_arg8 (by decide)
    _ = W13 m ρ c (Proc.devRef .tc main_arg8) := W14_of_ne m ρ c main_arg8 (by decide)
    _ = W12 m ρ c (Proc.devRef .tc main_arg8) := keepH6 m ρ c main_arg8 (by decide)
    _ = W11 m ρ c (Proc.devRef .tc main_arg8) := W12_of_ne m ρ c main_arg8 (by decide)
    _ = W10 m ρ c (Proc.devRef .tc main_arg8) := keepH5 m ρ c main_arg8 (by decide)
    _ = W9 m ρ c (Proc.devRef .tc main_arg8) := W10_of_ne m ρ c main_arg8 (by decide)
    _ = W8 m ρ c (Proc.devRef .tc main_arg8) := keepH4 m ρ c main_arg8 (by decide)
    _ = W7 m ρ c (Proc.devRef .tc main_arg8) := W8_of_ne m ρ c main_arg8 (by decide)
    _ = W6 m ρ c (Proc.devRef .tc main_arg8) := keepH3 m ρ c main_arg8 (by decide)
    _ = W5 m ρ c (Proc.devRef .tc main_arg8) := W6_of_ne m ρ c main_arg8 (by decide)
    _ = W4 m ρ c (Proc.devRef .tc main_arg8) := keepH2 m ρ c main_arg8 (by decide)
    _ = W3 m ρ c (Proc.devRef .tc main_arg8) := W4_of_ne m ρ c main_arg8 (by decide)
    _ = W2 m ρ c (Proc.devRef .tc main_arg8) := keepH1 m ρ c main_arg8 (by decide)
    _ = W1 m ρ c (Proc.devRef .tc main_arg8) := W2_of_ne m ρ c main_arg8 (by decide)
    _ = W0 m ρ c (Proc.devRef .tc main_arg8) := keepH0 m ρ c main_arg8 (by decide)
    _ = m ((c : Thread nD τ).loc main_arg8) := rfl
theorem kept_arg9_W36 (c : Dev nD) : W36 m ρ c (Proc.devRef .tc main_arg9) = m ((c : Thread nD τ).loc main_arg9) :=
  calc W36 m ρ c (Proc.devRef .tc main_arg9)
    _ = W35 m ρ c (Proc.devRef .tc main_arg9) := W36_of_ne m ρ c main_arg9 (by decide)
    _ = W34 m ρ c (Proc.devRef .tc main_arg9) := keepH17 m ρ c main_arg9 (by decide)
    _ = W33 m ρ c (Proc.devRef .tc main_arg9) := W34_of_ne m ρ c main_arg9 (by decide)
    _ = W32 m ρ c (Proc.devRef .tc main_arg9) := keepH16 m ρ c main_arg9 (by decide)
    _ = W31 m ρ c (Proc.devRef .tc main_arg9) := W32_of_ne m ρ c main_arg9 (by decide)
    _ = W30 m ρ c (Proc.devRef .tc main_arg9) := keepH15 m ρ c main_arg9 (by decide)
    _ = W29 m ρ c (Proc.devRef .tc main_arg9) := W30_of_ne m ρ c main_arg9 (by decide)
    _ = W28 m ρ c (Proc.devRef .tc main_arg9) := keepH14 m ρ c main_arg9 (by decide)
    _ = W27 m ρ c (Proc.devRef .tc main_arg9) := W28_of_ne m ρ c main_arg9 (by decide)
    _ = W26 m ρ c (Proc.devRef .tc main_arg9) := keepH13 m ρ c main_arg9 (by decide)
    _ = W25 m ρ c (Proc.devRef .tc main_arg9) := W26_of_ne m ρ c main_arg9 (by decide)
    _ = W24 m ρ c (Proc.devRef .tc main_arg9) := keepH12 m ρ c main_arg9 (by decide)
    _ = W23 m ρ c (Proc.devRef .tc main_arg9) := W24_of_ne m ρ c main_arg9 (by decide)
    _ = W22 m ρ c (Proc.devRef .tc main_arg9) := keepH11 m ρ c main_arg9 (by decide)
    _ = W21 m ρ c (Proc.devRef .tc main_arg9) := W22_of_ne m ρ c main_arg9 (by decide)
    _ = W20 m ρ c (Proc.devRef .tc main_arg9) := keepH10 m ρ c main_arg9 (by decide)
    _ = W19 m ρ c (Proc.devRef .tc main_arg9) := W20_of_ne m ρ c main_arg9 (by decide)
    _ = W18 m ρ c (Proc.devRef .tc main_arg9) := keepH9 m ρ c main_arg9 (by decide)
    _ = W17 m ρ c (Proc.devRef .tc main_arg9) := W18_of_ne m ρ c main_arg9 (by decide)
    _ = W16 m ρ c (Proc.devRef .tc main_arg9) := keepH8 m ρ c main_arg9 (by decide)
    _ = W15 m ρ c (Proc.devRef .tc main_arg9) := W16_of_ne m ρ c main_arg9 (by decide)
    _ = W14 m ρ c (Proc.devRef .tc main_arg9) := keepH7 m ρ c main_arg9 (by decide)
    _ = W13 m ρ c (Proc.devRef .tc main_arg9) := W14_of_ne m ρ c main_arg9 (by decide)
    _ = W12 m ρ c (Proc.devRef .tc main_arg9) := keepH6 m ρ c main_arg9 (by decide)
    _ = W11 m ρ c (Proc.devRef .tc main_arg9) := W12_of_ne m ρ c main_arg9 (by decide)
    _ = W10 m ρ c (Proc.devRef .tc main_arg9) := keepH5 m ρ c main_arg9 (by decide)
    _ = W9 m ρ c (Proc.devRef .tc main_arg9) := W10_of_ne m ρ c main_arg9 (by decide)
    _ = W8 m ρ c (Proc.devRef .tc main_arg9) := keepH4 m ρ c main_arg9 (by decide)
    _ = W7 m ρ c (Proc.devRef .tc main_arg9) := W8_of_ne m ρ c main_arg9 (by decide)
    _ = W6 m ρ c (Proc.devRef .tc main_arg9) := keepH3 m ρ c main_arg9 (by decide)
    _ = W5 m ρ c (Proc.devRef .tc main_arg9) := W6_of_ne m ρ c main_arg9 (by decide)
    _ = W4 m ρ c (Proc.devRef .tc main_arg9) := keepH2 m ρ c main_arg9 (by decide)
    _ = W3 m ρ c (Proc.devRef .tc main_arg9) := W4_of_ne m ρ c main_arg9 (by decide)
    _ = W2 m ρ c (Proc.devRef .tc main_arg9) := keepH1 m ρ c main_arg9 (by decide)
    _ = W1 m ρ c (Proc.devRef .tc main_arg9) := W2_of_ne m ρ c main_arg9 (by decide)
    _ = W0 m ρ c (Proc.devRef .tc main_arg9) := keepH0 m ρ c main_arg9 (by decide)
    _ = m ((c : Thread nD τ).loc main_arg9) := rfl
theorem kept_arg10_W36 (c : Dev nD) : W36 m ρ c (Proc.devRef .tc main_arg10) = m ((c : Thread nD τ).loc main_arg10) :=
  calc W36 m ρ c (Proc.devRef .tc main_arg10)
    _ = W35 m ρ c (Proc.devRef .tc main_arg10) := W36_of_ne m ρ c main_arg10 (by decide)
    _ = W34 m ρ c (Proc.devRef .tc main_arg10) := keepH17 m ρ c main_arg10 (by decide)
    _ = W33 m ρ c (Proc.devRef .tc main_arg10) := W34_of_ne m ρ c main_arg10 (by decide)
    _ = W32 m ρ c (Proc.devRef .tc main_arg10) := keepH16 m ρ c main_arg10 (by decide)
    _ = W31 m ρ c (Proc.devRef .tc main_arg10) := W32_of_ne m ρ c main_arg10 (by decide)
    _ = W30 m ρ c (Proc.devRef .tc main_arg10) := keepH15 m ρ c main_arg10 (by decide)
    _ = W29 m ρ c (Proc.devRef .tc main_arg10) := W30_of_ne m ρ c main_arg10 (by decide)
    _ = W28 m ρ c (Proc.devRef .tc main_arg10) := keepH14 m ρ c main_arg10 (by decide)
    _ = W27 m ρ c (Proc.devRef .tc main_arg10) := W28_of_ne m ρ c main_arg10 (by decide)
    _ = W26 m ρ c (Proc.devRef .tc main_arg10) := keepH13 m ρ c main_arg10 (by decide)
    _ = W25 m ρ c (Proc.devRef .tc main_arg10) := W26_of_ne m ρ c main_arg10 (by decide)
    _ = W24 m ρ c (Proc.devRef .tc main_arg10) := keepH12 m ρ c main_arg10 (by decide)
    _ = W23 m ρ c (Proc.devRef .tc main_arg10) := W24_of_ne m ρ c main_arg10 (by decide)
    _ = W22 m ρ c (Proc.devRef .tc main_arg10) := keepH11 m ρ c main_arg10 (by decide)
    _ = W21 m ρ c (Proc.devRef .tc main_arg10) := W22_of_ne m ρ c main_arg10 (by decide)
    _ = W20 m ρ c (Proc.devRef .tc main_arg10) := keepH10 m ρ c main_arg10 (by decide)
    _ = W19 m ρ c (Proc.devRef .tc main_arg10) := W20_of_ne m ρ c main_arg10 (by decide)
    _ = W18 m ρ c (Proc.devRef .tc main_arg10) := keepH9 m ρ c main_arg10 (by decide)
    _ = W17 m ρ c (Proc.devRef .tc main_arg10) := W18_of_ne m ρ c main_arg10 (by decide)
    _ = W16 m ρ c (Proc.devRef .tc main_arg10) := keepH8 m ρ c main_arg10 (by decide)
    _ = W15 m ρ c (Proc.devRef .tc main_arg10) := W16_of_ne m ρ c main_arg10 (by decide)
    _ = W14 m ρ c (Proc.devRef .tc main_arg10) := keepH7 m ρ c main_arg10 (by decide)
    _ = W13 m ρ c (Proc.devRef .tc main_arg10) := W14_of_ne m ρ c main_arg10 (by decide)
    _ = W12 m ρ c (Proc.devRef .tc main_arg10) := keepH6 m ρ c main_arg10 (by decide)
    _ = W11 m ρ c (Proc.devRef .tc main_arg10) := W12_of_ne m ρ c main_arg10 (by decide)
    _ = W10 m ρ c (Proc.devRef .tc main_arg10) := keepH5 m ρ c main_arg10 (by decide)
    _ = W9 m ρ c (Proc.devRef .tc main_arg10) := W10_of_ne m ρ c main_arg10 (by decide)
    _ = W8 m ρ c (Proc.devRef .tc main_arg10) := keepH4 m ρ c main_arg10 (by decide)
    _ = W7 m ρ c (Proc.devRef .tc main_arg10) := W8_of_ne m ρ c main_arg10 (by decide)
    _ = W6 m ρ c (Proc.devRef .tc main_arg10) := keepH3 m ρ c main_arg10 (by decide)
    _ = W5 m ρ c (Proc.devRef .tc main_arg10) := W6_of_ne m ρ c main_arg10 (by decide)
    _ = W4 m ρ c (Proc.devRef .tc main_arg10) := keepH2 m ρ c main_arg10 (by decide)
    _ = W3 m ρ c (Proc.devRef .tc main_arg10) := W4_of_ne m ρ c main_arg10 (by decide)
    _ = W2 m ρ c (Proc.devRef .tc main_arg10) := keepH1 m ρ c main_arg10 (by decide)
    _ = W1 m ρ c (Proc.devRef .tc main_arg10) := W2_of_ne m ρ c main_arg10 (by decide)
    _ = W0 m ρ c (Proc.devRef .tc main_arg10) := keepH0 m ρ c main_arg10 (by decide)
    _ = m ((c : Thread nD τ).loc main_arg10) := rfl
theorem kept_arg11_W36 (c : Dev nD) : W36 m ρ c (Proc.devRef .tc main_arg11) = m ((c : Thread nD τ).loc main_arg11) :=
  calc W36 m ρ c (Proc.devRef .tc main_arg11)
    _ = W35 m ρ c (Proc.devRef .tc main_arg11) := W36_of_ne m ρ c main_arg11 (by decide)
    _ = W34 m ρ c (Proc.devRef .tc main_arg11) := keepH17 m ρ c main_arg11 (by decide)
    _ = W33 m ρ c (Proc.devRef .tc main_arg11) := W34_of_ne m ρ c main_arg11 (by decide)
    _ = W32 m ρ c (Proc.devRef .tc main_arg11) := keepH16 m ρ c main_arg11 (by decide)
    _ = W31 m ρ c (Proc.devRef .tc main_arg11) := W32_of_ne m ρ c main_arg11 (by decide)
    _ = W30 m ρ c (Proc.devRef .tc main_arg11) := keepH15 m ρ c main_arg11 (by decide)
    _ = W29 m ρ c (Proc.devRef .tc main_arg11) := W30_of_ne m ρ c main_arg11 (by decide)
    _ = W28 m ρ c (Proc.devRef .tc main_arg11) := keepH14 m ρ c main_arg11 (by decide)
    _ = W27 m ρ c (Proc.devRef .tc main_arg11) := W28_of_ne m ρ c main_arg11 (by decide)
    _ = W26 m ρ c (Proc.devRef .tc main_arg11) := keepH13 m ρ c main_arg11 (by decide)
    _ = W25 m ρ c (Proc.devRef .tc main_arg11) := W26_of_ne m ρ c main_arg11 (by decide)
    _ = W24 m ρ c (Proc.devRef .tc main_arg11) := keepH12 m ρ c main_arg11 (by decide)
    _ = W23 m ρ c (Proc.devRef .tc main_arg11) := W24_of_ne m ρ c main_arg11 (by decide)
    _ = W22 m ρ c (Proc.devRef .tc main_arg11) := keepH11 m ρ c main_arg11 (by decide)
    _ = W21 m ρ c (Proc.devRef .tc main_arg11) := W22_of_ne m ρ c main_arg11 (by decide)
    _ = W20 m ρ c (Proc.devRef .tc main_arg11) := keepH10 m ρ c main_arg11 (by decide)
    _ = W19 m ρ c (Proc.devRef .tc main_arg11) := W20_of_ne m ρ c main_arg11 (by decide)
    _ = W18 m ρ c (Proc.devRef .tc main_arg11) := keepH9 m ρ c main_arg11 (by decide)
    _ = W17 m ρ c (Proc.devRef .tc main_arg11) := W18_of_ne m ρ c main_arg11 (by decide)
    _ = W16 m ρ c (Proc.devRef .tc main_arg11) := keepH8 m ρ c main_arg11 (by decide)
    _ = W15 m ρ c (Proc.devRef .tc main_arg11) := W16_of_ne m ρ c main_arg11 (by decide)
    _ = W14 m ρ c (Proc.devRef .tc main_arg11) := keepH7 m ρ c main_arg11 (by decide)
    _ = W13 m ρ c (Proc.devRef .tc main_arg11) := W14_of_ne m ρ c main_arg11 (by decide)
    _ = W12 m ρ c (Proc.devRef .tc main_arg11) := keepH6 m ρ c main_arg11 (by decide)
    _ = W11 m ρ c (Proc.devRef .tc main_arg11) := W12_of_ne m ρ c main_arg11 (by decide)
    _ = W10 m ρ c (Proc.devRef .tc main_arg11) := keepH5 m ρ c main_arg11 (by decide)
    _ = W9 m ρ c (Proc.devRef .tc main_arg11) := W10_of_ne m ρ c main_arg11 (by decide)
    _ = W8 m ρ c (Proc.devRef .tc main_arg11) := keepH4 m ρ c main_arg11 (by decide)
    _ = W7 m ρ c (Proc.devRef .tc main_arg11) := W8_of_ne m ρ c main_arg11 (by decide)
    _ = W6 m ρ c (Proc.devRef .tc main_arg11) := keepH3 m ρ c main_arg11 (by decide)
    _ = W5 m ρ c (Proc.devRef .tc main_arg11) := W6_of_ne m ρ c main_arg11 (by decide)
    _ = W4 m ρ c (Proc.devRef .tc main_arg11) := keepH2 m ρ c main_arg11 (by decide)
    _ = W3 m ρ c (Proc.devRef .tc main_arg11) := W4_of_ne m ρ c main_arg11 (by decide)
    _ = W2 m ρ c (Proc.devRef .tc main_arg11) := keepH1 m ρ c main_arg11 (by decide)
    _ = W1 m ρ c (Proc.devRef .tc main_arg11) := W2_of_ne m ρ c main_arg11 (by decide)
    _ = W0 m ρ c (Proc.devRef .tc main_arg11) := keepH0 m ρ c main_arg11 (by decide)
    _ = m ((c : Thread nD τ).loc main_arg11) := rfl
theorem kept_arg12_W36 (c : Dev nD) : W36 m ρ c (Proc.devRef .tc main_arg12) = m ((c : Thread nD τ).loc main_arg12) :=
  calc W36 m ρ c (Proc.devRef .tc main_arg12)
    _ = W35 m ρ c (Proc.devRef .tc main_arg12) := W36_of_ne m ρ c main_arg12 (by decide)
    _ = W34 m ρ c (Proc.devRef .tc main_arg12) := keepH17 m ρ c main_arg12 (by decide)
    _ = W33 m ρ c (Proc.devRef .tc main_arg12) := W34_of_ne m ρ c main_arg12 (by decide)
    _ = W32 m ρ c (Proc.devRef .tc main_arg12) := keepH16 m ρ c main_arg12 (by decide)
    _ = W31 m ρ c (Proc.devRef .tc main_arg12) := W32_of_ne m ρ c main_arg12 (by decide)
    _ = W30 m ρ c (Proc.devRef .tc main_arg12) := keepH15 m ρ c main_arg12 (by decide)
    _ = W29 m ρ c (Proc.devRef .tc main_arg12) := W30_of_ne m ρ c main_arg12 (by decide)
    _ = W28 m ρ c (Proc.devRef .tc main_arg12) := keepH14 m ρ c main_arg12 (by decide)
    _ = W27 m ρ c (Proc.devRef .tc main_arg12) := W28_of_ne m ρ c main_arg12 (by decide)
    _ = W26 m ρ c (Proc.devRef .tc main_arg12) := keepH13 m ρ c main_arg12 (by decide)
    _ = W25 m ρ c (Proc.devRef .tc main_arg12) := W26_of_ne m ρ c main_arg12 (by decide)
    _ = W24 m ρ c (Proc.devRef .tc main_arg12) := keepH12 m ρ c main_arg12 (by decide)
    _ = W23 m ρ c (Proc.devRef .tc main_arg12) := W24_of_ne m ρ c main_arg12 (by decide)
    _ = W22 m ρ c (Proc.devRef .tc main_arg12) := keepH11 m ρ c main_arg12 (by decide)
    _ = W21 m ρ c (Proc.devRef .tc main_arg12) := W22_of_ne m ρ c main_arg12 (by decide)
    _ = W20 m ρ c (Proc.devRef .tc main_arg12) := keepH10 m ρ c main_arg12 (by decide)
    _ = W19 m ρ c (Proc.devRef .tc main_arg12) := W20_of_ne m ρ c main_arg12 (by decide)
    _ = W18 m ρ c (Proc.devRef .tc main_arg12) := keepH9 m ρ c main_arg12 (by decide)
    _ = W17 m ρ c (Proc.devRef .tc main_arg12) := W18_of_ne m ρ c main_arg12 (by decide)
    _ = W16 m ρ c (Proc.devRef .tc main_arg12) := keepH8 m ρ c main_arg12 (by decide)
    _ = W15 m ρ c (Proc.devRef .tc main_arg12) := W16_of_ne m ρ c main_arg12 (by decide)
    _ = W14 m ρ c (Proc.devRef .tc main_arg12) := keepH7 m ρ c main_arg12 (by decide)
    _ = W13 m ρ c (Proc.devRef .tc main_arg12) := W14_of_ne m ρ c main_arg12 (by decide)
    _ = W12 m ρ c (Proc.devRef .tc main_arg12) := keepH6 m ρ c main_arg12 (by decide)
    _ = W11 m ρ c (Proc.devRef .tc main_arg12) := W12_of_ne m ρ c main_arg12 (by decide)
    _ = W10 m ρ c (Proc.devRef .tc main_arg12) := keepH5 m ρ c main_arg12 (by decide)
    _ = W9 m ρ c (Proc.devRef .tc main_arg12) := W10_of_ne m ρ c main_arg12 (by decide)
    _ = W8 m ρ c (Proc.devRef .tc main_arg12) := keepH4 m ρ c main_arg12 (by decide)
    _ = W7 m ρ c (Proc.devRef .tc main_arg12) := W8_of_ne m ρ c main_arg12 (by decide)
    _ = W6 m ρ c (Proc.devRef .tc main_arg12) := keepH3 m ρ c main_arg12 (by decide)
    _ = W5 m ρ c (Proc.devRef .tc main_arg12) := W6_of_ne m ρ c main_arg12 (by decide)
    _ = W4 m ρ c (Proc.devRef .tc main_arg12) := keepH2 m ρ c main_arg12 (by decide)
    _ = W3 m ρ c (Proc.devRef .tc main_arg12) := W4_of_ne m ρ c main_arg12 (by decide)
    _ = W2 m ρ c (Proc.devRef .tc main_arg12) := keepH1 m ρ c main_arg12 (by decide)
    _ = W1 m ρ c (Proc.devRef .tc main_arg12) := W2_of_ne m ρ c main_arg12 (by decide)
    _ = W0 m ρ c (Proc.devRef .tc main_arg12) := keepH0 m ρ c main_arg12 (by decide)
    _ = m ((c : Thread nD τ).loc main_arg12) := rfl
theorem kept_arg13_W36 (c : Dev nD) : W36 m ρ c (Proc.devRef .tc main_arg13) = m ((c : Thread nD τ).loc main_arg13) :=
  calc W36 m ρ c (Proc.devRef .tc main_arg13)
    _ = W35 m ρ c (Proc.devRef .tc main_arg13) := W36_of_ne m ρ c main_arg13 (by decide)
    _ = W34 m ρ c (Proc.devRef .tc main_arg13) := keepH17 m ρ c main_arg13 (by decide)
    _ = W33 m ρ c (Proc.devRef .tc main_arg13) := W34_of_ne m ρ c main_arg13 (by decide)
    _ = W32 m ρ c (Proc.devRef .tc main_arg13) := keepH16 m ρ c main_arg13 (by decide)
    _ = W31 m ρ c (Proc.devRef .tc main_arg13) := W32_of_ne m ρ c main_arg13 (by decide)
    _ = W30 m ρ c (Proc.devRef .tc main_arg13) := keepH15 m ρ c main_arg13 (by decide)
    _ = W29 m ρ c (Proc.devRef .tc main_arg13) := W30_of_ne m ρ c main_arg13 (by decide)
    _ = W28 m ρ c (Proc.devRef .tc main_arg13) := keepH14 m ρ c main_arg13 (by decide)
    _ = W27 m ρ c (Proc.devRef .tc main_arg13) := W28_of_ne m ρ c main_arg13 (by decide)
    _ = W26 m ρ c (Proc.devRef .tc main_arg13) := keepH13 m ρ c main_arg13 (by decide)
    _ = W25 m ρ c (Proc.devRef .tc main_arg13) := W26_of_ne m ρ c main_arg13 (by decide)
    _ = W24 m ρ c (Proc.devRef .tc main_arg13) := keepH12 m ρ c main_arg13 (by decide)
    _ = W23 m ρ c (Proc.devRef .tc main_arg13) := W24_of_ne m ρ c main_arg13 (by decide)
    _ = W22 m ρ c (Proc.devRef .tc main_arg13) := keepH11 m ρ c main_arg13 (by decide)
    _ = W21 m ρ c (Proc.devRef .tc main_arg13) := W22_of_ne m ρ c main_arg13 (by decide)
    _ = W20 m ρ c (Proc.devRef .tc main_arg13) := keepH10 m ρ c main_arg13 (by decide)
    _ = W19 m ρ c (Proc.devRef .tc main_arg13) := W20_of_ne m ρ c main_arg13 (by decide)
    _ = W18 m ρ c (Proc.devRef .tc main_arg13) := keepH9 m ρ c main_arg13 (by decide)
    _ = W17 m ρ c (Proc.devRef .tc main_arg13) := W18_of_ne m ρ c main_arg13 (by decide)
    _ = W16 m ρ c (Proc.devRef .tc main_arg13) := keepH8 m ρ c main_arg13 (by decide)
    _ = W15 m ρ c (Proc.devRef .tc main_arg13) := W16_of_ne m ρ c main_arg13 (by decide)
    _ = W14 m ρ c (Proc.devRef .tc main_arg13) := keepH7 m ρ c main_arg13 (by decide)
    _ = W13 m ρ c (Proc.devRef .tc main_arg13) := W14_of_ne m ρ c main_arg13 (by decide)
    _ = W12 m ρ c (Proc.devRef .tc main_arg13) := keepH6 m ρ c main_arg13 (by decide)
    _ = W11 m ρ c (Proc.devRef .tc main_arg13) := W12_of_ne m ρ c main_arg13 (by decide)
    _ = W10 m ρ c (Proc.devRef .tc main_arg13) := keepH5 m ρ c main_arg13 (by decide)
    _ = W9 m ρ c (Proc.devRef .tc main_arg13) := W10_of_ne m ρ c main_arg13 (by decide)
    _ = W8 m ρ c (Proc.devRef .tc main_arg13) := keepH4 m ρ c main_arg13 (by decide)
    _ = W7 m ρ c (Proc.devRef .tc main_arg13) := W8_of_ne m ρ c main_arg13 (by decide)
    _ = W6 m ρ c (Proc.devRef .tc main_arg13) := keepH3 m ρ c main_arg13 (by decide)
    _ = W5 m ρ c (Proc.devRef .tc main_arg13) := W6_of_ne m ρ c main_arg13 (by decide)
    _ = W4 m ρ c (Proc.devRef .tc main_arg13) := keepH2 m ρ c main_arg13 (by decide)
    _ = W3 m ρ c (Proc.devRef .tc main_arg13) := W4_of_ne m ρ c main_arg13 (by decide)
    _ = W2 m ρ c (Proc.devRef .tc main_arg13) := keepH1 m ρ c main_arg13 (by decide)
    _ = W1 m ρ c (Proc.devRef .tc main_arg13) := W2_of_ne m ρ c main_arg13 (by decide)
    _ = W0 m ρ c (Proc.devRef .tc main_arg13) := keepH0 m ρ c main_arg13 (by decide)
    _ = m ((c : Thread nD τ).loc main_arg13) := rfl
theorem kept_arg14_W4 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := keepH1 m ρ c main_arg14 (by decide)
    _ = W1 m ρ c (Proc.devRef .tc main_arg14) := W2_of_ne m ρ c main_arg14 (by decide)
    _ = W0 m ρ c (Proc.devRef .tc main_arg14) := keepH0 m ρ c main_arg14 (by decide)
    _ = m ((c : Thread nD τ).loc main_arg14) := rfl
theorem kept_arg14_W12 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := keepH5 m ρ c main_arg14 (by decide)
    _ = W9 m ρ c (Proc.devRef .tc main_arg14) := W10_of_ne m ρ c main_arg14 (by decide)
    _ = W8 m ρ c (Proc.devRef .tc main_arg14) := keepH4 m ρ c main_arg14 (by decide)
    _ = W7 m ρ c (Proc.devRef .tc main_arg14) := W8_of_ne m ρ c main_arg14 (by decide)
    _ = W6 m ρ c (Proc.devRef .tc main_arg14) := keepH3 m ρ c main_arg14 (by decide)
    _ = W5 m ρ c (Proc.devRef .tc main_arg14) := W6_of_ne m ρ c main_arg14 (by decide)
    _ = W4 m ρ c (Proc.devRef .tc main_arg14) := keepH2 m ρ c main_arg14 (by decide)
    _ = m ((c : Thread nD τ).loc main_arg14) := kept_arg14_W4 m ρ c
theorem kept_arg14_W20 (c : Dev nD) : W20 m ρ c (Proc.devRef .tc main_arg14) = m ((c : Thread nD τ).loc main_arg14) :=
  calc W20 m ρ c (Proc.devRef .tc main_arg14)
    _ = W19 m ρ c (Proc.devRef .tc main_arg14) := W20_of_ne m ρ c main_arg14 (by decide)
    _ = W18 m ρ c (Proc.devRef .tc main_arg14) := keepH9 m ρ c main_arg14 (by decide)
    _ = W17 m ρ c (Proc.devRef .tc main_arg14) := W18_of_ne m ρ c main_arg14 (by decide)
    _ = W16 m ρ c (Proc.devRef .tc main_arg14) := keepH8 m ρ c main_arg14 (by decide)
    _ = W15 m ρ c (Proc.devRef .tc main_arg14) := W16_of_ne m ρ c main_arg14 (by decide)
    _ = W14 m ρ c (Proc.devRef .tc main_arg14) := keepH7 m ρ c main_arg14 (by decide)
    _ = W13 m ρ c (Proc.devRef .tc main_arg14) := W14_of_ne m ρ c main_arg14 (by decide)
    _ = W12 m ρ c (Proc.devRef .tc main_arg14) := keepH6 m ρ c main_arg14 (by decide)
    _ = m ((c : Thread nD τ).loc main_arg14) := kept_arg14_W12 m ρ c
theorem kept_arg14_W28 (c : Dev nD) : W28 m ρ c (Proc.devRef .tc main_arg14) = m ((c : Thread nD τ).loc main_arg14) :=
  calc W28 m ρ c (Proc.devRef .tc main_arg14)
    _ = W27 m ρ c (Proc.devRef .tc main_arg14) := W28_of_ne m ρ c main_arg14 (by decide)
    _ = W26 m ρ c (Proc.devRef .tc main_arg14) := keepH13 m ρ c main_arg14 (by decide)
    _ = W25 m ρ c (Proc.devRef .tc main_arg14) := W26_of_ne m ρ c main_arg14 (by decide)
    _ = W24 m ρ c (Proc.devRef .tc main_arg14) := keepH12 m ρ c main_arg14 (by decide)
    _ = W23 m ρ c (Proc.devRef .tc main_arg14) := W24_of_ne m ρ c main_arg14 (by decide)
    _ = W22 m ρ c (Proc.devRef .tc main_arg14) := keepH11 m ρ c main_arg14 (by decide)
    _ = W21 m ρ c (Proc.devRef .tc main_arg14) := W22_of_ne m ρ c main_arg14 (by decide)
    _ = W20 m ρ c (Proc.devRef .tc main_arg14) := keepH10 m ρ c main_arg14 (by decide)
    _ = m ((c : Thread nD τ).loc main_arg14) := kept_arg14_W20 m ρ c
theorem kept_arg15_W6 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := keepH2 m ρ c main_arg15 (by decide)
    _ = W3 m ρ c (Proc.devRef .tc main_arg15) := W4_of_ne m ρ c main_arg15 (by decide)
    _ = W2 m ρ c (Proc.devRef .tc main_arg15) := keepH1 m ρ c main_arg15 (by decide)
    _ = W1 m ρ c (Proc.devRef .tc main_arg15) := W2_of_ne m ρ c main_arg15 (by decide)
    _ = W0 m ρ c (Proc.devRef .tc main_arg15) := keepH0 m ρ c main_arg15 (by decide)
    _ = m ((c : Thread nD τ).loc main_arg15) := rfl
theorem kept_arg15_W14 (c : Dev nD) : W14 m ρ c (Proc.devRef .tc main_arg15) = m ((c : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := keepH6 m ρ c main_arg15 (by decide)
    _ = W11 m ρ c (Proc.devRef .tc main_arg15) := W12_of_ne m ρ c main_arg15 (by decide)
    _ = W10 m ρ c (Proc.devRef .tc main_arg15) := keepH5 m ρ c main_arg15 (by decide)
    _ = W9 m ρ c (Proc.devRef .tc main_arg15) := W10_of_ne m ρ c main_arg15 (by decide)
    _ = W8 m ρ c (Proc.devRef .tc main_arg15) := keepH4 m ρ c main_arg15 (by decide)
    _ = W7 m ρ c (Proc.devRef .tc main_arg15) := W8_of_ne m ρ c main_arg15 (by decide)
    _ = W6 m ρ c (Proc.devRef .tc main_arg15) := keepH3 m ρ c main_arg15 (by decide)
    _ = m ((c : Thread nD τ).loc main_arg15) := kept_arg15_W6 m ρ c
theorem kept_arg15_W22 (c : Dev nD) : W22 m ρ c (Proc.devRef .tc main_arg15) = m ((c : Thread nD τ).loc main_arg15) :=
  calc W22 m ρ c (Proc.devRef .tc main_arg15)
    _ = W21 m ρ c (Proc.devRef .tc main_arg15) := W22_of_ne m ρ c main_arg15 (by decide)
    _ = W20 m ρ c (Proc.devRef .tc main_arg15) := keepH10 m ρ c main_arg15 (by decide)
    _ = W19 m ρ c (Proc.devRef .tc main_arg15) := W20_of_ne m ρ c main_arg15 (by decide)
    _ = W18 m ρ c (Proc.devRef .tc main_arg15) := keepH9 m ρ c main_arg15 (by decide)
    _ = W17 m ρ c (Proc.devRef .tc main_arg15) := W18_of_ne m ρ c main_arg15 (by decide)
    _ = W16 m ρ c (Proc.devRef .tc main_arg15) := keepH8 m ρ c main_arg15 (by decide)
    _ = W15 m ρ c (Proc.devRef .tc main_arg15) := W16_of_ne m ρ c main_arg15 (by decide)
    _ = W14 m ρ c (Proc.devRef .tc main_arg15) := keepH7 m ρ c main_arg15 (by decide)
    _ = m ((c : Thread nD τ).loc main_arg15) := kept_arg15_W14 m ρ c
theorem kept_arg15_W30 (c : Dev nD) : W30 m ρ c (Proc.devRef .tc main_arg15) = m ((c : Thread nD τ).loc main_arg15) :=
  calc W30 m ρ c (Proc.devRef .tc main_arg15)
    _ = W29 m ρ c (Proc.devRef .tc main_arg15) := W30_of_ne m ρ c main_arg15 (by decide)
    _ = W28 m ρ c (Proc.devRef .tc main_arg15) := keepH14 m ρ c main_arg15 (by decide)
    _ = W27 m ρ c (Proc.devRef .tc main_arg15) := W28_of_ne m ρ c main_arg15 (by decide)
    _ = W26 m ρ c (Proc.devRef .tc main_arg15) := keepH13 m ρ c main_arg15 (by decide)
    _ = W25 m ρ c (Proc.devRef .tc main_arg15) := W26_of_ne m ρ c main_arg15 (by decide)
    _ = W24 m ρ c (Proc.devRef .tc main_arg15) := keepH12 m ρ c main_arg15 (by decide)
    _ = W23 m ρ c (Proc.devRef .tc main_arg15) := W24_of_ne m ρ c main_arg15 (by decide)
    _ = W22 m ρ c (Proc.devRef .tc main_arg15) := keepH11 m ρ c main_arg15 (by decide)
    _ = m ((c : Thread nD τ).loc main_arg15) := kept_arg15_W22 m ρ c
theorem kept_arg16_W8 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := keepH3 m ρ c main_arg16 (by decide)
    _ = W5 m ρ c (Proc.devRef .tc main_arg16) := W6_of_ne m ρ c main_arg16 (by decide)
    _ = W4 m ρ c (Proc.devRef .tc main_arg16) := keepH2 m ρ c main_arg16 (by decide)
    _ = W3 m ρ c (Proc.devRef .tc main_arg16) := W4_of_ne m ρ c main_arg16 (by decide)
    _ = W2 m ρ c (Proc.devRef .tc main_arg16) := keepH1 m ρ c main_arg16 (by decide)
    _ = W1 m ρ c (Proc.devRef .tc main_arg16) := W2_of_ne m ρ c main_arg16 (by decide)
    _ = W0 m ρ c (Proc.devRef .tc main_arg16) := keepH0 m ρ c main_arg16 (by decide)
    _ = m ((c : Thread nD τ).loc main_arg16) := rfl
theorem kept_arg16_W16 (c : Dev nD) : W16 m ρ c (Proc.devRef .tc main_arg16) = m ((c : Thread nD τ).loc main_arg16) :=
  calc W16 m ρ c (Proc.devRef .tc main_arg16)
    _ = W15 m ρ c (Proc.devRef .tc main_arg16) := W16_of_ne m ρ c main_arg16 (by decide)
    _ = W14 m ρ c (Proc.devRef .tc main_arg16) := keepH7 m ρ c main_arg16 (by decide)
    _ = W13 m ρ c (Proc.devRef .tc main_arg16) := W14_of_ne m ρ c main_arg16 (by decide)
    _ = W12 m ρ c (Proc.devRef .tc main_arg16) := keepH6 m ρ c main_arg16 (by decide)
    _ = W11 m ρ c (Proc.devRef .tc main_arg16) := W12_of_ne m ρ c main_arg16 (by decide)
    _ = W10 m ρ c (Proc.devRef .tc main_arg16) := keepH5 m ρ c main_arg16 (by decide)
    _ = W9 m ρ c (Proc.devRef .tc main_arg16) := W10_of_ne m ρ c main_arg16 (by decide)
    _ = W8 m ρ c (Proc.devRef .tc main_arg16) := keepH4 m ρ c main_arg16 (by decide)
    _ = m ((c : Thread nD τ).loc main_arg16) := kept_arg16_W8 m ρ c
theorem kept_arg16_W24 (c : Dev nD) : W24 m ρ c (Proc.devRef .tc main_arg16) = m ((c : Thread nD τ).loc main_arg16) :=
  calc W24 m ρ c (Proc.devRef .tc main_arg16)
    _ = W23 m ρ c (Proc.devRef .tc main_arg16) := W24_of_ne m ρ c main_arg16 (by decide)
    _ = W22 m ρ c (Proc.devRef .tc main_arg16) := keepH11 m ρ c main_arg16 (by decide)
    _ = W21 m ρ c (Proc.devRef .tc main_arg16) := W22_of_ne m ρ c main_arg16 (by decide)
    _ = W20 m ρ c (Proc.devRef .tc main_arg16) := keepH10 m ρ c main_arg16 (by decide)
    _ = W19 m ρ c (Proc.devRef .tc main_arg16) := W20_of_ne m ρ c main_arg16 (by decide)
    _ = W18 m ρ c (Proc.devRef .tc main_arg16) := keepH9 m ρ c main_arg16 (by decide)
    _ = W17 m ρ c (Proc.devRef .tc main_arg16) := W18_of_ne m ρ c main_arg16 (by decide)
    _ = W16 m ρ c (Proc.devRef .tc main_arg16) := keepH8 m ρ c main_arg16 (by decide)
    _ = m ((c : Thread nD τ).loc main_arg16) := kept_arg16_W16 m ρ c
theorem kept_arg16_W32 (c : Dev nD) : W32 m ρ c (Proc.devRef .tc main_arg16) = m ((c : Thread nD τ).loc main_arg16) :=
  calc W32 m ρ c (Proc.devRef .tc main_arg16)
    _ = W31 m ρ c (Proc.devRef .tc main_arg16) := W32_of_ne m ρ c main_arg16 (by decide)
    _ = W30 m ρ c (Proc.devRef .tc main_arg16) := keepH15 m ρ c main_arg16 (by decide)
    _ = W29 m ρ c (Proc.devRef .tc main_arg16) := W30_of_ne m ρ c main_arg16 (by decide)
    _ = W28 m ρ c (Proc.devRef .tc main_arg16) := keepH14 m ρ c main_arg16 (by decide)
    _ = W27 m ρ c (Proc.devRef .tc main_arg16) := W28_of_ne m ρ c main_arg16 (by decide)
    _ = W26 m ρ c (Proc.devRef .tc main_arg16) := keepH13 m ρ c main_arg16 (by decide)
    _ = W25 m ρ c (Proc.devRef .tc main_arg16) := W26_of_ne m ρ c main_arg16 (by decide)
    _ = W24 m ρ c (Proc.devRef .tc main_arg16) := keepH12 m ρ c main_arg16 (by decide)
    _ = m ((c : Thread nD τ).loc main_arg16) := kept_arg16_W24 m ρ c
theorem kept_arg17_W8 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := keepH3 m ρ c main_arg17 (by decide)
    _ = W5 m ρ c (Proc.devRef .tc main_arg17) := W6_of_ne m ρ c main_arg17 (by decide)
    _ = W4 m ρ c (Proc.devRef .tc main_arg17) := keepH2 m ρ c main_arg17 (by decide)
    _ = W3 m ρ c (Proc.devRef .tc main_arg17) := W4_of_ne m ρ c main_arg17 (by decide)
    _ = W2 m ρ c (Proc.devRef .tc main_arg17) := keepH1 m ρ c main_arg17 (by decide)
    _ = W1 m ρ c (Proc.devRef .tc main_arg17) := W2_of_ne m ρ c main_arg17 (by decide)
    _ = W0 m ρ c (Proc.devRef .tc main_arg17) := keepH0 m ρ c main_arg17 (by decide)
    _ = m ((c : Thread nD τ).loc main_arg17) := rfl
theorem kept_arg17_W16 (c : Dev nD) : W16 m ρ c (Proc.devRef .tc main_arg17) = m ((c : Thread nD τ).loc main_arg17) :=
  calc W16 m ρ c (Proc.devRef .tc main_arg17)
    _ = W15 m ρ c (Proc.devRef .tc main_arg17) := W16_of_ne m ρ c main_arg17 (by decide)
    _ = W14 m ρ c (Proc.devRef .tc main_arg17) := keepH7 m ρ c main_arg17 (by decide)
    _ = W13 m ρ c (Proc.devRef .tc main_arg17) := W14_of_ne m ρ c main_arg17 (by decide)
    _ = W12 m ρ c (Proc.devRef .tc main_arg17) := keepH6 m ρ c main_arg17 (by decide)
    _ = W11 m ρ c (Proc.devRef .tc main_arg17) := W12_of_ne m ρ c main_arg17 (by decide)
    _ = W10 m ρ c (Proc.devRef .tc main_arg17) := keepH5 m ρ c main_arg17 (by decide)
    _ = W9 m ρ c (Proc.devRef .tc main_arg17) := W10_of_ne m ρ c main_arg17 (by decide)
    _ = W8 m ρ c (Proc.devRef .tc main_arg17) := keepH4 m ρ c main_arg17 (by decide)
    _ = m ((c : Thread nD τ).loc main_arg17) := kept_arg17_W8 m ρ c
theorem kept_arg17_W24 (c : Dev nD) : W24 m ρ c (Proc.devRef .tc main_arg17) = m ((c : Thread nD τ).loc main_arg17) :=
  calc W24 m ρ c (Proc.devRef .tc main_arg17)
    _ = W23 m ρ c (Proc.devRef .tc main_arg17) := W24_of_ne m ρ c main_arg17 (by decide)
    _ = W22 m ρ c (Proc.devRef .tc main_arg17) := keepH11 m ρ c main_arg17 (by decide)
    _ = W21 m ρ c (Proc.devRef .tc main_arg17) := W22_of_ne m ρ c main_arg17 (by decide)
    _ = W20 m ρ c (Proc.devRef .tc main_arg17) := keepH10 m ρ c main_arg17 (by decide)
    _ = W19 m ρ c (Proc.devRef .tc main_arg17) := W20_of_ne m ρ c main_arg17 (by decide)
    _ = W18 m ρ c (Proc.devRef .tc main_arg17) := keepH9 m ρ c main_arg17 (by decide)
    _ = W17 m ρ c (Proc.devRef .tc main_arg17) := W18_of_ne m ρ c main_arg17 (by decide)
    _ = W16 m ρ c (Proc.devRef .tc main_arg17) := keepH8 m ρ c main_arg17 (by decide)
    _ = m ((c : Thread nD τ).loc main_arg17) := kept_arg17_W16 m ρ c
theorem kept_arg17_W32 (c : Dev nD) : W32 m ρ c (Proc.devRef .tc main_arg17) = m ((c : Thread nD τ).loc main_arg17) :=
  calc W32 m ρ c (Proc.devRef .tc main_arg17)
    _ = W31 m ρ c (Proc.devRef .tc main_arg17) := W32_of_ne m ρ c main_arg17 (by decide)
    _ = W30 m ρ c (Proc.devRef .tc main_arg17) := keepH15 m ρ c main_arg17 (by decide)
    _ = W29 m ρ c (Proc.devRef .tc main_arg17) := W30_of_ne m ρ c main_arg17 (by decide)
    _ = W28 m ρ c (Proc.devRef .tc main_arg17) := keepH14 m ρ c main_arg17 (by decide)
    _ = W27 m ρ c (Proc.devRef .tc main_arg17) := W28_of_ne m ρ c main_arg17 (by decide)
    _ = W26 m ρ c (Proc.devRef .tc main_arg17) := keepH13 m ρ c main_arg17 (by decide)
    _ = W25 m ρ c (Proc.devRef .tc main_arg17) := W26_of_ne m ρ c main_arg17 (by decide)
    _ = W24 m ρ c (Proc.devRef .tc main_arg17) := keepH12 m ρ c main_arg17 (by decide)
    _ = m ((c : Thread nD τ).loc main_arg17) := kept_arg17_W24 m ρ c
theorem kept_arg18_W10 (c : Dev nD) : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = W8 m ρ c (Proc.devRef .tc main_arg18) := keepH4 m ρ c main_arg18 (by decide)
    _ = W7 m ρ c (Proc.devRef .tc main_arg18) := W8_of_ne m ρ c main_arg18 (by decide)
    _ = W6 m ρ c (Proc.devRef .tc main_arg18) := keepH3 m ρ c main_arg18 (by decide)
    _ = W5 m ρ c (Proc.devRef .tc main_arg18) := W6_of_ne m ρ c main_arg18 (by decide)
    _ = W4 m ρ c (Proc.devRef .tc main_arg18) := keepH2 m ρ c main_arg18 (by decide)
    _ = W3 m ρ c (Proc.devRef .tc main_arg18) := W4_of_ne m ρ c main_arg18 (by decide)
    _ = W2 m ρ c (Proc.devRef .tc main_arg18) := keepH1 m ρ c main_arg18 (by decide)
    _ = W1 m ρ c (Proc.devRef .tc main_arg18) := W2_of_ne m ρ c main_arg18 (by decide)
    _ = W0 m ρ c (Proc.devRef .tc main_arg18) := keepH0 m ρ c main_arg18 (by decide)
    _ = m ((c : Thread nD τ).loc main_arg18) := rfl
theorem kept_arg18_W18 (c : Dev nD) : W18 m ρ c (Proc.devRef .tc main_arg18) = m ((c : Thread nD τ).loc main_arg18) :=
  calc W18 m ρ c (Proc.devRef .tc main_arg18)
    _ = W17 m ρ c (Proc.devRef .tc main_arg18) := W18_of_ne m ρ c main_arg18 (by decide)
    _ = W16 m ρ c (Proc.devRef .tc main_arg18) := keepH8 m ρ c main_arg18 (by decide)
    _ = W15 m ρ c (Proc.devRef .tc main_arg18) := W16_of_ne m ρ c main_arg18 (by decide)
    _ = W14 m ρ c (Proc.devRef .tc main_arg18) := keepH7 m ρ c main_arg18 (by decide)
    _ = W13 m ρ c (Proc.devRef .tc main_arg18) := W14_of_ne m ρ c main_arg18 (by decide)
    _ = W12 m ρ c (Proc.devRef .tc main_arg18) := keepH6 m ρ c main_arg18 (by decide)
    _ = W11 m ρ c (Proc.devRef .tc main_arg18) := W12_of_ne m ρ c main_arg18 (by decide)
    _ = W10 m ρ c (Proc.devRef .tc main_arg18) := keepH5 m ρ c main_arg18 (by decide)
    _ = m ((c : Thread nD τ).loc main_arg18) := kept_arg18_W10 m ρ c
theorem kept_arg18_W26 (c : Dev nD) : W26 m ρ c (Proc.devRef .tc main_arg18) = m ((c : Thread nD τ).loc main_arg18) :=
  calc W26 m ρ c (Proc.devRef .tc main_arg18)
    _ = W25 m ρ c (Proc.devRef .tc main_arg18) := W26_of_ne m ρ c main_arg18 (by decide)
    _ = W24 m ρ c (Proc.devRef .tc main_arg18) := keepH12 m ρ c main_arg18 (by decide)
    _ = W23 m ρ c (Proc.devRef .tc main_arg18) := W24_of_ne m ρ c main_arg18 (by decide)
    _ = W22 m ρ c (Proc.devRef .tc main_arg18) := keepH11 m ρ c main_arg18 (by decide)
    _ = W21 m ρ c (Proc.devRef .tc main_arg18) := W22_of_ne m ρ c main_arg18 (by decide)
    _ = W20 m ρ c (Proc.devRef .tc main_arg18) := keepH10 m ρ c main_arg18 (by decide)
    _ = W19 m ρ c (Proc.devRef .tc main_arg18) := W20_of_ne m ρ c main_arg18 (by decide)
    _ = W18 m ρ c (Proc.devRef .tc main_arg18) := keepH9 m ρ c main_arg18 (by decide)
    _ = m ((c : Thread nD τ).loc main_arg18) := kept_arg18_W18 m ρ c
theorem kept_arg18_W34 (c : Dev nD) : W34 m ρ c (Proc.devRef .tc main_arg18) = m ((c : Thread nD τ).loc main_arg18) :=
  calc W34 m ρ c (Proc.devRef .tc main_arg18)
    _ = W33 m ρ c (Proc.devRef .tc main_arg18) := W34_of_ne m ρ c main_arg18 (by decide)
    _ = W32 m ρ c (Proc.devRef .tc main_arg18) := keepH16 m ρ c main_arg18 (by decide)
    _ = W31 m ρ c (Proc.devRef .tc main_arg18) := W32_of_ne m ρ c main_arg18 (by decide)
    _ = W30 m ρ c (Proc.devRef .tc main_arg18) := keepH15 m ρ c main_arg18 (by decide)
    _ = W29 m ρ c (Proc.devRef .tc main_arg18) := W30_of_ne m ρ c main_arg18 (by decide)
    _ = W28 m ρ c (Proc.devRef .tc main_arg18) := keepH14 m ρ c main_arg18 (by decide)
    _ = W27 m ρ c (Proc.devRef .tc main_arg18) := W28_of_ne m ρ c main_arg18 (by decide)
    _ = W26 m ρ c (Proc.devRef .tc main_arg18) := keepH13 m ρ c main_arg18 (by decide)
    _ = m ((c : Thread nD τ).loc main_arg18) := kept_arg18_W26 m ρ c
theorem kept_arg19_W10 (c : Dev nD) : W10 m ρ c (Proc.devRef .tc main_arg19) = m ((c : Thread nD τ).loc main_arg19) :=
  calc W10 m ρ c (Proc.devRef .tc main_arg19)
    _ = W9 m ρ c (Proc.devRef .tc main_arg19) := W10_of_ne m ρ c main_arg19 (by decide)
    _ = W8 m ρ c (Proc.devRef .tc main_arg19) := keepH4 m ρ c main_arg19 (by decide)
    _ = W7 m ρ c (Proc.devRef .tc main_arg19) := W8_of_ne m ρ c main_arg19 (by decide)
    _ = W6 m ρ c (Proc.devRef .tc main_arg19) := keepH3 m ρ c main_arg19 (by decide)
    _ = W5 m ρ c (Proc.devRef .tc main_arg19) := W6_of_ne m ρ c main_arg19 (by decide)
    _ = W4 m ρ c (Proc.devRef .tc main_arg19) := keepH2 m ρ c main_arg19 (by decide)
    _ = W3 m ρ c (Proc.devRef .tc main_arg19) := W4_of_ne m ρ c main_arg19 (by decide)
    _ = W2 m ρ c (Proc.devRef .tc main_arg19) := keepH1 m ρ c main_arg19 (by decide)
    _ = W1 m ρ c (Proc.devRef .tc main_arg19) := W2_of_ne m ρ c main_arg19 (by decide)
    _ = W0 m ρ c (Proc.devRef .tc main_arg19) := keepH0 m ρ c main_arg19 (by decide)
    _ = m ((c : Thread nD τ).loc main_arg19) := rfl
theorem kept_arg19_W18 (c : Dev nD) : W18 m ρ c (Proc.devRef .tc main_arg19) = m ((c : Thread nD τ).loc main_arg19) :=
  calc W18 m ρ c (Proc.devRef .tc main_arg19)
    _ = W17 m ρ c (Proc.devRef .tc main_arg19) := W18_of_ne m ρ c main_arg19 (by decide)
    _ = W16 m ρ c (Proc.devRef .tc main_arg19) := keepH8 m ρ c main_arg19 (by decide)
    _ = W15 m ρ c (Proc.devRef .tc main_arg19) := W16_of_ne m ρ c main_arg19 (by decide)
    _ = W14 m ρ c (Proc.devRef .tc main_arg19) := keepH7 m ρ c main_arg19 (by decide)
    _ = W13 m ρ c (Proc.devRef .tc main_arg19) := W14_of_ne m ρ c main_arg19 (by decide)
    _ = W12 m ρ c (Proc.devRef .tc main_arg19) := keepH6 m ρ c main_arg19 (by decide)
    _ = W11 m ρ c (Proc.devRef .tc main_arg19) := W12_of_ne m ρ c main_arg19 (by decide)
    _ = W10 m ρ c (Proc.devRef .tc main_arg19) := keepH5 m ρ c main_arg19 (by decide)
    _ = m ((c : Thread nD τ).loc main_arg19) := kept_arg19_W10 m ρ c
theorem kept_arg19_W26 (c : Dev nD) : W26 m ρ c (Proc.devRef .tc main_arg19) = m ((c : Thread nD τ).loc main_arg19) :=
  calc W26 m ρ c (Proc.devRef .tc main_arg19)
    _ = W25 m ρ c (Proc.devRef .tc main_arg19) := W26_of_ne m ρ c main_arg19 (by decide)
    _ = W24 m ρ c (Proc.devRef .tc main_arg19) := keepH12 m ρ c main_arg19 (by decide)
    _ = W23 m ρ c (Proc.devRef .tc main_arg19) := W24_of_ne m ρ c main_arg19 (by decide)
    _ = W22 m ρ c (Proc.devRef .tc main_arg19) := keepH11 m ρ c main_arg19 (by decide)
    _ = W21 m ρ c (Proc.devRef .tc main_arg19) := W22_of_ne m ρ c main_arg19 (by decide)
    _ = W20 m ρ c (Proc.devRef .tc main_arg19) := keepH10 m ρ c main_arg19 (by decide)
    _ = W19 m ρ c (Proc.devRef .tc main_arg19) := W20_of_ne m ρ c main_arg19 (by decide)
    _ = W18 m ρ c (Proc.devRef .tc main_arg19) := keepH9 m ρ c main_arg19 (by decide)
    _ = m ((c : Thread nD τ).loc main_arg19) := kept_arg19_W18 m ρ c
theorem kept_arg19_W34 (c : Dev nD) : W34 m ρ c (Proc.devRef .tc main_arg19) = m ((c : Thread nD τ).loc main_arg19) :=
  calc W34 m ρ c (Proc.devRef .tc main_arg19)
    _ = W33 m ρ c (Proc.devRef .tc main_arg19) := W34_of_ne m ρ c main_arg19 (by decide)
    _ = W32 m ρ c (Proc.devRef .tc main_arg19) := keepH16 m ρ c main_arg19 (by decide)
    _ = W31 m ρ c (Proc.devRef .tc main_arg19) := W32_of_ne m ρ c main_arg19 (by decide)
    _ = W30 m ρ c (Proc.devRef .tc main_arg19) := keepH15 m ρ c main_arg19 (by decide)
    _ = W29 m ρ c (Proc.devRef .tc main_arg19) := W30_of_ne m ρ c main_arg19 (by decide)
    _ = W28 m ρ c (Proc.devRef .tc main_arg19) := keepH14 m ρ c main_arg19 (by decide)
    _ = W27 m ρ c (Proc.devRef .tc main_arg19) := W28_of_ne m ρ c main_arg19 (by decide)
    _ = W26 m ρ c (Proc.devRef .tc main_arg19) := keepH13 m ρ c main_arg19 (by decide)
    _ = m ((c : Thread nD τ).loc main_arg19) := kept_arg19_W26 m ρ c
theorem kept_arg20_W10 (c : Dev nD) : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = W8 m ρ c (Proc.devRef .tc main_arg20) := keepH4 m ρ c main_arg20 (by decide)
    _ = W7 m ρ c (Proc.devRef .tc main_arg20) := W8_of_ne m ρ c main_arg20 (by decide)
    _ = W6 m ρ c (Proc.devRef .tc main_arg20) := keepH3 m ρ c main_arg20 (by decide)
    _ = W5 m ρ c (Proc.devRef .tc main_arg20) := W6_of_ne m ρ c main_arg20 (by decide)
    _ = W4 m ρ c (Proc.devRef .tc main_arg20) := keepH2 m ρ c main_arg20 (by decide)
    _ = W3 m ρ c (Proc.devRef .tc main_arg20) := W4_of_ne m ρ c main_arg20 (by decide)
    _ = W2 m ρ c (Proc.devRef .tc main_arg20) := keepH1 m ρ c main_arg20 (by decide)
    _ = W1 m ρ c (Proc.devRef .tc main_arg20) := W2_of_ne m ρ c main_arg20 (by decide)
    _ = W0 m ρ c (Proc.devRef .tc main_arg20) := keepH0 m ρ c main_arg20 (by decide)
    _ = m ((c : Thread nD τ).loc main_arg20) := rfl
theorem kept_arg20_W18 (c : Dev nD) : W18 m ρ c (Proc.devRef .tc main_arg20) = m ((c : Thread nD τ).loc main_arg20) :=
  calc W18 m ρ c (Proc.devRef .tc main_arg20)
    _ = W17 m ρ c (Proc.devRef .tc main_arg20) := W18_of_ne m ρ c main_arg20 (by decide)
    _ = W16 m ρ c (Proc.devRef .tc main_arg20) := keepH8 m ρ c main_arg20 (by decide)
    _ = W15 m ρ c (Proc.devRef .tc main_arg20) := W16_of_ne m ρ c main_arg20 (by decide)
    _ = W14 m ρ c (Proc.devRef .tc main_arg20) := keepH7 m ρ c main_arg20 (by decide)
    _ = W13 m ρ c (Proc.devRef .tc main_arg20) := W14_of_ne m ρ c main_arg20 (by decide)
    _ = W12 m ρ c (Proc.devRef .tc main_arg20) := keepH6 m ρ c main_arg20 (by decide)
    _ = W11 m ρ c (Proc.devRef .tc main_arg20) := W12_of_ne m ρ c main_arg20 (by decide)
    _ = W10 m ρ c (Proc.devRef .tc main_arg20) := keepH5 m ρ c main_arg20 (by decide)
    _ = m ((c : Thread nD τ).loc main_arg20) := kept_arg20_W10 m ρ c
theorem kept_arg20_W26 (c : Dev nD) : W26 m ρ c (Proc.devRef .tc main_arg20) = m ((c : Thread nD τ).loc main_arg20) :=
  calc W26 m ρ c (Proc.devRef .tc main_arg20)
    _ = W25 m ρ c (Proc.devRef .tc main_arg20) := W26_of_ne m ρ c main_arg20 (by decide)
    _ = W24 m ρ c (Proc.devRef .tc main_arg20) := keepH12 m ρ c main_arg20 (by decide)
    _ = W23 m ρ c (Proc.devRef .tc main_arg20) := W24_of_ne m ρ c main_arg20 (by decide)
    _ = W22 m ρ c (Proc.devRef .tc main_arg20) := keepH11 m ρ c main_arg20 (by decide)
    _ = W21 m ρ c (Proc.devRef .tc main_arg20) := W22_of_ne m ρ c main_arg20 (by decide)
    _ = W20 m ρ c (Proc.devRef .tc main_arg20) := keepH10 m ρ c main_arg20 (by decide)
    _ = W19 m ρ c (Proc.devRef .tc main_arg20) := W20_of_ne m ρ c main_arg20 (by decide)
    _ = W18 m ρ c (Proc.devRef .tc main_arg20) := keepH9 m ρ c main_arg20 (by decide)
    _ = m ((c : Thread nD τ).loc main_arg20) := kept_arg20_W18 m ρ c
theorem kept_arg20_W34 (c : Dev nD) : W34 m ρ c (Proc.devRef .tc main_arg20) = m ((c : Thread nD τ).loc main_arg20) :=
  calc W34 m ρ c (Proc.devRef .tc main_arg20)
    _ = W33 m ρ c (Proc.devRef .tc main_arg20) := W34_of_ne m ρ c main_arg20 (by decide)
    _ = W32 m ρ c (Proc.devRef .tc main_arg20) := keepH16 m ρ c main_arg20 (by decide)
    _ = W31 m ρ c (Proc.devRef .tc main_arg20) := W32_of_ne m ρ c main_arg20 (by decide)
    _ = W30 m ρ c (Proc.devRef .tc main_arg20) := keepH15 m ρ c main_arg20 (by decide)
    _ = W29 m ρ c (Proc.devRef .tc main_arg20) := W30_of_ne m ρ c main_arg20 (by decide)
    _ = W28 m ρ c (Proc.devRef .tc main_arg20) := keepH14 m ρ c main_arg20 (by decide)
    _ = W27 m ρ c (Proc.devRef .tc main_arg20) := W28_of_ne m ρ c main_arg20 (by decide)
    _ = W26 m ρ c (Proc.devRef .tc main_arg20) := keepH13 m ρ c main_arg20 (by decide)
    _ = m ((c : Thread nD τ).loc main_arg20) := kept_arg20_W26 m ρ c
theorem kept_arg22_W2 (c : Dev nD) : W2 m ρ c (Proc.devRef .tc main_arg22) = m ((c : Thread nD τ).loc main_arg22) :=
  calc W2 m ρ c (Proc.devRef .tc main_arg22)
    _ = W1 m ρ c (Proc.devRef .tc main_arg22) := W2_of_ne m ρ c main_arg22 (by decide)
    _ = W0 m ρ c (Proc.devRef .tc main_arg22) := keepH0 m ρ c main_arg22 (by decide)
    _ = m ((c : Thread nD τ).loc main_arg22) := rfl
theorem kept_arg23_W36 (c : Dev nD) : W36 m ρ c (Proc.devRef .tc main_arg23) = m ((c : Thread nD τ).loc main_arg23) :=
  calc W36 m ρ c (Proc.devRef .tc main_arg23)
    _ = W35 m ρ c (Proc.devRef .tc main_arg23) := W36_of_ne m ρ c main_arg23 (by decide)
    _ = W34 m ρ c (Proc.devRef .tc main_arg23) := keepH17 m ρ c main_arg23 (by decide)
    _ = W33 m ρ c (Proc.devRef .tc main_arg23) := W34_of_ne m ρ c main_arg23 (by decide)
    _ = W32 m ρ c (Proc.devRef .tc main_arg23) := keepH16 m ρ c main_arg23 (by decide)
    _ = W31 m ρ c (Proc.devRef .tc main_arg23) := W32_of_ne m ρ c main_arg23 (by decide)
    _ = W30 m ρ c (Proc.devRef .tc main_arg23) := keepH15 m ρ c main_arg23 (by decide)
    _ = W29 m ρ c (Proc.devRef .tc main_arg23) := W30_of_ne m ρ c main_arg23 (by decide)
    _ = W28 m ρ c (Proc.devRef .tc main_arg23) := keepH14 m ρ c main_arg23 (by decide)
    _ = W27 m ρ c (Proc.devRef .tc main_arg23) := W28_of_ne m ρ c main_arg23 (by decide)
    _ = W26 m ρ c (Proc.devRef .tc main_arg23) := keepH13 m ρ c main_arg23 (by decide)
    _ = W25 m ρ c (Proc.devRef .tc main_arg23) := W26_of_ne m ρ c main_arg23 (by decide)
    _ = W24 m ρ c (Proc.devRef .tc main_arg23) := keepH12 m ρ c main_arg23 (by decide)
    _ = W23 m ρ c (Proc.devRef .tc main_arg23) := W24_of_ne m ρ c main_arg23 (by decide)
    _ = W22 m ρ c (Proc.devRef .tc main_arg23) := keepH11 m ρ c main_arg23 (by decide)
    _ = W21 m ρ c (Proc.devRef .tc main_arg23) := W22_of_ne m ρ c main_arg23 (by decide)
    _ = W20 m ρ c (Proc.devRef .tc main_arg23) := keepH10 m ρ c main_arg23 (by decide)
    _ = W19 m ρ c (Proc.devRef .tc main_arg23) := W20_of_ne m ρ c main_arg23 (by decide)
    _ = W18 m ρ c (Proc.devRef .tc main_arg23) := keepH9 m ρ c main_arg23 (by decide)
    _ = W17 m ρ c (Proc.devRef .tc main_arg23) := W18_of_ne m ρ c main_arg23 (by decide)
    _ = W16 m ρ c (Proc.devRef .tc main_arg23) := keepH8 m ρ c main_arg23 (by decide)
    _ = W15 m ρ c (Proc.devRef .tc main_arg23) := W16_of_ne m ρ c main_arg23 (by decide)
    _ = W14 m ρ c (Proc.devRef .tc main_arg23) := keepH7 m ρ c main_arg23 (by decide)
    _ = W13 m ρ c (Proc.devRef .tc main_arg23) := W14_of_ne m ρ c main_arg23 (by decide)
    _ = W12 m ρ c (Proc.devRef .tc main_arg23) := keepH6 m ρ c main_arg23 (by decide)
    _ = W11 m ρ c (Proc.devRef .tc main_arg23) := W12_of_ne m ρ c main_arg23 (by decide)
    _ = W10 m ρ c (Proc.devRef .tc main_arg23) := keepH5 m ρ c main_arg23 (by decide)
    _ = W9 m ρ c (Proc.devRef .tc main_arg23) := W10_of_ne m ρ c main_arg23 (by decide)
    _ = W8 m ρ c (Proc.devRef .tc main_arg23) := keepH4 m ρ c main_arg23 (by decide)
    _ = W7 m ρ c (Proc.devRef .tc main_arg23) := W8_of_ne m ρ c main_arg23 (by decide)
    _ = W6 m ρ c (Proc.devRef .tc main_arg23) := keepH3 m ρ c main_arg23 (by decide)
    _ = W5 m ρ c (Proc.devRef .tc main_arg23) := W6_of_ne m ρ c main_arg23 (by decide)
    _ = W4 m ρ c (Proc.devRef .tc main_arg23) := keepH2 m ρ c main_arg23 (by decide)
    _ = W3 m ρ c (Proc.devRef .tc main_arg23) := W4_of_ne m ρ c main_arg23 (by decide)
    _ = W2 m ρ c (Proc.devRef .tc main_arg23) := keepH1 m ρ c main_arg23 (by decide)
    _ = W1 m ρ c (Proc.devRef .tc main_arg23) := W2_of_ne m ρ c main_arg23 (by decide)
    _ = W0 m ρ c (Proc.devRef .tc main_arg23) := keepH0 m ρ c main_arg23 (by decide)
    _ = m ((c : Thread nD τ).loc main_arg23) := rfl
theorem kept_arg24_W36 (c : Dev nD) : W36 m ρ c (Proc.devRef .tc main_arg24) = m ((c : Thread nD τ).loc main_arg24) :=
  calc W36 m ρ c (Proc.devRef .tc main_arg24)
    _ = W35 m ρ c (Proc.devRef .tc main_arg24) := W36_of_ne m ρ c main_arg24 (by decide)
    _ = W34 m ρ c (Proc.devRef .tc main_arg24) := keepH17 m ρ c main_arg24 (by decide)
    _ = W33 m ρ c (Proc.devRef .tc main_arg24) := W34_of_ne m ρ c main_arg24 (by decide)
    _ = W32 m ρ c (Proc.devRef .tc main_arg24) := keepH16 m ρ c main_arg24 (by decide)
    _ = W31 m ρ c (Proc.devRef .tc main_arg24) := W32_of_ne m ρ c main_arg24 (by decide)
    _ = W30 m ρ c (Proc.devRef .tc main_arg24) := keepH15 m ρ c main_arg24 (by decide)
    _ = W29 m ρ c (Proc.devRef .tc main_arg24) := W30_of_ne m ρ c main_arg24 (by decide)
    _ = W28 m ρ c (Proc.devRef .tc main_arg24) := keepH14 m ρ c main_arg24 (by decide)
    _ = W27 m ρ c (Proc.devRef .tc main_arg24) := W28_of_ne m ρ c main_arg24 (by decide)
    _ = W26 m ρ c (Proc.devRef .tc main_arg24) := keepH13 m ρ c main_arg24 (by decide)
    _ = W25 m ρ c (Proc.devRef .tc main_arg24) := W26_of_ne m ρ c main_arg24 (by decide)
    _ = W24 m ρ c (Proc.devRef .tc main_arg24) := keepH12 m ρ c main_arg24 (by decide)
    _ = W23 m ρ c (Proc.devRef .tc main_arg24) := W24_of_ne m ρ c main_arg24 (by decide)
    _ = W22 m ρ c (Proc.devRef .tc main_arg24) := keepH11 m ρ c main_arg24 (by decide)
    _ = W21 m ρ c (Proc.devRef .tc main_arg24) := W22_of_ne m ρ c main_arg24 (by decide)
    _ = W20 m ρ c (Proc.devRef .tc main_arg24) := keepH10 m ρ c main_arg24 (by decide)
    _ = W19 m ρ c (Proc.devRef .tc main_arg24) := W20_of_ne m ρ c main_arg24 (by decide)
    _ = W18 m ρ c (Proc.devRef .tc main_arg24) := keepH9 m ρ c main_arg24 (by decide)
    _ = W17 m ρ c (Proc.devRef .tc main_arg24) := W18_of_ne m ρ c main_arg24 (by decide)
    _ = W16 m ρ c (Proc.devRef .tc main_arg24) := keepH8 m ρ c main_arg24 (by decide)
    _ = W15 m ρ c (Proc.devRef .tc main_arg24) := W16_of_ne m ρ c main_arg24 (by decide)
    _ = W14 m ρ c (Proc.devRef .tc main_arg24) := keepH7 m ρ c main_arg24 (by decide)
    _ = W13 m ρ c (Proc.devRef .tc main_arg24) := W14_of_ne m ρ c main_arg24 (by decide)
    _ = W12 m ρ c (Proc.devRef .tc main_arg24) := keepH6 m ρ c main_arg24 (by decide)
    _ = W11 m ρ c (Proc.devRef .tc main_arg24) := W12_of_ne m ρ c main_arg24 (by decide)
    _ = W10 m ρ c (Proc.devRef .tc main_arg24) := keepH5 m ρ c main_arg24 (by decide)
    _ = W9 m ρ c (Proc.devRef .tc main_arg24) := W10_of_ne m ρ c main_arg24 (by decide)
    _ = W8 m ρ c (Proc.devRef .tc main_arg24) := keepH4 m ρ c main_arg24 (by decide)
    _ = W7 m ρ c (Proc.devRef .tc main_arg24) := W8_of_ne m ρ c main_arg24 (by decide)
    _ = W6 m ρ c (Proc.devRef .tc main_arg24) := keepH3 m ρ c main_arg24 (by decide)
    _ = W5 m ρ c (Proc.devRef .tc main_arg24) := W6_of_ne m ρ c main_arg24 (by decide)
    _ = W4 m ρ c (Proc.devRef .tc main_arg24) := keepH2 m ρ c main_arg24 (by decide)
    _ = W3 m ρ c (Proc.devRef .tc main_arg24) := W4_of_ne m ρ c main_arg24 (by decide)
    _ = W2 m ρ c (Proc.devRef .tc main_arg24) := keepH1 m ρ c main_arg24 (by decide)
    _ = W1 m ρ c (Proc.devRef .tc main_arg24) := W2_of_ne m ρ c main_arg24 (by decide)
    _ = W0 m ρ c (Proc.devRef .tc main_arg24) := keepH0 m ρ c main_arg24 (by decide)
    _ = m ((c : Thread nD τ).loc main_arg24) := rfl
theorem kept_arg24_W40 (c : Dev nD) : W40 m ρ c (Proc.devRef .tc main_arg24) = m ((c : Thread nD τ).loc main_arg24) :=
  calc W40 m ρ c (Proc.devRef .tc main_arg24)
    _ = W39 m ρ c (Proc.devRef .tc main_arg24) := W40_of_ne m ρ c main_arg24 (by decide)
    _ = W38 m ρ c (Proc.devRef .tc main_arg24) := keepH19 m ρ c main_arg24 (by decide)
    _ = W37 m ρ c (Proc.devRef .tc main_arg24) := W38_of_ne m ρ c main_arg24 (by decide)
    _ = W36 m ρ c (Proc.devRef .tc main_arg24) := keepH18 m ρ c main_arg24 (by decide)
    _ = m ((c : Thread nD τ).loc main_arg24) := kept_arg24_W36 m ρ c
theorem kept_arg25_W8 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := keepH3 m ρ c main_arg25 (by decide)
    _ = W5 m ρ c (Proc.devRef .tc main_arg25) := W6_of_ne m ρ c main_arg25 (by decide)
    _ = W4 m ρ c (Proc.devRef .tc main_arg25) := keepH2 m ρ c main_arg25 (by decide)
    _ = W3 m ρ c (Proc.devRef .tc main_arg25) := W4_of_ne m ρ c main_arg25 (by decide)
    _ = W2 m ρ c (Proc.devRef .tc main_arg25) := keepH1 m ρ c main_arg25 (by decide)
    _ = W1 m ρ c (Proc.devRef .tc main_arg25) := W2_of_ne m ρ c main_arg25 (by decide)
    _ = W0 m ρ c (Proc.devRef .tc main_arg25) := keepH0 m ρ c main_arg25 (by decide)
    _ = m ((c : Thread nD τ).loc main_arg25) := rfl
theorem kept_arg25_W16 (c : Dev nD) : W16 m ρ c (Proc.devRef .tc main_arg25) = m ((c : Thread nD τ).loc main_arg25) :=
  calc W16 m ρ c (Proc.devRef .tc main_arg25)
    _ = W15 m ρ c (Proc.devRef .tc main_arg25) := W16_of_ne m ρ c main_arg25 (by decide)
    _ = W14 m ρ c (Proc.devRef .tc main_arg25) := keepH7 m ρ c main_arg25 (by decide)
    _ = W13 m ρ c (Proc.devRef .tc main_arg25) := W14_of_ne m ρ c main_arg25 (by decide)
    _ = W12 m ρ c (Proc.devRef .tc main_arg25) := keepH6 m ρ c main_arg25 (by decide)
    _ = W11 m ρ c (Proc.devRef .tc main_arg25) := W12_of_ne m ρ c main_arg25 (by decide)
    _ = W10 m ρ c (Proc.devRef .tc main_arg25) := keepH5 m ρ c main_arg25 (by decide)
    _ = W9 m ρ c (Proc.devRef .tc main_arg25) := W10_of_ne m ρ c main_arg25 (by decide)
    _ = W8 m ρ c (Proc.devRef .tc main_arg25) := keepH4 m ρ c main_arg25 (by decide)
    _ = m ((c : Thread nD τ).loc main_arg25) := kept_arg25_W8 m ρ c
theorem kept_arg25_W24 (c : Dev nD) : W24 m ρ c (Proc.devRef .tc main_arg25) = m ((c : Thread nD τ).loc main_arg25) :=
  calc W24 m ρ c (Proc.devRef .tc main_arg25)
    _ = W23 m ρ c (Proc.devRef .tc main_arg25) := W24_of_ne m ρ c main_arg25 (by decide)
    _ = W22 m ρ c (Proc.devRef .tc main_arg25) := keepH11 m ρ c main_arg25 (by decide)
    _ = W21 m ρ c (Proc.devRef .tc main_arg25) := W22_of_ne m ρ c main_arg25 (by decide)
    _ = W20 m ρ c (Proc.devRef .tc main_arg25) := keepH10 m ρ c main_arg25 (by decide)
    _ = W19 m ρ c (Proc.devRef .tc main_arg25) := W20_of_ne m ρ c main_arg25 (by decide)
    _ = W18 m ρ c (Proc.devRef .tc main_arg25) := keepH9 m ρ c main_arg25 (by decide)
    _ = W17 m ρ c (Proc.devRef .tc main_arg25) := W18_of_ne m ρ c main_arg25 (by decide)
    _ = W16 m ρ c (Proc.devRef .tc main_arg25) := keepH8 m ρ c main_arg25 (by decide)
    _ = m ((c : Thread nD τ).loc main_arg25) := kept_arg25_W16 m ρ c
theorem kept_arg25_W32 (c : Dev nD) : W32 m ρ c (Proc.devRef .tc main_arg25) = m ((c : Thread nD τ).loc main_arg25) :=
  calc W32 m ρ c (Proc.devRef .tc main_arg25)
    _ = W31 m ρ c (Proc.devRef .tc main_arg25) := W32_of_ne m ρ c main_arg25 (by decide)
    _ = W30 m ρ c (Proc.devRef .tc main_arg25) := keepH15 m ρ c main_arg25 (by decide)
    _ = W29 m ρ c (Proc.devRef .tc main_arg25) := W30_of_ne m ρ c main_arg25 (by decide)
    _ = W28 m ρ c (Proc.devRef .tc main_arg25) := keepH14 m ρ c main_arg25 (by decide)
    _ = W27 m ρ c (Proc.devRef .tc main_arg25) := W28_of_ne m ρ c main_arg25 (by decide)
    _ = W26 m ρ c (Proc.devRef .tc main_arg25) := keepH13 m ρ c main_arg25 (by decide)
    _ = W25 m ρ c (Proc.devRef .tc main_arg25) := W26_of_ne m ρ c main_arg25 (by decide)
    _ = W24 m ρ c (Proc.devRef .tc main_arg25) := keepH12 m ρ c main_arg25 (by decide)
    _ = m ((c : Thread nD τ).loc main_arg25) := kept_arg25_W24 m ρ c
theorem kept_arg26_W6 (c : Dev nD) : W6 m ρ c (Proc.devRef .tc main_arg26) = m ((c : Thread nD τ).loc main_arg26) :=
  calc W6 m ρ c (Proc.devRef .tc main_arg26)
    _ = W5 m ρ c (Proc.devRef .tc main_arg26) := W6_of_ne m ρ c main_arg26 (by decide)
    _ = W4 m ρ c (Proc.devRef .tc main_arg26) := keepH2 m ρ c main_arg26 (by decide)
    _ = W3 m ρ c (Proc.devRef .tc main_arg26) := W4_of_ne m ρ c main_arg26 (by decide)
    _ = W2 m ρ c (Proc.devRef .tc main_arg26) := keepH1 m ρ c main_arg26 (by decide)
    _ = W1 m ρ c (Proc.devRef .tc main_arg26) := W2_of_ne m ρ c main_arg26 (by decide)
    _ = W0 m ρ c (Proc.devRef .tc main_arg26) := keepH0 m ρ c main_arg26 (by decide)
    _ = m ((c : Thread nD τ).loc main_arg26) := rfl
theorem kept_arg26_W14 (c : Dev nD) : W14 m ρ c (Proc.devRef .tc main_arg26) = m ((c : Thread nD τ).loc main_arg26) :=
  calc W14 m ρ c (Proc.devRef .tc main_arg26)
    _ = W13 m ρ c (Proc.devRef .tc main_arg26) := W14_of_ne m ρ c main_arg26 (by decide)
    _ = W12 m ρ c (Proc.devRef .tc main_arg26) := keepH6 m ρ c main_arg26 (by decide)
    _ = W11 m ρ c (Proc.devRef .tc main_arg26) := W12_of_ne m ρ c main_arg26 (by decide)
    _ = W10 m ρ c (Proc.devRef .tc main_arg26) := keepH5 m ρ c main_arg26 (by decide)
    _ = W9 m ρ c (Proc.devRef .tc main_arg26) := W10_of_ne m ρ c main_arg26 (by decide)
    _ = W8 m ρ c (Proc.devRef .tc main_arg26) := keepH4 m ρ c main_arg26 (by decide)
    _ = W7 m ρ c (Proc.devRef .tc main_arg26) := W8_of_ne m ρ c main_arg26 (by decide)
    _ = W6 m ρ c (Proc.devRef .tc main_arg26) := keepH3 m ρ c main_arg26 (by decide)
    _ = m ((c : Thread nD τ).loc main_arg26) := kept_arg26_W6 m ρ c
theorem kept_arg26_W22 (c : Dev nD) : W22 m ρ c (Proc.devRef .tc main_arg26) = m ((c : Thread nD τ).loc main_arg26) :=
  calc W22 m ρ c (Proc.devRef .tc main_arg26)
    _ = W21 m ρ c (Proc.devRef .tc main_arg26) := W22_of_ne m ρ c main_arg26 (by decide)
    _ = W20 m ρ c (Proc.devRef .tc main_arg26) := keepH10 m ρ c main_arg26 (by decide)
    _ = W19 m ρ c (Proc.devRef .tc main_arg26) := W20_of_ne m ρ c main_arg26 (by decide)
    _ = W18 m ρ c (Proc.devRef .tc main_arg26) := keepH9 m ρ c main_arg26 (by decide)
    _ = W17 m ρ c (Proc.devRef .tc main_arg26) := W18_of_ne m ρ c main_arg26 (by decide)
    _ = W16 m ρ c (Proc.devRef .tc main_arg26) := keepH8 m ρ c main_arg26 (by decide)
    _ = W15 m ρ c (Proc.devRef .tc main_arg26) := W16_of_ne m ρ c main_arg26 (by decide)
    _ = W14 m ρ c (Proc.devRef .tc main_arg26) := keepH7 m ρ c main_arg26 (by decide)
    _ = m ((c : Thread nD τ).loc main_arg26) := kept_arg26_W14 m ρ c
theorem kept_arg26_W30 (c : Dev nD) : W30 m ρ c (Proc.devRef .tc main_arg26) = m ((c : Thread nD τ).loc main_arg26) :=
  calc W30 m ρ c (Proc.devRef .tc main_arg26)
    _ = W29 m ρ c (Proc.devRef .tc main_arg26) := W30_of_ne m ρ c main_arg26 (by decide)
    _ = W28 m ρ c (Proc.devRef .tc main_arg26) := keepH14 m ρ c main_arg26 (by decide)
    _ = W27 m ρ c (Proc.devRef .tc main_arg26) := W28_of_ne m ρ c main_arg26 (by decide)
    _ = W26 m ρ c (Proc.devRef .tc main_arg26) := keepH13 m ρ c main_arg26 (by decide)
    _ = W25 m ρ c (Proc.devRef .tc main_arg26) := W26_of_ne m ρ c main_arg26 (by decide)
    _ = W24 m ρ c (Proc.devRef .tc main_arg26) := keepH12 m ρ c main_arg26 (by decide)
    _ = W23 m ρ c (Proc.devRef .tc main_arg26) := W24_of_ne m ρ c main_arg26 (by decide)
    _ = W22 m ρ c (Proc.devRef .tc main_arg26) := keepH11 m ρ c main_arg26 (by decide)
    _ = m ((c : Thread nD τ).loc main_arg26) := kept_arg26_W22 m ρ c
theorem kept_arg27_W10 (c : Dev nD) : W10 m ρ c (Proc.devRef .tc main_arg27) = m ((c : Thread nD τ).loc main_arg27) :=
  calc W10 m ρ c (Proc.devRef .tc main_arg27)
    _ = W9 m ρ c (Proc.devRef .tc main_arg27) := W10_of_ne m ρ c main_arg27 (by decide)
    _ = W8 m ρ c (Proc.devRef .tc main_arg27) := keepH4 m ρ c main_arg27 (by decide)
    _ = W7 m ρ c (Proc.devRef .tc main_arg27) := W8_of_ne m ρ c main_arg27 (by decide)
    _ = W6 m ρ c (Proc.devRef .tc main_arg27) := keepH3 m ρ c main_arg27 (by decide)
    _ = W5 m ρ c (Proc.devRef .tc main_arg27) := W6_of_ne m ρ c main_arg27 (by decide)
    _ = W4 m ρ c (Proc.devRef .tc main_arg27) := keepH2 m ρ c main_arg27 (by decide)
    _ = W3 m ρ c (Proc.devRef .tc main_arg27) := W4_of_ne m ρ c main_arg27 (by decide)
    _ = W2 m ρ c (Proc.devRef .tc main_arg27) := keepH1 m ρ c main_arg27 (by decide)
    _ = W1 m ρ c (Proc.devRef .tc main_arg27) := W2_of_ne m ρ c main_arg27 (by decide)
    _ = W0 m ρ c (Proc.devRef .tc main_arg27) := keepH0 m ρ c main_arg27 (by decide)
    _ = m ((c : Thread nD τ).loc main_arg27) := rfl
theorem kept_arg27_W18 (c : Dev nD) : W18 m ρ c (Proc.devRef .tc main_arg27) = m ((c : Thread nD τ).loc main_arg27) :=
  calc W18 m ρ c (Proc.devRef .tc main_arg27)
    _ = W17 m ρ c (Proc.devRef .tc main_arg27) := W18_of_ne m ρ c main_arg27 (by decide)
    _ = W16 m ρ c (Proc.devRef .tc main_arg27) := keepH8 m ρ c main_arg27 (by decide)
    _ = W15 m ρ c (Proc.devRef .tc main_arg27) := W16_of_ne m ρ c main_arg27 (by decide)
    _ = W14 m ρ c (Proc.devRef .tc main_arg27) := keepH7 m ρ c main_arg27 (by decide)
    _ = W13 m ρ c (Proc.devRef .tc main_arg27) := W14_of_ne m ρ c main_arg27 (by decide)
    _ = W12 m ρ c (Proc.devRef .tc main_arg27) := keepH6 m ρ c main_arg27 (by decide)
    _ = W11 m ρ c (Proc.devRef .tc main_arg27) := W12_of_ne m ρ c main_arg27 (by decide)
    _ = W10 m ρ c (Proc.devRef .tc main_arg27) := keepH5 m ρ c main_arg27 (by decide)
    _ = m ((c : Thread nD τ).loc main_arg27) := kept_arg27_W10 m ρ c
theorem kept_arg27_W26 (c : Dev nD) : W26 m ρ c (Proc.devRef .tc main_arg27) = m ((c : Thread nD τ).loc main_arg27) :=
  calc W26 m ρ c (Proc.devRef .tc main_arg27)
    _ = W25 m ρ c (Proc.devRef .tc main_arg27) := W26_of_ne m ρ c main_arg27 (by decide)
    _ = W24 m ρ c (Proc.devRef .tc main_arg27) := keepH12 m ρ c main_arg27 (by decide)
    _ = W23 m ρ c (Proc.devRef .tc main_arg27) := W24_of_ne m ρ c main_arg27 (by decide)
    _ = W22 m ρ c (Proc.devRef .tc main_arg27) := keepH11 m ρ c main_arg27 (by decide)
    _ = W21 m ρ c (Proc.devRef .tc main_arg27) := W22_of_ne m ρ c main_arg27 (by decide)
    _ = W20 m ρ c (Proc.devRef .tc main_arg27) := keepH10 m ρ c main_arg27 (by decide)
    _ = W19 m ρ c (Proc.devRef .tc main_arg27) := W20_of_ne m ρ c main_arg27 (by decide)
    _ = W18 m ρ c (Proc.devRef .tc main_arg27) := keepH9 m ρ c main_arg27 (by decide)
    _ = m ((c : Thread nD τ).loc main_arg27) := kept_arg27_W18 m ρ c
theorem kept_arg27_W34 (c : Dev nD) : W34 m ρ c (Proc.devRef .tc main_arg27) = m ((c : Thread nD τ).loc main_arg27) :=
  calc W34 m ρ c (Proc.devRef .tc main_arg27)
    _ = W33 m ρ c (Proc.devRef .tc main_arg27) := W34_of_ne m ρ c main_arg27 (by decide)
    _ = W32 m ρ c (Proc.devRef .tc main_arg27) := keepH16 m ρ c main_arg27 (by decide)
    _ = W31 m ρ c (Proc.devRef .tc main_arg27) := W32_of_ne m ρ c main_arg27 (by decide)
    _ = W30 m ρ c (Proc.devRef .tc main_arg27) := keepH15 m ρ c main_arg27 (by decide)
    _ = W29 m ρ c (Proc.devRef .tc main_arg27) := W30_of_ne m ρ c main_arg27 (by decide)
    _ = W28 m ρ c (Proc.devRef .tc main_arg27) := keepH14 m ρ c main_arg27 (by decide)
    _ = W27 m ρ c (Proc.devRef .tc main_arg27) := W28_of_ne m ρ c main_arg27 (by decide)
    _ = W26 m ρ c (Proc.devRef .tc main_arg27) := keepH13 m ρ c main_arg27 (by decide)
    _ = m ((c : Thread nD τ).loc main_arg27) := kept_arg27_W26 m ρ c
theorem kept_arg28_W8 (c : Dev nD) : W8 m ρ c (Proc.devRef .tc main_arg28) = m ((c : Thread nD τ).loc main_arg28) :=
  calc W8 m ρ c (Proc.devRef .tc main_arg28)
    _ = W7 m ρ c (Proc.devRef .tc main_arg28) := W8_of_ne m ρ c main_arg28 (by decide)
    _ = W6 m ρ c (Proc.devRef .tc main_arg28) := keepH3 m ρ c main_arg28 (by decide)
    _ = W5 m ρ c (Proc.devRef .tc main_arg28) := W6_of_ne m ρ c main_arg28 (by decide)
    _ = W4 m ρ c (Proc.devRef .tc main_arg28) := keepH2 m ρ c main_arg28 (by decide)
    _ = W3 m ρ c (Proc.devRef .tc main_arg28) := W4_of_ne m ρ c main_arg28 (by decide)
    _ = W2 m ρ c (Proc.devRef .tc main_arg28) := keepH1 m ρ c main_arg28 (by decide)
    _ = W1 m ρ c (Proc.devRef .tc main_arg28) := W2_of_ne m ρ c main_arg28 (by decide)
    _ = W0 m ρ c (Proc.devRef .tc main_arg28) := keepH0 m ρ c main_arg28 (by decide)
    _ = m ((c : Thread nD τ).loc main_arg28) := rfl
theorem kept_arg28_W16 (c : Dev nD) : W16 m ρ c (Proc.devRef .tc main_arg28) = m ((c : Thread nD τ).loc main_arg28) :=
  calc W16 m ρ c (Proc.devRef .tc main_arg28)
    _ = W15 m ρ c (Proc.devRef .tc main_arg28) := W16_of_ne m ρ c main_arg28 (by decide)
    _ = W14 m ρ c (Proc.devRef .tc main_arg28) := keepH7 m ρ c main_arg28 (by decide)
    _ = W13 m ρ c (Proc.devRef .tc main_arg28) := W14_of_ne m ρ c main_arg28 (by decide)
    _ = W12 m ρ c (Proc.devRef .tc main_arg28) := keepH6 m ρ c main_arg28 (by decide)
    _ = W11 m ρ c (Proc.devRef .tc main_arg28) := W12_of_ne m ρ c main_arg28 (by decide)
    _ = W10 m ρ c (Proc.devRef .tc main_arg28) := keepH5 m ρ c main_arg28 (by decide)
    _ = W9 m ρ c (Proc.devRef .tc main_arg28) := W10_of_ne m ρ c main_arg28 (by decide)
    _ = W8 m ρ c (Proc.devRef .tc main_arg28) := keepH4 m ρ c main_arg28 (by decide)
    _ = m ((c : Thread nD τ).loc main_arg28) := kept_arg28_W8 m ρ c
theorem kept_arg28_W24 (c : Dev nD) : W24 m ρ c (Proc.devRef .tc main_arg28) = m ((c : Thread nD τ).loc main_arg28) :=
  calc W24 m ρ c (Proc.devRef .tc main_arg28)
    _ = W23 m ρ c (Proc.devRef .tc main_arg28) := W24_of_ne m ρ c main_arg28 (by decide)
    _ = W22 m ρ c (Proc.devRef .tc main_arg28) := keepH11 m ρ c main_arg28 (by decide)
    _ = W21 m ρ c (Proc.devRef .tc main_arg28) := W22_of_ne m ρ c main_arg28 (by decide)
    _ = W20 m ρ c (Proc.devRef .tc main_arg28) := keepH10 m ρ c main_arg28 (by decide)
    _ = W19 m ρ c (Proc.devRef .tc main_arg28) := W20_of_ne m ρ c main_arg28 (by decide)
    _ = W18 m ρ c (Proc.devRef .tc main_arg28) := keepH9 m ρ c main_arg28 (by decide)
    _ = W17 m ρ c (Proc.devRef .tc main_arg28) := W18_of_ne m ρ c main_arg28 (by decide)
    _ = W16 m ρ c (Proc.devRef .tc main_arg28) := keepH8 m ρ c main_arg28 (by decide)
    _ = m ((c : Thread nD τ).loc main_arg28) := kept_arg28_W16 m ρ c
theorem kept_arg28_W32 (c : Dev nD) : W32 m ρ c (Proc.devRef .tc main_arg28) = m ((c : Thread nD τ).loc main_arg28) :=
  calc W32 m ρ c (Proc.devRef .tc main_arg28)
    _ = W31 m ρ c (Proc.devRef .tc main_arg28) := W32_of_ne m ρ c main_arg28 (by decide)
    _ = W30 m ρ c (Proc.devRef .tc main_arg28) := keepH15 m ρ c main_arg28 (by decide)
    _ = W29 m ρ c (Proc.devRef .tc main_arg28) := W30_of_ne m ρ c main_arg28 (by decide)
    _ = W28 m ρ c (Proc.devRef .tc main_arg28) := keepH14 m ρ c main_arg28 (by decide)
    _ = W27 m ρ c (Proc.devRef .tc main_arg28) := W28_of_ne m ρ c main_arg28 (by decide)
    _ = W26 m ρ c (Proc.devRef .tc main_arg28) := keepH13 m ρ c main_arg28 (by decide)
    _ = W25 m ρ c (Proc.devRef .tc main_arg28) := W26_of_ne m ρ c main_arg28 (by decide)
    _ = W24 m ρ c (Proc.devRef .tc main_arg28) := keepH12 m ρ c main_arg28 (by decide)
    _ = m ((c : Thread nD τ).loc main_arg28) := kept_arg28_W24 m ρ c
theorem kept_v13_W3 (c : Dev nD) : W3 m ρ c (Proc.devRef .tc main_v13) = W1 m ρ c (Proc.devRef .tc main_v13) :=
  calc W3 m ρ c (Proc.devRef .tc main_v13)
    _ = W2 m ρ c (Proc.devRef .tc main_v13) := keepH1 m ρ c main_v13 (by decide)
    _ = W1 m ρ c (Proc.devRef .tc main_v13) := W2_of_ne m ρ c main_v13 (by decide)
theorem kept_v15_W2 (c : Dev nD) : W2 m ρ c (Proc.devRef .tc main_v15) = W1 m ρ c (Proc.devRef .tc main_v15) :=
  calc W2 m ρ c (Proc.devRef .tc main_v15)
    _ = W1 m ρ c (Proc.devRef .tc main_v15) := W2_of_ne m ρ c main_v15 (by decide)
theorem kept_v17_W3 (c : Dev nD) : W3 m ρ c (Proc.devRef .tc main_v17) = W1 m ρ c (Proc.devRef .tc main_v17) :=
  calc W3 m ρ c (Proc.devRef .tc main_v17)
    _ = W2 m ρ c (Proc.devRef .tc main_v17) := keepH1 m ρ c main_v17 (by decide)
    _ = W1 m ρ c (Proc.devRef .tc main_v17) := W2_of_ne m ρ c main_v17 (by decide)
theorem kept_v19_W2 (c : Dev nD) : W2 m ρ c (Proc.devRef .tc main_v19) = W1 m ρ c (Proc.devRef .tc main_v19) :=
  calc W2 m ρ c (Proc.devRef .tc main_v19)
    _ = W1 m ρ c (Proc.devRef .tc main_v19) := W2_of_ne m ρ c main_v19 (by decide)
theorem kept_v21_W2 (c : Dev nD) : W2 m ρ c (Proc.devRef .tc main_v21) = W1 m ρ c (Proc.devRef .tc main_v21) :=
  calc W2 m ρ c (Proc.devRef .tc main_v21)
    _ = W1 m ρ c (Proc.devRef .tc main_v21) := W2_of_ne m ρ c main_v21 (by decide)
theorem kept_v82_0_W11 (c : Dev nD) : W11 m ρ c (Proc.devRef .tc main_v82_0) = W4 m ρ c (Proc.devRef .tc main_v82_0) :=
  calc W11 m ρ c (Proc.devRef .tc main_v82_0)
    _ = W10 m ρ c (Proc.devRef .tc main_v82_0) := keepH5 m ρ c main_v82_0 (by decide)
    _ = W9 m ρ c (Proc.devRef .tc main_v82_0) := W10_of_ne m ρ c main_v82_0 (by decide)
    _ = W8 m ρ c (Proc.devRef .tc main_v82_0) := keepH4 m ρ c main_v82_0 (by decide)
    _ = W7 m ρ c (Proc.devRef .tc main_v82_0) := W8_of_ne m ρ c main_v82_0 (by decide)
    _ = W6 m ρ c (Proc.devRef .tc main_v82_0) := keepH3 m ρ c main_v82_0 (by decide)
    _ = W5 m ρ c (Proc.devRef .tc main_v82_0) := W6_of_ne m ρ c main_v82_0 (by decide)
    _ = W4 m ρ c (Proc.devRef .tc main_v82_0) := keepH2 m ρ c main_v82_0 (by decide)
theorem kept_v82_1_W5 (c : Dev nD) : W5 m ρ c (Proc.devRef .tc main_v82_1) = W4 m ρ c (Proc.devRef .tc main_v82_1) :=
  calc W5 m ρ c (Proc.devRef .tc main_v82_1)
    _ = W4 m ρ c (Proc.devRef .tc main_v82_1) := keepH2 m ρ c main_v82_1 (by decide)
theorem kept_v82_1_W6 (c : Dev nD) : W6 m ρ c (Proc.devRef .tc main_v82_1) = W4 m ρ c (Proc.devRef .tc main_v82_1) :=
  calc W6 m ρ c (Proc.devRef .tc main_v82_1)
    _ = W5 m ρ c (Proc.devRef .tc main_v82_1) := (W6_arr m ρ c 0).trans (((dat2 (V5 m ρ) c).arrAt_in 0 rfl _).trans (A_eq2 (V5 m ρ) c 0))
    _ = W4 m ρ c (Proc.devRef .tc main_v82_1) := kept_v82_1_W5 m ρ c
theorem kept_v82_1_W8 (c : Dev nD) : W8 m ρ c (Proc.devRef .tc main_v82_1) = W4 m ρ c (Proc.devRef .tc main_v82_1) :=
  calc W8 m ρ c (Proc.devRef .tc main_v82_1)
    _ = W7 m ρ c (Proc.devRef .tc main_v82_1) := W8_of_ne m ρ c main_v82_1 (by decide)
    _ = W6 m ρ c (Proc.devRef .tc main_v82_1) := keepH3 m ρ c main_v82_1 (by decide)
    _ = W4 m ρ c (Proc.devRef .tc main_v82_1) := kept_v82_1_W6 m ρ c
theorem kept_v85_W8 (c : Dev nD) : W8 m ρ c (Proc.devRef .tc main_v85) = W6 m ρ c (Proc.devRef .tc main_v85) :=
  calc W8 m ρ c (Proc.devRef .tc main_v85)
    _ = W7 m ρ c (Proc.devRef .tc main_v85) := W8_of_ne m ρ c main_v85 (by decide)
    _ = W6 m ρ c (Proc.devRef .tc main_v85) := keepH3 m ρ c main_v85 (by decide)
theorem kept_v105_W10 (c : Dev nD) : W10 m ρ c (Proc.devRef .tc main_v105) = W9 m ρ c (Proc.devRef .tc main_v105) :=
  calc W10 m ρ c (Proc.devRef .tc main_v105)
    _ = W9 m ρ c (Proc.devRef .tc main_v105) := W10_of_ne m ρ c main_v105 (by decide)
theorem kept_v145_0_W19 (c : Dev nD) : W19 m ρ c (Proc.devRef .tc main_v145_0) = W12 m ρ c (Proc.devRef .tc main_v145_0) :=
  calc W19 m ρ c (Proc.devRef .tc main_v145_0)
    _ = W18 m ρ c (Proc.devRef .tc main_v145_0) := keepH9 m ρ c main_v145_0 (by decide)
    _ = W17 m ρ c (Proc.devRef .tc main_v145_0) := W18_of_ne m ρ c main_v145_0 (by decide)
    _ = W16 m ρ c (Proc.devRef .tc main_v145_0) := keepH8 m ρ c main_v145_0 (by decide)
    _ = W15 m ρ c (Proc.devRef .tc main_v145_0) := W16_of_ne m ρ c main_v145_0 (by decide)
    _ = W14 m ρ c (Proc.devRef .tc main_v145_0) := keepH7 m ρ c main_v145_0 (by decide)
    _ = W13 m ρ c (Proc.devRef .tc main_v145_0) := W14_of_ne m ρ c main_v145_0 (by decide)
    _ = W12 m ρ c (Proc.devRef .tc main_v145_0) := keepH6 m ρ c main_v145_0 (by decide)
theorem kept_v145_1_W13 (c : Dev nD) : W13 m ρ c (Proc.devRef .tc main_v145_1) = W12 m ρ c (Proc.devRef .tc main_v145_1) :=
  calc W13 m ρ c (Proc.devRef .tc main_v145_1)
    _ = W12 m ρ c (Proc.devRef .tc main_v145_1) := keepH6 m ρ c main_v145_1 (by decide)
theorem kept_v145_1_W14 (c : Dev nD) : W14 m ρ c (Proc.devRef .tc main_v145_1) = W12 m ρ c (Proc.devRef .tc main_v145_1) :=
  calc W14 m ρ c (Proc.devRef .tc main_v145_1)
    _ = W13 m ρ c (Proc.devRef .tc main_v145_1) := (W14_arr m ρ c 0).trans (((dat6 (V13 m ρ) c).arrAt_in 0 rfl _).trans (A_eq6 (V13 m ρ) c 0))
    _ = W12 m ρ c (Proc.devRef .tc main_v145_1) := kept_v145_1_W13 m ρ c
theorem kept_v145_1_W16 (c : Dev nD) : W16 m ρ c (Proc.devRef .tc main_v145_1) = W12 m ρ c (Proc.devRef .tc main_v145_1) :=
  calc W16 m ρ c (Proc.devRef .tc main_v145_1)
    _ = W15 m ρ c (Proc.devRef .tc main_v145_1) := W16_of_ne m ρ c main_v145_1 (by decide)
    _ = W14 m ρ c (Proc.devRef .tc main_v145_1) := keepH7 m ρ c main_v145_1 (by decide)
    _ = W12 m ρ c (Proc.devRef .tc main_v145_1) := kept_v145_1_W14 m ρ c
theorem kept_v148_W16 (c : Dev nD) : W16 m ρ c (Proc.devRef .tc main_v148) = W14 m ρ c (Proc.devRef .tc main_v148) :=
  calc W16 m ρ c (Proc.devRef .tc main_v148)
    _ = W15 m ρ c (Proc.devRef .tc main_v148) := W16_of_ne m ρ c main_v148 (by decide)
    _ = W14 m ρ c (Proc.devRef .tc main_v148) := keepH7 m ρ c main_v148 (by decide)
theorem kept_v168_W18 (c : Dev nD) : W18 m ρ c (Proc.devRef .tc main_v168) = W17 m ρ c (Proc.devRef .tc main_v168) :=
  calc W18 m ρ c (Proc.devRef .tc main_v168)
    _ = W17 m ρ c (Proc.devRef .tc main_v168) := W18_of_ne m ρ c main_v168 (by decide)
theorem kept_v208_0_W27 (c : Dev nD) : W27 m ρ c (Proc.devRef .tc main_v208_0) = W20 m ρ c (Proc.devRef .tc main_v208_0) :=
  calc W27 m ρ c (Proc.devRef .tc main_v208_0)
    _ = W26 m ρ c (Proc.devRef .tc main_v208_0) := keepH13 m ρ c main_v208_0 (by decide)
    _ = W25 m ρ c (Proc.devRef .tc main_v208_0) := W26_of_ne m ρ c main_v208_0 (by decide)
    _ = W24 m ρ c (Proc.devRef .tc main_v208_0) := keepH12 m ρ c main_v208_0 (by decide)
    _ = W23 m ρ c (Proc.devRef .tc main_v208_0) := W24_of_ne m ρ c main_v208_0 (by decide)
    _ = W22 m ρ c (Proc.devRef .tc main_v208_0) := keepH11 m ρ c main_v208_0 (by decide)
    _ = W21 m ρ c (Proc.devRef .tc main_v208_0) := W22_of_ne m ρ c main_v208_0 (by decide)
    _ = W20 m ρ c (Proc.devRef .tc main_v208_0) := keepH10 m ρ c main_v208_0 (by decide)
theorem kept_v208_1_W21 (c : Dev nD) : W21 m ρ c (Proc.devRef .tc main_v208_1) = W20 m ρ c (Proc.devRef .tc main_v208_1) :=
  calc W21 m ρ c (Proc.devRef .tc main_v208_1)
    _ = W20 m ρ c (Proc.devRef .tc main_v208_1) := keepH10 m ρ c main_v208_1 (by decide)
theorem kept_v208_1_W22 (c : Dev nD) : W22 m ρ c (Proc.devRef .tc main_v208_1) = W20 m ρ c (Proc.devRef .tc main_v208_1) :=
  calc W22 m ρ c (Proc.devRef .tc main_v208_1)
    _ = W21 m ρ c (Proc.devRef .tc main_v208_1) := (W22_arr m ρ c 0).trans (((dat10 (V21 m ρ) c).arrAt_in 0 rfl _).trans (A_eq10 (V21 m ρ) c 0))
    _ = W20 m ρ c (Proc.devRef .tc main_v208_1) := kept_v208_1_W21 m ρ c
theorem kept_v208_1_W24 (c : Dev nD) : W24 m ρ c (Proc.devRef .tc main_v208_1) = W20 m ρ c (Proc.devRef .tc main_v208_1) :=
  calc W24 m ρ c (Proc.devRef .tc main_v208_1)
    _ = W23 m ρ c (Proc.devRef .tc main_v208_1) := W24_of_ne m ρ c main_v208_1 (by decide)
    _ = W22 m ρ c (Proc.devRef .tc main_v208_1) := keepH11 m ρ c main_v208_1 (by decide)
    _ = W20 m ρ c (Proc.devRef .tc main_v208_1) := kept_v208_1_W22 m ρ c
theorem kept_v211_W24 (c : Dev nD) : W24 m ρ c (Proc.devRef .tc main_v211) = W22 m ρ c (Proc.devRef .tc main_v211) :=
  calc W24 m ρ c (Proc.devRef .tc main_v211)
    _ = W23 m ρ c (Proc.devRef .tc main_v211) := W24_of_ne m ρ c main_v211 (by decide)
    _ = W22 m ρ c (Proc.devRef .tc main_v211) := keepH11 m ρ c main_v211 (by decide)
theorem kept_v231_W26 (c : Dev nD) : W26 m ρ c (Proc.devRef .tc main_v231) = W25 m ρ c (Proc.devRef .tc main_v231) :=
  calc W26 m ρ c (Proc.devRef .tc main_v231)
    _ = W25 m ρ c (Proc.devRef .tc main_v231) := W26_of_ne m ρ c main_v231 (by decide)
theorem kept_v271_0_W35 (c : Dev nD) : W35 m ρ c (Proc.devRef .tc main_v271_0) = W28 m ρ c (Proc.devRef .tc main_v271_0) :=
  calc W35 m ρ c (Proc.devRef .tc main_v271_0)
    _ = W34 m ρ c (Proc.devRef .tc main_v271_0) := keepH17 m ρ c main_v271_0 (by decide)
    _ = W33 m ρ c (Proc.devRef .tc main_v271_0) := W34_of_ne m ρ c main_v271_0 (by decide)
    _ = W32 m ρ c (Proc.devRef .tc main_v271_0) := keepH16 m ρ c main_v271_0 (by decide)
    _ = W31 m ρ c (Proc.devRef .tc main_v271_0) := W32_of_ne m ρ c main_v271_0 (by decide)
    _ = W30 m ρ c (Proc.devRef .tc main_v271_0) := keepH15 m ρ c main_v271_0 (by decide)
    _ = W29 m ρ c (Proc.devRef .tc main_v271_0) := W30_of_ne m ρ c main_v271_0 (by decide)
    _ = W28 m ρ c (Proc.devRef .tc main_v271_0) := keepH14 m ρ c main_v271_0 (by decide)
theorem kept_v271_1_W29 (c : Dev nD) : W29 m ρ c (Proc.devRef .tc main_v271_1) = W28 m ρ c (Proc.devRef .tc main_v271_1) :=
  calc W29 m ρ c (Proc.devRef .tc main_v271_1)
    _ = W28 m ρ c (Proc.devRef .tc main_v271_1) := keepH14 m ρ c main_v271_1 (by decide)
theorem kept_v271_1_W30 (c : Dev nD) : W30 m ρ c (Proc.devRef .tc main_v271_1) = W28 m ρ c (Proc.devRef .tc main_v271_1) :=
  calc W30 m ρ c (Proc.devRef .tc main_v271_1)
    _ = W29 m ρ c (Proc.devRef .tc main_v271_1) := (W30_arr m ρ c 0).trans (((dat14 (V29 m ρ) c).arrAt_in 0 rfl _).trans (A_eq14 (V29 m ρ) c 0))
    _ = W28 m ρ c (Proc.devRef .tc main_v271_1) := kept_v271_1_W29 m ρ c
theorem kept_v271_1_W32 (c : Dev nD) : W32 m ρ c (Proc.devRef .tc main_v271_1) = W28 m ρ c (Proc.devRef .tc main_v271_1) :=
  calc W32 m ρ c (Proc.devRef .tc main_v271_1)
    _ = W31 m ρ c (Proc.devRef .tc main_v271_1) := W32_of_ne m ρ c main_v271_1 (by decide)
    _ = W30 m ρ c (Proc.devRef .tc main_v271_1) := keepH15 m ρ c main_v271_1 (by decide)
    _ = W28 m ρ c (Proc.devRef .tc main_v271_1) := kept_v271_1_W30 m ρ c
theorem kept_v274_W32 (c : Dev nD) : W32 m ρ c (Proc.devRef .tc main_v274) = W30 m ρ c (Proc.devRef .tc main_v274) :=
  calc W32 m ρ c (Proc.devRef .tc main_v274)
    _ = W31 m ρ c (Proc.devRef .tc main_v274) := W32_of_ne m ρ c main_v274 (by decide)
    _ = W30 m ρ c (Proc.devRef .tc main_v274) := keepH15 m ρ c main_v274 (by decide)
theorem kept_v294_W34 (c : Dev nD) : W34 m ρ c (Proc.devRef .tc main_v294) = W33 m ρ c (Proc.devRef .tc main_v294) :=
  calc W34 m ρ c (Proc.devRef .tc main_v294)
    _ = W33 m ρ c (Proc.devRef .tc main_v294) := W34_of_ne m ρ c main_v294 (by decide)
theorem kept_v336_W39 (c : Dev nD) : W39 m ρ c (Proc.devRef .tc main_v336) = W37 m ρ c (Proc.devRef .tc main_v336) :=
  calc W39 m ρ c (Proc.devRef .tc main_v336)
    _ = W38 m ρ c (Proc.devRef .tc main_v336) := keepH19 m ρ c main_v336 (by decide)
    _ = W37 m ρ c (Proc.devRef .tc main_v336) := W38_of_ne m ρ c main_v336 (by decide)
theorem kept_v348_W41 (c : Dev nD) : W41 m ρ c (Proc.devRef .tc main_v348) = W37 m ρ c (Proc.devRef .tc main_v348) :=
  calc W41 m ρ c (Proc.devRef .tc main_v348)
    _ = W40 m ρ c (Proc.devRef .tc main_v348) := keepH20 m ρ c main_v348 (by decide)
    _ = W39 m ρ c (Proc.devRef .tc main_v348) := W40_of_ne m ρ c main_v348 (by decide)
    _ = W38 m ρ c (Proc.devRef .tc main_v348) := keepH19 m ρ c main_v348 (by decide)
    _ = W37 m ρ c (Proc.devRef .tc main_v348) := W38_of_ne m ρ c main_v348 (by decide)
theorem kept_v350_W40 (c : Dev nD) : W40 m ρ c (Proc.devRef .tc main_v350) = W37 m ρ c (Proc.devRef .tc main_v350) :=
  calc W40 m ρ c (Proc.devRef .tc main_v350)
    _ = W39 m ρ c (Proc.devRef .tc main_v350) := W40_of_ne m ρ c main_v350 (by decide)
    _ = W38 m ρ c (Proc.devRef .tc main_v350) := keepH19 m ρ c main_v350 (by decide)
    _ = W37 m ρ c (Proc.devRef .tc main_v350) := W38_of_ne m ρ c main_v350 (by decide)
theorem kept_v352_W41 (c : Dev nD) : W41 m ρ c (Proc.devRef .tc main_v352) = W37 m ρ c (Proc.devRef .tc main_v352) :=
  calc W41 m ρ c (Proc.devRef .tc main_v352)
    _ = W40 m ρ c (Proc.devRef .tc main_v352) := keepH20 m ρ c main_v352 (by decide)
    _ = W39 m ρ c (Proc.devRef .tc main_v352) := W40_of_ne m ρ c main_v352 (by decide)
    _ = W38 m ρ c (Proc.devRef .tc main_v352) := keepH19 m ρ c main_v352 (by decide)
    _ = W37 m ρ c (Proc.devRef .tc main_v352) := W38_of_ne m ρ c main_v352 (by decide)
theorem kept_v354_W40 (c : Dev nD) : W40 m ρ c (Proc.devRef .tc main_v354) = W37 m ρ c (Proc.devRef .tc main_v354) :=
  calc W40 m ρ c (Proc.devRef .tc main_v354)
    _ = W39 m ρ c (Proc.devRef .tc main_v354) := W40_of_ne m ρ c main_v354 (by decide)
    _ = W38 m ρ c (Proc.devRef .tc main_v354) := keepH19 m ρ c main_v354 (by decide)
    _ = W37 m ρ c (Proc.devRef .tc main_v354) := W38_of_ne m ρ c main_v354 (by decide)
theorem kept_v356_W40 (c : Dev nD) : W40 m ρ c (Proc.devRef .tc main_v356) = W37 m ρ c (Proc.devRef .tc main_v356) :=
  calc W40 m ρ c (Proc.devRef .tc main_v356)
    _ = W39 m ρ c (Proc.devRef .tc main_v356) := W40_of_ne m ρ c main_v356 (by decide)
    _ = W38 m ρ c (Proc.devRef .tc main_v356) := keepH19 m ρ c main_v356 (by decide)
    _ = W37 m ρ c (Proc.devRef .tc main_v356) := W38_of_ne m ρ c main_v356 (by decide)
theorem kept_v388_W40 (c : Dev nD) : W40 m ρ c (Proc.devRef .tc main_v388) = W38 m ρ c (Proc.devRef .tc main_v388) :=
  calc W40 m ρ c (Proc.devRef .tc main_v388)
    _ = W39 m ρ c (Proc.devRef .tc main_v388) := W40_of_ne m ρ c main_v388 (by decide)
    _ = W38 m ρ c (Proc.devRef .tc main_v388) := keepH19 m ρ c main_v388 (by decide)

end Cert.KChain

end
-- ==== Proof.Spec.lean ====
/-
  The network both programs compute, stated once over the extended reals as plain functions of row and
  column coordinates. A matrix is a function of two bounded coordinates; an index vector is a function into 32-bit
  words, read signed. Every stage below is the textbook form: a linear layer is a sum of products over the shared
  axis, a row normalisation subtracts the row mean, scales by the inverse square root of the row's mean squared
  deviation plus a small constant, then applies a per-column scale and shift; a row gather reads the table at the
  wrapped and clamped index; an accumulating row scatter adds to each row every update whose wrapped index is that
  row (an index that is still out of range after wrapping contributes nothing).
-/
import Idealize.ShloMosaic.PureOps.Ideal
import Idealize.ShloMosaic.Lib.ValueIdx

noncomputable section

namespace Cert.Spec

open Idealize.ShloMosaic

/-- A matrix over the extended reals, by row and column. -/
abbrev M (n k : Nat) := Fin n → Fin k → EReal

/-- A rank-2 array of the library read as a matrix, and back. -/
def ofVec2 {a b : Nat} (x : (⟨2, ![a, b]⟩ : Shape).Idx → EReal) : M a b := fun p q => x (ValueIdx.ix2 p q)
def toVec2 {a b : Nat} (x : M a b) : (⟨2, ![a, b]⟩ : Shape).Idx → EReal := fun i => x (i 0) (i 1)

theorem toVec2_ofVec2 {a b : Nat} (x : (⟨2, ![a, b]⟩ : Shape).Idx → EReal) : toVec2 (ofVec2 x) = x := by
  funext i; unfold toVec2 ofVec2; exact congrArg x (ValueIdx.eq_ix2 i).symm
theorem ofVec2_toVec2 {a b : Nat} (x : M a b) : ofVec2 (toVec2 x) = x := rfl

/-- The two literals of the row normalisation: the row length 128 and the small constant added to the mean squared
    deviation, each the exact value of its 32-bit pattern. -/
def c128 : EReal := Ideal.ofBits .f32 0x43000000#32
def cEps : EReal := Ideal.ofBits .f32 0x3727C5AC#32

/-- A linear layer: row `p` of `x` against row `q` of the weight, summed over the shared axis. -/
def lin {n k o : Nat} (x : M n k) (w : M o k) : M n o := fun p q => ∑ j : Fin k, x p j * w q j

/-- The positive part, entry by entry. -/
def relu {n k : Nat} (x : M n k) : M n k := fun p q => max (x p q) 0

/-- Entrywise sum and difference. -/
def add {n k : Nat} (x y : M n k) : M n k := fun p q => x p q + y p q
def sub {n k : Nat} (x y : M n k) : M n k := fun p q => x p q - y p q

/-- A row vector added to every row. -/
def addRow {n k : Nat} (x : M n k) (b : Fin k → EReal) : M n k := fun p q => x p q + b q

/-- The mean of a row of 128 entries: the sum divided by the literal 128. -/
def mean (y : Fin 128 → EReal) : EReal := Ideal.div (∑ j : Fin 128, y j) c128

/-- The row normalisation with per-column scale `s` and shift `h`. -/
def gn {n : Nat} (y : M n 128) (s h : Fin 128 → EReal) : M n 128 := fun p q =>
  (y p q - mean (y p)) * Ideal.rsqrt (mean (fun j => (y p j - mean (y p)) * (y p j - mean (y p))) + cEps) * s q + h q

/-- The index a word denotes in a table of `N` rows: read signed, a negative value wrapped once by `N`. -/
def wrap (N : Nat) (i : BitVec 32) : Int := if i.toInt < 0 then i.toInt + N else i.toInt

/-- The row a gather reads: the wrapped index clamped into the table. -/
def clampRow (N : Nat) (hN : 0 < N) (i : BitVec 32) : Fin N :=
  ⟨(max 0 (min (wrap N i) (N - 1))).toNat, by
    have h1 : max 0 (min (wrap N i) ((N : Int) - 1)) ≤ (N : Int) - 1 := by omega
    have h0 : 0 ≤ max 0 (min (wrap N i) ((N : Int) - 1)) := by omega
    omega⟩

/-- A row gather: row `e` of the result is the table's row at the clamped wrapped index. -/
def gatherRows {N k e : Nat} (hN : 0 < N) (x : M N k) (idx : Fin e → BitVec 32) : M e k :=
  fun p q => x (clampRow N hN (idx p)) q

/-- An accumulating row scatter: every update row whose wrapped index is row `i` is added to it. -/
def scatterAddRows {N k e : Nat} (t : M N k) (idx : Fin e → BitVec 32) (u : M e k) : M N k :=
  fun i q => t i q + ∑ j ∈ Finset.univ.filter (fun j : Fin e => wrap N (idx j) = (i.val : Int)), u j q

/-- The edge stage of a pooling layer: the relative-pose feature, the two halves of the first context layer, the row
    normalisation, and the second context layer. `wa` and `wb` are the two column halves of the first context weight. -/
def lpEdge {e : Nat} (diff : M e 4) (ctxg : M e 128) (rpw : M 128 4) (rpb : Fin 128 → EReal) (wa wb : M 128 128)
    (gs gh : Fin 128 → EReal) (ctx2w : M 128 128) : M e 128 :=
  lin (relu (gn (add (lin ctxg wa) (lin (relu (addRow (lin diff rpw) rpb)) wb)) gs gh)) ctx2w

/-- The node stage of a pooling layer. -/
def lpTail {n : Nat} (t idn : M n 128) (ns nh : Fin 128 → EReal) (w1 : M 128 128) (s1 h1 : Fin 128 → EReal)
    (w2 : M 128 128) (s2 h2 : Fin 128 → EReal) : M n 128 :=
  relu (add (gn (lin (relu (gn (lin (relu (gn t ns nh)) w1) s1 h1)) w2) s2 h2) idn)

/-- The node stage of a fusion layer. -/
def ggTail {n : Nat} (temp res : M n 128) (ns nh : Fin 128 → EReal) (w : M 128 128) (s h : Fin 128 → EReal) : M n 128 :=
  relu (add (gn (lin (relu (gn temp ns nh)) w) s h) res)

end Cert.Spec

end
-- ==== Proof.Net.lean ====
/-
  The whole network as one function of its arguments: a pooling layer from the region nodes onto the lane nodes
  (the lane features start at zero), four fusion layers on the lane nodes, and a pooling layer back onto the region
  nodes. In a fusion layer the twelve predecessor / successor edge sets and the two left / right edge sets are added
  one after the other; adding them in one pass over the concatenated edge list gives the same sums, which is stated
  separately.
-/
import proofs.«413166_j32323923870246_3_alg».proof.Proof.Spec

noncomputable section

namespace Cert.Spec

open Idealize.ShloMosaic

/-- The arguments, as matrices and index vectors. A packed scale / shift pair is indexed 0 (scale), 1 (shift). -/
structure Args where
  roi_feat : M 12000 128
  graph_pose : M 50000 4
  roi_pose : M 12000 4
  lp_input_w : Fin 2 → M 128 128
  lp_relpose_w : Fin 2 → M 128 4
  lp_relpose_b : Fin 2 → Fin 128 → EReal
  lp_ctx1_w : Fin 2 → M 128 256
  lp_ctx1_gn : Fin 2 → Fin 2 → Fin 128 → EReal
  lp_ctx2_w : Fin 2 → M 128 128
  lp_mlp1_w : Fin 2 → M 128 128
  lp_mlp1_gn : Fin 2 → Fin 2 → Fin 128 → EReal
  lp_mlp2_w : Fin 2 → M 128 128
  lp_mlp2_gn : Fin 2 → Fin 2 → Fin 128 → EReal
  lp_norm_gn : Fin 2 → Fin 2 → Fin 128 → EReal
  fuse_ctr_w : Fin 4 → M 128 128
  fuse_ps_w : Fin 4 → Fin 12 → M 128 128
  fuse_left_w : Fin 4 → M 128 128
  fuse_right_w : Fin 4 → M 128 128
  fuse_norm_gn : Fin 4 → Fin 2 → Fin 128 → EReal
  fuse_ctr2_w : Fin 4 → M 128 128
  fuse_ctr2_gn : Fin 4 → Fin 2 → Fin 128 → EReal
  e1_hi : Fin 150000 → BitVec 32
  e1_wi : Fin 150000 → BitVec 32
  e2_hi : Fin 150000 → BitVec 32
  e2_wi : Fin 150000 → BitVec 32
  ps_u : Fin 12 → Fin 50000 → BitVec 32
  ps_v : Fin 12 → Fin 50000 → BitVec 32
  lr_u : Fin 2 → Fin 5000 → BitVec 32
  lr_v : Fin 2 → Fin 5000 → BitVec 32

variable (A : Args)

/-- The two column halves of a pooling layer's first context weight (columns 0–127 and 128–255). -/
def waOf (l : Fin 2) : M 128 128 := fun p q => A.lp_ctx1_w l p ⟨q.val, by omega⟩
def wbOf (l : Fin 2) : M 128 128 := fun p q => A.lp_ctx1_w l p ⟨q.val + 128, by omega⟩

/-- The edge contributions of pooling layer `l`, from the context nodes' features and poses and the target nodes' poses. -/
def lpCtx (l : Fin 2) {nc nt : Nat} (hc : 0 < nc) (ht : 0 < nt) (ctxFeat : M nc 128) (ctxPose : M nc 4) (tgtPose : M nt 4)
    (hi wi : Fin 150000 → BitVec 32) : M 150000 128 :=
  lpEdge (sub (gatherRows hc ctxPose hi) (gatherRows ht tgtPose wi)) (gatherRows hc ctxFeat hi)
    (A.lp_relpose_w l) (A.lp_relpose_b l) (waOf A l) (wbOf A l) (A.lp_ctx1_gn l 0) (A.lp_ctx1_gn l 1) (A.lp_ctx2_w l)

/-- Pooling layer `l` onto target nodes whose transformed features are `t0` and whose residual is `idn`. -/
def lanePool (l : Fin 2) {nc nt : Nat} (hc : 0 < nc) (ht : 0 < nt) (ctxFeat : M nc 128) (ctxPose : M nc 4) (t0 idn : M nt 128)
    (tgtPose : M nt 4) (hi wi : Fin 150000 → BitVec 32) : M nt 128 :=
  lpTail (scatterAddRows t0 wi (lpCtx A l hc ht ctxFeat ctxPose tgtPose hi wi)) idn
    (A.lp_norm_gn l 0) (A.lp_norm_gn l 1) (A.lp_mlp1_w l) (A.lp_mlp1_gn l 0) (A.lp_mlp1_gn l 1)
    (A.lp_mlp2_w l) (A.lp_mlp2_gn l 0) (A.lp_mlp2_gn l 1)

/-- One edge set's update in fusion layer `i`: the gathered source rows through the set's linear layer, scattered
    onto the destination rows. -/
def edgeStep {e : Nat} (g : M 50000 128) (temp : M 50000 128) (u v : Fin e → BitVec 32) (w : M 128 128) : M 50000 128 :=
  scatterAddRows temp u (lin (gatherRows (by omega : 0 < 50000) g v) w)

/-- The accumulated features of fusion layer `i` before its node stage: the centre term, then the twelve
    predecessor / successor sets in order, then left, then right. -/
def fuseAcc (i : Fin 4) (g : M 50000 128) : M 50000 128 :=
  let tempP := (List.finRange 12).foldl (fun t k => edgeStep g t (A.ps_u k) (A.ps_v k) (A.fuse_ps_w i k)) (lin g (A.fuse_ctr_w i))
  edgeStep g (edgeStep g tempP (A.lr_u 0) (A.lr_v 0) (A.fuse_left_w i)) (A.lr_u 1) (A.lr_v 1) (A.fuse_right_w i)

/-- Fusion layer `i`. -/
def fuse (i : Fin 4) (g : M 50000 128) : M 50000 128 :=
  ggTail (fuseAcc A i g) g (A.fuse_norm_gn i 0) (A.fuse_norm_gn i 1) (A.fuse_ctr2_w i) (A.fuse_ctr2_gn i 0) (A.fuse_ctr2_gn i 1)

/-- The lane nodes' features after the first pooling layer (from zero features: no input transform, no residual). -/
def g0 : M 50000 128 :=
  lanePool A 0 (by omega : 0 < 12000) (by omega : 0 < 50000) A.roi_feat A.roi_pose (fun _ _ => 0) (fun _ _ => 0) A.graph_pose A.e1_hi A.e1_wi

/-- After the four fusion layers. -/
def g4 : M 50000 128 := fuse A 3 (fuse A 2 (fuse A 1 (fuse A 0 (g0 A))))

/-- The result: the second pooling layer, back onto the region nodes. -/
def net : M 12000 128 :=
  lanePool A 1 (by omega : 0 < 50000) (by omega : 0 < 12000) (g4 A) A.graph_pose (lin A.roi_feat (A.lp_input_w 1)) A.roi_feat
    A.roi_pose A.e2_hi A.e2_wi

/-- The same accumulation in two passes: all twelve predecessor / successor sets as one edge list of 600000 rows
    (set `k`, edge `e` at row `k * 50000 + e`), then left and right as one list of 10000 rows. -/
def psRow (r : Fin 600000) : Fin 12 × Fin 50000 := (⟨r.val / 50000, by omega⟩, ⟨r.val % 50000, by omega⟩)
def lrRow (r : Fin 10000) : Fin 2 × Fin 5000 := (⟨r.val / 5000, by omega⟩, ⟨r.val % 5000, by omega⟩)

def fuseAccMerged (i : Fin 4) (g : M 50000 128) : M 50000 128 :=
  let tempP := scatterAddRows (lin g (A.fuse_ctr_w i)) (fun r : Fin 600000 => A.ps_u (psRow r).1 (psRow r).2)
    (fun r q => lin (gatherRows (by omega : 0 < 50000) g (A.ps_v (psRow r).1)) (A.fuse_ps_w i (psRow r).1) (psRow r).2 q)
  scatterAddRows tempP (fun r : Fin 10000 => A.lr_u (lrRow r).1 (lrRow r).2)
    (fun r q => lin (gatherRows (by omega : 0 < 50000) g (A.lr_v (lrRow r).1))
      (if (lrRow r).1 = 0 then A.fuse_left_w i else A.fuse_right_w i) (lrRow r).2 q)

end Cert.Spec

end
-- ==== Proof.RValArgs.lean ====
/-
  The specification's arguments as a function of the 29 argument arrays of the two programs.
-/
import proofs.«413166_j32323923870246_3_alg».proof.Proof.Net
import Idealize.ShloMosaic.Lib.ValueIdx

noncomputable section

namespace Cert.RVal

open Idealize.ShloMosaic Idealize.ShloMosaic.ValueIdx

/-! ## The arguments as the specification reads them -/

/-- The specification's arguments built from the 29 argument arrays: a rank-2 float array by row and column, a stacked
    weight `[L, o, k]` at `(l, p, q)`, a packed scale / shift `[L, 2, 128]` at `(l, 0 / 1, q)`, an index vector by
    position, a stacked index array `[K, E]` at `(k, e)`. -/
def argsOf
    (a0 : (⟨2, ![12000, 128]⟩ : Shape).Idx → EReal) (a1 : (⟨2, ![50000, 4]⟩ : Shape).Idx → EReal)
    (a2 : (⟨2, ![12000, 4]⟩ : Shape).Idx → EReal) (a3 : (⟨3, ![2, 128, 128]⟩ : Shape).Idx → EReal)
    (a4 : (⟨3, ![2, 128, 4]⟩ : Shape).Idx → EReal) (a5 : (⟨2, ![2, 128]⟩ : Shape).Idx → EReal)
    (a6 : (⟨3, ![2, 128, 256]⟩ : Shape).Idx → EReal) (a7 : (⟨3, ![2, 2, 128]⟩ : Shape).Idx → EReal)
    (a8 : (⟨3, ![2, 128, 128]⟩ : Shape).Idx → EReal) (a9 : (⟨3, ![2, 128, 128]⟩ : Shape).Idx → EReal)
    (a10 : (⟨3, ![2, 2, 128]⟩ : Shape).Idx → EReal) (a11 : (⟨3, ![2, 128, 128]⟩ : Shape).Idx → EReal)
    (a12 : (⟨3, ![2, 2, 128]⟩ : Shape).Idx → EReal) (a13 : (⟨3, ![2, 2, 128]⟩ : Shape).Idx → EReal)
    (a14 : (⟨3, ![4, 128, 128]⟩ : Shape).Idx → EReal) (a15 : (⟨4, ![4, 12, 128, 128]⟩ : Shape).Idx → EReal)
    (a16 : (⟨3, ![4, 128, 128]⟩ : Shape).Idx → EReal) (a17 : (⟨3, ![4, 128, 128]⟩ : Shape).Idx → EReal)
    (a18 : (⟨3, ![4, 2, 128]⟩ : Shape).Idx → EReal) (a19 : (⟨3, ![4, 128, 128]⟩ : Shape).Idx → EReal)
    (a20 : (⟨3, ![4, 2, 128]⟩ : Shape).Idx → EReal)
    (a21 a22 a23 a24 : (⟨1, ![150000]⟩ : Shape).Idx → BitVec 32)
    (a25 a26 : (⟨2, ![12, 50000]⟩ : Shape).Idx → BitVec 32)
    (a27 a28 : (⟨2, ![2, 5000]⟩ : Shape).Idx → BitVec 32) : Cert.Spec.Args where
  roi_feat := Cert.Spec.ofVec2 a0
  graph_pose := Cert.Spec.ofVec2 a1
  roi_pose := Cert.Spec.ofVec2 a2
  lp_input_w := fun l p q => a3 (ix3 l p q)
  lp_relpose_w := fun l p q => a4 (ix3 l p q)
  lp_relpose_b := fun l q => a5 (ix2 l q)
  lp_ctx1_w := fun l p q => a6 (ix3 l p q)
  lp_ctx1_gn := fun l t q => a7 (ix3 l t q)
  lp_ctx2_w := fun l p q => a8 (ix3 l p q)
  lp_mlp1_w := fun l p q => a9 (ix3 l p q)
  lp_mlp1_gn := fun l t q => a10 (ix3 l t q)
  lp_mlp2_w := fun l p q => a11 (ix3 l p q)
  lp_mlp2_gn := fun l t q => a12 (ix3 l t q)
  lp_norm_gn := fun l t q => a13 (ix3 l t q)
  fuse_ctr_w := fun i p q => a14 (ix3 i p q)
  fuse_ps_w := fun i k p q => a15 (ix4 i k p q)
  fuse_left_w := fun i p q => a16 (ix3 i p q)
  fuse_right_w := fun i p q => a17 (ix3 i p q)
  fuse_norm_gn := fun i t q => a18 (ix3 i t q)
  fuse_ctr2_w := fun i p q => a19 (ix3 i p q)
  fuse_ctr2_gn := fun i t q => a20 (ix3 i t q)
  e1_hi := fun p => a21 (ix1 p)
  e1_wi := fun p => a22 (ix1 p)
  e2_hi := fun p => a23 (ix1 p)
  e2_wi := fun p => a24 (ix1 p)
  ps_u := fun k e => a25 (ix2 k e)
  ps_v := fun k e => a26 (ix2 k e)
  lr_u := fun k e => a27 (ix2 k e)
  lr_v := fun k e => a28 (ix2 k e)

end Cert.RVal

end
-- ==== Proof.Stack.lean ====
/-
  Stacks of matrices over the extended reals: the rank-3 reading the batched matrix kernels' arrays are stated in.
  A stack is a matrix per member; a linear layer on a stack is the linear layer member by member, each member of the
  input against the rows of the same member of the weight.
-/
import proofs.«413166_j32323923870246_3_alg».proof.Proof.Spec

noncomputable section

namespace Cert.Stack

open Idealize.ShloMosaic

/-- A stack of `g` matrices over the extended reals, by member, row and column. -/
abbrev M3 (g n k : Nat) := Fin g → Spec.M n k

/-- A rank-3 array of the library read as a stack, and back. -/
def ofVec3 {g a b : Nat} (x : (⟨3, ![g, a, b]⟩ : Shape).Idx → EReal) : M3 g a b := fun s p q => x (ValueIdx.ix3 s p q)
def toVec3 {g a b : Nat} (x : M3 g a b) : (⟨3, ![g, a, b]⟩ : Shape).Idx → EReal := fun i => x (i 0) (i 1) (i 2)

theorem toVec3_ofVec3 {g a b : Nat} (x : (⟨3, ![g, a, b]⟩ : Shape).Idx → EReal) : toVec3 (ofVec3 x) = x := by
  funext i; unfold toVec3 ofVec3; exact congrArg x (ValueIdx.eq_ix3 i).symm
theorem ofVec3_toVec3 {g a b : Nat} (x : M3 g a b) : ofVec3 (toVec3 x) = x := rfl

/-- The linear layer member by member: entry (s, p, q) = `∑ j, x s p j * w s q j`. -/
def lin3 {g n k o : Nat} (x : M3 g n k) (w : M3 g o k) : M3 g n o := fun s => Spec.lin (x s) (w s)

end Cert.Stack

end
-- ==== Proof.KChainArgs.lean ====
/-
  The network's arguments as the kernel program's launch holds them, and names for the intermediate values of the
  network that the program's buffers hold between its segments.
-/
import proofs.«413166_j32323923870246_3_alg».proof.KernelIdeal
import proofs.«413166_j32323923870246_3_alg».proof.Proof.Net
import proofs.«413166_j32323923870246_3_alg».proof.Proof.RValArgs
import proofs.«413166_j32323923870246_3_alg».proof.Proof.Stack

noncomputable section

namespace Cert.KChain

open Idealize.ShloMosaic Cert.Spec

/-! ## Names for the intermediate values of the network -/

section Terms

variable (A : Spec.Args)

/-- The edge contributions of the first pooling layer (region nodes onto lane nodes) and, from lane features `g`, of the
    second (lane nodes back onto region nodes). -/
def ctx0 : M 150000 128 :=
  lpCtx A 0 (by omega : 0 < 12000) (by omega : 0 < 50000) A.roi_feat A.roi_pose A.graph_pose A.e1_hi A.e1_wi
def ctx1 (g : M 50000 128) : M 150000 128 :=
  lpCtx A 1 (by omega : 0 < 50000) (by omega : 0 < 12000) g A.graph_pose A.roi_pose A.e2_hi A.e2_wi

/-- The twelve predecessor / successor contributions of fusion layer `i`, one matrix per edge set; the left / right ones. -/
def psContrib (i : Fin 4) (g : M 50000 128) : Fin 12 → M 50000 128 :=
  fun k => lin (gatherRows (by omega : 0 < 50000) g (A.ps_v k)) (A.fuse_ps_w i k)
def lrContrib (i : Fin 4) (g : M 50000 128) : Fin 2 → M 5000 128 :=
  fun s => lin (gatherRows (by omega : 0 < 50000) g (A.lr_v s)) (if s = 0 then A.fuse_left_w i else A.fuse_right_w i)

/-- The accumulation of fusion layer `i` after its first pass: the centre term and the twelve sets as one edge list. -/
def accPs (i : Fin 4) (g : M 50000 128) : M 50000 128 :=
  scatterAddRows (lin g (A.fuse_ctr_w i)) (fun r : Fin 600000 => A.ps_u (psRow r).1 (psRow r).2)
    (fun r q => psContrib A i g (psRow r).1 (psRow r).2 q)

/-- The two-pass accumulation is the second pass over the first. -/
theorem fuseAccMerged_eq (i : Fin 4) (g : M 50000 128) :
    fuseAccMerged A i g = scatterAddRows (accPs A i g) (fun r : Fin 10000 => A.lr_u (lrRow r).1 (lrRow r).2)
      (fun r q => lrContrib A i g (lrRow r).1 (lrRow r).2 q) := rfl

/-- The second pooling layer from lane features `g`. -/
def poolBack (g : M 50000 128) : M 12000 128 :=
  lanePool A 1 (by omega : 0 < 50000) (by omega : 0 < 12000) g A.graph_pose (lin A.roi_feat (A.lp_input_w 1)) A.roi_feat
    A.roi_pose A.e2_hi A.e2_wi

theorem net_eq : net A = poolBack A (g4 A) := rfl

end Terms

open Cert.KernelIdeal in
/-- The arguments the kernel program is launched on: its argument buffers on core `c` in the launch memory. -/
def argsOfK (m : (ℓ : Loc nD τ sig) → Buf (Elt Ideal) ℓ) (c : Dev nD) : Spec.Args :=
  Cert.RVal.argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25)) (m ((c.tc : Thread nD τ).loc main_arg26))
    (m ((c.tc : Thread nD τ).loc main_arg27)) (m ((c.tc : Thread nD τ).loc main_arg28))

end Cert.KChain

end
-- ==== Proof.KHostLp.lean ====
/-
  The host stretches of the two pooling layers, read buffer by buffer at an arbitrary valuation `W` of the
  TensorCore's buffers: before each edge stage the weight slices, the wrapped index gathers of pose rows and of
  feature rows and their difference; after it the accumulating scatter of the edge stage's output onto the target
  rows and the rows of the packed scale / shift pairs. Each buffer a later stage reads is stated as a function of
  the buffers the stretch itself reads, in the vocabulary of the shared specification.
-/
import proofs.«413166_j32323923870246_3_alg».proof.Proof.Gen.KernelIdeal.Launch
import proofs.«413166_j32323923870246_3_alg».proof.Proof.Net
import Idealize.ShloMosaic.Lib.StableHlo.Run
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KHostLp

open Idealize.ShloMosaic Idealize.ShloMosaic.ValueIdx

/-! ## Readings of packed arrays -/

/-- Layer `l` of a packed `[n, a, b]` array, as an `[a, b]` array. -/
def layer {n a b : Nat} (X : (⟨3, ![n, a, b]⟩ : Shape).Idx → EReal) (l : Fin n) : (⟨2, ![a, b]⟩ : Shape).Idx → EReal :=
  fun i => X (ix3 l (i 0) (i 1))

/-- Row `r` of an `[n, b]` array, as a `[1, b]` array. -/
def rowOf {n b : Nat} (X : (⟨2, ![n, b]⟩ : Shape).Idx → EReal) (r : Fin n) : (⟨2, ![1, b]⟩ : Shape).Idx → EReal :=
  fun i => X (ix2 r (i 1))

/-- Columns 0–127 and 128–255 of a `[128, 256]` array. -/
def half0 (X : (⟨2, ![128, 256]⟩ : Shape).Idx → EReal) : (⟨2, ![128, 128]⟩ : Shape).Idx → EReal :=
  fun i => X (ix2 (i 0) ⟨(i 1).val, by have := idx2_lt1 i; omega⟩)
def half1 (X : (⟨2, ![128, 256]⟩ : Shape).Idx → EReal) : (⟨2, ![128, 128]⟩ : Shape).Idx → EReal :=
  fun i => X (ix2 (i 0) ⟨(i 1).val + 128, by have := idx2_lt1 i; omega⟩)

/-! ## The index wrap -/

/-- The host's wrap of one index word: `N` is added, in 32-bit arithmetic, to a word that reads negative. For a
    table of fewer than 2³¹ rows the sum does not overflow, so the result read signed is the wrapped integer. -/
theorem toInt_wrap (N : Nat) (hN : N < 2147483648) (i : BitVec 32) :
    (Scalar.select (IntOp.cmpi .slt i 0#32) (IntOp.addi i (BitVec.ofNat 32 N)) i).toInt = Spec.wrap N i := by
  have hlo : (-2147483648 : Int) ≤ i.toInt := by
    have := BitVec.le_toInt i
    norm_num at this
    exact this
  have hhi : i.toInt < 2147483648 := by
    have := BitVec.toInt_lt (x := i)
    norm_num at this
    exact this
  have hz : (0#32 : BitVec 32).toInt = 0 := BitVec.toInt_zero
  have hNi : (BitVec.ofNat 32 N).toInt = (N : Int) := by
    rw [BitVec.toInt_ofNat']
    refine Int.bmod_eq_of_le ?_ ?_
    · first
      | omega
      | (norm_num; omega)
    · first
      | omega
      | (norm_num; omega)
  by_cases h : i.toInt < 0
  · have hs : i.slt 0#32 = true := BitVec.slt_iff_toInt_lt.2 (by rw [hz]; exact h)
    have hsel : Scalar.select (IntOp.cmpi .slt i 0#32) (IntOp.addi i (BitVec.ofNat 32 N)) i = i + BitVec.ofNat 32 N := by
      show (if BitVec.ofBool (i.slt 0#32) = 1 then i + BitVec.ofNat 32 N else i) = _
      rw [hs]
      first
      | rfl
      | simp
    rw [hsel, BitVec.toInt_add, hNi]
    show _ = if i.toInt < 0 then i.toInt + (N : Int) else i.toInt
    rw [if_pos h]
    refine Int.bmod_eq_of_le ?_ ?_
    · first
      | omega
      | (norm_num; omega)
    · first
      | omega
      | (norm_num; omega)
  · have hs : i.slt 0#32 = false :=
      Bool.eq_false_iff.2 fun hc => h (by have := BitVec.slt_iff_toInt_lt.1 hc; rwa [hz] at this)
    have hsel : Scalar.select (IntOp.cmpi .slt i 0#32) (IntOp.addi i (BitVec.ofNat 32 N)) i = i := by
      show (if BitVec.ofBool (i.slt 0#32) = 1 then i + BitVec.ofNat 32 N else i) = _
      rw [hs]
      first
      | rfl
      | simp
    rw [hsel]
    show _ = if i.toInt < 0 then i.toInt + (N : Int) else i.toInt
    rw [if_neg h]

/-- The row a clamped gather reads, from the wrapped word: clamping the signed reading into the table. -/
theorem clampRow_val (N : Nat) (hN : 0 < N) (i : BitVec 32) (v : BitVec 32) (hv : v.toInt = Spec.wrap N i) :
    min v.toInt.toNat (N - 1) = (Spec.clampRow N hN i).val := by
  show _ = (max 0 (min (Spec.wrap N i) ((N : Int) - 1))).toNat
  rw [hv]
  omega

/-- A vector laid out as an `[e, 1]` column reads, at `(p, 0)`, the vector at `p`. -/
theorem bcast_col_apply {α : Type} {e : Nat} (h : (⟨1, ![e]⟩ : Shape).BroadcastsInDim ⟨2, ![e, 1]⟩ ![0])
    (v : (⟨1, ![e]⟩ : Shape).Idx → α) (p : Fin e) :
    broadcastInDim ⟨2, ![e, 1]⟩ ![0] h v (ix2 p 0) = v (ix1 p) := by
  refine broadcastInDim_apply _ h v (ix2 p 0) (ix1 p) fun a => ?_
  obtain rfl : a = 0 := Subsingleton.elim _ _
  show p.val = if e = 1 then 0 else p.val
  split
  · next h1 => have := p.isLt; omega
  · rfl

/-- The column of wrapped start indices the host builds from an index vector `A` for a table of `N` rows. -/
abbrev wrappedCol {e : Nat} (N : Nat) (h0 : (⟨0, ![]⟩ : Shape).BroadcastsInDim ⟨1, ![e]⟩ ![])
    (hb : (⟨1, ![e]⟩ : Shape).BroadcastsInDim ⟨2, ![e, 1]⟩ ![0]) (A : IVec ⟨1, ![e]⟩ 32) : IVec ⟨2, ![e, 1]⟩ 32 :=
  broadcastInDim ⟨2, ![e, 1]⟩ ![0] hb
    (select (cmpi .slt A (broadcastInDim ⟨1, ![e]⟩ ![] h0 (constantI ⟨0, ![]⟩ 32 0#32)))
      (addi A (broadcastInDim ⟨1, ![e]⟩ ![] h0 (constantI ⟨0, ![]⟩ 32 (BitVec.ofNat 32 N)))) A)

/-- Entry `(p, 0)` of that column reads signed as the wrapped index of `A p`. -/
theorem wrappedCol_toInt {e : Nat} (N : Nat) (hN : N < 2147483648) (h0) (hb) (A : IVec ⟨1, ![e]⟩ 32) (p : Fin e) :
    (wrappedCol N h0 hb A (ix2 p 0)).toInt = Spec.wrap N (A (ix1 p)) := by
  unfold wrappedCol
  rw [bcast_col_apply]
  exact toInt_wrap N hN (A (ix1 p))

/-! ## A row gather -/

/-- The dimension numbers of a gather of whole rows: operand `[N, k]`, one start index per result row (`[e, 1]`), the
    row axis collapsed and start-indexed, the column axis the one offset axis, slices `[1, k]`. -/
abbrev rowDims (N k e : Nat) (wf : GatherDims.WF ⟨2, ![N, k]⟩ ⟨2, ![e, 1]⟩ ⟨2, ![e, k]⟩ [1] [0] [] [0] [] 1 ![1, k]) :
    GatherDims ⟨2, ![N, k]⟩ ⟨2, ![e, 1]⟩ ⟨2, ![e, k]⟩ where
  offsetDims := [1]
  collapsedSliceDims := [0]
  operandBatchingDims := []
  startIndicesBatchingDims := []
  startIndexMap := [0]
  indexVectorDim := 1
  sliceSizes := ![1, k]
  wf := wf

/-- Result entry `(p, q)` is the operand's entry `q` of the row that start index `p` names, read signed and clamped
    into the table. -/
theorem gather_rows_apply {α : Type} {N k e w : Nat} (hN : 0 < N)
    (wf : GatherDims.WF ⟨2, ![N, k]⟩ ⟨2, ![e, 1]⟩ ⟨2, ![e, k]⟩ [1] [0] [] [0] [] 1 ![1, k])
    (x : (⟨2, ![N, k]⟩ : Shape).Idx → α) (idx : IVec ⟨2, ![e, 1]⟩ w) (p : Fin e) (q : Fin k) :
    Host.gather (rowDims N k e wf) x idx (ix2 p q) = x (ix2 ⟨min (idx (ix2 p 0)).toInt.toNat (N - 1), by omega⟩ q) := by
  unfold Host.gather
  refine congrArg x (Shape.idx_ext₂ ?_ ?_)
  · show (rowDims N k e wf).start (ix2 p q) idx 0 + (rowDims N k e wf).batchCoord (ix2 p q) 0
        + (rowDims N k e wf).offCoord (ix2 p q) 0 = min (idx (ix2 p 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N k e wf).startIndexMap from List.mem_singleton.mpr rfl)]
    have hsi : (rowDims N k e wf).siIdx (ix2 p q) ⟨List.idxOf (0 : Fin 2) (rowDims N k e wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  · have h1 : (rowDims N k e wf).start (ix2 p q) idx 1 = 0 := rfl
    have h2 : (rowDims N k e wf).batchCoord (ix2 p q) 1 = 0 := rfl
    have h3 : (rowDims N k e wf).offCoord (ix2 p q) 1 = q.val := rfl
    show (rowDims N k e wf).start (ix2 p q) idx 1 + (rowDims N k e wf).batchCoord (ix2 p q) 1
        + (rowDims N k e wf).offCoord (ix2 p q) 1 = q.val
    rw [h1, h2, h3]
    omega

/-- The gather at the host's wrapped start indices is the specification's row gather. -/
theorem gather_wrapped_rows {N k e : Nat} (hN : 0 < N) (hN' : N < 2147483648)
    (wf : GatherDims.WF ⟨2, ![N, k]⟩ ⟨2, ![e, 1]⟩ ⟨2, ![e, k]⟩ [1] [0] [] [0] [] 1 ![1, k]) (h0) (hb)
    (X : (⟨2, ![N, k]⟩ : Shape).Idx → EReal) (A : IVec ⟨1, ![e]⟩ 32) (p : Fin e) (q : Fin k) :
    Host.gather (rowDims N k e wf) X (wrappedCol N h0 hb A) (ix2 p q)
      = Spec.gatherRows hN (Spec.ofVec2 X) (fun p => A (ix1 p)) p q := by
  rw [gather_rows_apply hN wf X _ p q]
  show X (ix2 _ q) = X (ix2 (Spec.clampRow N hN (A (ix1 p))) q)
  exact congrArg (fun r => X (ix2 r q)) (Fin.ext (clampRow_val N hN _ _ (wrappedCol_toInt N hN' h0 hb A p)))

/-! ## An accumulating row scatter -/

/-- The dimension numbers of a scatter of whole rows: operand `[N, k]`, one scatter index per update row (`[e, 1]`),
    the row axis inserted and scattered, the column axis the one window axis. -/
abbrev rowScatter (N k e : Nat) (wf : ScatterDims.WF ⟨2, ![N, k]⟩ ⟨2, ![e, 1]⟩ ⟨2, ![e, k]⟩ [1] [0] [0] 1) :
    ScatterDims ⟨2, ![N, k]⟩ ⟨2, ![e, 1]⟩ ⟨2, ![e, k]⟩ where
  updateWindowDims := [1]
  insertedWindowDims := [0]
  scatterDimsToOperandDims := [0]
  indexVectorDim := 1
  wf := wf

/-- Update entry `(p, q)` lands on operand entry `(r, q')` exactly when index `p`, read signed, is `r` and the
    columns agree. -/
theorem scatter_rows_resultIdx {N k e w : Nat}
    (wf : ScatterDims.WF ⟨2, ![N, k]⟩ ⟨2, ![e, 1]⟩ ⟨2, ![e, k]⟩ [1] [0] [0] 1)
    (idx : IVec ⟨2, ![e, 1]⟩ w) (p : Fin e) (q : Fin k) (r : Fin N) (q' : Fin k) :
    (rowScatter N k e wf).resultIdx? (ix2 p q) idx = some (ix2 r q')
      ↔ (idx (ix2 p 0)).toInt = (r.val : Int) ∧ q = q' := by
  have hs0 : (rowScatter N k e wf).start (ix2 p q) idx 0 = (idx (ix2 p 0)).toInt := by
    unfold ScatterDims.start
    rw [dif_pos (show (0 : Fin 2) ∈ (rowScatter N k e wf).scatterDimsToOperandDims from List.mem_singleton.mpr rfl)]
    have hsi : (rowScatter N k e wf).siIdx (ix2 p q) ⟨List.idxOf (0 : Fin 2) (rowScatter N k e wf).scatterDimsToOperandDims,
        List.idxOf_lt_length_iff.2 (List.mem_singleton.mpr rfl)⟩ = ix2 p 0 := by
      funext b; refine Fin.ext ?_
      match b with
      | ⟨0, _⟩ => rfl
      | ⟨1, _⟩ => rfl
    rw [hsi]
  have hs1 : (rowScatter N k e wf).start (ix2 p q) idx 1 = 0 := rfl
  have hw0 : (rowScatter N k e wf).window (ix2 p q) 0 = 0 := rfl
  have hw1 : (rowScatter N k e wf).window (ix2 p q) 1 = q.val := rfl
  have hr := r.isLt
  have hq := q.isLt
  have hq' := q'.isLt
  unfold ScatterDims.resultIdx?
  constructor
  · intro h
    split at h
    · next hc =>
      have h' := Option.some.inj h
      have hc0 : 0 ≤ (rowScatter N k e wf).start (ix2 p q) idx 0 + ((rowScatter N k e wf).window (ix2 p q) 0 : Nat) :=
        (hc (0 : Fin 2)).1
      have hc1 : 0 ≤ (rowScatter N k e wf).start (ix2 p q) idx 1 + ((rowScatter N k e wf).window (ix2 p q) 1 : Nat) :=
        (hc (1 : Fin 2)).1
      have e0 : ((rowScatter N k e wf).start (ix2 p q) idx 0 + ((rowScatter N k e wf).window (ix2 p q) 0 : Nat)).toNat = r.val :=
        congrArg Fin.val (congrFun h' (0 : Fin 2))
      have e1 : ((rowScatter N k e wf).start (ix2 p q) idx 1 + ((rowScatter N k e wf).window (ix2 p q) 1 : Nat)).toNat = q'.val :=
        congrArg Fin.val (congrFun h' (1 : Fin 2))
      rw [hs0, hw0] at hc0 e0
      rw [hs1, hw1] at hc1 e1
      exact ⟨by omega, Fin.ext (by omega)⟩
    · exact absurd h (by simp)
  · rintro ⟨h0, hqq⟩
    have hqv : q.val = q'.val := congrArg Fin.val hqq
    have hc : ∀ a : Fin 2, 0 ≤ (rowScatter N k e wf).start (ix2 p q) idx a + ((rowScatter N k e wf).window (ix2 p q) a : Nat)
        ∧ (rowScatter N k e wf).start (ix2 p q) idx a + ((rowScatter N k e wf).window (ix2 p q) a : Nat)
          < ((⟨2, ![N, k]⟩ : Shape).size a : Nat) := by
      refine Fin.forall_fin_two.2 ⟨?_, ?_⟩
      · show 0 ≤ (rowScatter N k e wf).start (ix2 p q) idx 0 + (((rowScatter N k e wf).window (ix2 p q) 0 : Nat) : Int)
            ∧ (rowScatter N k e wf).start (ix2 p q) idx 0 + (((rowScatter N k e wf).window (ix2 p q) 0 : Nat) : Int) < ((N : Nat) : Int)
        rw [hs0, hw0, h0]
        omega
      · show 0 ≤ (rowScatter N k e wf).start (ix2 p q) idx 1 + (((rowScatter N k e wf).window (ix2 p q) 1 : Nat) : Int)
            ∧ (rowScatter N k e wf).start (ix2 p q) idx 1 + (((rowScatter N k e wf).window (ix2 p q) 1 : Nat) : Int) < ((k : Nat) : Int)
        rw [hs1, hw1]
        omega
    split
    · refine congrArg some (Shape.idx_ext₂ ?_ ?_)
      · show ((rowScatter N k e wf).start (ix2 p q) idx 0 + ((rowScatter N k e wf).window (ix2 p q) 0 : Nat)).toNat = r.val
        rw [hs0, hw0, h0]
        omega
      · show ((rowScatter N k e wf).start (ix2 p q) idx 1 + ((rowScatter N k e wf).window (ix2 p q) 1 : Nat)).toNat = q'.val
        rw [hs1, hw1]
        omega
    · next hn => exact absurd hc hn

/-- The accumulating scatter at entry `(r, q)`: the operand's entry plus the updates' column `q` over the rows whose
    index, read signed, is `r`. -/
theorem hostScatterAdd_rows_apply {N k e w : Nat}
    (wf : ScatterDims.WF ⟨2, ![N, k]⟩ ⟨2, ![e, 1]⟩ ⟨2, ![e, k]⟩ [1] [0] [0] 1)
    (x : (⟨2, ![N, k]⟩ : Shape).Idx → EReal) (idx : IVec ⟨2, ![e, 1]⟩ w) (upd : (⟨2, ![e, k]⟩ : Shape).Idx → EReal)
    (r : Fin N) (q : Fin k) :
    Ideal.hostScatterAdd (rowScatter N k e wf) x idx upd (ix2 r q)
      = x (ix2 r q) + ∑ p ∈ Finset.univ.filter (fun p : Fin e => (idx (ix2 p 0)).toInt = (r.val : Int)), upd (ix2 p q) := by
  unfold Ideal.hostScatterAdd
  refine congrArg (fun z => x (ix2 r q) + z) ?_
  rw [Finset.sum_filter, Finset.sum_filter, sum_idx2]
  refine Finset.sum_congr rfl fun p _ => ?_
  by_cases hA : (idx (ix2 p 0)).toInt = (r.val : Int)
  · rw [if_pos hA]
    refine (Finset.sum_eq_single q (fun b _ hb => ?_) (fun h => absurd (Finset.mem_univ q) h)).trans ?_
    · exact if_neg fun h => hb ((scatter_rows_resultIdx wf idx p b r q).1 h).2
    · exact if_pos ((scatter_rows_resultIdx wf idx p q r q).2 ⟨hA, rfl⟩)
  · rw [if_neg hA]
    exact Finset.sum_eq_zero fun b _ => if_neg fun h => hA ((scatter_rows_resultIdx wf idx p b r q).1 h).1

/-- The scatter at the host's wrapped indices is the specification's accumulating row scatter. -/
theorem scatter_wrapped_rows {N k e : Nat} (hN' : N < 2147483648)
    (wf : ScatterDims.WF ⟨2, ![N, k]⟩ ⟨2, ![e, 1]⟩ ⟨2, ![e, k]⟩ [1] [0] [0] 1) (h0) (hb)
    (X : (⟨2, ![N, k]⟩ : Shape).Idx → EReal) (A : IVec ⟨1, ![e]⟩ 32) (U : (⟨2, ![e, k]⟩ : Shape).Idx → EReal)
    (r : Fin N) (q : Fin k) :
    Ideal.hostScatterAdd (rowScatter N k e wf) X (wrappedCol N h0 hb A) U (ix2 r q)
      = Spec.scatterAddRows (Spec.ofVec2 X) (fun p => A (ix1 p)) (Spec.ofVec2 U) r q := by
  rw [hostScatterAdd_rows_apply]
  show X (ix2 r q) + _ = X (ix2 r q) + ∑ j ∈ Finset.univ.filter (fun j : Fin e => Spec.wrap N (A (ix1 j)) = (r.val : Int)), U (ix2 j q)
  refine congrArg (fun z => X (ix2 r q) + z) ?_
  refine Finset.sum_congr ?_ fun _ _ => rfl
  refine Finset.filter_congr fun p _ => ?_
  rw [wrappedCol_toInt N hN' h0 hb A p]

/-! ## Slices and reshapes of packed weights -/

section Slices
variable {α : Type}

/-- Layer `l` cut out of a packed `[n, a, b]` array and viewed `[a, b]`, at `(p, q)`. -/
theorem layer3_apply {n a b : Nat} (l : Nat) (hl : l < n) (X : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![l, 0, 0] X hs) hc (ix2 p q) = X (ix3 ⟨l, hl⟩ p q) := by
  refine (shapeCast_dropUnit_apply ![a, b] _ hc (ix2 p q)).trans ?_
  refine extractStridedSlice_apply _ X hs _ (ix3 ⟨l, hl⟩ p q) fun c => ?_
  match c with
  | ⟨0, _⟩ => rfl
  | ⟨1, _⟩ => exact (Nat.zero_add _).symm
  | ⟨2, _⟩ => exact (Nat.zero_add _).symm

/-- Row `r` cut out of an `[n, b]` array, flattened and viewed `[1, b]` again, at `j`. -/
theorem row2_apply {n b : Nat} (r : Nat) (hr : r < n) (X : (⟨2, ![n, b]⟩ : Shape).Idx → α)
    (hs : (⟨2, ![n, b]⟩ : Shape).Slices ![r, 0] ⟨2, ![1, b]⟩)
    (hc1 : (⟨2, ![1, b]⟩ : Shape).ShapeCasts ⟨1, ![b]⟩) (hc2 : (⟨1, ![b]⟩ : Shape).ShapeCasts ⟨2, ![1, b]⟩)
    (j : (⟨2, ![1, b]⟩ : Shape).Idx) :
    shapeCast ⟨2, ![1, b]⟩ (shapeCast ⟨1, ![b]⟩ (extractStridedSlice ⟨2, ![1, b]⟩ ![r, 0] X hs) hc1) hc2 j
      = X (ix2 ⟨r, hr⟩ (j 1)) := by
  rw [shapeCast_shapeCast]
  refine extractStridedSlice_apply _ X hs j (ix2 ⟨r, hr⟩ (j 1)) fun c => ?_
  have h0 : (j 0).val < 1 := (j 0).isLt
  match c with
  | ⟨0, _⟩ =>
    show r = r + (j 0).val
    omega
  | ⟨1, _⟩ => exact (Nat.zero_add _).symm

end Slices

/-! ## The stretches -/

section Stretches

open Idealize.ShloMosaic.StableHlo
open Cert.KernelIdeal Cert.KernelIdeal.Gen

variable (W : Valuation τ sig (Elt Ideal))

theorem hostOps0_v3 :
    (StableHlo.after (hostOps0 (F := Ideal)) W (Proc.devRef .tc main_v3) : (⟨2, ![128, 4]⟩ : Shape).Idx → EReal)
      = layer (W (Proc.devRef .tc main_arg4) : (⟨3, ![2, 128, 4]⟩ : Shape).Idx → EReal) 0 := by
  after_results_simp
  show @Eq ((⟨2, ![128, 4]⟩ : Shape).Idx → EReal) _ _
  funext i
  obtain ⟨p, q, rfl⟩ : ∃ (p : Fin 128) (q : Fin 4), i = ix2 p q := ⟨_, _, eq_ix2 i⟩
  exact layer3_apply 0 (by omega) (W (Proc.devRef .tc main_arg4) : (⟨3, ![2, 128, 4]⟩ : Shape).Idx → EReal) _ _ p q

theorem hostOps0_v11 :
    (StableHlo.after (hostOps0 (F := Ideal)) W (Proc.devRef .tc main_v11) : (⟨2, ![128, 128]⟩ : Shape).Idx → EReal)
      = layer (W (Proc.devRef .tc main_arg8) : (⟨3, ![2, 128, 128]⟩ : Shape).Idx → EReal) 0 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 0 (by omega) (W (Proc.devRef .tc main_arg8) : (⟨3, ![2, 128, 128]⟩ : Shape).Idx → EReal) _ _ p q

theorem hostOps0_v13 :
    (StableHlo.after (hostOps0 (F := Ideal)) W (Proc.devRef .tc main_v13) : (⟨2, ![128, 128]⟩ : Shape).Idx → EReal)
      = layer (W (Proc.devRef .tc main_arg9) : (⟨3, ![2, 128, 128]⟩ : Shape).Idx → EReal) 0 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 0 (by omega) (W (Proc.devRef .tc main_arg9) : (⟨3, ![2, 128, 128]⟩ : Shape).Idx → EReal) _ _ p q

theorem hostOps0_v15 :
    (StableHlo.after (hostOps0 (F := Ideal)) W (Proc.devRef .tc main_v15) : (⟨2, ![2, 128]⟩ : Shape).Idx → EReal)
      = layer (W (Proc.devRef .tc main_arg10) : (⟨3, ![2, 2, 128]⟩ : Shape).Idx → EReal) 0 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 0 (by omega) (W (Proc.devRef .tc main_arg10) : (⟨3, ![2, 2, 128]⟩ : Shape).Idx → EReal) _ _ p q

theorem hostOps0_v17 :
    (StableHlo.after (hostOps0 (F := Ideal)) W (Proc.devRef .tc main_v17) : (⟨2, ![128, 128]⟩ : Shape).Idx → EReal)
      = layer (W (Proc.devRef .tc main_arg11) : (⟨3, ![2, 128, 128]⟩ : Shape).Idx → EReal) 0 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 0 (by omega) (W (Proc.devRef .tc main_arg11) : (⟨3, ![2, 128, 128]⟩ : Shape).Idx → EReal) _ _ p q

theorem hostOps0_v19 :
    (StableHlo.after (hostOps0 (F := Ideal)) W (Proc.devRef .tc main_v19) : (⟨2, ![2, 128]⟩ : Shape).Idx → EReal)
      = layer (W (Proc.devRef .tc main_arg12) : (⟨3, ![2, 2, 128]⟩ : Shape).Idx → EReal) 0 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 0 (by omega) (W (Proc.devRef .tc main_arg12) : (⟨3, ![2, 2, 128]⟩ : Shape).Idx → EReal) _ _ p q

theorem hostOps0_v21 :
    (StableHlo.after (hostOps0 (F := Ideal)) W (Proc.devRef .tc main_v21) : (⟨2, ![2, 128]⟩ : Shape).Idx → EReal)
      = layer (W (Proc.devRef .tc main_arg13) : (⟨3, ![2, 2, 128]⟩ : Shape).Idx → EReal) 0 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 0 (by omega) (W (Proc.devRef .tc main_arg13) : (⟨3, ![2, 2, 128]⟩ : Shape).Idx → EReal) _ _ p q

theorem hostOps0_v45 :
    (StableHlo.after (hostOps0 (F := Ideal)) W (Proc.devRef .tc main_v45) : (⟨2, ![128, 128]⟩ : Shape).Idx → EReal)
      = half0 (layer (W (Proc.devRef .tc main_arg6) : (⟨3, ![2, 128, 256]⟩ : Shape).Idx → EReal) 0) := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  have hq := q.isLt
  refine (slice2_axis1_apply (n0 := 128) (n1 := 256) (m := 128) 0 _ _ p q (⟨q.val, by omega⟩ : Fin 256) (Nat.zero_add _).symm).trans ?_
  exact layer3_apply 0 (by omega) (W (Proc.devRef .tc main_arg6) : (⟨3, ![2, 128, 256]⟩ : Shape).Idx → EReal) _ _ p (⟨q.val, by omega⟩ : Fin 256)

theorem hostOps0_v46 :
    (StableHlo.after (hostOps0 (F := Ideal)) W (Proc.devRef .tc main_v46) : (⟨2, ![128, 128]⟩ : Shape).Idx → EReal)
      = half1 (layer (W (Proc.devRef .tc main_arg6) : (⟨3, ![2, 128, 256]⟩ : Shape).Idx → EReal) 0) := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  have hq := q.isLt
  refine (slice2_axis1_apply (n0 := 128) (n1 := 256) (m := 128) 128 _ _ p q (⟨q.val + 128, by omega⟩ : Fin 256) (Nat.add_comm _ _)).trans ?_
  exact layer3_apply 0 (by omega) (W (Proc.devRef .tc main_arg6) : (⟨3, ![2, 128, 256]⟩ : Shape).Idx → EReal) _ _ p (⟨q.val + 128, by omega⟩ : Fin 256)

theorem hostOps0_v51 :
    (StableHlo.after (hostOps0 (F := Ideal)) W (Proc.devRef .tc main_v51) : (⟨2, ![1, 128]⟩ : Shape).Idx → EReal)
      = rowOf (W (Proc.devRef .tc main_arg5) : (⟨2, ![2, 128]⟩ : Shape).Idx → EReal) 0 := by
  after_results_simp
  show @Eq ((⟨2, ![1, 128]⟩ : Shape).Idx → EReal) _ _
  funext i
  exact row2_apply 0 (by omega) (W (Proc.devRef .tc main_arg5) : (⟨2, ![2, 128]⟩ : Shape).Idx → EReal) _ _ _ i

theorem hostOps0_v52 :
    (StableHlo.after (hostOps0 (F := Ideal)) W (Proc.devRef .tc main_v52) : (⟨2, ![1, 128]⟩ : Shape).Idx → EReal)
      = rowOf (layer (W (Proc.devRef .tc main_arg7) : (⟨3, ![2, 2, 128]⟩ : Shape).Idx → EReal) 0) 0 := by
  after_results_simp
  show @Eq ((⟨2, ![1, 128]⟩ : Shape).Idx → EReal) _ _
  funext i
  refine (row2_apply (n := 2) (b := 128) 0 (by omega) _ _ _ _ i).trans ?_
  exact layer3_apply 0 (by omega) (W (Proc.devRef .tc main_arg7) : (⟨3, ![2, 2, 128]⟩ : Shape).Idx → EReal) _ _ ⟨0, by omega⟩ (i 1)

theorem hostOps0_v53 :
    (StableHlo.after (hostOps0 (F := Ideal)) W (Proc.devRef .tc main_v53) : (⟨2, ![1, 128]⟩ : Shape).Idx → EReal)
      = rowOf (layer (W (Proc.devRef .tc main_arg7) : (⟨3, ![2, 2, 128]⟩ : Shape).Idx → EReal) 0) 1 := by
  after_results_simp
  show @Eq ((⟨2, ![1, 128]⟩ : Shape).Idx → EReal) _ _
  funext i
  refine (row2_apply (n := 2) (b := 128) 1 (by omega) _ _ _ _ i).trans ?_
  exact layer3_apply 0 (by omega) (W (Proc.devRef .tc main_arg7) : (⟨3, ![2, 2, 128]⟩ : Shape).Idx → EReal) _ _ ⟨1, by omega⟩ (i 1)

theorem hostOps0_v36 :
    (StableHlo.after (hostOps0 (F := Ideal)) W (Proc.devRef .tc main_v36) : (⟨2, ![150000, 4]⟩ : Shape).Idx → EReal)
      = Spec.toVec2 (Spec.sub
        (Spec.gatherRows (by norm_num : 0 < 12000) (Spec.ofVec2 (W (Proc.devRef .tc main_arg2) : (⟨2, ![12000, 4]⟩ : Shape).Idx → EReal))
          (fun p : Fin 150000 => (W (Proc.devRef .tc main_arg21) : (⟨1, ![150000]⟩ : Shape).Idx → BitVec 32) (ix1 p)))
        (Spec.gatherRows (by norm_num : 0 < 50000) (Spec.ofVec2 (W (Proc.devRef .tc main_arg1) : (⟨2, ![50000, 4]⟩ : Shape).Idx → EReal))
          (fun p : Fin 150000 => (W (Proc.devRef .tc main_arg22) : (⟨1, ![150000]⟩ : Shape).Idx → BitVec 32) (ix1 p)))) := by
  after_results_simp
  show @Eq ((⟨2, ![150000, 4]⟩ : Shape).Idx → EReal) _ _
  funext i
  obtain ⟨p, q, rfl⟩ : ∃ (p : Fin 150000) (q : Fin 4), i = ix2 p q := ⟨_, _, eq_ix2 i⟩
  have h1 := gather_wrapped_rows (N := 12000) (k := 4) (e := 150000) (by norm_num) (by norm_num) gather_S12000x4_S150000x1_S150000x4_1_0_n_n_0_1_14_wf
      bcast_S_S150000 bcast_S150000_S150000x1_0 (W (Proc.devRef .tc main_arg2) : (⟨2, ![12000, 4]⟩ : Shape).Idx → EReal) (W (Proc.devRef .tc main_arg21) : (⟨1, ![150000]⟩ : Shape).Idx → BitVec 32) p q
  have h2 := gather_wrapped_rows (N := 50000) (k := 4) (e := 150000) (by norm_num) (by norm_num) gather_S50000x4_S150000x1_S150000x4_1_0_n_n_0_1_14_wf
      bcast_S_S150000 bcast_S150000_S150000x1_0 (W (Proc.devRef .tc main_arg1) : (⟨2, ![50000, 4]⟩ : Shape).Idx → EReal) (W (Proc.devRef .tc main_arg22) : (⟨1, ![150000]⟩ : Shape).Idx → BitVec 32) p q
  exact congrArg₂ (fun a b : EReal => a - b) h1 h2

theorem hostOps0_v44 :
    (StableHlo.after (hostOps0 (F := Ideal)) W (Proc.devRef .tc main_v44) : (⟨2, ![150000, 128]⟩ : Shape).Idx → EReal)
      = Spec.toVec2 (Spec.gatherRows (by norm_num : 0 < 12000) (Spec.ofVec2 (W (Proc.devRef .tc main_arg0) : (⟨2, ![12000, 128]⟩ : Shape).Idx → EReal))
          (fun p : Fin 150000 => (W (Proc.devRef .tc main_arg21) : (⟨1, ![150000]⟩ : Shape).Idx → BitVec 32) (ix1 p))) := by
  after_results_simp
  show @Eq ((⟨2, ![150000, 128]⟩ : Shape).Idx → EReal) _ _
  funext i
  obtain ⟨p, q, rfl⟩ : ∃ (p : Fin 150000) (q : Fin 128), i = ix2 p q := ⟨_, _, eq_ix2 i⟩
  exact gather_wrapped_rows (N := 12000) (k := 128) (e := 150000) (by norm_num) (by norm_num) gather_S12000x128_S150000x1_S150000x128_1_0_n_n_0_1_1128_wf
      bcast_S_S150000 bcast_S150000_S150000x1_0 _ (W (Proc.devRef .tc main_arg21) : (⟨1, ![150000]⟩ : Shape).Idx → BitVec 32) p q

theorem hostOps1_v55 :
    (StableHlo.after (hostOps1 (F := Ideal)) W (Proc.devRef .tc main_v55) : (⟨2, ![50000, 128]⟩ : Shape).Idx → EReal)
      = fun _ => (0 : EReal) := by
  after_results_simp
  show @Eq ((⟨2, ![50000, 128]⟩ : Shape).Idx → EReal) _ _
  funext i
  exact Ideal.ofBits_zero_f32

theorem hostOps1_v63 :
    (StableHlo.after (hostOps1 (F := Ideal)) W (Proc.devRef .tc main_v63) : (⟨2, ![50000, 128]⟩ : Shape).Idx → EReal)
      = Spec.toVec2 (Spec.scatterAddRows (fun _ _ => 0 : Spec.M 50000 128)
          (fun p : Fin 150000 => (W (Proc.devRef .tc main_arg22) : (⟨1, ![150000]⟩ : Shape).Idx → BitVec 32) (ix1 p)) (Spec.ofVec2 (W (Proc.devRef .tc main_v54) : (⟨2, ![150000, 128]⟩ : Shape).Idx → EReal))) := by
  after_results_simp
  show @Eq ((⟨2, ![50000, 128]⟩ : Shape).Idx → EReal) _ _
  funext i
  obtain ⟨r, q, rfl⟩ : ∃ (r : Fin 50000) (q : Fin 128), i = ix2 r q := ⟨_, _, eq_ix2 i⟩
  refine (scatter_wrapped_rows (N := 50000) (k := 128) (e := 150000) (by norm_num) scatter_S50000x128_S150000x1_S150000x128_1_0_0_1_wf
      bcast_S_S150000 bcast_S150000_S150000x1_0 _ (W (Proc.devRef .tc main_arg22) : (⟨1, ![150000]⟩ : Shape).Idx → BitVec 32) _ r q).trans ?_
  exact congrArg₂ (fun a b : EReal => a + b) Ideal.ofBits_zero_f32 rfl

theorem hostOps1_v76 :
    (StableHlo.after (hostOps1 (F := Ideal)) W (Proc.devRef .tc main_v76) : (⟨2, ![1, 128]⟩ : Shape).Idx → EReal)
      = rowOf (W (Proc.devRef .tc main_v21) : (⟨2, ![2, 128]⟩ : Shape).Idx → EReal) 0 := by
  after_results_simp
  show @Eq ((⟨2, ![1, 128]⟩ : Shape).Idx → EReal) _ _
  funext i
  exact row2_apply 0 (by omega) (W (Proc.devRef .tc main_v21) : (⟨2, ![2, 128]⟩ : Shape).Idx → EReal) _ _ _ i

theorem hostOps1_v77 :
    (StableHlo.after (hostOps1 (F := Ideal)) W (Proc.devRef .tc main_v77) : (⟨2, ![1, 128]⟩ : Shape).Idx → EReal)
      = rowOf (W (Proc.devRef .tc main_v21) : (⟨2, ![2, 128]⟩ : Shape).Idx → EReal) 1 := by
  after_results_simp
  show @Eq ((⟨2, ![1, 128]⟩ : Shape).Idx → EReal) _ _
  funext i
  exact row2_apply 1 (by omega) (W (Proc.devRef .tc main_v21) : (⟨2, ![2, 128]⟩ : Shape).Idx → EReal) _ _ _ i

theorem hostOps1_v78 :
    (StableHlo.after (hostOps1 (F := Ideal)) W (Proc.devRef .tc main_v78) : (⟨2, ![1, 128]⟩ : Shape).Idx → EReal)
      = rowOf (W (Proc.devRef .tc main_v15) : (⟨2, ![2, 128]⟩ : Shape).Idx → EReal) 0 := by
  after_results_simp
  show @Eq ((⟨2, ![1, 128]⟩ : Shape).Idx → EReal) _ _
  funext i
  exact row2_apply 0 (by omega) (W (Proc.devRef .tc main_v15) : (⟨2, ![2, 128]⟩ : Shape).Idx → EReal) _ _ _ i

theorem hostOps1_v79 :
    (StableHlo.after (hostOps1 (F := Ideal)) W (Proc.devRef .tc main_v79) : (⟨2, ![1, 128]⟩ : Shape).Idx → EReal)
      = rowOf (W (Proc.devRef .tc main_v15) : (⟨2, ![2, 128]⟩ : Shape).Idx → EReal) 1 := by
  after_results_simp
  show @Eq ((⟨2, ![1, 128]⟩ : Shape).Idx → EReal) _ _
  funext i
  exact row2_apply 1 (by omega) (W (Proc.devRef .tc main_v15) : (⟨2, ![2, 128]⟩ : Shape).Idx → EReal) _ _ _ i

theorem hostOps1_v80 :
    (StableHlo.after (hostOps1 (F := Ideal)) W (Proc.devRef .tc main_v80) : (⟨2, ![1, 128]⟩ : Shape).Idx → EReal)
      = rowOf (W (Proc.devRef .tc main_v19) : (⟨2, ![2, 128]⟩ : Shape).Idx → EReal) 0 := by
  after_results_simp
  show @Eq ((⟨2, ![1, 128]⟩ : Shape).Idx → EReal) _ _
  funext i
  exact row2_apply 0 (by omega) (W (Proc.devRef .tc main_v19) : (⟨2, ![2, 128]⟩ : Shape).Idx → EReal) _ _ _ i

theorem hostOps1_v81 :
    (StableHlo.after (hostOps1 (F := Ideal)) W (Proc.devRef .tc main_v81) : (⟨2, ![1, 128]⟩ : Shape).Idx → EReal)
      = rowOf (W (Proc.devRef .tc main_v19) : (⟨2, ![2, 128]⟩ : Shape).Idx → EReal) 1 := by
  after_results_simp
  show @Eq ((⟨2, ![1, 128]⟩ : Shape).Idx → EReal) _ _
  funext i
  exact row2_apply 1 (by omega) (W (Proc.devRef .tc main_v19) : (⟨2, ![2, 128]⟩ : Shape).Idx → EReal) _ _ _ i

theorem hostOps18_v336 :
    (StableHlo.after (hostOps18 (F := Ideal)) W (Proc.devRef .tc main_v336) : (⟨2, ![128, 128]⟩ : Shape).Idx → EReal)
      = layer (W (Proc.devRef .tc main_arg3) : (⟨3, ![2, 128, 128]⟩ : Shape).Idx → EReal) 1 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 1 (by omega) (W (Proc.devRef .tc main_arg3) : (⟨3, ![2, 128, 128]⟩ : Shape).Idx → EReal) _ _ p q

theorem hostOps18_v338 :
    (StableHlo.after (hostOps18 (F := Ideal)) W (Proc.devRef .tc main_v338) : (⟨2, ![128, 4]⟩ : Shape).Idx → EReal)
      = layer (W (Proc.devRef .tc main_arg4) : (⟨3, ![2, 128, 4]⟩ : Shape).Idx → EReal) 1 := by
  after_results_simp
  show @Eq ((⟨2, ![128, 4]⟩ : Shape).Idx → EReal) _ _
  funext i
  obtain ⟨p, q, rfl⟩ : ∃ (p : Fin 128) (q : Fin 4), i = ix2 p q := ⟨_, _, eq_ix2 i⟩
  exact layer3_apply 1 (by omega) (W (Proc.devRef .tc main_arg4) : (⟨3, ![2, 128, 4]⟩ : Shape).Idx → EReal) _ _ p q

theorem hostOps18_v346 :
    (StableHlo.after (hostOps18 (F := Ideal)) W (Proc.devRef .tc main_v346) : (⟨2, ![128, 128]⟩ : Shape).Idx → EReal)
      = layer (W (Proc.devRef .tc main_arg8) : (⟨3, ![2, 128, 128]⟩ : Shape).Idx → EReal) 1 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 1 (by omega) (W (Proc.devRef .tc main_arg8) : (⟨3, ![2, 128, 128]⟩ : Shape).Idx → EReal) _ _ p q

theorem hostOps18_v348 :
    (StableHlo.after (hostOps18 (F := Ideal)) W (Proc.devRef .tc main_v348) : (⟨2, ![128, 128]⟩ : Shape).Idx → EReal)
      = layer (W (Proc.devRef .tc main_arg9) : (⟨3, ![2, 128, 128]⟩ : Shape).Idx → EReal) 1 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 1 (by omega) (W (Proc.devRef .tc main_arg9) : (⟨3, ![2, 128, 128]⟩ : Shape).Idx → EReal) _ _ p q

theorem hostOps18_v350 :
    (StableHlo.after (hostOps18 (F := Ideal)) W (Proc.devRef .tc main_v350) : (⟨2, ![2, 128]⟩ : Shape).Idx → EReal)
      = layer (W (Proc.devRef .tc main_arg10) : (⟨3, ![2, 2, 128]⟩ : Shape).Idx → EReal) 1 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 1 (by omega) (W (Proc.devRef .tc main_arg10) : (⟨3, ![2, 2, 128]⟩ : Shape).Idx → EReal) _ _ p q

theorem hostOps18_v352 :
    (StableHlo.after (hostOps18 (F := Ideal)) W (Proc.devRef .tc main_v352) : (⟨2, ![128, 128]⟩ : Shape).Idx → EReal)
      = layer (W (Proc.devRef .tc main_arg11) : (⟨3, ![2, 128, 128]⟩ : Shape).Idx → EReal) 1 := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  exact layer3_apply 1 (by omega) (W (Proc.devRef .tc main_arg11) : (⟨3, ![2, 128, 128]⟩ : Shape).Idx → EReal) _ _ p q

theorem hostOps18_v354 :
    (StableHlo.after (hostOps18 (F := Ideal)) W (Proc.devRef .tc main_v354) : (⟨2, ![2, 128]⟩ : Shape).Idx → EReal)
      = layer (W (Proc.devRef .tc main_arg12) : (⟨3, ![2, 2, 128]⟩ : Shape).Idx → EReal) 1 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 1 (by omega) (W (Proc.devRef .tc main_arg12) : (⟨3, ![2, 2, 128]⟩ : Shape).Idx → EReal) _ _ p q

theorem hostOps18_v356 :
    (StableHlo.after (hostOps18 (F := Ideal)) W (Proc.devRef .tc main_v356) : (⟨2, ![2, 128]⟩ : Shape).Idx → EReal)
      = layer (W (Proc.devRef .tc main_arg13) : (⟨3, ![2, 2, 128]⟩ : Shape).Idx → EReal) 1 := by
  after_results_simp
  show @Eq ((⟨2, ![2, 128]⟩ : Shape).Idx → EReal) _ _
  funext i
  obtain ⟨p, q, rfl⟩ : ∃ (p : Fin 2) (q : Fin 128), i = ix2 p q := ⟨_, _, eq_ix2 i⟩
  exact layer3_apply 1 (by omega) (W (Proc.devRef .tc main_arg13) : (⟨3, ![2, 2, 128]⟩ : Shape).Idx → EReal) _ _ p q

theorem hostOps18_v379 :
    (StableHlo.after (hostOps18 (F := Ideal)) W (Proc.devRef .tc main_v379) : (⟨2, ![128, 128]⟩ : Shape).Idx → EReal)
      = half0 (layer (W (Proc.devRef .tc main_arg6) : (⟨3, ![2, 128, 256]⟩ : Shape).Idx → EReal) 1) := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  have hq := q.isLt
  refine (slice2_axis1_apply (n0 := 128) (n1 := 256) (m := 128) 0 _ _ p q (⟨q.val, by omega⟩ : Fin 256) (Nat.zero_add _).symm).trans ?_
  exact layer3_apply 1 (by omega) (W (Proc.devRef .tc main_arg6) : (⟨3, ![2, 128, 256]⟩ : Shape).Idx → EReal) _ _ p (⟨q.val, by omega⟩ : Fin 256)

theorem hostOps18_v380 :
    (StableHlo.after (hostOps18 (F := Ideal)) W (Proc.devRef .tc main_v380) : (⟨2, ![128, 128]⟩ : Shape).Idx → EReal)
      = half1 (layer (W (Proc.devRef .tc main_arg6) : (⟨3, ![2, 128, 256]⟩ : Shape).Idx → EReal) 1) := by
  after_results_simp
  show @Eq ((⟨2, ![128, 128]⟩ : Shape).Idx → EReal) _ _
  funext i
  obtain ⟨p, q, rfl⟩ : ∃ (p : Fin 128) (q : Fin 128), i = ix2 p q := ⟨_, _, eq_ix2 i⟩
  have hq := q.isLt
  refine (slice2_axis1_apply (n0 := 128) (n1 := 256) (m := 128) 128 _ _ p q (⟨q.val + 128, by omega⟩ : Fin 256) (Nat.add_comm _ _)).trans ?_
  exact layer3_apply 1 (by omega) (W (Proc.devRef .tc main_arg6) : (⟨3, ![2, 128, 256]⟩ : Shape).Idx → EReal) _ _ p (⟨q.val + 128, by omega⟩ : Fin 256)

theorem hostOps18_v385 :
    (StableHlo.after (hostOps18 (F := Ideal)) W (Proc.devRef .tc main_v385) : (⟨2, ![1, 128]⟩ : Shape).Idx → EReal)
      = rowOf (W (Proc.devRef .tc main_arg5) : (⟨2, ![2, 128]⟩ : Shape).Idx → EReal) 1 := by
  after_results_simp
  show @Eq ((⟨2, ![1, 128]⟩ : Shape).Idx → EReal) _ _
  funext i
  exact row2_apply 1 (by omega) (W (Proc.devRef .tc main_arg5) : (⟨2, ![2, 128]⟩ : Shape).Idx → EReal) _ _ _ i

theorem hostOps18_v386 :
    (StableHlo.after (hostOps18 (F := Ideal)) W (Proc.devRef .tc main_v386) : (⟨2, ![1, 128]⟩ : Shape).Idx → EReal)
      = rowOf (layer (W (Proc.devRef .tc main_arg7) : (⟨3, ![2, 2, 128]⟩ : Shape).Idx → EReal) 1) 0 := by
  after_results_simp
  show @Eq ((⟨2, ![1, 128]⟩ : Shape).Idx → EReal) _ _
  funext i
  refine (row2_apply (n := 2) (b := 128) 0 (by omega) _ _ _ _ i).trans ?_
  exact layer3_apply 1 (by omega) (W (Proc.devRef .tc main_arg7) : (⟨3, ![2, 2, 128]⟩ : Shape).Idx → EReal) _ _ ⟨0, by omega⟩ (i 1)

theorem hostOps18_v387 :
    (StableHlo.after (hostOps18 (F := Ideal)) W (Proc.devRef .tc main_v387) : (⟨2, ![1, 128]⟩ : Shape).Idx → EReal)
      = rowOf (layer (W (Proc.devRef .tc main_arg7) : (⟨3, ![2, 2, 128]⟩ : Shape).Idx → EReal) 1) 1 := by
  after_results_simp
  show @Eq ((⟨2, ![1, 128]⟩ : Shape).Idx → EReal) _ _
  funext i
  refine (row2_apply (n := 2) (b := 128) 1 (by omega) _ _ _ _ i).trans ?_
  exact layer3_apply 1 (by omega) (W (Proc.devRef .tc main_arg7) : (⟨3, ![2, 2, 128]⟩ : Shape).Idx → EReal) _ _ ⟨1, by omega⟩ (i 1)

theorem hostOps18_v371 :
    (StableHlo.after (hostOps18 (F := Ideal)) W (Proc.devRef .tc main_v371) : (⟨2, ![150000, 4]⟩ : Shape).Idx → EReal)
      = Spec.toVec2 (Spec.sub
        (Spec.gatherRows (by norm_num : 0 < 50000) (Spec.ofVec2 (W (Proc.devRef .tc main_arg1) : (⟨2, ![50000, 4]⟩ : Shape).Idx → EReal))
          (fun p : Fin 150000 => (W (Proc.devRef .tc main_arg23) : (⟨1, ![150000]⟩ : Shape).Idx → BitVec 32) (ix1 p)))
        (Spec.gatherRows (by norm_num : 0 < 12000) (Spec.ofVec2 (W (Proc.devRef .tc main_arg2) : (⟨2, ![12000, 4]⟩ : Shape).Idx → EReal))
          (fun p : Fin 150000 => (W (Proc.devRef .tc main_arg24) : (⟨1, ![150000]⟩ : Shape).Idx → BitVec 32) (ix1 p)))) := by
  after_results_simp
  show @Eq ((⟨2, ![150000, 4]⟩ : Shape).Idx → EReal) _ _
  funext i
  obtain ⟨p, q, rfl⟩ : ∃ (p : Fin 150000) (q : Fin 4), i = ix2 p q := ⟨_, _, eq_ix2 i⟩
  have h1 := gather_wrapped_rows (N := 50000) (k := 4) (e := 150000) (by norm_num) (by norm_num) gather_S50000x4_S150000x1_S150000x4_1_0_n_n_0_1_14_wf
      bcast_S_S150000 bcast_S150000_S150000x1_0 (W (Proc.devRef .tc main_arg1) : (⟨2, ![50000, 4]⟩ : Shape).Idx → EReal) (W (Proc.devRef .tc main_arg23) : (⟨1, ![150000]⟩ : Shape).Idx → BitVec 32) p q
  have h2 := gather_wrapped_rows (N := 12000) (k := 4) (e := 150000) (by norm_num) (by norm_num) gather_S12000x4_S150000x1_S150000x4_1_0_n_n_0_1_14_wf
      bcast_S_S150000 bcast_S150000_S150000x1_0 (W (Proc.devRef .tc main_arg2) : (⟨2, ![12000, 4]⟩ : Shape).Idx → EReal) (W (Proc.devRef .tc main_arg24) : (⟨1, ![150000]⟩ : Shape).Idx → BitVec 32) p q
  exact congrArg₂ (fun a b : EReal => a - b) h1 h2

theorem hostOps18_v378 :
    (StableHlo.after (hostOps18 (F := Ideal)) W (Proc.devRef .tc main_v378) : (⟨2, ![150000, 128]⟩ : Shape).Idx → EReal)
      = Spec.toVec2 (Spec.gatherRows (by norm_num : 0 < 50000) (Spec.ofVec2 (W (Proc.devRef .tc main_v334_1) : (⟨2, ![50000, 128]⟩ : Shape).Idx → EReal))
          (fun p : Fin 150000 => (W (Proc.devRef .tc main_arg23) : (⟨1, ![150000]⟩ : Shape).Idx → BitVec 32) (ix1 p))) := by
  after_results_simp
  show @Eq ((⟨2, ![150000, 128]⟩ : Shape).Idx → EReal) _ _
  funext i
  obtain ⟨p, q, rfl⟩ : ∃ (p : Fin 150000) (q : Fin 128), i = ix2 p q := ⟨_, _, eq_ix2 i⟩
  exact gather_wrapped_rows (N := 50000) (k := 128) (e := 150000) (by norm_num) (by norm_num) gather_S50000x128_S150000x1_S150000x128_1_0_n_n_0_1_1128_wf
      bcast_S_S150000 bcast_S150000_S150000x1_0 _ (W (Proc.devRef .tc main_arg23) : (⟨1, ![150000]⟩ : Shape).Idx → BitVec 32) p q

theorem hostOps19_v389 :
    (StableHlo.after (hostOps19 (F := Ideal)) W (Proc.devRef .tc main_v389) : (⟨2, ![12000, 128]⟩ : Shape).Idx → EReal)
      = (W (Proc.devRef .tc main_arg0) : (⟨2, ![12000, 128]⟩ : Shape).Idx → EReal) := by
  after_results_simp
  show @Eq ((⟨2, ![12000, 128]⟩ : Shape).Idx → EReal) _ _
  rfl

theorem hostOps20_v398 :
    (StableHlo.after (hostOps20 (F := Ideal)) W (Proc.devRef .tc main_v398) : (⟨2, ![12000, 128]⟩ : Shape).Idx → EReal)
      = Spec.toVec2 (Spec.scatterAddRows (Spec.ofVec2 (W (Proc.devRef .tc main_v390) : (⟨2, ![12000, 128]⟩ : Shape).Idx → EReal))
          (fun p : Fin 150000 => (W (Proc.devRef .tc main_arg24) : (⟨1, ![150000]⟩ : Shape).Idx → BitVec 32) (ix1 p)) (Spec.ofVec2 (W (Proc.devRef .tc main_v388) : (⟨2, ![150000, 128]⟩ : Shape).Idx → EReal))) := by
  after_results_simp
  show @Eq ((⟨2, ![12000, 128]⟩ : Shape).Idx → EReal) _ _
  funext i
  obtain ⟨r, q, rfl⟩ : ∃ (r : Fin 12000) (q : Fin 128), i = ix2 r q := ⟨_, _, eq_ix2 i⟩
  exact scatter_wrapped_rows (N := 12000) (k := 128) (e := 150000) (by norm_num) scatter_S12000x128_S150000x1_S150000x128_1_0_0_1_wf
      bcast_S_S150000 bcast_S150000_S150000x1_0 _ (W (Proc.devRef .tc main_arg24) : (⟨1, ![150000]⟩ : Shape).Idx → BitVec 32) _ r q

theorem hostOps20_v411 :
    (StableHlo.after (hostOps20 (F := Ideal)) W (Proc.devRef .tc main_v411) : (⟨2, ![1, 128]⟩ : Shape).Idx → EReal)
      = rowOf (W (Proc.devRef .tc main_v356) : (⟨2, ![2, 128]⟩ : Shape).Idx → EReal) 0 := by
  after_results_simp
  show @Eq ((⟨2, ![1, 128]⟩ : Shape).Idx → EReal) _ _
  funext i
  exact row2_apply 0 (by omega) (W (Proc.devRef .tc main_v356) : (⟨2, ![2, 128]⟩ : Shape).Idx → EReal) _ _ _ i

theorem hostOps20_v412 :
    (StableHlo.after (hostOps20 (F := Ideal)) W (Proc.devRef .tc main_v412) : (⟨2, ![1, 128]⟩ : Shape).Idx → EReal)
      = rowOf (W (Proc.devRef .tc main_v356) : (⟨2, ![2, 128]⟩ : Shape).Idx → EReal) 1 := by
  after_results_simp
  show @Eq ((⟨2, ![1, 128]⟩ : Shape).Idx → EReal) _ _
  funext i
  exact row2_apply 1 (by omega) (W (Proc.devRef .tc main_v356) : (⟨2, ![2, 128]⟩ : Shape).Idx → EReal) _ _ _ i

theorem hostOps20_v413 :
    (StableHlo.after (hostOps20 (F := Ideal)) W (Proc.devRef .tc main_v413) : (⟨2, ![1, 128]⟩ : Shape).Idx → EReal)
      = rowOf (W (Proc.devRef .tc main_v350) : (⟨2, ![2, 128]⟩ : Shape).Idx → EReal) 0 := by
  after_results_simp
  show @Eq ((⟨2, ![1, 128]⟩ : Shape).Idx → EReal) _ _
  funext i
  exact row2_apply 0 (by omega) (W (Proc.devRef .tc main_v350) : (⟨2, ![2, 128]⟩ : Shape).Idx → EReal) _ _ _ i

theorem hostOps20_v414 :
    (StableHlo.after (hostOps20 (F := Ideal)) W (Proc.devRef .tc main_v414) : (⟨2, ![1, 128]⟩ : Shape).Idx → EReal)
      = rowOf (W (Proc.devRef .tc main_v350) : (⟨2, ![2, 128]⟩ : Shape).Idx → EReal) 1 := by
  after_results_simp
  show @Eq ((⟨2, ![1, 128]⟩ : Shape).Idx → EReal) _ _
  funext i
  exact row2_apply 1 (by omega) (W (Proc.devRef .tc main_v350) : (⟨2, ![2, 128]⟩ : Shape).Idx → EReal) _ _ _ i

theorem hostOps20_v415 :
    (StableHlo.after (hostOps20 (F := Ideal)) W (Proc.devRef .tc main_v415) : (⟨2, ![1, 128]⟩ : Shape).Idx → EReal)
      = rowOf (W (Proc.devRef .tc main_v354) : (⟨2, ![2, 128]⟩ : Shape).Idx → EReal) 0 := by
  after_results_simp
  show @Eq ((⟨2, ![1, 128]⟩ : Shape).Idx → EReal) _ _
  funext i
  exact row2_apply 0 (by omega) (W (Proc.devRef .tc main_v354) : (⟨2, ![2, 128]⟩ : Shape).Idx → EReal) _ _ _ i

theorem hostOps20_v416 :
    (StableHlo.after (hostOps20 (F := Ideal)) W (Proc.devRef .tc main_v416) : (⟨2, ![1, 128]⟩ : Shape).Idx → EReal)
      = rowOf (W (Proc.devRef .tc main_v354) : (⟨2, ![2, 128]⟩ : Shape).Idx → EReal) 1 := by
  after_results_simp
  show @Eq ((⟨2, ![1, 128]⟩ : Shape).Idx → EReal) _ _
  funext i
  exact row2_apply 1 (by omega) (W (Proc.devRef .tc main_v354) : (⟨2, ![2, 128]⟩ : Shape).Idx → EReal) _ _ _ i

end Stretches

end Cert.KHostLp

end
-- ==== Proof.LpEdgeLib.lean ====
/-
  The layout and contraction readings the pooling-layer edge stage needs, at the ideal values and over arbitrary
  extents: a matrix unit product against a transposed weight read at a row and a column as the sum over the shared
  axis; a sum along the lanes of a matrix read at a row; a vector viewed as a column; a column broadcast across the
  lanes. Each is the library's general reading with the coordinates' arithmetic discharged.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«413166_j32323923870246_3_alg».proof.Proof.Spec

noncomputable section

open scoped BigOperators
open Idealize.ShloMosaic Idealize.ShloMosaic.ValueIdx

namespace Cert.LpEdgeLib

/-- A product of an m×k by a k×n matrix into the zero matrix, read at row `a` and column `b`: the sum over the
    shared coordinate of the entries' products. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx] <;> rfl
    | ⟨1, _⟩ => simp [DotDims.lhsIdx] <;> exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx] <;> exact c2
    | ⟨1, _⟩ => simp [DotDims.rhsIdx] <;> rfl
  rw [l2, r2]

/-- A linear layer as the matrix unit computes it: the rows `A` against the TRANSPOSE of the weight `W`, into zero, read
    at row `p` and column `q`, is the specification's sum over the shared axis of `A p j * W q j`. -/
theorem linT_apply {m k n : Nat} {φ₁ φ₂ : FTy} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩)
    (prec : Option ContractPrecision) (A : FVec Ideal ⟨2, ![m, k]⟩ φ₁) (W : FVec Ideal ⟨2, ![n, k]⟩ φ₂)
    (ht : (⟨2, ![n, k]⟩ : Shape).Transposes [1, 0] ⟨2, ![k, n]⟩) (p : Fin m) (q : Fin n) :
    matmul D prec A (transpose ⟨2, ![k, n]⟩ [1, 0] W ht) (constant (F := Ideal) ⟨2, ![m, n]⟩ .f32 0x00000000#32) (ix2 p q)
      = Spec.lin (Spec.ofVec2 A) (Spec.ofVec2 W) p q := by
  subst hD
  show FloatOps.matmul _ prec A _ _ (ix2 p q) = ∑ j : Fin k, A (ix2 p j) * W (ix2 q j)
  rw [matmul_zero_ix2]
  exact Finset.sum_congr rfl fun j _ => congrArg (A (ix2 p j) * ·) (transpose_ix2_apply W ht j q)

/-- A sum along the lanes of a matrix, read at row `p`: the sum of the row's entries. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ j : Fin b, src (ix2 p j) := by
  refine (Ideal.multiReduction_add_single src acc h hφ hacc (ix1 p)).trans ?_
  refine Finset.sum_congr rfl fun j _ => congrArg src ?_
  funext ax; apply Fin.ext
  match ax with
  | ⟨0, _⟩ => rfl
  | ⟨1, _⟩ => rfl

variable {α : Type}

/-- A vector of `a` entries viewed as a column `[a, 1]` reads, at `(p, u)`, the entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values a narrowing format change of a whole vector is the vector. -/
theorem truncf_ideal {s : Shape} {φ ψ : FTy} (x : FVec Ideal s φ) (h : ψ.bits < φ.bits) :
    (truncf ψ x h : FVec Ideal s ψ) = x := rfl

/-- An inverse square root at an index is the ideal one of the element. -/
theorem rsqrt_apply {s : Shape} {φ : FTy} (x : FVec Ideal s φ) (i : s.Idx) : rsqrt x i = Ideal.rsqrt (x i) := rfl

/-- The positive part of `X`, then a linear layer on the matrix unit: when `X` reads `G` entry by entry, the product
    reads the specification's linear layer of the positive part of `G`. -/
theorem reluLin_apply {m k n : Nat} {φ₂ : FTy} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩) (prec : Option ContractPrecision)
    (X : FVec Ideal ⟨2, ![m, k]⟩ .f32) (W : FVec Ideal ⟨2, ![n, k]⟩ φ₂) (hb : FTy.bits .bf16 < FTy.bits .f32)
    (ht : (⟨2, ![n, k]⟩ : Shape).Transposes [1, 0] ⟨2, ![k, n]⟩)
    (G : Spec.M m k) (hG : ∀ p j, X (ix2 p j) = G p j) (p : Fin m) (q : Fin n) :
    matmul D prec (truncf .bf16 (maximumf X (broadcast ⟨2, ![m, k]⟩ (Scalar.ofBits (F := Ideal) .f32 0x00000000#32))) hb)
        (transpose ⟨2, ![k, n]⟩ [1, 0] W ht) (constant (F := Ideal) ⟨2, ![m, n]⟩ .f32 0x00000000#32) (ix2 p q)
      = Spec.lin (Spec.relu G) (Spec.ofVec2 W) p q := by
  refine (linT_apply D w hD prec _ W ht p q).trans ?_
  show ∑ j : Fin k, max (X (ix2 p j)) (Ideal.ofBits .f32 0x00000000#32) * W (ix2 q j) = ∑ j : Fin k, max (G p j) 0 * W (ix2 q j)
  rw [Ideal.ofBits_zero_f32]
  exact Finset.sum_congr rfl fun j _ => by rw [hG]

/-- The mean of a row as the kernel takes it — the lane sum viewed as a column and divided by the literal 128 — is the
    specification's mean of the row `Y p` the matrix reads. -/
theorem mean_apply {a : Nat} (y : FVec Ideal ⟨2, ![a, 128]⟩ .f32)
    (hred : (⟨2, ![a, 128]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩)
    (Y : Spec.M a 128) (hY : ∀ p q, y (ix2 p q) = Y p q) (p : Fin a) (u : Fin 1) :
    divf (shapeCast ⟨2, ![a, 1]⟩ (multiReduction .add [1] ⟨1, ![a]⟩ y 0x00000000#32 hred hφ hacc) hcast)
        (broadcast ⟨2, ![a, 1]⟩ (Scalar.ofBits (F := Ideal) .f32 0x43000000#32)) (ix2 p u)
      = Spec.mean (Y p) := by
  show Ideal.div (shapeCast ⟨2, ![a, 1]⟩ (multiReduction .add [1] ⟨1, ![a]⟩ y 0x00000000#32 hred hφ hacc) hcast (ix2 p u)) Spec.c128
    = Ideal.div (∑ j : Fin 128, Y p j) Spec.c128
  rw [shapeCast_a_a1_apply, laneSum_apply]
  exact congrArg (Ideal.div · Spec.c128) (Finset.sum_congr rfl fun j _ => hY p j)

/-- The row normalisation as the kernel writes it — the deviation from the broadcast mean, times the inverse square root
    of the mean squared deviation plus the small constant, times the scale row, plus the shift row — is the
    specification's, for a matrix that reads `Y` and mean columns that read the rows' means. -/
theorem gn_apply {a : Nat} (y m36 : FVec Ideal ⟨2, ![a, 128]⟩ .f32) (m35 : FVec Ideal ⟨2, ![a, 1]⟩ .f32)
    (s h : FVec Ideal ⟨2, ![1, 128]⟩ .f32)
    (hred : (⟨2, ![a, 128]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩)
    (hb1 : (⟨2, ![a, 1]⟩ : Shape).Broadcasts ⟨2, ![a, 128]⟩) (hb2 : (⟨2, ![1, 128]⟩ : Shape).Broadcasts ⟨2, ![a, 128]⟩)
    (Y : Spec.M a 128) (hY : ∀ p q, y (ix2 p q) = Y p q) (h35 : ∀ p, m35 (ix2 p (0 : Fin 1)) = Spec.mean (Y p))
    (h36 : ∀ p q, m36 (ix2 p q) = Spec.mean (Y p)) (p : Fin a) (q : Fin 128) :
    addf (mulf (mulf (subf y (broadcastTo ⟨2, ![a, 128]⟩ m35 hb1))
          (broadcastTo ⟨2, ![a, 128]⟩ (rsqrt (addf (divf (shapeCast ⟨2, ![a, 1]⟩ (multiReduction .add [1] ⟨1, ![a]⟩
              (mulf (subf y m36) (subf y m36)) 0x00000000#32 hred hφ hacc) hcast)
            (broadcast ⟨2, ![a, 1]⟩ (Scalar.ofBits (F := Ideal) .f32 0x43000000#32)))
            (broadcast ⟨2, ![a, 1]⟩ (Scalar.ofBits (F := Ideal) .f32 0x3727C5AC#32)))) hb1))
        (broadcastTo ⟨2, ![a, 128]⟩ s hb2)) (broadcastTo ⟨2, ![a, 128]⟩ h hb2) (ix2 p q)
      = Spec.gn Y (fun q => s (ix2 0 q)) (fun q => h (ix2 0 q)) p q := by
  have hv : ∀ p j, mulf (subf y m36) (subf y m36) (ix2 p j) = (fun p j => (Y p j - Spec.mean (Y p)) * (Y p j - Spec.mean (Y p))) p j :=
    fun p j => by
      show (y (ix2 p j) - m36 (ix2 p j)) * (y (ix2 p j) - m36 (ix2 p j)) = _
      rw [hY, h36]
  have hvar := mean_apply (mulf (subf y m36) (subf y m36)) hred hφ hacc hcast _ hv p (0 : Fin 1)
  show (y (ix2 p q) - broadcastTo ⟨2, ![a, 128]⟩ m35 hb1 (ix2 p q))
      * broadcastTo ⟨2, ![a, 128]⟩ (rsqrt (addf (divf (shapeCast ⟨2, ![a, 1]⟩ (multiReduction .add [1] ⟨1, ![a]⟩
              (mulf (subf y m36) (subf y m36)) 0x00000000#32 hred hφ hacc) hcast)
            (broadcast ⟨2, ![a, 1]⟩ (Scalar.ofBits (F := Ideal) .f32 0x43000000#32)))
            (broadcast ⟨2, ![a, 1]⟩ (Scalar.ofBits (F := Ideal) .f32 0x3727C5AC#32)))) hb1 (ix2 p q)
      * broadcastTo ⟨2, ![a, 128]⟩ s hb2 (ix2 p q) + broadcastTo ⟨2, ![a, 128]⟩ h hb2 (ix2 p q) = _
  rw [broadcastTo_a1_ab_apply, broadcastTo_a1_ab_apply, broadcastTo_1b_ab_apply, broadcastTo_1b_ab_apply, h35, hY]
  show (Y p q - Spec.mean (Y p)) * Ideal.rsqrt (divf (shapeCast ⟨2, ![a, 1]⟩ (multiReduction .add [1] ⟨1, ![a]⟩
              (mulf (subf y m36) (subf y m36)) 0x00000000#32 hred hφ hacc) hcast)
            (broadcast ⟨2, ![a, 1]⟩ (Scalar.ofBits (F := Ideal) .f32 0x43000000#32)) (ix2 p (0 : Fin 1)) + Spec.cEps)
      * s (ix2 0 q) + h (ix2 0 q) = _
  rw [hvar]
  rfl

/-- A matrix read back as an array, at an index whose two coordinates are `P` and `q`. -/
theorem toVec2_at {a b : Nat} (M : Spec.M a b) (i : (⟨2, ![a, b]⟩ : Shape).Idx) (P : Fin a) (q : Fin b)
    (h0 : (i 0).val = P.val) (h1 : (i 1).val = q.val) : Spec.toVec2 M i = M P q := by
  have e0 : i 0 = P := Fin.ext h0
  have e1 : i 1 = q := Fin.ext h1
  unfold Spec.toVec2
  rw [e0, e1]

/-- The row normalisation works row by row: two matrices that agree on a row (row `p` of one, row `p'` of the other)
    have the same normalised row. -/
theorem gn_row {e e' : Nat} (Y : Spec.M e 128) (Y' : Spec.M e' 128) (s h : Fin 128 → EReal) (p : Fin e) (p' : Fin e')
    (hY : Y p = Y' p') : Spec.gn Y s h p = Spec.gn Y' s h p' := by
  funext q
  simp only [Spec.gn, hY]

/-- The positive part followed by a linear layer works row by row. -/
theorem linRelu_row {e e' k o : Nat} (G : Spec.M e k) (G' : Spec.M e' k) (w : Spec.M o k) (p : Fin e) (p' : Fin e')
    (h : G p = G' p') (q : Fin o) : Spec.lin (Spec.relu G) w p q = Spec.lin (Spec.relu G') w p' q := by
  simp only [Spec.lin, Spec.relu, h]

/-- The edge stage works row by row: row `p` of its result depends on the two edge inputs through their rows `p`
    alone, so two pairs of edge inputs that agree on a row (here row `p` of one pair, row `p'` of the other) give the same
    result row, the weights being the same. -/
theorem lpEdge_row {e e' : Nat} (d : Spec.M e 4) (c : Spec.M e 128) (d' : Spec.M e' 4) (c' : Spec.M e' 128)
    (rpw : Spec.M 128 4) (rpb : Fin 128 → EReal) (wa wb : Spec.M 128 128) (gs gh : Fin 128 → EReal) (w2 : Spec.M 128 128)
    (p : Fin e) (p' : Fin e') (hd : d p = d' p') (hc : c p = c' p') (q : Fin 128) :
    Spec.lpEdge d c rpw rpb wa wb gs gh w2 p q = Spec.lpEdge d' c' rpw rpb wa wb gs gh w2 p' q := by
  have hrow : Spec.add (Spec.lin c wa) (Spec.lin (Spec.relu (Spec.addRow (Spec.lin d rpw) rpb)) wb) p
      = Spec.add (Spec.lin c' wa) (Spec.lin (Spec.relu (Spec.addRow (Spec.lin d' rpw) rpb)) wb) p' := by
    funext j
    simp only [Spec.add, Spec.lin, Spec.relu, Spec.addRow, hd, hc]
  have hg := gn_row _ _ gs gh p p' hrow
  unfold Spec.lpEdge
  exact linRelu_row _ _ w2 p p' hg q

end Cert.LpEdgeLib

end
-- ==== Proof.KReg0.lean ====
/-
  The edge stage of a pooling layer on the kernel's side, at the ideal values: what region 0 of the kernel program
  leaves in its output array, as the specification's edge stage of the arrays the region reads.

  The region walks 150000 edges in 30 tiles of 5000 rows. At a tile the body reads the tile's rows of the two edge inputs
  (the relative-pose differences, 4 wide, and the gathered context, 128 wide) and the seven weight arrays whole, and
  stores one 5000×128 block. Read at a row and a column that block is: the two context products added (the gathered
  context against the first half of the first context weight; the positive part of the relative-pose layer against the
  second half), normalised along the row (mean, mean squared deviation, inverse square root, scale and shift), the
  positive part taken, and multiplied by the second context weight — `Spec.lpEdge` of the tile's rows. Since
  every step works row by row, row `p` of the tile's result is row `5000 t + p` of the edge stage of the WHOLE arrays; the
  thirty tiles cover the output array (row `r` lies in tile `r / 5000`), so the array ends holding the edge stage of
  the arrays read. A narrowing format change is the identity at the ideal values, so the stored 16-bit block is the
  32-bit result.
-/
import proofs.«413166_j32323923870246_3_alg».proof.Proof.KIFrameR0
import proofs.«413166_j32323923870246_3_alg».proof.Proof.Spec
import proofs.«413166_j32323923870246_3_alg».proof.Proof.LpEdgeLib
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KReg0

open Cert.KernelIdeal Cert.KernelIdeal.Gen Cert.KernelIdeal.GenP Cert.LpEdgeLib

/-! ## The body's arithmetic at a row and a column -/

/-- The first context layer before its normalisation, of a tile's blocks (in the order the body's first part takes
    them: differences, relative-pose weight and bias, gathered context, the two halves of the context weight). -/
abbrev preOf (v0 : FVec Ideal S5000x4 .f32) (v3 : FVec Ideal S128x4 .f32) (v8 : FVec Ideal S1x128 .f32)
    (v14 : FVec Ideal S5000x128 .bf16) (v16 v19 : FVec Ideal S128x128 .f32) : Spec.M 5000 128 :=
  Spec.add (Spec.lin (Spec.ofVec2 v14) (Spec.ofVec2 v16))
    (Spec.lin (Spec.relu (Spec.addRow (Spec.lin (Spec.ofVec2 v0) (Spec.ofVec2 v3)) (fun q => v8 (ix2 0 q)))) (Spec.ofVec2 v19))

/-- The sum of the two context products, entry by entry. -/
theorem pay2_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (q : Fin 128) :
    k0_pay2 (F := Ideal) v0 v3 v8 v14 v16 v19 (ix2 p q) = preOf v0 v3 v8 v14 v16 v19 p q := by
  unfold k0_pay2
  simp only [shapeCast_self]
  refine (addf_apply _ _ _).trans ?_
  refine congrArg₂ (fun a b : EReal => a + b) ?_ ?_
  · exact linT_apply (φ₁ := .bf16) (φ₂ := .bf16) dot_S5000x128_S128x128_S5000x128_1_0_0_1_n_n _ rfl none _ _ _ p q
  · refine reluLin_apply (φ₂ := .bf16) dot_S5000x128_S128x128_S5000x128_1_0_0_1_n_n _ rfl none _ _ _ _
      (Spec.addRow (Spec.lin (Spec.ofVec2 v0) (Spec.ofVec2 v3)) (fun q => v8 (ix2 0 q))) ?_ p q
    intro p' j
    refine (addf_apply _ _ _).trans ?_
    refine congrArg₂ (fun a b : EReal => a + b) ?_ ?_
    · exact linT_apply (φ₁ := .bf16) (φ₂ := .bf16) dot_S5000x4_S4x128_S5000x128_1_0_0_1_n_n _ rfl none _ _ _ p' j
    · exact broadcastTo_1b_ab_apply _ _ p' j

/-- The scale and the shift rows pass through a cast to their own shape. -/
theorem pay3_eq (v : FVec Ideal S1x128 .f32) : k0_pay3 (F := Ideal) v = v := by
  unfold k0_pay3
  exact shapeCast_self _ _
theorem pay4_eq (v : FVec Ideal S1x128 .f32) : k0_pay4 (F := Ideal) v = v := by
  unfold k0_pay4
  exact shapeCast_self _ _

/-- The column of row means of that sum. -/
theorem pay5_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (u : Fin 1) :
    k0_pay5 (F := Ideal) v0 v3 v8 v14 v16 v19 (ix2 p u) = Spec.mean (preOf v0 v3 v8 v14 v16 v19 p) := by
  unfold k0_pay5
  exact mean_apply (k0_pay2 (F := Ideal) v0 v3 v8 v14 v16 v19) _ _ _ _ (preOf v0 v3 v8 v14 v16 v19)
    (fun p q => pay2_apply v0 v3 v8 v14 v16 v19 p q) p u

/-- The row means broadcast across the lanes. -/
theorem pay6_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (q : Fin 128) :
    k0_pay6 (F := Ideal) v0 v3 v8 v14 v16 v19 (ix2 p q) = Spec.mean (preOf v0 v3 v8 v14 v16 v19 p) := by
  unfold k0_pay6
  exact (broadcastTo_a1_ab_apply _ _ p q).trans (pay5_apply v0 v3 v8 v14 v16 v19 p 0)

/-- The rest of the body — the row normalisation, the positive part, the second context layer — of a matrix that reads
    `Y` and of mean columns that read `Y`'s row means. -/
theorem pay1_apply (v27 : FVec Ideal S5000x128 .f32) (v29 v31 : FVec Ideal S1x128 .f32) (v35 : FVec Ideal S5000x1 .f32)
    (v36 : FVec Ideal S5000x128 .f32) (v56 : FVec Ideal S128x128 .f32) (Y : Spec.M 5000 128)
    (hY : ∀ p q, v27 (ix2 p q) = Y p q) (h35 : ∀ p, v35 (ix2 p (0 : Fin 1)) = Spec.mean (Y p))
    (h36 : ∀ p q, v36 (ix2 p q) = Spec.mean (Y p)) (p : Fin 5000) (q : Fin 128) :
    k0_pay1 (F := Ideal) v27 v29 v31 v35 v36 v56 (ix2 p q)
      = Spec.lin (Spec.relu (Spec.gn Y (fun q => v29 (ix2 0 q)) (fun q => v31 (ix2 0 q)))) (Spec.ofVec2 v56) p q := by
  unfold k0_pay1
  simp only [shapeCast_self]
  refine reluLin_apply (φ₂ := .bf16) dot_S5000x128_S128x128_S5000x128_1_0_0_1_n_n _ rfl none _ _ _ _
    (Spec.gn Y (fun q => v29 (ix2 0 q)) (fun q => v31 (ix2 0 q))) ?_ p q
  intro p' j
  exact gn_apply v27 v36 v35 v29 v31 _ _ _ _ _ _ Y hY h35 h36 p' j

theorem hz : (![0, 0] : Fin 2 → Nat) = fun _ => 0 := funext fun a => by fin_cases a <;> rfl

/-- WHAT THE BODY LEAVES in the output block, at a row and a column: the edge stage of the blocks it read. -/
theorem out_apply (x0 : FVec Ideal S5000x4 .f32) (x1 : FVec Ideal S5000x128 .bf16) (x2 : FVec Ideal S128x4 .f32)
    (x3 : FVec Ideal S1x128 .f32) (x4 x5 : FVec Ideal S128x128 .f32) (x6 x7 : FVec Ideal S1x128 .f32)
    (x8 : FVec Ideal S128x128 .f32) (p : Fin 5000) (q : Fin 128) :
    out0_9 (F := Ideal) x0 x1 x2 x3 x4 x5 x6 x7 x8 (ix2 p q)
      = Spec.lpEdge (Spec.ofVec2 x0) (Spec.ofVec2 x1) (Spec.ofVec2 x2) (fun q => x3 (ix2 0 q)) (Spec.ofVec2 x4) (Spec.ofVec2 x5)
          (fun q => x6 (ix2 0 q)) (fun q => x7 (ix2 0 q)) (Spec.ofVec2 x8) p q := by
  unfold out0_9
  rw [View.canon_unit_zero hz]
  simp only [View.ld_unit_zero (S := S5000x4) hz, View.ld_unit_zero (S := S5000x128) hz, View.ld_unit_zero (S := S128x4) hz,
    View.ld_unit_zero (S := S1x128) hz, View.ld_unit_zero (S := S128x128) hz, pay3_eq, pay4_eq]
  exact pay1_apply _ x6 x7 _ _ x8 (preOf x0 x2 x3 x1 x4 x5) (fun p q => pay2_apply x0 x2 x3 x1 x4 x5 p q)
    (fun p => pay5_apply x0 x2 x3 x1 x4 x5 p 0) (fun p q => pay6_apply x0 x2 x3 x1 x4 x5 p q) p q

/-- The same at any index of the block, against edge arrays of any length whose row `P` is the blocks' row `p`. -/
theorem out_at {e : Nat} (x0 : FVec Ideal S5000x4 .f32) (x1 : FVec Ideal S5000x128 .bf16) (x2 : FVec Ideal S128x4 .f32)
    (x3 : FVec Ideal S1x128 .f32) (x4 x5 : FVec Ideal S128x128 .f32) (x6 x7 : FVec Ideal S1x128 .f32)
    (x8 : FVec Ideal S128x128 .f32) (A0 : Spec.M e 4) (A1 : Spec.M e 128)
    (y : S5000x128.Idx) (p : Fin 5000) (q : Fin 128) (P : Fin e) (hy0 : (y 0).val = p.val) (hy1 : (y 1).val = q.val)
    (h0 : ∀ k : Fin 4, x0 (ix2 p k) = A0 P k) (h1 : ∀ k : Fin 128, x1 (ix2 p k) = A1 P k) :
    out0_9 (F := Ideal) x0 x1 x2 x3 x4 x5 x6 x7 x8 y
      = Spec.lpEdge A0 A1 (Spec.ofVec2 x2) (fun q => x3 (ix2 0 q)) (Spec.ofVec2 x4) (Spec.ofVec2 x5)
          (fun q => x6 (ix2 0 q)) (fun q => x7 (ix2 0 q)) (Spec.ofVec2 x8) P q := by
  have hy : y = ix2 p q := by
    funext a
    apply Fin.ext
    match a with
    | ⟨0, _⟩ => exact hy0
    | ⟨1, _⟩ => exact hy1
  rw [hy, out_apply]
  exact lpEdge_row _ _ A0 A1 _ _ _ _ _ _ _ p P (funext h0) (funext h1) q

/-! ## The blocks as parts of the arrays -/

section Blocks

variable (V : (c : Dev nD) → (b : Ref sig .tc) → Buf (Elt Ideal) ((c : Thread nD τ).loc b))

/-- The printed index maps, decided over the thirty points: the two edge inputs and the output move one tile of rows
    per point; every weight window stays on its whole array. -/
theorem idx_row0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_row1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_whole8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_row9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Window 0's block at point `t` is rows `5000 t … 5000 t + 4999` of its array. -/
theorem iblk_row0 (c : Dev nD) (t : Fin cfg0.N) (p : Fin 5000) (k : Fin 4) (P : Fin 150000) (hP : P.val = t.val * 5000 + p.val) :
    (iblk0 (F := Ideal) V c 0 t : FVec Ideal S5000x4 .f32) (ix2 p k) = (V c (Pipeline.arrRef spec0 0) : FVec Ideal S150000x4 .f32) (ix2 P k) := by
  have hi := idx_row0 t
  unfold iblk0
  show (V c (Pipeline.arrRef spec0 0) : FVec Ideal S150000x4 .f32) (((cfg0.win 0).blk t).view.emb (ix2 p k))
    = (V c (Pipeline.arrRef spec0 0) : FVec Ideal S150000x4 .f32) (ix2 P k)
  congr 1
  funext a
  apply Fin.ext
  match a with
  | ⟨0, _⟩ => show win0_0.index t (0 : Fin 2) * 5000 + 1 * p.val = P.val; rw [hi.1, hP]; omega
  | ⟨1, _⟩ => show win0_0.index t (1 : Fin 2) * 4 + 1 * k.val = k.val; rw [hi.2]; omega

/-- Window 1's block at point `t` is rows `5000 t … 5000 t + 4999` of its array. -/
theorem iblk_row1 (c : Dev nD) (t : Fin cfg0.N) (p : Fin 5000) (k : Fin 128) (P : Fin 150000) (hP : P.val = t.val * 5000 + p.val) :
    (iblk0 (F := Ideal) V c 1 t : FVec Ideal S5000x128 .bf16) (ix2 p k) = (V c (Pipeline.arrRef spec0 1) : FVec Ideal S150000x128 .bf16) (ix2 P k) := by
  have hi := idx_row1 t
  unfold iblk0
  show (V c (Pipeline.arrRef spec0 1) : FVec Ideal S150000x128 .bf16) (((cfg0.win 1).blk t).view.emb (ix2 p k))
    = (V c (Pipeline.arrRef spec0 1) : FVec Ideal S150000x128 .bf16) (ix2 P k)
  congr 1
  funext a
  apply Fin.ext
  match a with
  | ⟨0, _⟩ => show win0_1.index t (0 : Fin 2) * 5000 + 1 * p.val = P.val; rw [hi.1, hP]; omega
  | ⟨1, _⟩ => show win0_1.index t (1 : Fin 2) * 128 + 1 * k.val = k.val; rw [hi.2]; omega

/-- Window 2's block is its whole array at every point. -/
theorem iblk_whole2 (c : Dev nD) (t : Fin cfg0.N) :
    (iblk0 (F := Ideal) V c 2 t : FVec Ideal S128x4 .f32) = V c (Pipeline.arrRef spec0 2) := by
  have hi := idx_whole2 t
  funext j
  unfold iblk0
  show (V c (Pipeline.arrRef spec0 2) : FVec Ideal S128x4 .f32) (((cfg0.win 2).blk t).view.emb j)
    = (V c (Pipeline.arrRef spec0 2) : FVec Ideal S128x4 .f32) j
  congr 1
  funext a
  apply Fin.ext
  match a with
  | ⟨0, _⟩ => show win0_2.index t (0 : Fin 2) * 128 + 1 * (j 0).val = (j 0).val; rw [hi.1]; omega
  | ⟨1, _⟩ => show win0_2.index t (1 : Fin 2) * 4 + 1 * (j 1).val = (j 1).val; rw [hi.2]; omega

/-- Window 3's block is its whole array at every point. -/
theorem iblk_whole3 (c : Dev nD) (t : Fin cfg0.N) :
    (iblk0 (F := Ideal) V c 3 t : FVec Ideal S1x128 .f32) = V c (Pipeline.arrRef spec0 3) := by
  have hi := idx_whole3 t
  funext j
  unfold iblk0
  show (V c (Pipeline.arrRef spec0 3) : FVec Ideal S1x128 .f32) (((cfg0.win 3).blk t).view.emb j)
    = (V c (Pipeline.arrRef spec0 3) : FVec Ideal S1x128 .f32) j
  congr 1
  funext a
  apply Fin.ext
  match a with
  | ⟨0, _⟩ => show win0_3.index t (0 : Fin 2) * 1 + 1 * (j 0).val = (j 0).val; rw [hi.1]; omega
  | ⟨1, _⟩ => show win0_3.index t (1 : Fin 2) * 128 + 1 * (j 1).val = (j 1).val; rw [hi.2]; omega

/-- Window 4's block is its whole array at every point. -/
theorem iblk_whole4 (c : Dev nD) (t : Fin cfg0.N) :
    (iblk0 (F := Ideal) V c 4 t : FVec Ideal S128x128 .f32) = V c (Pipeline.arrRef spec0 4) := by
  have hi := idx_whole4 t
  funext j
  unfold iblk0
  show (V c (Pipeline.arrRef spec0 4) : FVec Ideal S128x128 .f32) (((cfg0.win 4).blk t).view.emb j)
    = (V c (Pipeline.arrRef spec0 4) : FVec Ideal S128x128 .f32) j
  congr 1
  funext a
  apply Fin.ext
  match a with
  | ⟨0, _⟩ => show win0_4.index t (0 : Fin 2) * 128 + 1 * (j 0).val = (j 0).val; rw [hi.1]; omega
  | ⟨1, _⟩ => show win0_4.index t (1 : Fin 2) * 128 + 1 * (j 1).val = (j 1).val; rw [hi.2]; omega

/-- Window 5's block is its whole array at every point. -/
theorem iblk_whole5 (c : Dev nD) (t : Fin cfg0.N) :
    (iblk0 (F := Ideal) V c 5 t : FVec Ideal S128x128 .f32) = V c (Pipeline.arrRef spec0 5) := by
  have hi := idx_whole5 t
  funext j
  unfold iblk0
  show (V c (Pipeline.arrRef spec0 5) : FVec Ideal S128x128 .f32) (((cfg0.win 5).blk t).view.emb j)
    = (V c (Pipeline.arrRef spec0 5) : FVec Ideal S128x128 .f32) j
  congr 1
  funext a
  apply Fin.ext
  match a with
  | ⟨0, _⟩ => show win0_5.index t (0 : Fin 2) * 128 + 1 * (j 0).val = (j 0).val; rw [hi.1]; omega
  | ⟨1, _⟩ => show win0_5.index t (1 : Fin 2) * 128 + 1 * (j 1).val = (j 1).val; rw [hi.2]; omega

/-- Window 6's block is its whole array at every point. -/
theorem iblk_whole6 (c : Dev nD) (t : Fin cfg0.N) :
    (iblk0 (F := Ideal) V c 6 t : FVec Ideal S1x128 .f32) = V c (Pipeline.arrRef spec0 6) := by
  have hi := idx_whole6 t
  funext j
  unfold iblk0
  show (V c (Pipeline.arrRef spec0 6) : FVec Ideal S1x128 .f32) (((cfg0.win 6).blk t).view.emb j)
    = (V c (Pipeline.arrRef spec0 6) : FVec Ideal S1x128 .f32) j
  congr 1
  funext a
  apply Fin.ext
  match a with
  | ⟨0, _⟩ => show win0_6.index t (0 : Fin 2) * 1 + 1 * (j 0).val = (j 0).val; rw [hi.1]; omega
  | ⟨1, _⟩ => show win0_6.index t (1 : Fin 2) * 128 + 1 * (j 1).val = (j 1).val; rw [hi.2]; omega

/-- Window 7's block is its whole array at every point. -/
theorem iblk_whole7 (c : Dev nD) (t : Fin cfg0.N) :
    (iblk0 (F := Ideal) V c 7 t : FVec Ideal S1x128 .f32) = V c (Pipeline.arrRef spec0 7) := by
  have hi := idx_whole7 t
  funext j
  unfold iblk0
  show (V c (Pipeline.arrRef spec0 7) : FVec Ideal S1x128 .f32) (((cfg0.win 7).blk t).view.emb j)
    = (V c (Pipeline.arrRef spec0 7) : FVec Ideal S1x128 .f32) j
  congr 1
  funext a
  apply Fin.ext
  match a with
  | ⟨0, _⟩ => show win0_7.index t (0 : Fin 2) * 1 + 1 * (j 0).val = (j 0).val; rw [hi.1]; omega
  | ⟨1, _⟩ => show win0_7.index t (1 : Fin 2) * 128 + 1 * (j 1).val = (j 1).val; rw [hi.2]; omega

/-- Window 8's block is its whole array at every point. -/
theorem iblk_whole8 (c : Dev nD) (t : Fin cfg0.N) :
    (iblk0 (F := Ideal) V c 8 t : FVec Ideal S128x128 .f32) = V c (Pipeline.arrRef spec0 8) := by
  have hi := idx_whole8 t
  funext j
  unfold iblk0
  show (V c (Pipeline.arrRef spec0 8) : FVec Ideal S128x128 .f32) (((cfg0.win 8).blk t).view.emb j)
    = (V c (Pipeline.arrRef spec0 8) : FVec Ideal S128x128 .f32) j
  congr 1
  funext a
  apply Fin.ext
  match a with
  | ⟨0, _⟩ => show win0_8.index t (0 : Fin 2) * 128 + 1 * (j 0).val = (j 0).val; rw [hi.1]; omega
  | ⟨1, _⟩ => show win0_8.index t (1 : Fin 2) * 128 + 1 * (j 1).val = (j 1).val; rw [hi.2]; omega

/-! ## From the blocks to the array -/

/-- What the output array ends holding: the edge stage of the nine arrays the region reads. -/
abbrev resultOf (c : Dev nD) : FVec Ideal S150000x128 .bf16 :=
  Spec.toVec2 (Spec.lpEdge (Spec.ofVec2 (V c (Pipeline.arrRef spec0 0))) (Spec.ofVec2 (V c (Pipeline.arrRef spec0 1)))
    (Spec.ofVec2 (V c (Pipeline.arrRef spec0 2))) (fun q => V c (Pipeline.arrRef spec0 3) (ValueIdx.ix2 0 q))
    (Spec.ofVec2 (V c (Pipeline.arrRef spec0 4))) (Spec.ofVec2 (V c (Pipeline.arrRef spec0 5)))
    (fun q => V c (Pipeline.arrRef spec0 6) (ValueIdx.ix2 0 q)) (fun q => V c (Pipeline.arrRef spec0 7) (ValueIdx.ix2 0 q))
    (Spec.ofVec2 (V c (Pipeline.arrRef spec0 8))))

/-- WHAT POINT `t` WRITES BACK is tile `t` of that array: row `p` of the body's block is the edge stage of the tile's
    rows, which is row `5000 t + p` of the edge stage of the whole arrays. -/
theorem flushed_eq (c : Dev nD) (t : Fin cfg0.N) :
    (dat0 (F := Ideal) V c).flushed 9 t = ((cfg0.win 9).blk t).view.read (Elt Ideal) (resultOf V c) := by
  show (cfg0.win 9).cut (grid0.coords t) ((dat0 (F := Ideal) V c).after 9 t) = _
  rw [after0_9, iblk_whole2 V c t, iblk_whole3 V c t, iblk_whole4 V c t, iblk_whole5 V c t, iblk_whole6 V c t,
    iblk_whole7 V c t, iblk_whole8 V c t]
  have hi := idx_row9 t
  have hN : t.val < 30 := lt_of_lt_of_eq t.isLt N_0
  funext j
  have hj0 : (j 0).val < 5000 := (j 0).isLt
  have hj1 : (j 1).val < 128 := (j 1).isLt
  show _ = resultOf V c (((cfg0.win 9).blk t).view.emb j)
  refine (out_at (iblk0 (F := Ideal) V c 0 t) (iblk0 (F := Ideal) V c 1 t) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))
    (Spec.ofVec2 (V c (Pipeline.arrRef spec0 0))) (Spec.ofVec2 (V c (Pipeline.arrRef spec0 1)))
    ((cfg0.win 9).xinj (grid0.coords t) j) ⟨(j 0).val, hj0⟩ ⟨(j 1).val, hj1⟩ ⟨t.val * 5000 + (j 0).val, by omega⟩ rfl rfl
    (fun k => iblk_row0 V c t ⟨(j 0).val, hj0⟩ k ⟨t.val * 5000 + (j 0).val, by omega⟩ rfl)
    (fun k => iblk_row1 V c t ⟨(j 0).val, hj0⟩ k ⟨t.val * 5000 + (j 0).val, by omega⟩ rfl)).trans ?_
  refine (toVec2_at _ (((cfg0.win 9).blk t).view.emb j) ⟨t.val * 5000 + (j 0).val, by omega⟩ ⟨(j 1).val, hj1⟩ ?_ ?_).symm
  · show win0_9.index t (0 : Fin 2) * 5000 + 1 * (j 0).val = t.val * 5000 + (j 0).val
    rw [hi.1]; omega
  · show win0_9.index t (1 : Fin 2) * 128 + 1 * (j 1).val = (j 1).val
    rw [hi.2]; omega

/-- An index of the output array is in point `t`'s block iff each coordinate is in the block's range on its axis. -/
theorem mem_blk (t : Fin cfg0.N) (i : S150000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v54).slice (win0_9.rect t)).set ↔ _
  rw [View.set_slice_whole, Rect.mem_set_unit]
  exact Iff.rfl

/-- The thirty tiles cover the output array: row `r` lies in tile `r / 5000`. -/
theorem cover (i : S150000x128.Idx) :
    ∃ t : Fin cfg0.N, (cfg0.win 9).flush t = true ∧ i ∈ ((cfg0.win 9).blk t).view.set := by
  have hi0 : (i 0).val < 150000 := (i 0).isLt
  have hi1 : (i 1).val < 128 := (i 1).isLt
  have hN : cfg0.N = 30 := N_0
  obtain ⟨t, ht⟩ : ∃ t : Fin cfg0.N, t.val = (i 0).val / 5000 := ⟨⟨(i 0).val / 5000, by rw [hN]; omega⟩, rfl⟩
  have hi := idx_row9 t
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    rw [hi.1, ht]; omega
  | ⟨1, _⟩ =>
    show win0_9.index t (1 : Fin 2) * 128 ≤ (i 1).val ∧ (i 1).val < win0_9.index t (1 : Fin 2) * 128 + 128
    rw [hi.2]; omega

/-- THE OUTPUT ARRAY after the region: the edge stage of the arrays the region read. -/
theorem arr0_out (c : Dev nD) : (dat0 (F := Ideal) V c).arrAt 9 cfg0.N = Spec.toVec2 (Spec.lpEdge (Spec.ofVec2 (V c (Pipeline.arrRef spec0 0))) (Spec.ofVec2 (V c (Pipeline.arrRef spec0 1))) (Spec.ofVec2 (V c (Pipeline.arrRef spec0 2))) (fun q => V c (Pipeline.arrRef spec0 3) (ValueIdx.ix2 0 q)) (Spec.ofVec2 (V c (Pipeline.arrRef spec0 4))) (Spec.ofVec2 (V c (Pipeline.arrRef spec0 5))) (fun q => V c (Pipeline.arrRef spec0 6) (ValueIdx.ix2 0 q)) (fun q => V c (Pipeline.arrRef spec0 7) (ValueIdx.ix2 0 q)) (Spec.ofVec2 (V c (Pipeline.arrRef spec0 8)))) :=
  (dat0 (F := Ideal) V c).arrAt_eq_of_cover 9 (resultOf V c) (fun t _ => flushed_eq V c t) cover

end Blocks

end Cert.KReg0

end
-- ==== Proof.KChainL0a.lean ====
/-
  The kernel program's first pooling layer, edge stage (region 0 of @main and the host stretches around it): the edge
  contributions and their accumulation onto zero lane features. Each step reads its operands where the fold last
  wrote them and states what the segment leaves as the specification's term of the launch arguments.
-/
import proofs.«413166_j32323923870246_3_alg».proof.Proof.KChainKeep
import proofs.«413166_j32323923870246_3_alg».proof.Proof.KChainArgs
import proofs.«413166_j32323923870246_3_alg».proof.Proof.KHostLp
import proofs.«413166_j32323923870246_3_alg».proof.Proof.KReg0

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

set_option maxHeartbeats 8000000 in
/-- Region 0 leaves the edge contributions of the first pooling layer: its operands are the pose differences and the
    gathered region features of the edges, and the layer's weights and scale / shift rows, all made by the first host
    stretch from the launch arguments. -/
theorem inv_R0 : W2 m ρ c (Proc.devRef .tc main_v54) = toVec2 (ctx0 (argsOfK m c)) := by
  have h0 : V1 m ρ c (Pipeline.arrRef spec0 0)
      = toVec2 (sub (gatherRows (by omega : 0 < 12000) (argsOfK m c).roi_pose (argsOfK m c).e1_hi)
          (gatherRows (by omega : 0 < 50000) (argsOfK m c).graph_pose (argsOfK m c).e1_wi)) :=
    Cert.KHostLp.hostOps0_v36 (W0 m ρ c)
  have h1 : V1 m ρ c (Pipeline.arrRef spec0 1)
      = toVec2 (gatherRows (by omega : 0 < 12000) (argsOfK m c).roi_feat (argsOfK m c).e1_hi) :=
    Cert.KHostLp.hostOps0_v44 (W0 m ρ c)
  have h2 : V1 m ρ c (Pipeline.arrRef spec0 2) = toVec2 ((argsOfK m c).lp_relpose_w 0) :=
    Cert.KHostLp.hostOps0_v3 (W0 m ρ c)
  have h3 : V1 m ρ c (Pipeline.arrRef spec0 3) = toVec2 (fun (_ : Fin 1) q => (argsOfK m c).lp_relpose_b 0 q) :=
    Cert.KHostLp.hostOps0_v51 (W0 m ρ c)
  have h4 : V1 m ρ c (Pipeline.arrRef spec0 4) = toVec2 (waOf (argsOfK m c) 0) :=
    Cert.KHostLp.hostOps0_v45 (W0 m ρ c)
  have h5 : V1 m ρ c (Pipeline.arrRef spec0 5) = toVec2 (wbOf (argsOfK m c) 0) :=
    Cert.KHostLp.hostOps0_v46 (W0 m ρ c)
  have h6 : V1 m ρ c (Pipeline.arrRef spec0 6) = toVec2 (fun (_ : Fin 1) q => (argsOfK m c).lp_ctx1_gn 0 0 q) :=
    Cert.KHostLp.hostOps0_v52 (W0 m ρ c)
  have h7 : V1 m ρ c (Pipeline.arrRef spec0 7) = toVec2 (fun (_ : Fin 1) q => (argsOfK m c).lp_ctx1_gn 0 1 q) :=
    Cert.KHostLp.hostOps0_v53 (W0 m ρ c)
  have h8 : V1 m ρ c (Pipeline.arrRef spec0 8) = toVec2 ((argsOfK m c).lp_ctx2_w 0) :=
    Cert.KHostLp.hostOps0_v11 (W0 m ρ c)
  refine (W2_arr m ρ c 9).trans ((Cert.KReg0.arr0_out (V1 m ρ) c).trans ?_)
  rw [h0, h1, h2, h3, h4, h5, h6, h7, h8]; rfl

/-- Host stretch 1 accumulates them onto zero features, each at its wrapped target node. -/
theorem inv_H1 : W3 m ρ c (Proc.devRef .tc main_v63)
    = toVec2 (scatterAddRows (fun _ _ => 0) (argsOfK m c).e1_wi (ctx0 (argsOfK m c))) := by
  refine (Cert.KHostLp.hostOps1_v63 (W2 m ρ c)).trans ?_
  rw [inv_R0 m ρ c, kept_arg22_W2 m ρ c]; rfl

end Cert.KChain

end
-- ==== Proof.KReg1Pay.lean ====
/-
  The node stage of a pooling layer on ONE block of 5000 rows, read entry by entry at the ideal values.
  The kernel body is three row normalisations, two products with a transposed [128,128] weight, three positive parts
  and one residual sum. Each non-pointwise operation is read at an index (p, q) once: a lane sum kept as a column is
  the sum of row p's 128 entries; a column spread over the lanes reads the column's entry of row p; a [1,128] row spread
  over the rows reads its entry q; the product with a transposed weight is row p of the block against row q of the
  weight. With these the body's row normalisation, positive part and product are the specification's gn, relu and lin
  of the block read as a matrix, and the whole payload is the specification's node stage of the block's rows.
  Every stage uses row p of its operand only, so the stage of a block's row is the stage of the array's row it is.
-/
import proofs.«413166_j32323923870246_3_alg».proof.Proof.Gen.KernelIdeal.Skeleton
import proofs.«413166_j32323923870246_3_alg».proof.Proof.Spec
import Idealize.ShloMosaic.Lib.ValueLayout
import Idealize.ShloMosaic.PureOps.Ideal.Laws

noncomputable section

namespace Cert.KReg1

open Idealize.ShloMosaic Idealize.ShloMosaic.ValueIdx Cert.KernelIdeal Cert.KernelIdeal.Gen

/-- A [1,128] array read as a function of the lane. -/
abbrev row (x : FVec Ideal S1x128 .f32) : Fin 128 → EReal := fun q => x (ix2 (0 : Fin 1) q)

/-- The lane sum of a [5000,128] block, kept as a [5000,1] column, read at row p: the sum of the row's 128 entries. -/
theorem rowsum_apply (v : FVec Ideal S5000x128 .f32) (p : Fin 5000) (u : Fin 1) :
    shapeCast S5000x1 (multiReduction .add [1] S5000 v 0x00000000#32 reduces_S5000x128_S5000 (.inl rfl) rfl)
        shapeCasts_S5000_S5000x1 (ix2 p u) = ∑ k : Fin 128, v (ix2 p k) := by
  refine (shapeCast_apply _ shapeCasts_S5000_S5000x1 (ix2 p u) (ix1 p) ?_).trans ?_
  · rw [Shape.rowMajor_val_one, Shape.rowMajor_val_two]
    show p.val = p.val * 1 + u.val
    omega
  · refine (Ideal.multiReduction_add_single v 0x00000000#32 reduces_S5000x128_S5000 (.inl rfl) rfl (ix1 p)).trans ?_
    refine Finset.sum_congr rfl fun k _ => congrArg v ?_
    funext a; apply Fin.ext
    match a with
    | ⟨0, _⟩ => rfl
    | ⟨1, _⟩ => rfl

/-- A [5000,1] column spread over the 128 lanes reads, at (p, q), the column's entry of row p. -/
theorem bcol_apply (w : FVec Ideal S5000x1 .f32) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else q.val
    rw [if_pos rfl]

/-- A [1,128] row spread over the 5000 rows reads, at (p, q), the row's entry q. -/
theorem brow_apply (s : FVec Ideal S1x128 .f32) (p : Fin 5000) (q : Fin 128) :
    broadcastTo S5000x128 s broadcasts_S1x128_S5000x128 (ix2 p q) = s (ix2 (0 : Fin 1) q) :=
  broadcastTo_1b_ab_apply s broadcasts_S1x128_S5000x128 p q

/-- The matrix unit's product of a [5000,128] block with the transpose of a [128,128] weight, into zero, at (p, q):
    row p of the block against row q of the weight. -/
theorem mm_apply (a : FVec Ideal S5000x128 .bf16) (b : FVec Ideal S128x128 .bf16) (p : Fin 5000) (q : Fin 128) :
    matmul dot_S5000x128_S128x128_S5000x128_1_0_0_1_n_n none a
        (transpose S128x128 [1, 0] b transposes_S128x128_p1_0_S128x128) (constant S5000x128 .f32 0x00000000#32) (ix2 p q)
      = ∑ k : Fin 128, a (ix2 p k) * b (ix2 q k) := by
  show FloatOps.matmul dot_S5000x128_S128x128_S5000x128_1_0_0_1_n_n none a _ _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 p q)
      ((contrEquiv1 dot_S5000x128_S128x128_S5000x128_1_0_0_1_n_n 128 rfl rfl).symm c) = ix2 p c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 p q)
      ((contrEquiv1 dot_S5000x128_S128x128_S5000x128_1_0_0_1_n_n 128 rfl rfl).symm c) = ix2 c q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2, transpose_ix2_apply]

/-! ## The body's stages, named -/

/-- The row mean as the body takes it: the lane sum kept as a column, divided by the literal 128. -/
def kmean (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- The block with each row's mean taken off. -/
def kcen (v : FVec Ideal S5000x128 .f32) : FVec Ideal S5000x128 .f32 :=
  subf v (broadcastTo S5000x128 (kmean v) broadcasts_S5000x1_S5000x128)

/-- The inverse square root of each row's mean squared deviation plus the small constant, as a column. -/
def krs (v : FVec Ideal S5000x128 .f32) : FVec Ideal S5000x1 .f32 :=
  rsqrt (addf (kmean (mulf (kcen v) (kcen v))) (broadcast S5000x1 (Scalar.ofBits .f32 0x3727C5AC#32)))

/-- The body's row normalisation with scale row `s` and shift row `h`. -/
def kgn (v : FVec Ideal S5000x128 .f32) (s h : FVec Ideal S1x128 .f32) : FVec Ideal S5000x128 .f32 :=
  addf (mulf (mulf (kcen v) (broadcastTo S5000x128 (krs v) broadcasts_S5000x1_S5000x128))
    (broadcastTo S5000x128 s broadcasts_S1x128_S5000x128)) (broadcastTo S5000x128 h broadcasts_S1x128_S5000x128)

/-- The positive part against the zero literal. -/
def krelu (v : FVec Ideal S5000x128 .f32) : FVec Ideal S5000x128 .f32 :=
  maximumf v (broadcast S5000x128 (Scalar.ofBits .f32 0x00000000#32))

/-- The product with the transposed weight, both operands passed through the narrower format (the identity here). -/
def kmm (a : FVec Ideal S5000x128 .f32) (w : FVec Ideal S128x128 .f32) : FVec Ideal S5000x128 .f32 :=
  matmul dot_S5000x128_S128x128_S5000x128_1_0_0_1_n_n none (truncf .bf16 a bitsLt_bf16_f32)
    (transpose S128x128 [1, 0] (truncf .bf16 w bitsLt_bf16_f32) transposes_S128x128_p1_0_S128x128)
    (constant S5000x128 .f32 0x00000000#32)

theorem kmean_apply (v : FVec Ideal S5000x128 .f32) (p : Fin 5000) (u : Fin 1) :
    kmean v (ix2 p u) = Spec.mean (fun j => v (ix2 p j)) :=
  congrArg (fun z => Ideal.div z Spec.c128) (rowsum_apply v p u)

theorem kcen_apply (v : FVec Ideal S5000x128 .f32) (p : Fin 5000) (q : Fin 128) :
    kcen v (ix2 p q) = v (ix2 p q) - Spec.mean (fun j => v (ix2 p j)) :=
  congrArg (fun z => v (ix2 p q) - z) ((bcol_apply (kmean v) p q).trans (kmean_apply v p 0))

theorem krs_apply (v : FVec Ideal S5000x128 .f32) (p : Fin 5000) (u : Fin 1) :
    krs v (ix2 p u) = Ideal.rsqrt (Spec.mean (fun j => (v (ix2 p j) - Spec.mean (fun i => v (ix2 p i)))
      * (v (ix2 p j) - Spec.mean (fun i => v (ix2 p i)))) + Spec.cEps) := by
  have e : kmean (mulf (kcen v) (kcen v)) (ix2 p u) = Spec.mean (fun j => (v (ix2 p j) - Spec.mean (fun i => v (ix2 p i)))
      * (v (ix2 p j) - Spec.mean (fun i => v (ix2 p i)))) :=
    (kmean_apply (mulf (kcen v) (kcen v)) p u).trans
      (congrArg Spec.mean (funext fun j => congrArg (fun z => z * z) (kcen_apply v p j)))
  exact congrArg (fun z => Ideal.rsqrt (z + Spec.cEps)) e

theorem kgn_apply (v : FVec Ideal S5000x128 .f32) (s h : FVec Ideal S1x128 .f32) (p : Fin 5000) (q : Fin 128) :
    kgn v s h (ix2 p q) = Spec.gn (Spec.ofVec2 v) (row s) (row h) p q := by
  have e1 := kcen_apply v p q
  have e2 := (bcol_apply (krs v) p q).trans (krs_apply v p 0)
  have e3 := brow_apply s p q
  have e4 := brow_apply h p q
  show kcen v (ix2 p q) * broadcastTo S5000x128 (krs v) broadcasts_S5000x1_S5000x128 (ix2 p q)
      * broadcastTo S5000x128 s broadcasts_S1x128_S5000x128 (ix2 p q)
      + broadcastTo S5000x128 h broadcasts_S1x128_S5000x128 (ix2 p q) = _
  rw [e1, e2, e3, e4]
  rfl

theorem krelu_apply (v : FVec Ideal S5000x128 .f32) (p : Fin 5000) (q : Fin 128) :
    krelu v (ix2 p q) = max (v (ix2 p q)) 0 := by
  show max (v (ix2 p q)) (Ideal.ofBits .f32 0x00000000#32) = _
  rw [Ideal.ofBits_zero_f32]

theorem kmm_apply (a : FVec Ideal S5000x128 .f32) (w : FVec Ideal S128x128 .f32) (p : Fin 5000) (q : Fin 128) :
    kmm a w (ix2 p q) = ∑ k : Fin 128, a (ix2 p k) * w (ix2 q k) :=
  mm_apply (truncf .bf16 a bitsLt_bf16_f32) (truncf .bf16 w bitsLt_bf16_f32) p q

/-! ## The stages as the specification's, on the block read as a matrix -/

theorem ofVec2_kgn (v : FVec Ideal S5000x128 .f32) (s h : FVec Ideal S1x128 .f32) :
    Spec.ofVec2 (kgn v s h) = Spec.gn (Spec.ofVec2 v) (row s) (row h) :=
  funext fun p => funext fun q => kgn_apply v s h p q

theorem ofVec2_krelu (v : FVec Ideal S5000x128 .f32) : Spec.ofVec2 (krelu v) = Spec.relu (Spec.ofVec2 v) :=
  funext fun p => funext fun q => krelu_apply v p q

theorem ofVec2_kmm (a : FVec Ideal S5000x128 .f32) (w : FVec Ideal S128x128 .f32) :
    Spec.ofVec2 (kmm a w) = Spec.lin (Spec.ofVec2 a) (Spec.ofVec2 w) :=
  funext fun p => funext fun q => kmm_apply a w p q

theorem ofVec2_addf (a b : FVec Ideal S5000x128 .f32) : Spec.ofVec2 (addf a b) = Spec.add (Spec.ofVec2 a) (Spec.ofVec2 b) := rfl

/-! ## The printed payloads are those stages -/

theorem pay3_eq (x0 : FVec Ideal S5000x128 .f32) (x2 x3 : FVec Ideal S1x128 .f32) (x4 : FVec Ideal S128x128 .f32) :
    k1_pay3 x0 x2 x3 x4 = kmm (krelu (kgn x0 x2 x3)) x4 := by
  unfold k1_pay3
  simp only [shapeCast_self]
  rfl

theorem pay4_eq (x : FVec Ideal S1x128 .f32) : k1_pay4 x = x := shapeCast_self x _
theorem pay5_eq (x : FVec Ideal S1x128 .f32) : k1_pay5 x = x := shapeCast_self x _
theorem pay7_eq (x : FVec Ideal S1x128 .f32) : k1_pay7 x = x := shapeCast_self x _
theorem pay8_eq (x : FVec Ideal S1x128 .f32) : k1_pay8 x = x := shapeCast_self x _

theorem pay6_eq (u : FVec Ideal S5000x128 .f32) (s h : FVec Ideal S1x128 .f32) (x7 : FVec Ideal S128x128 .f32) :
    k1_pay6 u s h x7 = kmm (krelu (kgn u s h)) x7 := by
  unfold k1_pay6
  simp only [shapeCast_self]
  rfl

theorem pay1_eq (a : FVec Ideal S5000x128 .f32) (b c : FVec Ideal S1x128 .f32) (d : FVec Ideal S128x128 .f32)
    (s h : FVec Ideal S1x128 .f32) (x1 : FVec Ideal S5000x128 .f32) :
    k1_pay1 (k1_pay6 a b c d) s h (k1_pay9 a b c d) (k1_pay10 a b c d) (Scalar.ofBits .f32 0x43000000#32) x1
      = krelu (addf (kgn (k1_pay6 a b c d) s h) x1) := by
  unfold k1_pay1 k1_pay10 k1_pay9
  first
    | (simp only [shapeCast_self]; rfl)
    | rfl

/-- THE BLOCK: what the body stores, read as a matrix, is the specification's node stage of the blocks it loaded. -/
theorem blk_eq (x0 x1 : FVec Ideal S5000x128 .f32) (x2 x3 : FVec Ideal S1x128 .f32) (x4 : FVec Ideal S128x128 .f32)
    (x5 x6 : FVec Ideal S1x128 .f32) (x7 : FVec Ideal S128x128 .f32) (x8 x9 : FVec Ideal S1x128 .f32) :
    Spec.ofVec2 (k1_pay1 (F := Ideal) (k1_pay6 (k1_pay3 x0 x2 x3 x4) (k1_pay4 x5) (k1_pay5 x6) x7) (k1_pay7 x8) (k1_pay8 x9)
        (k1_pay9 (k1_pay3 x0 x2 x3 x4) (k1_pay4 x5) (k1_pay5 x6) x7) (k1_pay10 (k1_pay3 x0 x2 x3 x4) (k1_pay4 x5) (k1_pay5 x6) x7)
        (Scalar.ofBits .f32 0x43000000#32) x1)
      = Spec.lpTail (Spec.ofVec2 x0) (Spec.ofVec2 x1) (row x2) (row x3) (Spec.ofVec2 x4) (row x5) (row x6)
          (Spec.ofVec2 x7) (row x8) (row x9) := by
  rw [pay1_eq, pay6_eq, pay3_eq, pay4_eq, pay5_eq, pay7_eq, pay8_eq]
  rw [ofVec2_krelu, ofVec2_addf, ofVec2_kgn, ofVec2_kmm, ofVec2_krelu, ofVec2_kgn, ofVec2_kmm, ofVec2_krelu, ofVec2_kgn]
  rfl

/-- The narrower-format copy holds the same values. -/
theorem pay2_eq (v69 : FVec Ideal S5000x128 .f32) (v71 v73 : FVec Ideal S1x128 .f32) (v77 v82 : FVec Ideal S5000x1 .f32)
    (cst : Ideal .f32) (v96 : FVec Ideal S5000x128 .f32) (y : S5000x128.Idx) :
    k1_pay2 v69 v71 v73 v77 v82 cst v96 y = k1_pay1 v69 v71 v73 v77 v82 cst v96 y := rfl

/-! ## Every stage is row by row -/

section Rows
open Cert.Spec

theorem gn_congr {n n' : Nat} (y : M n 128) (y' : M n' 128) (s h : Fin 128 → EReal) (p : Fin n) (p' : Fin n')
    (hy : y p = y' p') : gn y s h p = gn y' s h p' := by
  funext q
  simp only [gn, hy]

theorem lin_congr {n n' k o : Nat} (x : M n k) (x' : M n' k) (w : M o k) (p : Fin n) (p' : Fin n')
    (hx : x p = x' p') : lin x w p = lin x' w p' := by
  funext q
  simp only [lin, hx]

theorem relu_congr {n n' k : Nat} (x : M n k) (x' : M n' k) (p : Fin n) (p' : Fin n')
    (hx : x p = x' p') : relu x p = relu x' p' := by
  funext q
  simp only [relu, hx]

theorem add_congr {n n' k : Nat} (x y : M n k) (x' y' : M n' k) (p : Fin n) (p' : Fin n')
    (hx : x p = x' p') (hy : y p = y' p') : add x y p = add x' y' p' := by
  funext q
  simp only [add, hx, hy]

/-- Row `p` of the node stage is a function of row `p` of the transformed features and of the residual. -/
theorem lpTail_congr {n n' : Nat} (t idn : M n 128) (t' idn' : M n' 128) (ns nh : Fin 128 → EReal) (w1 : M 128 128)
    (s1 h1 : Fin 128 → EReal) (w2 : M 128 128) (s2 h2 : Fin 128 → EReal) (p : Fin n) (p' : Fin n')
    (ht : t p = t' p') (hi : idn p = idn' p') :
    lpTail t idn ns nh w1 s1 h1 w2 s2 h2 p = lpTail t' idn' ns nh w1 s1 h1 w2 s2 h2 p' := by
  unfold lpTail
  exact relu_congr _ _ p p' (add_congr _ _ _ _ p p'
    (gn_congr _ _ s2 h2 p p' (lin_congr _ _ w2 p p' (relu_congr _ _ p p'
      (gn_congr _ _ s1 h1 p p' (lin_congr _ _ w1 p p' (relu_congr _ _ p p' (gn_congr _ _ ns nh p p' ht))))))) hi)

end Rows

/-- THE POINT: the payload at entry (p, q) of a block whose row p is row r of the two row-tiled arrays, and whose small
    windows are the whole small arrays, is the node stage of the arrays at (r, q). -/
theorem point_eq (x0 x1 : FVec Ideal S5000x128 .f32) (x2 x3 : FVec Ideal S1x128 .f32) (x4 : FVec Ideal S128x128 .f32)
    (x5 x6 : FVec Ideal S1x128 .f32) (x7 : FVec Ideal S128x128 .f32) (x8 x9 : FVec Ideal S1x128 .f32)
    (T I : FVec Ideal S50000x128 .f32) (p : Fin 5000) (q : Fin 128) (r : Fin 50000)
    (h0 : ∀ k : Fin 128, x0 (ix2 p k) = T (ix2 r k)) (h1 : ∀ k : Fin 128, x1 (ix2 p k) = I (ix2 r k)) :
    k1_pay1 (F := Ideal) (k1_pay6 (k1_pay3 x0 x2 x3 x4) (k1_pay4 x5) (k1_pay5 x6) x7) (k1_pay7 x8) (k1_pay8 x9)
        (k1_pay9 (k1_pay3 x0 x2 x3 x4) (k1_pay4 x5) (k1_pay5 x6) x7) (k1_pay10 (k1_pay3 x0 x2 x3 x4) (k1_pay4 x5) (k1_pay5 x6) x7)
        (Scalar.ofBits .f32 0x43000000#32) x1 (ix2 p q)
      = Spec.lpTail (Spec.ofVec2 T) (Spec.ofVec2 I) (row x2) (row x3) (Spec.ofVec2 x4) (row x5) (row x6)
          (Spec.ofVec2 x7) (row x8) (row x9) r q := by
  have e := congrFun (congrFun (blk_eq x0 x1 x2 x3 x4 x5 x6 x7 x8 x9) p) q
  refine e.trans ?_
  exact congrFun (lpTail_congr (Spec.ofVec2 x0) (Spec.ofVec2 x1) (Spec.ofVec2 T) (Spec.ofVec2 I) (row x2) (row x3)
    (Spec.ofVec2 x4) (row x5) (row x6) (Spec.ofVec2 x7) (row x8) (row x9) p r (funext h0) (funext h1)) q

/-- The same for the narrower-format copy, which holds the same values. -/
theorem point_eq_bf (x0 x1 : FVec Ideal S5000x128 .f32) (x2 x3 : FVec Ideal S1x128 .f32) (x4 : FVec Ideal S128x128 .f32)
    (x5 x6 : FVec Ideal S1x128 .f32) (x7 : FVec Ideal S128x128 .f32) (x8 x9 : FVec Ideal S1x128 .f32)
    (T I : FVec Ideal S50000x128 .f32) (p : Fin 5000) (q : Fin 128) (r : Fin 50000)
    (h0 : ∀ k : Fin 128, x0 (ix2 p k) = T (ix2 r k)) (h1 : ∀ k : Fin 128, x1 (ix2 p k) = I (ix2 r k)) :
    k1_pay2 (F := Ideal) (k1_pay6 (k1_pay3 x0 x2 x3 x4) (k1_pay4 x5) (k1_pay5 x6) x7) (k1_pay7 x8) (k1_pay8 x9)
        (k1_pay9 (k1_pay3 x0 x2 x3 x4) (k1_pay4 x5) (k1_pay5 x6) x7) (k1_pay10 (k1_pay3 x0 x2 x3 x4) (k1_pay4 x5) (k1_pay5 x6) x7)
        (Scalar.ofBits .f32 0x43000000#32) x1 (ix2 p q)
      = Spec.lpTail (Spec.ofVec2 T) (Spec.ofVec2 I) (row x2) (row x3) (Spec.ofVec2 x4) (row x5) (row x6)
          (Spec.ofVec2 x7) (row x8) (row x9) r q :=
  (pay2_eq _ _ _ _ _ _ _ (ix2 p q)).trans (point_eq x0 x1 x2 x3 x4 x5 x6 x7 x8 x9 T I p q r h0 h1)

end Cert.KReg1

end
-- ==== Proof.KReg1.lean ====
/-
  Region 1 (the node stage of the first pooling layer) from blocks to arrays. The grid has ten points; at point t the two
  row-tiled inputs (the accumulated features and the residual) and the two outputs are at rows 5000·t … 5000·t + 4999,
  and the eight small windows (three scale / shift pairs, two weights) are their whole arrays. The payload at entry
  (p, q) of the block is the node stage of the block's row p, which is row 5000·t + p of the arrays; so what point t writes
  back is block t of ONE function of the arrays, the blocks tile each output, and the output ends holding that function.
  The narrower-format output holds the same values.
-/
import proofs.«413166_j32323923870246_3_alg».proof.Proof.KIFrameR1
import proofs.«413166_j32323923870246_3_alg».proof.Proof.KReg1Pay
import Idealize.ShloMosaic.Lib.Pipeline.Value

set_option maxRecDepth 16384

noncomputable section

namespace Cert.KReg1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the ten points -/

/-- The two row-tiled inputs and the narrower-format output move with output 10, along the rows only, and output 10's
    block index is the point's number. -/
theorem idx_facts : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_11.index t (0 : Fin 2) = win1_10.index t (0 : Fin 2) ∧ win1_11.index t (1 : Fin 2) = 0
    ∧ win1_10.index t (0 : Fin 2) = t.val ∧ win1_10.index t (1 : Fin 2) = 0 :=
  (by decide +kernel : ∀ t : Fin grid1.N, _)

/-- Each small window stays at block (0, 0). -/
theorem idx_small2 : ∀ t : Fin cfg1.N, win1_2.index t (0 : Fin 2) = 0 ∧ win1_2.index t (1 : Fin 2) = 0 :=
  (by decide +kernel : ∀ t : Fin grid1.N, _)
theorem idx_small3 : ∀ t : Fin cfg1.N, win1_3.index t (0 : Fin 2) = 0 ∧ win1_3.index t (1 : Fin 2) = 0 :=
  (by decide +kernel : ∀ t : Fin grid1.N, _)
theorem idx_small4 : ∀ t : Fin cfg1.N, win1_4.index t (0 : Fin 2) = 0 ∧ win1_4.index t (1 : Fin 2) = 0 :=
  (by decide +kernel : ∀ t : Fin grid1.N, _)
theorem idx_small5 : ∀ t : Fin cfg1.N, win1_5.index t (0 : Fin 2) = 0 ∧ win1_5.index t (1 : Fin 2) = 0 :=
  (by decide +kernel : ∀ t : Fin grid1.N, _)
theorem idx_small6 : ∀ t : Fin cfg1.N, win1_6.index t (0 : Fin 2) = 0 ∧ win1_6.index t (1 : Fin 2) = 0 :=
  (by decide +kernel : ∀ t : Fin grid1.N, _)
theorem idx_small7 : ∀ t : Fin cfg1.N, win1_7.index t (0 : Fin 2) = 0 ∧ win1_7.index t (1 : Fin 2) = 0 :=
  (by decide +kernel : ∀ t : Fin grid1.N, _)
theorem idx_small8 : ∀ t : Fin cfg1.N, win1_8.index t (0 : Fin 2) = 0 ∧ win1_8.index t (1 : Fin 2) = 0 :=
  (by decide +kernel : ∀ t : Fin grid1.N, _)
theorem idx_small9 : ∀ t : Fin cfg1.N, win1_9.index t (0 : Fin 2) = 0 ∧ win1_9.index t (1 : Fin 2) = 0 :=
  (by decide +kernel : ∀ t : Fin grid1.N, _)

/-! ## The input blocks, read off their arrays

A block's entry x sits in the array at (block index × block size + 1 × x) on each axis. -/

/-- The accumulated features' block at point t holds the 5000 rows of the array from row 5000 · (the output's block index). -/
theorem iblk0_apply (c : Dev nD) (t : Fin cfg1.N) (x : S5000x128.Idx) (k : S50000x128.Idx)
    (hk0 : (k 0).val = win1_10.index t (0 : Fin 2) * 5000 + (x 0).val) (hk1 : (k 1).val = (x 1).val) :
    (iblk1 V c 0 t : Vec Ideal S5000x128 .f32) x = (V c (Pipeline.arrRef spec1 0) : S50000x128.Idx → Elt Ideal .f32) k := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The residual's block likewise. -/
theorem iblk1_apply (c : Dev nD) (t : Fin cfg1.N) (x : S5000x128.Idx) (k : S50000x128.Idx)
    (hk0 : (k 0).val = win1_10.index t (0 : Fin 2) * 5000 + (x 0).val) (hk1 : (k 1).val = (x 1).val) :
    (iblk1 V c 1 t : Vec Ideal S5000x128 .f32) x = (V c (Pipeline.arrRef spec1 1) : S50000x128.Idx → Elt Ideal .f32) k := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The first normalisation's scale row: the window is the whole [1,128] array. -/
theorem iblk2_eq (c : Dev nD) (t : Fin cfg1.N) :
    (iblk1 V c 2 t : Vec Ideal S1x128 .f32) = (V c (Pipeline.arrRef spec1 2) : S1x128.Idx → Elt Ideal .f32) := by
  obtain ⟨e0, e1⟩ := idx_small2 t
  funext x
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- The first normalisation's shift row. -/
theorem iblk3_eq (c : Dev nD) (t : Fin cfg1.N) :
    (iblk1 V c 3 t : Vec Ideal S1x128 .f32) = (V c (Pipeline.arrRef spec1 3) : S1x128.Idx → Elt Ideal .f32) := by
  obtain ⟨e0, e1⟩ := idx_small3 t
  funext x
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The first weight: the window is the whole [128,128] array. -/
theorem iblk4_eq (c : Dev nD) (t : Fin cfg1.N) :
    (iblk1 V c 4 t : Vec Ideal S128x128 .f32) = (V c (Pipeline.arrRef spec1 4) : S128x128.Idx → Elt Ideal .f32) := by
  obtain ⟨e0, e1⟩ := idx_small4 t
  funext x
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- The second normalisation's scale row. -/
theorem iblk5_eq (c : Dev nD) (t : Fin cfg1.N) :
    (iblk1 V c 5 t : Vec Ideal S1x128 .f32) = (V c (Pipeline.arrRef spec1 5) : S1x128.Idx → Elt Ideal .f32) := by
  obtain ⟨e0, e1⟩ := idx_small5 t
  funext x
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The second normalisation's shift row. -/
theorem iblk6_eq (c : Dev nD) (t : Fin cfg1.N) :
    (iblk1 V c 6 t : Vec Ideal S1x128 .f32) = (V c (Pipeline.arrRef spec1 6) : S1x128.Idx → Elt Ideal .f32) := by
  obtain ⟨e0, e1⟩ := idx_small6 t
  funext x
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- The second weight. -/
theorem iblk7_eq (c : Dev nD) (t : Fin cfg1.N) :
    (iblk1 V c 7 t : Vec Ideal S128x128 .f32) = (V c (Pipeline.arrRef spec1 7) : S128x128.Idx → Elt Ideal .f32) := by
  obtain ⟨e0, e1⟩ := idx_small7 t
  funext x
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 128 + 1 * (x 0).val = (x 0).val; rw [e0]; omega
  | ⟨1, _⟩ => show win1_7.index t (1 : Fin 2) * 128 + 1 * (x 1).val = (x 1).val; rw [e1]; omega

/-- The third normalisation's scale row. -/
theorem iblk8_eq (c : Dev nD) (t : Fin cfg1.N) :
    (iblk1 V c 8 t : Vec Ideal S1x128 .f32) = (V c (Pipeline.arrRef spec1 8) : S1x128.Idx → Elt Ideal .f32) := by
  obtain ⟨e0, e1⟩ := idx_small8 t
  funext x
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * (x 0).val = (x 0).val; rw [e0]; omega
  | ⟨1, _⟩ => show win1_8.index t (1 : Fin 2) * 128 + 1 * (x 1).val = (x 1).val; rw [e1]; omega

/-- The third normalisation's shift row. -/
theorem iblk9_eq (c : Dev nD) (t : Fin cfg1.N) :
    (iblk1 V c 9 t : Vec Ideal S1x128 .f32) = (V c (Pipeline.arrRef spec1 9) : S1x128.Idx → Elt Ideal .f32) := by
  obtain ⟨e0, e1⟩ := idx_small9 t
  funext x
  unfold iblk1
  rw [View.read_apply]
  show V c (Pipeline.arrRef spec1 9) _ = V c (Pipeline.arrRef spec1 9) _
  congr 1
  funext a
  apply Fin.ext
  match a with
  | ⟨0, _⟩ => show win1_9.index t (0 : Fin 2) * 1 + 1 * (x 0).val = (x 0).val; rw [e0]; omega
  | ⟨1, _⟩ => show win1_9.index t (1 : Fin 2) * 128 + 1 * (x 1).val = (x 1).val; rw [e1]; omega

/-! ## The output arrays -/

/-- What the region leaves in both outputs: the node stage of the arrays it reads. -/
abbrev G (c : Dev nD) : Spec.M 50000 128 :=
  Spec.lpTail (Spec.ofVec2 (V c (Pipeline.arrRef spec1 0))) (Spec.ofVec2 (V c (Pipeline.arrRef spec1 1)))
    (fun q => V c (Pipeline.arrRef spec1 2) (ValueIdx.ix2 0 q)) (fun q => V c (Pipeline.arrRef spec1 3) (ValueIdx.ix2 0 q))
    (Spec.ofVec2 (V c (Pipeline.arrRef spec1 4)))
    (fun q => V c (Pipeline.arrRef spec1 5) (ValueIdx.ix2 0 q)) (fun q => V c (Pipeline.arrRef spec1 6) (ValueIdx.ix2 0 q))
    (Spec.ofVec2 (V c (Pipeline.arrRef spec1 7)))
    (fun q => V c (Pipeline.arrRef spec1 8) (ValueIdx.ix2 0 q)) (fun q => V c (Pipeline.arrRef spec1 9) (ValueIdx.ix2 0 q))

set_option maxHeartbeats 1000000 in
/-- WHAT POINT t WRITES BACK into output 10 is block t of the node stage of the arrays the region reads. -/
theorem flushed10_eq (c : Dev nD) (t : Fin cfg1.N) :
    (dat1 V c).flushed 10 t = ((cfg1.win 10).blk t).view.read (Elt Ideal) (Spec.toVec2 (G V c)) := by
  show (cfg1.win 10).cut (grid1.coords t) ((dat1 V c).after 10 t) = _
  rw [after1_10]
  unfold out1_10
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, -, -, -, e1⟩ := idx_facts t
  refine (point_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)
    (V c (Pipeline.arrRef spec1 0)) (V c (Pipeline.arrRef spec1 1)) p q
    ((((cfg1.win 10).blk t).view.emb (ix2 p q) : S50000x128.Idx) 0)
    (fun k => iblk0_apply V c t (ix2 p k) (ix2 ((((cfg1.win 10).blk t).view.emb (ix2 p q) : S50000x128.Idx) 0) k) ?_ rfl)
    (fun k => iblk1_apply V c t (ix2 p k) (ix2 ((((cfg1.win 10).blk t).view.emb (ix2 p q) : S50000x128.Idx) 0) k) ?_ rfl)).trans ?_
  · show win1_10.index t (0 : Fin 2) * 5000 + 1 * p.val = win1_10.index t (0 : Fin 2) * 5000 + p.val
    omega
  · show win1_10.index t (0 : Fin 2) * 5000 + 1 * p.val = win1_10.index t (0 : Fin 2) * 5000 + p.val
    omega
  · rw [iblk2_eq V c t, iblk3_eq V c t, iblk4_eq V c t, iblk5_eq V c t, iblk6_eq V c t, iblk7_eq V c t, iblk8_eq V c t, iblk9_eq V c t]
    show G V c _ q = G V c _ ((((cfg1.win 10).blk t).view.emb (ix2 p q) : S50000x128.Idx) 1)
    refine congrArg (G V c _) (Fin.ext ?_)
    show q.val = win1_10.index t (1 : Fin 2) * 128 + 1 * q.val
    rw [e1]; omega

/-- Every index of output 10 lies in the block of the point its row falls in: the ten blocks of 5000 rows tile it. -/
theorem cover10 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e0, e1⟩ := idx_facts ⟨(i 0).val / 5000, ht⟩
  refine ⟨⟨(i 0).val / 5000, ht⟩, flush1_10 _, ?_⟩
  show i ∈ ((View.whole (Pipeline.arrRef spec1 10)).slice (win1_10.rect ⟨(i 0).val / 5000, ht⟩)).set
  rw [View.set_slice_whole, Rect.mem_set_unit]
  intro a
  match a with
  | ⟨0, _⟩ =>
    show win1_10.index ⟨(i 0).val / 5000, ht⟩ (0 : Fin 2) * 5000 ≤ (i 0).val
      ∧ (i 0).val < win1_10.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_10.index ⟨(i 0).val / 5000, ht⟩ (1 : Fin 2) * 128 ≤ (i 1).val
      ∧ (i 1).val < win1_10.index ⟨(i 0).val / 5000, ht⟩ (1 : Fin 2) * 128 + 128
    rw [e1]
    omega

/-- OUTPUT 10 AFTER THE RUN: the node stage of the arrays the region reads, row by row. -/
theorem arr1_out10 (c : Dev nD) : (dat1 (F := Ideal) V c).arrAt 10 cfg1.N
    = Spec.toVec2 (Spec.lpTail (Spec.ofVec2 (V c (Pipeline.arrRef spec1 0))) (Spec.ofVec2 (V c (Pipeline.arrRef spec1 1)))
      (fun q => V c (Pipeline.arrRef spec1 2) (ValueIdx.ix2 0 q)) (fun q => V c (Pipeline.arrRef spec1 3) (ValueIdx.ix2 0 q))
      (Spec.ofVec2 (V c (Pipeline.arrRef spec1 4)))
      (fun q => V c (Pipeline.arrRef spec1 5) (ValueIdx.ix2 0 q)) (fun q => V c (Pipeline.arrRef spec1 6) (ValueIdx.ix2 0 q))
      (Spec.ofVec2 (V c (Pipeline.arrRef spec1 7)))
      (fun q => V c (Pipeline.arrRef spec1 8) (ValueIdx.ix2 0 q)) (fun q => V c (Pipeline.arrRef spec1 9) (ValueIdx.ix2 0 q))) :=
  (dat1 V c).arrAt_eq_of_cover 10 (Spec.toVec2 (G V c)) (fun t _ => flushed10_eq V c t) cover10

set_option maxHeartbeats 1000000 in
/-- WHAT POINT t WRITES BACK into output 11, the narrower-format copy: the same block. -/
theorem flushed11_eq (c : Dev nD) (t : Fin cfg1.N) :
    (dat1 V c).flushed 11 t = ((cfg1.win 11).blk t).view.read (Elt Ideal) (Spec.toVec2 (G V c)) := by
  show (cfg1.win 11).cut (grid1.coords t) ((dat1 V c).after 11 t) = _
  rw [after1_11]
  unfold out1_11
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, e0, e1, -⟩ := idx_facts t
  refine (point_eq_bf (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)
    (V c (Pipeline.arrRef spec1 0)) (V c (Pipeline.arrRef spec1 1)) p q
    ((((cfg1.win 11).blk t).view.emb (ix2 p q) : S50000x128.Idx) 0)
    (fun k => iblk0_apply V c t (ix2 p k) (ix2 ((((cfg1.win 11).blk t).view.emb (ix2 p q) : S50000x128.Idx) 0) k) ?_ rfl)
    (fun k => iblk1_apply V c t (ix2 p k) (ix2 ((((cfg1.win 11).blk t).view.emb (ix2 p q) : S50000x128.Idx) 0) k) ?_ rfl)).trans ?_
  · show win1_11.index t (0 : Fin 2) * 5000 + 1 * p.val = win1_10.index t (0 : Fin 2) * 5000 + p.val
    rw [e0]; omega
  · show win1_11.index t (0 : Fin 2) * 5000 + 1 * p.val = win1_10.index t (0 : Fin 2) * 5000 + p.val
    rw [e0]; omega
  · rw [iblk2_eq V c t, iblk3_eq V c t, iblk4_eq V c t, iblk5_eq V c t, iblk6_eq V c t, iblk7_eq V c t, iblk8_eq V c t, iblk9_eq V c t]
    show G V c _ q = G V c _ ((((cfg1.win 11).blk t).view.emb (ix2 p q) : S50000x128.Idx) 1)
    refine congrArg (G V c _) (Fin.ext ?_)
    show q.val = win1_11.index t (1 : Fin 2) * 128 + 1 * q.val
    rw [e1]; omega

/-- Output 11's blocks tile it as output 10's do. -/
theorem cover11 (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, f0, f1, e0, -⟩ := idx_facts ⟨(i 0).val / 5000, ht⟩
  refine ⟨⟨(i 0).val / 5000, ht⟩, flush1_11 _, ?_⟩
  show i ∈ ((View.whole (Pipeline.arrRef spec1 11)).slice (win1_11.rect ⟨(i 0).val / 5000, ht⟩)).set
  rw [View.set_slice_whole, Rect.mem_set_unit]
  intro a
  match a with
  | ⟨0, _⟩ =>
    show win1_11.index ⟨(i 0).val / 5000, ht⟩ (0 : Fin 2) * 5000 ≤ (i 0).val
      ∧ (i 0).val < win1_11.index ⟨(i 0).val / 5000, ht⟩ (0 : Fin 2) * 5000 + 5000
    rw [f0, e0]
    show (i 0).val / 5000 * 5000 ≤ (i 0).val ∧ (i 0).val < (i 0).val / 5000 * 5000 + 5000
    omega
  | ⟨1, _⟩ =>
    show win1_11.index ⟨(i 0).val / 5000, ht⟩ (1 : Fin 2) * 128 ≤ (i 1).val
      ∧ (i 1).val < win1_11.index ⟨(i 0).val / 5000, ht⟩ (1 : Fin 2) * 128 + 128
    rw [f1]
    omega

/-- OUTPUT 11 AFTER THE RUN: the same function of the arrays. -/
theorem arr1_out11 (c : Dev nD) : (dat1 (F := Ideal) V c).arrAt 11 cfg1.N
    = Spec.toVec2 (Spec.lpTail (Spec.ofVec2 (V c (Pipeline.arrRef spec1 0))) (Spec.ofVec2 (V c (Pipeline.arrRef spec1 1)))
      (fun q => V c (Pipeline.arrRef spec1 2) (ValueIdx.ix2 0 q)) (fun q => V c (Pipeline.arrRef spec1 3) (ValueIdx.ix2 0 q))
      (Spec.ofVec2 (V c (Pipeline.arrRef spec1 4)))
      (fun q => V c (Pipeline.arrRef spec1 5) (ValueIdx.ix2 0 q)) (fun q => V c (Pipeline.arrRef spec1 6) (ValueIdx.ix2 0 q))
      (Spec.ofVec2 (V c (Pipeline.arrRef spec1 7)))
      (fun q => V c (Pipeline.arrRef spec1 8) (ValueIdx.ix2 0 q)) (fun q => V c (Pipeline.arrRef spec1 9) (ValueIdx.ix2 0 q))) :=
  (dat1 V c).arrAt_eq_of_cover 11 (Spec.toVec2 (G V c)) (fun t _ => flushed11_eq V c t) cover11

end Cert.KReg1

end
-- ==== Proof.KChainL0.lean ====
/-
  The kernel program's first pooling layer, node stage (region 1 of @main): the lane features the node stage leaves
  from the accumulated contributions, in both of the copies the region writes.
-/
import proofs.«413166_j32323923870246_3_alg».proof.Proof.KChainL0a
import proofs.«413166_j32323923870246_3_alg».proof.Proof.KReg1

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

set_option maxHeartbeats 8000000 in
/-- Region 1 leaves the lane features after the first pooling layer, in both copies: the node stage on the
    accumulated contributions, the residual zero. -/
theorem inv_R1 : W4 m ρ c (Proc.devRef .tc main_v82_0) = toVec2 (g0 (argsOfK m c))
    ∧ W4 m ρ c (Proc.devRef .tc main_v82_1) = toVec2 (g0 (argsOfK m c)) := by
  have e21 : W1 m ρ c (Proc.devRef .tc main_v21) = Cert.KHostLp.layer (m ((c : Thread nD τ).loc main_arg13)) 0 :=
    Cert.KHostLp.hostOps0_v21 (W0 m ρ c)
  have e15 : W1 m ρ c (Proc.devRef .tc main_v15) = Cert.KHostLp.layer (m ((c : Thread nD τ).loc main_arg10)) 0 :=
    Cert.KHostLp.hostOps0_v15 (W0 m ρ c)
  have e19 : W1 m ρ c (Proc.devRef .tc main_v19) = Cert.KHostLp.layer (m ((c : Thread nD τ).loc main_arg12)) 0 :=
    Cert.KHostLp.hostOps0_v19 (W0 m ρ c)
  have h0 : V3 m ρ c (Pipeline.arrRef spec1 0)
      = toVec2 (scatterAddRows (fun _ _ => 0) (argsOfK m c).e1_wi (ctx0 (argsOfK m c))) := inv_H1 m ρ c
  have h1 : V3 m ρ c (Pipeline.arrRef spec1 1) = toVec2 (fun (_ : Fin 50000) (_ : Fin 128) => (0 : EReal)) :=
    Cert.KHostLp.hostOps1_v55 (W2 m ρ c)
  have h2 : V3 m ρ c (Pipeline.arrRef spec1 2) = toVec2 (fun (_ : Fin 1) q => (argsOfK m c).lp_norm_gn 0 0 q) :=
    (Cert.KHostLp.hostOps1_v76 (W2 m ρ c)).trans (by rw [kept_v21_W2 m ρ c, e21]; rfl)
  have h3 : V3 m ρ c (Pipeline.arrRef spec1 3) = toVec2 (fun (_ : Fin 1) q => (argsOfK m c).lp_norm_gn 0 1 q) :=
    (Cert.KHostLp.hostOps1_v77 (W2 m ρ c)).trans (by rw [kept_v21_W2 m ρ c, e21]; rfl)
  have h4 : V3 m ρ c (Pipeline.arrRef spec1 4) = toVec2 ((argsOfK m c).lp_mlp1_w 0) :=
    (kept_v13_W3 m ρ c).trans (Cert.KHostLp.hostOps0_v13 (W0 m ρ c))
  have h5 : V3 m ρ c (Pipeline.arrRef spec1 5) = toVec2 (fun (_ : Fin 1) q => (argsOfK m c).lp_mlp1_gn 0 0 q) :=
    (Cert.KHostLp.hostOps1_v78 (W2 m ρ c)).trans (by rw [kept_v15_W2 m ρ c, e15]; rfl)
  have h6 : V3 m ρ c (Pipeline.arrRef spec1 6) = toVec2 (fun (_ : Fin 1) q => (argsOfK m c).lp_mlp1_gn 0 1 q) :=
    (Cert.KHostLp.hostOps1_v79 (W2 m ρ c)).trans (by rw [kept_v15_W2 m ρ c, e15]; rfl)
  have h7 : V3 m ρ c (Pipeline.arrRef spec1 7) = toVec2 ((argsOfK m c).lp_mlp2_w 0) :=
    (kept_v17_W3 m ρ c).trans (Cert.KHostLp.hostOps0_v17 (W0 m ρ c))
  have h8 : V3 m ρ c (Pipeline.arrRef spec1 8) = toVec2 (fun (_ : Fin 1) q => (argsOfK m c).lp_mlp2_gn 0 0 q) :=
    (Cert.KHostLp.hostOps1_v80 (W2 m ρ c)).trans (by rw [kept_v19_W2 m ρ c, e19]; rfl)
  have h9 : V3 m ρ c (Pipeline.arrRef spec1 9) = toVec2 (fun (_ : Fin 1) q => (argsOfK m c).lp_mlp2_gn 0 1 q) :=
    (Cert.KHostLp.hostOps1_v81 (W2 m ρ c)).trans (by rw [kept_v19_W2 m ρ c, e19]; rfl)
  have hE : toVec2 (lpTail (ofVec2 (V3 m ρ c (Pipeline.arrRef spec1 0))) (ofVec2 (V3 m ρ c (Pipeline.arrRef spec1 1)))
      (fun q => V3 m ρ c (Pipeline.arrRef spec1 2) (ValueIdx.ix2 0 q)) (fun q => V3 m ρ c (Pipeline.arrRef spec1 3) (ValueIdx.ix2 0 q))
      (ofVec2 (V3 m ρ c (Pipeline.arrRef spec1 4)))
      (fun q => V3 m ρ c (Pipeline.arrRef spec1 5) (ValueIdx.ix2 0 q)) (fun q => V3 m ρ c (Pipeline.arrRef spec1 6) (ValueIdx.ix2 0 q))
      (ofVec2 (V3 m ρ c (Pipeline.arrRef spec1 7)))
      (fun q => V3 m ρ c (Pipeline.arrRef spec1 8) (ValueIdx.ix2 0 q)) (fun q => V3 m ρ c (Pipeline.arrRef spec1 9) (ValueIdx.ix2 0 q)))
      = toVec2 (g0 (argsOfK m c)) := by
    rw [h0, h1, h2, h3, h4, h5, h6, h7, h8, h9]; rfl
  exact ⟨(W4_arr m ρ c 10).trans ((Cert.KReg1.arr1_out10 (V3 m ρ) c).trans hE),
    (W4_arr m ρ c 11).trans ((Cert.KReg1.arr1_out11 (V3 m ρ) c).trans hE)⟩

end Cert.KChain

end
-- ==== Proof.KHostGgLib.lean ====
/-
  The host operations of a fusion layer read at an index, each shape once over variables.

  * The index wrap: a 32-bit word that reads negative has the table's row count added. Read signed, the result is
    the wrapped index of the specification.
  * A row gather with two batch coordinates: from a table of N rows of K entries and an array of B × E × 1 start
    words, entry (b, e, q) of the result is the table's entry q of the row named by word (b, e, 0), read signed and
    clamped into the table.
  * An accumulating row scatter: onto a table of N rows of K entries, from E × 1 words and E update rows; entry
    (i, q) of the result is the table's entry plus the sum of entry q of every update row whose word, read signed,
    is i. A word outside the table lands nowhere and adds nothing.

  Then the stretches of a fusion layer as whole arrays: a weight cut out of a stack of layers; the wrapped gather as
  the specification's row gather, one table per edge set; the wrapped scatter of B × E update rows flattened to B·E
  rows (row r is set r / E, edge r % E) as the specification's row scatter; two weights stacked along a new leading
  axis; one scale or shift row cut out of a stack of layers.
-/
import proofs.«413166_j32323923870246_3_alg».proof.Proof.Net
import Idealize.ShloMosaic.Lib.Pipeline.Value
import Idealize.ShloMosaic.PureOps.Contract
import Idealize.ShloMosaic.PureOps.ShapeOps
import Idealize.ShloMosaic.Lib.ValueIdx
import Idealize.ShloMosaic.Lib.WordArith

noncomputable section

open scoped BigOperators

namespace Cert.KHostGg

open Idealize.ShloMosaic Idealize.ShloMosaic.ValueIdx

/-! ## The index wrap at one word -/

/-- The printed wrap of a word by a row count below 2³¹, read signed, is the specification's wrapped index:
    a negative reading plus the row count cannot leave the signed range. -/
theorem wrapWord_toInt (N : Nat) (hN : N < 2 ^ 31) (i : BitVec 32) :
    (Scalar.select (IntOp.cmpi .slt i 0#32) (IntOp.addi i (BitVec.ofNat 32 N)) i).toInt = Spec.wrap N i := by
  have hn : (BitVec.ofNat 32 N).toInt = (N : Int) := WordArith.toInt_ofNat_small N hN
  have h0 : (0#32 : BitVec 32).toInt = 0 := by decide
  have e := BitVec.toInt_eq_toNat_cond i
  have hlt := i.isLt
  have hiff : IntOp.cmpi .slt i 0#32 = 1#1 ↔ i.toInt < 0 := by
    show BitVec.ofBool (i.slt 0#32) = 1#1 ↔ _
    rw [WordArith.ofBool_eq_one_iff, BitVec.slt_iff_toInt_lt, h0]
  unfold Spec.wrap
  by_cases h : i.toInt < 0
  · rw [hiff.mpr h, select_one, if_pos h]
    show (i + BitVec.ofNat 32 N).toInt = _
    rw [WordArith.toInt_add_of_bounds i (BitVec.ofNat 32 N) (by rw [hn]; omega) (by rw [hn]; omega), hn]
  · rw [eq_zero_of_ne_one (fun hc => h (hiff.mp hc)), select_zero, if_neg h]

/-- The clamped reading a gather makes of a wrapped word is the specification's clamped row. -/
theorem clamp_wrapWord (N : Nat) (hN0 : 0 < N) (i : BitVec 32) (w : BitVec 32)
    (hw : w.toInt = Spec.wrap N i) :
    min w.toInt.toNat (N - 1) = (Spec.clampRow N hN0 i).val := by
  show _ = (max 0 (min (Spec.wrap N i) ((N : Int) - 1))).toNat
  rw [hw]; omega

/-! ## A row gather with two batch coordinates -/

section Gather
variable {α : Type}

/-- The dimension numbers: the result's last axis is the row's, the table's first axis is indexed and collapsed,
    the start words sit on a trailing unit axis. -/
abbrev rowsDims (N K B E : Nat)
    (wf : GatherDims.WF ⟨2, ![N, K]⟩ ⟨3, ![B, E, 1]⟩ ⟨3, ![B, E, K]⟩ [2] [0] [] [0] [] 2 ![1, K]) :
    GatherDims ⟨2, ![N, K]⟩ ⟨3, ![B, E, 1]⟩ ⟨3, ![B, E, K]⟩ where
  offsetDims := [2]
  collapsedSliceDims := [0]
  operandBatchingDims := []
  startIndicesBatchingDims := []
  startIndexMap := [0]
  indexVectorDim := 2
  sliceSizes := ![1, K]
  wf := wf

/-- On the table's row axis the operand index is the start word, read signed and clamped. -/
theorem rowsDims_operandIdx_0 {N K B E w : Nat} (hN : 0 < N)
    (wf : GatherDims.WF ⟨2, ![N, K]⟩ ⟨3, ![B, E, 1]⟩ ⟨3, ![B, E, K]⟩ [2] [0] [] [0] [] 2 ![1, K])
    (idx : IVec ⟨3, ![B, E, 1]⟩ w) (b : Fin B) (e : Fin E) (q : Fin K) :
    ((rowsDims N K B E wf).operandIdx (ix3 b e q) idx 0).val
      = min (idx (ix3 b e (0 : Fin 1))).toInt.toNat (N - 1) := by
  show (rowsDims N K B E wf).start (ix3 b e q) idx 0 + (rowsDims N K B E wf).batchCoord (ix3 b e q) 0
    + (rowsDims N K B E wf).offCoord (ix3 b e q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N K B E wf).startIndexMap from List.mem_singleton.mpr rfl)]
  have hsi : (rowsDims N K B E wf).siIdx (ix3 b e q) ⟨List.idxOf (0 : Fin 2) (rowsDims N K B E wf).startIndexMap,
      List.idxOf_lt_length_iff.2 (List.mem_singleton.mpr rfl)⟩ = ix3 b e (0 : Fin 1) := by
    funext c; refine Fin.ext ?_
    match c with
    | ⟨0, _⟩ => rfl
    | ⟨1, _⟩ => rfl
    | ⟨2, _⟩ => rfl
  rw [hsi]
  rfl

/-- On the table's entry axis the operand index is the result's last coordinate. -/
theorem rowsDims_operandIdx_1 {N K B E w : Nat}
    (wf : GatherDims.WF ⟨2, ![N, K]⟩ ⟨3, ![B, E, 1]⟩ ⟨3, ![B, E, K]⟩ [2] [0] [] [0] [] 2 ![1, K])
    (idx : IVec ⟨3, ![B, E, 1]⟩ w) (b : Fin B) (e : Fin E) (q : Fin K) :
    ((rowsDims N K B E wf).operandIdx (ix3 b e q) idx 1).val = q.val := by
  have hne : ¬ (1 : Fin 2) ∈ ([0] : List (Fin 2)) := fun h => absurd (List.mem_singleton.mp h) (by decide)
  show (rowsDims N K B E wf).start (ix3 b e q) idx 1 + (rowsDims N K B E wf).batchCoord (ix3 b e q) 1
    + (rowsDims N K B E wf).offCoord (ix3 b e q) 1 = _
  rw [GatherDims.batchCoord_eq_zero _ _ _ List.not_mem_nil]
  have hs : (rowsDims N K B E wf).start (ix3 b e q) idx 1 = 0 := by
    unfold GatherDims.start
    rw [dif_neg (show ¬ (1 : Fin 2) ∈ (rowsDims N K B E wf).startIndexMap from hne)]
  rw [hs]
  have hk : (1 : Fin 2) ∈ (rowsDims N K B E wf).sKept :=
    (GatherDims.mem_sKept _ _).mpr ⟨hne, List.not_mem_nil⟩
  have ho : (rowsDims N K B E wf).offCoord (ix3 b e q) 1 = q.val := by
    unfold GatherDims.offCoord
    rw [dif_pos hk]
    rfl
  rw [ho]
  omega

/-- THE GATHER READ AT (b, e, q). -/
theorem gather_rows_apply {N K B E w : Nat} (hN : 0 < N)
    (wf : GatherDims.WF ⟨2, ![N, K]⟩ ⟨3, ![B, E, 1]⟩ ⟨3, ![B, E, K]⟩ [2] [0] [] [0] [] 2 ![1, K])
    (x : (⟨2, ![N, K]⟩ : Shape).Idx → α) (idx : IVec ⟨3, ![B, E, 1]⟩ w) (b : Fin B) (e : Fin E) (q : Fin K) :
    Host.gather (rowsDims N K B E wf) x idx (ix3 b e q)
      = x (ix2 ⟨min (idx (ix3 b e (0 : Fin 1))).toInt.toNat (N - 1), by omega⟩ q) := by
  unfold Host.gather
  congr 1
  funext a
  refine Fin.ext ?_
  match a with
  | ⟨0, _⟩ => exact rowsDims_operandIdx_0 hN wf idx b e q
  | ⟨1, _⟩ => exact rowsDims_operandIdx_1 wf idx b e q

end Gather

/-! ## An accumulating row scatter -/

section Scatter

/-- The dimension numbers: the updates' last axis is the row's window, the table's first axis is the scattered one,
    the words sit on a trailing unit axis. -/
abbrev rowsScatterDims (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N K E w : Nat} (wf : ScatterDims.WF ⟨2, ![N, K]⟩ ⟨2, ![E, 1]⟩ ⟨2, ![E, K]⟩ [1] [0] [0] 1)
  (idx : IVec ⟨2, ![E, 1]⟩ w) (r : Fin E) (c : Fin K)

/-- The table's axes that take a window coordinate: every axis but the row axis. -/
theorem rows_mem_sKept (a : Fin 2) : a ∈ (rowsScatterDims N K E wf).sKept ↔ a ≠ 0 := by
  simp [ScatterDims.sKept, Shape.kept, List.mem_filter, List.mem_finRange]

/-- The window starts, on the row axis, at update row r's word read signed … -/
theorem rows_start_0 : (rowsScatterDims N K E wf).start (ix2 r c) idx 0 = (idx (ix2 r (0 : Fin 1))).toInt := by
  unfold ScatterDims.start
  rw [dif_pos (show (0 : Fin 2) ∈ (rowsScatterDims N K E wf).scatterDimsToOperandDims from List.mem_singleton.mpr rfl)]
  have hsi : (rowsScatterDims N K E wf).siIdx (ix2 r c) ⟨List.idxOf (0 : Fin 2) (rowsScatterDims N K E wf).scatterDimsToOperandDims,
      List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- … and at zero on the entry axis. -/
theorem rows_start_1 : (rowsScatterDims N K E wf).start (ix2 r c) idx 1 = 0 := by
  have hne : ¬ (1 : Fin 2) ∈ ([0] : List (Fin 2)) := fun h => absurd (List.mem_singleton.mp h) (by decide)
  unfold ScatterDims.start
  rw [dif_neg (show ¬ (1 : Fin 2) ∈ (rowsScatterDims N K E wf).scatterDimsToOperandDims from hne)]

/-- The window coordinate is zero on the row axis … -/
theorem rows_window_0 : (rowsScatterDims N K E wf).window (ix2 r c) 0 = 0 := by
  unfold ScatterDims.window
  rw [dif_neg (show ¬ (0 : Fin 2) ∈ (rowsScatterDims N K E wf).sKept from
    fun h => ((rows_mem_sKept wf 0).mp h) rfl)]

/-- … and the update's entry coordinate on the entry axis. -/
theorem rows_window_1 : (rowsScatterDims N K E wf).window (ix2 r c) 1 = c.val := by
  unfold ScatterDims.window
  rw [dif_pos (show (1 : Fin 2) ∈ (rowsScatterDims N K E wf).sKept from (rows_mem_sKept wf 1).mpr (by decide))]
  rfl

/-- Update (r, c) lands on table entry (i, q) exactly when row r's word reads i and c is q. -/
theorem rows_resultIdx_iff (i : Fin N) (q : Fin K) :
    (rowsScatterDims N K E wf).resultIdx? (ix2 r c) idx = some (ix2 i q)
      ↔ (idx (ix2 r (0 : Fin 1))).toInt = (i.val : Int) ∧ c = q := by
  have s0 := rows_start_0 wf idx r c
  have s1 := rows_start_1 wf idx r c
  have w0 := rows_window_0 wf r c
  have w1 := rows_window_1 wf r c
  have hi := i.isLt
  have hq := q.isLt
  have hc := c.isLt
  unfold ScatterDims.resultIdx?
  split
  · rename_i h
    have h0 : 0 ≤ (rowsScatterDims N K E wf).start (ix2 r c) idx 0 + ((rowsScatterDims N K E wf).window (ix2 r c) 0 : Int)
        ∧ (rowsScatterDims N K E wf).start (ix2 r c) idx 0 + ((rowsScatterDims N K E wf).window (ix2 r c) 0 : Int) < (N : Int) := h 0
    rw [Option.some.injEq]
    constructor
    · intro he
      have e0 : ((rowsScatterDims N K E wf).start (ix2 r c) idx 0
          + ((rowsScatterDims N K E wf).window (ix2 r c) 0 : Int)).toNat = i.val := congrArg (fun f => (f 0).val) he
      have e1 : ((rowsScatterDims N K E wf).start (ix2 r c) idx 1
          + ((rowsScatterDims N K E wf).window (ix2 r c) 1 : Int)).toNat = q.val := congrArg (fun f => (f 1).val) he
      rw [s0, w0] at e0 h0
      rw [s1, w1] at e1
      exact ⟨by omega, Fin.ext (by omega)⟩
    · rintro ⟨hw, rfl⟩
      funext a; refine Fin.ext ?_
      match a with
      | ⟨0, _⟩ =>
        show ((rowsScatterDims N K E wf).start (ix2 r c) idx 0
          + ((rowsScatterDims N K E wf).window (ix2 r c) 0 : Int)).toNat = i.val
        rw [s0, w0, hw]; omega
      | ⟨1, _⟩ =>
        show ((rowsScatterDims N K E wf).start (ix2 r c) idx 1
          + ((rowsScatterDims N K E wf).window (ix2 r c) 1 : Int)).toNat = c.val
        rw [s1, w1]; omega
  · rename_i h
    constructor
    · intro he; cases he
    · rintro ⟨hw, rfl⟩
      exfalso; apply h
      intro a
      match a with
      | ⟨0, _⟩ =>
        show 0 ≤ (rowsScatterDims N K E wf).start (ix2 r c) idx 0 + ((rowsScatterDims N K E wf).window (ix2 r c) 0 : Int)
          ∧ (rowsScatterDims N K E wf).start (ix2 r c) idx 0 + ((rowsScatterDims N K E wf).window (ix2 r c) 0 : Int) < (N : Int)
        rw [s0, w0, hw]; omega
      | ⟨1, _⟩ =>
        show 0 ≤ (rowsScatterDims N K E wf).start (ix2 r c) idx 1 + ((rowsScatterDims N K E wf).window (ix2 r c) 1 : Int)
          ∧ (rowsScatterDims N K E wf).start (ix2 r c) idx 1 + ((rowsScatterDims N K E wf).window (ix2 r c) 1 : Int) < (K : Int)
        rw [s1, w1]; omega

/-- THE SCATTER READ AT (i, q), over the extended reals. -/
theorem scatterAdd_rows_apply (x : (⟨2, ![N, K]⟩ : Shape).Idx → EReal) (upd : (⟨2, ![E, K]⟩ : Shape).Idx → EReal)
    (i : Fin N) (q : Fin K) :
    Ideal.hostScatterAdd (rowsScatterDims N K E wf) x idx upd (ix2 i q)
      = x (ix2 i q) + ∑ r ∈ Finset.univ.filter (fun r : Fin E => (idx (ix2 r (0 : Fin 1))).toInt = (i.val : Int)),
          upd (ix2 r q) := by
  unfold Ideal.hostScatterAdd
  show x (ix2 i q) + _ = x (ix2 i q) + _
  congr 1
  rw [Finset.sum_filter, Finset.sum_filter, sum_idx2]
  refine Finset.sum_congr rfl fun r _ => ?_
  -- of row r's K entries only entry q can land on (i, q), and it does exactly when the row's word reads i
  have key : ∀ b : Fin K,
      (if (rowsScatterDims N K E wf).resultIdx? (ix2 r b) idx = some (ix2 i q) then upd (ix2 r b) else 0)
        = if b = q then (if (idx (ix2 r (0 : Fin 1))).toInt = (i.val : Int) then upd (ix2 r q) else 0) else 0 := by
    intro b
    by_cases hb : b = q
    · rw [if_pos hb]
      by_cases h : (idx (ix2 r (0 : Fin 1))).toInt = (i.val : Int)
      · rw [if_pos ((rows_resultIdx_iff wf idx r b i q).mpr ⟨h, hb⟩), if_pos h, hb]
      · rw [if_neg (fun hh => h ((rows_resultIdx_iff wf idx r b i q).mp hh).1), if_neg h]
    · rw [if_neg (fun hh => hb ((rows_resultIdx_iff wf idx r b i q).mp hh).2), if_neg hb]
  rw [Finset.sum_congr rfl fun b _ => key b, Finset.sum_ite_eq' Finset.univ q, if_pos (Finset.mem_univ q)]

end Scatter

/-! ## Arrays of rank 3 and 4 read by coordinates -/

/-- A rank-3 array as a family of matrices, and back. -/
def ofVec3 {a b c : Nat} (x : (⟨3, ![a, b, c]⟩ : Shape).Idx → EReal) : Fin a → Spec.M b c := fun i p q => x (ix3 i p q)
def toVec3 {a b c : Nat} (x : Fin a → Spec.M b c) : (⟨3, ![a, b, c]⟩ : Shape).Idx → EReal := fun j => x (j 0) (j 1) (j 2)
/-- A rank-4 array as a doubly indexed family of matrices. -/
def ofVec4 {a b c d : Nat} (x : (⟨4, ![a, b, c, d]⟩ : Shape).Idx → EReal) : Fin a → Fin b → Spec.M c d :=
  fun i k p q => x (ix4 i k p q)
/-- A rank-2 array of words as a family of index vectors. -/
def ofWords2 {a b : Nat} (x : IVec ⟨2, ![a, b]⟩ 32) : Fin a → Fin b → BitVec 32 := fun k e => x (ix2 k e)

/-! ## One layer's weight out of a stack -/

/-- Layer i of a stack of L matrices, the unit axis dropped. -/
theorem sliceCast3 {L K K' : Nat} (x : (⟨3, ![L, K, K']⟩ : Shape).Idx → EReal) (i : Fin L) (off : Fin 3 → Nat)
    (h0 : off 0 = i.val) (h1 : off 1 = 0) (h2 : off 2 = 0)
    (hs : (⟨3, ![L, K, K']⟩ : Shape).Slices off ⟨3, ![1, K, K']⟩)
    (hc : (⟨3, ![1, K, K']⟩ : Shape).ShapeCasts ⟨2, ![K, K']⟩) :
    shapeCast ⟨2, ![K, K']⟩ (extractStridedSlice ⟨3, ![1, K, K']⟩ off x hs) hc = Spec.toVec2 (ofVec3 x i) := by
  funext j
  obtain ⟨p, q, rfl⟩ : ∃ p q, j = ix2 p q := ⟨j 0, j 1, eq_ix2 j⟩
  rw [shapeCast_apply _ hc (ix2 p q) (ix3 (0 : Fin 1) p q) (by
    rw [Shape.rowMajor_val_three, Shape.rowMajor_val_two]
    show (0 * K + p.val) * K' + q.val = p.val * K' + q.val
    rw [Nat.zero_mul, Nat.zero_add])]
  rw [extractStridedSlice_apply off x hs (ix3 (0 : Fin 1) p q) (ix3 i p q) (by
    intro a
    match a with
    | ⟨0, _⟩ => show i.val = off 0 + 0; omega
    | ⟨1, _⟩ => show p.val = off 1 + p.val; omega
    | ⟨2, _⟩ => show q.val = off 2 + q.val; omega)]
  rfl

/-- Layer i of a stack of L families of B matrices, the unit axis dropped. -/
theorem sliceCast4 {L B K K' : Nat} (x : (⟨4, ![L, B, K, K']⟩ : Shape).Idx → EReal) (i : Fin L) (off : Fin 4 → Nat)
    (h0 : off 0 = i.val) (h1 : off 1 = 0) (h2 : off 2 = 0) (h3 : off 3 = 0)
    (hs : (⟨4, ![L, B, K, K']⟩ : Shape).Slices off ⟨4, ![1, B, K, K']⟩)
    (hc : (⟨4, ![1, B, K, K']⟩ : Shape).ShapeCasts ⟨3, ![B, K, K']⟩) :
    shapeCast ⟨3, ![B, K, K']⟩ (extractStridedSlice ⟨4, ![1, B, K, K']⟩ off x hs) hc = toVec3 (ofVec4 x i) := by
  funext j
  obtain ⟨k, p, q, rfl⟩ : ∃ k p q, j = ix3 k p q := ⟨j 0, j 1, j 2, eq_ix3 j⟩
  rw [shapeCast_apply _ hc (ix3 k p q) (ix4 (0 : Fin 1) k p q) (by
    rw [Shape.rowMajor_val_four, Shape.rowMajor_val_three]
    show ((0 * B + k.val) * K + p.val) * K' + q.val = (k.val * K + p.val) * K' + q.val
    rw [Nat.zero_mul, Nat.zero_add])]
  rw [extractStridedSlice_apply off x hs (ix4 (0 : Fin 1) k p q) (ix4 i k p q) (by
    intro a
    match a with
    | ⟨0, _⟩ => show i.val = off 0 + 0; omega
    | ⟨1, _⟩ => show k.val = off 1 + k.val; omega
    | ⟨2, _⟩ => show p.val = off 2 + p.val; omega
    | ⟨3, _⟩ => show q.val = off 3 + q.val; omega)]
  rfl

/-- Row s of layer i of a stack of L packs of T rows, as a vector … -/
theorem sliceRow1 {L T K : Nat} (x : (⟨3, ![L, T, K]⟩ : Shape).Idx → EReal) (i : Fin L) (s : Fin T) (off : Fin 3 → Nat)
    (h0 : off 0 = i.val) (h1 : off 1 = s.val) (h2 : off 2 = 0)
    (hs : (⟨3, ![L, T, K]⟩ : Shape).Slices off ⟨3, ![1, 1, K]⟩)
    (hc1 : (⟨3, ![1, 1, K]⟩ : Shape).ShapeCasts ⟨1, ![K]⟩) (q : Fin K) :
    shapeCast ⟨1, ![K]⟩ (extractStridedSlice ⟨3, ![1, 1, K]⟩ off x hs) hc1 (ix1 q) = ofVec3 x i s q := by
  rw [shapeCast_apply _ hc1 (ix1 q) (ix3 (0 : Fin 1) (0 : Fin 1) q) (by
    rw [Shape.rowMajor_val_three, Shape.rowMajor_val_one]
    show (0 * 1 + 0) * K + q.val = q.val
    simp only [Nat.zero_mul, Nat.zero_add, Nat.add_zero, Nat.mul_one])]
  rw [extractStridedSlice_apply off x hs (ix3 (0 : Fin 1) (0 : Fin 1) q) (ix3 i s q) (by
    intro a
    match a with
    | ⟨0, _⟩ => show i.val = off 0 + 0; omega
    | ⟨1, _⟩ => show s.val = off 1 + 0; omega
    | ⟨2, _⟩ => show q.val = off 2 + q.val; omega)]
  rfl

/-- … and as a matrix of one row. -/
theorem sliceRow2 {L T K : Nat} (x : (⟨3, ![L, T, K]⟩ : Shape).Idx → EReal) (i : Fin L) (s : Fin T) (off : Fin 3 → Nat)
    (h0 : off 0 = i.val) (h1 : off 1 = s.val) (h2 : off 2 = 0)
    (hs : (⟨3, ![L, T, K]⟩ : Shape).Slices off ⟨3, ![1, 1, K]⟩)
    (hc1 : (⟨3, ![1, 1, K]⟩ : Shape).ShapeCasts ⟨1, ![K]⟩) (hc2 : (⟨1, ![K]⟩ : Shape).ShapeCasts ⟨2, ![1, K]⟩) :
    shapeCast ⟨2, ![1, K]⟩ (shapeCast ⟨1, ![K]⟩ (extractStridedSlice ⟨3, ![1, 1, K]⟩ off x hs) hc1) hc2
      = Spec.toVec2 (fun (_ : Fin 1) q => ofVec3 x i s q) := by
  funext j
  obtain ⟨u, q, rfl⟩ : ∃ u q, j = ix2 u q := ⟨j 0, j 1, eq_ix2 j⟩
  have hu : u.val = 0 := by have := u.isLt; omega
  rw [shapeCast_apply _ hc2 (ix2 u q) (ix1 q) (by
    rw [Shape.rowMajor_val_one, Shape.rowMajor_val_two]
    show q.val = u.val * K + q.val
    rw [hu, Nat.zero_mul, Nat.zero_add])]
  rw [sliceRow1 x i s off h0 h1 h2 hs hc1 q]
  rfl

/-! ## The wrapped index column -/

/-- The wrapped words of a B × E array, placed on a trailing unit axis, read signed at (b, e, 0). -/
theorem wrapCol3_toInt {N B E : Nat} (hN : N < 2 ^ 31)
    (hb0 : (⟨0, ![]⟩ : Shape).BroadcastsInDim ⟨2, ![B, E]⟩ ![])
    (hb1 : (⟨2, ![B, E]⟩ : Shape).BroadcastsInDim ⟨3, ![B, E, 1]⟩ ![0, 1])
    (v : IVec ⟨2, ![B, E]⟩ 32) (b : Fin B) (e : Fin E) :
    (broadcastInDim ⟨3, ![B, E, 1]⟩ ![0, 1] hb1
        (select (cmpi .slt v (broadcastInDim ⟨2, ![B, E]⟩ ![] hb0 (constantI ⟨0, ![]⟩ 32 0#32)))
          (addi v (broadcastInDim ⟨2, ![B, E]⟩ ![] hb0 (constantI ⟨0, ![]⟩ 32 (BitVec.ofNat 32 N)))) v)
        (ix3 b e (0 : Fin 1))).toInt = Spec.wrap N (v (ix2 b e)) := by
  rw [broadcastInDim_apply _ hb1 _ (ix3 b e (0 : Fin 1)) (ix2 b e) (by
    intro a
    match a with
    | ⟨0, _⟩ => show b.val = if B = 1 then 0 else b.val; split <;> omega
    | ⟨1, _⟩ => show e.val = if E = 1 then 0 else e.val; split <;> omega)]
  show (Scalar.select
      (IntOp.cmpi .slt (v (ix2 b e)) (broadcastInDim ⟨2, ![B, E]⟩ ![] hb0 (constantI ⟨0, ![]⟩ 32 0#32) (ix2 b e)))
      (IntOp.addi (v (ix2 b e)) (broadcastInDim ⟨2, ![B, E]⟩ ![] hb0 (constantI ⟨0, ![]⟩ 32 (BitVec.ofNat 32 N)) (ix2 b e)))
      (v (ix2 b e))).toInt = _
  rw [broadcastInDim_apply _ hb0 (constantI ⟨0, ![]⟩ 32 0#32) (ix2 b e) ix0 (fun a => a.elim0),
    broadcastInDim_apply _ hb0 (constantI ⟨0, ![]⟩ 32 (BitVec.ofNat 32 N)) (ix2 b e) ix0 (fun a => a.elim0)]
  exact wrapWord_toInt N hN (v (ix2 b e))

/-- The wrapped words of a vector of R words, placed on a trailing unit axis, read signed at (r, 0). -/
theorem wrapCol2_toInt {N R : Nat} (hN : N < 2 ^ 31)
    (hb0 : (⟨0, ![]⟩ : Shape).BroadcastsInDim ⟨1, ![R]⟩ ![])
    (hb1 : (⟨1, ![R]⟩ : Shape).BroadcastsInDim ⟨2, ![R, 1]⟩ ![0])
    (v : IVec ⟨1, ![R]⟩ 32) (r : Fin R) :
    (broadcastInDim ⟨2, ![R, 1]⟩ ![0] hb1
        (select (cmpi .slt v (broadcastInDim ⟨1, ![R]⟩ ![] hb0 (constantI ⟨0, ![]⟩ 32 0#32)))
          (addi v (broadcastInDim ⟨1, ![R]⟩ ![] hb0 (constantI ⟨0, ![]⟩ 32 (BitVec.ofNat 32 N)))) v)
        (ix2 r (0 : Fin 1))).toInt = Spec.wrap N (v (ix1 r)) := by
  rw [broadcastInDim_apply _ hb1 _ (ix2 r (0 : Fin 1)) (ix1 r) (by
    intro a
    match a with
    | ⟨0, _⟩ => show r.val = if R = 1 then 0 else r.val; split <;> omega)]
  show (Scalar.select
      (IntOp.cmpi .slt (v (ix1 r)) (broadcastInDim ⟨1, ![R]⟩ ![] hb0 (constantI ⟨0, ![]⟩ 32 0#32) (ix1 r)))
      (IntOp.addi (v (ix1 r)) (broadcastInDim ⟨1, ![R]⟩ ![] hb0 (constantI ⟨0, ![]⟩ 32 (BitVec.ofNat 32 N)) (ix1 r)))
      (v (ix1 r))).toInt = _
  rw [broadcastInDim_apply _ hb0 (constantI ⟨0, ![]⟩ 32 0#32) (ix1 r) ix0 (fun a => a.elim0),
    broadcastInDim_apply _ hb0 (constantI ⟨0, ![]⟩ 32 (BitVec.ofNat 32 N)) (ix1 r) ix0 (fun a => a.elim0)]
  exact wrapWord_toInt N hN (v (ix1 r))

/-! ## The wrapped gather is the specification's row gather, one index vector per edge set -/

theorem wrapGather {N K B E : Nat} (hN0 : 0 < N) (hN : N < 2 ^ 31)
    (wf : GatherDims.WF ⟨2, ![N, K]⟩ ⟨3, ![B, E, 1]⟩ ⟨3, ![B, E, K]⟩ [2] [0] [] [0] [] 2 ![1, K])
    (d : GatherDims ⟨2, ![N, K]⟩ ⟨3, ![B, E, 1]⟩ ⟨3, ![B, E, K]⟩) (hd : d = rowsDims N K B E wf)
    (hb0 : (⟨0, ![]⟩ : Shape).BroadcastsInDim ⟨2, ![B, E]⟩ ![])
    (hb1 : (⟨2, ![B, E]⟩ : Shape).BroadcastsInDim ⟨3, ![B, E, 1]⟩ ![0, 1])
    (x : (⟨2, ![N, K]⟩ : Shape).Idx → EReal) (v : IVec ⟨2, ![B, E]⟩ 32) :
    Host.gather d x (broadcastInDim ⟨3, ![B, E, 1]⟩ ![0, 1] hb1
        (select (cmpi .slt v (broadcastInDim ⟨2, ![B, E]⟩ ![] hb0 (constantI ⟨0, ![]⟩ 32 0#32)))
          (addi v (broadcastInDim ⟨2, ![B, E]⟩ ![] hb0 (constantI ⟨0, ![]⟩ 32 (BitVec.ofNat 32 N)))) v))
      = toVec3 (fun k => Spec.gatherRows hN0 (Spec.ofVec2 x) (ofWords2 v k)) := by
  subst hd
  funext j
  obtain ⟨b, e, q, rfl⟩ : ∃ b e q, j = ix3 b e q := ⟨j 0, j 1, j 2, eq_ix3 j⟩
  rw [gather_rows_apply hN0 wf]
  show x (ix2 _ q) = x (ix2 (Spec.clampRow N hN0 (v (ix2 b e))) q)
  refine congrArg (fun r : Fin N => x (ix2 r q)) (Fin.ext ?_)
  exact clamp_wrapWord N hN0 (v (ix2 b e)) _ (wrapCol3_toInt hN hb0 hb1 v b e)

/-! ## The wrapped scatter of flattened update rows is the specification's row scatter -/

theorem wrapScatter {N K B E R : Nat} (hN : N < 2 ^ 31)
    (wf : ScatterDims.WF ⟨2, ![N, K]⟩ ⟨2, ![R, 1]⟩ ⟨2, ![R, K]⟩ [1] [0] [0] 1)
    (d : ScatterDims ⟨2, ![N, K]⟩ ⟨2, ![R, 1]⟩ ⟨2, ![R, K]⟩) (hd : d = rowsScatterDims N K R wf)
    (row : Fin R → Fin B × Fin E) (hrow : ∀ r : Fin R, (row r).1.val * E + (row r).2.val = r.val)
    (hc1 : (⟨2, ![B, E]⟩ : Shape).ShapeCasts ⟨1, ![R]⟩)
    (hc2 : (⟨3, ![B, E, K]⟩ : Shape).ShapeCasts ⟨2, ![R, K]⟩)
    (hb0 : (⟨0, ![]⟩ : Shape).BroadcastsInDim ⟨1, ![R]⟩ ![])
    (hb1 : (⟨1, ![R]⟩ : Shape).BroadcastsInDim ⟨2, ![R, 1]⟩ ![0])
    (hlt : FTy.bits .bf16 < FTy.bits .f32)
    (t : (⟨2, ![N, K]⟩ : Shape).Idx → EReal) (u : IVec ⟨2, ![B, E]⟩ 32) (y : (⟨3, ![B, E, K]⟩ : Shape).Idx → EReal) :
    Host.scatterAdd (F := Ideal) (φ := .f32) d t
        (broadcastInDim ⟨2, ![R, 1]⟩ ![0] hb1
          (select (cmpi .slt (shapeCast ⟨1, ![R]⟩ u hc1) (broadcastInDim ⟨1, ![R]⟩ ![] hb0 (constantI ⟨0, ![]⟩ 32 0#32)))
            (addi (shapeCast ⟨1, ![R]⟩ u hc1) (broadcastInDim ⟨1, ![R]⟩ ![] hb0 (constantI ⟨0, ![]⟩ 32 (BitVec.ofNat 32 N))))
            (shapeCast ⟨1, ![R]⟩ u hc1)))
        (extf .f32 (shapeCast ⟨2, ![R, K]⟩ y hc2 : FVec Ideal ⟨2, ![R, K]⟩ .bf16) hlt)
      = Spec.toVec2 (Spec.scatterAddRows (Spec.ofVec2 t) (fun r => ofWords2 u (row r).1 (row r).2)
          (fun r q => ofVec3 y (row r).1 (row r).2 q)) := by
  subst hd
  funext j
  obtain ⟨i, q, rfl⟩ : ∃ i q, j = ix2 i q := ⟨j 0, j 1, eq_ix2 j⟩
  show Ideal.hostScatterAdd (rowsScatterDims N K R wf) t _ _ (ix2 i q) = _
  rw [scatterAdd_rows_apply]
  show _ = t (ix2 i q) + ∑ r ∈ Finset.univ.filter
      (fun r : Fin R => Spec.wrap N (u (ix2 (row r).1 (row r).2)) = (i.val : Int)), y (ix3 (row r).1 (row r).2 q)
  congr 1
  have hu : ∀ r : Fin R, shapeCast ⟨1, ![R]⟩ u hc1 (ix1 r) = u (ix2 (row r).1 (row r).2) := fun r =>
    shapeCast_apply u hc1 (ix1 r) (ix2 (row r).1 (row r).2) (by
      rw [Shape.rowMajor_val_two, Shape.rowMajor_val_one]
      show (row r).1.val * E + (row r).2.val = r.val
      exact hrow r)
  refine Finset.sum_congr (Finset.filter_congr fun r _ => ?_) fun r _ => ?_
  · rw [wrapCol2_toInt hN hb0 hb1, hu r]
  · show shapeCast ⟨2, ![R, K]⟩ y hc2 (ix2 r q) = _
    exact shapeCast_apply y hc2 (ix2 r q) (ix3 (row r).1 (row r).2 q) (by
      rw [Shape.rowMajor_val_three, Shape.rowMajor_val_two]
      show ((row r).1.val * E + (row r).2.val) * K + q.val = r.val * K + q.val
      rw [hrow r])

/-! ## Two weights stacked along a new leading axis -/

theorem stackPair {K K' : Nat} (a b : (⟨2, ![K, K']⟩ : Shape).Idx → EReal)
    (hb : (⟨2, ![K, K']⟩ : Shape).BroadcastsInDim ⟨3, ![1, K, K']⟩ ![1, 2])
    (hcat : Shape.Concatenates [(⟨3, ![1, K, K']⟩ : Shape), ⟨3, ![1, K, K']⟩] ⟨3, ![2, K, K']⟩ 0) :
    concatenate ⟨3, ![2, K, K']⟩ 0
        [⟨(⟨3, ![1, K, K']⟩ : Shape), broadcastInDim ⟨3, ![1, K, K']⟩ ![1, 2] hb a⟩,
         ⟨(⟨3, ![1, K, K']⟩ : Shape), broadcastInDim ⟨3, ![1, K, K']⟩ ![1, 2] hb b⟩] hcat
      = toVec3 (fun k : Fin 2 => if k = 0 then Spec.ofVec2 a else Spec.ofVec2 b) := by
  have hbc : ∀ (c : (⟨2, ![K, K']⟩ : Shape).Idx → EReal) (p : Fin K) (q : Fin K'),
      broadcastInDim ⟨3, ![1, K, K']⟩ ![1, 2] hb c (ix3 (0 : Fin 1) p q) = c (ix2 p q) := fun c p q =>
    broadcastInDim_apply _ hb c (ix3 (0 : Fin 1) p q) (ix2 p q) (by
      intro a
      match a with
      | ⟨0, _⟩ => show p.val = if K = 1 then 0 else p.val; split <;> omega
      | ⟨1, _⟩ => show q.val = if K' = 1 then 0 else q.val; split <;> omega)
  funext j
  obtain ⟨k, p, q, rfl⟩ : ∃ k p q, j = ix3 k p q := ⟨j 0, j 1, j 2, eq_ix3 j⟩
  match k with
  | ⟨0, hk⟩ =>
    rw [concatenate_pair_apply_left (t := ⟨3, ![2, K, K']⟩) (s₁ := ⟨3, ![1, K, K']⟩) (s₂ := ⟨3, ![1, K, K']⟩)
      (0 : Fin 3) _ _ hcat (ix3 (⟨0, hk⟩ : Fin 2) p q) rfl (ix3 (0 : Fin 1) p q) (by
      intro c
      match c with
      | ⟨0, _⟩ => rfl
      | ⟨1, _⟩ => rfl
      | ⟨2, _⟩ => rfl)]
    rw [hbc]
    show a (ix2 p q) = (if (⟨0, hk⟩ : Fin 2) = 0 then Spec.ofVec2 a else Spec.ofVec2 b) p q
    rw [if_pos (show ((⟨0, hk⟩ : Fin 2) = 0) from Fin.ext rfl)]
    rfl
  | ⟨1, hk⟩ =>
    rw [concatenate_pair_apply_right (t := ⟨3, ![2, K, K']⟩) (s₁ := ⟨3, ![1, K, K']⟩) (s₂ := ⟨3, ![1, K, K']⟩)
      (0 : Fin 3) _ _ hcat (ix3 (⟨1, hk⟩ : Fin 2) p q) rfl rfl (ix3 (0 : Fin 1) p q) (by
      intro c hc
      match c with
      | ⟨0, _⟩ => exact absurd (Fin.ext rfl) hc
      | ⟨1, _⟩ => rfl
      | ⟨2, _⟩ => rfl) (by rfl)]
    rw [hbc]
    show b (ix2 p q) = (if (⟨1, hk⟩ : Fin 2) = 0 then Spec.ofVec2 a else Spec.ofVec2 b) p q
    rw [if_neg (show ¬ ((⟨1, hk⟩ : Fin 2) = 0) from fun h => absurd (congrArg Fin.val h) Nat.one_ne_zero)]
    rfl

/-- The same, of layer i of two stacks of L matrices. -/
theorem stackPairSlices {L K K' : Nat} (x y : (⟨3, ![L, K, K']⟩ : Shape).Idx → EReal) (i : Fin L) (off : Fin 3 → Nat)
    (h0 : off 0 = i.val) (h1 : off 1 = 0) (h2 : off 2 = 0)
    (hs : (⟨3, ![L, K, K']⟩ : Shape).Slices off ⟨3, ![1, K, K']⟩)
    (hc : (⟨3, ![1, K, K']⟩ : Shape).ShapeCasts ⟨2, ![K, K']⟩)
    (hb : (⟨2, ![K, K']⟩ : Shape).BroadcastsInDim ⟨3, ![1, K, K']⟩ ![1, 2])
    (hcat : Shape.Concatenates [(⟨3, ![1, K, K']⟩ : Shape), ⟨3, ![1, K, K']⟩] ⟨3, ![2, K, K']⟩ 0) :
    concatenate ⟨3, ![2, K, K']⟩ 0
        [⟨(⟨3, ![1, K, K']⟩ : Shape), broadcastInDim ⟨3, ![1, K, K']⟩ ![1, 2] hb
            (shapeCast ⟨2, ![K, K']⟩ (extractStridedSlice ⟨3, ![1, K, K']⟩ off x hs) hc)⟩,
         ⟨(⟨3, ![1, K, K']⟩ : Shape), broadcastInDim ⟨3, ![1, K, K']⟩ ![1, 2] hb
            (shapeCast ⟨2, ![K, K']⟩ (extractStridedSlice ⟨3, ![1, K, K']⟩ off y hs) hc)⟩] hcat
      = toVec3 (fun k : Fin 2 => if k = 0 then ofVec3 x i else ofVec3 y i) := by
  rw [sliceCast3 x i off h0 h1 h2 hs hc, sliceCast3 y i off h0 h1 h2 hs hc]
  exact stackPair _ _ hb hcat

end Cert.KHostGg

end
-- ==== Proof.KHostGg0.lean ====
/-
  Fusion layer 0: what the host stretches before its four kernel regions leave in the buffers those regions (and the
  next stretch) read, at the extended reals and from ANY buffer contents W, each as a term of the specification over
  what W holds at the buffers the stretch reads.

  * before the plain matmul: the centre weight, layer 0 of its stack;
  * before the first batched matmul: for each of the twelve predecessor / successor edge sets, the rows of the lane
    features at the set's wrapped and clamped source indices; the twelve weights of layer 0;
  * before the second batched matmul: the twelve sets' products, flattened to 600000 rows (row r is set r / 50000,
    edge r % 50000), added onto the centre term at the wrapped destination indices; the left and right weights of
    layer 0 stacked; the lane features' rows at the left / right source indices;
  * before the node stage: the two sets' products, flattened to 10000 rows, added likewise; the scale and shift rows
    of the two normalisations and the node weight of layer 0.
-/
import proofs.«413166_j32323923870246_3_alg».proof.Proof.Gen.KernelIdeal.Launch
import proofs.«413166_j32323923870246_3_alg».proof.Proof.KHostGgLib

noncomputable section

namespace Cert.KHostGg

open Idealize.ShloMosaic Idealize.ShloMosaic.ValueIdx
open Cert.KernelIdeal Cert.KernelIdeal.Gen

variable (W : Valuation τ sig (Elt Ideal))

/-! ## Before the plain matmul -/

set_option maxHeartbeats 1000000 in
/-- The centre weight. -/
theorem after_hostOps2_main_v84 :
    StableHlo.after (hostOps2 (F := Ideal)) W (Proc.devRef .tc main_v84)
      = Spec.toVec2 (ofVec3 (W (Proc.devRef .tc main_arg14) : (⟨S4x128x128, .f32⟩ : BufTy).Contents (Elt Ideal)) 0) := by
  unfold hostOps2
  after_results
  exact sliceCast3 (x := W (Proc.devRef .tc main_arg14)) (i := 0) (off := ![0, 0, 0]) rfl rfl rfl
    slices_S4x128x128_S1x128x128_0_0_0 shapeCasts_S1x128x128_S128x128

/-! ## Before the first batched matmul -/

set_option maxHeartbeats 1000000 in
/-- The gathered source rows, one table of 50000 rows per edge set. -/
theorem after_hostOps3_main_v92 :
    StableHlo.after (hostOps3 (F := Ideal)) W (Proc.devRef .tc main_v92)
      = toVec3 (fun k => Spec.gatherRows (by omega : 0 < 50000)
          (Spec.ofVec2 (W (Proc.devRef .tc main_v82_1) : (⟨S50000x128, .bf16⟩ : BufTy).Contents (Elt Ideal)))
          (ofWords2 (W (Proc.devRef .tc main_arg26) : (⟨S12x50000, .i32⟩ : BufTy).Contents (Elt Ideal)) k)) := by
  unfold hostOps3
  after_results
  exact wrapGather (N := 50000) (K := 128) (B := 12) (E := 50000) (by omega) (by decide)
    gather_S50000x128_S12x50000x1_S12x50000x128_2_0_n_n_0_2_1128_wf
    gather_S50000x128_S12x50000x1_S12x50000x128_2_0_n_n_0_2_1128 rfl
    bcast_S_S12x50000 bcast_S12x50000_S12x50000x1_0_1
    (W (Proc.devRef .tc main_v82_1)) (W (Proc.devRef .tc main_arg26))

set_option maxHeartbeats 1000000 in
/-- The twelve weights. -/
theorem after_hostOps3_main_v94 :
    StableHlo.after (hostOps3 (F := Ideal)) W (Proc.devRef .tc main_v94)
      = toVec3 (ofVec4 (W (Proc.devRef .tc main_arg15) : (⟨S4x12x128x128, .f32⟩ : BufTy).Contents (Elt Ideal)) 0) := by
  unfold hostOps3
  after_results
  exact sliceCast4 (x := W (Proc.devRef .tc main_arg15)) (i := 0) (off := ![0, 0, 0, 0]) rfl rfl rfl rfl
    slices_S4x12x128x128_S1x12x128x128_0_0_0_0 shapeCasts_S1x12x128x128_S12x128x128

/-! ## Before the second batched matmul -/

set_option maxHeartbeats 1000000 in
/-- The twelve sets' products added onto the centre term, in one pass over 600000 rows. -/
theorem after_hostOps4_main_v105 :
    StableHlo.after (hostOps4 (F := Ideal)) W (Proc.devRef .tc main_v105)
      = Spec.toVec2 (Spec.scatterAddRows
          (Spec.ofVec2 (W (Proc.devRef .tc main_v85) : (⟨S50000x128, .f32⟩ : BufTy).Contents (Elt Ideal)))
          (fun r => ofWords2 (W (Proc.devRef .tc main_arg25) : (⟨S12x50000, .i32⟩ : BufTy).Contents (Elt Ideal))
            (Spec.psRow r).1 (Spec.psRow r).2)
          (fun r q => ofVec3 (W (Proc.devRef .tc main_v95) : (⟨S12x50000x128, .bf16⟩ : BufTy).Contents (Elt Ideal))
            (Spec.psRow r).1 (Spec.psRow r).2 q)) := by
  unfold hostOps4
  after_results
  exact wrapScatter (N := 50000) (K := 128) (B := 12) (E := 50000) (R := 600000) (by decide)
    scatter_S50000x128_S600000x1_S600000x128_1_0_0_1_wf scatter_S50000x128_S600000x1_S600000x128_1_0_0_1 rfl
    Spec.psRow (fun r => by show r.val / 50000 * 50000 + r.val % 50000 = r.val; omega)
    shapeCasts_S12x50000_S600000 shapeCasts_S12x50000x128_S600000x128 bcast_S_S600000 bcast_S600000_S600000x1_0
    bitsLt_bf16_f32
    (W (Proc.devRef .tc main_v85)) (W (Proc.devRef .tc main_arg25)) (W (Proc.devRef .tc main_v95))

set_option maxHeartbeats 1000000 in
/-- The left and the right weight, stacked: index 0 is left, index 1 is right. -/
theorem after_hostOps4_main_v112 :
    StableHlo.after (hostOps4 (F := Ideal)) W (Proc.devRef .tc main_v112)
      = toVec3 (fun k : Fin 2 => if k = 0
          then ofVec3 (W (Proc.devRef .tc main_arg16) : (⟨S4x128x128, .f32⟩ : BufTy).Contents (Elt Ideal)) 0
          else ofVec3 (W (Proc.devRef .tc main_arg17) : (⟨S4x128x128, .f32⟩ : BufTy).Contents (Elt Ideal)) 0) := by
  unfold hostOps4
  after_results
  exact stackPairSlices (x := W (Proc.devRef .tc main_arg16)) (y := W (Proc.devRef .tc main_arg17))
    (i := 0) (off := ![0, 0, 0]) rfl rfl rfl
    slices_S4x128x128_S1x128x128_0_0_0 shapeCasts_S1x128x128_S128x128 bcast_S128x128_S1x128x128_1_2
    concatenates_S1x128x128_S1x128x128_S2x128x128_d0

set_option maxHeartbeats 1000000 in
/-- The gathered source rows of the left and the right edge set. -/
theorem after_hostOps4_main_v119 :
    StableHlo.after (hostOps4 (F := Ideal)) W (Proc.devRef .tc main_v119)
      = toVec3 (fun k => Spec.gatherRows (by omega : 0 < 50000)
          (Spec.ofVec2 (W (Proc.devRef .tc main_v82_1) : (⟨S50000x128, .bf16⟩ : BufTy).Contents (Elt Ideal)))
          (ofWords2 (W (Proc.devRef .tc main_arg28) : (⟨S2x5000, .i32⟩ : BufTy).Contents (Elt Ideal)) k)) := by
  unfold hostOps4
  after_results
  exact wrapGather (N := 50000) (K := 128) (B := 2) (E := 5000) (by omega) (by decide)
    gather_S50000x128_S2x5000x1_S2x5000x128_2_0_n_n_0_2_1128_wf
    gather_S50000x128_S2x5000x1_S2x5000x128_2_0_n_n_0_2_1128 rfl
    bcast_S_S2x5000 bcast_S2x5000_S2x5000x1_0_1
    (W (Proc.devRef .tc main_v82_1)) (W (Proc.devRef .tc main_arg28))

/-! ## Before the node stage -/

set_option maxHeartbeats 1000000 in
/-- The left and right sets' products added on, in one pass over 10000 rows. -/
theorem after_hostOps5_main_v130 :
    StableHlo.after (hostOps5 (F := Ideal)) W (Proc.devRef .tc main_v130)
      = Spec.toVec2 (Spec.scatterAddRows
          (Spec.ofVec2 (W (Proc.devRef .tc main_v105) : (⟨S50000x128, .f32⟩ : BufTy).Contents (Elt Ideal)))
          (fun r => ofWords2 (W (Proc.devRef .tc main_arg27) : (⟨S2x5000, .i32⟩ : BufTy).Contents (Elt Ideal))
            (Spec.lrRow r).1 (Spec.lrRow r).2)
          (fun r q => ofVec3 (W (Proc.devRef .tc main_v120) : (⟨S2x5000x128, .bf16⟩ : BufTy).Contents (Elt Ideal))
            (Spec.lrRow r).1 (Spec.lrRow r).2 q)) := by
  unfold hostOps5
  after_results
  exact wrapScatter (N := 50000) (K := 128) (B := 2) (E := 5000) (R := 10000) (by decide)
    scatter_S50000x128_S10000x1_S10000x128_1_0_0_1_wf scatter_S50000x128_S10000x1_S10000x128_1_0_0_1 rfl
    Spec.lrRow (fun r => by show r.val / 5000 * 5000 + r.val % 5000 = r.val; omega)
    shapeCasts_S2x5000_S10000 shapeCasts_S2x5000x128_S10000x128 bcast_S_S10000 bcast_S10000_S10000x1_0
    bitsLt_bf16_f32
    (W (Proc.devRef .tc main_v105)) (W (Proc.devRef .tc main_arg27)) (W (Proc.devRef .tc main_v120))

set_option maxHeartbeats 1000000 in
/-- The first normalisation's scale row … -/
theorem after_hostOps5_main_v141 :
    StableHlo.after (hostOps5 (F := Ideal)) W (Proc.devRef .tc main_v141)
      = Spec.toVec2 (fun (_ : Fin 1) q =>
          ofVec3 (W (Proc.devRef .tc main_arg18) : (⟨S4x2x128, .f32⟩ : BufTy).Contents (Elt Ideal)) 0 0 q) := by
  unfold hostOps5
  after_results
  exact sliceRow2 (x := W (Proc.devRef .tc main_arg18)) (i := 0) (s := 0) (off := ![0, 0, 0]) rfl rfl rfl
    slices_S4x2x128_S1x1x128_0_0_0 shapeCasts_S1x1x128_S128 shapeCasts_S128_S1x128

set_option maxHeartbeats 1000000 in
/-- … and shift row. -/
theorem after_hostOps5_main_v142 :
    StableHlo.after (hostOps5 (F := Ideal)) W (Proc.devRef .tc main_v142)
      = Spec.toVec2 (fun (_ : Fin 1) q =>
          ofVec3 (W (Proc.devRef .tc main_arg18) : (⟨S4x2x128, .f32⟩ : BufTy).Contents (Elt Ideal)) 0 1 q) := by
  unfold hostOps5
  after_results
  exact sliceRow2 (x := W (Proc.devRef .tc main_arg18)) (i := 0) (s := 1) (off := ![0, 1, 0]) rfl rfl rfl
    slices_S4x2x128_S1x1x128_0_1_0 shapeCasts_S1x1x128_S128 shapeCasts_S128_S1x128

set_option maxHeartbeats 1000000 in
/-- The node weight. -/
theorem after_hostOps5_main_v136 :
    StableHlo.after (hostOps5 (F := Ideal)) W (Proc.devRef .tc main_v136)
      = Spec.toVec2 (ofVec3 (W (Proc.devRef .tc main_arg19) : (⟨S4x128x128, .f32⟩ : BufTy).Contents (Elt Ideal)) 0) := by
  unfold hostOps5
  after_results
  exact sliceCast3 (x := W (Proc.devRef .tc main_arg19)) (i := 0) (off := ![0, 0, 0]) rfl rfl rfl
    slices_S4x128x128_S1x128x128_0_0_0 shapeCasts_S1x128x128_S128x128

set_option maxHeartbeats 1000000 in
/-- The second normalisation's scale row … -/
theorem after_hostOps5_main_v143 :
    StableHlo.after (hostOps5 (F := Ideal)) W (Proc.devRef .tc main_v143)
      = Spec.toVec2 (fun (_ : Fin 1) q =>
          ofVec3 (W (Proc.devRef .tc main_arg20) : (⟨S4x2x128, .f32⟩ : BufTy).Contents (Elt Ideal)) 0 0 q) := by
  unfold hostOps5
  after_results
  exact sliceRow2 (x := W (Proc.devRef .tc main_arg20)) (i := 0) (s := 0) (off := ![0, 0, 0]) rfl rfl rfl
    slices_S4x2x128_S1x1x128_0_0_0 shapeCasts_S1x1x128_S128 shapeCasts_S128_S1x128

set_option maxHeartbeats 1000000 in
/-- … and shift row. -/
theorem after_hostOps5_main_v144 :
    StableHlo.after (hostOps5 (F := Ideal)) W (Proc.devRef .tc main_v144)
      = Spec.toVec2 (fun (_ : Fin 1) q =>
          ofVec3 (W (Proc.devRef .tc main_arg20) : (⟨S4x2x128, .f32⟩ : BufTy).Contents (Elt Ideal)) 0 1 q) := by
  unfold hostOps5
  after_results
  exact sliceRow2 (x := W (Proc.devRef .tc main_arg20)) (i := 0) (s := 1) (off := ![0, 1, 0]) rfl rfl rfl
    slices_S4x2x128_S1x1x128_0_1_0 shapeCasts_S1x1x128_S128 shapeCasts_S128_S1x128

end Cert.KHostGg

end
-- ==== Proof.LibMatmul.lean ====
/-
  A block of rows against the rows of a weight, at the ideal values, read entry by entry.

  The matrix kernels of this family load a block `x` of `m` rows and a weight `w` of `n` rows, both of row length
  `k`; they narrow the weight's format (the identity on extended reals), transpose it, and feed both to the matrix
  unit with a zero accumulator. Entry (p, q) of the result is the sum over the shared axis of `x p j * w q j`: the
  transpose turns the weight's row index into the product's column index. The batched kernels carry a leading unit
  axis on every block, dropped before the product and put back after it (with one more narrowing, again the
  identity), so their entry (0, p, q) is the same sum over the blocks read at (0, ·, ·).
-/
import Idealize.ShloMosaic.Lib.StackMember
import Idealize.ShloMosaic.Lib.KernelVsHost
import Idealize.ShloMosaic.Lib.Pipeline.Value
import Idealize.ShloMosaic.Lib.ValueIdx

noncomputable section

namespace Cert.LibMatmul

open Idealize.ShloMosaic Idealize.ShloMosaic.ValueIdx

/-- The transpose of an `n × k` matrix read at (c, q) is the matrix at (q, c). -/
theorem transpose_apply2 {k n : Nat} {α : Type} (w : (⟨2, ![n, k]⟩ : Shape).Idx → α)
    (h : (⟨2, ![n, k]⟩ : Shape).Transposes [1, 0] ⟨2, ![k, n]⟩) (c : Fin k) (q : Fin n) :
    transpose ⟨2, ![k, n]⟩ [1, 0] w h (ix2 c q) = w (ix2 q c) :=
  transpose_apply [1, 0] w h (ix2 c q) (ix2 q c) fun b => by
    match b with
    | ⟨0, _⟩ => rfl
    | ⟨1, _⟩ => rfl

/-- The matrix unit's plain product into a zero accumulator, read at (a, b): the sum over the shared axis of the
    products of the entries. `hD` says the dimension numbers are the plain ones (rows × shared, shared × columns). -/
theorem matmul_plain_zero_apply {m k n : Nat} {φ₁ φ₂ : FTy}
    (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    matmul D prec A B (constant (F := Ideal) ⟨2, ![m, n]⟩ .f32 0x00000000#32) (ix2 a b)
      = ∑ c : Fin k, A (ix2 a c) * B (ix2 c b) := by
  subst hD
  rw [matmul_zero_eq_dotGeneral]
  exact StackMember.dotGeneral_plain_apply prec A B a b

/-- THE PLAIN KERNEL'S PAYLOAD at (p, q): the block against the transposed, narrowed weight into zero is
    `∑ j, x p j * w q j`. The two same-shape casts are the identity. -/
theorem block_apply {m k n : Nat}
    (D : DotDims ⟨2, ![m, k]⟩ ⟨2, ![k, n]⟩ ⟨2, ![m, n]⟩) (hD : D = DotDims.plain m k n)
    (x : FVec Ideal ⟨2, ![m, k]⟩ .bf16) (w : FVec Ideal ⟨2, ![n, k]⟩ .f32)
    (hx : (⟨2, ![m, k]⟩ : Shape).ShapeCasts ⟨2, ![m, k]⟩) (hw : (⟨2, ![n, k]⟩ : Shape).ShapeCasts ⟨2, ![n, k]⟩)
    (hb : FTy.bf16.bits < FTy.f32.bits) (ht : (⟨2, ![n, k]⟩ : Shape).Transposes [1, 0] ⟨2, ![k, n]⟩)
    (p : Fin m) (q : Fin n) :
    matmul D none (shapeCast ⟨2, ![m, k]⟩ x hx)
        (transpose ⟨2, ![k, n]⟩ [1, 0] (truncf .bf16 (shapeCast ⟨2, ![n, k]⟩ w hw) hb) ht)
        (constant (F := Ideal) ⟨2, ![m, n]⟩ .f32 0x00000000#32) (ix2 p q)
      = ∑ j : Fin k, x (ix2 p j) * w (ix2 q j) := by
  rw [matmul_plain_zero_apply D hD, shapeCast_self, shapeCast_self]
  refine Finset.sum_congr rfl fun j _ => ?_
  rw [transpose_apply2]
  rfl

/-- A [1, a, b] block viewed [a, b] reads (0, p, q) at (p, q). -/
theorem dropUnit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  shapeCast_apply v h (ix2 p q) (ix3 0 p q) (by
    rw [Shape.rowMajor_val_three, Shape.rowMajor_val_two]
    show ((0 : Nat) * a + p.val) * b + q.val = p.val * b + q.val
    rw [Nat.zero_mul, Nat.zero_add])

/-- An [a, b] result stored as a [1, a, b] block reads (p, q) at (0, p, q). -/
theorem addUnit_apply {a b : Nat} {α : Type} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) :=
  shapeCast_apply v h (ix3 0 p q) (ix2 p q) (by
    rw [Shape.rowMajor_val_three, Shape.rowMajor_val_two]
    show p.val * b + q.val = ((0 : Nat) * a + p.val) * b + q.val
    rw [Nat.zero_mul, Nat.zero_add])

/-- THE BATCHED KERNEL'S PAYLOAD at (0, p, q): the unit axis dropped from both blocks, the plain payload, narrowed,
    the unit axis put back: `∑ j, x 0 p j * w 0 q j`. -/
theorem block3_apply {m k n : Nat}
    (D : DotDims ⟨2, ![m, k]⟩ ⟨2, ![k, n]⟩ ⟨2, ![m, n]⟩) (hD : D = DotDims.plain m k n)
    (x : FVec Ideal ⟨3, ![1, m, k]⟩ .bf16) (w : FVec Ideal ⟨3, ![1, n, k]⟩ .f32)
    (hx : (⟨3, ![1, m, k]⟩ : Shape).ShapeCasts ⟨2, ![m, k]⟩) (hw : (⟨3, ![1, n, k]⟩ : Shape).ShapeCasts ⟨2, ![n, k]⟩)
    (hb : FTy.bf16.bits < FTy.f32.bits) (ht : (⟨2, ![n, k]⟩ : Shape).Transposes [1, 0] ⟨2, ![k, n]⟩)
    (ho : (⟨2, ![m, n]⟩ : Shape).ShapeCasts ⟨3, ![1, m, n]⟩)
    (p : Fin m) (q : Fin n) :
    shapeCast ⟨3, ![1, m, n]⟩ (truncf .bf16 (matmul D none (shapeCast ⟨2, ![m, k]⟩ x hx)
        (transpose ⟨2, ![k, n]⟩ [1, 0] (truncf .bf16 (shapeCast ⟨2, ![n, k]⟩ w hw) hb) ht)
        (constant (F := Ideal) ⟨2, ![m, n]⟩ .f32 0x00000000#32)) hb) ho (ix3 0 p q)
      = ∑ j : Fin k, x (ix3 0 p j) * w (ix3 0 q j) := by
  rw [addUnit_apply]
  show matmul (F := Ideal) D none _ _ _ (ix2 p q) = _
  rw [matmul_plain_zero_apply D hD]
  refine Finset.sum_congr rfl fun j _ => ?_
  rw [transpose_apply2, dropUnit_apply]
  show x (ix3 0 p j) * shapeCast ⟨2, ![n, k]⟩ w hw (ix2 q j) = _
  rw [dropUnit_apply]

end Cert.LibMatmul

end
-- ==== Proof.KReg2.lean ====
/-
  Region 2 (the plain matrix kernel on a [50000,128] input in 10 row tiles of 5000): what its result array holds when
  the region ends, as a function of the two arrays it read, at the ideal values.

  Grid point `t` loads the 5000 rows from row `5000 t` of the input and the whole [128,128] weight, multiplies the tile
  by the transposed weight into a zero accumulator, and writes the product to the same rows of the result. Entry
  (r, q) of the result is therefore `∑ j, x r j * w q j`, written by the point `r / 5000`; the 10 tiles cover every row.
-/
import proofs.«413166_j32323923870246_3_alg».proof.Proof.KIFrameR2
import proofs.«413166_j32323923870246_3_alg».proof.Proof.Spec
import proofs.«413166_j32323923870246_3_alg».proof.Proof.LibMatmul
import Idealize.ShloMosaic.Lib.Pipeline.Value

noncomputable section

namespace Cert.KReg2

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The input array and the weight as the region finds them, at their literal types. -/
abbrev xArr (c : Dev nD) : S50000x128.Idx → EReal := V c (Pipeline.arrRef spec2 0)
abbrev wArr (c : Dev nD) : S128x128.Idx → EReal := V c (Pipeline.arrRef spec2 1)

/-- What the result array ends holding: the input against the weight's rows. -/
abbrev G (c : Dev nD) : S50000x128.Idx → EReal :=
  Spec.toVec2 (Spec.lin (Spec.ofVec2 (xArr V c)) (Spec.ofVec2 (wArr V c)))

/-- The body's payload at (p, q): the tile's row `p` against the weight's row `q`. -/
theorem pay_apply (x0 : FVec Ideal S5000x128 .bf16) (x1 : FVec Ideal S128x128 .f32) (p : Fin 5000) (q : Fin 128) :
    k2_pay1 (F := Ideal) x0 x1 (ix2 p q) = ∑ j : Fin 128, x0 (ix2 p j) * x1 (ix2 q j) := by
  unfold k2_pay1
  exact LibMatmul.block_apply dot_S5000x128_S128x128_S5000x128_1_0_0_1_n_n rfl x0 x1 _ _ _ _ p q

/-- The printed index maps over the 10 points: the input tile and the result tile are tile `t` of their arrays, the
    weight's one block is the whole weight. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input tile at point `t`, read at (p, j): row `5000 t + p` of the input array. -/
theorem xblk_apply (c : Dev nD) (t : Fin cfg2.N) (p : Fin 5000) (j : Fin 128) (r : Fin 50000)
    (hr : r.val = t.val * 5000 + p.val) :
    (iblk2 V c 0 t : Vec Ideal S5000x128 .bf16) (ix2 p j) = xArr V c (ix2 r j) := by
  obtain ⟨e0, e1, -, -, -, -⟩ := idx_facts t
  show xArr V c (((cfg2.win 0).blk t).view.emb (ix2 p j)) = xArr V c (ix2 r j)
  refine congrArg (xArr V c) (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

/-- The weight's block at any point, read at (q, j): the weight array there. -/
theorem wblk_apply (c : Dev nD) (t : Fin cfg2.N) (q : Fin 128) (j : Fin 128) :
    (iblk2 V c 1 t : Vec Ideal S128x128 .f32) (ix2 q j) = wArr V c (ix2 q j) := by
  obtain ⟨-, -, e2, e3, -, -⟩ := idx_facts t
  show wArr V c (((cfg2.win 1).blk t).view.emb (ix2 q j)) = wArr V c (ix2 q j)
  refine congrArg (wArr V c) (funext fun a => Fin.ext ?_)
  match a with
  | ⟨0, _⟩ => show win2_1.index t (0 : Fin 2) * 128 + 1 * q.val = q.val; omega
  | ⟨1, _⟩ => show win2_1.index t (1 : Fin 2) * 128 + 1 * j.val = j.val; omega

/-- WHAT POINT `t` WRITES BACK is tile `t` of `G`. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_2
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  refine (pay_apply (iblk2 V c 0 t) (iblk2 V c 1 t) p q).trans ?_
  have hemb : ((cfg2.win 2).blk t).view.emb (ix2 p q) = (ix2 ⟨t.val * 5000 + p.val, hr⟩ q : S50000x128.Idx) := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show _ = G V c (((cfg2.win 2).blk t).view.emb (ix2 p q))
  rw [hemb]
  show _ = ∑ j : Fin 128, xArr V c (ix2 ⟨t.val * 5000 + p.val, hr⟩ j) * wArr V c (ix2 q j)
  refine Finset.sum_congr rfl fun j _ => ?_
  rw [xblk_apply V c t p j ⟨t.val * 5000 + p.val, hr⟩ rfl, wblk_apply V c t q j]

/-- An index of the result array is in point `t`'s tile iff each coordinate is in the tile's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v85).slice (win2_2.rect t)).set ↔ _
  rw [View.set_slice_whole, Rect.mem_set_unit]
  exact Iff.rfl

/-- Every index of the result array is in some point's tile: row `r` is in tile `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- THE RESULT ARRAY when the region ends: the input against the weight's rows, entry (r, q) = `∑ j, x r j * w q j`. -/
theorem arr2_out (c : Dev nD) : (dat2 (F := Ideal) V c).arrAt 2 cfg2.N =
    Spec.toVec2 (Spec.lin (Spec.ofVec2 (V c (Pipeline.arrRef spec2 0))) (Spec.ofVec2 (V c (Pipeline.arrRef spec2 1)))) :=
  (dat2 (F := Ideal) V c).arrAt_eq_of_cover 2 (G V c) (fun t _ => flushed_eq V c t) cover

end Cert.KReg2

end
-- ==== Proof.KReg3.lean ====
/-
  Region 3 (the batched matrix kernel on a [12,50000,128] input, grid 12 × 10: member by member, 10 row tiles of 5000):
  what its result array holds when the region ends, as a function of the two arrays it read, at the ideal values.

  Grid point `t` is member `t / 10`, tile `t % 10`: it loads the 5000 rows from row `5000 (t % 10)` of that member of the input and
  that member's whole [128,128] weight, multiplies the tile by the transposed weight into a zero accumulator, and writes
  the product to the same member and rows of the result. Entry (s, r, q) of the result is therefore
  `∑ j, x s r j * w s q j`, written by the point `10 s + r / 5000`; the 120 tiles cover every entry.
-/
import proofs.«413166_j32323923870246_3_alg».proof.Proof.KIFrameR3
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg3

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S12x50000x128.Idx → EReal := V c (Pipeline.arrRef spec3 0)
abbrev wArr (c : Dev nD) : S12x128x128.Idx → EReal := V c (Pipeline.arrRef spec3 1)

/-- What the result array ends holding: each member of the input against the rows of the same member of the weight. -/
abbrev G (c : Dev nD) : S12x50000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k3_pay1 (F := Ideal) x0 x1 (ix3 0 p q) = ∑ j : Fin 128, x0 (ix3 0 p j) * x1 (ix3 0 q j) := by
  unfold k3_pay1
  exact LibMatmul.block3_apply dot_S5000x128_S128x128_S5000x128_1_0_0_1_n_n rfl x0 x1 _ _ _ _ _ p q

/-- The printed index maps over the 120 points: the input tile and the result tile are tile `t % 10` of member
    `t / 10`, the weight's block is that member's whole weight. -/
theorem idx_facts : ∀ t : Fin cfg3.N, win3_0.index t (0 : Fin 3) = t.val / 10 ∧ win3_0.index t (1 : Fin 3) = t.val % 10
    ∧ win3_0.index t (2 : Fin 3) = 0
    ∧ win3_1.index t (0 : Fin 3) = t.val / 10 ∧ win3_1.index t (1 : Fin 3) = 0 ∧ win3_1.index t (2 : Fin 3) = 0
    ∧ win3_2.index t (0 : Fin 3) = t.val / 10 ∧ win3_2.index t (1 : Fin 3) = t.val % 10
    ∧ win3_2.index t (2 : Fin 3) = 0 :=
  (by decide +kernel : ∀ t : Fin grid3.N, _)

/-- The input tile at point `t`, read at (0, p, j): member `t / 10`, row `5000 (t % 10) + p` of the input array. -/
theorem xblk_apply (c : Dev nD) (t : Fin cfg3.N) (p : Fin 5000) (j : Fin 128) (s : Fin 12) (r : Fin 50000)
    (hs : s.val = t.val / 10) (hr : r.val = t.val % 10 * 5000 + p.val) :
    (iblk3 V c 0 t : Vec Ideal S1x5000x128 .bf16) (ix3 0 p j) = xArr V c (ix3 s r j) := by
  obtain ⟨e0, e1, e2, -, -, -, -, -, -⟩ := idx_facts t
  show xArr V c (((cfg3.win 0).blk t).view.emb (ix3 0 p j)) = xArr V c (ix3 s r j)
  refine congrArg (xArr V c) (funext fun a => Fin.ext ?_)
  match a with
  | ⟨0, _⟩ => show win3_0.index t (0 : Fin 3) * 1 + 1 * 0 = s.val; omega
  | ⟨1, _⟩ => show win3_0.index t (1 : Fin 3) * 5000 + 1 * p.val = r.val; omega
  | ⟨2, _⟩ => show win3_0.index t (2 : Fin 3) * 128 + 1 * j.val = j.val; omega

/-- The weight's block at point `t`, read at (0, q, j): member `t / 10` of the weight array there. -/
theorem wblk_apply (c : Dev nD) (t : Fin cfg3.N) (q : Fin 128) (j : Fin 128) (s : Fin 12) (hs : s.val = t.val / 10) :
    (iblk3 V c 1 t : Vec Ideal S1x128x128 .f32) (ix3 0 q j) = wArr V c (ix3 s q j) := by
  obtain ⟨-, -, -, e3, e4, e5, -, -, -⟩ := idx_facts t
  show wArr V c (((cfg3.win 1).blk t).view.emb (ix3 0 q j)) = wArr V c (ix3 s q j)
  refine congrArg (wArr V c) (funext fun a => Fin.ext ?_)
  match a with
  | ⟨0, _⟩ => show win3_1.index t (0 : Fin 3) * 1 + 1 * 0 = s.val; omega
  | ⟨1, _⟩ => show win3_1.index t (1 : Fin 3) * 128 + 1 * q.val = q.val; omega
  | ⟨2, _⟩ => show win3_1.index t (2 : Fin 3) * 128 + 1 * j.val = j.val; omega

/-- WHAT POINT `t` WRITES BACK is its tile of `G`. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero hz]
  simp only [View.ld_unit_zero (S := S1x5000x128) hz, View.ld_unit_zero (S := S1x128x128) hz]
  obtain ⟨-, -, -, -, -, -, e6, e7, e8⟩ := idx_facts t
  have ht : t.val < 120 := lt_of_lt_of_eq t.isLt N_3
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 10 < 12 := by omega
  have hr : t.val % 10 * 5000 + p.val < 50000 := by have := p.isLt; omega
  refine (pay_apply (iblk3 V c 0 t) (iblk3 V c 1 t) p q).trans ?_
  have hemb : ((cfg3.win 2).blk t).view.emb (ix3 0 p q)
      = (ix3 ⟨t.val / 10, hs⟩ ⟨t.val % 10 * 5000 + p.val, hr⟩ q : S12x50000x128.Idx) := by
    funext a; apply Fin.ext
    match a with
    | ⟨0, _⟩ => show win3_2.index t (0 : Fin 3) * 1 + 1 * 0 = t.val / 10; omega
    | ⟨1, _⟩ => show win3_2.index t (1 : Fin 3) * 5000 + 1 * p.val = t.val % 10 * 5000 + p.val; omega
    | ⟨2, _⟩ => show win3_2.index t (2 : Fin 3) * 128 + 1 * q.val = q.val; omega
  show _ = G V c (((cfg3.win 2).blk t).view.emb (ix3 0 p q))
  rw [hemb]
  show _ = ∑ j : Fin 128, xArr V c (ix3 ⟨t.val / 10, hs⟩ ⟨t.val % 10 * 5000 + p.val, hr⟩ j) * wArr V c (ix3 ⟨t.val / 10, hs⟩ q j)
  refine Finset.sum_congr rfl fun j _ => ?_
  rw [xblk_apply V c t p j ⟨t.val / 10, hs⟩ ⟨t.val % 10 * 5000 + p.val, hr⟩ rfl rfl, wblk_apply V c t q j ⟨t.val / 10, hs⟩ rfl]

/-- An index of the result array is in point `t`'s tile iff each coordinate is in the tile's range on its axis. -/
theorem mem_blk (t : Fin cfg3.N) (i : S12x50000x128.Idx) :
    i ∈ ((cfg3.win 2).blk t).view.set ↔ ∀ a : Fin 3, win3_2.index t a * S1x5000x128.size a ≤ (i a).val ∧ (i a).val < win3_2.index t a * S1x5000x128.size a + S1x5000x128.size a := by
  show i ∈ ((View.whole main_v95).slice (win3_2.rect t)).set ↔ _
  rw [View.set_slice_whole, Rect.mem_set_unit]
  exact Iff.rfl

/-- Every index of the result array is in some point's tile: member `s`, row `r` is in the tile of point `10 s + r / 5000`. -/
theorem cover (i : S12x50000x128.Idx) : ∃ t : Fin cfg3.N, (cfg3.win 2).flush t = true ∧ i ∈ ((cfg3.win 2).blk t).view.set := by
  have hi0 : (i 0).val < 12 := (i 0).isLt
  have hi1 : (i 1).val < 50000 := (i 1).isLt
  have hi2 : (i 2).val < 128 := (i 2).isLt
  have hN : cfg3.N = 120 := N_3
  obtain ⟨t, ht⟩ : ∃ t : Fin cfg3.N, t.val = (i 0).val * 10 + (i 1).val / 5000 :=
    ⟨⟨(i 0).val * 10 + (i 1).val / 5000, by rw [hN]; omega⟩, rfl⟩
  obtain ⟨-, -, -, -, -, -, e6, e7, e8⟩ := idx_facts t
  refine ⟨t, flush3_2 t, ?_⟩
  rw [mem_blk]
  intro a
  match a with
  | ⟨0, _⟩ =>
    show win3_2.index t (0 : Fin 3) * 1 ≤ (i 0).val ∧ (i 0).val < win3_2.index t (0 : Fin 3) * 1 + 1
    omega
  | ⟨1, _⟩ =>
    show win3_2.index t (1 : Fin 3) * 5000 ≤ (i 1).val ∧ (i 1).val < win3_2.index t (1 : Fin 3) * 5000 + 5000
    omega
  | ⟨2, _⟩ =>
    show win3_2.index t (2 : Fin 3) * 128 ≤ (i 2).val ∧ (i 2).val < win3_2.index t (2 : Fin 3) * 128 + 128
    omega

/-- THE RESULT ARRAY when the region ends: each member of the input against the rows of the same member of the weight,
    entry (s, r, q) = `∑ j, x s r j * w s q j`. -/
theorem arr3_out (c : Dev nD) : (dat3 (F := Ideal) V c).arrAt 2 cfg3.N =
    Stack.toVec3 (Stack.lin3 (Stack.ofVec3 (V c (Pipeline.arrRef spec3 0))) (Stack.ofVec3 (V c (Pipeline.arrRef spec3 1)))) :=
  (dat3 (F := Ideal) V c).arrAt_eq_of_cover 2 (G V c) (fun t _ => flushed_eq V c t) cover

end Cert.KReg3

end
-- ==== Proof.KReg4.lean ====
/-
  Region 4 (the batched matrix kernel on a [2,5000,128] input, grid 2 × 1: member by member, 1 row tiles of 5000):
  what its result array holds when the region ends, as a function of the two arrays it read, at the ideal values.

  Grid point `t` is member `t / 1`, tile `t % 1`: it loads the 5000 rows from row `5000 (t % 1)` of that member of the input and
  that member's whole [128,128] weight, multiplies the tile by the transposed weight into a zero accumulator, and writes
  the product to the same member and rows of the result. Entry (s, r, q) of the result is therefore
  `∑ j, x s r j * w s q j`, written by the point `1 s + r / 5000`; the 2 tiles cover every entry.
-/
import proofs.«413166_j32323923870246_3_alg».proof.Proof.KIFrameR4
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg4

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S2x5000x128.Idx → EReal := V c (Pipeline.arrRef spec4 0)
abbrev wArr (c : Dev nD) : S2x128x128.Idx → EReal := V c (Pipeline.arrRef spec4 1)

/-- What the result array ends holding: each member of the input against the rows of the same member of the weight. -/
abbrev G (c : Dev nD) : S2x5000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k4_pay1 (F := Ideal) x0 x1 (ix3 0 p q) = ∑ j : Fin 128, x0 (ix3 0 p j) * x1 (ix3 0 q j) := by
  unfold k4_pay1
  exact LibMatmul.block3_apply dot_S5000x128_S128x128_S5000x128_1_0_0_1_n_n rfl x0 x1 _ _ _ _ _ p q

/-- The printed index maps over the 2 points: the input tile and the result tile are tile `t % 1` of member
    `t / 1`, the weight's block is that member's whole weight. -/
theorem idx_facts : ∀ t : Fin cfg4.N, win4_0.index t (0 : Fin 3) = t.val / 1 ∧ win4_0.index t (1 : Fin 3) = t.val % 1
    ∧ win4_0.index t (2 : Fin 3) = 0
    ∧ win4_1.index t (0 : Fin 3) = t.val / 1 ∧ win4_1.index t (1 : Fin 3) = 0 ∧ win4_1.index t (2 : Fin 3) = 0
    ∧ win4_2.index t (0 : Fin 3) = t.val / 1 ∧ win4_2.index t (1 : Fin 3) = t.val % 1
    ∧ win4_2.index t (2 : Fin 3) = 0 :=
  (by decide +kernel : ∀ t : Fin grid4.N, _)

/-- The input tile at point `t`, read at (0, p, j): member `t / 1`, row `5000 (t % 1) + p` of the input array. -/
theorem xblk_apply (c : Dev nD) (t : Fin cfg4.N) (p : Fin 5000) (j : Fin 128) (s : Fin 2) (r : Fin 5000)
    (hs : s.val = t.val / 1) (hr : r.val = t.val % 1 * 5000 + p.val) :
    (iblk4 V c 0 t : Vec Ideal S1x5000x128 .bf16) (ix3 0 p j) = xArr V c (ix3 s r j) := by
  obtain ⟨e0, e1, e2, -, -, -, -, -, -⟩ := idx_facts t
  show xArr V c (((cfg4.win 0).blk t).view.emb (ix3 0 p j)) = xArr V c (ix3 s r j)
  refine congrArg (xArr V c) (funext fun a => Fin.ext ?_)
  match a with
  | ⟨0, _⟩ => show win4_0.index t (0 : Fin 3) * 1 + 1 * 0 = s.val; omega
  | ⟨1, _⟩ => show win4_0.index t (1 : Fin 3) * 5000 + 1 * p.val = r.val; omega
  | ⟨2, _⟩ => show win4_0.index t (2 : Fin 3) * 128 + 1 * j.val = j.val; omega

/-- The weight's block at point `t`, read at (0, q, j): member `t / 1` of the weight array there. -/
theorem wblk_apply (c : Dev nD) (t : Fin cfg4.N) (q : Fin 128) (j : Fin 128) (s : Fin 2) (hs : s.val = t.val / 1) :
    (iblk4 V c 1 t : Vec Ideal S1x128x128 .f32) (ix3 0 q j) = wArr V c (ix3 s q j) := by
  obtain ⟨-, -, -, e3, e4, e5, -, -, -⟩ := idx_facts t
  show wArr V c (((cfg4.win 1).blk t).view.emb (ix3 0 q j)) = wArr V c (ix3 s q j)
  refine congrArg (wArr V c) (funext fun a => Fin.ext ?_)
  match a with
  | ⟨0, _⟩ => show win4_1.index t (0 : Fin 3) * 1 + 1 * 0 = s.val; omega
  | ⟨1, _⟩ => show win4_1.index t (1 : Fin 3) * 128 + 1 * q.val = q.val; omega
  | ⟨2, _⟩ => show win4_1.index t (2 : Fin 3) * 128 + 1 * j.val = j.val; omega

/-- WHAT POINT `t` WRITES BACK is its tile of `G`. -/
theorem flushed_eq (c : Dev nD) (t : Fin cfg4.N) :
    (dat4 (F := Ideal) V c).flushed 2 t = ((cfg4.win 2).blk t).view.read (Elt Ideal) (G V c) := by
  show (cfg4.win 2).cut (grid4.coords t) ((dat4 (F := Ideal) V c).after 2 t) = _
  rw [after4_2]
  unfold out4_2
  rw [View.canon_unit_zero hz]
  simp only [View.ld_unit_zero (S := S1x5000x128) hz, View.ld_unit_zero (S := S1x128x128) hz]
  obtain ⟨-, -, -, -, -, -, e6, e7, e8⟩ := idx_facts t
  have ht : t.val < 2 := lt_of_lt_of_eq t.isLt N_4
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 1 < 2 := by omega
  have hr : t.val % 1 * 5000 + p.val < 5000 := by have := p.isLt; omega
  refine (pay_apply (iblk4 V c 0 t) (iblk4 V c 1 t) p q).trans ?_
  have hemb : ((cfg4.win 2).blk t).view.emb (ix3 0 p q)
      = (ix3 ⟨t.val / 1, hs⟩ ⟨t.val % 1 * 5000 + p.val, hr⟩ q : S2x5000x128.Idx) := by
    funext a; apply Fin.ext
    match a with
    | ⟨0, _⟩ => show win4_2.index t (0 : Fin 3) * 1 + 1 * 0 = t.val / 1; omega
    | ⟨1, _⟩ => show win4_2.index t (1 : Fin 3) * 5000 + 1 * p.val = t.val % 1 * 5000 + p.val; omega
    | ⟨2, _⟩ => show win4_2.index t (2 : Fin 3) * 128 + 1 * q.val = q.val; omega
  show _ = G V c (((cfg4.win 2).blk t).view.emb (ix3 0 p q))
  rw [hemb]
  show _ = ∑ j : Fin 128, xArr V c (ix3 ⟨t.val / 1, hs⟩ ⟨t.val % 1 * 5000 + p.val, hr⟩ j) * wArr V c (ix3 ⟨t.val / 1, hs⟩ q j)
  refine Finset.sum_congr rfl fun j _ => ?_
  rw [xblk_apply V c t p j ⟨t.val / 1, hs⟩ ⟨t.val % 1 * 5000 + p.val, hr⟩ rfl rfl, wblk_apply V c t q j ⟨t.val / 1, hs⟩ rfl]

/-- An index of the result array is in point `t`'s tile iff each coordinate is in the tile's range on its axis. -/
theorem mem_blk (t : Fin cfg4.N) (i : S2x5000x128.Idx) :
    i ∈ ((cfg4.win 2).blk t).view.set ↔ ∀ a : Fin 3, win4_2.index t a * S1x5000x128.size a ≤ (i a).val ∧ (i a).val < win4_2.index t a * S1x5000x128.size a + S1x5000x128.size a := by
  show i ∈ ((View.whole main_v120).slice (win4_2.rect t)).set ↔ _
  rw [View.set_slice_whole, Rect.mem_set_unit]
  exact Iff.rfl

/-- Every index of the result array is in some point's tile: member `s`, row `r` is in the tile of point `1 s + r / 5000`. -/
theorem cover (i : S2x5000x128.Idx) : ∃ t : Fin cfg4.N, (cfg4.win 2).flush t = true ∧ i ∈ ((cfg4.win 2).blk t).view.set := by
  have hi0 : (i 0).val < 2 := (i 0).isLt
  have hi1 : (i 1).val < 5000 := (i 1).isLt
  have hi2 : (i 2).val < 128 := (i 2).isLt
  have hN : cfg4.N = 2 := N_4
  obtain ⟨t, ht⟩ : ∃ t : Fin cfg4.N, t.val = (i 0).val * 1 + (i 1).val / 5000 :=
    ⟨⟨(i 0).val * 1 + (i 1).val / 5000, by rw [hN]; omega⟩, rfl⟩
  obtain ⟨-, -, -, -, -, -, e6, e7, e8⟩ := idx_facts t
  refine ⟨t, flush4_2 t, ?_⟩
  rw [mem_blk]
  intro a
  match a with
  | ⟨0, _⟩ =>
    show win4_2.index t (0 : Fin 3) * 1 ≤ (i 0).val ∧ (i 0).val < win4_2.index t (0 : Fin 3) * 1 + 1
    omega
  | ⟨1, _⟩ =>
    show win4_2.index t (1 : Fin 3) * 5000 ≤ (i 1).val ∧ (i 1).val < win4_2.index t (1 : Fin 3) * 5000 + 5000
    omega
  | ⟨2, _⟩ =>
    show win4_2.index t (2 : Fin 3) * 128 ≤ (i 2).val ∧ (i 2).val < win4_2.index t (2 : Fin 3) * 128 + 128
    omega

/-- THE RESULT ARRAY when the region ends: each member of the input against the rows of the same member of the weight,
    entry (s, r, q) = `∑ j, x s r j * w s q j`. -/
theorem arr4_out (c : Dev nD) : (dat4 (F := Ideal) V c).arrAt 2 cfg4.N =
    Stack.toVec3 (Stack.lin3 (Stack.ofVec3 (V c (Pipeline.arrRef spec4 0))) (Stack.ofVec3 (V c (Pipeline.arrRef spec4 1)))) :=
  (dat4 (F := Ideal) V c).arrAt_eq_of_cover 2 (G V c) (fun t _ => flushed_eq V c t) cover

end Cert.KReg4

end
-- ==== Proof.KGgLib.lean ====
/-
  The node stage of a fusion layer on one tile of 5000 rows, read entry by entry over the extended reals.

  The kernel body normalises each row of the tile (row sum over the 128 lanes divided by the literal 128, the deviation
  from that mean, the mean squared deviation plus a small constant, the inverse square root, a per-column scale and
  shift), takes the positive part, multiplies by the transposed weight on the matrix unit into a zero accumulator,
  normalises again, adds the residual tile and takes the positive part. Every one of these steps acts on a row at a
  time, so the value at row p and column q is the specification's node stage of the tile at (p, q): a lane sum is the
  sum over the 128 columns of the row, a column vector broadcast along the lanes reads its row's entry, a one-row
  vector broadcast down the rows reads its column's entry, the product into zero is the sum over the shared axis, and
  a change of float format is the identity.
-/
import proofs.«413166_j32323923870246_3_alg».proof.Proof.Spec
import proofs.«413166_j32323923870246_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.GgTail

open Idealize.ShloMosaic Idealize.ShloMosaic.ValueIdx
open Cert.KernelIdeal

/-! ## Column vectors: a vector as a column, and a column broadcast along the lanes -/

/-- A vector of length a cast to a column [a, 1] reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and a row mean -/

/-- The sum over the lanes of a [5000, 128] tile, at row p, is the sum of the row's 128 entries. -/
theorem rowSum_apply (v : FVec Ideal S5000x128 .f32) (h : S5000x128.Reduces [1] S5000) (hφ : FKind.Formats .f32)
    (hacc : (0x00000000#32 : BitVec 32) = 0x00000000#32) (p : Fin 5000) :
    multiReduction .add [1] S5000 v 0x00000000#32 h hφ hacc (ix1 p) = ∑ k : Fin 128, v (ix2 p k) := by
  refine (Ideal.multiReduction_add_single v 0x00000000#32 h hφ hacc (ix1 p)).trans ?_
  show ∑ k : Fin 128, v (h.lift (ix1 p) k) = _
  refine Finset.sum_congr rfl fun k _ => congrArg v ?_
  funext a
  apply Fin.ext
  match a with
  | ⟨0, _⟩ => rfl
  | ⟨1, _⟩ => rfl

/-- The column of row means of a tile: each row's lane sum divided by the literal 128. -/
def meanCol (w : FVec Ideal S5000x128 .f32) : FVec Ideal S5000x1 .f32 :=
  divf (shapeCast S5000x1 (multiReduction .add [1] S5000 w 0x00000000#32 Gen.reduces_S5000x128_S5000 (.inl rfl) rfl)
      Gen.shapeCasts_S5000_S5000x1)
    (broadcast S5000x1 (Scalar.ofBits .f32 0x43000000#32 : Ideal .f32))

theorem meanCol_apply (w : FVec Ideal S5000x128 .f32) (p : Fin 5000) (u : Fin 1) :
    meanCol w (ix2 p u) = Spec.mean (fun k => w (ix2 p k)) := by
  show Ideal.div (shapeCast S5000x1 (multiReduction .add [1] S5000 w 0x00000000#32 Gen.reduces_S5000x128_S5000 (.inl rfl) rfl)
      Gen.shapeCasts_S5000_S5000x1 (ix2 p u)) (Ideal.ofBits .f32 0x43000000#32)
    = Ideal.div (∑ k : Fin 128, w (ix2 p k)) Spec.c128
  refine congrArg (fun z => Ideal.div z (Ideal.ofBits .f32 0x43000000#32)) ?_
  refine (shapeCast_a_a1_apply _ Gen.shapeCasts_S5000_S5000x1 p u).trans ?_
  exact rowSum_apply w _ _ _ p

/-- A tile less its rows' means. -/
def dev (v : FVec Ideal S5000x128 .f32) : FVec Ideal S5000x128 .f32 :=
  subf v (broadcastTo S5000x128 (meanCol v) Gen.broadcasts_S5000x1_S5000x128)

theorem dev_apply (v : FVec Ideal S5000x128 .f32) (p : Fin 5000) (k : Fin 128) :
    dev v (ix2 p k) = v (ix2 p k) - Spec.mean (fun j => v (ix2 p j)) := by
  show v (ix2 p k) - broadcastTo S5000x128 (meanCol v) Gen.broadcasts_S5000x1_S5000x128 (ix2 p k) = _
  rw [broadcastTo_a1_ab_apply (meanCol v) Gen.broadcasts_S5000x1_S5000x128 p k, meanCol_apply]

/-! ## The row normalisation of a tile -/

/-- The row normalisation as the body spells it: the deviation times the inverse square root of the mean squared
    deviation plus the small constant, times the scale row, plus the shift row. -/
def gnVec (v : FVec Ideal S5000x128 .f32) (s h : FVec Ideal S1x128 .f32) : FVec Ideal S5000x128 .f32 :=
  addf (mulf (mulf (dev v)
        (broadcastTo S5000x128 (rsqrt (addf (meanCol (mulf (dev v) (dev v)))
          (broadcast S5000x1 (Scalar.ofBits .f32 0x3727C5AC#32 : Ideal .f32)))) Gen.broadcasts_S5000x1_S5000x128))
      (broadcastTo S5000x128 s Gen.broadcasts_S1x128_S5000x128))
    (broadcastTo S5000x128 h Gen.broadcasts_S1x128_S5000x128)

theorem gnVec_apply (v : FVec Ideal S5000x128 .f32) (s h : FVec Ideal S1x128 .f32) (p : Fin 5000) (q : Fin 128) :
    gnVec v s h (ix2 p q)
      = Spec.gn (Spec.ofVec2 v) (fun j => s (ix2 (0 : Fin 1) j)) (fun j => h (ix2 (0 : Fin 1) j)) p q := by
  show dev v (ix2 p q)
        * broadcastTo S5000x128 (rsqrt (addf (meanCol (mulf (dev v) (dev v)))
            (broadcast S5000x1 (Scalar.ofBits .f32 0x3727C5AC#32 : Ideal .f32)))) Gen.broadcasts_S5000x1_S5000x128 (ix2 p q)
        * broadcastTo S5000x128 s Gen.broadcasts_S1x128_S5000x128 (ix2 p q)
      + broadcastTo S5000x128 h Gen.broadcasts_S1x128_S5000x128 (ix2 p q) = _
  rw [broadcastTo_a1_ab_apply _ Gen.broadcasts_S5000x1_S5000x128 p q,
    broadcastTo_1b_ab_apply s Gen.broadcasts_S1x128_S5000x128 p q,
    broadcastTo_1b_ab_apply h Gen.broadcasts_S1x128_S5000x128 p q]
  show dev v (ix2 p q) * Ideal.rsqrt (meanCol (mulf (dev v) (dev v)) (ix2 p (0 : Fin 1)) + Spec.cEps)
      * s (ix2 (0 : Fin 1) q) + h (ix2 (0 : Fin 1) q) = _
  have e : (fun k : Fin 128 => mulf (dev v) (dev v) (ix2 p k))
      = fun k => (v (ix2 p k) - Spec.mean (fun j => v (ix2 p j))) * (v (ix2 p k) - Spec.mean (fun j => v (ix2 p j))) :=
    funext fun k => by
      show dev v (ix2 p k) * dev v (ix2 p k) = _
      rw [dev_apply]
  rw [meanCol_apply, dev_apply, e]
  rfl

/-! ## The product with the transposed weight -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix unit's product of a [5000, 128] tile with a [128, 128] matrix into a zero accumulator, at (p, q): the sum
    over the shared axis of the tile's row p against the matrix's column q. -/
theorem matmul_apply_ix (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The two halves of the body and their composition -/

/-- The first half: the normalised tile's positive part against the transposed weight. -/
def stage1 (x0 : Vec Ideal S5000x128 .f32) (x2 x3 : Vec Ideal S1x128 .f32) (x4 : Vec Ideal S128x128 .f32) :
    FVec Ideal S5000x128 .f32 :=
  matmul dot_S5000x128_S128x128_S5000x128_1_0_0_1_n_n none
    (truncf .bf16 (maximumf (gnVec (shapeCast S5000x128 x0 Gen.shapeCasts_S5000x128_S5000x128)
        (shapeCast S1x128 x2 Gen.shapeCasts_S1x128_S1x128) (shapeCast S1x128 x3 Gen.shapeCasts_S1x128_S1x128))
      (broadcast S5000x128 (Scalar.ofBits .f32 0x00000000#32 : Ideal .f32))) Gen.bitsLt_bf16_f32)
    (transpose S128x128 [1, 0] (truncf .bf16 (shapeCast S128x128 x4 Gen.shapeCasts_S128x128_S128x128) Gen.bitsLt_bf16_f32)
      Gen.transposes_S128x128_p1_0_S128x128)
    (constant S5000x128 .f32 0x00000000#32)

theorem stage1_apply (x0 : Vec Ideal S5000x128 .f32) (x2 x3 : Vec Ideal S1x128 .f32) (x4 : Vec Ideal S128x128 .f32)
    (p : Fin 5000) (q : Fin 128) :
    stage1 x0 x2 x3 x4 (ix2 p q)
      = Spec.lin (Spec.relu (Spec.gn (Spec.ofVec2 x0) (fun j => x2 (ix2 (0 : Fin 1) j)) (fun j => x3 (ix2 (0 : Fin 1) j))))
          (Spec.ofVec2 x4) p q := by
  unfold stage1
  simp only [shapeCast_self]
  refine (matmul_apply_ix _ _ p q).trans ?_
  show _ = ∑ j : Fin 128, max (Spec.gn (Spec.ofVec2 x0) (fun j => x2 (ix2 (0 : Fin 1) j)) (fun j => x3 (ix2 (0 : Fin 1) j)) p j) 0
      * x4 (ix2 q j)
  refine Finset.sum_congr rfl fun k _ => ?_
  show max (gnVec x0 x2 x3 (ix2 p k)) (Ideal.ofBits .f32 0x00000000#32)
      * transpose S128x128 [1, 0] (truncf (F := Ideal) .bf16 x4 Gen.bitsLt_bf16_f32) Gen.transposes_S128x128_p1_0_S128x128 (ix2 k q) = _
  rw [transpose_ix2_apply _ Gen.transposes_S128x128_p1_0_S128x128 k q, gnVec_apply, Ideal.ofBits_zero_f32]
  rfl

/-- The whole body on one tile: the second normalisation of the first half, plus the residual tile, positive part. -/
def ggVec (x0 x1 : Vec Ideal S5000x128 .f32) (x2 x3 : Vec Ideal S1x128 .f32) (x4 : Vec Ideal S128x128 .f32)
    (x5 x6 : Vec Ideal S1x128 .f32) : FVec Ideal S5000x128 .f32 :=
  maximumf (addf (gnVec (stage1 x0 x2 x3 x4) (shapeCast S1x128 x5 Gen.shapeCasts_S1x128_S1x128)
        (shapeCast S1x128 x6 Gen.shapeCasts_S1x128_S1x128))
      (shapeCast S5000x128 x1 Gen.shapeCasts_S5000x128_S5000x128))
    (broadcast S5000x128 (Scalar.ofBits .f32 0x00000000#32 : Ideal .f32))

/-- The body's value at (p, q) is the specification's node stage of the tile there. -/
theorem ggVec_apply (x0 x1 : Vec Ideal S5000x128 .f32) (x2 x3 : Vec Ideal S1x128 .f32) (x4 : Vec Ideal S128x128 .f32)
    (x5 x6 : Vec Ideal S1x128 .f32) (p : Fin 5000) (q : Fin 128) :
    ggVec x0 x1 x2 x3 x4 x5 x6 (ix2 p q)
      = Spec.ggTail (Spec.ofVec2 x0) (Spec.ofVec2 x1) (fun j => x2 (ix2 (0 : Fin 1) j)) (fun j => x3 (ix2 (0 : Fin 1) j))
          (Spec.ofVec2 x4) (fun j => x5 (ix2 (0 : Fin 1) j)) (fun j => x6 (ix2 (0 : Fin 1) j)) p q := by
  unfold ggVec
  simp only [shapeCast_self]
  show max (gnVec (stage1 x0 x2 x3 x4) x5 x6 (ix2 p q) + x1 (ix2 p q)) (Ideal.ofBits .f32 0x00000000#32) = _
  have e : Spec.ofVec2 (stage1 x0 x2 x3 x4)
      = Spec.lin (Spec.relu (Spec.gn (Spec.ofVec2 x0) (fun j => x2 (ix2 (0 : Fin 1) j)) (fun j => x3 (ix2 (0 : Fin 1) j))))
          (Spec.ofVec2 x4) :=
    funext fun a => funext fun b => stage1_apply x0 x2 x3 x4 a b
  rw [gnVec_apply, Ideal.ofBits_zero_f32, e]
  rfl

/-! ## Rows: the node stage of a matrix at a row depends on that row alone -/

/-- The node stage of the one-row matrices of a feature row and a residual row. -/
def ggRow (t r : Fin 128 → EReal) (ns nh : Fin 128 → EReal) (w : Spec.M 128 128) (s h : Fin 128 → EReal) : Fin 128 → EReal :=
  Spec.ggTail (n := 1) (fun _ => t) (fun _ => r) ns nh w s h 0

/-- Row p of the node stage of a matrix is the node stage of its row p. -/
theorem ggTail_row {n : Nat} (temp res : Spec.M n 128) (ns nh : Fin 128 → EReal) (w : Spec.M 128 128) (s h : Fin 128 → EReal)
    (p : Fin n) (q : Fin 128) : Spec.ggTail temp res ns nh w s h p q = ggRow (temp p) (res p) ns nh w s h q := rfl

/-- A tile whose row p of features and of residual are rows r of two matrices: the body's value at (p, k) is the node
    stage of those matrices at (r, k). -/
theorem ggVec_tile {n : Nat} (x0 x1 : Vec Ideal S5000x128 .f32) (x2 x3 : Vec Ideal S1x128 .f32) (x4 : Vec Ideal S128x128 .f32)
    (x5 x6 : Vec Ideal S1x128 .f32) (A0 A1 : Spec.M n 128) (p : Fin 5000) (k : Fin 128) (r : Fin n)
    (h0 : ∀ k' : Fin 128, x0 (ix2 p k') = A0 r k') (h1 : ∀ k' : Fin 128, x1 (ix2 p k') = A1 r k') :
    ggVec x0 x1 x2 x3 x4 x5 x6 (ix2 p k)
      = Spec.ggTail A0 A1 (fun j => x2 (ix2 (0 : Fin 1) j)) (fun j => x3 (ix2 (0 : Fin 1) j))
          (Spec.ofVec2 x4) (fun j => x5 (ix2 (0 : Fin 1) j)) (fun j => x6 (ix2 (0 : Fin 1) j)) r k := by
  have e0 : Spec.ofVec2 x0 p = A0 r := funext h0
  have e1 : Spec.ofVec2 x1 p = A1 r := funext h1
  rw [ggVec_apply, ggTail_row, ggTail_row, e0, e1]

/-- Two functions on a [5000, 128] tile that agree at every (p, k) are equal. -/
theorem tile_ext {α : Type} (f g : S5000x128.Idx → α) (h : ∀ (p : Fin 5000) (k : Fin 128), f (ix2 p k) = g (ix2 p k)) : f = g :=
  funext fun j => by rw [eq_ix2 j]; exact h (j 0) (j 1)

/-- The zero offsets of a rank-2 whole-buffer access, as a constant function. -/
theorem hz2 : (![0, 0] : Fin 2 → Nat) = fun _ => 0 :=
  funext fun a => by match a with | ⟨0, _⟩ => rfl | ⟨1, _⟩ => rfl

end Cert.GgTail

end
-- ==== Proof.KReg5.lean ====
/-
  The node stage of the first fusion layer (region 5 of the kernel program), as a function of the arrays the region
  finds. The grid has ten points; point t stages rows 5000 t .. 5000 t + 4999 of the feature array (window 0) and of
  the residual array (window 1), the whole of the two normalisations' scale and shift rows and of the weight
  (windows 2 to 6), and writes the same rows of the two output arrays (window 7 in f32, window 8 in bf16, which over
  the extended reals is the same value). The body's result on a tile is the specification's node stage of the tile,
  and that stage acts on each row by itself, so row p of point t's tile is row 5000 t + p of the node stage of the
  whole arrays. The ten tiles cover the 50000 rows, so each output array ends holding that node stage.
-/
import proofs.«413166_j32323923870246_3_alg».proof.Proof.Spec
import proofs.«413166_j32323923870246_3_alg».proof.Proof.KGgLib
import proofs.«413166_j32323923870246_3_alg».proof.Proof.KIFrameR5
import Idealize.ShloMosaic.Lib.Pipeline.Value

noncomputable section

namespace Cert.GgTail.R5

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The body's two stored values are the tile's node stage -/

theorem pay7_eq (x0 x1 : Vec Ideal S5000x128 .f32) (x2 x3 : Vec Ideal S1x128 .f32) (x4 : Vec Ideal S128x128 .f32)
    (x5 x6 : Vec Ideal S1x128 .f32) :
    k5_pay1 (k5_pay3 x0 x2 x3 x4) (k5_pay4 x5) (k5_pay5 x6) x1 = ggVec x0 x1 x2 x3 x4 x5 x6 := rfl

theorem pay8_eq (x0 x1 : Vec Ideal S5000x128 .f32) (x2 x3 : Vec Ideal S1x128 .f32) (x4 : Vec Ideal S128x128 .f32)
    (x5 x6 : Vec Ideal S1x128 .f32) :
    k5_pay2 (k5_pay3 x0 x2 x3 x4) (k5_pay4 x5) (k5_pay5 x6) x1 = ggVec x0 x1 x2 x3 x4 x5 x6 := rfl

/-! ## Where each window's block lies in its array -/

/-- The block index of every window at every point: the row-tiled windows are at block row t, the others at zero. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

/-- Row p of the feature window's block at point t is row 5000 t + p of the feature array. -/
theorem blk0_row (c : Dev nD) (t : Fin cfg5.N) (p : Fin 5000) (k : Fin 128) (r : Fin 50000)
    (hr : r.val = 5000 * t.val + p.val) :
    (iblk5 V c 0 t : Vec Ideal S5000x128 .f32) (ix2 p k) = Spec.ofVec2 (V c (Pipeline.arrRef spec5 0)) r k := by
  obtain ⟨e0, e1, -⟩ := idx_facts t
  unfold iblk5
  rw [View.read_apply]
  show V c (Pipeline.arrRef spec5 0) _ = V c (Pipeline.arrRef spec5 0) (ix2 r k)
  congr 1
  funext a
  apply Fin.ext
  match a with
  | ⟨0, _⟩ => show win5_0.index t (0 : Fin 2) * 5000 + 1 * p.val = r.val; rw [e0, hr]; omega
  | ⟨1, _⟩ => show win5_0.index t (1 : Fin 2) * 128 + 1 * k.val = k.val; rw [e1]; omega

/-- Row p of the residual window's block at point t is row 5000 t + p of the residual array. -/
theorem blk1_row (c : Dev nD) (t : Fin cfg5.N) (p : Fin 5000) (k : Fin 128) (r : Fin 50000)
    (hr : r.val = 5000 * t.val + p.val) :
    (iblk5 V c 1 t : Vec Ideal S5000x128 .f32) (ix2 p k) = Spec.ofVec2 (V c (Pipeline.arrRef spec5 1)) r k := by
  obtain ⟨-, -, e0, e1, -⟩ := idx_facts t
  unfold iblk5
  rw [View.read_apply]
  show V c (Pipeline.arrRef spec5 1) _ = V c (Pipeline.arrRef spec5 1) (ix2 r k)
  congr 1
  funext a
  apply Fin.ext
  match a with
  | ⟨0, _⟩ => show win5_1.index t (0 : Fin 2) * 5000 + 1 * p.val = r.val; rw [e0, hr]; omega
  | ⟨1, _⟩ => show win5_1.index t (1 : Fin 2) * 128 + 1 * k.val = k.val; rw [e1]; omega

/-- The scale and shift rows and the weight are staged whole at every point. -/
theorem blk2_whole (c : Dev nD) (t : Fin cfg5.N) :
    (iblk5 V c 2 t : Vec Ideal S1x128 .f32) = V c (Pipeline.arrRef spec5 2) := by
  obtain ⟨-, -, -, -, e0, e1, -⟩ := idx_facts t
  funext j
  unfold iblk5
  rw [View.read_apply]
  show V c (Pipeline.arrRef spec5 2) _ = V c (Pipeline.arrRef spec5 2) j
  congr 1
  funext a
  apply Fin.ext
  match a with
  | ⟨0, _⟩ => show win5_2.index t (0 : Fin 2) * 1 + 1 * (j 0).val = (j 0).val; rw [e0]; omega
  | ⟨1, _⟩ => show win5_2.index t (1 : Fin 2) * 128 + 1 * (j 1).val = (j 1).val; rw [e1]; omega

theorem blk3_whole (c : Dev nD) (t : Fin cfg5.N) :
    (iblk5 V c 3 t : Vec Ideal S1x128 .f32) = V c (Pipeline.arrRef spec5 3) := by
  obtain ⟨-, -, -, -, -, -, e0, e1, -⟩ := idx_facts t
  funext j
  unfold iblk5
  rw [View.read_apply]
  show V c (Pipeline.arrRef spec5 3) _ = V c (Pipeline.arrRef spec5 3) j
  congr 1
  funext a
  apply Fin.ext
  match a with
  | ⟨0, _⟩ => show win5_3.index t (0 : Fin 2) * 1 + 1 * (j 0).val = (j 0).val; rw [e0]; omega
  | ⟨1, _⟩ => show win5_3.index t (1 : Fin 2) * 128 + 1 * (j 1).val = (j 1).val; rw [e1]; omega

theorem blk4_whole (c : Dev nD) (t : Fin cfg5.N) :
    (iblk5 V c 4 t : Vec Ideal S128x128 .f32) = V c (Pipeline.arrRef spec5 4) := by
  obtain ⟨-, -, -, -, -, -, -, -, e0, e1, -⟩ := idx_facts t
  funext j
  unfold iblk5
  rw [View.read_apply]
  show V c (Pipeline.arrRef spec5 4) _ = V c (Pipeline.arrRef spec5 4) j
  congr 1
  funext a
  apply Fin.ext
  match a with
  | ⟨0, _⟩ => show win5_4.index t (0 : Fin 2) * 128 + 1 * (j 0).val = (j 0).val; rw [e0]; omega
  | ⟨1, _⟩ => show win5_4.index t (1 : Fin 2) * 128 + 1 * (j 1).val = (j 1).val; rw [e1]; omega

theorem blk5_whole (c : Dev nD) (t : Fin cfg5.N) :
    (iblk5 V c 5 t : Vec Ideal S1x128 .f32) = V c (Pipeline.arrRef spec5 5) := by
  obtain ⟨-, -, -, -, -, -, -, -, -, -, e0, e1, -⟩ := idx_facts t
  funext j
  unfold iblk5
  rw [View.read_apply]
  show V c (Pipeline.arrRef spec5 5) _ = V c (Pipeline.arrRef spec5 5) j
  congr 1
  funext a
  apply Fin.ext
  match a with
  | ⟨0, _⟩ => show win5_5.index t (0 : Fin 2) * 1 + 1 * (j 0).val = (j 0).val; rw [e0]; omega
  | ⟨1, _⟩ => show win5_5.index t (1 : Fin 2) * 128 + 1 * (j 1).val = (j 1).val; rw [e1]; omega

theorem blk6_whole (c : Dev nD) (t : Fin cfg5.N) :
    (iblk5 V c 6 t : Vec Ideal S1x128 .f32) = V c (Pipeline.arrRef spec5 6) := by
  obtain ⟨-, -, -, -, -, -, -, -, -, -, -, -, e0, e1, -⟩ := idx_facts t
  funext j
  unfold iblk5
  rw [View.read_apply]
  show V c (Pipeline.arrRef spec5 6) _ = V c (Pipeline.arrRef spec5 6) j
  congr 1
  funext a
  apply Fin.ext
  match a with
  | ⟨0, _⟩ => show win5_6.index t (0 : Fin 2) * 1 + 1 * (j 0).val = (j 0).val; rw [e0]; omega
  | ⟨1, _⟩ => show win5_6.index t (1 : Fin 2) * 128 + 1 * (j 1).val = (j 1).val; rw [e1]; omega

/-! ## What each point writes back -/

/-- The node stage of the arrays the region finds, as one [50000, 128] array. -/
abbrev G (c : Dev nD) : S50000x128.Idx → EReal :=
  Spec.toVec2 (Spec.ggTail (Spec.ofVec2 (V c (Pipeline.arrRef spec5 0))) (Spec.ofVec2 (V c (Pipeline.arrRef spec5 1)))
    (fun q => V c (Pipeline.arrRef spec5 2) (ValueIdx.ix2 0 q)) (fun q => V c (Pipeline.arrRef spec5 3) (ValueIdx.ix2 0 q))
    (Spec.ofVec2 (V c (Pipeline.arrRef spec5 4))) (fun q => V c (Pipeline.arrRef spec5 5) (ValueIdx.ix2 0 q))
    (fun q => V c (Pipeline.arrRef spec5 6) (ValueIdx.ix2 0 q)))

/-- The body's value on point t's blocks, at row p, is row 5000 t + p of that array. -/
theorem tile_eq (c : Dev nD) (t : Fin cfg5.N) (p : Fin 5000) (k : Fin 128) (r : Fin 50000)
    (hr : r.val = 5000 * t.val + p.val) :
    ggVec (iblk5 V c 0 t) (iblk5 V c 1 t) (iblk5 V c 2 t) (iblk5 V c 3 t) (iblk5 V c 4 t) (iblk5 V c 5 t) (iblk5 V c 6 t) (ix2 p k)
      = G V c (ix2 r k) := by
  refine (ggVec_tile (iblk5 V c 0 t) (iblk5 V c 1 t) (iblk5 V c 2 t) (iblk5 V c 3 t) (iblk5 V c 4 t) (iblk5 V c 5 t)
    (iblk5 V c 6 t) (Spec.ofVec2 (V c (Pipeline.arrRef spec5 0))) (Spec.ofVec2 (V c (Pipeline.arrRef spec5 1))) p k r
    (fun k' => blk0_row V c t p k' r hr) (fun k' => blk1_row V c t p k' r hr)).trans ?_
  rw [blk2_whole V c t, blk3_whole V c t, blk4_whole V c t, blk5_whole V c t, blk6_whole V c t]
  rfl

/-- Point t's block of an output window, embedded in the array: row 5000 t + p, column k. -/
theorem emb7 (t : Fin cfg5.N) (p : Fin 5000) (k : Fin 128) (r : Fin 50000) (hr : r.val = 5000 * t.val + p.val) :
    ((cfg5.win 7).blk t).view.emb (ix2 p k) = (ix2 r k : S50000x128.Idx) := by
  obtain ⟨-, -, -, -, -, -, -, -, -, -, -, -, -, -, e0, e1, -⟩ := idx_facts t
  funext a
  apply Fin.ext
  match a with
  | ⟨0, _⟩ => show win5_7.index t (0 : Fin 2) * 5000 + 1 * p.val = r.val; rw [e0, hr]; omega
  | ⟨1, _⟩ => show win5_7.index t (1 : Fin 2) * 128 + 1 * k.val = k.val; rw [e1]; omega

theorem emb8 (t : Fin cfg5.N) (p : Fin 5000) (k : Fin 128) (r : Fin 50000) (hr : r.val = 5000 * t.val + p.val) :
    ((cfg5.win 8).blk t).view.emb (ix2 p k) = (ix2 r k : S50000x128.Idx) := by
  obtain ⟨-, -, -, -, -, -, -, -, -, -, -, -, -, -, -, -, e0, e1⟩ := idx_facts t
  funext a
  apply Fin.ext
  match a with
  | ⟨0, _⟩ => show win5_8.index t (0 : Fin 2) * 5000 + 1 * p.val = r.val; rw [e0, hr]; omega
  | ⟨1, _⟩ => show win5_8.index t (1 : Fin 2) * 128 + 1 * k.val = k.val; rw [e1]; omega

/-- What point t writes back to the f32 output is block t of the node stage of the arrays. -/
theorem flushed7_eq (c : Dev nD) (t : Fin cfg5.N) :
    (dat5 V c).flushed 7 t = ((cfg5.win 7).blk t).view.read (Elt Ideal) (G V c) := by
  have hN : cfg5.N = 10 := N_5
  have ht : t.val < 10 := by have h := t.isLt; omega
  show (cfg5.win 7).cut (grid5.coords t) ((dat5 V c).after 7 t) = _
  rw [after5_7]
  unfold out5_7
  rw [View.canon_unit_zero hz2]
  simp only [View.ld_unit_zero (S := S5000x128) hz2, View.ld_unit_zero (S := S1x128) hz2, View.ld_unit_zero (S := S128x128) hz2]
  show (k5_pay1 (k5_pay3 (iblk5 V c 0 t) (iblk5 V c 2 t) (iblk5 V c 3 t) (iblk5 V c 4 t)) (k5_pay4 (iblk5 V c 5 t))
      (k5_pay5 (iblk5 V c 6 t)) (iblk5 V c 1 t) : S5000x128.Idx → EReal)
    = fun j : S5000x128.Idx => G V c (((cfg5.win 7).blk t).view.emb j)
  refine tile_ext _ _ fun p k => ?_
  refine (congrFun (pay7_eq (iblk5 V c 0 t) (iblk5 V c 1 t) (iblk5 V c 2 t) (iblk5 V c 3 t) (iblk5 V c 4 t) (iblk5 V c 5 t)
    (iblk5 V c 6 t)) (ix2 p k)).trans ?_
  refine (tile_eq V c t p k ⟨5000 * t.val + p.val, by have := p.isLt; omega⟩ rfl).trans ?_
  exact congrArg (G V c) (emb7 t p k ⟨5000 * t.val + p.val, by have := p.isLt; omega⟩ rfl).symm

/-- What point t writes back to the bf16 output is the same block. -/
theorem flushed8_eq (c : Dev nD) (t : Fin cfg5.N) :
    (dat5 V c).flushed 8 t = ((cfg5.win 8).blk t).view.read (Elt Ideal) (G V c) := by
  have hN : cfg5.N = 10 := N_5
  have ht : t.val < 10 := by have h := t.isLt; omega
  show (cfg5.win 8).cut (grid5.coords t) ((dat5 V c).after 8 t) = _
  rw [after5_8]
  unfold out5_8
  rw [View.canon_unit_zero hz2]
  simp only [View.ld_unit_zero (S := S5000x128) hz2, View.ld_unit_zero (S := S1x128) hz2, View.ld_unit_zero (S := S128x128) hz2]
  show (k5_pay2 (k5_pay3 (iblk5 V c 0 t) (iblk5 V c 2 t) (iblk5 V c 3 t) (iblk5 V c 4 t)) (k5_pay4 (iblk5 V c 5 t))
      (k5_pay5 (iblk5 V c 6 t)) (iblk5 V c 1 t) : S5000x128.Idx → EReal)
    = fun j : S5000x128.Idx => G V c (((cfg5.win 8).blk t).view.emb j)
  refine tile_ext _ _ fun p k => ?_
  refine (congrFun (pay8_eq (iblk5 V c 0 t) (iblk5 V c 1 t) (iblk5 V c 2 t) (iblk5 V c 3 t) (iblk5 V c 4 t) (iblk5 V c 5 t)
    (iblk5 V c 6 t)) (ix2 p k)).trans ?_
  refine (tile_eq V c t p k ⟨5000 * t.val + p.val, by have := p.isLt; omega⟩ rfl).trans ?_
  exact congrArg (G V c) (emb8 t p k ⟨5000 * t.val + p.val, by have := p.isLt; omega⟩ rfl).symm

/-! ## The ten tiles cover the array -/

/-- An index of the f32 output array is in point t's block iff each coordinate is in the block's range on its axis. -/
theorem mem_blk7 (t : Fin cfg5.N) (i : S50000x128.Idx) :
    i ∈ ((cfg5.win 7).blk t).view.set
      ↔ ∀ a : Fin 2, win5_7.index t a * S5000x128.size a ≤ (i a).val ∧ (i a).val < win5_7.index t a * S5000x128.size a + S5000x128.size a := by
  show i ∈ ((View.whole main_v145_0).slice (win5_7.rect t)).set ↔ _
  rw [View.set_slice_whole, Rect.mem_set_unit]
  exact Iff.rfl

theorem mem_blk8 (t : Fin cfg5.N) (i : S50000x128.Idx) :
    i ∈ ((cfg5.win 8).blk t).view.set
      ↔ ∀ a : Fin 2, win5_8.index t a * S5000x128.size a ≤ (i a).val ∧ (i a).val < win5_8.index t a * S5000x128.size a + S5000x128.size a := by
  show i ∈ ((View.whole main_v145_1).slice (win5_8.rect t)).set ↔ _
  rw [View.set_slice_whole, Rect.mem_set_unit]
  exact Iff.rfl

/-- Row r lies in the block of point r / 5000. -/
theorem cover7 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 10 := N_5
  have hlt : (i 0).val / 5000 < cfg5.N := by rw [hN]; omega
  obtain ⟨-, -, -, -, -, -, -, -, -, -, -, -, -, -, e0, e1, -⟩ := idx_facts ⟨(i 0).val / 5000, hlt⟩
  refine ⟨⟨(i 0).val / 5000, hlt⟩, flush5_7 _, ?_⟩
  rw [mem_blk7]
  intro a
  match a with
  | ⟨0, _⟩ =>
    show win5_7.index ⟨(i 0).val / 5000, hlt⟩ (0 : Fin 2) * 5000 ≤ (i 0).val
      ∧ (i 0).val < win5_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win5_7.index ⟨(i 0).val / 5000, hlt⟩ (1 : Fin 2) * 128 ≤ (i 1).val
      ∧ (i 1).val < win5_7.index ⟨(i 0).val / 5000, hlt⟩ (1 : Fin 2) * 128 + 128
    rw [e1]
    omega

theorem cover8 (i : S50000x128.Idx) :
    ∃ t : Fin cfg5.N, (cfg5.win 8).flush t = true ∧ i ∈ ((cfg5.win 8).blk t).view.set := by
  have hi0 : (i 0).val < 50000 := (i 0).isLt
  have hi1 : (i 1).val < 128 := (i 1).isLt
  have hN : cfg5.N = 10 := N_5
  have hlt : (i 0).val / 5000 < cfg5.N := by rw [hN]; omega
  obtain ⟨-, -, -, -, -, -, -, -, -, -, -, -, -, -, -, -, e0, e1⟩ := idx_facts ⟨(i 0).val / 5000, hlt⟩
  refine ⟨⟨(i 0).val / 5000, hlt⟩, flush5_8 _, ?_⟩
  rw [mem_blk8]
  intro a
  match a with
  | ⟨0, _⟩ =>
    show win5_8.index ⟨(i 0).val / 5000, hlt⟩ (0 : Fin 2) * 5000 ≤ (i 0).val
      ∧ (i 0).val < win5_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win5_8.index ⟨(i 0).val / 5000, hlt⟩ (1 : Fin 2) * 128 ≤ (i 1).val
      ∧ (i 1).val < win5_8.index ⟨(i 0).val / 5000, hlt⟩ (1 : Fin 2) * 128 + 128
    rw [e1]
    omega

/-! ## The two output arrays after the region -/

/-- The f32 output array ends holding the node stage of the arrays the region found. -/
theorem arr5_out7 (c : Dev nD) : (dat5 (F := Ideal) V c).arrAt 7 cfg5.N = Spec.toVec2 (Spec.ggTail (Spec.ofVec2 (V c (Pipeline.arrRef spec5 0))) (Spec.ofVec2 (V c (Pipeline.arrRef spec5 1))) (fun q => V c (Pipeline.arrRef spec5 2) (ValueIdx.ix2 0 q)) (fun q => V c (Pipeline.arrRef spec5 3) (ValueIdx.ix2 0 q)) (Spec.ofVec2 (V c (Pipeline.arrRef spec5 4))) (fun q => V c (Pipeline.arrRef spec5 5) (ValueIdx.ix2 0 q)) (fun q => V c (Pipeline.arrRef spec5 6) (ValueIdx.ix2 0 q))) :=
  (dat5 V c).arrAt_eq_of_cover 7 (G V c) (fun t _ => flushed7_eq V c t) cover7

/-- The bf16 output array ends holding the same values. -/
theorem arr5_out8 (c : Dev nD) : (dat5 (F := Ideal) V c).arrAt 8 cfg5.N = Spec.toVec2 (Spec.ggTail (Spec.ofVec2 (V c (Pipeline.arrRef spec5 0))) (Spec.ofVec2 (V c (Pipeline.arrRef spec5 1))) (fun q => V c (Pipeline.arrRef spec5 2) (ValueIdx.ix2 0 q)) (fun q => V c (Pipeline.arrRef spec5 3) (ValueIdx.ix2 0 q)) (Spec.ofVec2 (V c (Pipeline.arrRef spec5 4))) (fun q => V c (Pipeline.arrRef spec5 5) (ValueIdx.ix2 0 q)) (fun q => V c (Pipeline.arrRef spec5 6) (ValueIdx.ix2 0 q))) :=
  (dat5 V c).arrAt_eq_of_cover 8 (G V c) (fun t _ => flushed8_eq V c t) cover8

end Cert.GgTail.R5

end
-- ==== Proof.LibScatter.lean ====
/-
  Accumulating row scatters one after the other against one scatter over the concatenated edge list.

  An accumulating row scatter adds to entry (i, q) of the table the sum of the update entries (j, q) over the update rows j
  whose wrapped index is i. The extended reals are a commutative additive monoid, so a sum over a disjoint union of row
  sets is the sum of the sums, in any grouping and order. Two scatters in a row therefore add, at each entry, the sum over
  the first edge list plus the sum over the second, which is the sum over the concatenated list; K scatters of E rows each
  add the double sum over (set, edge) pairs, which is the single sum over K * E rows when row r stands for the pair
  (r / E, r % E), since r ↦ (r / E, r % E) is a bijection from the K * E rows onto the pairs.
-/
import proofs.«413166_j32323923870246_3_alg».proof.Proof.Net
import Mathlib.Algebra.BigOperators.Fin
import Mathlib.Algebra.BigOperators.Group.Finset.Basic
import Mathlib.Data.Fintype.BigOperators
import Mathlib.Logic.Equiv.Fin.Basic
import Mathlib.Data.Fin.Tuple.Basic

noncomputable section

namespace Cert.Spec

open Idealize.ShloMosaic

namespace LibScatter

/-- The entry form of an accumulating row scatter. -/
theorem scatterAddRows_apply {N k e : Nat} (t : M N k) (idx : Fin e → BitVec 32) (u : M e k) (i : Fin N) (q : Fin k) :
    scatterAddRows t idx u i q
      = t i q + ∑ j ∈ Finset.univ.filter (fun j : Fin e => wrap N (idx j) = (i.val : Int)), u j q := rfl

/-- A left fold of scatters over a list of edge sets adds, at each entry, the list sum of the sets' contributions. -/
theorem foldl_scatterAddRows_apply {κ : Type} {N k E : Nat} (idxs : κ → Fin E → BitVec 32) (us : κ → M E k)
    (l : List κ) (t : M N k) (i : Fin N) (q : Fin k) :
    l.foldl (fun t s => scatterAddRows t (idxs s) (us s)) t i q
      = t i q + (l.map (fun s => ∑ j ∈ Finset.univ.filter (fun j : Fin E => wrap N (idxs s j) = (i.val : Int)),
          us s j q)).sum := by
  induction l generalizing t with
  | nil => simp
  | cons s l ih =>
    rw [List.foldl_cons, ih, List.map_cons, List.sum_cons, scatterAddRows_apply, add_assoc]

/-- Over all K sets in order the list sum is the sum over the sets. -/
theorem foldl_finRange_scatterAddRows_apply {N k K E : Nat} (idxs : Fin K → Fin E → BitVec 32) (us : Fin K → M E k)
    (t : M N k) (i : Fin N) (q : Fin k) :
    (List.finRange K).foldl (fun t s => scatterAddRows t (idxs s) (us s)) t i q
      = t i q + ∑ s : Fin K, ∑ j ∈ Finset.univ.filter (fun j : Fin E => wrap N (idxs s j) = (i.val : Int)), us s j q := by
  rw [foldl_scatterAddRows_apply, Fin.sum_univ_def]

/-- The double sum over sets and selected edges is the single sum over selected rows, for any one-to-one naming of the
    (set, edge) pairs by rows. -/
theorem sum_sets_eq_sum_rows {K E n : Nat} (dec : Fin n → Fin K × Fin E) (hdec : Function.Bijective dec)
    (P : Fin K → Fin E → Prop) [∀ s j, Decidable (P s j)] (f : Fin K → Fin E → EReal) :
    ∑ s : Fin K, ∑ j ∈ Finset.univ.filter (fun j => P s j), f s j
      = ∑ r ∈ Finset.univ.filter (fun r : Fin n => P (dec r).1 (dec r).2), f (dec r).1 (dec r).2 := by
  simp only [Finset.sum_filter]
  rw [← Fintype.sum_prod_type' (fun s j => if P s j then f s j else 0)]
  exact (hdec.sum_comp (fun p : Fin K × Fin E => if P p.1 p.2 then f p.1 p.2 else 0)).symm

end LibScatter

open LibScatter

/-- Two scatters one after the other are one scatter over the concatenated edge list: the first list's rows first,
    then the second list's. -/
theorem scatterAddRows_append {N k e₁ e₂ : Nat} (t : M N k) (idx₁ : Fin e₁ → BitVec 32) (u₁ : M e₁ k)
    (idx₂ : Fin e₂ → BitVec 32) (u₂ : M e₂ k) :
    scatterAddRows (scatterAddRows t idx₁ u₁) idx₂ u₂
      = scatterAddRows t (Fin.append idx₁ idx₂) (Fin.append u₁ u₂) := by
  funext i q
  simp only [scatterAddRows_apply, Finset.sum_filter, Fin.sum_univ_add, Fin.append_left, Fin.append_right, add_assoc]

/-- K edge sets of E rows each, scattered one after the other in order, are one scatter over n rows when row r names
    the pair dec r = (set, edge) one-to-one. -/
theorem foldl_scatterAddRows_eq_scatter {N k K E n : Nat} (dec : Fin n → Fin K × Fin E) (hdec : Function.Bijective dec)
    (idxs : Fin K → Fin E → BitVec 32) (us : Fin K → M E k) (t : M N k) :
    (List.finRange K).foldl (fun t s => scatterAddRows t (idxs s) (us s)) t
      = scatterAddRows t (fun r : Fin n => idxs (dec r).1 (dec r).2) (fun r q => us (dec r).1 (dec r).2 q) := by
  funext i q
  rw [foldl_finRange_scatterAddRows_apply, scatterAddRows_apply]
  congr 1
  exact sum_sets_eq_sum_rows dec hdec (fun s j => wrap N (idxs s j) = (i.val : Int)) (fun s j => us s j q)

/-- The row naming r ↦ (r / E, r % E) of K * E rows. -/
def scatterDivModRow {K E : Nat} (r : Fin (K * E)) : Fin K × Fin E := (r.divNat, r.modNat)

theorem scatterDivModRow_bijective {K E : Nat} : Function.Bijective (scatterDivModRow : Fin (K * E) → Fin K × Fin E) :=
  (finProdFinEquiv (m := K) (n := E)).symm.bijective

/-- K edge sets of E rows each folded left to right are one scatter over K * E rows, row r being (set r / E, edge r % E). -/
theorem foldl_scatterAddRows_eq_scatter_divMod {N k K E : Nat} (idxs : Fin K → Fin E → BitVec 32) (us : Fin K → M E k)
    (t : M N k) :
    (List.finRange K).foldl (fun t s => scatterAddRows t (idxs s) (us s)) t
      = scatterAddRows t (fun r : Fin (K * E) => idxs r.divNat r.modNat) (fun r q => us r.divNat r.modNat q) :=
  foldl_scatterAddRows_eq_scatter scatterDivModRow scatterDivModRow_bijective idxs us t

/-- The two row namings of the merged form are one-to-one onto the pairs. -/
theorem psRow_bijective : Function.Bijective psRow := by
  constructor
  · intro r r' h
    have h1 : r.val / 50000 = r'.val / 50000 := congrArg (fun p : Fin 12 × Fin 50000 => p.1.val) h
    have h2 : r.val % 50000 = r'.val % 50000 := congrArg (fun p : Fin 12 × Fin 50000 => p.2.val) h
    exact Fin.ext (by omega)
  · rintro ⟨a, b⟩
    have ha := a.isLt
    have hb := b.isLt
    refine ⟨⟨a.val * 50000 + b.val, by omega⟩, ?_⟩
    refine Prod.ext (Fin.ext ?_) (Fin.ext ?_)
    · show (a.val * 50000 + b.val) / 50000 = a.val
      omega
    · show (a.val * 50000 + b.val) % 50000 = b.val
      omega

theorem lrRow_bijective : Function.Bijective lrRow := by
  constructor
  · intro r r' h
    have h1 : r.val / 5000 = r'.val / 5000 := congrArg (fun p : Fin 2 × Fin 5000 => p.1.val) h
    have h2 : r.val % 5000 = r'.val % 5000 := congrArg (fun p : Fin 2 × Fin 5000 => p.2.val) h
    exact Fin.ext (by omega)
  · rintro ⟨a, b⟩
    have ha := a.isLt
    have hb := b.isLt
    refine ⟨⟨a.val * 5000 + b.val, by omega⟩, ?_⟩
    refine Prod.ext (Fin.ext ?_) (Fin.ext ?_)
    · show (a.val * 5000 + b.val) / 5000 = a.val
      omega
    · show (a.val * 5000 + b.val) % 5000 = b.val
      omega

/-- The accumulation of a fusion layer, set by set, is the accumulation in two passes over the concatenated edge lists:
    the twelve predecessor / successor sets are a left fold of scatters, the left and right sets a fold over two sets
    whose weight is chosen by the set's number, and each fold is one scatter over the rows that name its pairs. -/
theorem fuseAcc_eq_merged (A : Args) (i : Fin 4) (g : M 50000 128) : fuseAcc A i g = fuseAccMerged A i g := by
  have hps :
      (List.finRange 12).foldl (fun t k => edgeStep g t (A.ps_u k) (A.ps_v k) (A.fuse_ps_w i k)) (lin g (A.fuse_ctr_w i))
        = scatterAddRows (lin g (A.fuse_ctr_w i)) (fun r : Fin 600000 => A.ps_u (psRow r).1 (psRow r).2)
            (fun r q => lin (gatherRows (by omega : 0 < 50000) g (A.ps_v (psRow r).1)) (A.fuse_ps_w i (psRow r).1)
              (psRow r).2 q) :=
    foldl_scatterAddRows_eq_scatter psRow psRow_bijective A.ps_u
      (fun k => lin (gatherRows (by omega : 0 < 50000) g (A.ps_v k)) (A.fuse_ps_w i k)) (lin g (A.fuse_ctr_w i))
  have hlr : ∀ T : M 50000 128,
      edgeStep g (edgeStep g T (A.lr_u 0) (A.lr_v 0) (A.fuse_left_w i)) (A.lr_u 1) (A.lr_v 1) (A.fuse_right_w i)
        = scatterAddRows T (fun r : Fin 10000 => A.lr_u (lrRow r).1 (lrRow r).2)
            (fun r q => lin (gatherRows (by omega : 0 < 50000) g (A.lr_v (lrRow r).1))
              (if (lrRow r).1 = 0 then A.fuse_left_w i else A.fuse_right_w i) (lrRow r).2 q) := by
    intro T
    rw [← foldl_scatterAddRows_eq_scatter lrRow lrRow_bijective A.lr_u
      (fun s => lin (gatherRows (by omega : 0 < 50000) g (A.lr_v s))
        (if s = 0 then A.fuse_left_w i else A.fuse_right_w i)) T]
    have h01 : List.finRange 2 = [0, 1] := by decide
    rw [h01, List.foldl_cons, List.foldl_cons, List.foldl_nil, if_pos rfl, if_neg (by decide)]
    rfl
  unfold fuseAcc fuseAccMerged
  simp only []
  rw [hps, hlr]

end Cert.Spec

end
-- ==== Proof.KChainF0.lean ====
/-
  Fusion layer 0 of the kernel program (regions 2 to 5 of @main and the host stretches before them), from lane
  features `g` held in both copies at the layer's entry: the centre term, the twelve predecessor / successor
  contributions, their accumulation, the left / right contributions, the full accumulation, and the node stage.
  Each step reads its operands where the fold last wrote them, carried there unchanged, and states what the segment
  leaves as the specification's term of `g` and the launch arguments.
-/
import proofs.«413166_j32323923870246_3_alg».proof.Proof.KChainKeep
import proofs.«413166_j32323923870246_3_alg».proof.Proof.KChainArgs
import proofs.«413166_j32323923870246_3_alg».proof.Proof.KHostGg0
import proofs.«413166_j32323923870246_3_alg».proof.Proof.KReg2
import proofs.«413166_j32323923870246_3_alg».proof.Proof.KReg3
import proofs.«413166_j32323923870246_3_alg».proof.Proof.KReg4
import proofs.«413166_j32323923870246_3_alg».proof.Proof.KReg5
import proofs.«413166_j32323923870246_3_alg».proof.Proof.LibScatter

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

/-- Region 2: the centre term. Its operands are the features' second copy and the layer's centre weight, sliced
    from the stacked weights by the host stretch before it. -/
theorem inv_F0_ctr (hg1 : W4 m ρ c (Proc.devRef .tc main_v82_1) = toVec2 g) :
    W6 m ρ c (Proc.devRef .tc main_v85) = toVec2 (lin g ((argsOfK m c).fuse_ctr_w 0)) := by
  have hx : V5 m ρ c (Pipeline.arrRef spec2 0) = toVec2 g := (kept_v82_1_W5 m ρ c).trans hg1
  have hw : V5 m ρ c (Pipeline.arrRef spec2 1) = toVec2 ((argsOfK m c).fuse_ctr_w 0) :=
    (Cert.KHostGg.after_hostOps2_main_v84 (W4 m ρ c)).trans (by rw [kept_arg14_W4 m ρ c]; rfl)
  refine (W6_arr m ρ c 2).trans ((Cert.KReg2.arr2_out (V5 m ρ) c).trans ?_)
  rw [hx, hw]; rfl

/-- Region 3: the twelve predecessor / successor contributions, one matrix per edge set: the features' rows gathered
    at each set's source nodes, against that set's weight. -/
theorem inv_F0_ps (hg1 : W4 m ρ c (Proc.devRef .tc main_v82_1) = toVec2 g) :
    W8 m ρ c (Proc.devRef .tc main_v95) = Stack.toVec3 (psContrib (argsOfK m c) 0 g) := by
  have hx : V7 m ρ c (Pipeline.arrRef spec3 0)
      = Cert.KHostGg.toVec3 (fun k => gatherRows (by omega : 0 < 50000) g ((argsOfK m c).ps_v k)) :=
    (Cert.KHostGg.after_hostOps3_main_v92 (W6 m ρ c)).trans (by rw [kept_v82_1_W6 m ρ c, hg1, kept_arg26_W6 m ρ c]; rfl)
  have hw : V7 m ρ c (Pipeline.arrRef spec3 1) = Cert.KHostGg.toVec3 ((argsOfK m c).fuse_ps_w 0) :=
    (Cert.KHostGg.after_hostOps3_main_v94 (W6 m ρ c)).trans (by rw [kept_arg15_W6 m ρ c]; rfl)
  refine (W8_arr m ρ c 2).trans ((Cert.KReg3.arr3_out (V7 m ρ) c).trans ?_)
  rw [hx, hw]; rfl

/-- Host stretch 4: the first accumulation pass, all twelve sets' contributions added onto the centre term as one
    edge list, each at its wrapped target node. -/
theorem inv_F0_accPs (hg1 : W4 m ρ c (Proc.devRef .tc main_v82_1) = toVec2 g) :
    W9 m ρ c (Proc.devRef .tc main_v105) = toVec2 (accPs (argsOfK m c) 0 g) := by
  refine (Cert.KHostGg.after_hostOps4_main_v105 (W8 m ρ c)).trans ?_
  rw [kept_v85_W8 m ρ c, inv_F0_ctr m ρ c g hg1, kept_arg25_W8 m ρ c, inv_F0_ps m ρ c g hg1]; rfl

/-- Region 4: the left / right contributions. -/
theorem inv_F0_lr (hg1 : W4 m ρ c (Proc.devRef .tc main_v82_1) = toVec2 g) :
    W10 m ρ c (Proc.devRef .tc main_v120) = Stack.toVec3 (lrContrib (argsOfK m c) 0 g) := by
  have hx : V9 m ρ c (Pipeline.arrRef spec4 0)
      = Cert.KHostGg.toVec3 (fun k => gatherRows (by omega : 0 < 50000) g ((argsOfK m c).lr_v k)) :=
    (Cert.KHostGg.after_hostOps4_main_v119 (W8 m ρ c)).trans (by rw [kept_v82_1_W8 m ρ c, hg1, kept_arg28_W8 m ρ c]; rfl)
  have hw : V9 m ρ c (Pipeline.arrRef spec4 1)
      = Cert.KHostGg.toVec3 (fun k : Fin 2 => if k = 0 then (argsOfK m c).fuse_left_w 0 else (argsOfK m c).fuse_right_w 0) :=
    (Cert.KHostGg.after_hostOps4_main_v112 (W8 m ρ c)).trans (by rw [kept_arg16_W8 m ρ c, kept_arg17_W8 m ρ c]; rfl)
  refine (W10_arr m ρ c 2).trans ((Cert.KReg4.arr4_out (V9 m ρ) c).trans ?_)
  rw [hx, hw]; rfl

/-- Host stretch 5: the second pass, the left / right contributions added onto the first pass's result: the full
    accumulation in its two-pass form. -/
theorem inv_F0_acc (hg1 : W4 m ρ c (Proc.devRef .tc main_v82_1) = toVec2 g) :
    W11 m ρ c (Proc.devRef .tc main_v130) = toVec2 (fuseAccMerged (argsOfK m c) 0 g) := by
  refine (Cert.KHostGg.after_hostOps5_main_v130 (W10 m ρ c)).trans ?_
  rw [kept_v105_W10 m ρ c, inv_F0_accPs m ρ c g hg1, kept_arg27_W10 m ρ c, inv_F0_lr m ρ c g hg1, fuseAccMerged_eq]; rfl

/-! Region 5's seven operands, one by one: the accumulation (the sets added one after the other give the same sums as
    the two passes), the features' first copy as residual, and the layer's scale / shift rows and weight, sliced from
    the stacked arguments by the host stretch before it. -/

theorem F0_op0 (hg1 : W4 m ρ c (Proc.devRef .tc main_v82_1) = toVec2 g) : V11 m ρ c (Pipeline.arrRef spec5 0) = toVec2 (fuseAcc (argsOfK m c) 0 g) :=
  (inv_F0_acc m ρ c g hg1).trans (by rw [fuseAcc_eq_merged])
theorem F0_op1 (hg0 : W4 m ρ c (Proc.devRef .tc main_v82_0) = toVec2 g) : V11 m ρ c (Pipeline.arrRef spec5 1) = toVec2 g := (kept_v82_0_W11 m ρ c).trans hg0
theorem F0_op2 : V11 m ρ c (Pipeline.arrRef spec5 2) = toVec2 (fun (_ : Fin 1) q => (argsOfK m c).fuse_norm_gn 0 0 q) :=
  (Cert.KHostGg.after_hostOps5_main_v141 (W10 m ρ c)).trans (by rw [kept_arg18_W10 m ρ c]; rfl)
theorem F0_op3 : V11 m ρ c (Pipeline.arrRef spec5 3) = toVec2 (fun (_ : Fin 1) q => (argsOfK m c).fuse_norm_gn 0 1 q) :=
  (Cert.KHostGg.after_hostOps5_main_v142 (W10 m ρ c)).trans (by rw [kept_arg18_W10 m ρ c]; rfl)
theorem F0_op4 : V11 m ρ c (Pipeline.arrRef spec5 4) = toVec2 ((argsOfK m c).fuse_ctr2_w 0) :=
  (Cert.KHostGg.after_hostOps5_main_v136 (W10 m ρ c)).trans (by rw [kept_arg19_W10 m ρ c]; rfl)
theorem F0_op5 : V11 m ρ c (Pipeline.arrRef spec5 5) = toVec2 (fun (_ : Fin 1) q => (argsOfK m c).fuse_ctr2_gn 0 0 q) :=
  (Cert.KHostGg.after_hostOps5_main_v143 (W10 m ρ c)).trans (by rw [kept_arg20_W10 m ρ c]; rfl)
theorem F0_op6 : V11 m ρ c (Pipeline.arrRef spec5 6) = toVec2 (fun (_ : Fin 1) q => (argsOfK m c).fuse_ctr2_gn 0 1 q) :=
  (Cert.KHostGg.after_hostOps5_main_v144 (W10 m ρ c)).trans (by rw [kept_arg20_W10 m ρ c]; rfl)

set_option maxHeartbeats 4000000 in
/-- The node stage on those operands is the layer of the specification. -/
theorem inv_F0_node (hg0 : W4 m ρ c (Proc.devRef .tc main_v82_0) = toVec2 g) (hg1 : W4 m ρ c (Proc.devRef .tc main_v82_1) = toVec2 g) :
    toVec2 (ggTail (ofVec2 (V11 m ρ c (Pipeline.arrRef spec5 0))) (ofVec2 (V11 m ρ c (Pipeline.arrRef spec5 1)))
      (fun q => V11 m ρ c (Pipeline.arrRef spec5 2) (ValueIdx.ix2 0 q)) (fun q => V11 m ρ c (Pipeline.arrRef spec5 3) (ValueIdx.ix2 0 q))
      (ofVec2 (V11 m ρ c (Pipeline.arrRef spec5 4)))
      (fun q => V11 m ρ c (Pipeline.arrRef spec5 5) (ValueIdx.ix2 0 q)) (fun q => V11 m ρ c (Pipeline.arrRef spec5 6) (ValueIdx.ix2 0 q)))
      = toVec2 (fuse (argsOfK m c) 0 g) := by
  rw [F0_op0 m ρ c g hg1, F0_op1 m ρ c g hg0, F0_op2 m ρ c, F0_op3 m ρ c, F0_op4 m ρ c, F0_op5 m ρ c, F0_op6 m ρ c]; rfl

/-- Region 5: the node stage on the accumulation with the features' first copy as residual: the layer's result, in both
    copies. -/
theorem inv_F0_out (hg0 : W4 m ρ c (Proc.devRef .tc main_v82_0) = toVec2 g)
    (hg1 : W4 m ρ c (Proc.devRef .tc main_v82_1) = toVec2 g) :
    W12 m ρ c (Proc.devRef .tc main_v145_0) = toVec2 (fuse (argsOfK m c) 0 g)
      ∧ W12 m ρ c (Proc.devRef .tc main_v145_1) = toVec2 (fuse (argsOfK m c) 0 g) :=
  ⟨(W12_arr m ρ c 7).trans ((Cert.GgTail.R5.arr5_out7 (V11 m ρ) c).trans (inv_F0_node m ρ c g hg0 hg1)),
   (W12_arr m ρ c 8).trans ((Cert.GgTail.R5.arr5_out8 (V11 m ρ) c).trans (inv_F0_node m ρ c g hg0 hg1))⟩

end Cert.KChain

end
-- ==== Proof.KHostGg1.lean ====
/-
  Fusion layer 1: what the host stretches before its four kernel regions leave in the buffers those regions (and the
  next stretch) read, at the extended reals and from ANY buffer contents W, each as a term of the specification over
  what W holds at the buffers the stretch reads.

  * before the plain matmul: the centre weight, layer 1 of its stack;
  * before the first batched matmul: for each of the twelve predecessor / successor edge sets, the rows of the lane
    features at the set's wrapped and clamped source indices; the twelve weights of layer 1;
  * before the second batched matmul: the twelve sets' products, flattened to 600000 rows (row r is set r / 50000,
    edge r % 50000), added onto the centre term at the wrapped destination indices; the left and right weights of
    layer 1 stacked; the lane features' rows at the left / right source indices;
  * before the node stage: the two sets' products, flattened to 10000 rows, added likewise; the scale and shift rows
    of the two normalisations and the node weight of layer 1.
-/
import proofs.«413166_j32323923870246_3_alg».proof.Proof.Gen.KernelIdeal.Launch
import proofs.«413166_j32323923870246_3_alg».proof.Proof.KHostGgLib

noncomputable section

namespace Cert.KHostGg

open Idealize.ShloMosaic Idealize.ShloMosaic.ValueIdx
open Cert.KernelIdeal Cert.KernelIdeal.Gen

variable (W : Valuation τ sig (Elt Ideal))

/-! ## Before the plain matmul -/

set_option maxHeartbeats 1000000 in
/-- The centre weight. -/
theorem after_hostOps6_main_v147 :
    StableHlo.after (hostOps6 (F := Ideal)) W (Proc.devRef .tc main_v147)
      = Spec.toVec2 (ofVec3 (W (Proc.devRef .tc main_arg14) : (⟨S4x128x128, .f32⟩ : BufTy).Contents (Elt Ideal)) 1) := by
  unfold hostOps6
  after_results
  exact sliceCast3 (x := W (Proc.devRef .tc main_arg14)) (i := 1) (off := ![1, 0, 0]) rfl rfl rfl
    slices_S4x128x128_S1x128x128_1_0_0 shapeCasts_S1x128x128_S128x128

/-! ## Before the first batched matmul -/

set_option maxHeartbeats 1000000 in
/-- The gathered source rows, one table of 50000 rows per edge set. -/
theorem after_hostOps7_main_v155 :
    StableHlo.after (hostOps7 (F := Ideal)) W (Proc.devRef .tc main_v155)
      = toVec3 (fun k => Spec.gatherRows (by omega : 0 < 50000)
          (Spec.ofVec2 (W (Proc.devRef .tc main_v145_1) : (⟨S50000x128, .bf16⟩ : BufTy).Contents (Elt Ideal)))
          (ofWords2 (W (Proc.devRef .tc main_arg26) : (⟨S12x50000, .i32⟩ : BufTy).Contents (Elt Ideal)) k)) := by
  unfold hostOps7
  after_results
  exact wrapGather (N := 50000) (K := 128) (B := 12) (E := 50000) (by omega) (by decide)
    gather_S50000x128_S12x50000x1_S12x50000x128_2_0_n_n_0_2_1128_wf
    gather_S50000x128_S12x50000x1_S12x50000x128_2_0_n_n_0_2_1128 rfl
    bcast_S_S12x50000 bcast_S12x50000_S12x50000x1_0_1
    (W (Proc.devRef .tc main_v145_1)) (W (Proc.devRef .tc main_arg26))

set_option maxHeartbeats 1000000 in
/-- The twelve weights. -/
theorem after_hostOps7_main_v157 :
    StableHlo.after (hostOps7 (F := Ideal)) W (Proc.devRef .tc main_v157)
      = toVec3 (ofVec4 (W (Proc.devRef .tc main_arg15) : (⟨S4x12x128x128, .f32⟩ : BufTy).Contents (Elt Ideal)) 1) := by
  unfold hostOps7
  after_results
  exact sliceCast4 (x := W (Proc.devRef .tc main_arg15)) (i := 1) (off := ![1, 0, 0, 0]) rfl rfl rfl rfl
    slices_S4x12x128x128_S1x12x128x128_1_0_0_0 shapeCasts_S1x12x128x128_S12x128x128

/-! ## Before the second batched matmul -/

set_option maxHeartbeats 1000000 in
/-- The twelve sets' products added onto the centre term, in one pass over 600000 rows. -/
theorem after_hostOps8_main_v168 :
    StableHlo.after (hostOps8 (F := Ideal)) W (Proc.devRef .tc main_v168)
      = Spec.toVec2 (Spec.scatterAddRows
          (Spec.ofVec2 (W (Proc.devRef .tc main_v148) : (⟨S50000x128, .f32⟩ : BufTy).Contents (Elt Ideal)))
          (fun r => ofWords2 (W (Proc.devRef .tc main_arg25) : (⟨S12x50000, .i32⟩ : BufTy).Contents (Elt Ideal))
            (Spec.psRow r).1 (Spec.psRow r).2)
          (fun r q => ofVec3 (W (Proc.devRef .tc main_v158) : (⟨S12x50000x128, .bf16⟩ : BufTy).Contents (Elt Ideal))
            (Spec.psRow r).1 (Spec.psRow r).2 q)) := by
  unfold hostOps8
  after_results
  exact wrapScatter (N := 50000) (K := 128) (B := 12) (E := 50000) (R := 600000) (by decide)
    scatter_S50000x128_S600000x1_S600000x128_1_0_0_1_wf scatter_S50000x128_S600000x1_S600000x128_1_0_0_1 rfl
    Spec.psRow (fun r => by show r.val / 50000 * 50000 + r.val % 50000 = r.val; omega)
    shapeCasts_S12x50000_S600000 shapeCasts_S12x50000x128_S600000x128 bcast_S_S600000 bcast_S600000_S600000x1_0
    bitsLt_bf16_f32
    (W (Proc.devRef .tc main_v148)) (W (Proc.devRef .tc main_arg25)) (W (Proc.devRef .tc main_v158))

set_option maxHeartbeats 1000000 in
/-- The left and the right weight, stacked: index 0 is left, index 1 is right. -/
theorem after_hostOps8_main_v175 :
    StableHlo.after (hostOps8 (F := Ideal)) W (Proc.devRef .tc main_v175)
      = toVec3 (fun k : Fin 2 => if k = 0
          then ofVec3 (W (Proc.devRef .tc main_arg16) : (⟨S4x128x128, .f32⟩ : BufTy).Contents (Elt Ideal)) 1
          else ofVec3 (W (Proc.devRef .tc main_arg17) : (⟨S4x128x128, .f32⟩ : BufTy).Contents (Elt Ideal)) 1) := by
  unfold hostOps8
  after_results
  exact stackPairSlices (x := W (Proc.devRef .tc main_arg16)) (y := W (Proc.devRef .tc main_arg17))
    (i := 1) (off := ![1, 0, 0]) rfl rfl rfl
    slices_S4x128x128_S1x128x128_1_0_0 shapeCasts_S1x128x128_S128x128 bcast_S128x128_S1x128x128_1_2
    concatenates_S1x128x128_S1x128x128_S2x128x128_d0

set_option maxHeartbeats 1000000 in
/-- The gathered source rows of the left and the right edge set. -/
theorem after_hostOps8_main_v182 :
    StableHlo.after (hostOps8 (F := Ideal)) W (Proc.devRef .tc main_v182)
      = toVec3 (fun k => Spec.gatherRows (by omega : 0 < 50000)
          (Spec.ofVec2 (W (Proc.devRef .tc main_v145_1) : (⟨S50000x128, .bf16⟩ : BufTy).Contents (Elt Ideal)))
          (ofWords2 (W (Proc.devRef .tc main_arg28) : (⟨S2x5000, .i32⟩ : BufTy).Contents (Elt Ideal)) k)) := by
  unfold hostOps8
  after_results
  exact wrapGather (N := 50000) (K := 128) (B := 2) (E := 5000) (by omega) (by decide)
    gather_S50000x128_S2x5000x1_S2x5000x128_2_0_n_n_0_2_1128_wf
    gather_S50000x128_S2x5000x1_S2x5000x128_2_0_n_n_0_2_1128 rfl
    bcast_S_S2x5000 bcast_S2x5000_S2x5000x1_0_1
    (W (Proc.devRef .tc main_v145_1)) (W (Proc.devRef .tc main_arg28))

/-! ## Before the node stage -/

set_option maxHeartbeats 1000000 in
/-- The left and right sets' products added on, in one pass over 10000 rows. -/
theorem after_hostOps9_main_v193 :
    StableHlo.after (hostOps9 (F := Ideal)) W (Proc.devRef .tc main_v193)
      = Spec.toVec2 (Spec.scatterAddRows
          (Spec.ofVec2 (W (Proc.devRef .tc main_v168) : (⟨S50000x128, .f32⟩ : BufTy).Contents (Elt Ideal)))
          (fun r => ofWords2 (W (Proc.devRef .tc main_arg27) : (⟨S2x5000, .i32⟩ : BufTy).Contents (Elt Ideal))
            (Spec.lrRow r).1 (Spec.lrRow r).2)
          (fun r q => ofVec3 (W (Proc.devRef .tc main_v183) : (⟨S2x5000x128, .bf16⟩ : BufTy).Contents (Elt Ideal))
            (Spec.lrRow r).1 (Spec.lrRow r).2 q)) := by
  unfold hostOps9
  after_results
  exact wrapScatter (N := 50000) (K := 128) (B := 2) (E := 5000) (R := 10000) (by decide)
    scatter_S50000x128_S10000x1_S10000x128_1_0_0_1_wf scatter_S50000x128_S10000x1_S10000x128_1_0_0_1 rfl
    Spec.lrRow (fun r => by show r.val / 5000 * 5000 + r.val % 5000 = r.val; omega)
    shapeCasts_S2x5000_S10000 shapeCasts_S2x5000x128_S10000x128 bcast_S_S10000 bcast_S10000_S10000x1_0
    bitsLt_bf16_f32
    (W (Proc.devRef .tc main_v168)) (W (Proc.devRef .tc main_arg27)) (W (Proc.devRef .tc main_v183))

set_option maxHeartbeats 1000000 in
/-- The first normalisation's scale row … -/
theorem after_hostOps9_main_v204 :
    StableHlo.after (hostOps9 (F := Ideal)) W (Proc.devRef .tc main_v204)
      = Spec.toVec2 (fun (_ : Fin 1) q =>
          ofVec3 (W (Proc.devRef .tc main_arg18) : (⟨S4x2x128, .f32⟩ : BufTy).Contents (Elt Ideal)) 1 0 q) := by
  unfold hostOps9
  after_results
  exact sliceRow2 (x := W (Proc.devRef .tc main_arg18)) (i := 1) (s := 0) (off := ![1, 0, 0]) rfl rfl rfl
    slices_S4x2x128_S1x1x128_1_0_0 shapeCasts_S1x1x128_S128 shapeCasts_S128_S1x128

set_option maxHeartbeats 1000000 in
/-- … and shift row. -/
theorem after_hostOps9_main_v205 :
    StableHlo.after (hostOps9 (F := Ideal)) W (Proc.devRef .tc main_v205)
      = Spec.toVec2 (fun (_ : Fin 1) q =>
          ofVec3 (W (Proc.devRef .tc main_arg18) : (⟨S4x2x128, .f32⟩ : BufTy).Contents (Elt Ideal)) 1 1 q) := by
  unfold hostOps9
  after_results
  exact sliceRow2 (x := W (Proc.devRef .tc main_arg18)) (i := 1) (s := 1) (off := ![1, 1, 0]) rfl rfl rfl
    slices_S4x2x128_S1x1x128_1_1_0 shapeCasts_S1x1x128_S128 shapeCasts_S128_S1x128

set_option maxHeartbeats 1000000 in
/-- The node weight. -/
theorem after_hostOps9_main_v199 :
    StableHlo.after (hostOps9 (F := Ideal)) W (Proc.devRef .tc main_v199)
      = Spec.toVec2 (ofVec3 (W (Proc.devRef .tc main_arg19) : (⟨S4x128x128, .f32⟩ : BufTy).Contents (Elt Ideal)) 1) := by
  unfold hostOps9
  after_results
  exact sliceCast3 (x := W (Proc.devRef .tc main_arg19)) (i := 1) (off := ![1, 0, 0]) rfl rfl rfl
    slices_S4x128x128_S1x128x128_1_0_0 shapeCasts_S1x128x128_S128x128

set_option maxHeartbeats 1000000 in
/-- The second normalisation's scale row … -/
theorem after_hostOps9_main_v206 :
    StableHlo.after (hostOps9 (F := Ideal)) W (Proc.devRef .tc main_v206)
      = Spec.toVec2 (fun (_ : Fin 1) q =>
          ofVec3 (W (Proc.devRef .tc main_arg20) : (⟨S4x2x128, .f32⟩ : BufTy).Contents (Elt Ideal)) 1 0 q) := by
  unfold hostOps9
  after_results
  exact sliceRow2 (x := W (Proc.devRef .tc main_arg20)) (i := 1) (s := 0) (off := ![1, 0, 0]) rfl rfl rfl
    slices_S4x2x128_S1x1x128_1_0_0 shapeCasts_S1x1x128_S128 shapeCasts_S128_S1x128

set_option maxHeartbeats 1000000 in
/-- … and shift row. -/
theorem after_hostOps9_main_v207 :
    StableHlo.after (hostOps9 (F := Ideal)) W (Proc.devRef .tc main_v207)
      = Spec.toVec2 (fun (_ : Fin 1) q =>
          ofVec3 (W (Proc.devRef .tc main_arg20) : (⟨S4x2x128, .f32⟩ : BufTy).Contents (Elt Ideal)) 1 1 q) := by
  unfold hostOps9
  after_results
  exact sliceRow2 (x := W (Proc.devRef .tc main_arg20)) (i := 1) (s := 1) (off := ![1, 1, 0]) rfl rfl rfl
    slices_S4x2x128_S1x1x128_1_1_0 shapeCasts_S1x1x128_S128 shapeCasts_S128_S1x128

end Cert.KHostGg

end
-- ==== Proof.KReg6.lean ====
/-
  Region 6 (the plain matrix kernel on a [50000,128] input in 10 row tiles of 5000): what its result array holds when
  the region ends, as a function of the two arrays it read, at the ideal values.

  Grid point `t` loads the 5000 rows from row `5000 t` of the input and the whole [128,128] weight, multiplies the tile
  by the transposed weight into a zero accumulator, and writes the product to the same rows of the result. Entry
  (r, q) of the result is therefore `∑ j, x r j * w q j`, written by the point `r / 5000`; the 10 tiles cover every row.
-/
import proofs.«413166_j32323923870246_3_alg».proof.Proof.KIFrameR6
import proofs.«413166_j32323923870246_3_alg».proof.Proof.Spec
import proofs.«413166_j32323923870246_3_alg».proof.Proof.LibMatmul
import Idealize.ShloMosaic.Lib.Pipeline.Value

noncomputable section

namespace Cert.KReg6

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The input array and the weight as the region finds them, at their literal types. -/
abbrev xArr (c : Dev nD) : S50000x128.Idx → EReal := V c (Pipeline.arrRef spec6 0)
abbrev wArr (c : Dev nD) : S128x128.Idx → EReal := V c (Pipeline.arrRef spec6 1)

/-- What the result array ends holding: the input against the weight's rows. -/
abbrev G (c : Dev nD) : S50000x128.Idx → EReal :=
  Spec.toVec2 (Spec.lin (Spec.ofVec2 (xArr V c)) (Spec.ofVec2 (wArr V c)))

/-- The body's payload at (p, q): the tile's row `p` against the weight's row `q`. -/
theorem pay_apply (x0 : FVec Ideal S5000x128 .bf16) (x1 : FVec Ideal S128x128 .f32) (p : Fin 5000) (q : Fin 128) :
    k6_pay1 (F := Ideal) x0 x1 (ix2 p q) = ∑ j : Fin 128, x0 (ix2 p j) * x1 (ix2 q j) := by
  unfold k6_pay1
  exact LibMatmul.block_apply dot_S5000x128_S128x128_S5000x128_1_0_0_1_n_n rfl x0 x1 _ _ _ _ p q

/-- The printed index maps over the 10 points: the input tile and the result tile are tile `t` of their arrays, the
    weight's one block is the whole weight. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The input tile at point `t`, read at (p, j): row `5000 t + p` of the input array. -/
theorem xblk_apply (c : Dev nD) (t : Fin cfg6.N) (p : Fin 5000) (j : Fin 128) (r : Fin 50000)
    (hr : r.val = t.val * 5000 + p.val) :
    (iblk6 V c 0 t : Vec Ideal S5000x128 .bf16) (ix2 p j) = xArr V c (ix2 r j) := by
  obtain ⟨e0, e1, -, -, -, -⟩ := idx_facts t
  show xArr V c (((cfg6.win 0).blk t).view.emb (ix2 p j)) = xArr V c (ix2 r j)
  refine congrArg (xArr V c) (funext fun a => Fin.ext ?_)
  match a with
  | ⟨0, _⟩ => show win6_0.index t (0 : Fin 2) * 5000 + 1 * p.val = r.val; omega
  | ⟨1, _⟩ => show win6_0.index t (1 : Fin 2) * 128 + 1 * j.val = j.val; omega

/-- The weight's block at any point, read at (q, j): the weight array there. -/
theorem wblk_apply (c : Dev nD) (t : Fin cfg6.N) (q : Fin 128) (j : Fin 128) :
    (iblk6 V c 1 t : Vec Ideal S128x128 .f32) (ix2 q j) = wArr V c (ix2 q j) := by
  obtain ⟨-, -, e2, e3, -, -⟩ := idx_facts t
  show wArr V c (((cfg6.win 1).blk t).view.emb (ix2 q j)) = wArr V c (ix2 q j)
  refine congrArg (wArr V c) (funext fun a => Fin.ext ?_)
  match a with
  | ⟨0, _⟩ => show win6_1.index t (0 : Fin 2) * 128 + 1 * q.val = q.val; omega
  | ⟨1, _⟩ => show win6_1.index t (1 : Fin 2) * 128 + 1 * j.val = j.val; omega

/-- WHAT POINT `t` WRITES BACK is tile `t` of `G`. -/
theorem flushed_eq (c : Dev nD) (t : Fin cfg6.N) :
    (dat6 (F := Ideal) V c).flushed 2 t = ((cfg6.win 2).blk t).view.read (Elt Ideal) (G V c) := by
  show (cfg6.win 2).cut (grid6.coords t) ((dat6 (F := Ideal) V c).after 2 t) = _
  rw [after6_2]
  unfold out6_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_6
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  refine (pay_apply (iblk6 V c 0 t) (iblk6 V c 1 t) p q).trans ?_
  have hemb : ((cfg6.win 2).blk t).view.emb (ix2 p q) = (ix2 ⟨t.val * 5000 + p.val, hr⟩ q : S50000x128.Idx) := by
    funext a; apply Fin.ext
    match a with
    | ⟨0, _⟩ => show win6_2.index t (0 : Fin 2) * 5000 + 1 * p.val = t.val * 5000 + p.val; omega
    | ⟨1, _⟩ => show win6_2.index t (1 : Fin 2) * 128 + 1 * q.val = q.val; omega
  show _ = G V c (((cfg6.win 2).blk t).view.emb (ix2 p q))
  rw [hemb]
  show _ = ∑ j : Fin 128, xArr V c (ix2 ⟨t.val * 5000 + p.val, hr⟩ j) * wArr V c (ix2 q j)
  refine Finset.sum_congr rfl fun j _ => ?_
  rw [xblk_apply V c t p j ⟨t.val * 5000 + p.val, hr⟩ rfl, wblk_apply V c t q j]

/-- An index of the result array is in point `t`'s tile iff each coordinate is in the tile's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v148).slice (win6_2.rect t)).set ↔ _
  rw [View.set_slice_whole, Rect.mem_set_unit]
  exact Iff.rfl

/-- Every index of the result array is in some point's tile: row `r` is in tile `r / 5000`. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, e4, e5⟩ := idx_facts t
  refine ⟨t, flush6_2 t, ?_⟩
  rw [mem_blk]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- THE RESULT ARRAY when the region ends: the input against the weight's rows, entry (r, q) = `∑ j, x r j * w q j`. -/
theorem arr6_out (c : Dev nD) : (dat6 (F := Ideal) V c).arrAt 2 cfg6.N =
    Spec.toVec2 (Spec.lin (Spec.ofVec2 (V c (Pipeline.arrRef spec6 0))) (Spec.ofVec2 (V c (Pipeline.arrRef spec6 1)))) :=
  (dat6 (F := Ideal) V c).arrAt_eq_of_cover 2 (G V c) (fun t _ => flushed_eq V c t) cover

end Cert.KReg6

end
-- ==== Proof.KReg7.lean ====
/-
  Region 7 (the batched matrix kernel on a [12,50000,128] input, grid 12 × 10: member by member, 10 row tiles of 5000):
  what its result array holds when the region ends, as a function of the two arrays it read, at the ideal values.

  Grid point `t` is member `t / 10`, tile `t % 10`: it loads the 5000 rows from row `5000 (t % 10)` of that member of the input and
  that member's whole [128,128] weight, multiplies the tile by the transposed weight into a zero accumulator, and writes
  the product to the same member and rows of the result. Entry (s, r, q) of the result is therefore
  `∑ j, x s r j * w s q j`, written by the point `10 s + r / 5000`; the 120 tiles cover every entry.
-/
import proofs.«413166_j32323923870246_3_alg».proof.Proof.KIFrameR7
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg7

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S12x50000x128.Idx → EReal := V c (Pipeline.arrRef spec7 0)
abbrev wArr (c : Dev nD) : S12x128x128.Idx → EReal := V c (Pipeline.arrRef spec7 1)

/-- What the result array ends holding: each member of the input against the rows of the same member of the weight. -/
abbrev G (c : Dev nD) : S12x50000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k7_pay1 (F := Ideal) x0 x1 (ix3 0 p q) = ∑ j : Fin 128, x0 (ix3 0 p j) * x1 (ix3 0 q j) := by
  unfold k7_pay1
  exact LibMatmul.block3_apply dot_S5000x128_S128x128_S5000x128_1_0_0_1_n_n rfl x0 x1 _ _ _ _ _ p q

/-- The printed index maps over the 120 points: the input tile and the result tile are tile `t % 10` of member
    `t / 10`, the weight's block is that member's whole weight. -/
theorem idx_facts : ∀ t : Fin cfg7.N, win7_0.index t (0 : Fin 3) = t.val / 10 ∧ win7_0.index t (1 : Fin 3) = t.val % 10
    ∧ win7_0.index t (2 : Fin 3) = 0
    ∧ win7_1.index t (0 : Fin 3) = t.val / 10 ∧ win7_1.index t (1 : Fin 3) = 0 ∧ win7_1.index t (2 : Fin 3) = 0
    ∧ win7_2.index t (0 : Fin 3) = t.val / 10 ∧ win7_2.index t (1 : Fin 3) = t.val % 10
    ∧ win7_2.index t (2 : Fin 3) = 0 :=
  (by decide +kernel : ∀ t : Fin grid7.N, _)

/-- The input tile at point `t`, read at (0, p, j): member `t / 10`, row `5000 (t % 10) + p` of the input array. -/
theorem xblk_apply (c : Dev nD) (t : Fin cfg7.N) (p : Fin 5000) (j : Fin 128) (s : Fin 12) (r : Fin 50000)
    (hs : s.val = t.val / 10) (hr : r.val = t.val % 10 * 5000 + p.val) :
    (iblk7 V c 0 t : Vec Ideal S1x5000x128 .bf16) (ix3 0 p j) = xArr V c (ix3 s r j) := by
  obtain ⟨e0, e1, e2, -, -, -, -, -, -⟩ := idx_facts t
  show xArr V c (((cfg7.win 0).blk t).view.emb (ix3 0 p j)) = xArr V c (ix3 s r j)
  refine congrArg (xArr V c) (funext fun a => Fin.ext ?_)
  match a with
  | ⟨0, _⟩ => show win7_0.index t (0 : Fin 3) * 1 + 1 * 0 = s.val; omega
  | ⟨1, _⟩ => show win7_0.index t (1 : Fin 3) * 5000 + 1 * p.val = r.val; omega
  | ⟨2, _⟩ => show win7_0.index t (2 : Fin 3) * 128 + 1 * j.val = j.val; omega

/-- The weight's block at point `t`, read at (0, q, j): member `t / 10` of the weight array there. -/
theorem wblk_apply (c : Dev nD) (t : Fin cfg7.N) (q : Fin 128) (j : Fin 128) (s : Fin 12) (hs : s.val = t.val / 10) :
    (iblk7 V c 1 t : Vec Ideal S1x128x128 .f32) (ix3 0 q j) = wArr V c (ix3 s q j) := by
  obtain ⟨-, -, -, e3, e4, e5, -, -, -⟩ := idx_facts t
  show wArr V c (((cfg7.win 1).blk t).view.emb (ix3 0 q j)) = wArr V c (ix3 s q j)
  refine congrArg (wArr V c) (funext fun a => Fin.ext ?_)
  match a with
  | ⟨0, _⟩ => show win7_1.index t (0 : Fin 3) * 1 + 1 * 0 = s.val; omega
  | ⟨1, _⟩ => show win7_1.index t (1 : Fin 3) * 128 + 1 * q.val = q.val; omega
  | ⟨2, _⟩ => show win7_1.index t (2 : Fin 3) * 128 + 1 * j.val = j.val; omega

/-- WHAT POINT `t` WRITES BACK is its tile of `G`. -/
theorem flushed_eq (c : Dev nD) (t : Fin cfg7.N) :
    (dat7 (F := Ideal) V c).flushed 2 t = ((cfg7.win 2).blk t).view.read (Elt Ideal) (G V c) := by
  show (cfg7.win 2).cut (grid7.coords t) ((dat7 (F := Ideal) V c).after 2 t) = _
  rw [after7_2]
  unfold out7_2
  rw [View.canon_unit_zero hz]
  simp only [View.ld_unit_zero (S := S1x5000x128) hz, View.ld_unit_zero (S := S1x128x128) hz]
  obtain ⟨-, -, -, -, -, -, e6, e7, e8⟩ := idx_facts t
  have ht : t.val < 120 := lt_of_lt_of_eq t.isLt N_7
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 10 < 12 := by omega
  have hr : t.val % 10 * 5000 + p.val < 50000 := by have := p.isLt; omega
  refine (pay_apply (iblk7 V c 0 t) (iblk7 V c 1 t) p q).trans ?_
  have hemb : ((cfg7.win 2).blk t).view.emb (ix3 0 p q)
      = (ix3 ⟨t.val / 10, hs⟩ ⟨t.val % 10 * 5000 + p.val, hr⟩ q : S12x50000x128.Idx) := by
    funext a; apply Fin.ext
    match a with
    | ⟨0, _⟩ => show win7_2.index t (0 : Fin 3) * 1 + 1 * 0 = t.val / 10; omega
    | ⟨1, _⟩ => show win7_2.index t (1 : Fin 3) * 5000 + 1 * p.val = t.val % 10 * 5000 + p.val; omega
    | ⟨2, _⟩ => show win7_2.index t (2 : Fin 3) * 128 + 1 * q.val = q.val; omega
  show _ = G V c (((cfg7.win 2).blk t).view.emb (ix3 0 p q))
  rw [hemb]
  show _ = ∑ j : Fin 128, xArr V c (ix3 ⟨t.val / 10, hs⟩ ⟨t.val % 10 * 5000 + p.val, hr⟩ j) * wArr V c (ix3 ⟨t.val / 10, hs⟩ q j)
  refine Finset.sum_congr rfl fun j _ => ?_
  rw [xblk_apply V c t p j ⟨t.val / 10, hs⟩ ⟨t.val % 10 * 5000 + p.val, hr⟩ rfl rfl, wblk_apply V c t q j ⟨t.val / 10, hs⟩ rfl]

/-- An index of the result array is in point `t`'s tile iff each coordinate is in the tile's range on its axis. -/
theorem mem_blk (t : Fin cfg7.N) (i : S12x50000x128.Idx) :
    i ∈ ((cfg7.win 2).blk t).view.set ↔ ∀ a : Fin 3, win7_2.index t a * S1x5000x128.size a ≤ (i a).val ∧ (i a).val < win7_2.index t a * S1x5000x128.size a + S1x5000x128.size a := by
  show i ∈ ((View.whole main_v158).slice (win7_2.rect t)).set ↔ _
  rw [View.set_slice_whole, Rect.mem_set_unit]
  exact Iff.rfl

/-- Every index of the result array is in some point's tile: member `s`, row `r` is in the tile of point `10 s + r / 5000`. -/
theorem cover (i : S12x50000x128.Idx) : ∃ t : Fin cfg7.N, (cfg7.win 2).flush t = true ∧ i ∈ ((cfg7.win 2).blk t).view.set := by
  have hi0 : (i 0).val < 12 := (i 0).isLt
  have hi1 : (i 1).val < 50000 := (i 1).isLt
  have hi2 : (i 2).val < 128 := (i 2).isLt
  have hN : cfg7.N = 120 := N_7
  obtain ⟨t, ht⟩ : ∃ t : Fin cfg7.N, t.val = (i 0).val * 10 + (i 1).val / 5000 :=
    ⟨⟨(i 0).val * 10 + (i 1).val / 5000, by rw [hN]; omega⟩, rfl⟩
  obtain ⟨-, -, -, -, -, -, e6, e7, e8⟩ := idx_facts t
  refine ⟨t, flush7_2 t, ?_⟩
  rw [mem_blk]
  intro a
  match a with
  | ⟨0, _⟩ =>
    show win7_2.index t (0 : Fin 3) * 1 ≤ (i 0).val ∧ (i 0).val < win7_2.index t (0 : Fin 3) * 1 + 1
    omega
  | ⟨1, _⟩ =>
    show win7_2.index t (1 : Fin 3) * 5000 ≤ (i 1).val ∧ (i 1).val < win7_2.index t (1 : Fin 3) * 5000 + 5000
    omega
  | ⟨2, _⟩ =>
    show win7_2.index t (2 : Fin 3) * 128 ≤ (i 2).val ∧ (i 2).val < win7_2.index t (2 : Fin 3) * 128 + 128
    omega

/-- THE RESULT ARRAY when the region ends: each member of the input against the rows of the same member of the weight,
    entry (s, r, q) = `∑ j, x s r j * w s q j`. -/
theorem arr7_out (c : Dev nD) : (dat7 (F := Ideal) V c).arrAt 2 cfg7.N =
    Stack.toVec3 (Stack.lin3 (Stack.ofVec3 (V c (Pipeline.arrRef spec7 0))) (Stack.ofVec3 (V c (Pipeline.arrRef spec7 1)))) :=
  (dat7 (F := Ideal) V c).arrAt_eq_of_cover 2 (G V c) (fun t _ => flushed_eq V c t) cover

end Cert.KReg7

end
-- ==== Proof.KReg8.lean ====
/-
  Region 8 (the batched matrix kernel on a [2,5000,128] input, grid 2 × 1: member by member, 1 row tiles of 5000):
  what its result array holds when the region ends, as a function of the two arrays it read, at the ideal values.

  Grid point `t` is member `t / 1`, tile `t % 1`: it loads the 5000 rows from row `5000 (t % 1)` of that member of the input and
  that member's whole [128,128] weight, multiplies the tile by the transposed weight into a zero accumulator, and writes
  the product to the same member and rows of the result. Entry (s, r, q) of the result is therefore
  `∑ j, x s r j * w s q j`, written by the point `1 s + r / 5000`; the 2 tiles cover every entry.
-/
import proofs.«413166_j32323923870246_3_alg».proof.Proof.KIFrameR8
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg8

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S2x5000x128.Idx → EReal := V c (Pipeline.arrRef spec8 0)
abbrev wArr (c : Dev nD) : S2x128x128.Idx → EReal := V c (Pipeline.arrRef spec8 1)

/-- What the result array ends holding: each member of the input against the rows of the same member of the weight. -/
abbrev G (c : Dev nD) : S2x5000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k8_pay1 (F := Ideal) x0 x1 (ix3 0 p q) = ∑ j : Fin 128, x0 (ix3 0 p j) * x1 (ix3 0 q j) := by
  unfold k8_pay1
  exact LibMatmul.block3_apply dot_S5000x128_S128x128_S5000x128_1_0_0_1_n_n rfl x0 x1 _ _ _ _ _ p q

/-- The printed index maps over the 2 points: the input tile and the result tile are tile `t % 1` of member
    `t / 1`, the weight's block is that member's whole weight. -/
theorem idx_facts : ∀ t : Fin cfg8.N, win8_0.index t (0 : Fin 3) = t.val / 1 ∧ win8_0.index t (1 : Fin 3) = t.val % 1
    ∧ win8_0.index t (2 : Fin 3) = 0
    ∧ win8_1.index t (0 : Fin 3) = t.val / 1 ∧ win8_1.index t (1 : Fin 3) = 0 ∧ win8_1.index t (2 : Fin 3) = 0
    ∧ win8_2.index t (0 : Fin 3) = t.val / 1 ∧ win8_2.index t (1 : Fin 3) = t.val % 1
    ∧ win8_2.index t (2 : Fin 3) = 0 :=
  (by decide +kernel : ∀ t : Fin grid8.N, _)

/-- The input tile at point `t`, read at (0, p, j): member `t / 1`, row `5000 (t % 1) + p` of the input array. -/
theorem xblk_apply (c : Dev nD) (t : Fin cfg8.N) (p : Fin 5000) (j : Fin 128) (s : Fin 2) (r : Fin 5000)
    (hs : s.val = t.val / 1) (hr : r.val = t.val % 1 * 5000 + p.val) :
    (iblk8 V c 0 t : Vec Ideal S1x5000x128 .bf16) (ix3 0 p j) = xArr V c (ix3 s r j) := by
  obtain ⟨e0, e1, e2, -, -, -, -, -, -⟩ := idx_facts t
  show xArr V c (((cfg8.win 0).blk t).view.emb (ix3 0 p j)) = xArr V c (ix3 s r j)
  refine congrArg (xArr V c) (funext fun a => Fin.ext ?_)
  match a with
  | ⟨0, _⟩ => show win8_0.index t (0 : Fin 3) * 1 + 1 * 0 = s.val; omega
  | ⟨1, _⟩ => show win8_0.index t (1 : Fin 3) * 5000 + 1 * p.val = r.val; omega
  | ⟨2, _⟩ => show win8_0.index t (2 : Fin 3) * 128 + 1 * j.val = j.val; omega

/-- The weight's block at point `t`, read at (0, q, j): member `t / 1` of the weight array there. -/
theorem wblk_apply (c : Dev nD) (t : Fin cfg8.N) (q : Fin 128) (j : Fin 128) (s : Fin 2) (hs : s.val = t.val / 1) :
    (iblk8 V c 1 t : Vec Ideal S1x128x128 .f32) (ix3 0 q j) = wArr V c (ix3 s q j) := by
  obtain ⟨-, -, -, e3, e4, e5, -, -, -⟩ := idx_facts t
  show wArr V c (((cfg8.win 1).blk t).view.emb (ix3 0 q j)) = wArr V c (ix3 s q j)
  refine congrArg (wArr V c) (funext fun a => Fin.ext ?_)
  match a with
  | ⟨0, _⟩ => show win8_1.index t (0 : Fin 3) * 1 + 1 * 0 = s.val; omega
  | ⟨1, _⟩ => show win8_1.index t (1 : Fin 3) * 128 + 1 * q.val = q.val; omega
  | ⟨2, _⟩ => show win8_1.index t (2 : Fin 3) * 128 + 1 * j.val = j.val; omega

/-- WHAT POINT `t` WRITES BACK is its tile of `G`. -/
theorem flushed_eq (c : Dev nD) (t : Fin cfg8.N) :
    (dat8 (F := Ideal) V c).flushed 2 t = ((cfg8.win 2).blk t).view.read (Elt Ideal) (G V c) := by
  show (cfg8.win 2).cut (grid8.coords t) ((dat8 (F := Ideal) V c).after 2 t) = _
  rw [after8_2]
  unfold out8_2
  rw [View.canon_unit_zero hz]
  simp only [View.ld_unit_zero (S := S1x5000x128) hz, View.ld_unit_zero (S := S1x128x128) hz]
  obtain ⟨-, -, -, -, -, -, e6, e7, e8⟩ := idx_facts t
  have ht : t.val < 2 := lt_of_lt_of_eq t.isLt N_8
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 1 < 2 := by omega
  have hr : t.val % 1 * 5000 + p.val < 5000 := by have := p.isLt; omega
  refine (pay_apply (iblk8 V c 0 t) (iblk8 V c 1 t) p q).trans ?_
  have hemb : ((cfg8.win 2).blk t).view.emb (ix3 0 p q)
      = (ix3 ⟨t.val / 1, hs⟩ ⟨t.val % 1 * 5000 + p.val, hr⟩ q : S2x5000x128.Idx) := by
    funext a; apply Fin.ext
    match a with
    | ⟨0, _⟩ => show win8_2.index t (0 : Fin 3) * 1 + 1 * 0 = t.val / 1; omega
    | ⟨1, _⟩ => show win8_2.index t (1 : Fin 3) * 5000 + 1 * p.val = t.val % 1 * 5000 + p.val; omega
    | ⟨2, _⟩ => show win8_2.index t (2 : Fin 3) * 128 + 1 * q.val = q.val; omega
  show _ = G V c (((cfg8.win 2).blk t).view.emb (ix3 0 p q))
  rw [hemb]
  show _ = ∑ j : Fin 128, xArr V c (ix3 ⟨t.val / 1, hs⟩ ⟨t.val % 1 * 5000 + p.val, hr⟩ j) * wArr V c (ix3 ⟨t.val / 1, hs⟩ q j)
  refine Finset.sum_congr rfl fun j _ => ?_
  rw [xblk_apply V c t p j ⟨t.val / 1, hs⟩ ⟨t.val % 1 * 5000 + p.val, hr⟩ rfl rfl, wblk_apply V c t q j ⟨t.val / 1, hs⟩ rfl]

/-- An index of the result array is in point `t`'s tile iff each coordinate is in the tile's range on its axis. -/
theorem mem_blk (t : Fin cfg8.N) (i : S2x5000x128.Idx) :
    i ∈ ((cfg8.win 2).blk t).view.set ↔ ∀ a : Fin 3, win8_2.index t a * S1x5000x128.size a ≤ (i a).val ∧ (i a).val < win8_2.index t a * S1x5000x128.size a + S1x5000x128.size a := by
  show i ∈ ((View.whole main_v183).slice (win8_2.rect t)).set ↔ _
  rw [View.set_slice_whole, Rect.mem_set_unit]
  exact Iff.rfl

/-- Every index of the result array is in some point's tile: member `s`, row `r` is in the tile of point `1 s + r / 5000`. -/
theorem cover (i : S2x5000x128.Idx) : ∃ t : Fin cfg8.N, (cfg8.win 2).flush t = true ∧ i ∈ ((cfg8.win 2).blk t).view.set := by
  have hi0 : (i 0).val < 2 := (i 0).isLt
  have hi1 : (i 1).val < 5000 := (i 1).isLt
  have hi2 : (i 2).val < 128 := (i 2).isLt
  have hN : cfg8.N = 2 := N_8
  obtain ⟨t, ht⟩ : ∃ t : Fin cfg8.N, t.val = (i 0).val * 1 + (i 1).val / 5000 :=
    ⟨⟨(i 0).val * 1 + (i 1).val / 5000, by rw [hN]; omega⟩, rfl⟩
  obtain ⟨-, -, -, -, -, -, e6, e7, e8⟩ := idx_facts t
  refine ⟨t, flush8_2 t, ?_⟩
  rw [mem_blk]
  intro a
  match a with
  | ⟨0, _⟩ =>
    show win8_2.index t (0 : Fin 3) * 1 ≤ (i 0).val ∧ (i 0).val < win8_2.index t (0 : Fin 3) * 1 + 1
    omega
  | ⟨1, _⟩ =>
    show win8_2.index t (1 : Fin 3) * 5000 ≤ (i 1).val ∧ (i 1).val < win8_2.index t (1 : Fin 3) * 5000 + 5000
    omega
  | ⟨2, _⟩ =>
    show win8_2.index t (2 : Fin 3) * 128 ≤ (i 2).val ∧ (i 2).val < win8_2.index t (2 : Fin 3) * 128 + 128
    omega

/-- THE RESULT ARRAY when the region ends: each member of the input against the rows of the same member of the weight,
    entry (s, r, q) = `∑ j, x s r j * w s q j`. -/
theorem arr8_out (c : Dev nD) : (dat8 (F := Ideal) V c).arrAt 2 cfg8.N =
    Stack.toVec3 (Stack.lin3 (Stack.ofVec3 (V c (Pipeline.arrRef spec8 0))) (Stack.ofVec3 (V c (Pipeline.arrRef spec8 1)))) :=
  (dat8 (F := Ideal) V c).arrAt_eq_of_cover 2 (G V c) (fun t _ => flushed_eq V c t) cover

end Cert.KReg8

end
-- ==== Proof.KReg9.lean ====
/-
  The node stage of the second fusion layer (region 9 of the kernel program), as a function of the arrays the region
  finds. The grid has ten points; point t stages rows 5000 t .. 5000 t + 4999 of the feature array (window 0) and of
  the residual array (window 1), the whole of the two normalisations' scale and shift rows and of the weight
  (windows 2 to 6), and writes the same rows of the two output arrays (window 7 in f32, window 8 in bf16, which over
  the extended reals is the same value). The body's result on a tile is the specification's node stage of the tile,
  and that stage acts on each row by itself, so row p of point t's tile is row 5000 t + p of the node stage of the
  whole arrays. The ten tiles cover the 50000 rows, so each output array ends holding that node stage.
-/
import proofs.«413166_j32323923870246_3_alg».proof.Proof.Spec
import proofs.«413166_j32323923870246_3_alg».proof.Proof.KGgLib
import proofs.«413166_j32323923870246_3_alg».proof.Proof.KIFrameR9
import Idealize.ShloMosaic.Lib.Pipeline.Value

noncomputable section

namespace Cert.GgTail.R9

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The body's two stored values are the tile's node stage -/

theorem pay7_eq (x0 x1 : Vec Ideal S5000x128 .f32) (x2 x3 : Vec Ideal S1x128 .f32) (x4 : Vec Ideal S128x128 .f32)
    (x5 x6 : Vec Ideal S1x128 .f32) :
    k9_pay1 (k9_pay3 x0 x2 x3 x4) (k9_pay4 x5) (k9_pay5 x6) x1 = ggVec x0 x1 x2 x3 x4 x5 x6 := rfl

theorem pay8_eq (x0 x1 : Vec Ideal S5000x128 .f32) (x2 x3 : Vec Ideal S1x128 .f32) (x4 : Vec Ideal S128x128 .f32)
    (x5 x6 : Vec Ideal S1x128 .f32) :
    k9_pay2 (k9_pay3 x0 x2 x3 x4) (k9_pay4 x5) (k9_pay5 x6) x1 = ggVec x0 x1 x2 x3 x4 x5 x6 := rfl

/-! ## Where each window's block lies in its array -/

/-- The block index of every window at every point: the row-tiled windows are at block row t, the others at zero. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0
    ∧ win9_8.index t (0 : Fin 2) = t.val ∧ win9_8.index t (1 : Fin 2) = 0 :=
  (by decide +kernel : ∀ t : Fin grid9.N, _)

/-- Row p of the feature window's block at point t is row 5000 t + p of the feature array. -/
theorem blk0_row (c : Dev nD) (t : Fin cfg9.N) (p : Fin 5000) (k : Fin 128) (r : Fin 50000)
    (hr : r.val = 5000 * t.val + p.val) :
    (iblk9 V c 0 t : Vec Ideal S5000x128 .f32) (ix2 p k) = Spec.ofVec2 (V c (Pipeline.arrRef spec9 0)) r k := by
  obtain ⟨e0, e1, -⟩ := idx_facts t
  unfold iblk9
  rw [View.read_apply]
  show V c (Pipeline.arrRef spec9 0) _ = V c (Pipeline.arrRef spec9 0) (ix2 r k)
  congr 1
  funext a
  apply Fin.ext
  match a with
  | ⟨0, _⟩ => show win9_0.index t (0 : Fin 2) * 5000 + 1 * p.val = r.val; rw [e0, hr]; omega
  | ⟨1, _⟩ => show win9_0.index t (1 : Fin 2) * 128 + 1 * k.val = k.val; rw [e1]; omega

/-- Row p of the residual window's block at point t is row 5000 t + p of the residual array. -/
theorem blk1_row (c : Dev nD) (t : Fin cfg9.N) (p : Fin 5000) (k : Fin 128) (r : Fin 50000)
    (hr : r.val = 5000 * t.val + p.val) :
    (iblk9 V c 1 t : Vec Ideal S5000x128 .f32) (ix2 p k) = Spec.ofVec2 (V c (Pipeline.arrRef spec9 1)) r k := by
  obtain ⟨-, -, e0, e1, -⟩ := idx_facts t
  unfold iblk9
  rw [View.read_apply]
  show V c (Pipeline.arrRef spec9 1) _ = V c (Pipeline.arrRef spec9 1) (ix2 r k)
  congr 1
  funext a
  apply Fin.ext
  match a with
  | ⟨0, _⟩ => show win9_1.index t (0 : Fin 2) * 5000 + 1 * p.val = r.val; rw [e0, hr]; omega
  | ⟨1, _⟩ => show win9_1.index t (1 : Fin 2) * 128 + 1 * k.val = k.val; rw [e1]; omega

/-- The scale and shift rows and the weight are staged whole at every point. -/
theorem blk2_whole (c : Dev nD) (t : Fin cfg9.N) :
    (iblk9 V c 2 t : Vec Ideal S1x128 .f32) = V c (Pipeline.arrRef spec9 2) := by
  obtain ⟨-, -, -, -, e0, e1, -⟩ := idx_facts t
  funext j
  unfold iblk9
  rw [View.read_apply]
  show V c (Pipeline.arrRef spec9 2) _ = V c (Pipeline.arrRef spec9 2) j
  congr 1
  funext a
  apply Fin.ext
  match a with
  | ⟨0, _⟩ => show win9_2.index t (0 : Fin 2) * 1 + 1 * (j 0).val = (j 0).val; rw [e0]; omega
  | ⟨1, _⟩ => show win9_2.index t (1 : Fin 2) * 128 + 1 * (j 1).val = (j 1).val; rw [e1]; omega

theorem blk3_whole (c : Dev nD) (t : Fin cfg9.N) :
    (iblk9 V c 3 t : Vec Ideal S1x128 .f32) = V c (Pipeline.arrRef spec9 3) := by
  obtain ⟨-, -, -, -, -, -, e0, e1, -⟩ := idx_facts t
  funext j
  unfold iblk9
  rw [View.read_apply]
  show V c (Pipeline.arrRef spec9 3) _ = V c (Pipeline.arrRef spec9 3) j
  congr 1
  funext a
  apply Fin.ext
  match a with
  | ⟨0, _⟩ => show win9_3.index t (0 : Fin 2) * 1 + 1 * (j 0).val = (j 0).val; rw [e0]; omega
  | ⟨1, _⟩ => show win9_3.index t (1 : Fin 2) * 128 + 1 * (j 1).val = (j 1).val; rw [e1]; omega

theorem blk4_whole (c : Dev nD) (t : Fin cfg9.N) :
    (iblk9 V c 4 t : Vec Ideal S128x128 .f32) = V c (Pipeline.arrRef spec9 4) := by
  obtain ⟨-, -, -, -, -, -, -, -, e0, e1, -⟩ := idx_facts t
  funext j
  unfold iblk9
  rw [View.read_apply]
  show V c (Pipeline.arrRef spec9 4) _ = V c (Pipeline.arrRef spec9 4) j
  congr 1
  funext a
  apply Fin.ext
  match a with
  | ⟨0, _⟩ => show win9_4.index t (0 : Fin 2) * 128 + 1 * (j 0).val = (j 0).val; rw [e0]; omega
  | ⟨1, _⟩ => show win9_4.index t (1 : Fin 2) * 128 + 1 * (j 1).val = (j 1).val; rw [e1]; omega

theorem blk5_whole (c : Dev nD) (t : Fin cfg9.N) :
    (iblk9 V c 5 t : Vec Ideal S1x128 .f32) = V c (Pipeline.arrRef spec9 5) := by
  obtain ⟨-, -, -, -, -, -, -, -, -, -, e0, e1, -⟩ := idx_facts t
  funext j
  unfold iblk9
  rw [View.read_apply]
  show V c (Pipeline.arrRef spec9 5) _ = V c (Pipeline.arrRef spec9 5) j
  congr 1
  funext a
  apply Fin.ext
  match a with
  | ⟨0, _⟩ => show win9_5.index t (0 : Fin 2) * 1 + 1 * (j 0).val = (j 0).val; rw [e0]; omega
  | ⟨1, _⟩ => show win9_5.index t (1 : Fin 2) * 128 + 1 * (j 1).val = (j 1).val; rw [e1]; omega

theorem blk6_whole (c : Dev nD) (t : Fin cfg9.N) :
    (iblk9 V c 6 t : Vec Ideal S1x128 .f32) = V c (Pipeline.arrRef spec9 6) := by
  obtain ⟨-, -, -, -, -, -, -, -, -, -, -, -, e0, e1, -⟩ := idx_facts t
  funext j
  unfold iblk9
  rw [View.read_apply]
  show V c (Pipeline.arrRef spec9 6) _ = V c (Pipeline.arrRef spec9 6) j
  congr 1
  funext a
  apply Fin.ext
  match a with
  | ⟨0, _⟩ => show win9_6.index t (0 : Fin 2) * 1 + 1 * (j 0).val = (j 0).val; rw [e0]; omega
  | ⟨1, _⟩ => show win9_6.index t (1 : Fin 2) * 128 + 1 * (j 1).val = (j 1).val; rw [e1]; omega

/-! ## What each point writes back -/

/-- The node stage of the arrays the region finds, as one [50000, 128] array. -/
abbrev G (c : Dev nD) : S50000x128.Idx → EReal :=
  Spec.toVec2 (Spec.ggTail (Spec.ofVec2 (V c (Pipeline.arrRef spec9 0))) (Spec.ofVec2 (V c (Pipeline.arrRef spec9 1)))
    (fun q => V c (Pipeline.arrRef spec9 2) (ValueIdx.ix2 0 q)) (fun q => V c (Pipeline.arrRef spec9 3) (ValueIdx.ix2 0 q))
    (Spec.ofVec2 (V c (Pipeline.arrRef spec9 4))) (fun q => V c (Pipeline.arrRef spec9 5) (ValueIdx.ix2 0 q))
    (fun q => V c (Pipeline.arrRef spec9 6) (ValueIdx.ix2 0 q)))

/-- The body's value on point t's blocks, at row p, is row 5000 t + p of that array. -/
theorem tile_eq (c : Dev nD) (t : Fin cfg9.N) (p : Fin 5000) (k : Fin 128) (r : Fin 50000)
    (hr : r.val = 5000 * t.val + p.val) :
    ggVec (iblk9 V c 0 t) (iblk9 V c 1 t) (iblk9 V c 2 t) (iblk9 V c 3 t) (iblk9 V c 4 t) (iblk9 V c 5 t) (iblk9 V c 6 t) (ix2 p k)
      = G V c (ix2 r k) := by
  refine (ggVec_tile (iblk9 V c 0 t) (iblk9 V c 1 t) (iblk9 V c 2 t) (iblk9 V c 3 t) (iblk9 V c 4 t) (iblk9 V c 5 t)
    (iblk9 V c 6 t) (Spec.ofVec2 (V c (Pipeline.arrRef spec9 0))) (Spec.ofVec2 (V c (Pipeline.arrRef spec9 1))) p k r
    (fun k' => blk0_row V c t p k' r hr) (fun k' => blk1_row V c t p k' r hr)).trans ?_
  rw [blk2_whole V c t, blk3_whole V c t, blk4_whole V c t, blk5_whole V c t, blk6_whole V c t]
  rfl

/-- Point t's block of an output window, embedded in the array: row 5000 t + p, column k. -/
theorem emb7 (t : Fin cfg9.N) (p : Fin 5000) (k : Fin 128) (r : Fin 50000) (hr : r.val = 5000 * t.val + p.val) :
    ((cfg9.win 7).blk t).view.emb (ix2 p k) = (ix2 r k : S50000x128.Idx) := by
  obtain ⟨-, -, -, -, -, -, -, -, -, -, -, -, -, -, e0, e1, -⟩ := idx_facts t
  funext a
  apply Fin.ext
  match a with
  | ⟨0, _⟩ => show win9_7.index t (0 : Fin 2) * 5000 + 1 * p.val = r.val; rw [e0, hr]; omega
  | ⟨1, _⟩ => show win9_7.index t (1 : Fin 2) * 128 + 1 * k.val = k.val; rw [e1]; omega

theorem emb8 (t : Fin cfg9.N) (p : Fin 5000) (k : Fin 128) (r : Fin 50000) (hr : r.val = 5000 * t.val + p.val) :
    ((cfg9.win 8).blk t).view.emb (ix2 p k) = (ix2 r k : S50000x128.Idx) := by
  obtain ⟨-, -, -, -, -, -, -, -, -, -, -, -, -, -, -, -, e0, e1⟩ := idx_facts t
  funext a
  apply Fin.ext
  match a with
  | ⟨0, _⟩ => show win9_8.index t (0 : Fin 2) * 5000 + 1 * p.val = r.val; rw [e0, hr]; omega
  | ⟨1, _⟩ => show win9_8.index t (1 : Fin 2) * 128 + 1 * k.val = k.val; rw [e1]; omega

/-- What point t writes back to the f32 output is block t of the node stage of the arrays. -/
theorem flushed7_eq (c : Dev nD) (t : Fin cfg9.N) :
    (dat9 V c).flushed 7 t = ((cfg9.win 7).blk t).view.read (Elt Ideal) (G V c) := by
  have hN : cfg9.N = 10 := N_9
  have ht : t.val < 10 := by have h := t.isLt; omega
  show (cfg9.win 7).cut (grid9.coords t) ((dat9 V c).after 7 t) = _
  rw [after9_7]
  unfold out9_7
  rw [View.canon_unit_zero hz2]
  simp only [View.ld_unit_zero (S := S5000x128) hz2, View.ld_unit_zero (S := S1x128) hz2, View.ld_unit_zero (S := S128x128) hz2]
  show (k9_pay1 (k9_pay3 (iblk9 V c 0 t) (iblk9 V c 2 t) (iblk9 V c 3 t) (iblk9 V c 4 t)) (k9_pay4 (iblk9 V c 5 t))
      (k9_pay5 (iblk9 V c 6 t)) (iblk9 V c 1 t) : S5000x128.Idx → EReal)
    = fun j : S5000x128.Idx => G V c (((cfg9.win 7).blk t).view.emb j)
  refine tile_ext _ _ fun p k => ?_
  refine (congrFun (pay7_eq (iblk9 V c 0 t) (iblk9 V c 1 t) (iblk9 V c 2 t) (iblk9 V c 3 t) (iblk9 V c 4 t) (iblk9 V c 5 t)
    (iblk9 V c 6 t)) (ix2 p k)).trans ?_
  refine (tile_eq V c t p k ⟨5000 * t.val + p.val, by have := p.isLt; omega⟩ rfl).trans ?_
  exact congrArg (G V c) (emb7 t p k ⟨5000 * t.val + p.val, by have := p.isLt; omega⟩ rfl).symm

/-- What point t writes back to the bf16 output is the same block. -/
theorem flushed8_eq (c : Dev nD) (t : Fin cfg9.N) :
    (dat9 V c).flushed 8 t = ((cfg9.win 8).blk t).view.read (Elt Ideal) (G V c) := by
  have hN : cfg9.N = 10 := N_9
  have ht : t.val < 10 := by have h := t.isLt; omega
  show (cfg9.win 8).cut (grid9.coords t) ((dat9 V c).after 8 t) = _
  rw [after9_8]
  unfold out9_8
  rw [View.canon_unit_zero hz2]
  simp only [View.ld_unit_zero (S := S5000x128) hz2, View.ld_unit_zero (S := S1x128) hz2, View.ld_unit_zero (S := S128x128) hz2]
  show (k9_pay2 (k9_pay3 (iblk9 V c 0 t) (iblk9 V c 2 t) (iblk9 V c 3 t) (iblk9 V c 4 t)) (k9_pay4 (iblk9 V c 5 t))
      (k9_pay5 (iblk9 V c 6 t)) (iblk9 V c 1 t) : S5000x128.Idx → EReal)
    = fun j : S5000x128.Idx => G V c (((cfg9.win 8).blk t).view.emb j)
  refine tile_ext _ _ fun p k => ?_
  refine (congrFun (pay8_eq (iblk9 V c 0 t) (iblk9 V c 1 t) (iblk9 V c 2 t) (iblk9 V c 3 t) (iblk9 V c 4 t) (iblk9 V c 5 t)
    (iblk9 V c 6 t)) (ix2 p k)).trans ?_
  refine (tile_eq V c t p k ⟨5000 * t.val + p.val, by have := p.isLt; omega⟩ rfl).trans ?_
  exact congrArg (G V c) (emb8 t p k ⟨5000 * t.val + p.val, by have := p.isLt; omega⟩ rfl).symm

/-! ## The ten tiles cover the array -/

/-- An index of the f32 output array is in point t's block iff each coordinate is in the block's range on its axis. -/
theorem mem_blk7 (t : Fin cfg9.N) (i : S50000x128.Idx) :
    i ∈ ((cfg9.win 7).blk t).view.set
      ↔ ∀ a : Fin 2, win9_7.index t a * S5000x128.size a ≤ (i a).val ∧ (i a).val < win9_7.index t a * S5000x128.size a + S5000x128.size a := by
  show i ∈ ((View.whole main_v208_0).slice (win9_7.rect t)).set ↔ _
  rw [View.set_slice_whole, Rect.mem_set_unit]
  exact Iff.rfl

theorem mem_blk8 (t : Fin cfg9.N) (i : S50000x128.Idx) :
    i ∈ ((cfg9.win 8).blk t).view.set
      ↔ ∀ a : Fin 2, win9_8.index t a * S5000x128.size a ≤ (i a).val ∧ (i a).val < win9_8.index t a * S5000x128.size a + S5000x128.size a := by
  show i ∈ ((View.whole main_v208_1).slice (win9_8.rect t)).set ↔ _
  rw [View.set_slice_whole, Rect.mem_set_unit]
  exact Iff.rfl

/-- Row r lies in the block of point r / 5000. -/
theorem cover7 (i : S50000x128.Idx) :
    ∃ t : Fin cfg9.N, (cfg9.win 7).flush t = true ∧ i ∈ ((cfg9.win 7).blk t).view.set := by
  have hi0 : (i 0).val < 50000 := (i 0).isLt
  have hi1 : (i 1).val < 128 := (i 1).isLt
  have hN : cfg9.N = 10 := N_9
  have hlt : (i 0).val / 5000 < cfg9.N := by rw [hN]; omega
  obtain ⟨-, -, -, -, -, -, -, -, -, -, -, -, -, -, e0, e1, -⟩ := idx_facts ⟨(i 0).val / 5000, hlt⟩
  refine ⟨⟨(i 0).val / 5000, hlt⟩, flush9_7 _, ?_⟩
  rw [mem_blk7]
  intro a
  match a with
  | ⟨0, _⟩ =>
    show win9_7.index ⟨(i 0).val / 5000, hlt⟩ (0 : Fin 2) * 5000 ≤ (i 0).val
      ∧ (i 0).val < win9_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win9_7.index ⟨(i 0).val / 5000, hlt⟩ (1 : Fin 2) * 128 ≤ (i 1).val
      ∧ (i 1).val < win9_7.index ⟨(i 0).val / 5000, hlt⟩ (1 : Fin 2) * 128 + 128
    rw [e1]
    omega

theorem cover8 (i : S50000x128.Idx) :
    ∃ t : Fin cfg9.N, (cfg9.win 8).flush t = true ∧ i ∈ ((cfg9.win 8).blk t).view.set := by
  have hi0 : (i 0).val < 50000 := (i 0).isLt
  have hi1 : (i 1).val < 128 := (i 1).isLt
  have hN : cfg9.N = 10 := N_9
  have hlt : (i 0).val / 5000 < cfg9.N := by rw [hN]; omega
  obtain ⟨-, -, -, -, -, -, -, -, -, -, -, -, -, -, -, -, e0, e1⟩ := idx_facts ⟨(i 0).val / 5000, hlt⟩
  refine ⟨⟨(i 0).val / 5000, hlt⟩, flush9_8 _, ?_⟩
  rw [mem_blk8]
  intro a
  match a with
  | ⟨0, _⟩ =>
    show win9_8.index ⟨(i 0).val / 5000, hlt⟩ (0 : Fin 2) * 5000 ≤ (i 0).val
      ∧ (i 0).val < win9_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win9_8.index ⟨(i 0).val / 5000, hlt⟩ (1 : Fin 2) * 128 ≤ (i 1).val
      ∧ (i 1).val < win9_8.index ⟨(i 0).val / 5000, hlt⟩ (1 : Fin 2) * 128 + 128
    rw [e1]
    omega

/-! ## The two output arrays after the region -/

/-- The f32 output array ends holding the node stage of the arrays the region found. -/
theorem arr9_out7 (c : Dev nD) : (dat9 (F := Ideal) V c).arrAt 7 cfg9.N = Spec.toVec2 (Spec.ggTail (Spec.ofVec2 (V c (Pipeline.arrRef spec9 0))) (Spec.ofVec2 (V c (Pipeline.arrRef spec9 1))) (fun q => V c (Pipeline.arrRef spec9 2) (ValueIdx.ix2 0 q)) (fun q => V c (Pipeline.arrRef spec9 3) (ValueIdx.ix2 0 q)) (Spec.ofVec2 (V c (Pipeline.arrRef spec9 4))) (fun q => V c (Pipeline.arrRef spec9 5) (ValueIdx.ix2 0 q)) (fun q => V c (Pipeline.arrRef spec9 6) (ValueIdx.ix2 0 q))) :=
  (dat9 V c).arrAt_eq_of_cover 7 (G V c) (fun t _ => flushed7_eq V c t) cover7

/-- The bf16 output array ends holding the same values. -/
theorem arr9_out8 (c : Dev nD) : (dat9 (F := Ideal) V c).arrAt 8 cfg9.N = Spec.toVec2 (Spec.ggTail (Spec.ofVec2 (V c (Pipeline.arrRef spec9 0))) (Spec.ofVec2 (V c (Pipeline.arrRef spec9 1))) (fun q => V c (Pipeline.arrRef spec9 2) (ValueIdx.ix2 0 q)) (fun q => V c (Pipeline.arrRef spec9 3) (ValueIdx.ix2 0 q)) (Spec.ofVec2 (V c (Pipeline.arrRef spec9 4))) (fun q => V c (Pipeline.arrRef spec9 5) (ValueIdx.ix2 0 q)) (fun q => V c (Pipeline.arrRef spec9 6) (ValueIdx.ix2 0 q))) :=
  (dat9 V c).arrAt_eq_of_cover 8 (G V c) (fun t _ => flushed8_eq V c t) cover8

end Cert.GgTail.R9

end
-- ==== Proof.KChainF1.lean ====
/-
  Fusion layer 1 of the kernel program (regions 6 to 9 of @main and the host stretches before them), from lane
  features `g` held in both copies at the layer's entry: the centre term, the twelve predecessor / successor
  contributions, their accumulation, the left / right contributions, the full accumulation, and the node stage.
  Each step reads its operands where the fold last wrote them, carried there unchanged, and states what the segment
  leaves as the specification's term of `g` and the launch arguments.
-/
import proofs.«413166_j32323923870246_3_alg».proof.Proof.KChainKeep
import proofs.«413166_j32323923870246_3_alg».proof.Proof.KChainArgs
import proofs.«413166_j32323923870246_3_alg».proof.Proof.KHostGg1
import proofs.«413166_j32323923870246_3_alg».proof.Proof.KReg6
import proofs.«413166_j32323923870246_3_alg».proof.Proof.KReg7
import proofs.«413166_j32323923870246_3_alg».proof.Proof.KReg8
import proofs.«413166_j32323923870246_3_alg».proof.Proof.KReg9
import proofs.«413166_j32323923870246_3_alg».proof.Proof.LibScatter

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

/-- Region 6: the centre term. Its operands are the features' second copy and the layer's centre weight, sliced
    from the stacked weights by the host stretch before it. -/
theorem inv_F1_ctr (hg1 : W12 m ρ c (Proc.devRef .tc main_v145_1) = toVec2 g) :
    W14 m ρ c (Proc.devRef .tc main_v148) = toVec2 (lin g ((argsOfK m c).fuse_ctr_w 1)) := by
  have hx : V13 m ρ c (Pipeline.arrRef spec6 0) = toVec2 g := (kept_v145_1_W13 m ρ c).trans hg1
  have hw : V13 m ρ c (Pipeline.arrRef spec6 1) = toVec2 ((argsOfK m c).fuse_ctr_w 1) :=
    (Cert.KHostGg.after_hostOps6_main_v147 (W12 m ρ c)).trans (by rw [kept_arg14_W12 m ρ c]; rfl)
  refine (W14_arr m ρ c 2).trans ((Cert.KReg6.arr6_out (V13 m ρ) c).trans ?_)
  rw [hx, hw]; rfl

/-- Region 7: the twelve predecessor / successor contributions, one matrix per edge set: the features' rows gathered
    at each set's source nodes, against that set's weight. -/
theorem inv_F1_ps (hg1 : W12 m ρ c (Proc.devRef .tc main_v145_1) = toVec2 g) :
    W16 m ρ c (Proc.devRef .tc main_v158) = Stack.toVec3 (psContrib (argsOfK m c) 1 g) := by
  have hx : V15 m ρ c (Pipeline.arrRef spec7 0)
      = Cert.KHostGg.toVec3 (fun k => gatherRows (by omega : 0 < 50000) g ((argsOfK m c).ps_v k)) :=
    (Cert.KHostGg.after_hostOps7_main_v155 (W14 m ρ c)).trans (by rw [kept_v145_1_W14 m ρ c, hg1, kept_arg26_W14 m ρ c]; rfl)
  have hw : V15 m ρ c (Pipeline.arrRef spec7 1) = Cert.KHostGg.toVec3 ((argsOfK m c).fuse_ps_w 1) :=
    (Cert.KHostGg.after_hostOps7_main_v157 (W14 m ρ c)).trans (by rw [kept_arg15_W14 m ρ c]; rfl)
  refine (W16_arr m ρ c 2).trans ((Cert.KReg7.arr7_out (V15 m ρ) c).trans ?_)
  rw [hx, hw]; rfl

/-- Host stretch 8: the first accumulation pass, all twelve sets' contributions added onto the centre term as one
    edge list, each at its wrapped target node. -/
theorem inv_F1_accPs (hg1 : W12 m ρ c (Proc.devRef .tc main_v145_1) = toVec2 g) :
    W17 m ρ c (Proc.devRef .tc main_v168) = toVec2 (accPs (argsOfK m c) 1 g) := by
  refine (Cert.KHostGg.after_hostOps8_main_v168 (W16 m ρ c)).trans ?_
  rw [kept_v148_W16 m ρ c, inv_F1_ctr m ρ c g hg1, kept_arg25_W16 m ρ c, inv_F1_ps m ρ c g hg1]; rfl

/-- Region 8: the left / right contributions. -/
theorem inv_F1_lr (hg1 : W12 m ρ c (Proc.devRef .tc main_v145_1) = toVec2 g) :
    W18 m ρ c (Proc.devRef .tc main_v183) = Stack.toVec3 (lrContrib (argsOfK m c) 1 g) := by
  have hx : V17 m ρ c (Pipeline.arrRef spec8 0)
      = Cert.KHostGg.toVec3 (fun k => gatherRows (by omega : 0 < 50000) g ((argsOfK m c).lr_v k)) :=
    (Cert.KHostGg.after_hostOps8_main_v182 (W16 m ρ c)).trans (by rw [kept_v145_1_W16 m ρ c, hg1, kept_arg28_W16 m ρ c]; rfl)
  have hw : V17 m ρ c (Pipeline.arrRef spec8 1)
      = Cert.KHostGg.toVec3 (fun k : Fin 2 => if k = 0 then (argsOfK m c).fuse_left_w 1 else (argsOfK m c).fuse_right_w 1) :=
    (Cert.KHostGg.after_hostOps8_main_v175 (W16 m ρ c)).trans (by rw [kept_arg16_W16 m ρ c, kept_arg17_W16 m ρ c]; rfl)
  refine (W18_arr m ρ c 2).trans ((Cert.KReg8.arr8_out (V17 m ρ) c).trans ?_)
  rw [hx, hw]; rfl

/-- Host stretch 9: the second pass, the left / right contributions added onto the first pass's result: the full
    accumulation in its two-pass form. -/
theorem inv_F1_acc (hg1 : W12 m ρ c (Proc.devRef .tc main_v145_1) = toVec2 g) :
    W19 m ρ c (Proc.devRef .tc main_v193) = toVec2 (fuseAccMerged (argsOfK m c) 1 g) := by
  refine (Cert.KHostGg.after_hostOps9_main_v193 (W18 m ρ c)).trans ?_
  rw [kept_v168_W18 m ρ c, inv_F1_accPs m ρ c g hg1, kept_arg27_W18 m ρ c, inv_F1_lr m ρ c g hg1, fuseAccMerged_eq]; rfl

/-! Region 9's seven operands, one by one: the accumulation (the sets added one after the other give the same sums as
    the two passes), the features' first copy as residual, and the layer's scale / shift rows and weight, sliced from
    the stacked arguments by the host stretch before it. -/

theorem F1_op0 (hg1 : W12 m ρ c (Proc.devRef .tc main_v145_1) = toVec2 g) : V19 m ρ c (Pipeline.arrRef spec9 0) = toVec2 (fuseAcc (argsOfK m c) 1 g) :=
  (inv_F1_acc m ρ c g hg1).trans (by rw [fuseAcc_eq_merged])
theorem F1_op1 (hg0 : W12 m ρ c (Proc.devRef .tc main_v145_0) = toVec2 g) : V19 m ρ c (Pipeline.arrRef spec9 1) = toVec2 g := (kept_v145_0_W19 m ρ c).trans hg0
theorem F1_op2 : V19 m ρ c (Pipeline.arrRef spec9 2) = toVec2 (fun (_ : Fin 1) q => (argsOfK m c).fuse_norm_gn 1 0 q) :=
  (Cert.KHostGg.after_hostOps9_main_v204 (W18 m ρ c)).trans (by rw [kept_arg18_W18 m ρ c]; rfl)
theorem F1_op3 : V19 m ρ c (Pipeline.arrRef spec9 3) = toVec2 (fun (_ : Fin 1) q => (argsOfK m c).fuse_norm_gn 1 1 q) :=
  (Cert.KHostGg.after_hostOps9_main_v205 (W18 m ρ c)).trans (by rw [kept_arg18_W18 m ρ c]; rfl)
theorem F1_op4 : V19 m ρ c (Pipeline.arrRef spec9 4) = toVec2 ((argsOfK m c).fuse_ctr2_w 1) :=
  (Cert.KHostGg.after_hostOps9_main_v199 (W18 m ρ c)).trans (by rw [kept_arg19_W18 m ρ c]; rfl)
theorem F1_op5 : V19 m ρ c (Pipeline.arrRef spec9 5) = toVec2 (fun (_ : Fin 1) q => (argsOfK m c).fuse_ctr2_gn 1 0 q) :=
  (Cert.KHostGg.after_hostOps9_main_v206 (W18 m ρ c)).trans (by rw [kept_arg20_W18 m ρ c]; rfl)
theorem F1_op6 : V19 m ρ c (Pipeline.arrRef spec9 6) = toVec2 (fun (_ : Fin 1) q => (argsOfK m c).fuse_ctr2_gn 1 1 q) :=
  (Cert.KHostGg.after_hostOps9_main_v207 (W18 m ρ c)).trans (by rw [kept_arg20_W18 m ρ c]; rfl)

set_option maxHeartbeats 4000000 in
/-- The node stage on those operands is the layer of the specification. -/
theorem inv_F1_node (hg0 : W12 m ρ c (Proc.devRef .tc main_v145_0) = toVec2 g) (hg1 : W12 m ρ c (Proc.devRef .tc main_v145_1) = toVec2 g) :
    toVec2 (ggTail (ofVec2 (V19 m ρ c (Pipeline.arrRef spec9 0))) (ofVec2 (V19 m ρ c (Pipeline.arrRef spec9 1)))
      (fun q => V19 m ρ c (Pipeline.arrRef spec9 2) (ValueIdx.ix2 0 q)) (fun q => V19 m ρ c (Pipeline.arrRef spec9 3) (ValueIdx.ix2 0 q))
      (ofVec2 (V19 m ρ c (Pipeline.arrRef spec9 4)))
      (fun q => V19 m ρ c (Pipeline.arrRef spec9 5) (ValueIdx.ix2 0 q)) (fun q => V19 m ρ c (Pipeline.arrRef spec9 6) (ValueIdx.ix2 0 q)))
      = toVec2 (fuse (argsOfK m c) 1 g) := by
  rw [F1_op0 m ρ c g hg1, F1_op1 m ρ c g hg0, F1_op2 m ρ c, F1_op3 m ρ c, F1_op4 m ρ c, F1_op5 m ρ c, F1_op6 m ρ c]; rfl

/-- Region 9: the node stage on the accumulation with the features' first copy as residual: the layer's result, in both
    copies. -/
theorem inv_F1_out (hg0 : W12 m ρ c (Proc.devRef .tc main_v145_0) = toVec2 g)
    (hg1 : W12 m ρ c (Proc.devRef .tc main_v145_1) = toVec2 g) :
    W20 m ρ c (Proc.devRef .tc main_v208_0) = toVec2 (fuse (argsOfK m c) 1 g)
      ∧ W20 m ρ c (Proc.devRef .tc main_v208_1) = toVec2 (fuse (argsOfK m c) 1 g) :=
  ⟨(W20_arr m ρ c 7).trans ((Cert.GgTail.R9.arr9_out7 (V19 m ρ) c).trans (inv_F1_node m ρ c g hg0 hg1)),
   (W20_arr m ρ c 8).trans ((Cert.GgTail.R9.arr9_out8 (V19 m ρ) c).trans (inv_F1_node m ρ c g hg0 hg1))⟩

end Cert.KChain

end
-- ==== Proof.KHostGg2.lean ====
/-
  Fusion layer 2: what the host stretches before its four kernel regions leave in the buffers those regions (and the
  next stretch) read, at the extended reals and from ANY buffer contents W, each as a term of the specification over
  what W holds at the buffers the stretch reads.

  * before the plain matmul: the centre weight, layer 2 of its stack;
  * before the first batched matmul: for each of the twelve predecessor / successor edge sets, the rows of the lane
    features at the set's wrapped and clamped source indices; the twelve weights of layer 2;
  * before the second batched matmul: the twelve sets' products, flattened to 600000 rows (row r is set r / 50000,
    edge r % 50000), added onto the centre term at the wrapped destination indices; the left and right weights of
    layer 2 stacked; the lane features' rows at the left / right source indices;
  * before the node stage: the two sets' products, flattened to 10000 rows, added likewise; the scale and shift rows
    of the two normalisations and the node weight of layer 2.
-/
import proofs.«413166_j32323923870246_3_alg».proof.Proof.Gen.KernelIdeal.Launch
import proofs.«413166_j32323923870246_3_alg».proof.Proof.KHostGgLib

noncomputable section

namespace Cert.KHostGg

open Idealize.ShloMosaic Idealize.ShloMosaic.ValueIdx
open Cert.KernelIdeal Cert.KernelIdeal.Gen

variable (W : Valuation τ sig (Elt Ideal))

/-! ## Before the plain matmul -/

set_option maxHeartbeats 1000000 in
/-- The centre weight. -/
theorem after_hostOps10_main_v210 :
    StableHlo.after (hostOps10 (F := Ideal)) W (Proc.devRef .tc main_v210)
      = Spec.toVec2 (ofVec3 (W (Proc.devRef .tc main_arg14) : (⟨S4x128x128, .f32⟩ : BufTy).Contents (Elt Ideal)) 2) := by
  unfold hostOps10
  after_results
  exact sliceCast3 (x := W (Proc.devRef .tc main_arg14)) (i := 2) (off := ![2, 0, 0]) rfl rfl rfl
    slices_S4x128x128_S1x128x128_2_0_0 shapeCasts_S1x128x128_S128x128

/-! ## Before the first batched matmul -/

set_option maxHeartbeats 1000000 in
/-- The gathered source rows, one table of 50000 rows per edge set. -/
theorem after_hostOps11_main_v218 :
    StableHlo.after (hostOps11 (F := Ideal)) W (Proc.devRef .tc main_v218)
      = toVec3 (fun k => Spec.gatherRows (by omega : 0 < 50000)
          (Spec.ofVec2 (W (Proc.devRef .tc main_v208_1) : (⟨S50000x128, .bf16⟩ : BufTy).Contents (Elt Ideal)))
          (ofWords2 (W (Proc.devRef .tc main_arg26) : (⟨S12x50000, .i32⟩ : BufTy).Contents (Elt Ideal)) k)) := by
  unfold hostOps11
  after_results
  exact wrapGather (N := 50000) (K := 128) (B := 12) (E := 50000) (by omega) (by decide)
    gather_S50000x128_S12x50000x1_S12x50000x128_2_0_n_n_0_2_1128_wf
    gather_S50000x128_S12x50000x1_S12x50000x128_2_0_n_n_0_2_1128 rfl
    bcast_S_S12x50000 bcast_S12x50000_S12x50000x1_0_1
    (W (Proc.devRef .tc main_v208_1)) (W (Proc.devRef .tc main_arg26))

set_option maxHeartbeats 1000000 in
/-- The twelve weights. -/
theorem after_hostOps11_main_v220 :
    StableHlo.after (hostOps11 (F := Ideal)) W (Proc.devRef .tc main_v220)
      = toVec3 (ofVec4 (W (Proc.devRef .tc main_arg15) : (⟨S4x12x128x128, .f32⟩ : BufTy).Contents (Elt Ideal)) 2) := by
  unfold hostOps11
  after_results
  exact sliceCast4 (x := W (Proc.devRef .tc main_arg15)) (i := 2) (off := ![2, 0, 0, 0]) rfl rfl rfl rfl
    slices_S4x12x128x128_S1x12x128x128_2_0_0_0 shapeCasts_S1x12x128x128_S12x128x128

/-! ## Before the second batched matmul -/

set_option maxHeartbeats 1000000 in
/-- The twelve sets' products added onto the centre term, in one pass over 600000 rows. -/
theorem after_hostOps12_main_v231 :
    StableHlo.after (hostOps12 (F := Ideal)) W (Proc.devRef .tc main_v231)
      = Spec.toVec2 (Spec.scatterAddRows
          (Spec.ofVec2 (W (Proc.devRef .tc main_v211) : (⟨S50000x128, .f32⟩ : BufTy).Contents (Elt Ideal)))
          (fun r => ofWords2 (W (Proc.devRef .tc main_arg25) : (⟨S12x50000, .i32⟩ : BufTy).Contents (Elt Ideal))
            (Spec.psRow r).1 (Spec.psRow r).2)
          (fun r q => ofVec3 (W (Proc.devRef .tc main_v221) : (⟨S12x50000x128, .bf16⟩ : BufTy).Contents (Elt Ideal))
            (Spec.psRow r).1 (Spec.psRow r).2 q)) := by
  unfold hostOps12
  after_results
  exact wrapScatter (N := 50000) (K := 128) (B := 12) (E := 50000) (R := 600000) (by decide)
    scatter_S50000x128_S600000x1_S600000x128_1_0_0_1_wf scatter_S50000x128_S600000x1_S600000x128_1_0_0_1 rfl
    Spec.psRow (fun r => by show r.val / 50000 * 50000 + r.val % 50000 = r.val; omega)
    shapeCasts_S12x50000_S600000 shapeCasts_S12x50000x128_S600000x128 bcast_S_S600000 bcast_S600000_S600000x1_0
    bitsLt_bf16_f32
    (W (Proc.devRef .tc main_v211)) (W (Proc.devRef .tc main_arg25)) (W (Proc.devRef .tc main_v221))

set_option maxHeartbeats 1000000 in
/-- The left and the right weight, stacked: index 0 is left, index 1 is right. -/
theorem after_hostOps12_main_v238 :
    StableHlo.after (hostOps12 (F := Ideal)) W (Proc.devRef .tc main_v238)
      = toVec3 (fun k : Fin 2 => if k = 0
          then ofVec3 (W (Proc.devRef .tc main_arg16) : (⟨S4x128x128, .f32⟩ : BufTy).Contents (Elt Ideal)) 2
          else ofVec3 (W (Proc.devRef .tc main_arg17) : (⟨S4x128x128, .f32⟩ : BufTy).Contents (Elt Ideal)) 2) := by
  unfold hostOps12
  after_results
  exact stackPairSlices (x := W (Proc.devRef .tc main_arg16)) (y := W (Proc.devRef .tc main_arg17))
    (i := 2) (off := ![2, 0, 0]) rfl rfl rfl
    slices_S4x128x128_S1x128x128_2_0_0 shapeCasts_S1x128x128_S128x128 bcast_S128x128_S1x128x128_1_2
    concatenates_S1x128x128_S1x128x128_S2x128x128_d0

set_option maxHeartbeats 1000000 in
/-- The gathered source rows of the left and the right edge set. -/
theorem after_hostOps12_main_v245 :
    StableHlo.after (hostOps12 (F := Ideal)) W (Proc.devRef .tc main_v245)
      = toVec3 (fun k => Spec.gatherRows (by omega : 0 < 50000)
          (Spec.ofVec2 (W (Proc.devRef .tc main_v208_1) : (⟨S50000x128, .bf16⟩ : BufTy).Contents (Elt Ideal)))
          (ofWords2 (W (Proc.devRef .tc main_arg28) : (⟨S2x5000, .i32⟩ : BufTy).Contents (Elt Ideal)) k)) := by
  unfold hostOps12
  after_results
  exact wrapGather (N := 50000) (K := 128) (B := 2) (E := 5000) (by omega) (by decide)
    gather_S50000x128_S2x5000x1_S2x5000x128_2_0_n_n_0_2_1128_wf
    gather_S50000x128_S2x5000x1_S2x5000x128_2_0_n_n_0_2_1128 rfl
    bcast_S_S2x5000 bcast_S2x5000_S2x5000x1_0_1
    (W (Proc.devRef .tc main_v208_1)) (W (Proc.devRef .tc main_arg28))

/-! ## Before the node stage -/

set_option maxHeartbeats 1000000 in
/-- The left and right sets' products added on, in one pass over 10000 rows. -/
theorem after_hostOps13_main_v256 :
    StableHlo.after (hostOps13 (F := Ideal)) W (Proc.devRef .tc main_v256)
      = Spec.toVec2 (Spec.scatterAddRows
          (Spec.ofVec2 (W (Proc.devRef .tc main_v231) : (⟨S50000x128, .f32⟩ : BufTy).Contents (Elt Ideal)))
          (fun r => ofWords2 (W (Proc.devRef .tc main_arg27) : (⟨S2x5000, .i32⟩ : BufTy).Contents (Elt Ideal))
            (Spec.lrRow r).1 (Spec.lrRow r).2)
          (fun r q => ofVec3 (W (Proc.devRef .tc main_v246) : (⟨S2x5000x128, .bf16⟩ : BufTy).Contents (Elt Ideal))
            (Spec.lrRow r).1 (Spec.lrRow r).2 q)) := by
  unfold hostOps13
  after_results
  exact wrapScatter (N := 50000) (K := 128) (B := 2) (E := 5000) (R := 10000) (by decide)
    scatter_S50000x128_S10000x1_S10000x128_1_0_0_1_wf scatter_S50000x128_S10000x1_S10000x128_1_0_0_1 rfl
    Spec.lrRow (fun r => by show r.val / 5000 * 5000 + r.val % 5000 = r.val; omega)
    shapeCasts_S2x5000_S10000 shapeCasts_S2x5000x128_S10000x128 bcast_S_S10000 bcast_S10000_S10000x1_0
    bitsLt_bf16_f32
    (W (Proc.devRef .tc main_v231)) (W (Proc.devRef .tc main_arg27)) (W (Proc.devRef .tc main_v246))

set_option maxHeartbeats 1000000 in
/-- The first normalisation's scale row … -/
theorem after_hostOps13_main_v267 :
    StableHlo.after (hostOps13 (F := Ideal)) W (Proc.devRef .tc main_v267)
      = Spec.toVec2 (fun (_ : Fin 1) q =>
          ofVec3 (W (Proc.devRef .tc main_arg18) : (⟨S4x2x128, .f32⟩ : BufTy).Contents (Elt Ideal)) 2 0 q) := by
  unfold hostOps13
  after_results
  exact sliceRow2 (x := W (Proc.devRef .tc main_arg18)) (i := 2) (s := 0) (off := ![2, 0, 0]) rfl rfl rfl
    slices_S4x2x128_S1x1x128_2_0_0 shapeCasts_S1x1x128_S128 shapeCasts_S128_S1x128

set_option maxHeartbeats 1000000 in
/-- … and shift row. -/
theorem after_hostOps13_main_v268 :
    StableHlo.after (hostOps13 (F := Ideal)) W (Proc.devRef .tc main_v268)
      = Spec.toVec2 (fun (_ : Fin 1) q =>
          ofVec3 (W (Proc.devRef .tc main_arg18) : (⟨S4x2x128, .f32⟩ : BufTy).Contents (Elt Ideal)) 2 1 q) := by
  unfold hostOps13
  after_results
  exact sliceRow2 (x := W (Proc.devRef .tc main_arg18)) (i := 2) (s := 1) (off := ![2, 1, 0]) rfl rfl rfl
    slices_S4x2x128_S1x1x128_2_1_0 shapeCasts_S1x1x128_S128 shapeCasts_S128_S1x128

set_option maxHeartbeats 1000000 in
/-- The node weight. -/
theorem after_hostOps13_main_v262 :
    StableHlo.after (hostOps13 (F := Ideal)) W (Proc.devRef .tc main_v262)
      = Spec.toVec2 (ofVec3 (W (Proc.devRef .tc main_arg19) : (⟨S4x128x128, .f32⟩ : BufTy).Contents (Elt Ideal)) 2) := by
  unfold hostOps13
  after_results
  exact sliceCast3 (x := W (Proc.devRef .tc main_arg19)) (i := 2) (off := ![2, 0, 0]) rfl rfl rfl
    slices_S4x128x128_S1x128x128_2_0_0 shapeCasts_S1x128x128_S128x128

set_option maxHeartbeats 1000000 in
/-- The second normalisation's scale row … -/
theorem after_hostOps13_main_v269 :
    StableHlo.after (hostOps13 (F := Ideal)) W (Proc.devRef .tc main_v269)
      = Spec.toVec2 (fun (_ : Fin 1) q =>
          ofVec3 (W (Proc.devRef .tc main_arg20) : (⟨S4x2x128, .f32⟩ : BufTy).Contents (Elt Ideal)) 2 0 q) := by
  unfold hostOps13
  after_results
  exact sliceRow2 (x := W (Proc.devRef .tc main_arg20)) (i := 2) (s := 0) (off := ![2, 0, 0]) rfl rfl rfl
    slices_S4x2x128_S1x1x128_2_0_0 shapeCasts_S1x1x128_S128 shapeCasts_S128_S1x128

set_option maxHeartbeats 1000000 in
/-- … and shift row. -/
theorem after_hostOps13_main_v270 :
    StableHlo.after (hostOps13 (F := Ideal)) W (Proc.devRef .tc main_v270)
      = Spec.toVec2 (fun (_ : Fin 1) q =>
          ofVec3 (W (Proc.devRef .tc main_arg20) : (⟨S4x2x128, .f32⟩ : BufTy).Contents (Elt Ideal)) 2 1 q) := by
  unfold hostOps13
  after_results
  exact sliceRow2 (x := W (Proc.devRef .tc main_arg20)) (i := 2) (s := 1) (off := ![2, 1, 0]) rfl rfl rfl
    slices_S4x2x128_S1x1x128_2_1_0 shapeCasts_S1x1x128_S128 shapeCasts_S128_S1x128

end Cert.KHostGg

end
-- ==== Proof.KReg10.lean ====
/-
  Region 10 (the plain matrix kernel on a [50000,128] input in 10 row tiles of 5000): what its result array holds when
  the region ends, as a function of the two arrays it read, at the ideal values.

  Grid point `t` loads the 5000 rows from row `5000 t` of the input and the whole [128,128] weight, multiplies the tile
  by the transposed weight into a zero accumulator, and writes the product to the same rows of the result. Entry
  (r, q) of the result is therefore `∑ j, x r j * w q j`, written by the point `r / 5000`; the 10 tiles cover every row.
-/
import proofs.«413166_j32323923870246_3_alg».proof.Proof.KIFrameR10
import proofs.«413166_j32323923870246_3_alg».proof.Proof.Spec
import proofs.«413166_j32323923870246_3_alg».proof.Proof.LibMatmul
import Idealize.ShloMosaic.Lib.Pipeline.Value

noncomputable section

namespace Cert.KReg10

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The input array and the weight as the region finds them, at their literal types. -/
abbrev xArr (c : Dev nD) : S50000x128.Idx → EReal := V c (Pipeline.arrRef spec10 0)
abbrev wArr (c : Dev nD) : S128x128.Idx → EReal := V c (Pipeline.arrRef spec10 1)

/-- What the result array ends holding: the input against the weight's rows. -/
abbrev G (c : Dev nD) : S50000x128.Idx → EReal :=
  Spec.toVec2 (Spec.lin (Spec.ofVec2 (xArr V c)) (Spec.ofVec2 (wArr V c)))

/-- The body's payload at (p, q): the tile's row `p` against the weight's row `q`. -/
theorem pay_apply (x0 : FVec Ideal S5000x128 .bf16) (x1 : FVec Ideal S128x128 .f32) (p : Fin 5000) (q : Fin 128) :
    k10_pay1 (F := Ideal) x0 x1 (ix2 p q) = ∑ j : Fin 128, x0 (ix2 p j) * x1 (ix2 q j) := by
  unfold k10_pay1
  exact LibMatmul.block_apply dot_S5000x128_S128x128_S5000x128_1_0_0_1_n_n rfl x0 x1 _ _ _ _ p q

/-- The printed index maps over the 10 points: the input tile and the result tile are tile `t` of their arrays, the
    weight's one block is the whole weight. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- The input tile at point `t`, read at (p, j): row `5000 t + p` of the input array. -/
theorem xblk_apply (c : Dev nD) (t : Fin cfg10.N) (p : Fin 5000) (j : Fin 128) (r : Fin 50000)
    (hr : r.val = t.val * 5000 + p.val) :
    (iblk10 V c 0 t : Vec Ideal S5000x128 .bf16) (ix2 p j) = xArr V c (ix2 r j) := by
  obtain ⟨e0, e1, -, -, -, -⟩ := idx_facts t
  show xArr V c (((cfg10.win 0).blk t).view.emb (ix2 p j)) = xArr V c (ix2 r j)
  refine congrArg (xArr V c) (funext fun a => Fin.ext ?_)
  match a with
  | ⟨0, _⟩ => show win10_0.index t (0 : Fin 2) * 5000 + 1 * p.val = r.val; omega
  | ⟨1, _⟩ => show win10_0.index t (1 : Fin 2) * 128 + 1 * j.val = j.val; omega

/-- The weight's block at any point, read at (q, j): the weight array there. -/
theorem wblk_apply (c : Dev nD) (t : Fin cfg10.N) (q : Fin 128) (j : Fin 128) :
    (iblk10 V c 1 t : Vec Ideal S128x128 .f32) (ix2 q j) = wArr V c (ix2 q j) := by
  obtain ⟨-, -, e2, e3, -, -⟩ := idx_facts t
  show wArr V c (((cfg10.win 1).blk t).view.emb (ix2 q j)) = wArr V c (ix2 q j)
  refine congrArg (wArr V c) (funext fun a => Fin.ext ?_)
  match a with
  | ⟨0, _⟩ => show win10_1.index t (0 : Fin 2) * 128 + 1 * q.val = q.val; omega
  | ⟨1, _⟩ => show win10_1.index t (1 : Fin 2) * 128 + 1 * j.val = j.val; omega

/-- WHAT POINT `t` WRITES BACK is tile `t` of `G`. -/
theorem flushed_eq (c : Dev nD) (t : Fin cfg10.N) :
    (dat10 (F := Ideal) V c).flushed 2 t = ((cfg10.win 2).blk t).view.read (Elt Ideal) (G V c) := by
  show (cfg10.win 2).cut (grid10.coords t) ((dat10 (F := Ideal) V c).after 2 t) = _
  rw [after10_2]
  unfold out10_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_10
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  refine (pay_apply (iblk10 V c 0 t) (iblk10 V c 1 t) p q).trans ?_
  have hemb : ((cfg10.win 2).blk t).view.emb (ix2 p q) = (ix2 ⟨t.val * 5000 + p.val, hr⟩ q : S50000x128.Idx) := by
    funext a; apply Fin.ext
    match a with
    | ⟨0, _⟩ => show win10_2.index t (0 : Fin 2) * 5000 + 1 * p.val = t.val * 5000 + p.val; omega
    | ⟨1, _⟩ => show win10_2.index t (1 : Fin 2) * 128 + 1 * q.val = q.val; omega
  show _ = G V c (((cfg10.win 2).blk t).view.emb (ix2 p q))
  rw [hemb]
  show _ = ∑ j : Fin 128, xArr V c (ix2 ⟨t.val * 5000 + p.val, hr⟩ j) * wArr V c (ix2 q j)
  refine Finset.sum_congr rfl fun j _ => ?_
  rw [xblk_apply V c t p j ⟨t.val * 5000 + p.val, hr⟩ rfl, wblk_apply V c t q j]

/-- An index of the result array is in point `t`'s tile iff each coordinate is in the tile's range on its axis. -/
theorem mem_blk (t : Fin cfg10.N) (i : S50000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole main_v211).slice (win10_2.rect t)).set ↔ _
  rw [View.set_slice_whole, Rect.mem_set_unit]
  exact Iff.rfl

/-- Every index of the result array is in some point's tile: row `r` is in tile `r / 5000`. -/
theorem cover (i : S50000x128.Idx) : ∃ t : Fin cfg10.N, (cfg10.win 2).flush t = true ∧ i ∈ ((cfg10.win 2).blk t).view.set := by
  have hi0 : (i 0).val < 50000 := (i 0).isLt
  have hi1 : (i 1).val < 128 := (i 1).isLt
  have hN : cfg10.N = 10 := N_10
  obtain ⟨t, ht⟩ : ∃ t : Fin cfg10.N, t.val = (i 0).val / 5000 := ⟨⟨(i 0).val / 5000, by rw [hN]; omega⟩, rfl⟩
  obtain ⟨-, -, -, -, e4, e5⟩ := idx_facts t
  refine ⟨t, flush10_2 t, ?_⟩
  rw [mem_blk]
  intro a
  match a with
  | ⟨0, _⟩ =>
    show win10_2.index t (0 : Fin 2) * 5000 ≤ (i 0).val ∧ (i 0).val < win10_2.index t (0 : Fin 2) * 5000 + 5000
    omega
  | ⟨1, _⟩ =>
    show win10_2.index t (1 : Fin 2) * 128 ≤ (i 1).val ∧ (i 1).val < win10_2.index t (1 : Fin 2) * 128 + 128
    omega

/-- THE RESULT ARRAY when the region ends: the input against the weight's rows, entry (r, q) = `∑ j, x r j * w q j`. -/
theorem arr10_out (c : Dev nD) : (dat10 (F := Ideal) V c).arrAt 2 cfg10.N =
    Spec.toVec2 (Spec.lin (Spec.ofVec2 (V c (Pipeline.arrRef spec10 0))) (Spec.ofVec2 (V c (Pipeline.arrRef spec10 1)))) :=
  (dat10 (F := Ideal) V c).arrAt_eq_of_cover 2 (G V c) (fun t _ => flushed_eq V c t) cover

end Cert.KReg10

end
-- ==== Proof.KReg11.lean ====
/-
  Region 11 (the batched matrix kernel on a [12,50000,128] input, grid 12 × 10: member by member, 10 row tiles of 5000):
  what its result array holds when the region ends, as a function of the two arrays it read, at the ideal values.

  Grid point `t` is member `t / 10`, tile `t % 10`: it loads the 5000 rows from row `5000 (t % 10)` of that member of the input and
  that member's whole [128,128] weight, multiplies the tile by the transposed weight into a zero accumulator, and writes
  the product to the same member and rows of the result. Entry (s, r, q) of the result is therefore
  `∑ j, x s r j * w s q j`, written by the point `10 s + r / 5000`; the 120 tiles cover every entry.
-/
import proofs.«413166_j32323923870246_3_alg».proof.Proof.KIFrameR11
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg11

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S12x50000x128.Idx → EReal := V c (Pipeline.arrRef spec11 0)
abbrev wArr (c : Dev nD) : S12x128x128.Idx → EReal := V c (Pipeline.arrRef spec11 1)

/-- What the result array ends holding: each member of the input against the rows of the same member of the weight. -/
abbrev G (c : Dev nD) : S12x50000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k11_pay1 (F := Ideal) x0 x1 (ix3 0 p q) = ∑ j : Fin 128, x0 (ix3 0 p j) * x1 (ix3 0 q j) := by
  unfold k11_pay1
  exact LibMatmul.block3_apply dot_S5000x128_S128x128_S5000x128_1_0_0_1_n_n rfl x0 x1 _ _ _ _ _ p q

/-- The printed index maps over the 120 points: the input tile and the result tile are tile `t % 10` of member
    `t / 10`, the weight's block is that member's whole weight. -/
theorem idx_facts : ∀ t : Fin cfg11.N, win11_0.index t (0 : Fin 3) = t.val / 10 ∧ win11_0.index t (1 : Fin 3) = t.val % 10
    ∧ win11_0.index t (2 : Fin 3) = 0
    ∧ win11_1.index t (0 : Fin 3) = t.val / 10 ∧ win11_1.index t (1 : Fin 3) = 0 ∧ win11_1.index t (2 : Fin 3) = 0
    ∧ win11_2.index t (0 : Fin 3) = t.val / 10 ∧ win11_2.index t (1 : Fin 3) = t.val % 10
    ∧ win11_2.index t (2 : Fin 3) = 0 :=
  (by decide +kernel : ∀ t : Fin grid11.N, _)

/-- The input tile at point `t`, read at (0, p, j): member `t / 10`, row `5000 (t % 10) + p` of the input array. -/
theorem xblk_apply (c : Dev nD) (t : Fin cfg11.N) (p : Fin 5000) (j : Fin 128) (s : Fin 12) (r : Fin 50000)
    (hs : s.val = t.val / 10) (hr : r.val = t.val % 10 * 5000 + p.val) :
    (iblk11 V c 0 t : Vec Ideal S1x5000x128 .bf16) (ix3 0 p j) = xArr V c (ix3 s r j) := by
  obtain ⟨e0, e1, e2, -, -, -, -, -, -⟩ := idx_facts t
  show xArr V c (((cfg11.win 0).blk t).view.emb (ix3 0 p j)) = xArr V c (ix3 s r j)
  refine congrArg (xArr V c) (funext fun a => Fin.ext ?_)
  match a with
  | ⟨0, _⟩ => show win11_0.index t (0 : Fin 3) * 1 + 1 * 0 = s.val; omega
  | ⟨1, _⟩ => show win11_0.index t (1 : Fin 3) * 5000 + 1 * p.val = r.val; omega
  | ⟨2, _⟩ => show win11_0.index t (2 : Fin 3) * 128 + 1 * j.val = j.val; omega

/-- The weight's block at point `t`, read at (0, q, j): member `t / 10` of the weight array there. -/
theorem wblk_apply (c : Dev nD) (t : Fin cfg11.N) (q : Fin 128) (j : Fin 128) (s : Fin 12) (hs : s.val = t.val / 10) :
    (iblk11 V c 1 t : Vec Ideal S1x128x128 .f32) (ix3 0 q j) = wArr V c (ix3 s q j) := by
  obtain ⟨-, -, -, e3, e4, e5, -, -, -⟩ := idx_facts t
  show wArr V c (((cfg11.win 1).blk t).view.emb (ix3 0 q j)) = wArr V c (ix3 s q j)
  refine congrArg (wArr V c) (funext fun a => Fin.ext ?_)
  match a with
  | ⟨0, _⟩ => show win11_1.index t (0 : Fin 3) * 1 + 1 * 0 = s.val; omega
  | ⟨1, _⟩ => show win11_1.index t (1 : Fin 3) * 128 + 1 * q.val = q.val; omega
  | ⟨2, _⟩ => show win11_1.index t (2 : Fin 3) * 128 + 1 * j.val = j.val; omega

/-- WHAT POINT `t` WRITES BACK is its tile of `G`. -/
theorem flushed_eq (c : Dev nD) (t : Fin cfg11.N) :
    (dat11 (F := Ideal) V c).flushed 2 t = ((cfg11.win 2).blk t).view.read (Elt Ideal) (G V c) := by
  show (cfg11.win 2).cut (grid11.coords t) ((dat11 (F := Ideal) V c).after 2 t) = _
  rw [after11_2]
  unfold out11_2
  rw [View.canon_unit_zero hz]
  simp only [View.ld_unit_zero (S := S1x5000x128) hz, View.ld_unit_zero (S := S1x128x128) hz]
  obtain ⟨-, -, -, -, -, -, e6, e7, e8⟩ := idx_facts t
  have ht : t.val < 120 := lt_of_lt_of_eq t.isLt N_11
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 10 < 12 := by omega
  have hr : t.val % 10 * 5000 + p.val < 50000 := by have := p.isLt; omega
  refine (pay_apply (iblk11 V c 0 t) (iblk11 V c 1 t) p q).trans ?_
  have hemb : ((cfg11.win 2).blk t).view.emb (ix3 0 p q)
      = (ix3 ⟨t.val / 10, hs⟩ ⟨t.val % 10 * 5000 + p.val, hr⟩ q : S12x50000x128.Idx) := by
    funext a; apply Fin.ext
    match a with
    | ⟨0, _⟩ => show win11_2.index t (0 : Fin 3) * 1 + 1 * 0 = t.val / 10; omega
    | ⟨1, _⟩ => show win11_2.index t (1 : Fin 3) * 5000 + 1 * p.val = t.val % 10 * 5000 + p.val; omega
    | ⟨2, _⟩ => show win11_2.index t (2 : Fin 3) * 128 + 1 * q.val = q.val; omega
  show _ = G V c (((cfg11.win 2).blk t).view.emb (ix3 0 p q))
  rw [hemb]
  show _ = ∑ j : Fin 128, xArr V c (ix3 ⟨t.val / 10, hs⟩ ⟨t.val % 10 * 5000 + p.val, hr⟩ j) * wArr V c (ix3 ⟨t.val / 10, hs⟩ q j)
  refine Finset.sum_congr rfl fun j _ => ?_
  rw [xblk_apply V c t p j ⟨t.val / 10, hs⟩ ⟨t.val % 10 * 5000 + p.val, hr⟩ rfl rfl, wblk_apply V c t q j ⟨t.val / 10, hs⟩ rfl]

/-- An index of the result array is in point `t`'s tile iff each coordinate is in the tile's range on its axis. -/
theorem mem_blk (t : Fin cfg11.N) (i : S12x50000x128.Idx) :
    i ∈ ((cfg11.win 2).blk t).view.set ↔ ∀ a : Fin 3, win11_2.index t a * S1x5000x128.size a ≤ (i a).val ∧ (i a).val < win11_2.index t a * S1x5000x128.size a + S1x5000x128.size a := by
  show i ∈ ((View.whole main_v221).slice (win11_2.rect t)).set ↔ _
  rw [View.set_slice_whole, Rect.mem_set_unit]
  exact Iff.rfl

/-- Every index of the result array is in some point's tile: member `s`, row `r` is in the tile of point `10 s + r / 5000`. -/
theorem cover (i : S12x50000x128.Idx) : ∃ t : Fin cfg11.N, (cfg11.win 2).flush t = true ∧ i ∈ ((cfg11.win 2).blk t).view.set := by
  have hi0 : (i 0).val < 12 := (i 0).isLt
  have hi1 : (i 1).val < 50000 := (i 1).isLt
  have hi2 : (i 2).val < 128 := (i 2).isLt
  have hN : cfg11.N = 120 := N_11
  obtain ⟨t, ht⟩ : ∃ t : Fin cfg11.N, t.val = (i 0).val * 10 + (i 1).val / 5000 :=
    ⟨⟨(i 0).val * 10 + (i 1).val / 5000, by rw [hN]; omega⟩, rfl⟩
  obtain ⟨-, -, -, -, -, -, e6, e7, e8⟩ := idx_facts t
  refine ⟨t, flush11_2 t, ?_⟩
  rw [mem_blk]
  intro a
  match a with
  | ⟨0, _⟩ =>
    show win11_2.index t (0 : Fin 3) * 1 ≤ (i 0).val ∧ (i 0).val < win11_2.index t (0 : Fin 3) * 1 + 1
    omega
  | ⟨1, _⟩ =>
    show win11_2.index t (1 : Fin 3) * 5000 ≤ (i 1).val ∧ (i 1).val < win11_2.index t (1 : Fin 3) * 5000 + 5000
    omega
  | ⟨2, _⟩ =>
    show win11_2.index t (2 : Fin 3) * 128 ≤ (i 2).val ∧ (i 2).val < win11_2.index t (2 : Fin 3) * 128 + 128
    omega

/-- THE RESULT ARRAY when the region ends: each member of the input against the rows of the same member of the weight,
    entry (s, r, q) = `∑ j, x s r j * w s q j`. -/
theorem arr11_out (c : Dev nD) : (dat11 (F := Ideal) V c).arrAt 2 cfg11.N =
    Stack.toVec3 (Stack.lin3 (Stack.ofVec3 (V c (Pipeline.arrRef spec11 0))) (Stack.ofVec3 (V c (Pipeline.arrRef spec11 1)))) :=
  (dat11 (F := Ideal) V c).arrAt_eq_of_cover 2 (G V c) (fun t _ => flushed_eq V c t) cover

end Cert.KReg11

end
-- ==== Proof.KReg12.lean ====
/-
  Region 12 (the batched matrix kernel on a [2,5000,128] input, grid 2 × 1: member by member, 1 row tiles of 5000):
  what its result array holds when the region ends, as a function of the two arrays it read, at the ideal values.

  Grid point `t` is member `t / 1`, tile `t % 1`: it loads the 5000 rows from row `5000 (t % 1)` of that member of the input and
  that member's whole [128,128] weight, multiplies the tile by the transposed weight into a zero accumulator, and writes
  the product to the same member and rows of the result. Entry (s, r, q) of the result is therefore
  `∑ j, x s r j * w s q j`, written by the point `1 s + r / 5000`; the 2 tiles cover every entry.
-/
import proofs.«413166_j32323923870246_3_alg».proof.Proof.KIFrameR12
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg12

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S2x5000x128.Idx → EReal := V c (Pipeline.arrRef spec12 0)
abbrev wArr (c : Dev nD) : S2x128x128.Idx → EReal := V c (Pipeline.arrRef spec12 1)

/-- What the result array ends holding: each member of the input against the rows of the same member of the weight. -/
abbrev G (c : Dev nD) : S2x5000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k12_pay1 (F := Ideal) x0 x1 (ix3 0 p q) = ∑ j : Fin 128, x0 (ix3 0 p j) * x1 (ix3 0 q j) := by
  unfold k12_pay1
  exact LibMatmul.block3_apply dot_S5000x128_S128x128_S5000x128_1_0_0_1_n_n rfl x0 x1 _ _ _ _ _ p q

/-- The printed index maps over the 2 points: the input tile and the result tile are tile `t % 1` of member
    `t / 1`, the weight's block is that member's whole weight. -/
theorem idx_facts : ∀ t : Fin cfg12.N, win12_0.index t (0 : Fin 3) = t.val / 1 ∧ win12_0.index t (1 : Fin 3) = t.val % 1
    ∧ win12_0.index t (2 : Fin 3) = 0
    ∧ win12_1.index t (0 : Fin 3) = t.val / 1 ∧ win12_1.index t (1 : Fin 3) = 0 ∧ win12_1.index t (2 : Fin 3) = 0
    ∧ win12_2.index t (0 : Fin 3) = t.val / 1 ∧ win12_2.index t (1 : Fin 3) = t.val % 1
    ∧ win12_2.index t (2 : Fin 3) = 0 :=
  (by decide +kernel : ∀ t : Fin grid12.N, _)

/-- The input tile at point `t`, read at (0, p, j): member `t / 1`, row `5000 (t % 1) + p` of the input array. -/
theorem xblk_apply (c : Dev nD) (t : Fin cfg12.N) (p : Fin 5000) (j : Fin 128) (s : Fin 2) (r : Fin 5000)
    (hs : s.val = t.val / 1) (hr : r.val = t.val % 1 * 5000 + p.val) :
    (iblk12 V c 0 t : Vec Ideal S1x5000x128 .bf16) (ix3 0 p j) = xArr V c (ix3 s r j) := by
  obtain ⟨e0, e1, e2, -, -, -, -, -, -⟩ := idx_facts t
  show xArr V c (((cfg12.win 0).blk t).view.emb (ix3 0 p j)) = xArr V c (ix3 s r j)
  refine congrArg (xArr V c) (funext fun a => Fin.ext ?_)
  match a with
  | ⟨0, _⟩ => show win12_0.index t (0 : Fin 3) * 1 + 1 * 0 = s.val; omega
  | ⟨1, _⟩ => show win12_0.index t (1 : Fin 3) * 5000 + 1 * p.val = r.val; omega
  | ⟨2, _⟩ => show win12_0.index t (2 : Fin 3) * 128 + 1 * j.val = j.val; omega

/-- The weight's block at point `t`, read at (0, q, j): member `t / 1` of the weight array there. -/
theorem wblk_apply (c : Dev nD) (t : Fin cfg12.N) (q : Fin 128) (j : Fin 128) (s : Fin 2) (hs : s.val = t.val / 1) :
    (iblk12 V c 1 t : Vec Ideal S1x128x128 .f32) (ix3 0 q j) = wArr V c (ix3 s q j) := by
  obtain ⟨-, -, -, e3, e4, e5, -, -, -⟩ := idx_facts t
  show wArr V c (((cfg12.win 1).blk t).view.emb (ix3 0 q j)) = wArr V c (ix3 s q j)
  refine congrArg (wArr V c) (funext fun a => Fin.ext ?_)
  match a with
  | ⟨0, _⟩ => show win12_1.index t (0 : Fin 3) * 1 + 1 * 0 = s.val; omega
  | ⟨1, _⟩ => show win12_1.index t (1 : Fin 3) * 128 + 1 * q.val = q.val; omega
  | ⟨2, _⟩ => show win12_1.index t (2 : Fin 3) * 128 + 1 * j.val = j.val; omega

/-- WHAT POINT `t` WRITES BACK is its tile of `G`. -/
theorem flushed_eq (c : Dev nD) (t : Fin cfg12.N) :
    (dat12 (F := Ideal) V c).flushed 2 t = ((cfg12.win 2).blk t).view.read (Elt Ideal) (G V c) := by
  show (cfg12.win 2).cut (grid12.coords t) ((dat12 (F := Ideal) V c).after 2 t) = _
  rw [after12_2]
  unfold out12_2
  rw [View.canon_unit_zero hz]
  simp only [View.ld_unit_zero (S := S1x5000x128) hz, View.ld_unit_zero (S := S1x128x128) hz]
  obtain ⟨-, -, -, -, -, -, e6, e7, e8⟩ := idx_facts t
  have ht : t.val < 2 := lt_of_lt_of_eq t.isLt N_12
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 1 < 2 := by omega
  have hr : t.val % 1 * 5000 + p.val < 5000 := by have := p.isLt; omega
  refine (pay_apply (iblk12 V c 0 t) (iblk12 V c 1 t) p q).trans ?_
  have hemb : ((cfg12.win 2).blk t).view.emb (ix3 0 p q)
      = (ix3 ⟨t.val / 1, hs⟩ ⟨t.val % 1 * 5000 + p.val, hr⟩ q : S2x5000x128.Idx) := by
    funext a; apply Fin.ext
    match a with
    | ⟨0, _⟩ => show win12_2.index t (0 : Fin 3) * 1 + 1 * 0 = t.val / 1; omega
    | ⟨1, _⟩ => show win12_2.index t (1 : Fin 3) * 5000 + 1 * p.val = t.val % 1 * 5000 + p.val; omega
    | ⟨2, _⟩ => show win12_2.index t (2 : Fin 3) * 128 + 1 * q.val = q.val; omega
  show _ = G V c (((cfg12.win 2).blk t).view.emb (ix3 0 p q))
  rw [hemb]
  show _ = ∑ j : Fin 128, xArr V c (ix3 ⟨t.val / 1, hs⟩ ⟨t.val % 1 * 5000 + p.val, hr⟩ j) * wArr V c (ix3 ⟨t.val / 1, hs⟩ q j)
  refine Finset.sum_congr rfl fun j _ => ?_
  rw [xblk_apply V c t p j ⟨t.val / 1, hs⟩ ⟨t.val % 1 * 5000 + p.val, hr⟩ rfl rfl, wblk_apply V c t q j ⟨t.val / 1, hs⟩ rfl]

/-- An index of the result array is in point `t`'s tile iff each coordinate is in the tile's range on its axis. -/
theorem mem_blk (t : Fin cfg12.N) (i : S2x5000x128.Idx) :
    i ∈ ((cfg12.win 2).blk t).view.set ↔ ∀ a : Fin 3, win12_2.index t a * S1x5000x128.size a ≤ (i a).val ∧ (i a).val < win12_2.index t a * S1x5000x128.size a + S1x5000x128.size a := by
  show i ∈ ((View.whole main_v246).slice (win12_2.rect t)).set ↔ _
  rw [View.set_slice_whole, Rect.mem_set_unit]
  exact Iff.rfl

/-- Every index of the result array is in some point's tile: member `s`, row `r` is in the tile of point `1 s + r / 5000`. -/
theorem cover (i : S2x5000x128.Idx) : ∃ t : Fin cfg12.N, (cfg12.win 2).flush t = true ∧ i ∈ ((cfg12.win 2).blk t).view.set := by
  have hi0 : (i 0).val < 2 := (i 0).isLt
  have hi1 : (i 1).val < 5000 := (i 1).isLt
  have hi2 : (i 2).val < 128 := (i 2).isLt
  have hN : cfg12.N = 2 := N_12
  obtain ⟨t, ht⟩ : ∃ t : Fin cfg12.N, t.val = (i 0).val * 1 + (i 1).val / 5000 :=
    ⟨⟨(i 0).val * 1 + (i 1).val / 5000, by rw [hN]; omega⟩, rfl⟩
  obtain ⟨-, -, -, -, -, -, e6, e7, e8⟩ := idx_facts t
  refine ⟨t, flush12_2 t, ?_⟩
  rw [mem_blk]
  intro a
  match a with
  | ⟨0, _⟩ =>
    show win12_2.index t (0 : Fin 3) * 1 ≤ (i 0).val ∧ (i 0).val < win12_2.index t (0 : Fin 3) * 1 + 1
    omega
  | ⟨1, _⟩ =>
    show win12_2.index t (1 : Fin 3) * 5000 ≤ (i 1).val ∧ (i 1).val < win12_2.index t (1 : Fin 3) * 5000 + 5000
    omega
  | ⟨2, _⟩ =>
    show win12_2.index t (2 : Fin 3) * 128 ≤ (i 2).val ∧ (i 2).val < win12_2.index t (2 : Fin 3) * 128 + 128
    omega

/-- THE RESULT ARRAY when the region ends: each member of the input against the rows of the same member of the weight,
    entry (s, r, q) = `∑ j, x s r j * w s q j`. -/
theorem arr12_out (c : Dev nD) : (dat12 (F := Ideal) V c).arrAt 2 cfg12.N =
    Stack.toVec3 (Stack.lin3 (Stack.ofVec3 (V c (Pipeline.arrRef spec12 0))) (Stack.ofVec3 (V c (Pipeline.arrRef spec12 1)))) :=
  (dat12 (F := Ideal) V c).arrAt_eq_of_cover 2 (G V c) (fun t _ => flushed_eq V c t) cover

end Cert.KReg12

end
-- ==== Proof.KReg13.lean ====
/-
  The node stage of the third fusion layer (region 13 of the kernel program), as a function of the arrays the region
  finds. The grid has ten points; point t stages rows 5000 t .. 5000 t + 4999 of the feature array (window 0) and of
  the residual array (window 1), the whole of the two normalisations' scale and shift rows and of the weight
  (windows 2 to 6), and writes the same rows of the two output arrays (window 7 in f32, window 8 in bf16, which over
  the extended reals is the same value). The body's result on a tile is the specification's node stage of the tile,
  and that stage acts on each row by itself, so row p of point t's tile is row 5000 t + p of the node stage of the
  whole arrays. The ten tiles cover the 50000 rows, so each output array ends holding that node stage.
-/
import proofs.«413166_j32323923870246_3_alg».proof.Proof.Spec
import proofs.«413166_j32323923870246_3_alg».proof.Proof.KGgLib
import proofs.«413166_j32323923870246_3_alg».proof.Proof.KIFrameR13
import Idealize.ShloMosaic.Lib.Pipeline.Value

noncomputable section

namespace Cert.GgTail.R13

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The body's two stored values are the tile's node stage -/

theorem pay7_eq (x0 x1 : Vec Ideal S5000x128 .f32) (x2 x3 : Vec Ideal S1x128 .f32) (x4 : Vec Ideal S128x128 .f32)
    (x5 x6 : Vec Ideal S1x128 .f32) :
    k13_pay1 (k13_pay3 x0 x2 x3 x4) (k13_pay4 x5) (k13_pay5 x6) x1 = ggVec x0 x1 x2 x3 x4 x5 x6 := rfl

theorem pay8_eq (x0 x1 : Vec Ideal S5000x128 .f32) (x2 x3 : Vec Ideal S1x128 .f32) (x4 : Vec Ideal S128x128 .f32)
    (x5 x6 : Vec Ideal S1x128 .f32) :
    k13_pay2 (k13_pay3 x0 x2 x3 x4) (k13_pay4 x5) (k13_pay5 x6) x1 = ggVec x0 x1 x2 x3 x4 x5 x6 := rfl

/-! ## Where each window's block lies in its array -/

/-- The block index of every window at every point: the row-tiled windows are at block row t, the others at zero. -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0
    ∧ win13_7.index t (0 : Fin 2) = t.val ∧ win13_7.index t (1 : Fin 2) = 0
    ∧ win13_8.index t (0 : Fin 2) = t.val ∧ win13_8.index t (1 : Fin 2) = 0 :=
  (by decide +kernel : ∀ t : Fin grid13.N, _)

/-- Row p of the feature window's block at point t is row 5000 t + p of the feature array. -/
theorem blk0_row (c : Dev nD) (t : Fin cfg13.N) (p : Fin 5000) (k : Fin 128) (r : Fin 50000)
    (hr : r.val = 5000 * t.val + p.val) :
    (iblk13 V c 0 t : Vec Ideal S5000x128 .f32) (ix2 p k) = Spec.ofVec2 (V c (Pipeline.arrRef spec13 0)) r k := by
  obtain ⟨e0, e1, -⟩ := idx_facts t
  unfold iblk13
  rw [View.read_apply]
  show V c (Pipeline.arrRef spec13 0) _ = V c (Pipeline.arrRef spec13 0) (ix2 r k)
  congr 1
  funext a
  apply Fin.ext
  match a with
  | ⟨0, _⟩ => show win13_0.index t (0 : Fin 2) * 5000 + 1 * p.val = r.val; rw [e0, hr]; omega
  | ⟨1, _⟩ => show win13_0.index t (1 : Fin 2) * 128 + 1 * k.val = k.val; rw [e1]; omega

/-- Row p of the residual window's block at point t is row 5000 t + p of the residual array. -/
theorem blk1_row (c : Dev nD) (t : Fin cfg13.N) (p : Fin 5000) (k : Fin 128) (r : Fin 50000)
    (hr : r.val = 5000 * t.val + p.val) :
    (iblk13 V c 1 t : Vec Ideal S5000x128 .f32) (ix2 p k) = Spec.ofVec2 (V c (Pipeline.arrRef spec13 1)) r k := by
  obtain ⟨-, -, e0, e1, -⟩ := idx_facts t
  unfold iblk13
  rw [View.read_apply]
  show V c (Pipeline.arrRef spec13 1) _ = V c (Pipeline.arrRef spec13 1) (ix2 r k)
  congr 1
  funext a
  apply Fin.ext
  match a with
  | ⟨0, _⟩ => show win13_1.index t (0 : Fin 2) * 5000 + 1 * p.val = r.val; rw [e0, hr]; omega
  | ⟨1, _⟩ => show win13_1.index t (1 : Fin 2) * 128 + 1 * k.val = k.val; rw [e1]; omega

/-- The scale and shift rows and the weight are staged whole at every point. -/
theorem blk2_whole (c : Dev nD) (t : Fin cfg13.N) :
    (iblk13 V c 2 t : Vec Ideal S1x128 .f32) = V c (Pipeline.arrRef spec13 2) := by
  obtain ⟨-, -, -, -, e0, e1, -⟩ := idx_facts t
  funext j
  unfold iblk13
  rw [View.read_apply]
  show V c (Pipeline.arrRef spec13 2) _ = V c (Pipeline.arrRef spec13 2) j
  congr 1
  funext a
  apply Fin.ext
  match a with
  | ⟨0, _⟩ => show win13_2.index t (0 : Fin 2) * 1 + 1 * (j 0).val = (j 0).val; rw [e0]; omega
  | ⟨1, _⟩ => show win13_2.index t (1 : Fin 2) * 128 + 1 * (j 1).val = (j 1).val; rw [e1]; omega

theorem blk3_whole (c : Dev nD) (t : Fin cfg13.N) :
    (iblk13 V c 3 t : Vec Ideal S1x128 .f32) = V c (Pipeline.arrRef spec13 3) := by
  obtain ⟨-, -, -, -, -, -, e0, e1, -⟩ := idx_facts t
  funext j
  unfold iblk13
  rw [View.read_apply]
  show V c (Pipeline.arrRef spec13 3) _ = V c (Pipeline.arrRef spec13 3) j
  congr 1
  funext a
  apply Fin.ext
  match a with
  | ⟨0, _⟩ => show win13_3.index t (0 : Fin 2) * 1 + 1 * (j 0).val = (j 0).val; rw [e0]; omega
  | ⟨1, _⟩ => show win13_3.index t (1 : Fin 2) * 128 + 1 * (j 1).val = (j 1).val; rw [e1]; omega

theorem blk4_whole (c : Dev nD) (t : Fin cfg13.N) :
    (iblk13 V c 4 t : Vec Ideal S128x128 .f32) = V c (Pipeline.arrRef spec13 4) := by
  obtain ⟨-, -, -, -, -, -, -, -, e0, e1, -⟩ := idx_facts t
  funext j
  unfold iblk13
  rw [View.read_apply]
  show V c (Pipeline.arrRef spec13 4) _ = V c (Pipeline.arrRef spec13 4) j
  congr 1
  funext a
  apply Fin.ext
  match a with
  | ⟨0, _⟩ => show win13_4.index t (0 : Fin 2) * 128 + 1 * (j 0).val = (j 0).val; rw [e0]; omega
  | ⟨1, _⟩ => show win13_4.index t (1 : Fin 2) * 128 + 1 * (j 1).val = (j 1).val; rw [e1]; omega

theorem blk5_whole (c : Dev nD) (t : Fin cfg13.N) :
    (iblk13 V c 5 t : Vec Ideal S1x128 .f32) = V c (Pipeline.arrRef spec13 5) := by
  obtain ⟨-, -, -, -, -, -, -, -, -, -, e0, e1, -⟩ := idx_facts t
  funext j
  unfold iblk13
  rw [View.read_apply]
  show V c (Pipeline.arrRef spec13 5) _ = V c (Pipeline.arrRef spec13 5) j
  congr 1
  funext a
  apply Fin.ext
  match a with
  | ⟨0, _⟩ => show win13_5.index t (0 : Fin 2) * 1 + 1 * (j 0).val = (j 0).val; rw [e0]; omega
  | ⟨1, _⟩ => show win13_5.index t (1 : Fin 2) * 128 + 1 * (j 1).val = (j 1).val; rw [e1]; omega

theorem blk6_whole (c : Dev nD) (t : Fin cfg13.N) :
    (iblk13 V c 6 t : Vec Ideal S1x128 .f32) = V c (Pipeline.arrRef spec13 6) := by
  obtain ⟨-, -, -, -, -, -, -, -, -, -, -, -, e0, e1, -⟩ := idx_facts t
  funext j
  unfold iblk13
  rw [View.read_apply]
  show V c (Pipeline.arrRef spec13 6) _ = V c (Pipeline.arrRef spec13 6) j
  congr 1
  funext a
  apply Fin.ext
  match a with
  | ⟨0, _⟩ => show win13_6.index t (0 : Fin 2) * 1 + 1 * (j 0).val = (j 0).val; rw [e0]; omega
  | ⟨1, _⟩ => show win13_6.index t (1 : Fin 2) * 128 + 1 * (j 1).val = (j 1).val; rw [e1]; omega

/-! ## What each point writes back -/

/-- The node stage of the arrays the region finds, as one [50000, 128] array. -/
abbrev G (c : Dev nD) : S50000x128.Idx → EReal :=
  Spec.toVec2 (Spec.ggTail (Spec.ofVec2 (V c (Pipeline.arrRef spec13 0))) (Spec.ofVec2 (V c (Pipeline.arrRef spec13 1)))
    (fun q => V c (Pipeline.arrRef spec13 2) (ValueIdx.ix2 0 q)) (fun q => V c (Pipeline.arrRef spec13 3) (ValueIdx.ix2 0 q))
    (Spec.ofVec2 (V c (Pipeline.arrRef spec13 4))) (fun q => V c (Pipeline.arrRef spec13 5) (ValueIdx.ix2 0 q))
    (fun q => V c (Pipeline.arrRef spec13 6) (ValueIdx.ix2 0 q)))

/-- The body's value on point t's blocks, at row p, is row 5000 t + p of that array. -/
theorem tile_eq (c : Dev nD) (t : Fin cfg13.N) (p : Fin 5000) (k : Fin 128) (r : Fin 50000)
    (hr : r.val = 5000 * t.val + p.val) :
    ggVec (iblk13 V c 0 t) (iblk13 V c 1 t) (iblk13 V c 2 t) (iblk13 V c 3 t) (iblk13 V c 4 t) (iblk13 V c 5 t) (iblk13 V c 6 t) (ix2 p k)
      = G V c (ix2 r k) := by
  refine (ggVec_tile (iblk13 V c 0 t) (iblk13 V c 1 t) (iblk13 V c 2 t) (iblk13 V c 3 t) (iblk13 V c 4 t) (iblk13 V c 5 t)
    (iblk13 V c 6 t) (Spec.ofVec2 (V c (Pipeline.arrRef spec13 0))) (Spec.ofVec2 (V c (Pipeline.arrRef spec13 1))) p k r
    (fun k' => blk0_row V c t p k' r hr) (fun k' => blk1_row V c t p k' r hr)).trans ?_
  rw [blk2_whole V c t, blk3_whole V c t, blk4_whole V c t, blk5_whole V c t, blk6_whole V c t]
  rfl

/-- Point t's block of an output window, embedded in the array: row 5000 t + p, column k. -/
theorem emb7 (t : Fin cfg13.N) (p : Fin 5000) (k : Fin 128) (r : Fin 50000) (hr : r.val = 5000 * t.val + p.val) :
    ((cfg13.win 7).blk t).view.emb (ix2 p k) = (ix2 r k : S50000x128.Idx) := by
  obtain ⟨-, -, -, -, -, -, -, -, -, -, -, -, -, -, e0, e1, -⟩ := idx_facts t
  funext a
  apply Fin.ext
  match a with
  | ⟨0, _⟩ => show win13_7.index t (0 : Fin 2) * 5000 + 1 * p.val = r.val; rw [e0, hr]; omega
  | ⟨1, _⟩ => show win13_7.index t (1 : Fin 2) * 128 + 1 * k.val = k.val; rw [e1]; omega

theorem emb8 (t : Fin cfg13.N) (p : Fin 5000) (k : Fin 128) (r : Fin 50000) (hr : r.val = 5000 * t.val + p.val) :
    ((cfg13.win 8).blk t).view.emb (ix2 p k) = (ix2 r k : S50000x128.Idx) := by
  obtain ⟨-, -, -, -, -, -, -, -, -, -, -, -, -, -, -, -, e0, e1⟩ := idx_facts t
  funext a
  apply Fin.ext
  match a with
  | ⟨0, _⟩ => show win13_8.index t (0 : Fin 2) * 5000 + 1 * p.val = r.val; rw [e0, hr]; omega
  | ⟨1, _⟩ => show win13_8.index t (1 : Fin 2) * 128 + 1 * k.val = k.val; rw [e1]; omega

/-- What point t writes back to the f32 output is block t of the node stage of the arrays. -/
theorem flushed7_eq (c : Dev nD) (t : Fin cfg13.N) :
    (dat13 V c).flushed 7 t = ((cfg13.win 7).blk t).view.read (Elt Ideal) (G V c) := by
  have hN : cfg13.N = 10 := N_13
  have ht : t.val < 10 := by have h := t.isLt; omega
  show (cfg13.win 7).cut (grid13.coords t) ((dat13 V c).after 7 t) = _
  rw [after13_7]
  unfold out13_7
  rw [View.canon_unit_zero hz2]
  simp only [View.ld_unit_zero (S := S5000x128) hz2, View.ld_unit_zero (S := S1x128) hz2, View.ld_unit_zero (S := S128x128) hz2]
  show (k13_pay1 (k13_pay3 (iblk13 V c 0 t) (iblk13 V c 2 t) (iblk13 V c 3 t) (iblk13 V c 4 t)) (k13_pay4 (iblk13 V c 5 t))
      (k13_pay5 (iblk13 V c 6 t)) (iblk13 V c 1 t) : S5000x128.Idx → EReal)
    = fun j : S5000x128.Idx => G V c (((cfg13.win 7).blk t).view.emb j)
  refine tile_ext _ _ fun p k => ?_
  refine (congrFun (pay7_eq (iblk13 V c 0 t) (iblk13 V c 1 t) (iblk13 V c 2 t) (iblk13 V c 3 t) (iblk13 V c 4 t) (iblk13 V c 5 t)
    (iblk13 V c 6 t)) (ix2 p k)).trans ?_
  refine (tile_eq V c t p k ⟨5000 * t.val + p.val, by have := p.isLt; omega⟩ rfl).trans ?_
  exact congrArg (G V c) (emb7 t p k ⟨5000 * t.val + p.val, by have := p.isLt; omega⟩ rfl).symm

/-- What point t writes back to the bf16 output is the same block. -/
theorem flushed8_eq (c : Dev nD) (t : Fin cfg13.N) :
    (dat13 V c).flushed 8 t = ((cfg13.win 8).blk t).view.read (Elt Ideal) (G V c) := by
  have hN : cfg13.N = 10 := N_13
  have ht : t.val < 10 := by have h := t.isLt; omega
  show (cfg13.win 8).cut (grid13.coords t) ((dat13 V c).after 8 t) = _
  rw [after13_8]
  unfold out13_8
  rw [View.canon_unit_zero hz2]
  simp only [View.ld_unit_zero (S := S5000x128) hz2, View.ld_unit_zero (S := S1x128) hz2, View.ld_unit_zero (S := S128x128) hz2]
  show (k13_pay2 (k13_pay3 (iblk13 V c 0 t) (iblk13 V c 2 t) (iblk13 V c 3 t) (iblk13 V c 4 t)) (k13_pay4 (iblk13 V c 5 t))
      (k13_pay5 (iblk13 V c 6 t)) (iblk13 V c 1 t) : S5000x128.Idx → EReal)
    = fun j : S5000x128.Idx => G V c (((cfg13.win 8).blk t).view.emb j)
  refine tile_ext _ _ fun p k => ?_
  refine (congrFun (pay8_eq (iblk13 V c 0 t) (iblk13 V c 1 t) (iblk13 V c 2 t) (iblk13 V c 3 t) (iblk13 V c 4 t) (iblk13 V c 5 t)
    (iblk13 V c 6 t)) (ix2 p k)).trans ?_
  refine (tile_eq V c t p k ⟨5000 * t.val + p.val, by have := p.isLt; omega⟩ rfl).trans ?_
  exact congrArg (G V c) (emb8 t p k ⟨5000 * t.val + p.val, by have := p.isLt; omega⟩ rfl).symm

/-! ## The ten tiles cover the array -/

/-- An index of the f32 output array is in point t's block iff each coordinate is in the block's range on its axis. -/
theorem mem_blk7 (t : Fin cfg13.N) (i : S50000x128.Idx) :
    i ∈ ((cfg13.win 7).blk t).view.set
      ↔ ∀ a : Fin 2, win13_7.index t a * S5000x128.size a ≤ (i a).val ∧ (i a).val < win13_7.index t a * S5000x128.size a + S5000x128.size a := by
  show i ∈ ((View.whole main_v271_0).slice (win13_7.rect t)).set ↔ _
  rw [View.set_slice_whole, Rect.mem_set_unit]
  exact Iff.rfl

theorem mem_blk8 (t : Fin cfg13.N) (i : S50000x128.Idx) :
    i ∈ ((cfg13.win 8).blk t).view.set
      ↔ ∀ a : Fin 2, win13_8.index t a * S5000x128.size a ≤ (i a).val ∧ (i a).val < win13_8.index t a * S5000x128.size a + S5000x128.size a := by
  show i ∈ ((View.whole main_v271_1).slice (win13_8.rect t)).set ↔ _
  rw [View.set_slice_whole, Rect.mem_set_unit]
  exact Iff.rfl

/-- Row r lies in the block of point r / 5000. -/
theorem cover7 (i : S50000x128.Idx) :
    ∃ t : Fin cfg13.N, (cfg13.win 7).flush t = true ∧ i ∈ ((cfg13.win 7).blk t).view.set := by
  have hi0 : (i 0).val < 50000 := (i 0).isLt
  have hi1 : (i 1).val < 128 := (i 1).isLt
  have hN : cfg13.N = 10 := N_13
  have hlt : (i 0).val / 5000 < cfg13.N := by rw [hN]; omega
  obtain ⟨-, -, -, -, -, -, -, -, -, -, -, -, -, -, e0, e1, -⟩ := idx_facts ⟨(i 0).val / 5000, hlt⟩
  refine ⟨⟨(i 0).val / 5000, hlt⟩, flush13_7 _, ?_⟩
  rw [mem_blk7]
  intro a
  match a with
  | ⟨0, _⟩ =>
    show win13_7.index ⟨(i 0).val / 5000, hlt⟩ (0 : Fin 2) * 5000 ≤ (i 0).val
      ∧ (i 0).val < win13_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win13_7.index ⟨(i 0).val / 5000, hlt⟩ (1 : Fin 2) * 128 ≤ (i 1).val
      ∧ (i 1).val < win13_7.index ⟨(i 0).val / 5000, hlt⟩ (1 : Fin 2) * 128 + 128
    rw [e1]
    omega

theorem cover8 (i : S50000x128.Idx) :
    ∃ t : Fin cfg13.N, (cfg13.win 8).flush t = true ∧ i ∈ ((cfg13.win 8).blk t).view.set := by
  have hi0 : (i 0).val < 50000 := (i 0).isLt
  have hi1 : (i 1).val < 128 := (i 1).isLt
  have hN : cfg13.N = 10 := N_13
  have hlt : (i 0).val / 5000 < cfg13.N := by rw [hN]; omega
  obtain ⟨-, -, -, -, -, -, -, -, -, -, -, -, -, -, -, -, e0, e1⟩ := idx_facts ⟨(i 0).val / 5000, hlt⟩
  refine ⟨⟨(i 0).val / 5000, hlt⟩, flush13_8 _, ?_⟩
  rw [mem_blk8]
  intro a
  match a with
  | ⟨0, _⟩ =>
    show win13_8.index ⟨(i 0).val / 5000, hlt⟩ (0 : Fin 2) * 5000 ≤ (i 0).val
      ∧ (i 0).val < win13_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win13_8.index ⟨(i 0).val / 5000, hlt⟩ (1 : Fin 2) * 128 ≤ (i 1).val
      ∧ (i 1).val < win13_8.index ⟨(i 0).val / 5000, hlt⟩ (1 : Fin 2) * 128 + 128
    rw [e1]
    omega

/-! ## The two output arrays after the region -/

/-- The f32 output array ends holding the node stage of the arrays the region found. -/
theorem arr13_out7 (c : Dev nD) : (dat13 (F := Ideal) V c).arrAt 7 cfg13.N = Spec.toVec2 (Spec.ggTail (Spec.ofVec2 (V c (Pipeline.arrRef spec13 0))) (Spec.ofVec2 (V c (Pipeline.arrRef spec13 1))) (fun q => V c (Pipeline.arrRef spec13 2) (ValueIdx.ix2 0 q)) (fun q => V c (Pipeline.arrRef spec13 3) (ValueIdx.ix2 0 q)) (Spec.ofVec2 (V c (Pipeline.arrRef spec13 4))) (fun q => V c (Pipeline.arrRef spec13 5) (ValueIdx.ix2 0 q)) (fun q => V c (Pipeline.arrRef spec13 6) (ValueIdx.ix2 0 q))) :=
  (dat13 V c).arrAt_eq_of_cover 7 (G V c) (fun t _ => flushed7_eq V c t) cover7

/-- The bf16 output array ends holding the same values. -/
theorem arr13_out8 (c : Dev nD) : (dat13 (F := Ideal) V c).arrAt 8 cfg13.N = Spec.toVec2 (Spec.ggTail (Spec.ofVec2 (V c (Pipeline.arrRef spec13 0))) (Spec.ofVec2 (V c (Pipeline.arrRef spec13 1))) (fun q => V c (Pipeline.arrRef spec13 2) (ValueIdx.ix2 0 q)) (fun q => V c (Pipeline.arrRef spec13 3) (ValueIdx.ix2 0 q)) (Spec.ofVec2 (V c (Pipeline.arrRef spec13 4))) (fun q => V c (Pipeline.arrRef spec13 5) (ValueIdx.ix2 0 q)) (fun q => V c (Pipeline.arrRef spec13 6) (ValueIdx.ix2 0 q))) :=
  (dat13 V c).arrAt_eq_of_cover 8 (G V c) (fun t _ => flushed8_eq V c t) cover8

end Cert.GgTail.R13

end
-- ==== Proof.KChainF2.lean ====
/-
  Fusion layer 2 of the kernel program (regions 10 to 13 of @main and the host stretches before them), from lane
  features `g` held in both copies at the layer's entry: the centre term, the twelve predecessor / successor
  contributions, their accumulation, the left / right contributions, the full accumulation, and the node stage.
  Each step reads its operands where the fold last wrote them, carried there unchanged, and states what the segment
  leaves as the specification's term of `g` and the launch arguments.
-/
import proofs.«413166_j32323923870246_3_alg».proof.Proof.KChainKeep
import proofs.«413166_j32323923870246_3_alg».proof.Proof.KChainArgs
import proofs.«413166_j32323923870246_3_alg».proof.Proof.KHostGg2
import proofs.«413166_j32323923870246_3_alg».proof.Proof.KReg10
import proofs.«413166_j32323923870246_3_alg».proof.Proof.KReg11
import proofs.«413166_j32323923870246_3_alg».proof.Proof.KReg12
import proofs.«413166_j32323923870246_3_alg».proof.Proof.KReg13
import proofs.«413166_j32323923870246_3_alg».proof.Proof.LibScatter

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

/-- Region 10: the centre term. Its operands are the features' second copy and the layer's centre weight, sliced
    from the stacked weights by the host stretch before it. -/
theorem inv_F2_ctr (hg1 : W20 m ρ c (Proc.devRef .tc main_v208_1) = toVec2 g) :
    W22 m ρ c (Proc.devRef .tc main_v211) = toVec2 (lin g ((argsOfK m c).fuse_ctr_w 2)) := by
  have hx : V21 m ρ c (Pipeline.arrRef spec10 0) = toVec2 g := (kept_v208_1_W21 m ρ c).trans hg1
  have hw : V21 m ρ c (Pipeline.arrRef spec10 1) = toVec2 ((argsOfK m c).fuse_ctr_w 2) :=
    (Cert.KHostGg.after_hostOps10_main_v210 (W20 m ρ c)).trans (by rw [kept_arg14_W20 m ρ c]; rfl)
  refine (W22_arr m ρ c 2).trans ((Cert.KReg10.arr10_out (V21 m ρ) c).trans ?_)
  rw [hx, hw]; rfl

/-- Region 11: the twelve predecessor / successor contributions, one matrix per edge set: the features' rows gathered
    at each set's source nodes, against that set's weight. -/
theorem inv_F2_ps (hg1 : W20 m ρ c (Proc.devRef .tc main_v208_1) = toVec2 g) :
    W24 m ρ c (Proc.devRef .tc main_v221) = Stack.toVec3 (psContrib (argsOfK m c) 2 g) := by
  have hx : V23 m ρ c (Pipeline.arrRef spec11 0)
      = Cert.KHostGg.toVec3 (fun k => gatherRows (by omega : 0 < 50000) g ((argsOfK m c).ps_v k)) :=
    (Cert.KHostGg.after_hostOps11_main_v218 (W22 m ρ c)).trans (by rw [kept_v208_1_W22 m ρ c, hg1, kept_arg26_W22 m ρ c]; rfl)
  have hw : V23 m ρ c (Pipeline.arrRef spec11 1) = Cert.KHostGg.toVec3 ((argsOfK m c).fuse_ps_w 2) :=
    (Cert.KHostGg.after_hostOps11_main_v220 (W22 m ρ c)).trans (by rw [kept_arg15_W22 m ρ c]; rfl)
  refine (W24_arr m ρ c 2).trans ((Cert.KReg11.arr11_out (V23 m ρ) c).trans ?_)
  rw [hx, hw]; rfl

/-- Host stretch 12: the first accumulation pass, all twelve sets' contributions added onto the centre term as one
    edge list, each at its wrapped target node. -/
theorem inv_F2_accPs (hg1 : W20 m ρ c (Proc.devRef .tc main_v208_1) = toVec2 g) :
    W25 m ρ c (Proc.devRef .tc main_v231) = toVec2 (accPs (argsOfK m c) 2 g) := by
  refine (Cert.KHostGg.after_hostOps12_main_v231 (W24 m ρ c)).trans ?_
  rw [kept_v211_W24 m ρ c, inv_F2_ctr m ρ c g hg1, kept_arg25_W24 m ρ c, inv_F2_ps m ρ c g hg1]; rfl

/-- Region 12: the left / right contributions. -/
theorem inv_F2_lr (hg1 : W20 m ρ c (Proc.devRef .tc main_v208_1) = toVec2 g) :
    W26 m ρ c (Proc.devRef .tc main_v246) = Stack.toVec3 (lrContrib (argsOfK m c) 2 g) := by
  have hx : V25 m ρ c (Pipeline.arrRef spec12 0)
      = Cert.KHostGg.toVec3 (fun k => gatherRows (by omega : 0 < 50000) g ((argsOfK m c).lr_v k)) :=
    (Cert.KHostGg.after_hostOps12_main_v245 (W24 m ρ c)).trans (by rw [kept_v208_1_W24 m ρ c, hg1, kept_arg28_W24 m ρ c]; rfl)
  have hw : V25 m ρ c (Pipeline.arrRef spec12 1)
      = Cert.KHostGg.toVec3 (fun k : Fin 2 => if k = 0 then (argsOfK m c).fuse_left_w 2 else (argsOfK m c).fuse_right_w 2) :=
    (Cert.KHostGg.after_hostOps12_main_v238 (W24 m ρ c)).trans (by rw [kept_arg16_W24 m ρ c, kept_arg17_W24 m ρ c]; rfl)
  refine (W26_arr m ρ c 2).trans ((Cert.KReg12.arr12_out (V25 m ρ) c).trans ?_)
  rw [hx, hw]; rfl

/-- Host stretch 13: the second pass, the left / right contributions added onto the first pass's result: the full
    accumulation in its two-pass form. -/
theorem inv_F2_acc (hg1 : W20 m ρ c (Proc.devRef .tc main_v208_1) = toVec2 g) :
    W27 m ρ c (Proc.devRef .tc main_v256) = toVec2 (fuseAccMerged (argsOfK m c) 2 g) := by
  refine (Cert.KHostGg.after_hostOps13_main_v256 (W26 m ρ c)).trans ?_
  rw [kept_v231_W26 m ρ c, inv_F2_accPs m ρ c g hg1, kept_arg27_W26 m ρ c, inv_F2_lr m ρ c g hg1, fuseAccMerged_eq]; rfl

/-! Region 13's seven operands, one by one: the accumulation (the sets added one after the other give the same sums as
    the two passes), the features' first copy as residual, and the layer's scale / shift rows and weight, sliced from
    the stacked arguments by the host stretch before it. -/

theorem F2_op0 (hg1 : W20 m ρ c (Proc.devRef .tc main_v208_1) = toVec2 g) : V27 m ρ c (Pipeline.arrRef spec13 0) = toVec2 (fuseAcc (argsOfK m c) 2 g) :=
  (inv_F2_acc m ρ c g hg1).trans (by rw [fuseAcc_eq_merged])
theorem F2_op1 (hg0 : W20 m ρ c (Proc.devRef .tc main_v208_0) = toVec2 g) : V27 m ρ c (Pipeline.arrRef spec13 1) = toVec2 g := (kept_v208_0_W27 m ρ c).trans hg0
theorem F2_op2 : V27 m ρ c (Pipeline.arrRef spec13 2) = toVec2 (fun (_ : Fin 1) q => (argsOfK m c).fuse_norm_gn 2 0 q) :=
  (Cert.KHostGg.after_hostOps13_main_v267 (W26 m ρ c)).trans (by rw [kept_arg18_W26 m ρ c]; rfl)
theorem F2_op3 : V27 m ρ c (Pipeline.arrRef spec13 3) = toVec2 (fun (_ : Fin 1) q => (argsOfK m c).fuse_norm_gn 2 1 q) :=
  (Cert.KHostGg.after_hostOps13_main_v268 (W26 m ρ c)).trans (by rw [kept_arg18_W26 m ρ c]; rfl)
theorem F2_op4 : V27 m ρ c (Pipeline.arrRef spec13 4) = toVec2 ((argsOfK m c).fuse_ctr2_w 2) :=
  (Cert.KHostGg.after_hostOps13_main_v262 (W26 m ρ c)).trans (by rw [kept_arg19_W26 m ρ c]; rfl)
theorem F2_op5 : V27 m ρ c (Pipeline.arrRef spec13 5) = toVec2 (fun (_ : Fin 1) q => (argsOfK m c).fuse_ctr2_gn 2 0 q) :=
  (Cert.KHostGg.after_hostOps13_main_v269 (W26 m ρ c)).trans (by rw [kept_arg20_W26 m ρ c]; rfl)
theorem F2_op6 : V27 m ρ c (Pipeline.arrRef spec13 6) = toVec2 (fun (_ : Fin 1) q => (argsOfK m c).fuse_ctr2_gn 2 1 q) :=
  (Cert.KHostGg.after_hostOps13_main_v270 (W26 m ρ c)).trans (by rw [kept_arg20_W26 m ρ c]; rfl)

set_option maxHeartbeats 4000000 in
/-- The node stage on those operands is the layer of the specification. -/
theorem inv_F2_node (hg0 : W20 m ρ c (Proc.devRef .tc main_v208_0) = toVec2 g) (hg1 : W20 m ρ c (Proc.devRef .tc main_v208_1) = toVec2 g) :
    toVec2 (ggTail (ofVec2 (V27 m ρ c (Pipeline.arrRef spec13 0))) (ofVec2 (V27 m ρ c (Pipeline.arrRef spec13 1)))
      (fun q => V27 m ρ c (Pipeline.arrRef spec13 2) (ValueIdx.ix2 0 q)) (fun q => V27 m ρ c (Pipeline.arrRef spec13 3) (ValueIdx.ix2 0 q))
      (ofVec2 (V27 m ρ c (Pipeline.arrRef spec13 4)))
      (fun q => V27 m ρ c (Pipeline.arrRef spec13 5) (ValueIdx.ix2 0 q)) (fun q => V27 m ρ c (Pipeline.arrRef spec13 6) (ValueIdx.ix2 0 q)))
      = toVec2 (fuse (argsOfK m c) 2 g) := by
  rw [F2_op0 m ρ c g hg1, F2_op1 m ρ c g hg0, F2_op2 m ρ c, F2_op3 m ρ c, F2_op4 m ρ c, F2_op5 m ρ c, F2_op6 m ρ c]; rfl

/-- Region 13: the node stage on the accumulation with the features' first copy as residual: the layer's result, in both
    copies. -/
theorem inv_F2_out (hg0 : W20 m ρ c (Proc.devRef .tc main_v208_0) = toVec2 g)
    (hg1 : W20 m ρ c (Proc.devRef .tc main_v208_1) = toVec2 g) :
    W28 m ρ c (Proc.devRef .tc main_v271_0) = toVec2 (fuse (argsOfK m c) 2 g)
      ∧ W28 m ρ c (Proc.devRef .tc main_v271_1) = toVec2 (fuse (argsOfK m c) 2 g) :=
  ⟨(W28_arr m ρ c 7).trans ((Cert.GgTail.R13.arr13_out7 (V27 m ρ) c).trans (inv_F2_node m ρ c g hg0 hg1)),
   (W28_arr m ρ c 8).trans ((Cert.GgTail.R13.arr13_out8 (V27 m ρ) c).trans (inv_F2_node m ρ c g hg0 hg1))⟩

end Cert.KChain

end
-- ==== Proof.KHostGg3.lean ====
/-
  Fusion layer 3: what the host stretches before its four kernel regions leave in the buffers those regions (and the
  next stretch) read, at the extended reals and from ANY buffer contents W, each as a term of the specification over
  what W holds at the buffers the stretch reads.

  * before the plain matmul: the centre weight, layer 3 of its stack;
  * before the first batched matmul: for each of the twelve predecessor / successor edge sets, the rows of the lane
    features at the set's wrapped and clamped source indices; the twelve weights of layer 3;
  * before the second batched matmul: the twelve sets' products, flattened to 600000 rows (row r is set r / 50000,
    edge r % 50000), added onto the centre term at the wrapped destination indices; the left and right weights of
    layer 3 stacked; the lane features' rows at the left / right source indices;
  * before the node stage: the two sets' products, flattened to 10000 rows, added likewise; the scale and shift rows
    of the two normalisations and the node weight of layer 3.
-/
import proofs.«413166_j32323923870246_3_alg».proof.Proof.Gen.KernelIdeal.Launch
import proofs.«413166_j32323923870246_3_alg».proof.Proof.KHostGgLib

noncomputable section

namespace Cert.KHostGg

open Idealize.ShloMosaic Idealize.ShloMosaic.ValueIdx
open Cert.KernelIdeal Cert.KernelIdeal.Gen

variable (W : Valuation τ sig (Elt Ideal))

/-! ## Before the plain matmul -/

set_option maxHeartbeats 1000000 in
/-- The centre weight. -/
theorem after_hostOps14_main_v273 :
    StableHlo.after (hostOps14 (F := Ideal)) W (Proc.devRef .tc main_v273)
      = Spec.toVec2 (ofVec3 (W (Proc.devRef .tc main_arg14) : (⟨S4x128x128, .f32⟩ : BufTy).Contents (Elt Ideal)) 3) := by
  unfold hostOps14
  after_results
  exact sliceCast3 (x := W (Proc.devRef .tc main_arg14)) (i := 3) (off := ![3, 0, 0]) rfl rfl rfl
    slices_S4x128x128_S1x128x128_3_0_0 shapeCasts_S1x128x128_S128x128

/-! ## Before the first batched matmul -/

set_option maxHeartbeats 1000000 in
/-- The gathered source rows, one table of 50000 rows per edge set. -/
theorem after_hostOps15_main_v281 :
    StableHlo.after (hostOps15 (F := Ideal)) W (Proc.devRef .tc main_v281)
      = toVec3 (fun k => Spec.gatherRows (by omega : 0 < 50000)
          (Spec.ofVec2 (W (Proc.devRef .tc main_v271_1) : (⟨S50000x128, .bf16⟩ : BufTy).Contents (Elt Ideal)))
          (ofWords2 (W (Proc.devRef .tc main_arg26) : (⟨S12x50000, .i32⟩ : BufTy).Contents (Elt Ideal)) k)) := by
  unfold hostOps15
  after_results
  exact wrapGather (N := 50000) (K := 128) (B := 12) (E := 50000) (by omega) (by decide)
    gather_S50000x128_S12x50000x1_S12x50000x128_2_0_n_n_0_2_1128_wf
    gather_S50000x128_S12x50000x1_S12x50000x128_2_0_n_n_0_2_1128 rfl
    bcast_S_S12x50000 bcast_S12x50000_S12x50000x1_0_1
    (W (Proc.devRef .tc main_v271_1)) (W (Proc.devRef .tc main_arg26))

set_option maxHeartbeats 1000000 in
/-- The twelve weights. -/
theorem after_hostOps15_main_v283 :
    StableHlo.after (hostOps15 (F := Ideal)) W (Proc.devRef .tc main_v283)
      = toVec3 (ofVec4 (W (Proc.devRef .tc main_arg15) : (⟨S4x12x128x128, .f32⟩ : BufTy).Contents (Elt Ideal)) 3) := by
  unfold hostOps15
  after_results
  exact sliceCast4 (x := W (Proc.devRef .tc main_arg15)) (i := 3) (off := ![3, 0, 0, 0]) rfl rfl rfl rfl
    slices_S4x12x128x128_S1x12x128x128_3_0_0_0 shapeCasts_S1x12x128x128_S12x128x128

/-! ## Before the second batched matmul -/

set_option maxHeartbeats 1000000 in
/-- The twelve sets' products added onto the centre term, in one pass over 600000 rows. -/
theorem after_hostOps16_main_v294 :
    StableHlo.after (hostOps16 (F := Ideal)) W (Proc.devRef .tc main_v294)
      = Spec.toVec2 (Spec.scatterAddRows
          (Spec.ofVec2 (W (Proc.devRef .tc main_v274) : (⟨S50000x128, .f32⟩ : BufTy).Contents (Elt Ideal)))
          (fun r => ofWords2 (W (Proc.devRef .tc main_arg25) : (⟨S12x50000, .i32⟩ : BufTy).Contents (Elt Ideal))
            (Spec.psRow r).1 (Spec.psRow r).2)
          (fun r q => ofVec3 (W (Proc.devRef .tc main_v284) : (⟨S12x50000x128, .bf16⟩ : BufTy).Contents (Elt Ideal))
            (Spec.psRow r).1 (Spec.psRow r).2 q)) := by
  unfold hostOps16
  after_results
  exact wrapScatter (N := 50000) (K := 128) (B := 12) (E := 50000) (R := 600000) (by decide)
    scatter_S50000x128_S600000x1_S600000x128_1_0_0_1_wf scatter_S50000x128_S600000x1_S600000x128_1_0_0_1 rfl
    Spec.psRow (fun r => by show r.val / 50000 * 50000 + r.val % 50000 = r.val; omega)
    shapeCasts_S12x50000_S600000 shapeCasts_S12x50000x128_S600000x128 bcast_S_S600000 bcast_S600000_S600000x1_0
    bitsLt_bf16_f32
    (W (Proc.devRef .tc main_v274)) (W (Proc.devRef .tc main_arg25)) (W (Proc.devRef .tc main_v284))

set_option maxHeartbeats 1000000 in
/-- The left and the right weight, stacked: index 0 is left, index 1 is right. -/
theorem after_hostOps16_main_v301 :
    StableHlo.after (hostOps16 (F := Ideal)) W (Proc.devRef .tc main_v301)
      = toVec3 (fun k : Fin 2 => if k = 0
          then ofVec3 (W (Proc.devRef .tc main_arg16) : (⟨S4x128x128, .f32⟩ : BufTy).Contents (Elt Ideal)) 3
          else ofVec3 (W (Proc.devRef .tc main_arg17) : (⟨S4x128x128, .f32⟩ : BufTy).Contents (Elt Ideal)) 3) := by
  unfold hostOps16
  after_results
  exact stackPairSlices (x := W (Proc.devRef .tc main_arg16)) (y := W (Proc.devRef .tc main_arg17))
    (i := 3) (off := ![3, 0, 0]) rfl rfl rfl
    slices_S4x128x128_S1x128x128_3_0_0 shapeCasts_S1x128x128_S128x128 bcast_S128x128_S1x128x128_1_2
    concatenates_S1x128x128_S1x128x128_S2x128x128_d0

set_option maxHeartbeats 1000000 in
/-- The gathered source rows of the left and the right edge set. -/
theorem after_hostOps16_main_v308 :
    StableHlo.after (hostOps16 (F := Ideal)) W (Proc.devRef .tc main_v308)
      = toVec3 (fun k => Spec.gatherRows (by omega : 0 < 50000)
          (Spec.ofVec2 (W (Proc.devRef .tc main_v271_1) : (⟨S50000x128, .bf16⟩ : BufTy).Contents (Elt Ideal)))
          (ofWords2 (W (Proc.devRef .tc main_arg28) : (⟨S2x5000, .i32⟩ : BufTy).Contents (Elt Ideal)) k)) := by
  unfold hostOps16
  after_results
  exact wrapGather (N := 50000) (K := 128) (B := 2) (E := 5000) (by omega) (by decide)
    gather_S50000x128_S2x5000x1_S2x5000x128_2_0_n_n_0_2_1128_wf
    gather_S50000x128_S2x5000x1_S2x5000x128_2_0_n_n_0_2_1128 rfl
    bcast_S_S2x5000 bcast_S2x5000_S2x5000x1_0_1
    (W (Proc.devRef .tc main_v271_1)) (W (Proc.devRef .tc main_arg28))

/-! ## Before the node stage -/

set_option maxHeartbeats 1000000 in
/-- The left and right sets' products added on, in one pass over 10000 rows. -/
theorem after_hostOps17_main_v319 :
    StableHlo.after (hostOps17 (F := Ideal)) W (Proc.devRef .tc main_v319)
      = Spec.toVec2 (Spec.scatterAddRows
          (Spec.ofVec2 (W (Proc.devRef .tc main_v294) : (⟨S50000x128, .f32⟩ : BufTy).Contents (Elt Ideal)))
          (fun r => ofWords2 (W (Proc.devRef .tc main_arg27) : (⟨S2x5000, .i32⟩ : BufTy).Contents (Elt Ideal))
            (Spec.lrRow r).1 (Spec.lrRow r).2)
          (fun r q => ofVec3 (W (Proc.devRef .tc main_v309) : (⟨S2x5000x128, .bf16⟩ : BufTy).Contents (Elt Ideal))
            (Spec.lrRow r).1 (Spec.lrRow r).2 q)) := by
  unfold hostOps17
  after_results
  exact wrapScatter (N := 50000) (K := 128) (B := 2) (E := 5000) (R := 10000) (by decide)
    scatter_S50000x128_S10000x1_S10000x128_1_0_0_1_wf scatter_S50000x128_S10000x1_S10000x128_1_0_0_1 rfl
    Spec.lrRow (fun r => by show r.val / 5000 * 5000 + r.val % 5000 = r.val; omega)
    shapeCasts_S2x5000_S10000 shapeCasts_S2x5000x128_S10000x128 bcast_S_S10000 bcast_S10000_S10000x1_0
    bitsLt_bf16_f32
    (W (Proc.devRef .tc main_v294)) (W (Proc.devRef .tc main_arg27)) (W (Proc.devRef .tc main_v309))

set_option maxHeartbeats 1000000 in
/-- The first normalisation's scale row … -/
theorem after_hostOps17_main_v330 :
    StableHlo.after (hostOps17 (F := Ideal)) W (Proc.devRef .tc main_v330)
      = Spec.toVec2 (fun (_ : Fin 1) q =>
          ofVec3 (W (Proc.devRef .tc main_arg18) : (⟨S4x2x128, .f32⟩ : BufTy).Contents (Elt Ideal)) 3 0 q) := by
  unfold hostOps17
  after_results
  exact sliceRow2 (x := W (Proc.devRef .tc main_arg18)) (i := 3) (s := 0) (off := ![3, 0, 0]) rfl rfl rfl
    slices_S4x2x128_S1x1x128_3_0_0 shapeCasts_S1x1x128_S128 shapeCasts_S128_S1x128

set_option maxHeartbeats 1000000 in
/-- … and shift row. -/
theorem after_hostOps17_main_v331 :
    StableHlo.after (hostOps17 (F := Ideal)) W (Proc.devRef .tc main_v331)
      = Spec.toVec2 (fun (_ : Fin 1) q =>
          ofVec3 (W (Proc.devRef .tc main_arg18) : (⟨S4x2x128, .f32⟩ : BufTy).Contents (Elt Ideal)) 3 1 q) := by
  unfold hostOps17
  after_results
  exact sliceRow2 (x := W (Proc.devRef .tc main_arg18)) (i := 3) (s := 1) (off := ![3, 1, 0]) rfl rfl rfl
    slices_S4x2x128_S1x1x128_3_1_0 shapeCasts_S1x1x128_S128 shapeCasts_S128_S1x128

set_option maxHeartbeats 1000000 in
/-- The node weight. -/
theorem after_hostOps17_main_v325 :
    StableHlo.after (hostOps17 (F := Ideal)) W (Proc.devRef .tc main_v325)
      = Spec.toVec2 (ofVec3 (W (Proc.devRef .tc main_arg19) : (⟨S4x128x128, .f32⟩ : BufTy).Contents (Elt Ideal)) 3) := by
  unfold hostOps17
  after_results
  exact sliceCast3 (x := W (Proc.devRef .tc main_arg19)) (i := 3) (off := ![3, 0, 0]) rfl rfl rfl
    slices_S4x128x128_S1x128x128_3_0_0 shapeCasts_S1x128x128_S128x128

set_option maxHeartbeats 1000000 in
/-- The second normalisation's scale row … -/
theorem after_hostOps17_main_v332 :
    StableHlo.after (hostOps17 (F := Ideal)) W (Proc.devRef .tc main_v332)
      = Spec.toVec2 (fun (_ : Fin 1) q =>
          ofVec3 (W (Proc.devRef .tc main_arg20) : (⟨S4x2x128, .f32⟩ : BufTy).Contents (Elt Ideal)) 3 0 q) := by
  unfold hostOps17
  after_results
  exact sliceRow2 (x := W (Proc.devRef .tc main_arg20)) (i := 3) (s := 0) (off := ![3, 0, 0]) rfl rfl rfl
    slices_S4x2x128_S1x1x128_3_0_0 shapeCasts_S1x1x128_S128 shapeCasts_S128_S1x128

set_option maxHeartbeats 1000000 in
/-- … and shift row. -/
theorem after_hostOps17_main_v333 :
    StableHlo.after (hostOps17 (F := Ideal)) W (Proc.devRef .tc main_v333)
      = Spec.toVec2 (fun (_ : Fin 1) q =>
          ofVec3 (W (Proc.devRef .tc main_arg20) : (⟨S4x2x128, .f32⟩ : BufTy).Contents (Elt Ideal)) 3 1 q) := by
  unfold hostOps17
  after_results
  exact sliceRow2 (x := W (Proc.devRef .tc main_arg20)) (i := 3) (s := 1) (off := ![3, 1, 0]) rfl rfl rfl
    slices_S4x2x128_S1x1x128_3_1_0 shapeCasts_S1x1x128_S128 shapeCasts_S128_S1x128

end Cert.KHostGg

end
-- ==== Proof.KReg14.lean ====
/-
  Region 14 (the plain matrix kernel on a [50000,128] input in 10 row tiles of 5000): what its result array holds when
  the region ends, as a function of the two arrays it read, at the ideal values.

  Grid point `t` loads the 5000 rows from row `5000 t` of the input and the whole [128,128] weight, multiplies the tile
  by the transposed weight into a zero accumulator, and writes the product to the same rows of the result. Entry
  (r, q) of the result is therefore `∑ j, x r j * w q j`, written by the point `r / 5000`; the 10 tiles cover every row.
-/
import proofs.«413166_j32323923870246_3_alg».proof.Proof.KIFrameR14
import proofs.«413166_j32323923870246_3_alg».proof.Proof.Spec
import proofs.«413166_j32323923870246_3_alg».proof.Proof.LibMatmul
import Idealize.ShloMosaic.Lib.Pipeline.Value

noncomputable section

namespace Cert.KReg14

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The input array and the weight as the region finds them, at their literal types. -/
abbrev xArr (c : Dev nD) : S50000x128.Idx → EReal := V c (Pipeline.arrRef spec14 0)
abbrev wArr (c : Dev nD) : S128x128.Idx → EReal := V c (Pipeline.arrRef spec14 1)

/-- What the result array ends holding: the input against the weight's rows. -/
abbrev G (c : Dev nD) : S50000x128.Idx → EReal :=
  Spec.toVec2 (Spec.lin (Spec.ofVec2 (xArr V c)) (Spec.ofVec2 (wArr V c)))

/-- The body's payload at (p, q): the tile's row `p` against the weight's row `q`. -/
theorem pay_apply (x0 : FVec Ideal S5000x128 .bf16) (x1 : FVec Ideal S128x128 .f32) (p : Fin 5000) (q : Fin 128) :
    k14_pay1 (F := Ideal) x0 x1 (ix2 p q) = ∑ j : Fin 128, x0 (ix2 p j) * x1 (ix2 q j) := by
  unfold k14_pay1
  exact LibMatmul.block_apply dot_S5000x128_S128x128_S5000x128_1_0_0_1_n_n rfl x0 x1 _ _ _ _ p q

/-- The printed index maps over the 10 points: the input tile and the result tile are tile `t` of their arrays, the
    weight's one block is the whole weight. -/
theorem idx_facts : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- The input tile at point `t`, read at (p, j): row `5000 t + p` of the input array. -/
theorem xblk_apply (c : Dev nD) (t : Fin cfg14.N) (p : Fin 5000) (j : Fin 128) (r : Fin 50000)
    (hr : r.val = t.val * 5000 + p.val) :
    (iblk14 V c 0 t : Vec Ideal S5000x128 .bf16) (ix2 p j) = xArr V c (ix2 r j) := by
  obtain ⟨e0, e1, -, -, -, -⟩ := idx_facts t
  show xArr V c (((cfg14.win 0).blk t).view.emb (ix2 p j)) = xArr V c (ix2 r j)
  refine congrArg (xArr V c) (funext fun a => Fin.ext ?_)
  match a with
  | ⟨0, _⟩ => show win14_0.index t (0 : Fin 2) * 5000 + 1 * p.val = r.val; omega
  | ⟨1, _⟩ => show win14_0.index t (1 : Fin 2) * 128 + 1 * j.val = j.val; omega

/-- The weight's block at any point, read at (q, j): the weight array there. -/
theorem wblk_apply (c : Dev nD) (t : Fin cfg14.N) (q : Fin 128) (j : Fin 128) :
    (iblk14 V c 1 t : Vec Ideal S128x128 .f32) (ix2 q j) = wArr V c (ix2 q j) := by
  obtain ⟨-, -, e2, e3, -, -⟩ := idx_facts t
  show wArr V c (((cfg14.win 1).blk t).view.emb (ix2 q j)) = wArr V c (ix2 q j)
  refine congrArg (wArr V c) (funext fun a => Fin.ext ?_)
  match a with
  | ⟨0, _⟩ => show win14_1.index t (0 : Fin 2) * 128 + 1 * q.val = q.val; omega
  | ⟨1, _⟩ => show win14_1.index t (1 : Fin 2) * 128 + 1 * j.val = j.val; omega

/-- WHAT POINT `t` WRITES BACK is tile `t` of `G`. -/
theorem flushed_eq (c : Dev nD) (t : Fin cfg14.N) :
    (dat14 (F := Ideal) V c).flushed 2 t = ((cfg14.win 2).blk t).view.read (Elt Ideal) (G V c) := by
  show (cfg14.win 2).cut (grid14.coords t) ((dat14 (F := Ideal) V c).after 2 t) = _
  rw [after14_2]
  unfold out14_2
  rw [View.canon_unit_zero hz]
  simp only [View.ld_unit_zero (S := S5000x128) hz, View.ld_unit_zero (S := S128x128) hz]
  obtain ⟨-, -, -, -, e4, e5⟩ := idx_facts t
  have ht : t.val < 10 := lt_of_lt_of_eq t.isLt N_14
  refine funext fun (y : S5000x128.Idx) => ?_
  obtain ⟨p, q, rfl⟩ : ∃ (p : Fin 5000) (q : Fin 128), y = ix2 p q := ⟨y 0, y 1, eq_ix2 y⟩
  have hr : t.val * 5000 + p.val < 50000 := by have := p.isLt; omega
  refine (pay_apply (iblk14 V c 0 t) (iblk14 V c 1 t) p q).trans ?_
  have hemb : ((cfg14.win 2).blk t).view.emb (ix2 p q) = (ix2 ⟨t.val * 5000 + p.val, hr⟩ q : S50000x128.Idx) := by
    funext a; apply Fin.ext
    match a with
    | ⟨0, _⟩ => show win14_2.index t (0 : Fin 2) * 5000 + 1 * p.val = t.val * 5000 + p.val; omega
    | ⟨1, _⟩ => show win14_2.index t (1 : Fin 2) * 128 + 1 * q.val = q.val; omega
  show _ = G V c (((cfg14.win 2).blk t).view.emb (ix2 p q))
  rw [hemb]
  show _ = ∑ j : Fin 128, xArr V c (ix2 ⟨t.val * 5000 + p.val, hr⟩ j) * wArr V c (ix2 q j)
  refine Finset.sum_congr rfl fun j _ => ?_
  rw [xblk_apply V c t p j ⟨t.val * 5000 + p.val, hr⟩ rfl, wblk_apply V c t q j]

/-- An index of the result array is in point `t`'s tile iff each coordinate is in the tile's range on its axis. -/
theorem mem_blk (t : Fin cfg14.N) (i : S50000x128.Idx) :
    i ∈ ((cfg14.win 2).blk t).view.set ↔ ∀ a : Fin 2, win14_2.index t a * S5000x128.size a ≤ (i a).val ∧ (i a).val < win14_2.index t a * S5000x128.size a + S5000x128.size a := by
  show i ∈ ((View.whole main_v274).slice (win14_2.rect t)).set ↔ _
  rw [View.set_slice_whole, Rect.mem_set_unit]
  exact Iff.rfl

/-- Every index of the result array is in some point's tile: row `r` is in tile `r / 5000`. -/
theorem cover (i : S50000x128.Idx) : ∃ t : Fin cfg14.N, (cfg14.win 2).flush t = true ∧ i ∈ ((cfg14.win 2).blk t).view.set := by
  have hi0 : (i 0).val < 50000 := (i 0).isLt
  have hi1 : (i 1).val < 128 := (i 1).isLt
  have hN : cfg14.N = 10 := N_14
  obtain ⟨t, ht⟩ : ∃ t : Fin cfg14.N, t.val = (i 0).val / 5000 := ⟨⟨(i 0).val / 5000, by rw [hN]; omega⟩, rfl⟩
  obtain ⟨-, -, -, -, e4, e5⟩ := idx_facts t
  refine ⟨t, flush14_2 t, ?_⟩
  rw [mem_blk]
  intro a
  match a with
  | ⟨0, _⟩ =>
    show win14_2.index t (0 : Fin 2) * 5000 ≤ (i 0).val ∧ (i 0).val < win14_2.index t (0 : Fin 2) * 5000 + 5000
    omega
  | ⟨1, _⟩ =>
    show win14_2.index t (1 : Fin 2) * 128 ≤ (i 1).val ∧ (i 1).val < win14_2.index t (1 : Fin 2) * 128 + 128
    omega

/-- THE RESULT ARRAY when the region ends: the input against the weight's rows, entry (r, q) = `∑ j, x r j * w q j`. -/
theorem arr14_out (c : Dev nD) : (dat14 (F := Ideal) V c).arrAt 2 cfg14.N =
    Spec.toVec2 (Spec.lin (Spec.ofVec2 (V c (Pipeline.arrRef spec14 0))) (Spec.ofVec2 (V c (Pipeline.arrRef spec14 1)))) :=
  (dat14 (F := Ideal) V c).arrAt_eq_of_cover 2 (G V c) (fun t _ => flushed_eq V c t) cover

end Cert.KReg14

end
-- ==== Proof.KReg15.lean ====
/-
  Region 15 (the batched matrix kernel on a [12,50000,128] input, grid 12 × 10: member by member, 10 row tiles of 5000):
  what its result array holds when the region ends, as a function of the two arrays it read, at the ideal values.

  Grid point `t` is member `t / 10`, tile `t % 10`: it loads the 5000 rows from row `5000 (t % 10)` of that member of the input and
  that member's whole [128,128] weight, multiplies the tile by the transposed weight into a zero accumulator, and writes
  the product to the same member and rows of the result. Entry (s, r, q) of the result is therefore
  `∑ j, x s r j * w s q j`, written by the point `10 s + r / 5000`; the 120 tiles cover every entry.
-/
import proofs.«413166_j32323923870246_3_alg».proof.Proof.KIFrameR15
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg15

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S12x50000x128.Idx → EReal := V c (Pipeline.arrRef spec15 0)
abbrev wArr (c : Dev nD) : S12x128x128.Idx → EReal := V c (Pipeline.arrRef spec15 1)

/-- What the result array ends holding: each member of the input against the rows of the same member of the weight. -/
abbrev G (c : Dev nD) : S12x50000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k15_pay1 (F := Ideal) x0 x1 (ix3 0 p q) = ∑ j : Fin 128, x0 (ix3 0 p j) * x1 (ix3 0 q j) := by
  unfold k15_pay1
  exact LibMatmul.block3_apply dot_S5000x128_S128x128_S5000x128_1_0_0_1_n_n rfl x0 x1 _ _ _ _ _ p q

/-- The printed index maps over the 120 points: the input tile and the result tile are tile `t % 10` of member
    `t / 10`, the weight's block is that member's whole weight. -/
theorem idx_facts : ∀ t : Fin cfg15.N, win15_0.index t (0 : Fin 3) = t.val / 10 ∧ win15_0.index t (1 : Fin 3) = t.val % 10
    ∧ win15_0.index t (2 : Fin 3) = 0
    ∧ win15_1.index t (0 : Fin 3) = t.val / 10 ∧ win15_1.index t (1 : Fin 3) = 0 ∧ win15_1.index t (2 : Fin 3) = 0
    ∧ win15_2.index t (0 : Fin 3) = t.val / 10 ∧ win15_2.index t (1 : Fin 3) = t.val % 10
    ∧ win15_2.index t (2 : Fin 3) = 0 :=
  (by decide +kernel : ∀ t : Fin grid15.N, _)

/-- The input tile at point `t`, read at (0, p, j): member `t / 10`, row `5000 (t % 10) + p` of the input array. -/
theorem xblk_apply (c : Dev nD) (t : Fin cfg15.N) (p : Fin 5000) (j : Fin 128) (s : Fin 12) (r : Fin 50000)
    (hs : s.val = t.val / 10) (hr : r.val = t.val % 10 * 5000 + p.val) :
    (iblk15 V c 0 t : Vec Ideal S1x5000x128 .bf16) (ix3 0 p j) = xArr V c (ix3 s r j) := by
  obtain ⟨e0, e1, e2, -, -, -, -, -, -⟩ := idx_facts t
  show xArr V c (((cfg15.win 0).blk t).view.emb (ix3 0 p j)) = xArr V c (ix3 s r j)
  refine congrArg (xArr V c) (funext fun a => Fin.ext ?_)
  match a with
  | ⟨0, _⟩ => show win15_0.index t (0 : Fin 3) * 1 + 1 * 0 = s.val; omega
  | ⟨1, _⟩ => show win15_0.index t (1 : Fin 3) * 5000 + 1 * p.val = r.val; omega
  | ⟨2, _⟩ => show win15_0.index t (2 : Fin 3) * 128 + 1 * j.val = j.val; omega

/-- The weight's block at point `t`, read at (0, q, j): member `t / 10` of the weight array there. -/
theorem wblk_apply (c : Dev nD) (t : Fin cfg15.N) (q : Fin 128) (j : Fin 128) (s : Fin 12) (hs : s.val = t.val / 10) :
    (iblk15 V c 1 t : Vec Ideal S1x128x128 .f32) (ix3 0 q j) = wArr V c (ix3 s q j) := by
  obtain ⟨-, -, -, e3, e4, e5, -, -, -⟩ := idx_facts t
  show wArr V c (((cfg15.win 1).blk t).view.emb (ix3 0 q j)) = wArr V c (ix3 s q j)
  refine congrArg (wArr V c) (funext fun a => Fin.ext ?_)
  match a with
  | ⟨0, _⟩ => show win15_1.index t (0 : Fin 3) * 1 + 1 * 0 = s.val; omega
  | ⟨1, _⟩ => show win15_1.index t (1 : Fin 3) * 128 + 1 * q.val = q.val; omega
  | ⟨2, _⟩ => show win15_1.index t (2 : Fin 3) * 128 + 1 * j.val = j.val; omega

/-- WHAT POINT `t` WRITES BACK is its tile of `G`. -/
theorem flushed_eq (c : Dev nD) (t : Fin cfg15.N) :
    (dat15 (F := Ideal) V c).flushed 2 t = ((cfg15.win 2).blk t).view.read (Elt Ideal) (G V c) := by
  show (cfg15.win 2).cut (grid15.coords t) ((dat15 (F := Ideal) V c).after 2 t) = _
  rw [after15_2]
  unfold out15_2
  rw [View.canon_unit_zero hz]
  simp only [View.ld_unit_zero (S := S1x5000x128) hz, View.ld_unit_zero (S := S1x128x128) hz]
  obtain ⟨-, -, -, -, -, -, e6, e7, e8⟩ := idx_facts t
  have ht : t.val < 120 := lt_of_lt_of_eq t.isLt N_15
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 10 < 12 := by omega
  have hr : t.val % 10 * 5000 + p.val < 50000 := by have := p.isLt; omega
  refine (pay_apply (iblk15 V c 0 t) (iblk15 V c 1 t) p q).trans ?_
  have hemb : ((cfg15.win 2).blk t).view.emb (ix3 0 p q)
      = (ix3 ⟨t.val / 10, hs⟩ ⟨t.val % 10 * 5000 + p.val, hr⟩ q : S12x50000x128.Idx) := by
    funext a; apply Fin.ext
    match a with
    | ⟨0, _⟩ => show win15_2.index t (0 : Fin 3) * 1 + 1 * 0 = t.val / 10; omega
    | ⟨1, _⟩ => show win15_2.index t (1 : Fin 3) * 5000 + 1 * p.val = t.val % 10 * 5000 + p.val; omega
    | ⟨2, _⟩ => show win15_2.index t (2 : Fin 3) * 128 + 1 * q.val = q.val; omega
  show _ = G V c (((cfg15.win 2).blk t).view.emb (ix3 0 p q))
  rw [hemb]
  show _ = ∑ j : Fin 128, xArr V c (ix3 ⟨t.val / 10, hs⟩ ⟨t.val % 10 * 5000 + p.val, hr⟩ j) * wArr V c (ix3 ⟨t.val / 10, hs⟩ q j)
  refine Finset.sum_congr rfl fun j _ => ?_
  rw [xblk_apply V c t p j ⟨t.val / 10, hs⟩ ⟨t.val % 10 * 5000 + p.val, hr⟩ rfl rfl, wblk_apply V c t q j ⟨t.val / 10, hs⟩ rfl]

/-- An index of the result array is in point `t`'s tile iff each coordinate is in the tile's range on its axis. -/
theorem mem_blk (t : Fin cfg15.N) (i : S12x50000x128.Idx) :
    i ∈ ((cfg15.win 2).blk t).view.set ↔ ∀ a : Fin 3, win15_2.index t a * S1x5000x128.size a ≤ (i a).val ∧ (i a).val < win15_2.index t a * S1x5000x128.size a + S1x5000x128.size a := by
  show i ∈ ((View.whole main_v284).slice (win15_2.rect t)).set ↔ _
  rw [View.set_slice_whole, Rect.mem_set_unit]
  exact Iff.rfl

/-- Every index of the result array is in some point's tile: member `s`, row `r` is in the tile of point `10 s + r / 5000`. -/
theorem cover (i : S12x50000x128.Idx) : ∃ t : Fin cfg15.N, (cfg15.win 2).flush t = true ∧ i ∈ ((cfg15.win 2).blk t).view.set := by
  have hi0 : (i 0).val < 12 := (i 0).isLt
  have hi1 : (i 1).val < 50000 := (i 1).isLt
  have hi2 : (i 2).val < 128 := (i 2).isLt
  have hN : cfg15.N = 120 := N_15
  obtain ⟨t, ht⟩ : ∃ t : Fin cfg15.N, t.val = (i 0).val * 10 + (i 1).val / 5000 :=
    ⟨⟨(i 0).val * 10 + (i 1).val / 5000, by rw [hN]; omega⟩, rfl⟩
  obtain ⟨-, -, -, -, -, -, e6, e7, e8⟩ := idx_facts t
  refine ⟨t, flush15_2 t, ?_⟩
  rw [mem_blk]
  intro a
  match a with
  | ⟨0, _⟩ =>
    show win15_2.index t (0 : Fin 3) * 1 ≤ (i 0).val ∧ (i 0).val < win15_2.index t (0 : Fin 3) * 1 + 1
    omega
  | ⟨1, _⟩ =>
    show win15_2.index t (1 : Fin 3) * 5000 ≤ (i 1).val ∧ (i 1).val < win15_2.index t (1 : Fin 3) * 5000 + 5000
    omega
  | ⟨2, _⟩ =>
    show win15_2.index t (2 : Fin 3) * 128 ≤ (i 2).val ∧ (i 2).val < win15_2.index t (2 : Fin 3) * 128 + 128
    omega

/-- THE RESULT ARRAY when the region ends: each member of the input against the rows of the same member of the weight,
    entry (s, r, q) = `∑ j, x s r j * w s q j`. -/
theorem arr15_out (c : Dev nD) : (dat15 (F := Ideal) V c).arrAt 2 cfg15.N =
    Stack.toVec3 (Stack.lin3 (Stack.ofVec3 (V c (Pipeline.arrRef spec15 0))) (Stack.ofVec3 (V c (Pipeline.arrRef spec15 1)))) :=
  (dat15 (F := Ideal) V c).arrAt_eq_of_cover 2 (G V c) (fun t _ => flushed_eq V c t) cover

end Cert.KReg15

end
-- ==== Proof.KReg16.lean ====
/-
  Region 16 (the batched matrix kernel on a [2,5000,128] input, grid 2 × 1: member by member, 1 row tiles of 5000):
  what its result array holds when the region ends, as a function of the two arrays it read, at the ideal values.

  Grid point `t` is member `t / 1`, tile `t % 1`: it loads the 5000 rows from row `5000 (t % 1)` of that member of the input and
  that member's whole [128,128] weight, multiplies the tile by the transposed weight into a zero accumulator, and writes
  the product to the same member and rows of the result. Entry (s, r, q) of the result is therefore
  `∑ j, x s r j * w s q j`, written by the point `1 s + r / 5000`; the 2 tiles cover every entry.
-/
import proofs.«413166_j32323923870246_3_alg».proof.Proof.KIFrameR16
import proofs.«413166_j32323923870246_3_alg».proof.Proof.Spec
import proofs.«413166_j32323923870246_3_alg».proof.Proof.Stack
import proofs.«413166_j32323923870246_3_alg».proof.Proof.LibMatmul
import Idealize.ShloMosaic.Lib.Pipeline.Value

noncomputable section

namespace Cert.KReg16

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0, 0] : Fin 3 → Nat) = fun _ => 0 := funext fun a => by fin_cases a <;> rfl

/-- The input stack and the weight stack as the region finds them, at their literal types. -/
abbrev xArr (c : Dev nD) : S2x5000x128.Idx → EReal := V c (Pipeline.arrRef spec16 0)
abbrev wArr (c : Dev nD) : S2x128x128.Idx → EReal := V c (Pipeline.arrRef spec16 1)

/-- What the result array ends holding: each member of the input against the rows of the same member of the weight. -/
abbrev G (c : Dev nD) : S2x5000x128.Idx → EReal :=
  Stack.toVec3 (Stack.lin3 (Stack.ofVec3 (xArr V c)) (Stack.ofVec3 (wArr V c)))

/-- The body's payload at (0, p, q): the tile's row `p` against the weight's row `q`. -/
theorem pay_apply (x0 : FVec Ideal S1x5000x128 .bf16) (x1 : FVec Ideal S1x128x128 .f32) (p : Fin 5000) (q : Fin 128) :
    k16_pay1 (F := Ideal) x0 x1 (ix3 0 p q) = ∑ j : Fin 128, x0 (ix3 0 p j) * x1 (ix3 0 q j) := by
  unfold k16_pay1
  exact LibMatmul.block3_apply dot_S5000x128_S128x128_S5000x128_1_0_0_1_n_n rfl x0 x1 _ _ _ _ _ p q

/-- The printed index maps over the 2 points: the input tile and the result tile are tile `t % 1` of member
    `t / 1`, the weight's block is that member's whole weight. -/
theorem idx_facts : ∀ t : Fin cfg16.N, win16_0.index t (0 : Fin 3) = t.val / 1 ∧ win16_0.index t (1 : Fin 3) = t.val % 1
    ∧ win16_0.index t (2 : Fin 3) = 0
    ∧ win16_1.index t (0 : Fin 3) = t.val / 1 ∧ win16_1.index t (1 : Fin 3) = 0 ∧ win16_1.index t (2 : Fin 3) = 0
    ∧ win16_2.index t (0 : Fin 3) = t.val / 1 ∧ win16_2.index t (1 : Fin 3) = t.val % 1
    ∧ win16_2.index t (2 : Fin 3) = 0 :=
  (by decide +kernel : ∀ t : Fin grid16.N, _)

/-- The input tile at point `t`, read at (0, p, j): member `t / 1`, row `5000 (t % 1) + p` of the input array. -/
theorem xblk_apply (c : Dev nD) (t : Fin cfg16.N) (p : Fin 5000) (j : Fin 128) (s : Fin 2) (r : Fin 5000)
    (hs : s.val = t.val / 1) (hr : r.val = t.val % 1 * 5000 + p.val) :
    (iblk16 V c 0 t : Vec Ideal S1x5000x128 .bf16) (ix3 0 p j) = xArr V c (ix3 s r j) := by
  obtain ⟨e0, e1, e2, -, -, -, -, -, -⟩ := idx_facts t
  show xArr V c (((cfg16.win 0).blk t).view.emb (ix3 0 p j)) = xArr V c (ix3 s r j)
  refine congrArg (xArr V c) (funext fun a => Fin.ext ?_)
  match a with
  | ⟨0, _⟩ => show win16_0.index t (0 : Fin 3) * 1 + 1 * 0 = s.val; omega
  | ⟨1, _⟩ => show win16_0.index t (1 : Fin 3) * 5000 + 1 * p.val = r.val; omega
  | ⟨2, _⟩ => show win16_0.index t (2 : Fin 3) * 128 + 1 * j.val = j.val; omega

/-- The weight's block at point `t`, read at (0, q, j): member `t / 1` of the weight array there. -/
theorem wblk_apply (c : Dev nD) (t : Fin cfg16.N) (q : Fin 128) (j : Fin 128) (s : Fin 2) (hs : s.val = t.val / 1) :
    (iblk16 V c 1 t : Vec Ideal S1x128x128 .f32) (ix3 0 q j) = wArr V c (ix3 s q j) := by
  obtain ⟨-, -, -, e3, e4, e5, -, -, -⟩ := idx_facts t
  show wArr V c (((cfg16.win 1).blk t).view.emb (ix3 0 q j)) = wArr V c (ix3 s q j)
  refine congrArg (wArr V c) (funext fun a => Fin.ext ?_)
  match a with
  | ⟨0, _⟩ => show win16_1.index t (0 : Fin 3) * 1 + 1 * 0 = s.val; omega
  | ⟨1, _⟩ => show win16_1.index t (1 : Fin 3) * 128 + 1 * q.val = q.val; omega
  | ⟨2, _⟩ => show win16_1.index t (2 : Fin 3) * 128 + 1 * j.val = j.val; omega

/-- WHAT POINT `t` WRITES BACK is its tile of `G`. -/
theorem flushed_eq (c : Dev nD) (t : Fin cfg16.N) :
    (dat16 (F := Ideal) V c).flushed 2 t = ((cfg16.win 2).blk t).view.read (Elt Ideal) (G V c) := by
  show (cfg16.win 2).cut (grid16.coords t) ((dat16 (F := Ideal) V c).after 2 t) = _
  rw [after16_2]
  unfold out16_2
  rw [View.canon_unit_zero hz]
  simp only [View.ld_unit_zero (S := S1x5000x128) hz, View.ld_unit_zero (S := S1x128x128) hz]
  obtain ⟨-, -, -, -, -, -, e6, e7, e8⟩ := idx_facts t
  have ht : t.val < 2 := lt_of_lt_of_eq t.isLt N_16
  refine funext fun (y : S1x5000x128.Idx) => ?_
  obtain ⟨u, p, q, rfl⟩ : ∃ (u : Fin 1) (p : Fin 5000) (q : Fin 128), y = ix3 u p q := ⟨y 0, y 1, y 2, eq_ix3 y⟩
  obtain rfl : u = 0 := Subsingleton.elim u 0
  have hs : t.val / 1 < 2 := by omega
  have hr : t.val % 1 * 5000 + p.val < 5000 := by have := p.isLt; omega
  refine (pay_apply (iblk16 V c 0 t) (iblk16 V c 1 t) p q).trans ?_
  have hemb : ((cfg16.win 2).blk t).view.emb (ix3 0 p q)
      = (ix3 ⟨t.val / 1, hs⟩ ⟨t.val % 1 * 5000 + p.val, hr⟩ q : S2x5000x128.Idx) := by
    funext a; apply Fin.ext
    match a with
    | ⟨0, _⟩ => show win16_2.index t (0 : Fin 3) * 1 + 1 * 0 = t.val / 1; omega
    | ⟨1, _⟩ => show win16_2.index t (1 : Fin 3) * 5000 + 1 * p.val = t.val % 1 * 5000 + p.val; omega
    | ⟨2, _⟩ => show win16_2.index t (2 : Fin 3) * 128 + 1 * q.val = q.val; omega
  show _ = G V c (((cfg16.win 2).blk t).view.emb (ix3 0 p q))
  rw [hemb]
  show _ = ∑ j : Fin 128, xArr V c (ix3 ⟨t.val / 1, hs⟩ ⟨t.val % 1 * 5000 + p.val, hr⟩ j) * wArr V c (ix3 ⟨t.val / 1, hs⟩ q j)
  refine Finset.sum_congr rfl fun j _ => ?_
  rw [xblk_apply V c t p j ⟨t.val / 1, hs⟩ ⟨t.val % 1 * 5000 + p.val, hr⟩ rfl rfl, wblk_apply V c t q j ⟨t.val / 1, hs⟩ rfl]

/-- An index of the result array is in point `t`'s tile iff each coordinate is in the tile's range on its axis. -/
theorem mem_blk (t : Fin cfg16.N) (i : S2x5000x128.Idx) :
    i ∈ ((cfg16.win 2).blk t).view.set ↔ ∀ a : Fin 3, win16_2.index t a * S1x5000x128.size a ≤ (i a).val ∧ (i a).val < win16_2.index t a * S1x5000x128.size a + S1x5000x128.size a := by
  show i ∈ ((View.whole main_v309).slice (win16_2.rect t)).set ↔ _
  rw [View.set_slice_whole, Rect.mem_set_unit]
  exact Iff.rfl

/-- Every index of the result array is in some point's tile: member `s`, row `r` is in the tile of point `1 s + r / 5000`. -/
theorem cover (i : S2x5000x128.Idx) : ∃ t : Fin cfg16.N, (cfg16.win 2).flush t = true ∧ i ∈ ((cfg16.win 2).blk t).view.set := by
  have hi0 : (i 0).val < 2 := (i 0).isLt
  have hi1 : (i 1).val < 5000 := (i 1).isLt
  have hi2 : (i 2).val < 128 := (i 2).isLt
  have hN : cfg16.N = 2 := N_16
  obtain ⟨t, ht⟩ : ∃ t : Fin cfg16.N, t.val = (i 0).val * 1 + (i 1).val / 5000 :=
    ⟨⟨(i 0).val * 1 + (i 1).val / 5000, by rw [hN]; omega⟩, rfl⟩
  obtain ⟨-, -, -, -, -, -, e6, e7, e8⟩ := idx_facts t
  refine ⟨t, flush16_2 t, ?_⟩
  rw [mem_blk]
  intro a
  match a with
  | ⟨0, _⟩ =>
    show win16_2.index t (0 : Fin 3) * 1 ≤ (i 0).val ∧ (i 0).val < win16_2.index t (0 : Fin 3) * 1 + 1
    omega
  | ⟨1, _⟩ =>
    show win16_2.index t (1 : Fin 3) * 5000 ≤ (i 1).val ∧ (i 1).val < win16_2.index t (1 : Fin 3) * 5000 + 5000
    omega
  | ⟨2, _⟩ =>
    show win16_2.index t (2 : Fin 3) * 128 ≤ (i 2).val ∧ (i 2).val < win16_2.index t (2 : Fin 3) * 128 + 128
    omega

/-- THE RESULT ARRAY when the region ends: each member of the input against the rows of the same member of the weight,
    entry (s, r, q) = `∑ j, x s r j * w s q j`. -/
theorem arr16_out (c : Dev nD) : (dat16 (F := Ideal) V c).arrAt 2 cfg16.N =
    Stack.toVec3 (Stack.lin3 (Stack.ofVec3 (V c (Pipeline.arrRef spec16 0))) (Stack.ofVec3 (V c (Pipeline.arrRef spec16 1)))) :=
  (dat16 (F := Ideal) V c).arrAt_eq_of_cover 2 (G V c) (fun t _ => flushed_eq V c t) cover

end Cert.KReg16

end
-- ==== Proof.KReg17.lean ====
/-
  The node stage of the fourth fusion layer (region 17 of the kernel program), as a function of the arrays the region
  finds. The grid has ten points; point t stages rows 5000 t .. 5000 t + 4999 of the feature array (window 0) and of
  the residual array (window 1), the whole of the two normalisations' scale and shift rows and of the weight
  (windows 2 to 6), and writes the same rows of the two output arrays (window 7 in f32, window 8 in bf16, which over
  the extended reals is the same value). The body's result on a tile is the specification's node stage of the tile,
  and that stage acts on each row by itself, so row p of point t's tile is row 5000 t + p of the node stage of the
  whole arrays. The ten tiles cover the 50000 rows, so each output array ends holding that node stage.
-/
import proofs.«413166_j32323923870246_3_alg».proof.Proof.Spec
import proofs.«413166_j32323923870246_3_alg».proof.Proof.KGgLib
import proofs.«413166_j32323923870246_3_alg».proof.Proof.KIFrameR17
import Idealize.ShloMosaic.Lib.Pipeline.Value

noncomputable section

namespace Cert.GgTail.R17

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The body's two stored values are the tile's node stage -/

theorem pay7_eq (x0 x1 : Vec Ideal S5000x128 .f32) (x2 x3 : Vec Ideal S1x128 .f32) (x4 : Vec Ideal S128x128 .f32)
    (x5 x6 : Vec Ideal S1x128 .f32) :
    k17_pay1 (k17_pay3 x0 x2 x3 x4) (k17_pay4 x5) (k17_pay5 x6) x1 = ggVec x0 x1 x2 x3 x4 x5 x6 := rfl

theorem pay8_eq (x0 x1 : Vec Ideal S5000x128 .f32) (x2 x3 : Vec Ideal S1x128 .f32) (x4 : Vec Ideal S128x128 .f32)
    (x5 x6 : Vec Ideal S1x128 .f32) :
    k17_pay2 (k17_pay3 x0 x2 x3 x4) (k17_pay4 x5) (k17_pay5 x6) x1 = ggVec x0 x1 x2 x3 x4 x5 x6 := rfl

/-! ## Where each window's block lies in its array -/

/-- The block index of every window at every point: the row-tiled windows are at block row t, the others at zero. -/
theorem idx_facts : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = 0 ∧ win17_5.index t (1 : Fin 2) = 0
    ∧ win17_6.index t (0 : Fin 2) = 0 ∧ win17_6.index t (1 : Fin 2) = 0
    ∧ win17_7.index t (0 : Fin 2) = t.val ∧ win17_7.index t (1 : Fin 2) = 0
    ∧ win17_8.index t (0 : Fin 2) = t.val ∧ win17_8.index t (1 : Fin 2) = 0 :=
  (by decide +kernel : ∀ t : Fin grid17.N, _)

/-- Row p of the feature window's block at point t is row 5000 t + p of the feature array. -/
theorem blk0_row (c : Dev nD) (t : Fin cfg17.N) (p : Fin 5000) (k : Fin 128) (r : Fin 50000)
    (hr : r.val = 5000 * t.val + p.val) :
    (iblk17 V c 0 t : Vec Ideal S5000x128 .f32) (ix2 p k) = Spec.ofVec2 (V c (Pipeline.arrRef spec17 0)) r k := by
  obtain ⟨e0, e1, -⟩ := idx_facts t
  unfold iblk17
  rw [View.read_apply]
  show V c (Pipeline.arrRef spec17 0) _ = V c (Pipeline.arrRef spec17 0) (ix2 r k)
  congr 1
  funext a
  apply Fin.ext
  match a with
  | ⟨0, _⟩ => show win17_0.index t (0 : Fin 2) * 5000 + 1 * p.val = r.val; rw [e0, hr]; omega
  | ⟨1, _⟩ => show win17_0.index t (1 : Fin 2) * 128 + 1 * k.val = k.val; rw [e1]; omega

/-- Row p of the residual window's block at point t is row 5000 t + p of the residual array. -/
theorem blk1_row (c : Dev nD) (t : Fin cfg17.N) (p : Fin 5000) (k : Fin 128) (r : Fin 50000)
    (hr : r.val = 5000 * t.val + p.val) :
    (iblk17 V c 1 t : Vec Ideal S5000x128 .f32) (ix2 p k) = Spec.ofVec2 (V c (Pipeline.arrRef spec17 1)) r k := by
  obtain ⟨-, -, e0, e1, -⟩ := idx_facts t
  unfold iblk17
  rw [View.read_apply]
  show V c (Pipeline.arrRef spec17 1) _ = V c (Pipeline.arrRef spec17 1) (ix2 r k)
  congr 1
  funext a
  apply Fin.ext
  match a with
  | ⟨0, _⟩ => show win17_1.index t (0 : Fin 2) * 5000 + 1 * p.val = r.val; rw [e0, hr]; omega
  | ⟨1, _⟩ => show win17_1.index t (1 : Fin 2) * 128 + 1 * k.val = k.val; rw [e1]; omega

/-- The scale and shift rows and the weight are staged whole at every point. -/
theorem blk2_whole (c : Dev nD) (t : Fin cfg17.N) :
    (iblk17 V c 2 t : Vec Ideal S1x128 .f32) = V c (Pipeline.arrRef spec17 2) := by
  obtain ⟨-, -, -, -, e0, e1, -⟩ := idx_facts t
  funext j
  unfold iblk17
  rw [View.read_apply]
  show V c (Pipeline.arrRef spec17 2) _ = V c (Pipeline.arrRef spec17 2) j
  congr 1
  funext a
  apply Fin.ext
  match a with
  | ⟨0, _⟩ => show win17_2.index t (0 : Fin 2) * 1 + 1 * (j 0).val = (j 0).val; rw [e0]; omega
  | ⟨1, _⟩ => show win17_2.index t (1 : Fin 2) * 128 + 1 * (j 1).val = (j 1).val; rw [e1]; omega

theorem blk3_whole (c : Dev nD) (t : Fin cfg17.N) :
    (iblk17 V c 3 t : Vec Ideal S1x128 .f32) = V c (Pipeline.arrRef spec17 3) := by
  obtain ⟨-, -, -, -, -, -, e0, e1, -⟩ := idx_facts t
  funext j
  unfold iblk17
  rw [View.read_apply]
  show V c (Pipeline.arrRef spec17 3) _ = V c (Pipeline.arrRef spec17 3) j
  congr 1
  funext a
  apply Fin.ext
  match a with
  | ⟨0, _⟩ => show win17_3.index t (0 : Fin 2) * 1 + 1 * (j 0).val = (j 0).val; rw [e0]; omega
  | ⟨1, _⟩ => show win17_3.index t (1 : Fin 2) * 128 + 1 * (j 1).val = (j 1).val; rw [e1]; omega

theorem blk4_whole (c : Dev nD) (t : Fin cfg17.N) :
    (iblk17 V c 4 t : Vec Ideal S128x128 .f32) = V c (Pipeline.arrRef spec17 4) := by
  obtain ⟨-, -, -, -, -, -, -, -, e0, e1, -⟩ := idx_facts t
  funext j
  unfold iblk17
  rw [View.read_apply]
  show V c (Pipeline.arrRef spec17 4) _ = V c (Pipeline.arrRef spec17 4) j
  congr 1
  funext a
  apply Fin.ext
  match a with
  | ⟨0, _⟩ => show win17_4.index t (0 : Fin 2) * 128 + 1 * (j 0).val = (j 0).val; rw [e0]; omega
  | ⟨1, _⟩ => show win17_4.index t (1 : Fin 2) * 128 + 1 * (j 1).val = (j 1).val; rw [e1]; omega

theorem blk5_whole (c : Dev nD) (t : Fin cfg17.N) :
    (iblk17 V c 5 t : Vec Ideal S1x128 .f32) = V c (Pipeline.arrRef spec17 5) := by
  obtain ⟨-, -, -, -, -, -, -, -, -, -, e0, e1, -⟩ := idx_facts t
  funext j
  unfold iblk17
  rw [View.read_apply]
  show V c (Pipeline.arrRef spec17 5) _ = V c (Pipeline.arrRef spec17 5) j
  congr 1
  funext a
  apply Fin.ext
  match a with
  | ⟨0, _⟩ => show win17_5.index t (0 : Fin 2) * 1 + 1 * (j 0).val = (j 0).val; rw [e0]; omega
  | ⟨1, _⟩ => show win17_5.index t (1 : Fin 2) * 128 + 1 * (j 1).val = (j 1).val; rw [e1]; omega

theorem blk6_whole (c : Dev nD) (t : Fin cfg17.N) :
    (iblk17 V c 6 t : Vec Ideal S1x128 .f32) = V c (Pipeline.arrRef spec17 6) := by
  obtain ⟨-, -, -, -, -, -, -, -, -, -, -, -, e0, e1, -⟩ := idx_facts t
  funext j
  unfold iblk17
  rw [View.read_apply]
  show V c (Pipeline.arrRef spec17 6) _ = V c (Pipeline.arrRef spec17 6) j
  congr 1
  funext a
  apply Fin.ext
  match a with
  | ⟨0, _⟩ => show win17_6.index t (0 : Fin 2) * 1 + 1 * (j 0).val = (j 0).val; rw [e0]; omega
  | ⟨1, _⟩ => show win17_6.index t (1 : Fin 2) * 128 + 1 * (j 1).val = (j 1).val; rw [e1]; omega

/-! ## What each point writes back -/

/-- The node stage of the arrays the region finds, as one [50000, 128] array. -/
abbrev G (c : Dev nD) : S50000x128.Idx → EReal :=
  Spec.toVec2 (Spec.ggTail (Spec.ofVec2 (V c (Pipeline.arrRef spec17 0))) (Spec.ofVec2 (V c (Pipeline.arrRef spec17 1)))
    (fun q => V c (Pipeline.arrRef spec17 2) (ValueIdx.ix2 0 q)) (fun q => V c (Pipeline.arrRef spec17 3) (ValueIdx.ix2 0 q))
    (Spec.ofVec2 (V c (Pipeline.arrRef spec17 4))) (fun q => V c (Pipeline.arrRef spec17 5) (ValueIdx.ix2 0 q))
    (fun q => V c (Pipeline.arrRef spec17 6) (ValueIdx.ix2 0 q)))

/-- The body's value on point t's blocks, at row p, is row 5000 t + p of that array. -/
theorem tile_eq (c : Dev nD) (t : Fin cfg17.N) (p : Fin 5000) (k : Fin 128) (r : Fin 50000)
    (hr : r.val = 5000 * t.val + p.val) :
    ggVec (iblk17 V c 0 t) (iblk17 V c 1 t) (iblk17 V c 2 t) (iblk17 V c 3 t) (iblk17 V c 4 t) (iblk17 V c 5 t) (iblk17 V c 6 t) (ix2 p k)
      = G V c (ix2 r k) := by
  refine (ggVec_tile (iblk17 V c 0 t) (iblk17 V c 1 t) (iblk17 V c 2 t) (iblk17 V c 3 t) (iblk17 V c 4 t) (iblk17 V c 5 t)
    (iblk17 V c 6 t) (Spec.ofVec2 (V c (Pipeline.arrRef spec17 0))) (Spec.ofVec2 (V c (Pipeline.arrRef spec17 1))) p k r
    (fun k' => blk0_row V c t p k' r hr) (fun k' => blk1_row V c t p k' r hr)).trans ?_
  rw [blk2_whole V c t, blk3_whole V c t, blk4_whole V c t, blk5_whole V c t, blk6_whole V c t]
  rfl

/-- Point t's block of an output window, embedded in the array: row 5000 t + p, column k. -/
theorem emb7 (t : Fin cfg17.N) (p : Fin 5000) (k : Fin 128) (r : Fin 50000) (hr : r.val = 5000 * t.val + p.val) :
    ((cfg17.win 7).blk t).view.emb (ix2 p k) = (ix2 r k : S50000x128.Idx) := by
  obtain ⟨-, -, -, -, -, -, -, -, -, -, -, -, -, -, e0, e1, -⟩ := idx_facts t
  funext a
  apply Fin.ext
  match a with
  | ⟨0, _⟩ => show win17_7.index t (0 : Fin 2) * 5000 + 1 * p.val = r.val; rw [e0, hr]; omega
  | ⟨1, _⟩ => show win17_7.index t (1 : Fin 2) * 128 + 1 * k.val = k.val; rw [e1]; omega

theorem emb8 (t : Fin cfg17.N) (p : Fin 5000) (k : Fin 128) (r : Fin 50000) (hr : r.val = 5000 * t.val + p.val) :
    ((cfg17.win 8).blk t).view.emb (ix2 p k) = (ix2 r k : S50000x128.Idx) := by
  obtain ⟨-, -, -, -, -, -, -, -, -, -, -, -, -, -, -, -, e0, e1⟩ := idx_facts t
  funext a
  apply Fin.ext
  match a with
  | ⟨0, _⟩ => show win17_8.index t (0 : Fin 2) * 5000 + 1 * p.val = r.val; rw [e0, hr]; omega
  | ⟨1, _⟩ => show win17_8.index t (1 : Fin 2) * 128 + 1 * k.val = k.val; rw [e1]; omega

/-- What point t writes back to the f32 output is block t of the node stage of the arrays. -/
theorem flushed7_eq (c : Dev nD) (t : Fin cfg17.N) :
    (dat17 V c).flushed 7 t = ((cfg17.win 7).blk t).view.read (Elt Ideal) (G V c) := by
  have hN : cfg17.N = 10 := N_17
  have ht : t.val < 10 := by have h := t.isLt; omega
  show (cfg17.win 7).cut (grid17.coords t) ((dat17 V c).after 7 t) = _
  rw [after17_7]
  unfold out17_7
  rw [View.canon_unit_zero hz2]
  simp only [View.ld_unit_zero (S := S5000x128) hz2, View.ld_unit_zero (S := S1x128) hz2, View.ld_unit_zero (S := S128x128) hz2]
  show (k17_pay1 (k17_pay3 (iblk17 V c 0 t) (iblk17 V c 2 t) (iblk17 V c 3 t) (iblk17 V c 4 t)) (k17_pay4 (iblk17 V c 5 t))
      (k17_pay5 (iblk17 V c 6 t)) (iblk17 V c 1 t) : S5000x128.Idx → EReal)
    = fun j : S5000x128.Idx => G V c (((cfg17.win 7).blk t).view.emb j)
  refine tile_ext _ _ fun p k => ?_
  refine (congrFun (pay7_eq (iblk17 V c 0 t) (iblk17 V c 1 t) (iblk17 V c 2 t) (iblk17 V c 3 t) (iblk17 V c 4 t) (iblk17 V c 5 t)
    (iblk17 V c 6 t)) (ix2 p k)).trans ?_
  refine (tile_eq V c t p k ⟨5000 * t.val + p.val, by have := p.isLt; omega⟩ rfl).trans ?_
  exact congrArg (G V c) (emb7 t p k ⟨5000 * t.val + p.val, by have := p.isLt; omega⟩ rfl).symm

/-- What point t writes back to the bf16 output is the same block. -/
theorem flushed8_eq (c : Dev nD) (t : Fin cfg17.N) :
    (dat17 V c).flushed 8 t = ((cfg17.win 8).blk t).view.read (Elt Ideal) (G V c) := by
  have hN : cfg17.N = 10 := N_17
  have ht : t.val < 10 := by have h := t.isLt; omega
  show (cfg17.win 8).cut (grid17.coords t) ((dat17 V c).after 8 t) = _
  rw [after17_8]
  unfold out17_8
  rw [View.canon_unit_zero hz2]
  simp only [View.ld_unit_zero (S := S5000x128) hz2, View.ld_unit_zero (S := S1x128) hz2, View.ld_unit_zero (S := S128x128) hz2]
  show (k17_pay2 (k17_pay3 (iblk17 V c 0 t) (iblk17 V c 2 t) (iblk17 V c 3 t) (iblk17 V c 4 t)) (k17_pay4 (iblk17 V c 5 t))
      (k17_pay5 (iblk17 V c 6 t)) (iblk17 V c 1 t) : S5000x128.Idx → EReal)
    = fun j : S5000x128.Idx => G V c (((cfg17.win 8).blk t).view.emb j)
  refine tile_ext _ _ fun p k => ?_
  refine (congrFun (pay8_eq (iblk17 V c 0 t) (iblk17 V c 1 t) (iblk17 V c 2 t) (iblk17 V c 3 t) (iblk17 V c 4 t) (iblk17 V c 5 t)
    (iblk17 V c 6 t)) (ix2 p k)).trans ?_
  refine (tile_eq V c t p k ⟨5000 * t.val + p.val, by have := p.isLt; omega⟩ rfl).trans ?_
  exact congrArg (G V c) (emb8 t p k ⟨5000 * t.val + p.val, by have := p.isLt; omega⟩ rfl).symm

/-! ## The ten tiles cover the array -/

/-- An index of the f32 output array is in point t's block iff each coordinate is in the block's range on its axis. -/
theorem mem_blk7 (t : Fin cfg17.N) (i : S50000x128.Idx) :
    i ∈ ((cfg17.win 7).blk t).view.set
      ↔ ∀ a : Fin 2, win17_7.index t a * S5000x128.size a ≤ (i a).val ∧ (i a).val < win17_7.index t a * S5000x128.size a + S5000x128.size a := by
  show i ∈ ((View.whole main_v334_0).slice (win17_7.rect t)).set ↔ _
  rw [View.set_slice_whole, Rect.mem_set_unit]
  exact Iff.rfl

theorem mem_blk8 (t : Fin cfg17.N) (i : S50000x128.Idx) :
    i ∈ ((cfg17.win 8).blk t).view.set
      ↔ ∀ a : Fin 2, win17_8.index t a * S5000x128.size a ≤ (i a).val ∧ (i a).val < win17_8.index t a * S5000x128.size a + S5000x128.size a := by
  show i ∈ ((View.whole main_v334_1).slice (win17_8.rect t)).set ↔ _
  rw [View.set_slice_whole, Rect.mem_set_unit]
  exact Iff.rfl

/-- Row r lies in the block of point r / 5000. -/
theorem cover7 (i : S50000x128.Idx) :
    ∃ t : Fin cfg17.N, (cfg17.win 7).flush t = true ∧ i ∈ ((cfg17.win 7).blk t).view.set := by
  have hi0 : (i 0).val < 50000 := (i 0).isLt
  have hi1 : (i 1).val < 128 := (i 1).isLt
  have hN : cfg17.N = 10 := N_17
  have hlt : (i 0).val / 5000 < cfg17.N := by rw [hN]; omega
  obtain ⟨-, -, -, -, -, -, -, -, -, -, -, -, -, -, e0, e1, -⟩ := idx_facts ⟨(i 0).val / 5000, hlt⟩
  refine ⟨⟨(i 0).val / 5000, hlt⟩, flush17_7 _, ?_⟩
  rw [mem_blk7]
  intro a
  match a with
  | ⟨0, _⟩ =>
    show win17_7.index ⟨(i 0).val / 5000, hlt⟩ (0 : Fin 2) * 5000 ≤ (i 0).val
      ∧ (i 0).val < win17_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win17_7.index ⟨(i 0).val / 5000, hlt⟩ (1 : Fin 2) * 128 ≤ (i 1).val
      ∧ (i 1).val < win17_7.index ⟨(i 0).val / 5000, hlt⟩ (1 : Fin 2) * 128 + 128
    rw [e1]
    omega

theorem cover8 (i : S50000x128.Idx) :
    ∃ t : Fin cfg17.N, (cfg17.win 8).flush t = true ∧ i ∈ ((cfg17.win 8).blk t).view.set := by
  have hi0 : (i 0).val < 50000 := (i 0).isLt
  have hi1 : (i 1).val < 128 := (i 1).isLt
  have hN : cfg17.N = 10 := N_17
  have hlt : (i 0).val / 5000 < cfg17.N := by rw [hN]; omega
  obtain ⟨-, -, -, -, -, -, -, -, -, -, -, -, -, -, -, -, e0, e1⟩ := idx_facts ⟨(i 0).val / 5000, hlt⟩
  refine ⟨⟨(i 0).val / 5000, hlt⟩, flush17_8 _, ?_⟩
  rw [mem_blk8]
  intro a
  match a with
  | ⟨0, _⟩ =>
    show win17_8.index ⟨(i 0).val / 5000, hlt⟩ (0 : Fin 2) * 5000 ≤ (i 0).val
      ∧ (i 0).val < win17_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win17_8.index ⟨(i 0).val / 5000, hlt⟩ (1 : Fin 2) * 128 ≤ (i 1).val
      ∧ (i 1).val < win17_8.index ⟨(i 0).val / 5000, hlt⟩ (1 : Fin 2) * 128 + 128
    rw [e1]
    omega

/-! ## The two output arrays after the region -/

/-- The f32 output array ends holding the node stage of the arrays the region found. -/
theorem arr17_out7 (c : Dev nD) : (dat17 (F := Ideal) V c).arrAt 7 cfg17.N = Spec.toVec2 (Spec.ggTail (Spec.ofVec2 (V c (Pipeline.arrRef spec17 0))) (Spec.ofVec2 (V c (Pipeline.arrRef spec17 1))) (fun q => V c (Pipeline.arrRef spec17 2) (ValueIdx.ix2 0 q)) (fun q => V c (Pipeline.arrRef spec17 3) (ValueIdx.ix2 0 q)) (Spec.ofVec2 (V c (Pipeline.arrRef spec17 4))) (fun q => V c (Pipeline.arrRef spec17 5) (ValueIdx.ix2 0 q)) (fun q => V c (Pipeline.arrRef spec17 6) (ValueIdx.ix2 0 q))) :=
  (dat17 V c).arrAt_eq_of_cover 7 (G V c) (fun t _ => flushed7_eq V c t) cover7

/-- The bf16 output array ends holding the same values. -/
theorem arr17_out8 (c : Dev nD) : (dat17 (F := Ideal) V c).arrAt 8 cfg17.N = Spec.toVec2 (Spec.ggTail (Spec.ofVec2 (V c (Pipeline.arrRef spec17 0))) (Spec.ofVec2 (V c (Pipeline.arrRef spec17 1))) (fun q => V c (Pipeline.arrRef spec17 2) (ValueIdx.ix2 0 q)) (fun q => V c (Pipeline.arrRef spec17 3) (ValueIdx.ix2 0 q)) (Spec.ofVec2 (V c (Pipeline.arrRef spec17 4))) (fun q => V c (Pipeline.arrRef spec17 5) (ValueIdx.ix2 0 q)) (fun q => V c (Pipeline.arrRef spec17 6) (ValueIdx.ix2 0 q))) :=
  (dat17 V c).arrAt_eq_of_cover 8 (G V c) (fun t _ => flushed8_eq V c t) cover8

end Cert.GgTail.R17

end
-- ==== Proof.KChainF3.lean ====
/-
  Fusion layer 3 of the kernel program (regions 14 to 17 of @main and the host stretches before them), from lane
  features `g` held in both copies at the layer's entry: the centre term, the twelve predecessor / successor
  contributions, their accumulation, the left / right contributions, the full accumulation, and the node stage.
  Each step reads its operands where the fold last wrote them, carried there unchanged, and states what the segment
  leaves as the specification's term of `g` and the launch arguments.
-/
import proofs.«413166_j32323923870246_3_alg».proof.Proof.KChainKeep
import proofs.«413166_j32323923870246_3_alg».proof.Proof.KChainArgs
import proofs.«413166_j32323923870246_3_alg».proof.Proof.KHostGg3
import proofs.«413166_j32323923870246_3_alg».proof.Proof.KReg14
import proofs.«413166_j32323923870246_3_alg».proof.Proof.KReg15
import proofs.«413166_j32323923870246_3_alg».proof.Proof.KReg16
import proofs.«413166_j32323923870246_3_alg».proof.Proof.KReg17
import proofs.«413166_j32323923870246_3_alg».proof.Proof.LibScatter

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

/-- Region 14: the centre term. Its operands are the features' second copy and the layer's centre weight, sliced
    from the stacked weights by the host stretch before it. -/
theorem inv_F3_ctr (hg1 : W28 m ρ c (Proc.devRef .tc main_v271_1) = toVec2 g) :
    W30 m ρ c (Proc.devRef .tc main_v274) = toVec2 (lin g ((argsOfK m c).fuse_ctr_w 3)) := by
  have hx : V29 m ρ c (Pipeline.arrRef spec14 0) = toVec2 g := (kept_v271_1_W29 m ρ c).trans hg1
  have hw : V29 m ρ c (Pipeline.arrRef spec14 1) = toVec2 ((argsOfK m c).fuse_ctr_w 3) :=
    (Cert.KHostGg.after_hostOps14_main_v273 (W28 m ρ c)).trans (by rw [kept_arg14_W28 m ρ c]; rfl)
  refine (W30_arr m ρ c 2).trans ((Cert.KReg14.arr14_out (V29 m ρ) c).trans ?_)
  rw [hx, hw]; rfl

/-- Region 15: the twelve predecessor / successor contributions, one matrix per edge set: the features' rows gathered
    at each set's source nodes, against that set's weight. -/
theorem inv_F3_ps (hg1 : W28 m ρ c (Proc.devRef .tc main_v271_1) = toVec2 g) :
    W32 m ρ c (Proc.devRef .tc main_v284) = Stack.toVec3 (psContrib (argsOfK m c) 3 g) := by
  have hx : V31 m ρ c (Pipeline.arrRef spec15 0)
      = Cert.KHostGg.toVec3 (fun k => gatherRows (by omega : 0 < 50000) g ((argsOfK m c).ps_v k)) :=
    (Cert.KHostGg.after_hostOps15_main_v281 (W30 m ρ c)).trans (by rw [kept_v271_1_W30 m ρ c, hg1, kept_arg26_W30 m ρ c]; rfl)
  have hw : V31 m ρ c (Pipeline.arrRef spec15 1) = Cert.KHostGg.toVec3 ((argsOfK m c).fuse_ps_w 3) :=
    (Cert.KHostGg.after_hostOps15_main_v283 (W30 m ρ c)).trans (by rw [kept_arg15_W30 m ρ c]; rfl)
  refine (W32_arr m ρ c 2).trans ((Cert.KReg15.arr15_out (V31 m ρ) c).trans ?_)
  rw [hx, hw]; rfl

/-- Host stretch 16: the first accumulation pass, all twelve sets' contributions added onto the centre term as one
    edge list, each at its wrapped target node. -/
theorem inv_F3_accPs (hg1 : W28 m ρ c (Proc.devRef .tc main_v271_1) = toVec2 g) :
    W33 m ρ c (Proc.devRef .tc main_v294) = toVec2 (accPs (argsOfK m c) 3 g) := by
  refine (Cert.KHostGg.after_hostOps16_main_v294 (W32 m ρ c)).trans ?_
  rw [kept_v274_W32 m ρ c, inv_F3_ctr m ρ c g hg1, kept_arg25_W32 m ρ c, inv_F3_ps m ρ c g hg1]; rfl

/-- Region 16: the left / right contributions. -/
theorem inv_F3_lr (hg1 : W28 m ρ c (Proc.devRef .tc main_v271_1) = toVec2 g) :
    W34 m ρ c (Proc.devRef .tc main_v309) = Stack.toVec3 (lrContrib (argsOfK m c) 3 g) := by
  have hx : V33 m ρ c (Pipeline.arrRef spec16 0)
      = Cert.KHostGg.toVec3 (fun k => gatherRows (by omega : 0 < 50000) g ((argsOfK m c).lr_v k)) :=
    (Cert.KHostGg.after_hostOps16_main_v308 (W32 m ρ c)).trans (by rw [kept_v271_1_W32 m ρ c, hg1, kept_arg28_W32 m ρ c]; rfl)
  have hw : V33 m ρ c (Pipeline.arrRef spec16 1)
      = Cert.KHostGg.toVec3 (fun k : Fin 2 => if k = 0 then (argsOfK m c).fuse_left_w 3 else (argsOfK m c).fuse_right_w 3) :=
    (Cert.KHostGg.after_hostOps16_main_v301 (W32 m ρ c)).trans (by rw [kept_arg16_W32 m ρ c, kept_arg17_W32 m ρ c]; rfl)
  refine (W34_arr m ρ c 2).trans ((Cert.KReg16.arr16_out (V33 m ρ) c).trans ?_)
  rw [hx, hw]; rfl

/-- Host stretch 17: the second pass, the left / right contributions added onto the first pass's result: the full
    accumulation in its two-pass form. -/
theorem inv_F3_acc (hg1 : W28 m ρ c (Proc.devRef .tc main_v271_1) = toVec2 g) :
    W35 m ρ c (Proc.devRef .tc main_v319) = toVec2 (fuseAccMerged (argsOfK m c) 3 g) := by
  refine (Cert.KHostGg.after_hostOps17_main_v319 (W34 m ρ c)).trans ?_
  rw [kept_v294_W34 m ρ c, inv_F3_accPs m ρ c g hg1, kept_arg27_W34 m ρ c, inv_F3_lr m ρ c g hg1, fuseAccMerged_eq]; rfl

/-! Region 17's seven operands, one by one: the accumulation (the sets added one after the other give the same sums as
    the two passes), the features' first copy as residual, and the layer's scale / shift rows and weight, sliced from
    the stacked arguments by the host stretch before it. -/

theorem F3_op0 (hg1 : W28 m ρ c (Proc.devRef .tc main_v271_1) = toVec2 g) : V35 m ρ c (Pipeline.arrRef spec17 0) = toVec2 (fuseAcc (argsOfK m c) 3 g) :=
  (inv_F3_acc m ρ c g hg1).trans (by rw [fuseAcc_eq_merged])
theorem F3_op1 (hg0 : W28 m ρ c (Proc.devRef .tc main_v271_0) = toVec2 g) : V35 m ρ c (Pipeline.arrRef spec17 1) = toVec2 g := (kept_v271_0_W35 m ρ c).trans hg0
theorem F3_op2 : V35 m ρ c (Pipeline.arrRef spec17 2) = toVec2 (fun (_ : Fin 1) q => (argsOfK m c).fuse_norm_gn 3 0 q) :=
  (Cert.KHostGg.after_hostOps17_main_v330 (W34 m ρ c)).trans (by rw [kept_arg18_W34 m ρ c]; rfl)
theorem F3_op3 : V35 m ρ c (Pipeline.arrRef spec17 3) = toVec2 (fun (_ : Fin 1) q => (argsOfK m c).fuse_norm_gn 3 1 q) :=
  (Cert.KHostGg.after_hostOps17_main_v331 (W34 m ρ c)).trans (by rw [kept_arg18_W34 m ρ c]; rfl)
theorem F3_op4 : V35 m ρ c (Pipeline.arrRef spec17 4) = toVec2 ((argsOfK m c).fuse_ctr2_w 3) :=
  (Cert.KHostGg.after_hostOps17_main_v325 (W34 m ρ c)).trans (by rw [kept_arg19_W34 m ρ c]; rfl)
theorem F3_op5 : V35 m ρ c (Pipeline.arrRef spec17 5) = toVec2 (fun (_ : Fin 1) q => (argsOfK m c).fuse_ctr2_gn 3 0 q) :=
  (Cert.KHostGg.after_hostOps17_main_v332 (W34 m ρ c)).trans (by rw [kept_arg20_W34 m ρ c]; rfl)
theorem F3_op6 : V35 m ρ c (Pipeline.arrRef spec17 6) = toVec2 (fun (_ : Fin 1) q => (argsOfK m c).fuse_ctr2_gn 3 1 q) :=
  (Cert.KHostGg.after_hostOps17_main_v333 (W34 m ρ c)).trans (by rw [kept_arg20_W34 m ρ c]; rfl)

set_option maxHeartbeats 4000000 in
/-- The node stage on those operands is the layer of the specification. -/
theorem inv_F3_node (hg0 : W28 m ρ c (Proc.devRef .tc main_v271_0) = toVec2 g) (hg1 : W28 m ρ c (Proc.devRef .tc main_v271_1) = toVec2 g) :
    toVec2 (ggTail (ofVec2 (V35 m ρ c (Pipeline.arrRef spec17 0))) (ofVec2 (V35 m ρ c (Pipeline.arrRef spec17 1)))
      (fun q => V35 m ρ c (Pipeline.arrRef spec17 2) (ValueIdx.ix2 0 q)) (fun q => V35 m ρ c (Pipeline.arrRef spec17 3) (ValueIdx.ix2 0 q))
      (ofVec2 (V35 m ρ c (Pipeline.arrRef spec17 4)))
      (fun q => V35 m ρ c (Pipeline.arrRef spec17 5) (ValueIdx.ix2 0 q)) (fun q => V35 m ρ c (Pipeline.arrRef spec17 6) (ValueIdx.ix2 0 q)))
      = toVec2 (fuse (argsOfK m c) 3 g) := by
  rw [F3_op0 m ρ c g hg1, F3_op1 m ρ c g hg0, F3_op2 m ρ c, F3_op3 m ρ c, F3_op4 m ρ c, F3_op5 m ρ c, F3_op6 m ρ c]; rfl

/-- Region 17: the node stage on the accumulation with the features' first copy as residual: the layer's result, in both
    copies. -/
theorem inv_F3_out (hg0 : W28 m ρ c (Proc.devRef .tc main_v271_0) = toVec2 g)
    (hg1 : W28 m ρ c (Proc.devRef .tc main_v271_1) = toVec2 g) :
    W36 m ρ c (Proc.devRef .tc main_v334_0) = toVec2 (fuse (argsOfK m c) 3 g)
      ∧ W36 m ρ c (Proc.devRef .tc main_v334_1) = toVec2 (fuse (argsOfK m c) 3 g) :=
  ⟨(W36_arr m ρ c 7).trans ((Cert.GgTail.R17.arr17_out7 (V35 m ρ) c).trans (inv_F3_node m ρ c g hg0 hg1)),
   (W36_arr m ρ c 8).trans ((Cert.GgTail.R17.arr17_out8 (V35 m ρ) c).trans (inv_F3_node m ρ c g hg0 hg1))⟩

end Cert.KChain

end
-- ==== Proof.KReg18.lean ====
/-
  The edge stage of a pooling layer on the kernel's side, at the ideal values: what region 18 of the kernel program
  leaves in its output array, as the specification's edge stage of the arrays the region reads.

  The region walks 150000 edges in 30 tiles of 5000 rows. At a tile the body reads the tile's rows of the two edge inputs
  (the relative-pose differences, 4 wide, and the gathered context, 128 wide) and the seven weight arrays whole, and
  stores one 5000×128 block. Read at a row and a column that block is: the two context products added (the gathered
  context against the first half of the first context weight; the positive part of the relative-pose layer against the
  second half), normalised along the row (mean, mean squared deviation, inverse square root, scale and shift), the
  positive part taken, and multiplied by the second context weight — `Spec.lpEdge` of the tile's rows. Since
  every step works row by row, row `p` of the tile's result is row `5000 t + p` of the edge stage of the WHOLE arrays; the
  thirty tiles cover the output array (row `r` lies in tile `r / 5000`), so the array ends holding the edge stage of
  the arrays read. A narrowing format change is the identity at the ideal values, so the stored 16-bit block is the
  32-bit result.
-/
import proofs.«413166_j32323923870246_3_alg».proof.Proof.KIFrameR18
import proofs.«413166_j32323923870246_3_alg».proof.Proof.Spec
import proofs.«413166_j32323923870246_3_alg».proof.Proof.LpEdgeLib
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KReg18

open Cert.KernelIdeal Cert.KernelIdeal.Gen Cert.KernelIdeal.GenP Cert.LpEdgeLib

/-! ## The body's arithmetic at a row and a column -/

/-- The first context layer before its normalisation, of a tile's blocks (in the order the body's first part takes
    them: differences, relative-pose weight and bias, gathered context, the two halves of the context weight). -/
abbrev preOf (v0 : FVec Ideal S5000x4 .f32) (v3 : FVec Ideal S128x4 .f32) (v8 : FVec Ideal S1x128 .f32)
    (v14 : FVec Ideal S5000x128 .bf16) (v16 v19 : FVec Ideal S128x128 .f32) : Spec.M 5000 128 :=
  Spec.add (Spec.lin (Spec.ofVec2 v14) (Spec.ofVec2 v16))
    (Spec.lin (Spec.relu (Spec.addRow (Spec.lin (Spec.ofVec2 v0) (Spec.ofVec2 v3)) (fun q => v8 (ix2 0 q)))) (Spec.ofVec2 v19))

/-- The sum of the two context products, entry by entry. -/
theorem pay2_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (q : Fin 128) :
    k18_pay2 (F := Ideal) v0 v3 v8 v14 v16 v19 (ix2 p q) = preOf v0 v3 v8 v14 v16 v19 p q := by
  unfold k18_pay2
  simp only [shapeCast_self]
  refine (addf_apply _ _ _).trans ?_
  refine congrArg₂ (fun a b : EReal => a + b) ?_ ?_
  · exact linT_apply (φ₁ := .bf16) (φ₂ := .bf16) dot_S5000x128_S128x128_S5000x128_1_0_0_1_n_n _ rfl none _ _ _ p q
  · refine reluLin_apply (φ₂ := .bf16) dot_S5000x128_S128x128_S5000x128_1_0_0_1_n_n _ rfl none _ _ _ _
      (Spec.addRow (Spec.lin (Spec.ofVec2 v0) (Spec.ofVec2 v3)) (fun q => v8 (ix2 0 q))) ?_ p q
    intro p' j
    refine (addf_apply _ _ _).trans ?_
    refine congrArg₂ (fun a b : EReal => a + b) ?_ ?_
    · exact linT_apply (φ₁ := .bf16) (φ₂ := .bf16) dot_S5000x4_S4x128_S5000x128_1_0_0_1_n_n _ rfl none _ _ _ p' j
    · exact broadcastTo_1b_ab_apply _ _ p' j

/-- The scale and the shift rows pass through a cast to their own shape. -/
theorem pay3_eq (v : FVec Ideal S1x128 .f32) : k18_pay3 (F := Ideal) v = v := by
  unfold k18_pay3
  exact shapeCast_self _ _
theorem pay4_eq (v : FVec Ideal S1x128 .f32) : k18_pay4 (F := Ideal) v = v := by
  unfold k18_pay4
  exact shapeCast_self _ _

/-- The column of row means of that sum. -/
theorem pay5_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (u : Fin 1) :
    k18_pay5 (F := Ideal) v0 v3 v8 v14 v16 v19 (ix2 p u) = Spec.mean (preOf v0 v3 v8 v14 v16 v19 p) := by
  unfold k18_pay5
  exact mean_apply (k18_pay2 (F := Ideal) v0 v3 v8 v14 v16 v19) _ _ _ _ (preOf v0 v3 v8 v14 v16 v19)
    (fun p q => pay2_apply v0 v3 v8 v14 v16 v19 p q) p u

/-- The row means broadcast across the lanes. -/
theorem pay6_apply (v0 : FVec Ideal S5000x4 .f32) (v3 : FVec Ideal S128x4 .f32) (v8 : FVec Ideal S1x128 .f32)
    (v14 : FVec Ideal S5000x128 .bf16) (v16 v19 : FVec Ideal S128x128 .f32) (p : Fin 5000) (q : Fin 128) :
    k18_pay6 (F := Ideal) v0 v3 v8 v14 v16 v19 (ix2 p q) = Spec.mean (preOf v0 v3 v8 v14 v16 v19 p) := by
  unfold k18_pay6
  exact (broadcastTo_a1_ab_apply _ _ p q).trans (pay5_apply v0 v3 v8 v14 v16 v19 p 0)

/-- The rest of the body — the row normalisation, the positive part, the second context layer — of a matrix that reads
    `Y` and of mean columns that read `Y`'s row means. -/
theorem pay1_apply (v27 : FVec Ideal S5000x128 .f32) (v29 v31 : FVec Ideal S1x128 .f32) (v35 : FVec Ideal S5000x1 .f32)
    (v36 : FVec Ideal S5000x128 .f32) (v56 : FVec Ideal S128x128 .f32) (Y : Spec.M 5000 128)
    (hY : ∀ p q, v27 (ix2 p q) = Y p q) (h35 : ∀ p, v35 (ix2 p (0 : Fin 1)) = Spec.mean (Y p))
    (h36 : ∀ p q, v36 (ix2 p q) = Spec.mean (Y p)) (p : Fin 5000) (q : Fin 128) :
    k18_pay1 (F := Ideal) v27 v29 v31 v35 v36 v56 (ix2 p q)
      = Spec.lin (Spec.relu (Spec.gn Y (fun q => v29 (ix2 0 q)) (fun q => v31 (ix2 0 q)))) (Spec.ofVec2 v56) p q := by
  unfold k18_pay1
  simp only [shapeCast_self]
  refine reluLin_apply (φ₂ := .bf16) dot_S5000x128_S128x128_S5000x128_1_0_0_1_n_n _ rfl none _ _ _ _
    (Spec.gn Y (fun q => v29 (ix2 0 q)) (fun q => v31 (ix2 0 q))) ?_ p q
  intro p' j
  exact gn_apply v27 v36 v35 v29 v31 _ _ _ _ _ _ Y hY h35 h36 p' j

theorem hz : (![0, 0] : Fin 2 → Nat) = fun _ => 0 := funext fun a => by fin_cases a <;> rfl

/-- WHAT THE BODY LEAVES in the output block, at a row and a column: the edge stage of the blocks it read. -/
theorem out_apply (x0 : FVec Ideal S5000x4 .f32) (x1 : FVec Ideal S5000x128 .bf16) (x2 : FVec Ideal S128x4 .f32)
    (x3 : FVec Ideal S1x128 .f32) (x4 x5 : FVec Ideal S128x128 .f32) (x6 x7 : FVec Ideal S1x128 .f32)
    (x8 : FVec Ideal S128x128 .f32) (p : Fin 5000) (q : Fin 128) :
    out18_9 (F := Ideal) x0 x1 x2 x3 x4 x5 x6 x7 x8 (ix2 p q)
      = Spec.lpEdge (Spec.ofVec2 x0) (Spec.ofVec2 x1) (Spec.ofVec2 x2) (fun q => x3 (ix2 0 q)) (Spec.ofVec2 x4) (Spec.ofVec2 x5)
          (fun q => x6 (ix2 0 q)) (fun q => x7 (ix2 0 q)) (Spec.ofVec2 x8) p q := by
  unfold out18_9
  rw [View.canon_unit_zero hz]
  simp only [View.ld_unit_zero (S := S5000x4) hz, View.ld_unit_zero (S := S5000x128) hz, View.ld_unit_zero (S := S128x4) hz,
    View.ld_unit_zero (S := S1x128) hz, View.ld_unit_zero (S := S128x128) hz, pay3_eq, pay4_eq]
  exact pay1_apply _ x6 x7 _ _ x8 (preOf x0 x2 x3 x1 x4 x5) (fun p q => pay2_apply x0 x2 x3 x1 x4 x5 p q)
    (fun p => pay5_apply x0 x2 x3 x1 x4 x5 p 0) (fun p q => pay6_apply x0 x2 x3 x1 x4 x5 p q) p q

/-- The same at any index of the block, against edge arrays of any length whose row `P` is the blocks' row `p`. -/
theorem out_at {e : Nat} (x0 : FVec Ideal S5000x4 .f32) (x1 : FVec Ideal S5000x128 .bf16) (x2 : FVec Ideal S128x4 .f32)
    (x3 : FVec Ideal S1x128 .f32) (x4 x5 : FVec Ideal S128x128 .f32) (x6 x7 : FVec Ideal S1x128 .f32)
    (x8 : FVec Ideal S128x128 .f32) (A0 : Spec.M e 4) (A1 : Spec.M e 128)
    (y : S5000x128.Idx) (p : Fin 5000) (q : Fin 128) (P : Fin e) (hy0 : (y 0).val = p.val) (hy1 : (y 1).val = q.val)
    (h0 : ∀ k : Fin 4, x0 (ix2 p k) = A0 P k) (h1 : ∀ k : Fin 128, x1 (ix2 p k) = A1 P k) :
    out18_9 (F := Ideal) x0 x1 x2 x3 x4 x5 x6 x7 x8 y
      = Spec.lpEdge A0 A1 (Spec.ofVec2 x2) (fun q => x3 (ix2 0 q)) (Spec.ofVec2 x4) (Spec.ofVec2 x5)
          (fun q => x6 (ix2 0 q)) (fun q => x7 (ix2 0 q)) (Spec.ofVec2 x8) P q := by
  have hy : y = ix2 p q := by
    funext a
    apply Fin.ext
    match a with
    | ⟨0, _⟩ => exact hy0
    | ⟨1, _⟩ => exact hy1
  rw [hy, out_apply]
  exact lpEdge_row _ _ A0 A1 _ _ _ _ _ _ _ p P (funext h0) (funext h1) q

/-! ## The blocks as parts of the arrays -/

section Blocks

variable (V : (c : Dev nD) → (b : Ref sig .tc) → Buf (Elt Ideal) ((c : Thread nD τ).loc b))

/-- The printed index maps, decided over the thirty points: the two edge inputs and the output move one tile of rows
    per point; every weight window stays on its whole array. -/
theorem idx_row0 : ∀ t : Fin cfg18.N, win18_0.index t (0 : Fin 2) = t.val ∧ win18_0.index t (1 : Fin 2) = 0 :=
  (by decide +kernel : ∀ t : Fin grid18.N, win18_0.index t (0 : Fin 2) = t.val ∧ win18_0.index t (1 : Fin 2) = 0)
theorem idx_row1 : ∀ t : Fin cfg18.N, win18_1.index t (0 : Fin 2) = t.val ∧ win18_1.index t (1 : Fin 2) = 0 :=
  (by decide +kernel : ∀ t : Fin grid18.N, win18_1.index t (0 : Fin 2) = t.val ∧ win18_1.index t (1 : Fin 2) = 0)
theorem idx_whole2 : ∀ t : Fin cfg18.N, win18_2.index t (0 : Fin 2) = 0 ∧ win18_2.index t (1 : Fin 2) = 0 :=
  (by decide +kernel : ∀ t : Fin grid18.N, win18_2.index t (0 : Fin 2) = 0 ∧ win18_2.index t (1 : Fin 2) = 0)
theorem idx_whole3 : ∀ t : Fin cfg18.N, win18_3.index t (0 : Fin 2) = 0 ∧ win18_3.index t (1 : Fin 2) = 0 :=
  (by decide +kernel : ∀ t : Fin grid18.N, win18_3.index t (0 : Fin 2) = 0 ∧ win18_3.index t (1 : Fin 2) = 0)
theorem idx_whole4 : ∀ t : Fin cfg18.N, win18_4.index t (0 : Fin 2) = 0 ∧ win18_4.index t (1 : Fin 2) = 0 :=
  (by decide +kernel : ∀ t : Fin grid18.N, win18_4.index t (0 : Fin 2) = 0 ∧ win18_4.index t (1 : Fin 2) = 0)
theorem idx_whole5 : ∀ t : Fin cfg18.N, win18_5.index t (0 : Fin 2) = 0 ∧ win18_5.index t (1 : Fin 2) = 0 :=
  (by decide +kernel : ∀ t : Fin grid18.N, win18_5.index t (0 : Fin 2) = 0 ∧ win18_5.index t (1 : Fin 2) = 0)
theorem idx_whole6 : ∀ t : Fin cfg18.N, win18_6.index t (0 : Fin 2) = 0 ∧ win18_6.index t (1 : Fin 2) = 0 :=
  (by decide +kernel : ∀ t : Fin grid18.N, win18_6.index t (0 : Fin 2) = 0 ∧ win18_6.index t (1 : Fin 2) = 0)
theorem idx_whole7 : ∀ t : Fin cfg18.N, win18_7.index t (0 : Fin 2) = 0 ∧ win18_7.index t (1 : Fin 2) = 0 :=
  (by decide +kernel : ∀ t : Fin grid18.N, win18_7.index t (0 : Fin 2) = 0 ∧ win18_7.index t (1 : Fin 2) = 0)
theorem idx_whole8 : ∀ t : Fin cfg18.N, win18_8.index t (0 : Fin 2) = 0 ∧ win18_8.index t (1 : Fin 2) = 0 :=
  (by decide +kernel : ∀ t : Fin grid18.N, win18_8.index t (0 : Fin 2) = 0 ∧ win18_8.index t (1 : Fin 2) = 0)
theorem idx_row9 : ∀ t : Fin cfg18.N, win18_9.index t (0 : Fin 2) = t.val ∧ win18_9.index t (1 : Fin 2) = 0 :=
  (by decide +kernel : ∀ t : Fin grid18.N, win18_9.index t (0 : Fin 2) = t.val ∧ win18_9.index t (1 : Fin 2) = 0)

/-- Window 0's block at point `t` is rows `5000 t … 5000 t + 4999` of its array. -/
theorem iblk_row0 (c : Dev nD) (t : Fin cfg18.N) (p : Fin 5000) (k : Fin 4) (P : Fin 150000) (hP : P.val = t.val * 5000 + p.val) :
    (iblk18 (F := Ideal) V c 0 t : FVec Ideal S5000x4 .f32) (ix2 p k) = (V c (Pipeline.arrRef spec18 0) : FVec Ideal S150000x4 .f32) (ix2 P k) := by
  have hi := idx_row0 t
  unfold iblk18
  show (V c (Pipeline.arrRef spec18 0) : FVec Ideal S150000x4 .f32) (((cfg18.win 0).blk t).view.emb (ix2 p k))
    = (V c (Pipeline.arrRef spec18 0) : FVec Ideal S150000x4 .f32) (ix2 P k)
  congr 1
  funext a
  apply Fin.ext
  match a with
  | ⟨0, _⟩ => show win18_0.index t (0 : Fin 2) * 5000 + 1 * p.val = P.val; rw [hi.1, hP]; omega
  | ⟨1, _⟩ => show win18_0.index t (1 : Fin 2) * 4 + 1 * k.val = k.val; rw [hi.2]; omega

/-- Window 1's block at point `t` is rows `5000 t … 5000 t + 4999` of its array. -/
theorem iblk_row1 (c : Dev nD) (t : Fin cfg18.N) (p : Fin 5000) (k : Fin 128) (P : Fin 150000) (hP : P.val = t.val * 5000 + p.val) :
    (iblk18 (F := Ideal) V c 1 t : FVec Ideal S5000x128 .bf16) (ix2 p k) = (V c (Pipeline.arrRef spec18 1) : FVec Ideal S150000x128 .bf16) (ix2 P k) := by
  have hi := idx_row1 t
  unfold iblk18
  show (V c (Pipeline.arrRef spec18 1) : FVec Ideal S150000x128 .bf16) (((cfg18.win 1).blk t).view.emb (ix2 p k))
    = (V c (Pipeline.arrRef spec18 1) : FVec Ideal S150000x128 .bf16) (ix2 P k)
  congr 1
  funext a
  apply Fin.ext
  match a with
  | ⟨0, _⟩ => show win18_1.index t (0 : Fin 2) * 5000 + 1 * p.val = P.val; rw [hi.1, hP]; omega
  | ⟨1, _⟩ => show win18_1.index t (1 : Fin 2) * 128 + 1 * k.val = k.val; rw [hi.2]; omega

/-- Window 2's block is its whole array at every point. -/
theorem iblk_whole2 (c : Dev nD) (t : Fin cfg18.N) :
    (iblk18 (F := Ideal) V c 2 t : FVec Ideal S128x4 .f32) = V c (Pipeline.arrRef spec18 2) := by
  have hi := idx_whole2 t
  funext j
  unfold iblk18
  show (V c (Pipeline.arrRef spec18 2) : FVec Ideal S128x4 .f32) (((cfg18.win 2).blk t).view.emb j)
    = (V c (Pipeline.arrRef spec18 2) : FVec Ideal S128x4 .f32) j
  congr 1
  funext a
  apply Fin.ext
  match a with
  | ⟨0, _⟩ => show win18_2.index t (0 : Fin 2) * 128 + 1 * (j 0).val = (j 0).val; rw [hi.1]; omega
  | ⟨1, _⟩ => show win18_2.index t (1 : Fin 2) * 4 + 1 * (j 1).val = (j 1).val; rw [hi.2]; omega

/-- Window 3's block is its whole array at every point. -/
theorem iblk_whole3 (c : Dev nD) (t : Fin cfg18.N) :
    (iblk18 (F := Ideal) V c 3 t : FVec Ideal S1x128 .f32) = V c (Pipeline.arrRef spec18 3) := by
  have hi := idx_whole3 t
  funext j
  unfold iblk18
  show (V c (Pipeline.arrRef spec18 3) : FVec Ideal S1x128 .f32) (((cfg18.win 3).blk t).view.emb j)
    = (V c (Pipeline.arrRef spec18 3) : FVec Ideal S1x128 .f32) j
  congr 1
  funext a
  apply Fin.ext
  match a with
  | ⟨0, _⟩ => show win18_3.index t (0 : Fin 2) * 1 + 1 * (j 0).val = (j 0).val; rw [hi.1]; omega
  | ⟨1, _⟩ => show win18_3.index t (1 : Fin 2) * 128 + 1 * (j 1).val = (j 1).val; rw [hi.2]; omega

/-- Window 4's block is its whole array at every point. -/
theorem iblk_whole4 (c : Dev nD) (t : Fin cfg18.N) :
    (iblk18 (F := Ideal) V c 4 t : FVec Ideal S128x128 .f32) = V c (Pipeline.arrRef spec18 4) := by
  have hi := idx_whole4 t
  funext j
  unfold iblk18
  show (V c (Pipeline.arrRef spec18 4) : FVec Ideal S128x128 .f32) (((cfg18.win 4).blk t).view.emb j)
    = (V c (Pipeline.arrRef spec18 4) : FVec Ideal S128x128 .f32) j
  congr 1
  funext a
  apply Fin.ext
  match a with
  | ⟨0, _⟩ => show win18_4.index t (0 : Fin 2) * 128 + 1 * (j 0).val = (j 0).val; rw [hi.1]; omega
  | ⟨1, _⟩ => show win18_4.index t (1 : Fin 2) * 128 + 1 * (j 1).val = (j 1).val; rw [hi.2]; omega

/-- Window 5's block is its whole array at every point. -/
theorem iblk_whole5 (c : Dev nD) (t : Fin cfg18.N) :
    (iblk18 (F := Ideal) V c 5 t : FVec Ideal S128x128 .f32) = V c (Pipeline.arrRef spec18 5) := by
  have hi := idx_whole5 t
  funext j
  unfold iblk18
  show (V c (Pipeline.arrRef spec18 5) : FVec Ideal S128x128 .f32) (((cfg18.win 5).blk t).view.emb j)
    = (V c (Pipeline.arrRef spec18 5) : FVec Ideal S128x128 .f32) j
  congr 1
  funext a
  apply Fin.ext
  match a with
  | ⟨0, _⟩ => show win18_5.index t (0 : Fin 2) * 128 + 1 * (j 0).val = (j 0).val; rw [hi.1]; omega
  | ⟨1, _⟩ => show win18_5.index t (1 : Fin 2) * 128 + 1 * (j 1).val = (j 1).val; rw [hi.2]; omega

/-- Window 6's block is its whole array at every point. -/
theorem iblk_whole6 (c : Dev nD) (t : Fin cfg18.N) :
    (iblk18 (F := Ideal) V c 6 t : FVec Ideal S1x128 .f32) = V c (Pipeline.arrRef spec18 6) := by
  have hi := idx_whole6 t
  funext j
  unfold iblk18
  show (V c (Pipeline.arrRef spec18 6) : FVec Ideal S1x128 .f32) (((cfg18.win 6).blk t).view.emb j)
    = (V c (Pipeline.arrRef spec18 6) : FVec Ideal S1x128 .f32) j
  congr 1
  funext a
  apply Fin.ext
  match a with
  | ⟨0, _⟩ => show win18_6.index t (0 : Fin 2) * 1 + 1 * (j 0).val = (j 0).val; rw [hi.1]; omega
  | ⟨1, _⟩ => show win18_6.index t (1 : Fin 2) * 128 + 1 * (j 1).val = (j 1).val; rw [hi.2]; omega

/-- Window 7's block is its whole array at every point. -/
theorem iblk_whole7 (c : Dev nD) (t : Fin cfg18.N) :
    (iblk18 (F := Ideal) V c 7 t : FVec Ideal S1x128 .f32) = V c (Pipeline.arrRef spec18 7) := by
  have hi := idx_whole7 t
  funext j
  unfold iblk18
  show (V c (Pipeline.arrRef spec18 7) : FVec Ideal S1x128 .f32) (((cfg18.win 7).blk t).view.emb j)
    = (V c (Pipeline.arrRef spec18 7) : FVec Ideal S1x128 .f32) j
  congr 1
  funext a
  apply Fin.ext
  match a with
  | ⟨0, _⟩ => show win18_7.index t (0 : Fin 2) * 1 + 1 * (j 0).val = (j 0).val; rw [hi.1]; omega
  | ⟨1, _⟩ => show win18_7.index t (1 : Fin 2) * 128 + 1 * (j 1).val = (j 1).val; rw [hi.2]; omega

/-- Window 8's block is its whole array at every point. -/
theorem iblk_whole8 (c : Dev nD) (t : Fin cfg18.N) :
    (iblk18 (F := Ideal) V c 8 t : FVec Ideal S128x128 .f32) = V c (Pipeline.arrRef spec18 8) := by
  have hi := idx_whole8 t
  funext j
  unfold iblk18
  show (V c (Pipeline.arrRef spec18 8) : FVec Ideal S128x128 .f32) (((cfg18.win 8).blk t).view.emb j)
    = (V c (Pipeline.arrRef spec18 8) : FVec Ideal S128x128 .f32) j
  congr 1
  funext a
  apply Fin.ext
  match a with
  | ⟨0, _⟩ => show win18_8.index t (0 : Fin 2) * 128 + 1 * (j 0).val = (j 0).val; rw [hi.1]; omega
  | ⟨1, _⟩ => show win18_8.index t (1 : Fin 2) * 128 + 1 * (j 1).val = (j 1).val; rw [hi.2]; omega

/-! ## From the blocks to the array -/

/-- What the output array ends holding: the edge stage of the nine arrays the region reads. -/
abbrev resultOf (c : Dev nD) : FVec Ideal S150000x128 .bf16 :=
  Spec.toVec2 (Spec.lpEdge (Spec.ofVec2 (V c (Pipeline.arrRef spec18 0))) (Spec.ofVec2 (V c (Pipeline.arrRef spec18 1)))
    (Spec.ofVec2 (V c (Pipeline.arrRef spec18 2))) (fun q => V c (Pipeline.arrRef spec18 3) (ValueIdx.ix2 0 q))
    (Spec.ofVec2 (V c (Pipeline.arrRef spec18 4))) (Spec.ofVec2 (V c (Pipeline.arrRef spec18 5)))
    (fun q => V c (Pipeline.arrRef spec18 6) (ValueIdx.ix2 0 q)) (fun q => V c (Pipeline.arrRef spec18 7) (ValueIdx.ix2 0 q))
    (Spec.ofVec2 (V c (Pipeline.arrRef spec18 8))))

/-- WHAT POINT `t` WRITES BACK is tile `t` of that array: row `p` of the body's block is the edge stage of the tile's
    rows, which is row `5000 t + p` of the edge stage of the whole arrays. -/
theorem flushed_eq (c : Dev nD) (t : Fin cfg18.N) :
    (dat18 (F := Ideal) V c).flushed 9 t = ((cfg18.win 9).blk t).view.read (Elt Ideal) (resultOf V c) := by
  show (cfg18.win 9).cut (grid18.coords t) ((dat18 (F := Ideal) V c).after 9 t) = _
  rw [after18_9, iblk_whole2 V c t, iblk_whole3 V c t, iblk_whole4 V c t, iblk_whole5 V c t, iblk_whole6 V c t,
    iblk_whole7 V c t, iblk_whole8 V c t]
  have hi := idx_row9 t
  have hN : t.val < 30 := lt_of_lt_of_eq t.isLt N_18
  funext j
  have hj0 : (j 0).val < 5000 := (j 0).isLt
  have hj1 : (j 1).val < 128 := (j 1).isLt
  show _ = resultOf V c (((cfg18.win 9).blk t).view.emb j)
  refine (out_at (iblk18 (F := Ideal) V c 0 t) (iblk18 (F := Ideal) V c 1 t) (V c (Pipeline.arrRef spec18 2))
    (V c (Pipeline.arrRef spec18 3)) (V c (Pipeline.arrRef spec18 4)) (V c (Pipeline.arrRef spec18 5))
    (V c (Pipeline.arrRef spec18 6)) (V c (Pipeline.arrRef spec18 7)) (V c (Pipeline.arrRef spec18 8))
    (Spec.ofVec2 (V c (Pipeline.arrRef spec18 0))) (Spec.ofVec2 (V c (Pipeline.arrRef spec18 1)))
    ((cfg18.win 9).xinj (grid18.coords t) j) ⟨(j 0).val, hj0⟩ ⟨(j 1).val, hj1⟩ ⟨t.val * 5000 + (j 0).val, by omega⟩ rfl rfl
    (fun k => iblk_row0 V c t ⟨(j 0).val, hj0⟩ k ⟨t.val * 5000 + (j 0).val, by omega⟩ rfl)
    (fun k => iblk_row1 V c t ⟨(j 0).val, hj0⟩ k ⟨t.val * 5000 + (j 0).val, by omega⟩ rfl)).trans ?_
  refine (toVec2_at _ (((cfg18.win 9).blk t).view.emb j) ⟨t.val * 5000 + (j 0).val, by omega⟩ ⟨(j 1).val, hj1⟩ ?_ ?_).symm
  · show win18_9.index t (0 : Fin 2) * 5000 + 1 * (j 0).val = t.val * 5000 + (j 0).val
    rw [hi.1]; omega
  · show win18_9.index t (1 : Fin 2) * 128 + 1 * (j 1).val = (j 1).val
    rw [hi.2]; omega

/-- An index of the output array is in point `t`'s block iff each coordinate is in the block's range on its axis. -/
theorem mem_blk (t : Fin cfg18.N) (i : S150000x128.Idx) :
    i ∈ ((cfg18.win 9).blk t).view.set ↔ ∀ a : Fin 2, win18_9.index t a * S5000x128.size a ≤ (i a).val
      ∧ (i a).val < win18_9.index t a * S5000x128.size a + S5000x128.size a := by
  show i ∈ ((View.whole main_v388).slice (win18_9.rect t)).set ↔ _
  rw [View.set_slice_whole, Rect.mem_set_unit]
  exact Iff.rfl

/-- The thirty tiles cover the output array: row `r` lies in tile `r / 5000`. -/
theorem cover (i : S150000x128.Idx) :
    ∃ t : Fin cfg18.N, (cfg18.win 9).flush t = true ∧ i ∈ ((cfg18.win 9).blk t).view.set := by
  have hi0 : (i 0).val < 150000 := (i 0).isLt
  have hi1 : (i 1).val < 128 := (i 1).isLt
  have hN : cfg18.N = 30 := N_18
  obtain ⟨t, ht⟩ : ∃ t : Fin cfg18.N, t.val = (i 0).val / 5000 := ⟨⟨(i 0).val / 5000, by rw [hN]; omega⟩, rfl⟩
  have hi := idx_row9 t
  refine ⟨t, flush18_9 t, ?_⟩
  rw [mem_blk]
  intro a
  match a with
  | ⟨0, _⟩ =>
    show win18_9.index t (0 : Fin 2) * 5000 ≤ (i 0).val ∧ (i 0).val < win18_9.index t (0 : Fin 2) * 5000 + 5000
    rw [hi.1, ht]; omega
  | ⟨1, _⟩ =>
    show win18_9.index t (1 : Fin 2) * 128 ≤ (i 1).val ∧ (i 1).val < win18_9.index t (1 : Fin 2) * 128 + 128
    rw [hi.2]; omega

/-- THE OUTPUT ARRAY after the region: the edge stage of the arrays the region read. -/
theorem arr18_out (c : Dev nD) : (dat18 (F := Ideal) V c).arrAt 9 cfg18.N = Spec.toVec2 (Spec.lpEdge (Spec.ofVec2 (V c (Pipeline.arrRef spec18 0))) (Spec.ofVec2 (V c (Pipeline.arrRef spec18 1))) (Spec.ofVec2 (V c (Pipeline.arrRef spec18 2))) (fun q => V c (Pipeline.arrRef spec18 3) (ValueIdx.ix2 0 q)) (Spec.ofVec2 (V c (Pipeline.arrRef spec18 4))) (Spec.ofVec2 (V c (Pipeline.arrRef spec18 5))) (fun q => V c (Pipeline.arrRef spec18 6) (ValueIdx.ix2 0 q)) (fun q => V c (Pipeline.arrRef spec18 7) (ValueIdx.ix2 0 q)) (Spec.ofVec2 (V c (Pipeline.arrRef spec18 8)))) :=
  (dat18 (F := Ideal) V c).arrAt_eq_of_cover 9 (resultOf V c) (fun t _ => flushed_eq V c t) cover

end Blocks

end Cert.KReg18

end
-- ==== Proof.KChainL1a.lean ====
/-
  The kernel program's second pooling layer, edge stage (region 18 of @main and the host stretch before it), from lane
  features `g` held at the last fusion layer's exit: the edge contributions.
-/
import proofs.«413166_j32323923870246_3_alg».proof.Proof.KChainKeep
import proofs.«413166_j32323923870246_3_alg».proof.Proof.KChainArgs
import proofs.«413166_j32323923870246_3_alg».proof.Proof.KHostLp
import proofs.«413166_j32323923870246_3_alg».proof.Proof.KReg18

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

set_option maxHeartbeats 8000000 in
/-- Region 18: the edge contributions of the second pooling layer, from the lane features' second copy gathered at
    the edges' lane nodes, the pose differences, and the layer's weights and scale / shift rows. -/
theorem inv_R18 (hg1 : W36 m ρ c (Proc.devRef .tc main_v334_1) = toVec2 g) :
    W38 m ρ c (Proc.devRef .tc main_v388) = toVec2 (ctx1 (argsOfK m c) g) := by
  have h0 : V37 m ρ c (Pipeline.arrRef spec18 0)
      = toVec2 (sub (gatherRows (by omega : 0 < 50000) (argsOfK m c).graph_pose (argsOfK m c).e2_hi)
          (gatherRows (by omega : 0 < 12000) (argsOfK m c).roi_pose (argsOfK m c).e2_wi)) :=
    (Cert.KHostLp.hostOps18_v371 (W36 m ρ c)).trans
      (by rw [kept_arg1_W36 m ρ c, kept_arg23_W36 m ρ c, kept_arg2_W36 m ρ c, kept_arg24_W36 m ρ c]; rfl)
  have h1 : V37 m ρ c (Pipeline.arrRef spec18 1)
      = toVec2 (gatherRows (by omega : 0 < 50000) g (argsOfK m c).e2_hi) :=
    (Cert.KHostLp.hostOps18_v378 (W36 m ρ c)).trans (by rw [hg1, kept_arg23_W36 m ρ c]; rfl)
  have h2 : V37 m ρ c (Pipeline.arrRef spec18 2) = toVec2 ((argsOfK m c).lp_relpose_w 1) :=
    (Cert.KHostLp.hostOps18_v338 (W36 m ρ c)).trans (by rw [kept_arg4_W36 m ρ c]; rfl)
  have h3 : V37 m ρ c (Pipeline.arrRef spec18 3) = toVec2 (fun (_ : Fin 1) q => (argsOfK m c).lp_relpose_b 1 q) :=
    (Cert.KHostLp.hostOps18_v385 (W36 m ρ c)).trans (by rw [kept_arg5_W36 m ρ c]; rfl)
  have h4 : V37 m ρ c (Pipeline.arrRef spec18 4) = toVec2 (waOf (argsOfK m c) 1) :=
    (Cert.KHostLp.hostOps18_v379 (W36 m ρ c)).trans (by rw [kept_arg6_W36 m ρ c]; rfl)
  have h5 : V37 m ρ c (Pipeline.arrRef spec18 5) = toVec2 (wbOf (argsOfK m c) 1) :=
    (Cert.KHostLp.hostOps18_v380 (W36 m ρ c)).trans (by rw [kept_arg6_W36 m ρ c]; rfl)
  have h6 : V37 m ρ c (Pipeline.arrRef spec18 6) = toVec2 (fun (_ : Fin 1) q => (argsOfK m c).lp_ctx1_gn 1 0 q) :=
    (Cert.KHostLp.hostOps18_v386 (W36 m ρ c)).trans (by rw [kept_arg7_W36 m ρ c]; rfl)
  have h7 : V37 m ρ c (Pipeline.arrRef spec18 7) = toVec2 (fun (_ : Fin 1) q => (argsOfK m c).lp_ctx1_gn 1 1 q) :=
    (Cert.KHostLp.hostOps18_v387 (W36 m ρ c)).trans (by rw [kept_arg7_W36 m ρ c]; rfl)
  have h8 : V37 m ρ c (Pipeline.arrRef spec18 8) = toVec2 ((argsOfK m c).lp_ctx2_w 1) :=
    (Cert.KHostLp.hostOps18_v346 (W36 m ρ c)).trans (by rw [kept_arg8_W36 m ρ c]; rfl)
  refine (W38_arr m ρ c 9).trans ((Cert.KReg18.arr18_out (V37 m ρ) c).trans ?_)
  rw [h0, h1, h2, h3, h4, h5, h6, h7, h8]; rfl

end Cert.KChain

end
-- ==== Proof.KReg19.lean ====
/-
  Region 19 (the plain matrix kernel on a [12000,128] input in 4 row tiles of 3000): what its result array holds when
  the region ends, as a function of the two arrays it read, at the ideal values.

  Grid point `t` loads the 3000 rows from row `3000 t` of the input and the whole [128,128] weight, multiplies the tile
  by the transposed weight into a zero accumulator, and writes the product to the same rows of the result. Entry
  (r, q) of the result is therefore `∑ j, x r j * w q j`, written by the point `r / 3000`; the 4 tiles cover every row.
-/
import proofs.«413166_j32323923870246_3_alg».proof.Proof.KIFrameR19
import proofs.«413166_j32323923870246_3_alg».proof.Proof.Spec
import proofs.«413166_j32323923870246_3_alg».proof.Proof.LibMatmul
import Idealize.ShloMosaic.Lib.Pipeline.Value

noncomputable section

namespace Cert.KReg19

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The input array and the weight as the region finds them, at their literal types. -/
abbrev xArr (c : Dev nD) : S12000x128.Idx → EReal := V c (Pipeline.arrRef spec19 0)
abbrev wArr (c : Dev nD) : S128x128.Idx → EReal := V c (Pipeline.arrRef spec19 1)

/-- What the result array ends holding: the input against the weight's rows. -/
abbrev G (c : Dev nD) : S12000x128.Idx → EReal :=
  Spec.toVec2 (Spec.lin (Spec.ofVec2 (xArr V c)) (Spec.ofVec2 (wArr V c)))

/-- The body's payload at (p, q): the tile's row `p` against the weight's row `q`. -/
theorem pay_apply (x0 : FVec Ideal S3000x128 .bf16) (x1 : FVec Ideal S128x128 .f32) (p : Fin 3000) (q : Fin 128) :
    k19_pay1 (F := Ideal) x0 x1 (ix2 p q) = ∑ j : Fin 128, x0 (ix2 p j) * x1 (ix2 q j) := by
  unfold k19_pay1
  exact LibMatmul.block_apply dot_S3000x128_S128x128_S3000x128_1_0_0_1_n_n rfl x0 x1 _ _ _ _ p q

/-- The printed index maps over the 4 points: the input tile and the result tile are tile `t` of their arrays, the
    weight's one block is the whole weight. -/
theorem idx_facts : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

/-- The input tile at point `t`, read at (p, j): row `3000 t + p` of the input array. -/
theorem xblk_apply (c : Dev nD) (t : Fin cfg19.N) (p : Fin 3000) (j : Fin 128) (r : Fin 12000)
    (hr : r.val = t.val * 3000 + p.val) :
    (iblk19 V c 0 t : Vec Ideal S3000x128 .bf16) (ix2 p j) = xArr V c (ix2 r j) := by
  obtain ⟨e0, e1, -, -, -, -⟩ := idx_facts t
  show xArr V c (((cfg19.win 0).blk t).view.emb (ix2 p j)) = xArr V c (ix2 r j)
  refine congrArg (xArr V c) (funext fun a => Fin.ext ?_)
  match a with
  | ⟨0, _⟩ => show win19_0.index t (0 : Fin 2) * 3000 + 1 * p.val = r.val; omega
  | ⟨1, _⟩ => show win19_0.index t (1 : Fin 2) * 128 + 1 * j.val = j.val; omega

/-- The weight's block at any point, read at (q, j): the weight array there. -/
theorem wblk_apply (c : Dev nD) (t : Fin cfg19.N) (q : Fin 128) (j : Fin 128) :
    (iblk19 V c 1 t : Vec Ideal S128x128 .f32) (ix2 q j) = wArr V c (ix2 q j) := by
  obtain ⟨-, -, e2, e3, -, -⟩ := idx_facts t
  show wArr V c (((cfg19.win 1).blk t).view.emb (ix2 q j)) = wArr V c (ix2 q j)
  refine congrArg (wArr V c) (funext fun a => Fin.ext ?_)
  match a with
  | ⟨0, _⟩ => show win19_1.index t (0 : Fin 2) * 128 + 1 * q.val = q.val; omega
  | ⟨1, _⟩ => show win19_1.index t (1 : Fin 2) * 128 + 1 * j.val = j.val; omega

/-- WHAT POINT `t` WRITES BACK is tile `t` of `G`. -/
theorem flushed_eq (c : Dev nD) (t : Fin cfg19.N) :
    (dat19 (F := Ideal) V c).flushed 2 t = ((cfg19.win 2).blk t).view.read (Elt Ideal) (G V c) := by
  show (cfg19.win 2).cut (grid19.coords t) ((dat19 (F := Ideal) V c).after 2 t) = _
  rw [after19_2]
  unfold out19_2
  rw [View.canon_unit_zero hz]
  simp only [View.ld_unit_zero (S := S3000x128) hz, View.ld_unit_zero (S := S128x128) hz]
  obtain ⟨-, -, -, -, e4, e5⟩ := idx_facts t
  have ht : t.val < 4 := lt_of_lt_of_eq t.isLt N_19
  refine funext fun (y : S3000x128.Idx) => ?_
  obtain ⟨p, q, rfl⟩ : ∃ (p : Fin 3000) (q : Fin 128), y = ix2 p q := ⟨y 0, y 1, eq_ix2 y⟩
  have hr : t.val * 3000 + p.val < 12000 := by have := p.isLt; omega
  refine (pay_apply (iblk19 V c 0 t) (iblk19 V c 1 t) p q).trans ?_
  have hemb : ((cfg19.win 2).blk t).view.emb (ix2 p q) = (ix2 ⟨t.val * 3000 + p.val, hr⟩ q : S12000x128.Idx) := by
    funext a; apply Fin.ext
    match a with
    | ⟨0, _⟩ => show win19_2.index t (0 : Fin 2) * 3000 + 1 * p.val = t.val * 3000 + p.val; omega
    | ⟨1, _⟩ => show win19_2.index t (1 : Fin 2) * 128 + 1 * q.val = q.val; omega
  show _ = G V c (((cfg19.win 2).blk t).view.emb (ix2 p q))
  rw [hemb]
  show _ = ∑ j : Fin 128, xArr V c (ix2 ⟨t.val * 3000 + p.val, hr⟩ j) * wArr V c (ix2 q j)
  refine Finset.sum_congr rfl fun j _ => ?_
  rw [xblk_apply V c t p j ⟨t.val * 3000 + p.val, hr⟩ rfl, wblk_apply V c t q j]

/-- An index of the result array is in point `t`'s tile iff each coordinate is in the tile's range on its axis. -/
theorem mem_blk (t : Fin cfg19.N) (i : S12000x128.Idx) :
    i ∈ ((cfg19.win 2).blk t).view.set ↔ ∀ a : Fin 2, win19_2.index t a * S3000x128.size a ≤ (i a).val ∧ (i a).val < win19_2.index t a * S3000x128.size a + S3000x128.size a := by
  show i ∈ ((View.whole main_v390).slice (win19_2.rect t)).set ↔ _
  rw [View.set_slice_whole, Rect.mem_set_unit]
  exact Iff.rfl

/-- Every index of the result array is in some point's tile: row `r` is in tile `r / 3000`. -/
theorem cover (i : S12000x128.Idx) : ∃ t : Fin cfg19.N, (cfg19.win 2).flush t = true ∧ i ∈ ((cfg19.win 2).blk t).view.set := by
  have hi0 : (i 0).val < 12000 := (i 0).isLt
  have hi1 : (i 1).val < 128 := (i 1).isLt
  have hN : cfg19.N = 4 := N_19
  obtain ⟨t, ht⟩ : ∃ t : Fin cfg19.N, t.val = (i 0).val / 3000 := ⟨⟨(i 0).val / 3000, by rw [hN]; omega⟩, rfl⟩
  obtain ⟨-, -, -, -, e4, e5⟩ := idx_facts t
  refine ⟨t, flush19_2 t, ?_⟩
  rw [mem_blk]
  intro a
  match a with
  | ⟨0, _⟩ =>
    show win19_2.index t (0 : Fin 2) * 3000 ≤ (i 0).val ∧ (i 0).val < win19_2.index t (0 : Fin 2) * 3000 + 3000
    omega
  | ⟨1, _⟩ =>
    show win19_2.index t (1 : Fin 2) * 128 ≤ (i 1).val ∧ (i 1).val < win19_2.index t (1 : Fin 2) * 128 + 128
    omega

/-- THE RESULT ARRAY when the region ends: the input against the weight's rows, entry (r, q) = `∑ j, x r j * w q j`. -/
theorem arr19_out (c : Dev nD) : (dat19 (F := Ideal) V c).arrAt 2 cfg19.N =
    Spec.toVec2 (Spec.lin (Spec.ofVec2 (V c (Pipeline.arrRef spec19 0))) (Spec.ofVec2 (V c (Pipeline.arrRef spec19 1)))) :=
  (dat19 (F := Ideal) V c).arrAt_eq_of_cover 2 (G V c) (fun t _ => flushed_eq V c t) cover

end Cert.KReg19

end
-- ==== Proof.KChainL1b.lean ====
/-
  The kernel program's second pooling layer, between the stages (region 19 of @main and the host stretches around it),
  from lane features `g` held at the last fusion layer's exit: the transformed region features and the accumulation of
  the edge contributions onto them.
-/
import proofs.«413166_j32323923870246_3_alg».proof.Proof.KChainL1a
import proofs.«413166_j32323923870246_3_alg».proof.Proof.KReg19

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

/-- Region 19: the region features through the second pooling layer's input weight. -/
theorem inv_R19 : W40 m ρ c (Proc.devRef .tc main_v390)
    = toVec2 (lin (argsOfK m c).roi_feat ((argsOfK m c).lp_input_w 1)) := by
  have hx : V39 m ρ c (Pipeline.arrRef spec19 0) = m ((c : Thread nD τ).loc main_arg0) :=
    (Cert.KHostLp.hostOps19_v389 (W38 m ρ c)).trans (kept_arg0_W38 m ρ c)
  have hw : V39 m ρ c (Pipeline.arrRef spec19 1) = toVec2 ((argsOfK m c).lp_input_w 1) :=
    (kept_v336_W39 m ρ c).trans ((Cert.KHostLp.hostOps18_v336 (W36 m ρ c)).trans (by rw [kept_arg3_W36 m ρ c]; rfl))
  refine (W40_arr m ρ c 2).trans ((Cert.KReg19.arr19_out (V39 m ρ) c).trans ?_)
  rw [hx, hw]; rfl

/-- Host stretch 20: the contributions accumulated onto the transformed features, each at its wrapped target node. -/
theorem inv_H20 (hg1 : W36 m ρ c (Proc.devRef .tc main_v334_1) = toVec2 g) :
    W41 m ρ c (Proc.devRef .tc main_v398)
      = toVec2 (scatterAddRows (lin (argsOfK m c).roi_feat ((argsOfK m c).lp_input_w 1)) (argsOfK m c).e2_wi (ctx1 (argsOfK m c) g)) := by
  refine (Cert.KHostLp.hostOps20_v398 (W40 m ρ c)).trans ?_
  rw [inv_R19 m ρ c, kept_arg24_W40 m ρ c, kept_v388_W40 m ρ c, inv_R18 m ρ c g hg1]; rfl

end Cert.KChain

end
-- ==== Proof.KReg20Pay.lean ====
/-
  The node stage of a pooling layer on ONE block of 3000 rows, read entry by entry at the ideal values.
  The kernel body is three row normalisations, two products with a transposed [128,128] weight, three positive parts
  and one residual sum. Each non-pointwise operation is read at an index (p, q) once: a lane sum kept as a column is
  the sum of row p's 128 entries; a column spread over the lanes reads the column's entry of row p; a [1,128] row spread
  over the rows reads its entry q; the product with a transposed weight is row p of the block against row q of the
  weight. With these the body's row normalisation, positive part and product are the specification's gn, relu and lin
  of the block read as a matrix, and the whole payload is the specification's node stage of the block's rows.
  Every stage uses row p of its operand only, so the stage of a block's row is the stage of the array's row it is.
-/
import proofs.«413166_j32323923870246_3_alg».proof.Proof.Gen.KernelIdeal.Skeleton
import proofs.«413166_j32323923870246_3_alg».proof.Proof.Spec
import Idealize.ShloMosaic.Lib.ValueLayout
import Idealize.ShloMosaic.PureOps.Ideal.Laws

noncomputable section

namespace Cert.KReg20

open Idealize.ShloMosaic Idealize.ShloMosaic.ValueIdx Cert.KernelIdeal Cert.KernelIdeal.Gen

/-- A [1,128] array read as a function of the lane. -/
abbrev row (x : FVec Ideal S1x128 .f32) : Fin 128 → EReal := fun q => x (ix2 (0 : Fin 1) q)

/-- The lane sum of a [3000,128] block, kept as a [3000,1] column, read at row p: the sum of the row's 128 entries. -/
theorem rowsum_apply (v : FVec Ideal S3000x128 .f32) (p : Fin 3000) (u : Fin 1) :
    shapeCast S3000x1 (multiReduction .add [1] S3000 v 0x00000000#32 reduces_S3000x128_S3000 (.inl rfl) rfl)
        shapeCasts_S3000_S3000x1 (ix2 p u) = ∑ k : Fin 128, v (ix2 p k) := by
  refine (shapeCast_apply _ shapeCasts_S3000_S3000x1 (ix2 p u) (ix1 p) ?_).trans ?_
  · rw [Shape.rowMajor_val_one, Shape.rowMajor_val_two]
    show p.val = p.val * 1 + u.val
    omega
  · refine (Ideal.multiReduction_add_single v 0x00000000#32 reduces_S3000x128_S3000 (.inl rfl) rfl (ix1 p)).trans ?_
    refine Finset.sum_congr rfl fun k _ => congrArg v ?_
    funext a; apply Fin.ext
    match a with
    | ⟨0, _⟩ => rfl
    | ⟨1, _⟩ => rfl

/-- A [3000,1] column spread over the 128 lanes reads, at (p, q), the column's entry of row p. -/
theorem bcol_apply (w : FVec Ideal S3000x1 .f32) (p : Fin 3000) (q : Fin 128) :
    broadcastTo S3000x128 w broadcasts_S3000x1_S3000x128 (ix2 p q) = w (ix2 p (0 : Fin 1)) := by
  refine broadcastTo_apply w broadcasts_S3000x1_S3000x128 (ix2 p q) (ix2 p (0 : Fin 1)) fun ax => ?_
  match ax with
  | ⟨0, _⟩ =>
    show p.val = if (3000 : ℕ) = 1 then 0 else p.val
    rw [if_neg (by decide)]
  | ⟨1, _⟩ =>
    show (0 : ℕ) = if (1 : ℕ) = 1 then 0 else q.val
    rw [if_pos rfl]

/-- A [1,128] row spread over the 3000 rows reads, at (p, q), the row's entry q. -/
theorem brow_apply (s : FVec Ideal S1x128 .f32) (p : Fin 3000) (q : Fin 128) :
    broadcastTo S3000x128 s broadcasts_S1x128_S3000x128 (ix2 p q) = s (ix2 (0 : Fin 1) q) :=
  broadcastTo_1b_ab_apply s broadcasts_S1x128_S3000x128 p q

/-- The matrix unit's product of a [3000,128] block with the transpose of a [128,128] weight, into zero, at (p, q):
    row p of the block against row q of the weight. -/
theorem mm_apply (a : FVec Ideal S3000x128 .bf16) (b : FVec Ideal S128x128 .bf16) (p : Fin 3000) (q : Fin 128) :
    matmul dot_S3000x128_S128x128_S3000x128_1_0_0_1_n_n none a
        (transpose S128x128 [1, 0] b transposes_S128x128_p1_0_S128x128) (constant S3000x128 .f32 0x00000000#32) (ix2 p q)
      = ∑ k : Fin 128, a (ix2 p k) * b (ix2 q k) := by
  show FloatOps.matmul dot_S3000x128_S128x128_S3000x128_1_0_0_1_n_n none a _ _ (ix2 p q) = _
  rw [Ideal.matmul_constant_zero_apply,
    ← Equiv.sum_comp (contrEquiv1 dot_S3000x128_S128x128_S3000x128_1_0_0_1_n_n 128 rfl rfl).symm]
  refine Finset.sum_congr rfl fun c _ => ?_
  have c2 := contrEquiv1_symm_val dot_S3000x128_S128x128_S3000x128_1_0_0_1_n_n 128 rfl rfl c
  have l2 : dot_S3000x128_S128x128_S3000x128_1_0_0_1_n_n.lhsIdx (ix2 p q)
      ((contrEquiv1 dot_S3000x128_S128x128_S3000x128_1_0_0_1_n_n 128 rfl rfl).symm c) = ix2 p c := by
    funext ax; apply Fin.ext
    match ax with
    | ⟨0, _⟩ => simp [DotDims.lhsIdx, dot_S3000x128_S128x128_S3000x128_1_0_0_1_n_n]; rfl
    | ⟨1, _⟩ => simp [DotDims.lhsIdx, dot_S3000x128_S128x128_S3000x128_1_0_0_1_n_n]; exact c2
  have r2 : dot_S3000x128_S128x128_S3000x128_1_0_0_1_n_n.rhsIdx (ix2 p q)
      ((contrEquiv1 dot_S3000x128_S128x128_S3000x128_1_0_0_1_n_n 128 rfl rfl).symm c) = ix2 c q := by
    funext ax; apply Fin.ext
    match ax with
    | ⟨0, _⟩ => simp [DotDims.rhsIdx, dot_S3000x128_S128x128_S3000x128_1_0_0_1_n_n]; exact c2
    | ⟨1, _⟩ => simp [DotDims.rhsIdx, dot_S3000x128_S128x128_S3000x128_1_0_0_1_n_n]; rfl
  rw [l2, r2, transpose_ix2_apply]

/-! ## The body's stages, named -/

/-- The row mean as the body takes it: the lane sum kept as a column, divided by the literal 128. -/
def kmean (v : FVec Ideal S3000x128 .f32) : FVec Ideal S3000x1 .f32 :=
  divf (shapeCast S3000x1 (multiReduction .add [1] S3000 v 0x00000000#32 reduces_S3000x128_S3000 (.inl rfl) rfl) shapeCasts_S3000_S3000x1)
    (broadcast S3000x1 (Scalar.ofBits .f32 0x43000000#32))

/-- The block with each row's mean taken off. -/
def kcen (v : FVec Ideal S3000x128 .f32) : FVec Ideal S3000x128 .f32 :=
  subf v (broadcastTo S3000x128 (kmean v) broadcasts_S3000x1_S3000x128)

/-- The inverse square root of each row's mean squared deviation plus the small constant, as a column. -/
def krs (v : FVec Ideal S3000x128 .f32) : FVec Ideal S3000x1 .f32 :=
  rsqrt (addf (kmean (mulf (kcen v) (kcen v))) (broadcast S3000x1 (Scalar.ofBits .f32 0x3727C5AC#32)))

/-- The body's row normalisation with scale row `s` and shift row `h`. -/
def kgn (v : FVec Ideal S3000x128 .f32) (s h : FVec Ideal S1x128 .f32) : FVec Ideal S3000x128 .f32 :=
  addf (mulf (mulf (kcen v) (broadcastTo S3000x128 (krs v) broadcasts_S3000x1_S3000x128))
    (broadcastTo S3000x128 s broadcasts_S1x128_S3000x128)) (broadcastTo S3000x128 h broadcasts_S1x128_S3000x128)

/-- The positive part against the zero literal. -/
def krelu (v : FVec Ideal S3000x128 .f32) : FVec Ideal S3000x128 .f32 :=
  maximumf v (broadcast S3000x128 (Scalar.ofBits .f32 0x00000000#32))

/-- The product with the transposed weight, both operands passed through the narrower format (the identity here). -/
def kmm (a : FVec Ideal S3000x128 .f32) (w : FVec Ideal S128x128 .f32) : FVec Ideal S3000x128 .f32 :=
  matmul dot_S3000x128_S128x128_S3000x128_1_0_0_1_n_n none (truncf .bf16 a bitsLt_bf16_f32)
    (transpose S128x128 [1, 0] (truncf .bf16 w bitsLt_bf16_f32) transposes_S128x128_p1_0_S128x128)
    (constant S3000x128 .f32 0x00000000#32)

theorem kmean_apply (v : FVec Ideal S3000x128 .f32) (p : Fin 3000) (u : Fin 1) :
    kmean v (ix2 p u) = Spec.mean (fun j => v (ix2 p j)) :=
  congrArg (fun z => Ideal.div z Spec.c128) (rowsum_apply v p u)

theorem kcen_apply (v : FVec Ideal S3000x128 .f32) (p : Fin 3000) (q : Fin 128) :
    kcen v (ix2 p q) = v (ix2 p q) - Spec.mean (fun j => v (ix2 p j)) :=
  congrArg (fun z => v (ix2 p q) - z) ((bcol_apply (kmean v) p q).trans (kmean_apply v p 0))

theorem krs_apply (v : FVec Ideal S3000x128 .f32) (p : Fin 3000) (u : Fin 1) :
    krs v (ix2 p u) = Ideal.rsqrt (Spec.mean (fun j => (v (ix2 p j) - Spec.mean (fun i => v (ix2 p i)))
      * (v (ix2 p j) - Spec.mean (fun i => v (ix2 p i)))) + Spec.cEps) := by
  have e : kmean (mulf (kcen v) (kcen v)) (ix2 p u) = Spec.mean (fun j => (v (ix2 p j) - Spec.mean (fun i => v (ix2 p i)))
      * (v (ix2 p j) - Spec.mean (fun i => v (ix2 p i)))) :=
    (kmean_apply (mulf (kcen v) (kcen v)) p u).trans
      (congrArg Spec.mean (funext fun j => congrArg (fun z => z * z) (kcen_apply v p j)))
  exact congrArg (fun z => Ideal.rsqrt (z + Spec.cEps)) e

theorem kgn_apply (v : FVec Ideal S3000x128 .f32) (s h : FVec Ideal S1x128 .f32) (p : Fin 3000) (q : Fin 128) :
    kgn v s h (ix2 p q) = Spec.gn (Spec.ofVec2 v) (row s) (row h) p q := by
  have e1 := kcen_apply v p q
  have e2 := (bcol_apply (krs v) p q).trans (krs_apply v p 0)
  have e3 := brow_apply s p q
  have e4 := brow_apply h p q
  show kcen v (ix2 p q) * broadcastTo S3000x128 (krs v) broadcasts_S3000x1_S3000x128 (ix2 p q)
      * broadcastTo S3000x128 s broadcasts_S1x128_S3000x128 (ix2 p q)
      + broadcastTo S3000x128 h broadcasts_S1x128_S3000x128 (ix2 p q) = _
  rw [e1, e2, e3, e4]
  rfl

theorem krelu_apply (v : FVec Ideal S3000x128 .f32) (p : Fin 3000) (q : Fin 128) :
    krelu v (ix2 p q) = max (v (ix2 p q)) 0 := by
  show max (v (ix2 p q)) (Ideal.ofBits .f32 0x00000000#32) = _
  rw [Ideal.ofBits_zero_f32]

theorem kmm_apply (a : FVec Ideal S3000x128 .f32) (w : FVec Ideal S128x128 .f32) (p : Fin 3000) (q : Fin 128) :
    kmm a w (ix2 p q) = ∑ k : Fin 128, a (ix2 p k) * w (ix2 q k) :=
  mm_apply (truncf .bf16 a bitsLt_bf16_f32) (truncf .bf16 w bitsLt_bf16_f32) p q

/-! ## The stages as the specification's, on the block read as a matrix -/

theorem ofVec2_kgn (v : FVec Ideal S3000x128 .f32) (s h : FVec Ideal S1x128 .f32) :
    Spec.ofVec2 (kgn v s h) = Spec.gn (Spec.ofVec2 v) (row s) (row h) :=
  funext fun p => funext fun q => kgn_apply v s h p q

theorem ofVec2_krelu (v : FVec Ideal S3000x128 .f32) : Spec.ofVec2 (krelu v) = Spec.relu (Spec.ofVec2 v) :=
  funext fun p => funext fun q => krelu_apply v p q

theorem ofVec2_kmm (a : FVec Ideal S3000x128 .f32) (w : FVec Ideal S128x128 .f32) :
    Spec.ofVec2 (kmm a w) = Spec.lin (Spec.ofVec2 a) (Spec.ofVec2 w) :=
  funext fun p => funext fun q => kmm_apply a w p q

theorem ofVec2_addf (a b : FVec Ideal S3000x128 .f32) : Spec.ofVec2 (addf a b) = Spec.add (Spec.ofVec2 a) (Spec.ofVec2 b) := rfl

/-! ## The printed payloads are those stages -/

theorem pay3_eq (x0 : FVec Ideal S3000x128 .f32) (x2 x3 : FVec Ideal S1x128 .f32) (x4 : FVec Ideal S128x128 .f32) :
    k20_pay3 x0 x2 x3 x4 = kmm (krelu (kgn x0 x2 x3)) x4 := by
  unfold k20_pay3
  simp only [shapeCast_self]
  rfl

theorem pay4_eq (x : FVec Ideal S1x128 .f32) : k20_pay4 x = x := shapeCast_self x _
theorem pay5_eq (x : FVec Ideal S1x128 .f32) : k20_pay5 x = x := shapeCast_self x _
theorem pay7_eq (x : FVec Ideal S1x128 .f32) : k20_pay7 x = x := shapeCast_self x _
theorem pay8_eq (x : FVec Ideal S1x128 .f32) : k20_pay8 x = x := shapeCast_self x _

theorem pay6_eq (u : FVec Ideal S3000x128 .f32) (s h : FVec Ideal S1x128 .f32) (x7 : FVec Ideal S128x128 .f32) :
    k20_pay6 u s h x7 = kmm (krelu (kgn u s h)) x7 := by
  unfold k20_pay6
  simp only [shapeCast_self]
  rfl

theorem pay1_eq (a : FVec Ideal S3000x128 .f32) (b c : FVec Ideal S1x128 .f32) (d : FVec Ideal S128x128 .f32)
    (s h : FVec Ideal S1x128 .f32) (x1 : FVec Ideal S3000x128 .f32) :
    k20_pay1 (k20_pay6 a b c d) s h (k20_pay9 a b c d) (k20_pay10 a b c d) (Scalar.ofBits .f32 0x43000000#32) x1
      = krelu (addf (kgn (k20_pay6 a b c d) s h) x1) := by
  unfold k20_pay1 k20_pay10 k20_pay9
  first
    | (simp only [shapeCast_self]; rfl)
    | rfl

/-- THE BLOCK: what the body stores, read as a matrix, is the specification's node stage of the blocks it loaded. -/
theorem blk_eq (x0 x1 : FVec Ideal S3000x128 .f32) (x2 x3 : FVec Ideal S1x128 .f32) (x4 : FVec Ideal S128x128 .f32)
    (x5 x6 : FVec Ideal S1x128 .f32) (x7 : FVec Ideal S128x128 .f32) (x8 x9 : FVec Ideal S1x128 .f32) :
    Spec.ofVec2 (k20_pay1 (F := Ideal) (k20_pay6 (k20_pay3 x0 x2 x3 x4) (k20_pay4 x5) (k20_pay5 x6) x7) (k20_pay7 x8) (k20_pay8 x9)
        (k20_pay9 (k20_pay3 x0 x2 x3 x4) (k20_pay4 x5) (k20_pay5 x6) x7) (k20_pay10 (k20_pay3 x0 x2 x3 x4) (k20_pay4 x5) (k20_pay5 x6) x7)
        (Scalar.ofBits .f32 0x43000000#32) x1)
      = Spec.lpTail (Spec.ofVec2 x0) (Spec.ofVec2 x1) (row x2) (row x3) (Spec.ofVec2 x4) (row x5) (row x6)
          (Spec.ofVec2 x7) (row x8) (row x9) := by
  rw [pay1_eq, pay6_eq, pay3_eq, pay4_eq, pay5_eq, pay7_eq, pay8_eq]
  rw [ofVec2_krelu, ofVec2_addf, ofVec2_kgn, ofVec2_kmm, ofVec2_krelu, ofVec2_kgn, ofVec2_kmm, ofVec2_krelu, ofVec2_kgn]
  rfl

/-- The narrower-format copy holds the same values. -/
theorem pay2_eq (v69 : FVec Ideal S3000x128 .f32) (v71 v73 : FVec Ideal S1x128 .f32) (v77 v82 : FVec Ideal S3000x1 .f32)
    (cst : Ideal .f32) (v96 : FVec Ideal S3000x128 .f32) (y : S3000x128.Idx) :
    k20_pay2 v69 v71 v73 v77 v82 cst v96 y = k20_pay1 v69 v71 v73 v77 v82 cst v96 y := rfl

/-! ## Every stage is row by row -/

section Rows
open Cert.Spec

theorem gn_congr {n n' : Nat} (y : M n 128) (y' : M n' 128) (s h : Fin 128 → EReal) (p : Fin n) (p' : Fin n')
    (hy : y p = y' p') : gn y s h p = gn y' s h p' := by
  funext q
  simp only [gn, hy]

theorem lin_congr {n n' k o : Nat} (x : M n k) (x' : M n' k) (w : M o k) (p : Fin n) (p' : Fin n')
    (hx : x p = x' p') : lin x w p = lin x' w p' := by
  funext q
  simp only [lin, hx]

theorem relu_congr {n n' k : Nat} (x : M n k) (x' : M n' k) (p : Fin n) (p' : Fin n')
    (hx : x p = x' p') : relu x p = relu x' p' := by
  funext q
  simp only [relu, hx]

theorem add_congr {n n' k : Nat} (x y : M n k) (x' y' : M n' k) (p : Fin n) (p' : Fin n')
    (hx : x p = x' p') (hy : y p = y' p') : add x y p = add x' y' p' := by
  funext q
  simp only [add, hx, hy]

/-- Row `p` of the node stage is a function of row `p` of the transformed features and of the residual. -/
theorem lpTail_congr {n n' : Nat} (t idn : M n 128) (t' idn' : M n' 128) (ns nh : Fin 128 → EReal) (w1 : M 128 128)
    (s1 h1 : Fin 128 → EReal) (w2 : M 128 128) (s2 h2 : Fin 128 → EReal) (p : Fin n) (p' : Fin n')
    (ht : t p = t' p') (hi : idn p = idn' p') :
    lpTail t idn ns nh w1 s1 h1 w2 s2 h2 p = lpTail t' idn' ns nh w1 s1 h1 w2 s2 h2 p' := by
  unfold lpTail
  exact relu_congr _ _ p p' (add_congr _ _ _ _ p p'
    (gn_congr _ _ s2 h2 p p' (lin_congr _ _ w2 p p' (relu_congr _ _ p p'
      (gn_congr _ _ s1 h1 p p' (lin_congr _ _ w1 p p' (relu_congr _ _ p p' (gn_congr _ _ ns nh p p' ht))))))) hi)

end Rows

/-- THE POINT: the payload at entry (p, q) of a block whose row p is row r of the two row-tiled arrays, and whose small
    windows are the whole small arrays, is the node stage of the arrays at (r, q). -/
theorem point_eq (x0 x1 : FVec Ideal S3000x128 .f32) (x2 x3 : FVec Ideal S1x128 .f32) (x4 : FVec Ideal S128x128 .f32)
    (x5 x6 : FVec Ideal S1x128 .f32) (x7 : FVec Ideal S128x128 .f32) (x8 x9 : FVec Ideal S1x128 .f32)
    (T I : FVec Ideal S12000x128 .f32) (p : Fin 3000) (q : Fin 128) (r : Fin 12000)
    (h0 : ∀ k : Fin 128, x0 (ix2 p k) = T (ix2 r k)) (h1 : ∀ k : Fin 128, x1 (ix2 p k) = I (ix2 r k)) :
    k20_pay1 (F := Ideal) (k20_pay6 (k20_pay3 x0 x2 x3 x4) (k20_pay4 x5) (k20_pay5 x6) x7) (k20_pay7 x8) (k20_pay8 x9)
        (k20_pay9 (k20_pay3 x0 x2 x3 x4) (k20_pay4 x5) (k20_pay5 x6) x7) (k20_pay10 (k20_pay3 x0 x2 x3 x4) (k20_pay4 x5) (k20_pay5 x6) x7)
        (Scalar.ofBits .f32 0x43000000#32) x1 (ix2 p q)
      = Spec.lpTail (Spec.ofVec2 T) (Spec.ofVec2 I) (row x2) (row x3) (Spec.ofVec2 x4) (row x5) (row x6)
          (Spec.ofVec2 x7) (row x8) (row x9) r q := by
  have e := congrFun (congrFun (blk_eq x0 x1 x2 x3 x4 x5 x6 x7 x8 x9) p) q
  refine e.trans ?_
  exact congrFun (lpTail_congr (Spec.ofVec2 x0) (Spec.ofVec2 x1) (Spec.ofVec2 T) (Spec.ofVec2 I) (row x2) (row x3)
    (Spec.ofVec2 x4) (row x5) (row x6) (Spec.ofVec2 x7) (row x8) (row x9) p r (funext h0) (funext h1)) q

/-- The same for the narrower-format copy, which holds the same values. -/
theorem point_eq_bf (x0 x1 : FVec Ideal S3000x128 .f32) (x2 x3 : FVec Ideal S1x128 .f32) (x4 : FVec Ideal S128x128 .f32)
    (x5 x6 : FVec Ideal S1x128 .f32) (x7 : FVec Ideal S128x128 .f32) (x8 x9 : FVec Ideal S1x128 .f32)
    (T I : FVec Ideal S12000x128 .f32) (p : Fin 3000) (q : Fin 128) (r : Fin 12000)
    (h0 : ∀ k : Fin 128, x0 (ix2 p k) = T (ix2 r k)) (h1 : ∀ k : Fin 128, x1 (ix2 p k) = I (ix2 r k)) :
    k20_pay2 (F := Ideal) (k20_pay6 (k20_pay3 x0 x2 x3 x4) (k20_pay4 x5) (k20_pay5 x6) x7) (k20_pay7 x8) (k20_pay8 x9)
        (k20_pay9 (k20_pay3 x0 x2 x3 x4) (k20_pay4 x5) (k20_pay5 x6) x7) (k20_pay10 (k20_pay3 x0 x2 x3 x4) (k20_pay4 x5) (k20_pay5 x6) x7)
        (Scalar.ofBits .f32 0x43000000#32) x1 (ix2 p q)
      = Spec.lpTail (Spec.ofVec2 T) (Spec.ofVec2 I) (row x2) (row x3) (Spec.ofVec2 x4) (row x5) (row x6)
          (Spec.ofVec2 x7) (row x8) (row x9) r q :=
  (pay2_eq _ _ _ _ _ _ _ (ix2 p q)).trans (point_eq x0 x1 x2 x3 x4 x5 x6 x7 x8 x9 T I p q r h0 h1)

end Cert.KReg20

end
-- ==== Proof.KReg20.lean ====
/-
  Region 20 (the node stage of the second pooling layer) from blocks to arrays. The grid has four points; at point t the two
  row-tiled inputs (the accumulated features and the residual) and the two outputs are at rows 3000·t … 3000·t + 2999,
  and the eight small windows (three scale / shift pairs, two weights) are their whole arrays. The payload at entry
  (p, q) of the block is the node stage of the block's row p, which is row 3000·t + p of the arrays; so what point t writes
  back is block t of ONE function of the arrays, the blocks tile each output, and the output ends holding that function.
  The narrower-format output holds the same values.
-/
import proofs.«413166_j32323923870246_3_alg».proof.Proof.KIFrameR20
import proofs.«413166_j32323923870246_3_alg».proof.Proof.KReg20Pay
import Idealize.ShloMosaic.Lib.Pipeline.Value

set_option maxRecDepth 16384

noncomputable section

namespace Cert.KReg20

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the four points -/

/-- The two row-tiled inputs and the narrower-format output move with output 10, along the rows only, and output 10's
    block index is the point's number. -/
theorem idx_facts : ∀ t : Fin cfg20.N,
    win20_0.index t (0 : Fin 2) = win20_10.index t (0 : Fin 2) ∧ win20_0.index t (1 : Fin 2) = 0
    ∧ win20_1.index t (0 : Fin 2) = win20_10.index t (0 : Fin 2) ∧ win20_1.index t (1 : Fin 2) = 0
    ∧ win20_11.index t (0 : Fin 2) = win20_10.index t (0 : Fin 2) ∧ win20_11.index t (1 : Fin 2) = 0
    ∧ win20_10.index t (0 : Fin 2) = t.val ∧ win20_10.index t (1 : Fin 2) = 0 :=
  (by decide +kernel : ∀ t : Fin grid20.N, _)

/-- Each small window stays at block (0, 0). -/
theorem idx_small2 : ∀ t : Fin cfg20.N, win20_2.index t (0 : Fin 2) = 0 ∧ win20_2.index t (1 : Fin 2) = 0 :=
  (by decide +kernel : ∀ t : Fin grid20.N, _)
theorem idx_small3 : ∀ t : Fin cfg20.N, win20_3.index t (0 : Fin 2) = 0 ∧ win20_3.index t (1 : Fin 2) = 0 :=
  (by decide +kernel : ∀ t : Fin grid20.N, _)
theorem idx_small4 : ∀ t : Fin cfg20.N, win20_4.index t (0 : Fin 2) = 0 ∧ win20_4.index t (1 : Fin 2) = 0 :=
  (by decide +kernel : ∀ t : Fin grid20.N, _)
theorem idx_small5 : ∀ t : Fin cfg20.N, win20_5.index t (0 : Fin 2) = 0 ∧ win20_5.index t (1 : Fin 2) = 0 :=
  (by decide +kernel : ∀ t : Fin grid20.N, _)
theorem idx_small6 : ∀ t : Fin cfg20.N, win20_6.index t (0 : Fin 2) = 0 ∧ win20_6.index t (1 : Fin 2) = 0 :=
  (by decide +kernel : ∀ t : Fin grid20.N, _)
theorem idx_small7 : ∀ t : Fin cfg20.N, win20_7.index t (0 : Fin 2) = 0 ∧ win20_7.index t (1 : Fin 2) = 0 :=
  (by decide +kernel : ∀ t : Fin grid20.N, _)
theorem idx_small8 : ∀ t : Fin cfg20.N, win20_8.index t (0 : Fin 2) = 0 ∧ win20_8.index t (1 : Fin 2) = 0 :=
  (by decide +kernel : ∀ t : Fin grid20.N, _)
theorem idx_small9 : ∀ t : Fin cfg20.N, win20_9.index t (0 : Fin 2) = 0 ∧ win20_9.index t (1 : Fin 2) = 0 :=
  (by decide +kernel : ∀ t : Fin grid20.N, _)

/-! ## The input blocks, read off their arrays

A block's entry x sits in the array at (block index × block size + 1 × x) on each axis. -/

/-- The accumulated features' block at point t holds the 3000 rows of the array from row 3000 · (the output's block index). -/
theorem iblk0_apply (c : Dev nD) (t : Fin cfg20.N) (x : S3000x128.Idx) (k : S12000x128.Idx)
    (hk0 : (k 0).val = win20_10.index t (0 : Fin 2) * 3000 + (x 0).val) (hk1 : (k 1).val = (x 1).val) :
    (iblk20 V c 0 t : Vec Ideal S3000x128 .f32) x = (V c (Pipeline.arrRef spec20 0) : S12000x128.Idx → Elt Ideal .f32) k := by
  obtain ⟨e0, e1, -⟩ := idx_facts t
  unfold iblk20
  rw [View.read_apply]
  show V c (Pipeline.arrRef spec20 0) _ = V c (Pipeline.arrRef spec20 0) _
  congr 1
  funext a
  apply Fin.ext
  match a with
  | ⟨0, _⟩ => show win20_0.index t (0 : Fin 2) * 3000 + 1 * (x 0).val = (k 0).val; rw [e0, hk0]; omega
  | ⟨1, _⟩ => show win20_0.index t (1 : Fin 2) * 128 + 1 * (x 1).val = (k 1).val; rw [e1, hk1]; omega

/-- The residual's block likewise. -/
theorem iblk1_apply (c : Dev nD) (t : Fin cfg20.N) (x : S3000x128.Idx) (k : S12000x128.Idx)
    (hk0 : (k 0).val = win20_10.index t (0 : Fin 2) * 3000 + (x 0).val) (hk1 : (k 1).val = (x 1).val) :
    (iblk20 V c 1 t : Vec Ideal S3000x128 .f32) x = (V c (Pipeline.arrRef spec20 1) : S12000x128.Idx → Elt Ideal .f32) k := by
  obtain ⟨-, -, e0, e1, -⟩ := idx_facts t
  unfold iblk20
  rw [View.read_apply]
  show V c (Pipeline.arrRef spec20 1) _ = V c (Pipeline.arrRef spec20 1) _
  congr 1
  funext a
  apply Fin.ext
  match a with
  | ⟨0, _⟩ => show win20_1.index t (0 : Fin 2) * 3000 + 1 * (x 0).val = (k 0).val; rw [e0, hk0]; omega
  | ⟨1, _⟩ => show win20_1.index t (1 : Fin 2) * 128 + 1 * (x 1).val = (k 1).val; rw [e1, hk1]; omega

/-- The first normalisation's scale row: the window is the whole [1,128] array. -/
theorem iblk2_eq (c : Dev nD) (t : Fin cfg20.N) :
    (iblk20 V c 2 t : Vec Ideal S1x128 .f32) = (V c (Pipeline.arrRef spec20 2) : S1x128.Idx → Elt Ideal .f32) := by
  obtain ⟨e0, e1⟩ := idx_small2 t
  funext x
  unfold iblk20
  rw [View.read_apply]
  show V c (Pipeline.arrRef spec20 2) _ = V c (Pipeline.arrRef spec20 2) _
  congr 1
  funext a
  apply Fin.ext
  match a with
  | ⟨0, _⟩ => show win20_2.index t (0 : Fin 2) * 1 + 1 * (x 0).val = (x 0).val; rw [e0]; omega
  | ⟨1, _⟩ => show win20_2.index t (1 : Fin 2) * 128 + 1 * (x 1).val = (x 1).val; rw [e1]; omega

/-- The first normalisation's shift row. -/
theorem iblk3_eq (c : Dev nD) (t : Fin cfg20.N) :
    (iblk20 V c 3 t : Vec Ideal S1x128 .f32) = (V c (Pipeline.arrRef spec20 3) : S1x128.Idx → Elt Ideal .f32) := by
  obtain ⟨e0, e1⟩ := idx_small3 t
  funext x
  unfold iblk20
  rw [View.read_apply]
  show V c (Pipeline.arrRef spec20 3) _ = V c (Pipeline.arrRef spec20 3) _
  congr 1
  funext a
  apply Fin.ext
  match a with
  | ⟨0, _⟩ => show win20_3.index t (0 : Fin 2) * 1 + 1 * (x 0).val = (x 0).val; rw [e0]; omega
  | ⟨1, _⟩ => show win20_3.index t (1 : Fin 2) * 128 + 1 * (x 1).val = (x 1).val; rw [e1]; omega

/-- The first weight: the window is the whole [128,128] array. -/
theorem iblk4_eq (c : Dev nD) (t : Fin cfg20.N) :
    (iblk20 V c 4 t : Vec Ideal S128x128 .f32) = (V c (Pipeline.arrRef spec20 4) : S128x128.Idx → Elt Ideal .f32) := by
  obtain ⟨e0, e1⟩ := idx_small4 t
  funext x
  unfold iblk20
  rw [View.read_apply]
  show V c (Pipeline.arrRef spec20 4) _ = V c (Pipeline.arrRef spec20 4) _
  congr 1
  funext a
  apply Fin.ext
  match a with
  | ⟨0, _⟩ => show win20_4.index t (0 : Fin 2) * 128 + 1 * (x 0).val = (x 0).val; rw [e0]; omega
  | ⟨1, _⟩ => show win20_4.index t (1 : Fin 2) * 128 + 1 * (x 1).val = (x 1).val; rw [e1]; omega

/-- The second normalisation's scale row. -/
theorem iblk5_eq (c : Dev nD) (t : Fin cfg20.N) :
    (iblk20 V c 5 t : Vec Ideal S1x128 .f32) = (V c (Pipeline.arrRef spec20 5) : S1x128.Idx → Elt Ideal .f32) := by
  obtain ⟨e0, e1⟩ := idx_small5 t
  funext x
  unfold iblk20
  rw [View.read_apply]
  show V c (Pipeline.arrRef spec20 5) _ = V c (Pipeline.arrRef spec20 5) _
  congr 1
  funext a
  apply Fin.ext
  match a with
  | ⟨0, _⟩ => show win20_5.index t (0 : Fin 2) * 1 + 1 * (x 0).val = (x 0).val; rw [e0]; omega
  | ⟨1, _⟩ => show win20_5.index t (1 : Fin 2) * 128 + 1 * (x 1).val = (x 1).val; rw [e1]; omega

/-- The second normalisation's shift row. -/
theorem iblk6_eq (c : Dev nD) (t : Fin cfg20.N) :
    (iblk20 V c 6 t : Vec Ideal S1x128 .f32) = (V c (Pipeline.arrRef spec20 6) : S1x128.Idx → Elt Ideal .f32) := by
  obtain ⟨e0, e1⟩ := idx_small6 t
  funext x
  unfold iblk20
  rw [View.read_apply]
  show V c (Pipeline.arrRef spec20 6) _ = V c (Pipeline.arrRef spec20 6) _
  congr 1
  funext a
  apply Fin.ext
  match a with
  | ⟨0, _⟩ => show win20_6.index t (0 : Fin 2) * 1 + 1 * (x 0).val = (x 0).val; rw [e0]; omega
  | ⟨1, _⟩ => show win20_6.index t (1 : Fin 2) * 128 + 1 * (x 1).val = (x 1).val; rw [e1]; omega

/-- The second weight. -/
theorem iblk7_eq (c : Dev nD) (t : Fin cfg20.N) :
    (iblk20 V c 7 t : Vec Ideal S128x128 .f32) = (V c (Pipeline.arrRef spec20 7) : S128x128.Idx → Elt Ideal .f32) := by
  obtain ⟨e0, e1⟩ := idx_small7 t
  funext x
  unfold iblk20
  rw [View.read_apply]
  show V c (Pipeline.arrRef spec20 7) _ = V c (Pipeline.arrRef spec20 7) _
  congr 1
  funext a
  apply Fin.ext
  match a with
  | ⟨0, _⟩ => show win20_7.index t (0 : Fin 2) * 128 + 1 * (x 0).val = (x 0).val; rw [e0]; omega
  | ⟨1, _⟩ => show win20_7.index t (1 : Fin 2) * 128 + 1 * (x 1).val = (x 1).val; rw [e1]; omega

/-- The third normalisation's scale row. -/
theorem iblk8_eq (c : Dev nD) (t : Fin cfg20.N) :
    (iblk20 V c 8 t : Vec Ideal S1x128 .f32) = (V c (Pipeline.arrRef spec20 8) : S1x128.Idx → Elt Ideal .f32) := by
  obtain ⟨e0, e1⟩ := idx_small8 t
  funext x
  unfold iblk20
  rw [View.read_apply]
  show V c (Pipeline.arrRef spec20 8) _ = V c (Pipeline.arrRef spec20 8) _
  congr 1
  funext a
  apply Fin.ext
  match a with
  | ⟨0, _⟩ => show win20_8.index t (0 : Fin 2) * 1 + 1 * (x 0).val = (x 0).val; rw [e0]; omega
  | ⟨1, _⟩ => show win20_8.index t (1 : Fin 2) * 128 + 1 * (x 1).val = (x 1).val; rw [e1]; omega

/-- The third normalisation's shift row. -/
theorem iblk9_eq (c : Dev nD) (t : Fin cfg20.N) :
    (iblk20 V c 9 t : Vec Ideal S1x128 .f32) = (V c (Pipeline.arrRef spec20 9) : S1x128.Idx → Elt Ideal .f32) := by
  obtain ⟨e0, e1⟩ := idx_small9 t
  funext x
  unfold iblk20
  rw [View.read_apply]
  show V c (Pipeline.arrRef spec20 9) _ = V c (Pipeline.arrRef spec20 9) _
  congr 1
  funext a
  apply Fin.ext
  match a with
  | ⟨0, _⟩ => show win20_9.index t (0 : Fin 2) * 1 + 1 * (x 0).val = (x 0).val; rw [e0]; omega
  | ⟨1, _⟩ => show win20_9.index t (1 : Fin 2) * 128 + 1 * (x 1).val = (x 1).val; rw [e1]; omega

/-! ## The output arrays -/

/-- What the region leaves in both outputs: the node stage of the arrays it reads. -/
abbrev G (c : Dev nD) : Spec.M 12000 128 :=
  Spec.lpTail (Spec.ofVec2 (V c (Pipeline.arrRef spec20 0))) (Spec.ofVec2 (V c (Pipeline.arrRef spec20 1)))
    (fun q => V c (Pipeline.arrRef spec20 2) (ValueIdx.ix2 0 q)) (fun q => V c (Pipeline.arrRef spec20 3) (ValueIdx.ix2 0 q))
    (Spec.ofVec2 (V c (Pipeline.arrRef spec20 4)))
    (fun q => V c (Pipeline.arrRef spec20 5) (ValueIdx.ix2 0 q)) (fun q => V c (Pipeline.arrRef spec20 6) (ValueIdx.ix2 0 q))
    (Spec.ofVec2 (V c (Pipeline.arrRef spec20 7)))
    (fun q => V c (Pipeline.arrRef spec20 8) (ValueIdx.ix2 0 q)) (fun q => V c (Pipeline.arrRef spec20 9) (ValueIdx.ix2 0 q))

set_option maxHeartbeats 1000000 in
/-- WHAT POINT t WRITES BACK into output 10 is block t of the node stage of the arrays the region reads. -/
theorem flushed10_eq (c : Dev nD) (t : Fin cfg20.N) :
    (dat20 V c).flushed 10 t = ((cfg20.win 10).blk t).view.read (Elt Ideal) (Spec.toVec2 (G V c)) := by
  show (cfg20.win 10).cut (grid20.coords t) ((dat20 V c).after 10 t) = _
  rw [after20_10]
  unfold out20_10
  rw [View.canon_unit_zero hz]
  simp only [View.ld_unit_zero (S := S3000x128) hz, View.ld_unit_zero (S := S1x128) hz, View.ld_unit_zero (S := S128x128) hz]
  funext j
  obtain ⟨p, q, rfl⟩ : ∃ (p : Fin 3000) (q : Fin 128), j = ix2 p q := ⟨j 0, j 1, eq_ix2 j⟩
  obtain ⟨-, -, -, -, -, -, -, e1⟩ := idx_facts t
  refine (point_eq (iblk20 V c 0 t) (iblk20 V c 1 t) (iblk20 V c 2 t) (iblk20 V c 3 t) (iblk20 V c 4 t) (iblk20 V c 5 t)
    (iblk20 V c 6 t) (iblk20 V c 7 t) (iblk20 V c 8 t) (iblk20 V c 9 t)
    (V c (Pipeline.arrRef spec20 0)) (V c (Pipeline.arrRef spec20 1)) p q
    ((((cfg20.win 10).blk t).view.emb (ix2 p q) : S12000x128.Idx) 0)
    (fun k => iblk0_apply V c t (ix2 p k) (ix2 ((((cfg20.win 10).blk t).view.emb (ix2 p q) : S12000x128.Idx) 0) k) ?_ rfl)
    (fun k => iblk1_apply V c t (ix2 p k) (ix2 ((((cfg20.win 10).blk t).view.emb (ix2 p q) : S12000x128.Idx) 0) k) ?_ rfl)).trans ?_
  · show win20_10.index t (0 : Fin 2) * 3000 + 1 * p.val = win20_10.index t (0 : Fin 2) * 3000 + p.val
    omega
  · show win20_10.index t (0 : Fin 2) * 3000 + 1 * p.val = win20_10.index t (0 : Fin 2) * 3000 + p.val
    omega
  · rw [iblk2_eq V c t, iblk3_eq V c t, iblk4_eq V c t, iblk5_eq V c t, iblk6_eq V c t, iblk7_eq V c t, iblk8_eq V c t, iblk9_eq V c t]
    show G V c _ q = G V c _ ((((cfg20.win 10).blk t).view.emb (ix2 p q) : S12000x128.Idx) 1)
    refine congrArg (G V c _) (Fin.ext ?_)
    show q.val = win20_10.index t (1 : Fin 2) * 128 + 1 * q.val
    rw [e1]; omega

/-- Every index of output 10 lies in the block of the point its row falls in: the four blocks of 3000 rows tile it. -/
theorem cover10 (i : S12000x128.Idx) :
    ∃ t : Fin cfg20.N, (cfg20.win 10).flush t = true ∧ i ∈ ((cfg20.win 10).blk t).view.set := by
  have hi0 : (i 0).val < 12000 := (i 0).isLt
  have hi1 : (i 1).val < 128 := (i 1).isLt
  have hN : cfg20.N = 4 := N_20
  have ht : (i 0).val / 3000 < cfg20.N := by rw [hN]; omega
  obtain ⟨-, -, -, -, -, -, e0, e1⟩ := idx_facts ⟨(i 0).val / 3000, ht⟩
  refine ⟨⟨(i 0).val / 3000, ht⟩, flush20_10 _, ?_⟩
  show i ∈ ((View.whole (Pipeline.arrRef spec20 10)).slice (win20_10.rect ⟨(i 0).val / 3000, ht⟩)).set
  rw [View.set_slice_whole, Rect.mem_set_unit]
  intro a
  match a with
  | ⟨0, _⟩ =>
    show win20_10.index ⟨(i 0).val / 3000, ht⟩ (0 : Fin 2) * 3000 ≤ (i 0).val
      ∧ (i 0).val < win20_10.index ⟨(i 0).val / 3000, ht⟩ (0 : Fin 2) * 3000 + 3000
    rw [e0]
    show (i 0).val / 3000 * 3000 ≤ (i 0).val ∧ (i 0).val < (i 0).val / 3000 * 3000 + 3000
    omega
  | ⟨1, _⟩ =>
    show win20_10.index ⟨(i 0).val / 3000, ht⟩ (1 : Fin 2) * 128 ≤ (i 1).val
      ∧ (i 1).val < win20_10.index ⟨(i 0).val / 3000, ht⟩ (1 : Fin 2) * 128 + 128
    rw [e1]
    omega

/-- OUTPUT 10 AFTER THE RUN: the node stage of the arrays the region reads, row by row. -/
theorem arr20_out10 (c : Dev nD) : (dat20 (F := Ideal) V c).arrAt 10 cfg20.N
    = Spec.toVec2 (Spec.lpTail (Spec.ofVec2 (V c (Pipeline.arrRef spec20 0))) (Spec.ofVec2 (V c (Pipeline.arrRef spec20 1)))
      (fun q => V c (Pipeline.arrRef spec20 2) (ValueIdx.ix2 0 q)) (fun q => V c (Pipeline.arrRef spec20 3) (ValueIdx.ix2 0 q))
      (Spec.ofVec2 (V c (Pipeline.arrRef spec20 4)))
      (fun q => V c (Pipeline.arrRef spec20 5) (ValueIdx.ix2 0 q)) (fun q => V c (Pipeline.arrRef spec20 6) (ValueIdx.ix2 0 q))
      (Spec.ofVec2 (V c (Pipeline.arrRef spec20 7)))
      (fun q => V c (Pipeline.arrRef spec20 8) (ValueIdx.ix2 0 q)) (fun q => V c (Pipeline.arrRef spec20 9) (ValueIdx.ix2 0 q))) :=
  (dat20 V c).arrAt_eq_of_cover 10 (Spec.toVec2 (G V c)) (fun t _ => flushed10_eq V c t) cover10

set_option maxHeartbeats 1000000 in
/-- WHAT POINT t WRITES BACK into output 11, the narrower-format copy: the same block. -/
theorem flushed11_eq (c : Dev nD) (t : Fin cfg20.N) :
    (dat20 V c).flushed 11 t = ((cfg20.win 11).blk t).view.read (Elt Ideal) (Spec.toVec2 (G V c)) := by
  show (cfg20.win 11).cut (grid20.coords t) ((dat20 V c).after 11 t) = _
  rw [after20_11]
  unfold out20_11
  rw [View.canon_unit_zero hz]
  simp only [View.ld_unit_zero (S := S3000x128) hz, View.ld_unit_zero (S := S1x128) hz, View.ld_unit_zero (S := S128x128) hz]
  funext j
  obtain ⟨p, q, rfl⟩ : ∃ (p : Fin 3000) (q : Fin 128), j = ix2 p q := ⟨j 0, j 1, eq_ix2 j⟩
  obtain ⟨-, -, -, -, e0, e1, -⟩ := idx_facts t
  refine (point_eq_bf (iblk20 V c 0 t) (iblk20 V c 1 t) (iblk20 V c 2 t) (iblk20 V c 3 t) (iblk20 V c 4 t) (iblk20 V c 5 t)
    (iblk20 V c 6 t) (iblk20 V c 7 t) (iblk20 V c 8 t) (iblk20 V c 9 t)
    (V c (Pipeline.arrRef spec20 0)) (V c (Pipeline.arrRef spec20 1)) p q
    ((((cfg20.win 11).blk t).view.emb (ix2 p q) : S12000x128.Idx) 0)
    (fun k => iblk0_apply V c t (ix2 p k) (ix2 ((((cfg20.win 11).blk t).view.emb (ix2 p q) : S12000x128.Idx) 0) k) ?_ rfl)
    (fun k => iblk1_apply V c t (ix2 p k) (ix2 ((((cfg20.win 11).blk t).view.emb (ix2 p q) : S12000x128.Idx) 0) k) ?_ rfl)).trans ?_
  · show win20_11.index t (0 : Fin 2) * 3000 + 1 * p.val = win20_10.index t (0 : Fin 2) * 3000 + p.val
    rw [e0]; omega
  · show win20_11.index t (0 : Fin 2) * 3000 + 1 * p.val = win20_10.index t (0 : Fin 2) * 3000 + p.val
    rw [e0]; omega
  · rw [iblk2_eq V c t, iblk3_eq V c t, iblk4_eq V c t, iblk5_eq V c t, iblk6_eq V c t, iblk7_eq V c t, iblk8_eq V c t, iblk9_eq V c t]
    show G V c _ q = G V c _ ((((cfg20.win 11).blk t).view.emb (ix2 p q) : S12000x128.Idx) 1)
    refine congrArg (G V c _) (Fin.ext ?_)
    show q.val = win20_11.index t (1 : Fin 2) * 128 + 1 * q.val
    rw [e1]; omega

/-- Output 11's blocks tile it as output 10's do. -/
theorem cover11 (i : S12000x128.Idx) :
    ∃ t : Fin cfg20.N, (cfg20.win 11).flush t = true ∧ i ∈ ((cfg20.win 11).blk t).view.set := by
  have hi0 : (i 0).val < 12000 := (i 0).isLt
  have hi1 : (i 1).val < 128 := (i 1).isLt
  have hN : cfg20.N = 4 := N_20
  have ht : (i 0).val / 3000 < cfg20.N := by rw [hN]; omega
  obtain ⟨-, -, -, -, f0, f1, e0, -⟩ := idx_facts ⟨(i 0).val / 3000, ht⟩
  refine ⟨⟨(i 0).val / 3000, ht⟩, flush20_11 _, ?_⟩
  show i ∈ ((View.whole (Pipeline.arrRef spec20 11)).slice (win20_11.rect ⟨(i 0).val / 3000, ht⟩)).set
  rw [View.set_slice_whole, Rect.mem_set_unit]
  intro a
  match a with
  | ⟨0, _⟩ =>
    show win20_11.index ⟨(i 0).val / 3000, ht⟩ (0 : Fin 2) * 3000 ≤ (i 0).val
      ∧ (i 0).val < win20_11.index ⟨(i 0).val / 3000, ht⟩ (0 : Fin 2) * 3000 + 3000
    rw [f0, e0]
    show (i 0).val / 3000 * 3000 ≤ (i 0).val ∧ (i 0).val < (i 0).val / 3000 * 3000 + 3000
    omega
  | ⟨1, _⟩ =>
    show win20_11.index ⟨(i 0).val / 3000, ht⟩ (1 : Fin 2) * 128 ≤ (i 1).val
      ∧ (i 1).val < win20_11.index ⟨(i 0).val / 3000, ht⟩ (1 : Fin 2) * 128 + 128
    rw [f1]
    omega

/-- OUTPUT 11 AFTER THE RUN: the same function of the arrays. -/
theorem arr20_out11 (c : Dev nD) : (dat20 (F := Ideal) V c).arrAt 11 cfg20.N
    = Spec.toVec2 (Spec.lpTail (Spec.ofVec2 (V c (Pipeline.arrRef spec20 0))) (Spec.ofVec2 (V c (Pipeline.arrRef spec20 1)))
      (fun q => V c (Pipeline.arrRef spec20 2) (ValueIdx.ix2 0 q)) (fun q => V c (Pipeline.arrRef spec20 3) (ValueIdx.ix2 0 q))
      (Spec.ofVec2 (V c (Pipeline.arrRef spec20 4)))
      (fun q => V c (Pipeline.arrRef spec20 5) (ValueIdx.ix2 0 q)) (fun q => V c (Pipeline.arrRef spec20 6) (ValueIdx.ix2 0 q))
      (Spec.ofVec2 (V c (Pipeline.arrRef spec20 7)))
      (fun q => V c (Pipeline.arrRef spec20 8) (ValueIdx.ix2 0 q)) (fun q => V c (Pipeline.arrRef spec20 9) (ValueIdx.ix2 0 q))) :=
  (dat20 V c).arrAt_eq_of_cover 11 (Spec.toVec2 (G V c)) (fun t _ => flushed11_eq V c t) cover11

end Cert.KReg20

end
-- ==== Proof.KChainL1.lean ====
/-
  The kernel program's second pooling layer, node stage (region 20 of @main), from lane features `g` held at the last
  fusion layer's exit: the result.
-/
import proofs.«413166_j32323923870246_3_alg».proof.Proof.KChainL1b
import proofs.«413166_j32323923870246_3_alg».proof.Proof.KReg20

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

variable (g : M 50000 128)

set_option maxHeartbeats 8000000 in
/-- Region 20: the node stage on the accumulation with the region features as residual: the second pooling layer's
    result. -/
theorem inv_R20 (hg1 : W36 m ρ c (Proc.devRef .tc main_v334_1) = toVec2 g) :
    W42 m ρ c (Proc.devRef .tc main_v417_0) = toVec2 (poolBack (argsOfK m c) g) := by
  have h0 : V41 m ρ c (Pipeline.arrRef spec20 0)
      = toVec2 (scatterAddRows (lin (argsOfK m c).roi_feat ((argsOfK m c).lp_input_w 1)) (argsOfK m c).e2_wi (ctx1 (argsOfK m c) g)) :=
    inv_H20 m ρ c g hg1
  have h1 : V41 m ρ c (Pipeline.arrRef spec20 1) = m ((c : Thread nD τ).loc main_arg0) := kept_arg0_W41 m ρ c
  have e356 : W37 m ρ c (Proc.devRef .tc main_v356) = Cert.KHostLp.layer (m ((c : Thread nD τ).loc main_arg13)) 1 :=
    (Cert.KHostLp.hostOps18_v356 (W36 m ρ c)).trans (by rw [kept_arg13_W36 m ρ c])
  have e350 : W37 m ρ c (Proc.devRef .tc main_v350) = Cert.KHostLp.layer (m ((c : Thread nD τ).loc main_arg10)) 1 :=
    (Cert.KHostLp.hostOps18_v350 (W36 m ρ c)).trans (by rw [kept_arg10_W36 m ρ c])
  have e354 : W37 m ρ c (Proc.devRef .tc main_v354) = Cert.KHostLp.layer (m ((c : Thread nD τ).loc main_arg12)) 1 :=
    (Cert.KHostLp.hostOps18_v354 (W36 m ρ c)).trans (by rw [kept_arg12_W36 m ρ c])
  have h2 : V41 m ρ c (Pipeline.arrRef spec20 2) = toVec2 (fun (_ : Fin 1) q => (argsOfK m c).lp_norm_gn 1 0 q) :=
    (Cert.KHostLp.hostOps20_v411 (W40 m ρ c)).trans (by rw [kept_v356_W40 m ρ c, e356]; rfl)
  have h3 : V41 m ρ c (Pipeline.arrRef spec20 3) = toVec2 (fun (_ : Fin 1) q => (argsOfK m c).lp_norm_gn 1 1 q) :=
    (Cert.KHostLp.hostOps20_v412 (W40 m ρ c)).trans (by rw [kept_v356_W40 m ρ c, e356]; rfl)
  have h4 : V41 m ρ c (Pipeline.arrRef spec20 4) = toVec2 ((argsOfK m c).lp_mlp1_w 1) :=
    (kept_v348_W41 m ρ c).trans ((Cert.KHostLp.hostOps18_v348 (W36 m ρ c)).trans (by rw [kept_arg9_W36 m ρ c]; rfl))
  have h5 : V41 m ρ c (Pipeline.arrRef spec20 5) = toVec2 (fun (_ : Fin 1) q => (argsOfK m c).lp_mlp1_gn 1 0 q) :=
    (Cert.KHostLp.hostOps20_v413 (W40 m ρ c)).trans (by rw [kept_v350_W40 m ρ c, e350]; rfl)
  have h6 : V41 m ρ c (Pipeline.arrRef spec20 6) = toVec2 (fun (_ : Fin 1) q => (argsOfK m c).lp_mlp1_gn 1 1 q) :=
    (Cert.KHostLp.hostOps20_v414 (W40 m ρ c)).trans (by rw [kept_v350_W40 m ρ c, e350]; rfl)
  have h7 : V41 m ρ c (Pipeline.arrRef spec20 7) = toVec2 ((argsOfK m c).lp_mlp2_w 1) :=
    (kept_v352_W41 m ρ c).trans ((Cert.KHostLp.hostOps18_v352 (W36 m ρ c)).trans (by rw [kept_arg11_W36 m ρ c]; rfl))
  have h8 : V41 m ρ c (Pipeline.arrRef spec20 8) = toVec2 (fun (_ : Fin 1) q => (argsOfK m c).lp_mlp2_gn 1 0 q) :=
    (Cert.KHostLp.hostOps20_v415 (W40 m ρ c)).trans (by rw [kept_v354_W40 m ρ c, e354]; rfl)
  have h9 : V41 m ρ c (Pipeline.arrRef spec20 9) = toVec2 (fun (_ : Fin 1) q => (argsOfK m c).lp_mlp2_gn 1 1 q) :=
    (Cert.KHostLp.hostOps20_v416 (W40 m ρ c)).trans (by rw [kept_v354_W40 m ρ c, e354]; rfl)
  refine (W42_arr m ρ c 10).trans ((Cert.KReg20.arr20_out10 (V41 m ρ) c).trans ?_)
  rw [h0, h1, h2, h3, h4, h5, h6, h7, h8, h9]; rfl

end Cert.KChain

end
-- ==== Proof.KChain.lean ====
/-
  The value the kernel program returns: the layers' invariants composed from the launch to the last boundary.
-/
import proofs.«413166_j32323923870246_3_alg».proof.Proof.KChainL0
import proofs.«413166_j32323923870246_3_alg».proof.Proof.KChainF0
import proofs.«413166_j32323923870246_3_alg».proof.Proof.KChainF1
import proofs.«413166_j32323923870246_3_alg».proof.Proof.KChainF2
import proofs.«413166_j32323923870246_3_alg».proof.Proof.KChainF3
import proofs.«413166_j32323923870246_3_alg».proof.Proof.KChainL1

set_option maxRecDepth 16384

noncomputable section

namespace Cert.KChain

open Cert.KernelIdeal Cert.KernelIdeal.Gen Cert.KernelIdeal.GenP Cert.Spec
open Idealize.ShloMosaic Idealize.ShloMosaic.TcCoe

variable (m : (ℓ : Loc nD τ sig) → Buf (Elt Ideal) ℓ) (ρ : Dev nD → PrngReg) (c : Dev nD)

/-- The result buffer at the last boundary holds the network of the launch arguments. -/
theorem kernel_value : W42 m ρ c (Proc.devRef .tc main_v417_0) = toVec2 (net (argsOfK m c)) := by
  have h0 := inv_R1 m ρ c
  have h1 := inv_F0_out m ρ c (g0 (argsOfK m c)) h0.1 h0.2
  have h2 := inv_F1_out m ρ c _ h1.1 h1.2
  have h3 := inv_F2_out m ρ c _ h2.1 h2.2
  have h4 := inv_F3_out m ρ c _ h3.1 h3.2
  rw [net_eq]
  exact inv_R20 m ρ c _ h4.2

end Cert.KChain

end
-- ==== Proof.RRunOps00.lean ====
/- TABLES transcribed from proof/ReferenceIdeal.lean: window `main_part0` of the reference's @main as a list of host
   operations (62: 1 … 62 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part0`, in order, the calls unfolded. -/
abbrev chunk0 : List (HloOp τ sig (Elt F)) :=
  [ StableHlo.nullary main_cst (constant S_ .f32 0x00000000#32),
    StableHlo.unary main_cst main_v0 (broadcastInDim S50000x128 ![] bcast_S_S50000x128 : (⟨S_, .f32⟩ : BufTy).Contents (Elt F) → (⟨S50000x128, .f32⟩ : BufTy).Contents (Elt F)),
    StableHlo.unary main_arg3 main_v1 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v1 main_v2 rfl shapeCasts_S1x128x128_S128x128,
    StableHlo.unary main_arg4 main_v3 ((extractStridedSlice S1x128x4 ![0, 0, 0] · slices_S2x128x4_S1x128x4_0_0_0) : (⟨S2x128x4, .f32⟩ : BufTy).Contents (Elt F) → (⟨S1x128x4, .f32⟩ : BufTy).Contents (Elt F)),
    StableHlo.reshape main_v3 main_v4 rfl shapeCasts_S1x128x4_S128x4,
    StableHlo.unary main_arg5 main_v5 ((extractStridedSlice S1x128 ![0, 0] · slices_S2x128_S1x128_0_0) : (⟨S2x128, .f32⟩ : BufTy).Contents (Elt F) → (⟨S1x128, .f32⟩ : BufTy).Contents (Elt F)),
    StableHlo.reshape main_v5 main_v6 rfl shapeCasts_S1x128_S128,
    StableHlo.unary main_arg6 main_v7 ((extractStridedSlice S1x128x256 ![0, 0, 0] · slices_S2x128x256_S1x128x256_0_0_0) : (⟨S2x128x256, .f32⟩ : BufTy).Contents (Elt F) → (⟨S1x128x256, .f32⟩ : BufTy).Contents (Elt F)),
    StableHlo.reshape main_v7 main_v8 rfl shapeCasts_S1x128x256_S128x256,
    StableHlo.unary main_arg7 main_v9 ((extractStridedSlice S1x2x128 ![0, 0, 0] · slices_S2x2x128_S1x2x128_0_0_0) : (⟨S2x2x128, .f32⟩ : BufTy).Contents (Elt F) → (⟨S1x2x128, .f32⟩ : BufTy).Contents (Elt F)),
    StableHlo.reshape main_v9 main_v10 rfl shapeCasts_S1x2x128_S2x128,
    StableHlo.unary main_arg8 main_v11 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v11 main_v12 rfl shapeCasts_S1x128x128_S128x128,
    StableHlo.unary main_arg9 main_v13 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v13 main_v14 rfl shapeCasts_S1x128x128_S128x128,
    StableHlo.unary main_arg10 main_v15 ((extractStridedSlice S1x2x128 ![0, 0, 0] · slices_S2x2x128_S1x2x128_0_0_0) : (⟨S2x2x128, .f32⟩ : BufTy).Contents (Elt F) → (⟨S1x2x128, .f32⟩ : BufTy).Contents (Elt F)),
    StableHlo.reshape main_v15 main_v16 rfl shapeCasts_S1x2x128_S2x128,
    StableHlo.unary main_arg11 main_v17 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v17 main_v18 rfl shapeCasts_S1x128x128_S128x128,
    StableHlo.unary main_arg12 main_v19 ((extractStridedSlice S1x2x128 ![0, 0, 0] · slices_S2x2x128_S1x2x128_0_0_0) : (⟨S2x2x128, .f32⟩ : BufTy).Contents (Elt F) → (⟨S1x2x128, .f32⟩ : BufTy).Contents (Elt F)),
    StableHlo.reshape main_v19 main_v20 rfl shapeCasts_S1x2x128_S2x128,
    StableHlo.unary main_arg13 main_v21 ((extractStridedSlice S1x2x128 ![0, 0, 0] · slices_S2x2x128_S1x2x128_0_0_0) : (⟨S2x2x128, .f32⟩ : BufTy).Contents (Elt F) → (⟨S1x2x128, .f32⟩ : BufTy).Contents (Elt F)),
    StableHlo.reshape main_v21 main_v22 rfl shapeCasts_S1x2x128_S2x128,
    StableHlo.nullary main_c (constantI S_ 32 0#32),
    StableHlo.unary main_c main_v23 (broadcastInDim S150000 ![] bcast_S_S150000 : (⟨S_, .i32⟩ : BufTy).Contents (Elt F) → (⟨S150000, .i32⟩ : BufTy).Contents (Elt F)),
    StableHlo.binary main_arg21 main_v23 main_v24 (cmpi .slt : (⟨S150000, .i32⟩ : BufTy).Contents (Elt F) → (⟨S150000, .i32⟩ : BufTy).Contents (Elt F) → (⟨S150000, .i1⟩ : BufTy).Contents (Elt F)),
    StableHlo.nullary main_c_0 (constantI S_ 32 12000#32),
    StableHlo.unary main_c_0 main_v25 (broadcastInDim S150000 ![] bcast_S_S150000 : (⟨S_, .i32⟩ : BufTy).Contents (Elt F) → (⟨S150000, .i32⟩ : BufTy).Contents (Elt F)),
    StableHlo.binary main_arg21 main_v25 main_v26 (addi : (⟨S150000, .i32⟩ : BufTy).Contents (Elt F) → (⟨S150000, .i32⟩ : BufTy).Contents (Elt F) → (⟨S150000, .i32⟩ : BufTy).Contents (Elt F)),
    StableHlo.ternary main_v24 main_v26 main_arg21 main_v27 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v27 main_v28 (broadcastInDim S150000x1 ![0] bcast_S150000_S150000x1_0 : (⟨S150000, .i32⟩ : BufTy).Contents (Elt F) → (⟨S150000x1, .i32⟩ : BufTy).Contents (Elt F)),
    StableHlo.binary main_arg2 main_v28 main_v29 ((fun x i => Host.gather gather_S12000x4_S150000x1_S150000x4_1_0_n_n_0_1_14 x i) : (⟨S12000x4, .f32⟩ : BufTy).Contents (Elt F) → (⟨S150000x1, .i32⟩ : BufTy).Contents (Elt F) → (⟨S150000x4, .f32⟩ : BufTy).Contents (Elt F)),
    StableHlo.nullary main_c_1 (constantI S_ 32 0#32),
    StableHlo.unary main_c_1 main_v30 (broadcastInDim S150000 ![] bcast_S_S150000 : (⟨S_, .i32⟩ : BufTy).Contents (Elt F) → (⟨S150000, .i32⟩ : BufTy).Contents (Elt F)),
    StableHlo.binary main_arg22 main_v30 main_v31 (cmpi .slt : (⟨S150000, .i32⟩ : BufTy).Contents (Elt F) → (⟨S150000, .i32⟩ : BufTy).Contents (Elt F) → (⟨S150000, .i1⟩ : BufTy).Contents (Elt F)),
    StableHlo.nullary main_c_2 (constantI S_ 32 50000#32),
    StableHlo.unary main_c_2 main_v32 (broadcastInDim S150000 ![] bcast_S_S150000 : (⟨S_, .i32⟩ : BufTy).Contents (Elt F) → (⟨S150000, .i32⟩ : BufTy).Contents (Elt F)),
    StableHlo.binary main_arg22 main_v32 main_v33 (addi : (⟨S150000, .i32⟩ : BufTy).Contents (Elt F) → (⟨S150000, .i32⟩ : BufTy).Contents (Elt F) → (⟨S150000, .i32⟩ : BufTy).Contents (Elt F)),
    StableHlo.ternary main_v31 main_v33 main_arg22 main_v34 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v34 main_v35 (broadcastInDim S150000x1 ![0] bcast_S150000_S150000x1_0 : (⟨S150000, .i32⟩ : BufTy).Contents (Elt F) → (⟨S150000x1, .i32⟩ : BufTy).Contents (Elt F)),
    StableHlo.binary main_arg1 main_v35 main_v36 ((fun x i => Host.gather gather_S50000x4_S150000x1_S150000x4_1_0_n_n_0_1_14 x i) : (⟨S50000x4, .f32⟩ : BufTy).Contents (Elt F) → (⟨S150000x1, .i32⟩ : BufTy).Contents (Elt F) → (⟨S150000x4, .f32⟩ : BufTy).Contents (Elt F)),
    StableHlo.binary main_v29 main_v36 main_v37 (subf : (⟨S150000x4, .f32⟩ : BufTy).Contents (Elt F) → (⟨S150000x4, .f32⟩ : BufTy).Contents (Elt F) → (⟨S150000x4, .f32⟩ : BufTy).Contents (Elt F)),
    StableHlo.unary main_v4 main_v38 ((transpose S4x128 [1, 0] · transposes_S128x4_S4x128_1_0) : (⟨S128x4, .f32⟩ : BufTy).Contents (Elt F) → (⟨S4x128, .f32⟩ : BufTy).Contents (Elt F)),
    StableHlo.binary main_v37 main_v38 main_v39 ((fun l r => Host.dotGeneral dot_S150000x4_S4x128_S150000x128_1_0_0_1_n_n none l r) : (⟨S150000x4, .f32⟩ : BufTy).Contents (Elt F) → (⟨S4x128, .f32⟩ : BufTy).Contents (Elt F) → (⟨S150000x128, .f32⟩ : BufTy).Contents (Elt F)),
    StableHlo.unary main_v6 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S150000x128 ![0, 1] bcast_S1x128_S150000x128_0_1 : (⟨S1x128, .f32⟩ : BufTy).Contents (Elt F) → (⟨S150000x128, .f32⟩ : BufTy).Contents (Elt F)),
    StableHlo.binary main_v39 main_v41 main_v42 (addf : (⟨S150000x128, .f32⟩ : BufTy).Contents (Elt F) → (⟨S150000x128, .f32⟩ : BufTy).Contents (Elt F) → (⟨S150000x128, .f32⟩ : BufTy).Contents (Elt F)),
    StableHlo.TRef.nullary main_call0.cst (constant S_ .f32 0x00000000#32),
    StableHlo.TRef.unary main_call0.cst main_call0.v0 (broadcastInDim S150000x128 ![] bcast_S_S150000x128),
    StableHlo.TRef.binary (.of main_v42 : StableHlo.TRef sig ⟨S150000x128, .f32⟩) main_call0.v0 main_call0.v1 maximumf,
    StableHlo.nullary main_c_3 (constantI S_ 32 0#32),
    StableHlo.unary main_c_3 main_v44 (broadcastInDim S150000 ![] bcast_S_S150000 : (⟨S_, .i32⟩ : BufTy).Contents (Elt F) → (⟨S150000, .i32⟩ : BufTy).Contents (Elt F)),
    StableHlo.binary main_arg21 main_v44 main_v45 (cmpi .slt : (⟨S150000, .i32⟩ : BufTy).Contents (Elt F) → (⟨S150000, .i32⟩ : BufTy).Contents (Elt F) → (⟨S150000, .i1⟩ : BufTy).Contents (Elt F)),
    StableHlo.nullary main_c_4 (constantI S_ 32 12000#32),
    StableHlo.unary main_c_4 main_v46 (broadcastInDim S150000 ![] bcast_S_S150000 : (⟨S_, .i32⟩ : BufTy).Contents (Elt F) → (⟨S150000, .i32⟩ : BufTy).Contents (Elt F)),
    StableHlo.binary main_arg21 main_v46 main_v47 (addi : (⟨S150000, .i32⟩ : BufTy).Contents (Elt F) → (⟨S150000, .i32⟩ : BufTy).Contents (Elt F) → (⟨S150000, .i32⟩ : BufTy).Contents (Elt F)),
    StableHlo.ternary main_v45 main_v47 main_arg21 main_v48 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v48 main_v49 (broadcastInDim S150000x1 ![0] bcast_S150000_S150000x1_0 : (⟨S150000, .i32⟩ : BufTy).Contents (Elt F) → (⟨S150000x1, .i32⟩ : BufTy).Contents (Elt F)),
    StableHlo.binary main_arg0 main_v49 main_v50 ((fun x i => Host.gather gather_S12000x128_S150000x1_S150000x128_1_0_n_n_0_1_1128 x i) : (⟨S12000x128, .f32⟩ : BufTy).Contents (Elt F) → (⟨S150000x1, .i32⟩ : BufTy).Contents (Elt F) → (⟨S150000x128, .f32⟩ : BufTy).Contents (Elt F)),
    StableHlo.binary main_v50 main_v43 main_v51 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.unary main_v8 main_v52 ((transpose S256x128 [1, 0] · transposes_S128x256_S256x128_1_0) : (⟨S128x256, .f32⟩ : BufTy).Contents (Elt F) → (⟨S256x128, .f32⟩ : BufTy).Contents (Elt F)) ]

/-- The buffers they write, in order. -/
abbrev chunk0_W : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_c, main_v23, main_v24, main_c_0, main_v25, main_v26, main_v27, main_v28, main_v29, main_c_1, main_v30, main_v31, main_c_2, main_v32, main_v33, main_v34, main_v35, main_v36, main_v37, main_v38, main_v39, main_v40, main_v41, main_v42, main_call0.cst.ref, main_call0.v0.ref, main_call0.v1.ref, main_c_3, main_v44, main_v45, main_c_4, main_v46, main_v47, main_v48, main_v49, main_v50, main_v51, main_v52]

end Cert.ReferenceIdeal.RefRun

end
-- ==== Proof.RRunLib.lean ====
/- A list-membership form of "this operation writes inside that list of buffers", for the per-window tables of the
   reference's run: the operation's one written buffer is named, and its membership in the list is decided. -/
import Idealize.ShloMosaic.Lib.StableHlo.Run

noncomputable section

namespace Cert.ReferenceIdeal.RefRun

open Idealize.ShloMosaic Idealize.SL.Sem Idealize.ShloMosaic.StableHlo

variable {τ : Topo} {sig : RefSig} {Val : EltTy → Type}

/-- An operation whose one written buffer is in the list writes inside the list. -/
theorem writes_sub_of_mem {op : HloOp τ sig Val} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.RefRun

end
-- ==== Proof.RRunChk00.lean ====
/- TABLES over the operations of window `main_part0` (module RRunOps00): one term per operation for each side condition of
   the run, around the one proof text every window shares. -/
import proofs.«413166_j32323923870246_3_alg».proof.Proof.RRunOps00
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part0_eq (c : Dev nD) : main_part0 (F := F) c = seq chunk0 := by
  simp only [main_part0, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk0_sub : (chunk0 : List (HloOp τ sig (Elt F))).Forall fun op => op.bufs ⊆ tcRefs τ sig :=
  ⟨nullary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

set_option maxRecDepth 16384 in
/-- Every operation determines its result. -/
theorem chunk0_fresh : ∀ op ∈ (chunk0 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk0 : List (HloOp τ sig (Elt F))).Forall fun op => op.fresh = ∅)

set_option maxRecDepth 16384 in
/-- Each operation writes one buffer of the list. -/
theorem chunk0_writes : (chunk0 : List (HloOp τ sig (Elt F))).Forall fun op =>
    op.writes ⊆ (chunk0_W.map (Proc.devRef (τ := τ) .tc)).toFinset :=
  ⟨writes_sub_of_mem main_cst rfl (by decide),
    writes_sub_of_mem main_v0 rfl (by decide),
    writes_sub_of_mem main_v1 rfl (by decide),
    writes_sub_of_mem main_v2 rfl (by decide),
    writes_sub_of_mem main_v3 rfl (by decide),
    writes_sub_of_mem main_v4 rfl (by decide),
    writes_sub_of_mem main_v5 rfl (by decide),
    writes_sub_of_mem main_v6 rfl (by decide),
    writes_sub_of_mem main_v7 rfl (by decide),
    writes_sub_of_mem main_v8 rfl (by decide),
    writes_sub_of_mem main_v9 rfl (by decide),
    writes_sub_of_mem main_v10 rfl (by decide),
    writes_sub_of_mem main_v11 rfl (by decide),
    writes_sub_of_mem main_v12 rfl (by decide),
    writes_sub_of_mem main_v13 rfl (by decide),
    writes_sub_of_mem main_v14 rfl (by decide),
    writes_sub_of_mem main_v15 rfl (by decide),
    writes_sub_of_mem main_v16 rfl (by decide),
    writes_sub_of_mem main_v17 rfl (by decide),
    writes_sub_of_mem main_v18 rfl (by decide),
    writes_sub_of_mem main_v19 rfl (by decide),
    writes_sub_of_mem main_v20 rfl (by decide),
    writes_sub_of_mem main_v21 rfl (by decide),
    writes_sub_of_mem main_v22 rfl (by decide),
    writes_sub_of_mem main_c rfl (by decide),
    writes_sub_of_mem main_v23 rfl (by decide),
    writes_sub_of_mem main_v24 rfl (by decide),
    writes_sub_of_mem main_c_0 rfl (by decide),
    writes_sub_of_mem main_v25 rfl (by decide),
    writes_sub_of_mem main_v26 rfl (by decide),
    writes_sub_of_mem main_v27 rfl (by decide),
    writes_sub_of_mem main_v28 rfl (by decide),
    writes_sub_of_mem main_v29 rfl (by decide),
    writes_sub_of_mem main_c_1 rfl (by decide),
    writes_sub_of_mem main_v30 rfl (by decide),
    writes_sub_of_mem main_v31 rfl (by decide),
    writes_sub_of_mem main_c_2 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_call0.cst.ref rfl (by decide),
    writes_sub_of_mem main_call0.v0.ref rfl (by decide),
    writes_sub_of_mem main_call0.v1.ref rfl (by decide),
    writes_sub_of_mem main_c_3 rfl (by decide),
    writes_sub_of_mem main_v44 rfl (by decide),
    writes_sub_of_mem main_v45 rfl (by decide),
    writes_sub_of_mem main_c_4 rfl (by decide),
    writes_sub_of_mem main_v46 rfl (by decide),
    writes_sub_of_mem main_v47 rfl (by decide),
    writes_sub_of_mem main_v48 rfl (by decide),
    writes_sub_of_mem main_v49 rfl (by decide),
    writes_sub_of_mem main_v50 rfl (by decide),
    writes_sub_of_mem main_v51 rfl (by decide),
    writes_sub_of_mem main_v52 rfl (by decide)⟩

/-- A buffer the window does not write keeps its contents through it. -/
theorem chunk0_keep (V : Valuation τ sig (Elt F)) (r : Ref sig .tc) (h : r ∉ chunk0_W) :
    after chunk0 V (Proc.devRef .tc r) = V (Proc.devRef .tc r) :=
  after_of_writes_sub chunk0 V chunk0_writes h

end Cert.ReferenceIdeal.RefRun

end
-- ==== Proof.RRunOps01.lean ====
/- TABLES transcribed from proof/ReferenceIdeal.lean: window `main_part1` of the reference's @main as a list of host
   operations (106: 63 … 168 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part1`, in order, the calls unfolded. -/
abbrev chunk1 : List (HloOp τ sig (Elt F)) :=
  [ StableHlo.binary main_v51 main_v52 main_v53 ((fun l r => Host.dotGeneral dot_S150000x256_S256x128_S150000x128_1_0_0_1_n_n none l r) : (⟨S150000x256, .f32⟩ : BufTy).Contents (Elt F) → (⟨S256x128, .f32⟩ : BufTy).Contents (Elt F) → (⟨S150000x128, .f32⟩ : BufTy).Contents (Elt F)),
    StableHlo.nullary main_cst_5 (constant S_ .f32 0x00000000#32),
    StableHlo.binary main_v53 main_cst_5 main_v54 ((fun x v => Host.reduceAdd x v reducesTo_S150000x128_S150000_d1 h_S_) : (⟨S150000x128, .f32⟩ : BufTy).Contents (Elt F) → (⟨S_, .f32⟩ : BufTy).Contents (Elt F) → (⟨S150000, .f32⟩ : BufTy).Contents (Elt F)),
    StableHlo.unary main_v54 main_v55 (broadcastInDim S150000x1 ![0] bcast_S150000_S150000x1_0 : (⟨S150000, .f32⟩ : BufTy).Contents (Elt F) → (⟨S150000x1, .f32⟩ : BufTy).Contents (Elt F)),
    StableHlo.nullary main_cst_6 (constant S_ .f32 0x43000000#32),
    StableHlo.unary main_cst_6 main_v56 (broadcastInDim S150000x1 ![] bcast_S_S150000x1 : (⟨S_, .f32⟩ : BufTy).Contents (Elt F) → (⟨S150000x1, .f32⟩ : BufTy).Contents (Elt F)),
    StableHlo.binary main_v55 main_v56 main_v57 (Host.divf : (⟨S150000x1, .f32⟩ : BufTy).Contents (Elt F) → (⟨S150000x1, .f32⟩ : BufTy).Contents (Elt F) → (⟨S150000x1, .f32⟩ : BufTy).Contents (Elt F)),
    StableHlo.nullary main_c_7 (constantI S_ 32 0#32),
    StableHlo.TRef.nullary main_call1.cst (constant S_ .f32 0x00000000#32),
    StableHlo.TRef.binary (.of main_v53 : StableHlo.TRef sig ⟨S150000x128, .f32⟩) main_call1.cst main_call1.v0 (fun x v => Host.reduceAdd x v reducesTo_S150000x128_S150000_d1 h_S_),
    StableHlo.TRef.unary main_call1.v0 main_call1.v1 (broadcastInDim S150000x1 ![0] bcast_S150000_S150000x1_0),
    StableHlo.TRef.nullary main_call1.cst_0 (constant S_ .f32 0x43000000#32),
    StableHlo.TRef.unary main_call1.cst_0 main_call1.v2 (broadcastInDim S150000x1 ![] bcast_S_S150000x1),
    StableHlo.TRef.binary main_call1.v1 main_call1.v2 main_call1.v3 Host.divf,
    StableHlo.TRef.unary main_call1.v3 main_call1.v4 (broadcastInDim S150000x128 ![0, 1] bcast_S150000x1_S150000x128_0_1),
    StableHlo.TRef.binary (.of main_v53 : StableHlo.TRef sig ⟨S150000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S150000x128_S150000_d1 h_S_),
    StableHlo.TRef.unary main_call1.v9 main_call1.v10 (broadcastInDim S150000x1 ![0] bcast_S150000_S150000x1_0),
    StableHlo.TRef.unary main_call1.v8 main_call1.v11 (broadcastInDim S150000x1 ![] bcast_S_S150000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary (main_call1.cst_4 : StableHlo.TRef sig ⟨S_, .f32⟩) main_call1.call0.v0 id,
    StableHlo.TRef.unary main_call1.call0.v0 main_call1.call0.v1 (broadcastInDim S150000x1 ![] bcast_S_S150000x1),
    StableHlo.TRef.ternary (main_call1.v13 : StableHlo.TRef sig ⟨S_, .i1⟩) (main_call1.v12 : StableHlo.TRef sig ⟨S150000x1, .f32⟩) main_call1.call0.v1 main_call1.call0.v2 (fun p a b => select (broadcastInDim S150000x1 ![] bcast_S_S150000x1 p) a b),
    StableHlo.unary main_v57 main_v59 (broadcastInDim S150000x128 ![0, 1] bcast_S150000x1_S150000x128_0_1 : (⟨S150000x1, .f32⟩ : BufTy).Contents (Elt F) → (⟨S150000x128, .f32⟩ : BufTy).Contents (Elt F)),
    StableHlo.binary main_v53 main_v59 main_v60 (subf : (⟨S150000x128, .f32⟩ : BufTy).Contents (Elt F) → (⟨S150000x128, .f32⟩ : BufTy).Contents (Elt F) → (⟨S150000x128, .f32⟩ : BufTy).Contents (Elt F)),
    StableHlo.nullary main_cst_8 (constant S_ .f32 0x3727C5AC#32),
    StableHlo.unary main_cst_8 main_v61 (broadcastInDim S150000x1 ![] bcast_S_S150000x1 : (⟨S_, .f32⟩ : BufTy).Contents (Elt F) → (⟨S150000x1, .f32⟩ : BufTy).Contents (Elt F)),
    StableHlo.binary main_v58 main_v61 main_v62 (addf : (⟨S150000x1, .f32⟩ : BufTy).Contents (Elt F) → (⟨S150000x1, .f32⟩ : BufTy).Contents (Elt F) → (⟨S150000x1, .f32⟩ : BufTy).Contents (Elt F)),
    StableHlo.unary main_v62 main_v63 (Host.sqrt : (⟨S150000x1, .f32⟩ : BufTy).Contents (Elt F) → (⟨S150000x1, .f32⟩ : BufTy).Contents (Elt F)),
    StableHlo.unary main_v63 main_v64 (broadcastInDim S150000x128 ![0, 1] bcast_S150000x1_S150000x128_0_1 : (⟨S150000x1, .f32⟩ : BufTy).Contents (Elt F) → (⟨S150000x128, .f32⟩ : BufTy).Contents (Elt F)),
    StableHlo.binary main_v60 main_v64 main_v65 (Host.divf : (⟨S150000x128, .f32⟩ : BufTy).Contents (Elt F) → (⟨S150000x128, .f32⟩ : BufTy).Contents (Elt F) → (⟨S150000x128, .f32⟩ : BufTy).Contents (Elt F)),
    StableHlo.unary main_v10 main_v66 ((extractStridedSlice S1x128 ![0, 0] · slices_S2x128_S1x128_0_0) : (⟨S2x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S150000x128 ![0, 1] bcast_S1x128_S150000x128_0_1 : (⟨S1x128, .f32⟩ : BufTy).Contents (Elt F) → (⟨S150000x128, .f32⟩ : BufTy).Contents (Elt F)),
    StableHlo.binary main_v65 main_v69 main_v70 (mulf : (⟨S150000x128, .f32⟩ : BufTy).Contents (Elt F) → (⟨S150000x128, .f32⟩ : BufTy).Contents (Elt F) → (⟨S150000x128, .f32⟩ : BufTy).Contents (Elt F)),
    StableHlo.unary main_v10 main_v71 ((extractStridedSlice S1x128 ![1, 0] · slices_S2x128_S1x128_1_0) : (⟨S2x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S150000x128 ![0, 1] bcast_S1x128_S150000x128_0_1 : (⟨S1x128, .f32⟩ : BufTy).Contents (Elt F) → (⟨S150000x128, .f32⟩ : BufTy).Contents (Elt F)),
    StableHlo.binary main_v70 main_v74 main_v75 (addf : (⟨S150000x128, .f32⟩ : BufTy).Contents (Elt F) → (⟨S150000x128, .f32⟩ : BufTy).Contents (Elt F) → (⟨S150000x128, .f32⟩ : BufTy).Contents (Elt F)),
    StableHlo.TRef.nullary main_call2.cst (constant S_ .f32 0x00000000#32),
    StableHlo.TRef.unary main_call2.cst main_call2.v0 (broadcastInDim S150000x128 ![] bcast_S_S150000x128),
    StableHlo.TRef.binary (.of main_v75 : StableHlo.TRef sig ⟨S150000x128, .f32⟩) main_call2.v0 main_call2.v1 maximumf,
    StableHlo.unary main_v12 main_v77 ((transpose S128x128 [1, 0] · transposes_S128x128_S128x128_1_0) : (⟨S128x128, .f32⟩ : BufTy).Contents (Elt F) → (⟨S128x128, .f32⟩ : BufTy).Contents (Elt F)),
    StableHlo.binary main_v76 main_v77 main_v78 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.unary main_v2 main_v79 ((transpose S128x128 [1, 0] · transposes_S128x128_S128x128_1_0) : (⟨S128x128, .f32⟩ : BufTy).Contents (Elt F) → (⟨S128x128, .f32⟩ : BufTy).Contents (Elt F)),
    StableHlo.binary main_v0 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v81 (broadcastInDim S150000 ![] bcast_S_S150000 : (⟨S_, .i32⟩ : BufTy).Contents (Elt F) → (⟨S150000, .i32⟩ : BufTy).Contents (Elt F)),
    StableHlo.binary main_arg22 main_v81 main_v82 (cmpi .slt : (⟨S150000, .i32⟩ : BufTy).Contents (Elt F) → (⟨S150000, .i32⟩ : BufTy).Contents (Elt F) → (⟨S150000, .i1⟩ : BufTy).Contents (Elt F)),
    StableHlo.nullary main_c_10 (constantI S_ 32 50000#32),
    StableHlo.unary main_c_10 main_v83 (broadcastInDim S150000 ![] bcast_S_S150000 : (⟨S_, .i32⟩ : BufTy).Contents (Elt F) → (⟨S150000, .i32⟩ : BufTy).Contents (Elt F)),
    StableHlo.binary main_arg22 main_v83 main_v84 (addi : (⟨S150000, .i32⟩ : BufTy).Contents (Elt F) → (⟨S150000, .i32⟩ : BufTy).Contents (Elt F) → (⟨S150000, .i32⟩ : BufTy).Contents (Elt F)),
    StableHlo.ternary main_v82 main_v84 main_arg22 main_v85 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v85 main_v86 (broadcastInDim S150000x1 ![0] bcast_S150000_S150000x1_0 : (⟨S150000, .i32⟩ : BufTy).Contents (Elt F) → (⟨S150000x1, .i32⟩ : BufTy).Contents (Elt F)),
    StableHlo.ternary main_v80 main_v86 main_v78 main_v87 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    StableHlo.nullary main_cst_11 (constant S_ .f32 0x00000000#32),
    StableHlo.binary main_v87 main_cst_11 main_v88 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v88 main_v89 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43000000#32),
    StableHlo.unary main_cst_12 main_v90 (broadcastInDim S50000x1 ![] bcast_S_S50000x1 : (⟨S_, .f32⟩ : BufTy).Contents (Elt F) → (⟨S50000x1, .f32⟩ : BufTy).Contents (Elt F)),
    StableHlo.binary main_v89 main_v90 main_v91 (Host.divf : (⟨S50000x1, .f32⟩ : BufTy).Contents (Elt F) → (⟨S50000x1, .f32⟩ : BufTy).Contents (Elt F) → (⟨S50000x1, .f32⟩ : BufTy).Contents (Elt F)),
    StableHlo.nullary main_c_13 (constantI S_ 32 0#32),
    StableHlo.TRef.nullary main_call3.cst (constant S_ .f32 0x00000000#32),
    StableHlo.TRef.binary (.of main_v87 : StableHlo.TRef sig ⟨S50000x128, .f32⟩) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v87 : StableHlo.TRef sig ⟨S50000x128, .f32⟩) main_call3.v4 main_call3.v5 subf,
    StableHlo.TRef.binary main_call3.v5 main_call3.v5 main_call3.v6 mulf,
    StableHlo.TRef.unary (.of main_c_13 : StableHlo.TRef sig ⟨S_, .i32⟩) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary (main_call3.cst_4 : StableHlo.TRef sig ⟨S_, .f32⟩) main_call3.call0.v0 id,
    StableHlo.TRef.unary main_call3.call0.v0 main_call3.call0.v1 (broadcastInDim S50000x1 ![] bcast_S_S50000x1),
    StableHlo.TRef.ternary (main_call3.v13 : StableHlo.TRef sig ⟨S_, .i1⟩) (main_call3.v12 : StableHlo.TRef sig ⟨S50000x1, .f32⟩) main_call3.call0.v1 main_call3.call0.v2 (fun p a b => select (broadcastInDim S50000x1 ![] bcast_S_S50000x1 p) a b),
    StableHlo.unary main_v91 main_v93 (broadcastInDim S50000x128 ![0, 1] bcast_S50000x1_S50000x128_0_1 : (⟨S50000x1, .f32⟩ : BufTy).Contents (Elt F) → (⟨S50000x128, .f32⟩ : BufTy).Contents (Elt F)),
    StableHlo.binary main_v87 main_v93 main_v94 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v95 (broadcastInDim S50000x1 ![] bcast_S_S50000x1 : (⟨S_, .f32⟩ : BufTy).Contents (Elt F) → (⟨S50000x1, .f32⟩ : BufTy).Contents (Elt F)),
    StableHlo.binary main_v92 main_v95 main_v96 (addf : (⟨S50000x1, .f32⟩ : BufTy).Contents (Elt F) → (⟨S50000x1, .f32⟩ : BufTy).Contents (Elt F) → (⟨S50000x1, .f32⟩ : BufTy).Contents (Elt F)),
    StableHlo.unary main_v96 main_v97 (Host.sqrt : (⟨S50000x1, .f32⟩ : BufTy).Contents (Elt F) → (⟨S50000x1, .f32⟩ : BufTy).Contents (Elt F)),
    StableHlo.unary main_v97 main_v98 (broadcastInDim S50000x128 ![0, 1] bcast_S50000x1_S50000x128_0_1 : (⟨S50000x1, .f32⟩ : BufTy).Contents (Elt F) → (⟨S50000x128, .f32⟩ : BufTy).Contents (Elt F)),
    StableHlo.binary main_v94 main_v98 main_v99 (Host.divf : (⟨S50000x128, .f32⟩ : BufTy).Contents (Elt F) → (⟨S50000x128, .f32⟩ : BufTy).Contents (Elt F) → (⟨S50000x128, .f32⟩ : BufTy).Contents (Elt F)),
    StableHlo.unary main_v22 main_v100 ((extractStridedSlice S1x128 ![0, 0] · slices_S2x128_S1x128_0_0) : (⟨S2x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)) ]

/-- The buffers they write, in order. -/
abbrev chunk1_W : List (Ref sig .tc) :=
  [main_v53, main_cst_5, main_v54, main_v55, main_cst_6, main_v56, main_v57, main_c_7, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v59, main_v60, main_cst_8, main_v61, main_v62, main_v63, main_v64, main_v65, main_v66, main_v67, main_v68, main_v69, main_v70, main_v71, main_v72, main_v73, main_v74, main_v75, main_call2.cst.ref, main_call2.v0.ref, main_call2.v1.ref, main_v77, main_v78, main_v79, main_v80, main_c_9, main_v81, main_v82, main_c_10, main_v83, main_v84, main_v85, main_v86, main_v87, main_cst_11, main_v88, main_v89, main_cst_12, main_v90, main_v91, main_c_13, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref, main_v93, main_v94, main_cst_14, main_v95, main_v96, main_v97, main_v98, main_v99, main_v100, main_v101, main_v102]

end Cert.ReferenceIdeal.RefRun

end
-- ==== Proof.RRunChk01.lean ====
/- TABLES over the operations of window `main_part1` (module RRunOps01): one term per operation for each side condition of
   the run, around the one proof text every window shares. -/
import proofs.«413166_j32323923870246_3_alg».proof.Proof.RRunOps01
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part1_eq (c : Dev nD) : main_part1 (F := F) c = seq chunk1 := by
  simp only [main_part1, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk1_sub : (chunk1 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub ..⟩

set_option maxRecDepth 16384 in
/-- Every operation determines its result. -/
theorem chunk1_fresh : ∀ op ∈ (chunk1 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk1 : List (HloOp τ sig (Elt F))).Forall fun op => op.fresh = ∅)

set_option maxRecDepth 16384 in
/-- Each operation writes one buffer of the list. -/
theorem chunk1_writes : (chunk1 : List (HloOp τ sig (Elt F))).Forall fun op =>
    op.writes ⊆ (chunk1_W.map (Proc.devRef (τ := τ) .tc)).toFinset :=
  ⟨writes_sub_of_mem main_v53 rfl (by decide),
    writes_sub_of_mem main_cst_5 rfl (by decide),
    writes_sub_of_mem main_v54 rfl (by decide),
    writes_sub_of_mem main_v55 rfl (by decide),
    writes_sub_of_mem main_cst_6 rfl (by decide),
    writes_sub_of_mem main_v56 rfl (by decide),
    writes_sub_of_mem main_v57 rfl (by decide),
    writes_sub_of_mem main_c_7 rfl (by decide),
    writes_sub_of_mem main_call1.cst.ref rfl (by decide),
    writes_sub_of_mem main_call1.v0.ref rfl (by decide),
    writes_sub_of_mem main_call1.v1.ref rfl (by decide),
    writes_sub_of_mem main_call1.cst_0.ref rfl (by decide),
    writes_sub_of_mem main_call1.v2.ref rfl (by decide),
    writes_sub_of_mem main_call1.v3.ref rfl (by decide),
    writes_sub_of_mem main_call1.v4.ref rfl (by decide),
    writes_sub_of_mem main_call1.v5.ref rfl (by decide),
    writes_sub_of_mem main_call1.v6.ref rfl (by decide),
    writes_sub_of_mem main_call1.v7.ref rfl (by decide),
    writes_sub_of_mem main_call1.cst_1.ref rfl (by decide),
    writes_sub_of_mem main_call1.v8.ref rfl (by decide),
    writes_sub_of_mem main_call1.cst_2.ref rfl (by decide),
    writes_sub_of_mem main_call1.v9.ref rfl (by decide),
    writes_sub_of_mem main_call1.v10.ref rfl (by decide),
    writes_sub_of_mem main_call1.v11.ref rfl (by decide),
    writes_sub_of_mem main_call1.v12.ref rfl (by decide),
    writes_sub_of_mem main_call1.cst_3.ref rfl (by decide),
    writes_sub_of_mem main_call1.v13.ref rfl (by decide),
    writes_sub_of_mem main_call1.cst_4.ref rfl (by decide),
    writes_sub_of_mem main_call1.call0.v0.ref rfl (by decide),
    writes_sub_of_mem main_call1.call0.v1.ref rfl (by decide),
    writes_sub_of_mem main_call1.call0.v2.ref rfl (by decide),
    writes_sub_of_mem main_v59 rfl (by decide),
    writes_sub_of_mem main_v60 rfl (by decide),
    writes_sub_of_mem main_cst_8 rfl (by decide),
    writes_sub_of_mem main_v61 rfl (by decide),
    writes_sub_of_mem main_v62 rfl (by decide),
    writes_sub_of_mem main_v63 rfl (by decide),
    writes_sub_of_mem main_v64 rfl (by decide),
    writes_sub_of_mem main_v65 rfl (by decide),
    writes_sub_of_mem main_v66 rfl (by decide),
    writes_sub_of_mem main_v67 rfl (by decide),
    writes_sub_of_mem main_v68 rfl (by decide),
    writes_sub_of_mem main_v69 rfl (by decide),
    writes_sub_of_mem main_v70 rfl (by decide),
    writes_sub_of_mem main_v71 rfl (by decide),
    writes_sub_of_mem main_v72 rfl (by decide),
    writes_sub_of_mem main_v73 rfl (by decide),
    writes_sub_of_mem main_v74 rfl (by decide),
    writes_sub_of_mem main_v75 rfl (by decide),
    writes_sub_of_mem main_call2.cst.ref rfl (by decide),
    writes_sub_of_mem main_call2.v0.ref rfl (by decide),
    writes_sub_of_mem main_call2.v1.ref rfl (by decide),
    writes_sub_of_mem main_v77 rfl (by decide),
    writes_sub_of_mem main_v78 rfl (by decide),
    writes_sub_of_mem main_v79 rfl (by decide),
    writes_sub_of_mem main_v80 rfl (by decide),
    writes_sub_of_mem main_c_9 rfl (by decide),
    writes_sub_of_mem main_v81 rfl (by decide),
    writes_sub_of_mem main_v82 rfl (by decide),
    writes_sub_of_mem main_c_10 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide),
    writes_sub_of_mem main_cst_11 rfl (by decide),
    writes_sub_of_mem main_v88 rfl (by decide),
    writes_sub_of_mem main_v89 rfl (by decide),
    writes_sub_of_mem main_cst_12 rfl (by decide),
    writes_sub_of_mem main_v90 rfl (by decide),
    writes_sub_of_mem main_v91 rfl (by decide),
    writes_sub_of_mem main_c_13 rfl (by decide),
    writes_sub_of_mem main_call3.cst.ref rfl (by decide),
    writes_sub_of_mem main_call3.v0.ref rfl (by decide),
    writes_sub_of_mem main_call3.v1.ref rfl (by decide),
    writes_sub_of_mem main_call3.cst_0.ref rfl (by decide),
    writes_sub_of_mem main_call3.v2.ref rfl (by decide),
    writes_sub_of_mem main_call3.v3.ref rfl (by decide),
    writes_sub_of_mem main_call3.v4.ref rfl (by decide),
    writes_sub_of_mem main_call3.v5.ref rfl (by decide),
    writes_sub_of_mem main_call3.v6.ref rfl (by decide),
    writes_sub_of_mem main_call3.v7.ref rfl (by decide),
    writes_sub_of_mem main_call3.cst_1.ref rfl (by decide),
    writes_sub_of_mem main_call3.v8.ref rfl (by decide),
    writes_sub_of_mem main_call3.cst_2.ref rfl (by decide),
    writes_sub_of_mem main_call3.v9.ref rfl (by decide),
    writes_sub_of_mem main_call3.v10.ref rfl (by decide),
    writes_sub_of_mem main_call3.v11.ref rfl (by decide),
    writes_sub_of_mem main_call3.v12.ref rfl (by decide),
    writes_sub_of_mem main_call3.cst_3.ref rfl (by decide),
    writes_sub_of_mem main_call3.v13.ref rfl (by decide),
    writes_sub_of_mem main_call3.cst_4.ref rfl (by decide),
    writes_sub_of_mem main_call3.call0.v0.ref rfl (by decide),
    writes_sub_of_mem main_call3.call0.v1.ref rfl (by decide),
    writes_sub_of_mem main_call3.call0.v2.ref rfl (by decide),
    writes_sub_of_mem main_v93 rfl (by decide),
    writes_sub_of_mem main_v94 rfl (by decide),
    writes_sub_of_mem main_cst_14 rfl (by decide),
    writes_sub_of_mem main_v95 rfl (by decide),
    writes_sub_of_mem main_v96 rfl (by decide),
    writes_sub_of_mem main_v97 rfl (by decide),
    writes_sub_of_mem main_v98 rfl (by decide),
    writes_sub_of_mem main_v99 rfl (by decide),
    writes_sub_of_mem main_v100 rfl (by decide),
    writes_sub_of_mem main_v101 rfl (by decide),
    writes_sub_of_mem main_v102 rfl (by decide)⟩

/-- A buffer the window does not write keeps its contents through it. -/
theorem chunk1_keep (V : Valuation τ sig (Elt F)) (r : Ref sig .tc) (h : r ∉ chunk1_W) :
    after chunk1 V (Proc.devRef .tc r) = V (Proc.devRef .tc r) :=
  after_of_writes_sub chunk1 V chunk1_writes h

end Cert.ReferenceIdeal.RefRun

end
-- ==== Proof.RRunOps02.lean ====
/- TABLES transcribed from proof/ReferenceIdeal.lean: window `main_part2` of the reference's @main as a list of host
   operations (108: 169 … 276 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part2`, in order, the calls unfolded. -/
abbrev chunk2 : List (HloOp τ sig (Elt F)) :=
  [ StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v103 main_v104 (mulf : (⟨S50000x128, .f32⟩ : BufTy).Contents (Elt F) → (⟨S50000x128, .f32⟩ : BufTy).Contents (Elt F) → (⟨S50000x128, .f32⟩ : BufTy).Contents (Elt F)),
    StableHlo.unary main_v22 main_v105 ((extractStridedSlice S1x128 ![1, 0] · slices_S2x128_S1x128_1_0) : (⟨S2x128, .f32⟩ : BufTy).Contents (Elt F) → (⟨S1x128, .f32⟩ : BufTy).Contents (Elt F)),
    StableHlo.reshape main_v105 main_v106 rfl shapeCasts_S1x128_S128,
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v108 main_v109 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v109 : StableHlo.TRef sig ⟨S50000x128, .f32⟩) main_call4.v0 main_call4.v1 maximumf,
    StableHlo.unary main_v14 main_v111 ((transpose S128x128 [1, 0] · transposes_S128x128_S128x128_1_0) : (⟨S128x128, .f32⟩ : BufTy).Contents (Elt F) → (⟨S128x128, .f32⟩ : BufTy).Contents (Elt F)),
    StableHlo.binary main_v110 main_v111 main_v112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_15 (constant S_ .f32 0x00000000#32),
    StableHlo.binary main_v112 main_cst_15 main_v113 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v113 main_v114 (broadcastInDim S50000x1 ![0] bcast_S50000_S50000x1_0 : (⟨S50000, .f32⟩ : BufTy).Contents (Elt F) → (⟨S50000x1, .f32⟩ : BufTy).Contents (Elt F)),
    StableHlo.nullary main_cst_16 (constant S_ .f32 0x43000000#32),
    StableHlo.unary main_cst_16 main_v115 (broadcastInDim S50000x1 ![] bcast_S_S50000x1 : (⟨S_, .f32⟩ : BufTy).Contents (Elt F) → (⟨S50000x1, .f32⟩ : BufTy).Contents (Elt F)),
    StableHlo.binary main_v114 main_v115 main_v116 (Host.divf : (⟨S50000x1, .f32⟩ : BufTy).Contents (Elt F) → (⟨S50000x1, .f32⟩ : BufTy).Contents (Elt F) → (⟨S50000x1, .f32⟩ : BufTy).Contents (Elt F)),
    StableHlo.nullary main_c_17 (constantI S_ 32 0#32),
    StableHlo.TRef.nullary main_call5.cst (constant S_ .f32 0x00000000#32),
    StableHlo.TRef.binary (.of main_v112 : StableHlo.TRef sig ⟨S50000x128, .f32⟩) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v112 : StableHlo.TRef sig ⟨S50000x128, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary (main_call5.cst_4 : StableHlo.TRef sig ⟨S_, .f32⟩) main_call5.call0.v0 id,
    StableHlo.TRef.unary main_call5.call0.v0 main_call5.call0.v1 (broadcastInDim S50000x1 ![] bcast_S_S50000x1),
    StableHlo.TRef.ternary (main_call5.v13 : StableHlo.TRef sig ⟨S_, .i1⟩) (main_call5.v12 : StableHlo.TRef sig ⟨S50000x1, .f32⟩) main_call5.call0.v1 main_call5.call0.v2 (fun p a b => select (broadcastInDim S50000x1 ![] bcast_S_S50000x1 p) a b),
    StableHlo.unary main_v116 main_v118 (broadcastInDim S50000x128 ![0, 1] bcast_S50000x1_S50000x128_0_1 : (⟨S50000x1, .f32⟩ : BufTy).Contents (Elt F) → (⟨S50000x128, .f32⟩ : BufTy).Contents (Elt F)),
    StableHlo.binary main_v112 main_v118 main_v119 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v120 (broadcastInDim S50000x1 ![] bcast_S_S50000x1 : (⟨S_, .f32⟩ : BufTy).Contents (Elt F) → (⟨S50000x1, .f32⟩ : BufTy).Contents (Elt F)),
    StableHlo.binary main_v117 main_v120 main_v121 (addf : (⟨S50000x1, .f32⟩ : BufTy).Contents (Elt F) → (⟨S50000x1, .f32⟩ : BufTy).Contents (Elt F) → (⟨S50000x1, .f32⟩ : BufTy).Contents (Elt F)),
    StableHlo.unary main_v121 main_v122 (Host.sqrt : (⟨S50000x1, .f32⟩ : BufTy).Contents (Elt F) → (⟨S50000x1, .f32⟩ : BufTy).Contents (Elt F)),
    StableHlo.unary main_v122 main_v123 (broadcastInDim S50000x128 ![0, 1] bcast_S50000x1_S50000x128_0_1 : (⟨S50000x1, .f32⟩ : BufTy).Contents (Elt F) → (⟨S50000x128, .f32⟩ : BufTy).Contents (Elt F)),
    StableHlo.binary main_v119 main_v123 main_v124 (Host.divf : (⟨S50000x128, .f32⟩ : BufTy).Contents (Elt F) → (⟨S50000x128, .f32⟩ : BufTy).Contents (Elt F) → (⟨S50000x128, .f32⟩ : BufTy).Contents (Elt F)),
    StableHlo.unary main_v16 main_v125 ((extractStridedSlice S1x128 ![0, 0] · slices_S2x128_S1x128_0_0) : (⟨S2x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_v16 main_v130 ((extractStridedSlice S1x128 ![1, 0] · slices_S2x128_S1x128_1_0) : (⟨S2x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v133 main_v134 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v134 : StableHlo.TRef sig ⟨S50000x128, .f32⟩) main_call6.v0 main_call6.v1 maximumf,
    StableHlo.unary main_v18 main_v136 ((transpose S128x128 [1, 0] · transposes_S128x128_S128x128_1_0) : (⟨S128x128, .f32⟩ : BufTy).Contents (Elt F) → (⟨S128x128, .f32⟩ : BufTy).Contents (Elt F)),
    StableHlo.binary main_v135 main_v136 main_v137 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_19 (constant S_ .f32 0x00000000#32),
    StableHlo.binary main_v137 main_cst_19 main_v138 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v138 main_v139 (broadcastInDim S50000x1 ![0] bcast_S50000_S50000x1_0 : (⟨S50000, .f32⟩ : BufTy).Contents (Elt F) → (⟨S50000x1, .f32⟩ : BufTy).Contents (Elt F)),
    StableHlo.nullary main_cst_20 (constant S_ .f32 0x43000000#32),
    StableHlo.unary main_cst_20 main_v140 (broadcastInDim S50000x1 ![] bcast_S_S50000x1 : (⟨S_, .f32⟩ : BufTy).Contents (Elt F) → (⟨S50000x1, .f32⟩ : BufTy).Contents (Elt F)),
    StableHlo.binary main_v139 main_v140 main_v141 (Host.divf : (⟨S50000x1, .f32⟩ : BufTy).Contents (Elt F) → (⟨S50000x1, .f32⟩ : BufTy).Contents (Elt F) → (⟨S50000x1, .f32⟩ : BufTy).Contents (Elt F)),
    StableHlo.nullary main_c_21 (constantI S_ 32 0#32),
    StableHlo.TRef.nullary main_call7.cst (constant S_ .f32 0x00000000#32),
    StableHlo.TRef.binary (.of main_v137 : StableHlo.TRef sig ⟨S50000x128, .f32⟩) main_call7.cst main_call7.v0 (fun x v => Host.reduceAdd x v reducesTo_S50000x128_S50000_d1 h_S_),
    StableHlo.TRef.unary main_call7.v0 main_call7.v1 (broadcastInDim S50000x1 ![0] bcast_S50000_S50000x1_0),
    StableHlo.TRef.nullary main_call7.cst_0 (constant S_ .f32 0x43000000#32),
    StableHlo.TRef.unary main_call7.cst_0 main_call7.v2 (broadcastInDim S50000x1 ![] bcast_S_S50000x1),
    StableHlo.TRef.binary main_call7.v1 main_call7.v2 main_call7.v3 Host.divf,
    StableHlo.TRef.unary main_call7.v3 main_call7.v4 (broadcastInDim S50000x128 ![0, 1] bcast_S50000x1_S50000x128_0_1),
    StableHlo.TRef.binary (.of main_v137 : StableHlo.TRef sig ⟨S50000x128, .f32⟩) main_call7.v4 main_call7.v5 subf,
    StableHlo.TRef.binary main_call7.v5 main_call7.v5 main_call7.v6 mulf,
    StableHlo.TRef.unary (.of main_c_21 : StableHlo.TRef sig ⟨S_, .i32⟩) main_call7.v7 (sitofp .f32),
    StableHlo.TRef.nullary main_call7.cst_1 (constant S_ .f32 0x43000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S50000_d1 h_S_),
    StableHlo.TRef.unary main_call7.v9 main_call7.v10 (broadcastInDim S50000x1 ![0] bcast_S50000_S50000x1_0),
    StableHlo.TRef.unary main_call7.v8 main_call7.v11 (broadcastInDim S50000x1 ![] bcast_S_S50000x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary (main_call7.cst_4 : StableHlo.TRef sig ⟨S_, .f32⟩) main_call7.call0.v0 id,
    StableHlo.TRef.unary main_call7.call0.v0 main_call7.call0.v1 (broadcastInDim S50000x1 ![] bcast_S_S50000x1),
    StableHlo.TRef.ternary (main_call7.v13 : StableHlo.TRef sig ⟨S_, .i1⟩) (main_call7.v12 : StableHlo.TRef sig ⟨S50000x1, .f32⟩) main_call7.call0.v1 main_call7.call0.v2 (fun p a b => select (broadcastInDim S50000x1 ![] bcast_S_S50000x1 p) a b),
    StableHlo.unary main_v141 main_v143 (broadcastInDim S50000x128 ![0, 1] bcast_S50000x1_S50000x128_0_1 : (⟨S50000x1, .f32⟩ : BufTy).Contents (Elt F) → (⟨S50000x128, .f32⟩ : BufTy).Contents (Elt F)),
    StableHlo.binary main_v137 main_v143 main_v144 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v145 (broadcastInDim S50000x1 ![] bcast_S_S50000x1 : (⟨S_, .f32⟩ : BufTy).Contents (Elt F) → (⟨S50000x1, .f32⟩ : BufTy).Contents (Elt F)),
    StableHlo.binary main_v142 main_v145 main_v146 (addf : (⟨S50000x1, .f32⟩ : BufTy).Contents (Elt F) → (⟨S50000x1, .f32⟩ : BufTy).Contents (Elt F) → (⟨S50000x1, .f32⟩ : BufTy).Contents (Elt F)),
    StableHlo.unary main_v146 main_v147 (Host.sqrt : (⟨S50000x1, .f32⟩ : BufTy).Contents (Elt F) → (⟨S50000x1, .f32⟩ : BufTy).Contents (Elt F)),
    StableHlo.unary main_v147 main_v148 (broadcastInDim S50000x128 ![0, 1] bcast_S50000x1_S50000x128_0_1 : (⟨S50000x1, .f32⟩ : BufTy).Contents (Elt F) → (⟨S50000x128, .f32⟩ : BufTy).Contents (Elt F)),
    StableHlo.binary main_v144 main_v148 main_v149 (Host.divf : (⟨S50000x128, .f32⟩ : BufTy).Contents (Elt F) → (⟨S50000x128, .f32⟩ : BufTy).Contents (Elt F) → (⟨S50000x128, .f32⟩ : BufTy).Contents (Elt F)),
    StableHlo.unary main_v20 main_v150 ((extractStridedSlice S1x128 ![0, 0] · slices_S2x128_S1x128_0_0) : (⟨S2x128, .f32⟩ : BufTy).Contents (Elt F) → (⟨S1x128, .f32⟩ : BufTy).Contents (Elt F)),
    StableHlo.reshape main_v150 main_v151 rfl shapeCasts_S1x128_S128,
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v153 main_v154 (mulf : (⟨S50000x128, .f32⟩ : BufTy).Contents (Elt F) → (⟨S50000x128, .f32⟩ : BufTy).Contents (Elt F) → (⟨S50000x128, .f32⟩ : BufTy).Contents (Elt F)) ]

/-- The buffers they write, in order. -/
abbrev chunk2_W : List (Ref sig .tc) :=
  [main_v103, main_v104, main_v105, main_v106, main_v107, main_v108, main_v109, main_call4.cst.ref, main_call4.v0.ref, main_call4.v1.ref, main_v111, main_v112, main_cst_15, main_v113, main_v114, main_cst_16, main_v115, main_v116, main_c_17, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.v12.ref, main_call5.cst_3.ref, main_call5.v13.ref, main_call5.cst_4.ref, main_call5.call0.v0.ref, main_call5.call0.v1.ref, main_call5.call0.v2.ref, main_v118, main_v119, main_cst_18, main_v120, main_v121, main_v122, main_v123, main_v124, main_v125, main_v126, main_v127, main_v128, main_v129, main_v130, main_v131, main_v132, main_v133, main_v134, main_call6.cst.ref, main_call6.v0.ref, main_call6.v1.ref, main_v136, main_v137, main_cst_19, main_v138, main_v139, main_cst_20, main_v140, main_v141, main_c_21, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.v12.ref, main_call7.cst_3.ref, main_call7.v13.ref, main_call7.cst_4.ref, main_call7.call0.v0.ref, main_call7.call0.v1.ref, main_call7.call0.v2.ref, main_v143, main_v144, main_cst_22, main_v145, main_v146, main_v147, main_v148, main_v149, main_v150, main_v151, main_v152, main_v153, main_v154]

end Cert.ReferenceIdeal.RefRun

end
-- ==== Proof.RRunChk02.lean ====
/- TABLES over the operations of window `main_part2` (module RRunOps02): one term per operation for each side condition of
   the run, around the one proof text every window shares. -/
import proofs.«413166_j32323923870246_3_alg».proof.Proof.RRunOps02
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part2_eq (c : Dev nD) : main_part2 (F := F) c = seq chunk2 := by
  simp only [main_part2, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk2_sub : (chunk2 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub ..⟩

set_option maxRecDepth 16384 in
/-- Every operation determines its result. -/
theorem chunk2_fresh : ∀ op ∈ (chunk2 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk2 : List (HloOp τ sig (Elt F))).Forall fun op => op.fresh = ∅)

set_option maxRecDepth 16384 in
/-- Each operation writes one buffer of the list. -/
theorem chunk2_writes : (chunk2 : List (HloOp τ sig (Elt F))).Forall fun op =>
    op.writes ⊆ (chunk2_W.map (Proc.devRef (τ := τ) .tc)).toFinset :=
  ⟨writes_sub_of_mem main_v103 rfl (by decide),
    writes_sub_of_mem main_v104 rfl (by decide),
    writes_sub_of_mem main_v105 rfl (by decide),
    writes_sub_of_mem main_v106 rfl (by decide),
    writes_sub_of_mem main_v107 rfl (by decide),
    writes_sub_of_mem main_v108 rfl (by decide),
    writes_sub_of_mem main_v109 rfl (by decide),
    writes_sub_of_mem main_call4.cst.ref rfl (by decide),
    writes_sub_of_mem main_call4.v0.ref rfl (by decide),
    writes_sub_of_mem main_call4.v1.ref rfl (by decide),
    writes_sub_of_mem main_v111 rfl (by decide),
    writes_sub_of_mem main_v112 rfl (by decide),
    writes_sub_of_mem main_cst_15 rfl (by decide),
    writes_sub_of_mem main_v113 rfl (by decide),
    writes_sub_of_mem main_v114 rfl (by decide),
    writes_sub_of_mem main_cst_16 rfl (by decide),
    writes_sub_of_mem main_v115 rfl (by decide),
    writes_sub_of_mem main_v116 rfl (by decide),
    writes_sub_of_mem main_c_17 rfl (by decide),
    writes_sub_of_mem main_call5.cst.ref rfl (by decide),
    writes_sub_of_mem main_call5.v0.ref rfl (by decide),
    writes_sub_of_mem main_call5.v1.ref rfl (by decide),
    writes_sub_of_mem main_call5.cst_0.ref rfl (by decide),
    writes_sub_of_mem main_call5.v2.ref rfl (by decide),
    writes_sub_of_mem main_call5.v3.ref rfl (by decide),
    writes_sub_of_mem main_call5.v4.ref rfl (by decide),
    writes_sub_of_mem main_call5.v5.ref rfl (by decide),
    writes_sub_of_mem main_call5.v6.ref rfl (by decide),
    writes_sub_of_mem main_call5.v7.ref rfl (by decide),
    writes_sub_of_mem main_call5.cst_1.ref rfl (by decide),
    writes_sub_of_mem main_call5.v8.ref rfl (by decide),
    writes_sub_of_mem main_call5.cst_2.ref rfl (by decide),
    writes_sub_of_mem main_call5.v9.ref rfl (by decide),
    writes_sub_of_mem main_call5.v10.ref rfl (by decide),
    writes_sub_of_mem main_call5.v11.ref rfl (by decide),
    writes_sub_of_mem main_call5.v12.ref rfl (by decide),
    writes_sub_of_mem main_call5.cst_3.ref rfl (by decide),
    writes_sub_of_mem main_call5.v13.ref rfl (by decide),
    writes_sub_of_mem main_call5.cst_4.ref rfl (by decide),
    writes_sub_of_mem main_call5.call0.v0.ref rfl (by decide),
    writes_sub_of_mem main_call5.call0.v1.ref rfl (by decide),
    writes_sub_of_mem main_call5.call0.v2.ref rfl (by decide),
    writes_sub_of_mem main_v118 rfl (by decide),
    writes_sub_of_mem main_v119 rfl (by decide),
    writes_sub_of_mem main_cst_18 rfl (by decide),
    writes_sub_of_mem main_v120 rfl (by decide),
    writes_sub_of_mem main_v121 rfl (by decide),
    writes_sub_of_mem main_v122 rfl (by decide),
    writes_sub_of_mem main_v123 rfl (by decide),
    writes_sub_of_mem main_v124 rfl (by decide),
    writes_sub_of_mem main_v125 rfl (by decide),
    writes_sub_of_mem main_v126 rfl (by decide),
    writes_sub_of_mem main_v127 rfl (by decide),
    writes_sub_of_mem main_v128 rfl (by decide),
    writes_sub_of_mem main_v129 rfl (by decide),
    writes_sub_of_mem main_v130 rfl (by decide),
    writes_sub_of_mem main_v131 rfl (by decide),
    writes_sub_of_mem main_v132 rfl (by decide),
    writes_sub_of_mem main_v133 rfl (by decide),
    writes_sub_of_mem main_v134 rfl (by decide),
    writes_sub_of_mem main_call6.cst.ref rfl (by decide),
    writes_sub_of_mem main_call6.v0.ref rfl (by decide),
    writes_sub_of_mem main_call6.v1.ref rfl (by decide),
    writes_sub_of_mem main_v136 rfl (by decide),
    writes_sub_of_mem main_v137 rfl (by decide),
    writes_sub_of_mem main_cst_19 rfl (by decide),
    writes_sub_of_mem main_v138 rfl (by decide),
    writes_sub_of_mem main_v139 rfl (by decide),
    writes_sub_of_mem main_cst_20 rfl (by decide),
    writes_sub_of_mem main_v140 rfl (by decide),
    writes_sub_of_mem main_v141 rfl (by decide),
    writes_sub_of_mem main_c_21 rfl (by decide),
    writes_sub_of_mem main_call7.cst.ref rfl (by decide),
    writes_sub_of_mem main_call7.v0.ref rfl (by decide),
    writes_sub_of_mem main_call7.v1.ref rfl (by decide),
    writes_sub_of_mem main_call7.cst_0.ref rfl (by decide),
    writes_sub_of_mem main_call7.v2.ref rfl (by decide),
    writes_sub_of_mem main_call7.v3.ref rfl (by decide),
    writes_sub_of_mem main_call7.v4.ref rfl (by decide),
    writes_sub_of_mem main_call7.v5.ref rfl (by decide),
    writes_sub_of_mem main_call7.v6.ref rfl (by decide),
    writes_sub_of_mem main_call7.v7.ref rfl (by decide),
    writes_sub_of_mem main_call7.cst_1.ref rfl (by decide),
    writes_sub_of_mem main_call7.v8.ref rfl (by decide),
    writes_sub_of_mem main_call7.cst_2.ref rfl (by decide),
    writes_sub_of_mem main_call7.v9.ref rfl (by decide),
    writes_sub_of_mem main_call7.v10.ref rfl (by decide),
    writes_sub_of_mem main_call7.v11.ref rfl (by decide),
    writes_sub_of_mem main_call7.v12.ref rfl (by decide),
    writes_sub_of_mem main_call7.cst_3.ref rfl (by decide),
    writes_sub_of_mem main_call7.v13.ref rfl (by decide),
    writes_sub_of_mem main_call7.cst_4.ref rfl (by decide),
    writes_sub_of_mem main_call7.call0.v0.ref rfl (by decide),
    writes_sub_of_mem main_call7.call0.v1.ref rfl (by decide),
    writes_sub_of_mem main_call7.call0.v2.ref rfl (by decide),
    writes_sub_of_mem main_v143 rfl (by decide),
    writes_sub_of_mem main_v144 rfl (by decide),
    writes_sub_of_mem main_cst_22 rfl (by decide),
    writes_sub_of_mem main_v145 rfl (by decide),
    writes_sub_of_mem main_v146 rfl (by decide),
    writes_sub_of_mem main_v147 rfl (by decide),
    writes_sub_of_mem main_v148 rfl (by decide),
    writes_sub_of_mem main_v149 rfl (by decide),
    writes_sub_of_mem main_v150 rfl (by decide),
    writes_sub_of_mem main_v151 rfl (by decide),
    writes_sub_of_mem main_v152 rfl (by decide),
    writes_sub_of_mem main_v153 rfl (by decide),
    writes_sub_of_mem main_v154 rfl (by decide)⟩

/-- A buffer the window does not write keeps its contents through it. -/
theorem chunk2_keep (V : Valuation τ sig (Elt F)) (r : Ref sig .tc) (h : r ∉ chunk2_W) :
    after chunk2 V (Proc.devRef .tc r) = V (Proc.devRef .tc r) :=
  after_of_writes_sub chunk2 V chunk2_writes h

end Cert.ReferenceIdeal.RefRun

end
-- ==== Proof.RRunOps03.lean ====
/- TABLES transcribed from proof/ReferenceIdeal.lean: window `main_part3` of the reference's @main as a list of host
   operations (62: 277 … 338 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part3`, in order, the calls unfolded. -/
abbrev chunk3 : List (HloOp τ sig (Elt F)) :=
  [ StableHlo.unary main_v20 main_v155 ((extractStridedSlice S1x128 ![1, 0] · slices_S2x128_S1x128_1_0) : (⟨S2x128, .f32⟩ : BufTy).Contents (Elt F) → (⟨S1x128, .f32⟩ : BufTy).Contents (Elt F)),
    StableHlo.reshape main_v155 main_v156 rfl shapeCasts_S1x128_S128,
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v154 main_v158 main_v159 (addf : (⟨S50000x128, .f32⟩ : BufTy).Contents (Elt F) → (⟨S50000x128, .f32⟩ : BufTy).Contents (Elt F) → (⟨S50000x128, .f32⟩ : BufTy).Contents (Elt F)),
    StableHlo.binary main_v159 main_v0 main_v160 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v160 : StableHlo.TRef sig ⟨S50000x128, .f32⟩) main_call8.v0 main_call8.v1 maximumf,
    StableHlo.unary main_arg14 main_v162 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v162 main_v163 rfl shapeCasts_S1x128x128_S128x128,
    StableHlo.unary main_v163 main_v164 ((transpose S128x128 [1, 0] · transposes_S128x128_S128x128_1_0) : (⟨S128x128, .f32⟩ : BufTy).Contents (Elt F) → (⟨S128x128, .f32⟩ : BufTy).Contents (Elt F)),
    StableHlo.binary main_v161 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg25 main_v166 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v166 main_v167 rfl shapeCasts_S1x50000_S50000,
    StableHlo.unary main_arg26 main_v168 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v168 main_v169 rfl shapeCasts_S1x50000_S50000,
    StableHlo.nullary main_c_23 (constantI S_ 32 0#32),
    StableHlo.unary main_c_23 main_v170 (broadcastInDim S50000 ![] bcast_S_S50000 : (⟨S_, .i32⟩ : BufTy).Contents (Elt F) → (⟨S50000, .i32⟩ : BufTy).Contents (Elt F)),
    StableHlo.binary main_v169 main_v170 main_v171 (cmpi .slt : (⟨S50000, .i32⟩ : BufTy).Contents (Elt F) → (⟨S50000, .i32⟩ : BufTy).Contents (Elt F) → (⟨S50000, .i1⟩ : BufTy).Contents (Elt F)),
    StableHlo.nullary main_c_24 (constantI S_ 32 50000#32),
    StableHlo.unary main_c_24 main_v172 (broadcastInDim S50000 ![] bcast_S_S50000 : (⟨S_, .i32⟩ : BufTy).Contents (Elt F) → (⟨S50000, .i32⟩ : BufTy).Contents (Elt F)),
    StableHlo.binary main_v169 main_v172 main_v173 (addi : (⟨S50000, .i32⟩ : BufTy).Contents (Elt F) → (⟨S50000, .i32⟩ : BufTy).Contents (Elt F) → (⟨S50000, .i32⟩ : BufTy).Contents (Elt F)),
    StableHlo.ternary main_v171 main_v173 main_v169 main_v174 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v174 main_v175 (broadcastInDim S50000x1 ![0] bcast_S50000_S50000x1_0 : (⟨S50000, .i32⟩ : BufTy).Contents (Elt F) → (⟨S50000x1, .i32⟩ : BufTy).Contents (Elt F)),
    StableHlo.binary main_v161 main_v175 main_v176 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v177 ((extractStridedSlice S1x1x128x128 ![0, 0, 0, 0] · slices_S4x12x128x128_S1x1x128x128_0_0_0_0) : (⟨S4x12x128x128, .f32⟩ : BufTy).Contents (Elt F) → (⟨S1x1x128x128, .f32⟩ : BufTy).Contents (Elt F)),
    StableHlo.reshape main_v177 main_v178 rfl shapeCasts_S1x1x128x128_S128x128,
    StableHlo.unary main_v178 main_v179 ((transpose S128x128 [1, 0] · transposes_S128x128_S128x128_1_0) : (⟨S128x128, .f32⟩ : BufTy).Contents (Elt F) → (⟨S128x128, .f32⟩ : BufTy).Contents (Elt F)),
    StableHlo.binary main_v176 main_v179 main_v180 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_25 (constantI S_ 32 0#32),
    StableHlo.unary main_c_25 main_v181 (broadcastInDim S50000 ![] bcast_S_S50000 : (⟨S_, .i32⟩ : BufTy).Contents (Elt F) → (⟨S50000, .i32⟩ : BufTy).Contents (Elt F)),
    StableHlo.binary main_v167 main_v181 main_v182 (cmpi .slt : (⟨S50000, .i32⟩ : BufTy).Contents (Elt F) → (⟨S50000, .i32⟩ : BufTy).Contents (Elt F) → (⟨S50000, .i1⟩ : BufTy).Contents (Elt F)),
    StableHlo.nullary main_c_26 (constantI S_ 32 50000#32),
    StableHlo.unary main_c_26 main_v183 (broadcastInDim S50000 ![] bcast_S_S50000 : (⟨S_, .i32⟩ : BufTy).Contents (Elt F) → (⟨S50000, .i32⟩ : BufTy).Contents (Elt F)),
    StableHlo.binary main_v167 main_v183 main_v184 (addi : (⟨S50000, .i32⟩ : BufTy).Contents (Elt F) → (⟨S50000, .i32⟩ : BufTy).Contents (Elt F) → (⟨S50000, .i32⟩ : BufTy).Contents (Elt F)),
    StableHlo.ternary main_v182 main_v184 main_v167 main_v185 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v185 main_v186 (broadcastInDim S50000x1 ![0] bcast_S50000_S50000x1_0 : (⟨S50000, .i32⟩ : BufTy).Contents (Elt F) → (⟨S50000x1, .i32⟩ : BufTy).Contents (Elt F)),
    StableHlo.ternary main_v165 main_v186 main_v180 main_v187 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v188 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v188 main_v189 rfl shapeCasts_S1x50000_S50000,
    StableHlo.unary main_arg26 main_v190 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v190 main_v191 rfl shapeCasts_S1x50000_S50000,
    StableHlo.nullary main_c_27 (constantI S_ 32 0#32),
    StableHlo.unary main_c_27 main_v192 (broadcastInDim S50000 ![] bcast_S_S50000 : (⟨S_, .i32⟩ : BufTy).Contents (Elt F) → (⟨S50000, .i32⟩ : BufTy).Contents (Elt F)),
    StableHlo.binary main_v191 main_v192 main_v193 (cmpi .slt : (⟨S50000, .i32⟩ : BufTy).Contents (Elt F) → (⟨S50000, .i32⟩ : BufTy).Contents (Elt F) → (⟨S50000, .i1⟩ : BufTy).Contents (Elt F)),
    StableHlo.nullary main_c_28 (constantI S_ 32 50000#32),
    StableHlo.unary main_c_28 main_v194 (broadcastInDim S50000 ![] bcast_S_S50000 : (⟨S_, .i32⟩ : BufTy).Contents (Elt F) → (⟨S50000, .i32⟩ : BufTy).Contents (Elt F)),
    StableHlo.binary main_v191 main_v194 main_v195 (addi : (⟨S50000, .i32⟩ : BufTy).Contents (Elt F) → (⟨S50000, .i32⟩ : BufTy).Contents (Elt F) → (⟨S50000, .i32⟩ : BufTy).Contents (Elt F)),
    StableHlo.ternary main_v193 main_v195 main_v191 main_v196 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v196 main_v197 (broadcastInDim S50000x1 ![0] bcast_S50000_S50000x1_0 : (⟨S50000, .i32⟩ : BufTy).Contents (Elt F) → (⟨S50000x1, .i32⟩ : BufTy).Contents (Elt F)),
    StableHlo.binary main_v161 main_v197 main_v198 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v199 ((extractStridedSlice S1x1x128x128 ![0, 1, 0, 0] · slices_S4x12x128x128_S1x1x128x128_0_1_0_0) : (⟨S4x12x128x128, .f32⟩ : BufTy).Contents (Elt F) → (⟨S1x1x128x128, .f32⟩ : BufTy).Contents (Elt F)),
    StableHlo.reshape main_v199 main_v200 rfl shapeCasts_S1x1x128x128_S128x128,
    StableHlo.unary main_v200 main_v201 ((transpose S128x128 [1, 0] · transposes_S128x128_S128x128_1_0) : (⟨S128x128, .f32⟩ : BufTy).Contents (Elt F) → (⟨S128x128, .f32⟩ : BufTy).Contents (Elt F)),
    StableHlo.binary main_v198 main_v201 main_v202 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_29 (constantI S_ 32 0#32),
    StableHlo.unary main_c_29 main_v203 (broadcastInDim S50000 ![] bcast_S_S50000 : (⟨S_, .i32⟩ : BufTy).Contents (Elt F) → (⟨S50000, .i32⟩ : BufTy).Contents (Elt F)),
    StableHlo.binary main_v189 main_v203 main_v204 (cmpi .slt : (⟨S50000, .i32⟩ : BufTy).Contents (Elt F) → (⟨S50000, .i32⟩ : BufTy).Contents (Elt F) → (⟨S50000, .i1⟩ : BufTy).Contents (Elt F)),
    StableHlo.nullary main_c_30 (constantI S_ 32 50000#32),
    StableHlo.unary main_c_30 main_v205 (broadcastInDim S50000 ![] bcast_S_S50000 : (⟨S_, .i32⟩ : BufTy).Contents (Elt F) → (⟨S50000, .i32⟩ : BufTy).Contents (Elt F)),
    StableHlo.binary main_v189 main_v205 main_v206 (addi : (⟨S50000, .i32⟩ : BufTy).Contents (Elt F) → (⟨S50000, .i32⟩ : BufTy).Contents (Elt F) → (⟨S50000, .i32⟩ : BufTy).Contents (Elt F)) ]

/-- The buffers they write, in order. -/
abbrev chunk3_W : List (Ref sig .tc) :=
  [main_v155, main_v156, main_v157, main_v158, main_v159, main_v160, main_call8.cst.ref, main_call8.v0.ref, main_call8.v1.ref, main_v162, main_v163, main_v164, main_v165, main_v166, main_v167, main_v168, main_v169, main_c_23, main_v170, main_v171, main_c_24, main_v172, main_v173, main_v174, main_v175, main_v176, main_v177, main_v178, main_v179, main_v180, main_c_25, main_v181, main_v182, main_c_26, main_v183, main_v184, main_v185, main_v186, main_v187, main_v188, main_v189, main_v190, main_v191, main_c_27, main_v192, main_v193, main_c_28, main_v194, main_v195, main_v196, main_v197, main_v198, main_v199, main_v200, main_v201, main_v202, main_c_29, main_v203, main_v204, main_c_30, main_v205, main_v206]

end Cert.ReferenceIdeal.RefRun

end
-- ==== Proof.RRunChk03.lean ====
/- TABLES over the operations of window `main_part3` (module RRunOps03): one term per operation for each side condition of
   the run, around the one proof text every window shares. -/
import proofs.«413166_j32323923870246_3_alg».proof.Proof.RRunOps03
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part3_eq (c : Dev nD) : main_part3 (F := F) c = seq chunk3 := by
  simp only [main_part3, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk3_sub : (chunk3 : List (HloOp τ sig (Elt F))).Forall fun op => op.bufs ⊆ tcRefs τ sig :=
  ⟨unary_bufs_sub .., reshape_bufs_sub .., unary_bufs_sub .., unary_bufs_sub .., binary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub ..⟩

set_option maxRecDepth 16384 in
/-- Every operation determines its result. -/
theorem chunk3_fresh : ∀ op ∈ (chunk3 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk3 : List (HloOp τ sig (Elt F))).Forall fun op => op.fresh = ∅)

set_option maxRecDepth 16384 in
/-- Each operation writes one buffer of the list. -/
theorem chunk3_writes : (chunk3 : List (HloOp τ sig (Elt F))).Forall fun op =>
    op.writes ⊆ (chunk3_W.map (Proc.devRef (τ := τ) .tc)).toFinset :=
  ⟨writes_sub_of_mem main_v155 rfl (by decide),
    writes_sub_of_mem main_v156 rfl (by decide),
    writes_sub_of_mem main_v157 rfl (by decide),
    writes_sub_of_mem main_v158 rfl (by decide),
    writes_sub_of_mem main_v159 rfl (by decide),
    writes_sub_of_mem main_v160 rfl (by decide),
    writes_sub_of_mem main_call8.cst.ref rfl (by decide),
    writes_sub_of_mem main_call8.v0.ref rfl (by decide),
    writes_sub_of_mem main_call8.v1.ref rfl (by decide),
    writes_sub_of_mem main_v162 rfl (by decide),
    writes_sub_of_mem main_v163 rfl (by decide),
    writes_sub_of_mem main_v164 rfl (by decide),
    writes_sub_of_mem main_v165 rfl (by decide),
    writes_sub_of_mem main_v166 rfl (by decide),
    writes_sub_of_mem main_v167 rfl (by decide),
    writes_sub_of_mem main_v168 rfl (by decide),
    writes_sub_of_mem main_v169 rfl (by decide),
    writes_sub_of_mem main_c_23 rfl (by decide),
    writes_sub_of_mem main_v170 rfl (by decide),
    writes_sub_of_mem main_v171 rfl (by decide),
    writes_sub_of_mem main_c_24 rfl (by decide),
    writes_sub_of_mem main_v172 rfl (by decide),
    writes_sub_of_mem main_v173 rfl (by decide),
    writes_sub_of_mem main_v174 rfl (by decide),
    writes_sub_of_mem main_v175 rfl (by decide),
    writes_sub_of_mem main_v176 rfl (by decide),
    writes_sub_of_mem main_v177 rfl (by decide),
    writes_sub_of_mem main_v178 rfl (by decide),
    writes_sub_of_mem main_v179 rfl (by decide),
    writes_sub_of_mem main_v180 rfl (by decide),
    writes_sub_of_mem main_c_25 rfl (by decide),
    writes_sub_of_mem main_v181 rfl (by decide),
    writes_sub_of_mem main_v182 rfl (by decide),
    writes_sub_of_mem main_c_26 rfl (by decide),
    writes_sub_of_mem main_v183 rfl (by decide),
    writes_sub_of_mem main_v184 rfl (by decide),
    writes_sub_of_mem main_v185 rfl (by decide),
    writes_sub_of_mem main_v186 rfl (by decide),
    writes_sub_of_mem main_v187 rfl (by decide),
    writes_sub_of_mem main_v188 rfl (by decide),
    writes_sub_of_mem main_v189 rfl (by decide),
    writes_sub_of_mem main_v190 rfl (by decide),
    writes_sub_of_mem main_v191 rfl (by decide),
    writes_sub_of_mem main_c_27 rfl (by decide),
    writes_sub_of_mem main_v192 rfl (by decide),
    writes_sub_of_mem main_v193 rfl (by decide),
    writes_sub_of_mem main_c_28 rfl (by decide),
    writes_sub_of_mem main_v194 rfl (by decide),
    writes_sub_of_mem main_v195 rfl (by decide),
    writes_sub_of_mem main_v196 rfl (by decide),
    writes_sub_of_mem main_v197 rfl (by decide),
    writes_sub_of_mem main_v198 rfl (by decide),
    writes_sub_of_mem main_v199 rfl (by decide),
    writes_sub_of_mem main_v200 rfl (by decide),
    writes_sub_of_mem main_v201 rfl (by decide),
    writes_sub_of_mem main_v202 rfl (by decide),
    writes_sub_of_mem main_c_29 rfl (by decide),
    writes_sub_of_mem main_v203 rfl (by decide),
    writes_sub_of_mem main_v204 rfl (by decide),
    writes_sub_of_mem main_c_30 rfl (by decide),
    writes_sub_of_mem main_v205 rfl (by decide),
    writes_sub_of_mem main_v206 rfl (by decide)⟩

/-- A buffer the window does not write keeps its contents through it. -/
theorem chunk3_keep (V : Valuation τ sig (Elt F)) (r : Ref sig .tc) (h : r ∉ chunk3_W) :
    after chunk3 V (Proc.devRef .tc r) = V (Proc.devRef .tc r) :=
  after_of_writes_sub chunk3 V chunk3_writes h

end Cert.ReferenceIdeal.RefRun

end
-- ==== Proof.RRunOps04.lean ====
/- TABLES transcribed from proof/ReferenceIdeal.lean: window `main_part4` of the reference's @main as a list of host
   operations (60: 339 … 398 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part4`, in order, the calls unfolded. -/
abbrev chunk4 : List (HloOp τ sig (Elt F)) :=
  [ StableHlo.ternary main_v204 main_v206 main_v189 main_v207 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v207 main_v208 (broadcastInDim S50000x1 ![0] bcast_S50000_S50000x1_0 : (⟨S50000, .i32⟩ : BufTy).Contents (Elt F) → (⟨S50000x1, .i32⟩ : BufTy).Contents (Elt F)),
    StableHlo.ternary main_v187 main_v208 main_v202 main_v209 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v210 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v210 main_v211 rfl shapeCasts_S1x50000_S50000,
    StableHlo.unary main_arg26 main_v212 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v212 main_v213 rfl shapeCasts_S1x50000_S50000,
    StableHlo.nullary main_c_31 (constantI S_ 32 0#32),
    StableHlo.unary main_c_31 main_v214 (broadcastInDim S50000 ![] bcast_S_S50000 : (⟨S_, .i32⟩ : BufTy).Contents (Elt F) → (⟨S50000, .i32⟩ : BufTy).Contents (Elt F)),
    StableHlo.binary main_v213 main_v214 main_v215 (cmpi .slt : (⟨S50000, .i32⟩ : BufTy).Contents (Elt F) → (⟨S50000, .i32⟩ : BufTy).Contents (Elt F) → (⟨S50000, .i1⟩ : BufTy).Contents (Elt F)),
    StableHlo.nullary main_c_32 (constantI S_ 32 50000#32),
    StableHlo.unary main_c_32 main_v216 (broadcastInDim S50000 ![] bcast_S_S50000 : (⟨S_, .i32⟩ : BufTy).Contents (Elt F) → (⟨S50000, .i32⟩ : BufTy).Contents (Elt F)),
    StableHlo.binary main_v213 main_v216 main_v217 (addi : (⟨S50000, .i32⟩ : BufTy).Contents (Elt F) → (⟨S50000, .i32⟩ : BufTy).Contents (Elt F) → (⟨S50000, .i32⟩ : BufTy).Contents (Elt F)),
    StableHlo.ternary main_v215 main_v217 main_v213 main_v218 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v218 main_v219 (broadcastInDim S50000x1 ![0] bcast_S50000_S50000x1_0 : (⟨S50000, .i32⟩ : BufTy).Contents (Elt F) → (⟨S50000x1, .i32⟩ : BufTy).Contents (Elt F)),
    StableHlo.binary main_v161 main_v219 main_v220 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v221 ((extractStridedSlice S1x1x128x128 ![0, 2, 0, 0] · slices_S4x12x128x128_S1x1x128x128_0_2_0_0) : (⟨S4x12x128x128, .f32⟩ : BufTy).Contents (Elt F) → (⟨S1x1x128x128, .f32⟩ : BufTy).Contents (Elt F)),
    StableHlo.reshape main_v221 main_v222 rfl shapeCasts_S1x1x128x128_S128x128,
    StableHlo.unary main_v222 main_v223 ((transpose S128x128 [1, 0] · transposes_S128x128_S128x128_1_0) : (⟨S128x128, .f32⟩ : BufTy).Contents (Elt F) → (⟨S128x128, .f32⟩ : BufTy).Contents (Elt F)),
    StableHlo.binary main_v220 main_v223 main_v224 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_33 (constantI S_ 32 0#32),
    StableHlo.unary main_c_33 main_v225 (broadcastInDim S50000 ![] bcast_S_S50000 : (⟨S_, .i32⟩ : BufTy).Contents (Elt F) → (⟨S50000, .i32⟩ : BufTy).Contents (Elt F)),
    StableHlo.binary main_v211 main_v225 main_v226 (cmpi .slt : (⟨S50000, .i32⟩ : BufTy).Contents (Elt F) → (⟨S50000, .i32⟩ : BufTy).Contents (Elt F) → (⟨S50000, .i1⟩ : BufTy).Contents (Elt F)),
    StableHlo.nullary main_c_34 (constantI S_ 32 50000#32),
    StableHlo.unary main_c_34 main_v227 (broadcastInDim S50000 ![] bcast_S_S50000 : (⟨S_, .i32⟩ : BufTy).Contents (Elt F) → (⟨S50000, .i32⟩ : BufTy).Contents (Elt F)),
    StableHlo.binary main_v211 main_v227 main_v228 (addi : (⟨S50000, .i32⟩ : BufTy).Contents (Elt F) → (⟨S50000, .i32⟩ : BufTy).Contents (Elt F) → (⟨S50000, .i32⟩ : BufTy).Contents (Elt F)),
    StableHlo.ternary main_v226 main_v228 main_v211 main_v229 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v229 main_v230 (broadcastInDim S50000x1 ![0] bcast_S50000_S50000x1_0 : (⟨S50000, .i32⟩ : BufTy).Contents (Elt F) → (⟨S50000x1, .i32⟩ : BufTy).Contents (Elt F)),
    StableHlo.ternary main_v209 main_v230 main_v224 main_v231 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v232 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v232 main_v233 rfl shapeCasts_S1x50000_S50000,
    StableHlo.unary main_arg26 main_v234 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v234 main_v235 rfl shapeCasts_S1x50000_S50000,
    StableHlo.nullary main_c_35 (constantI S_ 32 0#32),
    StableHlo.unary main_c_35 main_v236 (broadcastInDim S50000 ![] bcast_S_S50000 : (⟨S_, .i32⟩ : BufTy).Contents (Elt F) → (⟨S50000, .i32⟩ : BufTy).Contents (Elt F)),
    StableHlo.binary main_v235 main_v236 main_v237 (cmpi .slt : (⟨S50000, .i32⟩ : BufTy).Contents (Elt F) → (⟨S50000, .i32⟩ : BufTy).Contents (Elt F) → (⟨S50000, .i1⟩ : BufTy).Contents (Elt F)),
    StableHlo.nullary main_c_36 (constantI S_ 32 50000#32),
    StableHlo.unary main_c_36 main_v238 (broadcastInDim S50000 ![] bcast_S_S50000 : (⟨S_, .i32⟩ : BufTy).Contents (Elt F) → (⟨S50000, .i32⟩ : BufTy).Contents (Elt F)),
    StableHlo.binary main_v235 main_v238 main_v239 (addi : (⟨S50000, .i32⟩ : BufTy).Contents (Elt F) → (⟨S50000, .i32⟩ : BufTy).Contents (Elt F) → (⟨S50000, .i32⟩ : BufTy).Contents (Elt F)),
    StableHlo.ternary main_v237 main_v239 main_v235 main_v240 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v240 main_v241 (broadcastInDim S50000x1 ![0] bcast_S50000_S50000x1_0 : (⟨S50000, .i32⟩ : BufTy).Contents (Elt F) → (⟨S50000x1, .i32⟩ : BufTy).Contents (Elt F)),
    StableHlo.binary main_v161 main_v241 main_v242 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v243 ((extractStridedSlice S1x1x128x128 ![0, 3, 0, 0] · slices_S4x12x128x128_S1x1x128x128_0_3_0_0) : (⟨S4x12x128x128, .f32⟩ : BufTy).Contents (Elt F) → (⟨S1x1x128x128, .f32⟩ : BufTy).Contents (Elt F)),
    StableHlo.reshape main_v243 main_v244 rfl shapeCasts_S1x1x128x128_S128x128,
    StableHlo.unary main_v244 main_v245 ((transpose S128x128 [1, 0] · transposes_S128x128_S128x128_1_0) : (⟨S128x128, .f32⟩ : BufTy).Contents (Elt F) → (⟨S128x128, .f32⟩ : BufTy).Contents (Elt F)),
    StableHlo.binary main_v242 main_v245 main_v246 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_37 (constantI S_ 32 0#32),
    StableHlo.unary main_c_37 main_v247 (broadcastInDim S50000 ![] bcast_S_S50000 : (⟨S_, .i32⟩ : BufTy).Contents (Elt F) → (⟨S50000, .i32⟩ : BufTy).Contents (Elt F)),
    StableHlo.binary main_v233 main_v247 main_v248 (cmpi .slt : (⟨S50000, .i32⟩ : BufTy).Contents (Elt F) → (⟨S50000, .i32⟩ : BufTy).Contents (Elt F) → (⟨S50000, .i1⟩ : BufTy).Contents (Elt F)),
    StableHlo.nullary main_c_38 (constantI S_ 32 50000#32),
    StableHlo.unary main_c_38 main_v249 (broadcastInDim S50000 ![] bcast_S_S50000 : (⟨S_, .i32⟩ : BufTy).Contents (Elt F) → (⟨S50000, .i32⟩ : BufTy).Contents (Elt F)),
    StableHlo.binary main_v233 main_v249 main_v250 (addi : (⟨S50000, .i32⟩ : BufTy).Contents (Elt F) → (⟨S50000, .i32⟩ : BufTy).Contents (Elt F) → (⟨S50000, .i32⟩ : BufTy).Contents (Elt F)),
    StableHlo.ternary main_v248 main_v250 main_v233 main_v251 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v251 main_v252 (broadcastInDim S50000x1 ![0] bcast_S50000_S50000x1_0 : (⟨S50000, .i32⟩ : BufTy).Contents (Elt F) → (⟨S50000x1, .i32⟩ : BufTy).Contents (Elt F)),
    StableHlo.ternary main_v231 main_v252 main_v246 main_v253 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v254 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v254 main_v255 rfl shapeCasts_S1x50000_S50000,
    StableHlo.unary main_arg26 main_v256 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v256 main_v257 rfl shapeCasts_S1x50000_S50000,
    StableHlo.nullary main_c_39 (constantI S_ 32 0#32) ]

/-- The buffers they write, in order. -/
abbrev chunk4_W : List (Ref sig .tc) :=
  [main_v207, main_v208, main_v209, main_v210, main_v211, main_v212, main_v213, main_c_31, main_v214, main_v215, main_c_32, main_v216, main_v217, main_v218, main_v219, main_v220, main_v221, main_v222, main_v223, main_v224, main_c_33, main_v225, main_v226, main_c_34, main_v227, main_v228, main_v229, main_v230, main_v231, main_v232, main_v233, main_v234, main_v235, main_c_35, main_v236, main_v237, main_c_36, main_v238, main_v239, main_v240, main_v241, main_v242, main_v243, main_v244, main_v245, main_v246, main_c_37, main_v247, main_v248, main_c_38, main_v249, main_v250, main_v251, main_v252, main_v253, main_v254, main_v255, main_v256, main_v257, main_c_39]

end Cert.ReferenceIdeal.RefRun

end
-- ==== Proof.RRunChk04.lean ====
/- TABLES over the operations of window `main_part4` (module RRunOps04): one term per operation for each side condition of
   the run, around the one proof text every window shares. -/
import proofs.«413166_j32323923870246_3_alg».proof.Proof.RRunOps04
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part4_eq (c : Dev nD) : main_part4 (F := F) c = seq chunk4 := by
  simp only [main_part4, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk4_sub : (chunk4 : List (HloOp τ sig (Elt F))).Forall fun op => op.bufs ⊆ tcRefs τ sig :=
  ⟨ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub ..⟩

set_option maxRecDepth 16384 in
/-- Every operation determines its result. -/
theorem chunk4_fresh : ∀ op ∈ (chunk4 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk4 : List (HloOp τ sig (Elt F))).Forall fun op => op.fresh = ∅)

set_option maxRecDepth 16384 in
/-- Each operation writes one buffer of the list. -/
theorem chunk4_writes : (chunk4 : List (HloOp τ sig (Elt F))).Forall fun op =>
    op.writes ⊆ (chunk4_W.map (Proc.devRef (τ := τ) .tc)).toFinset :=
  ⟨writes_sub_of_mem main_v207 rfl (by decide),
    writes_sub_of_mem main_v208 rfl (by decide),
    writes_sub_of_mem main_v209 rfl (by decide),
    writes_sub_of_mem main_v210 rfl (by decide),
    writes_sub_of_mem main_v211 rfl (by decide),
    writes_sub_of_mem main_v212 rfl (by decide),
    writes_sub_of_mem main_v213 rfl (by decide),
    writes_sub_of_mem main_c_31 rfl (by decide),
    writes_sub_of_mem main_v214 rfl (by decide),
    writes_sub_of_mem main_v215 rfl (by decide),
    writes_sub_of_mem main_c_32 rfl (by decide),
    writes_sub_of_mem main_v216 rfl (by decide),
    writes_sub_of_mem main_v217 rfl (by decide),
    writes_sub_of_mem main_v218 rfl (by decide),
    writes_sub_of_mem main_v219 rfl (by decide),
    writes_sub_of_mem main_v220 rfl (by decide),
    writes_sub_of_mem main_v221 rfl (by decide),
    writes_sub_of_mem main_v222 rfl (by decide),
    writes_sub_of_mem main_v223 rfl (by decide),
    writes_sub_of_mem main_v224 rfl (by decide),
    writes_sub_of_mem main_c_33 rfl (by decide),
    writes_sub_of_mem main_v225 rfl (by decide),
    writes_sub_of_mem main_v226 rfl (by decide),
    writes_sub_of_mem main_c_34 rfl (by decide),
    writes_sub_of_mem main_v227 rfl (by decide),
    writes_sub_of_mem main_v228 rfl (by decide),
    writes_sub_of_mem main_v229 rfl (by decide),
    writes_sub_of_mem main_v230 rfl (by decide),
    writes_sub_of_mem main_v231 rfl (by decide),
    writes_sub_of_mem main_v232 rfl (by decide),
    writes_sub_of_mem main_v233 rfl (by decide),
    writes_sub_of_mem main_v234 rfl (by decide),
    writes_sub_of_mem main_v235 rfl (by decide),
    writes_sub_of_mem main_c_35 rfl (by decide),
    writes_sub_of_mem main_v236 rfl (by decide),
    writes_sub_of_mem main_v237 rfl (by decide),
    writes_sub_of_mem main_c_36 rfl (by decide),
    writes_sub_of_mem main_v238 rfl (by decide),
    writes_sub_of_mem main_v239 rfl (by decide),
    writes_sub_of_mem main_v240 rfl (by decide),
    writes_sub_of_mem main_v241 rfl (by decide),
    writes_sub_of_mem main_v242 rfl (by decide),
    writes_sub_of_mem main_v243 rfl (by decide),
    writes_sub_of_mem main_v244 rfl (by decide),
    writes_sub_of_mem main_v245 rfl (by decide),
    writes_sub_of_mem main_v246 rfl (by decide),
    writes_sub_of_mem main_c_37 rfl (by decide),
    writes_sub_of_mem main_v247 rfl (by decide),
    writes_sub_of_mem main_v248 rfl (by decide),
    writes_sub_of_mem main_c_38 rfl (by decide),
    writes_sub_of_mem main_v249 rfl (by decide),
    writes_sub_of_mem main_v250 rfl (by decide),
    writes_sub_of_mem main_v251 rfl (by decide),
    writes_sub_of_mem main_v252 rfl (by decide),
    writes_sub_of_mem main_v253 rfl (by decide),
    writes_sub_of_mem main_v254 rfl (by decide),
    writes_sub_of_mem main_v255 rfl (by decide),
    writes_sub_of_mem main_v256 rfl (by decide),
    writes_sub_of_mem main_v257 rfl (by decide),
    writes_sub_of_mem main_c_39 rfl (by decide)⟩

/-- A buffer the window does not write keeps its contents through it. -/
theorem chunk4_keep (V : Valuation τ sig (Elt F)) (r : Ref sig .tc) (h : r ∉ chunk4_W) :
    after chunk4 V (Proc.devRef .tc r) = V (Proc.devRef .tc r) :=
  after_of_writes_sub chunk4 V chunk4_writes h

end Cert.ReferenceIdeal.RefRun

end
-- ==== Proof.RRunOps05.lean ====
/- TABLES transcribed from proof/ReferenceIdeal.lean: window `main_part5` of the reference's @main as a list of host
   operations (60: 399 … 458 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part5`, in order, the calls unfolded. -/
abbrev chunk5 : List (HloOp τ sig (Elt F)) :=
  [ StableHlo.unary main_c_39 main_v258 (broadcastInDim S50000 ![] bcast_S_S50000 : (⟨S_, .i32⟩ : BufTy).Contents (Elt F) → (⟨S50000, .i32⟩ : BufTy).Contents (Elt F)),
    StableHlo.binary main_v257 main_v258 main_v259 (cmpi .slt : (⟨S50000, .i32⟩ : BufTy).Contents (Elt F) → (⟨S50000, .i32⟩ : BufTy).Contents (Elt F) → (⟨S50000, .i1⟩ : BufTy).Contents (Elt F)),
    StableHlo.nullary main_c_40 (constantI S_ 32 50000#32),
    StableHlo.unary main_c_40 main_v260 (broadcastInDim S50000 ![] bcast_S_S50000 : (⟨S_, .i32⟩ : BufTy).Contents (Elt F) → (⟨S50000, .i32⟩ : BufTy).Contents (Elt F)),
    StableHlo.binary main_v257 main_v260 main_v261 (addi : (⟨S50000, .i32⟩ : BufTy).Contents (Elt F) → (⟨S50000, .i32⟩ : BufTy).Contents (Elt F) → (⟨S50000, .i32⟩ : BufTy).Contents (Elt F)),
    StableHlo.ternary main_v259 main_v261 main_v257 main_v262 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v262 main_v263 (broadcastInDim S50000x1 ![0] bcast_S50000_S50000x1_0 : (⟨S50000, .i32⟩ : BufTy).Contents (Elt F) → (⟨S50000x1, .i32⟩ : BufTy).Contents (Elt F)),
    StableHlo.binary main_v161 main_v263 main_v264 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v265 ((extractStridedSlice S1x1x128x128 ![0, 4, 0, 0] · slices_S4x12x128x128_S1x1x128x128_0_4_0_0) : (⟨S4x12x128x128, .f32⟩ : BufTy).Contents (Elt F) → (⟨S1x1x128x128, .f32⟩ : BufTy).Contents (Elt F)),
    StableHlo.reshape main_v265 main_v266 rfl shapeCasts_S1x1x128x128_S128x128,
    StableHlo.unary main_v266 main_v267 ((transpose S128x128 [1, 0] · transposes_S128x128_S128x128_1_0) : (⟨S128x128, .f32⟩ : BufTy).Contents (Elt F) → (⟨S128x128, .f32⟩ : BufTy).Contents (Elt F)),
    StableHlo.binary main_v264 main_v267 main_v268 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_41 (constantI S_ 32 0#32),
    StableHlo.unary main_c_41 main_v269 (broadcastInDim S50000 ![] bcast_S_S50000 : (⟨S_, .i32⟩ : BufTy).Contents (Elt F) → (⟨S50000, .i32⟩ : BufTy).Contents (Elt F)),
    StableHlo.binary main_v255 main_v269 main_v270 (cmpi .slt : (⟨S50000, .i32⟩ : BufTy).Contents (Elt F) → (⟨S50000, .i32⟩ : BufTy).Contents (Elt F) → (⟨S50000, .i1⟩ : BufTy).Contents (Elt F)),
    StableHlo.nullary main_c_42 (constantI S_ 32 50000#32),
    StableHlo.unary main_c_42 main_v271 (broadcastInDim S50000 ![] bcast_S_S50000 : (⟨S_, .i32⟩ : BufTy).Contents (Elt F) → (⟨S50000, .i32⟩ : BufTy).Contents (Elt F)),
    StableHlo.binary main_v255 main_v271 main_v272 (addi : (⟨S50000, .i32⟩ : BufTy).Contents (Elt F) → (⟨S50000, .i32⟩ : BufTy).Contents (Elt F) → (⟨S50000, .i32⟩ : BufTy).Contents (Elt F)),
    StableHlo.ternary main_v270 main_v272 main_v255 main_v273 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v273 main_v274 (broadcastInDim S50000x1 ![0] bcast_S50000_S50000x1_0 : (⟨S50000, .i32⟩ : BufTy).Contents (Elt F) → (⟨S50000x1, .i32⟩ : BufTy).Contents (Elt F)),
    StableHlo.ternary main_v253 main_v274 main_v268 main_v275 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v276 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v276 main_v277 rfl shapeCasts_S1x50000_S50000,
    StableHlo.unary main_arg26 main_v278 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v278 main_v279 rfl shapeCasts_S1x50000_S50000,
    StableHlo.nullary main_c_43 (constantI S_ 32 0#32),
    StableHlo.unary main_c_43 main_v280 (broadcastInDim S50000 ![] bcast_S_S50000 : (⟨S_, .i32⟩ : BufTy).Contents (Elt F) → (⟨S50000, .i32⟩ : BufTy).Contents (Elt F)),
    StableHlo.binary main_v279 main_v280 main_v281 (cmpi .slt : (⟨S50000, .i32⟩ : BufTy).Contents (Elt F) → (⟨S50000, .i32⟩ : BufTy).Contents (Elt F) → (⟨S50000, .i1⟩ : BufTy).Contents (Elt F)),
    StableHlo.nullary main_c_44 (constantI S_ 32 50000#32),
    StableHlo.unary main_c_44 main_v282 (broadcastInDim S50000 ![] bcast_S_S50000 : (⟨S_, .i32⟩ : BufTy).Contents (Elt F) → (⟨S50000, .i32⟩ : BufTy).Contents (Elt F)),
    StableHlo.binary main_v279 main_v282 main_v283 (addi : (⟨S50000, .i32⟩ : BufTy).Contents (Elt F) → (⟨S50000, .i32⟩ : BufTy).Contents (Elt F) → (⟨S50000, .i32⟩ : BufTy).Contents (Elt F)),
    StableHlo.ternary main_v281 main_v283 main_v279 main_v284 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v284 main_v285 (broadcastInDim S50000x1 ![0] bcast_S50000_S50000x1_0 : (⟨S50000, .i32⟩ : BufTy).Contents (Elt F) → (⟨S50000x1, .i32⟩ : BufTy).Contents (Elt F)),
    StableHlo.binary main_v161 main_v285 main_v286 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v287 ((extractStridedSlice S1x1x128x128 ![0, 5, 0, 0] · slices_S4x12x128x128_S1x1x128x128_0_5_0_0) : (⟨S4x12x128x128, .f32⟩ : BufTy).Contents (Elt F) → (⟨S1x1x128x128, .f32⟩ : BufTy).Contents (Elt F)),
    StableHlo.reshape main_v287 main_v288 rfl shapeCasts_S1x1x128x128_S128x128,
    StableHlo.unary main_v288 main_v289 ((transpose S128x128 [1, 0] · transposes_S128x128_S128x128_1_0) : (⟨S128x128, .f32⟩ : BufTy).Contents (Elt F) → (⟨S128x128, .f32⟩ : BufTy).Contents (Elt F)),
    StableHlo.binary main_v286 main_v289 main_v290 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_45 (constantI S_ 32 0#32),
    StableHlo.unary main_c_45 main_v291 (broadcastInDim S50000 ![] bcast_S_S50000 : (⟨S_, .i32⟩ : BufTy).Contents (Elt F) → (⟨S50000, .i32⟩ : BufTy).Contents (Elt F)),
    StableHlo.binary main_v277 main_v291 main_v292 (cmpi .slt : (⟨S50000, .i32⟩ : BufTy).Contents (Elt F) → (⟨S50000, .i32⟩ : BufTy).Contents (Elt F) → (⟨S50000, .i1⟩ : BufTy).Contents (Elt F)),
    StableHlo.nullary main_c_46 (constantI S_ 32 50000#32),
    StableHlo.unary main_c_46 main_v293 (broadcastInDim S50000 ![] bcast_S_S50000 : (⟨S_, .i32⟩ : BufTy).Contents (Elt F) → (⟨S50000, .i32⟩ : BufTy).Contents (Elt F)),
    StableHlo.binary main_v277 main_v293 main_v294 (addi : (⟨S50000, .i32⟩ : BufTy).Contents (Elt F) → (⟨S50000, .i32⟩ : BufTy).Contents (Elt F) → (⟨S50000, .i32⟩ : BufTy).Contents (Elt F)),
    StableHlo.ternary main_v292 main_v294 main_v277 main_v295 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v295 main_v296 (broadcastInDim S50000x1 ![0] bcast_S50000_S50000x1_0 : (⟨S50000, .i32⟩ : BufTy).Contents (Elt F) → (⟨S50000x1, .i32⟩ : BufTy).Contents (Elt F)),
    StableHlo.ternary main_v275 main_v296 main_v290 main_v297 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v298 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v298 main_v299 rfl shapeCasts_S1x50000_S50000,
    StableHlo.unary main_arg26 main_v300 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v300 main_v301 rfl shapeCasts_S1x50000_S50000,
    StableHlo.nullary main_c_47 (constantI S_ 32 0#32),
    StableHlo.unary main_c_47 main_v302 (broadcastInDim S50000 ![] bcast_S_S50000 : (⟨S_, .i32⟩ : BufTy).Contents (Elt F) → (⟨S50000, .i32⟩ : BufTy).Contents (Elt F)),
    StableHlo.binary main_v301 main_v302 main_v303 (cmpi .slt : (⟨S50000, .i32⟩ : BufTy).Contents (Elt F) → (⟨S50000, .i32⟩ : BufTy).Contents (Elt F) → (⟨S50000, .i1⟩ : BufTy).Contents (Elt F)),
    StableHlo.nullary main_c_48 (constantI S_ 32 50000#32),
    StableHlo.unary main_c_48 main_v304 (broadcastInDim S50000 ![] bcast_S_S50000 : (⟨S_, .i32⟩ : BufTy).Contents (Elt F) → (⟨S50000, .i32⟩ : BufTy).Contents (Elt F)),
    StableHlo.binary main_v301 main_v304 main_v305 (addi : (⟨S50000, .i32⟩ : BufTy).Contents (Elt F) → (⟨S50000, .i32⟩ : BufTy).Contents (Elt F) → (⟨S50000, .i32⟩ : BufTy).Contents (Elt F)),
    StableHlo.ternary main_v303 main_v305 main_v301 main_v306 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v306 main_v307 (broadcastInDim S50000x1 ![0] bcast_S50000_S50000x1_0 : (⟨S50000, .i32⟩ : BufTy).Contents (Elt F) → (⟨S50000x1, .i32⟩ : BufTy).Contents (Elt F)),
    StableHlo.binary main_v161 main_v307 main_v308 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)) ]

/-- The buffers they write, in order. -/
abbrev chunk5_W : List (Ref sig .tc) :=
  [main_v258, main_v259, main_c_40, main_v260, main_v261, main_v262, main_v263, main_v264, main_v265, main_v266, main_v267, main_v268, main_c_41, main_v269, main_v270, main_c_42, main_v271, main_v272, main_v273, main_v274, main_v275, main_v276, main_v277, main_v278, main_v279, main_c_43, main_v280, main_v281, main_c_44, main_v282, main_v283, main_v284, main_v285, main_v286, main_v287, main_v288, main_v289, main_v290, main_c_45, main_v291, main_v292, main_c_46, main_v293, main_v294, main_v295, main_v296, main_v297, main_v298, main_v299, main_v300, main_v301, main_c_47, main_v302, main_v303, main_c_48, main_v304, main_v305, main_v306, main_v307, main_v308]

end Cert.ReferenceIdeal.RefRun

end
-- ==== Proof.RRunChk05.lean ====
/- TABLES over the operations of window `main_part5` (module RRunOps05): one term per operation for each side condition of
   the run, around the one proof text every window shares. -/
import proofs.«413166_j32323923870246_3_alg».proof.Proof.RRunOps05
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part5_eq (c : Dev nD) : main_part5 (F := F) c = seq chunk5 := by
  simp only [main_part5, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk5_sub : (chunk5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 16384 in
/-- Every operation determines its result. -/
theorem chunk5_fresh : ∀ op ∈ (chunk5 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk5 : List (HloOp τ sig (Elt F))).Forall fun op => op.fresh = ∅)

set_option maxRecDepth 16384 in
/-- Each operation writes one buffer of the list. -/
theorem chunk5_writes : (chunk5 : List (HloOp τ sig (Elt F))).Forall fun op =>
    op.writes ⊆ (chunk5_W.map (Proc.devRef (τ := τ) .tc)).toFinset :=
  ⟨writes_sub_of_mem main_v258 rfl (by decide),
    writes_sub_of_mem main_v259 rfl (by decide),
    writes_sub_of_mem main_c_40 rfl (by decide),
    writes_sub_of_mem main_v260 rfl (by decide),
    writes_sub_of_mem main_v261 rfl (by decide),
    writes_sub_of_mem main_v262 rfl (by decide),
    writes_sub_of_mem main_v263 rfl (by decide),
    writes_sub_of_mem main_v264 rfl (by decide),
    writes_sub_of_mem main_v265 rfl (by decide),
    writes_sub_of_mem main_v266 rfl (by decide),
    writes_sub_of_mem main_v267 rfl (by decide),
    writes_sub_of_mem main_v268 rfl (by decide),
    writes_sub_of_mem main_c_41 rfl (by decide),
    writes_sub_of_mem main_v269 rfl (by decide),
    writes_sub_of_mem main_v270 rfl (by decide),
    writes_sub_of_mem main_c_42 rfl (by decide),
    writes_sub_of_mem main_v271 rfl (by decide),
    writes_sub_of_mem main_v272 rfl (by decide),
    writes_sub_of_mem main_v273 rfl (by decide),
    writes_sub_of_mem main_v274 rfl (by decide),
    writes_sub_of_mem main_v275 rfl (by decide),
    writes_sub_of_mem main_v276 rfl (by decide),
    writes_sub_of_mem main_v277 rfl (by decide),
    writes_sub_of_mem main_v278 rfl (by decide),
    writes_sub_of_mem main_v279 rfl (by decide),
    writes_sub_of_mem main_c_43 rfl (by decide),
    writes_sub_of_mem main_v280 rfl (by decide),
    writes_sub_of_mem main_v281 rfl (by decide),
    writes_sub_of_mem main_c_44 rfl (by decide),
    writes_sub_of_mem main_v282 rfl (by decide),
    writes_sub_of_mem main_v283 rfl (by decide),
    writes_sub_of_mem main_v284 rfl (by decide),
    writes_sub_of_mem main_v285 rfl (by decide),
    writes_sub_of_mem main_v286 rfl (by decide),
    writes_sub_of_mem main_v287 rfl (by decide),
    writes_sub_of_mem main_v288 rfl (by decide),
    writes_sub_of_mem main_v289 rfl (by decide),
    writes_sub_of_mem main_v290 rfl (by decide),
    writes_sub_of_mem main_c_45 rfl (by decide),
    writes_sub_of_mem main_v291 rfl (by decide),
    writes_sub_of_mem main_v292 rfl (by decide),
    writes_sub_of_mem main_c_46 rfl (by decide),
    writes_sub_of_mem main_v293 rfl (by decide),
    writes_sub_of_mem main_v294 rfl (by decide),
    writes_sub_of_mem main_v295 rfl (by decide),
    writes_sub_of_mem main_v296 rfl (by decide),
    writes_sub_of_mem main_v297 rfl (by decide),
    writes_sub_of_mem main_v298 rfl (by decide),
    writes_sub_of_mem main_v299 rfl (by decide),
    writes_sub_of_mem main_v300 rfl (by decide),
    writes_sub_of_mem main_v301 rfl (by decide),
    writes_sub_of_mem main_c_47 rfl (by decide),
    writes_sub_of_mem main_v302 rfl (by decide),
    writes_sub_of_mem main_v303 rfl (by decide),
    writes_sub_of_mem main_c_48 rfl (by decide),
    writes_sub_of_mem main_v304 rfl (by decide),
    writes_sub_of_mem main_v305 rfl (by decide),
    writes_sub_of_mem main_v306 rfl (by decide),
    writes_sub_of_mem main_v307 rfl (by decide),
    writes_sub_of_mem main_v308 rfl (by decide)⟩

/-- A buffer the window does not write keeps its contents through it. -/
theorem chunk5_keep (V : Valuation τ sig (Elt F)) (r : Ref sig .tc) (h : r ∉ chunk5_W) :
    after chunk5 V (Proc.devRef .tc r) = V (Proc.devRef .tc r) :=
  after_of_writes_sub chunk5 V chunk5_writes h

end Cert.ReferenceIdeal.RefRun

end
-- ==== Proof.RRunOps06.lean ====
/- TABLES transcribed from proof/ReferenceIdeal.lean: window `main_part6` of the reference's @main as a list of host
   operations (60: 459 … 518 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part6`, in order, the calls unfolded. -/
abbrev chunk6 : List (HloOp τ sig (Elt F)) :=
  [ StableHlo.unary main_arg15 main_v309 ((extractStridedSlice S1x1x128x128 ![0, 6, 0, 0] · slices_S4x12x128x128_S1x1x128x128_0_6_0_0) : (⟨S4x12x128x128, .f32⟩ : BufTy).Contents (Elt F) → (⟨S1x1x128x128, .f32⟩ : BufTy).Contents (Elt F)),
    StableHlo.reshape main_v309 main_v310 rfl shapeCasts_S1x1x128x128_S128x128,
    StableHlo.unary main_v310 main_v311 ((transpose S128x128 [1, 0] · transposes_S128x128_S128x128_1_0) : (⟨S128x128, .f32⟩ : BufTy).Contents (Elt F) → (⟨S128x128, .f32⟩ : BufTy).Contents (Elt F)),
    StableHlo.binary main_v308 main_v311 main_v312 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_49 (constantI S_ 32 0#32),
    StableHlo.unary main_c_49 main_v313 (broadcastInDim S50000 ![] bcast_S_S50000 : (⟨S_, .i32⟩ : BufTy).Contents (Elt F) → (⟨S50000, .i32⟩ : BufTy).Contents (Elt F)),
    StableHlo.binary main_v299 main_v313 main_v314 (cmpi .slt : (⟨S50000, .i32⟩ : BufTy).Contents (Elt F) → (⟨S50000, .i32⟩ : BufTy).Contents (Elt F) → (⟨S50000, .i1⟩ : BufTy).Contents (Elt F)),
    StableHlo.nullary main_c_50 (constantI S_ 32 50000#32),
    StableHlo.unary main_c_50 main_v315 (broadcastInDim S50000 ![] bcast_S_S50000 : (⟨S_, .i32⟩ : BufTy).Contents (Elt F) → (⟨S50000, .i32⟩ : BufTy).Contents (Elt F)),
    StableHlo.binary main_v299 main_v315 main_v316 (addi : (⟨S50000, .i32⟩ : BufTy).Contents (Elt F) → (⟨S50000, .i32⟩ : BufTy).Contents (Elt F) → (⟨S50000, .i32⟩ : BufTy).Contents (Elt F)),
    StableHlo.ternary main_v314 main_v316 main_v299 main_v317 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v317 main_v318 (broadcastInDim S50000x1 ![0] bcast_S50000_S50000x1_0 : (⟨S50000, .i32⟩ : BufTy).Contents (Elt F) → (⟨S50000x1, .i32⟩ : BufTy).Contents (Elt F)),
    StableHlo.ternary main_v297 main_v318 main_v312 main_v319 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v320 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v320 main_v321 rfl shapeCasts_S1x50000_S50000,
    StableHlo.unary main_arg26 main_v322 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v322 main_v323 rfl shapeCasts_S1x50000_S50000,
    StableHlo.nullary main_c_51 (constantI S_ 32 0#32),
    StableHlo.unary main_c_51 main_v324 (broadcastInDim S50000 ![] bcast_S_S50000 : (⟨S_, .i32⟩ : BufTy).Contents (Elt F) → (⟨S50000, .i32⟩ : BufTy).Contents (Elt F)),
    StableHlo.binary main_v323 main_v324 main_v325 (cmpi .slt : (⟨S50000, .i32⟩ : BufTy).Contents (Elt F) → (⟨S50000, .i32⟩ : BufTy).Contents (Elt F) → (⟨S50000, .i1⟩ : BufTy).Contents (Elt F)),
    StableHlo.nullary main_c_52 (constantI S_ 32 50000#32),
    StableHlo.unary main_c_52 main_v326 (broadcastInDim S50000 ![] bcast_S_S50000 : (⟨S_, .i32⟩ : BufTy).Contents (Elt F) → (⟨S50000, .i32⟩ : BufTy).Contents (Elt F)),
    StableHlo.binary main_v323 main_v326 main_v327 (addi : (⟨S50000, .i32⟩ : BufTy).Contents (Elt F) → (⟨S50000, .i32⟩ : BufTy).Contents (Elt F) → (⟨S50000, .i32⟩ : BufTy).Contents (Elt F)),
    StableHlo.ternary main_v325 main_v327 main_v323 main_v328 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v328 main_v329 (broadcastInDim S50000x1 ![0] bcast_S50000_S50000x1_0 : (⟨S50000, .i32⟩ : BufTy).Contents (Elt F) → (⟨S50000x1, .i32⟩ : BufTy).Contents (Elt F)),
    StableHlo.binary main_v161 main_v329 main_v330 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v331 ((extractStridedSlice S1x1x128x128 ![0, 7, 0, 0] · slices_S4x12x128x128_S1x1x128x128_0_7_0_0) : (⟨S4x12x128x128, .f32⟩ : BufTy).Contents (Elt F) → (⟨S1x1x128x128, .f32⟩ : BufTy).Contents (Elt F)),
    StableHlo.reshape main_v331 main_v332 rfl shapeCasts_S1x1x128x128_S128x128,
    StableHlo.unary main_v332 main_v333 ((transpose S128x128 [1, 0] · transposes_S128x128_S128x128_1_0) : (⟨S128x128, .f32⟩ : BufTy).Contents (Elt F) → (⟨S128x128, .f32⟩ : BufTy).Contents (Elt F)),
    StableHlo.binary main_v330 main_v333 main_v334 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_53 (constantI S_ 32 0#32),
    StableHlo.unary main_c_53 main_v335 (broadcastInDim S50000 ![] bcast_S_S50000 : (⟨S_, .i32⟩ : BufTy).Contents (Elt F) → (⟨S50000, .i32⟩ : BufTy).Contents (Elt F)),
    StableHlo.binary main_v321 main_v335 main_v336 (cmpi .slt : (⟨S50000, .i32⟩ : BufTy).Contents (Elt F) → (⟨S50000, .i32⟩ : BufTy).Contents (Elt F) → (⟨S50000, .i1⟩ : BufTy).Contents (Elt F)),
    StableHlo.nullary main_c_54 (constantI S_ 32 50000#32),
    StableHlo.unary main_c_54 main_v337 (broadcastInDim S50000 ![] bcast_S_S50000 : (⟨S_, .i32⟩ : BufTy).Contents (Elt F) → (⟨S50000, .i32⟩ : BufTy).Contents (Elt F)),
    StableHlo.binary main_v321 main_v337 main_v338 (addi : (⟨S50000, .i32⟩ : BufTy).Contents (Elt F) → (⟨S50000, .i32⟩ : BufTy).Contents (Elt F) → (⟨S50000, .i32⟩ : BufTy).Contents (Elt F)),
    StableHlo.ternary main_v336 main_v338 main_v321 main_v339 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v339 main_v340 (broadcastInDim S50000x1 ![0] bcast_S50000_S50000x1_0 : (⟨S50000, .i32⟩ : BufTy).Contents (Elt F) → (⟨S50000x1, .i32⟩ : BufTy).Contents (Elt F)),
    StableHlo.ternary main_v319 main_v340 main_v334 main_v341 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v342 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v342 main_v343 rfl shapeCasts_S1x50000_S50000,
    StableHlo.unary main_arg26 main_v344 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v344 main_v345 rfl shapeCasts_S1x50000_S50000,
    StableHlo.nullary main_c_55 (constantI S_ 32 0#32),
    StableHlo.unary main_c_55 main_v346 (broadcastInDim S50000 ![] bcast_S_S50000 : (⟨S_, .i32⟩ : BufTy).Contents (Elt F) → (⟨S50000, .i32⟩ : BufTy).Contents (Elt F)),
    StableHlo.binary main_v345 main_v346 main_v347 (cmpi .slt : (⟨S50000, .i32⟩ : BufTy).Contents (Elt F) → (⟨S50000, .i32⟩ : BufTy).Contents (Elt F) → (⟨S50000, .i1⟩ : BufTy).Contents (Elt F)),
    StableHlo.nullary main_c_56 (constantI S_ 32 50000#32),
    StableHlo.unary main_c_56 main_v348 (broadcastInDim S50000 ![] bcast_S_S50000 : (⟨S_, .i32⟩ : BufTy).Contents (Elt F) → (⟨S50000, .i32⟩ : BufTy).Contents (Elt F)),
    StableHlo.binary main_v345 main_v348 main_v349 (addi : (⟨S50000, .i32⟩ : BufTy).Contents (Elt F) → (⟨S50000, .i32⟩ : BufTy).Contents (Elt F) → (⟨S50000, .i32⟩ : BufTy).Contents (Elt F)),
    StableHlo.ternary main_v347 main_v349 main_v345 main_v350 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v350 main_v351 (broadcastInDim S50000x1 ![0] bcast_S50000_S50000x1_0 : (⟨S50000, .i32⟩ : BufTy).Contents (Elt F) → (⟨S50000x1, .i32⟩ : BufTy).Contents (Elt F)),
    StableHlo.binary main_v161 main_v351 main_v352 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v353 ((extractStridedSlice S1x1x128x128 ![0, 8, 0, 0] · slices_S4x12x128x128_S1x1x128x128_0_8_0_0) : (⟨S4x12x128x128, .f32⟩ : BufTy).Contents (Elt F) → (⟨S1x1x128x128, .f32⟩ : BufTy).Contents (Elt F)),
    StableHlo.reshape main_v353 main_v354 rfl shapeCasts_S1x1x128x128_S128x128,
    StableHlo.unary main_v354 main_v355 ((transpose S128x128 [1, 0] · transposes_S128x128_S128x128_1_0) : (⟨S128x128, .f32⟩ : BufTy).Contents (Elt F) → (⟨S128x128, .f32⟩ : BufTy).Contents (Elt F)),
    StableHlo.binary main_v352 main_v355 main_v356 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_57 (constantI S_ 32 0#32),
    StableHlo.unary main_c_57 main_v357 (broadcastInDim S50000 ![] bcast_S_S50000 : (⟨S_, .i32⟩ : BufTy).Contents (Elt F) → (⟨S50000, .i32⟩ : BufTy).Contents (Elt F)),
    StableHlo.binary main_v343 main_v357 main_v358 (cmpi .slt : (⟨S50000, .i32⟩ : BufTy).Contents (Elt F) → (⟨S50000, .i32⟩ : BufTy).Contents (Elt F) → (⟨S50000, .i1⟩ : BufTy).Contents (Elt F)),
    StableHlo.nullary main_c_58 (constantI S_ 32 50000#32) ]

/-- The buffers they write, in order. -/
abbrev chunk6_W : List (Ref sig .tc) :=
  [main_v309, main_v310, main_v311, main_v312, main_c_49, main_v313, main_v314, main_c_50, main_v315, main_v316, main_v317, main_v318, main_v319, main_v320, main_v321, main_v322, main_v323, main_c_51, main_v324, main_v325, main_c_52, main_v326, main_v327, main_v328, main_v329, main_v330, main_v331, main_v332, main_v333, main_v334, main_c_53, main_v335, main_v336, main_c_54, main_v337, main_v338, main_v339, main_v340, main_v341, main_v342, main_v343, main_v344, main_v345, main_c_55, main_v346, main_v347, main_c_56, main_v348, main_v349, main_v350, main_v351, main_v352, main_v353, main_v354, main_v355, main_v356, main_c_57, main_v357, main_v358, main_c_58]

end Cert.ReferenceIdeal.RefRun

end
-- ==== Proof.RRunChk06.lean ====
/- TABLES over the operations of window `main_part6` (module RRunOps06): one term per operation for each side condition of
   the run, around the one proof text every window shares. -/
import proofs.«413166_j32323923870246_3_alg».proof.Proof.RRunOps06
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part6_eq (c : Dev nD) : main_part6 (F := F) c = seq chunk6 := by
  simp only [main_part6, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk6_sub : (chunk6 : List (HloOp τ sig (Elt F))).Forall fun op => op.bufs ⊆ tcRefs τ sig :=
  ⟨unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub ..⟩

set_option maxRecDepth 16384 in
/-- Every operation determines its result. -/
theorem chunk6_fresh : ∀ op ∈ (chunk6 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk6 : List (HloOp τ sig (Elt F))).Forall fun op => op.fresh = ∅)

set_option maxRecDepth 16384 in
/-- Each operation writes one buffer of the list. -/
theorem chunk6_writes : (chunk6 : List (HloOp τ sig (Elt F))).Forall fun op =>
    op.writes ⊆ (chunk6_W.map (Proc.devRef (τ := τ) .tc)).toFinset :=
  ⟨writes_sub_of_mem main_v309 rfl (by decide),
    writes_sub_of_mem main_v310 rfl (by decide),
    writes_sub_of_mem main_v311 rfl (by decide),
    writes_sub_of_mem main_v312 rfl (by decide),
    writes_sub_of_mem main_c_49 rfl (by decide),
    writes_sub_of_mem main_v313 rfl (by decide),
    writes_sub_of_mem main_v314 rfl (by decide),
    writes_sub_of_mem main_c_50 rfl (by decide),
    writes_sub_of_mem main_v315 rfl (by decide),
    writes_sub_of_mem main_v316 rfl (by decide),
    writes_sub_of_mem main_v317 rfl (by decide),
    writes_sub_of_mem main_v318 rfl (by decide),
    writes_sub_of_mem main_v319 rfl (by decide),
    writes_sub_of_mem main_v320 rfl (by decide),
    writes_sub_of_mem main_v321 rfl (by decide),
    writes_sub_of_mem main_v322 rfl (by decide),
    writes_sub_of_mem main_v323 rfl (by decide),
    writes_sub_of_mem main_c_51 rfl (by decide),
    writes_sub_of_mem main_v324 rfl (by decide),
    writes_sub_of_mem main_v325 rfl (by decide),
    writes_sub_of_mem main_c_52 rfl (by decide),
    writes_sub_of_mem main_v326 rfl (by decide),
    writes_sub_of_mem main_v327 rfl (by decide),
    writes_sub_of_mem main_v328 rfl (by decide),
    writes_sub_of_mem main_v329 rfl (by decide),
    writes_sub_of_mem main_v330 rfl (by decide),
    writes_sub_of_mem main_v331 rfl (by decide),
    writes_sub_of_mem main_v332 rfl (by decide),
    writes_sub_of_mem main_v333 rfl (by decide),
    writes_sub_of_mem main_v334 rfl (by decide),
    writes_sub_of_mem main_c_53 rfl (by decide),
    writes_sub_of_mem main_v335 rfl (by decide),
    writes_sub_of_mem main_v336 rfl (by decide),
    writes_sub_of_mem main_c_54 rfl (by decide),
    writes_sub_of_mem main_v337 rfl (by decide),
    writes_sub_of_mem main_v338 rfl (by decide),
    writes_sub_of_mem main_v339 rfl (by decide),
    writes_sub_of_mem main_v340 rfl (by decide),
    writes_sub_of_mem main_v341 rfl (by decide),
    writes_sub_of_mem main_v342 rfl (by decide),
    writes_sub_of_mem main_v343 rfl (by decide),
    writes_sub_of_mem main_v344 rfl (by decide),
    writes_sub_of_mem main_v345 rfl (by decide),
    writes_sub_of_mem main_c_55 rfl (by decide),
    writes_sub_of_mem main_v346 rfl (by decide),
    writes_sub_of_mem main_v347 rfl (by decide),
    writes_sub_of_mem main_c_56 rfl (by decide),
    writes_sub_of_mem main_v348 rfl (by decide),
    writes_sub_of_mem main_v349 rfl (by decide),
    writes_sub_of_mem main_v350 rfl (by decide),
    writes_sub_of_mem main_v351 rfl (by decide),
    writes_sub_of_mem main_v352 rfl (by decide),
    writes_sub_of_mem main_v353 rfl (by decide),
    writes_sub_of_mem main_v354 rfl (by decide),
    writes_sub_of_mem main_v355 rfl (by decide),
    writes_sub_of_mem main_v356 rfl (by decide),
    writes_sub_of_mem main_c_57 rfl (by decide),
    writes_sub_of_mem main_v357 rfl (by decide),
    writes_sub_of_mem main_v358 rfl (by decide),
    writes_sub_of_mem main_c_58 rfl (by decide)⟩

/-- A buffer the window does not write keeps its contents through it. -/
theorem chunk6_keep (V : Valuation τ sig (Elt F)) (r : Ref sig .tc) (h : r ∉ chunk6_W) :
    after chunk6 V (Proc.devRef .tc r) = V (Proc.devRef .tc r) :=
  after_of_writes_sub chunk6 V chunk6_writes h

end Cert.ReferenceIdeal.RefRun

end
-- ==== Proof.RRunOps07.lean ====
/- TABLES transcribed from proof/ReferenceIdeal.lean: window `main_part7` of the reference's @main as a list of host
   operations (60: 519 … 578 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part7`, in order, the calls unfolded. -/
abbrev chunk7 : List (HloOp τ sig (Elt F)) :=
  [ StableHlo.unary main_c_58 main_v359 (broadcastInDim S50000 ![] bcast_S_S50000 : (⟨S_, .i32⟩ : BufTy).Contents (Elt F) → (⟨S50000, .i32⟩ : BufTy).Contents (Elt F)),
    StableHlo.binary main_v343 main_v359 main_v360 (addi : (⟨S50000, .i32⟩ : BufTy).Contents (Elt F) → (⟨S50000, .i32⟩ : BufTy).Contents (Elt F) → (⟨S50000, .i32⟩ : BufTy).Contents (Elt F)),
    StableHlo.ternary main_v358 main_v360 main_v343 main_v361 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v361 main_v362 (broadcastInDim S50000x1 ![0] bcast_S50000_S50000x1_0 : (⟨S50000, .i32⟩ : BufTy).Contents (Elt F) → (⟨S50000x1, .i32⟩ : BufTy).Contents (Elt F)),
    StableHlo.ternary main_v341 main_v362 main_v356 main_v363 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v364 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v364 main_v365 rfl shapeCasts_S1x50000_S50000,
    StableHlo.unary main_arg26 main_v366 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v366 main_v367 rfl shapeCasts_S1x50000_S50000,
    StableHlo.nullary main_c_59 (constantI S_ 32 0#32),
    StableHlo.unary main_c_59 main_v368 (broadcastInDim S50000 ![] bcast_S_S50000 : (⟨S_, .i32⟩ : BufTy).Contents (Elt F) → (⟨S50000, .i32⟩ : BufTy).Contents (Elt F)),
    StableHlo.binary main_v367 main_v368 main_v369 (cmpi .slt : (⟨S50000, .i32⟩ : BufTy).Contents (Elt F) → (⟨S50000, .i32⟩ : BufTy).Contents (Elt F) → (⟨S50000, .i1⟩ : BufTy).Contents (Elt F)),
    StableHlo.nullary main_c_60 (constantI S_ 32 50000#32),
    StableHlo.unary main_c_60 main_v370 (broadcastInDim S50000 ![] bcast_S_S50000 : (⟨S_, .i32⟩ : BufTy).Contents (Elt F) → (⟨S50000, .i32⟩ : BufTy).Contents (Elt F)),
    StableHlo.binary main_v367 main_v370 main_v371 (addi : (⟨S50000, .i32⟩ : BufTy).Contents (Elt F) → (⟨S50000, .i32⟩ : BufTy).Contents (Elt F) → (⟨S50000, .i32⟩ : BufTy).Contents (Elt F)),
    StableHlo.ternary main_v369 main_v371 main_v367 main_v372 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v372 main_v373 (broadcastInDim S50000x1 ![0] bcast_S50000_S50000x1_0 : (⟨S50000, .i32⟩ : BufTy).Contents (Elt F) → (⟨S50000x1, .i32⟩ : BufTy).Contents (Elt F)),
    StableHlo.binary main_v161 main_v373 main_v374 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v375 ((extractStridedSlice S1x1x128x128 ![0, 9, 0, 0] · slices_S4x12x128x128_S1x1x128x128_0_9_0_0) : (⟨S4x12x128x128, .f32⟩ : BufTy).Contents (Elt F) → (⟨S1x1x128x128, .f32⟩ : BufTy).Contents (Elt F)),
    StableHlo.reshape main_v375 main_v376 rfl shapeCasts_S1x1x128x128_S128x128,
    StableHlo.unary main_v376 main_v377 ((transpose S128x128 [1, 0] · transposes_S128x128_S128x128_1_0) : (⟨S128x128, .f32⟩ : BufTy).Contents (Elt F) → (⟨S128x128, .f32⟩ : BufTy).Contents (Elt F)),
    StableHlo.binary main_v374 main_v377 main_v378 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_61 (constantI S_ 32 0#32),
    StableHlo.unary main_c_61 main_v379 (broadcastInDim S50000 ![] bcast_S_S50000 : (⟨S_, .i32⟩ : BufTy).Contents (Elt F) → (⟨S50000, .i32⟩ : BufTy).Contents (Elt F)),
    StableHlo.binary main_v365 main_v379 main_v380 (cmpi .slt : (⟨S50000, .i32⟩ : BufTy).Contents (Elt F) → (⟨S50000, .i32⟩ : BufTy).Contents (Elt F) → (⟨S50000, .i1⟩ : BufTy).Contents (Elt F)),
    StableHlo.nullary main_c_62 (constantI S_ 32 50000#32),
    StableHlo.unary main_c_62 main_v381 (broadcastInDim S50000 ![] bcast_S_S50000 : (⟨S_, .i32⟩ : BufTy).Contents (Elt F) → (⟨S50000, .i32⟩ : BufTy).Contents (Elt F)),
    StableHlo.binary main_v365 main_v381 main_v382 (addi : (⟨S50000, .i32⟩ : BufTy).Contents (Elt F) → (⟨S50000, .i32⟩ : BufTy).Contents (Elt F) → (⟨S50000, .i32⟩ : BufTy).Contents (Elt F)),
    StableHlo.ternary main_v380 main_v382 main_v365 main_v383 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v383 main_v384 (broadcastInDim S50000x1 ![0] bcast_S50000_S50000x1_0 : (⟨S50000, .i32⟩ : BufTy).Contents (Elt F) → (⟨S50000x1, .i32⟩ : BufTy).Contents (Elt F)),
    StableHlo.ternary main_v363 main_v384 main_v378 main_v385 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v386 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v386 main_v387 rfl shapeCasts_S1x50000_S50000,
    StableHlo.unary main_arg26 main_v388 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v388 main_v389 rfl shapeCasts_S1x50000_S50000,
    StableHlo.nullary main_c_63 (constantI S_ 32 0#32),
    StableHlo.unary main_c_63 main_v390 (broadcastInDim S50000 ![] bcast_S_S50000 : (⟨S_, .i32⟩ : BufTy).Contents (Elt F) → (⟨S50000, .i32⟩ : BufTy).Contents (Elt F)),
    StableHlo.binary main_v389 main_v390 main_v391 (cmpi .slt : (⟨S50000, .i32⟩ : BufTy).Contents (Elt F) → (⟨S50000, .i32⟩ : BufTy).Contents (Elt F) → (⟨S50000, .i1⟩ : BufTy).Contents (Elt F)),
    StableHlo.nullary main_c_64 (constantI S_ 32 50000#32),
    StableHlo.unary main_c_64 main_v392 (broadcastInDim S50000 ![] bcast_S_S50000 : (⟨S_, .i32⟩ : BufTy).Contents (Elt F) → (⟨S50000, .i32⟩ : BufTy).Contents (Elt F)),
    StableHlo.binary main_v389 main_v392 main_v393 (addi : (⟨S50000, .i32⟩ : BufTy).Contents (Elt F) → (⟨S50000, .i32⟩ : BufTy).Contents (Elt F) → (⟨S50000, .i32⟩ : BufTy).Contents (Elt F)),
    StableHlo.ternary main_v391 main_v393 main_v389 main_v394 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v394 main_v395 (broadcastInDim S50000x1 ![0] bcast_S50000_S50000x1_0 : (⟨S50000, .i32⟩ : BufTy).Contents (Elt F) → (⟨S50000x1, .i32⟩ : BufTy).Contents (Elt F)),
    StableHlo.binary main_v161 main_v395 main_v396 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v397 ((extractStridedSlice S1x1x128x128 ![0, 10, 0, 0] · slices_S4x12x128x128_S1x1x128x128_0_10_0_0) : (⟨S4x12x128x128, .f32⟩ : BufTy).Contents (Elt F) → (⟨S1x1x128x128, .f32⟩ : BufTy).Contents (Elt F)),
    StableHlo.reshape main_v397 main_v398 rfl shapeCasts_S1x1x128x128_S128x128,
    StableHlo.unary main_v398 main_v399 ((transpose S128x128 [1, 0] · transposes_S128x128_S128x128_1_0) : (⟨S128x128, .f32⟩ : BufTy).Contents (Elt F) → (⟨S128x128, .f32⟩ : BufTy).Contents (Elt F)),
    StableHlo.binary main_v396 main_v399 main_v400 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_65 (constantI S_ 32 0#32),
    StableHlo.unary main_c_65 main_v401 (broadcastInDim S50000 ![] bcast_S_S50000 : (⟨S_, .i32⟩ : BufTy).Contents (Elt F) → (⟨S50000, .i32⟩ : BufTy).Contents (Elt F)),
    StableHlo.binary main_v387 main_v401 main_v402 (cmpi .slt : (⟨S50000, .i32⟩ : BufTy).Contents (Elt F) → (⟨S50000, .i32⟩ : BufTy).Contents (Elt F) → (⟨S50000, .i1⟩ : BufTy).Contents (Elt F)),
    StableHlo.nullary main_c_66 (constantI S_ 32 50000#32),
    StableHlo.unary main_c_66 main_v403 (broadcastInDim S50000 ![] bcast_S_S50000 : (⟨S_, .i32⟩ : BufTy).Contents (Elt F) → (⟨S50000, .i32⟩ : BufTy).Contents (Elt F)),
    StableHlo.binary main_v387 main_v403 main_v404 (addi : (⟨S50000, .i32⟩ : BufTy).Contents (Elt F) → (⟨S50000, .i32⟩ : BufTy).Contents (Elt F) → (⟨S50000, .i32⟩ : BufTy).Contents (Elt F)),
    StableHlo.ternary main_v402 main_v404 main_v387 main_v405 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v405 main_v406 (broadcastInDim S50000x1 ![0] bcast_S50000_S50000x1_0 : (⟨S50000, .i32⟩ : BufTy).Contents (Elt F) → (⟨S50000x1, .i32⟩ : BufTy).Contents (Elt F)),
    StableHlo.ternary main_v385 main_v406 main_v400 main_v407 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v408 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v408 main_v409 rfl shapeCasts_S1x50000_S50000,
    StableHlo.unary main_arg26 main_v410 ((extractStridedSlice S1x50000 ![11, 0] · slices_S12x50000_S1x50000_11_0) : (⟨S12x50000, .i32⟩ : BufTy).Contents (Elt F) → (⟨S1x50000, .i32⟩ : BufTy).Contents (Elt F)) ]

/-- The buffers they write, in order. -/
abbrev chunk7_W : List (Ref sig .tc) :=
  [main_v359, main_v360, main_v361, main_v362, main_v363, main_v364, main_v365, main_v366, main_v367, main_c_59, main_v368, main_v369, main_c_60, main_v370, main_v371, main_v372, main_v373, main_v374, main_v375, main_v376, main_v377, main_v378, main_c_61, main_v379, main_v380, main_c_62, main_v381, main_v382, main_v383, main_v384, main_v385, main_v386, main_v387, main_v388, main_v389, main_c_63, main_v390, main_v391, main_c_64, main_v392, main_v393, main_v394, main_v395, main_v396, main_v397, main_v398, main_v399, main_v400, main_c_65, main_v401, main_v402, main_c_66, main_v403, main_v404, main_v405, main_v406, main_v407, main_v408, main_v409, main_v410]

end Cert.ReferenceIdeal.RefRun

end
-- ==== Proof.RRunChk07.lean ====
/- TABLES over the operations of window `main_part7` (module RRunOps07): one term per operation for each side condition of
   the run, around the one proof text every window shares. -/
import proofs.«413166_j32323923870246_3_alg».proof.Proof.RRunOps07
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part7_eq (c : Dev nD) : main_part7 (F := F) c = seq chunk7 := by
  simp only [main_part7, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk7_sub : (chunk7 : List (HloOp τ sig (Elt F))).Forall fun op => op.bufs ⊆ tcRefs τ sig :=
  ⟨unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub ..⟩

set_option maxRecDepth 16384 in
/-- Every operation determines its result. -/
theorem chunk7_fresh : ∀ op ∈ (chunk7 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk7 : List (HloOp τ sig (Elt F))).Forall fun op => op.fresh = ∅)

set_option maxRecDepth 16384 in
/-- Each operation writes one buffer of the list. -/
theorem chunk7_writes : (chunk7 : List (HloOp τ sig (Elt F))).Forall fun op =>
    op.writes ⊆ (chunk7_W.map (Proc.devRef (τ := τ) .tc)).toFinset :=
  ⟨writes_sub_of_mem main_v359 rfl (by decide),
    writes_sub_of_mem main_v360 rfl (by decide),
    writes_sub_of_mem main_v361 rfl (by decide),
    writes_sub_of_mem main_v362 rfl (by decide),
    writes_sub_of_mem main_v363 rfl (by decide),
    writes_sub_of_mem main_v364 rfl (by decide),
    writes_sub_of_mem main_v365 rfl (by decide),
    writes_sub_of_mem main_v366 rfl (by decide),
    writes_sub_of_mem main_v367 rfl (by decide),
    writes_sub_of_mem main_c_59 rfl (by decide),
    writes_sub_of_mem main_v368 rfl (by decide),
    writes_sub_of_mem main_v369 rfl (by decide),
    writes_sub_of_mem main_c_60 rfl (by decide),
    writes_sub_of_mem main_v370 rfl (by decide),
    writes_sub_of_mem main_v371 rfl (by decide),
    writes_sub_of_mem main_v372 rfl (by decide),
    writes_sub_of_mem main_v373 rfl (by decide),
    writes_sub_of_mem main_v374 rfl (by decide),
    writes_sub_of_mem main_v375 rfl (by decide),
    writes_sub_of_mem main_v376 rfl (by decide),
    writes_sub_of_mem main_v377 rfl (by decide),
    writes_sub_of_mem main_v378 rfl (by decide),
    writes_sub_of_mem main_c_61 rfl (by decide),
    writes_sub_of_mem main_v379 rfl (by decide),
    writes_sub_of_mem main_v380 rfl (by decide),
    writes_sub_of_mem main_c_62 rfl (by decide),
    writes_sub_of_mem main_v381 rfl (by decide),
    writes_sub_of_mem main_v382 rfl (by decide),
    writes_sub_of_mem main_v383 rfl (by decide),
    writes_sub_of_mem main_v384 rfl (by decide),
    writes_sub_of_mem main_v385 rfl (by decide),
    writes_sub_of_mem main_v386 rfl (by decide),
    writes_sub_of_mem main_v387 rfl (by decide),
    writes_sub_of_mem main_v388 rfl (by decide),
    writes_sub_of_mem main_v389 rfl (by decide),
    writes_sub_of_mem main_c_63 rfl (by decide),
    writes_sub_of_mem main_v390 rfl (by decide),
    writes_sub_of_mem main_v391 rfl (by decide),
    writes_sub_of_mem main_c_64 rfl (by decide),
    writes_sub_of_mem main_v392 rfl (by decide),
    writes_sub_of_mem main_v393 rfl (by decide),
    writes_sub_of_mem main_v394 rfl (by decide),
    writes_sub_of_mem main_v395 rfl (by decide),
    writes_sub_of_mem main_v396 rfl (by decide),
    writes_sub_of_mem main_v397 rfl (by decide),
    writes_sub_of_mem main_v398 rfl (by decide),
    writes_sub_of_mem main_v399 rfl (by decide),
    writes_sub_of_mem main_v400 rfl (by decide),
    writes_sub_of_mem main_c_65 rfl (by decide),
    writes_sub_of_mem main_v401 rfl (by decide),
    writes_sub_of_mem main_v402 rfl (by decide),
    writes_sub_of_mem main_c_66 rfl (by decide),
    writes_sub_of_mem main_v403 rfl (by decide),
    writes_sub_of_mem main_v404 rfl (by decide),
    writes_sub_of_mem main_v405 rfl (by decide),
    writes_sub_of_mem main_v406 rfl (by decide),
    writes_sub_of_mem main_v407 rfl (by decide),
    writes_sub_of_mem main_v408 rfl (by decide),
    writes_sub_of_mem main_v409 rfl (by decide),
    writes_sub_of_mem main_v410 rfl (by decide)⟩

/-- A buffer the window does not write keeps its contents through it. -/
theorem chunk7_keep (V : Valuation τ sig (Elt F)) (r : Ref sig .tc) (h : r ∉ chunk7_W) :
    after chunk7 V (Proc.devRef .tc r) = V (Proc.devRef .tc r) :=
  after_of_writes_sub chunk7 V chunk7_writes h

end Cert.ReferenceIdeal.RefRun

end
-- ==== Proof.RRunOps08.lean ====
/- TABLES transcribed from proof/ReferenceIdeal.lean: window `main_part8` of the reference's @main as a list of host
   operations (60: 579 … 638 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part8`, in order, the calls unfolded. -/
abbrev chunk8 : List (HloOp τ sig (Elt F)) :=
  [ StableHlo.reshape main_v410 main_v411 rfl shapeCasts_S1x50000_S50000,
    StableHlo.nullary main_c_67 (constantI S_ 32 0#32),
    StableHlo.unary main_c_67 main_v412 (broadcastInDim S50000 ![] bcast_S_S50000 : (⟨S_, .i32⟩ : BufTy).Contents (Elt F) → (⟨S50000, .i32⟩ : BufTy).Contents (Elt F)),
    StableHlo.binary main_v411 main_v412 main_v413 (cmpi .slt : (⟨S50000, .i32⟩ : BufTy).Contents (Elt F) → (⟨S50000, .i32⟩ : BufTy).Contents (Elt F) → (⟨S50000, .i1⟩ : BufTy).Contents (Elt F)),
    StableHlo.nullary main_c_68 (constantI S_ 32 50000#32),
    StableHlo.unary main_c_68 main_v414 (broadcastInDim S50000 ![] bcast_S_S50000 : (⟨S_, .i32⟩ : BufTy).Contents (Elt F) → (⟨S50000, .i32⟩ : BufTy).Contents (Elt F)),
    StableHlo.binary main_v411 main_v414 main_v415 (addi : (⟨S50000, .i32⟩ : BufTy).Contents (Elt F) → (⟨S50000, .i32⟩ : BufTy).Contents (Elt F) → (⟨S50000, .i32⟩ : BufTy).Contents (Elt F)),
    StableHlo.ternary main_v413 main_v415 main_v411 main_v416 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v416 main_v417 (broadcastInDim S50000x1 ![0] bcast_S50000_S50000x1_0 : (⟨S50000, .i32⟩ : BufTy).Contents (Elt F) → (⟨S50000x1, .i32⟩ : BufTy).Contents (Elt F)),
    StableHlo.binary main_v161 main_v417 main_v418 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v419 ((extractStridedSlice S1x1x128x128 ![0, 11, 0, 0] · slices_S4x12x128x128_S1x1x128x128_0_11_0_0) : (⟨S4x12x128x128, .f32⟩ : BufTy).Contents (Elt F) → (⟨S1x1x128x128, .f32⟩ : BufTy).Contents (Elt F)),
    StableHlo.reshape main_v419 main_v420 rfl shapeCasts_S1x1x128x128_S128x128,
    StableHlo.unary main_v420 main_v421 ((transpose S128x128 [1, 0] · transposes_S128x128_S128x128_1_0) : (⟨S128x128, .f32⟩ : BufTy).Contents (Elt F) → (⟨S128x128, .f32⟩ : BufTy).Contents (Elt F)),
    StableHlo.binary main_v418 main_v421 main_v422 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_69 (constantI S_ 32 0#32),
    StableHlo.unary main_c_69 main_v423 (broadcastInDim S50000 ![] bcast_S_S50000 : (⟨S_, .i32⟩ : BufTy).Contents (Elt F) → (⟨S50000, .i32⟩ : BufTy).Contents (Elt F)),
    StableHlo.binary main_v409 main_v423 main_v424 (cmpi .slt : (⟨S50000, .i32⟩ : BufTy).Contents (Elt F) → (⟨S50000, .i32⟩ : BufTy).Contents (Elt F) → (⟨S50000, .i1⟩ : BufTy).Contents (Elt F)),
    StableHlo.nullary main_c_70 (constantI S_ 32 50000#32),
    StableHlo.unary main_c_70 main_v425 (broadcastInDim S50000 ![] bcast_S_S50000 : (⟨S_, .i32⟩ : BufTy).Contents (Elt F) → (⟨S50000, .i32⟩ : BufTy).Contents (Elt F)),
    StableHlo.binary main_v409 main_v425 main_v426 (addi : (⟨S50000, .i32⟩ : BufTy).Contents (Elt F) → (⟨S50000, .i32⟩ : BufTy).Contents (Elt F) → (⟨S50000, .i32⟩ : BufTy).Contents (Elt F)),
    StableHlo.ternary main_v424 main_v426 main_v409 main_v427 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v427 main_v428 (broadcastInDim S50000x1 ![0] bcast_S50000_S50000x1_0 : (⟨S50000, .i32⟩ : BufTy).Contents (Elt F) → (⟨S50000x1, .i32⟩ : BufTy).Contents (Elt F)),
    StableHlo.ternary main_v407 main_v428 main_v422 main_v429 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg27 main_v430 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v430 main_v431 rfl shapeCasts_S1x5000_S5000,
    StableHlo.unary main_arg28 main_v432 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v432 main_v433 rfl shapeCasts_S1x5000_S5000,
    StableHlo.nullary main_c_71 (constantI S_ 32 0#32),
    StableHlo.unary main_c_71 main_v434 (broadcastInDim S5000 ![] bcast_S_S5000 : (⟨S_, .i32⟩ : BufTy).Contents (Elt F) → (⟨S5000, .i32⟩ : BufTy).Contents (Elt F)),
    StableHlo.binary main_v433 main_v434 main_v435 (cmpi .slt : (⟨S5000, .i32⟩ : BufTy).Contents (Elt F) → (⟨S5000, .i32⟩ : BufTy).Contents (Elt F) → (⟨S5000, .i1⟩ : BufTy).Contents (Elt F)),
    StableHlo.nullary main_c_72 (constantI S_ 32 50000#32),
    StableHlo.unary main_c_72 main_v436 (broadcastInDim S5000 ![] bcast_S_S5000 : (⟨S_, .i32⟩ : BufTy).Contents (Elt F) → (⟨S5000, .i32⟩ : BufTy).Contents (Elt F)),
    StableHlo.binary main_v433 main_v436 main_v437 (addi : (⟨S5000, .i32⟩ : BufTy).Contents (Elt F) → (⟨S5000, .i32⟩ : BufTy).Contents (Elt F) → (⟨S5000, .i32⟩ : BufTy).Contents (Elt F)),
    StableHlo.ternary main_v435 main_v437 main_v433 main_v438 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v438 main_v439 (broadcastInDim S5000x1 ![0] bcast_S5000_S5000x1_0 : (⟨S5000, .i32⟩ : BufTy).Contents (Elt F) → (⟨S5000x1, .i32⟩ : BufTy).Contents (Elt F)),
    StableHlo.binary main_v161 main_v439 main_v440 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg16 main_v441 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v441 main_v442 rfl shapeCasts_S1x128x128_S128x128,
    StableHlo.unary main_v442 main_v443 ((transpose S128x128 [1, 0] · transposes_S128x128_S128x128_1_0) : (⟨S128x128, .f32⟩ : BufTy).Contents (Elt F) → (⟨S128x128, .f32⟩ : BufTy).Contents (Elt F)),
    StableHlo.binary main_v440 main_v443 main_v444 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_73 (constantI S_ 32 0#32),
    StableHlo.unary main_c_73 main_v445 (broadcastInDim S5000 ![] bcast_S_S5000 : (⟨S_, .i32⟩ : BufTy).Contents (Elt F) → (⟨S5000, .i32⟩ : BufTy).Contents (Elt F)),
    StableHlo.binary main_v431 main_v445 main_v446 (cmpi .slt : (⟨S5000, .i32⟩ : BufTy).Contents (Elt F) → (⟨S5000, .i32⟩ : BufTy).Contents (Elt F) → (⟨S5000, .i1⟩ : BufTy).Contents (Elt F)),
    StableHlo.nullary main_c_74 (constantI S_ 32 50000#32),
    StableHlo.unary main_c_74 main_v447 (broadcastInDim S5000 ![] bcast_S_S5000 : (⟨S_, .i32⟩ : BufTy).Contents (Elt F) → (⟨S5000, .i32⟩ : BufTy).Contents (Elt F)),
    StableHlo.binary main_v431 main_v447 main_v448 (addi : (⟨S5000, .i32⟩ : BufTy).Contents (Elt F) → (⟨S5000, .i32⟩ : BufTy).Contents (Elt F) → (⟨S5000, .i32⟩ : BufTy).Contents (Elt F)),
    StableHlo.ternary main_v446 main_v448 main_v431 main_v449 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v449 main_v450 (broadcastInDim S5000x1 ![0] bcast_S5000_S5000x1_0 : (⟨S5000, .i32⟩ : BufTy).Contents (Elt F) → (⟨S5000x1, .i32⟩ : BufTy).Contents (Elt F)),
    StableHlo.ternary main_v429 main_v450 main_v444 main_v451 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg27 main_v452 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v452 main_v453 rfl shapeCasts_S1x5000_S5000,
    StableHlo.unary main_arg28 main_v454 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v454 main_v455 rfl shapeCasts_S1x5000_S5000,
    StableHlo.nullary main_c_75 (constantI S_ 32 0#32),
    StableHlo.unary main_c_75 main_v456 (broadcastInDim S5000 ![] bcast_S_S5000 : (⟨S_, .i32⟩ : BufTy).Contents (Elt F) → (⟨S5000, .i32⟩ : BufTy).Contents (Elt F)),
    StableHlo.binary main_v455 main_v456 main_v457 (cmpi .slt : (⟨S5000, .i32⟩ : BufTy).Contents (Elt F) → (⟨S5000, .i32⟩ : BufTy).Contents (Elt F) → (⟨S5000, .i1⟩ : BufTy).Contents (Elt F)),
    StableHlo.nullary main_c_76 (constantI S_ 32 50000#32),
    StableHlo.unary main_c_76 main_v458 (broadcastInDim S5000 ![] bcast_S_S5000 : (⟨S_, .i32⟩ : BufTy).Contents (Elt F) → (⟨S5000, .i32⟩ : BufTy).Contents (Elt F)),
    StableHlo.binary main_v455 main_v458 main_v459 (addi : (⟨S5000, .i32⟩ : BufTy).Contents (Elt F) → (⟨S5000, .i32⟩ : BufTy).Contents (Elt F) → (⟨S5000, .i32⟩ : BufTy).Contents (Elt F)),
    StableHlo.ternary main_v457 main_v459 main_v455 main_v460 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ]

/-- The buffers they write, in order. -/
abbrev chunk8_W : List (Ref sig .tc) :=
  [main_v411, main_c_67, main_v412, main_v413, main_c_68, main_v414, main_v415, main_v416, main_v417, main_v418, main_v419, main_v420, main_v421, main_v422, main_c_69, main_v423, main_v424, main_c_70, main_v425, main_v426, main_v427, main_v428, main_v429, main_v430, main_v431, main_v432, main_v433, main_c_71, main_v434, main_v435, main_c_72, main_v436, main_v437, main_v438, main_v439, main_v440, main_v441, main_v442, main_v443, main_v444, main_c_73, main_v445, main_v446, main_c_74, main_v447, main_v448, main_v449, main_v450, main_v451, main_v452, main_v453, main_v454, main_v455, main_c_75, main_v456, main_v457, main_c_76, main_v458, main_v459, main_v460]

end Cert.ReferenceIdeal.RefRun

end
-- ==== Proof.RRunChk08.lean ====
/- TABLES over the operations of window `main_part8` (module RRunOps08): one term per operation for each side condition of
   the run, around the one proof text every window shares. -/
import proofs.«413166_j32323923870246_3_alg».proof.Proof.RRunOps08
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part8_eq (c : Dev nD) : main_part8 (F := F) c = seq chunk8 := by
  simp only [main_part8, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk8_sub : (chunk8 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub ..⟩

set_option maxRecDepth 16384 in
/-- Every operation determines its result. -/
theorem chunk8_fresh : ∀ op ∈ (chunk8 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk8 : List (HloOp τ sig (Elt F))).Forall fun op => op.fresh = ∅)

set_option maxRecDepth 16384 in
/-- Each operation writes one buffer of the list. -/
theorem chunk8_writes : (chunk8 : List (HloOp τ sig (Elt F))).Forall fun op =>
    op.writes ⊆ (chunk8_W.map (Proc.devRef (τ := τ) .tc)).toFinset :=
  ⟨writes_sub_of_mem main_v411 rfl (by decide),
    writes_sub_of_mem main_c_67 rfl (by decide),
    writes_sub_of_mem main_v412 rfl (by decide),
    writes_sub_of_mem main_v413 rfl (by decide),
    writes_sub_of_mem main_c_68 rfl (by decide),
    writes_sub_of_mem main_v414 rfl (by decide),
    writes_sub_of_mem main_v415 rfl (by decide),
    writes_sub_of_mem main_v416 rfl (by decide),
    writes_sub_of_mem main_v417 rfl (by decide),
    writes_sub_of_mem main_v418 rfl (by decide),
    writes_sub_of_mem main_v419 rfl (by decide),
    writes_sub_of_mem main_v420 rfl (by decide),
    writes_sub_of_mem main_v421 rfl (by decide),
    writes_sub_of_mem main_v422 rfl (by decide),
    writes_sub_of_mem main_c_69 rfl (by decide),
    writes_sub_of_mem main_v423 rfl (by decide),
    writes_sub_of_mem main_v424 rfl (by decide),
    writes_sub_of_mem main_c_70 rfl (by decide),
    writes_sub_of_mem main_v425 rfl (by decide),
    writes_sub_of_mem main_v426 rfl (by decide),
    writes_sub_of_mem main_v427 rfl (by decide),
    writes_sub_of_mem main_v428 rfl (by decide),
    writes_sub_of_mem main_v429 rfl (by decide),
    writes_sub_of_mem main_v430 rfl (by decide),
    writes_sub_of_mem main_v431 rfl (by decide),
    writes_sub_of_mem main_v432 rfl (by decide),
    writes_sub_of_mem main_v433 rfl (by decide),
    writes_sub_of_mem main_c_71 rfl (by decide),
    writes_sub_of_mem main_v434 rfl (by decide),
    writes_sub_of_mem main_v435 rfl (by decide),
    writes_sub_of_mem main_c_72 rfl (by decide),
    writes_sub_of_mem main_v436 rfl (by decide),
    writes_sub_of_mem main_v437 rfl (by decide),
    writes_sub_of_mem main_v438 rfl (by decide),
    writes_sub_of_mem main_v439 rfl (by decide),
    writes_sub_of_mem main_v440 rfl (by decide),
    writes_sub_of_mem main_v441 rfl (by decide),
    writes_sub_of_mem main_v442 rfl (by decide),
    writes_sub_of_mem main_v443 rfl (by decide),
    writes_sub_of_mem main_v444 rfl (by decide),
    writes_sub_of_mem main_c_73 rfl (by decide),
    writes_sub_of_mem main_v445 rfl (by decide),
    writes_sub_of_mem main_v446 rfl (by decide),
    writes_sub_of_mem main_c_74 rfl (by decide),
    writes_sub_of_mem main_v447 rfl (by decide),
    writes_sub_of_mem main_v448 rfl (by decide),
    writes_sub_of_mem main_v449 rfl (by decide),
    writes_sub_of_mem main_v450 rfl (by decide),
    writes_sub_of_mem main_v451 rfl (by decide),
    writes_sub_of_mem main_v452 rfl (by decide),
    writes_sub_of_mem main_v453 rfl (by decide),
    writes_sub_of_mem main_v454 rfl (by decide),
    writes_sub_of_mem main_v455 rfl (by decide),
    writes_sub_of_mem main_c_75 rfl (by decide),
    writes_sub_of_mem main_v456 rfl (by decide),
    writes_sub_of_mem main_v457 rfl (by decide),
    writes_sub_of_mem main_c_76 rfl (by decide),
    writes_sub_of_mem main_v458 rfl (by decide),
    writes_sub_of_mem main_v459 rfl (by decide),
    writes_sub_of_mem main_v460 rfl (by decide)⟩

/-- A buffer the window does not write keeps its contents through it. -/
theorem chunk8_keep (V : Valuation τ sig (Elt F)) (r : Ref sig .tc) (h : r ∉ chunk8_W) :
    after chunk8 V (Proc.devRef .tc r) = V (Proc.devRef .tc r) :=
  after_of_writes_sub chunk8 V chunk8_writes h

end Cert.ReferenceIdeal.RefRun

end
-- ==== Proof.RRunOps09.lean ====
/- TABLES transcribed from proof/ReferenceIdeal.lean: window `main_part9` of the reference's @main as a list of host
   operations (106: 639 … 744 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part9`, in order, the calls unfolded. -/
abbrev chunk9 : List (HloOp τ sig (Elt F)) :=
  [ StableHlo.unary main_v460 main_v461 (broadcastInDim S5000x1 ![0] bcast_S5000_S5000x1_0 : (⟨S5000, .i32⟩ : BufTy).Contents (Elt F) → (⟨S5000x1, .i32⟩ : BufTy).Contents (Elt F)),
    StableHlo.binary main_v161 main_v461 main_v462 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg17 main_v463 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v463 main_v464 rfl shapeCasts_S1x128x128_S128x128,
    StableHlo.unary main_v464 main_v465 ((transpose S128x128 [1, 0] · transposes_S128x128_S128x128_1_0) : (⟨S128x128, .f32⟩ : BufTy).Contents (Elt F) → (⟨S128x128, .f32⟩ : BufTy).Contents (Elt F)),
    StableHlo.binary main_v462 main_v465 main_v466 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_77 (constantI S_ 32 0#32),
    StableHlo.unary main_c_77 main_v467 (broadcastInDim S5000 ![] bcast_S_S5000 : (⟨S_, .i32⟩ : BufTy).Contents (Elt F) → (⟨S5000, .i32⟩ : BufTy).Contents (Elt F)),
    StableHlo.binary main_v453 main_v467 main_v468 (cmpi .slt : (⟨S5000, .i32⟩ : BufTy).Contents (Elt F) → (⟨S5000, .i32⟩ : BufTy).Contents (Elt F) → (⟨S5000, .i1⟩ : BufTy).Contents (Elt F)),
    StableHlo.nullary main_c_78 (constantI S_ 32 50000#32),
    StableHlo.unary main_c_78 main_v469 (broadcastInDim S5000 ![] bcast_S_S5000 : (⟨S_, .i32⟩ : BufTy).Contents (Elt F) → (⟨S5000, .i32⟩ : BufTy).Contents (Elt F)),
    StableHlo.binary main_v453 main_v469 main_v470 (addi : (⟨S5000, .i32⟩ : BufTy).Contents (Elt F) → (⟨S5000, .i32⟩ : BufTy).Contents (Elt F) → (⟨S5000, .i32⟩ : BufTy).Contents (Elt F)),
    StableHlo.ternary main_v468 main_v470 main_v453 main_v471 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v471 main_v472 (broadcastInDim S5000x1 ![0] bcast_S5000_S5000x1_0 : (⟨S5000, .i32⟩ : BufTy).Contents (Elt F) → (⟨S5000x1, .i32⟩ : BufTy).Contents (Elt F)),
    StableHlo.ternary main_v451 main_v472 main_v466 main_v473 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg18 main_v474 ((extractStridedSlice S1x2x128 ![0, 0, 0] · slices_S4x2x128_S1x2x128_0_0_0) : (⟨S4x2x128, .f32⟩ : BufTy).Contents (Elt F) → (⟨S1x2x128, .f32⟩ : BufTy).Contents (Elt F)),
    StableHlo.reshape main_v474 main_v475 rfl shapeCasts_S1x2x128_S2x128,
    StableHlo.nullary main_cst_79 (constant S_ .f32 0x00000000#32),
    StableHlo.binary main_v473 main_cst_79 main_v476 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v476 main_v477 (broadcastInDim S50000x1 ![0] bcast_S50000_S50000x1_0 : (⟨S50000, .f32⟩ : BufTy).Contents (Elt F) → (⟨S50000x1, .f32⟩ : BufTy).Contents (Elt F)),
    StableHlo.nullary main_cst_80 (constant S_ .f32 0x43000000#32),
    StableHlo.unary main_cst_80 main_v478 (broadcastInDim S50000x1 ![] bcast_S_S50000x1 : (⟨S_, .f32⟩ : BufTy).Contents (Elt F) → (⟨S50000x1, .f32⟩ : BufTy).Contents (Elt F)),
    StableHlo.binary main_v477 main_v478 main_v479 (Host.divf : (⟨S50000x1, .f32⟩ : BufTy).Contents (Elt F) → (⟨S50000x1, .f32⟩ : BufTy).Contents (Elt F) → (⟨S50000x1, .f32⟩ : BufTy).Contents (Elt F)),
    StableHlo.nullary main_c_81 (constantI S_ 32 0#32),
    StableHlo.TRef.nullary main_call9.cst (constant S_ .f32 0x00000000#32),
    StableHlo.TRef.binary (.of main_v473 : StableHlo.TRef sig ⟨S50000x128, .f32⟩) main_call9.cst main_call9.v0 (fun x v => Host.reduceAdd x v reducesTo_S50000x128_S50000_d1 h_S_),
    StableHlo.TRef.unary main_call9.v0 main_call9.v1 (broadcastInDim S50000x1 ![0] bcast_S50000_S50000x1_0),
    StableHlo.TRef.nullary main_call9.cst_0 (constant S_ .f32 0x43000000#32),
    StableHlo.TRef.unary main_call9.cst_0 main_call9.v2 (broadcastInDim S50000x1 ![] bcast_S_S50000x1),
    StableHlo.TRef.binary main_call9.v1 main_call9.v2 main_call9.v3 Host.divf,
    StableHlo.TRef.unary main_call9.v3 main_call9.v4 (broadcastInDim S50000x128 ![0, 1] bcast_S50000x1_S50000x128_0_1),
    StableHlo.TRef.binary (.of main_v473 : StableHlo.TRef sig ⟨S50000x128, .f32⟩) main_call9.v4 main_call9.v5 subf,
    StableHlo.TRef.binary main_call9.v5 main_call9.v5 main_call9.v6 mulf,
    StableHlo.TRef.unary (.of main_c_81 : StableHlo.TRef sig ⟨S_, .i32⟩) main_call9.v7 (sitofp .f32),
    StableHlo.TRef.nullary main_call9.cst_1 (constant S_ .f32 0x43000000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x128_S50000_d1 h_S_),
    StableHlo.TRef.unary main_call9.v9 main_call9.v10 (broadcastInDim S50000x1 ![0] bcast_S50000_S50000x1_0),
    StableHlo.TRef.unary main_call9.v8 main_call9.v11 (broadcastInDim S50000x1 ![] bcast_S_S50000x1),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary (main_call9.cst_4 : StableHlo.TRef sig ⟨S_, .f32⟩) main_call9.call0.v0 id,
    StableHlo.TRef.unary main_call9.call0.v0 main_call9.call0.v1 (broadcastInDim S50000x1 ![] bcast_S_S50000x1),
    StableHlo.TRef.ternary (main_call9.v13 : StableHlo.TRef sig ⟨S_, .i1⟩) (main_call9.v12 : StableHlo.TRef sig ⟨S50000x1, .f32⟩) main_call9.call0.v1 main_call9.call0.v2 (fun p a b => select (broadcastInDim S50000x1 ![] bcast_S_S50000x1 p) a b),
    StableHlo.unary main_v479 main_v481 (broadcastInDim S50000x128 ![0, 1] bcast_S50000x1_S50000x128_0_1 : (⟨S50000x1, .f32⟩ : BufTy).Contents (Elt F) → (⟨S50000x128, .f32⟩ : BufTy).Contents (Elt F)),
    StableHlo.binary main_v473 main_v481 main_v482 (subf : (⟨S50000x128, .f32⟩ : BufTy).Contents (Elt F) → (⟨S50000x128, .f32⟩ : BufTy).Contents (Elt F) → (⟨S50000x128, .f32⟩ : BufTy).Contents (Elt F)),
    StableHlo.nullary main_cst_82 (constant S_ .f32 0x3727C5AC#32),
    StableHlo.unary main_cst_82 main_v483 (broadcastInDim S50000x1 ![] bcast_S_S50000x1 : (⟨S_, .f32⟩ : BufTy).Contents (Elt F) → (⟨S50000x1, .f32⟩ : BufTy).Contents (Elt F)),
    StableHlo.binary main_v480 main_v483 main_v484 (addf : (⟨S50000x1, .f32⟩ : BufTy).Contents (Elt F) → (⟨S50000x1, .f32⟩ : BufTy).Contents (Elt F) → (⟨S50000x1, .f32⟩ : BufTy).Contents (Elt F)),
    StableHlo.unary main_v484 main_v485 (Host.sqrt : (⟨S50000x1, .f32⟩ : BufTy).Contents (Elt F) → (⟨S50000x1, .f32⟩ : BufTy).Contents (Elt F)),
    StableHlo.unary main_v485 main_v486 (broadcastInDim S50000x128 ![0, 1] bcast_S50000x1_S50000x128_0_1 : (⟨S50000x1, .f32⟩ : BufTy).Contents (Elt F) → (⟨S50000x128, .f32⟩ : BufTy).Contents (Elt F)),
    StableHlo.binary main_v482 main_v486 main_v487 (Host.divf : (⟨S50000x128, .f32⟩ : BufTy).Contents (Elt F) → (⟨S50000x128, .f32⟩ : BufTy).Contents (Elt F) → (⟨S50000x128, .f32⟩ : BufTy).Contents (Elt F)),
    StableHlo.unary main_v475 main_v488 ((extractStridedSlice S1x128 ![0, 0] · slices_S2x128_S1x128_0_0) : (⟨S2x128, .f32⟩ : BufTy).Contents (Elt F) → (⟨S1x128, .f32⟩ : BufTy).Contents (Elt F)),
    StableHlo.reshape main_v488 main_v489 rfl shapeCasts_S1x128_S128,
    StableHlo.unary main_v489 main_v490 (broadcastInDim S1x128 ![1] bcast_S128_S1x128_1 : (⟨S128, .f32⟩ : BufTy).Contents (Elt F) → (⟨S1x128, .f32⟩ : BufTy).Contents (Elt F)),
    StableHlo.unary main_v490 main_v491 (broadcastInDim S50000x128 ![0, 1] bcast_S1x128_S50000x128_0_1 : (⟨S1x128, .f32⟩ : BufTy).Contents (Elt F) → (⟨S50000x128, .f32⟩ : BufTy).Contents (Elt F)),
    StableHlo.binary main_v487 main_v491 main_v492 (mulf : (⟨S50000x128, .f32⟩ : BufTy).Contents (Elt F) → (⟨S50000x128, .f32⟩ : BufTy).Contents (Elt F) → (⟨S50000x128, .f32⟩ : BufTy).Contents (Elt F)),
    StableHlo.unary main_v475 main_v493 ((extractStridedSlice S1x128 ![1, 0] · slices_S2x128_S1x128_1_0) : (⟨S2x128, .f32⟩ : BufTy).Contents (Elt F) → (⟨S1x128, .f32⟩ : BufTy).Contents (Elt F)),
    StableHlo.reshape main_v493 main_v494 rfl shapeCasts_S1x128_S128,
    StableHlo.unary main_v494 main_v495 (broadcastInDim S1x128 ![1] bcast_S128_S1x128_1 : (⟨S128, .f32⟩ : BufTy).Contents (Elt F) → (⟨S1x128, .f32⟩ : BufTy).Contents (Elt F)),
    StableHlo.unary main_v495 main_v496 (broadcastInDim S50000x128 ![0, 1] bcast_S1x128_S50000x128_0_1 : (⟨S1x128, .f32⟩ : BufTy).Contents (Elt F) → (⟨S50000x128, .f32⟩ : BufTy).Contents (Elt F)),
    StableHlo.binary main_v492 main_v496 main_v497 (addf : (⟨S50000x128, .f32⟩ : BufTy).Contents (Elt F) → (⟨S50000x128, .f32⟩ : BufTy).Contents (Elt F) → (⟨S50000x128, .f32⟩ : BufTy).Contents (Elt F)),
    StableHlo.TRef.nullary main_call10.cst (constant S_ .f32 0x00000000#32),
    StableHlo.TRef.unary main_call10.cst main_call10.v0 (broadcastInDim S50000x128 ![] bcast_S_S50000x128),
    StableHlo.TRef.binary (.of main_v497 : StableHlo.TRef sig ⟨S50000x128, .f32⟩) main_call10.v0 main_call10.v1 maximumf,
    StableHlo.unary main_arg19 main_v499 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v499 main_v500 rfl shapeCasts_S1x128x128_S128x128,
    StableHlo.unary main_v500 main_v501 ((transpose S128x128 [1, 0] · transposes_S128x128_S128x128_1_0) : (⟨S128x128, .f32⟩ : BufTy).Contents (Elt F) → (⟨S128x128, .f32⟩ : BufTy).Contents (Elt F)),
    StableHlo.binary main_v498 main_v501 main_v502 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg20 main_v503 ((extractStridedSlice S1x2x128 ![0, 0, 0] · slices_S4x2x128_S1x2x128_0_0_0) : (⟨S4x2x128, .f32⟩ : BufTy).Contents (Elt F) → (⟨S1x2x128, .f32⟩ : BufTy).Contents (Elt F)),
    StableHlo.reshape main_v503 main_v504 rfl shapeCasts_S1x2x128_S2x128,
    StableHlo.nullary main_cst_83 (constant S_ .f32 0x00000000#32),
    StableHlo.binary main_v502 main_cst_83 main_v505 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v505 main_v506 (broadcastInDim S50000x1 ![0] bcast_S50000_S50000x1_0 : (⟨S50000, .f32⟩ : BufTy).Contents (Elt F) → (⟨S50000x1, .f32⟩ : BufTy).Contents (Elt F)),
    StableHlo.nullary main_cst_84 (constant S_ .f32 0x43000000#32),
    StableHlo.unary main_cst_84 main_v507 (broadcastInDim S50000x1 ![] bcast_S_S50000x1 : (⟨S_, .f32⟩ : BufTy).Contents (Elt F) → (⟨S50000x1, .f32⟩ : BufTy).Contents (Elt F)),
    StableHlo.binary main_v506 main_v507 main_v508 (Host.divf : (⟨S50000x1, .f32⟩ : BufTy).Contents (Elt F) → (⟨S50000x1, .f32⟩ : BufTy).Contents (Elt F) → (⟨S50000x1, .f32⟩ : BufTy).Contents (Elt F)),
    StableHlo.nullary main_c_85 (constantI S_ 32 0#32),
    StableHlo.TRef.nullary main_call11.cst (constant S_ .f32 0x00000000#32),
    StableHlo.TRef.binary (.of main_v502 : StableHlo.TRef sig ⟨S50000x128, .f32⟩) main_call11.cst main_call11.v0 (fun x v => Host.reduceAdd x v reducesTo_S50000x128_S50000_d1 h_S_),
    StableHlo.TRef.unary main_call11.v0 main_call11.v1 (broadcastInDim S50000x1 ![0] bcast_S50000_S50000x1_0),
    StableHlo.TRef.nullary main_call11.cst_0 (constant S_ .f32 0x43000000#32),
    StableHlo.TRef.unary main_call11.cst_0 main_call11.v2 (broadcastInDim S50000x1 ![] bcast_S_S50000x1),
    StableHlo.TRef.binary main_call11.v1 main_call11.v2 main_call11.v3 Host.divf,
    StableHlo.TRef.unary main_call11.v3 main_call11.v4 (broadcastInDim S50000x128 ![0, 1] bcast_S50000x1_S50000x128_0_1),
    StableHlo.TRef.binary (.of main_v502 : StableHlo.TRef sig ⟨S50000x128, .f32⟩) main_call11.v4 main_call11.v5 subf,
    StableHlo.TRef.binary main_call11.v5 main_call11.v5 main_call11.v6 mulf,
    StableHlo.TRef.unary (.of main_c_85 : StableHlo.TRef sig ⟨S_, .i32⟩) main_call11.v7 (sitofp .f32),
    StableHlo.TRef.nullary main_call11.cst_1 (constant S_ .f32 0x43000000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S50000x128_S50000_d1 h_S_),
    StableHlo.TRef.unary main_call11.v9 main_call11.v10 (broadcastInDim S50000x1 ![0] bcast_S50000_S50000x1_0),
    StableHlo.TRef.unary main_call11.v8 main_call11.v11 (broadcastInDim S50000x1 ![] bcast_S_S50000x1),
    StableHlo.TRef.binary main_call11.v10 main_call11.v11 main_call11.v12 Host.divf,
    StableHlo.TRef.nullary main_call11.cst_3 (constant S_ .f32 0x00000000#32),
    StableHlo.TRef.binary main_call11.v8 main_call11.cst_3 main_call11.v13 (cmpf .ogt),
    StableHlo.TRef.nullary main_call11.cst_4 (constant S_ .f32 0x7FC00000#32),
    StableHlo.TRef.unary (main_call11.cst_4 : StableHlo.TRef sig ⟨S_, .f32⟩) main_call11.call0.v0 id,
    StableHlo.TRef.unary main_call11.call0.v0 main_call11.call0.v1 (broadcastInDim S50000x1 ![] bcast_S_S50000x1),
    StableHlo.TRef.ternary (main_call11.v13 : StableHlo.TRef sig ⟨S_, .i1⟩) (main_call11.v12 : StableHlo.TRef sig ⟨S50000x1, .f32⟩) main_call11.call0.v1 main_call11.call0.v2 (fun p a b => select (broadcastInDim S50000x1 ![] bcast_S_S50000x1 p) a b),
    StableHlo.unary main_v508 main_v510 (broadcastInDim S50000x128 ![0, 1] bcast_S50000x1_S50000x128_0_1 : (⟨S50000x1, .f32⟩ : BufTy).Contents (Elt F) → (⟨S50000x128, .f32⟩ : BufTy).Contents (Elt F)),
    StableHlo.binary main_v502 main_v510 main_v511 (subf : (⟨S50000x128, .f32⟩ : BufTy).Contents (Elt F) → (⟨S50000x128, .f32⟩ : BufTy).Contents (Elt F) → (⟨S50000x128, .f32⟩ : BufTy).Contents (Elt F)) ]

/-- The buffers they write, in order. -/
abbrev chunk9_W : List (Ref sig .tc) :=
  [main_v461, main_v462, main_v463, main_v464, main_v465, main_v466, main_c_77, main_v467, main_v468, main_c_78, main_v469, main_v470, main_v471, main_v472, main_v473, main_v474, main_v475, main_cst_79, main_v476, main_v477, main_cst_80, main_v478, main_v479, main_c_81, main_call9.cst.ref, main_call9.v0.ref, main_call9.v1.ref, main_call9.cst_0.ref, main_call9.v2.ref, main_call9.v3.ref, main_call9.v4.ref, main_call9.v5.ref, main_call9.v6.ref, main_call9.v7.ref, main_call9.cst_1.ref, main_call9.v8.ref, main_call9.cst_2.ref, main_call9.v9.ref, main_call9.v10.ref, main_call9.v11.ref, main_call9.v12.ref, main_call9.cst_3.ref, main_call9.v13.ref, main_call9.cst_4.ref, main_call9.call0.v0.ref, main_call9.call0.v1.ref, main_call9.call0.v2.ref, main_v481, main_v482, main_cst_82, main_v483, main_v484, main_v485, main_v486, main_v487, main_v488, main_v489, main_v490, main_v491, main_v492, main_v493, main_v494, main_v495, main_v496, main_v497, main_call10.cst.ref, main_call10.v0.ref, main_call10.v1.ref, main_v499, main_v500, main_v501, main_v502, main_v503, main_v504, main_cst_83, main_v505, main_v506, main_cst_84, main_v507, main_v508, main_c_85, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.v12.ref, main_call11.cst_3.ref, main_call11.v13.ref, main_call11.cst_4.ref, main_call11.call0.v0.ref, main_call11.call0.v1.ref, main_call11.call0.v2.ref, main_v510, main_v511]

end Cert.ReferenceIdeal.RefRun

end
-- ==== Proof.RRunChk09.lean ====
/- TABLES over the operations of window `main_part9` (module RRunOps09): one term per operation for each side condition of
   the run, around the one proof text every window shares. -/
import proofs.«413166_j32323923870246_3_alg».proof.Proof.RRunOps09
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part9_eq (c : Dev nD) : main_part9 (F := F) c = seq chunk9 := by
  simp only [main_part9, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk9_sub : (chunk9 : List (HloOp τ sig (Elt F))).Forall fun op => op.bufs ⊆ tcRefs τ sig :=
  ⟨unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub ..⟩

set_option maxRecDepth 16384 in
/-- Every operation determines its result. -/
theorem chunk9_fresh : ∀ op ∈ (chunk9 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk9 : List (HloOp τ sig (Elt F))).Forall fun op => op.fresh = ∅)

set_option maxRecDepth 16384 in
/-- Each operation writes one buffer of the list. -/
theorem chunk9_writes : (chunk9 : List (HloOp τ sig (Elt F))).Forall fun op =>
    op.writes ⊆ (chunk9_W.map (Proc.devRef (τ := τ) .tc)).toFinset :=
  ⟨writes_sub_of_mem main_v461 rfl (by decide),
    writes_sub_of_mem main_v462 rfl (by decide),
    writes_sub_of_mem main_v463 rfl (by decide),
    writes_sub_of_mem main_v464 rfl (by decide),
    writes_sub_of_mem main_v465 rfl (by decide),
    writes_sub_of_mem main_v466 rfl (by decide),
    writes_sub_of_mem main_c_77 rfl (by decide),
    writes_sub_of_mem main_v467 rfl (by decide),
    writes_sub_of_mem main_v468 rfl (by decide),
    writes_sub_of_mem main_c_78 rfl (by decide),
    writes_sub_of_mem main_v469 rfl (by decide),
    writes_sub_of_mem main_v470 rfl (by decide),
    writes_sub_of_mem main_v471 rfl (by decide),
    writes_sub_of_mem main_v472 rfl (by decide),
    writes_sub_of_mem main_v473 rfl (by decide),
    writes_sub_of_mem main_v474 rfl (by decide),
    writes_sub_of_mem main_v475 rfl (by decide),
    writes_sub_of_mem main_cst_79 rfl (by decide),
    writes_sub_of_mem main_v476 rfl (by decide),
    writes_sub_of_mem main_v477 rfl (by decide),
    writes_sub_of_mem main_cst_80 rfl (by decide),
    writes_sub_of_mem main_v478 rfl (by decide),
    writes_sub_of_mem main_v479 rfl (by decide),
    writes_sub_of_mem main_c_81 rfl (by decide),
    writes_sub_of_mem main_call9.cst.ref rfl (by decide),
    writes_sub_of_mem main_call9.v0.ref rfl (by decide),
    writes_sub_of_mem main_call9.v1.ref rfl (by decide),
    writes_sub_of_mem main_call9.cst_0.ref rfl (by decide),
    writes_sub_of_mem main_call9.v2.ref rfl (by decide),
    writes_sub_of_mem main_call9.v3.ref rfl (by decide),
    writes_sub_of_mem main_call9.v4.ref rfl (by decide),
    writes_sub_of_mem main_call9.v5.ref rfl (by decide),
    writes_sub_of_mem main_call9.v6.ref rfl (by decide),
    writes_sub_of_mem main_call9.v7.ref rfl (by decide),
    writes_sub_of_mem main_call9.cst_1.ref rfl (by decide),
    writes_sub_of_mem main_call9.v8.ref rfl (by decide),
    writes_sub_of_mem main_call9.cst_2.ref rfl (by decide),
    writes_sub_of_mem main_call9.v9.ref rfl (by decide),
    writes_sub_of_mem main_call9.v10.ref rfl (by decide),
    writes_sub_of_mem main_call9.v11.ref rfl (by decide),
    writes_sub_of_mem main_call9.v12.ref rfl (by decide),
    writes_sub_of_mem main_call9.cst_3.ref rfl (by decide),
    writes_sub_of_mem main_call9.v13.ref rfl (by decide),
    writes_sub_of_mem main_call9.cst_4.ref rfl (by decide),
    writes_sub_of_mem main_call9.call0.v0.ref rfl (by decide),
    writes_sub_of_mem main_call9.call0.v1.ref rfl (by decide),
    writes_sub_of_mem main_call9.call0.v2.ref rfl (by decide),
    writes_sub_of_mem main_v481 rfl (by decide),
    writes_sub_of_mem main_v482 rfl (by decide),
    writes_sub_of_mem main_cst_82 rfl (by decide),
    writes_sub_of_mem main_v483 rfl (by decide),
    writes_sub_of_mem main_v484 rfl (by decide),
    writes_sub_of_mem main_v485 rfl (by decide),
    writes_sub_of_mem main_v486 rfl (by decide),
    writes_sub_of_mem main_v487 rfl (by decide),
    writes_sub_of_mem main_v488 rfl (by decide),
    writes_sub_of_mem main_v489 rfl (by decide),
    writes_sub_of_mem main_v490 rfl (by decide),
    writes_sub_of_mem main_v491 rfl (by decide),
    writes_sub_of_mem main_v492 rfl (by decide),
    writes_sub_of_mem main_v493 rfl (by decide),
    writes_sub_of_mem main_v494 rfl (by decide),
    writes_sub_of_mem main_v495 rfl (by decide),
    writes_sub_of_mem main_v496 rfl (by decide),
    writes_sub_of_mem main_v497 rfl (by decide),
    writes_sub_of_mem main_call10.cst.ref rfl (by decide),
    writes_sub_of_mem main_call10.v0.ref rfl (by decide),
    writes_sub_of_mem main_call10.v1.ref rfl (by decide),
    writes_sub_of_mem main_v499 rfl (by decide),
    writes_sub_of_mem main_v500 rfl (by decide),
    writes_sub_of_mem main_v501 rfl (by decide),
    writes_sub_of_mem main_v502 rfl (by decide),
    writes_sub_of_mem main_v503 rfl (by decide),
    writes_sub_of_mem main_v504 rfl (by decide),
    writes_sub_of_mem main_cst_83 rfl (by decide),
    writes_sub_of_mem main_v505 rfl (by decide),
    writes_sub_of_mem main_v506 rfl (by decide),
    writes_sub_of_mem main_cst_84 rfl (by decide),
    writes_sub_of_mem main_v507 rfl (by decide),
    writes_sub_of_mem main_v508 rfl (by decide),
    writes_sub_of_mem main_c_85 rfl (by decide),
    writes_sub_of_mem main_call11.cst.ref rfl (by decide),
    writes_sub_of_mem main_call11.v0.ref rfl (by decide),
    writes_sub_of_mem main_call11.v1.ref rfl (by decide),
    writes_sub_of_mem main_call11.cst_0.ref rfl (by decide),
    writes_sub_of_mem main_call11.v2.ref rfl (by decide),
    writes_sub_of_mem main_call11.v3.ref rfl (by decide),
    writes_sub_of_mem main_call11.v4.ref rfl (by decide),
    writes_sub_of_mem main_call11.v5.ref rfl (by decide),
    writes_sub_of_mem main_call11.v6.ref rfl (by decide),
    writes_sub_of_mem main_call11.v7.ref rfl (by decide),
    writes_sub_of_mem main_call11.cst_1.ref rfl (by decide),
    writes_sub_of_mem main_call11.v8.ref rfl (by decide),
    writes_sub_of_mem main_call11.cst_2.ref rfl (by decide),
    writes_sub_of_mem main_call11.v9.ref rfl (by decide),
    writes_sub_of_mem main_call11.v10.ref rfl (by decide),
    writes_sub_of_mem main_call11.v11.ref rfl (by decide),
    writes_sub_of_mem main_call11.v12.ref rfl (by decide),
    writes_sub_of_mem main_call11.cst_3.ref rfl (by decide),
    writes_sub_of_mem main_call11.v13.ref rfl (by decide),
    writes_sub_of_mem main_call11.cst_4.ref rfl (by decide),
    writes_sub_of_mem main_call11.call0.v0.ref rfl (by decide),
    writes_sub_of_mem main_call11.call0.v1.ref rfl (by decide),
    writes_sub_of_mem main_call11.call0.v2.ref rfl (by decide),
    writes_sub_of_mem main_v510 rfl (by decide),
    writes_sub_of_mem main_v511 rfl (by decide)⟩

/-- A buffer the window does not write keeps its contents through it. -/
theorem chunk9_keep (V : Valuation τ sig (Elt F)) (r : Ref sig .tc) (h : r ∉ chunk9_W) :
    after chunk9 V (Proc.devRef .tc r) = V (Proc.devRef .tc r) :=
  after_of_writes_sub chunk9 V chunk9_writes h

end Cert.ReferenceIdeal.RefRun

end
-- ==== Proof.RRunOps10.lean ====
/- TABLES transcribed from proof/ReferenceIdeal.lean: window `main_part10` of the reference's @main as a list of host
   operations (62: 745 … 806 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part10`, in order, the calls unfolded. -/
abbrev chunk10 : List (HloOp τ sig (Elt F)) :=
  [ StableHlo.nullary main_cst_86 (constant S_ .f32 0x3727C5AC#32),
    StableHlo.unary main_cst_86 main_v512 (broadcastInDim S50000x1 ![] bcast_S_S50000x1 : (⟨S_, .f32⟩ : BufTy).Contents (Elt F) → (⟨S50000x1, .f32⟩ : BufTy).Contents (Elt F)),
    StableHlo.binary main_v509 main_v512 main_v513 (addf : (⟨S50000x1, .f32⟩ : BufTy).Contents (Elt F) → (⟨S50000x1, .f32⟩ : BufTy).Contents (Elt F) → (⟨S50000x1, .f32⟩ : BufTy).Contents (Elt F)),
    StableHlo.unary main_v513 main_v514 (Host.sqrt : (⟨S50000x1, .f32⟩ : BufTy).Contents (Elt F) → (⟨S50000x1, .f32⟩ : BufTy).Contents (Elt F)),
    StableHlo.unary main_v514 main_v515 (broadcastInDim S50000x128 ![0, 1] bcast_S50000x1_S50000x128_0_1 : (⟨S50000x1, .f32⟩ : BufTy).Contents (Elt F) → (⟨S50000x128, .f32⟩ : BufTy).Contents (Elt F)),
    StableHlo.binary main_v511 main_v515 main_v516 (Host.divf : (⟨S50000x128, .f32⟩ : BufTy).Contents (Elt F) → (⟨S50000x128, .f32⟩ : BufTy).Contents (Elt F) → (⟨S50000x128, .f32⟩ : BufTy).Contents (Elt F)),
    StableHlo.unary main_v504 main_v517 ((extractStridedSlice S1x128 ![0, 0] · slices_S2x128_S1x128_0_0) : (⟨S2x128, .f32⟩ : BufTy).Contents (Elt F) → (⟨S1x128, .f32⟩ : BufTy).Contents (Elt F)),
    StableHlo.reshape main_v517 main_v518 rfl shapeCasts_S1x128_S128,
    StableHlo.unary main_v518 main_v519 (broadcastInDim S1x128 ![1] bcast_S128_S1x128_1 : (⟨S128, .f32⟩ : BufTy).Contents (Elt F) → (⟨S1x128, .f32⟩ : BufTy).Contents (Elt F)),
    StableHlo.unary main_v519 main_v520 (broadcastInDim S50000x128 ![0, 1] bcast_S1x128_S50000x128_0_1 : (⟨S1x128, .f32⟩ : BufTy).Contents (Elt F) → (⟨S50000x128, .f32⟩ : BufTy).Contents (Elt F)),
    StableHlo.binary main_v516 main_v520 main_v521 (mulf : (⟨S50000x128, .f32⟩ : BufTy).Contents (Elt F) → (⟨S50000x128, .f32⟩ : BufTy).Contents (Elt F) → (⟨S50000x128, .f32⟩ : BufTy).Contents (Elt F)),
    StableHlo.unary main_v504 main_v522 ((extractStridedSlice S1x128 ![1, 0] · slices_S2x128_S1x128_1_0) : (⟨S2x128, .f32⟩ : BufTy).Contents (Elt F) → (⟨S1x128, .f32⟩ : BufTy).Contents (Elt F)),
    StableHlo.reshape main_v522 main_v523 rfl shapeCasts_S1x128_S128,
    StableHlo.unary main_v523 main_v524 (broadcastInDim S1x128 ![1] bcast_S128_S1x128_1 : (⟨S128, .f32⟩ : BufTy).Contents (Elt F) → (⟨S1x128, .f32⟩ : BufTy).Contents (Elt F)),
    StableHlo.unary main_v524 main_v525 (broadcastInDim S50000x128 ![0, 1] bcast_S1x128_S50000x128_0_1 : (⟨S1x128, .f32⟩ : BufTy).Contents (Elt F) → (⟨S50000x128, .f32⟩ : BufTy).Contents (Elt F)),
    StableHlo.binary main_v521 main_v525 main_v526 (addf : (⟨S50000x128, .f32⟩ : BufTy).Contents (Elt F) → (⟨S50000x128, .f32⟩ : BufTy).Contents (Elt F) → (⟨S50000x128, .f32⟩ : BufTy).Contents (Elt F)),
    StableHlo.binary main_v526 main_v161 main_v527 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v527 : StableHlo.TRef sig ⟨S50000x128, .f32⟩) main_call12.v0 main_call12.v1 maximumf,
    StableHlo.unary main_arg14 main_v529 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v529 main_v530 rfl shapeCasts_S1x128x128_S128x128,
    StableHlo.unary main_v530 main_v531 ((transpose S128x128 [1, 0] · transposes_S128x128_S128x128_1_0) : (⟨S128x128, .f32⟩ : BufTy).Contents (Elt F) → (⟨S128x128, .f32⟩ : BufTy).Contents (Elt F)),
    StableHlo.binary main_v528 main_v531 main_v532 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg25 main_v533 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v533 main_v534 rfl shapeCasts_S1x50000_S50000,
    StableHlo.unary main_arg26 main_v535 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v535 main_v536 rfl shapeCasts_S1x50000_S50000,
    StableHlo.nullary main_c_87 (constantI S_ 32 0#32),
    StableHlo.unary main_c_87 main_v537 (broadcastInDim S50000 ![] bcast_S_S50000 : (⟨S_, .i32⟩ : BufTy).Contents (Elt F) → (⟨S50000, .i32⟩ : BufTy).Contents (Elt F)),
    StableHlo.binary main_v536 main_v537 main_v538 (cmpi .slt : (⟨S50000, .i32⟩ : BufTy).Contents (Elt F) → (⟨S50000, .i32⟩ : BufTy).Contents (Elt F) → (⟨S50000, .i1⟩ : BufTy).Contents (Elt F)),
    StableHlo.nullary main_c_88 (constantI S_ 32 50000#32),
    StableHlo.unary main_c_88 main_v539 (broadcastInDim S50000 ![] bcast_S_S50000 : (⟨S_, .i32⟩ : BufTy).Contents (Elt F) → (⟨S50000, .i32⟩ : BufTy).Contents (Elt F)),
    StableHlo.binary main_v536 main_v539 main_v540 (addi : (⟨S50000, .i32⟩ : BufTy).Contents (Elt F) → (⟨S50000, .i32⟩ : BufTy).Contents (Elt F) → (⟨S50000, .i32⟩ : BufTy).Contents (Elt F)),
    StableHlo.ternary main_v538 main_v540 main_v536 main_v541 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v541 main_v542 (broadcastInDim S50000x1 ![0] bcast_S50000_S50000x1_0 : (⟨S50000, .i32⟩ : BufTy).Contents (Elt F) → (⟨S50000x1, .i32⟩ : BufTy).Contents (Elt F)),
    StableHlo.binary main_v528 main_v542 main_v543 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v544 ((extractStridedSlice S1x1x128x128 ![1, 0, 0, 0] · slices_S4x12x128x128_S1x1x128x128_1_0_0_0) : (⟨S4x12x128x128, .f32⟩ : BufTy).Contents (Elt F) → (⟨S1x1x128x128, .f32⟩ : BufTy).Contents (Elt F)),
    StableHlo.reshape main_v544 main_v545 rfl shapeCasts_S1x1x128x128_S128x128,
    StableHlo.unary main_v545 main_v546 ((transpose S128x128 [1, 0] · transposes_S128x128_S128x128_1_0) : (⟨S128x128, .f32⟩ : BufTy).Contents (Elt F) → (⟨S128x128, .f32⟩ : BufTy).Contents (Elt F)),
    StableHlo.binary main_v543 main_v546 main_v547 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_89 (constantI S_ 32 0#32),
    StableHlo.unary main_c_89 main_v548 (broadcastInDim S50000 ![] bcast_S_S50000 : (⟨S_, .i32⟩ : BufTy).Contents (Elt F) → (⟨S50000, .i32⟩ : BufTy).Contents (Elt F)),
    StableHlo.binary main_v534 main_v548 main_v549 (cmpi .slt : (⟨S50000, .i32⟩ : BufTy).Contents (Elt F) → (⟨S50000, .i32⟩ : BufTy).Contents (Elt F) → (⟨S50000, .i1⟩ : BufTy).Contents (Elt F)),
    StableHlo.nullary main_c_90 (constantI S_ 32 50000#32),
    StableHlo.unary main_c_90 main_v550 (broadcastInDim S50000 ![] bcast_S_S50000 : (⟨S_, .i32⟩ : BufTy).Contents (Elt F) → (⟨S50000, .i32⟩ : BufTy).Contents (Elt F)),
    StableHlo.binary main_v534 main_v550 main_v551 (addi : (⟨S50000, .i32⟩ : BufTy).Contents (Elt F) → (⟨S50000, .i32⟩ : BufTy).Contents (Elt F) → (⟨S50000, .i32⟩ : BufTy).Contents (Elt F)),
    StableHlo.ternary main_v549 main_v551 main_v534 main_v552 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v552 main_v553 (broadcastInDim S50000x1 ![0] bcast_S50000_S50000x1_0 : (⟨S50000, .i32⟩ : BufTy).Contents (Elt F) → (⟨S50000x1, .i32⟩ : BufTy).Contents (Elt F)),
    StableHlo.ternary main_v532 main_v553 main_v547 main_v554 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v555 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v555 main_v556 rfl shapeCasts_S1x50000_S50000,
    StableHlo.unary main_arg26 main_v557 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v557 main_v558 rfl shapeCasts_S1x50000_S50000,
    StableHlo.nullary main_c_91 (constantI S_ 32 0#32),
    StableHlo.unary main_c_91 main_v559 (broadcastInDim S50000 ![] bcast_S_S50000 : (⟨S_, .i32⟩ : BufTy).Contents (Elt F) → (⟨S50000, .i32⟩ : BufTy).Contents (Elt F)),
    StableHlo.binary main_v558 main_v559 main_v560 (cmpi .slt : (⟨S50000, .i32⟩ : BufTy).Contents (Elt F) → (⟨S50000, .i32⟩ : BufTy).Contents (Elt F) → (⟨S50000, .i1⟩ : BufTy).Contents (Elt F)),
    StableHlo.nullary main_c_92 (constantI S_ 32 50000#32),
    StableHlo.unary main_c_92 main_v561 (broadcastInDim S50000 ![] bcast_S_S50000 : (⟨S_, .i32⟩ : BufTy).Contents (Elt F) → (⟨S50000, .i32⟩ : BufTy).Contents (Elt F)),
    StableHlo.binary main_v558 main_v561 main_v562 (addi : (⟨S50000, .i32⟩ : BufTy).Contents (Elt F) → (⟨S50000, .i32⟩ : BufTy).Contents (Elt F) → (⟨S50000, .i32⟩ : BufTy).Contents (Elt F)),
    StableHlo.ternary main_v560 main_v562 main_v558 main_v563 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v563 main_v564 (broadcastInDim S50000x1 ![0] bcast_S50000_S50000x1_0 : (⟨S50000, .i32⟩ : BufTy).Contents (Elt F) → (⟨S50000x1, .i32⟩ : BufTy).Contents (Elt F)) ]

/-- The buffers they write, in order. -/
abbrev chunk10_W : List (Ref sig .tc) :=
  [main_cst_86, main_v512, main_v513, main_v514, main_v515, main_v516, main_v517, main_v518, main_v519, main_v520, main_v521, main_v522, main_v523, main_v524, main_v525, main_v526, main_v527, main_call12.cst.ref, main_call12.v0.ref, main_call12.v1.ref, main_v529, main_v530, main_v531, main_v532, main_v533, main_v534, main_v535, main_v536, main_c_87, main_v537, main_v538, main_c_88, main_v539, main_v540, main_v541, main_v542, main_v543, main_v544, main_v545, main_v546, main_v547, main_c_89, main_v548, main_v549, main_c_90, main_v550, main_v551, main_v552, main_v553, main_v554, main_v555, main_v556, main_v557, main_v558, main_c_91, main_v559, main_v560, main_c_92, main_v561, main_v562, main_v563, main_v564]

end Cert.ReferenceIdeal.RefRun

end
-- ==== Proof.RRunChk10.lean ====
/- TABLES over the operations of window `main_part10` (module RRunOps10): one term per operation for each side condition of
   the run, around the one proof text every window shares. -/
import proofs.«413166_j32323923870246_3_alg».proof.Proof.RRunOps10
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part10_eq (c : Dev nD) : main_part10 (F := F) c = seq chunk10 := by
  simp only [main_part10, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk10_sub : (chunk10 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩

set_option maxRecDepth 16384 in
/-- Every operation determines its result. -/
theorem chunk10_fresh : ∀ op ∈ (chunk10 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk10 : List (HloOp τ sig (Elt F))).Forall fun op => op.fresh = ∅)

set_option maxRecDepth 16384 in
/-- Each operation writes one buffer of the list. -/
theorem chunk10_writes : (chunk10 : List (HloOp τ sig (Elt F))).Forall fun op =>
    op.writes ⊆ (chunk10_W.map (Proc.devRef (τ := τ) .tc)).toFinset :=
  ⟨writes_sub_of_mem main_cst_86 rfl (by decide),
    writes_sub_of_mem main_v512 rfl (by decide),
    writes_sub_of_mem main_v513 rfl (by decide),
    writes_sub_of_mem main_v514 rfl (by decide),
    writes_sub_of_mem main_v515 rfl (by decide),
    writes_sub_of_mem main_v516 rfl (by decide),
    writes_sub_of_mem main_v517 rfl (by decide),
    writes_sub_of_mem main_v518 rfl (by decide),
    writes_sub_of_mem main_v519 rfl (by decide),
    writes_sub_of_mem main_v520 rfl (by decide),
    writes_sub_of_mem main_v521 rfl (by decide),
    writes_sub_of_mem main_v522 rfl (by decide),
    writes_sub_of_mem main_v523 rfl (by decide),
    writes_sub_of_mem main_v524 rfl (by decide),
    writes_sub_of_mem main_v525 rfl (by decide),
    writes_sub_of_mem main_v526 rfl (by decide),
    writes_sub_of_mem main_v527 rfl (by decide),
    writes_sub_of_mem main_call12.cst.ref rfl (by decide),
    writes_sub_of_mem main_call12.v0.ref rfl (by decide),
    writes_sub_of_mem main_call12.v1.ref rfl (by decide),
    writes_sub_of_mem main_v529 rfl (by decide),
    writes_sub_of_mem main_v530 rfl (by decide),
    writes_sub_of_mem main_v531 rfl (by decide),
    writes_sub_of_mem main_v532 rfl (by decide),
    writes_sub_of_mem main_v533 rfl (by decide),
    writes_sub_of_mem main_v534 rfl (by decide),
    writes_sub_of_mem main_v535 rfl (by decide),
    writes_sub_of_mem main_v536 rfl (by decide),
    writes_sub_of_mem main_c_87 rfl (by decide),
    writes_sub_of_mem main_v537 rfl (by decide),
    writes_sub_of_mem main_v538 rfl (by decide),
    writes_sub_of_mem main_c_88 rfl (by decide),
    writes_sub_of_mem main_v539 rfl (by decide),
    writes_sub_of_mem main_v540 rfl (by decide),
    writes_sub_of_mem main_v541 rfl (by decide),
    writes_sub_of_mem main_v542 rfl (by decide),
    writes_sub_of_mem main_v543 rfl (by decide),
    writes_sub_of_mem main_v544 rfl (by decide),
    writes_sub_of_mem main_v545 rfl (by decide),
    writes_sub_of_mem main_v546 rfl (by decide),
    writes_sub_of_mem main_v547 rfl (by decide),
    writes_sub_of_mem main_c_89 rfl (by decide),
    writes_sub_of_mem main_v548 rfl (by decide),
    writes_sub_of_mem main_v549 rfl (by decide),
    writes_sub_of_mem main_c_90 rfl (by decide),
    writes_sub_of_mem main_v550 rfl (by decide),
    writes_sub_of_mem main_v551 rfl (by decide),
    writes_sub_of_mem main_v552 rfl (by decide),
    writes_sub_of_mem main_v553 rfl (by decide),
    writes_sub_of_mem main_v554 rfl (by decide),
    writes_sub_of_mem main_v555 rfl (by decide),
    writes_sub_of_mem main_v556 rfl (by decide),
    writes_sub_of_mem main_v557 rfl (by decide),
    writes_sub_of_mem main_v558 rfl (by decide),
    writes_sub_of_mem main_c_91 rfl (by decide),
    writes_sub_of_mem main_v559 rfl (by decide),
    writes_sub_of_mem main_v560 rfl (by decide),
    writes_sub_of_mem main_c_92 rfl (by decide),
    writes_sub_of_mem main_v561 rfl (by decide),
    writes_sub_of_mem main_v562 rfl (by decide),
    writes_sub_of_mem main_v563 rfl (by decide),
    writes_sub_of_mem main_v564 rfl (by decide)⟩

/-- A buffer the window does not write keeps its contents through it. -/
theorem chunk10_keep (V : Valuation τ sig (Elt F)) (r : Ref sig .tc) (h : r ∉ chunk10_W) :
    after chunk10 V (Proc.devRef .tc r) = V (Proc.devRef .tc r) :=
  after_of_writes_sub chunk10 V chunk10_writes h

end Cert.ReferenceIdeal.RefRun

end
-- ==== Proof.RRunOps11.lean ====
/- TABLES transcribed from proof/ReferenceIdeal.lean: window `main_part11` of the reference's @main as a list of host
   operations (60: 807 … 866 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part11`, in order, the calls unfolded. -/
abbrev chunk11 : List (HloOp τ sig (Elt F)) :=
  [ StableHlo.binary main_v528 main_v564 main_v565 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v566 ((extractStridedSlice S1x1x128x128 ![1, 1, 0, 0] · slices_S4x12x128x128_S1x1x128x128_1_1_0_0) : (⟨S4x12x128x128, .f32⟩ : BufTy).Contents (Elt F) → (⟨S1x1x128x128, .f32⟩ : BufTy).Contents (Elt F)),
    StableHlo.reshape main_v566 main_v567 rfl shapeCasts_S1x1x128x128_S128x128,
    StableHlo.unary main_v567 main_v568 ((transpose S128x128 [1, 0] · transposes_S128x128_S128x128_1_0) : (⟨S128x128, .f32⟩ : BufTy).Contents (Elt F) → (⟨S128x128, .f32⟩ : BufTy).Contents (Elt F)),
    StableHlo.binary main_v565 main_v568 main_v569 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_93 (constantI S_ 32 0#32),
    StableHlo.unary main_c_93 main_v570 (broadcastInDim S50000 ![] bcast_S_S50000 : (⟨S_, .i32⟩ : BufTy).Contents (Elt F) → (⟨S50000, .i32⟩ : BufTy).Contents (Elt F)),
    StableHlo.binary main_v556 main_v570 main_v571 (cmpi .slt : (⟨S50000, .i32⟩ : BufTy).Contents (Elt F) → (⟨S50000, .i32⟩ : BufTy).Contents (Elt F) → (⟨S50000, .i1⟩ : BufTy).Contents (Elt F)),
    StableHlo.nullary main_c_94 (constantI S_ 32 50000#32),
    StableHlo.unary main_c_94 main_v572 (broadcastInDim S50000 ![] bcast_S_S50000 : (⟨S_, .i32⟩ : BufTy).Contents (Elt F) → (⟨S50000, .i32⟩ : BufTy).Contents (Elt F)),
    StableHlo.binary main_v556 main_v572 main_v573 (addi : (⟨S50000, .i32⟩ : BufTy).Contents (Elt F) → (⟨S50000, .i32⟩ : BufTy).Contents (Elt F) → (⟨S50000, .i32⟩ : BufTy).Contents (Elt F)),
    StableHlo.ternary main_v571 main_v573 main_v556 main_v574 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v574 main_v575 (broadcastInDim S50000x1 ![0] bcast_S50000_S50000x1_0 : (⟨S50000, .i32⟩ : BufTy).Contents (Elt F) → (⟨S50000x1, .i32⟩ : BufTy).Contents (Elt F)),
    StableHlo.ternary main_v554 main_v575 main_v569 main_v576 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v577 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v577 main_v578 rfl shapeCasts_S1x50000_S50000,
    StableHlo.unary main_arg26 main_v579 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v579 main_v580 rfl shapeCasts_S1x50000_S50000,
    StableHlo.nullary main_c_95 (constantI S_ 32 0#32),
    StableHlo.unary main_c_95 main_v581 (broadcastInDim S50000 ![] bcast_S_S50000 : (⟨S_, .i32⟩ : BufTy).Contents (Elt F) → (⟨S50000, .i32⟩ : BufTy).Contents (Elt F)),
    StableHlo.binary main_v580 main_v581 main_v582 (cmpi .slt : (⟨S50000, .i32⟩ : BufTy).Contents (Elt F) → (⟨S50000, .i32⟩ : BufTy).Contents (Elt F) → (⟨S50000, .i1⟩ : BufTy).Contents (Elt F)),
    StableHlo.nullary main_c_96 (constantI S_ 32 50000#32),
    StableHlo.unary main_c_96 main_v583 (broadcastInDim S50000 ![] bcast_S_S50000 : (⟨S_, .i32⟩ : BufTy).Contents (Elt F) → (⟨S50000, .i32⟩ : BufTy).Contents (Elt F)),
    StableHlo.binary main_v580 main_v583 main_v584 (addi : (⟨S50000, .i32⟩ : BufTy).Contents (Elt F) → (⟨S50000, .i32⟩ : BufTy).Contents (Elt F) → (⟨S50000, .i32⟩ : BufTy).Contents (Elt F)),
    StableHlo.ternary main_v582 main_v584 main_v580 main_v585 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v585 main_v586 (broadcastInDim S50000x1 ![0] bcast_S50000_S50000x1_0 : (⟨S50000, .i32⟩ : BufTy).Contents (Elt F) → (⟨S50000x1, .i32⟩ : BufTy).Contents (Elt F)),
    StableHlo.binary main_v528 main_v586 main_v587 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v588 ((extractStridedSlice S1x1x128x128 ![1, 2, 0, 0] · slices_S4x12x128x128_S1x1x128x128_1_2_0_0) : (⟨S4x12x128x128, .f32⟩ : BufTy).Contents (Elt F) → (⟨S1x1x128x128, .f32⟩ : BufTy).Contents (Elt F)),
    StableHlo.reshape main_v588 main_v589 rfl shapeCasts_S1x1x128x128_S128x128,
    StableHlo.unary main_v589 main_v590 ((transpose S128x128 [1, 0] · transposes_S128x128_S128x128_1_0) : (⟨S128x128, .f32⟩ : BufTy).Contents (Elt F) → (⟨S128x128, .f32⟩ : BufTy).Contents (Elt F)),
    StableHlo.binary main_v587 main_v590 main_v591 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_97 (constantI S_ 32 0#32),
    StableHlo.unary main_c_97 main_v592 (broadcastInDim S50000 ![] bcast_S_S50000 : (⟨S_, .i32⟩ : BufTy).Contents (Elt F) → (⟨S50000, .i32⟩ : BufTy).Contents (Elt F)),
    StableHlo.binary main_v578 main_v592 main_v593 (cmpi .slt : (⟨S50000, .i32⟩ : BufTy).Contents (Elt F) → (⟨S50000, .i32⟩ : BufTy).Contents (Elt F) → (⟨S50000, .i1⟩ : BufTy).Contents (Elt F)),
    StableHlo.nullary main_c_98 (constantI S_ 32 50000#32),
    StableHlo.unary main_c_98 main_v594 (broadcastInDim S50000 ![] bcast_S_S50000 : (⟨S_, .i32⟩ : BufTy).Contents (Elt F) → (⟨S50000, .i32⟩ : BufTy).Contents (Elt F)),
    StableHlo.binary main_v578 main_v594 main_v595 (addi : (⟨S50000, .i32⟩ : BufTy).Contents (Elt F) → (⟨S50000, .i32⟩ : BufTy).Contents (Elt F) → (⟨S50000, .i32⟩ : BufTy).Contents (Elt F)),
    StableHlo.ternary main_v593 main_v595 main_v578 main_v596 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v596 main_v597 (broadcastInDim S50000x1 ![0] bcast_S50000_S50000x1_0 : (⟨S50000, .i32⟩ : BufTy).Contents (Elt F) → (⟨S50000x1, .i32⟩ : BufTy).Contents (Elt F)),
    StableHlo.ternary main_v576 main_v597 main_v591 main_v598 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v599 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v599 main_v600 rfl shapeCasts_S1x50000_S50000,
    StableHlo.unary main_arg26 main_v601 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v601 main_v602 rfl shapeCasts_S1x50000_S50000,
    StableHlo.nullary main_c_99 (constantI S_ 32 0#32),
    StableHlo.unary main_c_99 main_v603 (broadcastInDim S50000 ![] bcast_S_S50000 : (⟨S_, .i32⟩ : BufTy).Contents (Elt F) → (⟨S50000, .i32⟩ : BufTy).Contents (Elt F)),
    StableHlo.binary main_v602 main_v603 main_v604 (cmpi .slt : (⟨S50000, .i32⟩ : BufTy).Contents (Elt F) → (⟨S50000, .i32⟩ : BufTy).Contents (Elt F) → (⟨S50000, .i1⟩ : BufTy).Contents (Elt F)),
    StableHlo.nullary main_c_100 (constantI S_ 32 50000#32),
    StableHlo.unary main_c_100 main_v605 (broadcastInDim S50000 ![] bcast_S_S50000 : (⟨S_, .i32⟩ : BufTy).Contents (Elt F) → (⟨S50000, .i32⟩ : BufTy).Contents (Elt F)),
    StableHlo.binary main_v602 main_v605 main_v606 (addi : (⟨S50000, .i32⟩ : BufTy).Contents (Elt F) → (⟨S50000, .i32⟩ : BufTy).Contents (Elt F) → (⟨S50000, .i32⟩ : BufTy).Contents (Elt F)),
    StableHlo.ternary main_v604 main_v606 main_v602 main_v607 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v607 main_v608 (broadcastInDim S50000x1 ![0] bcast_S50000_S50000x1_0 : (⟨S50000, .i32⟩ : BufTy).Contents (Elt F) → (⟨S50000x1, .i32⟩ : BufTy).Contents (Elt F)),
    StableHlo.binary main_v528 main_v608 main_v609 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v610 ((extractStridedSlice S1x1x128x128 ![1, 3, 0, 0] · slices_S4x12x128x128_S1x1x128x128_1_3_0_0) : (⟨S4x12x128x128, .f32⟩ : BufTy).Contents (Elt F) → (⟨S1x1x128x128, .f32⟩ : BufTy).Contents (Elt F)),
    StableHlo.reshape main_v610 main_v611 rfl shapeCasts_S1x1x128x128_S128x128,
    StableHlo.unary main_v611 main_v612 ((transpose S128x128 [1, 0] · transposes_S128x128_S128x128_1_0) : (⟨S128x128, .f32⟩ : BufTy).Contents (Elt F) → (⟨S128x128, .f32⟩ : BufTy).Contents (Elt F)),
    StableHlo.binary main_v609 main_v612 main_v613 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_101 (constantI S_ 32 0#32),
    StableHlo.unary main_c_101 main_v614 (broadcastInDim S50000 ![] bcast_S_S50000 : (⟨S_, .i32⟩ : BufTy).Contents (Elt F) → (⟨S50000, .i32⟩ : BufTy).Contents (Elt F)),
    StableHlo.binary main_v600 main_v614 main_v615 (cmpi .slt : (⟨S50000, .i32⟩ : BufTy).Contents (Elt F) → (⟨S50000, .i32⟩ : BufTy).Contents (Elt F) → (⟨S50000, .i1⟩ : BufTy).Contents (Elt F)) ]

/-- The buffers they write, in order. -/
abbrev chunk11_W : List (Ref sig .tc) :=
  [main_v565, main_v566, main_v567, main_v568, main_v569, main_c_93, main_v570, main_v571, main_c_94, main_v572, main_v573, main_v574, main_v575, main_v576, main_v577, main_v578, main_v579, main_v580, main_c_95, main_v581, main_v582, main_c_96, main_v583, main_v584, main_v585, main_v586, main_v587, main_v588, main_v589, main_v590, main_v591, main_c_97, main_v592, main_v593, main_c_98, main_v594, main_v595, main_v596, main_v597, main_v598, main_v599, main_v600, main_v601, main_v602, main_c_99, main_v603, main_v604, main_c_100, main_v605, main_v606, main_v607, main_v608, main_v609, main_v610, main_v611, main_v612, main_v613, main_c_101, main_v614, main_v615]

end Cert.ReferenceIdeal.RefRun

end
-- ==== Proof.RRunChk11.lean ====
/- TABLES over the operations of window `main_part11` (module RRunOps11): one term per operation for each side condition of
   the run, around the one proof text every window shares. -/
import proofs.«413166_j32323923870246_3_alg».proof.Proof.RRunOps11
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part11_eq (c : Dev nD) : main_part11 (F := F) c = seq chunk11 := by
  simp only [main_part11, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk11_sub : (chunk11 : List (HloOp τ sig (Elt F))).Forall fun op => op.bufs ⊆ tcRefs τ sig :=
  ⟨binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub ..⟩

set_option maxRecDepth 16384 in
/-- Every operation determines its result. -/
theorem chunk11_fresh : ∀ op ∈ (chunk11 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk11 : List (HloOp τ sig (Elt F))).Forall fun op => op.fresh = ∅)

set_option maxRecDepth 16384 in
/-- Each operation writes one buffer of the list. -/
theorem chunk11_writes : (chunk11 : List (HloOp τ sig (Elt F))).Forall fun op =>
    op.writes ⊆ (chunk11_W.map (Proc.devRef (τ := τ) .tc)).toFinset :=
  ⟨writes_sub_of_mem main_v565 rfl (by decide),
    writes_sub_of_mem main_v566 rfl (by decide),
    writes_sub_of_mem main_v567 rfl (by decide),
    writes_sub_of_mem main_v568 rfl (by decide),
    writes_sub_of_mem main_v569 rfl (by decide),
    writes_sub_of_mem main_c_93 rfl (by decide),
    writes_sub_of_mem main_v570 rfl (by decide),
    writes_sub_of_mem main_v571 rfl (by decide),
    writes_sub_of_mem main_c_94 rfl (by decide),
    writes_sub_of_mem main_v572 rfl (by decide),
    writes_sub_of_mem main_v573 rfl (by decide),
    writes_sub_of_mem main_v574 rfl (by decide),
    writes_sub_of_mem main_v575 rfl (by decide),
    writes_sub_of_mem main_v576 rfl (by decide),
    writes_sub_of_mem main_v577 rfl (by decide),
    writes_sub_of_mem main_v578 rfl (by decide),
    writes_sub_of_mem main_v579 rfl (by decide),
    writes_sub_of_mem main_v580 rfl (by decide),
    writes_sub_of_mem main_c_95 rfl (by decide),
    writes_sub_of_mem main_v581 rfl (by decide),
    writes_sub_of_mem main_v582 rfl (by decide),
    writes_sub_of_mem main_c_96 rfl (by decide),
    writes_sub_of_mem main_v583 rfl (by decide),
    writes_sub_of_mem main_v584 rfl (by decide),
    writes_sub_of_mem main_v585 rfl (by decide),
    writes_sub_of_mem main_v586 rfl (by decide),
    writes_sub_of_mem main_v587 rfl (by decide),
    writes_sub_of_mem main_v588 rfl (by decide),
    writes_sub_of_mem main_v589 rfl (by decide),
    writes_sub_of_mem main_v590 rfl (by decide),
    writes_sub_of_mem main_v591 rfl (by decide),
    writes_sub_of_mem main_c_97 rfl (by decide),
    writes_sub_of_mem main_v592 rfl (by decide),
    writes_sub_of_mem main_v593 rfl (by decide),
    writes_sub_of_mem main_c_98 rfl (by decide),
    writes_sub_of_mem main_v594 rfl (by decide),
    writes_sub_of_mem main_v595 rfl (by decide),
    writes_sub_of_mem main_v596 rfl (by decide),
    writes_sub_of_mem main_v597 rfl (by decide),
    writes_sub_of_mem main_v598 rfl (by decide),
    writes_sub_of_mem main_v599 rfl (by decide),
    writes_sub_of_mem main_v600 rfl (by decide),
    writes_sub_of_mem main_v601 rfl (by decide),
    writes_sub_of_mem main_v602 rfl (by decide),
    writes_sub_of_mem main_c_99 rfl (by decide),
    writes_sub_of_mem main_v603 rfl (by decide),
    writes_sub_of_mem main_v604 rfl (by decide),
    writes_sub_of_mem main_c_100 rfl (by decide),
    writes_sub_of_mem main_v605 rfl (by decide),
    writes_sub_of_mem main_v606 rfl (by decide),
    writes_sub_of_mem main_v607 rfl (by decide),
    writes_sub_of_mem main_v608 rfl (by decide),
    writes_sub_of_mem main_v609 rfl (by decide),
    writes_sub_of_mem main_v610 rfl (by decide),
    writes_sub_of_mem main_v611 rfl (by decide),
    writes_sub_of_mem main_v612 rfl (by decide),
    writes_sub_of_mem main_v613 rfl (by decide),
    writes_sub_of_mem main_c_101 rfl (by decide),
    writes_sub_of_mem main_v614 rfl (by decide),
    writes_sub_of_mem main_v615 rfl (by decide)⟩

/-- A buffer the window does not write keeps its contents through it. -/
theorem chunk11_keep (V : Valuation τ sig (Elt F)) (r : Ref sig .tc) (h : r ∉ chunk11_W) :
    after chunk11 V (Proc.devRef .tc r) = V (Proc.devRef .tc r) :=
  after_of_writes_sub chunk11 V chunk11_writes h

end Cert.ReferenceIdeal.RefRun

end
-- ==== Proof.RRunOps12.lean ====
/- TABLES transcribed from proof/ReferenceIdeal.lean: window `main_part12` of the reference's @main as a list of host
   operations (60: 867 … 926 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part12`, in order, the calls unfolded. -/
abbrev chunk12 : List (HloOp τ sig (Elt F)) :=
  [ StableHlo.nullary main_c_102 (constantI S_ 32 50000#32),
    StableHlo.unary main_c_102 main_v616 (broadcastInDim S50000 ![] bcast_S_S50000 : (⟨S_, .i32⟩ : BufTy).Contents (Elt F) → (⟨S50000, .i32⟩ : BufTy).Contents (Elt F)),
    StableHlo.binary main_v600 main_v616 main_v617 (addi : (⟨S50000, .i32⟩ : BufTy).Contents (Elt F) → (⟨S50000, .i32⟩ : BufTy).Contents (Elt F) → (⟨S50000, .i32⟩ : BufTy).Contents (Elt F)),
    StableHlo.ternary main_v615 main_v617 main_v600 main_v618 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v618 main_v619 (broadcastInDim S50000x1 ![0] bcast_S50000_S50000x1_0 : (⟨S50000, .i32⟩ : BufTy).Contents (Elt F) → (⟨S50000x1, .i32⟩ : BufTy).Contents (Elt F)),
    StableHlo.ternary main_v598 main_v619 main_v613 main_v620 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v621 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v621 main_v622 rfl shapeCasts_S1x50000_S50000,
    StableHlo.unary main_arg26 main_v623 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v623 main_v624 rfl shapeCasts_S1x50000_S50000,
    StableHlo.nullary main_c_103 (constantI S_ 32 0#32),
    StableHlo.unary main_c_103 main_v625 (broadcastInDim S50000 ![] bcast_S_S50000 : (⟨S_, .i32⟩ : BufTy).Contents (Elt F) → (⟨S50000, .i32⟩ : BufTy).Contents (Elt F)),
    StableHlo.binary main_v624 main_v625 main_v626 (cmpi .slt : (⟨S50000, .i32⟩ : BufTy).Contents (Elt F) → (⟨S50000, .i32⟩ : BufTy).Contents (Elt F) → (⟨S50000, .i1⟩ : BufTy).Contents (Elt F)),
    StableHlo.nullary main_c_104 (constantI S_ 32 50000#32),
    StableHlo.unary main_c_104 main_v627 (broadcastInDim S50000 ![] bcast_S_S50000 : (⟨S_, .i32⟩ : BufTy).Contents (Elt F) → (⟨S50000, .i32⟩ : BufTy).Contents (Elt F)),
    StableHlo.binary main_v624 main_v627 main_v628 (addi : (⟨S50000, .i32⟩ : BufTy).Contents (Elt F) → (⟨S50000, .i32⟩ : BufTy).Contents (Elt F) → (⟨S50000, .i32⟩ : BufTy).Contents (Elt F)),
    StableHlo.ternary main_v626 main_v628 main_v624 main_v629 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v629 main_v630 (broadcastInDim S50000x1 ![0] bcast_S50000_S50000x1_0 : (⟨S50000, .i32⟩ : BufTy).Contents (Elt F) → (⟨S50000x1, .i32⟩ : BufTy).Contents (Elt F)),
    StableHlo.binary main_v528 main_v630 main_v631 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v632 ((extractStridedSlice S1x1x128x128 ![1, 4, 0, 0] · slices_S4x12x128x128_S1x1x128x128_1_4_0_0) : (⟨S4x12x128x128, .f32⟩ : BufTy).Contents (Elt F) → (⟨S1x1x128x128, .f32⟩ : BufTy).Contents (Elt F)),
    StableHlo.reshape main_v632 main_v633 rfl shapeCasts_S1x1x128x128_S128x128,
    StableHlo.unary main_v633 main_v634 ((transpose S128x128 [1, 0] · transposes_S128x128_S128x128_1_0) : (⟨S128x128, .f32⟩ : BufTy).Contents (Elt F) → (⟨S128x128, .f32⟩ : BufTy).Contents (Elt F)),
    StableHlo.binary main_v631 main_v634 main_v635 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_105 (constantI S_ 32 0#32),
    StableHlo.unary main_c_105 main_v636 (broadcastInDim S50000 ![] bcast_S_S50000 : (⟨S_, .i32⟩ : BufTy).Contents (Elt F) → (⟨S50000, .i32⟩ : BufTy).Contents (Elt F)),
    StableHlo.binary main_v622 main_v636 main_v637 (cmpi .slt : (⟨S50000, .i32⟩ : BufTy).Contents (Elt F) → (⟨S50000, .i32⟩ : BufTy).Contents (Elt F) → (⟨S50000, .i1⟩ : BufTy).Contents (Elt F)),
    StableHlo.nullary main_c_106 (constantI S_ 32 50000#32),
    StableHlo.unary main_c_106 main_v638 (broadcastInDim S50000 ![] bcast_S_S50000 : (⟨S_, .i32⟩ : BufTy).Contents (Elt F) → (⟨S50000, .i32⟩ : BufTy).Contents (Elt F)),
    StableHlo.binary main_v622 main_v638 main_v639 (addi : (⟨S50000, .i32⟩ : BufTy).Contents (Elt F) → (⟨S50000, .i32⟩ : BufTy).Contents (Elt F) → (⟨S50000, .i32⟩ : BufTy).Contents (Elt F)),
    StableHlo.ternary main_v637 main_v639 main_v622 main_v640 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v640 main_v641 (broadcastInDim S50000x1 ![0] bcast_S50000_S50000x1_0 : (⟨S50000, .i32⟩ : BufTy).Contents (Elt F) → (⟨S50000x1, .i32⟩ : BufTy).Contents (Elt F)),
    StableHlo.ternary main_v620 main_v641 main_v635 main_v642 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v643 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v643 main_v644 rfl shapeCasts_S1x50000_S50000,
    StableHlo.unary main_arg26 main_v645 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v645 main_v646 rfl shapeCasts_S1x50000_S50000,
    StableHlo.nullary main_c_107 (constantI S_ 32 0#32),
    StableHlo.unary main_c_107 main_v647 (broadcastInDim S50000 ![] bcast_S_S50000 : (⟨S_, .i32⟩ : BufTy).Contents (Elt F) → (⟨S50000, .i32⟩ : BufTy).Contents (Elt F)),
    StableHlo.binary main_v646 main_v647 main_v648 (cmpi .slt : (⟨S50000, .i32⟩ : BufTy).Contents (Elt F) → (⟨S50000, .i32⟩ : BufTy).Contents (Elt F) → (⟨S50000, .i1⟩ : BufTy).Contents (Elt F)),
    StableHlo.nullary main_c_108 (constantI S_ 32 50000#32),
    StableHlo.unary main_c_108 main_v649 (broadcastInDim S50000 ![] bcast_S_S50000 : (⟨S_, .i32⟩ : BufTy).Contents (Elt F) → (⟨S50000, .i32⟩ : BufTy).Contents (Elt F)),
    StableHlo.binary main_v646 main_v649 main_v650 (addi : (⟨S50000, .i32⟩ : BufTy).Contents (Elt F) → (⟨S50000, .i32⟩ : BufTy).Contents (Elt F) → (⟨S50000, .i32⟩ : BufTy).Contents (Elt F)),
    StableHlo.ternary main_v648 main_v650 main_v646 main_v651 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v651 main_v652 (broadcastInDim S50000x1 ![0] bcast_S50000_S50000x1_0 : (⟨S50000, .i32⟩ : BufTy).Contents (Elt F) → (⟨S50000x1, .i32⟩ : BufTy).Contents (Elt F)),
    StableHlo.binary main_v528 main_v652 main_v653 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v654 ((extractStridedSlice S1x1x128x128 ![1, 5, 0, 0] · slices_S4x12x128x128_S1x1x128x128_1_5_0_0) : (⟨S4x12x128x128, .f32⟩ : BufTy).Contents (Elt F) → (⟨S1x1x128x128, .f32⟩ : BufTy).Contents (Elt F)),
    StableHlo.reshape main_v654 main_v655 rfl shapeCasts_S1x1x128x128_S128x128,
    StableHlo.unary main_v655 main_v656 ((transpose S128x128 [1, 0] · transposes_S128x128_S128x128_1_0) : (⟨S128x128, .f32⟩ : BufTy).Contents (Elt F) → (⟨S128x128, .f32⟩ : BufTy).Contents (Elt F)),
    StableHlo.binary main_v653 main_v656 main_v657 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_109 (constantI S_ 32 0#32),
    StableHlo.unary main_c_109 main_v658 (broadcastInDim S50000 ![] bcast_S_S50000 : (⟨S_, .i32⟩ : BufTy).Contents (Elt F) → (⟨S50000, .i32⟩ : BufTy).Contents (Elt F)),
    StableHlo.binary main_v644 main_v658 main_v659 (cmpi .slt : (⟨S50000, .i32⟩ : BufTy).Contents (Elt F) → (⟨S50000, .i32⟩ : BufTy).Contents (Elt F) → (⟨S50000, .i1⟩ : BufTy).Contents (Elt F)),
    StableHlo.nullary main_c_110 (constantI S_ 32 50000#32),
    StableHlo.unary main_c_110 main_v660 (broadcastInDim S50000 ![] bcast_S_S50000 : (⟨S_, .i32⟩ : BufTy).Contents (Elt F) → (⟨S50000, .i32⟩ : BufTy).Contents (Elt F)),
    StableHlo.binary main_v644 main_v660 main_v661 (addi : (⟨S50000, .i32⟩ : BufTy).Contents (Elt F) → (⟨S50000, .i32⟩ : BufTy).Contents (Elt F) → (⟨S50000, .i32⟩ : BufTy).Contents (Elt F)),
    StableHlo.ternary main_v659 main_v661 main_v644 main_v662 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v662 main_v663 (broadcastInDim S50000x1 ![0] bcast_S50000_S50000x1_0 : (⟨S50000, .i32⟩ : BufTy).Contents (Elt F) → (⟨S50000x1, .i32⟩ : BufTy).Contents (Elt F)),
    StableHlo.ternary main_v642 main_v663 main_v657 main_v664 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v665 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v665 main_v666 rfl shapeCasts_S1x50000_S50000 ]

/-- The buffers they write, in order. -/
abbrev chunk12_W : List (Ref sig .tc) :=
  [main_c_102, main_v616, main_v617, main_v618, main_v619, main_v620, main_v621, main_v622, main_v623, main_v624, main_c_103, main_v625, main_v626, main_c_104, main_v627, main_v628, main_v629, main_v630, main_v631, main_v632, main_v633, main_v634, main_v635, main_c_105, main_v636, main_v637, main_c_106, main_v638, main_v639, main_v640, main_v641, main_v642, main_v643, main_v644, main_v645, main_v646, main_c_107, main_v647, main_v648, main_c_108, main_v649, main_v650, main_v651, main_v652, main_v653, main_v654, main_v655, main_v656, main_v657, main_c_109, main_v658, main_v659, main_c_110, main_v660, main_v661, main_v662, main_v663, main_v664, main_v665, main_v666]

end Cert.ReferenceIdeal.RefRun

end
-- ==== Proof.RRunChk12.lean ====
/- TABLES over the operations of window `main_part12` (module RRunOps12): one term per operation for each side condition of
   the run, around the one proof text every window shares. -/
import proofs.«413166_j32323923870246_3_alg».proof.Proof.RRunOps12
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part12_eq (c : Dev nD) : main_part12 (F := F) c = seq chunk12 := by
  simp only [main_part12, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk12_sub : (chunk12 : List (HloOp τ sig (Elt F))).Forall fun op => op.bufs ⊆ tcRefs τ sig :=
  ⟨nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub ..⟩

set_option maxRecDepth 16384 in
/-- Every operation determines its result. -/
theorem chunk12_fresh : ∀ op ∈ (chunk12 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk12 : List (HloOp τ sig (Elt F))).Forall fun op => op.fresh = ∅)

set_option maxRecDepth 16384 in
/-- Each operation writes one buffer of the list. -/
theorem chunk12_writes : (chunk12 : List (HloOp τ sig (Elt F))).Forall fun op =>
    op.writes ⊆ (chunk12_W.map (Proc.devRef (τ := τ) .tc)).toFinset :=
  ⟨writes_sub_of_mem main_c_102 rfl (by decide),
    writes_sub_of_mem main_v616 rfl (by decide),
    writes_sub_of_mem main_v617 rfl (by decide),
    writes_sub_of_mem main_v618 rfl (by decide),
    writes_sub_of_mem main_v619 rfl (by decide),
    writes_sub_of_mem main_v620 rfl (by decide),
    writes_sub_of_mem main_v621 rfl (by decide),
    writes_sub_of_mem main_v622 rfl (by decide),
    writes_sub_of_mem main_v623 rfl (by decide),
    writes_sub_of_mem main_v624 rfl (by decide),
    writes_sub_of_mem main_c_103 rfl (by decide),
    writes_sub_of_mem main_v625 rfl (by decide),
    writes_sub_of_mem main_v626 rfl (by decide),
    writes_sub_of_mem main_c_104 rfl (by decide),
    writes_sub_of_mem main_v627 rfl (by decide),
    writes_sub_of_mem main_v628 rfl (by decide),
    writes_sub_of_mem main_v629 rfl (by decide),
    writes_sub_of_mem main_v630 rfl (by decide),
    writes_sub_of_mem main_v631 rfl (by decide),
    writes_sub_of_mem main_v632 rfl (by decide),
    writes_sub_of_mem main_v633 rfl (by decide),
    writes_sub_of_mem main_v634 rfl (by decide),
    writes_sub_of_mem main_v635 rfl (by decide),
    writes_sub_of_mem main_c_105 rfl (by decide),
    writes_sub_of_mem main_v636 rfl (by decide),
    writes_sub_of_mem main_v637 rfl (by decide),
    writes_sub_of_mem main_c_106 rfl (by decide),
    writes_sub_of_mem main_v638 rfl (by decide),
    writes_sub_of_mem main_v639 rfl (by decide),
    writes_sub_of_mem main_v640 rfl (by decide),
    writes_sub_of_mem main_v641 rfl (by decide),
    writes_sub_of_mem main_v642 rfl (by decide),
    writes_sub_of_mem main_v643 rfl (by decide),
    writes_sub_of_mem main_v644 rfl (by decide),
    writes_sub_of_mem main_v645 rfl (by decide),
    writes_sub_of_mem main_v646 rfl (by decide),
    writes_sub_of_mem main_c_107 rfl (by decide),
    writes_sub_of_mem main_v647 rfl (by decide),
    writes_sub_of_mem main_v648 rfl (by decide),
    writes_sub_of_mem main_c_108 rfl (by decide),
    writes_sub_of_mem main_v649 rfl (by decide),
    writes_sub_of_mem main_v650 rfl (by decide),
    writes_sub_of_mem main_v651 rfl (by decide),
    writes_sub_of_mem main_v652 rfl (by decide),
    writes_sub_of_mem main_v653 rfl (by decide),
    writes_sub_of_mem main_v654 rfl (by decide),
    writes_sub_of_mem main_v655 rfl (by decide),
    writes_sub_of_mem main_v656 rfl (by decide),
    writes_sub_of_mem main_v657 rfl (by decide),
    writes_sub_of_mem main_c_109 rfl (by decide),
    writes_sub_of_mem main_v658 rfl (by decide),
    writes_sub_of_mem main_v659 rfl (by decide),
    writes_sub_of_mem main_c_110 rfl (by decide),
    writes_sub_of_mem main_v660 rfl (by decide),
    writes_sub_of_mem main_v661 rfl (by decide),
    writes_sub_of_mem main_v662 rfl (by decide),
    writes_sub_of_mem main_v663 rfl (by decide),
    writes_sub_of_mem main_v664 rfl (by decide),
    writes_sub_of_mem main_v665 rfl (by decide),
    writes_sub_of_mem main_v666 rfl (by decide)⟩

/-- A buffer the window does not write keeps its contents through it. -/
theorem chunk12_keep (V : Valuation τ sig (Elt F)) (r : Ref sig .tc) (h : r ∉ chunk12_W) :
    after chunk12 V (Proc.devRef .tc r) = V (Proc.devRef .tc r) :=
  after_of_writes_sub chunk12 V chunk12_writes h

end Cert.ReferenceIdeal.RefRun

end
-- ==== Proof.RRunOps13.lean ====
/- TABLES transcribed from proof/ReferenceIdeal.lean: window `main_part13` of the reference's @main as a list of host
   operations (60: 927 … 986 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part13`, in order, the calls unfolded. -/
abbrev chunk13 : List (HloOp τ sig (Elt F)) :=
  [ StableHlo.unary main_arg26 main_v667 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v667 main_v668 rfl shapeCasts_S1x50000_S50000,
    StableHlo.nullary main_c_111 (constantI S_ 32 0#32),
    StableHlo.unary main_c_111 main_v669 (broadcastInDim S50000 ![] bcast_S_S50000 : (⟨S_, .i32⟩ : BufTy).Contents (Elt F) → (⟨S50000, .i32⟩ : BufTy).Contents (Elt F)),
    StableHlo.binary main_v668 main_v669 main_v670 (cmpi .slt : (⟨S50000, .i32⟩ : BufTy).Contents (Elt F) → (⟨S50000, .i32⟩ : BufTy).Contents (Elt F) → (⟨S50000, .i1⟩ : BufTy).Contents (Elt F)),
    StableHlo.nullary main_c_112 (constantI S_ 32 50000#32),
    StableHlo.unary main_c_112 main_v671 (broadcastInDim S50000 ![] bcast_S_S50000 : (⟨S_, .i32⟩ : BufTy).Contents (Elt F) → (⟨S50000, .i32⟩ : BufTy).Contents (Elt F)),
    StableHlo.binary main_v668 main_v671 main_v672 (addi : (⟨S50000, .i32⟩ : BufTy).Contents (Elt F) → (⟨S50000, .i32⟩ : BufTy).Contents (Elt F) → (⟨S50000, .i32⟩ : BufTy).Contents (Elt F)),
    StableHlo.ternary main_v670 main_v672 main_v668 main_v673 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v673 main_v674 (broadcastInDim S50000x1 ![0] bcast_S50000_S50000x1_0 : (⟨S50000, .i32⟩ : BufTy).Contents (Elt F) → (⟨S50000x1, .i32⟩ : BufTy).Contents (Elt F)),
    StableHlo.binary main_v528 main_v674 main_v675 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v676 ((extractStridedSlice S1x1x128x128 ![1, 6, 0, 0] · slices_S4x12x128x128_S1x1x128x128_1_6_0_0) : (⟨S4x12x128x128, .f32⟩ : BufTy).Contents (Elt F) → (⟨S1x1x128x128, .f32⟩ : BufTy).Contents (Elt F)),
    StableHlo.reshape main_v676 main_v677 rfl shapeCasts_S1x1x128x128_S128x128,
    StableHlo.unary main_v677 main_v678 ((transpose S128x128 [1, 0] · transposes_S128x128_S128x128_1_0) : (⟨S128x128, .f32⟩ : BufTy).Contents (Elt F) → (⟨S128x128, .f32⟩ : BufTy).Contents (Elt F)),
    StableHlo.binary main_v675 main_v678 main_v679 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_113 (constantI S_ 32 0#32),
    StableHlo.unary main_c_113 main_v680 (broadcastInDim S50000 ![] bcast_S_S50000 : (⟨S_, .i32⟩ : BufTy).Contents (Elt F) → (⟨S50000, .i32⟩ : BufTy).Contents (Elt F)),
    StableHlo.binary main_v666 main_v680 main_v681 (cmpi .slt : (⟨S50000, .i32⟩ : BufTy).Contents (Elt F) → (⟨S50000, .i32⟩ : BufTy).Contents (Elt F) → (⟨S50000, .i1⟩ : BufTy).Contents (Elt F)),
    StableHlo.nullary main_c_114 (constantI S_ 32 50000#32),
    StableHlo.unary main_c_114 main_v682 (broadcastInDim S50000 ![] bcast_S_S50000 : (⟨S_, .i32⟩ : BufTy).Contents (Elt F) → (⟨S50000, .i32⟩ : BufTy).Contents (Elt F)),
    StableHlo.binary main_v666 main_v682 main_v683 (addi : (⟨S50000, .i32⟩ : BufTy).Contents (Elt F) → (⟨S50000, .i32⟩ : BufTy).Contents (Elt F) → (⟨S50000, .i32⟩ : BufTy).Contents (Elt F)),
    StableHlo.ternary main_v681 main_v683 main_v666 main_v684 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v684 main_v685 (broadcastInDim S50000x1 ![0] bcast_S50000_S50000x1_0 : (⟨S50000, .i32⟩ : BufTy).Contents (Elt F) → (⟨S50000x1, .i32⟩ : BufTy).Contents (Elt F)),
    StableHlo.ternary main_v664 main_v685 main_v679 main_v686 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v687 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v687 main_v688 rfl shapeCasts_S1x50000_S50000,
    StableHlo.unary main_arg26 main_v689 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v689 main_v690 rfl shapeCasts_S1x50000_S50000,
    StableHlo.nullary main_c_115 (constantI S_ 32 0#32),
    StableHlo.unary main_c_115 main_v691 (broadcastInDim S50000 ![] bcast_S_S50000 : (⟨S_, .i32⟩ : BufTy).Contents (Elt F) → (⟨S50000, .i32⟩ : BufTy).Contents (Elt F)),
    StableHlo.binary main_v690 main_v691 main_v692 (cmpi .slt : (⟨S50000, .i32⟩ : BufTy).Contents (Elt F) → (⟨S50000, .i32⟩ : BufTy).Contents (Elt F) → (⟨S50000, .i1⟩ : BufTy).Contents (Elt F)),
    StableHlo.nullary main_c_116 (constantI S_ 32 50000#32),
    StableHlo.unary main_c_116 main_v693 (broadcastInDim S50000 ![] bcast_S_S50000 : (⟨S_, .i32⟩ : BufTy).Contents (Elt F) → (⟨S50000, .i32⟩ : BufTy).Contents (Elt F)),
    StableHlo.binary main_v690 main_v693 main_v694 (addi : (⟨S50000, .i32⟩ : BufTy).Contents (Elt F) → (⟨S50000, .i32⟩ : BufTy).Contents (Elt F) → (⟨S50000, .i32⟩ : BufTy).Contents (Elt F)),
    StableHlo.ternary main_v692 main_v694 main_v690 main_v695 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v695 main_v696 (broadcastInDim S50000x1 ![0] bcast_S50000_S50000x1_0 : (⟨S50000, .i32⟩ : BufTy).Contents (Elt F) → (⟨S50000x1, .i32⟩ : BufTy).Contents (Elt F)),
    StableHlo.binary main_v528 main_v696 main_v697 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v698 ((extractStridedSlice S1x1x128x128 ![1, 7, 0, 0] · slices_S4x12x128x128_S1x1x128x128_1_7_0_0) : (⟨S4x12x128x128, .f32⟩ : BufTy).Contents (Elt F) → (⟨S1x1x128x128, .f32⟩ : BufTy).Contents (Elt F)),
    StableHlo.reshape main_v698 main_v699 rfl shapeCasts_S1x1x128x128_S128x128,
    StableHlo.unary main_v699 main_v700 ((transpose S128x128 [1, 0] · transposes_S128x128_S128x128_1_0) : (⟨S128x128, .f32⟩ : BufTy).Contents (Elt F) → (⟨S128x128, .f32⟩ : BufTy).Contents (Elt F)),
    StableHlo.binary main_v697 main_v700 main_v701 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_117 (constantI S_ 32 0#32),
    StableHlo.unary main_c_117 main_v702 (broadcastInDim S50000 ![] bcast_S_S50000 : (⟨S_, .i32⟩ : BufTy).Contents (Elt F) → (⟨S50000, .i32⟩ : BufTy).Contents (Elt F)),
    StableHlo.binary main_v688 main_v702 main_v703 (cmpi .slt : (⟨S50000, .i32⟩ : BufTy).Contents (Elt F) → (⟨S50000, .i32⟩ : BufTy).Contents (Elt F) → (⟨S50000, .i1⟩ : BufTy).Contents (Elt F)),
    StableHlo.nullary main_c_118 (constantI S_ 32 50000#32),
    StableHlo.unary main_c_118 main_v704 (broadcastInDim S50000 ![] bcast_S_S50000 : (⟨S_, .i32⟩ : BufTy).Contents (Elt F) → (⟨S50000, .i32⟩ : BufTy).Contents (Elt F)),
    StableHlo.binary main_v688 main_v704 main_v705 (addi : (⟨S50000, .i32⟩ : BufTy).Contents (Elt F) → (⟨S50000, .i32⟩ : BufTy).Contents (Elt F) → (⟨S50000, .i32⟩ : BufTy).Contents (Elt F)),
    StableHlo.ternary main_v703 main_v705 main_v688 main_v706 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v706 main_v707 (broadcastInDim S50000x1 ![0] bcast_S50000_S50000x1_0 : (⟨S50000, .i32⟩ : BufTy).Contents (Elt F) → (⟨S50000x1, .i32⟩ : BufTy).Contents (Elt F)),
    StableHlo.ternary main_v686 main_v707 main_v701 main_v708 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v709 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v709 main_v710 rfl shapeCasts_S1x50000_S50000,
    StableHlo.unary main_arg26 main_v711 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v711 main_v712 rfl shapeCasts_S1x50000_S50000,
    StableHlo.nullary main_c_119 (constantI S_ 32 0#32),
    StableHlo.unary main_c_119 main_v713 (broadcastInDim S50000 ![] bcast_S_S50000 : (⟨S_, .i32⟩ : BufTy).Contents (Elt F) → (⟨S50000, .i32⟩ : BufTy).Contents (Elt F)),
    StableHlo.binary main_v712 main_v713 main_v714 (cmpi .slt : (⟨S50000, .i32⟩ : BufTy).Contents (Elt F) → (⟨S50000, .i32⟩ : BufTy).Contents (Elt F) → (⟨S50000, .i1⟩ : BufTy).Contents (Elt F)),
    StableHlo.nullary main_c_120 (constantI S_ 32 50000#32),
    StableHlo.unary main_c_120 main_v715 (broadcastInDim S50000 ![] bcast_S_S50000 : (⟨S_, .i32⟩ : BufTy).Contents (Elt F) → (⟨S50000, .i32⟩ : BufTy).Contents (Elt F)),
    StableHlo.binary main_v712 main_v715 main_v716 (addi : (⟨S50000, .i32⟩ : BufTy).Contents (Elt F) → (⟨S50000, .i32⟩ : BufTy).Contents (Elt F) → (⟨S50000, .i32⟩ : BufTy).Contents (Elt F)) ]

/-- The buffers they write, in order. -/
abbrev chunk13_W : List (Ref sig .tc) :=
  [main_v667, main_v668, main_c_111, main_v669, main_v670, main_c_112, main_v671, main_v672, main_v673, main_v674, main_v675, main_v676, main_v677, main_v678, main_v679, main_c_113, main_v680, main_v681, main_c_114, main_v682, main_v683, main_v684, main_v685, main_v686, main_v687, main_v688, main_v689, main_v690, main_c_115, main_v691, main_v692, main_c_116, main_v693, main_v694, main_v695, main_v696, main_v697, main_v698, main_v699, main_v700, main_v701, main_c_117, main_v702, main_v703, main_c_118, main_v704, main_v705, main_v706, main_v707, main_v708, main_v709, main_v710, main_v711, main_v712, main_c_119, main_v713, main_v714, main_c_120, main_v715, main_v716]

end Cert.ReferenceIdeal.RefRun

end
-- ==== Proof.RRunChk13.lean ====
/- TABLES over the operations of window `main_part13` (module RRunOps13): one term per operation for each side condition of
   the run, around the one proof text every window shares. -/
import proofs.«413166_j32323923870246_3_alg».proof.Proof.RRunOps13
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part13_eq (c : Dev nD) : main_part13 (F := F) c = seq chunk13 := by
  simp only [main_part13, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk13_sub : (chunk13 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub ..⟩

set_option maxRecDepth 16384 in
/-- Every operation determines its result. -/
theorem chunk13_fresh : ∀ op ∈ (chunk13 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk13 : List (HloOp τ sig (Elt F))).Forall fun op => op.fresh = ∅)

set_option maxRecDepth 16384 in
/-- Each operation writes one buffer of the list. -/
theorem chunk13_writes : (chunk13 : List (HloOp τ sig (Elt F))).Forall fun op =>
    op.writes ⊆ (chunk13_W.map (Proc.devRef (τ := τ) .tc)).toFinset :=
  ⟨writes_sub_of_mem main_v667 rfl (by decide),
    writes_sub_of_mem main_v668 rfl (by decide),
    writes_sub_of_mem main_c_111 rfl (by decide),
    writes_sub_of_mem main_v669 rfl (by decide),
    writes_sub_of_mem main_v670 rfl (by decide),
    writes_sub_of_mem main_c_112 rfl (by decide),
    writes_sub_of_mem main_v671 rfl (by decide),
    writes_sub_of_mem main_v672 rfl (by decide),
    writes_sub_of_mem main_v673 rfl (by decide),
    writes_sub_of_mem main_v674 rfl (by decide),
    writes_sub_of_mem main_v675 rfl (by decide),
    writes_sub_of_mem main_v676 rfl (by decide),
    writes_sub_of_mem main_v677 rfl (by decide),
    writes_sub_of_mem main_v678 rfl (by decide),
    writes_sub_of_mem main_v679 rfl (by decide),
    writes_sub_of_mem main_c_113 rfl (by decide),
    writes_sub_of_mem main_v680 rfl (by decide),
    writes_sub_of_mem main_v681 rfl (by decide),
    writes_sub_of_mem main_c_114 rfl (by decide),
    writes_sub_of_mem main_v682 rfl (by decide),
    writes_sub_of_mem main_v683 rfl (by decide),
    writes_sub_of_mem main_v684 rfl (by decide),
    writes_sub_of_mem main_v685 rfl (by decide),
    writes_sub_of_mem main_v686 rfl (by decide),
    writes_sub_of_mem main_v687 rfl (by decide),
    writes_sub_of_mem main_v688 rfl (by decide),
    writes_sub_of_mem main_v689 rfl (by decide),
    writes_sub_of_mem main_v690 rfl (by decide),
    writes_sub_of_mem main_c_115 rfl (by decide),
    writes_sub_of_mem main_v691 rfl (by decide),
    writes_sub_of_mem main_v692 rfl (by decide),
    writes_sub_of_mem main_c_116 rfl (by decide),
    writes_sub_of_mem main_v693 rfl (by decide),
    writes_sub_of_mem main_v694 rfl (by decide),
    writes_sub_of_mem main_v695 rfl (by decide),
    writes_sub_of_mem main_v696 rfl (by decide),
    writes_sub_of_mem main_v697 rfl (by decide),
    writes_sub_of_mem main_v698 rfl (by decide),
    writes_sub_of_mem main_v699 rfl (by decide),
    writes_sub_of_mem main_v700 rfl (by decide),
    writes_sub_of_mem main_v701 rfl (by decide),
    writes_sub_of_mem main_c_117 rfl (by decide),
    writes_sub_of_mem main_v702 rfl (by decide),
    writes_sub_of_mem main_v703 rfl (by decide),
    writes_sub_of_mem main_c_118 rfl (by decide),
    writes_sub_of_mem main_v704 rfl (by decide),
    writes_sub_of_mem main_v705 rfl (by decide),
    writes_sub_of_mem main_v706 rfl (by decide),
    writes_sub_of_mem main_v707 rfl (by decide),
    writes_sub_of_mem main_v708 rfl (by decide),
    writes_sub_of_mem main_v709 rfl (by decide),
    writes_sub_of_mem main_v710 rfl (by decide),
    writes_sub_of_mem main_v711 rfl (by decide),
    writes_sub_of_mem main_v712 rfl (by decide),
    writes_sub_of_mem main_c_119 rfl (by decide),
    writes_sub_of_mem main_v713 rfl (by decide),
    writes_sub_of_mem main_v714 rfl (by decide),
    writes_sub_of_mem main_c_120 rfl (by decide),
    writes_sub_of_mem main_v715 rfl (by decide),
    writes_sub_of_mem main_v716 rfl (by decide)⟩

/-- A buffer the window does not write keeps its contents through it. -/
theorem chunk13_keep (V : Valuation τ sig (Elt F)) (r : Ref sig .tc) (h : r ∉ chunk13_W) :
    after chunk13 V (Proc.devRef .tc r) = V (Proc.devRef .tc r) :=
  after_of_writes_sub chunk13 V chunk13_writes h

end Cert.ReferenceIdeal.RefRun

end
-- ==== Proof.RRunOps14.lean ====
/- TABLES transcribed from proof/ReferenceIdeal.lean: window `main_part14` of the reference's @main as a list of host
   operations (60: 987 … 1046 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part14`, in order, the calls unfolded. -/
abbrev chunk14 : List (HloOp τ sig (Elt F)) :=
  [ StableHlo.ternary main_v714 main_v716 main_v712 main_v717 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v717 main_v718 (broadcastInDim S50000x1 ![0] bcast_S50000_S50000x1_0 : (⟨S50000, .i32⟩ : BufTy).Contents (Elt F) → (⟨S50000x1, .i32⟩ : BufTy).Contents (Elt F)),
    StableHlo.binary main_v528 main_v718 main_v719 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v720 ((extractStridedSlice S1x1x128x128 ![1, 8, 0, 0] · slices_S4x12x128x128_S1x1x128x128_1_8_0_0) : (⟨S4x12x128x128, .f32⟩ : BufTy).Contents (Elt F) → (⟨S1x1x128x128, .f32⟩ : BufTy).Contents (Elt F)),
    StableHlo.reshape main_v720 main_v721 rfl shapeCasts_S1x1x128x128_S128x128,
    StableHlo.unary main_v721 main_v722 ((transpose S128x128 [1, 0] · transposes_S128x128_S128x128_1_0) : (⟨S128x128, .f32⟩ : BufTy).Contents (Elt F) → (⟨S128x128, .f32⟩ : BufTy).Contents (Elt F)),
    StableHlo.binary main_v719 main_v722 main_v723 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_121 (constantI S_ 32 0#32),
    StableHlo.unary main_c_121 main_v724 (broadcastInDim S50000 ![] bcast_S_S50000 : (⟨S_, .i32⟩ : BufTy).Contents (Elt F) → (⟨S50000, .i32⟩ : BufTy).Contents (Elt F)),
    StableHlo.binary main_v710 main_v724 main_v725 (cmpi .slt : (⟨S50000, .i32⟩ : BufTy).Contents (Elt F) → (⟨S50000, .i32⟩ : BufTy).Contents (Elt F) → (⟨S50000, .i1⟩ : BufTy).Contents (Elt F)),
    StableHlo.nullary main_c_122 (constantI S_ 32 50000#32),
    StableHlo.unary main_c_122 main_v726 (broadcastInDim S50000 ![] bcast_S_S50000 : (⟨S_, .i32⟩ : BufTy).Contents (Elt F) → (⟨S50000, .i32⟩ : BufTy).Contents (Elt F)),
    StableHlo.binary main_v710 main_v726 main_v727 (addi : (⟨S50000, .i32⟩ : BufTy).Contents (Elt F) → (⟨S50000, .i32⟩ : BufTy).Contents (Elt F) → (⟨S50000, .i32⟩ : BufTy).Contents (Elt F)),
    StableHlo.ternary main_v725 main_v727 main_v710 main_v728 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v728 main_v729 (broadcastInDim S50000x1 ![0] bcast_S50000_S50000x1_0 : (⟨S50000, .i32⟩ : BufTy).Contents (Elt F) → (⟨S50000x1, .i32⟩ : BufTy).Contents (Elt F)),
    StableHlo.ternary main_v708 main_v729 main_v723 main_v730 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v731 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v731 main_v732 rfl shapeCasts_S1x50000_S50000,
    StableHlo.unary main_arg26 main_v733 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v733 main_v734 rfl shapeCasts_S1x50000_S50000,
    StableHlo.nullary main_c_123 (constantI S_ 32 0#32),
    StableHlo.unary main_c_123 main_v735 (broadcastInDim S50000 ![] bcast_S_S50000 : (⟨S_, .i32⟩ : BufTy).Contents (Elt F) → (⟨S50000, .i32⟩ : BufTy).Contents (Elt F)),
    StableHlo.binary main_v734 main_v735 main_v736 (cmpi .slt : (⟨S50000, .i32⟩ : BufTy).Contents (Elt F) → (⟨S50000, .i32⟩ : BufTy).Contents (Elt F) → (⟨S50000, .i1⟩ : BufTy).Contents (Elt F)),
    StableHlo.nullary main_c_124 (constantI S_ 32 50000#32),
    StableHlo.unary main_c_124 main_v737 (broadcastInDim S50000 ![] bcast_S_S50000 : (⟨S_, .i32⟩ : BufTy).Contents (Elt F) → (⟨S50000, .i32⟩ : BufTy).Contents (Elt F)),
    StableHlo.binary main_v734 main_v737 main_v738 (addi : (⟨S50000, .i32⟩ : BufTy).Contents (Elt F) → (⟨S50000, .i32⟩ : BufTy).Contents (Elt F) → (⟨S50000, .i32⟩ : BufTy).Contents (Elt F)),
    StableHlo.ternary main_v736 main_v738 main_v734 main_v739 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v739 main_v740 (broadcastInDim S50000x1 ![0] bcast_S50000_S50000x1_0 : (⟨S50000, .i32⟩ : BufTy).Contents (Elt F) → (⟨S50000x1, .i32⟩ : BufTy).Contents (Elt F)),
    StableHlo.binary main_v528 main_v740 main_v741 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v742 ((extractStridedSlice S1x1x128x128 ![1, 9, 0, 0] · slices_S4x12x128x128_S1x1x128x128_1_9_0_0) : (⟨S4x12x128x128, .f32⟩ : BufTy).Contents (Elt F) → (⟨S1x1x128x128, .f32⟩ : BufTy).Contents (Elt F)),
    StableHlo.reshape main_v742 main_v743 rfl shapeCasts_S1x1x128x128_S128x128,
    StableHlo.unary main_v743 main_v744 ((transpose S128x128 [1, 0] · transposes_S128x128_S128x128_1_0) : (⟨S128x128, .f32⟩ : BufTy).Contents (Elt F) → (⟨S128x128, .f32⟩ : BufTy).Contents (Elt F)),
    StableHlo.binary main_v741 main_v744 main_v745 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_125 (constantI S_ 32 0#32),
    StableHlo.unary main_c_125 main_v746 (broadcastInDim S50000 ![] bcast_S_S50000 : (⟨S_, .i32⟩ : BufTy).Contents (Elt F) → (⟨S50000, .i32⟩ : BufTy).Contents (Elt F)),
    StableHlo.binary main_v732 main_v746 main_v747 (cmpi .slt : (⟨S50000, .i32⟩ : BufTy).Contents (Elt F) → (⟨S50000, .i32⟩ : BufTy).Contents (Elt F) → (⟨S50000, .i1⟩ : BufTy).Contents (Elt F)),
    StableHlo.nullary main_c_126 (constantI S_ 32 50000#32),
    StableHlo.unary main_c_126 main_v748 (broadcastInDim S50000 ![] bcast_S_S50000 : (⟨S_, .i32⟩ : BufTy).Contents (Elt F) → (⟨S50000, .i32⟩ : BufTy).Contents (Elt F)),
    StableHlo.binary main_v732 main_v748 main_v749 (addi : (⟨S50000, .i32⟩ : BufTy).Contents (Elt F) → (⟨S50000, .i32⟩ : BufTy).Contents (Elt F) → (⟨S50000, .i32⟩ : BufTy).Contents (Elt F)),
    StableHlo.ternary main_v747 main_v749 main_v732 main_v750 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v750 main_v751 (broadcastInDim S50000x1 ![0] bcast_S50000_S50000x1_0 : (⟨S50000, .i32⟩ : BufTy).Contents (Elt F) → (⟨S50000x1, .i32⟩ : BufTy).Contents (Elt F)),
    StableHlo.ternary main_v730 main_v751 main_v745 main_v752 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v753 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v753 main_v754 rfl shapeCasts_S1x50000_S50000,
    StableHlo.unary main_arg26 main_v755 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v755 main_v756 rfl shapeCasts_S1x50000_S50000,
    StableHlo.nullary main_c_127 (constantI S_ 32 0#32),
    StableHlo.unary main_c_127 main_v757 (broadcastInDim S50000 ![] bcast_S_S50000 : (⟨S_, .i32⟩ : BufTy).Contents (Elt F) → (⟨S50000, .i32⟩ : BufTy).Contents (Elt F)),
    StableHlo.binary main_v756 main_v757 main_v758 (cmpi .slt : (⟨S50000, .i32⟩ : BufTy).Contents (Elt F) → (⟨S50000, .i32⟩ : BufTy).Contents (Elt F) → (⟨S50000, .i1⟩ : BufTy).Contents (Elt F)),
    StableHlo.nullary main_c_128 (constantI S_ 32 50000#32),
    StableHlo.unary main_c_128 main_v759 (broadcastInDim S50000 ![] bcast_S_S50000 : (⟨S_, .i32⟩ : BufTy).Contents (Elt F) → (⟨S50000, .i32⟩ : BufTy).Contents (Elt F)),
    StableHlo.binary main_v756 main_v759 main_v760 (addi : (⟨S50000, .i32⟩ : BufTy).Contents (Elt F) → (⟨S50000, .i32⟩ : BufTy).Contents (Elt F) → (⟨S50000, .i32⟩ : BufTy).Contents (Elt F)),
    StableHlo.ternary main_v758 main_v760 main_v756 main_v761 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v761 main_v762 (broadcastInDim S50000x1 ![0] bcast_S50000_S50000x1_0 : (⟨S50000, .i32⟩ : BufTy).Contents (Elt F) → (⟨S50000x1, .i32⟩ : BufTy).Contents (Elt F)),
    StableHlo.binary main_v528 main_v762 main_v763 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v764 ((extractStridedSlice S1x1x128x128 ![1, 10, 0, 0] · slices_S4x12x128x128_S1x1x128x128_1_10_0_0) : (⟨S4x12x128x128, .f32⟩ : BufTy).Contents (Elt F) → (⟨S1x1x128x128, .f32⟩ : BufTy).Contents (Elt F)),
    StableHlo.reshape main_v764 main_v765 rfl shapeCasts_S1x1x128x128_S128x128,
    StableHlo.unary main_v765 main_v766 ((transpose S128x128 [1, 0] · transposes_S128x128_S128x128_1_0) : (⟨S128x128, .f32⟩ : BufTy).Contents (Elt F) → (⟨S128x128, .f32⟩ : BufTy).Contents (Elt F)),
    StableHlo.binary main_v763 main_v766 main_v767 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_129 (constantI S_ 32 0#32) ]

/-- The buffers they write, in order. -/
abbrev chunk14_W : List (Ref sig .tc) :=
  [main_v717, main_v718, main_v719, main_v720, main_v721, main_v722, main_v723, main_c_121, main_v724, main_v725, main_c_122, main_v726, main_v727, main_v728, main_v729, main_v730, main_v731, main_v732, main_v733, main_v734, main_c_123, main_v735, main_v736, main_c_124, main_v737, main_v738, main_v739, main_v740, main_v741, main_v742, main_v743, main_v744, main_v745, main_c_125, main_v746, main_v747, main_c_126, main_v748, main_v749, main_v750, main_v751, main_v752, main_v753, main_v754, main_v755, main_v756, main_c_127, main_v757, main_v758, main_c_128, main_v759, main_v760, main_v761, main_v762, main_v763, main_v764, main_v765, main_v766, main_v767, main_c_129]

end Cert.ReferenceIdeal.RefRun

end
-- ==== Proof.RRunChk14.lean ====
/- TABLES over the operations of window `main_part14` (module RRunOps14): one term per operation for each side condition of
   the run, around the one proof text every window shares. -/
import proofs.«413166_j32323923870246_3_alg».proof.Proof.RRunOps14
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part14_eq (c : Dev nD) : main_part14 (F := F) c = seq chunk14 := by
  simp only [main_part14, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk14_sub : (chunk14 : List (HloOp τ sig (Elt F))).Forall fun op => op.bufs ⊆ tcRefs τ sig :=
  ⟨ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub ..⟩

set_option maxRecDepth 16384 in
/-- Every operation determines its result. -/
theorem chunk14_fresh : ∀ op ∈ (chunk14 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk14 : List (HloOp τ sig (Elt F))).Forall fun op => op.fresh = ∅)

set_option maxRecDepth 16384 in
/-- Each operation writes one buffer of the list. -/
theorem chunk14_writes : (chunk14 : List (HloOp τ sig (Elt F))).Forall fun op =>
    op.writes ⊆ (chunk14_W.map (Proc.devRef (τ := τ) .tc)).toFinset :=
  ⟨writes_sub_of_mem main_v717 rfl (by decide),
    writes_sub_of_mem main_v718 rfl (by decide),
    writes_sub_of_mem main_v719 rfl (by decide),
    writes_sub_of_mem main_v720 rfl (by decide),
    writes_sub_of_mem main_v721 rfl (by decide),
    writes_sub_of_mem main_v722 rfl (by decide),
    writes_sub_of_mem main_v723 rfl (by decide),
    writes_sub_of_mem main_c_121 rfl (by decide),
    writes_sub_of_mem main_v724 rfl (by decide),
    writes_sub_of_mem main_v725 rfl (by decide),
    writes_sub_of_mem main_c_122 rfl (by decide),
    writes_sub_of_mem main_v726 rfl (by decide),
    writes_sub_of_mem main_v727 rfl (by decide),
    writes_sub_of_mem main_v728 rfl (by decide),
    writes_sub_of_mem main_v729 rfl (by decide),
    writes_sub_of_mem main_v730 rfl (by decide),
    writes_sub_of_mem main_v731 rfl (by decide),
    writes_sub_of_mem main_v732 rfl (by decide),
    writes_sub_of_mem main_v733 rfl (by decide),
    writes_sub_of_mem main_v734 rfl (by decide),
    writes_sub_of_mem main_c_123 rfl (by decide),
    writes_sub_of_mem main_v735 rfl (by decide),
    writes_sub_of_mem main_v736 rfl (by decide),
    writes_sub_of_mem main_c_124 rfl (by decide),
    writes_sub_of_mem main_v737 rfl (by decide),
    writes_sub_of_mem main_v738 rfl (by decide),
    writes_sub_of_mem main_v739 rfl (by decide),
    writes_sub_of_mem main_v740 rfl (by decide),
    writes_sub_of_mem main_v741 rfl (by decide),
    writes_sub_of_mem main_v742 rfl (by decide),
    writes_sub_of_mem main_v743 rfl (by decide),
    writes_sub_of_mem main_v744 rfl (by decide),
    writes_sub_of_mem main_v745 rfl (by decide),
    writes_sub_of_mem main_c_125 rfl (by decide),
    writes_sub_of_mem main_v746 rfl (by decide),
    writes_sub_of_mem main_v747 rfl (by decide),
    writes_sub_of_mem main_c_126 rfl (by decide),
    writes_sub_of_mem main_v748 rfl (by decide),
    writes_sub_of_mem main_v749 rfl (by decide),
    writes_sub_of_mem main_v750 rfl (by decide),
    writes_sub_of_mem main_v751 rfl (by decide),
    writes_sub_of_mem main_v752 rfl (by decide),
    writes_sub_of_mem main_v753 rfl (by decide),
    writes_sub_of_mem main_v754 rfl (by decide),
    writes_sub_of_mem main_v755 rfl (by decide),
    writes_sub_of_mem main_v756 rfl (by decide),
    writes_sub_of_mem main_c_127 rfl (by decide),
    writes_sub_of_mem main_v757 rfl (by decide),
    writes_sub_of_mem main_v758 rfl (by decide),
    writes_sub_of_mem main_c_128 rfl (by decide),
    writes_sub_of_mem main_v759 rfl (by decide),
    writes_sub_of_mem main_v760 rfl (by decide),
    writes_sub_of_mem main_v761 rfl (by decide),
    writes_sub_of_mem main_v762 rfl (by decide),
    writes_sub_of_mem main_v763 rfl (by decide),
    writes_sub_of_mem main_v764 rfl (by decide),
    writes_sub_of_mem main_v765 rfl (by decide),
    writes_sub_of_mem main_v766 rfl (by decide),
    writes_sub_of_mem main_v767 rfl (by decide),
    writes_sub_of_mem main_c_129 rfl (by decide)⟩

/-- A buffer the window does not write keeps its contents through it. -/
theorem chunk14_keep (V : Valuation τ sig (Elt F)) (r : Ref sig .tc) (h : r ∉ chunk14_W) :
    after chunk14 V (Proc.devRef .tc r) = V (Proc.devRef .tc r) :=
  after_of_writes_sub chunk14 V chunk14_writes h

end Cert.ReferenceIdeal.RefRun

end
-- ==== Proof.RRunOps15.lean ====
/- TABLES transcribed from proof/ReferenceIdeal.lean: window `main_part15` of the reference's @main as a list of host
   operations (60: 1047 … 1106 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part15`, in order, the calls unfolded. -/
abbrev chunk15 : List (HloOp τ sig (Elt F)) :=
  [ StableHlo.unary main_c_129 main_v768 (broadcastInDim S50000 ![] bcast_S_S50000 : (⟨S_, .i32⟩ : BufTy).Contents (Elt F) → (⟨S50000, .i32⟩ : BufTy).Contents (Elt F)),
    StableHlo.binary main_v754 main_v768 main_v769 (cmpi .slt : (⟨S50000, .i32⟩ : BufTy).Contents (Elt F) → (⟨S50000, .i32⟩ : BufTy).Contents (Elt F) → (⟨S50000, .i1⟩ : BufTy).Contents (Elt F)),
    StableHlo.nullary main_c_130 (constantI S_ 32 50000#32),
    StableHlo.unary main_c_130 main_v770 (broadcastInDim S50000 ![] bcast_S_S50000 : (⟨S_, .i32⟩ : BufTy).Contents (Elt F) → (⟨S50000, .i32⟩ : BufTy).Contents (Elt F)),
    StableHlo.binary main_v754 main_v770 main_v771 (addi : (⟨S50000, .i32⟩ : BufTy).Contents (Elt F) → (⟨S50000, .i32⟩ : BufTy).Contents (Elt F) → (⟨S50000, .i32⟩ : BufTy).Contents (Elt F)),
    StableHlo.ternary main_v769 main_v771 main_v754 main_v772 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v772 main_v773 (broadcastInDim S50000x1 ![0] bcast_S50000_S50000x1_0 : (⟨S50000, .i32⟩ : BufTy).Contents (Elt F) → (⟨S50000x1, .i32⟩ : BufTy).Contents (Elt F)),
    StableHlo.ternary main_v752 main_v773 main_v767 main_v774 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v775 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v775 main_v776 rfl shapeCasts_S1x50000_S50000,
    StableHlo.unary main_arg26 main_v777 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v777 main_v778 rfl shapeCasts_S1x50000_S50000,
    StableHlo.nullary main_c_131 (constantI S_ 32 0#32),
    StableHlo.unary main_c_131 main_v779 (broadcastInDim S50000 ![] bcast_S_S50000 : (⟨S_, .i32⟩ : BufTy).Contents (Elt F) → (⟨S50000, .i32⟩ : BufTy).Contents (Elt F)),
    StableHlo.binary main_v778 main_v779 main_v780 (cmpi .slt : (⟨S50000, .i32⟩ : BufTy).Contents (Elt F) → (⟨S50000, .i32⟩ : BufTy).Contents (Elt F) → (⟨S50000, .i1⟩ : BufTy).Contents (Elt F)),
    StableHlo.nullary main_c_132 (constantI S_ 32 50000#32),
    StableHlo.unary main_c_132 main_v781 (broadcastInDim S50000 ![] bcast_S_S50000 : (⟨S_, .i32⟩ : BufTy).Contents (Elt F) → (⟨S50000, .i32⟩ : BufTy).Contents (Elt F)),
    StableHlo.binary main_v778 main_v781 main_v782 (addi : (⟨S50000, .i32⟩ : BufTy).Contents (Elt F) → (⟨S50000, .i32⟩ : BufTy).Contents (Elt F) → (⟨S50000, .i32⟩ : BufTy).Contents (Elt F)),
    StableHlo.ternary main_v780 main_v782 main_v778 main_v783 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v783 main_v784 (broadcastInDim S50000x1 ![0] bcast_S50000_S50000x1_0 : (⟨S50000, .i32⟩ : BufTy).Contents (Elt F) → (⟨S50000x1, .i32⟩ : BufTy).Contents (Elt F)),
    StableHlo.binary main_v528 main_v784 main_v785 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v786 ((extractStridedSlice S1x1x128x128 ![1, 11, 0, 0] · slices_S4x12x128x128_S1x1x128x128_1_11_0_0) : (⟨S4x12x128x128, .f32⟩ : BufTy).Contents (Elt F) → (⟨S1x1x128x128, .f32⟩ : BufTy).Contents (Elt F)),
    StableHlo.reshape main_v786 main_v787 rfl shapeCasts_S1x1x128x128_S128x128,
    StableHlo.unary main_v787 main_v788 ((transpose S128x128 [1, 0] · transposes_S128x128_S128x128_1_0) : (⟨S128x128, .f32⟩ : BufTy).Contents (Elt F) → (⟨S128x128, .f32⟩ : BufTy).Contents (Elt F)),
    StableHlo.binary main_v785 main_v788 main_v789 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_133 (constantI S_ 32 0#32),
    StableHlo.unary main_c_133 main_v790 (broadcastInDim S50000 ![] bcast_S_S50000 : (⟨S_, .i32⟩ : BufTy).Contents (Elt F) → (⟨S50000, .i32⟩ : BufTy).Contents (Elt F)),
    StableHlo.binary main_v776 main_v790 main_v791 (cmpi .slt : (⟨S50000, .i32⟩ : BufTy).Contents (Elt F) → (⟨S50000, .i32⟩ : BufTy).Contents (Elt F) → (⟨S50000, .i1⟩ : BufTy).Contents (Elt F)),
    StableHlo.nullary main_c_134 (constantI S_ 32 50000#32),
    StableHlo.unary main_c_134 main_v792 (broadcastInDim S50000 ![] bcast_S_S50000 : (⟨S_, .i32⟩ : BufTy).Contents (Elt F) → (⟨S50000, .i32⟩ : BufTy).Contents (Elt F)),
    StableHlo.binary main_v776 main_v792 main_v793 (addi : (⟨S50000, .i32⟩ : BufTy).Contents (Elt F) → (⟨S50000, .i32⟩ : BufTy).Contents (Elt F) → (⟨S50000, .i32⟩ : BufTy).Contents (Elt F)),
    StableHlo.ternary main_v791 main_v793 main_v776 main_v794 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v794 main_v795 (broadcastInDim S50000x1 ![0] bcast_S50000_S50000x1_0 : (⟨S50000, .i32⟩ : BufTy).Contents (Elt F) → (⟨S50000x1, .i32⟩ : BufTy).Contents (Elt F)),
    StableHlo.ternary main_v774 main_v795 main_v789 main_v796 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg27 main_v797 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v797 main_v798 rfl shapeCasts_S1x5000_S5000,
    StableHlo.unary main_arg28 main_v799 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v799 main_v800 rfl shapeCasts_S1x5000_S5000,
    StableHlo.nullary main_c_135 (constantI S_ 32 0#32),
    StableHlo.unary main_c_135 main_v801 (broadcastInDim S5000 ![] bcast_S_S5000 : (⟨S_, .i32⟩ : BufTy).Contents (Elt F) → (⟨S5000, .i32⟩ : BufTy).Contents (Elt F)),
    StableHlo.binary main_v800 main_v801 main_v802 (cmpi .slt : (⟨S5000, .i32⟩ : BufTy).Contents (Elt F) → (⟨S5000, .i32⟩ : BufTy).Contents (Elt F) → (⟨S5000, .i1⟩ : BufTy).Contents (Elt F)),
    StableHlo.nullary main_c_136 (constantI S_ 32 50000#32),
    StableHlo.unary main_c_136 main_v803 (broadcastInDim S5000 ![] bcast_S_S5000 : (⟨S_, .i32⟩ : BufTy).Contents (Elt F) → (⟨S5000, .i32⟩ : BufTy).Contents (Elt F)),
    StableHlo.binary main_v800 main_v803 main_v804 (addi : (⟨S5000, .i32⟩ : BufTy).Contents (Elt F) → (⟨S5000, .i32⟩ : BufTy).Contents (Elt F) → (⟨S5000, .i32⟩ : BufTy).Contents (Elt F)),
    StableHlo.ternary main_v802 main_v804 main_v800 main_v805 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v805 main_v806 (broadcastInDim S5000x1 ![0] bcast_S5000_S5000x1_0 : (⟨S5000, .i32⟩ : BufTy).Contents (Elt F) → (⟨S5000x1, .i32⟩ : BufTy).Contents (Elt F)),
    StableHlo.binary main_v528 main_v806 main_v807 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg16 main_v808 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v808 main_v809 rfl shapeCasts_S1x128x128_S128x128,
    StableHlo.unary main_v809 main_v810 ((transpose S128x128 [1, 0] · transposes_S128x128_S128x128_1_0) : (⟨S128x128, .f32⟩ : BufTy).Contents (Elt F) → (⟨S128x128, .f32⟩ : BufTy).Contents (Elt F)),
    StableHlo.binary main_v807 main_v810 main_v811 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_137 (constantI S_ 32 0#32),
    StableHlo.unary main_c_137 main_v812 (broadcastInDim S5000 ![] bcast_S_S5000 : (⟨S_, .i32⟩ : BufTy).Contents (Elt F) → (⟨S5000, .i32⟩ : BufTy).Contents (Elt F)),
    StableHlo.binary main_v798 main_v812 main_v813 (cmpi .slt : (⟨S5000, .i32⟩ : BufTy).Contents (Elt F) → (⟨S5000, .i32⟩ : BufTy).Contents (Elt F) → (⟨S5000, .i1⟩ : BufTy).Contents (Elt F)),
    StableHlo.nullary main_c_138 (constantI S_ 32 50000#32),
    StableHlo.unary main_c_138 main_v814 (broadcastInDim S5000 ![] bcast_S_S5000 : (⟨S_, .i32⟩ : BufTy).Contents (Elt F) → (⟨S5000, .i32⟩ : BufTy).Contents (Elt F)),
    StableHlo.binary main_v798 main_v814 main_v815 (addi : (⟨S5000, .i32⟩ : BufTy).Contents (Elt F) → (⟨S5000, .i32⟩ : BufTy).Contents (Elt F) → (⟨S5000, .i32⟩ : BufTy).Contents (Elt F)),
    StableHlo.ternary main_v813 main_v815 main_v798 main_v816 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v816 main_v817 (broadcastInDim S5000x1 ![0] bcast_S5000_S5000x1_0 : (⟨S5000, .i32⟩ : BufTy).Contents (Elt F) → (⟨S5000x1, .i32⟩ : BufTy).Contents (Elt F)),
    StableHlo.ternary main_v796 main_v817 main_v811 main_v818 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)) ]

/-- The buffers they write, in order. -/
abbrev chunk15_W : List (Ref sig .tc) :=
  [main_v768, main_v769, main_c_130, main_v770, main_v771, main_v772, main_v773, main_v774, main_v775, main_v776, main_v777, main_v778, main_c_131, main_v779, main_v780, main_c_132, main_v781, main_v782, main_v783, main_v784, main_v785, main_v786, main_v787, main_v788, main_v789, main_c_133, main_v790, main_v791, main_c_134, main_v792, main_v793, main_v794, main_v795, main_v796, main_v797, main_v798, main_v799, main_v800, main_c_135, main_v801, main_v802, main_c_136, main_v803, main_v804, main_v805, main_v806, main_v807, main_v808, main_v809, main_v810, main_v811, main_c_137, main_v812, main_v813, main_c_138, main_v814, main_v815, main_v816, main_v817, main_v818]

end Cert.ReferenceIdeal.RefRun

end
-- ==== Proof.RRunChk15.lean ====
/- TABLES over the operations of window `main_part15` (module RRunOps15): one term per operation for each side condition of
   the run, around the one proof text every window shares. -/
import proofs.«413166_j32323923870246_3_alg».proof.Proof.RRunOps15
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part15_eq (c : Dev nD) : main_part15 (F := F) c = seq chunk15 := by
  simp only [main_part15, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk15_sub : (chunk15 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩

set_option maxRecDepth 16384 in
/-- Every operation determines its result. -/
theorem chunk15_fresh : ∀ op ∈ (chunk15 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk15 : List (HloOp τ sig (Elt F))).Forall fun op => op.fresh = ∅)

set_option maxRecDepth 16384 in
/-- Each operation writes one buffer of the list. -/
theorem chunk15_writes : (chunk15 : List (HloOp τ sig (Elt F))).Forall fun op =>
    op.writes ⊆ (chunk15_W.map (Proc.devRef (τ := τ) .tc)).toFinset :=
  ⟨writes_sub_of_mem main_v768 rfl (by decide),
    writes_sub_of_mem main_v769 rfl (by decide),
    writes_sub_of_mem main_c_130 rfl (by decide),
    writes_sub_of_mem main_v770 rfl (by decide),
    writes_sub_of_mem main_v771 rfl (by decide),
    writes_sub_of_mem main_v772 rfl (by decide),
    writes_sub_of_mem main_v773 rfl (by decide),
    writes_sub_of_mem main_v774 rfl (by decide),
    writes_sub_of_mem main_v775 rfl (by decide),
    writes_sub_of_mem main_v776 rfl (by decide),
    writes_sub_of_mem main_v777 rfl (by decide),
    writes_sub_of_mem main_v778 rfl (by decide),
    writes_sub_of_mem main_c_131 rfl (by decide),
    writes_sub_of_mem main_v779 rfl (by decide),
    writes_sub_of_mem main_v780 rfl (by decide),
    writes_sub_of_mem main_c_132 rfl (by decide),
    writes_sub_of_mem main_v781 rfl (by decide),
    writes_sub_of_mem main_v782 rfl (by decide),
    writes_sub_of_mem main_v783 rfl (by decide),
    writes_sub_of_mem main_v784 rfl (by decide),
    writes_sub_of_mem main_v785 rfl (by decide),
    writes_sub_of_mem main_v786 rfl (by decide),
    writes_sub_of_mem main_v787 rfl (by decide),
    writes_sub_of_mem main_v788 rfl (by decide),
    writes_sub_of_mem main_v789 rfl (by decide),
    writes_sub_of_mem main_c_133 rfl (by decide),
    writes_sub_of_mem main_v790 rfl (by decide),
    writes_sub_of_mem main_v791 rfl (by decide),
    writes_sub_of_mem main_c_134 rfl (by decide),
    writes_sub_of_mem main_v792 rfl (by decide),
    writes_sub_of_mem main_v793 rfl (by decide),
    writes_sub_of_mem main_v794 rfl (by decide),
    writes_sub_of_mem main_v795 rfl (by decide),
    writes_sub_of_mem main_v796 rfl (by decide),
    writes_sub_of_mem main_v797 rfl (by decide),
    writes_sub_of_mem main_v798 rfl (by decide),
    writes_sub_of_mem main_v799 rfl (by decide),
    writes_sub_of_mem main_v800 rfl (by decide),
    writes_sub_of_mem main_c_135 rfl (by decide),
    writes_sub_of_mem main_v801 rfl (by decide),
    writes_sub_of_mem main_v802 rfl (by decide),
    writes_sub_of_mem main_c_136 rfl (by decide),
    writes_sub_of_mem main_v803 rfl (by decide),
    writes_sub_of_mem main_v804 rfl (by decide),
    writes_sub_of_mem main_v805 rfl (by decide),
    writes_sub_of_mem main_v806 rfl (by decide),
    writes_sub_of_mem main_v807 rfl (by decide),
    writes_sub_of_mem main_v808 rfl (by decide),
    writes_sub_of_mem main_v809 rfl (by decide),
    writes_sub_of_mem main_v810 rfl (by decide),
    writes_sub_of_mem main_v811 rfl (by decide),
    writes_sub_of_mem main_c_137 rfl (by decide),
    writes_sub_of_mem main_v812 rfl (by decide),
    writes_sub_of_mem main_v813 rfl (by decide),
    writes_sub_of_mem main_c_138 rfl (by decide),
    writes_sub_of_mem main_v814 rfl (by decide),
    writes_sub_of_mem main_v815 rfl (by decide),
    writes_sub_of_mem main_v816 rfl (by decide),
    writes_sub_of_mem main_v817 rfl (by decide),
    writes_sub_of_mem main_v818 rfl (by decide)⟩

/-- A buffer the window does not write keeps its contents through it. -/
theorem chunk15_keep (V : Valuation τ sig (Elt F)) (r : Ref sig .tc) (h : r ∉ chunk15_W) :
    after chunk15 V (Proc.devRef .tc r) = V (Proc.devRef .tc r) :=
  after_of_writes_sub chunk15 V chunk15_writes h

end Cert.ReferenceIdeal.RefRun

end
-- ==== Proof.RRunOps16.lean ====
/- TABLES transcribed from proof/ReferenceIdeal.lean: window `main_part16` of the reference's @main as a list of host
   operations (84: 1107 … 1190 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part16`, in order, the calls unfolded. -/
abbrev chunk16 : List (HloOp τ sig (Elt F)) :=
  [ StableHlo.unary main_arg27 main_v819 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v819 main_v820 rfl shapeCasts_S1x5000_S5000,
    StableHlo.unary main_arg28 main_v821 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v821 main_v822 rfl shapeCasts_S1x5000_S5000,
    StableHlo.nullary main_c_139 (constantI S_ 32 0#32),
    StableHlo.unary main_c_139 main_v823 (broadcastInDim S5000 ![] bcast_S_S5000 : (⟨S_, .i32⟩ : BufTy).Contents (Elt F) → (⟨S5000, .i32⟩ : BufTy).Contents (Elt F)),
    StableHlo.binary main_v822 main_v823 main_v824 (cmpi .slt : (⟨S5000, .i32⟩ : BufTy).Contents (Elt F) → (⟨S5000, .i32⟩ : BufTy).Contents (Elt F) → (⟨S5000, .i1⟩ : BufTy).Contents (Elt F)),
    StableHlo.nullary main_c_140 (constantI S_ 32 50000#32),
    StableHlo.unary main_c_140 main_v825 (broadcastInDim S5000 ![] bcast_S_S5000 : (⟨S_, .i32⟩ : BufTy).Contents (Elt F) → (⟨S5000, .i32⟩ : BufTy).Contents (Elt F)),
    StableHlo.binary main_v822 main_v825 main_v826 (addi : (⟨S5000, .i32⟩ : BufTy).Contents (Elt F) → (⟨S5000, .i32⟩ : BufTy).Contents (Elt F) → (⟨S5000, .i32⟩ : BufTy).Contents (Elt F)),
    StableHlo.ternary main_v824 main_v826 main_v822 main_v827 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v827 main_v828 (broadcastInDim S5000x1 ![0] bcast_S5000_S5000x1_0 : (⟨S5000, .i32⟩ : BufTy).Contents (Elt F) → (⟨S5000x1, .i32⟩ : BufTy).Contents (Elt F)),
    StableHlo.binary main_v528 main_v828 main_v829 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg17 main_v830 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v830 main_v831 rfl shapeCasts_S1x128x128_S128x128,
    StableHlo.unary main_v831 main_v832 ((transpose S128x128 [1, 0] · transposes_S128x128_S128x128_1_0) : (⟨S128x128, .f32⟩ : BufTy).Contents (Elt F) → (⟨S128x128, .f32⟩ : BufTy).Contents (Elt F)),
    StableHlo.binary main_v829 main_v832 main_v833 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_141 (constantI S_ 32 0#32),
    StableHlo.unary main_c_141 main_v834 (broadcastInDim S5000 ![] bcast_S_S5000 : (⟨S_, .i32⟩ : BufTy).Contents (Elt F) → (⟨S5000, .i32⟩ : BufTy).Contents (Elt F)),
    StableHlo.binary main_v820 main_v834 main_v835 (cmpi .slt : (⟨S5000, .i32⟩ : BufTy).Contents (Elt F) → (⟨S5000, .i32⟩ : BufTy).Contents (Elt F) → (⟨S5000, .i1⟩ : BufTy).Contents (Elt F)),
    StableHlo.nullary main_c_142 (constantI S_ 32 50000#32),
    StableHlo.unary main_c_142 main_v836 (broadcastInDim S5000 ![] bcast_S_S5000 : (⟨S_, .i32⟩ : BufTy).Contents (Elt F) → (⟨S5000, .i32⟩ : BufTy).Contents (Elt F)),
    StableHlo.binary main_v820 main_v836 main_v837 (addi : (⟨S5000, .i32⟩ : BufTy).Contents (Elt F) → (⟨S5000, .i32⟩ : BufTy).Contents (Elt F) → (⟨S5000, .i32⟩ : BufTy).Contents (Elt F)),
    StableHlo.ternary main_v835 main_v837 main_v820 main_v838 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v838 main_v839 (broadcastInDim S5000x1 ![0] bcast_S5000_S5000x1_0 : (⟨S5000, .i32⟩ : BufTy).Contents (Elt F) → (⟨S5000x1, .i32⟩ : BufTy).Contents (Elt F)),
    StableHlo.ternary main_v818 main_v839 main_v833 main_v840 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg18 main_v841 ((extractStridedSlice S1x2x128 ![1, 0, 0] · slices_S4x2x128_S1x2x128_1_0_0) : (⟨S4x2x128, .f32⟩ : BufTy).Contents (Elt F) → (⟨S1x2x128, .f32⟩ : BufTy).Contents (Elt F)),
    StableHlo.reshape main_v841 main_v842 rfl shapeCasts_S1x2x128_S2x128,
    StableHlo.nullary main_cst_143 (constant S_ .f32 0x00000000#32),
    StableHlo.binary main_v840 main_cst_143 main_v843 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v843 main_v844 (broadcastInDim S50000x1 ![0] bcast_S50000_S50000x1_0 : (⟨S50000, .f32⟩ : BufTy).Contents (Elt F) → (⟨S50000x1, .f32⟩ : BufTy).Contents (Elt F)),
    StableHlo.nullary main_cst_144 (constant S_ .f32 0x43000000#32),
    StableHlo.unary main_cst_144 main_v845 (broadcastInDim S50000x1 ![] bcast_S_S50000x1 : (⟨S_, .f32⟩ : BufTy).Contents (Elt F) → (⟨S50000x1, .f32⟩ : BufTy).Contents (Elt F)),
    StableHlo.binary main_v844 main_v845 main_v846 (Host.divf : (⟨S50000x1, .f32⟩ : BufTy).Contents (Elt F) → (⟨S50000x1, .f32⟩ : BufTy).Contents (Elt F) → (⟨S50000x1, .f32⟩ : BufTy).Contents (Elt F)),
    StableHlo.nullary main_c_145 (constantI S_ 32 0#32),
    StableHlo.TRef.nullary main_call13.cst (constant S_ .f32 0x00000000#32),
    StableHlo.TRef.binary (.of main_v840 : StableHlo.TRef sig ⟨S50000x128, .f32⟩) main_call13.cst main_call13.v0 (fun x v => Host.reduceAdd x v reducesTo_S50000x128_S50000_d1 h_S_),
    StableHlo.TRef.unary main_call13.v0 main_call13.v1 (broadcastInDim S50000x1 ![0] bcast_S50000_S50000x1_0),
    StableHlo.TRef.nullary main_call13.cst_0 (constant S_ .f32 0x43000000#32),
    StableHlo.TRef.unary main_call13.cst_0 main_call13.v2 (broadcastInDim S50000x1 ![] bcast_S_S50000x1),
    StableHlo.TRef.binary main_call13.v1 main_call13.v2 main_call13.v3 Host.divf,
    StableHlo.TRef.unary main_call13.v3 main_call13.v4 (broadcastInDim S50000x128 ![0, 1] bcast_S50000x1_S50000x128_0_1),
    StableHlo.TRef.binary (.of main_v840 : StableHlo.TRef sig ⟨S50000x128, .f32⟩) main_call13.v4 main_call13.v5 subf,
    StableHlo.TRef.binary main_call13.v5 main_call13.v5 main_call13.v6 mulf,
    StableHlo.TRef.unary (.of main_c_145 : StableHlo.TRef sig ⟨S_, .i32⟩) main_call13.v7 (sitofp .f32),
    StableHlo.TRef.nullary main_call13.cst_1 (constant S_ .f32 0x43000000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S50000x128_S50000_d1 h_S_),
    StableHlo.TRef.unary main_call13.v9 main_call13.v10 (broadcastInDim S50000x1 ![0] bcast_S50000_S50000x1_0),
    StableHlo.TRef.unary main_call13.v8 main_call13.v11 (broadcastInDim S50000x1 ![] bcast_S_S50000x1),
    StableHlo.TRef.binary main_call13.v10 main_call13.v11 main_call13.v12 Host.divf,
    StableHlo.TRef.nullary main_call13.cst_3 (constant S_ .f32 0x00000000#32),
    StableHlo.TRef.binary main_call13.v8 main_call13.cst_3 main_call13.v13 (cmpf .ogt),
    StableHlo.TRef.nullary main_call13.cst_4 (constant S_ .f32 0x7FC00000#32),
    StableHlo.TRef.unary (main_call13.cst_4 : StableHlo.TRef sig ⟨S_, .f32⟩) main_call13.call0.v0 id,
    StableHlo.TRef.unary main_call13.call0.v0 main_call13.call0.v1 (broadcastInDim S50000x1 ![] bcast_S_S50000x1),
    StableHlo.TRef.ternary (main_call13.v13 : StableHlo.TRef sig ⟨S_, .i1⟩) (main_call13.v12 : StableHlo.TRef sig ⟨S50000x1, .f32⟩) main_call13.call0.v1 main_call13.call0.v2 (fun p a b => select (broadcastInDim S50000x1 ![] bcast_S_S50000x1 p) a b),
    StableHlo.unary main_v846 main_v848 (broadcastInDim S50000x128 ![0, 1] bcast_S50000x1_S50000x128_0_1 : (⟨S50000x1, .f32⟩ : BufTy).Contents (Elt F) → (⟨S50000x128, .f32⟩ : BufTy).Contents (Elt F)),
    StableHlo.binary main_v840 main_v848 main_v849 (subf : (⟨S50000x128, .f32⟩ : BufTy).Contents (Elt F) → (⟨S50000x128, .f32⟩ : BufTy).Contents (Elt F) → (⟨S50000x128, .f32⟩ : BufTy).Contents (Elt F)),
    StableHlo.nullary main_cst_146 (constant S_ .f32 0x3727C5AC#32),
    StableHlo.unary main_cst_146 main_v850 (broadcastInDim S50000x1 ![] bcast_S_S50000x1 : (⟨S_, .f32⟩ : BufTy).Contents (Elt F) → (⟨S50000x1, .f32⟩ : BufTy).Contents (Elt F)),
    StableHlo.binary main_v847 main_v850 main_v851 (addf : (⟨S50000x1, .f32⟩ : BufTy).Contents (Elt F) → (⟨S50000x1, .f32⟩ : BufTy).Contents (Elt F) → (⟨S50000x1, .f32⟩ : BufTy).Contents (Elt F)),
    StableHlo.unary main_v851 main_v852 (Host.sqrt : (⟨S50000x1, .f32⟩ : BufTy).Contents (Elt F) → (⟨S50000x1, .f32⟩ : BufTy).Contents (Elt F)),
    StableHlo.unary main_v852 main_v853 (broadcastInDim S50000x128 ![0, 1] bcast_S50000x1_S50000x128_0_1 : (⟨S50000x1, .f32⟩ : BufTy).Contents (Elt F) → (⟨S50000x128, .f32⟩ : BufTy).Contents (Elt F)),
    StableHlo.binary main_v849 main_v853 main_v854 (Host.divf : (⟨S50000x128, .f32⟩ : BufTy).Contents (Elt F) → (⟨S50000x128, .f32⟩ : BufTy).Contents (Elt F) → (⟨S50000x128, .f32⟩ : BufTy).Contents (Elt F)),
    StableHlo.unary main_v842 main_v855 ((extractStridedSlice S1x128 ![0, 0] · slices_S2x128_S1x128_0_0) : (⟨S2x128, .f32⟩ : BufTy).Contents (Elt F) → (⟨S1x128, .f32⟩ : BufTy).Contents (Elt F)),
    StableHlo.reshape main_v855 main_v856 rfl shapeCasts_S1x128_S128,
    StableHlo.unary main_v856 main_v857 (broadcastInDim S1x128 ![1] bcast_S128_S1x128_1 : (⟨S128, .f32⟩ : BufTy).Contents (Elt F) → (⟨S1x128, .f32⟩ : BufTy).Contents (Elt F)),
    StableHlo.unary main_v857 main_v858 (broadcastInDim S50000x128 ![0, 1] bcast_S1x128_S50000x128_0_1 : (⟨S1x128, .f32⟩ : BufTy).Contents (Elt F) → (⟨S50000x128, .f32⟩ : BufTy).Contents (Elt F)),
    StableHlo.binary main_v854 main_v858 main_v859 (mulf : (⟨S50000x128, .f32⟩ : BufTy).Contents (Elt F) → (⟨S50000x128, .f32⟩ : BufTy).Contents (Elt F) → (⟨S50000x128, .f32⟩ : BufTy).Contents (Elt F)),
    StableHlo.unary main_v842 main_v860 ((extractStridedSlice S1x128 ![1, 0] · slices_S2x128_S1x128_1_0) : (⟨S2x128, .f32⟩ : BufTy).Contents (Elt F) → (⟨S1x128, .f32⟩ : BufTy).Contents (Elt F)),
    StableHlo.reshape main_v860 main_v861 rfl shapeCasts_S1x128_S128,
    StableHlo.unary main_v861 main_v862 (broadcastInDim S1x128 ![1] bcast_S128_S1x128_1 : (⟨S128, .f32⟩ : BufTy).Contents (Elt F) → (⟨S1x128, .f32⟩ : BufTy).Contents (Elt F)),
    StableHlo.unary main_v862 main_v863 (broadcastInDim S50000x128 ![0, 1] bcast_S1x128_S50000x128_0_1 : (⟨S1x128, .f32⟩ : BufTy).Contents (Elt F) → (⟨S50000x128, .f32⟩ : BufTy).Contents (Elt F)),
    StableHlo.binary main_v859 main_v863 main_v864 (addf : (⟨S50000x128, .f32⟩ : BufTy).Contents (Elt F) → (⟨S50000x128, .f32⟩ : BufTy).Contents (Elt F) → (⟨S50000x128, .f32⟩ : BufTy).Contents (Elt F)),
    StableHlo.TRef.nullary main_call14.cst (constant S_ .f32 0x00000000#32),
    StableHlo.TRef.unary main_call14.cst main_call14.v0 (broadcastInDim S50000x128 ![] bcast_S_S50000x128),
    StableHlo.TRef.binary (.of main_v864 : StableHlo.TRef sig ⟨S50000x128, .f32⟩) main_call14.v0 main_call14.v1 maximumf,
    StableHlo.unary main_arg19 main_v866 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v866 main_v867 rfl shapeCasts_S1x128x128_S128x128,
    StableHlo.unary main_v867 main_v868 ((transpose S128x128 [1, 0] · transposes_S128x128_S128x128_1_0) : (⟨S128x128, .f32⟩ : BufTy).Contents (Elt F) → (⟨S128x128, .f32⟩ : BufTy).Contents (Elt F)),
    StableHlo.binary main_v865 main_v868 main_v869 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg20 main_v870 ((extractStridedSlice S1x2x128 ![1, 0, 0] · slices_S4x2x128_S1x2x128_1_0_0) : (⟨S4x2x128, .f32⟩ : BufTy).Contents (Elt F) → (⟨S1x2x128, .f32⟩ : BufTy).Contents (Elt F)) ]

/-- The buffers they write, in order. -/
abbrev chunk16_W : List (Ref sig .tc) :=
  [main_v819, main_v820, main_v821, main_v822, main_c_139, main_v823, main_v824, main_c_140, main_v825, main_v826, main_v827, main_v828, main_v829, main_v830, main_v831, main_v832, main_v833, main_c_141, main_v834, main_v835, main_c_142, main_v836, main_v837, main_v838, main_v839, main_v840, main_v841, main_v842, main_cst_143, main_v843, main_v844, main_cst_144, main_v845, main_v846, main_c_145, main_call13.cst.ref, main_call13.v0.ref, main_call13.v1.ref, main_call13.cst_0.ref, main_call13.v2.ref, main_call13.v3.ref, main_call13.v4.ref, main_call13.v5.ref, main_call13.v6.ref, main_call13.v7.ref, main_call13.cst_1.ref, main_call13.v8.ref, main_call13.cst_2.ref, main_call13.v9.ref, main_call13.v10.ref, main_call13.v11.ref, main_call13.v12.ref, main_call13.cst_3.ref, main_call13.v13.ref, main_call13.cst_4.ref, main_call13.call0.v0.ref, main_call13.call0.v1.ref, main_call13.call0.v2.ref, main_v848, main_v849, main_cst_146, main_v850, main_v851, main_v852, main_v853, main_v854, main_v855, main_v856, main_v857, main_v858, main_v859, main_v860, main_v861, main_v862, main_v863, main_v864, main_call14.cst.ref, main_call14.v0.ref, main_call14.v1.ref, main_v866, main_v867, main_v868, main_v869, main_v870]

end Cert.ReferenceIdeal.RefRun

end
-- ==== Proof.RRunChk16.lean ====
/- TABLES over the operations of window `main_part16` (module RRunOps16): one term per operation for each side condition of
   the run, around the one proof text every window shares. -/
import proofs.«413166_j32323923870246_3_alg».proof.Proof.RRunOps16
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part16_eq (c : Dev nD) : main_part16 (F := F) c = seq chunk16 := by
  simp only [main_part16, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk16_sub : (chunk16 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub ..⟩

set_option maxRecDepth 16384 in
/-- Every operation determines its result. -/
theorem chunk16_fresh : ∀ op ∈ (chunk16 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk16 : List (HloOp τ sig (Elt F))).Forall fun op => op.fresh = ∅)

set_option maxRecDepth 16384 in
/-- Each operation writes one buffer of the list. -/
theorem chunk16_writes : (chunk16 : List (HloOp τ sig (Elt F))).Forall fun op =>
    op.writes ⊆ (chunk16_W.map (Proc.devRef (τ := τ) .tc)).toFinset :=
  ⟨writes_sub_of_mem main_v819 rfl (by decide),
    writes_sub_of_mem main_v820 rfl (by decide),
    writes_sub_of_mem main_v821 rfl (by decide),
    writes_sub_of_mem main_v822 rfl (by decide),
    writes_sub_of_mem main_c_139 rfl (by decide),
    writes_sub_of_mem main_v823 rfl (by decide),
    writes_sub_of_mem main_v824 rfl (by decide),
    writes_sub_of_mem main_c_140 rfl (by decide),
    writes_sub_of_mem main_v825 rfl (by decide),
    writes_sub_of_mem main_v826 rfl (by decide),
    writes_sub_of_mem main_v827 rfl (by decide),
    writes_sub_of_mem main_v828 rfl (by decide),
    writes_sub_of_mem main_v829 rfl (by decide),
    writes_sub_of_mem main_v830 rfl (by decide),
    writes_sub_of_mem main_v831 rfl (by decide),
    writes_sub_of_mem main_v832 rfl (by decide),
    writes_sub_of_mem main_v833 rfl (by decide),
    writes_sub_of_mem main_c_141 rfl (by decide),
    writes_sub_of_mem main_v834 rfl (by decide),
    writes_sub_of_mem main_v835 rfl (by decide),
    writes_sub_of_mem main_c_142 rfl (by decide),
    writes_sub_of_mem main_v836 rfl (by decide),
    writes_sub_of_mem main_v837 rfl (by decide),
    writes_sub_of_mem main_v838 rfl (by decide),
    writes_sub_of_mem main_v839 rfl (by decide),
    writes_sub_of_mem main_v840 rfl (by decide),
    writes_sub_of_mem main_v841 rfl (by decide),
    writes_sub_of_mem main_v842 rfl (by decide),
    writes_sub_of_mem main_cst_143 rfl (by decide),
    writes_sub_of_mem main_v843 rfl (by decide),
    writes_sub_of_mem main_v844 rfl (by decide),
    writes_sub_of_mem main_cst_144 rfl (by decide),
    writes_sub_of_mem main_v845 rfl (by decide),
    writes_sub_of_mem main_v846 rfl (by decide),
    writes_sub_of_mem main_c_145 rfl (by decide),
    writes_sub_of_mem main_call13.cst.ref rfl (by decide),
    writes_sub_of_mem main_call13.v0.ref rfl (by decide),
    writes_sub_of_mem main_call13.v1.ref rfl (by decide),
    writes_sub_of_mem main_call13.cst_0.ref rfl (by decide),
    writes_sub_of_mem main_call13.v2.ref rfl (by decide),
    writes_sub_of_mem main_call13.v3.ref rfl (by decide),
    writes_sub_of_mem main_call13.v4.ref rfl (by decide),
    writes_sub_of_mem main_call13.v5.ref rfl (by decide),
    writes_sub_of_mem main_call13.v6.ref rfl (by decide),
    writes_sub_of_mem main_call13.v7.ref rfl (by decide),
    writes_sub_of_mem main_call13.cst_1.ref rfl (by decide),
    writes_sub_of_mem main_call13.v8.ref rfl (by decide),
    writes_sub_of_mem main_call13.cst_2.ref rfl (by decide),
    writes_sub_of_mem main_call13.v9.ref rfl (by decide),
    writes_sub_of_mem main_call13.v10.ref rfl (by decide),
    writes_sub_of_mem main_call13.v11.ref rfl (by decide),
    writes_sub_of_mem main_call13.v12.ref rfl (by decide),
    writes_sub_of_mem main_call13.cst_3.ref rfl (by decide),
    writes_sub_of_mem main_call13.v13.ref rfl (by decide),
    writes_sub_of_mem main_call13.cst_4.ref rfl (by decide),
    writes_sub_of_mem main_call13.call0.v0.ref rfl (by decide),
    writes_sub_of_mem main_call13.call0.v1.ref rfl (by decide),
    writes_sub_of_mem main_call13.call0.v2.ref rfl (by decide),
    writes_sub_of_mem main_v848 rfl (by decide),
    writes_sub_of_mem main_v849 rfl (by decide),
    writes_sub_of_mem main_cst_146 rfl (by decide),
    writes_sub_of_mem main_v850 rfl (by decide),
    writes_sub_of_mem main_v851 rfl (by decide),
    writes_sub_of_mem main_v852 rfl (by decide),
    writes_sub_of_mem main_v853 rfl (by decide),
    writes_sub_of_mem main_v854 rfl (by decide),
    writes_sub_of_mem main_v855 rfl (by decide),
    writes_sub_of_mem main_v856 rfl (by decide),
    writes_sub_of_mem main_v857 rfl (by decide),
    writes_sub_of_mem main_v858 rfl (by decide),
    writes_sub_of_mem main_v859 rfl (by decide),
    writes_sub_of_mem main_v860 rfl (by decide),
    writes_sub_of_mem main_v861 rfl (by decide),
    writes_sub_of_mem main_v862 rfl (by decide),
    writes_sub_of_mem main_v863 rfl (by decide),
    writes_sub_of_mem main_v864 rfl (by decide),
    writes_sub_of_mem main_call14.cst.ref rfl (by decide),
    writes_sub_of_mem main_call14.v0.ref rfl (by decide),
    writes_sub_of_mem main_call14.v1.ref rfl (by decide),
    writes_sub_of_mem main_v866 rfl (by decide),
    writes_sub_of_mem main_v867 rfl (by decide),
    writes_sub_of_mem main_v868 rfl (by decide),
    writes_sub_of_mem main_v869 rfl (by decide),
    writes_sub_of_mem main_v870 rfl (by decide)⟩

/-- A buffer the window does not write keeps its contents through it. -/
theorem chunk16_keep (V : Valuation τ sig (Elt F)) (r : Ref sig .tc) (h : r ∉ chunk16_W) :
    after chunk16 V (Proc.devRef .tc r) = V (Proc.devRef .tc r) :=
  after_of_writes_sub chunk16 V chunk16_writes h

end Cert.ReferenceIdeal.RefRun

end
-- ==== Proof.RRunOps17.lean ====
/- TABLES transcribed from proof/ReferenceIdeal.lean: window `main_part17` of the reference's @main as a list of host
   operations (84: 1191 … 1274 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part17`, in order, the calls unfolded. -/
abbrev chunk17 : List (HloOp τ sig (Elt F)) :=
  [ StableHlo.reshape main_v870 main_v871 rfl shapeCasts_S1x2x128_S2x128,
    StableHlo.nullary main_cst_147 (constant S_ .f32 0x00000000#32),
    StableHlo.binary main_v869 main_cst_147 main_v872 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v872 main_v873 (broadcastInDim S50000x1 ![0] bcast_S50000_S50000x1_0 : (⟨S50000, .f32⟩ : BufTy).Contents (Elt F) → (⟨S50000x1, .f32⟩ : BufTy).Contents (Elt F)),
    StableHlo.nullary main_cst_148 (constant S_ .f32 0x43000000#32),
    StableHlo.unary main_cst_148 main_v874 (broadcastInDim S50000x1 ![] bcast_S_S50000x1 : (⟨S_, .f32⟩ : BufTy).Contents (Elt F) → (⟨S50000x1, .f32⟩ : BufTy).Contents (Elt F)),
    StableHlo.binary main_v873 main_v874 main_v875 (Host.divf : (⟨S50000x1, .f32⟩ : BufTy).Contents (Elt F) → (⟨S50000x1, .f32⟩ : BufTy).Contents (Elt F) → (⟨S50000x1, .f32⟩ : BufTy).Contents (Elt F)),
    StableHlo.nullary main_c_149 (constantI S_ 32 0#32),
    StableHlo.TRef.nullary main_call15.cst (constant S_ .f32 0x00000000#32),
    StableHlo.TRef.binary (.of main_v869 : StableHlo.TRef sig ⟨S50000x128, .f32⟩) main_call15.cst main_call15.v0 (fun x v => Host.reduceAdd x v reducesTo_S50000x128_S50000_d1 h_S_),
    StableHlo.TRef.unary main_call15.v0 main_call15.v1 (broadcastInDim S50000x1 ![0] bcast_S50000_S50000x1_0),
    StableHlo.TRef.nullary main_call15.cst_0 (constant S_ .f32 0x43000000#32),
    StableHlo.TRef.unary main_call15.cst_0 main_call15.v2 (broadcastInDim S50000x1 ![] bcast_S_S50000x1),
    StableHlo.TRef.binary main_call15.v1 main_call15.v2 main_call15.v3 Host.divf,
    StableHlo.TRef.unary main_call15.v3 main_call15.v4 (broadcastInDim S50000x128 ![0, 1] bcast_S50000x1_S50000x128_0_1),
    StableHlo.TRef.binary (.of main_v869 : StableHlo.TRef sig ⟨S50000x128, .f32⟩) main_call15.v4 main_call15.v5 subf,
    StableHlo.TRef.binary main_call15.v5 main_call15.v5 main_call15.v6 mulf,
    StableHlo.TRef.unary (.of main_c_149 : StableHlo.TRef sig ⟨S_, .i32⟩) main_call15.v7 (sitofp .f32),
    StableHlo.TRef.nullary main_call15.cst_1 (constant S_ .f32 0x43000000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S50000x128_S50000_d1 h_S_),
    StableHlo.TRef.unary main_call15.v9 main_call15.v10 (broadcastInDim S50000x1 ![0] bcast_S50000_S50000x1_0),
    StableHlo.TRef.unary main_call15.v8 main_call15.v11 (broadcastInDim S50000x1 ![] bcast_S_S50000x1),
    StableHlo.TRef.binary main_call15.v10 main_call15.v11 main_call15.v12 Host.divf,
    StableHlo.TRef.nullary main_call15.cst_3 (constant S_ .f32 0x00000000#32),
    StableHlo.TRef.binary main_call15.v8 main_call15.cst_3 main_call15.v13 (cmpf .ogt),
    StableHlo.TRef.nullary main_call15.cst_4 (constant S_ .f32 0x7FC00000#32),
    StableHlo.TRef.unary (main_call15.cst_4 : StableHlo.TRef sig ⟨S_, .f32⟩) main_call15.call0.v0 id,
    StableHlo.TRef.unary main_call15.call0.v0 main_call15.call0.v1 (broadcastInDim S50000x1 ![] bcast_S_S50000x1),
    StableHlo.TRef.ternary (main_call15.v13 : StableHlo.TRef sig ⟨S_, .i1⟩) (main_call15.v12 : StableHlo.TRef sig ⟨S50000x1, .f32⟩) main_call15.call0.v1 main_call15.call0.v2 (fun p a b => select (broadcastInDim S50000x1 ![] bcast_S_S50000x1 p) a b),
    StableHlo.unary main_v875 main_v877 (broadcastInDim S50000x128 ![0, 1] bcast_S50000x1_S50000x128_0_1 : (⟨S50000x1, .f32⟩ : BufTy).Contents (Elt F) → (⟨S50000x128, .f32⟩ : BufTy).Contents (Elt F)),
    StableHlo.binary main_v869 main_v877 main_v878 (subf : (⟨S50000x128, .f32⟩ : BufTy).Contents (Elt F) → (⟨S50000x128, .f32⟩ : BufTy).Contents (Elt F) → (⟨S50000x128, .f32⟩ : BufTy).Contents (Elt F)),
    StableHlo.nullary main_cst_150 (constant S_ .f32 0x3727C5AC#32),
    StableHlo.unary main_cst_150 main_v879 (broadcastInDim S50000x1 ![] bcast_S_S50000x1 : (⟨S_, .f32⟩ : BufTy).Contents (Elt F) → (⟨S50000x1, .f32⟩ : BufTy).Contents (Elt F)),
    StableHlo.binary main_v876 main_v879 main_v880 (addf : (⟨S50000x1, .f32⟩ : BufTy).Contents (Elt F) → (⟨S50000x1, .f32⟩ : BufTy).Contents (Elt F) → (⟨S50000x1, .f32⟩ : BufTy).Contents (Elt F)),
    StableHlo.unary main_v880 main_v881 (Host.sqrt : (⟨S50000x1, .f32⟩ : BufTy).Contents (Elt F) → (⟨S50000x1, .f32⟩ : BufTy).Contents (Elt F)),
    StableHlo.unary main_v881 main_v882 (broadcastInDim S50000x128 ![0, 1] bcast_S50000x1_S50000x128_0_1 : (⟨S50000x1, .f32⟩ : BufTy).Contents (Elt F) → (⟨S50000x128, .f32⟩ : BufTy).Contents (Elt F)),
    StableHlo.binary main_v878 main_v882 main_v883 (Host.divf : (⟨S50000x128, .f32⟩ : BufTy).Contents (Elt F) → (⟨S50000x128, .f32⟩ : BufTy).Contents (Elt F) → (⟨S50000x128, .f32⟩ : BufTy).Contents (Elt F)),
    StableHlo.unary main_v871 main_v884 ((extractStridedSlice S1x128 ![0, 0] · slices_S2x128_S1x128_0_0) : (⟨S2x128, .f32⟩ : BufTy).Contents (Elt F) → (⟨S1x128, .f32⟩ : BufTy).Contents (Elt F)),
    StableHlo.reshape main_v884 main_v885 rfl shapeCasts_S1x128_S128,
    StableHlo.unary main_v885 main_v886 (broadcastInDim S1x128 ![1] bcast_S128_S1x128_1 : (⟨S128, .f32⟩ : BufTy).Contents (Elt F) → (⟨S1x128, .f32⟩ : BufTy).Contents (Elt F)),
    StableHlo.unary main_v886 main_v887 (broadcastInDim S50000x128 ![0, 1] bcast_S1x128_S50000x128_0_1 : (⟨S1x128, .f32⟩ : BufTy).Contents (Elt F) → (⟨S50000x128, .f32⟩ : BufTy).Contents (Elt F)),
    StableHlo.binary main_v883 main_v887 main_v888 (mulf : (⟨S50000x128, .f32⟩ : BufTy).Contents (Elt F) → (⟨S50000x128, .f32⟩ : BufTy).Contents (Elt F) → (⟨S50000x128, .f32⟩ : BufTy).Contents (Elt F)),
    StableHlo.unary main_v871 main_v889 ((extractStridedSlice S1x128 ![1, 0] · slices_S2x128_S1x128_1_0) : (⟨S2x128, .f32⟩ : BufTy).Contents (Elt F) → (⟨S1x128, .f32⟩ : BufTy).Contents (Elt F)),
    StableHlo.reshape main_v889 main_v890 rfl shapeCasts_S1x128_S128,
    StableHlo.unary main_v890 main_v891 (broadcastInDim S1x128 ![1] bcast_S128_S1x128_1 : (⟨S128, .f32⟩ : BufTy).Contents (Elt F) → (⟨S1x128, .f32⟩ : BufTy).Contents (Elt F)),
    StableHlo.unary main_v891 main_v892 (broadcastInDim S50000x128 ![0, 1] bcast_S1x128_S50000x128_0_1 : (⟨S1x128, .f32⟩ : BufTy).Contents (Elt F) → (⟨S50000x128, .f32⟩ : BufTy).Contents (Elt F)),
    StableHlo.binary main_v888 main_v892 main_v893 (addf : (⟨S50000x128, .f32⟩ : BufTy).Contents (Elt F) → (⟨S50000x128, .f32⟩ : BufTy).Contents (Elt F) → (⟨S50000x128, .f32⟩ : BufTy).Contents (Elt F)),
    StableHlo.binary main_v893 main_v528 main_v894 (addf : (⟨S50000x128, .f32⟩ : BufTy).Contents (Elt F) → (⟨S50000x128, .f32⟩ : BufTy).Contents (Elt F) → (⟨S50000x128, .f32⟩ : BufTy).Contents (Elt F)),
    StableHlo.TRef.nullary main_call16.cst (constant S_ .f32 0x00000000#32),
    StableHlo.TRef.unary main_call16.cst main_call16.v0 (broadcastInDim S50000x128 ![] bcast_S_S50000x128),
    StableHlo.TRef.binary (.of main_v894 : StableHlo.TRef sig ⟨S50000x128, .f32⟩) main_call16.v0 main_call16.v1 maximumf,
    StableHlo.unary main_arg14 main_v896 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v896 main_v897 rfl shapeCasts_S1x128x128_S128x128,
    StableHlo.unary main_v897 main_v898 ((transpose S128x128 [1, 0] · transposes_S128x128_S128x128_1_0) : (⟨S128x128, .f32⟩ : BufTy).Contents (Elt F) → (⟨S128x128, .f32⟩ : BufTy).Contents (Elt F)),
    StableHlo.binary main_v895 main_v898 main_v899 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg25 main_v900 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v900 main_v901 rfl shapeCasts_S1x50000_S50000,
    StableHlo.unary main_arg26 main_v902 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v902 main_v903 rfl shapeCasts_S1x50000_S50000,
    StableHlo.nullary main_c_151 (constantI S_ 32 0#32),
    StableHlo.unary main_c_151 main_v904 (broadcastInDim S50000 ![] bcast_S_S50000 : (⟨S_, .i32⟩ : BufTy).Contents (Elt F) → (⟨S50000, .i32⟩ : BufTy).Contents (Elt F)),
    StableHlo.binary main_v903 main_v904 main_v905 (cmpi .slt : (⟨S50000, .i32⟩ : BufTy).Contents (Elt F) → (⟨S50000, .i32⟩ : BufTy).Contents (Elt F) → (⟨S50000, .i1⟩ : BufTy).Contents (Elt F)),
    StableHlo.nullary main_c_152 (constantI S_ 32 50000#32),
    StableHlo.unary main_c_152 main_v906 (broadcastInDim S50000 ![] bcast_S_S50000 : (⟨S_, .i32⟩ : BufTy).Contents (Elt F) → (⟨S50000, .i32⟩ : BufTy).Contents (Elt F)),
    StableHlo.binary main_v903 main_v906 main_v907 (addi : (⟨S50000, .i32⟩ : BufTy).Contents (Elt F) → (⟨S50000, .i32⟩ : BufTy).Contents (Elt F) → (⟨S50000, .i32⟩ : BufTy).Contents (Elt F)),
    StableHlo.ternary main_v905 main_v907 main_v903 main_v908 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v908 main_v909 (broadcastInDim S50000x1 ![0] bcast_S50000_S50000x1_0 : (⟨S50000, .i32⟩ : BufTy).Contents (Elt F) → (⟨S50000x1, .i32⟩ : BufTy).Contents (Elt F)),
    StableHlo.binary main_v895 main_v909 main_v910 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v911 ((extractStridedSlice S1x1x128x128 ![2, 0, 0, 0] · slices_S4x12x128x128_S1x1x128x128_2_0_0_0) : (⟨S4x12x128x128, .f32⟩ : BufTy).Contents (Elt F) → (⟨S1x1x128x128, .f32⟩ : BufTy).Contents (Elt F)),
    StableHlo.reshape main_v911 main_v912 rfl shapeCasts_S1x1x128x128_S128x128,
    StableHlo.unary main_v912 main_v913 ((transpose S128x128 [1, 0] · transposes_S128x128_S128x128_1_0) : (⟨S128x128, .f32⟩ : BufTy).Contents (Elt F) → (⟨S128x128, .f32⟩ : BufTy).Contents (Elt F)),
    StableHlo.binary main_v910 main_v913 main_v914 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_153 (constantI S_ 32 0#32),
    StableHlo.unary main_c_153 main_v915 (broadcastInDim S50000 ![] bcast_S_S50000 : (⟨S_, .i32⟩ : BufTy).Contents (Elt F) → (⟨S50000, .i32⟩ : BufTy).Contents (Elt F)),
    StableHlo.binary main_v901 main_v915 main_v916 (cmpi .slt : (⟨S50000, .i32⟩ : BufTy).Contents (Elt F) → (⟨S50000, .i32⟩ : BufTy).Contents (Elt F) → (⟨S50000, .i1⟩ : BufTy).Contents (Elt F)),
    StableHlo.nullary main_c_154 (constantI S_ 32 50000#32),
    StableHlo.unary main_c_154 main_v917 (broadcastInDim S50000 ![] bcast_S_S50000 : (⟨S_, .i32⟩ : BufTy).Contents (Elt F) → (⟨S50000, .i32⟩ : BufTy).Contents (Elt F)),
    StableHlo.binary main_v901 main_v917 main_v918 (addi : (⟨S50000, .i32⟩ : BufTy).Contents (Elt F) → (⟨S50000, .i32⟩ : BufTy).Contents (Elt F) → (⟨S50000, .i32⟩ : BufTy).Contents (Elt F)),
    StableHlo.ternary main_v916 main_v918 main_v901 main_v919 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v919 main_v920 (broadcastInDim S50000x1 ![0] bcast_S50000_S50000x1_0 : (⟨S50000, .i32⟩ : BufTy).Contents (Elt F) → (⟨S50000x1, .i32⟩ : BufTy).Contents (Elt F)),
    StableHlo.ternary main_v899 main_v920 main_v914 main_v921 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v922 ((extractStridedSlice S1x50000 ![1, 0] · slices_S12x50000_S1x50000_1_0) : (⟨S12x50000, .i32⟩ : BufTy).Contents (Elt F) → (⟨S1x50000, .i32⟩ : BufTy).Contents (Elt F)) ]

/-- The buffers they write, in order. -/
abbrev chunk17_W : List (Ref sig .tc) :=
  [main_v871, main_cst_147, main_v872, main_v873, main_cst_148, main_v874, main_v875, main_c_149, main_call15.cst.ref, main_call15.v0.ref, main_call15.v1.ref, main_call15.cst_0.ref, main_call15.v2.ref, main_call15.v3.ref, main_call15.v4.ref, main_call15.v5.ref, main_call15.v6.ref, main_call15.v7.ref, main_call15.cst_1.ref, main_call15.v8.ref, main_call15.cst_2.ref, main_call15.v9.ref, main_call15.v10.ref, main_call15.v11.ref, main_call15.v12.ref, main_call15.cst_3.ref, main_call15.v13.ref, main_call15.cst_4.ref, main_call15.call0.v0.ref, main_call15.call0.v1.ref, main_call15.call0.v2.ref, main_v877, main_v878, main_cst_150, main_v879, main_v880, main_v881, main_v882, main_v883, main_v884, main_v885, main_v886, main_v887, main_v888, main_v889, main_v890, main_v891, main_v892, main_v893, main_v894, main_call16.cst.ref, main_call16.v0.ref, main_call16.v1.ref, main_v896, main_v897, main_v898, main_v899, main_v900, main_v901, main_v902, main_v903, main_c_151, main_v904, main_v905, main_c_152, main_v906, main_v907, main_v908, main_v909, main_v910, main_v911, main_v912, main_v913, main_v914, main_c_153, main_v915, main_v916, main_c_154, main_v917, main_v918, main_v919, main_v920, main_v921, main_v922]

end Cert.ReferenceIdeal.RefRun

end
-- ==== Proof.RRunChk17.lean ====
/- TABLES over the operations of window `main_part17` (module RRunOps17): one term per operation for each side condition of
   the run, around the one proof text every window shares. -/
import proofs.«413166_j32323923870246_3_alg».proof.Proof.RRunOps17
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part17_eq (c : Dev nD) : main_part17 (F := F) c = seq chunk17 := by
  simp only [main_part17, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk17_sub : (chunk17 : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩

set_option maxRecDepth 16384 in
/-- Every operation determines its result. -/
theorem chunk17_fresh : ∀ op ∈ (chunk17 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk17 : List (HloOp τ sig (Elt F))).Forall fun op => op.fresh = ∅)

set_option maxRecDepth 16384 in
/-- Each operation writes one buffer of the list. -/
theorem chunk17_writes : (chunk17 : List (HloOp τ sig (Elt F))).Forall fun op =>
    op.writes ⊆ (chunk17_W.map (Proc.devRef (τ := τ) .tc)).toFinset :=
  ⟨writes_sub_of_mem main_v871 rfl (by decide),
    writes_sub_of_mem main_cst_147 rfl (by decide),
    writes_sub_of_mem main_v872 rfl (by decide),
    writes_sub_of_mem main_v873 rfl (by decide),
    writes_sub_of_mem main_cst_148 rfl (by decide),
    writes_sub_of_mem main_v874 rfl (by decide),
    writes_sub_of_mem main_v875 rfl (by decide),
    writes_sub_of_mem main_c_149 rfl (by decide),
    writes_sub_of_mem main_call15.cst.ref rfl (by decide),
    writes_sub_of_mem main_call15.v0.ref rfl (by decide),
    writes_sub_of_mem main_call15.v1.ref rfl (by decide),
    writes_sub_of_mem main_call15.cst_0.ref rfl (by decide),
    writes_sub_of_mem main_call15.v2.ref rfl (by decide),
    writes_sub_of_mem main_call15.v3.ref rfl (by decide),
    writes_sub_of_mem main_call15.v4.ref rfl (by decide),
    writes_sub_of_mem main_call15.v5.ref rfl (by decide),
    writes_sub_of_mem main_call15.v6.ref rfl (by decide),
    writes_sub_of_mem main_call15.v7.ref rfl (by decide),
    writes_sub_of_mem main_call15.cst_1.ref rfl (by decide),
    writes_sub_of_mem main_call15.v8.ref rfl (by decide),
    writes_sub_of_mem main_call15.cst_2.ref rfl (by decide),
    writes_sub_of_mem main_call15.v9.ref rfl (by decide),
    writes_sub_of_mem main_call15.v10.ref rfl (by decide),
    writes_sub_of_mem main_call15.v11.ref rfl (by decide),
    writes_sub_of_mem main_call15.v12.ref rfl (by decide),
    writes_sub_of_mem main_call15.cst_3.ref rfl (by decide),
    writes_sub_of_mem main_call15.v13.ref rfl (by decide),
    writes_sub_of_mem main_call15.cst_4.ref rfl (by decide),
    writes_sub_of_mem main_call15.call0.v0.ref rfl (by decide),
    writes_sub_of_mem main_call15.call0.v1.ref rfl (by decide),
    writes_sub_of_mem main_call15.call0.v2.ref rfl (by decide),
    writes_sub_of_mem main_v877 rfl (by decide),
    writes_sub_of_mem main_v878 rfl (by decide),
    writes_sub_of_mem main_cst_150 rfl (by decide),
    writes_sub_of_mem main_v879 rfl (by decide),
    writes_sub_of_mem main_v880 rfl (by decide),
    writes_sub_of_mem main_v881 rfl (by decide),
    writes_sub_of_mem main_v882 rfl (by decide),
    writes_sub_of_mem main_v883 rfl (by decide),
    writes_sub_of_mem main_v884 rfl (by decide),
    writes_sub_of_mem main_v885 rfl (by decide),
    writes_sub_of_mem main_v886 rfl (by decide),
    writes_sub_of_mem main_v887 rfl (by decide),
    writes_sub_of_mem main_v888 rfl (by decide),
    writes_sub_of_mem main_v889 rfl (by decide),
    writes_sub_of_mem main_v890 rfl (by decide),
    writes_sub_of_mem main_v891 rfl (by decide),
    writes_sub_of_mem main_v892 rfl (by decide),
    writes_sub_of_mem main_v893 rfl (by decide),
    writes_sub_of_mem main_v894 rfl (by decide),
    writes_sub_of_mem main_call16.cst.ref rfl (by decide),
    writes_sub_of_mem main_call16.v0.ref rfl (by decide),
    writes_sub_of_mem main_call16.v1.ref rfl (by decide),
    writes_sub_of_mem main_v896 rfl (by decide),
    writes_sub_of_mem main_v897 rfl (by decide),
    writes_sub_of_mem main_v898 rfl (by decide),
    writes_sub_of_mem main_v899 rfl (by decide),
    writes_sub_of_mem main_v900 rfl (by decide),
    writes_sub_of_mem main_v901 rfl (by decide),
    writes_sub_of_mem main_v902 rfl (by decide),
    writes_sub_of_mem main_v903 rfl (by decide),
    writes_sub_of_mem main_c_151 rfl (by decide),
    writes_sub_of_mem main_v904 rfl (by decide),
    writes_sub_of_mem main_v905 rfl (by decide),
    writes_sub_of_mem main_c_152 rfl (by decide),
    writes_sub_of_mem main_v906 rfl (by decide),
    writes_sub_of_mem main_v907 rfl (by decide),
    writes_sub_of_mem main_v908 rfl (by decide),
    writes_sub_of_mem main_v909 rfl (by decide),
    writes_sub_of_mem main_v910 rfl (by decide),
    writes_sub_of_mem main_v911 rfl (by decide),
    writes_sub_of_mem main_v912 rfl (by decide),
    writes_sub_of_mem main_v913 rfl (by decide),
    writes_sub_of_mem main_v914 rfl (by decide),
    writes_sub_of_mem main_c_153 rfl (by decide),
    writes_sub_of_mem main_v915 rfl (by decide),
    writes_sub_of_mem main_v916 rfl (by decide),
    writes_sub_of_mem main_c_154 rfl (by decide),
    writes_sub_of_mem main_v917 rfl (by decide),
    writes_sub_of_mem main_v918 rfl (by decide),
    writes_sub_of_mem main_v919 rfl (by decide),
    writes_sub_of_mem main_v920 rfl (by decide),
    writes_sub_of_mem main_v921 rfl (by decide),
    writes_sub_of_mem main_v922 rfl (by decide)⟩

/-- A buffer the window does not write keeps its contents through it. -/
theorem chunk17_keep (V : Valuation τ sig (Elt F)) (r : Ref sig .tc) (h : r ∉ chunk17_W) :
    after chunk17 V (Proc.devRef .tc r) = V (Proc.devRef .tc r) :=
  after_of_writes_sub chunk17 V chunk17_writes h

end Cert.ReferenceIdeal.RefRun

end
-- ==== Proof.RRunOps18.lean ====
/- TABLES transcribed from proof/ReferenceIdeal.lean: window `main_part18` of the reference's @main as a list of host
   operations (60: 1275 … 1334 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part18`, in order, the calls unfolded. -/
abbrev chunk18 : List (HloOp τ sig (Elt F)) :=
  [ StableHlo.reshape main_v922 main_v923 rfl shapeCasts_S1x50000_S50000,
    StableHlo.unary main_arg26 main_v924 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v924 main_v925 rfl shapeCasts_S1x50000_S50000,
    StableHlo.nullary main_c_155 (constantI S_ 32 0#32),
    StableHlo.unary main_c_155 main_v926 (broadcastInDim S50000 ![] bcast_S_S50000 : (⟨S_, .i32⟩ : BufTy).Contents (Elt F) → (⟨S50000, .i32⟩ : BufTy).Contents (Elt F)),
    StableHlo.binary main_v925 main_v926 main_v927 (cmpi .slt : (⟨S50000, .i32⟩ : BufTy).Contents (Elt F) → (⟨S50000, .i32⟩ : BufTy).Contents (Elt F) → (⟨S50000, .i1⟩ : BufTy).Contents (Elt F)),
    StableHlo.nullary main_c_156 (constantI S_ 32 50000#32),
    StableHlo.unary main_c_156 main_v928 (broadcastInDim S50000 ![] bcast_S_S50000 : (⟨S_, .i32⟩ : BufTy).Contents (Elt F) → (⟨S50000, .i32⟩ : BufTy).Contents (Elt F)),
    StableHlo.binary main_v925 main_v928 main_v929 (addi : (⟨S50000, .i32⟩ : BufTy).Contents (Elt F) → (⟨S50000, .i32⟩ : BufTy).Contents (Elt F) → (⟨S50000, .i32⟩ : BufTy).Contents (Elt F)),
    StableHlo.ternary main_v927 main_v929 main_v925 main_v930 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v930 main_v931 (broadcastInDim S50000x1 ![0] bcast_S50000_S50000x1_0 : (⟨S50000, .i32⟩ : BufTy).Contents (Elt F) → (⟨S50000x1, .i32⟩ : BufTy).Contents (Elt F)),
    StableHlo.binary main_v895 main_v931 main_v932 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v933 ((extractStridedSlice S1x1x128x128 ![2, 1, 0, 0] · slices_S4x12x128x128_S1x1x128x128_2_1_0_0) : (⟨S4x12x128x128, .f32⟩ : BufTy).Contents (Elt F) → (⟨S1x1x128x128, .f32⟩ : BufTy).Contents (Elt F)),
    StableHlo.reshape main_v933 main_v934 rfl shapeCasts_S1x1x128x128_S128x128,
    StableHlo.unary main_v934 main_v935 ((transpose S128x128 [1, 0] · transposes_S128x128_S128x128_1_0) : (⟨S128x128, .f32⟩ : BufTy).Contents (Elt F) → (⟨S128x128, .f32⟩ : BufTy).Contents (Elt F)),
    StableHlo.binary main_v932 main_v935 main_v936 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_157 (constantI S_ 32 0#32),
    StableHlo.unary main_c_157 main_v937 (broadcastInDim S50000 ![] bcast_S_S50000 : (⟨S_, .i32⟩ : BufTy).Contents (Elt F) → (⟨S50000, .i32⟩ : BufTy).Contents (Elt F)),
    StableHlo.binary main_v923 main_v937 main_v938 (cmpi .slt : (⟨S50000, .i32⟩ : BufTy).Contents (Elt F) → (⟨S50000, .i32⟩ : BufTy).Contents (Elt F) → (⟨S50000, .i1⟩ : BufTy).Contents (Elt F)),
    StableHlo.nullary main_c_158 (constantI S_ 32 50000#32),
    StableHlo.unary main_c_158 main_v939 (broadcastInDim S50000 ![] bcast_S_S50000 : (⟨S_, .i32⟩ : BufTy).Contents (Elt F) → (⟨S50000, .i32⟩ : BufTy).Contents (Elt F)),
    StableHlo.binary main_v923 main_v939 main_v940 (addi : (⟨S50000, .i32⟩ : BufTy).Contents (Elt F) → (⟨S50000, .i32⟩ : BufTy).Contents (Elt F) → (⟨S50000, .i32⟩ : BufTy).Contents (Elt F)),
    StableHlo.ternary main_v938 main_v940 main_v923 main_v941 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v941 main_v942 (broadcastInDim S50000x1 ![0] bcast_S50000_S50000x1_0 : (⟨S50000, .i32⟩ : BufTy).Contents (Elt F) → (⟨S50000x1, .i32⟩ : BufTy).Contents (Elt F)),
    StableHlo.ternary main_v921 main_v942 main_v936 main_v943 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v944 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v944 main_v945 rfl shapeCasts_S1x50000_S50000,
    StableHlo.unary main_arg26 main_v946 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v946 main_v947 rfl shapeCasts_S1x50000_S50000,
    StableHlo.nullary main_c_159 (constantI S_ 32 0#32),
    StableHlo.unary main_c_159 main_v948 (broadcastInDim S50000 ![] bcast_S_S50000 : (⟨S_, .i32⟩ : BufTy).Contents (Elt F) → (⟨S50000, .i32⟩ : BufTy).Contents (Elt F)),
    StableHlo.binary main_v947 main_v948 main_v949 (cmpi .slt : (⟨S50000, .i32⟩ : BufTy).Contents (Elt F) → (⟨S50000, .i32⟩ : BufTy).Contents (Elt F) → (⟨S50000, .i1⟩ : BufTy).Contents (Elt F)),
    StableHlo.nullary main_c_160 (constantI S_ 32 50000#32),
    StableHlo.unary main_c_160 main_v950 (broadcastInDim S50000 ![] bcast_S_S50000 : (⟨S_, .i32⟩ : BufTy).Contents (Elt F) → (⟨S50000, .i32⟩ : BufTy).Contents (Elt F)),
    StableHlo.binary main_v947 main_v950 main_v951 (addi : (⟨S50000, .i32⟩ : BufTy).Contents (Elt F) → (⟨S50000, .i32⟩ : BufTy).Contents (Elt F) → (⟨S50000, .i32⟩ : BufTy).Contents (Elt F)),
    StableHlo.ternary main_v949 main_v951 main_v947 main_v952 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v952 main_v953 (broadcastInDim S50000x1 ![0] bcast_S50000_S50000x1_0 : (⟨S50000, .i32⟩ : BufTy).Contents (Elt F) → (⟨S50000x1, .i32⟩ : BufTy).Contents (Elt F)),
    StableHlo.binary main_v895 main_v953 main_v954 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v955 ((extractStridedSlice S1x1x128x128 ![2, 2, 0, 0] · slices_S4x12x128x128_S1x1x128x128_2_2_0_0) : (⟨S4x12x128x128, .f32⟩ : BufTy).Contents (Elt F) → (⟨S1x1x128x128, .f32⟩ : BufTy).Contents (Elt F)),
    StableHlo.reshape main_v955 main_v956 rfl shapeCasts_S1x1x128x128_S128x128,
    StableHlo.unary main_v956 main_v957 ((transpose S128x128 [1, 0] · transposes_S128x128_S128x128_1_0) : (⟨S128x128, .f32⟩ : BufTy).Contents (Elt F) → (⟨S128x128, .f32⟩ : BufTy).Contents (Elt F)),
    StableHlo.binary main_v954 main_v957 main_v958 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_161 (constantI S_ 32 0#32),
    StableHlo.unary main_c_161 main_v959 (broadcastInDim S50000 ![] bcast_S_S50000 : (⟨S_, .i32⟩ : BufTy).Contents (Elt F) → (⟨S50000, .i32⟩ : BufTy).Contents (Elt F)),
    StableHlo.binary main_v945 main_v959 main_v960 (cmpi .slt : (⟨S50000, .i32⟩ : BufTy).Contents (Elt F) → (⟨S50000, .i32⟩ : BufTy).Contents (Elt F) → (⟨S50000, .i1⟩ : BufTy).Contents (Elt F)),
    StableHlo.nullary main_c_162 (constantI S_ 32 50000#32),
    StableHlo.unary main_c_162 main_v961 (broadcastInDim S50000 ![] bcast_S_S50000 : (⟨S_, .i32⟩ : BufTy).Contents (Elt F) → (⟨S50000, .i32⟩ : BufTy).Contents (Elt F)),
    StableHlo.binary main_v945 main_v961 main_v962 (addi : (⟨S50000, .i32⟩ : BufTy).Contents (Elt F) → (⟨S50000, .i32⟩ : BufTy).Contents (Elt F) → (⟨S50000, .i32⟩ : BufTy).Contents (Elt F)),
    StableHlo.ternary main_v960 main_v962 main_v945 main_v963 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v963 main_v964 (broadcastInDim S50000x1 ![0] bcast_S50000_S50000x1_0 : (⟨S50000, .i32⟩ : BufTy).Contents (Elt F) → (⟨S50000x1, .i32⟩ : BufTy).Contents (Elt F)),
    StableHlo.ternary main_v943 main_v964 main_v958 main_v965 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v966 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v966 main_v967 rfl shapeCasts_S1x50000_S50000,
    StableHlo.unary main_arg26 main_v968 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v968 main_v969 rfl shapeCasts_S1x50000_S50000,
    StableHlo.nullary main_c_163 (constantI S_ 32 0#32),
    StableHlo.unary main_c_163 main_v970 (broadcastInDim S50000 ![] bcast_S_S50000 : (⟨S_, .i32⟩ : BufTy).Contents (Elt F) → (⟨S50000, .i32⟩ : BufTy).Contents (Elt F)),
    StableHlo.binary main_v969 main_v970 main_v971 (cmpi .slt : (⟨S50000, .i32⟩ : BufTy).Contents (Elt F) → (⟨S50000, .i32⟩ : BufTy).Contents (Elt F) → (⟨S50000, .i1⟩ : BufTy).Contents (Elt F)),
    StableHlo.nullary main_c_164 (constantI S_ 32 50000#32),
    StableHlo.unary main_c_164 main_v972 (broadcastInDim S50000 ![] bcast_S_S50000 : (⟨S_, .i32⟩ : BufTy).Contents (Elt F) → (⟨S50000, .i32⟩ : BufTy).Contents (Elt F)) ]

/-- The buffers they write, in order. -/
abbrev chunk18_W : List (Ref sig .tc) :=
  [main_v923, main_v924, main_v925, main_c_155, main_v926, main_v927, main_c_156, main_v928, main_v929, main_v930, main_v931, main_v932, main_v933, main_v934, main_v935, main_v936, main_c_157, main_v937, main_v938, main_c_158, main_v939, main_v940, main_v941, main_v942, main_v943, main_v944, main_v945, main_v946, main_v947, main_c_159, main_v948, main_v949, main_c_160, main_v950, main_v951, main_v952, main_v953, main_v954, main_v955, main_v956, main_v957, main_v958, main_c_161, main_v959, main_v960, main_c_162, main_v961, main_v962, main_v963, main_v964, main_v965, main_v966, main_v967, main_v968, main_v969, main_c_163, main_v970, main_v971, main_c_164, main_v972]

end Cert.ReferenceIdeal.RefRun

end
-- ==== Proof.RRunChk18.lean ====
/- TABLES over the operations of window `main_part18` (module RRunOps18): one term per operation for each side condition of
   the run, around the one proof text every window shares. -/
import proofs.«413166_j32323923870246_3_alg».proof.Proof.RRunOps18
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part18_eq (c : Dev nD) : main_part18 (F := F) c = seq chunk18 := by
  simp only [main_part18, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk18_sub : (chunk18 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub ..⟩

set_option maxRecDepth 16384 in
/-- Every operation determines its result. -/
theorem chunk18_fresh : ∀ op ∈ (chunk18 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk18 : List (HloOp τ sig (Elt F))).Forall fun op => op.fresh = ∅)

set_option maxRecDepth 16384 in
/-- Each operation writes one buffer of the list. -/
theorem chunk18_writes : (chunk18 : List (HloOp τ sig (Elt F))).Forall fun op =>
    op.writes ⊆ (chunk18_W.map (Proc.devRef (τ := τ) .tc)).toFinset :=
  ⟨writes_sub_of_mem main_v923 rfl (by decide),
    writes_sub_of_mem main_v924 rfl (by decide),
    writes_sub_of_mem main_v925 rfl (by decide),
    writes_sub_of_mem main_c_155 rfl (by decide),
    writes_sub_of_mem main_v926 rfl (by decide),
    writes_sub_of_mem main_v927 rfl (by decide),
    writes_sub_of_mem main_c_156 rfl (by decide),
    writes_sub_of_mem main_v928 rfl (by decide),
    writes_sub_of_mem main_v929 rfl (by decide),
    writes_sub_of_mem main_v930 rfl (by decide),
    writes_sub_of_mem main_v931 rfl (by decide),
    writes_sub_of_mem main_v932 rfl (by decide),
    writes_sub_of_mem main_v933 rfl (by decide),
    writes_sub_of_mem main_v934 rfl (by decide),
    writes_sub_of_mem main_v935 rfl (by decide),
    writes_sub_of_mem main_v936 rfl (by decide),
    writes_sub_of_mem main_c_157 rfl (by decide),
    writes_sub_of_mem main_v937 rfl (by decide),
    writes_sub_of_mem main_v938 rfl (by decide),
    writes_sub_of_mem main_c_158 rfl (by decide),
    writes_sub_of_mem main_v939 rfl (by decide),
    writes_sub_of_mem main_v940 rfl (by decide),
    writes_sub_of_mem main_v941 rfl (by decide),
    writes_sub_of_mem main_v942 rfl (by decide),
    writes_sub_of_mem main_v943 rfl (by decide),
    writes_sub_of_mem main_v944 rfl (by decide),
    writes_sub_of_mem main_v945 rfl (by decide),
    writes_sub_of_mem main_v946 rfl (by decide),
    writes_sub_of_mem main_v947 rfl (by decide),
    writes_sub_of_mem main_c_159 rfl (by decide),
    writes_sub_of_mem main_v948 rfl (by decide),
    writes_sub_of_mem main_v949 rfl (by decide),
    writes_sub_of_mem main_c_160 rfl (by decide),
    writes_sub_of_mem main_v950 rfl (by decide),
    writes_sub_of_mem main_v951 rfl (by decide),
    writes_sub_of_mem main_v952 rfl (by decide),
    writes_sub_of_mem main_v953 rfl (by decide),
    writes_sub_of_mem main_v954 rfl (by decide),
    writes_sub_of_mem main_v955 rfl (by decide),
    writes_sub_of_mem main_v956 rfl (by decide),
    writes_sub_of_mem main_v957 rfl (by decide),
    writes_sub_of_mem main_v958 rfl (by decide),
    writes_sub_of_mem main_c_161 rfl (by decide),
    writes_sub_of_mem main_v959 rfl (by decide),
    writes_sub_of_mem main_v960 rfl (by decide),
    writes_sub_of_mem main_c_162 rfl (by decide),
    writes_sub_of_mem main_v961 rfl (by decide),
    writes_sub_of_mem main_v962 rfl (by decide),
    writes_sub_of_mem main_v963 rfl (by decide),
    writes_sub_of_mem main_v964 rfl (by decide),
    writes_sub_of_mem main_v965 rfl (by decide),
    writes_sub_of_mem main_v966 rfl (by decide),
    writes_sub_of_mem main_v967 rfl (by decide),
    writes_sub_of_mem main_v968 rfl (by decide),
    writes_sub_of_mem main_v969 rfl (by decide),
    writes_sub_of_mem main_c_163 rfl (by decide),
    writes_sub_of_mem main_v970 rfl (by decide),
    writes_sub_of_mem main_v971 rfl (by decide),
    writes_sub_of_mem main_c_164 rfl (by decide),
    writes_sub_of_mem main_v972 rfl (by decide)⟩

/-- A buffer the window does not write keeps its contents through it. -/
theorem chunk18_keep (V : Valuation τ sig (Elt F)) (r : Ref sig .tc) (h : r ∉ chunk18_W) :
    after chunk18 V (Proc.devRef .tc r) = V (Proc.devRef .tc r) :=
  after_of_writes_sub chunk18 V chunk18_writes h

end Cert.ReferenceIdeal.RefRun

end
-- ==== Proof.RRunOps19.lean ====
/- TABLES transcribed from proof/ReferenceIdeal.lean: window `main_part19` of the reference's @main as a list of host
   operations (60: 1335 … 1394 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part19`, in order, the calls unfolded. -/
abbrev chunk19 : List (HloOp τ sig (Elt F)) :=
  [ StableHlo.binary main_v969 main_v972 main_v973 (addi : (⟨S50000, .i32⟩ : BufTy).Contents (Elt F) → (⟨S50000, .i32⟩ : BufTy).Contents (Elt F) → (⟨S50000, .i32⟩ : BufTy).Contents (Elt F)),
    StableHlo.ternary main_v971 main_v973 main_v969 main_v974 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v974 main_v975 (broadcastInDim S50000x1 ![0] bcast_S50000_S50000x1_0 : (⟨S50000, .i32⟩ : BufTy).Contents (Elt F) → (⟨S50000x1, .i32⟩ : BufTy).Contents (Elt F)),
    StableHlo.binary main_v895 main_v975 main_v976 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v977 ((extractStridedSlice S1x1x128x128 ![2, 3, 0, 0] · slices_S4x12x128x128_S1x1x128x128_2_3_0_0) : (⟨S4x12x128x128, .f32⟩ : BufTy).Contents (Elt F) → (⟨S1x1x128x128, .f32⟩ : BufTy).Contents (Elt F)),
    StableHlo.reshape main_v977 main_v978 rfl shapeCasts_S1x1x128x128_S128x128,
    StableHlo.unary main_v978 main_v979 ((transpose S128x128 [1, 0] · transposes_S128x128_S128x128_1_0) : (⟨S128x128, .f32⟩ : BufTy).Contents (Elt F) → (⟨S128x128, .f32⟩ : BufTy).Contents (Elt F)),
    StableHlo.binary main_v976 main_v979 main_v980 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_165 (constantI S_ 32 0#32),
    StableHlo.unary main_c_165 main_v981 (broadcastInDim S50000 ![] bcast_S_S50000 : (⟨S_, .i32⟩ : BufTy).Contents (Elt F) → (⟨S50000, .i32⟩ : BufTy).Contents (Elt F)),
    StableHlo.binary main_v967 main_v981 main_v982 (cmpi .slt : (⟨S50000, .i32⟩ : BufTy).Contents (Elt F) → (⟨S50000, .i32⟩ : BufTy).Contents (Elt F) → (⟨S50000, .i1⟩ : BufTy).Contents (Elt F)),
    StableHlo.nullary main_c_166 (constantI S_ 32 50000#32),
    StableHlo.unary main_c_166 main_v983 (broadcastInDim S50000 ![] bcast_S_S50000 : (⟨S_, .i32⟩ : BufTy).Contents (Elt F) → (⟨S50000, .i32⟩ : BufTy).Contents (Elt F)),
    StableHlo.binary main_v967 main_v983 main_v984 (addi : (⟨S50000, .i32⟩ : BufTy).Contents (Elt F) → (⟨S50000, .i32⟩ : BufTy).Contents (Elt F) → (⟨S50000, .i32⟩ : BufTy).Contents (Elt F)),
    StableHlo.ternary main_v982 main_v984 main_v967 main_v985 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v985 main_v986 (broadcastInDim S50000x1 ![0] bcast_S50000_S50000x1_0 : (⟨S50000, .i32⟩ : BufTy).Contents (Elt F) → (⟨S50000x1, .i32⟩ : BufTy).Contents (Elt F)),
    StableHlo.ternary main_v965 main_v986 main_v980 main_v987 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v988 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v988 main_v989 rfl shapeCasts_S1x50000_S50000,
    StableHlo.unary main_arg26 main_v990 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v990 main_v991 rfl shapeCasts_S1x50000_S50000,
    StableHlo.nullary main_c_167 (constantI S_ 32 0#32),
    StableHlo.unary main_c_167 main_v992 (broadcastInDim S50000 ![] bcast_S_S50000 : (⟨S_, .i32⟩ : BufTy).Contents (Elt F) → (⟨S50000, .i32⟩ : BufTy).Contents (Elt F)),
    StableHlo.binary main_v991 main_v992 main_v993 (cmpi .slt : (⟨S50000, .i32⟩ : BufTy).Contents (Elt F) → (⟨S50000, .i32⟩ : BufTy).Contents (Elt F) → (⟨S50000, .i1⟩ : BufTy).Contents (Elt F)),
    StableHlo.nullary main_c_168 (constantI S_ 32 50000#32),
    StableHlo.unary main_c_168 main_v994 (broadcastInDim S50000 ![] bcast_S_S50000 : (⟨S_, .i32⟩ : BufTy).Contents (Elt F) → (⟨S50000, .i32⟩ : BufTy).Contents (Elt F)),
    StableHlo.binary main_v991 main_v994 main_v995 (addi : (⟨S50000, .i32⟩ : BufTy).Contents (Elt F) → (⟨S50000, .i32⟩ : BufTy).Contents (Elt F) → (⟨S50000, .i32⟩ : BufTy).Contents (Elt F)),
    StableHlo.ternary main_v993 main_v995 main_v991 main_v996 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v996 main_v997 (broadcastInDim S50000x1 ![0] bcast_S50000_S50000x1_0 : (⟨S50000, .i32⟩ : BufTy).Contents (Elt F) → (⟨S50000x1, .i32⟩ : BufTy).Contents (Elt F)),
    StableHlo.binary main_v895 main_v997 main_v998 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v999 ((extractStridedSlice S1x1x128x128 ![2, 4, 0, 0] · slices_S4x12x128x128_S1x1x128x128_2_4_0_0) : (⟨S4x12x128x128, .f32⟩ : BufTy).Contents (Elt F) → (⟨S1x1x128x128, .f32⟩ : BufTy).Contents (Elt F)),
    StableHlo.reshape main_v999 main_v1000 rfl shapeCasts_S1x1x128x128_S128x128,
    StableHlo.unary main_v1000 main_v1001 ((transpose S128x128 [1, 0] · transposes_S128x128_S128x128_1_0) : (⟨S128x128, .f32⟩ : BufTy).Contents (Elt F) → (⟨S128x128, .f32⟩ : BufTy).Contents (Elt F)),
    StableHlo.binary main_v998 main_v1001 main_v1002 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_169 (constantI S_ 32 0#32),
    StableHlo.unary main_c_169 main_v1003 (broadcastInDim S50000 ![] bcast_S_S50000 : (⟨S_, .i32⟩ : BufTy).Contents (Elt F) → (⟨S50000, .i32⟩ : BufTy).Contents (Elt F)),
    StableHlo.binary main_v989 main_v1003 main_v1004 (cmpi .slt : (⟨S50000, .i32⟩ : BufTy).Contents (Elt F) → (⟨S50000, .i32⟩ : BufTy).Contents (Elt F) → (⟨S50000, .i1⟩ : BufTy).Contents (Elt F)),
    StableHlo.nullary main_c_170 (constantI S_ 32 50000#32),
    StableHlo.unary main_c_170 main_v1005 (broadcastInDim S50000 ![] bcast_S_S50000 : (⟨S_, .i32⟩ : BufTy).Contents (Elt F) → (⟨S50000, .i32⟩ : BufTy).Contents (Elt F)),
    StableHlo.binary main_v989 main_v1005 main_v1006 (addi : (⟨S50000, .i32⟩ : BufTy).Contents (Elt F) → (⟨S50000, .i32⟩ : BufTy).Contents (Elt F) → (⟨S50000, .i32⟩ : BufTy).Contents (Elt F)),
    StableHlo.ternary main_v1004 main_v1006 main_v989 main_v1007 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1007 main_v1008 (broadcastInDim S50000x1 ![0] bcast_S50000_S50000x1_0 : (⟨S50000, .i32⟩ : BufTy).Contents (Elt F) → (⟨S50000x1, .i32⟩ : BufTy).Contents (Elt F)),
    StableHlo.ternary main_v987 main_v1008 main_v1002 main_v1009 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1010 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v1010 main_v1011 rfl shapeCasts_S1x50000_S50000,
    StableHlo.unary main_arg26 main_v1012 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v1012 main_v1013 rfl shapeCasts_S1x50000_S50000,
    StableHlo.nullary main_c_171 (constantI S_ 32 0#32),
    StableHlo.unary main_c_171 main_v1014 (broadcastInDim S50000 ![] bcast_S_S50000 : (⟨S_, .i32⟩ : BufTy).Contents (Elt F) → (⟨S50000, .i32⟩ : BufTy).Contents (Elt F)),
    StableHlo.binary main_v1013 main_v1014 main_v1015 (cmpi .slt : (⟨S50000, .i32⟩ : BufTy).Contents (Elt F) → (⟨S50000, .i32⟩ : BufTy).Contents (Elt F) → (⟨S50000, .i1⟩ : BufTy).Contents (Elt F)),
    StableHlo.nullary main_c_172 (constantI S_ 32 50000#32),
    StableHlo.unary main_c_172 main_v1016 (broadcastInDim S50000 ![] bcast_S_S50000 : (⟨S_, .i32⟩ : BufTy).Contents (Elt F) → (⟨S50000, .i32⟩ : BufTy).Contents (Elt F)),
    StableHlo.binary main_v1013 main_v1016 main_v1017 (addi : (⟨S50000, .i32⟩ : BufTy).Contents (Elt F) → (⟨S50000, .i32⟩ : BufTy).Contents (Elt F) → (⟨S50000, .i32⟩ : BufTy).Contents (Elt F)),
    StableHlo.ternary main_v1015 main_v1017 main_v1013 main_v1018 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1018 main_v1019 (broadcastInDim S50000x1 ![0] bcast_S50000_S50000x1_0 : (⟨S50000, .i32⟩ : BufTy).Contents (Elt F) → (⟨S50000x1, .i32⟩ : BufTy).Contents (Elt F)),
    StableHlo.binary main_v895 main_v1019 main_v1020 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1021 ((extractStridedSlice S1x1x128x128 ![2, 5, 0, 0] · slices_S4x12x128x128_S1x1x128x128_2_5_0_0) : (⟨S4x12x128x128, .f32⟩ : BufTy).Contents (Elt F) → (⟨S1x1x128x128, .f32⟩ : BufTy).Contents (Elt F)),
    StableHlo.reshape main_v1021 main_v1022 rfl shapeCasts_S1x1x128x128_S128x128,
    StableHlo.unary main_v1022 main_v1023 ((transpose S128x128 [1, 0] · transposes_S128x128_S128x128_1_0) : (⟨S128x128, .f32⟩ : BufTy).Contents (Elt F) → (⟨S128x128, .f32⟩ : BufTy).Contents (Elt F)),
    StableHlo.binary main_v1020 main_v1023 main_v1024 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The buffers they write, in order. -/
abbrev chunk19_W : List (Ref sig .tc) :=
  [main_v973, main_v974, main_v975, main_v976, main_v977, main_v978, main_v979, main_v980, main_c_165, main_v981, main_v982, main_c_166, main_v983, main_v984, main_v985, main_v986, main_v987, main_v988, main_v989, main_v990, main_v991, main_c_167, main_v992, main_v993, main_c_168, main_v994, main_v995, main_v996, main_v997, main_v998, main_v999, main_v1000, main_v1001, main_v1002, main_c_169, main_v1003, main_v1004, main_c_170, main_v1005, main_v1006, main_v1007, main_v1008, main_v1009, main_v1010, main_v1011, main_v1012, main_v1013, main_c_171, main_v1014, main_v1015, main_c_172, main_v1016, main_v1017, main_v1018, main_v1019, main_v1020, main_v1021, main_v1022, main_v1023, main_v1024]

end Cert.ReferenceIdeal.RefRun

end
-- ==== Proof.RRunChk19.lean ====
/- TABLES over the operations of window `main_part19` (module RRunOps19): one term per operation for each side condition of
   the run, around the one proof text every window shares. -/
import proofs.«413166_j32323923870246_3_alg».proof.Proof.RRunOps19
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part19_eq (c : Dev nD) : main_part19 (F := F) c = seq chunk19 := by
  simp only [main_part19, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk19_sub : (chunk19 : List (HloOp τ sig (Elt F))).Forall fun op => op.bufs ⊆ tcRefs τ sig :=
  ⟨binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub ..⟩

set_option maxRecDepth 16384 in
/-- Every operation determines its result. -/
theorem chunk19_fresh : ∀ op ∈ (chunk19 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk19 : List (HloOp τ sig (Elt F))).Forall fun op => op.fresh = ∅)

set_option maxRecDepth 16384 in
/-- Each operation writes one buffer of the list. -/
theorem chunk19_writes : (chunk19 : List (HloOp τ sig (Elt F))).Forall fun op =>
    op.writes ⊆ (chunk19_W.map (Proc.devRef (τ := τ) .tc)).toFinset :=
  ⟨writes_sub_of_mem main_v973 rfl (by decide),
    writes_sub_of_mem main_v974 rfl (by decide),
    writes_sub_of_mem main_v975 rfl (by decide),
    writes_sub_of_mem main_v976 rfl (by decide),
    writes_sub_of_mem main_v977 rfl (by decide),
    writes_sub_of_mem main_v978 rfl (by decide),
    writes_sub_of_mem main_v979 rfl (by decide),
    writes_sub_of_mem main_v980 rfl (by decide),
    writes_sub_of_mem main_c_165 rfl (by decide),
    writes_sub_of_mem main_v981 rfl (by decide),
    writes_sub_of_mem main_v982 rfl (by decide),
    writes_sub_of_mem main_c_166 rfl (by decide),
    writes_sub_of_mem main_v983 rfl (by decide),
    writes_sub_of_mem main_v984 rfl (by decide),
    writes_sub_of_mem main_v985 rfl (by decide),
    writes_sub_of_mem main_v986 rfl (by decide),
    writes_sub_of_mem main_v987 rfl (by decide),
    writes_sub_of_mem main_v988 rfl (by decide),
    writes_sub_of_mem main_v989 rfl (by decide),
    writes_sub_of_mem main_v990 rfl (by decide),
    writes_sub_of_mem main_v991 rfl (by decide),
    writes_sub_of_mem main_c_167 rfl (by decide),
    writes_sub_of_mem main_v992 rfl (by decide),
    writes_sub_of_mem main_v993 rfl (by decide),
    writes_sub_of_mem main_c_168 rfl (by decide),
    writes_sub_of_mem main_v994 rfl (by decide),
    writes_sub_of_mem main_v995 rfl (by decide),
    writes_sub_of_mem main_v996 rfl (by decide),
    writes_sub_of_mem main_v997 rfl (by decide),
    writes_sub_of_mem main_v998 rfl (by decide),
    writes_sub_of_mem main_v999 rfl (by decide),
    writes_sub_of_mem main_v1000 rfl (by decide),
    writes_sub_of_mem main_v1001 rfl (by decide),
    writes_sub_of_mem main_v1002 rfl (by decide),
    writes_sub_of_mem main_c_169 rfl (by decide),
    writes_sub_of_mem main_v1003 rfl (by decide),
    writes_sub_of_mem main_v1004 rfl (by decide),
    writes_sub_of_mem main_c_170 rfl (by decide),
    writes_sub_of_mem main_v1005 rfl (by decide),
    writes_sub_of_mem main_v1006 rfl (by decide),
    writes_sub_of_mem main_v1007 rfl (by decide),
    writes_sub_of_mem main_v1008 rfl (by decide),
    writes_sub_of_mem main_v1009 rfl (by decide),
    writes_sub_of_mem main_v1010 rfl (by decide),
    writes_sub_of_mem main_v1011 rfl (by decide),
    writes_sub_of_mem main_v1012 rfl (by decide),
    writes_sub_of_mem main_v1013 rfl (by decide),
    writes_sub_of_mem main_c_171 rfl (by decide),
    writes_sub_of_mem main_v1014 rfl (by decide),
    writes_sub_of_mem main_v1015 rfl (by decide),
    writes_sub_of_mem main_c_172 rfl (by decide),
    writes_sub_of_mem main_v1016 rfl (by decide),
    writes_sub_of_mem main_v1017 rfl (by decide),
    writes_sub_of_mem main_v1018 rfl (by decide),
    writes_sub_of_mem main_v1019 rfl (by decide),
    writes_sub_of_mem main_v1020 rfl (by decide),
    writes_sub_of_mem main_v1021 rfl (by decide),
    writes_sub_of_mem main_v1022 rfl (by decide),
    writes_sub_of_mem main_v1023 rfl (by decide),
    writes_sub_of_mem main_v1024 rfl (by decide)⟩

/-- A buffer the window does not write keeps its contents through it. -/
theorem chunk19_keep (V : Valuation τ sig (Elt F)) (r : Ref sig .tc) (h : r ∉ chunk19_W) :
    after chunk19 V (Proc.devRef .tc r) = V (Proc.devRef .tc r) :=
  after_of_writes_sub chunk19 V chunk19_writes h

end Cert.ReferenceIdeal.RefRun

end
-- ==== Proof.RRunOps20.lean ====
/- TABLES transcribed from proof/ReferenceIdeal.lean: window `main_part20` of the reference's @main as a list of host
   operations (60: 1395 … 1454 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part20`, in order, the calls unfolded. -/
abbrev chunk20 : List (HloOp τ sig (Elt F)) :=
  [ StableHlo.nullary main_c_173 (constantI S_ 32 0#32),
    StableHlo.unary main_c_173 main_v1025 (broadcastInDim S50000 ![] bcast_S_S50000 : (⟨S_, .i32⟩ : BufTy).Contents (Elt F) → (⟨S50000, .i32⟩ : BufTy).Contents (Elt F)),
    StableHlo.binary main_v1011 main_v1025 main_v1026 (cmpi .slt : (⟨S50000, .i32⟩ : BufTy).Contents (Elt F) → (⟨S50000, .i32⟩ : BufTy).Contents (Elt F) → (⟨S50000, .i1⟩ : BufTy).Contents (Elt F)),
    StableHlo.nullary main_c_174 (constantI S_ 32 50000#32),
    StableHlo.unary main_c_174 main_v1027 (broadcastInDim S50000 ![] bcast_S_S50000 : (⟨S_, .i32⟩ : BufTy).Contents (Elt F) → (⟨S50000, .i32⟩ : BufTy).Contents (Elt F)),
    StableHlo.binary main_v1011 main_v1027 main_v1028 (addi : (⟨S50000, .i32⟩ : BufTy).Contents (Elt F) → (⟨S50000, .i32⟩ : BufTy).Contents (Elt F) → (⟨S50000, .i32⟩ : BufTy).Contents (Elt F)),
    StableHlo.ternary main_v1026 main_v1028 main_v1011 main_v1029 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1029 main_v1030 (broadcastInDim S50000x1 ![0] bcast_S50000_S50000x1_0 : (⟨S50000, .i32⟩ : BufTy).Contents (Elt F) → (⟨S50000x1, .i32⟩ : BufTy).Contents (Elt F)),
    StableHlo.ternary main_v1009 main_v1030 main_v1024 main_v1031 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1032 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v1032 main_v1033 rfl shapeCasts_S1x50000_S50000,
    StableHlo.unary main_arg26 main_v1034 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v1034 main_v1035 rfl shapeCasts_S1x50000_S50000,
    StableHlo.nullary main_c_175 (constantI S_ 32 0#32),
    StableHlo.unary main_c_175 main_v1036 (broadcastInDim S50000 ![] bcast_S_S50000 : (⟨S_, .i32⟩ : BufTy).Contents (Elt F) → (⟨S50000, .i32⟩ : BufTy).Contents (Elt F)),
    StableHlo.binary main_v1035 main_v1036 main_v1037 (cmpi .slt : (⟨S50000, .i32⟩ : BufTy).Contents (Elt F) → (⟨S50000, .i32⟩ : BufTy).Contents (Elt F) → (⟨S50000, .i1⟩ : BufTy).Contents (Elt F)),
    StableHlo.nullary main_c_176 (constantI S_ 32 50000#32),
    StableHlo.unary main_c_176 main_v1038 (broadcastInDim S50000 ![] bcast_S_S50000 : (⟨S_, .i32⟩ : BufTy).Contents (Elt F) → (⟨S50000, .i32⟩ : BufTy).Contents (Elt F)),
    StableHlo.binary main_v1035 main_v1038 main_v1039 (addi : (⟨S50000, .i32⟩ : BufTy).Contents (Elt F) → (⟨S50000, .i32⟩ : BufTy).Contents (Elt F) → (⟨S50000, .i32⟩ : BufTy).Contents (Elt F)),
    StableHlo.ternary main_v1037 main_v1039 main_v1035 main_v1040 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1040 main_v1041 (broadcastInDim S50000x1 ![0] bcast_S50000_S50000x1_0 : (⟨S50000, .i32⟩ : BufTy).Contents (Elt F) → (⟨S50000x1, .i32⟩ : BufTy).Contents (Elt F)),
    StableHlo.binary main_v895 main_v1041 main_v1042 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1043 ((extractStridedSlice S1x1x128x128 ![2, 6, 0, 0] · slices_S4x12x128x128_S1x1x128x128_2_6_0_0) : (⟨S4x12x128x128, .f32⟩ : BufTy).Contents (Elt F) → (⟨S1x1x128x128, .f32⟩ : BufTy).Contents (Elt F)),
    StableHlo.reshape main_v1043 main_v1044 rfl shapeCasts_S1x1x128x128_S128x128,
    StableHlo.unary main_v1044 main_v1045 ((transpose S128x128 [1, 0] · transposes_S128x128_S128x128_1_0) : (⟨S128x128, .f32⟩ : BufTy).Contents (Elt F) → (⟨S128x128, .f32⟩ : BufTy).Contents (Elt F)),
    StableHlo.binary main_v1042 main_v1045 main_v1046 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_177 (constantI S_ 32 0#32),
    StableHlo.unary main_c_177 main_v1047 (broadcastInDim S50000 ![] bcast_S_S50000 : (⟨S_, .i32⟩ : BufTy).Contents (Elt F) → (⟨S50000, .i32⟩ : BufTy).Contents (Elt F)),
    StableHlo.binary main_v1033 main_v1047 main_v1048 (cmpi .slt : (⟨S50000, .i32⟩ : BufTy).Contents (Elt F) → (⟨S50000, .i32⟩ : BufTy).Contents (Elt F) → (⟨S50000, .i1⟩ : BufTy).Contents (Elt F)),
    StableHlo.nullary main_c_178 (constantI S_ 32 50000#32),
    StableHlo.unary main_c_178 main_v1049 (broadcastInDim S50000 ![] bcast_S_S50000 : (⟨S_, .i32⟩ : BufTy).Contents (Elt F) → (⟨S50000, .i32⟩ : BufTy).Contents (Elt F)),
    StableHlo.binary main_v1033 main_v1049 main_v1050 (addi : (⟨S50000, .i32⟩ : BufTy).Contents (Elt F) → (⟨S50000, .i32⟩ : BufTy).Contents (Elt F) → (⟨S50000, .i32⟩ : BufTy).Contents (Elt F)),
    StableHlo.ternary main_v1048 main_v1050 main_v1033 main_v1051 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1051 main_v1052 (broadcastInDim S50000x1 ![0] bcast_S50000_S50000x1_0 : (⟨S50000, .i32⟩ : BufTy).Contents (Elt F) → (⟨S50000x1, .i32⟩ : BufTy).Contents (Elt F)),
    StableHlo.ternary main_v1031 main_v1052 main_v1046 main_v1053 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1054 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v1054 main_v1055 rfl shapeCasts_S1x50000_S50000,
    StableHlo.unary main_arg26 main_v1056 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v1056 main_v1057 rfl shapeCasts_S1x50000_S50000,
    StableHlo.nullary main_c_179 (constantI S_ 32 0#32),
    StableHlo.unary main_c_179 main_v1058 (broadcastInDim S50000 ![] bcast_S_S50000 : (⟨S_, .i32⟩ : BufTy).Contents (Elt F) → (⟨S50000, .i32⟩ : BufTy).Contents (Elt F)),
    StableHlo.binary main_v1057 main_v1058 main_v1059 (cmpi .slt : (⟨S50000, .i32⟩ : BufTy).Contents (Elt F) → (⟨S50000, .i32⟩ : BufTy).Contents (Elt F) → (⟨S50000, .i1⟩ : BufTy).Contents (Elt F)),
    StableHlo.nullary main_c_180 (constantI S_ 32 50000#32),
    StableHlo.unary main_c_180 main_v1060 (broadcastInDim S50000 ![] bcast_S_S50000 : (⟨S_, .i32⟩ : BufTy).Contents (Elt F) → (⟨S50000, .i32⟩ : BufTy).Contents (Elt F)),
    StableHlo.binary main_v1057 main_v1060 main_v1061 (addi : (⟨S50000, .i32⟩ : BufTy).Contents (Elt F) → (⟨S50000, .i32⟩ : BufTy).Contents (Elt F) → (⟨S50000, .i32⟩ : BufTy).Contents (Elt F)),
    StableHlo.ternary main_v1059 main_v1061 main_v1057 main_v1062 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1062 main_v1063 (broadcastInDim S50000x1 ![0] bcast_S50000_S50000x1_0 : (⟨S50000, .i32⟩ : BufTy).Contents (Elt F) → (⟨S50000x1, .i32⟩ : BufTy).Contents (Elt F)),
    StableHlo.binary main_v895 main_v1063 main_v1064 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1065 ((extractStridedSlice S1x1x128x128 ![2, 7, 0, 0] · slices_S4x12x128x128_S1x1x128x128_2_7_0_0) : (⟨S4x12x128x128, .f32⟩ : BufTy).Contents (Elt F) → (⟨S1x1x128x128, .f32⟩ : BufTy).Contents (Elt F)),
    StableHlo.reshape main_v1065 main_v1066 rfl shapeCasts_S1x1x128x128_S128x128,
    StableHlo.unary main_v1066 main_v1067 ((transpose S128x128 [1, 0] · transposes_S128x128_S128x128_1_0) : (⟨S128x128, .f32⟩ : BufTy).Contents (Elt F) → (⟨S128x128, .f32⟩ : BufTy).Contents (Elt F)),
    StableHlo.binary main_v1064 main_v1067 main_v1068 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_181 (constantI S_ 32 0#32),
    StableHlo.unary main_c_181 main_v1069 (broadcastInDim S50000 ![] bcast_S_S50000 : (⟨S_, .i32⟩ : BufTy).Contents (Elt F) → (⟨S50000, .i32⟩ : BufTy).Contents (Elt F)),
    StableHlo.binary main_v1055 main_v1069 main_v1070 (cmpi .slt : (⟨S50000, .i32⟩ : BufTy).Contents (Elt F) → (⟨S50000, .i32⟩ : BufTy).Contents (Elt F) → (⟨S50000, .i1⟩ : BufTy).Contents (Elt F)),
    StableHlo.nullary main_c_182 (constantI S_ 32 50000#32),
    StableHlo.unary main_c_182 main_v1071 (broadcastInDim S50000 ![] bcast_S_S50000 : (⟨S_, .i32⟩ : BufTy).Contents (Elt F) → (⟨S50000, .i32⟩ : BufTy).Contents (Elt F)),
    StableHlo.binary main_v1055 main_v1071 main_v1072 (addi : (⟨S50000, .i32⟩ : BufTy).Contents (Elt F) → (⟨S50000, .i32⟩ : BufTy).Contents (Elt F) → (⟨S50000, .i32⟩ : BufTy).Contents (Elt F)),
    StableHlo.ternary main_v1070 main_v1072 main_v1055 main_v1073 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1073 main_v1074 (broadcastInDim S50000x1 ![0] bcast_S50000_S50000x1_0 : (⟨S50000, .i32⟩ : BufTy).Contents (Elt F) → (⟨S50000x1, .i32⟩ : BufTy).Contents (Elt F)) ]

/-- The buffers they write, in order. -/
abbrev chunk20_W : List (Ref sig .tc) :=
  [main_c_173, main_v1025, main_v1026, main_c_174, main_v1027, main_v1028, main_v1029, main_v1030, main_v1031, main_v1032, main_v1033, main_v1034, main_v1035, main_c_175, main_v1036, main_v1037, main_c_176, main_v1038, main_v1039, main_v1040, main_v1041, main_v1042, main_v1043, main_v1044, main_v1045, main_v1046, main_c_177, main_v1047, main_v1048, main_c_178, main_v1049, main_v1050, main_v1051, main_v1052, main_v1053, main_v1054, main_v1055, main_v1056, main_v1057, main_c_179, main_v1058, main_v1059, main_c_180, main_v1060, main_v1061, main_v1062, main_v1063, main_v1064, main_v1065, main_v1066, main_v1067, main_v1068, main_c_181, main_v1069, main_v1070, main_c_182, main_v1071, main_v1072, main_v1073, main_v1074]

end Cert.ReferenceIdeal.RefRun

end
-- ==== Proof.RRunChk20.lean ====
/- TABLES over the operations of window `main_part20` (module RRunOps20): one term per operation for each side condition of
   the run, around the one proof text every window shares. -/
import proofs.«413166_j32323923870246_3_alg».proof.Proof.RRunOps20
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part20_eq (c : Dev nD) : main_part20 (F := F) c = seq chunk20 := by
  simp only [main_part20, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk20_sub : (chunk20 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 16384 in
/-- Every operation determines its result. -/
theorem chunk20_fresh : ∀ op ∈ (chunk20 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk20 : List (HloOp τ sig (Elt F))).Forall fun op => op.fresh = ∅)

set_option maxRecDepth 16384 in
/-- Each operation writes one buffer of the list. -/
theorem chunk20_writes : (chunk20 : List (HloOp τ sig (Elt F))).Forall fun op =>
    op.writes ⊆ (chunk20_W.map (Proc.devRef (τ := τ) .tc)).toFinset :=
  ⟨writes_sub_of_mem main_c_173 rfl (by decide),
    writes_sub_of_mem main_v1025 rfl (by decide),
    writes_sub_of_mem main_v1026 rfl (by decide),
    writes_sub_of_mem main_c_174 rfl (by decide),
    writes_sub_of_mem main_v1027 rfl (by decide),
    writes_sub_of_mem main_v1028 rfl (by decide),
    writes_sub_of_mem main_v1029 rfl (by decide),
    writes_sub_of_mem main_v1030 rfl (by decide),
    writes_sub_of_mem main_v1031 rfl (by decide),
    writes_sub_of_mem main_v1032 rfl (by decide),
    writes_sub_of_mem main_v1033 rfl (by decide),
    writes_sub_of_mem main_v1034 rfl (by decide),
    writes_sub_of_mem main_v1035 rfl (by decide),
    writes_sub_of_mem main_c_175 rfl (by decide),
    writes_sub_of_mem main_v1036 rfl (by decide),
    writes_sub_of_mem main_v1037 rfl (by decide),
    writes_sub_of_mem main_c_176 rfl (by decide),
    writes_sub_of_mem main_v1038 rfl (by decide),
    writes_sub_of_mem main_v1039 rfl (by decide),
    writes_sub_of_mem main_v1040 rfl (by decide),
    writes_sub_of_mem main_v1041 rfl (by decide),
    writes_sub_of_mem main_v1042 rfl (by decide),
    writes_sub_of_mem main_v1043 rfl (by decide),
    writes_sub_of_mem main_v1044 rfl (by decide),
    writes_sub_of_mem main_v1045 rfl (by decide),
    writes_sub_of_mem main_v1046 rfl (by decide),
    writes_sub_of_mem main_c_177 rfl (by decide),
    writes_sub_of_mem main_v1047 rfl (by decide),
    writes_sub_of_mem main_v1048 rfl (by decide),
    writes_sub_of_mem main_c_178 rfl (by decide),
    writes_sub_of_mem main_v1049 rfl (by decide),
    writes_sub_of_mem main_v1050 rfl (by decide),
    writes_sub_of_mem main_v1051 rfl (by decide),
    writes_sub_of_mem main_v1052 rfl (by decide),
    writes_sub_of_mem main_v1053 rfl (by decide),
    writes_sub_of_mem main_v1054 rfl (by decide),
    writes_sub_of_mem main_v1055 rfl (by decide),
    writes_sub_of_mem main_v1056 rfl (by decide),
    writes_sub_of_mem main_v1057 rfl (by decide),
    writes_sub_of_mem main_c_179 rfl (by decide),
    writes_sub_of_mem main_v1058 rfl (by decide),
    writes_sub_of_mem main_v1059 rfl (by decide),
    writes_sub_of_mem main_c_180 rfl (by decide),
    writes_sub_of_mem main_v1060 rfl (by decide),
    writes_sub_of_mem main_v1061 rfl (by decide),
    writes_sub_of_mem main_v1062 rfl (by decide),
    writes_sub_of_mem main_v1063 rfl (by decide),
    writes_sub_of_mem main_v1064 rfl (by decide),
    writes_sub_of_mem main_v1065 rfl (by decide),
    writes_sub_of_mem main_v1066 rfl (by decide),
    writes_sub_of_mem main_v1067 rfl (by decide),
    writes_sub_of_mem main_v1068 rfl (by decide),
    writes_sub_of_mem main_c_181 rfl (by decide),
    writes_sub_of_mem main_v1069 rfl (by decide),
    writes_sub_of_mem main_v1070 rfl (by decide),
    writes_sub_of_mem main_c_182 rfl (by decide),
    writes_sub_of_mem main_v1071 rfl (by decide),
    writes_sub_of_mem main_v1072 rfl (by decide),
    writes_sub_of_mem main_v1073 rfl (by decide),
    writes_sub_of_mem main_v1074 rfl (by decide)⟩

/-- A buffer the window does not write keeps its contents through it. -/
theorem chunk20_keep (V : Valuation τ sig (Elt F)) (r : Ref sig .tc) (h : r ∉ chunk20_W) :
    after chunk20 V (Proc.devRef .tc r) = V (Proc.devRef .tc r) :=
  after_of_writes_sub chunk20 V chunk20_writes h

end Cert.ReferenceIdeal.RefRun

end
-- ==== Proof.RRunOps21.lean ====
/- TABLES transcribed from proof/ReferenceIdeal.lean: window `main_part21` of the reference's @main as a list of host
   operations (60: 1455 … 1514 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part21`, in order, the calls unfolded. -/
abbrev chunk21 : List (HloOp τ sig (Elt F)) :=
  [ StableHlo.ternary main_v1053 main_v1074 main_v1068 main_v1075 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1076 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v1076 main_v1077 rfl shapeCasts_S1x50000_S50000,
    StableHlo.unary main_arg26 main_v1078 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v1078 main_v1079 rfl shapeCasts_S1x50000_S50000,
    StableHlo.nullary main_c_183 (constantI S_ 32 0#32),
    StableHlo.unary main_c_183 main_v1080 (broadcastInDim S50000 ![] bcast_S_S50000 : (⟨S_, .i32⟩ : BufTy).Contents (Elt F) → (⟨S50000, .i32⟩ : BufTy).Contents (Elt F)),
    StableHlo.binary main_v1079 main_v1080 main_v1081 (cmpi .slt : (⟨S50000, .i32⟩ : BufTy).Contents (Elt F) → (⟨S50000, .i32⟩ : BufTy).Contents (Elt F) → (⟨S50000, .i1⟩ : BufTy).Contents (Elt F)),
    StableHlo.nullary main_c_184 (constantI S_ 32 50000#32),
    StableHlo.unary main_c_184 main_v1082 (broadcastInDim S50000 ![] bcast_S_S50000 : (⟨S_, .i32⟩ : BufTy).Contents (Elt F) → (⟨S50000, .i32⟩ : BufTy).Contents (Elt F)),
    StableHlo.binary main_v1079 main_v1082 main_v1083 (addi : (⟨S50000, .i32⟩ : BufTy).Contents (Elt F) → (⟨S50000, .i32⟩ : BufTy).Contents (Elt F) → (⟨S50000, .i32⟩ : BufTy).Contents (Elt F)),
    StableHlo.ternary main_v1081 main_v1083 main_v1079 main_v1084 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1084 main_v1085 (broadcastInDim S50000x1 ![0] bcast_S50000_S50000x1_0 : (⟨S50000, .i32⟩ : BufTy).Contents (Elt F) → (⟨S50000x1, .i32⟩ : BufTy).Contents (Elt F)),
    StableHlo.binary main_v895 main_v1085 main_v1086 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1087 ((extractStridedSlice S1x1x128x128 ![2, 8, 0, 0] · slices_S4x12x128x128_S1x1x128x128_2_8_0_0) : (⟨S4x12x128x128, .f32⟩ : BufTy).Contents (Elt F) → (⟨S1x1x128x128, .f32⟩ : BufTy).Contents (Elt F)),
    StableHlo.reshape main_v1087 main_v1088 rfl shapeCasts_S1x1x128x128_S128x128,
    StableHlo.unary main_v1088 main_v1089 ((transpose S128x128 [1, 0] · transposes_S128x128_S128x128_1_0) : (⟨S128x128, .f32⟩ : BufTy).Contents (Elt F) → (⟨S128x128, .f32⟩ : BufTy).Contents (Elt F)),
    StableHlo.binary main_v1086 main_v1089 main_v1090 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_185 (constantI S_ 32 0#32),
    StableHlo.unary main_c_185 main_v1091 (broadcastInDim S50000 ![] bcast_S_S50000 : (⟨S_, .i32⟩ : BufTy).Contents (Elt F) → (⟨S50000, .i32⟩ : BufTy).Contents (Elt F)),
    StableHlo.binary main_v1077 main_v1091 main_v1092 (cmpi .slt : (⟨S50000, .i32⟩ : BufTy).Contents (Elt F) → (⟨S50000, .i32⟩ : BufTy).Contents (Elt F) → (⟨S50000, .i1⟩ : BufTy).Contents (Elt F)),
    StableHlo.nullary main_c_186 (constantI S_ 32 50000#32),
    StableHlo.unary main_c_186 main_v1093 (broadcastInDim S50000 ![] bcast_S_S50000 : (⟨S_, .i32⟩ : BufTy).Contents (Elt F) → (⟨S50000, .i32⟩ : BufTy).Contents (Elt F)),
    StableHlo.binary main_v1077 main_v1093 main_v1094 (addi : (⟨S50000, .i32⟩ : BufTy).Contents (Elt F) → (⟨S50000, .i32⟩ : BufTy).Contents (Elt F) → (⟨S50000, .i32⟩ : BufTy).Contents (Elt F)),
    StableHlo.ternary main_v1092 main_v1094 main_v1077 main_v1095 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1095 main_v1096 (broadcastInDim S50000x1 ![0] bcast_S50000_S50000x1_0 : (⟨S50000, .i32⟩ : BufTy).Contents (Elt F) → (⟨S50000x1, .i32⟩ : BufTy).Contents (Elt F)),
    StableHlo.ternary main_v1075 main_v1096 main_v1090 main_v1097 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1098 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v1098 main_v1099 rfl shapeCasts_S1x50000_S50000,
    StableHlo.unary main_arg26 main_v1100 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v1100 main_v1101 rfl shapeCasts_S1x50000_S50000,
    StableHlo.nullary main_c_187 (constantI S_ 32 0#32),
    StableHlo.unary main_c_187 main_v1102 (broadcastInDim S50000 ![] bcast_S_S50000 : (⟨S_, .i32⟩ : BufTy).Contents (Elt F) → (⟨S50000, .i32⟩ : BufTy).Contents (Elt F)),
    StableHlo.binary main_v1101 main_v1102 main_v1103 (cmpi .slt : (⟨S50000, .i32⟩ : BufTy).Contents (Elt F) → (⟨S50000, .i32⟩ : BufTy).Contents (Elt F) → (⟨S50000, .i1⟩ : BufTy).Contents (Elt F)),
    StableHlo.nullary main_c_188 (constantI S_ 32 50000#32),
    StableHlo.unary main_c_188 main_v1104 (broadcastInDim S50000 ![] bcast_S_S50000 : (⟨S_, .i32⟩ : BufTy).Contents (Elt F) → (⟨S50000, .i32⟩ : BufTy).Contents (Elt F)),
    StableHlo.binary main_v1101 main_v1104 main_v1105 (addi : (⟨S50000, .i32⟩ : BufTy).Contents (Elt F) → (⟨S50000, .i32⟩ : BufTy).Contents (Elt F) → (⟨S50000, .i32⟩ : BufTy).Contents (Elt F)),
    StableHlo.ternary main_v1103 main_v1105 main_v1101 main_v1106 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1106 main_v1107 (broadcastInDim S50000x1 ![0] bcast_S50000_S50000x1_0 : (⟨S50000, .i32⟩ : BufTy).Contents (Elt F) → (⟨S50000x1, .i32⟩ : BufTy).Contents (Elt F)),
    StableHlo.binary main_v895 main_v1107 main_v1108 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1109 ((extractStridedSlice S1x1x128x128 ![2, 9, 0, 0] · slices_S4x12x128x128_S1x1x128x128_2_9_0_0) : (⟨S4x12x128x128, .f32⟩ : BufTy).Contents (Elt F) → (⟨S1x1x128x128, .f32⟩ : BufTy).Contents (Elt F)),
    StableHlo.reshape main_v1109 main_v1110 rfl shapeCasts_S1x1x128x128_S128x128,
    StableHlo.unary main_v1110 main_v1111 ((transpose S128x128 [1, 0] · transposes_S128x128_S128x128_1_0) : (⟨S128x128, .f32⟩ : BufTy).Contents (Elt F) → (⟨S128x128, .f32⟩ : BufTy).Contents (Elt F)),
    StableHlo.binary main_v1108 main_v1111 main_v1112 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_189 (constantI S_ 32 0#32),
    StableHlo.unary main_c_189 main_v1113 (broadcastInDim S50000 ![] bcast_S_S50000 : (⟨S_, .i32⟩ : BufTy).Contents (Elt F) → (⟨S50000, .i32⟩ : BufTy).Contents (Elt F)),
    StableHlo.binary main_v1099 main_v1113 main_v1114 (cmpi .slt : (⟨S50000, .i32⟩ : BufTy).Contents (Elt F) → (⟨S50000, .i32⟩ : BufTy).Contents (Elt F) → (⟨S50000, .i1⟩ : BufTy).Contents (Elt F)),
    StableHlo.nullary main_c_190 (constantI S_ 32 50000#32),
    StableHlo.unary main_c_190 main_v1115 (broadcastInDim S50000 ![] bcast_S_S50000 : (⟨S_, .i32⟩ : BufTy).Contents (Elt F) → (⟨S50000, .i32⟩ : BufTy).Contents (Elt F)),
    StableHlo.binary main_v1099 main_v1115 main_v1116 (addi : (⟨S50000, .i32⟩ : BufTy).Contents (Elt F) → (⟨S50000, .i32⟩ : BufTy).Contents (Elt F) → (⟨S50000, .i32⟩ : BufTy).Contents (Elt F)),
    StableHlo.ternary main_v1114 main_v1116 main_v1099 main_v1117 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1117 main_v1118 (broadcastInDim S50000x1 ![0] bcast_S50000_S50000x1_0 : (⟨S50000, .i32⟩ : BufTy).Contents (Elt F) → (⟨S50000x1, .i32⟩ : BufTy).Contents (Elt F)),
    StableHlo.ternary main_v1097 main_v1118 main_v1112 main_v1119 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1120 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v1120 main_v1121 rfl shapeCasts_S1x50000_S50000,
    StableHlo.unary main_arg26 main_v1122 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v1122 main_v1123 rfl shapeCasts_S1x50000_S50000,
    StableHlo.nullary main_c_191 (constantI S_ 32 0#32),
    StableHlo.unary main_c_191 main_v1124 (broadcastInDim S50000 ![] bcast_S_S50000 : (⟨S_, .i32⟩ : BufTy).Contents (Elt F) → (⟨S50000, .i32⟩ : BufTy).Contents (Elt F)),
    StableHlo.binary main_v1123 main_v1124 main_v1125 (cmpi .slt : (⟨S50000, .i32⟩ : BufTy).Contents (Elt F) → (⟨S50000, .i32⟩ : BufTy).Contents (Elt F) → (⟨S50000, .i1⟩ : BufTy).Contents (Elt F)) ]

/-- The buffers they write, in order. -/
abbrev chunk21_W : List (Ref sig .tc) :=
  [main_v1075, main_v1076, main_v1077, main_v1078, main_v1079, main_c_183, main_v1080, main_v1081, main_c_184, main_v1082, main_v1083, main_v1084, main_v1085, main_v1086, main_v1087, main_v1088, main_v1089, main_v1090, main_c_185, main_v1091, main_v1092, main_c_186, main_v1093, main_v1094, main_v1095, main_v1096, main_v1097, main_v1098, main_v1099, main_v1100, main_v1101, main_c_187, main_v1102, main_v1103, main_c_188, main_v1104, main_v1105, main_v1106, main_v1107, main_v1108, main_v1109, main_v1110, main_v1111, main_v1112, main_c_189, main_v1113, main_v1114, main_c_190, main_v1115, main_v1116, main_v1117, main_v1118, main_v1119, main_v1120, main_v1121, main_v1122, main_v1123, main_c_191, main_v1124, main_v1125]

end Cert.ReferenceIdeal.RefRun

end
-- ==== Proof.RRunChk21.lean ====
/- TABLES over the operations of window `main_part21` (module RRunOps21): one term per operation for each side condition of
   the run, around the one proof text every window shares. -/
import proofs.«413166_j32323923870246_3_alg».proof.Proof.RRunOps21
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part21_eq (c : Dev nD) : main_part21 (F := F) c = seq chunk21 := by
  simp only [main_part21, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk21_sub : (chunk21 : List (HloOp τ sig (Elt F))).Forall fun op => op.bufs ⊆ tcRefs τ sig :=
  ⟨ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub ..⟩

set_option maxRecDepth 16384 in
/-- Every operation determines its result. -/
theorem chunk21_fresh : ∀ op ∈ (chunk21 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk21 : List (HloOp τ sig (Elt F))).Forall fun op => op.fresh = ∅)

set_option maxRecDepth 16384 in
/-- Each operation writes one buffer of the list. -/
theorem chunk21_writes : (chunk21 : List (HloOp τ sig (Elt F))).Forall fun op =>
    op.writes ⊆ (chunk21_W.map (Proc.devRef (τ := τ) .tc)).toFinset :=
  ⟨writes_sub_of_mem main_v1075 rfl (by decide),
    writes_sub_of_mem main_v1076 rfl (by decide),
    writes_sub_of_mem main_v1077 rfl (by decide),
    writes_sub_of_mem main_v1078 rfl (by decide),
    writes_sub_of_mem main_v1079 rfl (by decide),
    writes_sub_of_mem main_c_183 rfl (by decide),
    writes_sub_of_mem main_v1080 rfl (by decide),
    writes_sub_of_mem main_v1081 rfl (by decide),
    writes_sub_of_mem main_c_184 rfl (by decide),
    writes_sub_of_mem main_v1082 rfl (by decide),
    writes_sub_of_mem main_v1083 rfl (by decide),
    writes_sub_of_mem main_v1084 rfl (by decide),
    writes_sub_of_mem main_v1085 rfl (by decide),
    writes_sub_of_mem main_v1086 rfl (by decide),
    writes_sub_of_mem main_v1087 rfl (by decide),
    writes_sub_of_mem main_v1088 rfl (by decide),
    writes_sub_of_mem main_v1089 rfl (by decide),
    writes_sub_of_mem main_v1090 rfl (by decide),
    writes_sub_of_mem main_c_185 rfl (by decide),
    writes_sub_of_mem main_v1091 rfl (by decide),
    writes_sub_of_mem main_v1092 rfl (by decide),
    writes_sub_of_mem main_c_186 rfl (by decide),
    writes_sub_of_mem main_v1093 rfl (by decide),
    writes_sub_of_mem main_v1094 rfl (by decide),
    writes_sub_of_mem main_v1095 rfl (by decide),
    writes_sub_of_mem main_v1096 rfl (by decide),
    writes_sub_of_mem main_v1097 rfl (by decide),
    writes_sub_of_mem main_v1098 rfl (by decide),
    writes_sub_of_mem main_v1099 rfl (by decide),
    writes_sub_of_mem main_v1100 rfl (by decide),
    writes_sub_of_mem main_v1101 rfl (by decide),
    writes_sub_of_mem main_c_187 rfl (by decide),
    writes_sub_of_mem main_v1102 rfl (by decide),
    writes_sub_of_mem main_v1103 rfl (by decide),
    writes_sub_of_mem main_c_188 rfl (by decide),
    writes_sub_of_mem main_v1104 rfl (by decide),
    writes_sub_of_mem main_v1105 rfl (by decide),
    writes_sub_of_mem main_v1106 rfl (by decide),
    writes_sub_of_mem main_v1107 rfl (by decide),
    writes_sub_of_mem main_v1108 rfl (by decide),
    writes_sub_of_mem main_v1109 rfl (by decide),
    writes_sub_of_mem main_v1110 rfl (by decide),
    writes_sub_of_mem main_v1111 rfl (by decide),
    writes_sub_of_mem main_v1112 rfl (by decide),
    writes_sub_of_mem main_c_189 rfl (by decide),
    writes_sub_of_mem main_v1113 rfl (by decide),
    writes_sub_of_mem main_v1114 rfl (by decide),
    writes_sub_of_mem main_c_190 rfl (by decide),
    writes_sub_of_mem main_v1115 rfl (by decide),
    writes_sub_of_mem main_v1116 rfl (by decide),
    writes_sub_of_mem main_v1117 rfl (by decide),
    writes_sub_of_mem main_v1118 rfl (by decide),
    writes_sub_of_mem main_v1119 rfl (by decide),
    writes_sub_of_mem main_v1120 rfl (by decide),
    writes_sub_of_mem main_v1121 rfl (by decide),
    writes_sub_of_mem main_v1122 rfl (by decide),
    writes_sub_of_mem main_v1123 rfl (by decide),
    writes_sub_of_mem main_c_191 rfl (by decide),
    writes_sub_of_mem main_v1124 rfl (by decide),
    writes_sub_of_mem main_v1125 rfl (by decide)⟩

/-- A buffer the window does not write keeps its contents through it. -/
theorem chunk21_keep (V : Valuation τ sig (Elt F)) (r : Ref sig .tc) (h : r ∉ chunk21_W) :
    after chunk21 V (Proc.devRef .tc r) = V (Proc.devRef .tc r) :=
  after_of_writes_sub chunk21 V chunk21_writes h

end Cert.ReferenceIdeal.RefRun

end
-- ==== Proof.RRunOps22.lean ====
/- TABLES transcribed from proof/ReferenceIdeal.lean: window `main_part22` of the reference's @main as a list of host
   operations (60: 1515 … 1574 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part22`, in order, the calls unfolded. -/
abbrev chunk22 : List (HloOp τ sig (Elt F)) :=
  [ StableHlo.nullary main_c_192 (constantI S_ 32 50000#32),
    StableHlo.unary main_c_192 main_v1126 (broadcastInDim S50000 ![] bcast_S_S50000 : (⟨S_, .i32⟩ : BufTy).Contents (Elt F) → (⟨S50000, .i32⟩ : BufTy).Contents (Elt F)),
    StableHlo.binary main_v1123 main_v1126 main_v1127 (addi : (⟨S50000, .i32⟩ : BufTy).Contents (Elt F) → (⟨S50000, .i32⟩ : BufTy).Contents (Elt F) → (⟨S50000, .i32⟩ : BufTy).Contents (Elt F)),
    StableHlo.ternary main_v1125 main_v1127 main_v1123 main_v1128 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1128 main_v1129 (broadcastInDim S50000x1 ![0] bcast_S50000_S50000x1_0 : (⟨S50000, .i32⟩ : BufTy).Contents (Elt F) → (⟨S50000x1, .i32⟩ : BufTy).Contents (Elt F)),
    StableHlo.binary main_v895 main_v1129 main_v1130 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1131 ((extractStridedSlice S1x1x128x128 ![2, 10, 0, 0] · slices_S4x12x128x128_S1x1x128x128_2_10_0_0) : (⟨S4x12x128x128, .f32⟩ : BufTy).Contents (Elt F) → (⟨S1x1x128x128, .f32⟩ : BufTy).Contents (Elt F)),
    StableHlo.reshape main_v1131 main_v1132 rfl shapeCasts_S1x1x128x128_S128x128,
    StableHlo.unary main_v1132 main_v1133 ((transpose S128x128 [1, 0] · transposes_S128x128_S128x128_1_0) : (⟨S128x128, .f32⟩ : BufTy).Contents (Elt F) → (⟨S128x128, .f32⟩ : BufTy).Contents (Elt F)),
    StableHlo.binary main_v1130 main_v1133 main_v1134 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_193 (constantI S_ 32 0#32),
    StableHlo.unary main_c_193 main_v1135 (broadcastInDim S50000 ![] bcast_S_S50000 : (⟨S_, .i32⟩ : BufTy).Contents (Elt F) → (⟨S50000, .i32⟩ : BufTy).Contents (Elt F)),
    StableHlo.binary main_v1121 main_v1135 main_v1136 (cmpi .slt : (⟨S50000, .i32⟩ : BufTy).Contents (Elt F) → (⟨S50000, .i32⟩ : BufTy).Contents (Elt F) → (⟨S50000, .i1⟩ : BufTy).Contents (Elt F)),
    StableHlo.nullary main_c_194 (constantI S_ 32 50000#32),
    StableHlo.unary main_c_194 main_v1137 (broadcastInDim S50000 ![] bcast_S_S50000 : (⟨S_, .i32⟩ : BufTy).Contents (Elt F) → (⟨S50000, .i32⟩ : BufTy).Contents (Elt F)),
    StableHlo.binary main_v1121 main_v1137 main_v1138 (addi : (⟨S50000, .i32⟩ : BufTy).Contents (Elt F) → (⟨S50000, .i32⟩ : BufTy).Contents (Elt F) → (⟨S50000, .i32⟩ : BufTy).Contents (Elt F)),
    StableHlo.ternary main_v1136 main_v1138 main_v1121 main_v1139 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1139 main_v1140 (broadcastInDim S50000x1 ![0] bcast_S50000_S50000x1_0 : (⟨S50000, .i32⟩ : BufTy).Contents (Elt F) → (⟨S50000x1, .i32⟩ : BufTy).Contents (Elt F)),
    StableHlo.ternary main_v1119 main_v1140 main_v1134 main_v1141 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1142 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v1142 main_v1143 rfl shapeCasts_S1x50000_S50000,
    StableHlo.unary main_arg26 main_v1144 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v1144 main_v1145 rfl shapeCasts_S1x50000_S50000,
    StableHlo.nullary main_c_195 (constantI S_ 32 0#32),
    StableHlo.unary main_c_195 main_v1146 (broadcastInDim S50000 ![] bcast_S_S50000 : (⟨S_, .i32⟩ : BufTy).Contents (Elt F) → (⟨S50000, .i32⟩ : BufTy).Contents (Elt F)),
    StableHlo.binary main_v1145 main_v1146 main_v1147 (cmpi .slt : (⟨S50000, .i32⟩ : BufTy).Contents (Elt F) → (⟨S50000, .i32⟩ : BufTy).Contents (Elt F) → (⟨S50000, .i1⟩ : BufTy).Contents (Elt F)),
    StableHlo.nullary main_c_196 (constantI S_ 32 50000#32),
    StableHlo.unary main_c_196 main_v1148 (broadcastInDim S50000 ![] bcast_S_S50000 : (⟨S_, .i32⟩ : BufTy).Contents (Elt F) → (⟨S50000, .i32⟩ : BufTy).Contents (Elt F)),
    StableHlo.binary main_v1145 main_v1148 main_v1149 (addi : (⟨S50000, .i32⟩ : BufTy).Contents (Elt F) → (⟨S50000, .i32⟩ : BufTy).Contents (Elt F) → (⟨S50000, .i32⟩ : BufTy).Contents (Elt F)),
    StableHlo.ternary main_v1147 main_v1149 main_v1145 main_v1150 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1150 main_v1151 (broadcastInDim S50000x1 ![0] bcast_S50000_S50000x1_0 : (⟨S50000, .i32⟩ : BufTy).Contents (Elt F) → (⟨S50000x1, .i32⟩ : BufTy).Contents (Elt F)),
    StableHlo.binary main_v895 main_v1151 main_v1152 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1153 ((extractStridedSlice S1x1x128x128 ![2, 11, 0, 0] · slices_S4x12x128x128_S1x1x128x128_2_11_0_0) : (⟨S4x12x128x128, .f32⟩ : BufTy).Contents (Elt F) → (⟨S1x1x128x128, .f32⟩ : BufTy).Contents (Elt F)),
    StableHlo.reshape main_v1153 main_v1154 rfl shapeCasts_S1x1x128x128_S128x128,
    StableHlo.unary main_v1154 main_v1155 ((transpose S128x128 [1, 0] · transposes_S128x128_S128x128_1_0) : (⟨S128x128, .f32⟩ : BufTy).Contents (Elt F) → (⟨S128x128, .f32⟩ : BufTy).Contents (Elt F)),
    StableHlo.binary main_v1152 main_v1155 main_v1156 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_197 (constantI S_ 32 0#32),
    StableHlo.unary main_c_197 main_v1157 (broadcastInDim S50000 ![] bcast_S_S50000 : (⟨S_, .i32⟩ : BufTy).Contents (Elt F) → (⟨S50000, .i32⟩ : BufTy).Contents (Elt F)),
    StableHlo.binary main_v1143 main_v1157 main_v1158 (cmpi .slt : (⟨S50000, .i32⟩ : BufTy).Contents (Elt F) → (⟨S50000, .i32⟩ : BufTy).Contents (Elt F) → (⟨S50000, .i1⟩ : BufTy).Contents (Elt F)),
    StableHlo.nullary main_c_198 (constantI S_ 32 50000#32),
    StableHlo.unary main_c_198 main_v1159 (broadcastInDim S50000 ![] bcast_S_S50000 : (⟨S_, .i32⟩ : BufTy).Contents (Elt F) → (⟨S50000, .i32⟩ : BufTy).Contents (Elt F)),
    StableHlo.binary main_v1143 main_v1159 main_v1160 (addi : (⟨S50000, .i32⟩ : BufTy).Contents (Elt F) → (⟨S50000, .i32⟩ : BufTy).Contents (Elt F) → (⟨S50000, .i32⟩ : BufTy).Contents (Elt F)),
    StableHlo.ternary main_v1158 main_v1160 main_v1143 main_v1161 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1161 main_v1162 (broadcastInDim S50000x1 ![0] bcast_S50000_S50000x1_0 : (⟨S50000, .i32⟩ : BufTy).Contents (Elt F) → (⟨S50000x1, .i32⟩ : BufTy).Contents (Elt F)),
    StableHlo.ternary main_v1141 main_v1162 main_v1156 main_v1163 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg27 main_v1164 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v1164 main_v1165 rfl shapeCasts_S1x5000_S5000,
    StableHlo.unary main_arg28 main_v1166 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v1166 main_v1167 rfl shapeCasts_S1x5000_S5000,
    StableHlo.nullary main_c_199 (constantI S_ 32 0#32),
    StableHlo.unary main_c_199 main_v1168 (broadcastInDim S5000 ![] bcast_S_S5000 : (⟨S_, .i32⟩ : BufTy).Contents (Elt F) → (⟨S5000, .i32⟩ : BufTy).Contents (Elt F)),
    StableHlo.binary main_v1167 main_v1168 main_v1169 (cmpi .slt : (⟨S5000, .i32⟩ : BufTy).Contents (Elt F) → (⟨S5000, .i32⟩ : BufTy).Contents (Elt F) → (⟨S5000, .i1⟩ : BufTy).Contents (Elt F)),
    StableHlo.nullary main_c_200 (constantI S_ 32 50000#32),
    StableHlo.unary main_c_200 main_v1170 (broadcastInDim S5000 ![] bcast_S_S5000 : (⟨S_, .i32⟩ : BufTy).Contents (Elt F) → (⟨S5000, .i32⟩ : BufTy).Contents (Elt F)),
    StableHlo.binary main_v1167 main_v1170 main_v1171 (addi : (⟨S5000, .i32⟩ : BufTy).Contents (Elt F) → (⟨S5000, .i32⟩ : BufTy).Contents (Elt F) → (⟨S5000, .i32⟩ : BufTy).Contents (Elt F)),
    StableHlo.ternary main_v1169 main_v1171 main_v1167 main_v1172 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1172 main_v1173 (broadcastInDim S5000x1 ![0] bcast_S5000_S5000x1_0 : (⟨S5000, .i32⟩ : BufTy).Contents (Elt F) → (⟨S5000x1, .i32⟩ : BufTy).Contents (Elt F)),
    StableHlo.binary main_v895 main_v1173 main_v1174 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg16 main_v1175 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v1175 main_v1176 rfl shapeCasts_S1x128x128_S128x128 ]

/-- The buffers they write, in order. -/
abbrev chunk22_W : List (Ref sig .tc) :=
  [main_c_192, main_v1126, main_v1127, main_v1128, main_v1129, main_v1130, main_v1131, main_v1132, main_v1133, main_v1134, main_c_193, main_v1135, main_v1136, main_c_194, main_v1137, main_v1138, main_v1139, main_v1140, main_v1141, main_v1142, main_v1143, main_v1144, main_v1145, main_c_195, main_v1146, main_v1147, main_c_196, main_v1148, main_v1149, main_v1150, main_v1151, main_v1152, main_v1153, main_v1154, main_v1155, main_v1156, main_c_197, main_v1157, main_v1158, main_c_198, main_v1159, main_v1160, main_v1161, main_v1162, main_v1163, main_v1164, main_v1165, main_v1166, main_v1167, main_c_199, main_v1168, main_v1169, main_c_200, main_v1170, main_v1171, main_v1172, main_v1173, main_v1174, main_v1175, main_v1176]

end Cert.ReferenceIdeal.RefRun

end
-- ==== Proof.RRunChk22.lean ====
/- TABLES over the operations of window `main_part22` (module RRunOps22): one term per operation for each side condition of
   the run, around the one proof text every window shares. -/
import proofs.«413166_j32323923870246_3_alg».proof.Proof.RRunOps22
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part22_eq (c : Dev nD) : main_part22 (F := F) c = seq chunk22 := by
  simp only [main_part22, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk22_sub : (chunk22 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub ..⟩

set_option maxRecDepth 16384 in
/-- Every operation determines its result. -/
theorem chunk22_fresh : ∀ op ∈ (chunk22 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk22 : List (HloOp τ sig (Elt F))).Forall fun op => op.fresh = ∅)

set_option maxRecDepth 16384 in
/-- Each operation writes one buffer of the list. -/
theorem chunk22_writes : (chunk22 : List (HloOp τ sig (Elt F))).Forall fun op =>
    op.writes ⊆ (chunk22_W.map (Proc.devRef (τ := τ) .tc)).toFinset :=
  ⟨writes_sub_of_mem main_c_192 rfl (by decide),
    writes_sub_of_mem main_v1126 rfl (by decide),
    writes_sub_of_mem main_v1127 rfl (by decide),
    writes_sub_of_mem main_v1128 rfl (by decide),
    writes_sub_of_mem main_v1129 rfl (by decide),
    writes_sub_of_mem main_v1130 rfl (by decide),
    writes_sub_of_mem main_v1131 rfl (by decide),
    writes_sub_of_mem main_v1132 rfl (by decide),
    writes_sub_of_mem main_v1133 rfl (by decide),
    writes_sub_of_mem main_v1134 rfl (by decide),
    writes_sub_of_mem main_c_193 rfl (by decide),
    writes_sub_of_mem main_v1135 rfl (by decide),
    writes_sub_of_mem main_v1136 rfl (by decide),
    writes_sub_of_mem main_c_194 rfl (by decide),
    writes_sub_of_mem main_v1137 rfl (by decide),
    writes_sub_of_mem main_v1138 rfl (by decide),
    writes_sub_of_mem main_v1139 rfl (by decide),
    writes_sub_of_mem main_v1140 rfl (by decide),
    writes_sub_of_mem main_v1141 rfl (by decide),
    writes_sub_of_mem main_v1142 rfl (by decide),
    writes_sub_of_mem main_v1143 rfl (by decide),
    writes_sub_of_mem main_v1144 rfl (by decide),
    writes_sub_of_mem main_v1145 rfl (by decide),
    writes_sub_of_mem main_c_195 rfl (by decide),
    writes_sub_of_mem main_v1146 rfl (by decide),
    writes_sub_of_mem main_v1147 rfl (by decide),
    writes_sub_of_mem main_c_196 rfl (by decide),
    writes_sub_of_mem main_v1148 rfl (by decide),
    writes_sub_of_mem main_v1149 rfl (by decide),
    writes_sub_of_mem main_v1150 rfl (by decide),
    writes_sub_of_mem main_v1151 rfl (by decide),
    writes_sub_of_mem main_v1152 rfl (by decide),
    writes_sub_of_mem main_v1153 rfl (by decide),
    writes_sub_of_mem main_v1154 rfl (by decide),
    writes_sub_of_mem main_v1155 rfl (by decide),
    writes_sub_of_mem main_v1156 rfl (by decide),
    writes_sub_of_mem main_c_197 rfl (by decide),
    writes_sub_of_mem main_v1157 rfl (by decide),
    writes_sub_of_mem main_v1158 rfl (by decide),
    writes_sub_of_mem main_c_198 rfl (by decide),
    writes_sub_of_mem main_v1159 rfl (by decide),
    writes_sub_of_mem main_v1160 rfl (by decide),
    writes_sub_of_mem main_v1161 rfl (by decide),
    writes_sub_of_mem main_v1162 rfl (by decide),
    writes_sub_of_mem main_v1163 rfl (by decide),
    writes_sub_of_mem main_v1164 rfl (by decide),
    writes_sub_of_mem main_v1165 rfl (by decide),
    writes_sub_of_mem main_v1166 rfl (by decide),
    writes_sub_of_mem main_v1167 rfl (by decide),
    writes_sub_of_mem main_c_199 rfl (by decide),
    writes_sub_of_mem main_v1168 rfl (by decide),
    writes_sub_of_mem main_v1169 rfl (by decide),
    writes_sub_of_mem main_c_200 rfl (by decide),
    writes_sub_of_mem main_v1170 rfl (by decide),
    writes_sub_of_mem main_v1171 rfl (by decide),
    writes_sub_of_mem main_v1172 rfl (by decide),
    writes_sub_of_mem main_v1173 rfl (by decide),
    writes_sub_of_mem main_v1174 rfl (by decide),
    writes_sub_of_mem main_v1175 rfl (by decide),
    writes_sub_of_mem main_v1176 rfl (by decide)⟩

/-- A buffer the window does not write keeps its contents through it. -/
theorem chunk22_keep (V : Valuation τ sig (Elt F)) (r : Ref sig .tc) (h : r ∉ chunk22_W) :
    after chunk22 V (Proc.devRef .tc r) = V (Proc.devRef .tc r) :=
  after_of_writes_sub chunk22 V chunk22_writes h

end Cert.ReferenceIdeal.RefRun

end
-- ==== Proof.RRunOps23.lean ====
/- TABLES transcribed from proof/ReferenceIdeal.lean: window `main_part23` of the reference's @main as a list of host
   operations (82: 1575 … 1656 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part23`, in order, the calls unfolded. -/
abbrev chunk23 : List (HloOp τ sig (Elt F)) :=
  [ StableHlo.unary main_v1176 main_v1177 ((transpose S128x128 [1, 0] · transposes_S128x128_S128x128_1_0) : (⟨S128x128, .f32⟩ : BufTy).Contents (Elt F) → (⟨S128x128, .f32⟩ : BufTy).Contents (Elt F)),
    StableHlo.binary main_v1174 main_v1177 main_v1178 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_201 (constantI S_ 32 0#32),
    StableHlo.unary main_c_201 main_v1179 (broadcastInDim S5000 ![] bcast_S_S5000 : (⟨S_, .i32⟩ : BufTy).Contents (Elt F) → (⟨S5000, .i32⟩ : BufTy).Contents (Elt F)),
    StableHlo.binary main_v1165 main_v1179 main_v1180 (cmpi .slt : (⟨S5000, .i32⟩ : BufTy).Contents (Elt F) → (⟨S5000, .i32⟩ : BufTy).Contents (Elt F) → (⟨S5000, .i1⟩ : BufTy).Contents (Elt F)),
    StableHlo.nullary main_c_202 (constantI S_ 32 50000#32),
    StableHlo.unary main_c_202 main_v1181 (broadcastInDim S5000 ![] bcast_S_S5000 : (⟨S_, .i32⟩ : BufTy).Contents (Elt F) → (⟨S5000, .i32⟩ : BufTy).Contents (Elt F)),
    StableHlo.binary main_v1165 main_v1181 main_v1182 (addi : (⟨S5000, .i32⟩ : BufTy).Contents (Elt F) → (⟨S5000, .i32⟩ : BufTy).Contents (Elt F) → (⟨S5000, .i32⟩ : BufTy).Contents (Elt F)),
    StableHlo.ternary main_v1180 main_v1182 main_v1165 main_v1183 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1183 main_v1184 (broadcastInDim S5000x1 ![0] bcast_S5000_S5000x1_0 : (⟨S5000, .i32⟩ : BufTy).Contents (Elt F) → (⟨S5000x1, .i32⟩ : BufTy).Contents (Elt F)),
    StableHlo.ternary main_v1163 main_v1184 main_v1178 main_v1185 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg27 main_v1186 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v1186 main_v1187 rfl shapeCasts_S1x5000_S5000,
    StableHlo.unary main_arg28 main_v1188 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v1188 main_v1189 rfl shapeCasts_S1x5000_S5000,
    StableHlo.nullary main_c_203 (constantI S_ 32 0#32),
    StableHlo.unary main_c_203 main_v1190 (broadcastInDim S5000 ![] bcast_S_S5000 : (⟨S_, .i32⟩ : BufTy).Contents (Elt F) → (⟨S5000, .i32⟩ : BufTy).Contents (Elt F)),
    StableHlo.binary main_v1189 main_v1190 main_v1191 (cmpi .slt : (⟨S5000, .i32⟩ : BufTy).Contents (Elt F) → (⟨S5000, .i32⟩ : BufTy).Contents (Elt F) → (⟨S5000, .i1⟩ : BufTy).Contents (Elt F)),
    StableHlo.nullary main_c_204 (constantI S_ 32 50000#32),
    StableHlo.unary main_c_204 main_v1192 (broadcastInDim S5000 ![] bcast_S_S5000 : (⟨S_, .i32⟩ : BufTy).Contents (Elt F) → (⟨S5000, .i32⟩ : BufTy).Contents (Elt F)),
    StableHlo.binary main_v1189 main_v1192 main_v1193 (addi : (⟨S5000, .i32⟩ : BufTy).Contents (Elt F) → (⟨S5000, .i32⟩ : BufTy).Contents (Elt F) → (⟨S5000, .i32⟩ : BufTy).Contents (Elt F)),
    StableHlo.ternary main_v1191 main_v1193 main_v1189 main_v1194 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1194 main_v1195 (broadcastInDim S5000x1 ![0] bcast_S5000_S5000x1_0 : (⟨S5000, .i32⟩ : BufTy).Contents (Elt F) → (⟨S5000x1, .i32⟩ : BufTy).Contents (Elt F)),
    StableHlo.binary main_v895 main_v1195 main_v1196 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg17 main_v1197 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v1197 main_v1198 rfl shapeCasts_S1x128x128_S128x128,
    StableHlo.unary main_v1198 main_v1199 ((transpose S128x128 [1, 0] · transposes_S128x128_S128x128_1_0) : (⟨S128x128, .f32⟩ : BufTy).Contents (Elt F) → (⟨S128x128, .f32⟩ : BufTy).Contents (Elt F)),
    StableHlo.binary main_v1196 main_v1199 main_v1200 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_205 (constantI S_ 32 0#32),
    StableHlo.unary main_c_205 main_v1201 (broadcastInDim S5000 ![] bcast_S_S5000 : (⟨S_, .i32⟩ : BufTy).Contents (Elt F) → (⟨S5000, .i32⟩ : BufTy).Contents (Elt F)),
    StableHlo.binary main_v1187 main_v1201 main_v1202 (cmpi .slt : (⟨S5000, .i32⟩ : BufTy).Contents (Elt F) → (⟨S5000, .i32⟩ : BufTy).Contents (Elt F) → (⟨S5000, .i1⟩ : BufTy).Contents (Elt F)),
    StableHlo.nullary main_c_206 (constantI S_ 32 50000#32),
    StableHlo.unary main_c_206 main_v1203 (broadcastInDim S5000 ![] bcast_S_S5000 : (⟨S_, .i32⟩ : BufTy).Contents (Elt F) → (⟨S5000, .i32⟩ : BufTy).Contents (Elt F)),
    StableHlo.binary main_v1187 main_v1203 main_v1204 (addi : (⟨S5000, .i32⟩ : BufTy).Contents (Elt F) → (⟨S5000, .i32⟩ : BufTy).Contents (Elt F) → (⟨S5000, .i32⟩ : BufTy).Contents (Elt F)),
    StableHlo.ternary main_v1202 main_v1204 main_v1187 main_v1205 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1205 main_v1206 (broadcastInDim S5000x1 ![0] bcast_S5000_S5000x1_0 : (⟨S5000, .i32⟩ : BufTy).Contents (Elt F) → (⟨S5000x1, .i32⟩ : BufTy).Contents (Elt F)),
    StableHlo.ternary main_v1185 main_v1206 main_v1200 main_v1207 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg18 main_v1208 ((extractStridedSlice S1x2x128 ![2, 0, 0] · slices_S4x2x128_S1x2x128_2_0_0) : (⟨S4x2x128, .f32⟩ : BufTy).Contents (Elt F) → (⟨S1x2x128, .f32⟩ : BufTy).Contents (Elt F)),
    StableHlo.reshape main_v1208 main_v1209 rfl shapeCasts_S1x2x128_S2x128,
    StableHlo.nullary main_cst_207 (constant S_ .f32 0x00000000#32),
    StableHlo.binary main_v1207 main_cst_207 main_v1210 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v1210 main_v1211 (broadcastInDim S50000x1 ![0] bcast_S50000_S50000x1_0 : (⟨S50000, .f32⟩ : BufTy).Contents (Elt F) → (⟨S50000x1, .f32⟩ : BufTy).Contents (Elt F)),
    StableHlo.nullary main_cst_208 (constant S_ .f32 0x43000000#32),
    StableHlo.unary main_cst_208 main_v1212 (broadcastInDim S50000x1 ![] bcast_S_S50000x1 : (⟨S_, .f32⟩ : BufTy).Contents (Elt F) → (⟨S50000x1, .f32⟩ : BufTy).Contents (Elt F)),
    StableHlo.binary main_v1211 main_v1212 main_v1213 (Host.divf : (⟨S50000x1, .f32⟩ : BufTy).Contents (Elt F) → (⟨S50000x1, .f32⟩ : BufTy).Contents (Elt F) → (⟨S50000x1, .f32⟩ : BufTy).Contents (Elt F)),
    StableHlo.nullary main_c_209 (constantI S_ 32 0#32),
    StableHlo.TRef.nullary main_call17.cst (constant S_ .f32 0x00000000#32),
    StableHlo.TRef.binary (.of main_v1207 : StableHlo.TRef sig ⟨S50000x128, .f32⟩) main_call17.cst main_call17.v0 (fun x v => Host.reduceAdd x v reducesTo_S50000x128_S50000_d1 h_S_),
    StableHlo.TRef.unary main_call17.v0 main_call17.v1 (broadcastInDim S50000x1 ![0] bcast_S50000_S50000x1_0),
    StableHlo.TRef.nullary main_call17.cst_0 (constant S_ .f32 0x43000000#32),
    StableHlo.TRef.unary main_call17.cst_0 main_call17.v2 (broadcastInDim S50000x1 ![] bcast_S_S50000x1),
    StableHlo.TRef.binary main_call17.v1 main_call17.v2 main_call17.v3 Host.divf,
    StableHlo.TRef.unary main_call17.v3 main_call17.v4 (broadcastInDim S50000x128 ![0, 1] bcast_S50000x1_S50000x128_0_1),
    StableHlo.TRef.binary (.of main_v1207 : StableHlo.TRef sig ⟨S50000x128, .f32⟩) main_call17.v4 main_call17.v5 subf,
    StableHlo.TRef.binary main_call17.v5 main_call17.v5 main_call17.v6 mulf,
    StableHlo.TRef.unary (.of main_c_209 : StableHlo.TRef sig ⟨S_, .i32⟩) main_call17.v7 (sitofp .f32),
    StableHlo.TRef.nullary main_call17.cst_1 (constant S_ .f32 0x43000000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S50000x128_S50000_d1 h_S_),
    StableHlo.TRef.unary main_call17.v9 main_call17.v10 (broadcastInDim S50000x1 ![0] bcast_S50000_S50000x1_0),
    StableHlo.TRef.unary main_call17.v8 main_call17.v11 (broadcastInDim S50000x1 ![] bcast_S_S50000x1),
    StableHlo.TRef.binary main_call17.v10 main_call17.v11 main_call17.v12 Host.divf,
    StableHlo.TRef.nullary main_call17.cst_3 (constant S_ .f32 0x00000000#32),
    StableHlo.TRef.binary main_call17.v8 main_call17.cst_3 main_call17.v13 (cmpf .ogt),
    StableHlo.TRef.nullary main_call17.cst_4 (constant S_ .f32 0x7FC00000#32),
    StableHlo.TRef.unary (main_call17.cst_4 : StableHlo.TRef sig ⟨S_, .f32⟩) main_call17.call0.v0 id,
    StableHlo.TRef.unary main_call17.call0.v0 main_call17.call0.v1 (broadcastInDim S50000x1 ![] bcast_S_S50000x1),
    StableHlo.TRef.ternary (main_call17.v13 : StableHlo.TRef sig ⟨S_, .i1⟩) (main_call17.v12 : StableHlo.TRef sig ⟨S50000x1, .f32⟩) main_call17.call0.v1 main_call17.call0.v2 (fun p a b => select (broadcastInDim S50000x1 ![] bcast_S_S50000x1 p) a b),
    StableHlo.unary main_v1213 main_v1215 (broadcastInDim S50000x128 ![0, 1] bcast_S50000x1_S50000x128_0_1 : (⟨S50000x1, .f32⟩ : BufTy).Contents (Elt F) → (⟨S50000x128, .f32⟩ : BufTy).Contents (Elt F)),
    StableHlo.binary main_v1207 main_v1215 main_v1216 (subf : (⟨S50000x128, .f32⟩ : BufTy).Contents (Elt F) → (⟨S50000x128, .f32⟩ : BufTy).Contents (Elt F) → (⟨S50000x128, .f32⟩ : BufTy).Contents (Elt F)),
    StableHlo.nullary main_cst_210 (constant S_ .f32 0x3727C5AC#32),
    StableHlo.unary main_cst_210 main_v1217 (broadcastInDim S50000x1 ![] bcast_S_S50000x1 : (⟨S_, .f32⟩ : BufTy).Contents (Elt F) → (⟨S50000x1, .f32⟩ : BufTy).Contents (Elt F)),
    StableHlo.binary main_v1214 main_v1217 main_v1218 (addf : (⟨S50000x1, .f32⟩ : BufTy).Contents (Elt F) → (⟨S50000x1, .f32⟩ : BufTy).Contents (Elt F) → (⟨S50000x1, .f32⟩ : BufTy).Contents (Elt F)),
    StableHlo.unary main_v1218 main_v1219 (Host.sqrt : (⟨S50000x1, .f32⟩ : BufTy).Contents (Elt F) → (⟨S50000x1, .f32⟩ : BufTy).Contents (Elt F)),
    StableHlo.unary main_v1219 main_v1220 (broadcastInDim S50000x128 ![0, 1] bcast_S50000x1_S50000x128_0_1 : (⟨S50000x1, .f32⟩ : BufTy).Contents (Elt F) → (⟨S50000x128, .f32⟩ : BufTy).Contents (Elt F)),
    StableHlo.binary main_v1216 main_v1220 main_v1221 (Host.divf : (⟨S50000x128, .f32⟩ : BufTy).Contents (Elt F) → (⟨S50000x128, .f32⟩ : BufTy).Contents (Elt F) → (⟨S50000x128, .f32⟩ : BufTy).Contents (Elt F)),
    StableHlo.unary main_v1209 main_v1222 ((extractStridedSlice S1x128 ![0, 0] · slices_S2x128_S1x128_0_0) : (⟨S2x128, .f32⟩ : BufTy).Contents (Elt F) → (⟨S1x128, .f32⟩ : BufTy).Contents (Elt F)),
    StableHlo.reshape main_v1222 main_v1223 rfl shapeCasts_S1x128_S128,
    StableHlo.unary main_v1223 main_v1224 (broadcastInDim S1x128 ![1] bcast_S128_S1x128_1 : (⟨S128, .f32⟩ : BufTy).Contents (Elt F) → (⟨S1x128, .f32⟩ : BufTy).Contents (Elt F)),
    StableHlo.unary main_v1224 main_v1225 (broadcastInDim S50000x128 ![0, 1] bcast_S1x128_S50000x128_0_1 : (⟨S1x128, .f32⟩ : BufTy).Contents (Elt F) → (⟨S50000x128, .f32⟩ : BufTy).Contents (Elt F)),
    StableHlo.binary main_v1221 main_v1225 main_v1226 (mulf : (⟨S50000x128, .f32⟩ : BufTy).Contents (Elt F) → (⟨S50000x128, .f32⟩ : BufTy).Contents (Elt F) → (⟨S50000x128, .f32⟩ : BufTy).Contents (Elt F)) ]

/-- The buffers they write, in order. -/
abbrev chunk23_W : List (Ref sig .tc) :=
  [main_v1177, main_v1178, main_c_201, main_v1179, main_v1180, main_c_202, main_v1181, main_v1182, main_v1183, main_v1184, main_v1185, main_v1186, main_v1187, main_v1188, main_v1189, main_c_203, main_v1190, main_v1191, main_c_204, main_v1192, main_v1193, main_v1194, main_v1195, main_v1196, main_v1197, main_v1198, main_v1199, main_v1200, main_c_205, main_v1201, main_v1202, main_c_206, main_v1203, main_v1204, main_v1205, main_v1206, main_v1207, main_v1208, main_v1209, main_cst_207, main_v1210, main_v1211, main_cst_208, main_v1212, main_v1213, main_c_209, main_call17.cst.ref, main_call17.v0.ref, main_call17.v1.ref, main_call17.cst_0.ref, main_call17.v2.ref, main_call17.v3.ref, main_call17.v4.ref, main_call17.v5.ref, main_call17.v6.ref, main_call17.v7.ref, main_call17.cst_1.ref, main_call17.v8.ref, main_call17.cst_2.ref, main_call17.v9.ref, main_call17.v10.ref, main_call17.v11.ref, main_call17.v12.ref, main_call17.cst_3.ref, main_call17.v13.ref, main_call17.cst_4.ref, main_call17.call0.v0.ref, main_call17.call0.v1.ref, main_call17.call0.v2.ref, main_v1215, main_v1216, main_cst_210, main_v1217, main_v1218, main_v1219, main_v1220, main_v1221, main_v1222, main_v1223, main_v1224, main_v1225, main_v1226]

end Cert.ReferenceIdeal.RefRun

end
-- ==== Proof.RRunChk23.lean ====
/- TABLES over the operations of window `main_part23` (module RRunOps23): one term per operation for each side condition of
   the run, around the one proof text every window shares. -/
import proofs.«413166_j32323923870246_3_alg».proof.Proof.RRunOps23
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part23_eq (c : Dev nD) : main_part23 (F := F) c = seq chunk23 := by
  simp only [main_part23, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk23_sub : (chunk23 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub ..⟩

set_option maxRecDepth 16384 in
/-- Every operation determines its result. -/
theorem chunk23_fresh : ∀ op ∈ (chunk23 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk23 : List (HloOp τ sig (Elt F))).Forall fun op => op.fresh = ∅)

set_option maxRecDepth 16384 in
/-- Each operation writes one buffer of the list. -/
theorem chunk23_writes : (chunk23 : List (HloOp τ sig (Elt F))).Forall fun op =>
    op.writes ⊆ (chunk23_W.map (Proc.devRef (τ := τ) .tc)).toFinset :=
  ⟨writes_sub_of_mem main_v1177 rfl (by decide),
    writes_sub_of_mem main_v1178 rfl (by decide),
    writes_sub_of_mem main_c_201 rfl (by decide),
    writes_sub_of_mem main_v1179 rfl (by decide),
    writes_sub_of_mem main_v1180 rfl (by decide),
    writes_sub_of_mem main_c_202 rfl (by decide),
    writes_sub_of_mem main_v1181 rfl (by decide),
    writes_sub_of_mem main_v1182 rfl (by decide),
    writes_sub_of_mem main_v1183 rfl (by decide),
    writes_sub_of_mem main_v1184 rfl (by decide),
    writes_sub_of_mem main_v1185 rfl (by decide),
    writes_sub_of_mem main_v1186 rfl (by decide),
    writes_sub_of_mem main_v1187 rfl (by decide),
    writes_sub_of_mem main_v1188 rfl (by decide),
    writes_sub_of_mem main_v1189 rfl (by decide),
    writes_sub_of_mem main_c_203 rfl (by decide),
    writes_sub_of_mem main_v1190 rfl (by decide),
    writes_sub_of_mem main_v1191 rfl (by decide),
    writes_sub_of_mem main_c_204 rfl (by decide),
    writes_sub_of_mem main_v1192 rfl (by decide),
    writes_sub_of_mem main_v1193 rfl (by decide),
    writes_sub_of_mem main_v1194 rfl (by decide),
    writes_sub_of_mem main_v1195 rfl (by decide),
    writes_sub_of_mem main_v1196 rfl (by decide),
    writes_sub_of_mem main_v1197 rfl (by decide),
    writes_sub_of_mem main_v1198 rfl (by decide),
    writes_sub_of_mem main_v1199 rfl (by decide),
    writes_sub_of_mem main_v1200 rfl (by decide),
    writes_sub_of_mem main_c_205 rfl (by decide),
    writes_sub_of_mem main_v1201 rfl (by decide),
    writes_sub_of_mem main_v1202 rfl (by decide),
    writes_sub_of_mem main_c_206 rfl (by decide),
    writes_sub_of_mem main_v1203 rfl (by decide),
    writes_sub_of_mem main_v1204 rfl (by decide),
    writes_sub_of_mem main_v1205 rfl (by decide),
    writes_sub_of_mem main_v1206 rfl (by decide),
    writes_sub_of_mem main_v1207 rfl (by decide),
    writes_sub_of_mem main_v1208 rfl (by decide),
    writes_sub_of_mem main_v1209 rfl (by decide),
    writes_sub_of_mem main_cst_207 rfl (by decide),
    writes_sub_of_mem main_v1210 rfl (by decide),
    writes_sub_of_mem main_v1211 rfl (by decide),
    writes_sub_of_mem main_cst_208 rfl (by decide),
    writes_sub_of_mem main_v1212 rfl (by decide),
    writes_sub_of_mem main_v1213 rfl (by decide),
    writes_sub_of_mem main_c_209 rfl (by decide),
    writes_sub_of_mem main_call17.cst.ref rfl (by decide),
    writes_sub_of_mem main_call17.v0.ref rfl (by decide),
    writes_sub_of_mem main_call17.v1.ref rfl (by decide),
    writes_sub_of_mem main_call17.cst_0.ref rfl (by decide),
    writes_sub_of_mem main_call17.v2.ref rfl (by decide),
    writes_sub_of_mem main_call17.v3.ref rfl (by decide),
    writes_sub_of_mem main_call17.v4.ref rfl (by decide),
    writes_sub_of_mem main_call17.v5.ref rfl (by decide),
    writes_sub_of_mem main_call17.v6.ref rfl (by decide),
    writes_sub_of_mem main_call17.v7.ref rfl (by decide),
    writes_sub_of_mem main_call17.cst_1.ref rfl (by decide),
    writes_sub_of_mem main_call17.v8.ref rfl (by decide),
    writes_sub_of_mem main_call17.cst_2.ref rfl (by decide),
    writes_sub_of_mem main_call17.v9.ref rfl (by decide),
    writes_sub_of_mem main_call17.v10.ref rfl (by decide),
    writes_sub_of_mem main_call17.v11.ref rfl (by decide),
    writes_sub_of_mem main_call17.v12.ref rfl (by decide),
    writes_sub_of_mem main_call17.cst_3.ref rfl (by decide),
    writes_sub_of_mem main_call17.v13.ref rfl (by decide),
    writes_sub_of_mem main_call17.cst_4.ref rfl (by decide),
    writes_sub_of_mem main_call17.call0.v0.ref rfl (by decide),
    writes_sub_of_mem main_call17.call0.v1.ref rfl (by decide),
    writes_sub_of_mem main_call17.call0.v2.ref rfl (by decide),
    writes_sub_of_mem main_v1215 rfl (by decide),
    writes_sub_of_mem main_v1216 rfl (by decide),
    writes_sub_of_mem main_cst_210 rfl (by decide),
    writes_sub_of_mem main_v1217 rfl (by decide),
    writes_sub_of_mem main_v1218 rfl (by decide),
    writes_sub_of_mem main_v1219 rfl (by decide),
    writes_sub_of_mem main_v1220 rfl (by decide),
    writes_sub_of_mem main_v1221 rfl (by decide),
    writes_sub_of_mem main_v1222 rfl (by decide),
    writes_sub_of_mem main_v1223 rfl (by decide),
    writes_sub_of_mem main_v1224 rfl (by decide),
    writes_sub_of_mem main_v1225 rfl (by decide),
    writes_sub_of_mem main_v1226 rfl (by decide)⟩

/-- A buffer the window does not write keeps its contents through it. -/
theorem chunk23_keep (V : Valuation τ sig (Elt F)) (r : Ref sig .tc) (h : r ∉ chunk23_W) :
    after chunk23 V (Proc.devRef .tc r) = V (Proc.devRef .tc r) :=
  after_of_writes_sub chunk23 V chunk23_writes h

end Cert.ReferenceIdeal.RefRun

end
-- ==== Proof.RRunOps24.lean ====
/- TABLES transcribed from proof/ReferenceIdeal.lean: window `main_part24` of the reference's @main as a list of host
   operations (86: 1657 … 1742 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part24`, in order, the calls unfolded. -/
abbrev chunk24 : List (HloOp τ sig (Elt F)) :=
  [ StableHlo.unary main_v1209 main_v1227 ((extractStridedSlice S1x128 ![1, 0] · slices_S2x128_S1x128_1_0) : (⟨S2x128, .f32⟩ : BufTy).Contents (Elt F) → (⟨S1x128, .f32⟩ : BufTy).Contents (Elt F)),
    StableHlo.reshape main_v1227 main_v1228 rfl shapeCasts_S1x128_S128,
    StableHlo.unary main_v1228 main_v1229 (broadcastInDim S1x128 ![1] bcast_S128_S1x128_1 : (⟨S128, .f32⟩ : BufTy).Contents (Elt F) → (⟨S1x128, .f32⟩ : BufTy).Contents (Elt F)),
    StableHlo.unary main_v1229 main_v1230 (broadcastInDim S50000x128 ![0, 1] bcast_S1x128_S50000x128_0_1 : (⟨S1x128, .f32⟩ : BufTy).Contents (Elt F) → (⟨S50000x128, .f32⟩ : BufTy).Contents (Elt F)),
    StableHlo.binary main_v1226 main_v1230 main_v1231 (addf : (⟨S50000x128, .f32⟩ : BufTy).Contents (Elt F) → (⟨S50000x128, .f32⟩ : BufTy).Contents (Elt F) → (⟨S50000x128, .f32⟩ : BufTy).Contents (Elt F)),
    StableHlo.TRef.nullary main_call18.cst (constant S_ .f32 0x00000000#32),
    StableHlo.TRef.unary main_call18.cst main_call18.v0 (broadcastInDim S50000x128 ![] bcast_S_S50000x128),
    StableHlo.TRef.binary (.of main_v1231 : StableHlo.TRef sig ⟨S50000x128, .f32⟩) main_call18.v0 main_call18.v1 maximumf,
    StableHlo.unary main_arg19 main_v1233 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v1233 main_v1234 rfl shapeCasts_S1x128x128_S128x128,
    StableHlo.unary main_v1234 main_v1235 ((transpose S128x128 [1, 0] · transposes_S128x128_S128x128_1_0) : (⟨S128x128, .f32⟩ : BufTy).Contents (Elt F) → (⟨S128x128, .f32⟩ : BufTy).Contents (Elt F)),
    StableHlo.binary main_v1232 main_v1235 main_v1236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg20 main_v1237 ((extractStridedSlice S1x2x128 ![2, 0, 0] · slices_S4x2x128_S1x2x128_2_0_0) : (⟨S4x2x128, .f32⟩ : BufTy).Contents (Elt F) → (⟨S1x2x128, .f32⟩ : BufTy).Contents (Elt F)),
    StableHlo.reshape main_v1237 main_v1238 rfl shapeCasts_S1x2x128_S2x128,
    StableHlo.nullary main_cst_211 (constant S_ .f32 0x00000000#32),
    StableHlo.binary main_v1236 main_cst_211 main_v1239 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v1239 main_v1240 (broadcastInDim S50000x1 ![0] bcast_S50000_S50000x1_0 : (⟨S50000, .f32⟩ : BufTy).Contents (Elt F) → (⟨S50000x1, .f32⟩ : BufTy).Contents (Elt F)),
    StableHlo.nullary main_cst_212 (constant S_ .f32 0x43000000#32),
    StableHlo.unary main_cst_212 main_v1241 (broadcastInDim S50000x1 ![] bcast_S_S50000x1 : (⟨S_, .f32⟩ : BufTy).Contents (Elt F) → (⟨S50000x1, .f32⟩ : BufTy).Contents (Elt F)),
    StableHlo.binary main_v1240 main_v1241 main_v1242 (Host.divf : (⟨S50000x1, .f32⟩ : BufTy).Contents (Elt F) → (⟨S50000x1, .f32⟩ : BufTy).Contents (Elt F) → (⟨S50000x1, .f32⟩ : BufTy).Contents (Elt F)),
    StableHlo.nullary main_c_213 (constantI S_ 32 0#32),
    StableHlo.TRef.nullary main_call19.cst (constant S_ .f32 0x00000000#32),
    StableHlo.TRef.binary (.of main_v1236 : StableHlo.TRef sig ⟨S50000x128, .f32⟩) main_call19.cst main_call19.v0 (fun x v => Host.reduceAdd x v reducesTo_S50000x128_S50000_d1 h_S_),
    StableHlo.TRef.unary main_call19.v0 main_call19.v1 (broadcastInDim S50000x1 ![0] bcast_S50000_S50000x1_0),
    StableHlo.TRef.nullary main_call19.cst_0 (constant S_ .f32 0x43000000#32),
    StableHlo.TRef.unary main_call19.cst_0 main_call19.v2 (broadcastInDim S50000x1 ![] bcast_S_S50000x1),
    StableHlo.TRef.binary main_call19.v1 main_call19.v2 main_call19.v3 Host.divf,
    StableHlo.TRef.unary main_call19.v3 main_call19.v4 (broadcastInDim S50000x128 ![0, 1] bcast_S50000x1_S50000x128_0_1),
    StableHlo.TRef.binary (.of main_v1236 : StableHlo.TRef sig ⟨S50000x128, .f32⟩) main_call19.v4 main_call19.v5 subf,
    StableHlo.TRef.binary main_call19.v5 main_call19.v5 main_call19.v6 mulf,
    StableHlo.TRef.unary (.of main_c_213 : StableHlo.TRef sig ⟨S_, .i32⟩) main_call19.v7 (sitofp .f32),
    StableHlo.TRef.nullary main_call19.cst_1 (constant S_ .f32 0x43000000#32),
    StableHlo.TRef.binary main_call19.cst_1 main_call19.v7 main_call19.v8 subf,
    StableHlo.TRef.nullary main_call19.cst_2 (constant S_ .f32 0x00000000#32),
    StableHlo.TRef.binary main_call19.v6 main_call19.cst_2 main_call19.v9 (fun x v => Host.reduceAdd x v reducesTo_S50000x128_S50000_d1 h_S_),
    StableHlo.TRef.unary main_call19.v9 main_call19.v10 (broadcastInDim S50000x1 ![0] bcast_S50000_S50000x1_0),
    StableHlo.TRef.unary main_call19.v8 main_call19.v11 (broadcastInDim S50000x1 ![] bcast_S_S50000x1),
    StableHlo.TRef.binary main_call19.v10 main_call19.v11 main_call19.v12 Host.divf,
    StableHlo.TRef.nullary main_call19.cst_3 (constant S_ .f32 0x00000000#32),
    StableHlo.TRef.binary main_call19.v8 main_call19.cst_3 main_call19.v13 (cmpf .ogt),
    StableHlo.TRef.nullary main_call19.cst_4 (constant S_ .f32 0x7FC00000#32),
    StableHlo.TRef.unary (main_call19.cst_4 : StableHlo.TRef sig ⟨S_, .f32⟩) main_call19.call0.v0 id,
    StableHlo.TRef.unary main_call19.call0.v0 main_call19.call0.v1 (broadcastInDim S50000x1 ![] bcast_S_S50000x1),
    StableHlo.TRef.ternary (main_call19.v13 : StableHlo.TRef sig ⟨S_, .i1⟩) (main_call19.v12 : StableHlo.TRef sig ⟨S50000x1, .f32⟩) main_call19.call0.v1 main_call19.call0.v2 (fun p a b => select (broadcastInDim S50000x1 ![] bcast_S_S50000x1 p) a b),
    StableHlo.unary main_v1242 main_v1244 (broadcastInDim S50000x128 ![0, 1] bcast_S50000x1_S50000x128_0_1 : (⟨S50000x1, .f32⟩ : BufTy).Contents (Elt F) → (⟨S50000x128, .f32⟩ : BufTy).Contents (Elt F)),
    StableHlo.binary main_v1236 main_v1244 main_v1245 (subf : (⟨S50000x128, .f32⟩ : BufTy).Contents (Elt F) → (⟨S50000x128, .f32⟩ : BufTy).Contents (Elt F) → (⟨S50000x128, .f32⟩ : BufTy).Contents (Elt F)),
    StableHlo.nullary main_cst_214 (constant S_ .f32 0x3727C5AC#32),
    StableHlo.unary main_cst_214 main_v1246 (broadcastInDim S50000x1 ![] bcast_S_S50000x1 : (⟨S_, .f32⟩ : BufTy).Contents (Elt F) → (⟨S50000x1, .f32⟩ : BufTy).Contents (Elt F)),
    StableHlo.binary main_v1243 main_v1246 main_v1247 (addf : (⟨S50000x1, .f32⟩ : BufTy).Contents (Elt F) → (⟨S50000x1, .f32⟩ : BufTy).Contents (Elt F) → (⟨S50000x1, .f32⟩ : BufTy).Contents (Elt F)),
    StableHlo.unary main_v1247 main_v1248 (Host.sqrt : (⟨S50000x1, .f32⟩ : BufTy).Contents (Elt F) → (⟨S50000x1, .f32⟩ : BufTy).Contents (Elt F)),
    StableHlo.unary main_v1248 main_v1249 (broadcastInDim S50000x128 ![0, 1] bcast_S50000x1_S50000x128_0_1 : (⟨S50000x1, .f32⟩ : BufTy).Contents (Elt F) → (⟨S50000x128, .f32⟩ : BufTy).Contents (Elt F)),
    StableHlo.binary main_v1245 main_v1249 main_v1250 (Host.divf : (⟨S50000x128, .f32⟩ : BufTy).Contents (Elt F) → (⟨S50000x128, .f32⟩ : BufTy).Contents (Elt F) → (⟨S50000x128, .f32⟩ : BufTy).Contents (Elt F)),
    StableHlo.unary main_v1238 main_v1251 ((extractStridedSlice S1x128 ![0, 0] · slices_S2x128_S1x128_0_0) : (⟨S2x128, .f32⟩ : BufTy).Contents (Elt F) → (⟨S1x128, .f32⟩ : BufTy).Contents (Elt F)),
    StableHlo.reshape main_v1251 main_v1252 rfl shapeCasts_S1x128_S128,
    StableHlo.unary main_v1252 main_v1253 (broadcastInDim S1x128 ![1] bcast_S128_S1x128_1 : (⟨S128, .f32⟩ : BufTy).Contents (Elt F) → (⟨S1x128, .f32⟩ : BufTy).Contents (Elt F)),
    StableHlo.unary main_v1253 main_v1254 (broadcastInDim S50000x128 ![0, 1] bcast_S1x128_S50000x128_0_1 : (⟨S1x128, .f32⟩ : BufTy).Contents (Elt F) → (⟨S50000x128, .f32⟩ : BufTy).Contents (Elt F)),
    StableHlo.binary main_v1250 main_v1254 main_v1255 (mulf : (⟨S50000x128, .f32⟩ : BufTy).Contents (Elt F) → (⟨S50000x128, .f32⟩ : BufTy).Contents (Elt F) → (⟨S50000x128, .f32⟩ : BufTy).Contents (Elt F)),
    StableHlo.unary main_v1238 main_v1256 ((extractStridedSlice S1x128 ![1, 0] · slices_S2x128_S1x128_1_0) : (⟨S2x128, .f32⟩ : BufTy).Contents (Elt F) → (⟨S1x128, .f32⟩ : BufTy).Contents (Elt F)),
    StableHlo.reshape main_v1256 main_v1257 rfl shapeCasts_S1x128_S128,
    StableHlo.unary main_v1257 main_v1258 (broadcastInDim S1x128 ![1] bcast_S128_S1x128_1 : (⟨S128, .f32⟩ : BufTy).Contents (Elt F) → (⟨S1x128, .f32⟩ : BufTy).Contents (Elt F)),
    StableHlo.unary main_v1258 main_v1259 (broadcastInDim S50000x128 ![0, 1] bcast_S1x128_S50000x128_0_1 : (⟨S1x128, .f32⟩ : BufTy).Contents (Elt F) → (⟨S50000x128, .f32⟩ : BufTy).Contents (Elt F)),
    StableHlo.binary main_v1255 main_v1259 main_v1260 (addf : (⟨S50000x128, .f32⟩ : BufTy).Contents (Elt F) → (⟨S50000x128, .f32⟩ : BufTy).Contents (Elt F) → (⟨S50000x128, .f32⟩ : BufTy).Contents (Elt F)),
    StableHlo.binary main_v1260 main_v895 main_v1261 (addf : (⟨S50000x128, .f32⟩ : BufTy).Contents (Elt F) → (⟨S50000x128, .f32⟩ : BufTy).Contents (Elt F) → (⟨S50000x128, .f32⟩ : BufTy).Contents (Elt F)),
    StableHlo.TRef.nullary main_call20.cst (constant S_ .f32 0x00000000#32),
    StableHlo.TRef.unary main_call20.cst main_call20.v0 (broadcastInDim S50000x128 ![] bcast_S_S50000x128),
    StableHlo.TRef.binary (.of main_v1261 : StableHlo.TRef sig ⟨S50000x128, .f32⟩) main_call20.v0 main_call20.v1 maximumf,
    StableHlo.unary main_arg14 main_v1263 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v1263 main_v1264 rfl shapeCasts_S1x128x128_S128x128,
    StableHlo.unary main_v1264 main_v1265 ((transpose S128x128 [1, 0] · transposes_S128x128_S128x128_1_0) : (⟨S128x128, .f32⟩ : BufTy).Contents (Elt F) → (⟨S128x128, .f32⟩ : BufTy).Contents (Elt F)),
    StableHlo.binary main_v1262 main_v1265 main_v1266 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg25 main_v1267 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v1267 main_v1268 rfl shapeCasts_S1x50000_S50000,
    StableHlo.unary main_arg26 main_v1269 ((extractStridedSlice S1x50000 ![0, 0] · slices_S12x50000_S1x50000_0_0) : (⟨S12x50000, .i32⟩ : BufTy).Contents (Elt F) → (⟨S1x50000, .i32⟩ : BufTy).Contents (Elt F)),
    StableHlo.reshape main_v1269 main_v1270 rfl shapeCasts_S1x50000_S50000,
    StableHlo.nullary main_c_215 (constantI S_ 32 0#32),
    StableHlo.unary main_c_215 main_v1271 (broadcastInDim S50000 ![] bcast_S_S50000 : (⟨S_, .i32⟩ : BufTy).Contents (Elt F) → (⟨S50000, .i32⟩ : BufTy).Contents (Elt F)),
    StableHlo.binary main_v1270 main_v1271 main_v1272 (cmpi .slt : (⟨S50000, .i32⟩ : BufTy).Contents (Elt F) → (⟨S50000, .i32⟩ : BufTy).Contents (Elt F) → (⟨S50000, .i1⟩ : BufTy).Contents (Elt F)),
    StableHlo.nullary main_c_216 (constantI S_ 32 50000#32),
    StableHlo.unary main_c_216 main_v1273 (broadcastInDim S50000 ![] bcast_S_S50000 : (⟨S_, .i32⟩ : BufTy).Contents (Elt F) → (⟨S50000, .i32⟩ : BufTy).Contents (Elt F)),
    StableHlo.binary main_v1270 main_v1273 main_v1274 (addi : (⟨S50000, .i32⟩ : BufTy).Contents (Elt F) → (⟨S50000, .i32⟩ : BufTy).Contents (Elt F) → (⟨S50000, .i32⟩ : BufTy).Contents (Elt F)),
    StableHlo.ternary main_v1272 main_v1274 main_v1270 main_v1275 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1275 main_v1276 (broadcastInDim S50000x1 ![0] bcast_S50000_S50000x1_0 : (⟨S50000, .i32⟩ : BufTy).Contents (Elt F) → (⟨S50000x1, .i32⟩ : BufTy).Contents (Elt F)),
    StableHlo.binary main_v1262 main_v1276 main_v1277 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1278 ((extractStridedSlice S1x1x128x128 ![3, 0, 0, 0] · slices_S4x12x128x128_S1x1x128x128_3_0_0_0) : (⟨S4x12x128x128, .f32⟩ : BufTy).Contents (Elt F) → (⟨S1x1x128x128, .f32⟩ : BufTy).Contents (Elt F)),
    StableHlo.reshape main_v1278 main_v1279 rfl shapeCasts_S1x1x128x128_S128x128,
    StableHlo.unary main_v1279 main_v1280 ((transpose S128x128 [1, 0] · transposes_S128x128_S128x128_1_0) : (⟨S128x128, .f32⟩ : BufTy).Contents (Elt F) → (⟨S128x128, .f32⟩ : BufTy).Contents (Elt F)) ]

/-- The buffers they write, in order. -/
abbrev chunk24_W : List (Ref sig .tc) :=
  [main_v1227, main_v1228, main_v1229, main_v1230, main_v1231, main_call18.cst.ref, main_call18.v0.ref, main_call18.v1.ref, main_v1233, main_v1234, main_v1235, main_v1236, main_v1237, main_v1238, main_cst_211, main_v1239, main_v1240, main_cst_212, main_v1241, main_v1242, main_c_213, main_call19.cst.ref, main_call19.v0.ref, main_call19.v1.ref, main_call19.cst_0.ref, main_call19.v2.ref, main_call19.v3.ref, main_call19.v4.ref, main_call19.v5.ref, main_call19.v6.ref, main_call19.v7.ref, main_call19.cst_1.ref, main_call19.v8.ref, main_call19.cst_2.ref, main_call19.v9.ref, main_call19.v10.ref, main_call19.v11.ref, main_call19.v12.ref, main_call19.cst_3.ref, main_call19.v13.ref, main_call19.cst_4.ref, main_call19.call0.v0.ref, main_call19.call0.v1.ref, main_call19.call0.v2.ref, main_v1244, main_v1245, main_cst_214, main_v1246, main_v1247, main_v1248, main_v1249, main_v1250, main_v1251, main_v1252, main_v1253, main_v1254, main_v1255, main_v1256, main_v1257, main_v1258, main_v1259, main_v1260, main_v1261, main_call20.cst.ref, main_call20.v0.ref, main_call20.v1.ref, main_v1263, main_v1264, main_v1265, main_v1266, main_v1267, main_v1268, main_v1269, main_v1270, main_c_215, main_v1271, main_v1272, main_c_216, main_v1273, main_v1274, main_v1275, main_v1276, main_v1277, main_v1278, main_v1279, main_v1280]

end Cert.ReferenceIdeal.RefRun

end
-- ==== Proof.RRunChk24.lean ====
/- TABLES over the operations of window `main_part24` (module RRunOps24): one term per operation for each side condition of
   the run, around the one proof text every window shares. -/
import proofs.«413166_j32323923870246_3_alg».proof.Proof.RRunOps24
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part24_eq (c : Dev nD) : main_part24 (F := F) c = seq chunk24 := by
  simp only [main_part24, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk24_sub : (chunk24 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub ..⟩

set_option maxRecDepth 16384 in
/-- Every operation determines its result. -/
theorem chunk24_fresh : ∀ op ∈ (chunk24 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk24 : List (HloOp τ sig (Elt F))).Forall fun op => op.fresh = ∅)

set_option maxRecDepth 16384 in
/-- Each operation writes one buffer of the list. -/
theorem chunk24_writes : (chunk24 : List (HloOp τ sig (Elt F))).Forall fun op =>
    op.writes ⊆ (chunk24_W.map (Proc.devRef (τ := τ) .tc)).toFinset :=
  ⟨writes_sub_of_mem main_v1227 rfl (by decide),
    writes_sub_of_mem main_v1228 rfl (by decide),
    writes_sub_of_mem main_v1229 rfl (by decide),
    writes_sub_of_mem main_v1230 rfl (by decide),
    writes_sub_of_mem main_v1231 rfl (by decide),
    writes_sub_of_mem main_call18.cst.ref rfl (by decide),
    writes_sub_of_mem main_call18.v0.ref rfl (by decide),
    writes_sub_of_mem main_call18.v1.ref rfl (by decide),
    writes_sub_of_mem main_v1233 rfl (by decide),
    writes_sub_of_mem main_v1234 rfl (by decide),
    writes_sub_of_mem main_v1235 rfl (by decide),
    writes_sub_of_mem main_v1236 rfl (by decide),
    writes_sub_of_mem main_v1237 rfl (by decide),
    writes_sub_of_mem main_v1238 rfl (by decide),
    writes_sub_of_mem main_cst_211 rfl (by decide),
    writes_sub_of_mem main_v1239 rfl (by decide),
    writes_sub_of_mem main_v1240 rfl (by decide),
    writes_sub_of_mem main_cst_212 rfl (by decide),
    writes_sub_of_mem main_v1241 rfl (by decide),
    writes_sub_of_mem main_v1242 rfl (by decide),
    writes_sub_of_mem main_c_213 rfl (by decide),
    writes_sub_of_mem main_call19.cst.ref rfl (by decide),
    writes_sub_of_mem main_call19.v0.ref rfl (by decide),
    writes_sub_of_mem main_call19.v1.ref rfl (by decide),
    writes_sub_of_mem main_call19.cst_0.ref rfl (by decide),
    writes_sub_of_mem main_call19.v2.ref rfl (by decide),
    writes_sub_of_mem main_call19.v3.ref rfl (by decide),
    writes_sub_of_mem main_call19.v4.ref rfl (by decide),
    writes_sub_of_mem main_call19.v5.ref rfl (by decide),
    writes_sub_of_mem main_call19.v6.ref rfl (by decide),
    writes_sub_of_mem main_call19.v7.ref rfl (by decide),
    writes_sub_of_mem main_call19.cst_1.ref rfl (by decide),
    writes_sub_of_mem main_call19.v8.ref rfl (by decide),
    writes_sub_of_mem main_call19.cst_2.ref rfl (by decide),
    writes_sub_of_mem main_call19.v9.ref rfl (by decide),
    writes_sub_of_mem main_call19.v10.ref rfl (by decide),
    writes_sub_of_mem main_call19.v11.ref rfl (by decide),
    writes_sub_of_mem main_call19.v12.ref rfl (by decide),
    writes_sub_of_mem main_call19.cst_3.ref rfl (by decide),
    writes_sub_of_mem main_call19.v13.ref rfl (by decide),
    writes_sub_of_mem main_call19.cst_4.ref rfl (by decide),
    writes_sub_of_mem main_call19.call0.v0.ref rfl (by decide),
    writes_sub_of_mem main_call19.call0.v1.ref rfl (by decide),
    writes_sub_of_mem main_call19.call0.v2.ref rfl (by decide),
    writes_sub_of_mem main_v1244 rfl (by decide),
    writes_sub_of_mem main_v1245 rfl (by decide),
    writes_sub_of_mem main_cst_214 rfl (by decide),
    writes_sub_of_mem main_v1246 rfl (by decide),
    writes_sub_of_mem main_v1247 rfl (by decide),
    writes_sub_of_mem main_v1248 rfl (by decide),
    writes_sub_of_mem main_v1249 rfl (by decide),
    writes_sub_of_mem main_v1250 rfl (by decide),
    writes_sub_of_mem main_v1251 rfl (by decide),
    writes_sub_of_mem main_v1252 rfl (by decide),
    writes_sub_of_mem main_v1253 rfl (by decide),
    writes_sub_of_mem main_v1254 rfl (by decide),
    writes_sub_of_mem main_v1255 rfl (by decide),
    writes_sub_of_mem main_v1256 rfl (by decide),
    writes_sub_of_mem main_v1257 rfl (by decide),
    writes_sub_of_mem main_v1258 rfl (by decide),
    writes_sub_of_mem main_v1259 rfl (by decide),
    writes_sub_of_mem main_v1260 rfl (by decide),
    writes_sub_of_mem main_v1261 rfl (by decide),
    writes_sub_of_mem main_call20.cst.ref rfl (by decide),
    writes_sub_of_mem main_call20.v0.ref rfl (by decide),
    writes_sub_of_mem main_call20.v1.ref rfl (by decide),
    writes_sub_of_mem main_v1263 rfl (by decide),
    writes_sub_of_mem main_v1264 rfl (by decide),
    writes_sub_of_mem main_v1265 rfl (by decide),
    writes_sub_of_mem main_v1266 rfl (by decide),
    writes_sub_of_mem main_v1267 rfl (by decide),
    writes_sub_of_mem main_v1268 rfl (by decide),
    writes_sub_of_mem main_v1269 rfl (by decide),
    writes_sub_of_mem main_v1270 rfl (by decide),
    writes_sub_of_mem main_c_215 rfl (by decide),
    writes_sub_of_mem main_v1271 rfl (by decide),
    writes_sub_of_mem main_v1272 rfl (by decide),
    writes_sub_of_mem main_c_216 rfl (by decide),
    writes_sub_of_mem main_v1273 rfl (by decide),
    writes_sub_of_mem main_v1274 rfl (by decide),
    writes_sub_of_mem main_v1275 rfl (by decide),
    writes_sub_of_mem main_v1276 rfl (by decide),
    writes_sub_of_mem main_v1277 rfl (by decide),
    writes_sub_of_mem main_v1278 rfl (by decide),
    writes_sub_of_mem main_v1279 rfl (by decide),
    writes_sub_of_mem main_v1280 rfl (by decide)⟩

/-- A buffer the window does not write keeps its contents through it. -/
theorem chunk24_keep (V : Valuation τ sig (Elt F)) (r : Ref sig .tc) (h : r ∉ chunk24_W) :
    after chunk24 V (Proc.devRef .tc r) = V (Proc.devRef .tc r) :=
  after_of_writes_sub chunk24 V chunk24_writes h

end Cert.ReferenceIdeal.RefRun

end
-- ==== Proof.RRunOps25.lean ====
/- TABLES transcribed from proof/ReferenceIdeal.lean: window `main_part25` of the reference's @main as a list of host
   operations (60: 1743 … 1802 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part25`, in order, the calls unfolded. -/
abbrev chunk25 : List (HloOp τ sig (Elt F)) :=
  [ StableHlo.binary main_v1277 main_v1280 main_v1281 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_217 (constantI S_ 32 0#32),
    StableHlo.unary main_c_217 main_v1282 (broadcastInDim S50000 ![] bcast_S_S50000 : (⟨S_, .i32⟩ : BufTy).Contents (Elt F) → (⟨S50000, .i32⟩ : BufTy).Contents (Elt F)),
    StableHlo.binary main_v1268 main_v1282 main_v1283 (cmpi .slt : (⟨S50000, .i32⟩ : BufTy).Contents (Elt F) → (⟨S50000, .i32⟩ : BufTy).Contents (Elt F) → (⟨S50000, .i1⟩ : BufTy).Contents (Elt F)),
    StableHlo.nullary main_c_218 (constantI S_ 32 50000#32),
    StableHlo.unary main_c_218 main_v1284 (broadcastInDim S50000 ![] bcast_S_S50000 : (⟨S_, .i32⟩ : BufTy).Contents (Elt F) → (⟨S50000, .i32⟩ : BufTy).Contents (Elt F)),
    StableHlo.binary main_v1268 main_v1284 main_v1285 (addi : (⟨S50000, .i32⟩ : BufTy).Contents (Elt F) → (⟨S50000, .i32⟩ : BufTy).Contents (Elt F) → (⟨S50000, .i32⟩ : BufTy).Contents (Elt F)),
    StableHlo.ternary main_v1283 main_v1285 main_v1268 main_v1286 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1286 main_v1287 (broadcastInDim S50000x1 ![0] bcast_S50000_S50000x1_0 : (⟨S50000, .i32⟩ : BufTy).Contents (Elt F) → (⟨S50000x1, .i32⟩ : BufTy).Contents (Elt F)),
    StableHlo.ternary main_v1266 main_v1287 main_v1281 main_v1288 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1289 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v1289 main_v1290 rfl shapeCasts_S1x50000_S50000,
    StableHlo.unary main_arg26 main_v1291 ((extractStridedSlice S1x50000 ![1, 0] · slices_S12x50000_S1x50000_1_0) : (⟨S12x50000, .i32⟩ : BufTy).Contents (Elt F) → (⟨S1x50000, .i32⟩ : BufTy).Contents (Elt F)),
    StableHlo.reshape main_v1291 main_v1292 rfl shapeCasts_S1x50000_S50000,
    StableHlo.nullary main_c_219 (constantI S_ 32 0#32),
    StableHlo.unary main_c_219 main_v1293 (broadcastInDim S50000 ![] bcast_S_S50000 : (⟨S_, .i32⟩ : BufTy).Contents (Elt F) → (⟨S50000, .i32⟩ : BufTy).Contents (Elt F)),
    StableHlo.binary main_v1292 main_v1293 main_v1294 (cmpi .slt : (⟨S50000, .i32⟩ : BufTy).Contents (Elt F) → (⟨S50000, .i32⟩ : BufTy).Contents (Elt F) → (⟨S50000, .i1⟩ : BufTy).Contents (Elt F)),
    StableHlo.nullary main_c_220 (constantI S_ 32 50000#32),
    StableHlo.unary main_c_220 main_v1295 (broadcastInDim S50000 ![] bcast_S_S50000 : (⟨S_, .i32⟩ : BufTy).Contents (Elt F) → (⟨S50000, .i32⟩ : BufTy).Contents (Elt F)),
    StableHlo.binary main_v1292 main_v1295 main_v1296 (addi : (⟨S50000, .i32⟩ : BufTy).Contents (Elt F) → (⟨S50000, .i32⟩ : BufTy).Contents (Elt F) → (⟨S50000, .i32⟩ : BufTy).Contents (Elt F)),
    StableHlo.ternary main_v1294 main_v1296 main_v1292 main_v1297 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1297 main_v1298 (broadcastInDim S50000x1 ![0] bcast_S50000_S50000x1_0 : (⟨S50000, .i32⟩ : BufTy).Contents (Elt F) → (⟨S50000x1, .i32⟩ : BufTy).Contents (Elt F)),
    StableHlo.binary main_v1262 main_v1298 main_v1299 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1300 ((extractStridedSlice S1x1x128x128 ![3, 1, 0, 0] · slices_S4x12x128x128_S1x1x128x128_3_1_0_0) : (⟨S4x12x128x128, .f32⟩ : BufTy).Contents (Elt F) → (⟨S1x1x128x128, .f32⟩ : BufTy).Contents (Elt F)),
    StableHlo.reshape main_v1300 main_v1301 rfl shapeCasts_S1x1x128x128_S128x128,
    StableHlo.unary main_v1301 main_v1302 ((transpose S128x128 [1, 0] · transposes_S128x128_S128x128_1_0) : (⟨S128x128, .f32⟩ : BufTy).Contents (Elt F) → (⟨S128x128, .f32⟩ : BufTy).Contents (Elt F)),
    StableHlo.binary main_v1299 main_v1302 main_v1303 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_221 (constantI S_ 32 0#32),
    StableHlo.unary main_c_221 main_v1304 (broadcastInDim S50000 ![] bcast_S_S50000 : (⟨S_, .i32⟩ : BufTy).Contents (Elt F) → (⟨S50000, .i32⟩ : BufTy).Contents (Elt F)),
    StableHlo.binary main_v1290 main_v1304 main_v1305 (cmpi .slt : (⟨S50000, .i32⟩ : BufTy).Contents (Elt F) → (⟨S50000, .i32⟩ : BufTy).Contents (Elt F) → (⟨S50000, .i1⟩ : BufTy).Contents (Elt F)),
    StableHlo.nullary main_c_222 (constantI S_ 32 50000#32),
    StableHlo.unary main_c_222 main_v1306 (broadcastInDim S50000 ![] bcast_S_S50000 : (⟨S_, .i32⟩ : BufTy).Contents (Elt F) → (⟨S50000, .i32⟩ : BufTy).Contents (Elt F)),
    StableHlo.binary main_v1290 main_v1306 main_v1307 (addi : (⟨S50000, .i32⟩ : BufTy).Contents (Elt F) → (⟨S50000, .i32⟩ : BufTy).Contents (Elt F) → (⟨S50000, .i32⟩ : BufTy).Contents (Elt F)),
    StableHlo.ternary main_v1305 main_v1307 main_v1290 main_v1308 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1308 main_v1309 (broadcastInDim S50000x1 ![0] bcast_S50000_S50000x1_0 : (⟨S50000, .i32⟩ : BufTy).Contents (Elt F) → (⟨S50000x1, .i32⟩ : BufTy).Contents (Elt F)),
    StableHlo.ternary main_v1288 main_v1309 main_v1303 main_v1310 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1311 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v1311 main_v1312 rfl shapeCasts_S1x50000_S50000,
    StableHlo.unary main_arg26 main_v1313 ((extractStridedSlice S1x50000 ![2, 0] · slices_S12x50000_S1x50000_2_0) : (⟨S12x50000, .i32⟩ : BufTy).Contents (Elt F) → (⟨S1x50000, .i32⟩ : BufTy).Contents (Elt F)),
    StableHlo.reshape main_v1313 main_v1314 rfl shapeCasts_S1x50000_S50000,
    StableHlo.nullary main_c_223 (constantI S_ 32 0#32),
    StableHlo.unary main_c_223 main_v1315 (broadcastInDim S50000 ![] bcast_S_S50000 : (⟨S_, .i32⟩ : BufTy).Contents (Elt F) → (⟨S50000, .i32⟩ : BufTy).Contents (Elt F)),
    StableHlo.binary main_v1314 main_v1315 main_v1316 (cmpi .slt : (⟨S50000, .i32⟩ : BufTy).Contents (Elt F) → (⟨S50000, .i32⟩ : BufTy).Contents (Elt F) → (⟨S50000, .i1⟩ : BufTy).Contents (Elt F)),
    StableHlo.nullary main_c_224 (constantI S_ 32 50000#32),
    StableHlo.unary main_c_224 main_v1317 (broadcastInDim S50000 ![] bcast_S_S50000 : (⟨S_, .i32⟩ : BufTy).Contents (Elt F) → (⟨S50000, .i32⟩ : BufTy).Contents (Elt F)),
    StableHlo.binary main_v1314 main_v1317 main_v1318 (addi : (⟨S50000, .i32⟩ : BufTy).Contents (Elt F) → (⟨S50000, .i32⟩ : BufTy).Contents (Elt F) → (⟨S50000, .i32⟩ : BufTy).Contents (Elt F)),
    StableHlo.ternary main_v1316 main_v1318 main_v1314 main_v1319 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1319 main_v1320 (broadcastInDim S50000x1 ![0] bcast_S50000_S50000x1_0 : (⟨S50000, .i32⟩ : BufTy).Contents (Elt F) → (⟨S50000x1, .i32⟩ : BufTy).Contents (Elt F)),
    StableHlo.binary main_v1262 main_v1320 main_v1321 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1322 ((extractStridedSlice S1x1x128x128 ![3, 2, 0, 0] · slices_S4x12x128x128_S1x1x128x128_3_2_0_0) : (⟨S4x12x128x128, .f32⟩ : BufTy).Contents (Elt F) → (⟨S1x1x128x128, .f32⟩ : BufTy).Contents (Elt F)),
    StableHlo.reshape main_v1322 main_v1323 rfl shapeCasts_S1x1x128x128_S128x128,
    StableHlo.unary main_v1323 main_v1324 ((transpose S128x128 [1, 0] · transposes_S128x128_S128x128_1_0) : (⟨S128x128, .f32⟩ : BufTy).Contents (Elt F) → (⟨S128x128, .f32⟩ : BufTy).Contents (Elt F)),
    StableHlo.binary main_v1321 main_v1324 main_v1325 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_225 (constantI S_ 32 0#32),
    StableHlo.unary main_c_225 main_v1326 (broadcastInDim S50000 ![] bcast_S_S50000 : (⟨S_, .i32⟩ : BufTy).Contents (Elt F) → (⟨S50000, .i32⟩ : BufTy).Contents (Elt F)),
    StableHlo.binary main_v1312 main_v1326 main_v1327 (cmpi .slt : (⟨S50000, .i32⟩ : BufTy).Contents (Elt F) → (⟨S50000, .i32⟩ : BufTy).Contents (Elt F) → (⟨S50000, .i1⟩ : BufTy).Contents (Elt F)),
    StableHlo.nullary main_c_226 (constantI S_ 32 50000#32),
    StableHlo.unary main_c_226 main_v1328 (broadcastInDim S50000 ![] bcast_S_S50000 : (⟨S_, .i32⟩ : BufTy).Contents (Elt F) → (⟨S50000, .i32⟩ : BufTy).Contents (Elt F)),
    StableHlo.binary main_v1312 main_v1328 main_v1329 (addi : (⟨S50000, .i32⟩ : BufTy).Contents (Elt F) → (⟨S50000, .i32⟩ : BufTy).Contents (Elt F) → (⟨S50000, .i32⟩ : BufTy).Contents (Elt F)),
    StableHlo.ternary main_v1327 main_v1329 main_v1312 main_v1330 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ]

/-- The buffers they write, in order. -/
abbrev chunk25_W : List (Ref sig .tc) :=
  [main_v1281, main_c_217, main_v1282, main_v1283, main_c_218, main_v1284, main_v1285, main_v1286, main_v1287, main_v1288, main_v1289, main_v1290, main_v1291, main_v1292, main_c_219, main_v1293, main_v1294, main_c_220, main_v1295, main_v1296, main_v1297, main_v1298, main_v1299, main_v1300, main_v1301, main_v1302, main_v1303, main_c_221, main_v1304, main_v1305, main_c_222, main_v1306, main_v1307, main_v1308, main_v1309, main_v1310, main_v1311, main_v1312, main_v1313, main_v1314, main_c_223, main_v1315, main_v1316, main_c_224, main_v1317, main_v1318, main_v1319, main_v1320, main_v1321, main_v1322, main_v1323, main_v1324, main_v1325, main_c_225, main_v1326, main_v1327, main_c_226, main_v1328, main_v1329, main_v1330]

end Cert.ReferenceIdeal.RefRun

end
-- ==== Proof.RRunChk25.lean ====
/- TABLES over the operations of window `main_part25` (module RRunOps25): one term per operation for each side condition of
   the run, around the one proof text every window shares. -/
import proofs.«413166_j32323923870246_3_alg».proof.Proof.RRunOps25
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part25_eq (c : Dev nD) : main_part25 (F := F) c = seq chunk25 := by
  simp only [main_part25, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk25_sub : (chunk25 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 16384 in
/-- Every operation determines its result. -/
theorem chunk25_fresh : ∀ op ∈ (chunk25 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk25 : List (HloOp τ sig (Elt F))).Forall fun op => op.fresh = ∅)

set_option maxRecDepth 16384 in
/-- Each operation writes one buffer of the list. -/
theorem chunk25_writes : (chunk25 : List (HloOp τ sig (Elt F))).Forall fun op =>
    op.writes ⊆ (chunk25_W.map (Proc.devRef (τ := τ) .tc)).toFinset :=
  ⟨writes_sub_of_mem main_v1281 rfl (by decide),
    writes_sub_of_mem main_c_217 rfl (by decide),
    writes_sub_of_mem main_v1282 rfl (by decide),
    writes_sub_of_mem main_v1283 rfl (by decide),
    writes_sub_of_mem main_c_218 rfl (by decide),
    writes_sub_of_mem main_v1284 rfl (by decide),
    writes_sub_of_mem main_v1285 rfl (by decide),
    writes_sub_of_mem main_v1286 rfl (by decide),
    writes_sub_of_mem main_v1287 rfl (by decide),
    writes_sub_of_mem main_v1288 rfl (by decide),
    writes_sub_of_mem main_v1289 rfl (by decide),
    writes_sub_of_mem main_v1290 rfl (by decide),
    writes_sub_of_mem main_v1291 rfl (by decide),
    writes_sub_of_mem main_v1292 rfl (by decide),
    writes_sub_of_mem main_c_219 rfl (by decide),
    writes_sub_of_mem main_v1293 rfl (by decide),
    writes_sub_of_mem main_v1294 rfl (by decide),
    writes_sub_of_mem main_c_220 rfl (by decide),
    writes_sub_of_mem main_v1295 rfl (by decide),
    writes_sub_of_mem main_v1296 rfl (by decide),
    writes_sub_of_mem main_v1297 rfl (by decide),
    writes_sub_of_mem main_v1298 rfl (by decide),
    writes_sub_of_mem main_v1299 rfl (by decide),
    writes_sub_of_mem main_v1300 rfl (by decide),
    writes_sub_of_mem main_v1301 rfl (by decide),
    writes_sub_of_mem main_v1302 rfl (by decide),
    writes_sub_of_mem main_v1303 rfl (by decide),
    writes_sub_of_mem main_c_221 rfl (by decide),
    writes_sub_of_mem main_v1304 rfl (by decide),
    writes_sub_of_mem main_v1305 rfl (by decide),
    writes_sub_of_mem main_c_222 rfl (by decide),
    writes_sub_of_mem main_v1306 rfl (by decide),
    writes_sub_of_mem main_v1307 rfl (by decide),
    writes_sub_of_mem main_v1308 rfl (by decide),
    writes_sub_of_mem main_v1309 rfl (by decide),
    writes_sub_of_mem main_v1310 rfl (by decide),
    writes_sub_of_mem main_v1311 rfl (by decide),
    writes_sub_of_mem main_v1312 rfl (by decide),
    writes_sub_of_mem main_v1313 rfl (by decide),
    writes_sub_of_mem main_v1314 rfl (by decide),
    writes_sub_of_mem main_c_223 rfl (by decide),
    writes_sub_of_mem main_v1315 rfl (by decide),
    writes_sub_of_mem main_v1316 rfl (by decide),
    writes_sub_of_mem main_c_224 rfl (by decide),
    writes_sub_of_mem main_v1317 rfl (by decide),
    writes_sub_of_mem main_v1318 rfl (by decide),
    writes_sub_of_mem main_v1319 rfl (by decide),
    writes_sub_of_mem main_v1320 rfl (by decide),
    writes_sub_of_mem main_v1321 rfl (by decide),
    writes_sub_of_mem main_v1322 rfl (by decide),
    writes_sub_of_mem main_v1323 rfl (by decide),
    writes_sub_of_mem main_v1324 rfl (by decide),
    writes_sub_of_mem main_v1325 rfl (by decide),
    writes_sub_of_mem main_c_225 rfl (by decide),
    writes_sub_of_mem main_v1326 rfl (by decide),
    writes_sub_of_mem main_v1327 rfl (by decide),
    writes_sub_of_mem main_c_226 rfl (by decide),
    writes_sub_of_mem main_v1328 rfl (by decide),
    writes_sub_of_mem main_v1329 rfl (by decide),
    writes_sub_of_mem main_v1330 rfl (by decide)⟩

/-- A buffer the window does not write keeps its contents through it. -/
theorem chunk25_keep (V : Valuation τ sig (Elt F)) (r : Ref sig .tc) (h : r ∉ chunk25_W) :
    after chunk25 V (Proc.devRef .tc r) = V (Proc.devRef .tc r) :=
  after_of_writes_sub chunk25 V chunk25_writes h

end Cert.ReferenceIdeal.RefRun

end
-- ==== Proof.RRunOps26.lean ====
/- TABLES transcribed from proof/ReferenceIdeal.lean: window `main_part26` of the reference's @main as a list of host
   operations (60: 1803 … 1862 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part26`, in order, the calls unfolded. -/
abbrev chunk26 : List (HloOp τ sig (Elt F)) :=
  [ StableHlo.unary main_v1330 main_v1331 (broadcastInDim S50000x1 ![0] bcast_S50000_S50000x1_0 : (⟨S50000, .i32⟩ : BufTy).Contents (Elt F) → (⟨S50000x1, .i32⟩ : BufTy).Contents (Elt F)),
    StableHlo.ternary main_v1310 main_v1331 main_v1325 main_v1332 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1333 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v1333 main_v1334 rfl shapeCasts_S1x50000_S50000,
    StableHlo.unary main_arg26 main_v1335 ((extractStridedSlice S1x50000 ![3, 0] · slices_S12x50000_S1x50000_3_0) : (⟨S12x50000, .i32⟩ : BufTy).Contents (Elt F) → (⟨S1x50000, .i32⟩ : BufTy).Contents (Elt F)),
    StableHlo.reshape main_v1335 main_v1336 rfl shapeCasts_S1x50000_S50000,
    StableHlo.nullary main_c_227 (constantI S_ 32 0#32),
    StableHlo.unary main_c_227 main_v1337 (broadcastInDim S50000 ![] bcast_S_S50000 : (⟨S_, .i32⟩ : BufTy).Contents (Elt F) → (⟨S50000, .i32⟩ : BufTy).Contents (Elt F)),
    StableHlo.binary main_v1336 main_v1337 main_v1338 (cmpi .slt : (⟨S50000, .i32⟩ : BufTy).Contents (Elt F) → (⟨S50000, .i32⟩ : BufTy).Contents (Elt F) → (⟨S50000, .i1⟩ : BufTy).Contents (Elt F)),
    StableHlo.nullary main_c_228 (constantI S_ 32 50000#32),
    StableHlo.unary main_c_228 main_v1339 (broadcastInDim S50000 ![] bcast_S_S50000 : (⟨S_, .i32⟩ : BufTy).Contents (Elt F) → (⟨S50000, .i32⟩ : BufTy).Contents (Elt F)),
    StableHlo.binary main_v1336 main_v1339 main_v1340 (addi : (⟨S50000, .i32⟩ : BufTy).Contents (Elt F) → (⟨S50000, .i32⟩ : BufTy).Contents (Elt F) → (⟨S50000, .i32⟩ : BufTy).Contents (Elt F)),
    StableHlo.ternary main_v1338 main_v1340 main_v1336 main_v1341 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1341 main_v1342 (broadcastInDim S50000x1 ![0] bcast_S50000_S50000x1_0 : (⟨S50000, .i32⟩ : BufTy).Contents (Elt F) → (⟨S50000x1, .i32⟩ : BufTy).Contents (Elt F)),
    StableHlo.binary main_v1262 main_v1342 main_v1343 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1344 ((extractStridedSlice S1x1x128x128 ![3, 3, 0, 0] · slices_S4x12x128x128_S1x1x128x128_3_3_0_0) : (⟨S4x12x128x128, .f32⟩ : BufTy).Contents (Elt F) → (⟨S1x1x128x128, .f32⟩ : BufTy).Contents (Elt F)),
    StableHlo.reshape main_v1344 main_v1345 rfl shapeCasts_S1x1x128x128_S128x128,
    StableHlo.unary main_v1345 main_v1346 ((transpose S128x128 [1, 0] · transposes_S128x128_S128x128_1_0) : (⟨S128x128, .f32⟩ : BufTy).Contents (Elt F) → (⟨S128x128, .f32⟩ : BufTy).Contents (Elt F)),
    StableHlo.binary main_v1343 main_v1346 main_v1347 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_229 (constantI S_ 32 0#32),
    StableHlo.unary main_c_229 main_v1348 (broadcastInDim S50000 ![] bcast_S_S50000 : (⟨S_, .i32⟩ : BufTy).Contents (Elt F) → (⟨S50000, .i32⟩ : BufTy).Contents (Elt F)),
    StableHlo.binary main_v1334 main_v1348 main_v1349 (cmpi .slt : (⟨S50000, .i32⟩ : BufTy).Contents (Elt F) → (⟨S50000, .i32⟩ : BufTy).Contents (Elt F) → (⟨S50000, .i1⟩ : BufTy).Contents (Elt F)),
    StableHlo.nullary main_c_230 (constantI S_ 32 50000#32),
    StableHlo.unary main_c_230 main_v1350 (broadcastInDim S50000 ![] bcast_S_S50000 : (⟨S_, .i32⟩ : BufTy).Contents (Elt F) → (⟨S50000, .i32⟩ : BufTy).Contents (Elt F)),
    StableHlo.binary main_v1334 main_v1350 main_v1351 (addi : (⟨S50000, .i32⟩ : BufTy).Contents (Elt F) → (⟨S50000, .i32⟩ : BufTy).Contents (Elt F) → (⟨S50000, .i32⟩ : BufTy).Contents (Elt F)),
    StableHlo.ternary main_v1349 main_v1351 main_v1334 main_v1352 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1352 main_v1353 (broadcastInDim S50000x1 ![0] bcast_S50000_S50000x1_0 : (⟨S50000, .i32⟩ : BufTy).Contents (Elt F) → (⟨S50000x1, .i32⟩ : BufTy).Contents (Elt F)),
    StableHlo.ternary main_v1332 main_v1353 main_v1347 main_v1354 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1355 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v1355 main_v1356 rfl shapeCasts_S1x50000_S50000,
    StableHlo.unary main_arg26 main_v1357 ((extractStridedSlice S1x50000 ![4, 0] · slices_S12x50000_S1x50000_4_0) : (⟨S12x50000, .i32⟩ : BufTy).Contents (Elt F) → (⟨S1x50000, .i32⟩ : BufTy).Contents (Elt F)),
    StableHlo.reshape main_v1357 main_v1358 rfl shapeCasts_S1x50000_S50000,
    StableHlo.nullary main_c_231 (constantI S_ 32 0#32),
    StableHlo.unary main_c_231 main_v1359 (broadcastInDim S50000 ![] bcast_S_S50000 : (⟨S_, .i32⟩ : BufTy).Contents (Elt F) → (⟨S50000, .i32⟩ : BufTy).Contents (Elt F)),
    StableHlo.binary main_v1358 main_v1359 main_v1360 (cmpi .slt : (⟨S50000, .i32⟩ : BufTy).Contents (Elt F) → (⟨S50000, .i32⟩ : BufTy).Contents (Elt F) → (⟨S50000, .i1⟩ : BufTy).Contents (Elt F)),
    StableHlo.nullary main_c_232 (constantI S_ 32 50000#32),
    StableHlo.unary main_c_232 main_v1361 (broadcastInDim S50000 ![] bcast_S_S50000 : (⟨S_, .i32⟩ : BufTy).Contents (Elt F) → (⟨S50000, .i32⟩ : BufTy).Contents (Elt F)),
    StableHlo.binary main_v1358 main_v1361 main_v1362 (addi : (⟨S50000, .i32⟩ : BufTy).Contents (Elt F) → (⟨S50000, .i32⟩ : BufTy).Contents (Elt F) → (⟨S50000, .i32⟩ : BufTy).Contents (Elt F)),
    StableHlo.ternary main_v1360 main_v1362 main_v1358 main_v1363 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1363 main_v1364 (broadcastInDim S50000x1 ![0] bcast_S50000_S50000x1_0 : (⟨S50000, .i32⟩ : BufTy).Contents (Elt F) → (⟨S50000x1, .i32⟩ : BufTy).Contents (Elt F)),
    StableHlo.binary main_v1262 main_v1364 main_v1365 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1366 ((extractStridedSlice S1x1x128x128 ![3, 4, 0, 0] · slices_S4x12x128x128_S1x1x128x128_3_4_0_0) : (⟨S4x12x128x128, .f32⟩ : BufTy).Contents (Elt F) → (⟨S1x1x128x128, .f32⟩ : BufTy).Contents (Elt F)),
    StableHlo.reshape main_v1366 main_v1367 rfl shapeCasts_S1x1x128x128_S128x128,
    StableHlo.unary main_v1367 main_v1368 ((transpose S128x128 [1, 0] · transposes_S128x128_S128x128_1_0) : (⟨S128x128, .f32⟩ : BufTy).Contents (Elt F) → (⟨S128x128, .f32⟩ : BufTy).Contents (Elt F)),
    StableHlo.binary main_v1365 main_v1368 main_v1369 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_233 (constantI S_ 32 0#32),
    StableHlo.unary main_c_233 main_v1370 (broadcastInDim S50000 ![] bcast_S_S50000 : (⟨S_, .i32⟩ : BufTy).Contents (Elt F) → (⟨S50000, .i32⟩ : BufTy).Contents (Elt F)),
    StableHlo.binary main_v1356 main_v1370 main_v1371 (cmpi .slt : (⟨S50000, .i32⟩ : BufTy).Contents (Elt F) → (⟨S50000, .i32⟩ : BufTy).Contents (Elt F) → (⟨S50000, .i1⟩ : BufTy).Contents (Elt F)),
    StableHlo.nullary main_c_234 (constantI S_ 32 50000#32),
    StableHlo.unary main_c_234 main_v1372 (broadcastInDim S50000 ![] bcast_S_S50000 : (⟨S_, .i32⟩ : BufTy).Contents (Elt F) → (⟨S50000, .i32⟩ : BufTy).Contents (Elt F)),
    StableHlo.binary main_v1356 main_v1372 main_v1373 (addi : (⟨S50000, .i32⟩ : BufTy).Contents (Elt F) → (⟨S50000, .i32⟩ : BufTy).Contents (Elt F) → (⟨S50000, .i32⟩ : BufTy).Contents (Elt F)),
    StableHlo.ternary main_v1371 main_v1373 main_v1356 main_v1374 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1374 main_v1375 (broadcastInDim S50000x1 ![0] bcast_S50000_S50000x1_0 : (⟨S50000, .i32⟩ : BufTy).Contents (Elt F) → (⟨S50000x1, .i32⟩ : BufTy).Contents (Elt F)),
    StableHlo.ternary main_v1354 main_v1375 main_v1369 main_v1376 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1377 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v1377 main_v1378 rfl shapeCasts_S1x50000_S50000,
    StableHlo.unary main_arg26 main_v1379 ((extractStridedSlice S1x50000 ![5, 0] · slices_S12x50000_S1x50000_5_0) : (⟨S12x50000, .i32⟩ : BufTy).Contents (Elt F) → (⟨S1x50000, .i32⟩ : BufTy).Contents (Elt F)),
    StableHlo.reshape main_v1379 main_v1380 rfl shapeCasts_S1x50000_S50000,
    StableHlo.nullary main_c_235 (constantI S_ 32 0#32),
    StableHlo.unary main_c_235 main_v1381 (broadcastInDim S50000 ![] bcast_S_S50000 : (⟨S_, .i32⟩ : BufTy).Contents (Elt F) → (⟨S50000, .i32⟩ : BufTy).Contents (Elt F)) ]

/-- The buffers they write, in order. -/
abbrev chunk26_W : List (Ref sig .tc) :=
  [main_v1331, main_v1332, main_v1333, main_v1334, main_v1335, main_v1336, main_c_227, main_v1337, main_v1338, main_c_228, main_v1339, main_v1340, main_v1341, main_v1342, main_v1343, main_v1344, main_v1345, main_v1346, main_v1347, main_c_229, main_v1348, main_v1349, main_c_230, main_v1350, main_v1351, main_v1352, main_v1353, main_v1354, main_v1355, main_v1356, main_v1357, main_v1358, main_c_231, main_v1359, main_v1360, main_c_232, main_v1361, main_v1362, main_v1363, main_v1364, main_v1365, main_v1366, main_v1367, main_v1368, main_v1369, main_c_233, main_v1370, main_v1371, main_c_234, main_v1372, main_v1373, main_v1374, main_v1375, main_v1376, main_v1377, main_v1378, main_v1379, main_v1380, main_c_235, main_v1381]

end Cert.ReferenceIdeal.RefRun

end
-- ==== Proof.RRunChk26.lean ====
/- TABLES over the operations of window `main_part26` (module RRunOps26): one term per operation for each side condition of
   the run, around the one proof text every window shares. -/
import proofs.«413166_j32323923870246_3_alg».proof.Proof.RRunOps26
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part26_eq (c : Dev nD) : main_part26 (F := F) c = seq chunk26 := by
  simp only [main_part26, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk26_sub : (chunk26 : List (HloOp τ sig (Elt F))).Forall fun op => op.bufs ⊆ tcRefs τ sig :=
  ⟨unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub ..⟩

set_option maxRecDepth 16384 in
/-- Every operation determines its result. -/
theorem chunk26_fresh : ∀ op ∈ (chunk26 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk26 : List (HloOp τ sig (Elt F))).Forall fun op => op.fresh = ∅)

set_option maxRecDepth 16384 in
/-- Each operation writes one buffer of the list. -/
theorem chunk26_writes : (chunk26 : List (HloOp τ sig (Elt F))).Forall fun op =>
    op.writes ⊆ (chunk26_W.map (Proc.devRef (τ := τ) .tc)).toFinset :=
  ⟨writes_sub_of_mem main_v1331 rfl (by decide),
    writes_sub_of_mem main_v1332 rfl (by decide),
    writes_sub_of_mem main_v1333 rfl (by decide),
    writes_sub_of_mem main_v1334 rfl (by decide),
    writes_sub_of_mem main_v1335 rfl (by decide),
    writes_sub_of_mem main_v1336 rfl (by decide),
    writes_sub_of_mem main_c_227 rfl (by decide),
    writes_sub_of_mem main_v1337 rfl (by decide),
    writes_sub_of_mem main_v1338 rfl (by decide),
    writes_sub_of_mem main_c_228 rfl (by decide),
    writes_sub_of_mem main_v1339 rfl (by decide),
    writes_sub_of_mem main_v1340 rfl (by decide),
    writes_sub_of_mem main_v1341 rfl (by decide),
    writes_sub_of_mem main_v1342 rfl (by decide),
    writes_sub_of_mem main_v1343 rfl (by decide),
    writes_sub_of_mem main_v1344 rfl (by decide),
    writes_sub_of_mem main_v1345 rfl (by decide),
    writes_sub_of_mem main_v1346 rfl (by decide),
    writes_sub_of_mem main_v1347 rfl (by decide),
    writes_sub_of_mem main_c_229 rfl (by decide),
    writes_sub_of_mem main_v1348 rfl (by decide),
    writes_sub_of_mem main_v1349 rfl (by decide),
    writes_sub_of_mem main_c_230 rfl (by decide),
    writes_sub_of_mem main_v1350 rfl (by decide),
    writes_sub_of_mem main_v1351 rfl (by decide),
    writes_sub_of_mem main_v1352 rfl (by decide),
    writes_sub_of_mem main_v1353 rfl (by decide),
    writes_sub_of_mem main_v1354 rfl (by decide),
    writes_sub_of_mem main_v1355 rfl (by decide),
    writes_sub_of_mem main_v1356 rfl (by decide),
    writes_sub_of_mem main_v1357 rfl (by decide),
    writes_sub_of_mem main_v1358 rfl (by decide),
    writes_sub_of_mem main_c_231 rfl (by decide),
    writes_sub_of_mem main_v1359 rfl (by decide),
    writes_sub_of_mem main_v1360 rfl (by decide),
    writes_sub_of_mem main_c_232 rfl (by decide),
    writes_sub_of_mem main_v1361 rfl (by decide),
    writes_sub_of_mem main_v1362 rfl (by decide),
    writes_sub_of_mem main_v1363 rfl (by decide),
    writes_sub_of_mem main_v1364 rfl (by decide),
    writes_sub_of_mem main_v1365 rfl (by decide),
    writes_sub_of_mem main_v1366 rfl (by decide),
    writes_sub_of_mem main_v1367 rfl (by decide),
    writes_sub_of_mem main_v1368 rfl (by decide),
    writes_sub_of_mem main_v1369 rfl (by decide),
    writes_sub_of_mem main_c_233 rfl (by decide),
    writes_sub_of_mem main_v1370 rfl (by decide),
    writes_sub_of_mem main_v1371 rfl (by decide),
    writes_sub_of_mem main_c_234 rfl (by decide),
    writes_sub_of_mem main_v1372 rfl (by decide),
    writes_sub_of_mem main_v1373 rfl (by decide),
    writes_sub_of_mem main_v1374 rfl (by decide),
    writes_sub_of_mem main_v1375 rfl (by decide),
    writes_sub_of_mem main_v1376 rfl (by decide),
    writes_sub_of_mem main_v1377 rfl (by decide),
    writes_sub_of_mem main_v1378 rfl (by decide),
    writes_sub_of_mem main_v1379 rfl (by decide),
    writes_sub_of_mem main_v1380 rfl (by decide),
    writes_sub_of_mem main_c_235 rfl (by decide),
    writes_sub_of_mem main_v1381 rfl (by decide)⟩

/-- A buffer the window does not write keeps its contents through it. -/
theorem chunk26_keep (V : Valuation τ sig (Elt F)) (r : Ref sig .tc) (h : r ∉ chunk26_W) :
    after chunk26 V (Proc.devRef .tc r) = V (Proc.devRef .tc r) :=
  after_of_writes_sub chunk26 V chunk26_writes h

end Cert.ReferenceIdeal.RefRun

end
-- ==== Proof.RRunOps27.lean ====
/- TABLES transcribed from proof/ReferenceIdeal.lean: window `main_part27` of the reference's @main as a list of host
   operations (60: 1863 … 1922 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part27`, in order, the calls unfolded. -/
abbrev chunk27 : List (HloOp τ sig (Elt F)) :=
  [ StableHlo.binary main_v1380 main_v1381 main_v1382 (cmpi .slt : (⟨S50000, .i32⟩ : BufTy).Contents (Elt F) → (⟨S50000, .i32⟩ : BufTy).Contents (Elt F) → (⟨S50000, .i1⟩ : BufTy).Contents (Elt F)),
    StableHlo.nullary main_c_236 (constantI S_ 32 50000#32),
    StableHlo.unary main_c_236 main_v1383 (broadcastInDim S50000 ![] bcast_S_S50000 : (⟨S_, .i32⟩ : BufTy).Contents (Elt F) → (⟨S50000, .i32⟩ : BufTy).Contents (Elt F)),
    StableHlo.binary main_v1380 main_v1383 main_v1384 (addi : (⟨S50000, .i32⟩ : BufTy).Contents (Elt F) → (⟨S50000, .i32⟩ : BufTy).Contents (Elt F) → (⟨S50000, .i32⟩ : BufTy).Contents (Elt F)),
    StableHlo.ternary main_v1382 main_v1384 main_v1380 main_v1385 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1385 main_v1386 (broadcastInDim S50000x1 ![0] bcast_S50000_S50000x1_0 : (⟨S50000, .i32⟩ : BufTy).Contents (Elt F) → (⟨S50000x1, .i32⟩ : BufTy).Contents (Elt F)),
    StableHlo.binary main_v1262 main_v1386 main_v1387 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1388 ((extractStridedSlice S1x1x128x128 ![3, 5, 0, 0] · slices_S4x12x128x128_S1x1x128x128_3_5_0_0) : (⟨S4x12x128x128, .f32⟩ : BufTy).Contents (Elt F) → (⟨S1x1x128x128, .f32⟩ : BufTy).Contents (Elt F)),
    StableHlo.reshape main_v1388 main_v1389 rfl shapeCasts_S1x1x128x128_S128x128,
    StableHlo.unary main_v1389 main_v1390 ((transpose S128x128 [1, 0] · transposes_S128x128_S128x128_1_0) : (⟨S128x128, .f32⟩ : BufTy).Contents (Elt F) → (⟨S128x128, .f32⟩ : BufTy).Contents (Elt F)),
    StableHlo.binary main_v1387 main_v1390 main_v1391 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_237 (constantI S_ 32 0#32),
    StableHlo.unary main_c_237 main_v1392 (broadcastInDim S50000 ![] bcast_S_S50000 : (⟨S_, .i32⟩ : BufTy).Contents (Elt F) → (⟨S50000, .i32⟩ : BufTy).Contents (Elt F)),
    StableHlo.binary main_v1378 main_v1392 main_v1393 (cmpi .slt : (⟨S50000, .i32⟩ : BufTy).Contents (Elt F) → (⟨S50000, .i32⟩ : BufTy).Contents (Elt F) → (⟨S50000, .i1⟩ : BufTy).Contents (Elt F)),
    StableHlo.nullary main_c_238 (constantI S_ 32 50000#32),
    StableHlo.unary main_c_238 main_v1394 (broadcastInDim S50000 ![] bcast_S_S50000 : (⟨S_, .i32⟩ : BufTy).Contents (Elt F) → (⟨S50000, .i32⟩ : BufTy).Contents (Elt F)),
    StableHlo.binary main_v1378 main_v1394 main_v1395 (addi : (⟨S50000, .i32⟩ : BufTy).Contents (Elt F) → (⟨S50000, .i32⟩ : BufTy).Contents (Elt F) → (⟨S50000, .i32⟩ : BufTy).Contents (Elt F)),
    StableHlo.ternary main_v1393 main_v1395 main_v1378 main_v1396 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1396 main_v1397 (broadcastInDim S50000x1 ![0] bcast_S50000_S50000x1_0 : (⟨S50000, .i32⟩ : BufTy).Contents (Elt F) → (⟨S50000x1, .i32⟩ : BufTy).Contents (Elt F)),
    StableHlo.ternary main_v1376 main_v1397 main_v1391 main_v1398 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1399 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v1399 main_v1400 rfl shapeCasts_S1x50000_S50000,
    StableHlo.unary main_arg26 main_v1401 ((extractStridedSlice S1x50000 ![6, 0] · slices_S12x50000_S1x50000_6_0) : (⟨S12x50000, .i32⟩ : BufTy).Contents (Elt F) → (⟨S1x50000, .i32⟩ : BufTy).Contents (Elt F)),
    StableHlo.reshape main_v1401 main_v1402 rfl shapeCasts_S1x50000_S50000,
    StableHlo.nullary main_c_239 (constantI S_ 32 0#32),
    StableHlo.unary main_c_239 main_v1403 (broadcastInDim S50000 ![] bcast_S_S50000 : (⟨S_, .i32⟩ : BufTy).Contents (Elt F) → (⟨S50000, .i32⟩ : BufTy).Contents (Elt F)),
    StableHlo.binary main_v1402 main_v1403 main_v1404 (cmpi .slt : (⟨S50000, .i32⟩ : BufTy).Contents (Elt F) → (⟨S50000, .i32⟩ : BufTy).Contents (Elt F) → (⟨S50000, .i1⟩ : BufTy).Contents (Elt F)),
    StableHlo.nullary main_c_240 (constantI S_ 32 50000#32),
    StableHlo.unary main_c_240 main_v1405 (broadcastInDim S50000 ![] bcast_S_S50000 : (⟨S_, .i32⟩ : BufTy).Contents (Elt F) → (⟨S50000, .i32⟩ : BufTy).Contents (Elt F)),
    StableHlo.binary main_v1402 main_v1405 main_v1406 (addi : (⟨S50000, .i32⟩ : BufTy).Contents (Elt F) → (⟨S50000, .i32⟩ : BufTy).Contents (Elt F) → (⟨S50000, .i32⟩ : BufTy).Contents (Elt F)),
    StableHlo.ternary main_v1404 main_v1406 main_v1402 main_v1407 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1407 main_v1408 (broadcastInDim S50000x1 ![0] bcast_S50000_S50000x1_0 : (⟨S50000, .i32⟩ : BufTy).Contents (Elt F) → (⟨S50000x1, .i32⟩ : BufTy).Contents (Elt F)),
    StableHlo.binary main_v1262 main_v1408 main_v1409 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1410 ((extractStridedSlice S1x1x128x128 ![3, 6, 0, 0] · slices_S4x12x128x128_S1x1x128x128_3_6_0_0) : (⟨S4x12x128x128, .f32⟩ : BufTy).Contents (Elt F) → (⟨S1x1x128x128, .f32⟩ : BufTy).Contents (Elt F)),
    StableHlo.reshape main_v1410 main_v1411 rfl shapeCasts_S1x1x128x128_S128x128,
    StableHlo.unary main_v1411 main_v1412 ((transpose S128x128 [1, 0] · transposes_S128x128_S128x128_1_0) : (⟨S128x128, .f32⟩ : BufTy).Contents (Elt F) → (⟨S128x128, .f32⟩ : BufTy).Contents (Elt F)),
    StableHlo.binary main_v1409 main_v1412 main_v1413 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_241 (constantI S_ 32 0#32),
    StableHlo.unary main_c_241 main_v1414 (broadcastInDim S50000 ![] bcast_S_S50000 : (⟨S_, .i32⟩ : BufTy).Contents (Elt F) → (⟨S50000, .i32⟩ : BufTy).Contents (Elt F)),
    StableHlo.binary main_v1400 main_v1414 main_v1415 (cmpi .slt : (⟨S50000, .i32⟩ : BufTy).Contents (Elt F) → (⟨S50000, .i32⟩ : BufTy).Contents (Elt F) → (⟨S50000, .i1⟩ : BufTy).Contents (Elt F)),
    StableHlo.nullary main_c_242 (constantI S_ 32 50000#32),
    StableHlo.unary main_c_242 main_v1416 (broadcastInDim S50000 ![] bcast_S_S50000 : (⟨S_, .i32⟩ : BufTy).Contents (Elt F) → (⟨S50000, .i32⟩ : BufTy).Contents (Elt F)),
    StableHlo.binary main_v1400 main_v1416 main_v1417 (addi : (⟨S50000, .i32⟩ : BufTy).Contents (Elt F) → (⟨S50000, .i32⟩ : BufTy).Contents (Elt F) → (⟨S50000, .i32⟩ : BufTy).Contents (Elt F)),
    StableHlo.ternary main_v1415 main_v1417 main_v1400 main_v1418 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1418 main_v1419 (broadcastInDim S50000x1 ![0] bcast_S50000_S50000x1_0 : (⟨S50000, .i32⟩ : BufTy).Contents (Elt F) → (⟨S50000x1, .i32⟩ : BufTy).Contents (Elt F)),
    StableHlo.ternary main_v1398 main_v1419 main_v1413 main_v1420 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1421 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v1421 main_v1422 rfl shapeCasts_S1x50000_S50000,
    StableHlo.unary main_arg26 main_v1423 ((extractStridedSlice S1x50000 ![7, 0] · slices_S12x50000_S1x50000_7_0) : (⟨S12x50000, .i32⟩ : BufTy).Contents (Elt F) → (⟨S1x50000, .i32⟩ : BufTy).Contents (Elt F)),
    StableHlo.reshape main_v1423 main_v1424 rfl shapeCasts_S1x50000_S50000,
    StableHlo.nullary main_c_243 (constantI S_ 32 0#32),
    StableHlo.unary main_c_243 main_v1425 (broadcastInDim S50000 ![] bcast_S_S50000 : (⟨S_, .i32⟩ : BufTy).Contents (Elt F) → (⟨S50000, .i32⟩ : BufTy).Contents (Elt F)),
    StableHlo.binary main_v1424 main_v1425 main_v1426 (cmpi .slt : (⟨S50000, .i32⟩ : BufTy).Contents (Elt F) → (⟨S50000, .i32⟩ : BufTy).Contents (Elt F) → (⟨S50000, .i1⟩ : BufTy).Contents (Elt F)),
    StableHlo.nullary main_c_244 (constantI S_ 32 50000#32),
    StableHlo.unary main_c_244 main_v1427 (broadcastInDim S50000 ![] bcast_S_S50000 : (⟨S_, .i32⟩ : BufTy).Contents (Elt F) → (⟨S50000, .i32⟩ : BufTy).Contents (Elt F)),
    StableHlo.binary main_v1424 main_v1427 main_v1428 (addi : (⟨S50000, .i32⟩ : BufTy).Contents (Elt F) → (⟨S50000, .i32⟩ : BufTy).Contents (Elt F) → (⟨S50000, .i32⟩ : BufTy).Contents (Elt F)),
    StableHlo.ternary main_v1426 main_v1428 main_v1424 main_v1429 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1429 main_v1430 (broadcastInDim S50000x1 ![0] bcast_S50000_S50000x1_0 : (⟨S50000, .i32⟩ : BufTy).Contents (Elt F) → (⟨S50000x1, .i32⟩ : BufTy).Contents (Elt F)),
    StableHlo.binary main_v1262 main_v1430 main_v1431 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1432 ((extractStridedSlice S1x1x128x128 ![3, 7, 0, 0] · slices_S4x12x128x128_S1x1x128x128_3_7_0_0) : (⟨S4x12x128x128, .f32⟩ : BufTy).Contents (Elt F) → (⟨S1x1x128x128, .f32⟩ : BufTy).Contents (Elt F)) ]

/-- The buffers they write, in order. -/
abbrev chunk27_W : List (Ref sig .tc) :=
  [main_v1382, main_c_236, main_v1383, main_v1384, main_v1385, main_v1386, main_v1387, main_v1388, main_v1389, main_v1390, main_v1391, main_c_237, main_v1392, main_v1393, main_c_238, main_v1394, main_v1395, main_v1396, main_v1397, main_v1398, main_v1399, main_v1400, main_v1401, main_v1402, main_c_239, main_v1403, main_v1404, main_c_240, main_v1405, main_v1406, main_v1407, main_v1408, main_v1409, main_v1410, main_v1411, main_v1412, main_v1413, main_c_241, main_v1414, main_v1415, main_c_242, main_v1416, main_v1417, main_v1418, main_v1419, main_v1420, main_v1421, main_v1422, main_v1423, main_v1424, main_c_243, main_v1425, main_v1426, main_c_244, main_v1427, main_v1428, main_v1429, main_v1430, main_v1431, main_v1432]

end Cert.ReferenceIdeal.RefRun

end
-- ==== Proof.RRunChk27.lean ====
/- TABLES over the operations of window `main_part27` (module RRunOps27): one term per operation for each side condition of
   the run, around the one proof text every window shares. -/
import proofs.«413166_j32323923870246_3_alg».proof.Proof.RRunOps27
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part27_eq (c : Dev nD) : main_part27 (F := F) c = seq chunk27 := by
  simp only [main_part27, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk27_sub : (chunk27 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 16384 in
/-- Every operation determines its result. -/
theorem chunk27_fresh : ∀ op ∈ (chunk27 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk27 : List (HloOp τ sig (Elt F))).Forall fun op => op.fresh = ∅)

set_option maxRecDepth 16384 in
/-- Each operation writes one buffer of the list. -/
theorem chunk27_writes : (chunk27 : List (HloOp τ sig (Elt F))).Forall fun op =>
    op.writes ⊆ (chunk27_W.map (Proc.devRef (τ := τ) .tc)).toFinset :=
  ⟨writes_sub_of_mem main_v1382 rfl (by decide),
    writes_sub_of_mem main_c_236 rfl (by decide),
    writes_sub_of_mem main_v1383 rfl (by decide),
    writes_sub_of_mem main_v1384 rfl (by decide),
    writes_sub_of_mem main_v1385 rfl (by decide),
    writes_sub_of_mem main_v1386 rfl (by decide),
    writes_sub_of_mem main_v1387 rfl (by decide),
    writes_sub_of_mem main_v1388 rfl (by decide),
    writes_sub_of_mem main_v1389 rfl (by decide),
    writes_sub_of_mem main_v1390 rfl (by decide),
    writes_sub_of_mem main_v1391 rfl (by decide),
    writes_sub_of_mem main_c_237 rfl (by decide),
    writes_sub_of_mem main_v1392 rfl (by decide),
    writes_sub_of_mem main_v1393 rfl (by decide),
    writes_sub_of_mem main_c_238 rfl (by decide),
    writes_sub_of_mem main_v1394 rfl (by decide),
    writes_sub_of_mem main_v1395 rfl (by decide),
    writes_sub_of_mem main_v1396 rfl (by decide),
    writes_sub_of_mem main_v1397 rfl (by decide),
    writes_sub_of_mem main_v1398 rfl (by decide),
    writes_sub_of_mem main_v1399 rfl (by decide),
    writes_sub_of_mem main_v1400 rfl (by decide),
    writes_sub_of_mem main_v1401 rfl (by decide),
    writes_sub_of_mem main_v1402 rfl (by decide),
    writes_sub_of_mem main_c_239 rfl (by decide),
    writes_sub_of_mem main_v1403 rfl (by decide),
    writes_sub_of_mem main_v1404 rfl (by decide),
    writes_sub_of_mem main_c_240 rfl (by decide),
    writes_sub_of_mem main_v1405 rfl (by decide),
    writes_sub_of_mem main_v1406 rfl (by decide),
    writes_sub_of_mem main_v1407 rfl (by decide),
    writes_sub_of_mem main_v1408 rfl (by decide),
    writes_sub_of_mem main_v1409 rfl (by decide),
    writes_sub_of_mem main_v1410 rfl (by decide),
    writes_sub_of_mem main_v1411 rfl (by decide),
    writes_sub_of_mem main_v1412 rfl (by decide),
    writes_sub_of_mem main_v1413 rfl (by decide),
    writes_sub_of_mem main_c_241 rfl (by decide),
    writes_sub_of_mem main_v1414 rfl (by decide),
    writes_sub_of_mem main_v1415 rfl (by decide),
    writes_sub_of_mem main_c_242 rfl (by decide),
    writes_sub_of_mem main_v1416 rfl (by decide),
    writes_sub_of_mem main_v1417 rfl (by decide),
    writes_sub_of_mem main_v1418 rfl (by decide),
    writes_sub_of_mem main_v1419 rfl (by decide),
    writes_sub_of_mem main_v1420 rfl (by decide),
    writes_sub_of_mem main_v1421 rfl (by decide),
    writes_sub_of_mem main_v1422 rfl (by decide),
    writes_sub_of_mem main_v1423 rfl (by decide),
    writes_sub_of_mem main_v1424 rfl (by decide),
    writes_sub_of_mem main_c_243 rfl (by decide),
    writes_sub_of_mem main_v1425 rfl (by decide),
    writes_sub_of_mem main_v1426 rfl (by decide),
    writes_sub_of_mem main_c_244 rfl (by decide),
    writes_sub_of_mem main_v1427 rfl (by decide),
    writes_sub_of_mem main_v1428 rfl (by decide),
    writes_sub_of_mem main_v1429 rfl (by decide),
    writes_sub_of_mem main_v1430 rfl (by decide),
    writes_sub_of_mem main_v1431 rfl (by decide),
    writes_sub_of_mem main_v1432 rfl (by decide)⟩

/-- A buffer the window does not write keeps its contents through it. -/
theorem chunk27_keep (V : Valuation τ sig (Elt F)) (r : Ref sig .tc) (h : r ∉ chunk27_W) :
    after chunk27 V (Proc.devRef .tc r) = V (Proc.devRef .tc r) :=
  after_of_writes_sub chunk27 V chunk27_writes h

end Cert.ReferenceIdeal.RefRun

end
-- ==== Proof.RRunOps28.lean ====
/- TABLES transcribed from proof/ReferenceIdeal.lean: window `main_part28` of the reference's @main as a list of host
   operations (60: 1923 … 1982 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part28`, in order, the calls unfolded. -/
abbrev chunk28 : List (HloOp τ sig (Elt F)) :=
  [ StableHlo.reshape main_v1432 main_v1433 rfl shapeCasts_S1x1x128x128_S128x128,
    StableHlo.unary main_v1433 main_v1434 ((transpose S128x128 [1, 0] · transposes_S128x128_S128x128_1_0) : (⟨S128x128, .f32⟩ : BufTy).Contents (Elt F) → (⟨S128x128, .f32⟩ : BufTy).Contents (Elt F)),
    StableHlo.binary main_v1431 main_v1434 main_v1435 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_245 (constantI S_ 32 0#32),
    StableHlo.unary main_c_245 main_v1436 (broadcastInDim S50000 ![] bcast_S_S50000 : (⟨S_, .i32⟩ : BufTy).Contents (Elt F) → (⟨S50000, .i32⟩ : BufTy).Contents (Elt F)),
    StableHlo.binary main_v1422 main_v1436 main_v1437 (cmpi .slt : (⟨S50000, .i32⟩ : BufTy).Contents (Elt F) → (⟨S50000, .i32⟩ : BufTy).Contents (Elt F) → (⟨S50000, .i1⟩ : BufTy).Contents (Elt F)),
    StableHlo.nullary main_c_246 (constantI S_ 32 50000#32),
    StableHlo.unary main_c_246 main_v1438 (broadcastInDim S50000 ![] bcast_S_S50000 : (⟨S_, .i32⟩ : BufTy).Contents (Elt F) → (⟨S50000, .i32⟩ : BufTy).Contents (Elt F)),
    StableHlo.binary main_v1422 main_v1438 main_v1439 (addi : (⟨S50000, .i32⟩ : BufTy).Contents (Elt F) → (⟨S50000, .i32⟩ : BufTy).Contents (Elt F) → (⟨S50000, .i32⟩ : BufTy).Contents (Elt F)),
    StableHlo.ternary main_v1437 main_v1439 main_v1422 main_v1440 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1440 main_v1441 (broadcastInDim S50000x1 ![0] bcast_S50000_S50000x1_0 : (⟨S50000, .i32⟩ : BufTy).Contents (Elt F) → (⟨S50000x1, .i32⟩ : BufTy).Contents (Elt F)),
    StableHlo.ternary main_v1420 main_v1441 main_v1435 main_v1442 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1443 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v1443 main_v1444 rfl shapeCasts_S1x50000_S50000,
    StableHlo.unary main_arg26 main_v1445 ((extractStridedSlice S1x50000 ![8, 0] · slices_S12x50000_S1x50000_8_0) : (⟨S12x50000, .i32⟩ : BufTy).Contents (Elt F) → (⟨S1x50000, .i32⟩ : BufTy).Contents (Elt F)),
    StableHlo.reshape main_v1445 main_v1446 rfl shapeCasts_S1x50000_S50000,
    StableHlo.nullary main_c_247 (constantI S_ 32 0#32),
    StableHlo.unary main_c_247 main_v1447 (broadcastInDim S50000 ![] bcast_S_S50000 : (⟨S_, .i32⟩ : BufTy).Contents (Elt F) → (⟨S50000, .i32⟩ : BufTy).Contents (Elt F)),
    StableHlo.binary main_v1446 main_v1447 main_v1448 (cmpi .slt : (⟨S50000, .i32⟩ : BufTy).Contents (Elt F) → (⟨S50000, .i32⟩ : BufTy).Contents (Elt F) → (⟨S50000, .i1⟩ : BufTy).Contents (Elt F)),
    StableHlo.nullary main_c_248 (constantI S_ 32 50000#32),
    StableHlo.unary main_c_248 main_v1449 (broadcastInDim S50000 ![] bcast_S_S50000 : (⟨S_, .i32⟩ : BufTy).Contents (Elt F) → (⟨S50000, .i32⟩ : BufTy).Contents (Elt F)),
    StableHlo.binary main_v1446 main_v1449 main_v1450 (addi : (⟨S50000, .i32⟩ : BufTy).Contents (Elt F) → (⟨S50000, .i32⟩ : BufTy).Contents (Elt F) → (⟨S50000, .i32⟩ : BufTy).Contents (Elt F)),
    StableHlo.ternary main_v1448 main_v1450 main_v1446 main_v1451 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1451 main_v1452 (broadcastInDim S50000x1 ![0] bcast_S50000_S50000x1_0 : (⟨S50000, .i32⟩ : BufTy).Contents (Elt F) → (⟨S50000x1, .i32⟩ : BufTy).Contents (Elt F)),
    StableHlo.binary main_v1262 main_v1452 main_v1453 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1454 ((extractStridedSlice S1x1x128x128 ![3, 8, 0, 0] · slices_S4x12x128x128_S1x1x128x128_3_8_0_0) : (⟨S4x12x128x128, .f32⟩ : BufTy).Contents (Elt F) → (⟨S1x1x128x128, .f32⟩ : BufTy).Contents (Elt F)),
    StableHlo.reshape main_v1454 main_v1455 rfl shapeCasts_S1x1x128x128_S128x128,
    StableHlo.unary main_v1455 main_v1456 ((transpose S128x128 [1, 0] · transposes_S128x128_S128x128_1_0) : (⟨S128x128, .f32⟩ : BufTy).Contents (Elt F) → (⟨S128x128, .f32⟩ : BufTy).Contents (Elt F)),
    StableHlo.binary main_v1453 main_v1456 main_v1457 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_249 (constantI S_ 32 0#32),
    StableHlo.unary main_c_249 main_v1458 (broadcastInDim S50000 ![] bcast_S_S50000 : (⟨S_, .i32⟩ : BufTy).Contents (Elt F) → (⟨S50000, .i32⟩ : BufTy).Contents (Elt F)),
    StableHlo.binary main_v1444 main_v1458 main_v1459 (cmpi .slt : (⟨S50000, .i32⟩ : BufTy).Contents (Elt F) → (⟨S50000, .i32⟩ : BufTy).Contents (Elt F) → (⟨S50000, .i1⟩ : BufTy).Contents (Elt F)),
    StableHlo.nullary main_c_250 (constantI S_ 32 50000#32),
    StableHlo.unary main_c_250 main_v1460 (broadcastInDim S50000 ![] bcast_S_S50000 : (⟨S_, .i32⟩ : BufTy).Contents (Elt F) → (⟨S50000, .i32⟩ : BufTy).Contents (Elt F)),
    StableHlo.binary main_v1444 main_v1460 main_v1461 (addi : (⟨S50000, .i32⟩ : BufTy).Contents (Elt F) → (⟨S50000, .i32⟩ : BufTy).Contents (Elt F) → (⟨S50000, .i32⟩ : BufTy).Contents (Elt F)),
    StableHlo.ternary main_v1459 main_v1461 main_v1444 main_v1462 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1462 main_v1463 (broadcastInDim S50000x1 ![0] bcast_S50000_S50000x1_0 : (⟨S50000, .i32⟩ : BufTy).Contents (Elt F) → (⟨S50000x1, .i32⟩ : BufTy).Contents (Elt F)),
    StableHlo.ternary main_v1442 main_v1463 main_v1457 main_v1464 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1465 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v1465 main_v1466 rfl shapeCasts_S1x50000_S50000,
    StableHlo.unary main_arg26 main_v1467 ((extractStridedSlice S1x50000 ![9, 0] · slices_S12x50000_S1x50000_9_0) : (⟨S12x50000, .i32⟩ : BufTy).Contents (Elt F) → (⟨S1x50000, .i32⟩ : BufTy).Contents (Elt F)),
    StableHlo.reshape main_v1467 main_v1468 rfl shapeCasts_S1x50000_S50000,
    StableHlo.nullary main_c_251 (constantI S_ 32 0#32),
    StableHlo.unary main_c_251 main_v1469 (broadcastInDim S50000 ![] bcast_S_S50000 : (⟨S_, .i32⟩ : BufTy).Contents (Elt F) → (⟨S50000, .i32⟩ : BufTy).Contents (Elt F)),
    StableHlo.binary main_v1468 main_v1469 main_v1470 (cmpi .slt : (⟨S50000, .i32⟩ : BufTy).Contents (Elt F) → (⟨S50000, .i32⟩ : BufTy).Contents (Elt F) → (⟨S50000, .i1⟩ : BufTy).Contents (Elt F)),
    StableHlo.nullary main_c_252 (constantI S_ 32 50000#32),
    StableHlo.unary main_c_252 main_v1471 (broadcastInDim S50000 ![] bcast_S_S50000 : (⟨S_, .i32⟩ : BufTy).Contents (Elt F) → (⟨S50000, .i32⟩ : BufTy).Contents (Elt F)),
    StableHlo.binary main_v1468 main_v1471 main_v1472 (addi : (⟨S50000, .i32⟩ : BufTy).Contents (Elt F) → (⟨S50000, .i32⟩ : BufTy).Contents (Elt F) → (⟨S50000, .i32⟩ : BufTy).Contents (Elt F)),
    StableHlo.ternary main_v1470 main_v1472 main_v1468 main_v1473 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1473 main_v1474 (broadcastInDim S50000x1 ![0] bcast_S50000_S50000x1_0 : (⟨S50000, .i32⟩ : BufTy).Contents (Elt F) → (⟨S50000x1, .i32⟩ : BufTy).Contents (Elt F)),
    StableHlo.binary main_v1262 main_v1474 main_v1475 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1476 ((extractStridedSlice S1x1x128x128 ![3, 9, 0, 0] · slices_S4x12x128x128_S1x1x128x128_3_9_0_0) : (⟨S4x12x128x128, .f32⟩ : BufTy).Contents (Elt F) → (⟨S1x1x128x128, .f32⟩ : BufTy).Contents (Elt F)),
    StableHlo.reshape main_v1476 main_v1477 rfl shapeCasts_S1x1x128x128_S128x128,
    StableHlo.unary main_v1477 main_v1478 ((transpose S128x128 [1, 0] · transposes_S128x128_S128x128_1_0) : (⟨S128x128, .f32⟩ : BufTy).Contents (Elt F) → (⟨S128x128, .f32⟩ : BufTy).Contents (Elt F)),
    StableHlo.binary main_v1475 main_v1478 main_v1479 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_253 (constantI S_ 32 0#32),
    StableHlo.unary main_c_253 main_v1480 (broadcastInDim S50000 ![] bcast_S_S50000 : (⟨S_, .i32⟩ : BufTy).Contents (Elt F) → (⟨S50000, .i32⟩ : BufTy).Contents (Elt F)),
    StableHlo.binary main_v1466 main_v1480 main_v1481 (cmpi .slt : (⟨S50000, .i32⟩ : BufTy).Contents (Elt F) → (⟨S50000, .i32⟩ : BufTy).Contents (Elt F) → (⟨S50000, .i1⟩ : BufTy).Contents (Elt F)),
    StableHlo.nullary main_c_254 (constantI S_ 32 50000#32),
    StableHlo.unary main_c_254 main_v1482 (broadcastInDim S50000 ![] bcast_S_S50000 : (⟨S_, .i32⟩ : BufTy).Contents (Elt F) → (⟨S50000, .i32⟩ : BufTy).Contents (Elt F)) ]

/-- The buffers they write, in order. -/
abbrev chunk28_W : List (Ref sig .tc) :=
  [main_v1433, main_v1434, main_v1435, main_c_245, main_v1436, main_v1437, main_c_246, main_v1438, main_v1439, main_v1440, main_v1441, main_v1442, main_v1443, main_v1444, main_v1445, main_v1446, main_c_247, main_v1447, main_v1448, main_c_248, main_v1449, main_v1450, main_v1451, main_v1452, main_v1453, main_v1454, main_v1455, main_v1456, main_v1457, main_c_249, main_v1458, main_v1459, main_c_250, main_v1460, main_v1461, main_v1462, main_v1463, main_v1464, main_v1465, main_v1466, main_v1467, main_v1468, main_c_251, main_v1469, main_v1470, main_c_252, main_v1471, main_v1472, main_v1473, main_v1474, main_v1475, main_v1476, main_v1477, main_v1478, main_v1479, main_c_253, main_v1480, main_v1481, main_c_254, main_v1482]

end Cert.ReferenceIdeal.RefRun

end
-- ==== Proof.RRunChk28.lean ====
/- TABLES over the operations of window `main_part28` (module RRunOps28): one term per operation for each side condition of
   the run, around the one proof text every window shares. -/
import proofs.«413166_j32323923870246_3_alg».proof.Proof.RRunOps28
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part28_eq (c : Dev nD) : main_part28 (F := F) c = seq chunk28 := by
  simp only [main_part28, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk28_sub : (chunk28 : List (HloOp τ sig (Elt F))).Forall fun op => op.bufs ⊆ tcRefs τ sig :=
  ⟨reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub ..⟩

set_option maxRecDepth 16384 in
/-- Every operation determines its result. -/
theorem chunk28_fresh : ∀ op ∈ (chunk28 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk28 : List (HloOp τ sig (Elt F))).Forall fun op => op.fresh = ∅)

set_option maxRecDepth 16384 in
/-- Each operation writes one buffer of the list. -/
theorem chunk28_writes : (chunk28 : List (HloOp τ sig (Elt F))).Forall fun op =>
    op.writes ⊆ (chunk28_W.map (Proc.devRef (τ := τ) .tc)).toFinset :=
  ⟨writes_sub_of_mem main_v1433 rfl (by decide),
    writes_sub_of_mem main_v1434 rfl (by decide),
    writes_sub_of_mem main_v1435 rfl (by decide),
    writes_sub_of_mem main_c_245 rfl (by decide),
    writes_sub_of_mem main_v1436 rfl (by decide),
    writes_sub_of_mem main_v1437 rfl (by decide),
    writes_sub_of_mem main_c_246 rfl (by decide),
    writes_sub_of_mem main_v1438 rfl (by decide),
    writes_sub_of_mem main_v1439 rfl (by decide),
    writes_sub_of_mem main_v1440 rfl (by decide),
    writes_sub_of_mem main_v1441 rfl (by decide),
    writes_sub_of_mem main_v1442 rfl (by decide),
    writes_sub_of_mem main_v1443 rfl (by decide),
    writes_sub_of_mem main_v1444 rfl (by decide),
    writes_sub_of_mem main_v1445 rfl (by decide),
    writes_sub_of_mem main_v1446 rfl (by decide),
    writes_sub_of_mem main_c_247 rfl (by decide),
    writes_sub_of_mem main_v1447 rfl (by decide),
    writes_sub_of_mem main_v1448 rfl (by decide),
    writes_sub_of_mem main_c_248 rfl (by decide),
    writes_sub_of_mem main_v1449 rfl (by decide),
    writes_sub_of_mem main_v1450 rfl (by decide),
    writes_sub_of_mem main_v1451 rfl (by decide),
    writes_sub_of_mem main_v1452 rfl (by decide),
    writes_sub_of_mem main_v1453 rfl (by decide),
    writes_sub_of_mem main_v1454 rfl (by decide),
    writes_sub_of_mem main_v1455 rfl (by decide),
    writes_sub_of_mem main_v1456 rfl (by decide),
    writes_sub_of_mem main_v1457 rfl (by decide),
    writes_sub_of_mem main_c_249 rfl (by decide),
    writes_sub_of_mem main_v1458 rfl (by decide),
    writes_sub_of_mem main_v1459 rfl (by decide),
    writes_sub_of_mem main_c_250 rfl (by decide),
    writes_sub_of_mem main_v1460 rfl (by decide),
    writes_sub_of_mem main_v1461 rfl (by decide),
    writes_sub_of_mem main_v1462 rfl (by decide),
    writes_sub_of_mem main_v1463 rfl (by decide),
    writes_sub_of_mem main_v1464 rfl (by decide),
    writes_sub_of_mem main_v1465 rfl (by decide),
    writes_sub_of_mem main_v1466 rfl (by decide),
    writes_sub_of_mem main_v1467 rfl (by decide),
    writes_sub_of_mem main_v1468 rfl (by decide),
    writes_sub_of_mem main_c_251 rfl (by decide),
    writes_sub_of_mem main_v1469 rfl (by decide),
    writes_sub_of_mem main_v1470 rfl (by decide),
    writes_sub_of_mem main_c_252 rfl (by decide),
    writes_sub_of_mem main_v1471 rfl (by decide),
    writes_sub_of_mem main_v1472 rfl (by decide),
    writes_sub_of_mem main_v1473 rfl (by decide),
    writes_sub_of_mem main_v1474 rfl (by decide),
    writes_sub_of_mem main_v1475 rfl (by decide),
    writes_sub_of_mem main_v1476 rfl (by decide),
    writes_sub_of_mem main_v1477 rfl (by decide),
    writes_sub_of_mem main_v1478 rfl (by decide),
    writes_sub_of_mem main_v1479 rfl (by decide),
    writes_sub_of_mem main_c_253 rfl (by decide),
    writes_sub_of_mem main_v1480 rfl (by decide),
    writes_sub_of_mem main_v1481 rfl (by decide),
    writes_sub_of_mem main_c_254 rfl (by decide),
    writes_sub_of_mem main_v1482 rfl (by decide)⟩

/-- A buffer the window does not write keeps its contents through it. -/
theorem chunk28_keep (V : Valuation τ sig (Elt F)) (r : Ref sig .tc) (h : r ∉ chunk28_W) :
    after chunk28 V (Proc.devRef .tc r) = V (Proc.devRef .tc r) :=
  after_of_writes_sub chunk28 V chunk28_writes h

end Cert.ReferenceIdeal.RefRun

end
-- ==== Proof.RRunOps29.lean ====
/- TABLES transcribed from proof/ReferenceIdeal.lean: window `main_part29` of the reference's @main as a list of host
   operations (60: 1983 … 2042 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part29`, in order, the calls unfolded. -/
abbrev chunk29 : List (HloOp τ sig (Elt F)) :=
  [ StableHlo.binary main_v1466 main_v1482 main_v1483 (addi : (⟨S50000, .i32⟩ : BufTy).Contents (Elt F) → (⟨S50000, .i32⟩ : BufTy).Contents (Elt F) → (⟨S50000, .i32⟩ : BufTy).Contents (Elt F)),
    StableHlo.ternary main_v1481 main_v1483 main_v1466 main_v1484 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1484 main_v1485 (broadcastInDim S50000x1 ![0] bcast_S50000_S50000x1_0 : (⟨S50000, .i32⟩ : BufTy).Contents (Elt F) → (⟨S50000x1, .i32⟩ : BufTy).Contents (Elt F)),
    StableHlo.ternary main_v1464 main_v1485 main_v1479 main_v1486 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1487 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v1487 main_v1488 rfl shapeCasts_S1x50000_S50000,
    StableHlo.unary main_arg26 main_v1489 ((extractStridedSlice S1x50000 ![10, 0] · slices_S12x50000_S1x50000_10_0) : (⟨S12x50000, .i32⟩ : BufTy).Contents (Elt F) → (⟨S1x50000, .i32⟩ : BufTy).Contents (Elt F)),
    StableHlo.reshape main_v1489 main_v1490 rfl shapeCasts_S1x50000_S50000,
    StableHlo.nullary main_c_255 (constantI S_ 32 0#32),
    StableHlo.unary main_c_255 main_v1491 (broadcastInDim S50000 ![] bcast_S_S50000 : (⟨S_, .i32⟩ : BufTy).Contents (Elt F) → (⟨S50000, .i32⟩ : BufTy).Contents (Elt F)),
    StableHlo.binary main_v1490 main_v1491 main_v1492 (cmpi .slt : (⟨S50000, .i32⟩ : BufTy).Contents (Elt F) → (⟨S50000, .i32⟩ : BufTy).Contents (Elt F) → (⟨S50000, .i1⟩ : BufTy).Contents (Elt F)),
    StableHlo.nullary main_c_256 (constantI S_ 32 50000#32),
    StableHlo.unary main_c_256 main_v1493 (broadcastInDim S50000 ![] bcast_S_S50000 : (⟨S_, .i32⟩ : BufTy).Contents (Elt F) → (⟨S50000, .i32⟩ : BufTy).Contents (Elt F)),
    StableHlo.binary main_v1490 main_v1493 main_v1494 (addi : (⟨S50000, .i32⟩ : BufTy).Contents (Elt F) → (⟨S50000, .i32⟩ : BufTy).Contents (Elt F) → (⟨S50000, .i32⟩ : BufTy).Contents (Elt F)),
    StableHlo.ternary main_v1492 main_v1494 main_v1490 main_v1495 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1495 main_v1496 (broadcastInDim S50000x1 ![0] bcast_S50000_S50000x1_0 : (⟨S50000, .i32⟩ : BufTy).Contents (Elt F) → (⟨S50000x1, .i32⟩ : BufTy).Contents (Elt F)),
    StableHlo.binary main_v1262 main_v1496 main_v1497 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1498 ((extractStridedSlice S1x1x128x128 ![3, 10, 0, 0] · slices_S4x12x128x128_S1x1x128x128_3_10_0_0) : (⟨S4x12x128x128, .f32⟩ : BufTy).Contents (Elt F) → (⟨S1x1x128x128, .f32⟩ : BufTy).Contents (Elt F)),
    StableHlo.reshape main_v1498 main_v1499 rfl shapeCasts_S1x1x128x128_S128x128,
    StableHlo.unary main_v1499 main_v1500 ((transpose S128x128 [1, 0] · transposes_S128x128_S128x128_1_0) : (⟨S128x128, .f32⟩ : BufTy).Contents (Elt F) → (⟨S128x128, .f32⟩ : BufTy).Contents (Elt F)),
    StableHlo.binary main_v1497 main_v1500 main_v1501 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_257 (constantI S_ 32 0#32),
    StableHlo.unary main_c_257 main_v1502 (broadcastInDim S50000 ![] bcast_S_S50000 : (⟨S_, .i32⟩ : BufTy).Contents (Elt F) → (⟨S50000, .i32⟩ : BufTy).Contents (Elt F)),
    StableHlo.binary main_v1488 main_v1502 main_v1503 (cmpi .slt : (⟨S50000, .i32⟩ : BufTy).Contents (Elt F) → (⟨S50000, .i32⟩ : BufTy).Contents (Elt F) → (⟨S50000, .i1⟩ : BufTy).Contents (Elt F)),
    StableHlo.nullary main_c_258 (constantI S_ 32 50000#32),
    StableHlo.unary main_c_258 main_v1504 (broadcastInDim S50000 ![] bcast_S_S50000 : (⟨S_, .i32⟩ : BufTy).Contents (Elt F) → (⟨S50000, .i32⟩ : BufTy).Contents (Elt F)),
    StableHlo.binary main_v1488 main_v1504 main_v1505 (addi : (⟨S50000, .i32⟩ : BufTy).Contents (Elt F) → (⟨S50000, .i32⟩ : BufTy).Contents (Elt F) → (⟨S50000, .i32⟩ : BufTy).Contents (Elt F)),
    StableHlo.ternary main_v1503 main_v1505 main_v1488 main_v1506 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1506 main_v1507 (broadcastInDim S50000x1 ![0] bcast_S50000_S50000x1_0 : (⟨S50000, .i32⟩ : BufTy).Contents (Elt F) → (⟨S50000x1, .i32⟩ : BufTy).Contents (Elt F)),
    StableHlo.ternary main_v1486 main_v1507 main_v1501 main_v1508 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg25 main_v1509 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v1509 main_v1510 rfl shapeCasts_S1x50000_S50000,
    StableHlo.unary main_arg26 main_v1511 ((extractStridedSlice S1x50000 ![11, 0] · slices_S12x50000_S1x50000_11_0) : (⟨S12x50000, .i32⟩ : BufTy).Contents (Elt F) → (⟨S1x50000, .i32⟩ : BufTy).Contents (Elt F)),
    StableHlo.reshape main_v1511 main_v1512 rfl shapeCasts_S1x50000_S50000,
    StableHlo.nullary main_c_259 (constantI S_ 32 0#32),
    StableHlo.unary main_c_259 main_v1513 (broadcastInDim S50000 ![] bcast_S_S50000 : (⟨S_, .i32⟩ : BufTy).Contents (Elt F) → (⟨S50000, .i32⟩ : BufTy).Contents (Elt F)),
    StableHlo.binary main_v1512 main_v1513 main_v1514 (cmpi .slt : (⟨S50000, .i32⟩ : BufTy).Contents (Elt F) → (⟨S50000, .i32⟩ : BufTy).Contents (Elt F) → (⟨S50000, .i1⟩ : BufTy).Contents (Elt F)),
    StableHlo.nullary main_c_260 (constantI S_ 32 50000#32),
    StableHlo.unary main_c_260 main_v1515 (broadcastInDim S50000 ![] bcast_S_S50000 : (⟨S_, .i32⟩ : BufTy).Contents (Elt F) → (⟨S50000, .i32⟩ : BufTy).Contents (Elt F)),
    StableHlo.binary main_v1512 main_v1515 main_v1516 (addi : (⟨S50000, .i32⟩ : BufTy).Contents (Elt F) → (⟨S50000, .i32⟩ : BufTy).Contents (Elt F) → (⟨S50000, .i32⟩ : BufTy).Contents (Elt F)),
    StableHlo.ternary main_v1514 main_v1516 main_v1512 main_v1517 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1517 main_v1518 (broadcastInDim S50000x1 ![0] bcast_S50000_S50000x1_0 : (⟨S50000, .i32⟩ : BufTy).Contents (Elt F) → (⟨S50000x1, .i32⟩ : BufTy).Contents (Elt F)),
    StableHlo.binary main_v1262 main_v1518 main_v1519 ((fun x i => Host.gather gather_S50000x128_S50000x1_S50000x128_1_0_n_n_0_1_1128 x i) : (⟨S50000x128, .f32⟩ : BufTy).Contents (Elt F) → (⟨S50000x1, .i32⟩ : BufTy).Contents (Elt F) → (⟨S50000x128, .f32⟩ : BufTy).Contents (Elt F)),
    StableHlo.unary main_arg15 main_v1520 ((extractStridedSlice S1x1x128x128 ![3, 11, 0, 0] · slices_S4x12x128x128_S1x1x128x128_3_11_0_0) : (⟨S4x12x128x128, .f32⟩ : BufTy).Contents (Elt F) → (⟨S1x1x128x128, .f32⟩ : BufTy).Contents (Elt F)),
    StableHlo.reshape main_v1520 main_v1521 rfl shapeCasts_S1x1x128x128_S128x128,
    StableHlo.unary main_v1521 main_v1522 ((transpose S128x128 [1, 0] · transposes_S128x128_S128x128_1_0) : (⟨S128x128, .f32⟩ : BufTy).Contents (Elt F) → (⟨S128x128, .f32⟩ : BufTy).Contents (Elt F)),
    StableHlo.binary main_v1519 main_v1522 main_v1523 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_261 (constantI S_ 32 0#32),
    StableHlo.unary main_c_261 main_v1524 (broadcastInDim S50000 ![] bcast_S_S50000 : (⟨S_, .i32⟩ : BufTy).Contents (Elt F) → (⟨S50000, .i32⟩ : BufTy).Contents (Elt F)),
    StableHlo.binary main_v1510 main_v1524 main_v1525 (cmpi .slt : (⟨S50000, .i32⟩ : BufTy).Contents (Elt F) → (⟨S50000, .i32⟩ : BufTy).Contents (Elt F) → (⟨S50000, .i1⟩ : BufTy).Contents (Elt F)),
    StableHlo.nullary main_c_262 (constantI S_ 32 50000#32),
    StableHlo.unary main_c_262 main_v1526 (broadcastInDim S50000 ![] bcast_S_S50000 : (⟨S_, .i32⟩ : BufTy).Contents (Elt F) → (⟨S50000, .i32⟩ : BufTy).Contents (Elt F)),
    StableHlo.binary main_v1510 main_v1526 main_v1527 (addi : (⟨S50000, .i32⟩ : BufTy).Contents (Elt F) → (⟨S50000, .i32⟩ : BufTy).Contents (Elt F) → (⟨S50000, .i32⟩ : BufTy).Contents (Elt F)),
    StableHlo.ternary main_v1525 main_v1527 main_v1510 main_v1528 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v1528 main_v1529 (broadcastInDim S50000x1 ![0] bcast_S50000_S50000x1_0 : (⟨S50000, .i32⟩ : BufTy).Contents (Elt F) → (⟨S50000x1, .i32⟩ : BufTy).Contents (Elt F)),
    StableHlo.ternary main_v1508 main_v1529 main_v1523 main_v1530 ((fun x i u => Host.scatterAdd scatter_S50000x128_S50000x1_S50000x128_1_0_0_1 x i u) : (⟨S50000x128, .f32⟩ : BufTy).Contents (Elt F) → (⟨S50000x1, .i32⟩ : BufTy).Contents (Elt F) → (⟨S50000x128, .f32⟩ : BufTy).Contents (Elt F) → (⟨S50000x128, .f32⟩ : BufTy).Contents (Elt F)),
    StableHlo.unary main_arg27 main_v1531 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v1531 main_v1532 rfl shapeCasts_S1x5000_S5000,
    StableHlo.unary main_arg28 main_v1533 ((extractStridedSlice S1x5000 ![0, 0] · slices_S2x5000_S1x5000_0_0) : (⟨S2x5000, .i32⟩ : BufTy).Contents (Elt F) → (⟨S1x5000, .i32⟩ : BufTy).Contents (Elt F)),
    StableHlo.reshape main_v1533 main_v1534 rfl shapeCasts_S1x5000_S5000 ]

/-- The buffers they write, in order. -/
abbrev chunk29_W : List (Ref sig .tc) :=
  [main_v1483, main_v1484, main_v1485, main_v1486, main_v1487, main_v1488, main_v1489, main_v1490, main_c_255, main_v1491, main_v1492, main_c_256, main_v1493, main_v1494, main_v1495, main_v1496, main_v1497, main_v1498, main_v1499, main_v1500, main_v1501, main_c_257, main_v1502, main_v1503, main_c_258, main_v1504, main_v1505, main_v1506, main_v1507, main_v1508, main_v1509, main_v1510, main_v1511, main_v1512, main_c_259, main_v1513, main_v1514, main_c_260, main_v1515, main_v1516, main_v1517, main_v1518, main_v1519, main_v1520, main_v1521, main_v1522, main_v1523, main_c_261, main_v1524, main_v1525, main_c_262, main_v1526, main_v1527, main_v1528, main_v1529, main_v1530, main_v1531, main_v1532, main_v1533, main_v1534]

end Cert.ReferenceIdeal.RefRun

end
-- ==== Proof.RRunChk29.lean ====
/- TABLES over the operations of window `main_part29` (module RRunOps29): one term per operation for each side condition of
   the run, around the one proof text every window shares. -/
import proofs.«413166_j32323923870246_3_alg».proof.Proof.RRunOps29
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part29_eq (c : Dev nD) : main_part29 (F := F) c = seq chunk29 := by
  simp only [main_part29, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk29_sub : (chunk29 : List (HloOp τ sig (Elt F))).Forall fun op => op.bufs ⊆ tcRefs τ sig :=
  ⟨binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub ..⟩

set_option maxRecDepth 16384 in
/-- Every operation determines its result. -/
theorem chunk29_fresh : ∀ op ∈ (chunk29 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk29 : List (HloOp τ sig (Elt F))).Forall fun op => op.fresh = ∅)

set_option maxRecDepth 16384 in
/-- Each operation writes one buffer of the list. -/
theorem chunk29_writes : (chunk29 : List (HloOp τ sig (Elt F))).Forall fun op =>
    op.writes ⊆ (chunk29_W.map (Proc.devRef (τ := τ) .tc)).toFinset :=
  ⟨writes_sub_of_mem main_v1483 rfl (by decide),
    writes_sub_of_mem main_v1484 rfl (by decide),
    writes_sub_of_mem main_v1485 rfl (by decide),
    writes_sub_of_mem main_v1486 rfl (by decide),
    writes_sub_of_mem main_v1487 rfl (by decide),
    writes_sub_of_mem main_v1488 rfl (by decide),
    writes_sub_of_mem main_v1489 rfl (by decide),
    writes_sub_of_mem main_v1490 rfl (by decide),
    writes_sub_of_mem main_c_255 rfl (by decide),
    writes_sub_of_mem main_v1491 rfl (by decide),
    writes_sub_of_mem main_v1492 rfl (by decide),
    writes_sub_of_mem main_c_256 rfl (by decide),
    writes_sub_of_mem main_v1493 rfl (by decide),
    writes_sub_of_mem main_v1494 rfl (by decide),
    writes_sub_of_mem main_v1495 rfl (by decide),
    writes_sub_of_mem main_v1496 rfl (by decide),
    writes_sub_of_mem main_v1497 rfl (by decide),
    writes_sub_of_mem main_v1498 rfl (by decide),
    writes_sub_of_mem main_v1499 rfl (by decide),
    writes_sub_of_mem main_v1500 rfl (by decide),
    writes_sub_of_mem main_v1501 rfl (by decide),
    writes_sub_of_mem main_c_257 rfl (by decide),
    writes_sub_of_mem main_v1502 rfl (by decide),
    writes_sub_of_mem main_v1503 rfl (by decide),
    writes_sub_of_mem main_c_258 rfl (by decide),
    writes_sub_of_mem main_v1504 rfl (by decide),
    writes_sub_of_mem main_v1505 rfl (by decide),
    writes_sub_of_mem main_v1506 rfl (by decide),
    writes_sub_of_mem main_v1507 rfl (by decide),
    writes_sub_of_mem main_v1508 rfl (by decide),
    writes_sub_of_mem main_v1509 rfl (by decide),
    writes_sub_of_mem main_v1510 rfl (by decide),
    writes_sub_of_mem main_v1511 rfl (by decide),
    writes_sub_of_mem main_v1512 rfl (by decide),
    writes_sub_of_mem main_c_259 rfl (by decide),
    writes_sub_of_mem main_v1513 rfl (by decide),
    writes_sub_of_mem main_v1514 rfl (by decide),
    writes_sub_of_mem main_c_260 rfl (by decide),
    writes_sub_of_mem main_v1515 rfl (by decide),
    writes_sub_of_mem main_v1516 rfl (by decide),
    writes_sub_of_mem main_v1517 rfl (by decide),
    writes_sub_of_mem main_v1518 rfl (by decide),
    writes_sub_of_mem main_v1519 rfl (by decide),
    writes_sub_of_mem main_v1520 rfl (by decide),
    writes_sub_of_mem main_v1521 rfl (by decide),
    writes_sub_of_mem main_v1522 rfl (by decide),
    writes_sub_of_mem main_v1523 rfl (by decide),
    writes_sub_of_mem main_c_261 rfl (by decide),
    writes_sub_of_mem main_v1524 rfl (by decide),
    writes_sub_of_mem main_v1525 rfl (by decide),
    writes_sub_of_mem main_c_262 rfl (by decide),
    writes_sub_of_mem main_v1526 rfl (by decide),
    writes_sub_of_mem main_v1527 rfl (by decide),
    writes_sub_of_mem main_v1528 rfl (by decide),
    writes_sub_of_mem main_v1529 rfl (by decide),
    writes_sub_of_mem main_v1530 rfl (by decide),
    writes_sub_of_mem main_v1531 rfl (by decide),
    writes_sub_of_mem main_v1532 rfl (by decide),
    writes_sub_of_mem main_v1533 rfl (by decide),
    writes_sub_of_mem main_v1534 rfl (by decide)⟩

/-- A buffer the window does not write keeps its contents through it. -/
theorem chunk29_keep (V : Valuation τ sig (Elt F)) (r : Ref sig .tc) (h : r ∉ chunk29_W) :
    after chunk29 V (Proc.devRef .tc r) = V (Proc.devRef .tc r) :=
  after_of_writes_sub chunk29 V chunk29_writes h

end Cert.ReferenceIdeal.RefRun

end
-- ==== Proof.RRunOps30.lean ====
/- TABLES transcribed from proof/ReferenceIdeal.lean: window `main_part30` of the reference's @main as a list of host
   operations (82: 2043 … 2124 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part30`, in order, the calls unfolded. -/
abbrev chunk30 : List (HloOp τ sig (Elt F)) :=
  [ StableHlo.nullary main_c_263 (constantI S_ 32 0#32),
    StableHlo.unary main_c_263 main_v1535 (broadcastInDim S5000 ![] bcast_S_S5000 : (⟨S_, .i32⟩ : BufTy).Contents (Elt F) → (⟨S5000, .i32⟩ : BufTy).Contents (Elt F)),
    StableHlo.binary main_v1534 main_v1535 main_v1536 (cmpi .slt : (⟨S5000, .i32⟩ : BufTy).Contents (Elt F) → (⟨S5000, .i32⟩ : BufTy).Contents (Elt F) → (⟨S5000, .i1⟩ : BufTy).Contents (Elt F)),
    StableHlo.nullary main_c_264 (constantI S_ 32 50000#32),
    StableHlo.unary main_c_264 main_v1537 (broadcastInDim S5000 ![] bcast_S_S5000 : (⟨S_, .i32⟩ : BufTy).Contents (Elt F) → (⟨S5000, .i32⟩ : BufTy).Contents (Elt F)),
    StableHlo.binary main_v1534 main_v1537 main_v1538 (addi : (⟨S5000, .i32⟩ : BufTy).Contents (Elt F) → (⟨S5000, .i32⟩ : BufTy).Contents (Elt F) → (⟨S5000, .i32⟩ : BufTy).Contents (Elt F)),
    StableHlo.ternary main_v1536 main_v1538 main_v1534 main_v1539 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1539 main_v1540 (broadcastInDim S5000x1 ![0] bcast_S5000_S5000x1_0 : (⟨S5000, .i32⟩ : BufTy).Contents (Elt F) → (⟨S5000x1, .i32⟩ : BufTy).Contents (Elt F)),
    StableHlo.binary main_v1262 main_v1540 main_v1541 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg16 main_v1542 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v1542 main_v1543 rfl shapeCasts_S1x128x128_S128x128,
    StableHlo.unary main_v1543 main_v1544 ((transpose S128x128 [1, 0] · transposes_S128x128_S128x128_1_0) : (⟨S128x128, .f32⟩ : BufTy).Contents (Elt F) → (⟨S128x128, .f32⟩ : BufTy).Contents (Elt F)),
    StableHlo.binary main_v1541 main_v1544 main_v1545 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_265 (constantI S_ 32 0#32),
    StableHlo.unary main_c_265 main_v1546 (broadcastInDim S5000 ![] bcast_S_S5000 : (⟨S_, .i32⟩ : BufTy).Contents (Elt F) → (⟨S5000, .i32⟩ : BufTy).Contents (Elt F)),
    StableHlo.binary main_v1532 main_v1546 main_v1547 (cmpi .slt : (⟨S5000, .i32⟩ : BufTy).Contents (Elt F) → (⟨S5000, .i32⟩ : BufTy).Contents (Elt F) → (⟨S5000, .i1⟩ : BufTy).Contents (Elt F)),
    StableHlo.nullary main_c_266 (constantI S_ 32 50000#32),
    StableHlo.unary main_c_266 main_v1548 (broadcastInDim S5000 ![] bcast_S_S5000 : (⟨S_, .i32⟩ : BufTy).Contents (Elt F) → (⟨S5000, .i32⟩ : BufTy).Contents (Elt F)),
    StableHlo.binary main_v1532 main_v1548 main_v1549 (addi : (⟨S5000, .i32⟩ : BufTy).Contents (Elt F) → (⟨S5000, .i32⟩ : BufTy).Contents (Elt F) → (⟨S5000, .i32⟩ : BufTy).Contents (Elt F)),
    StableHlo.ternary main_v1547 main_v1549 main_v1532 main_v1550 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1550 main_v1551 (broadcastInDim S5000x1 ![0] bcast_S5000_S5000x1_0 : (⟨S5000, .i32⟩ : BufTy).Contents (Elt F) → (⟨S5000x1, .i32⟩ : BufTy).Contents (Elt F)),
    StableHlo.ternary main_v1530 main_v1551 main_v1545 main_v1552 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg27 main_v1553 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v1553 main_v1554 rfl shapeCasts_S1x5000_S5000,
    StableHlo.unary main_arg28 main_v1555 ((extractStridedSlice S1x5000 ![1, 0] · slices_S2x5000_S1x5000_1_0) : (⟨S2x5000, .i32⟩ : BufTy).Contents (Elt F) → (⟨S1x5000, .i32⟩ : BufTy).Contents (Elt F)),
    StableHlo.reshape main_v1555 main_v1556 rfl shapeCasts_S1x5000_S5000,
    StableHlo.nullary main_c_267 (constantI S_ 32 0#32),
    StableHlo.unary main_c_267 main_v1557 (broadcastInDim S5000 ![] bcast_S_S5000 : (⟨S_, .i32⟩ : BufTy).Contents (Elt F) → (⟨S5000, .i32⟩ : BufTy).Contents (Elt F)),
    StableHlo.binary main_v1556 main_v1557 main_v1558 (cmpi .slt : (⟨S5000, .i32⟩ : BufTy).Contents (Elt F) → (⟨S5000, .i32⟩ : BufTy).Contents (Elt F) → (⟨S5000, .i1⟩ : BufTy).Contents (Elt F)),
    StableHlo.nullary main_c_268 (constantI S_ 32 50000#32),
    StableHlo.unary main_c_268 main_v1559 (broadcastInDim S5000 ![] bcast_S_S5000 : (⟨S_, .i32⟩ : BufTy).Contents (Elt F) → (⟨S5000, .i32⟩ : BufTy).Contents (Elt F)),
    StableHlo.binary main_v1556 main_v1559 main_v1560 (addi : (⟨S5000, .i32⟩ : BufTy).Contents (Elt F) → (⟨S5000, .i32⟩ : BufTy).Contents (Elt F) → (⟨S5000, .i32⟩ : BufTy).Contents (Elt F)),
    StableHlo.ternary main_v1558 main_v1560 main_v1556 main_v1561 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1561 main_v1562 (broadcastInDim S5000x1 ![0] bcast_S5000_S5000x1_0 : (⟨S5000, .i32⟩ : BufTy).Contents (Elt F) → (⟨S5000x1, .i32⟩ : BufTy).Contents (Elt F)),
    StableHlo.binary main_v1262 main_v1562 main_v1563 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)),
    StableHlo.unary main_arg17 main_v1564 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v1564 main_v1565 rfl shapeCasts_S1x128x128_S128x128,
    StableHlo.unary main_v1565 main_v1566 ((transpose S128x128 [1, 0] · transposes_S128x128_S128x128_1_0) : (⟨S128x128, .f32⟩ : BufTy).Contents (Elt F) → (⟨S128x128, .f32⟩ : BufTy).Contents (Elt F)),
    StableHlo.binary main_v1563 main_v1566 main_v1567 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.nullary main_c_269 (constantI S_ 32 0#32),
    StableHlo.unary main_c_269 main_v1568 (broadcastInDim S5000 ![] bcast_S_S5000 : (⟨S_, .i32⟩ : BufTy).Contents (Elt F) → (⟨S5000, .i32⟩ : BufTy).Contents (Elt F)),
    StableHlo.binary main_v1554 main_v1568 main_v1569 (cmpi .slt : (⟨S5000, .i32⟩ : BufTy).Contents (Elt F) → (⟨S5000, .i32⟩ : BufTy).Contents (Elt F) → (⟨S5000, .i1⟩ : BufTy).Contents (Elt F)),
    StableHlo.nullary main_c_270 (constantI S_ 32 50000#32),
    StableHlo.unary main_c_270 main_v1570 (broadcastInDim S5000 ![] bcast_S_S5000 : (⟨S_, .i32⟩ : BufTy).Contents (Elt F) → (⟨S5000, .i32⟩ : BufTy).Contents (Elt F)),
    StableHlo.binary main_v1554 main_v1570 main_v1571 (addi : (⟨S5000, .i32⟩ : BufTy).Contents (Elt F) → (⟨S5000, .i32⟩ : BufTy).Contents (Elt F) → (⟨S5000, .i32⟩ : BufTy).Contents (Elt F)),
    StableHlo.ternary main_v1569 main_v1571 main_v1554 main_v1572 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v1572 main_v1573 (broadcastInDim S5000x1 ![0] bcast_S5000_S5000x1_0 : (⟨S5000, .i32⟩ : BufTy).Contents (Elt F) → (⟨S5000x1, .i32⟩ : BufTy).Contents (Elt F)),
    StableHlo.ternary main_v1552 main_v1573 main_v1567 main_v1574 ((fun x i u => Host.scatterAdd scatter_S50000x128_S5000x1_S5000x128_1_0_0_1 x i u) : (⟨S50000x128, .f32⟩ : BufTy).Contents (Elt F) → (⟨S5000x1, .i32⟩ : BufTy).Contents (Elt F) → (⟨S5000x128, .f32⟩ : BufTy).Contents (Elt F) → (⟨S50000x128, .f32⟩ : BufTy).Contents (Elt F)),
    StableHlo.unary main_arg18 main_v1575 ((extractStridedSlice S1x2x128 ![3, 0, 0] · slices_S4x2x128_S1x2x128_3_0_0) : (⟨S4x2x128, .f32⟩ : BufTy).Contents (Elt F) → (⟨S1x2x128, .f32⟩ : BufTy).Contents (Elt F)),
    StableHlo.reshape main_v1575 main_v1576 rfl shapeCasts_S1x2x128_S2x128,
    StableHlo.nullary main_cst_271 (constant S_ .f32 0x00000000#32),
    StableHlo.binary main_v1574 main_cst_271 main_v1577 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v1577 main_v1578 (broadcastInDim S50000x1 ![0] bcast_S50000_S50000x1_0 : (⟨S50000, .f32⟩ : BufTy).Contents (Elt F) → (⟨S50000x1, .f32⟩ : BufTy).Contents (Elt F)),
    StableHlo.nullary main_cst_272 (constant S_ .f32 0x43000000#32),
    StableHlo.unary main_cst_272 main_v1579 (broadcastInDim S50000x1 ![] bcast_S_S50000x1 : (⟨S_, .f32⟩ : BufTy).Contents (Elt F) → (⟨S50000x1, .f32⟩ : BufTy).Contents (Elt F)),
    StableHlo.binary main_v1578 main_v1579 main_v1580 (Host.divf : (⟨S50000x1, .f32⟩ : BufTy).Contents (Elt F) → (⟨S50000x1, .f32⟩ : BufTy).Contents (Elt F) → (⟨S50000x1, .f32⟩ : BufTy).Contents (Elt F)),
    StableHlo.nullary main_c_273 (constantI S_ 32 0#32),
    StableHlo.TRef.nullary main_call21.cst (constant S_ .f32 0x00000000#32),
    StableHlo.TRef.binary (.of main_v1574 : StableHlo.TRef sig ⟨S50000x128, .f32⟩) main_call21.cst main_call21.v0 (fun x v => Host.reduceAdd x v reducesTo_S50000x128_S50000_d1 h_S_),
    StableHlo.TRef.unary main_call21.v0 main_call21.v1 (broadcastInDim S50000x1 ![0] bcast_S50000_S50000x1_0),
    StableHlo.TRef.nullary main_call21.cst_0 (constant S_ .f32 0x43000000#32),
    StableHlo.TRef.unary main_call21.cst_0 main_call21.v2 (broadcastInDim S50000x1 ![] bcast_S_S50000x1),
    StableHlo.TRef.binary main_call21.v1 main_call21.v2 main_call21.v3 Host.divf,
    StableHlo.TRef.unary main_call21.v3 main_call21.v4 (broadcastInDim S50000x128 ![0, 1] bcast_S50000x1_S50000x128_0_1),
    StableHlo.TRef.binary (.of main_v1574 : StableHlo.TRef sig ⟨S50000x128, .f32⟩) main_call21.v4 main_call21.v5 subf,
    StableHlo.TRef.binary main_call21.v5 main_call21.v5 main_call21.v6 mulf,
    StableHlo.TRef.unary (.of main_c_273 : StableHlo.TRef sig ⟨S_, .i32⟩) main_call21.v7 (sitofp .f32),
    StableHlo.TRef.nullary main_call21.cst_1 (constant S_ .f32 0x43000000#32),
    StableHlo.TRef.binary main_call21.cst_1 main_call21.v7 main_call21.v8 subf,
    StableHlo.TRef.nullary main_call21.cst_2 (constant S_ .f32 0x00000000#32),
    StableHlo.TRef.binary main_call21.v6 main_call21.cst_2 main_call21.v9 (fun x v => Host.reduceAdd x v reducesTo_S50000x128_S50000_d1 h_S_),
    StableHlo.TRef.unary main_call21.v9 main_call21.v10 (broadcastInDim S50000x1 ![0] bcast_S50000_S50000x1_0),
    StableHlo.TRef.unary main_call21.v8 main_call21.v11 (broadcastInDim S50000x1 ![] bcast_S_S50000x1),
    StableHlo.TRef.binary main_call21.v10 main_call21.v11 main_call21.v12 Host.divf,
    StableHlo.TRef.nullary main_call21.cst_3 (constant S_ .f32 0x00000000#32),
    StableHlo.TRef.binary main_call21.v8 main_call21.cst_3 main_call21.v13 (cmpf .ogt),
    StableHlo.TRef.nullary main_call21.cst_4 (constant S_ .f32 0x7FC00000#32),
    StableHlo.TRef.unary (main_call21.cst_4 : StableHlo.TRef sig ⟨S_, .f32⟩) main_call21.call0.v0 id,
    StableHlo.TRef.unary main_call21.call0.v0 main_call21.call0.v1 (broadcastInDim S50000x1 ![] bcast_S_S50000x1),
    StableHlo.TRef.ternary (main_call21.v13 : StableHlo.TRef sig ⟨S_, .i1⟩) (main_call21.v12 : StableHlo.TRef sig ⟨S50000x1, .f32⟩) main_call21.call0.v1 main_call21.call0.v2 (fun p a b => select (broadcastInDim S50000x1 ![] bcast_S_S50000x1 p) a b),
    StableHlo.unary main_v1580 main_v1582 (broadcastInDim S50000x128 ![0, 1] bcast_S50000x1_S50000x128_0_1 : (⟨S50000x1, .f32⟩ : BufTy).Contents (Elt F) → (⟨S50000x128, .f32⟩ : BufTy).Contents (Elt F)),
    StableHlo.binary main_v1574 main_v1582 main_v1583 (subf : (⟨S50000x128, .f32⟩ : BufTy).Contents (Elt F) → (⟨S50000x128, .f32⟩ : BufTy).Contents (Elt F) → (⟨S50000x128, .f32⟩ : BufTy).Contents (Elt F)) ]

/-- The buffers they write, in order. -/
abbrev chunk30_W : List (Ref sig .tc) :=
  [main_c_263, main_v1535, main_v1536, main_c_264, main_v1537, main_v1538, main_v1539, main_v1540, main_v1541, main_v1542, main_v1543, main_v1544, main_v1545, main_c_265, main_v1546, main_v1547, main_c_266, main_v1548, main_v1549, main_v1550, main_v1551, main_v1552, main_v1553, main_v1554, main_v1555, main_v1556, main_c_267, main_v1557, main_v1558, main_c_268, main_v1559, main_v1560, main_v1561, main_v1562, main_v1563, main_v1564, main_v1565, main_v1566, main_v1567, main_c_269, main_v1568, main_v1569, main_c_270, main_v1570, main_v1571, main_v1572, main_v1573, main_v1574, main_v1575, main_v1576, main_cst_271, main_v1577, main_v1578, main_cst_272, main_v1579, main_v1580, main_c_273, main_call21.cst.ref, main_call21.v0.ref, main_call21.v1.ref, main_call21.cst_0.ref, main_call21.v2.ref, main_call21.v3.ref, main_call21.v4.ref, main_call21.v5.ref, main_call21.v6.ref, main_call21.v7.ref, main_call21.cst_1.ref, main_call21.v8.ref, main_call21.cst_2.ref, main_call21.v9.ref, main_call21.v10.ref, main_call21.v11.ref, main_call21.v12.ref, main_call21.cst_3.ref, main_call21.v13.ref, main_call21.cst_4.ref, main_call21.call0.v0.ref, main_call21.call0.v1.ref, main_call21.call0.v2.ref, main_v1582, main_v1583]

end Cert.ReferenceIdeal.RefRun

end
-- ==== Proof.RRunChk30.lean ====
/- TABLES over the operations of window `main_part30` (module RRunOps30): one term per operation for each side condition of
   the run, around the one proof text every window shares. -/
import proofs.«413166_j32323923870246_3_alg».proof.Proof.RRunOps30
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part30_eq (c : Dev nD) : main_part30 (F := F) c = seq chunk30 := by
  simp only [main_part30, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk30_sub : (chunk30 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub ..⟩

set_option maxRecDepth 16384 in
/-- Every operation determines its result. -/
theorem chunk30_fresh : ∀ op ∈ (chunk30 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk30 : List (HloOp τ sig (Elt F))).Forall fun op => op.fresh = ∅)

set_option maxRecDepth 16384 in
/-- Each operation writes one buffer of the list. -/
theorem chunk30_writes : (chunk30 : List (HloOp τ sig (Elt F))).Forall fun op =>
    op.writes ⊆ (chunk30_W.map (Proc.devRef (τ := τ) .tc)).toFinset :=
  ⟨writes_sub_of_mem main_c_263 rfl (by decide),
    writes_sub_of_mem main_v1535 rfl (by decide),
    writes_sub_of_mem main_v1536 rfl (by decide),
    writes_sub_of_mem main_c_264 rfl (by decide),
    writes_sub_of_mem main_v1537 rfl (by decide),
    writes_sub_of_mem main_v1538 rfl (by decide),
    writes_sub_of_mem main_v1539 rfl (by decide),
    writes_sub_of_mem main_v1540 rfl (by decide),
    writes_sub_of_mem main_v1541 rfl (by decide),
    writes_sub_of_mem main_v1542 rfl (by decide),
    writes_sub_of_mem main_v1543 rfl (by decide),
    writes_sub_of_mem main_v1544 rfl (by decide),
    writes_sub_of_mem main_v1545 rfl (by decide),
    writes_sub_of_mem main_c_265 rfl (by decide),
    writes_sub_of_mem main_v1546 rfl (by decide),
    writes_sub_of_mem main_v1547 rfl (by decide),
    writes_sub_of_mem main_c_266 rfl (by decide),
    writes_sub_of_mem main_v1548 rfl (by decide),
    writes_sub_of_mem main_v1549 rfl (by decide),
    writes_sub_of_mem main_v1550 rfl (by decide),
    writes_sub_of_mem main_v1551 rfl (by decide),
    writes_sub_of_mem main_v1552 rfl (by decide),
    writes_sub_of_mem main_v1553 rfl (by decide),
    writes_sub_of_mem main_v1554 rfl (by decide),
    writes_sub_of_mem main_v1555 rfl (by decide),
    writes_sub_of_mem main_v1556 rfl (by decide),
    writes_sub_of_mem main_c_267 rfl (by decide),
    writes_sub_of_mem main_v1557 rfl (by decide),
    writes_sub_of_mem main_v1558 rfl (by decide),
    writes_sub_of_mem main_c_268 rfl (by decide),
    writes_sub_of_mem main_v1559 rfl (by decide),
    writes_sub_of_mem main_v1560 rfl (by decide),
    writes_sub_of_mem main_v1561 rfl (by decide),
    writes_sub_of_mem main_v1562 rfl (by decide),
    writes_sub_of_mem main_v1563 rfl (by decide),
    writes_sub_of_mem main_v1564 rfl (by decide),
    writes_sub_of_mem main_v1565 rfl (by decide),
    writes_sub_of_mem main_v1566 rfl (by decide),
    writes_sub_of_mem main_v1567 rfl (by decide),
    writes_sub_of_mem main_c_269 rfl (by decide),
    writes_sub_of_mem main_v1568 rfl (by decide),
    writes_sub_of_mem main_v1569 rfl (by decide),
    writes_sub_of_mem main_c_270 rfl (by decide),
    writes_sub_of_mem main_v1570 rfl (by decide),
    writes_sub_of_mem main_v1571 rfl (by decide),
    writes_sub_of_mem main_v1572 rfl (by decide),
    writes_sub_of_mem main_v1573 rfl (by decide),
    writes_sub_of_mem main_v1574 rfl (by decide),
    writes_sub_of_mem main_v1575 rfl (by decide),
    writes_sub_of_mem main_v1576 rfl (by decide),
    writes_sub_of_mem main_cst_271 rfl (by decide),
    writes_sub_of_mem main_v1577 rfl (by decide),
    writes_sub_of_mem main_v1578 rfl (by decide),
    writes_sub_of_mem main_cst_272 rfl (by decide),
    writes_sub_of_mem main_v1579 rfl (by decide),
    writes_sub_of_mem main_v1580 rfl (by decide),
    writes_sub_of_mem main_c_273 rfl (by decide),
    writes_sub_of_mem main_call21.cst.ref rfl (by decide),
    writes_sub_of_mem main_call21.v0.ref rfl (by decide),
    writes_sub_of_mem main_call21.v1.ref rfl (by decide),
    writes_sub_of_mem main_call21.cst_0.ref rfl (by decide),
    writes_sub_of_mem main_call21.v2.ref rfl (by decide),
    writes_sub_of_mem main_call21.v3.ref rfl (by decide),
    writes_sub_of_mem main_call21.v4.ref rfl (by decide),
    writes_sub_of_mem main_call21.v5.ref rfl (by decide),
    writes_sub_of_mem main_call21.v6.ref rfl (by decide),
    writes_sub_of_mem main_call21.v7.ref rfl (by decide),
    writes_sub_of_mem main_call21.cst_1.ref rfl (by decide),
    writes_sub_of_mem main_call21.v8.ref rfl (by decide),
    writes_sub_of_mem main_call21.cst_2.ref rfl (by decide),
    writes_sub_of_mem main_call21.v9.ref rfl (by decide),
    writes_sub_of_mem main_call21.v10.ref rfl (by decide),
    writes_sub_of_mem main_call21.v11.ref rfl (by decide),
    writes_sub_of_mem main_call21.v12.ref rfl (by decide),
    writes_sub_of_mem main_call21.cst_3.ref rfl (by decide),
    writes_sub_of_mem main_call21.v13.ref rfl (by decide),
    writes_sub_of_mem main_call21.cst_4.ref rfl (by decide),
    writes_sub_of_mem main_call21.call0.v0.ref rfl (by decide),
    writes_sub_of_mem main_call21.call0.v1.ref rfl (by decide),
    writes_sub_of_mem main_call21.call0.v2.ref rfl (by decide),
    writes_sub_of_mem main_v1582 rfl (by decide),
    writes_sub_of_mem main_v1583 rfl (by decide)⟩

/-- A buffer the window does not write keeps its contents through it. -/
theorem chunk30_keep (V : Valuation τ sig (Elt F)) (r : Ref sig .tc) (h : r ∉ chunk30_W) :
    after chunk30 V (Proc.devRef .tc r) = V (Proc.devRef .tc r) :=
  after_of_writes_sub chunk30 V chunk30_writes h

end Cert.ReferenceIdeal.RefRun

end
-- ==== Proof.RRunOps31.lean ====
/- TABLES transcribed from proof/ReferenceIdeal.lean: window `main_part31` of the reference's @main as a list of host
   operations (86: 2125 … 2210 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part31`, in order, the calls unfolded. -/
abbrev chunk31 : List (HloOp τ sig (Elt F)) :=
  [ StableHlo.nullary main_cst_274 (constant S_ .f32 0x3727C5AC#32),
    StableHlo.unary main_cst_274 main_v1584 (broadcastInDim S50000x1 ![] bcast_S_S50000x1 : (⟨S_, .f32⟩ : BufTy).Contents (Elt F) → (⟨S50000x1, .f32⟩ : BufTy).Contents (Elt F)),
    StableHlo.binary main_v1581 main_v1584 main_v1585 (addf : (⟨S50000x1, .f32⟩ : BufTy).Contents (Elt F) → (⟨S50000x1, .f32⟩ : BufTy).Contents (Elt F) → (⟨S50000x1, .f32⟩ : BufTy).Contents (Elt F)),
    StableHlo.unary main_v1585 main_v1586 (Host.sqrt : (⟨S50000x1, .f32⟩ : BufTy).Contents (Elt F) → (⟨S50000x1, .f32⟩ : BufTy).Contents (Elt F)),
    StableHlo.unary main_v1586 main_v1587 (broadcastInDim S50000x128 ![0, 1] bcast_S50000x1_S50000x128_0_1 : (⟨S50000x1, .f32⟩ : BufTy).Contents (Elt F) → (⟨S50000x128, .f32⟩ : BufTy).Contents (Elt F)),
    StableHlo.binary main_v1583 main_v1587 main_v1588 (Host.divf : (⟨S50000x128, .f32⟩ : BufTy).Contents (Elt F) → (⟨S50000x128, .f32⟩ : BufTy).Contents (Elt F) → (⟨S50000x128, .f32⟩ : BufTy).Contents (Elt F)),
    StableHlo.unary main_v1576 main_v1589 ((extractStridedSlice S1x128 ![0, 0] · slices_S2x128_S1x128_0_0) : (⟨S2x128, .f32⟩ : BufTy).Contents (Elt F) → (⟨S1x128, .f32⟩ : BufTy).Contents (Elt F)),
    StableHlo.reshape main_v1589 main_v1590 rfl shapeCasts_S1x128_S128,
    StableHlo.unary main_v1590 main_v1591 (broadcastInDim S1x128 ![1] bcast_S128_S1x128_1 : (⟨S128, .f32⟩ : BufTy).Contents (Elt F) → (⟨S1x128, .f32⟩ : BufTy).Contents (Elt F)),
    StableHlo.unary main_v1591 main_v1592 (broadcastInDim S50000x128 ![0, 1] bcast_S1x128_S50000x128_0_1 : (⟨S1x128, .f32⟩ : BufTy).Contents (Elt F) → (⟨S50000x128, .f32⟩ : BufTy).Contents (Elt F)),
    StableHlo.binary main_v1588 main_v1592 main_v1593 (mulf : (⟨S50000x128, .f32⟩ : BufTy).Contents (Elt F) → (⟨S50000x128, .f32⟩ : BufTy).Contents (Elt F) → (⟨S50000x128, .f32⟩ : BufTy).Contents (Elt F)),
    StableHlo.unary main_v1576 main_v1594 ((extractStridedSlice S1x128 ![1, 0] · slices_S2x128_S1x128_1_0) : (⟨S2x128, .f32⟩ : BufTy).Contents (Elt F) → (⟨S1x128, .f32⟩ : BufTy).Contents (Elt F)),
    StableHlo.reshape main_v1594 main_v1595 rfl shapeCasts_S1x128_S128,
    StableHlo.unary main_v1595 main_v1596 (broadcastInDim S1x128 ![1] bcast_S128_S1x128_1 : (⟨S128, .f32⟩ : BufTy).Contents (Elt F) → (⟨S1x128, .f32⟩ : BufTy).Contents (Elt F)),
    StableHlo.unary main_v1596 main_v1597 (broadcastInDim S50000x128 ![0, 1] bcast_S1x128_S50000x128_0_1 : (⟨S1x128, .f32⟩ : BufTy).Contents (Elt F) → (⟨S50000x128, .f32⟩ : BufTy).Contents (Elt F)),
    StableHlo.binary main_v1593 main_v1597 main_v1598 (addf : (⟨S50000x128, .f32⟩ : BufTy).Contents (Elt F) → (⟨S50000x128, .f32⟩ : BufTy).Contents (Elt F) → (⟨S50000x128, .f32⟩ : BufTy).Contents (Elt F)),
    StableHlo.TRef.nullary main_call22.cst (constant S_ .f32 0x00000000#32),
    StableHlo.TRef.unary main_call22.cst main_call22.v0 (broadcastInDim S50000x128 ![] bcast_S_S50000x128),
    StableHlo.TRef.binary (.of main_v1598 : StableHlo.TRef sig ⟨S50000x128, .f32⟩) main_call22.v0 main_call22.v1 maximumf,
    StableHlo.unary main_arg19 main_v1600 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v1600 main_v1601 rfl shapeCasts_S1x128x128_S128x128,
    StableHlo.unary main_v1601 main_v1602 ((transpose S128x128 [1, 0] · transposes_S128x128_S128x128_1_0) : (⟨S128x128, .f32⟩ : BufTy).Contents (Elt F) → (⟨S128x128, .f32⟩ : BufTy).Contents (Elt F)),
    StableHlo.binary main_v1599 main_v1602 main_v1603 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg20 main_v1604 ((extractStridedSlice S1x2x128 ![3, 0, 0] · slices_S4x2x128_S1x2x128_3_0_0) : (⟨S4x2x128, .f32⟩ : BufTy).Contents (Elt F) → (⟨S1x2x128, .f32⟩ : BufTy).Contents (Elt F)),
    StableHlo.reshape main_v1604 main_v1605 rfl shapeCasts_S1x2x128_S2x128,
    StableHlo.nullary main_cst_275 (constant S_ .f32 0x00000000#32),
    StableHlo.binary main_v1603 main_cst_275 main_v1606 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v1606 main_v1607 (broadcastInDim S50000x1 ![0] bcast_S50000_S50000x1_0 : (⟨S50000, .f32⟩ : BufTy).Contents (Elt F) → (⟨S50000x1, .f32⟩ : BufTy).Contents (Elt F)),
    StableHlo.nullary main_cst_276 (constant S_ .f32 0x43000000#32),
    StableHlo.unary main_cst_276 main_v1608 (broadcastInDim S50000x1 ![] bcast_S_S50000x1 : (⟨S_, .f32⟩ : BufTy).Contents (Elt F) → (⟨S50000x1, .f32⟩ : BufTy).Contents (Elt F)),
    StableHlo.binary main_v1607 main_v1608 main_v1609 (Host.divf : (⟨S50000x1, .f32⟩ : BufTy).Contents (Elt F) → (⟨S50000x1, .f32⟩ : BufTy).Contents (Elt F) → (⟨S50000x1, .f32⟩ : BufTy).Contents (Elt F)),
    StableHlo.nullary main_c_277 (constantI S_ 32 0#32),
    StableHlo.TRef.nullary main_call23.cst (constant S_ .f32 0x00000000#32),
    StableHlo.TRef.binary (.of main_v1603 : StableHlo.TRef sig ⟨S50000x128, .f32⟩) main_call23.cst main_call23.v0 (fun x v => Host.reduceAdd x v reducesTo_S50000x128_S50000_d1 h_S_),
    StableHlo.TRef.unary main_call23.v0 main_call23.v1 (broadcastInDim S50000x1 ![0] bcast_S50000_S50000x1_0),
    StableHlo.TRef.nullary main_call23.cst_0 (constant S_ .f32 0x43000000#32),
    StableHlo.TRef.unary main_call23.cst_0 main_call23.v2 (broadcastInDim S50000x1 ![] bcast_S_S50000x1),
    StableHlo.TRef.binary main_call23.v1 main_call23.v2 main_call23.v3 Host.divf,
    StableHlo.TRef.unary main_call23.v3 main_call23.v4 (broadcastInDim S50000x128 ![0, 1] bcast_S50000x1_S50000x128_0_1),
    StableHlo.TRef.binary (.of main_v1603 : StableHlo.TRef sig ⟨S50000x128, .f32⟩) main_call23.v4 main_call23.v5 subf,
    StableHlo.TRef.binary main_call23.v5 main_call23.v5 main_call23.v6 mulf,
    StableHlo.TRef.unary (.of main_c_277 : StableHlo.TRef sig ⟨S_, .i32⟩) main_call23.v7 (sitofp .f32),
    StableHlo.TRef.nullary main_call23.cst_1 (constant S_ .f32 0x43000000#32),
    StableHlo.TRef.binary main_call23.cst_1 main_call23.v7 main_call23.v8 subf,
    StableHlo.TRef.nullary main_call23.cst_2 (constant S_ .f32 0x00000000#32),
    StableHlo.TRef.binary main_call23.v6 main_call23.cst_2 main_call23.v9 (fun x v => Host.reduceAdd x v reducesTo_S50000x128_S50000_d1 h_S_),
    StableHlo.TRef.unary main_call23.v9 main_call23.v10 (broadcastInDim S50000x1 ![0] bcast_S50000_S50000x1_0),
    StableHlo.TRef.unary main_call23.v8 main_call23.v11 (broadcastInDim S50000x1 ![] bcast_S_S50000x1),
    StableHlo.TRef.binary main_call23.v10 main_call23.v11 main_call23.v12 Host.divf,
    StableHlo.TRef.nullary main_call23.cst_3 (constant S_ .f32 0x00000000#32),
    StableHlo.TRef.binary main_call23.v8 main_call23.cst_3 main_call23.v13 (cmpf .ogt),
    StableHlo.TRef.nullary main_call23.cst_4 (constant S_ .f32 0x7FC00000#32),
    StableHlo.TRef.unary (main_call23.cst_4 : StableHlo.TRef sig ⟨S_, .f32⟩) main_call23.call0.v0 id,
    StableHlo.TRef.unary main_call23.call0.v0 main_call23.call0.v1 (broadcastInDim S50000x1 ![] bcast_S_S50000x1),
    StableHlo.TRef.ternary (main_call23.v13 : StableHlo.TRef sig ⟨S_, .i1⟩) (main_call23.v12 : StableHlo.TRef sig ⟨S50000x1, .f32⟩) main_call23.call0.v1 main_call23.call0.v2 (fun p a b => select (broadcastInDim S50000x1 ![] bcast_S_S50000x1 p) a b),
    StableHlo.unary main_v1609 main_v1611 (broadcastInDim S50000x128 ![0, 1] bcast_S50000x1_S50000x128_0_1 : (⟨S50000x1, .f32⟩ : BufTy).Contents (Elt F) → (⟨S50000x128, .f32⟩ : BufTy).Contents (Elt F)),
    StableHlo.binary main_v1603 main_v1611 main_v1612 (subf : (⟨S50000x128, .f32⟩ : BufTy).Contents (Elt F) → (⟨S50000x128, .f32⟩ : BufTy).Contents (Elt F) → (⟨S50000x128, .f32⟩ : BufTy).Contents (Elt F)),
    StableHlo.nullary main_cst_278 (constant S_ .f32 0x3727C5AC#32),
    StableHlo.unary main_cst_278 main_v1613 (broadcastInDim S50000x1 ![] bcast_S_S50000x1 : (⟨S_, .f32⟩ : BufTy).Contents (Elt F) → (⟨S50000x1, .f32⟩ : BufTy).Contents (Elt F)),
    StableHlo.binary main_v1610 main_v1613 main_v1614 (addf : (⟨S50000x1, .f32⟩ : BufTy).Contents (Elt F) → (⟨S50000x1, .f32⟩ : BufTy).Contents (Elt F) → (⟨S50000x1, .f32⟩ : BufTy).Contents (Elt F)),
    StableHlo.unary main_v1614 main_v1615 (Host.sqrt : (⟨S50000x1, .f32⟩ : BufTy).Contents (Elt F) → (⟨S50000x1, .f32⟩ : BufTy).Contents (Elt F)),
    StableHlo.unary main_v1615 main_v1616 (broadcastInDim S50000x128 ![0, 1] bcast_S50000x1_S50000x128_0_1 : (⟨S50000x1, .f32⟩ : BufTy).Contents (Elt F) → (⟨S50000x128, .f32⟩ : BufTy).Contents (Elt F)),
    StableHlo.binary main_v1612 main_v1616 main_v1617 (Host.divf : (⟨S50000x128, .f32⟩ : BufTy).Contents (Elt F) → (⟨S50000x128, .f32⟩ : BufTy).Contents (Elt F) → (⟨S50000x128, .f32⟩ : BufTy).Contents (Elt F)),
    StableHlo.unary main_v1605 main_v1618 ((extractStridedSlice S1x128 ![0, 0] · slices_S2x128_S1x128_0_0) : (⟨S2x128, .f32⟩ : BufTy).Contents (Elt F) → (⟨S1x128, .f32⟩ : BufTy).Contents (Elt F)),
    StableHlo.reshape main_v1618 main_v1619 rfl shapeCasts_S1x128_S128,
    StableHlo.unary main_v1619 main_v1620 (broadcastInDim S1x128 ![1] bcast_S128_S1x128_1 : (⟨S128, .f32⟩ : BufTy).Contents (Elt F) → (⟨S1x128, .f32⟩ : BufTy).Contents (Elt F)),
    StableHlo.unary main_v1620 main_v1621 (broadcastInDim S50000x128 ![0, 1] bcast_S1x128_S50000x128_0_1 : (⟨S1x128, .f32⟩ : BufTy).Contents (Elt F) → (⟨S50000x128, .f32⟩ : BufTy).Contents (Elt F)),
    StableHlo.binary main_v1617 main_v1621 main_v1622 (mulf : (⟨S50000x128, .f32⟩ : BufTy).Contents (Elt F) → (⟨S50000x128, .f32⟩ : BufTy).Contents (Elt F) → (⟨S50000x128, .f32⟩ : BufTy).Contents (Elt F)),
    StableHlo.unary main_v1605 main_v1623 ((extractStridedSlice S1x128 ![1, 0] · slices_S2x128_S1x128_1_0) : (⟨S2x128, .f32⟩ : BufTy).Contents (Elt F) → (⟨S1x128, .f32⟩ : BufTy).Contents (Elt F)),
    StableHlo.reshape main_v1623 main_v1624 rfl shapeCasts_S1x128_S128,
    StableHlo.unary main_v1624 main_v1625 (broadcastInDim S1x128 ![1] bcast_S128_S1x128_1 : (⟨S128, .f32⟩ : BufTy).Contents (Elt F) → (⟨S1x128, .f32⟩ : BufTy).Contents (Elt F)),
    StableHlo.unary main_v1625 main_v1626 (broadcastInDim S50000x128 ![0, 1] bcast_S1x128_S50000x128_0_1 : (⟨S1x128, .f32⟩ : BufTy).Contents (Elt F) → (⟨S50000x128, .f32⟩ : BufTy).Contents (Elt F)),
    StableHlo.binary main_v1622 main_v1626 main_v1627 (addf : (⟨S50000x128, .f32⟩ : BufTy).Contents (Elt F) → (⟨S50000x128, .f32⟩ : BufTy).Contents (Elt F) → (⟨S50000x128, .f32⟩ : BufTy).Contents (Elt F)),
    StableHlo.binary main_v1627 main_v1262 main_v1628 (addf : (⟨S50000x128, .f32⟩ : BufTy).Contents (Elt F) → (⟨S50000x128, .f32⟩ : BufTy).Contents (Elt F) → (⟨S50000x128, .f32⟩ : BufTy).Contents (Elt F)),
    StableHlo.TRef.nullary main_call24.cst (constant S_ .f32 0x00000000#32),
    StableHlo.TRef.unary main_call24.cst main_call24.v0 (broadcastInDim S50000x128 ![] bcast_S_S50000x128),
    StableHlo.TRef.binary (.of main_v1628 : StableHlo.TRef sig ⟨S50000x128, .f32⟩) main_call24.v0 main_call24.v1 maximumf,
    StableHlo.unary main_arg3 main_v1630 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v1630 main_v1631 rfl shapeCasts_S1x128x128_S128x128,
    StableHlo.unary main_arg4 main_v1632 ((extractStridedSlice S1x128x4 ![1, 0, 0] · slices_S2x128x4_S1x128x4_1_0_0) : (⟨S2x128x4, .f32⟩ : BufTy).Contents (Elt F) → (⟨S1x128x4, .f32⟩ : BufTy).Contents (Elt F)),
    StableHlo.reshape main_v1632 main_v1633 rfl shapeCasts_S1x128x4_S128x4,
    StableHlo.unary main_arg5 main_v1634 ((extractStridedSlice S1x128 ![1, 0] · slices_S2x128_S1x128_1_0) : (⟨S2x128, .f32⟩ : BufTy).Contents (Elt F) → (⟨S1x128, .f32⟩ : BufTy).Contents (Elt F)),
    StableHlo.reshape main_v1634 main_v1635 rfl shapeCasts_S1x128_S128,
    StableHlo.unary main_arg6 main_v1636 ((extractStridedSlice S1x128x256 ![1, 0, 0] · slices_S2x128x256_S1x128x256_1_0_0) : (⟨S2x128x256, .f32⟩ : BufTy).Contents (Elt F) → (⟨S1x128x256, .f32⟩ : BufTy).Contents (Elt F)),
    StableHlo.reshape main_v1636 main_v1637 rfl shapeCasts_S1x128x256_S128x256,
    StableHlo.unary main_arg7 main_v1638 ((extractStridedSlice S1x2x128 ![1, 0, 0] · slices_S2x2x128_S1x2x128_1_0_0) : (⟨S2x2x128, .f32⟩ : BufTy).Contents (Elt F) → (⟨S1x2x128, .f32⟩ : BufTy).Contents (Elt F)) ]

/-- The buffers they write, in order. -/
abbrev chunk31_W : List (Ref sig .tc) :=
  [main_cst_274, main_v1584, main_v1585, main_v1586, main_v1587, main_v1588, main_v1589, main_v1590, main_v1591, main_v1592, main_v1593, main_v1594, main_v1595, main_v1596, main_v1597, main_v1598, main_call22.cst.ref, main_call22.v0.ref, main_call22.v1.ref, main_v1600, main_v1601, main_v1602, main_v1603, main_v1604, main_v1605, main_cst_275, main_v1606, main_v1607, main_cst_276, main_v1608, main_v1609, main_c_277, main_call23.cst.ref, main_call23.v0.ref, main_call23.v1.ref, main_call23.cst_0.ref, main_call23.v2.ref, main_call23.v3.ref, main_call23.v4.ref, main_call23.v5.ref, main_call23.v6.ref, main_call23.v7.ref, main_call23.cst_1.ref, main_call23.v8.ref, main_call23.cst_2.ref, main_call23.v9.ref, main_call23.v10.ref, main_call23.v11.ref, main_call23.v12.ref, main_call23.cst_3.ref, main_call23.v13.ref, main_call23.cst_4.ref, main_call23.call0.v0.ref, main_call23.call0.v1.ref, main_call23.call0.v2.ref, main_v1611, main_v1612, main_cst_278, main_v1613, main_v1614, main_v1615, main_v1616, main_v1617, main_v1618, main_v1619, main_v1620, main_v1621, main_v1622, main_v1623, main_v1624, main_v1625, main_v1626, main_v1627, main_v1628, main_call24.cst.ref, main_call24.v0.ref, main_call24.v1.ref, main_v1630, main_v1631, main_v1632, main_v1633, main_v1634, main_v1635, main_v1636, main_v1637, main_v1638]

end Cert.ReferenceIdeal.RefRun

end
-- ==== Proof.RRunChk31.lean ====
/- TABLES over the operations of window `main_part31` (module RRunOps31): one term per operation for each side condition of
   the run, around the one proof text every window shares. -/
import proofs.«413166_j32323923870246_3_alg».proof.Proof.RRunOps31
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part31_eq (c : Dev nD) : main_part31 (F := F) c = seq chunk31 := by
  simp only [main_part31, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk31_sub : (chunk31 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub ..⟩

set_option maxRecDepth 16384 in
/-- Every operation determines its result. -/
theorem chunk31_fresh : ∀ op ∈ (chunk31 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk31 : List (HloOp τ sig (Elt F))).Forall fun op => op.fresh = ∅)

set_option maxRecDepth 16384 in
/-- Each operation writes one buffer of the list. -/
theorem chunk31_writes : (chunk31 : List (HloOp τ sig (Elt F))).Forall fun op =>
    op.writes ⊆ (chunk31_W.map (Proc.devRef (τ := τ) .tc)).toFinset :=
  ⟨writes_sub_of_mem main_cst_274 rfl (by decide),
    writes_sub_of_mem main_v1584 rfl (by decide),
    writes_sub_of_mem main_v1585 rfl (by decide),
    writes_sub_of_mem main_v1586 rfl (by decide),
    writes_sub_of_mem main_v1587 rfl (by decide),
    writes_sub_of_mem main_v1588 rfl (by decide),
    writes_sub_of_mem main_v1589 rfl (by decide),
    writes_sub_of_mem main_v1590 rfl (by decide),
    writes_sub_of_mem main_v1591 rfl (by decide),
    writes_sub_of_mem main_v1592 rfl (by decide),
    writes_sub_of_mem main_v1593 rfl (by decide),
    writes_sub_of_mem main_v1594 rfl (by decide),
    writes_sub_of_mem main_v1595 rfl (by decide),
    writes_sub_of_mem main_v1596 rfl (by decide),
    writes_sub_of_mem main_v1597 rfl (by decide),
    writes_sub_of_mem main_v1598 rfl (by decide),
    writes_sub_of_mem main_call22.cst.ref rfl (by decide),
    writes_sub_of_mem main_call22.v0.ref rfl (by decide),
    writes_sub_of_mem main_call22.v1.ref rfl (by decide),
    writes_sub_of_mem main_v1600 rfl (by decide),
    writes_sub_of_mem main_v1601 rfl (by decide),
    writes_sub_of_mem main_v1602 rfl (by decide),
    writes_sub_of_mem main_v1603 rfl (by decide),
    writes_sub_of_mem main_v1604 rfl (by decide),
    writes_sub_of_mem main_v1605 rfl (by decide),
    writes_sub_of_mem main_cst_275 rfl (by decide),
    writes_sub_of_mem main_v1606 rfl (by decide),
    writes_sub_of_mem main_v1607 rfl (by decide),
    writes_sub_of_mem main_cst_276 rfl (by decide),
    writes_sub_of_mem main_v1608 rfl (by decide),
    writes_sub_of_mem main_v1609 rfl (by decide),
    writes_sub_of_mem main_c_277 rfl (by decide),
    writes_sub_of_mem main_call23.cst.ref rfl (by decide),
    writes_sub_of_mem main_call23.v0.ref rfl (by decide),
    writes_sub_of_mem main_call23.v1.ref rfl (by decide),
    writes_sub_of_mem main_call23.cst_0.ref rfl (by decide),
    writes_sub_of_mem main_call23.v2.ref rfl (by decide),
    writes_sub_of_mem main_call23.v3.ref rfl (by decide),
    writes_sub_of_mem main_call23.v4.ref rfl (by decide),
    writes_sub_of_mem main_call23.v5.ref rfl (by decide),
    writes_sub_of_mem main_call23.v6.ref rfl (by decide),
    writes_sub_of_mem main_call23.v7.ref rfl (by decide),
    writes_sub_of_mem main_call23.cst_1.ref rfl (by decide),
    writes_sub_of_mem main_call23.v8.ref rfl (by decide),
    writes_sub_of_mem main_call23.cst_2.ref rfl (by decide),
    writes_sub_of_mem main_call23.v9.ref rfl (by decide),
    writes_sub_of_mem main_call23.v10.ref rfl (by decide),
    writes_sub_of_mem main_call23.v11.ref rfl (by decide),
    writes_sub_of_mem main_call23.v12.ref rfl (by decide),
    writes_sub_of_mem main_call23.cst_3.ref rfl (by decide),
    writes_sub_of_mem main_call23.v13.ref rfl (by decide),
    writes_sub_of_mem main_call23.cst_4.ref rfl (by decide),
    writes_sub_of_mem main_call23.call0.v0.ref rfl (by decide),
    writes_sub_of_mem main_call23.call0.v1.ref rfl (by decide),
    writes_sub_of_mem main_call23.call0.v2.ref rfl (by decide),
    writes_sub_of_mem main_v1611 rfl (by decide),
    writes_sub_of_mem main_v1612 rfl (by decide),
    writes_sub_of_mem main_cst_278 rfl (by decide),
    writes_sub_of_mem main_v1613 rfl (by decide),
    writes_sub_of_mem main_v1614 rfl (by decide),
    writes_sub_of_mem main_v1615 rfl (by decide),
    writes_sub_of_mem main_v1616 rfl (by decide),
    writes_sub_of_mem main_v1617 rfl (by decide),
    writes_sub_of_mem main_v1618 rfl (by decide),
    writes_sub_of_mem main_v1619 rfl (by decide),
    writes_sub_of_mem main_v1620 rfl (by decide),
    writes_sub_of_mem main_v1621 rfl (by decide),
    writes_sub_of_mem main_v1622 rfl (by decide),
    writes_sub_of_mem main_v1623 rfl (by decide),
    writes_sub_of_mem main_v1624 rfl (by decide),
    writes_sub_of_mem main_v1625 rfl (by decide),
    writes_sub_of_mem main_v1626 rfl (by decide),
    writes_sub_of_mem main_v1627 rfl (by decide),
    writes_sub_of_mem main_v1628 rfl (by decide),
    writes_sub_of_mem main_call24.cst.ref rfl (by decide),
    writes_sub_of_mem main_call24.v0.ref rfl (by decide),
    writes_sub_of_mem main_call24.v1.ref rfl (by decide),
    writes_sub_of_mem main_v1630 rfl (by decide),
    writes_sub_of_mem main_v1631 rfl (by decide),
    writes_sub_of_mem main_v1632 rfl (by decide),
    writes_sub_of_mem main_v1633 rfl (by decide),
    writes_sub_of_mem main_v1634 rfl (by decide),
    writes_sub_of_mem main_v1635 rfl (by decide),
    writes_sub_of_mem main_v1636 rfl (by decide),
    writes_sub_of_mem main_v1637 rfl (by decide),
    writes_sub_of_mem main_v1638 rfl (by decide)⟩

/-- A buffer the window does not write keeps its contents through it. -/
theorem chunk31_keep (V : Valuation τ sig (Elt F)) (r : Ref sig .tc) (h : r ∉ chunk31_W) :
    after chunk31 V (Proc.devRef .tc r) = V (Proc.devRef .tc r) :=
  after_of_writes_sub chunk31 V chunk31_writes h

end Cert.ReferenceIdeal.RefRun

end
-- ==== Proof.RRunOps32.lean ====
/- TABLES transcribed from proof/ReferenceIdeal.lean: window `main_part32` of the reference's @main as a list of host
   operations (84: 2211 … 2294 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part32`, in order, the calls unfolded. -/
abbrev chunk32 : List (HloOp τ sig (Elt F)) :=
  [ StableHlo.reshape main_v1638 main_v1639 rfl shapeCasts_S1x2x128_S2x128,
    StableHlo.unary main_arg8 main_v1640 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v1640 main_v1641 rfl shapeCasts_S1x128x128_S128x128,
    StableHlo.unary main_arg9 main_v1642 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v1642 main_v1643 rfl shapeCasts_S1x128x128_S128x128,
    StableHlo.unary main_arg10 main_v1644 ((extractStridedSlice S1x2x128 ![1, 0, 0] · slices_S2x2x128_S1x2x128_1_0_0) : (⟨S2x2x128, .f32⟩ : BufTy).Contents (Elt F) → (⟨S1x2x128, .f32⟩ : BufTy).Contents (Elt F)),
    StableHlo.reshape main_v1644 main_v1645 rfl shapeCasts_S1x2x128_S2x128,
    StableHlo.unary main_arg11 main_v1646 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v1646 main_v1647 rfl shapeCasts_S1x128x128_S128x128,
    StableHlo.unary main_arg12 main_v1648 ((extractStridedSlice S1x2x128 ![1, 0, 0] · slices_S2x2x128_S1x2x128_1_0_0) : (⟨S2x2x128, .f32⟩ : BufTy).Contents (Elt F) → (⟨S1x2x128, .f32⟩ : BufTy).Contents (Elt F)),
    StableHlo.reshape main_v1648 main_v1649 rfl shapeCasts_S1x2x128_S2x128,
    StableHlo.unary main_arg13 main_v1650 ((extractStridedSlice S1x2x128 ![1, 0, 0] · slices_S2x2x128_S1x2x128_1_0_0) : (⟨S2x2x128, .f32⟩ : BufTy).Contents (Elt F) → (⟨S1x2x128, .f32⟩ : BufTy).Contents (Elt F)),
    StableHlo.reshape main_v1650 main_v1651 rfl shapeCasts_S1x2x128_S2x128,
    StableHlo.nullary main_c_279 (constantI S_ 32 0#32),
    StableHlo.unary main_c_279 main_v1652 (broadcastInDim S150000 ![] bcast_S_S150000 : (⟨S_, .i32⟩ : BufTy).Contents (Elt F) → (⟨S150000, .i32⟩ : BufTy).Contents (Elt F)),
    StableHlo.binary main_arg23 main_v1652 main_v1653 (cmpi .slt : (⟨S150000, .i32⟩ : BufTy).Contents (Elt F) → (⟨S150000, .i32⟩ : BufTy).Contents (Elt F) → (⟨S150000, .i1⟩ : BufTy).Contents (Elt F)),
    StableHlo.nullary main_c_280 (constantI S_ 32 50000#32),
    StableHlo.unary main_c_280 main_v1654 (broadcastInDim S150000 ![] bcast_S_S150000 : (⟨S_, .i32⟩ : BufTy).Contents (Elt F) → (⟨S150000, .i32⟩ : BufTy).Contents (Elt F)),
    StableHlo.binary main_arg23 main_v1654 main_v1655 (addi : (⟨S150000, .i32⟩ : BufTy).Contents (Elt F) → (⟨S150000, .i32⟩ : BufTy).Contents (Elt F) → (⟨S150000, .i32⟩ : BufTy).Contents (Elt F)),
    StableHlo.ternary main_v1653 main_v1655 main_arg23 main_v1656 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v1656 main_v1657 (broadcastInDim S150000x1 ![0] bcast_S150000_S150000x1_0 : (⟨S150000, .i32⟩ : BufTy).Contents (Elt F) → (⟨S150000x1, .i32⟩ : BufTy).Contents (Elt F)),
    StableHlo.binary main_arg1 main_v1657 main_v1658 ((fun x i => Host.gather gather_S50000x4_S150000x1_S150000x4_1_0_n_n_0_1_14 x i) : (⟨S50000x4, .f32⟩ : BufTy).Contents (Elt F) → (⟨S150000x1, .i32⟩ : BufTy).Contents (Elt F) → (⟨S150000x4, .f32⟩ : BufTy).Contents (Elt F)),
    StableHlo.nullary main_c_281 (constantI S_ 32 0#32),
    StableHlo.unary main_c_281 main_v1659 (broadcastInDim S150000 ![] bcast_S_S150000 : (⟨S_, .i32⟩ : BufTy).Contents (Elt F) → (⟨S150000, .i32⟩ : BufTy).Contents (Elt F)),
    StableHlo.binary main_arg24 main_v1659 main_v1660 (cmpi .slt : (⟨S150000, .i32⟩ : BufTy).Contents (Elt F) → (⟨S150000, .i32⟩ : BufTy).Contents (Elt F) → (⟨S150000, .i1⟩ : BufTy).Contents (Elt F)),
    StableHlo.nullary main_c_282 (constantI S_ 32 12000#32),
    StableHlo.unary main_c_282 main_v1661 (broadcastInDim S150000 ![] bcast_S_S150000 : (⟨S_, .i32⟩ : BufTy).Contents (Elt F) → (⟨S150000, .i32⟩ : BufTy).Contents (Elt F)),
    StableHlo.binary main_arg24 main_v1661 main_v1662 (addi : (⟨S150000, .i32⟩ : BufTy).Contents (Elt F) → (⟨S150000, .i32⟩ : BufTy).Contents (Elt F) → (⟨S150000, .i32⟩ : BufTy).Contents (Elt F)),
    StableHlo.ternary main_v1660 main_v1662 main_arg24 main_v1663 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v1663 main_v1664 (broadcastInDim S150000x1 ![0] bcast_S150000_S150000x1_0 : (⟨S150000, .i32⟩ : BufTy).Contents (Elt F) → (⟨S150000x1, .i32⟩ : BufTy).Contents (Elt F)),
    StableHlo.binary main_arg2 main_v1664 main_v1665 ((fun x i => Host.gather gather_S12000x4_S150000x1_S150000x4_1_0_n_n_0_1_14 x i) : (⟨S12000x4, .f32⟩ : BufTy).Contents (Elt F) → (⟨S150000x1, .i32⟩ : BufTy).Contents (Elt F) → (⟨S150000x4, .f32⟩ : BufTy).Contents (Elt F)),
    StableHlo.binary main_v1658 main_v1665 main_v1666 (subf : (⟨S150000x4, .f32⟩ : BufTy).Contents (Elt F) → (⟨S150000x4, .f32⟩ : BufTy).Contents (Elt F) → (⟨S150000x4, .f32⟩ : BufTy).Contents (Elt F)),
    StableHlo.unary main_v1633 main_v1667 ((transpose S4x128 [1, 0] · transposes_S128x4_S4x128_1_0) : (⟨S128x4, .f32⟩ : BufTy).Contents (Elt F) → (⟨S4x128, .f32⟩ : BufTy).Contents (Elt F)),
    StableHlo.binary main_v1666 main_v1667 main_v1668 ((fun l r => Host.dotGeneral dot_S150000x4_S4x128_S150000x128_1_0_0_1_n_n none l r) : (⟨S150000x4, .f32⟩ : BufTy).Contents (Elt F) → (⟨S4x128, .f32⟩ : BufTy).Contents (Elt F) → (⟨S150000x128, .f32⟩ : BufTy).Contents (Elt F)),
    StableHlo.unary main_v1635 main_v1669 (broadcastInDim S1x128 ![1] bcast_S128_S1x128_1 : (⟨S128, .f32⟩ : BufTy).Contents (Elt F) → (⟨S1x128, .f32⟩ : BufTy).Contents (Elt F)),
    StableHlo.unary main_v1669 main_v1670 (broadcastInDim S150000x128 ![0, 1] bcast_S1x128_S150000x128_0_1 : (⟨S1x128, .f32⟩ : BufTy).Contents (Elt F) → (⟨S150000x128, .f32⟩ : BufTy).Contents (Elt F)),
    StableHlo.binary main_v1668 main_v1670 main_v1671 (addf : (⟨S150000x128, .f32⟩ : BufTy).Contents (Elt F) → (⟨S150000x128, .f32⟩ : BufTy).Contents (Elt F) → (⟨S150000x128, .f32⟩ : BufTy).Contents (Elt F)),
    StableHlo.TRef.nullary main_call25.cst (constant S_ .f32 0x00000000#32),
    StableHlo.TRef.unary main_call25.cst main_call25.v0 (broadcastInDim S150000x128 ![] bcast_S_S150000x128),
    StableHlo.TRef.binary (.of main_v1671 : StableHlo.TRef sig ⟨S150000x128, .f32⟩) main_call25.v0 main_call25.v1 maximumf,
    StableHlo.nullary main_c_283 (constantI S_ 32 0#32),
    StableHlo.unary main_c_283 main_v1673 (broadcastInDim S150000 ![] bcast_S_S150000 : (⟨S_, .i32⟩ : BufTy).Contents (Elt F) → (⟨S150000, .i32⟩ : BufTy).Contents (Elt F)),
    StableHlo.binary main_arg23 main_v1673 main_v1674 (cmpi .slt : (⟨S150000, .i32⟩ : BufTy).Contents (Elt F) → (⟨S150000, .i32⟩ : BufTy).Contents (Elt F) → (⟨S150000, .i1⟩ : BufTy).Contents (Elt F)),
    StableHlo.nullary main_c_284 (constantI S_ 32 50000#32),
    StableHlo.unary main_c_284 main_v1675 (broadcastInDim S150000 ![] bcast_S_S150000 : (⟨S_, .i32⟩ : BufTy).Contents (Elt F) → (⟨S150000, .i32⟩ : BufTy).Contents (Elt F)),
    StableHlo.binary main_arg23 main_v1675 main_v1676 (addi : (⟨S150000, .i32⟩ : BufTy).Contents (Elt F) → (⟨S150000, .i32⟩ : BufTy).Contents (Elt F) → (⟨S150000, .i32⟩ : BufTy).Contents (Elt F)),
    StableHlo.ternary main_v1674 main_v1676 main_arg23 main_v1677 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v1677 main_v1678 (broadcastInDim S150000x1 ![0] bcast_S150000_S150000x1_0 : (⟨S150000, .i32⟩ : BufTy).Contents (Elt F) → (⟨S150000x1, .i32⟩ : BufTy).Contents (Elt F)),
    StableHlo.binary main_v1629 main_v1678 main_v1679 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    StableHlo.binary main_v1679 main_v1672 main_v1680 ((fun a b => concatenate S150000x256 1 [⟨S150000x128, a⟩, ⟨S150000x128, b⟩] concatenates_S150000x128_S150000x128_S150000x256_d1) : (⟨S150000x128, .f32⟩ : BufTy).Contents (Elt F) → (⟨S150000x128, .f32⟩ : BufTy).Contents (Elt F) → (⟨S150000x256, .f32⟩ : BufTy).Contents (Elt F)),
    StableHlo.unary main_v1637 main_v1681 ((transpose S256x128 [1, 0] · transposes_S128x256_S256x128_1_0) : (⟨S128x256, .f32⟩ : BufTy).Contents (Elt F) → (⟨S256x128, .f32⟩ : BufTy).Contents (Elt F)),
    StableHlo.binary main_v1680 main_v1681 main_v1682 ((fun l r => Host.dotGeneral dot_S150000x256_S256x128_S150000x128_1_0_0_1_n_n none l r) : (⟨S150000x256, .f32⟩ : BufTy).Contents (Elt F) → (⟨S256x128, .f32⟩ : BufTy).Contents (Elt F) → (⟨S150000x128, .f32⟩ : BufTy).Contents (Elt F)),
    StableHlo.nullary main_cst_285 (constant S_ .f32 0x00000000#32),
    StableHlo.binary main_v1682 main_cst_285 main_v1683 ((fun x v => Host.reduceAdd x v reducesTo_S150000x128_S150000_d1 h_S_) : (⟨S150000x128, .f32⟩ : BufTy).Contents (Elt F) → (⟨S_, .f32⟩ : BufTy).Contents (Elt F) → (⟨S150000, .f32⟩ : BufTy).Contents (Elt F)),
    StableHlo.unary main_v1683 main_v1684 (broadcastInDim S150000x1 ![0] bcast_S150000_S150000x1_0 : (⟨S150000, .f32⟩ : BufTy).Contents (Elt F) → (⟨S150000x1, .f32⟩ : BufTy).Contents (Elt F)),
    StableHlo.nullary main_cst_286 (constant S_ .f32 0x43000000#32),
    StableHlo.unary main_cst_286 main_v1685 (broadcastInDim S150000x1 ![] bcast_S_S150000x1 : (⟨S_, .f32⟩ : BufTy).Contents (Elt F) → (⟨S150000x1, .f32⟩ : BufTy).Contents (Elt F)),
    StableHlo.binary main_v1684 main_v1685 main_v1686 (Host.divf : (⟨S150000x1, .f32⟩ : BufTy).Contents (Elt F) → (⟨S150000x1, .f32⟩ : BufTy).Contents (Elt F) → (⟨S150000x1, .f32⟩ : BufTy).Contents (Elt F)),
    StableHlo.nullary main_c_287 (constantI S_ 32 0#32),
    StableHlo.TRef.nullary main_call26.cst (constant S_ .f32 0x00000000#32),
    StableHlo.TRef.binary (.of main_v1682 : StableHlo.TRef sig ⟨S150000x128, .f32⟩) main_call26.cst main_call26.v0 (fun x v => Host.reduceAdd x v reducesTo_S150000x128_S150000_d1 h_S_),
    StableHlo.TRef.unary main_call26.v0 main_call26.v1 (broadcastInDim S150000x1 ![0] bcast_S150000_S150000x1_0),
    StableHlo.TRef.nullary main_call26.cst_0 (constant S_ .f32 0x43000000#32),
    StableHlo.TRef.unary main_call26.cst_0 main_call26.v2 (broadcastInDim S150000x1 ![] bcast_S_S150000x1),
    StableHlo.TRef.binary main_call26.v1 main_call26.v2 main_call26.v3 Host.divf,
    StableHlo.TRef.unary main_call26.v3 main_call26.v4 (broadcastInDim S150000x128 ![0, 1] bcast_S150000x1_S150000x128_0_1),
    StableHlo.TRef.binary (.of main_v1682 : StableHlo.TRef sig ⟨S150000x128, .f32⟩) main_call26.v4 main_call26.v5 subf,
    StableHlo.TRef.binary main_call26.v5 main_call26.v5 main_call26.v6 mulf,
    StableHlo.TRef.unary (.of main_c_287 : StableHlo.TRef sig ⟨S_, .i32⟩) main_call26.v7 (sitofp .f32),
    StableHlo.TRef.nullary main_call26.cst_1 (constant S_ .f32 0x43000000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S150000x128_S150000_d1 h_S_),
    StableHlo.TRef.unary main_call26.v9 main_call26.v10 (broadcastInDim S150000x1 ![0] bcast_S150000_S150000x1_0),
    StableHlo.TRef.unary main_call26.v8 main_call26.v11 (broadcastInDim S150000x1 ![] bcast_S_S150000x1),
    StableHlo.TRef.binary main_call26.v10 main_call26.v11 main_call26.v12 Host.divf,
    StableHlo.TRef.nullary main_call26.cst_3 (constant S_ .f32 0x00000000#32),
    StableHlo.TRef.binary main_call26.v8 main_call26.cst_3 main_call26.v13 (cmpf .ogt),
    StableHlo.TRef.nullary main_call26.cst_4 (constant S_ .f32 0x7FC00000#32),
    StableHlo.TRef.unary (main_call26.cst_4 : StableHlo.TRef sig ⟨S_, .f32⟩) main_call26.call0.v0 id,
    StableHlo.TRef.unary main_call26.call0.v0 main_call26.call0.v1 (broadcastInDim S150000x1 ![] bcast_S_S150000x1),
    StableHlo.TRef.ternary (main_call26.v13 : StableHlo.TRef sig ⟨S_, .i1⟩) (main_call26.v12 : StableHlo.TRef sig ⟨S150000x1, .f32⟩) main_call26.call0.v1 main_call26.call0.v2 (fun p a b => select (broadcastInDim S150000x1 ![] bcast_S_S150000x1 p) a b),
    StableHlo.unary main_v1686 main_v1688 (broadcastInDim S150000x128 ![0, 1] bcast_S150000x1_S150000x128_0_1 : (⟨S150000x1, .f32⟩ : BufTy).Contents (Elt F) → (⟨S150000x128, .f32⟩ : BufTy).Contents (Elt F)),
    StableHlo.binary main_v1682 main_v1688 main_v1689 (subf : (⟨S150000x128, .f32⟩ : BufTy).Contents (Elt F) → (⟨S150000x128, .f32⟩ : BufTy).Contents (Elt F) → (⟨S150000x128, .f32⟩ : BufTy).Contents (Elt F)) ]

/-- The buffers they write, in order. -/
abbrev chunk32_W : List (Ref sig .tc) :=
  [main_v1639, main_v1640, main_v1641, main_v1642, main_v1643, main_v1644, main_v1645, main_v1646, main_v1647, main_v1648, main_v1649, main_v1650, main_v1651, main_c_279, main_v1652, main_v1653, main_c_280, main_v1654, main_v1655, main_v1656, main_v1657, main_v1658, main_c_281, main_v1659, main_v1660, main_c_282, main_v1661, main_v1662, main_v1663, main_v1664, main_v1665, main_v1666, main_v1667, main_v1668, main_v1669, main_v1670, main_v1671, main_call25.cst.ref, main_call25.v0.ref, main_call25.v1.ref, main_c_283, main_v1673, main_v1674, main_c_284, main_v1675, main_v1676, main_v1677, main_v1678, main_v1679, main_v1680, main_v1681, main_v1682, main_cst_285, main_v1683, main_v1684, main_cst_286, main_v1685, main_v1686, main_c_287, main_call26.cst.ref, main_call26.v0.ref, main_call26.v1.ref, main_call26.cst_0.ref, main_call26.v2.ref, main_call26.v3.ref, main_call26.v4.ref, main_call26.v5.ref, main_call26.v6.ref, main_call26.v7.ref, main_call26.cst_1.ref, main_call26.v8.ref, main_call26.cst_2.ref, main_call26.v9.ref, main_call26.v10.ref, main_call26.v11.ref, main_call26.v12.ref, main_call26.cst_3.ref, main_call26.v13.ref, main_call26.cst_4.ref, main_call26.call0.v0.ref, main_call26.call0.v1.ref, main_call26.call0.v2.ref, main_v1688, main_v1689]

end Cert.ReferenceIdeal.RefRun

end
-- ==== Proof.RRunChk32.lean ====
/- TABLES over the operations of window `main_part32` (module RRunOps32): one term per operation for each side condition of
   the run, around the one proof text every window shares. -/
import proofs.«413166_j32323923870246_3_alg».proof.Proof.RRunOps32
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part32_eq (c : Dev nD) : main_part32 (F := F) c = seq chunk32 := by
  simp only [main_part32, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk32_sub : (chunk32 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub ..⟩

set_option maxRecDepth 16384 in
/-- Every operation determines its result. -/
theorem chunk32_fresh : ∀ op ∈ (chunk32 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk32 : List (HloOp τ sig (Elt F))).Forall fun op => op.fresh = ∅)

set_option maxRecDepth 16384 in
/-- Each operation writes one buffer of the list. -/
theorem chunk32_writes : (chunk32 : List (HloOp τ sig (Elt F))).Forall fun op =>
    op.writes ⊆ (chunk32_W.map (Proc.devRef (τ := τ) .tc)).toFinset :=
  ⟨writes_sub_of_mem main_v1639 rfl (by decide),
    writes_sub_of_mem main_v1640 rfl (by decide),
    writes_sub_of_mem main_v1641 rfl (by decide),
    writes_sub_of_mem main_v1642 rfl (by decide),
    writes_sub_of_mem main_v1643 rfl (by decide),
    writes_sub_of_mem main_v1644 rfl (by decide),
    writes_sub_of_mem main_v1645 rfl (by decide),
    writes_sub_of_mem main_v1646 rfl (by decide),
    writes_sub_of_mem main_v1647 rfl (by decide),
    writes_sub_of_mem main_v1648 rfl (by decide),
    writes_sub_of_mem main_v1649 rfl (by decide),
    writes_sub_of_mem main_v1650 rfl (by decide),
    writes_sub_of_mem main_v1651 rfl (by decide),
    writes_sub_of_mem main_c_279 rfl (by decide),
    writes_sub_of_mem main_v1652 rfl (by decide),
    writes_sub_of_mem main_v1653 rfl (by decide),
    writes_sub_of_mem main_c_280 rfl (by decide),
    writes_sub_of_mem main_v1654 rfl (by decide),
    writes_sub_of_mem main_v1655 rfl (by decide),
    writes_sub_of_mem main_v1656 rfl (by decide),
    writes_sub_of_mem main_v1657 rfl (by decide),
    writes_sub_of_mem main_v1658 rfl (by decide),
    writes_sub_of_mem main_c_281 rfl (by decide),
    writes_sub_of_mem main_v1659 rfl (by decide),
    writes_sub_of_mem main_v1660 rfl (by decide),
    writes_sub_of_mem main_c_282 rfl (by decide),
    writes_sub_of_mem main_v1661 rfl (by decide),
    writes_sub_of_mem main_v1662 rfl (by decide),
    writes_sub_of_mem main_v1663 rfl (by decide),
    writes_sub_of_mem main_v1664 rfl (by decide),
    writes_sub_of_mem main_v1665 rfl (by decide),
    writes_sub_of_mem main_v1666 rfl (by decide),
    writes_sub_of_mem main_v1667 rfl (by decide),
    writes_sub_of_mem main_v1668 rfl (by decide),
    writes_sub_of_mem main_v1669 rfl (by decide),
    writes_sub_of_mem main_v1670 rfl (by decide),
    writes_sub_of_mem main_v1671 rfl (by decide),
    writes_sub_of_mem main_call25.cst.ref rfl (by decide),
    writes_sub_of_mem main_call25.v0.ref rfl (by decide),
    writes_sub_of_mem main_call25.v1.ref rfl (by decide),
    writes_sub_of_mem main_c_283 rfl (by decide),
    writes_sub_of_mem main_v1673 rfl (by decide),
    writes_sub_of_mem main_v1674 rfl (by decide),
    writes_sub_of_mem main_c_284 rfl (by decide),
    writes_sub_of_mem main_v1675 rfl (by decide),
    writes_sub_of_mem main_v1676 rfl (by decide),
    writes_sub_of_mem main_v1677 rfl (by decide),
    writes_sub_of_mem main_v1678 rfl (by decide),
    writes_sub_of_mem main_v1679 rfl (by decide),
    writes_sub_of_mem main_v1680 rfl (by decide),
    writes_sub_of_mem main_v1681 rfl (by decide),
    writes_sub_of_mem main_v1682 rfl (by decide),
    writes_sub_of_mem main_cst_285 rfl (by decide),
    writes_sub_of_mem main_v1683 rfl (by decide),
    writes_sub_of_mem main_v1684 rfl (by decide),
    writes_sub_of_mem main_cst_286 rfl (by decide),
    writes_sub_of_mem main_v1685 rfl (by decide),
    writes_sub_of_mem main_v1686 rfl (by decide),
    writes_sub_of_mem main_c_287 rfl (by decide),
    writes_sub_of_mem main_call26.cst.ref rfl (by decide),
    writes_sub_of_mem main_call26.v0.ref rfl (by decide),
    writes_sub_of_mem main_call26.v1.ref rfl (by decide),
    writes_sub_of_mem main_call26.cst_0.ref rfl (by decide),
    writes_sub_of_mem main_call26.v2.ref rfl (by decide),
    writes_sub_of_mem main_call26.v3.ref rfl (by decide),
    writes_sub_of_mem main_call26.v4.ref rfl (by decide),
    writes_sub_of_mem main_call26.v5.ref rfl (by decide),
    writes_sub_of_mem main_call26.v6.ref rfl (by decide),
    writes_sub_of_mem main_call26.v7.ref rfl (by decide),
    writes_sub_of_mem main_call26.cst_1.ref rfl (by decide),
    writes_sub_of_mem main_call26.v8.ref rfl (by decide),
    writes_sub_of_mem main_call26.cst_2.ref rfl (by decide),
    writes_sub_of_mem main_call26.v9.ref rfl (by decide),
    writes_sub_of_mem main_call26.v10.ref rfl (by decide),
    writes_sub_of_mem main_call26.v11.ref rfl (by decide),
    writes_sub_of_mem main_call26.v12.ref rfl (by decide),
    writes_sub_of_mem main_call26.cst_3.ref rfl (by decide),
    writes_sub_of_mem main_call26.v13.ref rfl (by decide),
    writes_sub_of_mem main_call26.cst_4.ref rfl (by decide),
    writes_sub_of_mem main_call26.call0.v0.ref rfl (by decide),
    writes_sub_of_mem main_call26.call0.v1.ref rfl (by decide),
    writes_sub_of_mem main_call26.call0.v2.ref rfl (by decide),
    writes_sub_of_mem main_v1688 rfl (by decide),
    writes_sub_of_mem main_v1689 rfl (by decide)⟩

/-- A buffer the window does not write keeps its contents through it. -/
theorem chunk32_keep (V : Valuation τ sig (Elt F)) (r : Ref sig .tc) (h : r ∉ chunk32_W) :
    after chunk32 V (Proc.devRef .tc r) = V (Proc.devRef .tc r) :=
  after_of_writes_sub chunk32 V chunk32_writes h

end Cert.ReferenceIdeal.RefRun

end
-- ==== Proof.RRunOps33.lean ====
/- TABLES transcribed from proof/ReferenceIdeal.lean: window `main_part33` of the reference's @main as a list of host
   operations (86: 2295 … 2380 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part33`, in order, the calls unfolded. -/
abbrev chunk33 : List (HloOp τ sig (Elt F)) :=
  [ StableHlo.nullary main_cst_288 (constant S_ .f32 0x3727C5AC#32),
    StableHlo.unary main_cst_288 main_v1690 (broadcastInDim S150000x1 ![] bcast_S_S150000x1 : (⟨S_, .f32⟩ : BufTy).Contents (Elt F) → (⟨S150000x1, .f32⟩ : BufTy).Contents (Elt F)),
    StableHlo.binary main_v1687 main_v1690 main_v1691 (addf : (⟨S150000x1, .f32⟩ : BufTy).Contents (Elt F) → (⟨S150000x1, .f32⟩ : BufTy).Contents (Elt F) → (⟨S150000x1, .f32⟩ : BufTy).Contents (Elt F)),
    StableHlo.unary main_v1691 main_v1692 (Host.sqrt : (⟨S150000x1, .f32⟩ : BufTy).Contents (Elt F) → (⟨S150000x1, .f32⟩ : BufTy).Contents (Elt F)),
    StableHlo.unary main_v1692 main_v1693 (broadcastInDim S150000x128 ![0, 1] bcast_S150000x1_S150000x128_0_1 : (⟨S150000x1, .f32⟩ : BufTy).Contents (Elt F) → (⟨S150000x128, .f32⟩ : BufTy).Contents (Elt F)),
    StableHlo.binary main_v1689 main_v1693 main_v1694 (Host.divf : (⟨S150000x128, .f32⟩ : BufTy).Contents (Elt F) → (⟨S150000x128, .f32⟩ : BufTy).Contents (Elt F) → (⟨S150000x128, .f32⟩ : BufTy).Contents (Elt F)),
    StableHlo.unary main_v1639 main_v1695 ((extractStridedSlice S1x128 ![0, 0] · slices_S2x128_S1x128_0_0) : (⟨S2x128, .f32⟩ : BufTy).Contents (Elt F) → (⟨S1x128, .f32⟩ : BufTy).Contents (Elt F)),
    StableHlo.reshape main_v1695 main_v1696 rfl shapeCasts_S1x128_S128,
    StableHlo.unary main_v1696 main_v1697 (broadcastInDim S1x128 ![1] bcast_S128_S1x128_1 : (⟨S128, .f32⟩ : BufTy).Contents (Elt F) → (⟨S1x128, .f32⟩ : BufTy).Contents (Elt F)),
    StableHlo.unary main_v1697 main_v1698 (broadcastInDim S150000x128 ![0, 1] bcast_S1x128_S150000x128_0_1 : (⟨S1x128, .f32⟩ : BufTy).Contents (Elt F) → (⟨S150000x128, .f32⟩ : BufTy).Contents (Elt F)),
    StableHlo.binary main_v1694 main_v1698 main_v1699 (mulf : (⟨S150000x128, .f32⟩ : BufTy).Contents (Elt F) → (⟨S150000x128, .f32⟩ : BufTy).Contents (Elt F) → (⟨S150000x128, .f32⟩ : BufTy).Contents (Elt F)),
    StableHlo.unary main_v1639 main_v1700 ((extractStridedSlice S1x128 ![1, 0] · slices_S2x128_S1x128_1_0) : (⟨S2x128, .f32⟩ : BufTy).Contents (Elt F) → (⟨S1x128, .f32⟩ : BufTy).Contents (Elt F)),
    StableHlo.reshape main_v1700 main_v1701 rfl shapeCasts_S1x128_S128,
    StableHlo.unary main_v1701 main_v1702 (broadcastInDim S1x128 ![1] bcast_S128_S1x128_1 : (⟨S128, .f32⟩ : BufTy).Contents (Elt F) → (⟨S1x128, .f32⟩ : BufTy).Contents (Elt F)),
    StableHlo.unary main_v1702 main_v1703 (broadcastInDim S150000x128 ![0, 1] bcast_S1x128_S150000x128_0_1 : (⟨S1x128, .f32⟩ : BufTy).Contents (Elt F) → (⟨S150000x128, .f32⟩ : BufTy).Contents (Elt F)),
    StableHlo.binary main_v1699 main_v1703 main_v1704 (addf : (⟨S150000x128, .f32⟩ : BufTy).Contents (Elt F) → (⟨S150000x128, .f32⟩ : BufTy).Contents (Elt F) → (⟨S150000x128, .f32⟩ : BufTy).Contents (Elt F)),
    StableHlo.TRef.nullary main_call27.cst (constant S_ .f32 0x00000000#32),
    StableHlo.TRef.unary main_call27.cst main_call27.v0 (broadcastInDim S150000x128 ![] bcast_S_S150000x128),
    StableHlo.TRef.binary (.of main_v1704 : StableHlo.TRef sig ⟨S150000x128, .f32⟩) main_call27.v0 main_call27.v1 maximumf,
    StableHlo.unary main_v1641 main_v1706 ((transpose S128x128 [1, 0] · transposes_S128x128_S128x128_1_0) : (⟨S128x128, .f32⟩ : BufTy).Contents (Elt F) → (⟨S128x128, .f32⟩ : BufTy).Contents (Elt F)),
    StableHlo.binary main_v1705 main_v1706 main_v1707 ((fun l r => Host.dotGeneral dot_S150000x128_S128x128_S150000x128_1_0_0_1_n_n none l r) : (⟨S150000x128, .f32⟩ : BufTy).Contents (Elt F) → (⟨S128x128, .f32⟩ : BufTy).Contents (Elt F) → (⟨S150000x128, .f32⟩ : BufTy).Contents (Elt F)),
    StableHlo.unary main_v1631 main_v1708 ((transpose S128x128 [1, 0] · transposes_S128x128_S128x128_1_0) : (⟨S128x128, .f32⟩ : BufTy).Contents (Elt F) → (⟨S128x128, .f32⟩ : BufTy).Contents (Elt F)),
    StableHlo.binary main_arg0 main_v1708 main_v1709 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    StableHlo.nullary main_c_289 (constantI S_ 32 0#32),
    StableHlo.unary main_c_289 main_v1710 (broadcastInDim S150000 ![] bcast_S_S150000 : (⟨S_, .i32⟩ : BufTy).Contents (Elt F) → (⟨S150000, .i32⟩ : BufTy).Contents (Elt F)),
    StableHlo.binary main_arg24 main_v1710 main_v1711 (cmpi .slt : (⟨S150000, .i32⟩ : BufTy).Contents (Elt F) → (⟨S150000, .i32⟩ : BufTy).Contents (Elt F) → (⟨S150000, .i1⟩ : BufTy).Contents (Elt F)),
    StableHlo.nullary main_c_290 (constantI S_ 32 12000#32),
    StableHlo.unary main_c_290 main_v1712 (broadcastInDim S150000 ![] bcast_S_S150000 : (⟨S_, .i32⟩ : BufTy).Contents (Elt F) → (⟨S150000, .i32⟩ : BufTy).Contents (Elt F)),
    StableHlo.binary main_arg24 main_v1712 main_v1713 (addi : (⟨S150000, .i32⟩ : BufTy).Contents (Elt F) → (⟨S150000, .i32⟩ : BufTy).Contents (Elt F) → (⟨S150000, .i32⟩ : BufTy).Contents (Elt F)),
    StableHlo.ternary main_v1711 main_v1713 main_arg24 main_v1714 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    StableHlo.unary main_v1714 main_v1715 (broadcastInDim S150000x1 ![0] bcast_S150000_S150000x1_0 : (⟨S150000, .i32⟩ : BufTy).Contents (Elt F) → (⟨S150000x1, .i32⟩ : BufTy).Contents (Elt F)),
    StableHlo.ternary main_v1709 main_v1715 main_v1707 main_v1716 ((fun x i u => Host.scatterAdd scatter_S12000x128_S150000x1_S150000x128_1_0_0_1 x i u) : (⟨S12000x128, .f32⟩ : BufTy).Contents (Elt F) → (⟨S150000x1, .i32⟩ : BufTy).Contents (Elt F) → (⟨S150000x128, .f32⟩ : BufTy).Contents (Elt F) → (⟨S12000x128, .f32⟩ : BufTy).Contents (Elt F)),
    StableHlo.nullary main_cst_291 (constant S_ .f32 0x00000000#32),
    StableHlo.binary main_v1716 main_cst_291 main_v1717 ((fun x v => Host.reduceAdd x v reducesTo_S12000x128_S12000_d1 h_S_) : (⟨S12000x128, .f32⟩ : BufTy).Contents (Elt F) → (⟨S_, .f32⟩ : BufTy).Contents (Elt F) → (⟨S12000, .f32⟩ : BufTy).Contents (Elt F)),
    StableHlo.unary main_v1717 main_v1718 (broadcastInDim S12000x1 ![0] bcast_S12000_S12000x1_0 : (⟨S12000, .f32⟩ : BufTy).Contents (Elt F) → (⟨S12000x1, .f32⟩ : BufTy).Contents (Elt F)),
    StableHlo.nullary main_cst_292 (constant S_ .f32 0x43000000#32),
    StableHlo.unary main_cst_292 main_v1719 (broadcastInDim S12000x1 ![] bcast_S_S12000x1 : (⟨S_, .f32⟩ : BufTy).Contents (Elt F) → (⟨S12000x1, .f32⟩ : BufTy).Contents (Elt F)),
    StableHlo.binary main_v1718 main_v1719 main_v1720 (Host.divf : (⟨S12000x1, .f32⟩ : BufTy).Contents (Elt F) → (⟨S12000x1, .f32⟩ : BufTy).Contents (Elt F) → (⟨S12000x1, .f32⟩ : BufTy).Contents (Elt F)),
    StableHlo.nullary main_c_293 (constantI S_ 32 0#32),
    StableHlo.TRef.nullary main_call28.cst (constant S_ .f32 0x00000000#32),
    StableHlo.TRef.binary (.of main_v1716 : StableHlo.TRef sig ⟨S12000x128, .f32⟩) main_call28.cst main_call28.v0 (fun x v => Host.reduceAdd x v reducesTo_S12000x128_S12000_d1 h_S_),
    StableHlo.TRef.unary main_call28.v0 main_call28.v1 (broadcastInDim S12000x1 ![0] bcast_S12000_S12000x1_0),
    StableHlo.TRef.nullary main_call28.cst_0 (constant S_ .f32 0x43000000#32),
    StableHlo.TRef.unary main_call28.cst_0 main_call28.v2 (broadcastInDim S12000x1 ![] bcast_S_S12000x1),
    StableHlo.TRef.binary main_call28.v1 main_call28.v2 main_call28.v3 Host.divf,
    StableHlo.TRef.unary main_call28.v3 main_call28.v4 (broadcastInDim S12000x128 ![0, 1] bcast_S12000x1_S12000x128_0_1),
    StableHlo.TRef.binary (.of main_v1716 : StableHlo.TRef sig ⟨S12000x128, .f32⟩) main_call28.v4 main_call28.v5 subf,
    StableHlo.TRef.binary main_call28.v5 main_call28.v5 main_call28.v6 mulf,
    StableHlo.TRef.unary (.of main_c_293 : StableHlo.TRef sig ⟨S_, .i32⟩) main_call28.v7 (sitofp .f32),
    StableHlo.TRef.nullary main_call28.cst_1 (constant S_ .f32 0x43000000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S12000x128_S12000_d1 h_S_),
    StableHlo.TRef.unary main_call28.v9 main_call28.v10 (broadcastInDim S12000x1 ![0] bcast_S12000_S12000x1_0),
    StableHlo.TRef.unary main_call28.v8 main_call28.v11 (broadcastInDim S12000x1 ![] bcast_S_S12000x1),
    StableHlo.TRef.binary main_call28.v10 main_call28.v11 main_call28.v12 Host.divf,
    StableHlo.TRef.nullary main_call28.cst_3 (constant S_ .f32 0x00000000#32),
    StableHlo.TRef.binary main_call28.v8 main_call28.cst_3 main_call28.v13 (cmpf .ogt),
    StableHlo.TRef.nullary main_call28.cst_4 (constant S_ .f32 0x7FC00000#32),
    StableHlo.TRef.unary (main_call28.cst_4 : StableHlo.TRef sig ⟨S_, .f32⟩) main_call28.call0.v0 id,
    StableHlo.TRef.unary main_call28.call0.v0 main_call28.call0.v1 (broadcastInDim S12000x1 ![] bcast_S_S12000x1),
    StableHlo.TRef.ternary (main_call28.v13 : StableHlo.TRef sig ⟨S_, .i1⟩) (main_call28.v12 : StableHlo.TRef sig ⟨S12000x1, .f32⟩) main_call28.call0.v1 main_call28.call0.v2 (fun p a b => select (broadcastInDim S12000x1 ![] bcast_S_S12000x1 p) a b),
    StableHlo.unary main_v1720 main_v1722 (broadcastInDim S12000x128 ![0, 1] bcast_S12000x1_S12000x128_0_1 : (⟨S12000x1, .f32⟩ : BufTy).Contents (Elt F) → (⟨S12000x128, .f32⟩ : BufTy).Contents (Elt F)),
    StableHlo.binary main_v1716 main_v1722 main_v1723 (subf : (⟨S12000x128, .f32⟩ : BufTy).Contents (Elt F) → (⟨S12000x128, .f32⟩ : BufTy).Contents (Elt F) → (⟨S12000x128, .f32⟩ : BufTy).Contents (Elt F)),
    StableHlo.nullary main_cst_294 (constant S_ .f32 0x3727C5AC#32),
    StableHlo.unary main_cst_294 main_v1724 (broadcastInDim S12000x1 ![] bcast_S_S12000x1 : (⟨S_, .f32⟩ : BufTy).Contents (Elt F) → (⟨S12000x1, .f32⟩ : BufTy).Contents (Elt F)),
    StableHlo.binary main_v1721 main_v1724 main_v1725 (addf : (⟨S12000x1, .f32⟩ : BufTy).Contents (Elt F) → (⟨S12000x1, .f32⟩ : BufTy).Contents (Elt F) → (⟨S12000x1, .f32⟩ : BufTy).Contents (Elt F)),
    StableHlo.unary main_v1725 main_v1726 (Host.sqrt : (⟨S12000x1, .f32⟩ : BufTy).Contents (Elt F) → (⟨S12000x1, .f32⟩ : BufTy).Contents (Elt F)),
    StableHlo.unary main_v1726 main_v1727 (broadcastInDim S12000x128 ![0, 1] bcast_S12000x1_S12000x128_0_1 : (⟨S12000x1, .f32⟩ : BufTy).Contents (Elt F) → (⟨S12000x128, .f32⟩ : BufTy).Contents (Elt F)),
    StableHlo.binary main_v1723 main_v1727 main_v1728 (Host.divf : (⟨S12000x128, .f32⟩ : BufTy).Contents (Elt F) → (⟨S12000x128, .f32⟩ : BufTy).Contents (Elt F) → (⟨S12000x128, .f32⟩ : BufTy).Contents (Elt F)),
    StableHlo.unary main_v1651 main_v1729 ((extractStridedSlice S1x128 ![0, 0] · slices_S2x128_S1x128_0_0) : (⟨S2x128, .f32⟩ : BufTy).Contents (Elt F) → (⟨S1x128, .f32⟩ : BufTy).Contents (Elt F)),
    StableHlo.reshape main_v1729 main_v1730 rfl shapeCasts_S1x128_S128,
    StableHlo.unary main_v1730 main_v1731 (broadcastInDim S1x128 ![1] bcast_S128_S1x128_1 : (⟨S128, .f32⟩ : BufTy).Contents (Elt F) → (⟨S1x128, .f32⟩ : BufTy).Contents (Elt F)),
    StableHlo.unary main_v1731 main_v1732 (broadcastInDim S12000x128 ![0, 1] bcast_S1x128_S12000x128_0_1 : (⟨S1x128, .f32⟩ : BufTy).Contents (Elt F) → (⟨S12000x128, .f32⟩ : BufTy).Contents (Elt F)),
    StableHlo.binary main_v1728 main_v1732 main_v1733 (mulf : (⟨S12000x128, .f32⟩ : BufTy).Contents (Elt F) → (⟨S12000x128, .f32⟩ : BufTy).Contents (Elt F) → (⟨S12000x128, .f32⟩ : BufTy).Contents (Elt F)),
    StableHlo.unary main_v1651 main_v1734 ((extractStridedSlice S1x128 ![1, 0] · slices_S2x128_S1x128_1_0) : (⟨S2x128, .f32⟩ : BufTy).Contents (Elt F) → (⟨S1x128, .f32⟩ : BufTy).Contents (Elt F)),
    StableHlo.reshape main_v1734 main_v1735 rfl shapeCasts_S1x128_S128,
    StableHlo.unary main_v1735 main_v1736 (broadcastInDim S1x128 ![1] bcast_S128_S1x128_1 : (⟨S128, .f32⟩ : BufTy).Contents (Elt F) → (⟨S1x128, .f32⟩ : BufTy).Contents (Elt F)),
    StableHlo.unary main_v1736 main_v1737 (broadcastInDim S12000x128 ![0, 1] bcast_S1x128_S12000x128_0_1 : (⟨S1x128, .f32⟩ : BufTy).Contents (Elt F) → (⟨S12000x128, .f32⟩ : BufTy).Contents (Elt F)),
    StableHlo.binary main_v1733 main_v1737 main_v1738 (addf : (⟨S12000x128, .f32⟩ : BufTy).Contents (Elt F) → (⟨S12000x128, .f32⟩ : BufTy).Contents (Elt F) → (⟨S12000x128, .f32⟩ : BufTy).Contents (Elt F)),
    StableHlo.TRef.nullary main_call29.cst (constant S_ .f32 0x00000000#32),
    StableHlo.TRef.unary main_call29.cst main_call29.v0 (broadcastInDim S12000x128 ![] bcast_S_S12000x128),
    StableHlo.TRef.binary (.of main_v1738 : StableHlo.TRef sig ⟨S12000x128, .f32⟩) main_call29.v0 main_call29.v1 maximumf,
    StableHlo.unary main_v1643 main_v1740 ((transpose S128x128 [1, 0] · transposes_S128x128_S128x128_1_0) : (⟨S128x128, .f32⟩ : BufTy).Contents (Elt F) → (⟨S128x128, .f32⟩ : BufTy).Contents (Elt F)),
    StableHlo.binary main_v1739 main_v1740 main_v1741 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    StableHlo.nullary main_cst_295 (constant S_ .f32 0x00000000#32) ]

/-- The buffers they write, in order. -/
abbrev chunk33_W : List (Ref sig .tc) :=
  [main_cst_288, main_v1690, main_v1691, main_v1692, main_v1693, main_v1694, main_v1695, main_v1696, main_v1697, main_v1698, main_v1699, main_v1700, main_v1701, main_v1702, main_v1703, main_v1704, main_call27.cst.ref, main_call27.v0.ref, main_call27.v1.ref, main_v1706, main_v1707, main_v1708, main_v1709, main_c_289, main_v1710, main_v1711, main_c_290, main_v1712, main_v1713, main_v1714, main_v1715, main_v1716, main_cst_291, main_v1717, main_v1718, main_cst_292, main_v1719, main_v1720, main_c_293, main_call28.cst.ref, main_call28.v0.ref, main_call28.v1.ref, main_call28.cst_0.ref, main_call28.v2.ref, main_call28.v3.ref, main_call28.v4.ref, main_call28.v5.ref, main_call28.v6.ref, main_call28.v7.ref, main_call28.cst_1.ref, main_call28.v8.ref, main_call28.cst_2.ref, main_call28.v9.ref, main_call28.v10.ref, main_call28.v11.ref, main_call28.v12.ref, main_call28.cst_3.ref, main_call28.v13.ref, main_call28.cst_4.ref, main_call28.call0.v0.ref, main_call28.call0.v1.ref, main_call28.call0.v2.ref, main_v1722, main_v1723, main_cst_294, main_v1724, main_v1725, main_v1726, main_v1727, main_v1728, main_v1729, main_v1730, main_v1731, main_v1732, main_v1733, main_v1734, main_v1735, main_v1736, main_v1737, main_v1738, main_call29.cst.ref, main_call29.v0.ref, main_call29.v1.ref, main_v1740, main_v1741, main_cst_295]

end Cert.ReferenceIdeal.RefRun

end
-- ==== Proof.RRunChk33.lean ====
/- TABLES over the operations of window `main_part33` (module RRunOps33): one term per operation for each side condition of
   the run, around the one proof text every window shares. -/
import proofs.«413166_j32323923870246_3_alg».proof.Proof.RRunOps33
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part33_eq (c : Dev nD) : main_part33 (F := F) c = seq chunk33 := by
  simp only [main_part33, fn_relu.body, fn_relu_2.body, fn_relu_5.body, fn_var.body, fn_var_0.body, fn_var_3.body, fn_where.body, fn_where_1.body, fn_where_4.body, seq, bind_assoc, pure_bind]
  rfl

set_option maxRecDepth 16384 in
/-- Every operation touches TensorCore references only. -/
theorem chunk33_sub : (chunk33 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., nullary_bufs_sub ..⟩

set_option maxRecDepth 16384 in
/-- Every operation determines its result. -/
theorem chunk33_fresh : ∀ op ∈ (chunk33 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk33 : List (HloOp τ sig (Elt F))).Forall fun op => op.fresh = ∅)

set_option maxRecDepth 16384 in
/-- Each operation writes one buffer of the list. -/
theorem chunk33_writes : (chunk33 : List (HloOp τ sig (Elt F))).Forall fun op =>
    op.writes ⊆ (chunk33_W.map (Proc.devRef (τ := τ) .tc)).toFinset :=
  ⟨writes_sub_of_mem main_cst_288 rfl (by decide),
    writes_sub_of_mem main_v1690 rfl (by decide),
    writes_sub_of_mem main_v1691 rfl (by decide),
    writes_sub_of_mem main_v1692 rfl (by decide),
    writes_sub_of_mem main_v1693 rfl (by decide),
    writes_sub_of_mem main_v1694 rfl (by decide),
    writes_sub_of_mem main_v1695 rfl (by decide),
    writes_sub_of_mem main_v1696 rfl (by decide),
    writes_sub_of_mem main_v1697 rfl (by decide),
    writes_sub_of_mem main_v1698 rfl (by decide),
    writes_sub_of_mem main_v1699 rfl (by decide),
    writes_sub_of_mem main_v1700 rfl (by decide),
    writes_sub_of_mem main_v1701 rfl (by decide),
    writes_sub_of_mem main_v1702 rfl (by decide),
    writes_sub_of_mem main_v1703 rfl (by decide),
    writes_sub_of_mem main_v1704 rfl (by decide),
    writes_sub_of_mem main_call27.cst.ref rfl (by decide),
    writes_sub_of_mem main_call27.v0.ref rfl (by decide),
    writes_sub_of_mem main_call27.v1.ref rfl (by decide),
    writes_sub_of_mem main_v1706 rfl (by decide),
    writes_sub_of_mem main_v1707 rfl (by decide),
    writes_sub_of_mem main_v1708 rfl (by decide),
    writes_sub_of_mem main_v1709 rfl (by decide),
    writes_sub_of_mem main_c_289 rfl (by decide),
    writes_sub_of_mem main_v1710 rfl (by decide),
    writes_sub_of_mem main_v1711 rfl (by decide),
    writes_sub_of_mem main_c_290 rfl (by decide),
    writes_sub_of_mem main_v1712 rfl (by decide),
    writes_sub_of_mem main_v1713 rfl (by decide),
    writes_sub_of_mem main_v1714 rfl (by decide),
    writes_sub_of_mem main_v1715 rfl (by decide),
    writes_sub_of_mem main_v1716 rfl (by decide),
    writes_sub_of_mem main_cst_291 rfl (by decide),
    writes_sub_of_mem main_v1717 rfl (by decide),
    writes_sub_of_mem main_v1718 rfl (by decide),
    writes_sub_of_mem main_cst_292 rfl (by decide),
    writes_sub_of_mem main_v1719 rfl (by decide),
    writes_sub_of_mem main_v1720 rfl (by decide),
    writes_sub_of_mem main_c_293 rfl (by decide),
    writes_sub_of_mem main_call28.cst.ref rfl (by decide),
    writes_sub_of_mem main_call28.v0.ref rfl (by decide),
    writes_sub_of_mem main_call28.v1.ref rfl (by decide),
    writes_sub_of_mem main_call28.cst_0.ref rfl (by decide),
    writes_sub_of_mem main_call28.v2.ref rfl (by decide),
    writes_sub_of_mem main_call28.v3.ref rfl (by decide),
    writes_sub_of_mem main_call28.v4.ref rfl (by decide),
    writes_sub_of_mem main_call28.v5.ref rfl (by decide),
    writes_sub_of_mem main_call28.v6.ref rfl (by decide),
    writes_sub_of_mem main_call28.v7.ref rfl (by decide),
    writes_sub_of_mem main_call28.cst_1.ref rfl (by decide),
    writes_sub_of_mem main_call28.v8.ref rfl (by decide),
    writes_sub_of_mem main_call28.cst_2.ref rfl (by decide),
    writes_sub_of_mem main_call28.v9.ref rfl (by decide),
    writes_sub_of_mem main_call28.v10.ref rfl (by decide),
    writes_sub_of_mem main_call28.v11.ref rfl (by decide),
    writes_sub_of_mem main_call28.v12.ref rfl (by decide),
    writes_sub_of_mem main_call28.cst_3.ref rfl (by decide),
    writes_sub_of_mem main_call28.v13.ref rfl (by decide),
    writes_sub_of_mem main_call28.cst_4.ref rfl (by decide),
    writes_sub_of_mem main_call28.call0.v0.ref rfl (by decide),
    writes_sub_of_mem main_call28.call0.v1.ref rfl (by decide),
    writes_sub_of_mem main_call28.call0.v2.ref rfl (by decide),
    writes_sub_of_mem main_v1722 rfl (by decide),
    writes_sub_of_mem main_v1723 rfl (by decide),
    writes_sub_of_mem main_cst_294 rfl (by decide),
    writes_sub_of_mem main_v1724 rfl (by decide),
    writes_sub_of_mem main_v1725 rfl (by decide),
    writes_sub_of_mem main_v1726 rfl (by decide),
    writes_sub_of_mem main_v1727 rfl (by decide),
    writes_sub_of_mem main_v1728 rfl (by decide),
    writes_sub_of_mem main_v1729 rfl (by decide),
    writes_sub_of_mem main_v1730 rfl (by decide),
    writes_sub_of_mem main_v1731 rfl (by decide),
    writes_sub_of_mem main_v1732 rfl (by decide),
    writes_sub_of_mem main_v1733 rfl (by decide),
    writes_sub_of_mem main_v1734 rfl (by decide),
    writes_sub_of_mem main_v1735 rfl (by decide),
    writes_sub_of_mem main_v1736 rfl (by decide),
    writes_sub_of_mem main_v1737 rfl (by decide),
    writes_sub_of_mem main_v1738 rfl (by decide),
    writes_sub_of_mem main_call29.cst.ref rfl (by decide),
    writes_sub_of_mem main_call29.v0.ref rfl (by decide),
    writes_sub_of_mem main_call29.v1.ref rfl (by decide),
    writes_sub_of_mem main_v1740 rfl (by decide),
    writes_sub_of_mem main_v1741 rfl (by decide),
    writes_sub_of_mem main_cst_295 rfl (by decide)⟩

/-- A buffer the window does not write keeps its contents through it. -/
theorem chunk33_keep (V : Valuation τ sig (Elt F)) (r : Ref sig .tc) (h : r ∉ chunk33_W) :
    after chunk33 V (Proc.devRef .tc r) = V (Proc.devRef .tc r) :=
  after_of_writes_sub chunk33 V chunk33_writes h

end Cert.ReferenceIdeal.RefRun

end
-- ==== Proof.RRunOps34.lean ====
/- TABLES transcribed from proof/ReferenceIdeal.lean: window `main_part34` of the reference's @main as a list of host
   operations (104: 2381 … 2484 of 2484), every call's body listed at its call site over the call's
   buffer record, and the buffers those operations write, in order. -/
import proofs.«413166_j32323923870246_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window `main_part34`, in order, the calls unfolded. -/
abbrev chunk34 : List (HloOp τ sig (Elt F)) :=
  [ StableHlo.binary main_v1741 main_cst_295 main_v1742 ((fun x v => Host.reduceAdd x v reducesTo_S12000x128_S12000_d1 h_S_) : (⟨S12000x128, .f32⟩ : BufTy).Contents (Elt F) → (⟨S_, .f32⟩ : BufTy).Contents (Elt F) → (⟨S12000, .f32⟩ : BufTy).Contents (Elt F)),
    StableHlo.unary main_v1742 main_v1743 (broadcastInDim S12000x1 ![0] bcast_S12000_S12000x1_0 : (⟨S12000, .f32⟩ : BufTy).Contents (Elt F) → (⟨S12000x1, .f32⟩ : BufTy).Contents (Elt F)),
    StableHlo.nullary main_cst_296 (constant S_ .f32 0x43000000#32),
    StableHlo.unary main_cst_296 main_v1744 (broadcastInDim S12000x1 ![] bcast_S_S12000x1 : (⟨S_, .f32⟩ : BufTy).Contents (Elt F) → (⟨S12000x1, .f32⟩ : BufTy).Contents (Elt F)),
    StableHlo.binary main_v1743 main_v1744 main_v1745 (Host.divf : (⟨S12000x1, .f32⟩ : BufTy).Contents (Elt F) → (⟨S12000x1, .f32⟩ : BufTy).Contents (Elt F) → (⟨S12000x1, .f32⟩ : BufTy).Contents (Elt F)),
    StableHlo.nullary main_c_297 (constantI S_ 32 0#32),
    StableHlo.TRef.nullary main_call30.cst (constant S_ .f32 0x00000000#32),
    StableHlo.TRef.binary (.of main_v1741 : StableHlo.TRef sig ⟨S12000x128, .f32⟩) main_call30.cst main_call30.v0 (fun x v => Host.reduceAdd x v reducesTo_S12000x128_S12000_d1 h_S_),
    StableHlo.TRef.unary main_call30.v0 main_call30.v1 (broadcastInDim S12000x1 ![0] bcast_S12000_S12000x1_0),
    StableHlo.TRef.nullary main_call30.cst_0 (constant S_ .f32 0x43000000#32),
    StableHlo.TRef.unary main_call30.cst_0 main_call30.v2 (broadcastInDim S12000x1 ![] bcast_S_S12000x1),
    StableHlo.TRef.binary main_call30.v1 main_call30.v2 main_call30.v3 Host.divf,
    StableHlo.TRef.unary main_call30.v3 main_call30.v4 (broadcastInDim S12000x128 ![0, 1] bcast_S12000x1_S12000x128_0_1),
    StableHlo.TRef.binary (.of main_v1741 : StableHlo.TRef sig ⟨S12000x128, .f32⟩) main_call30.v4 main_call30.v5 subf,
    StableHlo.TRef.binary main_call30.v5 main_call30.v5 main_call30.v6 mulf,
    StableHlo.TRef.unary (.of main_c_297 : StableHlo.TRef sig ⟨S_, .i32⟩) main_call30.v7 (sitofp .f32),
    StableHlo.TRef.nullary main_call30.cst_1 (constant S_ .f32 0x43000000#32),
    StableHlo.TRef.binary main_call30.cst_1 main_call30.v7 main_call30.v8 subf,
    StableHlo.TRef.nullary main_call30.cst_2 (constant S_ .f32 0x00000000#32),
    StableHlo.TRef.binary main_call30.v6 main_call30.cst_2 main_call30.v9 (fun x v => Host.reduceAdd x v reducesTo_S12000x128_S12000_d1 h_S_),
    StableHlo.TRef.unary main_call30.v9 main_call30.v10 (broadcastInDim S12000x1 ![0] bcast_S12000_S12000x1_0),
    StableHlo.TRef.unary main_call30.v8 main_call30.v11 (broadcastInDim S12000x1 ![] bcast_S_S12000x1),
    StableHlo.TRef.binary main_call30.v10 main_call30.v11 main_call30.v12 Host.divf,
    StableHlo.TRef.nullary main_call30.cst_3 (constant S_ .f32 0x00000000#32),
    StableHlo.TRef.binary main_call30.v8 main_call30.cst_3 main_call30.v13 (cmpf .ogt),
    StableHlo.TRef.nullary main_call30.cst_4 (constant S_ .f32 0x7FC00000#32),
    StableHlo.TRef.unary (main_call30.cst_4 : StableHlo.TRef sig ⟨S_, .f32⟩) main_call30.call0.v0 id,
    StableHlo.TRef.unary main_call30.call0.v0 main_call30.call0.v1 (broadcastInDim S12000x1 ![] bcast_S_S12000x1),
    StableHlo.TRef.ternary (main_call30.v13 : StableHlo.TRef sig ⟨S_, .i1⟩) (main_call30.v12 : StableHlo.TRef sig ⟨S12000x1, .f32⟩) main_call30.call0.v1 main_call30.call0.v2 (fun p a b => select (broadcastInDim S12000x1 ![] bcast_S_S12000x1 p) a b),
    StableHlo.unary main_v1745 main_v1747 (broadcastInDim S12000x128 ![0, 1] bcast_S12000x1_S12000x128_0_1 : (⟨S12000x1, .f32⟩ : BufTy).Contents (Elt F) → (⟨S12000x128, .f32⟩ : BufTy).Contents (Elt F)),
    StableHlo.binary main_v1741 main_v1747 main_v1748 (subf : (⟨S12000x128, .f32⟩ : BufTy).Contents (Elt F) → (⟨S12000x128, .f32⟩ : BufTy).Contents (Elt F) → (⟨S12000x128, .f32⟩ : BufTy).Contents (Elt F)),
    StableHlo.nullary main_cst_298 (constant S_ .f32 0x3727C5AC#32),
    StableHlo.unary main_cst_298 main_v1749 (broadcastInDim S12000x1 ![] bcast_S_S12000x1 : (⟨S_, .f32⟩ : BufTy).Contents (Elt F) → (⟨S12000x1, .f32⟩ : BufTy).Contents (Elt F)),
    StableHlo.binary main_v1746 main_v1749 main_v1750 (addf : (⟨S12000x1, .f32⟩ : BufTy).Contents (Elt F) → (⟨S12000x1, .f32⟩ : BufTy).Contents (Elt F) → (⟨S12000x1, .f32⟩ : BufTy).Contents (Elt F)),
    StableHlo.unary main_v1750 main_v1751 (Host.sqrt : (⟨S12000x1, .f32⟩ : BufTy).Contents (Elt F) → (⟨S12000x1, .f32⟩ : BufTy).Contents (Elt F)),
    StableHlo.unary main_v1751 main_v1752 (broadcastInDim S12000x128 ![0, 1] bcast_S12000x1_S12000x128_0_1 : (⟨S12000x1, .f32⟩ : BufTy).Contents (Elt F) → (⟨S12000x128, .f32⟩ : BufTy).Contents (Elt F)),
    StableHlo.binary main_v1748 main_v1752 main_v1753 (Host.divf : (⟨S12000x128, .f32⟩ : BufTy).Contents (Elt F) → (⟨S12000x128, .f32⟩ : BufTy).Contents (Elt F) → (⟨S12000x128, .f32⟩ : BufTy).Contents (Elt F)),
    StableHlo.unary main_v1645 main_v1754 ((extractStridedSlice S1x128 ![0, 0] · slices_S2x128_S1x128_0_0) : (⟨S2x128, .f32⟩ : BufTy).Contents (Elt F) → (⟨S1x128, .f32⟩ : BufTy).Contents (Elt F)),
    StableHlo.reshape main_v1754 main_v1755 rfl shapeCasts_S1x128_S128,
    StableHlo.unary main_v1755 main_v1756 (broadcastInDim S1x128 ![1] bcast_S128_S1x128_1 : (⟨S128, .f32⟩ : BufTy).Contents (Elt F) → (⟨S1x128, .f32⟩ : BufTy).Contents (Elt F)),
    StableHlo.unary main_v1756 main_v1757 (broadcastInDim S12000x128 ![0, 1] bcast_S1x128_S12000x128_0_1 : (⟨S1x128, .f32⟩ : BufTy).Contents (Elt F) → (⟨S12000x128, .f32⟩ : BufTy).Contents (Elt F)),
    StableHlo.binary main_v1753 main_v1757 main_v1758 (mulf : (⟨S12000x128, .f32⟩ : BufTy).Contents (Elt F) → (⟨S12000x128, .f32⟩ : BufTy).Contents (Elt F) → (⟨S12000x128, .f32⟩ : BufTy).Contents (Elt F)),
    StableHlo.unary main_v1645 main_v1759 ((extractStridedSlice S1x128 ![1, 0] · slices_S2x128_S1x128_1_0) : (⟨S2x128, .f32⟩ : BufTy).Contents (Elt F) → (⟨S1x128, .f32⟩ : BufTy).Contents (Elt F)),
    StableHlo.reshape main_v1759 main_v1760 rfl shapeCasts_S1x128_S128,
    StableHlo.unary main_v1760 main_v1761 (broadcastInDim S1x128 ![1] bcast_S128_S1x128_1 : (⟨S128, .f32⟩ : BufTy).Contents (Elt F) → (⟨S1x128, .f32⟩ : BufTy).Contents (Elt F)),
    StableHlo.unary main_v1761 main_v1762 (broadcastInDim S12000x128 ![0, 1] bcast_S1x128_S12000x128_0_1 : (⟨S1x128, .f32⟩ : BufTy).Contents (Elt F) → (⟨S12000x128, .f32⟩ : BufTy).Contents (Elt F)),
    StableHlo.binary main_v1758 main_v1762 main_v1763 (addf : (⟨S12000x128, .f32⟩ : BufTy).Contents (Elt F) → (⟨S12000x128, .f32⟩ : BufTy).Contents (Elt F) → (⟨S12000x128, .f32⟩ : BufTy).Contents (Elt F)),
    StableHlo.TRef.nullary main_call31.cst (constant S_ .f32 0x00000000#32),
    StableHlo.TRef.unary main_call31.cst main_call31.v0 (broadcastInDim S12000x128 ![] bcast_S_S12000x128),
    StableHlo.TRef.binary (.of main_v1763 : StableHlo.TRef sig ⟨S12000x128, .f32⟩) main_call31.v0 main_call31.v1 maximumf,
    StableHlo.unary main_v1647 main_v1765 ((transpose S128x128 [1, 0] · transposes_S128x128_S128x128_1_0) : (⟨S128x128, .f32⟩ : BufTy).Contents (Elt F) → (⟨S128x128, .f32⟩ : BufTy).Contents (Elt F)),
    StableHlo.binary main_v1764 main_v1765 main_v1766 ((fun l r => Host.dotGeneral dot_S12000x128_S128x128_S12000x128_1_0_0_1_n_n none l r) : (⟨S12000x128, .f32⟩ : BufTy).Contents (Elt F) → (⟨S128x128, .f32⟩ : BufTy).Contents (Elt F) → (⟨S12000x128, .f32⟩ : BufTy).Contents (Elt F)),
    StableHlo.nullary main_cst_299 (constant S_ .f32 0x00000000#32),
    StableHlo.binary main_v1766 main_cst_299 main_v1767 ((fun x v => Host.reduceAdd x v reducesTo_S12000x128_S12000_d1 h_S_) : (⟨S12000x128, .f32⟩ : BufTy).Contents (Elt F) → (⟨S_, .f32⟩ : BufTy).Contents (Elt F) → (⟨S12000, .f32⟩ : BufTy).Contents (Elt F)),
    StableHlo.unary main_v1767 main_v1768 (broadcastInDim S12000x1 ![0] bcast_S12000_S12000x1_0 : (⟨S12000, .f32⟩ : BufTy).Contents (Elt F) → (⟨S12000x1, .f32⟩ : BufTy).Contents (Elt F)),
    StableHlo.nullary main_cst_300 (constant S_ .f32 0x43000000#32),
    StableHlo.unary main_cst_300 main_v1769 (broadcastInDim S12000x1 ![] bcast_S_S12000x1 : (⟨S_, .f32⟩ : BufTy).Contents (Elt F) → (⟨S12000x1, .f32⟩ : BufTy).Contents (Elt F)),
    StableHlo.binary main_v1768 main_v1769 main_v1770 (Host.divf : (⟨S12000x1, .f32⟩ : BufTy).Contents (Elt F) → (⟨S12000x1, .f32⟩ : BufTy).Contents (Elt F) → (⟨S12000x1, .f32⟩ : BufTy).Contents (Elt F)),
    StableHlo.nullary main_c_301 (constantI S_ 32 0#32),
    StableHlo.TRef.nullary main_call32.cst (constant S_ .f32 0x00000000#32),
    StableHlo.TRef.binary (.of main_v1766 : StableHlo.TRef sig ⟨S12000x128, .f32⟩) main_call32.cst main_call32.v0 (fun x v => Host.reduceAdd x v reducesTo_S12000x128_S12000_d1 h_S_),
    StableHlo.TRef.unary main_call32.v0 main_call32.v1 (broadcastInDim S12000x1 ![0] bcast_S12000_S12000x1_0),
    StableHlo.TRef.nullary main_call32.cst_0 (constant S_ .f32 0x43000000#32),
    StableHlo.TRef.unary main_call32.cst_0 main_call32.v2 (broadcastInDim S12000x1 ![] bcast_S_S12000x1),
    StableHlo.TRef.binary main_call32.v1 main_call32.v2 main_call32.v3 Host.divf,
    StableHlo.TRef.unary main_call32.v3 main_call32.v4 (broadcastInDim S12000x128 ![0, 1] bcast_S12000x1_S12000x128_0_1),
    StableHlo.TRef.binary (.of main_v1766 : StableHlo.TRef sig ⟨S12000x128, .f32⟩) main_call32.v4 main_call32.v5 subf,
    StableHlo.TRef.binary main_call32.v5 main_call32.v5 main_call32.v6 mulf,
    StableHlo.TRef.unary (.of main_c_301 : StableHlo.TRef sig ⟨S_, .i32⟩) main_call32.v7 (sitofp .f32),
    StableHlo.TRef.nullary main_call32.cst_1 (constant S_ .f32 0x43000000#32),
    StableHlo.TRef.binary main_call32.cst_1 main_call32.v7 main_call32.v8 subf,
    StableHlo.TRef.nullary main_call32.cst_2 (constant S_ .f32 0x00000000#32),
    StableHlo.TRef.binary main_call32.v6 main_call32.cst_2 main_call32.v9 (fun x v => Host.reduceAdd x v reducesTo_S12000x128_S12000_d1 h_S_),
    StableHlo.TRef.unary main_call32.v9 main_call32.v10 (broadcastInDim S12000x1 ![0] bcast_S12000_S12000x1_0),
    StableHlo.TRef.unary main_call32.v8 main_call32.v11 (broadcastInDim S12000x1 ![] bcast_S_S12000x1),
    StableHlo.TRef.binary main_call32.v10 main_call32.v11 main_call32.v12 Host.divf,
    StableHlo.TRef.nullary main_call32.cst_3 (constant S_ .f32 0x00000000#32),
    StableHlo.TRef.binary main_call32.v8 main_call32.cst_3 main_call32.v13 (cmpf .ogt),
    StableHlo.TRef.nullary main_call32.cst_4 (constant S_ .f32 0x7FC00000#32),
    StableHlo.TRef.unary (main_call32.cst_4 : StableHlo.TRef sig ⟨S_, .f32⟩) main_call32.call0.v0 id,
    StableHlo.TRef.unary main_call32.call0.v0 main_call32.call0.v1 (broadcastInDim S12000x1 ![] bcast_S_S12000x1),
    StableHlo.TRef.ternary (main_call32.v13 : StableHlo.TRef sig ⟨S_, .i1⟩) (main_call32.v12 : StableHlo.TRef sig ⟨S12000x1, .f32⟩) main_call32.call0.v1 main_call32.call0.v2 (fun p a b => select (broadcastInDim S12000x1 ![] bcast_S_S12000x1 p) a b),
    StableHlo.unary main_v1770 main_v1772 (broadcastInDim S12000x128 ![0, 1] bcast_S12000x1_S12000x128_0_1 : (⟨S12000x1, .f32⟩ : BufTy).Contents (Elt F) → (⟨S12000x128, .f32⟩ : BufTy).Contents (Elt F)),
    StableHlo.binary main_v1766 main_v1772 main_v1773 (subf : (⟨S12000x128, .f32⟩ : BufTy).Contents (Elt F) → (⟨S12000x128, .f32⟩ : BufTy).Contents (Elt F) → (⟨S12000x128, .f32⟩ : BufTy).Contents (Elt F)),
    StableHlo.nullary main_cst_302 (constant S_ .f32 0x3727C5AC#32),
    StableHlo.unary main_cst_302 main_v1774 (broadcastInDim S12000x1 ![] bcast_S_S12000x1 : (⟨S_, .f32⟩ : BufTy).Contents (Elt F) → (⟨S12000x1, .f32⟩ : BufTy).Contents (Elt F)),
    StableHlo.binary main_v1771 main_v1774 main_v1775 (addf : (⟨S12000x1, .f32⟩ : BufTy).Contents (Elt F) → (⟨S12000x1, .f32⟩ : BufTy).Contents (Elt F) → (⟨S12000x1, .f32⟩ : BufTy).Contents (Elt F)),
    StableHlo.unary main_v1775 main_v1776 (Host.sqrt : (⟨S12000x1, .f32⟩ : BufTy).Contents (Elt F) → (⟨S12000x1, .f32⟩ : BufTy).Contents (Elt F)),
    StableHlo.unary main_v1776 main_v1777 (broadcastInDim S12000x128 ![0, 1] bcast_S12000x1_S12000x128_0_1 : (⟨S12000x1, .f32⟩ : BufTy).Contents (Elt F) → (⟨S12000x128, .f32⟩ : BufTy).Contents (Elt F)),
    StableHlo.binary main_v1773 main_v1777 main_v1778 (Host.divf : (⟨S12000x128, .f32⟩ : BufTy).Contents (Elt F) → (⟨S12000x128, .f32⟩ : BufTy).Contents (Elt F) → (⟨S12000x128, .f32⟩ : BufTy).Contents (Elt F)),
    StableHlo.unary main_v1649 main_v1779 ((extractStridedSlice S1x128 ![0, 0] · slices_S2x128_S1x128_0_0) : (⟨S2x128, .f32⟩ : BufTy).Contents (Elt F) → (⟨S1x128, .f32⟩ : BufTy).Contents (Elt F)),
    StableHlo.reshape main_v1779 main_v1780 rfl shapeCasts_S1x128_S128,
    StableHlo.unary main_v1780 main_v1781 (broadcastInDim S1x128 ![1] bcast_S128_S1x128_1 : (⟨S128, .f32⟩ : BufTy).Contents (Elt F) → (⟨S1x128, .f32⟩ : BufTy).Contents (Elt F)),
    StableHlo.unary main_v1781 main_v1782 (broadcastInDim S12000x128 ![0, 1] bcast_S1x128_S12000x128_0_1 : (⟨S1x128, .f32⟩ : BufTy).Contents (Elt F) → (⟨S12000x128, .f32⟩ : BufTy).Contents (Elt F)),
    StableHlo.binary main_v1778 main_v1782 main_v1783 (mulf : (⟨S12000x128, .f32⟩ : BufTy).Contents (Elt F) → (⟨S12000x128, .f32⟩ : BufTy).Contents (Elt F) → (⟨S12000x128, .f32⟩ : BufTy).Contents (Elt F)),
    StableHlo.unary main_v1649 main_v1784 ((extractStridedSlice S1x128 ![1, 0] · slices_S2x128_S1x128_1_0) : (⟨S2x128, .f32⟩ : BufTy).Contents (Elt F) → (⟨S1x128, .f32⟩ : BufTy).Contents (Elt F)),
    StableHlo.reshape main_v1784 main_v1785 rfl shapeCasts_S1x128_S128,
    StableHlo.unary main_v1785 main_v1786 (broadcastInDim S1x128 ![1] bcast_S128_S1x128_1 : (⟨S128, .f32⟩ : BufTy).Contents (Elt F) → (⟨S1x128, .f32⟩ : BufTy).Contents (Elt F)),
    StableHlo.unary main_v1786 main_v1787 (broadcastInDim S12000x128 ![0, 1] bcast_S1x128_S12000x128_0_1 : (⟨S1x128, .f32⟩ : BufTy).Contents (Elt F) → (⟨S12000x128, .f32⟩ : BufTy).Contents (Elt F)),
    StableHlo.binary main_v1783 main_v1787 main_v1788 (addf : (⟨S12000x128, .f32⟩ : BufTy).Contents (Elt F) → (⟨S12000x128, .f32⟩ : BufTy).Contents (Elt F) → (⟨S12000x128, .f32⟩ : BufTy).Contents (Elt F)),
    StableHlo.binary main_v1788 main_arg0 main_v1789 (addf : (⟨S12000x128, .f32⟩ : BufTy).Contents (Elt F) → (⟨S12000x128, .f32⟩ : BufTy).Contents (Elt F) → (⟨S12000x128, .f32⟩ : BufTy).Contents (Elt F)),
    StableHlo.TRef.nullary main_call33.cst (constant S_ .f32 0x00000000#32),
    StableHlo.TRef.unary main_call33.cst main_call33.v0 (broadcastInDim S12000x128 ![] bcast_S_S12000x128),
    StableHlo.TRef.binary (.of main_v1789 : StableHlo.TRef sig ⟨S12000x128, .f32⟩) main_call33.v0 main_call33.v1 maximumf ]

/-- The buffers they write, in order. -/
abbrev chunk34_W : List (Ref sig .tc) :=
  [main_v1742, main_v1743, main_cst_296, main_v1744, main_v1745, main_c_297, main_call30.cst.ref, main_call30.v0.ref, main_call30.v1.ref, main_call30.cst_0.ref, main_call30.v2.ref, main_call30.v3.ref, main_call30.v4.ref, main_call30.v5.ref, main_call30.v6.ref, main_call30.v7.ref, main_call30.cst_1.ref, main_call30.v8.ref, main_call30.cst_2.ref, main_call30.v9.ref, main_call30.v10.ref, main_call30.v11.ref, main_call30.v12.ref, main_call30.cst_3.ref, main_call30.v13.ref, main_call30.cst_4.ref, main_call30.call0.v0.ref, main_call30.call0.v1.ref, main_call30.call0.v2.ref, main_v1747, main_v1748, main_cst_298, main_v1749, main_v1750, main_v1751, main_v1752, main_v1753, main_v1754, main_v1755, main_v1756, main_v1757, main_v1758, main_v1759, main_v1760, main_v1761, main_v1762, main_v1763, main_call31.cst.ref, main_call31.v0.ref, main_call31.v1.ref, main_v1765, main_v1766, main_cst_299, main_v1767, main_v1768, main_cst_300, main_v1769, main_v1770, main_c_301, main_call32.cst.ref, main_call32.v0.ref, main_call32.v1.ref, main_call32.cst_0.ref, main_call32.v2.ref, main_call32.v3.ref, main_call32.v4.ref, main_call32.v5.ref, main_call32.v6.ref, main_call32.v7.ref, main_call32.cst_1.ref, main_call32.v8.ref, main_call32.cst_2.ref, main_call32.v9.ref, main_call32.v10.ref, main_call32.v11.ref, main_call32.v12.ref, main_call32.cst_3.ref, main_call32.v13.ref, main_call32.cst_4.ref, main_call32.call0.v0.ref, main_call32.call0.v1.ref, main_call32.call0.v2.ref, main_v1772, main_v1773, main_cst_302, main_v1774, main_v1775, main_v1776, main_v1777, main_v1778, main_v1779, main_v1780, main_v1781, main_v1782, main_v1783, main_v1784, main_v1785, main_v1786, main_v1787, main_v1788, main_v1789, main_call33.cst.ref, main_call33.v0.ref, main_call33.v1.ref]

end Cert.ReferenceIdeal.RefRun

end
-- ==== Proof.RRunChk34.lean ====
/- TABLES over the operations of window `main_part34` (module RRunOps34): one term per operation for each side condition of
   the run, around the one proof text every window shares. -/
import proofs.«413166_j32323923870246_3_alg».proof.Proof.RRunOps34
import proofs.«413166_j32323923870246_3_alg».proof.Proof.RRunLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The window is that straight line: each function's definition unfolded at its call and each record at its fields,
    both sides are one chain of `hlo` steps once sequencing is reassociated. -/
theorem main_part34_eq (c : Dev nD) : main_part34 (F := F) c = seq chunk34 := by
  simp only [main_part34, fn_relu.body, fn_relu_2.body, fn_relu_5.body, fn_var.body, fn_var_0.body, fn_var_3.body, fn_where.body, fn_where_1.body, fn_where_4.body, seq, bind_assoc, pure_bind]

set_option maxRecDepth 16384 in
/-- Every operation touches TensorCore references only. -/
theorem chunk34_sub : (chunk34 : List (HloOp τ sig (Elt F))).Forall fun op => op.bufs ⊆ tcRefs τ sig :=
  ⟨binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., nullary_bufs_sub .., unary_bufs_sub .., binary_bufs_sub ..⟩

set_option maxRecDepth 16384 in
/-- Every operation determines its result. -/
theorem chunk34_fresh : ∀ op ∈ (chunk34 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (chunk34 : List (HloOp τ sig (Elt F))).Forall fun op => op.fresh = ∅)

set_option maxRecDepth 16384 in
/-- Each operation writes one buffer of the list. -/
theorem chunk34_writes : (chunk34 : List (HloOp τ sig (Elt F))).Forall fun op =>
    op.writes ⊆ (chunk34_W.map (Proc.devRef (τ := τ) .tc)).toFinset :=
  ⟨writes_sub_of_mem main_v1742 rfl (by decide),
    writes_sub_of_mem main_v1743 rfl (by decide),
    writes_sub_of_mem main_cst_296 rfl (by decide),
    writes_sub_of_mem main_v1744 rfl (by decide),
    writes_sub_of_mem main_v1745 rfl (by decide),
    writes_sub_of_mem main_c_297 rfl (by decide),
    writes_sub_of_mem main_call30.cst.ref rfl (by decide),
    writes_sub_of_mem main_call30.v0.ref rfl (by decide),
    writes_sub_of_mem main_call30.v1.ref rfl (by decide),
    writes_sub_of_mem main_call30.cst_0.ref rfl (by decide),
    writes_sub_of_mem main_call30.v2.ref rfl (by decide),
    writes_sub_of_mem main_call30.v3.ref rfl (by decide),
    writes_sub_of_mem main_call30.v4.ref rfl (by decide),
    writes_sub_of_mem main_call30.v5.ref rfl (by decide),
    writes_sub_of_mem main_call30.v6.ref rfl (by decide),
    writes_sub_of_mem main_call30.v7.ref rfl (by decide),
    writes_sub_of_mem main_call30.cst_1.ref rfl (by decide),
    writes_sub_of_mem main_call30.v8.ref rfl (by decide),
    writes_sub_of_mem main_call30.cst_2.ref rfl (by decide),
    writes_sub_of_mem main_call30.v9.ref rfl (by decide),
    writes_sub_of_mem main_call30.v10.ref rfl (by decide),
    writes_sub_of_mem main_call30.v11.ref rfl (by decide),
    writes_sub_of_mem main_call30.v12.ref rfl (by decide),
    writes_sub_of_mem main_call30.cst_3.ref rfl (by decide),
    writes_sub_of_mem main_call30.v13.ref rfl (by decide),
    writes_sub_of_mem main_call30.cst_4.ref rfl (by decide),
    writes_sub_of_mem main_call30.call0.v0.ref rfl (by decide),
    writes_sub_of_mem main_call30.call0.v1.ref rfl (by decide),
    writes_sub_of_mem main_call30.call0.v2.ref rfl (by decide),
    writes_sub_of_mem main_v1747 rfl (by decide),
    writes_sub_of_mem main_v1748 rfl (by decide),
    writes_sub_of_mem main_cst_298 rfl (by decide),
    writes_sub_of_mem main_v1749 rfl (by decide),
    writes_sub_of_mem main_v1750 rfl (by decide),
    writes_sub_of_mem main_v1751 rfl (by decide),
    writes_sub_of_mem main_v1752 rfl (by decide),
    writes_sub_of_mem main_v1753 rfl (by decide),
    writes_sub_of_mem main_v1754 rfl (by decide),
    writes_sub_of_mem main_v1755 rfl (by decide),
    writes_sub_of_mem main_v1756 rfl (by decide),
    writes_sub_of_mem main_v1757 rfl (by decide),
    writes_sub_of_mem main_v1758 rfl (by decide),
    writes_sub_of_mem main_v1759 rfl (by decide),
    writes_sub_of_mem main_v1760 rfl (by decide),
    writes_sub_of_mem main_v1761 rfl (by decide),
    writes_sub_of_mem main_v1762 rfl (by decide),
    writes_sub_of_mem main_v1763 rfl (by decide),
    writes_sub_of_mem main_call31.cst.ref rfl (by decide),
    writes_sub_of_mem main_call31.v0.ref rfl (by decide),
    writes_sub_of_mem main_call31.v1.ref rfl (by decide),
    writes_sub_of_mem main_v1765 rfl (by decide),
    writes_sub_of_mem main_v1766 rfl (by decide),
    writes_sub_of_mem main_cst_299 rfl (by decide),
    writes_sub_of_mem main_v1767 rfl (by decide),
    writes_sub_of_mem main_v1768 rfl (by decide),
    writes_sub_of_mem main_cst_300 rfl (by decide),
    writes_sub_of_mem main_v1769 rfl (by decide),
    writes_sub_of_mem main_v1770 rfl (by decide),
    writes_sub_of_mem main_c_301 rfl (by decide),
    writes_sub_of_mem main_call32.cst.ref rfl (by decide),
    writes_sub_of_mem main_call32.v0.ref rfl (by decide),
    writes_sub_of_mem main_call32.v1.ref rfl (by decide),
    writes_sub_of_mem main_call32.cst_0.ref rfl (by decide),
    writes_sub_of_mem main_call32.v2.ref rfl (by decide),
    writes_sub_of_mem main_call32.v3.ref rfl (by decide),
    writes_sub_of_mem main_call32.v4.ref rfl (by decide),
    writes_sub_of_mem main_call32.v5.ref rfl (by decide),
    writes_sub_of_mem main_call32.v6.ref rfl (by decide),
    writes_sub_of_mem main_call32.v7.ref rfl (by decide),
    writes_sub_of_mem main_call32.cst_1.ref rfl (by decide),
    writes_sub_of_mem main_call32.v8.ref rfl (by decide),
    writes_sub_of_mem main_call32.cst_2.ref rfl (by decide),
    writes_sub_of_mem main_call32.v9.ref rfl (by decide),
    writes_sub_of_mem main_call32.v10.ref rfl (by decide),
    writes_sub_of_mem main_call32.v11.ref rfl (by decide),
    writes_sub_of_mem main_call32.v12.ref rfl (by decide),
    writes_sub_of_mem main_call32.cst_3.ref rfl (by decide),
    writes_sub_of_mem main_call32.v13.ref rfl (by decide),
    writes_sub_of_mem main_call32.cst_4.ref rfl (by decide),
    writes_sub_of_mem main_call32.call0.v0.ref rfl (by decide),
    writes_sub_of_mem main_call32.call0.v1.ref rfl (by decide),
    writes_sub_of_mem main_call32.call0.v2.ref rfl (by decide),
    writes_sub_of_mem main_v1772 rfl (by decide),
    writes_sub_of_mem main_v1773 rfl (by decide),
    writes_sub_of_mem main_cst_302 rfl (by decide),
    writes_sub_of_mem main_v1774 rfl (by decide),
    writes_sub_of_mem main_v1775 rfl (by decide),
    writes_sub_of_mem main_v1776 rfl (by decide),
    writes_sub_of_mem main_v1777 rfl (by decide),
    writes_sub_of_mem main_v1778 rfl (by decide),
    writes_sub_of_mem main_v1779 rfl (by decide),
    writes_sub_of_mem main_v1780 rfl (by decide),
    writes_sub_of_mem main_v1781 rfl (by decide),
    writes_sub_of_mem main_v1782 rfl (by decide),
    writes_sub_of_mem main_v1783 rfl (by decide),
    writes_sub_of_mem main_v1784 rfl (by decide),
    writes_sub_of_mem main_v1785 rfl (by decide),
    writes_sub_of_mem main_v1786 rfl (by decide),
    writes_sub_of_mem main_v1787 rfl (by decide),
    writes_sub_of_mem main_v1788 rfl (by decide),
    writes_sub_of_mem main_v1789 rfl (by decide),
    writes_sub_of_mem main_call33.cst.ref rfl (by decide),
    writes_sub_of_mem main_call33.v0.ref rfl (by decide),
    writes_sub_of_mem main_call33.v1.ref rfl (by decide)⟩

/-- A buffer the window does not write keeps its contents through it. -/
theorem chunk34_keep (V : Valuation τ sig (Elt F)) (r : Ref sig .tc) (h : r ∉ chunk34_W) :
    after chunk34 V (Proc.devRef .tc r) = V (Proc.devRef .tc r) :=
  after_of_writes_sub chunk34 V chunk34_writes h

end Cert.ReferenceIdeal.RefRun

end
-- ==== Proof.RRun.lean ====
/- The reference's run. Its @main is thirty-five printed windows; each is a straight line of host operations once the
   functions it calls are unfolded at their call sites (modules RRunOps00 … RRunOps34 list them, RRunChk00 … RRunChk34
   prove each window equal to its line and give the line's side conditions). Here the lines are joined: @main is the
   one line `ops`, every weakly fair execution of it terminates with each buffer at the fold of the operations over
   the launch contents, and no operation writes an argument, so the arguments end as launched. -/
import proofs.«413166_j32323923870246_3_alg».proof.Proof.RRunChk00
import proofs.«413166_j32323923870246_3_alg».proof.Proof.RRunChk01
import proofs.«413166_j32323923870246_3_alg».proof.Proof.RRunChk02
import proofs.«413166_j32323923870246_3_alg».proof.Proof.RRunChk03
import proofs.«413166_j32323923870246_3_alg».proof.Proof.RRunChk04
import proofs.«413166_j32323923870246_3_alg».proof.Proof.RRunChk05
import proofs.«413166_j32323923870246_3_alg».proof.Proof.RRunChk06
import proofs.«413166_j32323923870246_3_alg».proof.Proof.RRunChk07
import proofs.«413166_j32323923870246_3_alg».proof.Proof.RRunChk08
import proofs.«413166_j32323923870246_3_alg».proof.Proof.RRunChk09
import proofs.«413166_j32323923870246_3_alg».proof.Proof.RRunChk10
import proofs.«413166_j32323923870246_3_alg».proof.Proof.RRunChk11
import proofs.«413166_j32323923870246_3_alg».proof.Proof.RRunChk12
import proofs.«413166_j32323923870246_3_alg».proof.Proof.RRunChk13
import proofs.«413166_j32323923870246_3_alg».proof.Proof.RRunChk14
import proofs.«413166_j32323923870246_3_alg».proof.Proof.RRunChk15
import proofs.«413166_j32323923870246_3_alg».proof.Proof.RRunChk16
import proofs.«413166_j32323923870246_3_alg».proof.Proof.RRunChk17
import proofs.«413166_j32323923870246_3_alg».proof.Proof.RRunChk18
import proofs.«413166_j32323923870246_3_alg».proof.Proof.RRunChk19
import proofs.«413166_j32323923870246_3_alg».proof.Proof.RRunChk20
import proofs.«413166_j32323923870246_3_alg».proof.Proof.RRunChk21
import proofs.«413166_j32323923870246_3_alg».proof.Proof.RRunChk22
import proofs.«413166_j32323923870246_3_alg».proof.Proof.RRunChk23
import proofs.«413166_j32323923870246_3_alg».proof.Proof.RRunChk24
import proofs.«413166_j32323923870246_3_alg».proof.Proof.RRunChk25
import proofs.«413166_j32323923870246_3_alg».proof.Proof.RRunChk26
import proofs.«413166_j32323923870246_3_alg».proof.Proof.RRunChk27
import proofs.«413166_j32323923870246_3_alg».proof.Proof.RRunChk28
import proofs.«413166_j32323923870246_3_alg».proof.Proof.RRunChk29
import proofs.«413166_j32323923870246_3_alg».proof.Proof.RRunChk30
import proofs.«413166_j32323923870246_3_alg».proof.Proof.RRunChk31
import proofs.«413166_j32323923870246_3_alg».proof.Proof.RRunChk32
import proofs.«413166_j32323923870246_3_alg».proof.Proof.RRunChk33
import proofs.«413166_j32323923870246_3_alg».proof.Proof.RRunChk34
import proofs.«413166_j32323923870246_3_alg».proof.Proof.Gen.Pre_finite_inputs
import proofs.«413166_j32323923870246_3_alg».proof.Defs
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the windows' lines one after the other. -/
abbrev ops : List (HloOp τ sig (Elt F)) :=
  chunk0 ++ (chunk1 ++ (chunk2 ++ (chunk3 ++ (chunk4 ++ (chunk5 ++ (chunk6 ++ (chunk7 ++ (chunk8 ++ (chunk9 ++ (chunk10 ++ (chunk11 ++ (chunk12 ++ (chunk13 ++ (chunk14 ++ (chunk15 ++ (chunk16 ++ (chunk17 ++ (chunk18 ++ (chunk19 ++ (chunk20 ++ (chunk21 ++ (chunk22 ++ (chunk23 ++ (chunk24 ++ (chunk25 ++ (chunk26 ++ (chunk27 ++ (chunk28 ++ (chunk29 ++ (chunk30 ++ (chunk31 ++ (chunk32 ++ (chunk33 ++ (chunk34))))))))))))))))))))))))))))))))))

set_option maxRecDepth 8192 in
/-- @main runs its windows in order, and a line after a line is the concatenation run as one. -/
theorem main_eq (c : Dev nD) : main (F := F) c = seq ops := by
  simp only [ops, seq_append,
    ← main_part0_eq c, ← main_part1_eq c, ← main_part2_eq c, ← main_part3_eq c, ← main_part4_eq c,
    ← main_part5_eq c, ← main_part6_eq c, ← main_part7_eq c, ← main_part8_eq c, ← main_part9_eq c,
    ← main_part10_eq c, ← main_part11_eq c, ← main_part12_eq c, ← main_part13_eq c, ← main_part14_eq c,
    ← main_part15_eq c, ← main_part16_eq c, ← main_part17_eq c, ← main_part18_eq c, ← main_part19_eq c,
    ← main_part20_eq c, ← main_part21_eq c, ← main_part22_eq c, ← main_part23_eq c, ← main_part24_eq c,
    ← main_part25_eq c, ← main_part26_eq c, ← main_part27_eq c, ← main_part28_eq c, ← main_part29_eq c,
    ← main_part30_eq c, ← main_part31_eq c, ← main_part32_eq c, ← main_part33_eq c, ← main_part34_eq c]
  rfl

/-- No TensorCore buffer is scoped: the signature has HBM buffers only, and it scopes none of them (a reference into
    shared memory would be one the TensorCore does not name). -/
theorem scopedRefs_eq : (Finset.univ.filter fun b : Ref sig .tc => b.isScoped) = ∅ := by
  rw [Finset.filter_eq_empty_iff]
  intro b _
  obtain ⟨sp, i, h⟩ := b
  cases sp with
  | core cs => cases cs <;> exact Bool.false_ne_true
  | shared => exact absurd h Bool.false_ne_true
  | hbm => exact Bool.false_ne_true
  | host => exact Bool.false_ne_true
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h | h | h | h | h | h | h | h | h
    exacts [List.forall_iff_forall_mem.mp chunk0_sub op h, List.forall_iff_forall_mem.mp chunk1_sub op h,
      List.forall_iff_forall_mem.mp chunk2_sub op h, List.forall_iff_forall_mem.mp chunk3_sub op h,
      List.forall_iff_forall_mem.mp chunk4_sub op h, List.forall_iff_forall_mem.mp chunk5_sub op h,
      List.forall_iff_forall_mem.mp chunk6_sub op h, List.forall_iff_forall_mem.mp chunk7_sub op h,
      List.forall_iff_forall_mem.mp chunk8_sub op h, List.forall_iff_forall_mem.mp chunk9_sub op h,
      List.forall_iff_forall_mem.mp chunk10_sub op h, List.forall_iff_forall_mem.mp chunk11_sub op h,
      List.forall_iff_forall_mem.mp chunk12_sub op h, List.forall_iff_forall_mem.mp chunk13_sub op h,
      List.forall_iff_forall_mem.mp chunk14_sub op h, List.forall_iff_forall_mem.mp chunk15_sub op h,
      List.forall_iff_forall_mem.mp chunk16_sub op h, List.forall_iff_forall_mem.mp chunk17_sub op h,
      List.forall_iff_forall_mem.mp chunk18_sub op h, List.forall_iff_forall_mem.mp chunk19_sub op h,
      List.forall_iff_forall_mem.mp chunk20_sub op h, List.forall_iff_forall_mem.mp chunk21_sub op h,
      List.forall_iff_forall_mem.mp chunk22_sub op h, List.forall_iff_forall_mem.mp chunk23_sub op h,
      List.forall_iff_forall_mem.mp chunk24_sub op h, List.forall_iff_forall_mem.mp chunk25_sub op h,
      List.forall_iff_forall_mem.mp chunk26_sub op h, List.forall_iff_forall_mem.mp chunk27_sub op h,
      List.forall_iff_forall_mem.mp chunk28_sub op h, List.forall_iff_forall_mem.mp chunk29_sub op h,
      List.forall_iff_forall_mem.mp chunk30_sub op h, List.forall_iff_forall_mem.mp chunk31_sub op h,
      List.forall_iff_forall_mem.mp chunk32_sub op h, List.forall_iff_forall_mem.mp chunk33_sub op h,
      List.forall_iff_forall_mem.mp chunk34_sub op h]

/-- Every operation determines its result: window by window. -/
theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h | h | h | h | h | h | h | h | h
  exacts [chunk0_fresh op h, chunk1_fresh op h, chunk2_fresh op h, chunk3_fresh op h, chunk4_fresh op h,
    chunk5_fresh op h, chunk6_fresh op h, chunk7_fresh op h, chunk8_fresh op h, chunk9_fresh op h,
    chunk10_fresh op h, chunk11_fresh op h, chunk12_fresh op h, chunk13_fresh op h, chunk14_fresh op h,
    chunk15_fresh op h, chunk16_fresh op h, chunk17_fresh op h, chunk18_fresh op h, chunk19_fresh op h,
    chunk20_fresh op h, chunk21_fresh op h, chunk22_fresh op h, chunk23_fresh op h, chunk24_fresh op h,
    chunk25_fresh op h, chunk26_fresh op h, chunk27_fresh op h, chunk28_fresh op h, chunk29_fresh op h,
    chunk30_fresh op h, chunk31_fresh op h, chunk32_fresh op h, chunk33_fresh op h, chunk34_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- No window writes the buffer. -/
abbrev Unwritten (r : Ref sig .tc) : Prop :=
  r ∉ chunk0_W ∧ r ∉ chunk1_W ∧ r ∉ chunk2_W ∧ r ∉ chunk3_W ∧ r ∉ chunk4_W ∧ r ∉ chunk5_W ∧ r ∉ chunk6_W ∧
  r ∉ chunk7_W ∧ r ∉ chunk8_W ∧ r ∉ chunk9_W ∧ r ∉ chunk10_W ∧ r ∉ chunk11_W ∧ r ∉ chunk12_W ∧ r ∉ chunk13_W ∧
  r ∉ chunk14_W ∧ r ∉ chunk15_W ∧ r ∉ chunk16_W ∧ r ∉ chunk17_W ∧ r ∉ chunk18_W ∧ r ∉ chunk19_W ∧
  r ∉ chunk20_W ∧ r ∉ chunk21_W ∧ r ∉ chunk22_W ∧ r ∉ chunk23_W ∧ r ∉ chunk24_W ∧ r ∉ chunk25_W ∧
  r ∉ chunk26_W ∧ r ∉ chunk27_W ∧ r ∉ chunk28_W ∧ r ∉ chunk29_W ∧ r ∉ chunk30_W ∧ r ∉ chunk31_W ∧
  r ∉ chunk32_W ∧ r ∉ chunk33_W ∧ r ∉ chunk34_W

set_option synthInstance.maxSize 4096 in
/-- Whether no window writes the buffer is decided list by list (the conjunction is longer than instance search
    admits by default). -/
instance (r : Ref sig .tc) : Decidable (Unwritten r) := by delta Unwritten; infer_instance

/-- A buffer no window writes holds after @main's operations what it held before them. -/
theorem ops_keep (V : Valuation τ sig (Elt F)) (r : Ref sig .tc) (h : Unwritten r) :
    after ops V (Proc.devRef .tc r) = V (Proc.devRef .tc r) := by
  obtain ⟨h0, h1, h2, h3, h4, h5, h6, h7, h8, h9, h10, h11, h12, h13, h14, h15, h16, h17, h18, h19, h20, h21, h22, h23, h24, h25, h26, h27, h28, h29, h30, h31, h32, h33, h34⟩ := h
  simp only [ops, after_append]
  rw [chunk34_keep _ r h34, chunk33_keep _ r h33, chunk32_keep _ r h32, chunk31_keep _ r h31,
    chunk30_keep _ r h30, chunk29_keep _ r h29, chunk28_keep _ r h28, chunk27_keep _ r h27,
    chunk26_keep _ r h26, chunk25_keep _ r h25, chunk24_keep _ r h24, chunk23_keep _ r h23,
    chunk22_keep _ r h22, chunk21_keep _ r h21, chunk20_keep _ r h20, chunk19_keep _ r h19,
    chunk18_keep _ r h18, chunk17_keep _ r h17, chunk16_keep _ r h16, chunk15_keep _ r h15,
    chunk14_keep _ r h14, chunk13_keep _ r h13, chunk12_keep _ r h12, chunk11_keep _ r h11,
    chunk10_keep _ r h10, chunk9_keep _ r h9, chunk8_keep _ r h8, chunk7_keep _ r h7, chunk6_keep _ r h6,
    chunk5_keep _ r h5, chunk4_keep _ r h4, chunk3_keep _ r h3, chunk2_keep _ r h2, chunk1_keep _ r h1,
    chunk0_keep _ r h0]

-- twenty-nine decisions, each a walk of all thirty-five lists of written buffers
set_option maxHeartbeats 4000000 in
set_option maxRecDepth 8192 in
/-- The reference's frame: every weakly fair execution of its @main terminates, and each of the twenty-nine
    arguments ends as launched (no operation writes one). -/
theorem frame_ref : Cert.frame_ReferenceIdeal := by
  unfold Cert.frame_ReferenceIdeal
  intro m g _
  exact (θ_run (defs (F := Ideal)) (onTc (τ := τ) (main (F := Ideal))) ⟨m, fun _ => 0, g⟩).mono (fun _ h c =>
    ⟨(h c main_arg0).trans (ops_keep _ main_arg0 (by decide)),
     (h c main_arg1).trans (ops_keep _ main_arg1 (by decide)),
     (h c main_arg2).trans (ops_keep _ main_arg2 (by decide)),
     (h c main_arg3).trans (ops_keep _ main_arg3 (by decide)),
     (h c main_arg4).trans (ops_keep _ main_arg4 (by decide)),
     (h c main_arg5).trans (ops_keep _ main_arg5 (by decide)),
     (h c main_arg6).trans (ops_keep _ main_arg6 (by decide)),
     (h c main_arg7).trans (ops_keep _ main_arg7 (by decide)),
     (h c main_arg8).trans (ops_keep _ main_arg8 (by decide)),
     (h c main_arg9).trans (ops_keep _ main_arg9 (by decide)),
     (h c main_arg10).trans (ops_keep _ main_arg10 (by decide)),
     (h c main_arg11).trans (ops_keep _ main_arg11 (by decide)),
     (h c main_arg12).trans (ops_keep _ main_arg12 (by decide)),
     (h c main_arg13).trans (ops_keep _ main_arg13 (by decide)),
     (h c main_arg14).trans (ops_keep _ main_arg14 (by decide)),
     (h c main_arg15).trans (ops_keep _ main_arg15 (by decide)),
     (h c main_arg16).trans (ops_keep _ main_arg16 (by decide)),
     (h c main_arg17).trans (ops_keep _ main_arg17 (by decide)),
     (h c main_arg18).trans (ops_keep _ main_arg18 (by decide)),
     (h c main_arg19).trans (ops_keep _ main_arg19 (by decide)),
     (h c main_arg20).trans (ops_keep _ main_arg20 (by decide)),
     (h c main_arg21).trans (ops_keep _ main_arg21 (by decide)),
     (h c main_arg22).trans (ops_keep _ main_arg22 (by decide)),
     (h c main_arg23).trans (ops_keep _ main_arg23 (by decide)),
     (h c main_arg24).trans (ops_keep _ main_arg24 (by decide)),
     (h c main_arg25).trans (ops_keep _ main_arg25 (by decide)),
     (h c main_arg26).trans (ops_keep _ main_arg26 (by decide)),
     (h c main_arg27).trans (ops_keep _ main_arg27 (by decide)),
     (h c main_arg28).trans (ops_keep _ main_arg28 (by decide))⟩)
    (run_main (F := Ideal) m g)

end Cert.ReferenceIdeal.RefRun

end
-- ==== Proof.RChainAlg.lean ====
/-
  The reference's dataflow by stage, as equations between the buffers' final contents, and their composition into the
  network. A buffer of the reference is written once, so what it holds after the whole run is the value its stage
  computed; the stages are: the first pooling layer (statements 1–187 of @main, result %161), four fusion layers
  (statements 188–618, 619–1049, 1050–1480, 1481–1911: the centre product in 4 statements, twelve + two edge steps of 26
  statements each, the node stage in 63; results %528, %895, %1262, %1629), and the second pooling layer (statements
  1912–2096, result %1790, the one the function returns).
-/
import proofs.«413166_j32323923870246_3_alg».proof.ReferenceIdeal
import proofs.«413166_j32323923870246_3_alg».proof.Proof.Net

noncomputable section

namespace Cert.RChain

open Idealize.ShloMosaic Idealize.SL.Sem Cert.ReferenceIdeal

/-- Buffer contents of the reference's device at the ideal instance. -/
abbrev Val := Valuation τ sig (Elt Ideal)

/-- The stage equations: each stage's result buffer holds the stage's function of the buffers it read. -/
structure StageEqs (A : Spec.Args) (R : Val) : Prop where
  lp0 : (R (Proc.devRef .tc main_v161) : S50000x128.Idx → EReal) = Spec.toVec2 (Spec.g0 A)
  ctr0 : (R (Proc.devRef .tc main_v165) : S50000x128.Idx → EReal) = Spec.toVec2 (Spec.lin (Spec.ofVec2 (a := 50000) (b := 128) (R (Proc.devRef .tc main_v161))) (A.fuse_ctr_w 0))
  ps0_0 : (R (Proc.devRef .tc main_v187) : S50000x128.Idx → EReal) = Spec.toVec2 (Spec.edgeStep (Spec.ofVec2 (a := 50000) (b := 128) (R (Proc.devRef .tc main_v161))) (Spec.ofVec2 (a := 50000) (b := 128) (R (Proc.devRef .tc main_v165))) (A.ps_u 0) (A.ps_v 0) (A.fuse_ps_w 0 0))
  ps0_1 : (R (Proc.devRef .tc main_v209) : S50000x128.Idx → EReal) = Spec.toVec2 (Spec.edgeStep (Spec.ofVec2 (a := 50000) (b := 128) (R (Proc.devRef .tc main_v161))) (Spec.ofVec2 (a := 50000) (b := 128) (R (Proc.devRef .tc main_v187))) (A.ps_u 1) (A.ps_v 1) (A.fuse_ps_w 0 1))
  ps0_2 : (R (Proc.devRef .tc main_v231) : S50000x128.Idx → EReal) = Spec.toVec2 (Spec.edgeStep (Spec.ofVec2 (a := 50000) (b := 128) (R (Proc.devRef .tc main_v161))) (Spec.ofVec2 (a := 50000) (b := 128) (R (Proc.devRef .tc main_v209))) (A.ps_u 2) (A.ps_v 2) (A.fuse_ps_w 0 2))
  ps0_3 : (R (Proc.devRef .tc main_v253) : S50000x128.Idx → EReal) = Spec.toVec2 (Spec.edgeStep (Spec.ofVec2 (a := 50000) (b := 128) (R (Proc.devRef .tc main_v161))) (Spec.ofVec2 (a := 50000) (b := 128) (R (Proc.devRef .tc main_v231))) (A.ps_u 3) (A.ps_v 3) (A.fuse_ps_w 0 3))
  ps0_4 : (R (Proc.devRef .tc main_v275) : S50000x128.Idx → EReal) = Spec.toVec2 (Spec.edgeStep (Spec.ofVec2 (a := 50000) (b := 128) (R (Proc.devRef .tc main_v161))) (Spec.ofVec2 (a := 50000) (b := 128) (R (Proc.devRef .tc main_v253))) (A.ps_u 4) (A.ps_v 4) (A.fuse_ps_w 0 4))
  ps0_5 : (R (Proc.devRef .tc main_v297) : S50000x128.Idx → EReal) = Spec.toVec2 (Spec.edgeStep (Spec.ofVec2 (a := 50000) (b := 128) (R (Proc.devRef .tc main_v161))) (Spec.ofVec2 (a := 50000) (b := 128) (R (Proc.devRef .tc main_v275))) (A.ps_u 5) (A.ps_v 5) (A.fuse_ps_w 0 5))
  ps0_6 : (R (Proc.devRef .tc main_v319) : S50000x128.Idx → EReal) = Spec.toVec2 (Spec.edgeStep (Spec.ofVec2 (a := 50000) (b := 128) (R (Proc.devRef .tc main_v161))) (Spec.ofVec2 (a := 50000) (b := 128) (R (Proc.devRef .tc main_v297))) (A.ps_u 6) (A.ps_v 6) (A.fuse_ps_w 0 6))
  ps0_7 : (R (Proc.devRef .tc main_v341) : S50000x128.Idx → EReal) = Spec.toVec2 (Spec.edgeStep (Spec.ofVec2 (a := 50000) (b := 128) (R (Proc.devRef .tc main_v161))) (Spec.ofVec2 (a := 50000) (b := 128) (R (Proc.devRef .tc main_v319))) (A.ps_u 7) (A.ps_v 7) (A.fuse_ps_w 0 7))
  ps0_8 : (R (Proc.devRef .tc main_v363) : S50000x128.Idx → EReal) = Spec.toVec2 (Spec.edgeStep (Spec.ofVec2 (a := 50000) (b := 128) (R (Proc.devRef .tc main_v161))) (Spec.ofVec2 (a := 50000) (b := 128) (R (Proc.devRef .tc main_v341))) (A.ps_u 8) (A.ps_v 8) (A.fuse_ps_w 0 8))
  ps0_9 : (R (Proc.devRef .tc main_v385) : S50000x128.Idx → EReal) = Spec.toVec2 (Spec.edgeStep (Spec.ofVec2 (a := 50000) (b := 128) (R (Proc.devRef .tc main_v161))) (Spec.ofVec2 (a := 50000) (b := 128) (R (Proc.devRef .tc main_v363))) (A.ps_u 9) (A.ps_v 9) (A.fuse_ps_w 0 9))
  ps0_10 : (R (Proc.devRef .tc main_v407) : S50000x128.Idx → EReal) = Spec.toVec2 (Spec.edgeStep (Spec.ofVec2 (a := 50000) (b := 128) (R (Proc.devRef .tc main_v161))) (Spec.ofVec2 (a := 50000) (b := 128) (R (Proc.devRef .tc main_v385))) (A.ps_u 10) (A.ps_v 10) (A.fuse_ps_w 0 10))
  ps0_11 : (R (Proc.devRef .tc main_v429) : S50000x128.Idx → EReal) = Spec.toVec2 (Spec.edgeStep (Spec.ofVec2 (a := 50000) (b := 128) (R (Proc.devRef .tc main_v161))) (Spec.ofVec2 (a := 50000) (b := 128) (R (Proc.devRef .tc main_v407))) (A.ps_u 11) (A.ps_v 11) (A.fuse_ps_w 0 11))
  lr0_0 : (R (Proc.devRef .tc main_v451) : S50000x128.Idx → EReal) = Spec.toVec2 (Spec.edgeStep (Spec.ofVec2 (a := 50000) (b := 128) (R (Proc.devRef .tc main_v161))) (Spec.ofVec2 (a := 50000) (b := 128) (R (Proc.devRef .tc main_v429))) (A.lr_u 0) (A.lr_v 0) (A.fuse_left_w 0))
  lr0_1 : (R (Proc.devRef .tc main_v473) : S50000x128.Idx → EReal) = Spec.toVec2 (Spec.edgeStep (Spec.ofVec2 (a := 50000) (b := 128) (R (Proc.devRef .tc main_v161))) (Spec.ofVec2 (a := 50000) (b := 128) (R (Proc.devRef .tc main_v451))) (A.lr_u 1) (A.lr_v 1) (A.fuse_right_w 0))
  node0 : (R (Proc.devRef .tc main_v528) : S50000x128.Idx → EReal) = Spec.toVec2 (Spec.ggTail (Spec.ofVec2 (a := 50000) (b := 128) (R (Proc.devRef .tc main_v473))) (Spec.ofVec2 (a := 50000) (b := 128) (R (Proc.devRef .tc main_v161))) (A.fuse_norm_gn 0 0) (A.fuse_norm_gn 0 1) (A.fuse_ctr2_w 0) (A.fuse_ctr2_gn 0 0) (A.fuse_ctr2_gn 0 1))
  ctr1 : (R (Proc.devRef .tc main_v532) : S50000x128.Idx → EReal) = Spec.toVec2 (Spec.lin (Spec.ofVec2 (a := 50000) (b := 128) (R (Proc.devRef .tc main_v528))) (A.fuse_ctr_w 1))
  ps1_0 : (R (Proc.devRef .tc main_v554) : S50000x128.Idx → EReal) = Spec.toVec2 (Spec.edgeStep (Spec.ofVec2 (a := 50000) (b := 128) (R (Proc.devRef .tc main_v528))) (Spec.ofVec2 (a := 50000) (b := 128) (R (Proc.devRef .tc main_v532))) (A.ps_u 0) (A.ps_v 0) (A.fuse_ps_w 1 0))
  ps1_1 : (R (Proc.devRef .tc main_v576) : S50000x128.Idx → EReal) = Spec.toVec2 (Spec.edgeStep (Spec.ofVec2 (a := 50000) (b := 128) (R (Proc.devRef .tc main_v528))) (Spec.ofVec2 (a := 50000) (b := 128) (R (Proc.devRef .tc main_v554))) (A.ps_u 1) (A.ps_v 1) (A.fuse_ps_w 1 1))
  ps1_2 : (R (Proc.devRef .tc main_v598) : S50000x128.Idx → EReal) = Spec.toVec2 (Spec.edgeStep (Spec.ofVec2 (a := 50000) (b := 128) (R (Proc.devRef .tc main_v528))) (Spec.ofVec2 (a := 50000) (b := 128) (R (Proc.devRef .tc main_v576))) (A.ps_u 2) (A.ps_v 2) (A.fuse_ps_w 1 2))
  ps1_3 : (R (Proc.devRef .tc main_v620) : S50000x128.Idx → EReal) = Spec.toVec2 (Spec.edgeStep (Spec.ofVec2 (a := 50000) (b := 128) (R (Proc.devRef .tc main_v528))) (Spec.ofVec2 (a := 50000) (b := 128) (R (Proc.devRef .tc main_v598))) (A.ps_u 3) (A.ps_v 3) (A.fuse_ps_w 1 3))
  ps1_4 : (R (Proc.devRef .tc main_v642) : S50000x128.Idx → EReal) = Spec.toVec2 (Spec.edgeStep (Spec.ofVec2 (a := 50000) (b := 128) (R (Proc.devRef .tc main_v528))) (Spec.ofVec2 (a := 50000) (b := 128) (R (Proc.devRef .tc main_v620))) (A.ps_u 4) (A.ps_v 4) (A.fuse_ps_w 1 4))
  ps1_5 : (R (Proc.devRef .tc main_v664) : S50000x128.Idx → EReal) = Spec.toVec2 (Spec.edgeStep (Spec.ofVec2 (a := 50000) (b := 128) (R (Proc.devRef .tc main_v528))) (Spec.ofVec2 (a := 50000) (b := 128) (R (Proc.devRef .tc main_v642))) (A.ps_u 5) (A.ps_v 5) (A.fuse_ps_w 1 5))
  ps1_6 : (R (Proc.devRef .tc main_v686) : S50000x128.Idx → EReal) = Spec.toVec2 (Spec.edgeStep (Spec.ofVec2 (a := 50000) (b := 128) (R (Proc.devRef .tc main_v528))) (Spec.ofVec2 (a := 50000) (b := 128) (R (Proc.devRef .tc main_v664))) (A.ps_u 6) (A.ps_v 6) (A.fuse_ps_w 1 6))
  ps1_7 : (R (Proc.devRef .tc main_v708) : S50000x128.Idx → EReal) = Spec.toVec2 (Spec.edgeStep (Spec.ofVec2 (a := 50000) (b := 128) (R (Proc.devRef .tc main_v528))) (Spec.ofVec2 (a := 50000) (b := 128) (R (Proc.devRef .tc main_v686))) (A.ps_u 7) (A.ps_v 7) (A.fuse_ps_w 1 7))
  ps1_8 : (R (Proc.devRef .tc main_v730) : S50000x128.Idx → EReal) = Spec.toVec2 (Spec.edgeStep (Spec.ofVec2 (a := 50000) (b := 128) (R (Proc.devRef .tc main_v528))) (Spec.ofVec2 (a := 50000) (b := 128) (R (Proc.devRef .tc main_v708))) (A.ps_u 8) (A.ps_v 8) (A.fuse_ps_w 1 8))
  ps1_9 : (R (Proc.devRef .tc main_v752) : S50000x128.Idx → EReal) = Spec.toVec2 (Spec.edgeStep (Spec.ofVec2 (a := 50000) (b := 128) (R (Proc.devRef .tc main_v528))) (Spec.ofVec2 (a := 50000) (b := 128) (R (Proc.devRef .tc main_v730))) (A.ps_u 9) (A.ps_v 9) (A.fuse_ps_w 1 9))
  ps1_10 : (R (Proc.devRef .tc main_v774) : S50000x128.Idx → EReal) = Spec.toVec2 (Spec.edgeStep (Spec.ofVec2 (a := 50000) (b := 128) (R (Proc.devRef .tc main_v528))) (Spec.ofVec2 (a := 50000) (b := 128) (R (Proc.devRef .tc main_v752))) (A.ps_u 10) (A.ps_v 10) (A.fuse_ps_w 1 10))
  ps1_11 : (R (Proc.devRef .tc main_v796) : S50000x128.Idx → EReal) = Spec.toVec2 (Spec.edgeStep (Spec.ofVec2 (a := 50000) (b := 128) (R (Proc.devRef .tc main_v528))) (Spec.ofVec2 (a := 50000) (b := 128) (R (Proc.devRef .tc main_v774))) (A.ps_u 11) (A.ps_v 11) (A.fuse_ps_w 1 11))
  lr1_0 : (R (Proc.devRef .tc main_v818) : S50000x128.Idx → EReal) = Spec.toVec2 (Spec.edgeStep (Spec.ofVec2 (a := 50000) (b := 128) (R (Proc.devRef .tc main_v528))) (Spec.ofVec2 (a := 50000) (b := 128) (R (Proc.devRef .tc main_v796))) (A.lr_u 0) (A.lr_v 0) (A.fuse_left_w 1))
  lr1_1 : (R (Proc.devRef .tc main_v840) : S50000x128.Idx → EReal) = Spec.toVec2 (Spec.edgeStep (Spec.ofVec2 (a := 50000) (b := 128) (R (Proc.devRef .tc main_v528))) (Spec.ofVec2 (a := 50000) (b := 128) (R (Proc.devRef .tc main_v818))) (A.lr_u 1) (A.lr_v 1) (A.fuse_right_w 1))
  node1 : (R (Proc.devRef .tc main_v895) : S50000x128.Idx → EReal) = Spec.toVec2 (Spec.ggTail (Spec.ofVec2 (a := 50000) (b := 128) (R (Proc.devRef .tc main_v840))) (Spec.ofVec2 (a := 50000) (b := 128) (R (Proc.devRef .tc main_v528))) (A.fuse_norm_gn 1 0) (A.fuse_norm_gn 1 1) (A.fuse_ctr2_w 1) (A.fuse_ctr2_gn 1 0) (A.fuse_ctr2_gn 1 1))
  ctr2 : (R (Proc.devRef .tc main_v899) : S50000x128.Idx → EReal) = Spec.toVec2 (Spec.lin (Spec.ofVec2 (a := 50000) (b := 128) (R (Proc.devRef .tc main_v895))) (A.fuse_ctr_w 2))
  ps2_0 : (R (Proc.devRef .tc main_v921) : S50000x128.Idx → EReal) = Spec.toVec2 (Spec.edgeStep (Spec.ofVec2 (a := 50000) (b := 128) (R (Proc.devRef .tc main_v895))) (Spec.ofVec2 (a := 50000) (b := 128) (R (Proc.devRef .tc main_v899))) (A.ps_u 0) (A.ps_v 0) (A.fuse_ps_w 2 0))
  ps2_1 : (R (Proc.devRef .tc main_v943) : S50000x128.Idx → EReal) = Spec.toVec2 (Spec.edgeStep (Spec.ofVec2 (a := 50000) (b := 128) (R (Proc.devRef .tc main_v895))) (Spec.ofVec2 (a := 50000) (b := 128) (R (Proc.devRef .tc main_v921))) (A.ps_u 1) (A.ps_v 1) (A.fuse_ps_w 2 1))
  ps2_2 : (R (Proc.devRef .tc main_v965) : S50000x128.Idx → EReal) = Spec.toVec2 (Spec.edgeStep (Spec.ofVec2 (a := 50000) (b := 128) (R (Proc.devRef .tc main_v895))) (Spec.ofVec2 (a := 50000) (b := 128) (R (Proc.devRef .tc main_v943))) (A.ps_u 2) (A.ps_v 2) (A.fuse_ps_w 2 2))
  ps2_3 : (R (Proc.devRef .tc main_v987) : S50000x128.Idx → EReal) = Spec.toVec2 (Spec.edgeStep (Spec.ofVec2 (a := 50000) (b := 128) (R (Proc.devRef .tc main_v895))) (Spec.ofVec2 (a := 50000) (b := 128) (R (Proc.devRef .tc main_v965))) (A.ps_u 3) (A.ps_v 3) (A.fuse_ps_w 2 3))
  ps2_4 : (R (Proc.devRef .tc main_v1009) : S50000x128.Idx → EReal) = Spec.toVec2 (Spec.edgeStep (Spec.ofVec2 (a := 50000) (b := 128) (R (Proc.devRef .tc main_v895))) (Spec.ofVec2 (a := 50000) (b := 128) (R (Proc.devRef .tc main_v987))) (A.ps_u 4) (A.ps_v 4) (A.fuse_ps_w 2 4))
  ps2_5 : (R (Proc.devRef .tc main_v1031) : S50000x128.Idx → EReal) = Spec.toVec2 (Spec.edgeStep (Spec.ofVec2 (a := 50000) (b := 128) (R (Proc.devRef .tc main_v895))) (Spec.ofVec2 (a := 50000) (b := 128) (R (Proc.devRef .tc main_v1009))) (A.ps_u 5) (A.ps_v 5) (A.fuse_ps_w 2 5))
  ps2_6 : (R (Proc.devRef .tc main_v1053) : S50000x128.Idx → EReal) = Spec.toVec2 (Spec.edgeStep (Spec.ofVec2 (a := 50000) (b := 128) (R (Proc.devRef .tc main_v895))) (Spec.ofVec2 (a := 50000) (b := 128) (R (Proc.devRef .tc main_v1031))) (A.ps_u 6) (A.ps_v 6) (A.fuse_ps_w 2 6))
  ps2_7 : (R (Proc.devRef .tc main_v1075) : S50000x128.Idx → EReal) = Spec.toVec2 (Spec.edgeStep (Spec.ofVec2 (a := 50000) (b := 128) (R (Proc.devRef .tc main_v895))) (Spec.ofVec2 (a := 50000) (b := 128) (R (Proc.devRef .tc main_v1053))) (A.ps_u 7) (A.ps_v 7) (A.fuse_ps_w 2 7))
  ps2_8 : (R (Proc.devRef .tc main_v1097) : S50000x128.Idx → EReal) = Spec.toVec2 (Spec.edgeStep (Spec.ofVec2 (a := 50000) (b := 128) (R (Proc.devRef .tc main_v895))) (Spec.ofVec2 (a := 50000) (b := 128) (R (Proc.devRef .tc main_v1075))) (A.ps_u 8) (A.ps_v 8) (A.fuse_ps_w 2 8))
  ps2_9 : (R (Proc.devRef .tc main_v1119) : S50000x128.Idx → EReal) = Spec.toVec2 (Spec.edgeStep (Spec.ofVec2 (a := 50000) (b := 128) (R (Proc.devRef .tc main_v895))) (Spec.ofVec2 (a := 50000) (b := 128) (R (Proc.devRef .tc main_v1097))) (A.ps_u 9) (A.ps_v 9) (A.fuse_ps_w 2 9))
  ps2_10 : (R (Proc.devRef .tc main_v1141) : S50000x128.Idx → EReal) = Spec.toVec2 (Spec.edgeStep (Spec.ofVec2 (a := 50000) (b := 128) (R (Proc.devRef .tc main_v895))) (Spec.ofVec2 (a := 50000) (b := 128) (R (Proc.devRef .tc main_v1119))) (A.ps_u 10) (A.ps_v 10) (A.fuse_ps_w 2 10))
  ps2_11 : (R (Proc.devRef .tc main_v1163) : S50000x128.Idx → EReal) = Spec.toVec2 (Spec.edgeStep (Spec.ofVec2 (a := 50000) (b := 128) (R (Proc.devRef .tc main_v895))) (Spec.ofVec2 (a := 50000) (b := 128) (R (Proc.devRef .tc main_v1141))) (A.ps_u 11) (A.ps_v 11) (A.fuse_ps_w 2 11))
  lr2_0 : (R (Proc.devRef .tc main_v1185) : S50000x128.Idx → EReal) = Spec.toVec2 (Spec.edgeStep (Spec.ofVec2 (a := 50000) (b := 128) (R (Proc.devRef .tc main_v895))) (Spec.ofVec2 (a := 50000) (b := 128) (R (Proc.devRef .tc main_v1163))) (A.lr_u 0) (A.lr_v 0) (A.fuse_left_w 2))
  lr2_1 : (R (Proc.devRef .tc main_v1207) : S50000x128.Idx → EReal) = Spec.toVec2 (Spec.edgeStep (Spec.ofVec2 (a := 50000) (b := 128) (R (Proc.devRef .tc main_v895))) (Spec.ofVec2 (a := 50000) (b := 128) (R (Proc.devRef .tc main_v1185))) (A.lr_u 1) (A.lr_v 1) (A.fuse_right_w 2))
  node2 : (R (Proc.devRef .tc main_v1262) : S50000x128.Idx → EReal) = Spec.toVec2 (Spec.ggTail (Spec.ofVec2 (a := 50000) (b := 128) (R (Proc.devRef .tc main_v1207))) (Spec.ofVec2 (a := 50000) (b := 128) (R (Proc.devRef .tc main_v895))) (A.fuse_norm_gn 2 0) (A.fuse_norm_gn 2 1) (A.fuse_ctr2_w 2) (A.fuse_ctr2_gn 2 0) (A.fuse_ctr2_gn 2 1))
  ctr3 : (R (Proc.devRef .tc main_v1266) : S50000x128.Idx → EReal) = Spec.toVec2 (Spec.lin (Spec.ofVec2 (a := 50000) (b := 128) (R (Proc.devRef .tc main_v1262))) (A.fuse_ctr_w 3))
  ps3_0 : (R (Proc.devRef .tc main_v1288) : S50000x128.Idx → EReal) = Spec.toVec2 (Spec.edgeStep (Spec.ofVec2 (a := 50000) (b := 128) (R (Proc.devRef .tc main_v1262))) (Spec.ofVec2 (a := 50000) (b := 128) (R (Proc.devRef .tc main_v1266))) (A.ps_u 0) (A.ps_v 0) (A.fuse_ps_w 3 0))
  ps3_1 : (R (Proc.devRef .tc main_v1310) : S50000x128.Idx → EReal) = Spec.toVec2 (Spec.edgeStep (Spec.ofVec2 (a := 50000) (b := 128) (R (Proc.devRef .tc main_v1262))) (Spec.ofVec2 (a := 50000) (b := 128) (R (Proc.devRef .tc main_v1288))) (A.ps_u 1) (A.ps_v 1) (A.fuse_ps_w 3 1))
  ps3_2 : (R (Proc.devRef .tc main_v1332) : S50000x128.Idx → EReal) = Spec.toVec2 (Spec.edgeStep (Spec.ofVec2 (a := 50000) (b := 128) (R (Proc.devRef .tc main_v1262))) (Spec.ofVec2 (a := 50000) (b := 128) (R (Proc.devRef .tc main_v1310))) (A.ps_u 2) (A.ps_v 2) (A.fuse_ps_w 3 2))
  ps3_3 : (R (Proc.devRef .tc main_v1354) : S50000x128.Idx → EReal) = Spec.toVec2 (Spec.edgeStep (Spec.ofVec2 (a := 50000) (b := 128) (R (Proc.devRef .tc main_v1262))) (Spec.ofVec2 (a := 50000) (b := 128) (R (Proc.devRef .tc main_v1332))) (A.ps_u 3) (A.ps_v 3) (A.fuse_ps_w 3 3))
  ps3_4 : (R (Proc.devRef .tc main_v1376) : S50000x128.Idx → EReal) = Spec.toVec2 (Spec.edgeStep (Spec.ofVec2 (a := 50000) (b := 128) (R (Proc.devRef .tc main_v1262))) (Spec.ofVec2 (a := 50000) (b := 128) (R (Proc.devRef .tc main_v1354))) (A.ps_u 4) (A.ps_v 4) (A.fuse_ps_w 3 4))
  ps3_5 : (R (Proc.devRef .tc main_v1398) : S50000x128.Idx → EReal) = Spec.toVec2 (Spec.edgeStep (Spec.ofVec2 (a := 50000) (b := 128) (R (Proc.devRef .tc main_v1262))) (Spec.ofVec2 (a := 50000) (b := 128) (R (Proc.devRef .tc main_v1376))) (A.ps_u 5) (A.ps_v 5) (A.fuse_ps_w 3 5))
  ps3_6 : (R (Proc.devRef .tc main_v1420) : S50000x128.Idx → EReal) = Spec.toVec2 (Spec.edgeStep (Spec.ofVec2 (a := 50000) (b := 128) (R (Proc.devRef .tc main_v1262))) (Spec.ofVec2 (a := 50000) (b := 128) (R (Proc.devRef .tc main_v1398))) (A.ps_u 6) (A.ps_v 6) (A.fuse_ps_w 3 6))
  ps3_7 : (R (Proc.devRef .tc main_v1442) : S50000x128.Idx → EReal) = Spec.toVec2 (Spec.edgeStep (Spec.ofVec2 (a := 50000) (b := 128) (R (Proc.devRef .tc main_v1262))) (Spec.ofVec2 (a := 50000) (b := 128) (R (Proc.devRef .tc main_v1420))) (A.ps_u 7) (A.ps_v 7) (A.fuse_ps_w 3 7))
  ps3_8 : (R (Proc.devRef .tc main_v1464) : S50000x128.Idx → EReal) = Spec.toVec2 (Spec.edgeStep (Spec.ofVec2 (a := 50000) (b := 128) (R (Proc.devRef .tc main_v1262))) (Spec.ofVec2 (a := 50000) (b := 128) (R (Proc.devRef .tc main_v1442))) (A.ps_u 8) (A.ps_v 8) (A.fuse_ps_w 3 8))
  ps3_9 : (R (Proc.devRef .tc main_v1486) : S50000x128.Idx → EReal) = Spec.toVec2 (Spec.edgeStep (Spec.ofVec2 (a := 50000) (b := 128) (R (Proc.devRef .tc main_v1262))) (Spec.ofVec2 (a := 50000) (b := 128) (R (Proc.devRef .tc main_v1464))) (A.ps_u 9) (A.ps_v 9) (A.fuse_ps_w 3 9))
  ps3_10 : (R (Proc.devRef .tc main_v1508) : S50000x128.Idx → EReal) = Spec.toVec2 (Spec.edgeStep (Spec.ofVec2 (a := 50000) (b := 128) (R (Proc.devRef .tc main_v1262))) (Spec.ofVec2 (a := 50000) (b := 128) (R (Proc.devRef .tc main_v1486))) (A.ps_u 10) (A.ps_v 10) (A.fuse_ps_w 3 10))
  ps3_11 : (R (Proc.devRef .tc main_v1530) : S50000x128.Idx → EReal) = Spec.toVec2 (Spec.edgeStep (Spec.ofVec2 (a := 50000) (b := 128) (R (Proc.devRef .tc main_v1262))) (Spec.ofVec2 (a := 50000) (b := 128) (R (Proc.devRef .tc main_v1508))) (A.ps_u 11) (A.ps_v 11) (A.fuse_ps_w 3 11))
  lr3_0 : (R (Proc.devRef .tc main_v1552) : S50000x128.Idx → EReal) = Spec.toVec2 (Spec.edgeStep (Spec.ofVec2 (a := 50000) (b := 128) (R (Proc.devRef .tc main_v1262))) (Spec.ofVec2 (a := 50000) (b := 128) (R (Proc.devRef .tc main_v1530))) (A.lr_u 0) (A.lr_v 0) (A.fuse_left_w 3))
  lr3_1 : (R (Proc.devRef .tc main_v1574) : S50000x128.Idx → EReal) = Spec.toVec2 (Spec.edgeStep (Spec.ofVec2 (a := 50000) (b := 128) (R (Proc.devRef .tc main_v1262))) (Spec.ofVec2 (a := 50000) (b := 128) (R (Proc.devRef .tc main_v1552))) (A.lr_u 1) (A.lr_v 1) (A.fuse_right_w 3))
  node3 : (R (Proc.devRef .tc main_v1629) : S50000x128.Idx → EReal) = Spec.toVec2 (Spec.ggTail (Spec.ofVec2 (a := 50000) (b := 128) (R (Proc.devRef .tc main_v1574))) (Spec.ofVec2 (a := 50000) (b := 128) (R (Proc.devRef .tc main_v1262))) (A.fuse_norm_gn 3 0) (A.fuse_norm_gn 3 1) (A.fuse_ctr2_w 3) (A.fuse_ctr2_gn 3 0) (A.fuse_ctr2_gn 3 1))
  lp1 : (R (Proc.devRef .tc main_v1790) : S12000x128.Idx → EReal) = Spec.toVec2 (Spec.lanePool A 1 (by omega : 0 < 50000) (by omega : 0 < 12000) (Spec.ofVec2 (a := 50000) (b := 128) (R (Proc.devRef .tc main_v1629))) A.graph_pose (Spec.lin A.roi_feat (A.lp_input_w 1)) A.roi_feat A.roi_pose A.e2_hi A.e2_wi)

/-- The twelve edge sets in order. -/
theorem finRange12 : List.finRange 12 = [0, 1, 2, 3, 4, 5, 6, 7, 8, 9, 10, 11] := by
  first | decide | rfl

/-- The accumulation of a fusion layer written out: the centre term, the twelve sets, left, right. -/
theorem fuseAcc_eq (A : Spec.Args) (i : Fin 4) (g : Spec.M 50000 128) :
    Spec.fuseAcc A i g =
      Spec.edgeStep g (Spec.edgeStep g
        (Spec.edgeStep g (Spec.edgeStep g (Spec.edgeStep g (Spec.edgeStep g (Spec.edgeStep g (Spec.edgeStep g
        (Spec.edgeStep g (Spec.edgeStep g (Spec.edgeStep g (Spec.edgeStep g (Spec.edgeStep g (Spec.edgeStep g
          (Spec.lin g (A.fuse_ctr_w i))
          (A.ps_u 0) (A.ps_v 0) (A.fuse_ps_w i 0)) (A.ps_u 1) (A.ps_v 1) (A.fuse_ps_w i 1))
          (A.ps_u 2) (A.ps_v 2) (A.fuse_ps_w i 2)) (A.ps_u 3) (A.ps_v 3) (A.fuse_ps_w i 3))
          (A.ps_u 4) (A.ps_v 4) (A.fuse_ps_w i 4)) (A.ps_u 5) (A.ps_v 5) (A.fuse_ps_w i 5))
          (A.ps_u 6) (A.ps_v 6) (A.fuse_ps_w i 6)) (A.ps_u 7) (A.ps_v 7) (A.fuse_ps_w i 7))
          (A.ps_u 8) (A.ps_v 8) (A.fuse_ps_w i 8)) (A.ps_u 9) (A.ps_v 9) (A.fuse_ps_w i 9))
          (A.ps_u 10) (A.ps_v 10) (A.fuse_ps_w i 10)) (A.ps_u 11) (A.ps_v 11) (A.fuse_ps_w i 11))
        (A.lr_u 0) (A.lr_v 0) (A.fuse_left_w i)) (A.lr_u 1) (A.lr_v 1) (A.fuse_right_w i) := by
  unfold Spec.fuseAcc
  first
    | (simp only [finRange12, List.foldl_cons, List.foldl_nil]; done)
    | rfl

variable {A : Spec.Args} {R : Val}

/-- Fusion layer 0 from its stage equations. -/
theorem layer0 (h : StageEqs A R) (x : Spec.M 50000 128)
    (hx : (R (Proc.devRef .tc main_v161) : S50000x128.Idx → EReal) = Spec.toVec2 x) :
    (R (Proc.devRef .tc main_v528) : S50000x128.Idx → EReal) = Spec.toVec2 (Spec.fuse A 0 x) := by
  have e0 := h.ctr0
  have e1 := h.ps0_0
  have e2 := h.ps0_1
  have e3 := h.ps0_2
  have e4 := h.ps0_3
  have e5 := h.ps0_4
  have e6 := h.ps0_5
  have e7 := h.ps0_6
  have e8 := h.ps0_7
  have e9 := h.ps0_8
  have e10 := h.ps0_9
  have e11 := h.ps0_10
  have e12 := h.ps0_11
  have e13 := h.lr0_0
  have e14 := h.lr0_1
  have en := h.node0
  rw [hx] at e0 e1 e2 e3 e4 e5 e6 e7 e8 e9 e10 e11 e12 e13 e14 en
  rw [e0] at e1; rw [e1] at e2; rw [e2] at e3; rw [e3] at e4; rw [e4] at e5; rw [e5] at e6; rw [e6] at e7
  rw [e7] at e8; rw [e8] at e9; rw [e9] at e10; rw [e10] at e11; rw [e11] at e12; rw [e12] at e13; rw [e13] at e14
  rw [e14] at en
  simp only [Spec.ofVec2_toVec2] at en
  rw [en, Spec.fuse, fuseAcc_eq]
  all_goals rfl

/-- Fusion layer 1 from its stage equations. -/
theorem layer1 (h : StageEqs A R) (x : Spec.M 50000 128)
    (hx : (R (Proc.devRef .tc main_v528) : S50000x128.Idx → EReal) = Spec.toVec2 x) :
    (R (Proc.devRef .tc main_v895) : S50000x128.Idx → EReal) = Spec.toVec2 (Spec.fuse A 1 x) := by
  have e0 := h.ctr1
  have e1 := h.ps1_0
  have e2 := h.ps1_1
  have e3 := h.ps1_2
  have e4 := h.ps1_3
  have e5 := h.ps1_4
  have e6 := h.ps1_5
  have e7 := h.ps1_6
  have e8 := h.ps1_7
  have e9 := h.ps1_8
  have e10 := h.ps1_9
  have e11 := h.ps1_10
  have e12 := h.ps1_11
  have e13 := h.lr1_0
  have e14 := h.lr1_1
  have en := h.node1
  rw [hx] at e0 e1 e2 e3 e4 e5 e6 e7 e8 e9 e10 e11 e12 e13 e14 en
  rw [e0] at e1; rw [e1] at e2; rw [e2] at e3; rw [e3] at e4; rw [e4] at e5; rw [e5] at e6; rw [e6] at e7
  rw [e7] at e8; rw [e8] at e9; rw [e9] at e10; rw [e10] at e11; rw [e11] at e12; rw [e12] at e13; rw [e13] at e14
  rw [e14] at en
  simp only [Spec.ofVec2_toVec2] at en
  rw [en, Spec.fuse, fuseAcc_eq]
  all_goals rfl

/-- Fusion layer 2 from its stage equations. -/
theorem layer2 (h : StageEqs A R) (x : Spec.M 50000 128)
    (hx : (R (Proc.devRef .tc main_v895) : S50000x128.Idx → EReal) = Spec.toVec2 x) :
    (R (Proc.devRef .tc main_v1262) : S50000x128.Idx → EReal) = Spec.toVec2 (Spec.fuse A 2 x) := by
  have e0 := h.ctr2
  have e1 := h.ps2_0
  have e2 := h.ps2_1
  have e3 := h.ps2_2
  have e4 := h.ps2_3
  have e5 := h.ps2_4
  have e6 := h.ps2_5
  have e7 := h.ps2_6
  have e8 := h.ps2_7
  have e9 := h.ps2_8
  have e10 := h.ps2_9
  have e11 := h.ps2_10
  have e12 := h.ps2_11
  have e13 := h.lr2_0
  have e14 := h.lr2_1
  have en := h.node2
  rw [hx] at e0 e1 e2 e3 e4 e5 e6 e7 e8 e9 e10 e11 e12 e13 e14 en
  rw [e0] at e1; rw [e1] at e2; rw [e2] at e3; rw [e3] at e4; rw [e4] at e5; rw [e5] at e6; rw [e6] at e7
  rw [e7] at e8; rw [e8] at e9; rw [e9] at e10; rw [e10] at e11; rw [e11] at e12; rw [e12] at e13; rw [e13] at e14
  rw [e14] at en
  simp only [Spec.ofVec2_toVec2] at en
  rw [en, Spec.fuse, fuseAcc_eq]
  all_goals rfl

/-- Fusion layer 3 from its stage equations. -/
theorem layer3 (h : StageEqs A R) (x : Spec.M 50000 128)
    (hx : (R (Proc.devRef .tc main_v1262) : S50000x128.Idx → EReal) = Spec.toVec2 x) :
    (R (Proc.devRef .tc main_v1629) : S50000x128.Idx → EReal) = Spec.toVec2 (Spec.fuse A 3 x) := by
  have e0 := h.ctr3
  have e1 := h.ps3_0
  have e2 := h.ps3_1
  have e3 := h.ps3_2
  have e4 := h.ps3_3
  have e5 := h.ps3_4
  have e6 := h.ps3_5
  have e7 := h.ps3_6
  have e8 := h.ps3_7
  have e9 := h.ps3_8
  have e10 := h.ps3_9
  have e11 := h.ps3_10
  have e12 := h.ps3_11
  have e13 := h.lr3_0
  have e14 := h.lr3_1
  have en := h.node3
  rw [hx] at e0 e1 e2 e3 e4 e5 e6 e7 e8 e9 e10 e11 e12 e13 e14 en
  rw [e0] at e1; rw [e1] at e2; rw [e2] at e3; rw [e3] at e4; rw [e4] at e5; rw [e5] at e6; rw [e6] at e7
  rw [e7] at e8; rw [e8] at e9; rw [e9] at e10; rw [e10] at e11; rw [e11] at e12; rw [e12] at e13; rw [e13] at e14
  rw [e14] at en
  simp only [Spec.ofVec2_toVec2] at en
  rw [en, Spec.fuse, fuseAcc_eq]
  all_goals rfl

/-- The whole reference: the returned buffer holds the network of the arguments. -/
theorem net_of_stage (h : StageEqs A R) :
    (R (Proc.devRef .tc main_v1790) : S12000x128.Idx → EReal) = Spec.toVec2 (Spec.net A) := by
  have h1 := layer0 h _ h.lp0
  have h2 := layer1 h _ h1
  have h3 := layer2 h _ h2
  have h4 := layer3 h _ h3
  have e := h.lp1
  rw [h4, Spec.ofVec2_toVec2] at e
  rw [e]; rfl

end Cert.RChain

end
-- ==== Proof.RChainBase.lean ====
/-
  The reference's run window by window: what the device's buffers hold after the first K windows, and the two facts
  that move a buffer's final contents to the window that wrote it — a buffer keeps its contents through every window
  that does not write it. Every buffer of the reference is written by one operation, so its final contents are the
  value that operation computed, a function of the final contents of the buffers it read.
-/
import proofs.«413166_j32323923870246_3_alg».proof.Proof.RRun
import proofs.«413166_j32323923870246_3_alg».proof.Proof.RValArgs
import proofs.«413166_j32323923870246_3_alg».proof.Proof.RChainAlg

noncomputable section

namespace Cert.RChain

open Idealize.ShloMosaic Idealize.SL.Sem Idealize.ShloMosaic.StableHlo Cert.ReferenceIdeal

/-- The network's arguments read out of the twenty-nine argument buffers. -/
def argsOfV (V : Val) : Spec.Args :=
  RVal.argsOf
    (V (Proc.devRef .tc main_arg0))
    (V (Proc.devRef .tc main_arg1))
    (V (Proc.devRef .tc main_arg2))
    (V (Proc.devRef .tc main_arg3))
    (V (Proc.devRef .tc main_arg4))
    (V (Proc.devRef .tc main_arg5))
    (V (Proc.devRef .tc main_arg6))
    (V (Proc.devRef .tc main_arg7))
    (V (Proc.devRef .tc main_arg8))
    (V (Proc.devRef .tc main_arg9))
    (V (Proc.devRef .tc main_arg10))
    (V (Proc.devRef .tc main_arg11))
    (V (Proc.devRef .tc main_arg12))
    (V (Proc.devRef .tc main_arg13))
    (V (Proc.devRef .tc main_arg14))
    (V (Proc.devRef .tc main_arg15))
    (V (Proc.devRef .tc main_arg16))
    (V (Proc.devRef .tc main_arg17))
    (V (Proc.devRef .tc main_arg18))
    (V (Proc.devRef .tc main_arg19))
    (V (Proc.devRef .tc main_arg20))
    (V (Proc.devRef .tc main_arg21))
    (V (Proc.devRef .tc main_arg22))
    (V (Proc.devRef .tc main_arg23))
    (V (Proc.devRef .tc main_arg24))
    (V (Proc.devRef .tc main_arg25))
    (V (Proc.devRef .tc main_arg26))
    (V (Proc.devRef .tc main_arg27))
    (V (Proc.devRef .tc main_arg28))

/-! ## The buffers after the first K windows -/

def W0 (V : Val) : Val := V
def W1 (V : Val) : Val := after (RefRun.chunk0 (F := Ideal)) (W0 V)
def W2 (V : Val) : Val := after (RefRun.chunk1 (F := Ideal)) (W1 V)
def W3 (V : Val) : Val := after (RefRun.chunk2 (F := Ideal)) (W2 V)
def W4 (V : Val) : Val := after (RefRun.chunk3 (F := Ideal)) (W3 V)
def W5 (V : Val) : Val := after (RefRun.chunk4 (F := Ideal)) (W4 V)
def W6 (V : Val) : Val := after (RefRun.chunk5 (F := Ideal)) (W5 V)
def W7 (V : Val) : Val := after (RefRun.chunk6 (F := Ideal)) (W6 V)
def W8 (V : Val) : Val := after (RefRun.chunk7 (F := Ideal)) (W7 V)
def W9 (V : Val) : Val := after (RefRun.chunk8 (F := Ideal)) (W8 V)
def W10 (V : Val) : Val := after (RefRun.chunk9 (F := Ideal)) (W9 V)
def W11 (V : Val) : Val := after (RefRun.chunk10 (F := Ideal)) (W10 V)
def W12 (V : Val) : Val := after (RefRun.chunk11 (F := Ideal)) (W11 V)
def W13 (V : Val) : Val := after (RefRun.chunk12 (F := Ideal)) (W12 V)
def W14 (V : Val) : Val := after (RefRun.chunk13 (F := Ideal)) (W13 V)
def W15 (V : Val) : Val := after (RefRun.chunk14 (F := Ideal)) (W14 V)
def W16 (V : Val) : Val := after (RefRun.chunk15 (F := Ideal)) (W15 V)
def W17 (V : Val) : Val := after (RefRun.chunk16 (F := Ideal)) (W16 V)
def W18 (V : Val) : Val := after (RefRun.chunk17 (F := Ideal)) (W17 V)
def W19 (V : Val) : Val := after (RefRun.chunk18 (F := Ideal)) (W18 V)
def W20 (V : Val) : Val := after (RefRun.chunk19 (F := Ideal)) (W19 V)
def W21 (V : Val) : Val := after (RefRun.chunk20 (F := Ideal)) (W20 V)
def W22 (V : Val) : Val := after (RefRun.chunk21 (F := Ideal)) (W21 V)
def W23 (V : Val) : Val := after (RefRun.chunk22 (F := Ideal)) (W22 V)
def W24 (V : Val) : Val := after (RefRun.chunk23 (F := Ideal)) (W23 V)
def W25 (V : Val) : Val := after (RefRun.chunk24 (F := Ideal)) (W24 V)
def W26 (V : Val) : Val := after (RefRun.chunk25 (F := Ideal)) (W25 V)
def W27 (V : Val) : Val := after (RefRun.chunk26 (F := Ideal)) (W26 V)
def W28 (V : Val) : Val := after (RefRun.chunk27 (F := Ideal)) (W27 V)
def W29 (V : Val) : Val := after (RefRun.chunk28 (F := Ideal)) (W28 V)
def W30 (V : Val) : Val := after (RefRun.chunk29 (F := Ideal)) (W29 V)
def W31 (V : Val) : Val := after (RefRun.chunk30 (F := Ideal)) (W30 V)
def W32 (V : Val) : Val := after (RefRun.chunk31 (F := Ideal)) (W31 V)
def W33 (V : Val) : Val := after (RefRun.chunk32 (F := Ideal)) (W32 V)
def W34 (V : Val) : Val := after (RefRun.chunk33 (F := Ideal)) (W33 V)
def W35 (V : Val) : Val := after (RefRun.chunk34 (F := Ideal)) (W34 V)

/-- The buffers after the whole run. -/
def Rv (V : Val) : Val := W35 V

/-- The run of all the operations is the windows' runs one after the other. -/
theorem ops_eq (V : Val) : after (RefRun.ops (F := Ideal)) V = Rv V := by
  simp only [Rv, W35, W34, W33, W32, W31, W30, W29, W28, W27, W26, W25, W24, W23, W22, W21, W20, W19, W18, W17, W16, W15, W14, W13, W12, W11, W10, W9, W8, W7, W6, W5, W4, W3, W2, W1, W0, RefRun.ops, StableHlo.after_append]

/-! ## A buffer no window from K on writes -/

abbrev From35 (_r : Ref sig .tc) : Prop := True
abbrev From34 (r : Ref sig .tc) : Prop := r ∉ RefRun.chunk34_W
abbrev From33 (r : Ref sig .tc) : Prop := r ∉ RefRun.chunk33_W ∧ From34 r
abbrev From32 (r : Ref sig .tc) : Prop := r ∉ RefRun.chunk32_W ∧ From33 r
abbrev From31 (r : Ref sig .tc) : Prop := r ∉ RefRun.chunk31_W ∧ From32 r
abbrev From30 (r : Ref sig .tc) : Prop := r ∉ RefRun.chunk30_W ∧ From31 r
abbrev From29 (r : Ref sig .tc) : Prop := r ∉ RefRun.chunk29_W ∧ From30 r
abbrev From28 (r : Ref sig .tc) : Prop := r ∉ RefRun.chunk28_W ∧ From29 r
abbrev From27 (r : Ref sig .tc) : Prop := r ∉ RefRun.chunk27_W ∧ From28 r
abbrev From26 (r : Ref sig .tc) : Prop := r ∉ RefRun.chunk26_W ∧ From27 r
abbrev From25 (r : Ref sig .tc) : Prop := r ∉ RefRun.chunk25_W ∧ From26 r
abbrev From24 (r : Ref sig .tc) : Prop := r ∉ RefRun.chunk24_W ∧ From25 r
abbrev From23 (r : Ref sig .tc) : Prop := r ∉ RefRun.chunk23_W ∧ From24 r
abbrev From22 (r : Ref sig .tc) : Prop := r ∉ RefRun.chunk22_W ∧ From23 r
abbrev From21 (r : Ref sig .tc) : Prop := r ∉ RefRun.chunk21_W ∧ From22 r
abbrev From20 (r : Ref sig .tc) : Prop := r ∉ RefRun.chunk20_W ∧ From21 r
abbrev From19 (r : Ref sig .tc) : Prop := r ∉ RefRun.chunk19_W ∧ From20 r
abbrev From18 (r : Ref sig .tc) : Prop := r ∉ RefRun.chunk18_W ∧ From19 r
abbrev From17 (r : Ref sig .tc) : Prop := r ∉ RefRun.chunk17_W ∧ From18 r
abbrev From16 (r : Ref sig .tc) : Prop := r ∉ RefRun.chunk16_W ∧ From17 r
abbrev From15 (r : Ref sig .tc) : Prop := r ∉ RefRun.chunk15_W ∧ From16 r
abbrev From14 (r : Ref sig .tc) : Prop := r ∉ RefRun.chunk14_W ∧ From15 r
abbrev From13 (r : Ref sig .tc) : Prop := r ∉ RefRun.chunk13_W ∧ From14 r
abbrev From12 (r : Ref sig .tc) : Prop := r ∉ RefRun.chunk12_W ∧ From13 r
abbrev From11 (r : Ref sig .tc) : Prop := r ∉ RefRun.chunk11_W ∧ From12 r
abbrev From10 (r : Ref sig .tc) : Prop := r ∉ RefRun.chunk10_W ∧ From11 r
abbrev From9 (r : Ref sig .tc) : Prop := r ∉ RefRun.chunk9_W ∧ From10 r
abbrev From8 (r : Ref sig .tc) : Prop := r ∉ RefRun.chunk8_W ∧ From9 r
abbrev From7 (r : Ref sig .tc) : Prop := r ∉ RefRun.chunk7_W ∧ From8 r
abbrev From6 (r : Ref sig .tc) : Prop := r ∉ RefRun.chunk6_W ∧ From7 r
abbrev From5 (r : Ref sig .tc) : Prop := r ∉ RefRun.chunk5_W ∧ From6 r
abbrev From4 (r : Ref sig .tc) : Prop := r ∉ RefRun.chunk4_W ∧ From5 r
abbrev From3 (r : Ref sig .tc) : Prop := r ∉ RefRun.chunk3_W ∧ From4 r
abbrev From2 (r : Ref sig .tc) : Prop := r ∉ RefRun.chunk2_W ∧ From3 r
abbrev From1 (r : Ref sig .tc) : Prop := r ∉ RefRun.chunk1_W ∧ From2 r
abbrev From0 (r : Ref sig .tc) : Prop := r ∉ RefRun.chunk0_W ∧ From1 r

/-- Such a buffer holds at the end what it held after the first K windows. -/
theorem pre34 (V : Val) (r : Ref sig .tc) (h : From34 r) : Rv V (Proc.devRef .tc r) = W34 V (Proc.devRef .tc r) := by
  rw [Rv, W35, RefRun.chunk34_keep (F := Ideal) _ r h]
theorem pre33 (V : Val) (r : Ref sig .tc) (h : From33 r) : Rv V (Proc.devRef .tc r) = W33 V (Proc.devRef .tc r) := by
  rw [pre34 V r h.2, W34, RefRun.chunk33_keep (F := Ideal) _ r h.1]
theorem pre32 (V : Val) (r : Ref sig .tc) (h : From32 r) : Rv V (Proc.devRef .tc r) = W32 V (Proc.devRef .tc r) := by
  rw [pre33 V r h.2, W33, RefRun.chunk32_keep (F := Ideal) _ r h.1]
theorem pre31 (V : Val) (r : Ref sig .tc) (h : From31 r) : Rv V (Proc.devRef .tc r) = W31 V (Proc.devRef .tc r) := by
  rw [pre32 V r h.2, W32, RefRun.chunk31_keep (F := Ideal) _ r h.1]
theorem pre30 (V : Val) (r : Ref sig .tc) (h : From30 r) : Rv V (Proc.devRef .tc r) = W30 V (Proc.devRef .tc r) := by
  rw [pre31 V r h.2, W31, RefRun.chunk30_keep (F := Ideal) _ r h.1]
theorem pre29 (V : Val) (r : Ref sig .tc) (h : From29 r) : Rv V (Proc.devRef .tc r) = W29 V (Proc.devRef .tc r) := by
  rw [pre30 V r h.2, W30, RefRun.chunk29_keep (F := Ideal) _ r h.1]
theorem pre28 (V : Val) (r : Ref sig .tc) (h : From28 r) : Rv V (Proc.devRef .tc r) = W28 V (Proc.devRef .tc r) := by
  rw [pre29 V r h.2, W29, RefRun.chunk28_keep (F := Ideal) _ r h.1]
theorem pre27 (V : Val) (r : Ref sig .tc) (h : From27 r) : Rv V (Proc.devRef .tc r) = W27 V (Proc.devRef .tc r) := by
  rw [pre28 V r h.2, W28, RefRun.chunk27_keep (F := Ideal) _ r h.1]
theorem pre26 (V : Val) (r : Ref sig .tc) (h : From26 r) : Rv V (Proc.devRef .tc r) = W26 V (Proc.devRef .tc r) := by
  rw [pre27 V r h.2, W27, RefRun.chunk26_keep (F := Ideal) _ r h.1]
theorem pre25 (V : Val) (r : Ref sig .tc) (h : From25 r) : Rv V (Proc.devRef .tc r) = W25 V (Proc.devRef .tc r) := by
  rw [pre26 V r h.2, W26, RefRun.chunk25_keep (F := Ideal) _ r h.1]
theorem pre24 (V : Val) (r : Ref sig .tc) (h : From24 r) : Rv V (Proc.devRef .tc r) = W24 V (Proc.devRef .tc r) := by
  rw [pre25 V r h.2, W25, RefRun.chunk24_keep (F := Ideal) _ r h.1]
theorem pre23 (V : Val) (r : Ref sig .tc) (h : From23 r) : Rv V (Proc.devRef .tc r) = W23 V (Proc.devRef .tc r) := by
  rw [pre24 V r h.2, W24, RefRun.chunk23_keep (F := Ideal) _ r h.1]
theorem pre22 (V : Val) (r : Ref sig .tc) (h : From22 r) : Rv V (Proc.devRef .tc r) = W22 V (Proc.devRef .tc r) := by
  rw [pre23 V r h.2, W23, RefRun.chunk22_keep (F := Ideal) _ r h.1]
theorem pre21 (V : Val) (r : Ref sig .tc) (h : From21 r) : Rv V (Proc.devRef .tc r) = W21 V (Proc.devRef .tc r) := by
  rw [pre22 V r h.2, W22, RefRun.chunk21_keep (F := Ideal) _ r h.1]
theorem pre20 (V : Val) (r : Ref sig .tc) (h : From20 r) : Rv V (Proc.devRef .tc r) = W20 V (Proc.devRef .tc r) := by
  rw [pre21 V r h.2, W21, RefRun.chunk20_keep (F := Ideal) _ r h.1]
theorem pre19 (V : Val) (r : Ref sig .tc) (h : From19 r) : Rv V (Proc.devRef .tc r) = W19 V (Proc.devRef .tc r) := by
  rw [pre20 V r h.2, W20, RefRun.chunk19_keep (F := Ideal) _ r h.1]
theorem pre18 (V : Val) (r : Ref sig .tc) (h : From18 r) : Rv V (Proc.devRef .tc r) = W18 V (Proc.devRef .tc r) := by
  rw [pre19 V r h.2, W19, RefRun.chunk18_keep (F := Ideal) _ r h.1]
theorem pre17 (V : Val) (r : Ref sig .tc) (h : From17 r) : Rv V (Proc.devRef .tc r) = W17 V (Proc.devRef .tc r) := by
  rw [pre18 V r h.2, W18, RefRun.chunk17_keep (F := Ideal) _ r h.1]
theorem pre16 (V : Val) (r : Ref sig .tc) (h : From16 r) : Rv V (Proc.devRef .tc r) = W16 V (Proc.devRef .tc r) := by
  rw [pre17 V r h.2, W17, RefRun.chunk16_keep (F := Ideal) _ r h.1]
theorem pre15 (V : Val) (r : Ref sig .tc) (h : From15 r) : Rv V (Proc.devRef .tc r) = W15 V (Proc.devRef .tc r) := by
  rw [pre16 V r h.2, W16, RefRun.chunk15_keep (F := Ideal) _ r h.1]
theorem pre14 (V : Val) (r : Ref sig .tc) (h : From14 r) : Rv V (Proc.devRef .tc r) = W14 V (Proc.devRef .tc r) := by
  rw [pre15 V r h.2, W15, RefRun.chunk14_keep (F := Ideal) _ r h.1]
theorem pre13 (V : Val) (r : Ref sig .tc) (h : From13 r) : Rv V (Proc.devRef .tc r) = W13 V (Proc.devRef .tc r) := by
  rw [pre14 V r h.2, W14, RefRun.chunk13_keep (F := Ideal) _ r h.1]
theorem pre12 (V : Val) (r : Ref sig .tc) (h : From12 r) : Rv V (Proc.devRef .tc r) = W12 V (Proc.devRef .tc r) := by
  rw [pre13 V r h.2, W13, RefRun.chunk12_keep (F := Ideal) _ r h.1]
theorem pre11 (V : Val) (r : Ref sig .tc) (h : From11 r) : Rv V (Proc.devRef .tc r) = W11 V (Proc.devRef .tc r) := by
  rw [pre12 V r h.2, W12, RefRun.chunk11_keep (F := Ideal) _ r h.1]
theorem pre10 (V : Val) (r : Ref sig .tc) (h : From10 r) : Rv V (Proc.devRef .tc r) = W10 V (Proc.devRef .tc r) := by
  rw [pre11 V r h.2, W11, RefRun.chunk10_keep (F := Ideal) _ r h.1]
theorem pre9 (V : Val) (r : Ref sig .tc) (h : From9 r) : Rv V (Proc.devRef .tc r) = W9 V (Proc.devRef .tc r) := by
  rw [pre10 V r h.2, W10, RefRun.chunk9_keep (F := Ideal) _ r h.1]
theorem pre8 (V : Val) (r : Ref sig .tc) (h : From8 r) : Rv V (Proc.devRef .tc r) = W8 V (Proc.devRef .tc r) := by
  rw [pre9 V r h.2, W9, RefRun.chunk8_keep (F := Ideal) _ r h.1]
theorem pre7 (V : Val) (r : Ref sig .tc) (h : From7 r) : Rv V (Proc.devRef .tc r) = W7 V (Proc.devRef .tc r) := by
  rw [pre8 V r h.2, W8, RefRun.chunk7_keep (F := Ideal) _ r h.1]
theorem pre6 (V : Val) (r : Ref sig .tc) (h : From6 r) : Rv V (Proc.devRef .tc r) = W6 V (Proc.devRef .tc r) := by
  rw [pre7 V r h.2, W7, RefRun.chunk6_keep (F := Ideal) _ r h.1]
theorem pre5 (V : Val) (r : Ref sig .tc) (h : From5 r) : Rv V (Proc.devRef .tc r) = W5 V (Proc.devRef .tc r) := by
  rw [pre6 V r h.2, W6, RefRun.chunk5_keep (F := Ideal) _ r h.1]
theorem pre4 (V : Val) (r : Ref sig .tc) (h : From4 r) : Rv V (Proc.devRef .tc r) = W4 V (Proc.devRef .tc r) := by
  rw [pre5 V r h.2, W5, RefRun.chunk4_keep (F := Ideal) _ r h.1]
theorem pre3 (V : Val) (r : Ref sig .tc) (h : From3 r) : Rv V (Proc.devRef .tc r) = W3 V (Proc.devRef .tc r) := by
  rw [pre4 V r h.2, W4, RefRun.chunk3_keep (F := Ideal) _ r h.1]
theorem pre2 (V : Val) (r : Ref sig .tc) (h : From2 r) : Rv V (Proc.devRef .tc r) = W2 V (Proc.devRef .tc r) := by
  rw [pre3 V r h.2, W3, RefRun.chunk2_keep (F := Ideal) _ r h.1]
theorem pre1 (V : Val) (r : Ref sig .tc) (h : From1 r) : Rv V (Proc.devRef .tc r) = W1 V (Proc.devRef .tc r) := by
  rw [pre2 V r h.2, W2, RefRun.chunk1_keep (F := Ideal) _ r h.1]
theorem pre0 (V : Val) (r : Ref sig .tc) (h : From0 r) : Rv V (Proc.devRef .tc r) = W0 V (Proc.devRef .tc r) := by
  rw [pre1 V r h.2, W1, RefRun.chunk0_keep (F := Ideal) _ r h.1]

/-- A buffer written in window K and by no later window holds at the end what window K left in it. -/
theorem at34 (V : Val) (r : Ref sig .tc) (_h : From35 r) : Rv V (Proc.devRef .tc r) = after (RefRun.chunk34 (F := Ideal)) (W34 V) (Proc.devRef .tc r) := by
  rw [Rv, W35]
theorem at33 (V : Val) (r : Ref sig .tc) (h : From34 r) :
    Rv V (Proc.devRef .tc r) = after (RefRun.chunk33 (F := Ideal)) (W33 V) (Proc.devRef .tc r) := by
  rw [pre34 V r h, W34]
theorem at32 (V : Val) (r : Ref sig .tc) (h : From33 r) :
    Rv V (Proc.devRef .tc r) = after (RefRun.chunk32 (F := Ideal)) (W32 V) (Proc.devRef .tc r) := by
  rw [pre33 V r h, W33]
theorem at31 (V : Val) (r : Ref sig .tc) (h : From32 r) :
    Rv V (Proc.devRef .tc r) = after (RefRun.chunk31 (F := Ideal)) (W31 V) (Proc.devRef .tc r) := by
  rw [pre32 V r h, W32]
theorem at30 (V : Val) (r : Ref sig .tc) (h : From31 r) :
    Rv V (Proc.devRef .tc r) = after (RefRun.chunk30 (F := Ideal)) (W30 V) (Proc.devRef .tc r) := by
  rw [pre31 V r h, W31]
theorem at29 (V : Val) (r : Ref sig .tc) (h : From30 r) :
    Rv V (Proc.devRef .tc r) = after (RefRun.chunk29 (F := Ideal)) (W29 V) (Proc.devRef .tc r) := by
  rw [pre30 V r h, W30]
theorem at28 (V : Val) (r : Ref sig .tc) (h : From29 r) :
    Rv V (Proc.devRef .tc r) = after (RefRun.chunk28 (F := Ideal)) (W28 V) (Proc.devRef .tc r) := by
  rw [pre29 V r h, W29]
theorem at27 (V : Val) (r : Ref sig .tc) (h : From28 r) :
    Rv V (Proc.devRef .tc r) = after (RefRun.chunk27 (F := Ideal)) (W27 V) (Proc.devRef .tc r) := by
  rw [pre28 V r h, W28]
theorem at26 (V : Val) (r : Ref sig .tc) (h : From27 r) :
    Rv V (Proc.devRef .tc r) = after (RefRun.chunk26 (F := Ideal)) (W26 V) (Proc.devRef .tc r) := by
  rw [pre27 V r h, W27]
theorem at25 (V : Val) (r : Ref sig .tc) (h : From26 r) :
    Rv V (Proc.devRef .tc r) = after (RefRun.chunk25 (F := Ideal)) (W25 V) (Proc.devRef .tc r) := by
  rw [pre26 V r h, W26]
theorem at24 (V : Val) (r : Ref sig .tc) (h : From25 r) :
    Rv V (Proc.devRef .tc r) = after (RefRun.chunk24 (F := Ideal)) (W24 V) (Proc.devRef .tc r) := by
  rw [pre25 V r h, W25]
theorem at23 (V : Val) (r : Ref sig .tc) (h : From24 r) :
    Rv V (Proc.devRef .tc r) = after (RefRun.chunk23 (F := Ideal)) (W23 V) (Proc.devRef .tc r) := by
  rw [pre24 V r h, W24]
theorem at22 (V : Val) (r : Ref sig .tc) (h : From23 r) :
    Rv V (Proc.devRef .tc r) = after (RefRun.chunk22 (F := Ideal)) (W22 V) (Proc.devRef .tc r) := by
  rw [pre23 V r h, W23]
theorem at21 (V : Val) (r : Ref sig .tc) (h : From22 r) :
    Rv V (Proc.devRef .tc r) = after (RefRun.chunk21 (F := Ideal)) (W21 V) (Proc.devRef .tc r) := by
  rw [pre22 V r h, W22]
theorem at20 (V : Val) (r : Ref sig .tc) (h : From21 r) :
    Rv V (Proc.devRef .tc r) = after (RefRun.chunk20 (F := Ideal)) (W20 V) (Proc.devRef .tc r) := by
  rw [pre21 V r h, W21]
theorem at19 (V : Val) (r : Ref sig .tc) (h : From20 r) :
    Rv V (Proc.devRef .tc r) = after (RefRun.chunk19 (F := Ideal)) (W19 V) (Proc.devRef .tc r) := by
  rw [pre20 V r h, W20]
theorem at18 (V : Val) (r : Ref sig .tc) (h : From19 r) :
    Rv V (Proc.devRef .tc r) = after (RefRun.chunk18 (F := Ideal)) (W18 V) (Proc.devRef .tc r) := by
  rw [pre19 V r h, W19]
theorem at17 (V : Val) (r : Ref sig .tc) (h : From18 r) :
    Rv V (Proc.devRef .tc r) = after (RefRun.chunk17 (F := Ideal)) (W17 V) (Proc.devRef .tc r) := by
  rw [pre18 V r h, W18]
theorem at16 (V : Val) (r : Ref sig .tc) (h : From17 r) :
    Rv V (Proc.devRef .tc r) = after (RefRun.chunk16 (F := Ideal)) (W16 V) (Proc.devRef .tc r) := by
  rw [pre17 V r h, W17]
theorem at15 (V : Val) (r : Ref sig .tc) (h : From16 r) :
    Rv V (Proc.devRef .tc r) = after (RefRun.chunk15 (F := Ideal)) (W15 V) (Proc.devRef .tc r) := by
  rw [pre16 V r h, W16]
theorem at14 (V : Val) (r : Ref sig .tc) (h : From15 r) :
    Rv V (Proc.devRef .tc r) = after (RefRun.chunk14 (F := Ideal)) (W14 V) (Proc.devRef .tc r) := by
  rw [pre15 V r h, W15]
theorem at13 (V : Val) (r : Ref sig .tc) (h : From14 r) :
    Rv V (Proc.devRef .tc r) = after (RefRun.chunk13 (F := Ideal)) (W13 V) (Proc.devRef .tc r) := by
  rw [pre14 V r h, W14]
theorem at12 (V : Val) (r : Ref sig .tc) (h : From13 r) :
    Rv V (Proc.devRef .tc r) = after (RefRun.chunk12 (F := Ideal)) (W12 V) (Proc.devRef .tc r) := by
  rw [pre13 V r h, W13]
theorem at11 (V : Val) (r : Ref sig .tc) (h : From12 r) :
    Rv V (Proc.devRef .tc r) = after (RefRun.chunk11 (F := Ideal)) (W11 V) (Proc.devRef .tc r) := by
  rw [pre12 V r h, W12]
theorem at10 (V : Val) (r : Ref sig .tc) (h : From11 r) :
    Rv V (Proc.devRef .tc r) = after (RefRun.chunk10 (F := Ideal)) (W10 V) (Proc.devRef .tc r) := by
  rw [pre11 V r h, W11]
theorem at9 (V : Val) (r : Ref sig .tc) (h : From10 r) :
    Rv V (Proc.devRef .tc r) = after (RefRun.chunk9 (F := Ideal)) (W9 V) (Proc.devRef .tc r) := by
  rw [pre10 V r h, W10]
theorem at8 (V : Val) (r : Ref sig .tc) (h : From9 r) :
    Rv V (Proc.devRef .tc r) = after (RefRun.chunk8 (F := Ideal)) (W8 V) (Proc.devRef .tc r) := by
  rw [pre9 V r h, W9]
theorem at7 (V : Val) (r : Ref sig .tc) (h : From8 r) :
    Rv V (Proc.devRef .tc r) = after (RefRun.chunk7 (F := Ideal)) (W7 V) (Proc.devRef .tc r) := by
  rw [pre8 V r h, W8]
theorem at6 (V : Val) (r : Ref sig .tc) (h : From7 r) :
    Rv V (Proc.devRef .tc r) = after (RefRun.chunk6 (F := Ideal)) (W6 V) (Proc.devRef .tc r) := by
  rw [pre7 V r h, W7]
theorem at5 (V : Val) (r : Ref sig .tc) (h : From6 r) :
    Rv V (Proc.devRef .tc r) = after (RefRun.chunk5 (F := Ideal)) (W5 V) (Proc.devRef .tc r) := by
  rw [pre6 V r h, W6]
theorem at4 (V : Val) (r : Ref sig .tc) (h : From5 r) :
    Rv V (Proc.devRef .tc r) = after (RefRun.chunk4 (F := Ideal)) (W4 V) (Proc.devRef .tc r) := by
  rw [pre5 V r h, W5]
theorem at3 (V : Val) (r : Ref sig .tc) (h : From4 r) :
    Rv V (Proc.devRef .tc r) = after (RefRun.chunk3 (F := Ideal)) (W3 V) (Proc.devRef .tc r) := by
  rw [pre4 V r h, W4]
theorem at2 (V : Val) (r : Ref sig .tc) (h : From3 r) :
    Rv V (Proc.devRef .tc r) = after (RefRun.chunk2 (F := Ideal)) (W2 V) (Proc.devRef .tc r) := by
  rw [pre3 V r h, W3]
theorem at1 (V : Val) (r : Ref sig .tc) (h : From2 r) :
    Rv V (Proc.devRef .tc r) = after (RefRun.chunk1 (F := Ideal)) (W1 V) (Proc.devRef .tc r) := by
  rw [pre2 V r h, W2]
theorem at0 (V : Val) (r : Ref sig .tc) (h : From1 r) :
    Rv V (Proc.devRef .tc r) = after (RefRun.chunk0 (F := Ideal)) (W0 V) (Proc.devRef .tc r) := by
  rw [pre1 V r h, W1]

/-- An argument buffer holds after the first K windows what it was launched with. -/
theorem arg_at (V : Val) (r : Ref sig .tc) (h : From0 r) : Rv V (Proc.devRef .tc r) = V (Proc.devRef .tc r) := by
  rw [pre0 V r h, W0]

/-- A buffer no window writes holds after the first K windows what it was launched with. -/
theorem argW0 (V : Val) (r : Ref sig .tc) (_h : From0 r) : W0 V (Proc.devRef .tc r) = V (Proc.devRef .tc r) := by
  rw [W0]
theorem argW1 (V : Val) (r : Ref sig .tc) (h : From0 r) : W1 V (Proc.devRef .tc r) = V (Proc.devRef .tc r) :=
  (pre1 V r h.2).symm.trans (arg_at V r h)
theorem argW2 (V : Val) (r : Ref sig .tc) (h : From0 r) : W2 V (Proc.devRef .tc r) = V (Proc.devRef .tc r) :=
  (pre2 V r h.2.2).symm.trans (arg_at V r h)
theorem argW3 (V : Val) (r : Ref sig .tc) (h : From0 r) : W3 V (Proc.devRef .tc r) = V (Proc.devRef .tc r) :=
  (pre3 V r h.2.2.2).symm.trans (arg_at V r h)
theorem argW4 (V : Val) (r : Ref sig .tc) (h : From0 r) : W4 V (Proc.devRef .tc r) = V (Proc.devRef .tc r) :=
  (pre4 V r h.2.2.2.2).symm.trans (arg_at V r h)
theorem argW5 (V : Val) (r : Ref sig .tc) (h : From0 r) : W5 V (Proc.devRef .tc r) = V (Proc.devRef .tc r) :=
  (pre5 V r h.2.2.2.2.2).symm.trans (arg_at V r h)
theorem argW6 (V : Val) (r : Ref sig .tc) (h : From0 r) : W6 V (Proc.devRef .tc r) = V (Proc.devRef .tc r) :=
  (pre6 V r h.2.2.2.2.2.2).symm.trans (arg_at V r h)
theorem argW7 (V : Val) (r : Ref sig .tc) (h : From0 r) : W7 V (Proc.devRef .tc r) = V (Proc.devRef .tc r) :=
  (pre7 V r h.2.2.2.2.2.2.2).symm.trans (arg_at V r h)
theorem argW8 (V : Val) (r : Ref sig .tc) (h : From0 r) : W8 V (Proc.devRef .tc r) = V (Proc.devRef .tc r) :=
  (pre8 V r h.2.2.2.2.2.2.2.2).symm.trans (arg_at V r h)
theorem argW9 (V : Val) (r : Ref sig .tc) (h : From0 r) : W9 V (Proc.devRef .tc r) = V (Proc.devRef .tc r) :=
  (pre9 V r h.2.2.2.2.2.2.2.2.2).symm.trans (arg_at V r h)
theorem argW10 (V : Val) (r : Ref sig .tc) (h : From0 r) : W10 V (Proc.devRef .tc r) = V (Proc.devRef .tc r) :=
  (pre10 V r h.2.2.2.2.2.2.2.2.2.2).symm.trans (arg_at V r h)
theorem argW11 (V : Val) (r : Ref sig .tc) (h : From0 r) : W11 V (Proc.devRef .tc r) = V (Proc.devRef .tc r) :=
  (pre11 V r h.2.2.2.2.2.2.2.2.2.2.2).symm.trans (arg_at V r h)
theorem argW12 (V : Val) (r : Ref sig .tc) (h : From0 r) : W12 V (Proc.devRef .tc r) = V (Proc.devRef .tc r) :=
  (pre12 V r h.2.2.2.2.2.2.2.2.2.2.2.2).symm.trans (arg_at V r h)
theorem argW13 (V : Val) (r : Ref sig .tc) (h : From0 r) : W13 V (Proc.devRef .tc r) = V (Proc.devRef .tc r) :=
  (pre13 V r h.2.2.2.2.2.2.2.2.2.2.2.2.2).symm.trans (arg_at V r h)
theorem argW14 (V : Val) (r : Ref sig .tc) (h : From0 r) : W14 V (Proc.devRef .tc r) = V (Proc.devRef .tc r) :=
  (pre14 V r h.2.2.2.2.2.2.2.2.2.2.2.2.2.2).symm.trans (arg_at V r h)
theorem argW15 (V : Val) (r : Ref sig .tc) (h : From0 r) : W15 V (Proc.devRef .tc r) = V (Proc.devRef .tc r) :=
  (pre15 V r h.2.2.2.2.2.2.2.2.2.2.2.2.2.2.2).symm.trans (arg_at V r h)
theorem argW16 (V : Val) (r : Ref sig .tc) (h : From0 r) : W16 V (Proc.devRef .tc r) = V (Proc.devRef .tc r) :=
  (pre16 V r h.2.2.2.2.2.2.2.2.2.2.2.2.2.2.2.2).symm.trans (arg_at V r h)
theorem argW17 (V : Val) (r : Ref sig .tc) (h : From0 r) : W17 V (Proc.devRef .tc r) = V (Proc.devRef .tc r) :=
  (pre17 V r h.2.2.2.2.2.2.2.2.2.2.2.2.2.2.2.2.2).symm.trans (arg_at V r h)
theorem argW18 (V : Val) (r : Ref sig .tc) (h : From0 r) : W18 V (Proc.devRef .tc r) = V (Proc.devRef .tc r) :=
  (pre18 V r h.2.2.2.2.2.2.2.2.2.2.2.2.2.2.2.2.2.2).symm.trans (arg_at V r h)
theorem argW19 (V : Val) (r : Ref sig .tc) (h : From0 r) : W19 V (Proc.devRef .tc r) = V (Proc.devRef .tc r) :=
  (pre19 V r h.2.2.2.2.2.2.2.2.2.2.2.2.2.2.2.2.2.2.2).symm.trans (arg_at V r h)
theorem argW20 (V : Val) (r : Ref sig .tc) (h : From0 r) : W20 V (Proc.devRef .tc r) = V (Proc.devRef .tc r) :=
  (pre20 V r h.2.2.2.2.2.2.2.2.2.2.2.2.2.2.2.2.2.2.2.2).symm.trans (arg_at V r h)
theorem argW21 (V : Val) (r : Ref sig .tc) (h : From0 r) : W21 V (Proc.devRef .tc r) = V (Proc.devRef .tc r) :=
  (pre21 V r h.2.2.2.2.2.2.2.2.2.2.2.2.2.2.2.2.2.2.2.2.2).symm.trans (arg_at V r h)
theorem argW22 (V : Val) (r : Ref sig .tc) (h : From0 r) : W22 V (Proc.devRef .tc r) = V (Proc.devRef .tc r) :=
  (pre22 V r h.2.2.2.2.2.2.2.2.2.2.2.2.2.2.2.2.2.2.2.2.2.2).symm.trans (arg_at V r h)
theorem argW23 (V : Val) (r : Ref sig .tc) (h : From0 r) : W23 V (Proc.devRef .tc r) = V (Proc.devRef .tc r) :=
  (pre23 V r h.2.2.2.2.2.2.2.2.2.2.2.2.2.2.2.2.2.2.2.2.2.2.2).symm.trans (arg_at V r h)
theorem argW24 (V : Val) (r : Ref sig .tc) (h : From0 r) : W24 V (Proc.devRef .tc r) = V (Proc.devRef .tc r) :=
  (pre24 V r h.2.2.2.2.2.2.2.2.2.2.2.2.2.2.2.2.2.2.2.2.2.2.2.2).symm.trans (arg_at V r h)
theorem argW25 (V : Val) (r : Ref sig .tc) (h : From0 r) : W25 V (Proc.devRef .tc r) = V (Proc.devRef .tc r) :=
  (pre25 V r h.2.2.2.2.2.2.2.2.2.2.2.2.2.2.2.2.2.2.2.2.2.2.2.2.2).symm.trans (arg_at V r h)
theorem argW26 (V : Val) (r : Ref sig .tc) (h : From0 r) : W26 V (Proc.devRef .tc r) = V (Proc.devRef .tc r) :=
  (pre26 V r h.2.2.2.2.2.2.2.2.2.2.2.2.2.2.2.2.2.2.2.2.2.2.2.2.2.2).symm.trans (arg_at V r h)
theorem argW27 (V : Val) (r : Ref sig .tc) (h : From0 r) : W27 V (Proc.devRef .tc r) = V (Proc.devRef .tc r) :=
  (pre27 V r h.2.2.2.2.2.2.2.2.2.2.2.2.2.2.2.2.2.2.2.2.2.2.2.2.2.2.2).symm.trans (arg_at V r h)
theorem argW28 (V : Val) (r : Ref sig .tc) (h : From0 r) : W28 V (Proc.devRef .tc r) = V (Proc.devRef .tc r) :=
  (pre28 V r h.2.2.2.2.2.2.2.2.2.2.2.2.2.2.2.2.2.2.2.2.2.2.2.2.2.2.2.2).symm.trans (arg_at V r h)
theorem argW29 (V : Val) (r : Ref sig .tc) (h : From0 r) : W29 V (Proc.devRef .tc r) = V (Proc.devRef .tc r) :=
  (pre29 V r h.2.2.2.2.2.2.2.2.2.2.2.2.2.2.2.2.2.2.2.2.2.2.2.2.2.2.2.2.2).symm.trans (arg_at V r h)
theorem argW30 (V : Val) (r : Ref sig .tc) (h : From0 r) : W30 V (Proc.devRef .tc r) = V (Proc.devRef .tc r) :=
  (pre30 V r h.2.2.2.2.2.2.2.2.2.2.2.2.2.2.2.2.2.2.2.2.2.2.2.2.2.2.2.2.2.2).symm.trans (arg_at V r h)
theorem argW31 (V : Val) (r : Ref sig .tc) (h : From0 r) : W31 V (Proc.devRef .tc r) = V (Proc.devRef .tc r) :=
  (pre31 V r h.2.2.2.2.2.2.2.2.2.2.2.2.2.2.2.2.2.2.2.2.2.2.2.2.2.2.2.2.2.2.2).symm.trans (arg_at V r h)
theorem argW32 (V : Val) (r : Ref sig .tc) (h : From0 r) : W32 V (Proc.devRef .tc r) = V (Proc.devRef .tc r) :=
  (pre32 V r h.2.2.2.2.2.2.2.2.2.2.2.2.2.2.2.2.2.2.2.2.2.2.2.2.2.2.2.2.2.2.2.2).symm.trans (arg_at V r h)
theorem argW33 (V : Val) (r : Ref sig .tc) (h : From0 r) : W33 V (Proc.devRef .tc r) = V (Proc.devRef .tc r) :=
  (pre33 V r h.2.2.2.2.2.2.2.2.2.2.2.2.2.2.2.2.2.2.2.2.2.2.2.2.2.2.2.2.2.2.2.2.2).symm.trans (arg_at V r h)
theorem argW34 (V : Val) (r : Ref sig .tc) (h : From0 r) : W34 V (Proc.devRef .tc r) = V (Proc.devRef .tc r) :=
  (pre34 V r h.2.2.2.2.2.2.2.2.2.2.2.2.2.2.2.2.2.2.2.2.2.2.2.2.2.2.2.2.2.2.2.2.2.2).symm.trans (arg_at V r h)

/-- No window writes an argument buffer. -/
theorem unw_arg0 : From0 main_arg0 := by decide
theorem unw_arg1 : From0 main_arg1 := by decide
theorem unw_arg2 : From0 main_arg2 := by decide
theorem unw_arg3 : From0 main_arg3 := by decide
theorem unw_arg4 : From0 main_arg4 := by decide
theorem unw_arg5 : From0 main_arg5 := by decide
theorem unw_arg6 : From0 main_arg6 := by decide
theorem unw_arg7 : From0 main_arg7 := by decide
theorem unw_arg8 : From0 main_arg8 := by decide
theorem unw_arg9 : From0 main_arg9 := by decide
theorem unw_arg10 : From0 main_arg10 := by decide
theorem unw_arg11 : From0 main_arg11 := by decide
theorem unw_arg12 : From0 main_arg12 := by decide
theorem unw_arg13 : From0 main_arg13 := by decide
theorem unw_arg14 : From0 main_arg14 := by decide
theorem unw_arg15 : From0 main_arg15 := by decide
theorem unw_arg16 : From0 main_arg16 := by decide
theorem unw_arg17 : From0 main_arg17 := by decide
theorem unw_arg18 : From0 main_arg18 := by decide
theorem unw_arg19 : From0 main_arg19 := by decide
theorem unw_arg20 : From0 main_arg20 := by decide
theorem unw_arg21 : From0 main_arg21 := by decide
theorem unw_arg22 : From0 main_arg22 := by decide
theorem unw_arg23 : From0 main_arg23 := by decide
theorem unw_arg24 : From0 main_arg24 := by decide
theorem unw_arg25 : From0 main_arg25 := by decide
theorem unw_arg26 : From0 main_arg26 := by decide
theorem unw_arg27 : From0 main_arg27 := by decide
theorem unw_arg28 : From0 main_arg28 := by decide

/-- The arguments read after the first K windows are the arguments launched. -/
theorem argsOfV_W0 (V : Val) : argsOfV (W0 V) = argsOfV V := by
  rw [W0]
set_option maxHeartbeats 2000000 in
theorem argsOfV_W31 (V : Val) : argsOfV (W31 V) = argsOfV V := by
  unfold argsOfV
  rw [argW31 V main_arg0 unw_arg0,
    argW31 V main_arg1 unw_arg1,
    argW31 V main_arg2 unw_arg2,
    argW31 V main_arg3 unw_arg3,
    argW31 V main_arg4 unw_arg4,
    argW31 V main_arg5 unw_arg5,
    argW31 V main_arg6 unw_arg6,
    argW31 V main_arg7 unw_arg7,
    argW31 V main_arg8 unw_arg8,
    argW31 V main_arg9 unw_arg9,
    argW31 V main_arg10 unw_arg10,
    argW31 V main_arg11 unw_arg11,
    argW31 V main_arg12 unw_arg12,
    argW31 V main_arg13 unw_arg13,
    argW31 V main_arg14 unw_arg14,
    argW31 V main_arg15 unw_arg15,
    argW31 V main_arg16 unw_arg16,
    argW31 V main_arg17 unw_arg17,
    argW31 V main_arg18 unw_arg18,
    argW31 V main_arg19 unw_arg19,
    argW31 V main_arg20 unw_arg20,
    argW31 V main_arg21 unw_arg21,
    argW31 V main_arg22 unw_arg22,
    argW31 V main_arg23 unw_arg23,
    argW31 V main_arg24 unw_arg24,
    argW31 V main_arg25 unw_arg25,
    argW31 V main_arg26 unw_arg26,
    argW31 V main_arg27 unw_arg27,
    argW31 V main_arg28 unw_arg28]

end Cert.RChain

end
-- ==== Proof.LibGn.lean ====
/-
  Facts on the extended reals used by the row normalisation and the linear layers: dividing by the square root of a
  positive quantity is multiplying by its inverse square root; the two literals of the normalisation as real numbers;
  the mean of squares plus the small constant is positive; a linear layer of the zero matrix is zero; a sum of
  products over 256 coordinates splits at 128 into two sums over 128.
-/
import proofs.«413166_j32323923870246_3_alg».proof.Proof.Spec
import Mathlib.Data.EReal.Inv
import Mathlib.Data.EReal.Operations
import Mathlib.Algebra.BigOperators.Fin
import Mathlib.Algebra.Order.BigOperators.Group.Finset
import Mathlib.Analysis.SpecialFunctions.Pow.Real

noncomputable section

namespace Cert.Spec

open Idealize.ShloMosaic

/-- For `b > 0` on the extended reals, `x / √b = x · (1/√b)`. At `b = ⊤` both sides are `x · 0`; at a positive real
    `b` the root is a positive real, so the division is the product with its inverse. -/
theorem div_sqrt_eq_mul_rsqrt {b : EReal} (hb : 0 < b) (x : EReal) :
    Ideal.div x (Ideal.sqrt b) = x * Ideal.rsqrt b := by
  induction b using EReal.rec with
  | bot => exact absurd hb (not_lt_bot)
  | top =>
    have h0 : (⊤ : EReal) ≠ 0 := by decide
    rw [Ideal.sqrt_top, Ideal.rsqrt_top, Ideal.div, if_neg h0, EReal.inv_top]
  | coe r =>
    have hr : 0 < r := EReal.coe_pos.mp hb
    have hs : 0 < Real.sqrt r := Real.sqrt_pos.mpr hr
    have hs0 : ((Real.sqrt r : ℝ) : EReal) ≠ 0 := EReal.coe_ne_zero.mpr hs.ne'
    rw [Ideal.sqrt_coe, Ideal.rsqrt_coe, if_neg (not_lt.mpr hr.le), if_neg (not_lt.mpr hr.le), if_neg hr.ne',
      Ideal.div, if_neg hs0, EReal.coe_inv]

/-- The pattern `0x43000000` is the real number 128. -/
theorem c128_eq : c128 = ((128 : ℝ) : EReal) := by
  unfold c128
  simp [Ideal.ofBits, Ideal.ieee, -EReal.coe_mul]; norm_num

/-- The pattern `0x3727C5AC` is a positive real (a positive significand times a power of two). -/
theorem cEps_pos : 0 < cEps := by
  unfold cEps
  simp [Ideal.ofBits, Ideal.ieee, -EReal.coe_mul]

/-- A square is non-negative on the extended reals. -/
theorem mul_self_nonneg' (a : EReal) : 0 ≤ a * a :=
  EReal.mul_nonneg_iff.mpr ((le_total 0 a).imp (fun h => ⟨h, h⟩) (fun h => ⟨h, h⟩))

/-- The mean of non-negative entries is non-negative. -/
theorem mean_nonneg {y : Fin 128 → EReal} (hy : ∀ j, 0 ≤ y j) : 0 ≤ mean y := by
  unfold mean
  rw [c128_eq, Ideal.div_coe (by norm_num : (128 : ℝ) ≠ 0)]
  exact EReal.mul_nonneg (Finset.sum_nonneg (fun j _ => hy j)) (EReal.coe_nonneg.mpr (by norm_num))

/-- The mean of squares plus the small constant is positive. -/
theorem mean_sq_add_eps_pos (d : Fin 128 → EReal) : 0 < mean (fun j => d j * d j) + cEps :=
  Right.add_pos_of_nonneg_of_pos (mean_nonneg (fun j => mul_self_nonneg' (d j))) cEps_pos

/-- The row normalisation written with a division by the square root. -/
theorem gn_div_form {n : Nat} (y : M n 128) (s h : Fin 128 → EReal) (p : Fin n) (q : Fin 128) :
    Ideal.div (y p q - mean (y p))
        (Ideal.sqrt (mean (fun j => (y p j - mean (y p)) * (y p j - mean (y p))) + cEps)) * s q + h q
      = gn y s h p q := by
  have hpos : 0 < mean (fun j => (y p j - mean (y p)) * (y p j - mean (y p))) + cEps :=
    mean_sq_add_eps_pos (fun j => y p j - mean (y p))
  rw [div_sqrt_eq_mul_rsqrt hpos]
  rfl

/-- A linear layer of the zero matrix is the zero matrix. -/
theorem lin_zero_left {n k o : Nat} (w : M o k) :
    lin (fun (_ : Fin n) (_ : Fin k) => (0 : EReal)) w = fun _ _ => 0 := by
  funext p q
  simp [lin]

/-- A sum of products over 256 coordinates, the left factor taken from `x1` below 128 and from `x2` from 128 on,
    is the sum of the two linear layers against the two column halves of the weight. -/
theorem lin_split {n : Nat} (x1 x2 : M n 128) (w : M 128 256) :
    (fun (p : Fin n) (q : Fin 128) =>
        ∑ j : Fin 256, (if hj : j.val < 128 then x1 p ⟨j.val, hj⟩ else x2 p ⟨j.val - 128, by omega⟩) * w q j)
      = add (lin x1 (fun p q => w p ⟨q.val, by omega⟩)) (lin x2 (fun p q => w p ⟨q.val + 128, by omega⟩)) := by
  funext p q
  show (∑ j : Fin (128 + 128),
        (if hj : j.val < 128 then x1 p ⟨j.val, hj⟩ else x2 p ⟨j.val - 128, by omega⟩) * w q j)
      = (∑ j : Fin 128, x1 p j * w q ⟨j.val, by omega⟩) + ∑ j : Fin 128, x2 p j * w q ⟨j.val + 128, by omega⟩
  rw [Fin.sum_univ_add]
  congr 1

end Cert.Spec

end
-- ==== Proof.RFuse.lean ====
/-
  The fusion layers of the reference, stretch by stretch, as equalities of terms over variables of the arrays' types at
  the ideal values. A fusion layer starts from the centre term (the features times a transposed weight), adds twelve
  predecessor / successor edge sets and then a left and a right edge set one after the other — each: wrap the source
  indices (a negative index plus 50000), gather those rows of the features, multiply by the set's transposed weight,
  wrap the destination indices, add the rows onto the accumulated array at them — and ends with the node stage: a row
  normalisation, the positive part, a second weight, a row normalisation, the layer's input added back, the positive
  part. Each stretch equals the specification's function of what it reads: a gather of rows reads the table at the
  wrapped and clamped index; an accumulating scatter of rows adds to each row every update whose wrapped index is that
  row; a product of matrices is the sum over the shared axis; the printed normalisation divides by a square root where
  the specification multiplies by the inverse square root, which is the same for the positive quantity under the root.
-/
import proofs.«413166_j32323923870246_3_alg».proof.ReferenceIdeal
import proofs.«413166_j32323923870246_3_alg».proof.Proof.Net
import proofs.«413166_j32323923870246_3_alg».proof.Proof.LibGn
import Idealize.ShloMosaic.PureOps.Ideal.Laws
import Idealize.ShloMosaic.Lib.ValueIdx
import Idealize.ShloMosaic.Lib.ValueLayout

noncomputable section

open scoped BigOperators

namespace Cert.RFuse

open Idealize.ShloMosaic Idealize.ShloMosaic.ValueIdx
open Cert.ReferenceIdeal Cert.ReferenceIdeal.Facts₀

/-! ## A gather of whole rows -/

/-- The dimension numbers of a gather of whole rows of an [N, k] table at an [e, 1] column of row numbers. -/
abbrev rowGather (N e k : Nat)
    (wf : GatherDims.WF ⟨2, ![N, k]⟩ ⟨2, ![e, 1]⟩ ⟨2, ![e, k]⟩ [1] [0] [] [0] [] 1 ![1, k]) :
    GatherDims ⟨2, ![N, k]⟩ ⟨2, ![e, 1]⟩ ⟨2, ![e, k]⟩ where
  offsetDims := [1]
  collapsedSliceDims := [0]
  operandBatchingDims := []
  startIndicesBatchingDims := []
  startIndexMap := [0]
  indexVectorDim := 1
  sliceSizes := ![1, k]
  wf := wf

/-- Entry (p, q) of the gathered rows is the table at the row the p-th start index names (read signed, clamped into
    the table) and column q. -/
theorem rowGather_apply {α : Type} {N e k w : Nat} (hN : 0 < N)
    (wf : GatherDims.WF ⟨2, ![N, k]⟩ ⟨2, ![e, 1]⟩ ⟨2, ![e, k]⟩ [1] [0] [] [0] [] 1 ![1, k])
    (x : (⟨2, ![N, k]⟩ : Shape).Idx → α) (idx : IVec ⟨2, ![e, 1]⟩ w) (p : Fin e) (q : Fin k) :
    Host.gather (rowGather N e k wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowGather N e k wf).start (ix2 p q) idx 0 + (rowGather N e k wf).batchCoord (ix2 p q) 0
        + (rowGather N e k wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N e k wf).startIndexMap from List.mem_singleton.mpr rfl)]
    have hsi : (rowGather N e k wf).siIdx (ix2 p q) ⟨List.idxOf (0 : Fin 2) (rowGather N e k wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    all_goals rfl
  | ⟨1, _⟩ =>
    show (rowGather N e k wf).start (ix2 p q) idx 1 + (rowGather N e k wf).batchCoord (ix2 p q) 1
        + (rowGather N e k wf).offCoord (ix2 p q) 1 = q.val
    rw [GatherDims.batchCoord_eq_zero _ _ _ List.not_mem_nil]
    have hnm : (1 : Fin 2) ∉ (rowGather N e k wf).startIndexMap := (by decide : (1 : Fin 2) ∉ [(0 : Fin 2)])
    have hs : (rowGather N e k wf).start (ix2 p q) idx 1 = 0 := by
      unfold GatherDims.start
      rw [dif_neg hnm]
    rw [hs]
    simp only [Nat.add_zero, Nat.zero_add]
    have hmk : (1 : Fin 2) ∈ (rowGather N e k wf).sKept :=
      (GatherDims.mem_sKept _ _).mpr ⟨(by decide : (1 : Fin 2) ∉ [(0 : Fin 2)]), List.not_mem_nil⟩
    unfold GatherDims.offCoord
    rw [dif_pos hmk]
    all_goals rfl

/-! ## An accumulating scatter of whole rows -/

/-- The dimension numbers of a scatter of [e, k] update rows into an [N, k] table at an [e, 1] column of row numbers. -/
abbrev rowScatter (N e k : Nat) (wf : ScatterDims.WF ⟨2, ![N, k]⟩ ⟨2, ![e, 1]⟩ ⟨2, ![e, k]⟩ [1] [0] [0] 1) :
    ScatterDims ⟨2, ![N, k]⟩ ⟨2, ![e, 1]⟩ ⟨2, ![e, k]⟩ where
  updateWindowDims := [1]
  insertedWindowDims := [0]
  scatterDimsToOperandDims := [0]
  indexVectorDim := 1
  wf := wf

/-- Update entry j lands on table entry i exactly when its row's index, read signed, is i's row and the columns agree. -/
theorem rowScatter_resultIdx_iff {N e k w : Nat} (wf : ScatterDims.WF ⟨2, ![N, k]⟩ ⟨2, ![e, 1]⟩ ⟨2, ![e, k]⟩ [1] [0] [0] 1)
    (idx : IVec ⟨2, ![e, 1]⟩ w) (j : (⟨2, ![e, k]⟩ : Shape).Idx) (i : (⟨2, ![N, k]⟩ : Shape).Idx) :
    (rowScatter N e k wf).resultIdx? j idx = some i
      ↔ (idx (ix2 (j 0) (0 : Fin 1))).toInt = ((i 0).val : Int) ∧ (j 1).val = (i 1).val := by
  have h0s : (rowScatter N e k wf).start j idx 0 = (idx (ix2 (j 0) (0 : Fin 1))).toInt := by
    unfold ScatterDims.start
    rw [dif_pos (show (0 : Fin 2) ∈ (rowScatter N e k wf).scatterDimsToOperandDims from List.mem_singleton.mpr rfl)]
    have hsi : (rowScatter N e k wf).siIdx j ⟨List.idxOf (0 : Fin 2) (rowScatter N e k wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    all_goals rfl
  have hn1 : (1 : Fin 2) ∉ (rowScatter N e k wf).scatterDimsToOperandDims := (by decide : (1 : Fin 2) ∉ [(0 : Fin 2)])
  have hk0 : (0 : Fin 2) ∉ (rowScatter N e k wf).sKept := by
    first
      | exact (by decide : (0 : Fin 2) ∉ (List.finRange 2).filter (fun a => a ∉ [(0 : Fin 2)]))
      | simp [ScatterDims.sKept, Shape.kept]
  have hk1 : (1 : Fin 2) ∈ (rowScatter N e k wf).sKept := by
    first
      | exact (by decide : (1 : Fin 2) ∈ (List.finRange 2).filter (fun a => a ∉ [(0 : Fin 2)]))
      | simp [ScatterDims.sKept, Shape.kept]
  have h1s : (rowScatter N e k wf).start j idx 1 = 0 := by
    unfold ScatterDims.start
    rw [dif_neg hn1]
  have h0w : (rowScatter N e k wf).window j 0 = 0 := by
    unfold ScatterDims.window
    rw [dif_neg hk0]
  have h1w : (rowScatter N e k wf).window j 1 = (j 1).val := by
    unfold ScatterDims.window
    rw [dif_pos hk1]
    all_goals rfl
  have hi0 : (i 0).val < N := idx2_lt0 i
  have hi1 : (i 1).val < k := idx2_lt1 i
  have hj1 : (j 1).val < k := idx2_lt1 j
  unfold ScatterDims.resultIdx?
  constructor
  · intro h
    split at h
    · next hh =>
      have hfun := Option.some.inj h
      have e0 : ((rowScatter N e k wf).start j idx 0 + ((rowScatter N e k wf).window j 0 : Nat)).toNat = (i 0).val :=
        congrArg (fun f : (⟨2, ![N, k]⟩ : Shape).Idx => (f 0).val) hfun
      have e1 : ((rowScatter N e k wf).start j idx 1 + ((rowScatter N e k wf).window j 1 : Nat)).toNat = (i 1).val :=
        congrArg (fun f : (⟨2, ![N, k]⟩ : Shape).Idx => (f 1).val) hfun
      have hh0 := (hh 0).1
      rw [h0s, h0w] at e0 hh0
      rw [h1s, h1w] at e1
      constructor
      · omega
      · omega
    · exact absurd h (by simp)
  · rintro ⟨ha, hb⟩
    split
    · next hh =>
      congr 1
      funext a
      refine Fin.ext ?_
      match a with
      | ⟨0, _⟩ =>
        show ((rowScatter N e k wf).start j idx 0 + ((rowScatter N e k wf).window j 0 : Nat)).toNat = (i 0).val
        rw [h0s, h0w]; omega
      | ⟨1, _⟩ =>
        show ((rowScatter N e k wf).start j idx 1 + ((rowScatter N e k wf).window j 1 : Nat)).toNat = (i 1).val
        rw [h1s, h1w]; omega
    · next hh =>
      exfalso
      apply hh
      intro a
      match a with
      | ⟨0, _⟩ =>
        show 0 ≤ (rowScatter N e k wf).start j idx 0 + ((rowScatter N e k wf).window j 0 : Nat)
          ∧ (rowScatter N e k wf).start j idx 0 + ((rowScatter N e k wf).window j 0 : Nat) < (N : Int)
        rw [h0s, h0w]; omega
      | ⟨1, _⟩ =>
        show 0 ≤ (rowScatter N e k wf).start j idx 1 + ((rowScatter N e k wf).window j 1 : Nat)
          ∧ (rowScatter N e k wf).start j idx 1 + ((rowScatter N e k wf).window j 1 : Nat) < (k : Int)
        rw [h1s, h1w]; omega

/-- The accumulating scatter of rows at an entry: the table's entry plus the updates of that column whose row index,
    read signed, is the entry's row. -/
theorem rowScatter_sum {N e k w : Nat} (wf : ScatterDims.WF ⟨2, ![N, k]⟩ ⟨2, ![e, 1]⟩ ⟨2, ![e, k]⟩ [1] [0] [0] 1)
    (x : (⟨2, ![N, k]⟩ : Shape).Idx → EReal) (idx : IVec ⟨2, ![e, 1]⟩ w) (upd : (⟨2, ![e, k]⟩ : Shape).Idx → EReal)
    (p : Fin N) (q : Fin k) :
    Ideal.hostScatterAdd (rowScatter N e k wf) x idx upd (ix2 p q)
      = x (ix2 p q) + ∑ a ∈ Finset.univ.filter (fun a : Fin e => (idx (ix2 a (0 : Fin 1))).toInt = (p.val : Int)),
          upd (ix2 a q) := by
  unfold Ideal.hostScatterAdd
  congr 1
  refine Finset.sum_nbij' (fun j => j 0) (fun a => ix2 a q) ?_ ?_ ?_ ?_ ?_
  · intro j hj
    exact Finset.mem_filter.mpr ⟨Finset.mem_univ _,
      ((rowScatter_resultIdx_iff wf idx j (ix2 p q)).mp (Finset.mem_filter.mp hj).2).1⟩
  · intro a ha
    rw [Finset.mem_filter] at ha ⊢
    exact ⟨Finset.mem_univ _, (rowScatter_resultIdx_iff wf idx (ix2 a q) (ix2 p q)).mpr ⟨ha.2, rfl⟩⟩
  · intro j hj
    rw [Finset.mem_filter] at hj
    have h1 : (j 1).val = q.val := ((rowScatter_resultIdx_iff wf idx j (ix2 p q)).mp hj.2).2
    have hq : j 1 = q := Fin.ext h1
    rw [← hq]
    exact (eq_ix2 j).symm
  · intro a _
    rfl
  · intro j hj
    rw [Finset.mem_filter] at hj
    have h1 : (j 1).val = q.val := ((rowScatter_resultIdx_iff wf idx j (ix2 p q)).mp hj.2).2
    have hq : j 1 = q := Fin.ext h1
    rw [← hq]
    exact congrArg upd (eq_ix2 j)

/-! ## A product of matrices -/

/-- A rows-by-columns product at an entry: the sum over the shared axis. -/
theorem dotPlain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ c : Fin K, l (ix2 p c) * r (ix2 c q) := by
  rw [Ideal.dotGeneral_apply]
  have hr : (DotDims.plain M K N).contr.rank = 1 := (DotDims.plain M K N).rank_contr
  have hs : (DotDims.plain M K N).contr.size ⟨0, by omega⟩ = K := by
    first
      | rfl
      | exact (DotDims.plain M K N).size_contr 0 Nat.one_pos
  refine Fintype.sum_equiv (contrEquiv1 (DotDims.plain M K N) K hr hs) _ _ (fun c => ?_)
  have hl : (DotDims.plain M K N).lhsIdx (ix2 p q) c = ix2 p (contrEquiv1 (DotDims.plain M K N) K hr hs c) := by
    funext a
    refine Fin.ext ?_
    match a with
    | ⟨0, _⟩ => rfl
    | ⟨1, _⟩ => rfl
  have hr' : (DotDims.plain M K N).rhsIdx (ix2 p q) c = ix2 (contrEquiv1 (DotDims.plain M K N) K hr hs c) q := by
    funext a
    refine Fin.ext ?_
    match a with
    | ⟨0, _⟩ => rfl
    | ⟨1, _⟩ => rfl
  exact congrArg₂ (· * ·) (congrArg l hl) (congrArg r hr')

/-! ## A vector as a column -/

/-- A vector laid as an [n, 1] column reads, at (p, 0), the vector at p. -/
theorem bcastCol_apply {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-! ## The index wrap -/

theorem toInt_50000 : (50000#32 : BitVec 32).toInt = 50000 := by decide

/-- One index word wrapped as printed (below zero: plus 50000), read signed, is the wrapped index. -/
theorem wrap_word (x : BitVec 32) :
    (Scalar.select (IntOp.cmpi .slt x 0#32) (IntOp.addi x 50000#32) x).toInt = Spec.wrap 50000 x := by
  show (if BitVec.ofBool (x.slt 0#32) = 1#1 then x + 50000#32 else x).toInt
    = if x.toInt < 0 then x.toInt + ((50000 : Nat) : Int) else x.toInt
  have hlo := BitVec.le_toInt x
  have hhi := BitVec.toInt_lt (x := x)
  norm_num at hlo hhi
  by_cases h : x.toInt < 0
  · have hs : x.slt 0#32 = true := by
      rw [BitVec.slt_eq_decide, BitVec.toInt_zero]; exact decide_eq_true h
    rw [hs, if_pos (show BitVec.ofBool true = 1#1 from rfl), if_pos h, BitVec.toInt_add, toInt_50000,
      Int.bmod_eq_of_le (by push_cast; omega) (by push_cast; omega)]
    all_goals rfl
  · have hs : x.slt 0#32 = false := by
      rw [BitVec.slt_eq_decide, BitVec.toInt_zero]; exact decide_eq_false h
    rw [hs, if_neg (show ¬ BitVec.ofBool false = 1#1 by decide), if_neg h]

/-- The clamped start index of a gather of rows of a 50000-row table is the clamped wrapped index. -/
theorem clamp_eq (x : BitVec 32) (y : BitVec 32) (hy : y.toInt = Spec.wrap 50000 x) :
    (⟨min y.toInt.toNat (50000 - 1), by omega⟩ : Fin 50000) = Spec.clampRow 50000 (by omega) x := by
  refine Fin.ext ?_
  show min y.toInt.toNat (50000 - 1) = (max 0 (min (Spec.wrap 50000 x) (((50000 : Nat) : Int) - 1))).toNat
  rw [hy]
  omega

variable [Facts₀]

/-! ## The fusion layer's stretches, as the reference prints them, over variables of the arrays' types -/

/-- A [128, 128] weight as the right operand of the products: transposed. -/
abbrev wT (w : FVec Ideal S128x128 .f32) : FVec Ideal S128x128 .f32 :=
  transpose S128x128 [1, 0] w transposes_S128x128_S128x128_1_0

/-- Slice i of a [4, 128, 128] stack of weights, as a [128, 128] matrix. -/
abbrev w3 (i : Nat) (hs : S4x128x128.Slices ![i, 0, 0] S1x128x128) (w : FVec Ideal S4x128x128 .f32) : FVec Ideal S128x128 .f32 :=
  shapeCast S128x128 (extractStridedSlice S1x128x128 ![i, 0, 0] w hs) shapeCasts_S1x128x128_S128x128

/-- Slice (i, k) of the [4, 12, 128, 128] stack of weights, as a [128, 128] matrix. -/
abbrev w4 (i k : Nat) (hs : S4x12x128x128.Slices ![i, k, 0, 0] S1x1x128x128) (w : FVec Ideal S4x12x128x128 .f32) :
    FVec Ideal S128x128 .f32 :=
  shapeCast S128x128 (extractStridedSlice S1x1x128x128 ![i, k, 0, 0] w hs) shapeCasts_S1x1x128x128_S128x128

/-- The centre term: the features times the transposed slice i of the centre weights. -/
abbrev ctrPrinted (i : Nat) (hs : S4x128x128.Slices ![i, 0, 0] S1x128x128) (feat : FVec Ideal S50000x128 .f32)
    (ctrw : FVec Ideal S4x128x128 .f32) : FVec Ideal S50000x128 .f32 :=
  Host.dotGeneral dot_S50000x128_S128x128_S50000x128_1_0_0_1_n_n none feat (wT (w3 i hs ctrw))

/-- Row k of a [12, 50000] index array, as a vector. -/
abbrev row12 (k : Nat) (hs : S12x50000.Slices ![k, 0] S1x50000) (x : IVec S12x50000 32) : IVec S50000 32 :=
  shapeCast S50000 (extractStridedSlice S1x50000 ![k, 0] x hs) shapeCasts_S1x50000_S50000

/-- Row s of a [2, 5000] index array, as a vector. -/
abbrev row2 (s : Nat) (hs : S2x5000.Slices ![s, 0] S1x5000) (x : IVec S2x5000 32) : IVec S5000 32 :=
  shapeCast S5000 (extractStridedSlice S1x5000 ![s, 0] x hs) shapeCasts_S1x5000_S5000

/-- The index wrap of 50000 indices (compare with 0, add 50000, select) and the column broadcast. -/
abbrev wrapCol50000 (x : IVec S50000 32) : IVec S50000x1 32 :=
  broadcastInDim S50000x1 ![0] bcast_S50000_S50000x1_0
    (select (cmpi .slt x (broadcastInDim S50000 ![] bcast_S_S50000 (constantI S_ 32 0#32)))
      (addi x (broadcastInDim S50000 ![] bcast_S_S50000 (constantI S_ 32 50000#32))) x)

/-- The same of 5000 indices. -/
abbrev wrapCol5000 (x : IVec S5000 32) : IVec S5000x1 32 :=
  broadcastInDim S5000x1 ![0] bcast_S5000_S5000x1_0
    (select (cmpi .slt x (broadcastInDim S5000 ![] bcast_S_S5000 (constantI S_ 32 0#32)))
      (addi x (broadcastInDim S5000 ![] bcast_S_S5000 (constantI S_ 32 50000#32))) x)

/-- One edge step over 50000 edges: gather the source rows, multiply by the transposed weight, scatter-add onto the
    destination rows. -/
abbrev edge50000 (feat temp : FVec Ideal S50000x128 .f32) (u v : IVec S50000 32) (w : FVec Ideal S128x128 .f32) :
    FVec Ideal S50000x128 .f32 :=
  Host.scatterAdd scatter_S50000x128_S50000x1_S50000x128_1_0_0_1 temp (wrapCol50000 u)
    (Host.dotGeneral dot_S50000x128_S128x128_S50000x128_1_0_0_1_n_n none
      (Host.gather gather_S50000x128_S50000x1_S50000x128_1_0_n_n_0_1_1128 feat (wrapCol50000 v)) (wT w))

/-- One edge step over 5000 edges. -/
abbrev edge5000 (feat temp : FVec Ideal S50000x128 .f32) (u v : IVec S5000 32) (w : FVec Ideal S128x128 .f32) :
    FVec Ideal S50000x128 .f32 :=
  Host.scatterAdd scatter_S50000x128_S5000x1_S5000x128_1_0_0_1 temp (wrapCol5000 u)
    (Host.dotGeneral dot_S5000x128_S128x128_S5000x128_1_0_0_1_n_n none
      (Host.gather gather_S50000x128_S5000x1_S5000x128_1_0_n_n_0_1_1128 feat (wrapCol5000 v)) (wT w))

/-- The k-th predecessor / successor edge step of layer i, as printed (26 statements). -/
abbrev psEdgePrinted (i k : Nat) (hsu : S12x50000.Slices ![k, 0] S1x50000)
    (hsw : S4x12x128x128.Slices ![i, k, 0, 0] S1x1x128x128) (feat temp : FVec Ideal S50000x128 .f32)
    (psu psv : IVec S12x50000 32) (psw : FVec Ideal S4x12x128x128 .f32) : FVec Ideal S50000x128 .f32 :=
  edge50000 feat temp (row12 k hsu psu) (row12 k hsu psv) (w4 i k hsw psw)

/-- The left (s = 0) or right (s = 1) edge step of layer i, as printed (26 statements); lrw is the left or the right
    stack of weights. -/
abbrev lrEdgePrinted (i s : Nat) (hsu : S2x5000.Slices ![s, 0] S1x5000) (hsw : S4x128x128.Slices ![i, 0, 0] S1x128x128)
    (feat temp : FVec Ideal S50000x128 .f32) (lru lrv : IVec S2x5000 32) (lrw : FVec Ideal S4x128x128 .f32) :
    FVec Ideal S50000x128 .f32 :=
  edge5000 feat temp (row2 s hsu lru) (row2 s hsu lrv) (w3 i hsw lrw)

/-! ## The node stage, as printed -/

/-- Row i of a [4, 2, 128] stack of scale / shift pairs, as a [2, 128] pair. -/
abbrev gn2 (i : Nat) (hs : S4x2x128.Slices ![i, 0, 0] S1x2x128) (g : FVec Ideal S4x2x128 .f32) : FVec Ideal S2x128 .f32 :=
  shapeCast S2x128 (extractStridedSlice S1x2x128 ![i, 0, 0] g hs) shapeCasts_S1x2x128_S2x128

/-- The positive part, as the outlined function computes it. -/
abbrev reluP (x : FVec Ideal S50000x128 .f32) : FVec Ideal S50000x128 .f32 :=
  maximumf x (broadcastInDim S50000x128 ![] bcast_S_S50000x128 (constant S_ .f32 0x00000000#32))

/-- The row sums as a column. -/
abbrev sumCol (x : FVec Ideal S50000x128 .f32) : FVec Ideal S50000x1 .f32 :=
  broadcastInDim S50000x1 ![0] bcast_S50000_S50000x1_0
    (Host.reduceAdd x (constant S_ .f32 0x00000000#32) reducesTo_S50000x128_S50000_d1 h_S_)

/-- The row means as a column: the row sums divided by the literal 128. -/
abbrev meanCol (x : FVec Ideal S50000x128 .f32) : FVec Ideal S50000x1 .f32 :=
  Host.divf (sumCol x) (broadcastInDim S50000x1 ![] bcast_S_S50000x1 (constant S_ .f32 0x43000000#32))

/-- The rows minus their means. -/
abbrev centred (x : FVec Ideal S50000x128 .f32) : FVec Ideal S50000x128 .f32 :=
  subf x (broadcastInDim S50000x128 ![0, 1] bcast_S50000x1_S50000x128_0_1 (meanCol x))

/-- The divisor of the variance: 128 minus the correction 0. -/
abbrev ddofDen : FVec Ideal S_ .f32 :=
  subf (constant S_ .f32 0x43000000#32) (sitofp .f32 (constantI S_ 32 0#32))

/-- The row variances as a column, as the outlined function computes them: the mean squared deviation where the
    divisor is positive, else the literal not-a-number. -/
abbrev varCol (x : FVec Ideal S50000x128 .f32) : FVec Ideal S50000x1 .f32 :=
  select (broadcastInDim S50000x1 ![] bcast_S_S50000x1 (cmpf .ogt ddofDen (constant S_ .f32 0x00000000#32)))
    (Host.divf (sumCol (mulf (centred x) (centred x))) (broadcastInDim S50000x1 ![] bcast_S_S50000x1 ddofDen))
    (broadcastInDim S50000x1 ![] bcast_S_S50000x1 (id (constant S_ .f32 0x7FC00000#32)))

/-- Row r (0: scale, 1: shift) of a [2, 128] pair laid along every row of a [50000, 128] array. -/
abbrev gnRow (r : Nat) (hs : S2x128.Slices ![r, 0] S1x128) (g : FVec Ideal S2x128 .f32) : FVec Ideal S50000x128 .f32 :=
  broadcastInDim S50000x128 ![0, 1] bcast_S1x128_S50000x128_0_1
    (broadcastInDim S1x128 ![1] bcast_S128_S1x128_1
      (shapeCast S128 (extractStridedSlice S1x128 ![r, 0] g hs) shapeCasts_S1x128_S128))

/-- The row normalisation as printed: centred rows divided by the square root of variance plus the small constant,
    times the scale row, plus the shift row. -/
abbrev gnP (x : FVec Ideal S50000x128 .f32) (g : FVec Ideal S2x128 .f32) : FVec Ideal S50000x128 .f32 :=
  addf
    (mulf
      (Host.divf (centred x)
        (broadcastInDim S50000x128 ![0, 1] bcast_S50000x1_S50000x128_0_1
          (Host.sqrt (addf (varCol x) (broadcastInDim S50000x1 ![] bcast_S_S50000x1 (constant S_ .f32 0x3727C5AC#32))))))
      (gnRow 0 slices_S2x128_S1x128_0_0 g))
    (gnRow 1 slices_S2x128_S1x128_1_0 g)

/-- The node stage of layer i, as printed (63 statements): normalise, positive part, second centre weight, normalise,
    add the layer's input, positive part. -/
abbrev nodePrinted (i : Nat) (hsg : S4x2x128.Slices ![i, 0, 0] S1x2x128) (hsw : S4x128x128.Slices ![i, 0, 0] S1x128x128)
    (temp res : FVec Ideal S50000x128 .f32) (normgn : FVec Ideal S4x2x128 .f32) (ctr2w : FVec Ideal S4x128x128 .f32)
    (ctr2gn : FVec Ideal S4x2x128 .f32) : FVec Ideal S50000x128 .f32 :=
  reluP (addf
    (gnP (Host.dotGeneral dot_S50000x128_S128x128_S50000x128_1_0_0_1_n_n none (reluP (gnP temp (gn2 i hsg normgn)))
      (wT (w3 i hsw ctr2w))) (gn2 i hsg ctr2gn))
    res)

/-! ## The layout operations of the stretches, read at an index -/

theorem row12_apply (k : Nat) (hk : k < 12) (hs : S12x50000.Slices ![k, 0] S1x50000) (x : IVec S12x50000 32)
    (e : Fin 50000) : row12 k hs x (ix1 e) = x (ix2 (⟨k, hk⟩ : Fin 12) e) :=
  (shapeCast_1a_a_apply _ _ e).trans (slice2_axis0_apply k x hs (0 : Fin 1) e ⟨k, hk⟩ rfl)

theorem row2_apply (s : Nat) (hs' : s < 2) (hs : S2x5000.Slices ![s, 0] S1x5000) (x : IVec S2x5000 32)
    (e : Fin 5000) : row2 s hs x (ix1 e) = x (ix2 (⟨s, hs'⟩ : Fin 2) e) :=
  (shapeCast_1a_a_apply _ _ e).trans (slice2_axis0_apply s x hs (0 : Fin 1) e ⟨s, hs'⟩ rfl)

theorem w3_apply (i : Nat) (hi : i < 4) (hs : S4x128x128.Slices ![i, 0, 0] S1x128x128) (w : FVec Ideal S4x128x128 .f32)
    (p q : Fin 128) : w3 i hs w (ix2 p q) = w (ix3 (⟨i, hi⟩ : Fin 4) p q) :=
  (shapeCast_1ab_ab_apply _ _ p q).trans
    (extractStridedSlice_apply _ w hs (ix3 (0 : Fin 1) p q) (ix3 (⟨i, hi⟩ : Fin 4) p q) (fun ax => by
      match ax with
      | ⟨0, _⟩ => rfl
      | ⟨1, _⟩ => exact (Nat.zero_add _).symm
      | ⟨2, _⟩ => exact (Nat.zero_add _).symm))

theorem w4_apply (i k : Nat) (hi : i < 4) (hk : k < 12) (hs : S4x12x128x128.Slices ![i, k, 0, 0] S1x1x128x128)
    (w : FVec Ideal S4x12x128x128 .f32) (p q : Fin 128) :
    w4 i k hs w (ix2 p q) = w (ix4 (⟨i, hi⟩ : Fin 4) (⟨k, hk⟩ : Fin 12) p q) :=
  (shapeCast_apply _ shapeCasts_S1x1x128x128_S128x128 (ix2 p q) (ix4 (0 : Fin 1) (0 : Fin 1) p q) (by
      rw [Shape.rowMajor_val_four, Shape.rowMajor_val_two]
      show ((0 * 1 + 0) * 128 + p.val) * 128 + q.val = p.val * 128 + q.val
      omega)).trans
    (extractStridedSlice_apply _ w hs (ix4 (0 : Fin 1) (0 : Fin 1) p q) (ix4 (⟨i, hi⟩ : Fin 4) (⟨k, hk⟩ : Fin 12) p q)
      (fun ax => by
        match ax with
        | ⟨0, _⟩ => rfl
        | ⟨1, _⟩ => rfl
        | ⟨2, _⟩ => exact (Nat.zero_add _).symm
        | ⟨3, _⟩ => exact (Nat.zero_add _).symm))

theorem wT_apply (w : FVec Ideal S128x128 .f32) (c q : Fin 128) : wT w (ix2 c q) = w (ix2 q c) :=
  transpose_ix2_apply w transposes_S128x128_S128x128_1_0 c q

theorem wrapCol50000_toInt (x : IVec S50000 32) (a : Fin 50000) :
    (wrapCol50000 x (ix2 a (0 : Fin 1))).toInt = Spec.wrap 50000 (x (ix1 a)) :=
  (congrArg BitVec.toInt (bcastCol_apply bcast_S50000_S50000x1_0
    (select (cmpi .slt x (broadcastInDim S50000 ![] bcast_S_S50000 (constantI S_ 32 0#32)))
      (addi x (broadcastInDim S50000 ![] bcast_S_S50000 (constantI S_ 32 50000#32))) x) a (0 : Fin 1))).trans
    (wrap_word (x (ix1 a)))

theorem wrapCol5000_toInt (x : IVec S5000 32) (a : Fin 5000) :
    (wrapCol5000 x (ix2 a (0 : Fin 1))).toInt = Spec.wrap 50000 (x (ix1 a)) :=
  (congrArg BitVec.toInt (bcastCol_apply bcast_S5000_S5000x1_0
    (select (cmpi .slt x (broadcastInDim S5000 ![] bcast_S_S5000 (constantI S_ 32 0#32)))
      (addi x (broadcastInDim S5000 ![] bcast_S_S5000 (constantI S_ 32 50000#32))) x) a (0 : Fin 1))).trans
    (wrap_word (x (ix1 a)))

/-! ## One edge step -/

/-- An edge step over e edges in its library form: the accumulating row scatter, at column indices whose signed
    readings are the wrapped destination indices, of the product of the rows gathered at column indices whose signed
    readings are the wrapped source indices with a transposed weight, is the specification's edge step. -/
theorem edge_core {e : Nat}
    (wfG : GatherDims.WF ⟨2, ![50000, 128]⟩ ⟨2, ![e, 1]⟩ ⟨2, ![e, 128]⟩ [1] [0] [] [0] [] 1 ![1, 128])
    (wfS : ScatterDims.WF ⟨2, ![50000, 128]⟩ ⟨2, ![e, 1]⟩ ⟨2, ![e, 128]⟩ [1] [0] [0] 1)
    (feat temp : FVec Ideal ⟨2, ![50000, 128]⟩ .f32) (iu iv : IVec ⟨2, ![e, 1]⟩ 32) (u v : Fin e → BitVec 32)
    (hu : ∀ a, (iu (ix2 a (0 : Fin 1))).toInt = Spec.wrap 50000 (u a))
    (hv : ∀ a, (iv (ix2 a (0 : Fin 1))).toInt = Spec.wrap 50000 (v a))
    (wt : FVec Ideal ⟨2, ![128, 128]⟩ .f32) (w : Spec.M 128 128) (hw : ∀ c q, wt (ix2 c q) = w q c) :
    Ideal.hostScatterAdd (rowScatter 50000 e 128 wfS) temp iu
        (FloatOps.dotGeneral (DotDims.plain e 128 128) none .single
          (Host.gather (rowGather 50000 e 128 wfG) feat iv) wt)
      = Spec.toVec2 (Spec.edgeStep (Spec.ofVec2 feat) (Spec.ofVec2 temp) u v w) := by
  funext idx
  obtain ⟨p, q, rfl⟩ : ∃ p q, idx = ix2 p q := ⟨idx 0, idx 1, eq_ix2 idx⟩
  rw [rowScatter_sum]
  show temp (ix2 p q) + _ = Spec.ofVec2 temp p q
    + ∑ j ∈ Finset.univ.filter (fun j : Fin e => Spec.wrap 50000 (u j) = ((p : Fin 50000).val : Int)),
        Spec.lin (Spec.gatherRows (by omega : 0 < 50000) (Spec.ofVec2 feat) v) w j q
  have hfilter : (Finset.univ.filter fun a : Fin e => (iu (ix2 a (0 : Fin 1))).toInt = (p.val : Int))
      = Finset.univ.filter (fun j : Fin e => Spec.wrap 50000 (u j) = (p.val : Int)) := by
    ext a
    simp only [Finset.mem_filter, Finset.mem_univ, true_and, hu a]
  rw [hfilter]
  refine congrArg (temp (ix2 p q) + ·) (Finset.sum_congr rfl fun a _ => ?_)
  rw [dotPlain_apply]
  show _ = ∑ c : Fin 128, Spec.ofVec2 feat (Spec.clampRow 50000 (by omega) (v a)) c * w q c
  refine Finset.sum_congr rfl fun c _ => ?_
  rw [rowGather_apply (by omega), hw, clamp_eq (v a) _ (hv a)]
  all_goals rfl

theorem edge50000_eq (feat temp : FVec Ideal S50000x128 .f32) (u v : IVec S50000 32) (w : FVec Ideal S128x128 .f32) :
    edge50000 feat temp u v w
      = Spec.toVec2 (Spec.edgeStep (Spec.ofVec2 feat) (Spec.ofVec2 temp) (fun e => u (ix1 e)) (fun e => v (ix1 e))
          (Spec.ofVec2 w)) :=
  edge_core gather_S50000x128_S50000x1_S50000x128_1_0_n_n_0_1_1128_wf scatter_S50000x128_S50000x1_S50000x128_1_0_0_1_wf
    feat temp (wrapCol50000 u) (wrapCol50000 v) (fun e => u (ix1 e)) (fun e => v (ix1 e))
    (fun a => wrapCol50000_toInt u a) (fun a => wrapCol50000_toInt v a) (wT w) (Spec.ofVec2 w) (fun c q => wT_apply w c q)

theorem edge5000_eq (feat temp : FVec Ideal S50000x128 .f32) (u v : IVec S5000 32) (w : FVec Ideal S128x128 .f32) :
    edge5000 feat temp u v w
      = Spec.toVec2 (Spec.edgeStep (Spec.ofVec2 feat) (Spec.ofVec2 temp) (fun e => u (ix1 e)) (fun e => v (ix1 e))
          (Spec.ofVec2 w)) :=
  edge_core gather_S50000x128_S5000x1_S5000x128_1_0_n_n_0_1_1128_wf scatter_S50000x128_S5000x1_S5000x128_1_0_0_1_wf
    feat temp (wrapCol5000 u) (wrapCol5000 v) (fun e => u (ix1 e)) (fun e => v (ix1 e))
    (fun a => wrapCol5000_toInt u a) (fun a => wrapCol5000_toInt v a) (wT w) (Spec.ofVec2 w) (fun c q => wT_apply w c q)

theorem ctrPrinted_eq (i : Nat) (hi : i < 4) (hs : S4x128x128.Slices ![i, 0, 0] S1x128x128)
    (feat : FVec Ideal S50000x128 .f32) (ctrw : FVec Ideal S4x128x128 .f32) :
    ctrPrinted i hs feat ctrw
      = Spec.toVec2 (Spec.lin (Spec.ofVec2 feat) (fun p q => ctrw (ix3 (⟨i, hi⟩ : Fin 4) p q))) := by
  funext idx
  obtain ⟨p, q, rfl⟩ : ∃ p q, idx = ix2 p q := ⟨idx 0, idx 1, eq_ix2 idx⟩
  show FloatOps.dotGeneral (DotDims.plain 50000 128 128) none .single feat (wT (w3 i hs ctrw)) (ix2 p q)
    = ∑ c : Fin 128, Spec.ofVec2 feat p c * ctrw (ix3 (⟨i, hi⟩ : Fin 4) q c)
  rw [dotPlain_apply]
  refine Finset.sum_congr rfl fun c _ => ?_
  rw [wT_apply, w3_apply i hi]
  all_goals rfl

theorem psEdgePrinted_eq (i k : Nat) (hi : i < 4) (hk : k < 12) (hsu : S12x50000.Slices ![k, 0] S1x50000)
    (hsw : S4x12x128x128.Slices ![i, k, 0, 0] S1x1x128x128) (feat temp : FVec Ideal S50000x128 .f32)
    (psu psv : IVec S12x50000 32) (psw : FVec Ideal S4x12x128x128 .f32) :
    psEdgePrinted i k hsu hsw feat temp psu psv psw
      = Spec.toVec2 (Spec.edgeStep (Spec.ofVec2 feat) (Spec.ofVec2 temp) (fun e => psu (ix2 (⟨k, hk⟩ : Fin 12) e))
          (fun e => psv (ix2 (⟨k, hk⟩ : Fin 12) e)) (fun p q => psw (ix4 (⟨i, hi⟩ : Fin 4) (⟨k, hk⟩ : Fin 12) p q))) := by
  have e1 : (fun e => row12 k hsu psu (ix1 e)) = fun e => psu (ix2 (⟨k, hk⟩ : Fin 12) e) :=
    funext fun e => row12_apply k hk hsu psu e
  have e2 : (fun e => row12 k hsu psv (ix1 e)) = fun e => psv (ix2 (⟨k, hk⟩ : Fin 12) e) :=
    funext fun e => row12_apply k hk hsu psv e
  have e3 : Spec.ofVec2 (w4 i k hsw psw) = fun p q => psw (ix4 (⟨i, hi⟩ : Fin 4) (⟨k, hk⟩ : Fin 12) p q) :=
    funext fun p => funext fun q => w4_apply i k hi hk hsw psw p q
  have h := edge50000_eq feat temp (row12 k hsu psu) (row12 k hsu psv) (w4 i k hsw psw)
  rw [e1, e2, e3] at h
  exact h

theorem lrEdgePrinted_eq (i s : Nat) (hi : i < 4) (hs : s < 2) (hsu : S2x5000.Slices ![s, 0] S1x5000)
    (hsw : S4x128x128.Slices ![i, 0, 0] S1x128x128) (feat temp : FVec Ideal S50000x128 .f32)
    (lru lrv : IVec S2x5000 32) (lrw : FVec Ideal S4x128x128 .f32) :
    lrEdgePrinted i s hsu hsw feat temp lru lrv lrw
      = Spec.toVec2 (Spec.edgeStep (Spec.ofVec2 feat) (Spec.ofVec2 temp) (fun e => lru (ix2 (⟨s, hs⟩ : Fin 2) e))
          (fun e => lrv (ix2 (⟨s, hs⟩ : Fin 2) e)) (fun p q => lrw (ix3 (⟨i, hi⟩ : Fin 4) p q))) := by
  have e1 : (fun e => row2 s hsu lru (ix1 e)) = fun e => lru (ix2 (⟨s, hs⟩ : Fin 2) e) :=
    funext fun e => row2_apply s hs hsu lru e
  have e2 : (fun e => row2 s hsu lrv (ix1 e)) = fun e => lrv (ix2 (⟨s, hs⟩ : Fin 2) e) :=
    funext fun e => row2_apply s hs hsu lrv e
  have e3 : Spec.ofVec2 (w3 i hsw lrw) = fun p q => lrw (ix3 (⟨i, hi⟩ : Fin 4) p q) :=
    funext fun p => funext fun q => w3_apply i hi hsw lrw p q
  have h := edge5000_eq feat temp (row2 s hsu lru) (row2 s hsu lrv) (w3 i hsw lrw)
  rw [e1, e2, e3] at h
  exact h

/-! ## The node stage, read at an index -/

/-- An [n, 1] column laid along every row of an [n, m] array reads, at (p, q), the column at (p, 0). -/
theorem bcastOfCol_apply {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  broadcastInDim_apply _ h v _ _ (fun a => by
    match a with
    | ⟨0, _⟩ =>
      show p.val = if n = 1 then 0 else p.val
      split
      · next h1 => have := p.isLt; omega
      · rfl
    | ⟨1, _⟩ => rfl)

/-- A [1, m] row laid along every row of an [n, m] array reads, at (p, q), the row at (0, q). -/
theorem bcastOfRow_apply {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 (0 : Fin 1) q) :=
  broadcastInDim_apply _ h v _ _ (fun a => by
    match a with
    | ⟨0, _⟩ => rfl
    | ⟨1, _⟩ =>
      show q.val = if m = 1 then 0 else q.val
      split
      · next h1 => have := q.isLt; omega
      · rfl)

/-- A vector as a [1, m] row reads, at (0, q), the vector at q. -/
theorem bcastRow1_apply {α : Type} {m : Nat} (h : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h v (ix2 z q) = v (ix1 q) :=
  broadcastInDim_apply _ h v _ _ (fun a => by
    match a with
    | ⟨0, _⟩ =>
      show q.val = if m = 1 then 0 else q.val
      split
      · next h1 => have := q.isLt; omega
      · rfl)

theorem gn2_apply (i : Nat) (hi : i < 4) (hs : S4x2x128.Slices ![i, 0, 0] S1x2x128) (g : FVec Ideal S4x2x128 .f32)
    (r : Fin 2) (q : Fin 128) : gn2 i hs g (ix2 r q) = g (ix3 (⟨i, hi⟩ : Fin 4) r q) :=
  (shapeCast_1ab_ab_apply _ _ r q).trans
    (extractStridedSlice_apply _ g hs (ix3 (0 : Fin 1) r q) (ix3 (⟨i, hi⟩ : Fin 4) r q) (fun ax => by
      match ax with
      | ⟨0, _⟩ => rfl
      | ⟨1, _⟩ => exact (Nat.zero_add _).symm
      | ⟨2, _⟩ => exact (Nat.zero_add _).symm))

theorem gnRow_apply (r : Nat) (hr : r < 2) (hs : S2x128.Slices ![r, 0] S1x128) (g : FVec Ideal S2x128 .f32)
    (p : Fin 50000) (q : Fin 128) : gnRow r hs g (ix2 p q) = g (ix2 (⟨r, hr⟩ : Fin 2) q) :=
  (bcastOfRow_apply bcast_S1x128_S50000x128_0_1
      (broadcastInDim S1x128 ![1] bcast_S128_S1x128_1
        (shapeCast S128 (extractStridedSlice S1x128 ![r, 0] g hs) shapeCasts_S1x128_S128)) p q).trans
    ((bcastRow1_apply bcast_S128_S1x128_1
        (shapeCast S128 (extractStridedSlice S1x128 ![r, 0] g hs) shapeCasts_S1x128_S128) (0 : Fin 1) q).trans
      ((shapeCast_1a_a_apply (extractStridedSlice S1x128 ![r, 0] g hs) shapeCasts_S1x128_S128 q).trans
        (slice2_axis0_apply r g hs (0 : Fin 1) q ⟨r, hr⟩ rfl)))

theorem sumCol_apply (x : FVec Ideal S50000x128 .f32) (p : Fin 50000) (z : Fin 1) :
    sumCol x (ix2 p z) = ∑ j : Fin 128, x (ix2 p j) := by
  refine (bcastCol_apply bcast_S50000_S50000x1_0
    (Host.reduceAdd x (constant S_ .f32 0x00000000#32) reducesTo_S50000x128_S50000_d1 h_S_ : FVec Ideal S50000 .f32)
    p z).trans ?_
  show Ideal.hostReduceAdd reducesTo_S50000x128_S50000_d1 x (Ideal.ofBits .f32 0x00000000#32) (ix1 p) = _
  have hR : S50000x128.Reduces [1] S50000 := by
    first
      | decide
      | exact ⟨rfl, Nat.one_pos, fun b => by match b with | ⟨0, _⟩ => rfl⟩
  rw [Ideal.hostReduceAdd_single reducesTo_S50000x128_S50000_d1 hR, Ideal.ofBits_zero_f32, zero_add]
  refine Finset.sum_congr rfl fun j _ => ?_
  refine congrArg x (funext fun a => Fin.ext ?_)
  match a with
  | ⟨0, _⟩ => rfl
  | ⟨1, _⟩ => rfl

theorem meanCol_apply (x : FVec Ideal S50000x128 .f32) (p : Fin 50000) (z : Fin 1) :
    meanCol x (ix2 p z) = Spec.mean (Spec.ofVec2 x p) := by
  show Ideal.div (sumCol x (ix2 p z)) (Ideal.ofBits .f32 0x43000000#32) = Ideal.div (∑ j : Fin 128, Spec.ofVec2 x p j) Spec.c128
  rw [sumCol_apply]
  all_goals rfl

theorem centred_apply (x : FVec Ideal S50000x128 .f32) (p : Fin 50000) (q : Fin 128) :
    centred x (ix2 p q) = x (ix2 p q) - Spec.mean (Spec.ofVec2 x p) := by
  show x (ix2 p q) - broadcastInDim S50000x128 ![0, 1] bcast_S50000x1_S50000x128_0_1 (meanCol x) (ix2 p q) = _
  rw [bcastOfCol_apply, meanCol_apply]

theorem ddofDen_apply (j : S_.Idx) : ddofDen j = Spec.c128 := by
  show Ideal.ofBits .f32 0x43000000#32 - ((((0#32 : BitVec 32).toInt : ℝ)) : EReal) = Spec.c128
  rw [BitVec.toInt_zero, Int.cast_zero, EReal.coe_zero, sub_zero]
  all_goals rfl

theorem varCol_apply (hc : Spec.c128 = ((128 : ℝ) : EReal)) (x : FVec Ideal S50000x128 .f32) (p : Fin 50000) (z : Fin 1) :
    varCol x (ix2 p z)
      = Spec.mean (fun j => (Spec.ofVec2 x p j - Spec.mean (Spec.ofVec2 x p)) * (Spec.ofVec2 x p j - Spec.mean (Spec.ofVec2 x p))) := by
  have h128 : (0 : EReal) < ((128 : ℝ) : EReal) := EReal.coe_pos.mpr (by norm_num)
  have hcond : ∀ j : S_.Idx, Ideal.cmp .ogt (ddofDen j) (Ideal.ofBits .f32 0x00000000#32) = 1#1 := by
    intro j
    rw [ddofDen_apply, Ideal.ofBits_zero_f32, hc]
    show BitVec.ofBool (decide ((0 : EReal) < ((128 : ℝ) : EReal))) = 1#1
    rw [decide_eq_true h128]
    all_goals rfl
  show Scalar.select (Ideal.cmp .ogt (ddofDen _) (Ideal.ofBits .f32 0x00000000#32))
      (Ideal.div (sumCol (mulf (centred x) (centred x)) (ix2 p z)) (ddofDen _)) _ = _
  rw [hcond, select_one, ddofDen_apply, sumCol_apply]
  show Ideal.div (∑ j : Fin 128, centred x (ix2 p j) * centred x (ix2 p j)) Spec.c128
    = Ideal.div (∑ j : Fin 128, (Spec.ofVec2 x p j - Spec.mean (Spec.ofVec2 x p))
        * (Spec.ofVec2 x p j - Spec.mean (Spec.ofVec2 x p))) Spec.c128
  refine congrArg (fun s => Ideal.div s Spec.c128) (Finset.sum_congr rfl fun j _ => ?_)
  rw [centred_apply]
  all_goals rfl

/-- The printed row normalisation at an entry, given the division form of the specification's. -/
theorem gnP_apply (hc : Spec.c128 = ((128 : ℝ) : EReal))
    (hgn : ∀ (y : Spec.M 50000 128) (s h : Fin 128 → EReal) (p : Fin 50000) (q : Fin 128),
      Ideal.div (y p q - Spec.mean (y p))
          (Ideal.sqrt (Spec.mean (fun j => (y p j - Spec.mean (y p)) * (y p j - Spec.mean (y p))) + Spec.cEps)) * s q + h q
        = Spec.gn y s h p q)
    (x : FVec Ideal S50000x128 .f32) (g : FVec Ideal S2x128 .f32) (p : Fin 50000) (q : Fin 128) :
    gnP x g (ix2 p q)
      = Spec.gn (Spec.ofVec2 x) (fun q => g (ix2 (0 : Fin 2) q)) (fun q => g (ix2 (1 : Fin 2) q)) p q := by
  rw [← hgn]
  show Ideal.div (centred x (ix2 p q))
        (broadcastInDim S50000x128 ![0, 1] bcast_S50000x1_S50000x128_0_1
          (Host.sqrt (addf (varCol x) (broadcastInDim S50000x1 ![] bcast_S_S50000x1 (constant S_ .f32 0x3727C5AC#32))))
          (ix2 p q))
      * gnRow 0 slices_S2x128_S1x128_0_0 g (ix2 p q) + gnRow 1 slices_S2x128_S1x128_1_0 g (ix2 p q) = _
  rw [bcastOfCol_apply, centred_apply, gnRow_apply 0 (by omega), gnRow_apply 1 (by omega)]
  show Ideal.div _ (Ideal.sqrt (varCol x (ix2 p (0 : Fin 1)) + Spec.cEps)) * _ + _ = _
  rw [varCol_apply hc]
  all_goals rfl

theorem nodePrinted_eq_of (hc : Spec.c128 = ((128 : ℝ) : EReal))
    (hgn : ∀ (y : Spec.M 50000 128) (s h : Fin 128 → EReal) (p : Fin 50000) (q : Fin 128),
      Ideal.div (y p q - Spec.mean (y p))
          (Ideal.sqrt (Spec.mean (fun j => (y p j - Spec.mean (y p)) * (y p j - Spec.mean (y p))) + Spec.cEps)) * s q + h q
        = Spec.gn y s h p q)
    (i : Nat) (hi : i < 4) (hsg : S4x2x128.Slices ![i, 0, 0] S1x2x128)
    (hsw : S4x128x128.Slices ![i, 0, 0] S1x128x128) (temp res : FVec Ideal S50000x128 .f32)
    (normgn : FVec Ideal S4x2x128 .f32) (ctr2w : FVec Ideal S4x128x128 .f32) (ctr2gn : FVec Ideal S4x2x128 .f32) :
    nodePrinted i hsg hsw temp res normgn ctr2w ctr2gn
      = Spec.toVec2 (Spec.ggTail (Spec.ofVec2 temp) (Spec.ofVec2 res)
          (fun q => normgn (ix3 (⟨i, hi⟩ : Fin 4) (0 : Fin 2) q)) (fun q => normgn (ix3 (⟨i, hi⟩ : Fin 4) (1 : Fin 2) q))
          (fun p q => ctr2w (ix3 (⟨i, hi⟩ : Fin 4) p q))
          (fun q => ctr2gn (ix3 (⟨i, hi⟩ : Fin 4) (0 : Fin 2) q)) (fun q => ctr2gn (ix3 (⟨i, hi⟩ : Fin 4) (1 : Fin 2) q))) := by
  have g0 : ∀ (g : FVec Ideal S4x2x128 .f32) (r : Fin 2),
      (fun q => gn2 i hsg g (ix2 r q)) = fun q => g (ix3 (⟨i, hi⟩ : Fin 4) r q) :=
    fun g r => funext fun q => gn2_apply i hi hsg g r q
  have hy : Spec.ofVec2 (Host.dotGeneral dot_S50000x128_S128x128_S50000x128_1_0_0_1_n_n none
        (reluP (gnP temp (gn2 i hsg normgn))) (wT (w3 i hsw ctr2w)))
      = Spec.lin (Spec.relu (Spec.gn (Spec.ofVec2 temp) (fun q => normgn (ix3 (⟨i, hi⟩ : Fin 4) (0 : Fin 2) q))
          (fun q => normgn (ix3 (⟨i, hi⟩ : Fin 4) (1 : Fin 2) q)))) (fun p q => ctr2w (ix3 (⟨i, hi⟩ : Fin 4) p q)) := by
    funext a b
    show FloatOps.dotGeneral (DotDims.plain 50000 128 128) none .single (reluP (gnP temp (gn2 i hsg normgn)))
        (wT (w3 i hsw ctr2w)) (ix2 a b)
      = ∑ c : Fin 128, max (Spec.gn (Spec.ofVec2 temp) (fun q => normgn (ix3 (⟨i, hi⟩ : Fin 4) (0 : Fin 2) q))
          (fun q => normgn (ix3 (⟨i, hi⟩ : Fin 4) (1 : Fin 2) q)) a c) 0 * ctr2w (ix3 (⟨i, hi⟩ : Fin 4) b c)
    rw [dotPlain_apply]
    refine Finset.sum_congr rfl fun c _ => ?_
    rw [wT_apply, w3_apply i hi]
    show max (gnP temp (gn2 i hsg normgn) (ix2 a c)) (Ideal.ofBits .f32 0x00000000#32) * _ = _
    rw [gnP_apply hc hgn, Ideal.ofBits_zero_f32, g0 normgn 0, g0 normgn 1]
  funext idx
  obtain ⟨p, q, rfl⟩ : ∃ p q, idx = ix2 p q := ⟨idx 0, idx 1, eq_ix2 idx⟩
  show max (gnP (Host.dotGeneral dot_S50000x128_S128x128_S50000x128_1_0_0_1_n_n none
        (reluP (gnP temp (gn2 i hsg normgn))) (wT (w3 i hsw ctr2w))) (gn2 i hsg ctr2gn) (ix2 p q) + res (ix2 p q))
      (Ideal.ofBits .f32 0x00000000#32)
    = max (Spec.gn (Spec.lin (Spec.relu (Spec.gn (Spec.ofVec2 temp) (fun q => normgn (ix3 (⟨i, hi⟩ : Fin 4) (0 : Fin 2) q))
          (fun q => normgn (ix3 (⟨i, hi⟩ : Fin 4) (1 : Fin 2) q)))) (fun p q => ctr2w (ix3 (⟨i, hi⟩ : Fin 4) p q)))
        (fun q => ctr2gn (ix3 (⟨i, hi⟩ : Fin 4) (0 : Fin 2) q)) (fun q => ctr2gn (ix3 (⟨i, hi⟩ : Fin 4) (1 : Fin 2) q)) p q
        + Spec.ofVec2 res p q) 0
  rw [gnP_apply hc hgn, Ideal.ofBits_zero_f32, hy, g0 ctr2gn 0, g0 ctr2gn 1]
  all_goals rfl

/-! ## One whole layer -/

/-- The accumulated features of layer i as printed: the centre term, the twelve predecessor / successor edge steps in
    order, the left step, the right step. -/
abbrev accPrinted (i : Nat) (hu : ∀ k, k < 12 → S12x50000.Slices ![k, 0] S1x50000)
    (hw : ∀ k, k < 12 → S4x12x128x128.Slices ![i, k, 0, 0] S1x1x128x128) (hl : ∀ s, s < 2 → S2x5000.Slices ![s, 0] S1x5000)
    (hs3 : S4x128x128.Slices ![i, 0, 0] S1x128x128) (feat : FVec Ideal S50000x128 .f32)
    (ctrw : FVec Ideal S4x128x128 .f32) (psw : FVec Ideal S4x12x128x128 .f32) (leftw rightw : FVec Ideal S4x128x128 .f32)
    (psu psv : IVec S12x50000 32) (lru lrv : IVec S2x5000 32) : FVec Ideal S50000x128 .f32 :=
  lrEdgePrinted i 1 (hl 1 (by omega)) hs3 feat
    (lrEdgePrinted i 0 (hl 0 (by omega)) hs3 feat
      (psEdgePrinted i 11 (hu 11 (by omega)) (hw 11 (by omega)) feat
      (psEdgePrinted i 10 (hu 10 (by omega)) (hw 10 (by omega)) feat
      (psEdgePrinted i 9 (hu 9 (by omega)) (hw 9 (by omega)) feat
      (psEdgePrinted i 8 (hu 8 (by omega)) (hw 8 (by omega)) feat
      (psEdgePrinted i 7 (hu 7 (by omega)) (hw 7 (by omega)) feat
      (psEdgePrinted i 6 (hu 6 (by omega)) (hw 6 (by omega)) feat
      (psEdgePrinted i 5 (hu 5 (by omega)) (hw 5 (by omega)) feat
      (psEdgePrinted i 4 (hu 4 (by omega)) (hw 4 (by omega)) feat
      (psEdgePrinted i 3 (hu 3 (by omega)) (hw 3 (by omega)) feat
      (psEdgePrinted i 2 (hu 2 (by omega)) (hw 2 (by omega)) feat
      (psEdgePrinted i 1 (hu 1 (by omega)) (hw 1 (by omega)) feat
      (psEdgePrinted i 0 (hu 0 (by omega)) (hw 0 (by omega)) feat
      (ctrPrinted i hs3 feat ctrw) psu psv psw) psu psv psw) psu psv psw) psu psv psw) psu psv psw) psu psv psw) psu psv psw) psu psv psw) psu psv psw) psu psv psw) psu psv psw) psu psv psw)
      lru lrv leftw)
    lru lrv rightw

/-- Layer i as printed, from the features to the next features. -/
abbrev layerPrinted (i : Nat) (hu : ∀ k, k < 12 → S12x50000.Slices ![k, 0] S1x50000)
    (hw : ∀ k, k < 12 → S4x12x128x128.Slices ![i, k, 0, 0] S1x1x128x128) (hl : ∀ s, s < 2 → S2x5000.Slices ![s, 0] S1x5000)
    (hs3 : S4x128x128.Slices ![i, 0, 0] S1x128x128) (hsg : S4x2x128.Slices ![i, 0, 0] S1x2x128)
    (feat : FVec Ideal S50000x128 .f32)
    (ctrw : FVec Ideal S4x128x128 .f32) (psw : FVec Ideal S4x12x128x128 .f32) (leftw rightw : FVec Ideal S4x128x128 .f32)
    (normgn : FVec Ideal S4x2x128 .f32) (ctr2w : FVec Ideal S4x128x128 .f32) (ctr2gn : FVec Ideal S4x2x128 .f32)
    (psu psv : IVec S12x50000 32) (lru lrv : IVec S2x5000 32) : FVec Ideal S50000x128 .f32 :=
  nodePrinted i hsg hs3 (accPrinted i hu hw hl hs3 feat ctrw psw leftw rightw psu psv lru lrv) feat normgn ctr2w ctr2gn

/-- The specification's accumulation, its fold over the twelve sets written out. -/
theorem fuseAcc_nested (A : Spec.Args) (i : Nat) (hi : i < 4) (g : Spec.M 50000 128) :
    Spec.fuseAcc A ⟨i, hi⟩ g
      = Spec.edgeStep g (Spec.edgeStep g
          (Spec.edgeStep g (Spec.edgeStep g (Spec.edgeStep g (Spec.edgeStep g (Spec.edgeStep g (Spec.edgeStep g (Spec.edgeStep g (Spec.edgeStep g (Spec.edgeStep g (Spec.edgeStep g (Spec.edgeStep g (Spec.edgeStep g (Spec.lin g (A.fuse_ctr_w ⟨i, hi⟩))
      (A.ps_u ⟨0, by omega⟩) (A.ps_v ⟨0, by omega⟩) (A.fuse_ps_w ⟨i, hi⟩ ⟨0, by omega⟩))
      (A.ps_u ⟨1, by omega⟩) (A.ps_v ⟨1, by omega⟩) (A.fuse_ps_w ⟨i, hi⟩ ⟨1, by omega⟩))
      (A.ps_u ⟨2, by omega⟩) (A.ps_v ⟨2, by omega⟩) (A.fuse_ps_w ⟨i, hi⟩ ⟨2, by omega⟩))
      (A.ps_u ⟨3, by omega⟩) (A.ps_v ⟨3, by omega⟩) (A.fuse_ps_w ⟨i, hi⟩ ⟨3, by omega⟩))
      (A.ps_u ⟨4, by omega⟩) (A.ps_v ⟨4, by omega⟩) (A.fuse_ps_w ⟨i, hi⟩ ⟨4, by omega⟩))
      (A.ps_u ⟨5, by omega⟩) (A.ps_v ⟨5, by omega⟩) (A.fuse_ps_w ⟨i, hi⟩ ⟨5, by omega⟩))
      (A.ps_u ⟨6, by omega⟩) (A.ps_v ⟨6, by omega⟩) (A.fuse_ps_w ⟨i, hi⟩ ⟨6, by omega⟩))
      (A.ps_u ⟨7, by omega⟩) (A.ps_v ⟨7, by omega⟩) (A.fuse_ps_w ⟨i, hi⟩ ⟨7, by omega⟩))
      (A.ps_u ⟨8, by omega⟩) (A.ps_v ⟨8, by omega⟩) (A.fuse_ps_w ⟨i, hi⟩ ⟨8, by omega⟩))
      (A.ps_u ⟨9, by omega⟩) (A.ps_v ⟨9, by omega⟩) (A.fuse_ps_w ⟨i, hi⟩ ⟨9, by omega⟩))
      (A.ps_u ⟨10, by omega⟩) (A.ps_v ⟨10, by omega⟩) (A.fuse_ps_w ⟨i, hi⟩ ⟨10, by omega⟩))
      (A.ps_u ⟨11, by omega⟩) (A.ps_v ⟨11, by omega⟩) (A.fuse_ps_w ⟨i, hi⟩ ⟨11, by omega⟩))
          (A.lr_u ⟨0, by omega⟩) (A.lr_v ⟨0, by omega⟩) (A.fuse_left_w ⟨i, hi⟩))
        (A.lr_u ⟨1, by omega⟩) (A.lr_v ⟨1, by omega⟩) (A.fuse_right_w ⟨i, hi⟩) := rfl

/-- The arguments record agrees with the argument arrays on what layer i reads. -/
structure ArgsAt (A : Spec.Args) (i : Nat) (hi : i < 4)
    (ctrw : FVec Ideal S4x128x128 .f32) (psw : FVec Ideal S4x12x128x128 .f32) (leftw rightw : FVec Ideal S4x128x128 .f32)
    (normgn : FVec Ideal S4x2x128 .f32) (ctr2w : FVec Ideal S4x128x128 .f32) (ctr2gn : FVec Ideal S4x2x128 .f32)
    (psu psv : IVec S12x50000 32) (lru lrv : IVec S2x5000 32) : Prop where
  ctr : A.fuse_ctr_w ⟨i, hi⟩ = fun p q => ctrw (ix3 (⟨i, hi⟩ : Fin 4) p q)
  ps : ∀ (k : Nat) (hk : k < 12), A.fuse_ps_w ⟨i, hi⟩ ⟨k, hk⟩ = fun p q => psw (ix4 (⟨i, hi⟩ : Fin 4) (⟨k, hk⟩ : Fin 12) p q)
  left : A.fuse_left_w ⟨i, hi⟩ = fun p q => leftw (ix3 (⟨i, hi⟩ : Fin 4) p q)
  right : A.fuse_right_w ⟨i, hi⟩ = fun p q => rightw (ix3 (⟨i, hi⟩ : Fin 4) p q)
  ngn : ∀ r : Fin 2, A.fuse_norm_gn ⟨i, hi⟩ r = fun q => normgn (ix3 (⟨i, hi⟩ : Fin 4) r q)
  c2w : A.fuse_ctr2_w ⟨i, hi⟩ = fun p q => ctr2w (ix3 (⟨i, hi⟩ : Fin 4) p q)
  c2g : ∀ r : Fin 2, A.fuse_ctr2_gn ⟨i, hi⟩ r = fun q => ctr2gn (ix3 (⟨i, hi⟩ : Fin 4) r q)
  psu : ∀ (k : Nat) (hk : k < 12), A.ps_u ⟨k, hk⟩ = fun e => psu (ix2 (⟨k, hk⟩ : Fin 12) e)
  psv : ∀ (k : Nat) (hk : k < 12), A.ps_v ⟨k, hk⟩ = fun e => psv (ix2 (⟨k, hk⟩ : Fin 12) e)
  lru : ∀ (s : Nat) (hs : s < 2), A.lr_u ⟨s, hs⟩ = fun e => lru (ix2 (⟨s, hs⟩ : Fin 2) e)
  lrv : ∀ (s : Nat) (hs : s < 2), A.lr_v ⟨s, hs⟩ = fun e => lrv (ix2 (⟨s, hs⟩ : Fin 2) e)

theorem accPrinted_eq (A : Spec.Args) (i : Nat) (hi : i < 4) (hu : ∀ k, k < 12 → S12x50000.Slices ![k, 0] S1x50000)
    (hw : ∀ k, k < 12 → S4x12x128x128.Slices ![i, k, 0, 0] S1x1x128x128) (hl : ∀ s, s < 2 → S2x5000.Slices ![s, 0] S1x5000)
    (hs3 : S4x128x128.Slices ![i, 0, 0] S1x128x128) (feat : FVec Ideal S50000x128 .f32)
    (ctrw : FVec Ideal S4x128x128 .f32) (psw : FVec Ideal S4x12x128x128 .f32) (leftw rightw : FVec Ideal S4x128x128 .f32)
    (normgn : FVec Ideal S4x2x128 .f32) (ctr2w : FVec Ideal S4x128x128 .f32) (ctr2gn : FVec Ideal S4x2x128 .f32)
    (psu psv : IVec S12x50000 32) (lru lrv : IVec S2x5000 32)
    (hA : ArgsAt A i hi ctrw psw leftw rightw normgn ctr2w ctr2gn psu psv lru lrv) :
    accPrinted i hu hw hl hs3 feat ctrw psw leftw rightw psu psv lru lrv
      = Spec.toVec2 (Spec.fuseAcc A ⟨i, hi⟩ (Spec.ofVec2 feat)) := by
  rw [fuseAcc_nested, hA.ctr, hA.left, hA.right, hA.lru 0 (by omega), hA.lru 1 (by omega), hA.lrv 0 (by omega),
    hA.lrv 1 (by omega),
    hA.ps 0 (by omega), hA.psu 0 (by omega), hA.psv 0 (by omega),
    hA.ps 1 (by omega), hA.psu 1 (by omega), hA.psv 1 (by omega),
    hA.ps 2 (by omega), hA.psu 2 (by omega), hA.psv 2 (by omega),
    hA.ps 3 (by omega), hA.psu 3 (by omega), hA.psv 3 (by omega),
    hA.ps 4 (by omega), hA.psu 4 (by omega), hA.psv 4 (by omega),
    hA.ps 5 (by omega), hA.psu 5 (by omega), hA.psv 5 (by omega),
    hA.ps 6 (by omega), hA.psu 6 (by omega), hA.psv 6 (by omega),
    hA.ps 7 (by omega), hA.psu 7 (by omega), hA.psv 7 (by omega),
    hA.ps 8 (by omega), hA.psu 8 (by omega), hA.psv 8 (by omega),
    hA.ps 9 (by omega), hA.psu 9 (by omega), hA.psv 9 (by omega),
    hA.ps 10 (by omega), hA.psu 10 (by omega), hA.psv 10 (by omega),
    hA.ps 11 (by omega), hA.psu 11 (by omega), hA.psv 11 (by omega)]
  simp only [accPrinted, ctrPrinted_eq i hi, lrEdgePrinted_eq i 0 hi (by omega), lrEdgePrinted_eq i 1 hi (by omega),
    psEdgePrinted_eq i 0 hi (by omega),
    psEdgePrinted_eq i 1 hi (by omega),
    psEdgePrinted_eq i 2 hi (by omega),
    psEdgePrinted_eq i 3 hi (by omega),
    psEdgePrinted_eq i 4 hi (by omega),
    psEdgePrinted_eq i 5 hi (by omega),
    psEdgePrinted_eq i 6 hi (by omega),
    psEdgePrinted_eq i 7 hi (by omega),
    psEdgePrinted_eq i 8 hi (by omega),
    psEdgePrinted_eq i 9 hi (by omega),
    psEdgePrinted_eq i 10 hi (by omega),
    psEdgePrinted_eq i 11 hi (by omega),
    Spec.ofVec2_toVec2]

theorem layerPrinted_eq_of (hc : Spec.c128 = ((128 : ℝ) : EReal))
    (hgn : ∀ (y : Spec.M 50000 128) (s h : Fin 128 → EReal) (p : Fin 50000) (q : Fin 128),
      Ideal.div (y p q - Spec.mean (y p))
          (Ideal.sqrt (Spec.mean (fun j => (y p j - Spec.mean (y p)) * (y p j - Spec.mean (y p))) + Spec.cEps)) * s q + h q
        = Spec.gn y s h p q)
    (A : Spec.Args) (i : Nat) (hi : i < 4) (hu : ∀ k, k < 12 → S12x50000.Slices ![k, 0] S1x50000)
    (hw : ∀ k, k < 12 → S4x12x128x128.Slices ![i, k, 0, 0] S1x1x128x128) (hl : ∀ s, s < 2 → S2x5000.Slices ![s, 0] S1x5000)
    (hs3 : S4x128x128.Slices ![i, 0, 0] S1x128x128) (hsg : S4x2x128.Slices ![i, 0, 0] S1x2x128)
    (feat : FVec Ideal S50000x128 .f32)
    (ctrw : FVec Ideal S4x128x128 .f32) (psw : FVec Ideal S4x12x128x128 .f32) (leftw rightw : FVec Ideal S4x128x128 .f32)
    (normgn : FVec Ideal S4x2x128 .f32) (ctr2w : FVec Ideal S4x128x128 .f32) (ctr2gn : FVec Ideal S4x2x128 .f32)
    (psu psv : IVec S12x50000 32) (lru lrv : IVec S2x5000 32)
    (hA : ArgsAt A i hi ctrw psw leftw rightw normgn ctr2w ctr2gn psu psv lru lrv) :
    layerPrinted i hu hw hl hs3 hsg feat ctrw psw leftw rightw normgn ctr2w ctr2gn psu psv lru lrv
      = Spec.toVec2 (Spec.fuse A ⟨i, hi⟩ (Spec.ofVec2 feat)) := by
  show nodePrinted i hsg hs3 (accPrinted i hu hw hl hs3 feat ctrw psw leftw rightw psu psv lru lrv) feat normgn ctr2w ctr2gn = _
  rw [nodePrinted_eq_of hc hgn i hi, accPrinted_eq A i hi hu hw hl hs3 feat ctrw psw leftw rightw normgn ctr2w ctr2gn psu psv
    lru lrv hA, Spec.ofVec2_toVec2]
  unfold Spec.fuse
  rw [hA.ngn 0, hA.ngn 1, hA.c2w, hA.c2g 0, hA.c2g 1]

/-! ## The node stage and the whole layer, with the two facts of the row normalisation cited -/

theorem nodePrinted_eq (i : Nat) (hi : i < 4) (hsg : S4x2x128.Slices ![i, 0, 0] S1x2x128)
    (hsw : S4x128x128.Slices ![i, 0, 0] S1x128x128) (temp res : FVec Ideal S50000x128 .f32)
    (normgn : FVec Ideal S4x2x128 .f32) (ctr2w : FVec Ideal S4x128x128 .f32) (ctr2gn : FVec Ideal S4x2x128 .f32) :
    nodePrinted i hsg hsw temp res normgn ctr2w ctr2gn
      = Spec.toVec2 (Spec.ggTail (Spec.ofVec2 temp) (Spec.ofVec2 res)
          (fun q => normgn (ix3 (⟨i, hi⟩ : Fin 4) (0 : Fin 2) q)) (fun q => normgn (ix3 (⟨i, hi⟩ : Fin 4) (1 : Fin 2) q))
          (fun p q => ctr2w (ix3 (⟨i, hi⟩ : Fin 4) p q))
          (fun q => ctr2gn (ix3 (⟨i, hi⟩ : Fin 4) (0 : Fin 2) q)) (fun q => ctr2gn (ix3 (⟨i, hi⟩ : Fin 4) (1 : Fin 2) q))) :=
  nodePrinted_eq_of Spec.c128_eq (fun y s h p q => Spec.gn_div_form y s h p q) i hi hsg hsw temp res normgn ctr2w ctr2gn

theorem layerPrinted_eq (A : Spec.Args) (i : Nat) (hi : i < 4) (hu : ∀ k, k < 12 → S12x50000.Slices ![k, 0] S1x50000)
    (hw : ∀ k, k < 12 → S4x12x128x128.Slices ![i, k, 0, 0] S1x1x128x128) (hl : ∀ s, s < 2 → S2x5000.Slices ![s, 0] S1x5000)
    (hs3 : S4x128x128.Slices ![i, 0, 0] S1x128x128) (hsg : S4x2x128.Slices ![i, 0, 0] S1x2x128)
    (feat : FVec Ideal S50000x128 .f32)
    (ctrw : FVec Ideal S4x128x128 .f32) (psw : FVec Ideal S4x12x128x128 .f32) (leftw rightw : FVec Ideal S4x128x128 .f32)
    (normgn : FVec Ideal S4x2x128 .f32) (ctr2w : FVec Ideal S4x128x128 .f32) (ctr2gn : FVec Ideal S4x2x128 .f32)
    (psu psv : IVec S12x50000 32) (lru lrv : IVec S2x5000 32)
    (hA : ArgsAt A i hi ctrw psw leftw rightw normgn ctr2w ctr2gn psu psv lru lrv) :
    layerPrinted i hu hw hl hs3 hsg feat ctrw psw leftw rightw normgn ctr2w ctr2gn psu psv lru lrv
      = Spec.toVec2 (Spec.fuse A ⟨i, hi⟩ (Spec.ofVec2 feat)) :=
  layerPrinted_eq_of Spec.c128_eq (fun y s h p q => Spec.gn_div_form y s h p q) A i hi hu hw hl hs3 hsg feat ctrw psw leftw rightw
    normgn ctr2w ctr2gn psu psv lru lrv hA

end Cert.RFuse

end
-- ==== Proof.RChainL0a.lean ====
/-
  Fusion layer 0 of the reference, statements 188–269 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 188–191 of @main (window 3): the centre product of fusion layer 0. -/
theorem win_ctr0 (W : Val) :
    ((after (RefRun.chunk3 (F := Ideal)) W) (Proc.devRef .tc main_v165) : S50000x128.Idx → EReal) =
      Spec.toVec2 (Spec.lin (Spec.ofVec2 (a := 50000) (b := 128) ((after (RefRun.chunk3 (F := Ideal)) W) (Proc.devRef .tc main_v161)))
        (fun (p q : Fin 128) => (W (Proc.devRef .tc main_arg14) : S4x128x128.Idx → EReal) (ValueIdx.ix3 (0 : Fin 4) p q))) := by
  try simp only [RefRun.chunk3]
  after_results_simp
  try simp only [StableHlo.TRef.ofBuf, StableHlo.TRef.toBuf, cast_eq]
  exact RFuse.ctrPrinted_eq 0 (by decide) ..

set_option maxHeartbeats 1000000 in
/-- The same between the buffers' final contents. -/
theorem st_ctr0 (V : Val) :
    (Rv V (Proc.devRef .tc main_v165) : S50000x128.Idx → EReal) =
      Spec.toVec2 (Spec.lin (Spec.ofVec2 (a := 50000) (b := 128) (Rv V (Proc.devRef .tc main_v161))) ((argsOfV V).fuse_ctr_w 0)) := by
  have e := win_ctr0 (W3 V)
  have ho : Rv V (Proc.devRef .tc main_v165) = (after (RefRun.chunk3 (F := Ideal)) (W3 V)) (Proc.devRef .tc main_v165) := by
    rw [at3 V main_v165 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = (after (RefRun.chunk3 (F := Ideal)) (W3 V)) (Proc.devRef .tc main_v161) := by
    rw [at3 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have ha14 : W3 V (Proc.devRef .tc main_arg14) = V (Proc.devRef .tc main_arg14) := argW3 V main_arg14 unw_arg14
  rw [← ho, ← hg, ha14] at e
  exact e

set_option maxHeartbeats 4000000 in
set_option maxRecDepth 16384 in
/-- Statements 192–217 of @main (window 3): one edge step of fusion layer 0. -/
theorem win_ps0_0 (W : Val) :
    ((after (RefRun.chunk3 (F := Ideal)) W) (Proc.devRef .tc main_v187) : S50000x128.Idx → EReal) =
      Spec.toVec2 (Spec.edgeStep (Spec.ofVec2 (a := 50000) (b := 128) ((after (RefRun.chunk3 (F := Ideal)) W) (Proc.devRef .tc main_v161))) (Spec.ofVec2 (a := 50000) (b := 128) ((after (RefRun.chunk3 (F := Ideal)) W) (Proc.devRef .tc main_v165)))
        (fun (e : Fin 50000) => (W (Proc.devRef .tc main_arg25) : S12x50000.Idx → BitVec 32) (ValueIdx.ix2 (0 : Fin 12) e))
        (fun (e : Fin 50000) => (W (Proc.devRef .tc main_arg26) : S12x50000.Idx → BitVec 32) (ValueIdx.ix2 (0 : Fin 12) e))
        (fun (p q : Fin 128) => (W (Proc.devRef .tc main_arg15) : S4x12x128x128.Idx → EReal) (ValueIdx.ix4 (0 : Fin 4) (0 : Fin 12) p q))) := by
  try simp only [RefRun.chunk3]
  after_results_simp
  try simp only [StableHlo.TRef.ofBuf, StableHlo.TRef.toBuf, cast_eq]
  exact RFuse.psEdgePrinted_eq 0 0 (by decide) (by decide) ..

set_option maxHeartbeats 1000000 in
/-- The same between the buffers' final contents. -/
theorem st_ps0_0 (V : Val) :
    (Rv V (Proc.devRef .tc main_v187) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v165))) ((argsOfV V).ps_u 0) ((argsOfV V).ps_v 0) ((argsOfV V).fuse_ps_w 0 0)) := by
  have e := win_ps0_0 (W3 V)
  have ho : Rv V (Proc.devRef .tc main_v187) = (after (RefRun.chunk3 (F := Ideal)) (W3 V)) (Proc.devRef .tc main_v187) := by
    rw [at3 V main_v187 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = (after (RefRun.chunk3 (F := Ideal)) (W3 V)) (Proc.devRef .tc main_v161) := by
    rw [at3 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have ht : Rv V (Proc.devRef .tc main_v165) = (after (RefRun.chunk3 (F := Ideal)) (W3 V)) (Proc.devRef .tc main_v165) := by
    rw [at3 V main_v165 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have ha25 : W3 V (Proc.devRef .tc main_arg25) = V (Proc.devRef .tc main_arg25) := argW3 V main_arg25 unw_arg25
  have ha26 : W3 V (Proc.devRef .tc main_arg26) = V (Proc.devRef .tc main_arg26) := argW3 V main_arg26 unw_arg26
  have ha15 : W3 V (Proc.devRef .tc main_arg15) = V (Proc.devRef .tc main_arg15) := argW3 V main_arg15 unw_arg15
  rw [← ho, ← hg, ← ht, ha25, ha26, ha15] at e
  exact e

set_option maxHeartbeats 4000000 in
set_option maxRecDepth 16384 in
/-- Statements 218–243 of @main (windows 3–4): one edge step of fusion layer 0. -/
theorem win_ps0_1 (W : Val) :
    ((after (RefRun.chunk4 (F := Ideal)) (after (RefRun.chunk3 (F := Ideal)) W)) (Proc.devRef .tc main_v209) : S50000x128.Idx → EReal) =
      Spec.toVec2 (Spec.edgeStep (Spec.ofVec2 (a := 50000) (b := 128) ((after (RefRun.chunk4 (F := Ideal)) (after (RefRun.chunk3 (F := Ideal)) W)) (Proc.devRef .tc main_v161))) (Spec.ofVec2 (a := 50000) (b := 128) ((after (RefRun.chunk4 (F := Ideal)) (after (RefRun.chunk3 (F := Ideal)) W)) (Proc.devRef .tc main_v187)))
        (fun (e : Fin 50000) => (W (Proc.devRef .tc main_arg25) : S12x50000.Idx → BitVec 32) (ValueIdx.ix2 (1 : Fin 12) e))
        (fun (e : Fin 50000) => (W (Proc.devRef .tc main_arg26) : S12x50000.Idx → BitVec 32) (ValueIdx.ix2 (1 : Fin 12) e))
        (fun (p q : Fin 128) => (W (Proc.devRef .tc main_arg15) : S4x12x128x128.Idx → EReal) (ValueIdx.ix4 (0 : Fin 4) (1 : Fin 12) p q))) := by
  try simp only [RefRun.chunk3, RefRun.chunk4]
  after_results_simp
  try simp only [StableHlo.TRef.ofBuf, StableHlo.TRef.toBuf, cast_eq]
  exact RFuse.psEdgePrinted_eq 0 1 (by decide) (by decide) ..

set_option maxHeartbeats 1000000 in
/-- The same between the buffers' final contents. -/
theorem st_ps0_1 (V : Val) :
    (Rv V (Proc.devRef .tc main_v209) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v187))) ((argsOfV V).ps_u 1) ((argsOfV V).ps_v 1) ((argsOfV V).fuse_ps_w 0 1)) := by
  have e := win_ps0_1 (W3 V)
  have ho : Rv V (Proc.devRef .tc main_v209) = (after (RefRun.chunk4 (F := Ideal)) (after (RefRun.chunk3 (F := Ideal)) (W3 V))) (Proc.devRef .tc main_v209) := by
    rw [at4 V main_v209 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩, W4]
  have hg : Rv V (Proc.devRef .tc main_v161) = (after (RefRun.chunk4 (F := Ideal)) (after (RefRun.chunk3 (F := Ideal)) (W3 V))) (Proc.devRef .tc main_v161) := by
    rw [at4 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩, W4]
  have ht : Rv V (Proc.devRef .tc main_v187) = (after (RefRun.chunk4 (F := Ideal)) (after (RefRun.chunk3 (F := Ideal)) (W3 V))) (Proc.devRef .tc main_v187) := by
    rw [at4 V main_v187 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩, W4]
  have ha25 : W3 V (Proc.devRef .tc main_arg25) = V (Proc.devRef .tc main_arg25) := argW3 V main_arg25 unw_arg25
  have ha26 : W3 V (Proc.devRef .tc main_arg26) = V (Proc.devRef .tc main_arg26) := argW3 V main_arg26 unw_arg26
  have ha15 : W3 V (Proc.devRef .tc main_arg15) = V (Proc.devRef .tc main_arg15) := argW3 V main_arg15 unw_arg15
  rw [← ho, ← hg, ← ht, ha25, ha26, ha15] at e
  exact e

set_option maxHeartbeats 4000000 in
set_option maxRecDepth 16384 in
/-- Statements 244–269 of @main (window 4): one edge step of fusion layer 0. -/
theorem win_ps0_2 (W : Val) :
    ((after (RefRun.chunk4 (F := Ideal)) W) (Proc.devRef .tc main_v231) : S50000x128.Idx → EReal) =
      Spec.toVec2 (Spec.edgeStep (Spec.ofVec2 (a := 50000) (b := 128) (W (Proc.devRef .tc main_v161))) (Spec.ofVec2 (a := 50000) (b := 128) ((after (RefRun.chunk4 (F := Ideal)) W) (Proc.devRef .tc main_v209)))
        (fun (e : Fin 50000) => (W (Proc.devRef .tc main_arg25) : S12x50000.Idx → BitVec 32) (ValueIdx.ix2 (2 : Fin 12) e))
        (fun (e : Fin 50000) => (W (Proc.devRef .tc main_arg26) : S12x50000.Idx → BitVec 32) (ValueIdx.ix2 (2 : Fin 12) e))
        (fun (p q : Fin 128) => (W (Proc.devRef .tc main_arg15) : S4x12x128x128.Idx → EReal) (ValueIdx.ix4 (0 : Fin 4) (2 : Fin 12) p q))) := by
  try simp only [RefRun.chunk4]
  after_results_simp
  try simp only [StableHlo.TRef.ofBuf, StableHlo.TRef.toBuf, cast_eq]
  exact RFuse.psEdgePrinted_eq 0 2 (by decide) (by decide) ..

set_option maxHeartbeats 1000000 in
/-- The same between the buffers' final contents. -/
theorem st_ps0_2 (V : Val) :
    (Rv V (Proc.devRef .tc main_v231) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v209))) ((argsOfV V).ps_u 2) ((argsOfV V).ps_v 2) ((argsOfV V).fuse_ps_w 0 2)) := by
  have e := win_ps0_2 (W4 V)
  have ho : Rv V (Proc.devRef .tc main_v231) = (after (RefRun.chunk4 (F := Ideal)) (W4 V)) (Proc.devRef .tc main_v231) := by
    rw [at4 V main_v231 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W4 V (Proc.devRef .tc main_v161) := pre4 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v209) = (after (RefRun.chunk4 (F := Ideal)) (W4 V)) (Proc.devRef .tc main_v209) := by
    rw [at4 V main_v209 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have ha25 : W4 V (Proc.devRef .tc main_arg25) = V (Proc.devRef .tc main_arg25) := argW4 V main_arg25 unw_arg25
  have ha26 : W4 V (Proc.devRef .tc main_arg26) = V (Proc.devRef .tc main_arg26) := argW4 V main_arg26 unw_arg26
  have ha15 : W4 V (Proc.devRef .tc main_arg15) = V (Proc.devRef .tc main_arg15) := argW4 V main_arg15 unw_arg15
  rw [← ho, ← hg, ← ht, ha25, ha26, ha15] at e
  exact e

end Cert.RChain

end
-- ==== Proof.RChainL0b.lean ====
/-
  Fusion layer 0 of the reference, statements 270–373 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 270–295 of @main (window 4): one edge step of fusion layer 0. -/
theorem win_ps0_3 (W : Val) :
    ((after (RefRun.chunk4 (F := Ideal)) W) (Proc.devRef .tc main_v253) : S50000x128.Idx → EReal) =
      Spec.toVec2 (Spec.edgeStep (Spec.ofVec2 (a := 50000) (b := 128) (W (Proc.devRef .tc main_v161))) (Spec.ofVec2 (a := 50000) (b := 128) ((after (RefRun.chunk4 (F := Ideal)) W) (Proc.devRef .tc main_v231)))
        (fun (e : Fin 50000) => (W (Proc.devRef .tc main_arg25) : S12x50000.Idx → BitVec 32) (ValueIdx.ix2 (3 : Fin 12) e))
        (fun (e : Fin 50000) => (W (Proc.devRef .tc main_arg26) : S12x50000.Idx → BitVec 32) (ValueIdx.ix2 (3 : Fin 12) e))
        (fun (p q : Fin 128) => (W (Proc.devRef .tc main_arg15) : S4x12x128x128.Idx → EReal) (ValueIdx.ix4 (0 : Fin 4) (3 : Fin 12) p q))) := by
  try simp only [RefRun.chunk4]
  after_results_simp
  try simp only [StableHlo.TRef.ofBuf, StableHlo.TRef.toBuf, cast_eq]
  exact RFuse.psEdgePrinted_eq 0 3 (by decide) (by decide) ..

set_option maxHeartbeats 1000000 in
/-- The same between the buffers' final contents. -/
theorem st_ps0_3 (V : Val) :
    (Rv V (Proc.devRef .tc main_v253) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v231))) ((argsOfV V).ps_u 3) ((argsOfV V).ps_v 3) ((argsOfV V).fuse_ps_w 0 3)) := by
  have e := win_ps0_3 (W4 V)
  have ho : Rv V (Proc.devRef .tc main_v253) = (after (RefRun.chunk4 (F := Ideal)) (W4 V)) (Proc.devRef .tc main_v253) := by
    rw [at4 V main_v253 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W4 V (Proc.devRef .tc main_v161) := pre4 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v231) = (after (RefRun.chunk4 (F := Ideal)) (W4 V)) (Proc.devRef .tc main_v231) := by
    rw [at4 V main_v231 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩]
  have ha25 : W4 V (Proc.devRef .tc main_arg25) = V (Proc.devRef .tc main_arg25) := argW4 V main_arg25 unw_arg25
  have ha26 : W4 V (Proc.devRef .tc main_arg26) = V (Proc.devRef .tc main_arg26) := argW4 V main_arg26 unw_arg26
  have ha15 : W4 V (Proc.devRef .tc main_arg15) = V (Proc.devRef .tc main_arg15) := argW4 V main_arg15 unw_arg15
  rw [← ho, ← hg, ← ht, ha25, ha26, ha15] at e
  exact e

set_option maxHeartbeats 4000000 in
set_option maxRecDepth 16384 in
/-- Statements 296–321 of @main (windows 4–5): one edge step of fusion layer 0. -/
theorem win_ps0_4 (W : Val) :
    ((after (RefRun.chunk5 (F := Ideal)) (after (RefRun.chunk4 (F := Ideal)) W)) (Proc.devRef .tc main_v275) : S50000x128.Idx → EReal) =
      Spec.toVec2 (Spec.edgeStep (Spec.ofVec2 (a := 50000) (b := 128) (W (Proc.devRef .tc main_v161))) (Spec.ofVec2 (a := 50000) (b := 128) ((after (RefRun.chunk5 (F := Ideal)) (after (RefRun.chunk4 (F := Ideal)) W)) (Proc.devRef .tc main_v253)))
        (fun (e : Fin 50000) => (W (Proc.devRef .tc main_arg25) : S12x50000.Idx → BitVec 32) (ValueIdx.ix2 (4 : Fin 12) e))
        (fun (e : Fin 50000) => (W (Proc.devRef .tc main_arg26) : S12x50000.Idx → BitVec 32) (ValueIdx.ix2 (4 : Fin 12) e))
        (fun (p q : Fin 128) => (W (Proc.devRef .tc main_arg15) : S4x12x128x128.Idx → EReal) (ValueIdx.ix4 (0 : Fin 4) (4 : Fin 12) p q))) := by
  try simp only [RefRun.chunk4, RefRun.chunk5]
  after_results_simp
  try simp only [StableHlo.TRef.ofBuf, StableHlo.TRef.toBuf, cast_eq]
  exact RFuse.psEdgePrinted_eq 0 4 (by decide) (by decide) ..

set_option maxHeartbeats 1000000 in
/-- The same between the buffers' final contents. -/
theorem st_ps0_4 (V : Val) :
    (Rv V (Proc.devRef .tc main_v275) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v253))) ((argsOfV V).ps_u 4) ((argsOfV V).ps_v 4) ((argsOfV V).fuse_ps_w 0 4)) := by
  have e := win_ps0_4 (W4 V)
  have ho : Rv V (Proc.devRef .tc main_v275) = (after (RefRun.chunk5 (F := Ideal)) (after (RefRun.chunk4 (F := Ideal)) (W4 V))) (Proc.devRef .tc main_v275) := by
    rw [at5 V main_v275 ⟨by decide, by decide, by decide, by decide, by decide, by decide, by decide, by decide, by decide, by decide, by decide, by decide, by decide, by decide, by decide, by decide, by decide, by decide, by decide, by decide, by decide, by decide, by decide, by decide, by decide, by decide, by decide, by decide, by decide⟩, W5]
  have hg : Rv V (Proc.devRef .tc main_v161) = W4 V (Proc.devRef .tc main_v161) := pre4 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v253) = (after (RefRun.chunk5 (F := Ideal)) (after (RefRun.chunk4 (F := Ideal)) (W4 V))) (Proc.devRef .tc main_v253) := by
    rw [at5 V main_v253 ⟨by decide, by decide, by decide, by decide, by decide, by decide, by decide, by decide, by decide, by decide, by decide, by decide, by decide, by decide, by decide, by decide, by decide, by decide, by decide, by decide, by decide, by decide, by decide, by decide, by decide, by decide, by decide, by decide, by decide⟩, W5]
  have ha25 : W4 V (Proc.devRef .tc main_arg25) = V (Proc.devRef .tc main_arg25) := argW4 V main_arg25 unw_arg25
  have ha26 : W4 V (Proc.devRef .tc main_arg26) = V (Proc.devRef .tc main_arg26) := argW4 V main_arg26 unw_arg26
  have ha15 : W4 V (Proc.devRef .tc main_arg15) = V (Proc.devRef .tc main_arg15) := argW4 V main_arg15 unw_arg15
  rw [← ho, ← hg, ← ht, ha25, ha26, ha15] at e
  exact e

set_option maxHeartbeats 4000000 in
set_option maxRecDepth 16384 in
/-- Statements 322–347 of @main (window 5): one edge step of fusion layer 0. -/
theorem win_ps0_5 (W : Val) :
    ((after (RefRun.chunk5 (F := Ideal)) W) (Proc.devRef .tc main_v297) : S50000x128.Idx → EReal) =
      Spec.toVec2 (Spec.edgeStep (Spec.ofVec2 (a := 50000) (b := 128) (W (Proc.devRef .tc main_v161))) (Spec.ofVec2 (a := 50000) (b := 128) ((after (RefRun.chunk5 (F := Ideal)) W) (Proc.devRef .tc main_v275)))
        (fun (e : Fin 50000) => (W (Proc.devRef .tc main_arg25) : S12x50000.Idx → BitVec 32) (ValueIdx.ix2 (5 : Fin 12) e))
        (fun (e : Fin 50000) => (W (Proc.devRef .tc main_arg26) : S12x50000.Idx → BitVec 32) (ValueIdx.ix2 (5 : Fin 12) e))
        (fun (p q : Fin 128) => (W (Proc.devRef .tc main_arg15) : S4x12x128x128.Idx → EReal) (ValueIdx.ix4 (0 : Fin 4) (5 : Fin 12) p q))) := by
  try simp only [RefRun.chunk5]
  after_results_simp
  try simp only [StableHlo.TRef.ofBuf, StableHlo.TRef.toBuf, cast_eq]
  exact RFuse.psEdgePrinted_eq 0 5 (by decide) (by decide) ..

set_option maxHeartbeats 1000000 in
/-- The same between the buffers' final contents. -/
theorem st_ps0_5 (V : Val) :
    (Rv V (Proc.devRef .tc main_v297) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v275))) ((argsOfV V).ps_u 5) ((argsOfV V).ps_v 5) ((argsOfV V).fuse_ps_w 0 5)) := by
  have e := win_ps0_5 (W5 V)
  have ho : Rv V (Proc.devRef .tc main_v297) = (after (RefRun.chunk5 (F := Ideal)) (W5 V)) (Proc.devRef .tc main_v297) := by
    rw [at5 V main_v297 ⟨by decide, by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W5 V (Proc.devRef .tc main_v161) := pre5 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v275) = (after (RefRun.chunk5 (F := Ideal)) (W5 V)) (Proc.devRef .tc main_v275) := by
    rw [at5 V main_v275 ⟨by decide, by decide, by decide, by decide, by decide, by decide, by decide, by decide, by decide, by decide, by decide, by decide, by decide, by decide, by decide, by decide, by decide, by decide, by decide, by decide, by decide, by decide, by decide, by decide, by decide, by decide, by decide, by decide, by decide⟩]
  have ha25 : W5 V (Proc.devRef .tc main_arg25) = V (Proc.devRef .tc main_arg25) := argW5 V main_arg25 unw_arg25
  have ha26 : W5 V (Proc.devRef .tc main_arg26) = V (Proc.devRef .tc main_arg26) := argW5 V main_arg26 unw_arg26
  have ha15 : W5 V (Proc.devRef .tc main_arg15) = V (Proc.devRef .tc main_arg15) := argW5 V main_arg15 unw_arg15
  rw [← ho, ← hg, ← ht, ha25, ha26, ha15] at e
  exact e

set_option maxHeartbeats 4000000 in
set_option maxRecDepth 16384 in
/-- Statements 348–373 of @main (windows 5–6): one edge step of fusion layer 0. -/
theorem win_ps0_6 (W : Val) :
    ((after (RefRun.chunk6 (F := Ideal)) (after (RefRun.chunk5 (F := Ideal)) W)) (Proc.devRef .tc main_v319) : S50000x128.Idx → EReal) =
      Spec.toVec2 (Spec.edgeStep (Spec.ofVec2 (a := 50000) (b := 128) (W (Proc.devRef .tc main_v161))) (Spec.ofVec2 (a := 50000) (b := 128) ((after (RefRun.chunk6 (F := Ideal)) (after (RefRun.chunk5 (F := Ideal)) W)) (Proc.devRef .tc main_v297)))
        (fun (e : Fin 50000) => (W (Proc.devRef .tc main_arg25) : S12x50000.Idx → BitVec 32) (ValueIdx.ix2 (6 : Fin 12) e))
        (fun (e : Fin 50000) => (W (Proc.devRef .tc main_arg26) : S12x50000.Idx → BitVec 32) (ValueIdx.ix2 (6 : Fin 12) e))
        (fun (p q : Fin 128) => (W (Proc.devRef .tc main_arg15) : S4x12x128x128.Idx → EReal) (ValueIdx.ix4 (0 : Fin 4) (6 : Fin 12) p q))) := by
  try simp only [RefRun.chunk5, RefRun.chunk6]
  after_results_simp
  try simp only [StableHlo.TRef.ofBuf, StableHlo.TRef.toBuf, cast_eq]
  exact RFuse.psEdgePrinted_eq 0 6 (by decide) (by decide) ..

set_option maxHeartbeats 1000000 in
/-- The same between the buffers' final contents. -/
theorem st_ps0_6 (V : Val) :
    (Rv V (Proc.devRef .tc main_v319) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v297))) ((argsOfV V).ps_u 6) ((argsOfV V).ps_v 6) ((argsOfV V).fuse_ps_w 0 6)) := by
  have e := win_ps0_6 (W5 V)
  have ho : Rv V (Proc.devRef .tc main_v319) = (after (RefRun.chunk6 (F := Ideal)) (after (RefRun.chunk5 (F := Ideal)) (W5 V))) (Proc.devRef .tc main_v319) := by
    rw [at6 V main_v319 ⟨by decide, by decide, by decide, by decide, by decide, by decide, by decide, by decide, by decide, by decide, by decide, by decide, by decide, by decide, by decide, by decide, by decide, by decide, by decide, by decide, by decide, by decide, by decide, by decide, by decide, by decide, by decide, by decide⟩, W6]
  have hg : Rv V (Proc.devRef .tc main_v161) = W5 V (Proc.devRef .tc main_v161) := pre5 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v297) = (after (RefRun.chunk6 (F := Ideal)) (after (RefRun.chunk5 (F := Ideal)) (W5 V))) (Proc.devRef .tc main_v297) := by
    rw [at6 V main_v297 ⟨by decide, by decide, by decide, by decide, by decide, by decide, by decide, by decide, by decide, by decide, by decide, by decide, by decide, by decide, by decide, by decide, by decide, by decide, by decide, by decide, by decide, by decide, by decide, by decide, by decide, by decide, by decide, by decide⟩, W6]
  have ha25 : W5 V (Proc.devRef .tc main_arg25) = V (Proc.devRef .tc main_arg25) := argW5 V main_arg25 unw_arg25
  have ha26 : W5 V (Proc.devRef .tc main_arg26) = V (Proc.devRef .tc main_arg26) := argW5 V main_arg26 unw_arg26
  have ha15 : W5 V (Proc.devRef .tc main_arg15) = V (Proc.devRef .tc main_arg15) := argW5 V main_arg15 unw_arg15
  rw [← ho, ← hg, ← ht, ha25, ha26, ha15] at e
  exact e

end Cert.RChain

end
-- ==== Proof.RChainL0c.lean ====
/-
  Fusion layer 0 of the reference, statements 374–477 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 374–399 of @main (window 6): one edge step of fusion layer 0. -/
theorem win_ps0_7 (W : Val) :
    ((after (RefRun.chunk6 (F := Ideal)) W) (Proc.devRef .tc main_v341) : S50000x128.Idx → EReal) =
      Spec.toVec2 (Spec.edgeStep (Spec.ofVec2 (a := 50000) (b := 128) (W (Proc.devRef .tc main_v161))) (Spec.ofVec2 (a := 50000) (b := 128) ((after (RefRun.chunk6 (F := Ideal)) W) (Proc.devRef .tc main_v319)))
        (fun (e : Fin 50000) => (W (Proc.devRef .tc main_arg25) : S12x50000.Idx → BitVec 32) (ValueIdx.ix2 (7 : Fin 12) e))
        (fun (e : Fin 50000) => (W (Proc.devRef .tc main_arg26) : S12x50000.Idx → BitVec 32) (ValueIdx.ix2 (7 : Fin 12) e))
        (fun (p q : Fin 128) => (W (Proc.devRef .tc main_arg15) : S4x12x128x128.Idx → EReal) (ValueIdx.ix4 (0 : Fin 4) (7 : Fin 12) p q))) := by
  try simp only [RefRun.chunk6]
  after_results_simp
  try simp only [StableHlo.TRef.ofBuf, StableHlo.TRef.toBuf, cast_eq]
  exact RFuse.psEdgePrinted_eq 0 7 (by decide) (by decide) ..

set_option maxHeartbeats 1000000 in
/-- The same between the buffers' final contents. -/
theorem st_ps0_7 (V : Val) :
    (Rv V (Proc.devRef .tc main_v341) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v319))) ((argsOfV V).ps_u 7) ((argsOfV V).ps_v 7) ((argsOfV V).fuse_ps_w 0 7)) := by
  have e := win_ps0_7 (W6 V)
  have ho : Rv V (Proc.devRef .tc main_v341) = (after (RefRun.chunk6 (F := Ideal)) (W6 V)) (Proc.devRef .tc main_v341) := by
    rw [at6 V main_v341 ⟨by decide, by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W6 V (Proc.devRef .tc main_v161) := pre6 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v319) = (after (RefRun.chunk6 (F := Ideal)) (W6 V)) (Proc.devRef .tc main_v319) := by
    rw [at6 V main_v319 ⟨by decide, by decide, by decide, by decide, by decide, by decide, by decide, by decide, by decide, by decide, by decide, by decide, by decide, by decide, by decide, by decide, by decide, by decide, by decide, by decide, by decide, by decide, by decide, by decide, by decide, by decide, by decide, by decide⟩]
  have ha25 : W6 V (Proc.devRef .tc main_arg25) = V (Proc.devRef .tc main_arg25) := argW6 V main_arg25 unw_arg25
  have ha26 : W6 V (Proc.devRef .tc main_arg26) = V (Proc.devRef .tc main_arg26) := argW6 V main_arg26 unw_arg26
  have ha15 : W6 V (Proc.devRef .tc main_arg15) = V (Proc.devRef .tc main_arg15) := argW6 V main_arg15 unw_arg15
  rw [← ho, ← hg, ← ht, ha25, ha26, ha15] at e
  exact e

set_option maxHeartbeats 4000000 in
set_option maxRecDepth 16384 in
/-- Statements 400–425 of @main (windows 6–7): one edge step of fusion layer 0. -/
theorem win_ps0_8 (W : Val) :
    ((after (RefRun.chunk7 (F := Ideal)) (after (RefRun.chunk6 (F := Ideal)) W)) (Proc.devRef .tc main_v363) : S50000x128.Idx → EReal) =
      Spec.toVec2 (Spec.edgeStep (Spec.ofVec2 (a := 50000) (b := 128) (W (Proc.devRef .tc main_v161))) (Spec.ofVec2 (a := 50000) (b := 128) ((after (RefRun.chunk7 (F := Ideal)) (after (RefRun.chunk6 (F := Ideal)) W)) (Proc.devRef .tc main_v341)))
        (fun (e : Fin 50000) => (W (Proc.devRef .tc main_arg25) : S12x50000.Idx → BitVec 32) (ValueIdx.ix2 (8 : Fin 12) e))
        (fun (e : Fin 50000) => (W (Proc.devRef .tc main_arg26) : S12x50000.Idx → BitVec 32) (ValueIdx.ix2 (8 : Fin 12) e))
        (fun (p q : Fin 128) => (W (Proc.devRef .tc main_arg15) : S4x12x128x128.Idx → EReal) (ValueIdx.ix4 (0 : Fin 4) (8 : Fin 12) p q))) := by
  try simp only [RefRun.chunk6, RefRun.chunk7]
  after_results_simp
  try simp only [StableHlo.TRef.ofBuf, StableHlo.TRef.toBuf, cast_eq]
  exact RFuse.psEdgePrinted_eq 0 8 (by decide) (by decide) ..

set_option maxHeartbeats 1000000 in
/-- The same between the buffers' final contents. -/
theorem st_ps0_8 (V : Val) :
    (Rv V (Proc.devRef .tc main_v363) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v341))) ((argsOfV V).ps_u 8) ((argsOfV V).ps_v 8) ((argsOfV V).fuse_ps_w 0 8)) := by
  have e := win_ps0_8 (W6 V)
  have ho : Rv V (Proc.devRef .tc main_v363) = (after (RefRun.chunk7 (F := Ideal)) (after (RefRun.chunk6 (F := Ideal)) (W6 V))) (Proc.devRef .tc main_v363) := by
    rw [at7 V main_v363 ⟨by decide, by decide, by decide, by decide, by decide, by decide, by decide, by decide, by decide, by decide, by decide, by decide, by decide, by decide, by decide, by decide, by decide, by decide, by decide, by decide, by decide, by decide, by decide, by decide, by decide, by decide, by decide⟩, W7]
  have hg : Rv V (Proc.devRef .tc main_v161) = W6 V (Proc.devRef .tc main_v161) := pre6 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v341) = (after (RefRun.chunk7 (F := Ideal)) (after (RefRun.chunk6 (F := Ideal)) (W6 V))) (Proc.devRef .tc main_v341) := by
    rw [at7 V main_v341 ⟨by decide, by decide, by decide, by decide, by decide, by decide, by decide, by decide, by decide, by decide, by decide, by decide, by decide, by decide, by decide, by decide, by decide, by decide, by decide, by decide, by decide, by decide, by decide, by decide, by decide, by decide, by decide⟩, W7]
  have ha25 : W6 V (Proc.devRef .tc main_arg25) = V (Proc.devRef .tc main_arg25) := argW6 V main_arg25 unw_arg25
  have ha26 : W6 V (Proc.devRef .tc main_arg26) = V (Proc.devRef .tc main_arg26) := argW6 V main_arg26 unw_arg26
  have ha15 : W6 V (Proc.devRef .tc main_arg15) = V (Proc.devRef .tc main_arg15) := argW6 V main_arg15 unw_arg15
  rw [← ho, ← hg, ← ht, ha25, ha26, ha15] at e
  exact e

set_option maxHeartbeats 4000000 in
set_option maxRecDepth 16384 in
/-- Statements 426–451 of @main (window 7): one edge step of fusion layer 0. -/
theorem win_ps0_9 (W : Val) :
    ((after (RefRun.chunk7 (F := Ideal)) W) (Proc.devRef .tc main_v385) : S50000x128.Idx → EReal) =
      Spec.toVec2 (Spec.edgeStep (Spec.ofVec2 (a := 50000) (b := 128) (W (Proc.devRef .tc main_v161))) (Spec.ofVec2 (a := 50000) (b := 128) ((after (RefRun.chunk7 (F := Ideal)) W) (Proc.devRef .tc main_v363)))
        (fun (e : Fin 50000) => (W (Proc.devRef .tc main_arg25) : S12x50000.Idx → BitVec 32) (ValueIdx.ix2 (9 : Fin 12) e))
        (fun (e : Fin 50000) => (W (Proc.devRef .tc main_arg26) : S12x50000.Idx → BitVec 32) (ValueIdx.ix2 (9 : Fin 12) e))
        (fun (p q : Fin 128) => (W (Proc.devRef .tc main_arg15) : S4x12x128x128.Idx → EReal) (ValueIdx.ix4 (0 : Fin 4) (9 : Fin 12) p q))) := by
  try simp only [RefRun.chunk7]
  after_results_simp
  try simp only [StableHlo.TRef.ofBuf, StableHlo.TRef.toBuf, cast_eq]
  exact RFuse.psEdgePrinted_eq 0 9 (by decide) (by decide) ..

set_option maxHeartbeats 1000000 in
/-- The same between the buffers' final contents. -/
theorem st_ps0_9 (V : Val) :
    (Rv V (Proc.devRef .tc main_v385) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v363))) ((argsOfV V).ps_u 9) ((argsOfV V).ps_v 9) ((argsOfV V).fuse_ps_w 0 9)) := by
  have e := win_ps0_9 (W7 V)
  have ho : Rv V (Proc.devRef .tc main_v385) = (after (RefRun.chunk7 (F := Ideal)) (W7 V)) (Proc.devRef .tc main_v385) := by
    rw [at7 V main_v385 ⟨by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W7 V (Proc.devRef .tc main_v161) := pre7 V main_v161 ⟨by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v363) = (after (RefRun.chunk7 (F := Ideal)) (W7 V)) (Proc.devRef .tc main_v363) := by
    rw [at7 V main_v363 ⟨by decide, by decide, by decide, by decide, by decide, by decide, by decide, by decide, by decide, by decide, by decide, by decide, by decide, by decide, by decide, by decide, by decide, by decide, by decide, by decide, by decide, by decide, by decide, by decide, by decide, by decide, by decide⟩]
  have ha25 : W7 V (Proc.devRef .tc main_arg25) = V (Proc.devRef .tc main_arg25) := argW7 V main_arg25 unw_arg25
  have ha26 : W7 V (Proc.devRef .tc main_arg26) = V (Proc.devRef .tc main_arg26) := argW7 V main_arg26 unw_arg26
  have ha15 : W7 V (Proc.devRef .tc main_arg15) = V (Proc.devRef .tc main_arg15) := argW7 V main_arg15 unw_arg15
  rw [← ho, ← hg, ← ht, ha25, ha26, ha15] at e
  exact e

set_option maxHeartbeats 4000000 in
set_option maxRecDepth 16384 in
/-- Statements 452–477 of @main (window 7): one edge step of fusion layer 0. -/
theorem win_ps0_10 (W : Val) :
    ((after (RefRun.chunk7 (F := Ideal)) W) (Proc.devRef .tc main_v407) : S50000x128.Idx → EReal) =
      Spec.toVec2 (Spec.edgeStep (Spec.ofVec2 (a := 50000) (b := 128) (W (Proc.devRef .tc main_v161))) (Spec.ofVec2 (a := 50000) (b := 128) ((after (RefRun.chunk7 (F := Ideal)) W) (Proc.devRef .tc main_v385)))
        (fun (e : Fin 50000) => (W (Proc.devRef .tc main_arg25) : S12x50000.Idx → BitVec 32) (ValueIdx.ix2 (10 : Fin 12) e))
        (fun (e : Fin 50000) => (W (Proc.devRef .tc main_arg26) : S12x50000.Idx → BitVec 32) (ValueIdx.ix2 (10 : Fin 12) e))
        (fun (p q : Fin 128) => (W (Proc.devRef .tc main_arg15) : S4x12x128x128.Idx → EReal) (ValueIdx.ix4 (0 : Fin 4) (10 : Fin 12) p q))) := by
  try simp only [RefRun.chunk7]
  after_results_simp
  try simp only [StableHlo.TRef.ofBuf, StableHlo.TRef.toBuf, cast_eq]
  exact RFuse.psEdgePrinted_eq 0 10 (by decide) (by decide) ..

set_option maxHeartbeats 1000000 in
/-- The same between the buffers' final contents. -/
theorem st_ps0_10 (V : Val) :
    (Rv V (Proc.devRef .tc main_v407) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v385))) ((argsOfV V).ps_u 10) ((argsOfV V).ps_v 10) ((argsOfV V).fuse_ps_w 0 10)) := by
  have e := win_ps0_10 (W7 V)
  have ho : Rv V (Proc.devRef .tc main_v407) = (after (RefRun.chunk7 (F := Ideal)) (W7 V)) (Proc.devRef .tc main_v407) := by
    rw [at7 V main_v407 ⟨by decide, by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W7 V (Proc.devRef .tc main_v161) := pre7 V main_v161 ⟨by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v385) = (after (RefRun.chunk7 (F := Ideal)) (W7 V)) (Proc.devRef .tc main_v385) := by
    rw [at7 V main_v385 ⟨by decide, by decide, by decide, by decide, by decide, by decide, by decide, by decide, by decide, by decide, by decide, by decide, by decide, by decide, by decide, by decide, by decide, by decide, by decide, by decide, by decide, by decide, by decide, by decide, by decide, by decide, by decide⟩]
  have ha25 : W7 V (Proc.devRef .tc main_arg25) = V (Proc.devRef .tc main_arg25) := argW7 V main_arg25 unw_arg25
  have ha26 : W7 V (Proc.devRef .tc main_arg26) = V (Proc.devRef .tc main_arg26) := argW7 V main_arg26 unw_arg26
  have ha15 : W7 V (Proc.devRef .tc main_arg15) = V (Proc.devRef .tc main_arg15) := argW7 V main_arg15 unw_arg15
  rw [← ho, ← hg, ← ht, ha25, ha26, ha15] at e
  exact e

end Cert.RChain

end
-- ==== Proof.RChainL0d.lean ====
/-
  Fusion layer 0 of the reference, statements 478–618 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 478–503 of @main (windows 7–8): one edge step of fusion layer 0. -/
theorem win_ps0_11 (W : Val) :
    ((after (RefRun.chunk8 (F := Ideal)) (after (RefRun.chunk7 (F := Ideal)) W)) (Proc.devRef .tc main_v429) : S50000x128.Idx → EReal) =
      Spec.toVec2 (Spec.edgeStep (Spec.ofVec2 (a := 50000) (b := 128) (W (Proc.devRef .tc main_v161))) (Spec.ofVec2 (a := 50000) (b := 128) ((after (RefRun.chunk8 (F := Ideal)) (after (RefRun.chunk7 (F := Ideal)) W)) (Proc.devRef .tc main_v407)))
        (fun (e : Fin 50000) => (W (Proc.devRef .tc main_arg25) : S12x50000.Idx → BitVec 32) (ValueIdx.ix2 (11 : Fin 12) e))
        (fun (e : Fin 50000) => (W (Proc.devRef .tc main_arg26) : S12x50000.Idx → BitVec 32) (ValueIdx.ix2 (11 : Fin 12) e))
        (fun (p q : Fin 128) => (W (Proc.devRef .tc main_arg15) : S4x12x128x128.Idx → EReal) (ValueIdx.ix4 (0 : Fin 4) (11 : Fin 12) p q))) := by
  try simp only [RefRun.chunk7, RefRun.chunk8]
  after_results_simp
  try simp only [StableHlo.TRef.ofBuf, StableHlo.TRef.toBuf, cast_eq]
  exact RFuse.psEdgePrinted_eq 0 11 (by decide) (by decide) ..

set_option maxHeartbeats 1000000 in
/-- The same between the buffers' final contents. -/
theorem st_ps0_11 (V : Val) :
    (Rv V (Proc.devRef .tc main_v429) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v407))) ((argsOfV V).ps_u 11) ((argsOfV V).ps_v 11) ((argsOfV V).fuse_ps_w 0 11)) := by
  have e := win_ps0_11 (W7 V)
  have ho : Rv V (Proc.devRef .tc main_v429) = (after (RefRun.chunk8 (F := Ideal)) (after (RefRun.chunk7 (F := Ideal)) (W7 V))) (Proc.devRef .tc main_v429) := by
    rw [at8 V main_v429 ⟨by decide, by decide, by decide, by decide, by decide, by decide, by decide, by decide, by decide, by decide, by decide, by decide, by decide, by decide, by decide, by decide, by decide, by decide, by decide, by decide, by decide, by decide, by decide, by decide, by decide, by decide⟩, W8]
  have hg : Rv V (Proc.devRef .tc main_v161) = W7 V (Proc.devRef .tc main_v161) := pre7 V main_v161 ⟨by decide, by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v407) = (after (RefRun.chunk8 (F := Ideal)) (after (RefRun.chunk7 (F := Ideal)) (W7 V))) (Proc.devRef .tc main_v407) := by
    rw [at8 V main_v407 ⟨by decide, by decide, by decide, by decide, by decide, by decide, by decide, by decide, by decide, by decide, by decide, by decide, by decide, by decide, by decide, by decide, by decide, by decide, by decide, by decide, by decide, by decide, by decide, by decide, by decide, by decide⟩, W8]
  have ha25 : W7 V (Proc.devRef .tc main_arg25) = V (Proc.devRef .tc main_arg25) := argW7 V main_arg25 unw_arg25
  have ha26 : W7 V (Proc.devRef .tc main_arg26) = V (Proc.devRef .tc main_arg26) := argW7 V main_arg26 unw_arg26
  have ha15 : W7 V (Proc.devRef .tc main_arg15) = V (Proc.devRef .tc main_arg15) := argW7 V main_arg15 unw_arg15
  rw [← ho, ← hg, ← ht, ha25, ha26, ha15] at e
  exact e

set_option maxHeartbeats 4000000 in
set_option maxRecDepth 16384 in
/-- Statements 504–529 of @main (window 8): one edge step of fusion layer 0. -/
theorem win_lr0_0 (W : Val) :
    ((after (RefRun.chunk8 (F := Ideal)) W) (Proc.devRef .tc main_v451) : S50000x128.Idx → EReal) =
      Spec.toVec2 (Spec.edgeStep (Spec.ofVec2 (a := 50000) (b := 128) (W (Proc.devRef .tc main_v161))) (Spec.ofVec2 (a := 50000) (b := 128) ((after (RefRun.chunk8 (F := Ideal)) W) (Proc.devRef .tc main_v429)))
        (fun (e : Fin 5000) => (W (Proc.devRef .tc main_arg27) : S2x5000.Idx → BitVec 32) (ValueIdx.ix2 (0 : Fin 2) e))
        (fun (e : Fin 5000) => (W (Proc.devRef .tc main_arg28) : S2x5000.Idx → BitVec 32) (ValueIdx.ix2 (0 : Fin 2) e))
        (fun (p q : Fin 128) => (W (Proc.devRef .tc main_arg16) : S4x128x128.Idx → EReal) (ValueIdx.ix3 (0 : Fin 4) p q))) := by
  try simp only [RefRun.chunk8]
  after_results_simp
  try simp only [StableHlo.TRef.ofBuf, StableHlo.TRef.toBuf, cast_eq]
  exact RFuse.lrEdgePrinted_eq 0 0 (by decide) (by decide) ..

set_option maxHeartbeats 1000000 in
/-- The same between the buffers' final contents. -/
theorem st_lr0_0 (V : Val) :
    (Rv V (Proc.devRef .tc main_v451) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v429))) ((argsOfV V).lr_u 0) ((argsOfV V).lr_v 0) ((argsOfV V).fuse_left_w 0)) := by
  have e := win_lr0_0 (W8 V)
  have ho : Rv V (Proc.devRef .tc main_v451) = (after (RefRun.chunk8 (F := Ideal)) (W8 V)) (Proc.devRef .tc main_v451) := by
    rw [at8 V main_v451 ⟨by decide, by decide, by decide, by decide, by decide, by decide, by decide, by decide, by decide, by decide, by decide, by decide, by decide, by decide, by decide, by decide, by decide, by decide, by decide, by decide, by decide, by decide, by decide, by decide, by decide, by decide⟩]
  have hg : Rv V (Proc.devRef .tc main_v161) = W8 V (Proc.devRef .tc main_v161) := pre8 V main_v161 ⟨by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v429) = (after (RefRun.chunk8 (F := Ideal)) (W8 V)) (Proc.devRef .tc main_v429) := by
    rw [at8 V main_v429 ⟨by decide, by decide, by decide, by decide, by decide, by decide, by decide, by decide, by decide, by decide, by decide, by decide, by decide, by decide, by decide, by decide, by decide, by decide, by decide, by decide, by decide, by decide, by decide, by decide, by decide, by decide⟩]
  have ha27 : W8 V (Proc.devRef .tc main_arg27) = V (Proc.devRef .tc main_arg27) := argW8 V main_arg27 unw_arg27
  have ha28 : W8 V (Proc.devRef .tc main_arg28) = V (Proc.devRef .tc main_arg28) := argW8 V main_arg28 unw_arg28
  have ha16 : W8 V (Proc.devRef .tc main_arg16) = V (Proc.devRef .tc main_arg16) := argW8 V main_arg16 unw_arg16
  rw [← ho, ← hg, ← ht, ha27, ha28, ha16] at e
  exact e

set_option maxHeartbeats 4000000 in
set_option maxRecDepth 16384 in
/-- Statements 530–555 of @main (windows 8–9): one edge step of fusion layer 0. -/
theorem win_lr0_1 (W : Val) :
    ((after (RefRun.chunk9 (F := Ideal)) (after (RefRun.chunk8 (F := Ideal)) W)) (Proc.devRef .tc main_v473) : S50000x128.Idx → EReal) =
      Spec.toVec2 (Spec.edgeStep (Spec.ofVec2 (a := 50000) (b := 128) (W (Proc.devRef .tc main_v161))) (Spec.ofVec2 (a := 50000) (b := 128) ((after (RefRun.chunk9 (F := Ideal)) (after (RefRun.chunk8 (F := Ideal)) W)) (Proc.devRef .tc main_v451)))
        (fun (e : Fin 5000) => (W (Proc.devRef .tc main_arg27) : S2x5000.Idx → BitVec 32) (ValueIdx.ix2 (1 : Fin 2) e))
        (fun (e : Fin 5000) => (W (Proc.devRef .tc main_arg28) : S2x5000.Idx → BitVec 32) (ValueIdx.ix2 (1 : Fin 2) e))
        (fun (p q : Fin 128) => (W (Proc.devRef .tc main_arg17) : S4x128x128.Idx → EReal) (ValueIdx.ix3 (0 : Fin 4) p q))) := by
  try simp only [RefRun.chunk8, RefRun.chunk9]
  after_results_simp
  try simp only [StableHlo.TRef.ofBuf, StableHlo.TRef.toBuf, cast_eq]
  exact RFuse.lrEdgePrinted_eq 0 1 (by decide) (by decide) ..

set_option maxHeartbeats 1000000 in
/-- The same between the buffers' final contents. -/
theorem st_lr0_1 (V : Val) :
    (Rv V (Proc.devRef .tc main_v473) : S50000x128.Idx → EReal) =
      Spec.toVec2 (Spec.edgeStep (Spec.ofVec2 (a := 50000) (b := 128) (Rv V (Proc.devRef .tc main_v161))) (Spec.ofVec2 (a := 50000) (b := 128) (Rv V (Proc.devRef .tc main_v451))) ((argsOfV V).lr_u 1) ((argsOfV V).lr_v 1) ((argsOfV V).fuse_right_w 0)) := by
  have e := win_lr0_1 (W8 V)
  have ho : Rv V (Proc.devRef .tc main_v473) = (after (RefRun.chunk9 (F := Ideal)) (after (RefRun.chunk8 (F := Ideal)) (W8 V))) (Proc.devRef .tc main_v473) := by
    rw [at9 V main_v473 ⟨by decide, by decide, by decide, by decide, by decide, by decide, by decide, by decide, by decide, by decide, by decide, by decide, by decide, by decide, by decide, by decide, by decide, by decide, by decide, by decide, by decide, by decide, by decide, by decide, by decide⟩, W9]
  have hg : Rv V (Proc.devRef .tc main_v161) = W8 V (Proc.devRef .tc main_v161) := pre8 V main_v161 ⟨by decide, by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v451) = (after (RefRun.chunk9 (F := Ideal)) (after (RefRun.chunk8 (F := Ideal)) (W8 V))) (Proc.devRef .tc main_v451) := by
    rw [at9 V main_v451 ⟨by decide, by decide, by decide, by decide, by decide, by decide, by decide, by decide, by decide, by decide, by decide, by decide, by decide, by decide, by decide, by decide, by decide, by decide, by decide, by decide, by decide, by decide, by decide, by decide, by decide⟩, W9]
  have ha27 : W8 V (Proc.devRef .tc main_arg27) = V (Proc.devRef .tc main_arg27) := argW8 V main_arg27 unw_arg27
  have ha28 : W8 V (Proc.devRef .tc main_arg28) = V (Proc.devRef .tc main_arg28) := argW8 V main_arg28 unw_arg28
  have ha17 : W8 V (Proc.devRef .tc main_arg17) = V (Proc.devRef .tc main_arg17) := argW8 V main_arg17 unw_arg17
  rw [← ho, ← hg, ← ht, ha27, ha28, ha17] at e
  exact e

set_option maxHeartbeats 4000000 in
set_option maxRecDepth 16384 in
/-- Statements 556–618 of @main (windows 9–10): the node stage of fusion layer 0. -/
theorem win_node0 (W : Val) :
    ((after (RefRun.chunk10 (F := Ideal)) (after (RefRun.chunk9 (F := Ideal)) W)) (Proc.devRef .tc main_v528) : S50000x128.Idx → EReal) =
      Spec.toVec2 (Spec.ggTail (Spec.ofVec2 (a := 50000) (b := 128) ((after (RefRun.chunk10 (F := Ideal)) (after (RefRun.chunk9 (F := Ideal)) W)) (Proc.devRef .tc main_v473))) (Spec.ofVec2 (a := 50000) (b := 128) (W (Proc.devRef .tc main_v161)))
        (fun (q : Fin 128) => (W (Proc.devRef .tc main_arg18) : S4x2x128.Idx → EReal) (ValueIdx.ix3 (0 : Fin 4) (0 : Fin 2) q))
        (fun (q : Fin 128) => (W (Proc.devRef .tc main_arg18) : S4x2x128.Idx → EReal) (ValueIdx.ix3 (0 : Fin 4) (1 : Fin 2) q))
        (fun (p q : Fin 128) => (W (Proc.devRef .tc main_arg19) : S4x128x128.Idx → EReal) (ValueIdx.ix3 (0 : Fin 4) p q))
        (fun (q : Fin 128) => (W (Proc.devRef .tc main_arg20) : S4x2x128.Idx → EReal) (ValueIdx.ix3 (0 : Fin 4) (0 : Fin 2) q))
        (fun (q : Fin 128) => (W (Proc.devRef .tc main_arg20) : S4x2x128.Idx → EReal) (ValueIdx.ix3 (0 : Fin 4) (1 : Fin 2) q))) := by
  try simp only [RefRun.chunk9, RefRun.chunk10]
  after_results_simp
  try simp only [StableHlo.TRef.ofBuf, StableHlo.TRef.toBuf, cast_eq]
  exact RFuse.nodePrinted_eq 0 (by decide) ..

set_option maxHeartbeats 1000000 in
/-- The same between the buffers' final contents. -/
theorem st_node0 (V : Val) :
    (Rv V (Proc.devRef .tc main_v528) : S50000x128.Idx → EReal) =
      Spec.toVec2 (Spec.ggTail (Spec.ofVec2 (a := 50000) (b := 128) (Rv V (Proc.devRef .tc main_v473))) (Spec.ofVec2 (a := 50000) (b := 128) (Rv V (Proc.devRef .tc main_v161))) ((argsOfV V).fuse_norm_gn 0 0) ((argsOfV V).fuse_norm_gn 0 1) ((argsOfV V).fuse_ctr2_w 0) ((argsOfV V).fuse_ctr2_gn 0 0) ((argsOfV V).fuse_ctr2_gn 0 1)) := by
  have e := win_node0 (W9 V)
  have ho : Rv V (Proc.devRef .tc main_v528) = (after (RefRun.chunk10 (F := Ideal)) (after (RefRun.chunk9 (F := Ideal)) (W9 V))) (Proc.devRef .tc main_v528) := by
    rw [at10 V main_v528 ⟨by decide, by decide, by decide, by decide, by decide, by decide, by decide, by decide, by decide, by decide, by decide, by decide, by decide, by decide, by decide, by decide, by decide, by decide, by decide, by decide, by decide, by decide, by decide, by decide⟩, W10]
  have hg : Rv V (Proc.devRef .tc main_v161) = W9 V (Proc.devRef .tc main_v161) := pre9 V main_v161 ⟨by decide, by decide, by decide, by decide, by decide, by decide, by decide, by decide, by decide, by decide, by decide, by decide, by decide, by decide, by decide, by decide, by decide, by decide, by decide, by decide, by decide, by decide, by decide, by decide, by decide, by decide⟩
  have ht : Rv V (Proc.devRef .tc main_v473) = (after (RefRun.chunk10 (F := Ideal)) (after (RefRun.chunk9 (F := Ideal)) (W9 V))) (Proc.devRef .tc main_v473) := by
    rw [at10 V main_v473 ⟨by decide, by decide, by decide, by decide, by decide, by decide, by decide, by decide, by decide, by decide, by decide, by decide, by decide, by decide, by decide, by decide, by decide, by decide, by decide, by decide, by decide, by decide, by decide, by decide⟩, W10]
  have ha18 : W9 V (Proc.devRef .tc main_arg18) = V (Proc.devRef .tc main_arg18) := argW9 V main_arg18 unw_arg18
  have ha19 : W9 V (Proc.devRef .tc main_arg19) = V (Proc.devRef .tc main_arg19) := argW9 V main_arg19 unw_arg19
  have ha20 : W9 V (Proc.devRef .tc main_arg20) = V (Proc.devRef .tc main_arg20) := argW9 V main_arg20 unw_arg20
  rw [← ho, ← hg, ← ht, ha18, ha19, ha20] at e
  exact e

end Cert.RChain

end
-- ==== Proof.RChainL1a.lean ====
/-
  Fusion layer 1 of the reference, statements 619–700 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 619–622 of @main (window 10): the centre product of fusion layer 1. -/
theorem win_ctr1 (W : Val) :
    ((after (RefRun.chunk10 (F := Ideal)) W) (Proc.devRef .tc main_v532) : S50000x128.Idx → EReal) =
      Spec.toVec2 (Spec.lin (Spec.ofVec2 (a := 50000) (b := 128) ((after (RefRun.chunk10 (F := Ideal)) W) (Proc.devRef .tc main_v528)))
        (fun (p q : Fin 128) => (W (Proc.devRef .tc main_arg14) : S4x128x128.Idx → EReal) (ValueIdx.ix3 (1 : Fin 4) p q))) := by
  try simp only [RefRun.chunk10]
  after_results_simp
  try simp only [StableHlo.TRef.ofBuf, StableHlo.TRef.toBuf, cast_eq]
  exact RFuse.ctrPrinted_eq 1 (by decide) ..

set_option maxHeartbeats 1000000 in
/-- The same between the buffers' final contents. -/
theorem st_ctr1 (V : Val) :
    (Rv V (Proc.devRef .tc main_v532) : S50000x128.Idx → EReal) =
      Spec.toVec2 (Spec.lin (Spec.ofVec2 (a := 50000) (b := 128) (Rv V (Proc.devRef .tc main_v528))) ((argsOfV V).fuse_ctr_w 1)) := by
  have e := win_ctr1 (W10 V)
  have ho : Rv V (Proc.devRef .tc main_v532) = (after (RefRun.chunk10 (F := Ideal)) (W10 V)) (Proc.devRef .tc main_v532) := by
    rw [at10 V main_v532 ⟨by decide, by decide, by decide, by decide, by decide, by decide, by decide, by decide, by decide, by decide, by decide, by decide, by decide, by decide, by decide, by decide, by decide, by decide, by decide, by decide, by decide, by decide, by decide, by decide⟩]
  have hg : Rv V (Proc.devRef .tc main_v528) = (after (RefRun.chunk10 (F := Ideal)) (W10 V)) (Proc.devRef .tc main_v528) := by
    rw [at10 V main_v528 ⟨by decide, by decide, by decide, by decide, by decide, by decide, by decide, by decide, by decide, by decide, by decide, by decide, by decide, by decide, by decide, by decide, by decide, by decide, by decide, by decide, by decide, by decide, by decide, by decide⟩]
  have ha14 : W10 V (Proc.devRef .tc main_arg14) = V (Proc.devRef .tc main_arg14) := argW10 V main_arg14 unw_arg14
  rw [← ho, ← hg, ha14] at e
  exact e

set_option maxHeartbeats 4000000 in
set_option maxRecDepth 16384 in
/-- Statements 623–648 of @main (window 10): one edge step of fusion layer 1. -/
theorem win_ps1_0 (W : Val) :
    ((after (RefRun.chunk10 (F := Ideal)) W) (Proc.devRef .tc main_v554) : S50000x128.Idx → EReal) =
      Spec.toVec2 (Spec.edgeStep (Spec.ofVec2 (a := 50000) (b := 128) ((after (RefRun.chunk10 (F := Ideal)) W) (Proc.devRef .tc main_v528))) (Spec.ofVec2 (a := 50000) (b := 128) ((after (RefRun.chunk10 (F := Ideal)) W) (Proc.devRef .tc main_v532)))
        (fun (e : Fin 50000) => (W (Proc.devRef .tc main_arg25) : S12x50000.Idx → BitVec 32) (ValueIdx.ix2 (0 : Fin 12) e))
        (fun (e : Fin 50000) => (W (Proc.devRef .tc main_arg26) : S12x50000.Idx → BitVec 32) (ValueIdx.ix2 (0 : Fin 12) e))
        (fun (p q : Fin 128) => (W (Proc.devRef .tc main_arg15) : S4x12x128x128.Idx → EReal) (ValueIdx.ix4 (1 : Fin 4) (0 : Fin 12) p q))) := by
  try simp only [RefRun.chunk10]
  after_results_simp
  try simp only [StableHlo.TRef.ofBuf, StableHlo.TRef.toBuf, cast_eq]
  exact RFuse.psEdgePrinted_eq 1 0 (by decide) (by decide) ..

set_option maxHeartbeats 1000000 in
/-- The same between the buffers' final contents. -/
theorem st_ps1_0 (V : Val) :
    (Rv V (Proc.devRef .tc main_v554) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v532))) ((argsOfV V).ps_u 0) ((argsOfV V).ps_v 0) ((argsOfV V).fuse_ps_w 1 0)) := by
  have e := win_ps1_0 (W10 V)
  have ho : Rv V (Proc.devRef .tc main_v554) = (after (RefRun.chunk10 (F := Ideal)) (W10 V)) (Proc.devRef .tc main_v554) := by
    rw [at10 V main_v554 ⟨by decide, by decide, by decide, by decide, by decide, by decide, by decide, by decide, by decide, by decide, by decide, by decide, by decide, by decide, by decide, by decide, by decide, by decide, by decide, by decide, by decide, by decide, by decide, by decide⟩]
  have hg : Rv V (Proc.devRef .tc main_v528) = (after (RefRun.chunk10 (F := Ideal)) (W10 V)) (Proc.devRef .tc main_v528) := by
    rw [at10 V main_v528 ⟨by decide, by decide, by decide, by decide, by decide, by decide, by decide, by decide, by decide, by decide, by decide, by decide, by decide, by decide, by decide, by decide, by decide, by decide, by decide, by decide, by decide, by decide, by decide, by decide⟩]
  have ht : Rv V (Proc.devRef .tc main_v532) = (after (RefRun.chunk10 (F := Ideal)) (W10 V)) (Proc.devRef .tc main_v532) := by
    rw [at10 V main_v532 ⟨by decide, by decide, by decide, by decide, by decide, by decide, by decide, by decide, by decide, by decide, by decide, by decide, by decide, by decide, by decide, by decide, by decide, by decide, by decide, by decide, by decide, by decide, by decide, by decide⟩]
  have ha25 : W10 V (Proc.devRef .tc main_arg25) = V (Proc.devRef .tc main_arg25) := argW10 V main_arg25 unw_arg25
  have ha26 : W10 V (Proc.devRef .tc main_arg26) = V (Proc.devRef .tc main_arg26) := argW10 V main_arg26 unw_arg26
  have ha15 : W10 V (Proc.devRef .tc main_arg15) = V (Proc.devRef .tc main_arg15) := argW10 V main_arg15 unw_arg15
  rw [← ho, ← hg, ← ht, ha25, ha26, ha15] at e
  exact e

set_option maxHeartbeats 4000000 in
set_option maxRecDepth 16384 in
/-- Statements 649–674 of @main (windows 10–11): one edge step of fusion layer 1. -/
theorem win_ps1_1 (W : Val) :
    ((after (RefRun.chunk11 (F := Ideal)) (after (RefRun.chunk10 (F := Ideal)) W)) (Proc.devRef .tc main_v576) : S50000x128.Idx → EReal) =
      Spec.toVec2 (Spec.edgeStep (Spec.ofVec2 (a := 50000) (b := 128) ((after (RefRun.chunk11 (F := Ideal)) (after (RefRun.chunk10 (F := Ideal)) W)) (Proc.devRef .tc main_v528))) (Spec.ofVec2 (a := 50000) (b := 128) ((after (RefRun.chunk11 (F := Ideal)) (after (RefRun.chunk10 (F := Ideal)) W)) (Proc.devRef .tc main_v554)))
        (fun (e : Fin 50000) => (W (Proc.devRef .tc main_arg25) : S12x50000.Idx → BitVec 32) (ValueIdx.ix2 (1 : Fin 12) e))
        (fun (e : Fin 50000) => (W (Proc.devRef .tc main_arg26) : S12x50000.Idx → BitVec 32) (ValueIdx.ix2 (1 : Fin 12) e))
        (fun (p q : Fin 128) => (W (Proc.devRef .tc main_arg15) : S4x12x128x128.Idx → EReal) (ValueIdx.ix4 (1 : Fin 4) (1 : Fin 12) p q))) := by
  try simp only [RefRun.chunk10, RefRun.chunk11]
  after_results_simp
  try simp only [StableHlo.TRef.ofBuf, StableHlo.TRef.toBuf, cast_eq]
  exact RFuse.psEdgePrinted_eq 1 1 (by decide) (by decide) ..

set_option maxHeartbeats 1000000 in
/-- The same between the buffers' final contents. -/
theorem st_ps1_1 (V : Val) :
    (Rv V (Proc.devRef .tc main_v576) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v554))) ((argsOfV V).ps_u 1) ((argsOfV V).ps_v 1) ((argsOfV V).fuse_ps_w 1 1)) := by
  have e := win_ps1_1 (W10 V)
  have ho : Rv V (Proc.devRef .tc main_v576) = (after (RefRun.chunk11 (F := Ideal)) (after (RefRun.chunk10 (F := Ideal)) (W10 V))) (Proc.devRef .tc main_v576) := by
    rw [at11 V main_v576 ⟨by decide, by decide, by decide, by decide, by decide, by decide, by decide, by decide, by decide, by decide, by decide, by decide, by decide, by decide, by decide, by decide, by decide, by decide, by decide, by decide, by decide, by decide, by decide⟩, W11]
  have hg : Rv V (Proc.devRef .tc main_v528) = (after (RefRun.chunk11 (F := Ideal)) (after (RefRun.chunk10 (F := Ideal)) (W10 V))) (Proc.devRef .tc main_v528) := by
    rw [at11 V main_v528 ⟨by decide, by decide, by decide, by decide, by decide, by decide, by decide, by decide, by decide, by decide, by decide, by decide, by decide, by decide, by decide, by decide, by decide, by decide, by decide, by decide, by decide, by decide, by decide⟩, W11]
  have ht : Rv V (Proc.devRef .tc main_v554) = (after (RefRun.chunk11 (F := Ideal)) (after (RefRun.chunk10 (F := Ideal)) (W10 V))) (Proc.devRef .tc main_v554) := by
    rw [at11 V main_v554 ⟨by decide, by decide, by decide, by decide, by decide, by decide, by decide, by decide, by decide, by decide, by decide, by decide, by decide, by decide, by decide, by decide, by decide, by decide, by decide, by decide, by decide, by decide, by decide⟩, W11]
  have ha25 : W10 V (Proc.devRef .tc main_arg25) = V (Proc.devRef .tc main_arg25) := argW10 V main_arg25 unw_arg25
  have ha26 : W10 V (Proc.devRef .tc main_arg26) = V (Proc.devRef .tc main_arg26) := argW10 V main_arg26 unw_arg26
  have ha15 : W10 V (Proc.devRef .tc main_arg15) = V (Proc.devRef .tc main_arg15) := argW10 V main_arg15 unw_arg15
  rw [← ho, ← hg, ← ht, ha25, ha26, ha15] at e
  exact e

set_option maxHeartbeats 4000000 in
set_option maxRecDepth 16384 in
/-- Statements 675–700 of @main (window 11): one edge step of fusion layer 1. -/
theorem win_ps1_2 (W : Val) :
    ((after (RefRun.chunk11 (F := Ideal)) W) (Proc.devRef .tc main_v598) : S50000x128.Idx → EReal) =
      Spec.toVec2 (Spec.edgeStep (Spec.ofVec2 (a := 50000) (b := 128) (W (Proc.devRef .tc main_v528))) (Spec.ofVec2 (a := 50000) (b := 128) ((after (RefRun.chunk11 (F := Ideal)) W) (Proc.devRef .tc main_v576)))
        (fun (e : Fin 50000) => (W (Proc.devRef .tc main_arg25) : S12x50000.Idx → BitVec 32) (ValueIdx.ix2 (2 : Fin 12) e))
        (fun (e : Fin 50000) => (W (Proc.devRef .tc main_arg26) : S12x50000.Idx → BitVec 32) (ValueIdx.ix2 (2 : Fin 12) e))
        (fun (p q : Fin 128) => (W (Proc.devRef .tc main_arg15) : S4x12x128x128.Idx → EReal) (ValueIdx.ix4 (1 : Fin 4) (2 : Fin 12) p q))) := by
  try simp only [RefRun.chunk11]
  after_results_simp
  try simp only [StableHlo.TRef.ofBuf, StableHlo.TRef.toBuf, cast_eq]
  exact RFuse.psEdgePrinted_eq 1 2 (by decide) (by decide) ..

set_option maxHeartbeats 1000000 in
/-- The same between the buffers' final contents. -/
theorem st_ps1_2 (V : Val) :
    (Rv V (Proc.devRef .tc main_v598) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v576))) ((argsOfV V).ps_u 2) ((argsOfV V).ps_v 2) ((argsOfV V).fuse_ps_w 1 2)) := by
  have e := win_ps1_2 (W11 V)
  have ho : Rv V (Proc.devRef .tc main_v598) = (after (RefRun.chunk11 (F := Ideal)) (W11 V)) (Proc.devRef .tc main_v598) := by
    rw [at11 V main_v598 ⟨by decide, by decide, by decide, by decide, by decide, by decide, by decide, by decide, by decide, by decide, by decide, by decide, by decide, by decide, by decide, by decide, by decide, by decide, by decide, by decide, by decide, by decide, by decide⟩]
  have hg : Rv V (Proc.devRef .tc main_v528) = W11 V (Proc.devRef .tc main_v528) := pre11 V main_v528 ⟨by decide, by decide, by decide, by decide, by decide, by decide, by decide, by decide, by decide, by decide, by decide, by decide, by decide, by decide, by decide, by decide, by decide, by decide, by decide, by decide, by decide, by decide, by decide, by decide⟩
  have ht : Rv V (Proc.devRef .tc main_v576) = (after (RefRun.chunk11 (F := Ideal)) (W11 V)) (Proc.devRef .tc main_v576) := by
    rw [at11 V main_v576 ⟨by decide, by decide, by decide, by decide, by decide, by decide, by decide, by decide, by decide, by decide, by decide, by decide, by decide, by decide, by decide, by decide, by decide, by decide, by decide, by decide, by decide, by decide, by decide⟩]
  have ha25 : W11 V (Proc.devRef .tc main_arg25) = V (Proc.devRef .tc main_arg25) := argW11 V main_arg25 unw_arg25
  have ha26 : W11 V (Proc.devRef .tc main_arg26) = V (Proc.devRef .tc main_arg26) := argW11 V main_arg26 unw_arg26
  have ha15 : W11 V (Proc.devRef .tc main_arg15) = V (Proc.devRef .tc main_arg15) := argW11 V main_arg15 unw_arg15
  rw [← ho, ← hg, ← ht, ha25, ha26, ha15] at e
  exact e

end Cert.RChain

end
-- ==== Proof.RChainL1b.lean ====
/-
  Fusion layer 1 of the reference, statements 701–804 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 701–726 of @main (windows 11–12): one edge step of fusion layer 1. -/
theorem win_ps1_3 (W : Val) :
    ((after (RefRun.chunk12 (F := Ideal)) (after (RefRun.chunk11 (F := Ideal)) W)) (Proc.devRef .tc main_v620) : S50000x128.Idx → EReal) =
      Spec.toVec2 (Spec.edgeStep (Spec.ofVec2 (a := 50000) (b := 128) (W (Proc.devRef .tc main_v528))) (Spec.ofVec2 (a := 50000) (b := 128) ((after (RefRun.chunk12 (F := Ideal)) (after (RefRun.chunk11 (F := Ideal)) W)) (Proc.devRef .tc main_v598)))
        (fun (e : Fin 50000) => (W (Proc.devRef .tc main_arg25) : S12x50000.Idx → BitVec 32) (ValueIdx.ix2 (3 : Fin 12) e))
        (fun (e : Fin 50000) => (W (Proc.devRef .tc main_arg26) : S12x50000.Idx → BitVec 32) (ValueIdx.ix2 (3 : Fin 12) e))
        (fun (p q : Fin 128) => (W (Proc.devRef .tc main_arg15) : S4x12x128x128.Idx → EReal) (ValueIdx.ix4 (1 : Fin 4) (3 : Fin 12) p q))) := by
  try simp only [RefRun.chunk11, RefRun.chunk12]
  after_results_simp
  try simp only [StableHlo.TRef.ofBuf, StableHlo.TRef.toBuf, cast_eq]
  exact RFuse.psEdgePrinted_eq 1 3 (by decide) (by decide) ..

set_option maxHeartbeats 1000000 in
/-- The same between the buffers' final contents. -/
theorem st_ps1_3 (V : Val) :
    (Rv V (Proc.devRef .tc main_v620) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v598))) ((argsOfV V).ps_u 3) ((argsOfV V).ps_v 3) ((argsOfV V).fuse_ps_w 1 3)) := by
  have e := win_ps1_3 (W11 V)
  have ho : Rv V (Proc.devRef .tc main_v620) = (after (RefRun.chunk12 (F := Ideal)) (after (RefRun.chunk11 (F := Ideal)) (W11 V))) (Proc.devRef .tc main_v620) := by
    rw [at12 V main_v620 ⟨by decide, by decide, by decide, by decide, by decide, by decide, by decide, by decide, by decide, by decide, by decide, by decide, by decide, by decide, by decide, by decide, by decide, by decide, by decide, by decide, by decide, by decide⟩, W12]
  have hg : Rv V (Proc.devRef .tc main_v528) = W11 V (Proc.devRef .tc main_v528) := pre11 V main_v528 ⟨by decide, by decide, by decide, by decide, by decide, by decide, by decide, by decide, by decide, by decide, by decide, by decide, by decide, by decide, by decide, by decide, by decide, by decide, by decide, by decide, by decide, by decide, by decide, by decide⟩
  have ht : Rv V (Proc.devRef .tc main_v598) = (after (RefRun.chunk12 (F := Ideal)) (after (RefRun.chunk11 (F := Ideal)) (W11 V))) (Proc.devRef .tc main_v598) := by
    rw [at12 V main_v598 ⟨by decide, by decide, by decide, by decide, by decide, by decide, by decide, by decide, by decide, by decide, by decide, by decide, by decide, by decide, by decide, by decide, by decide, by decide, by decide, by decide, by decide, by decide⟩, W12]
  have ha25 : W11 V (Proc.devRef .tc main_arg25) = V (Proc.devRef .tc main_arg25) := argW11 V main_arg25 unw_arg25
  have ha26 : W11 V (Proc.devRef .tc main_arg26) = V (Proc.devRef .tc main_arg26) := argW11 V main_arg26 unw_arg26
  have ha15 : W11 V (Proc.devRef .tc main_arg15) = V (Proc.devRef .tc main_arg15) := argW11 V main_arg15 unw_arg15
  rw [← ho, ← hg, ← ht, ha25, ha26, ha15] at e
  exact e

set_option maxHeartbeats 4000000 in
set_option maxRecDepth 16384 in
/-- Statements 727–752 of @main (window 12): one edge step of fusion layer 1. -/
theorem win_ps1_4 (W : Val) :
    ((after (RefRun.chunk12 (F := Ideal)) W) (Proc.devRef .tc main_v642) : S50000x128.Idx → EReal) =
      Spec.toVec2 (Spec.edgeStep (Spec.ofVec2 (a := 50000) (b := 128) (W (Proc.devRef .tc main_v528))) (Spec.ofVec2 (a := 50000) (b := 128) ((after (RefRun.chunk12 (F := Ideal)) W) (Proc.devRef .tc main_v620)))
        (fun (e : Fin 50000) => (W (Proc.devRef .tc main_arg25) : S12x50000.Idx → BitVec 32) (ValueIdx.ix2 (4 : Fin 12) e))
        (fun (e : Fin 50000) => (W (Proc.devRef .tc main_arg26) : S12x50000.Idx → BitVec 32) (ValueIdx.ix2 (4 : Fin 12) e))
        (fun (p q : Fin 128) => (W (Proc.devRef .tc main_arg15) : S4x12x128x128.Idx → EReal) (ValueIdx.ix4 (1 : Fin 4) (4 : Fin 12) p q))) := by
  try simp only [RefRun.chunk12]
  after_results_simp
  try simp only [StableHlo.TRef.ofBuf, StableHlo.TRef.toBuf, cast_eq]
  exact RFuse.psEdgePrinted_eq 1 4 (by decide) (by decide) ..

set_option maxHeartbeats 1000000 in
/-- The same between the buffers' final contents. -/
theorem st_ps1_4 (V : Val) :
    (Rv V (Proc.devRef .tc main_v642) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v620))) ((argsOfV V).ps_u 4) ((argsOfV V).ps_v 4) ((argsOfV V).fuse_ps_w 1 4)) := by
  have e := win_ps1_4 (W12 V)
  have ho : Rv V (Proc.devRef .tc main_v642) = (after (RefRun.chunk12 (F := Ideal)) (W12 V)) (Proc.devRef .tc main_v642) := by
    rw [at12 V main_v642 ⟨by decide, by decide, by decide, by decide, by decide, by decide, by decide, by decide, by decide, by decide, by decide, by decide, by decide, by decide, by decide, by decide, by decide, by decide, by decide, by decide, by decide, by decide⟩]
  have hg : Rv V (Proc.devRef .tc main_v528) = W12 V (Proc.devRef .tc main_v528) := pre12 V main_v528 ⟨by decide, by decide, by decide, by decide, by decide, by decide, by decide, by decide, by decide, by decide, by decide, by decide, by decide, by decide, by decide, by decide, by decide, by decide, by decide, by decide, by decide, by decide, by decide⟩
  have ht : Rv V (Proc.devRef .tc main_v620) = (after (RefRun.chunk12 (F := Ideal)) (W12 V)) (Proc.devRef .tc main_v620) := by
    rw [at12 V main_v620 ⟨by decide, by decide, by decide, by decide, by decide, by decide, by decide, by decide, by decide, by decide, by decide, by decide, by decide, by decide, by decide, by decide, by decide, by decide, by decide, by decide, by decide, by decide⟩]
  have ha25 : W12 V (Proc.devRef .tc main_arg25) = V (Proc.devRef .tc main_arg25) := argW12 V main_arg25 unw_arg25
  have ha26 : W12 V (Proc.devRef .tc main_arg26) = V (Proc.devRef .tc main_arg26) := argW12 V main_arg26 unw_arg26
  have ha15 : W12 V (Proc.devRef .tc main_arg15) = V (Proc.devRef .tc main_arg15) := argW12 V main_arg15 unw_arg15
  rw [← ho, ← hg, ← ht, ha25, ha26, ha15] at e
  exact e

set_option maxHeartbeats 4000000 in
set_option maxRecDepth 16384 in
/-- Statements 753–778 of @main (window 12): one edge step of fusion layer 1. -/
theorem win_ps1_5 (W : Val) :
    ((after (RefRun.chunk12 (F := Ideal)) W) (Proc.devRef .tc main_v664) : S50000x128.Idx → EReal) =
      Spec.toVec2 (Spec.edgeStep (Spec.ofVec2 (a := 50000) (b := 128) (W (Proc.devRef .tc main_v528))) (Spec.ofVec2 (a := 50000) (b := 128) ((after (RefRun.chunk12 (F := Ideal)) W) (Proc.devRef .tc main_v642)))
        (fun (e : Fin 50000) => (W (Proc.devRef .tc main_arg25) : S12x50000.Idx → BitVec 32) (ValueIdx.ix2 (5 : Fin 12) e))
        (fun (e : Fin 50000) => (W (Proc.devRef .tc main_arg26) : S12x50000.Idx → BitVec 32) (ValueIdx.ix2 (5 : Fin 12) e))
        (fun (p q : Fin 128) => (W (Proc.devRef .tc main_arg15) : S4x12x128x128.Idx → EReal) (ValueIdx.ix4 (1 : Fin 4) (5 : Fin 12) p q))) := by
  try simp only [RefRun.chunk12]
  after_results_simp
  try simp only [StableHlo.TRef.ofBuf, StableHlo.TRef.toBuf, cast_eq]
  exact RFuse.psEdgePrinted_eq 1 5 (by decide) (by decide) ..

set_option maxHeartbeats 1000000 in
/-- The same between the buffers' final contents. -/
theorem st_ps1_5 (V : Val) :
    (Rv V (Proc.devRef .tc main_v664) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v642))) ((argsOfV V).ps_u 5) ((argsOfV V).ps_v 5) ((argsOfV V).fuse_ps_w 1 5)) := by
  have e := win_ps1_5 (W12 V)
  have ho : Rv V (Proc.devRef .tc main_v664) = (after (RefRun.chunk12 (F := Ideal)) (W12 V)) (Proc.devRef .tc main_v664) := by
    rw [at12 V main_v664 ⟨by decide, by decide, by decide, by decide, by decide, by decide, by decide, by decide, by decide, by decide, by decide, by decide, by decide, by decide, by decide, by decide, by decide, by decide, by decide, by decide, by decide, by decide⟩]
  have hg : Rv V (Proc.devRef .tc main_v528) = W12 V (Proc.devRef .tc main_v528) := pre12 V main_v528 ⟨by decide, by decide, by decide, by decide, by decide, by decide, by decide, by decide, by decide, by decide, by decide, by decide, by decide, by decide, by decide, by decide, by decide, by decide, by decide, by decide, by decide, by decide, by decide⟩
  have ht : Rv V (Proc.devRef .tc main_v642) = (after (RefRun.chunk12 (F := Ideal)) (W12 V)) (Proc.devRef .tc main_v642) := by
    rw [at12 V main_v642 ⟨by decide, by decide, by decide, by decide, by decide, by decide, by decide, by decide, by decide, by decide, by decide, by decide, by decide, by decide, by decide, by decide, by decide, by decide, by decide, by decide, by decide, by decide⟩]
  have ha25 : W12 V (Proc.devRef .tc main_arg25) = V (Proc.devRef .tc main_arg25) := argW12 V main_arg25 unw_arg25
  have ha26 : W12 V (Proc.devRef .tc main_arg26) = V (Proc.devRef .tc main_arg26) := argW12 V main_arg26 unw_arg26
  have ha15 : W12 V (Proc.devRef .tc main_arg15) = V (Proc.devRef .tc main_arg15) := argW12 V main_arg15 unw_arg15
  rw [← ho, ← hg, ← ht, ha25, ha26, ha15] at e
  exact e

set_option maxHeartbeats 4000000 in
set_option maxRecDepth 16384 in
/-- Statements 779–804 of @main (windows 12–13): one edge step of fusion layer 1. -/
theorem win_ps1_6 (W : Val) :
    ((after (RefRun.chunk13 (F := Ideal)) (after (RefRun.chunk12 (F := Ideal)) W)) (Proc.devRef .tc main_v686) : S50000x128.Idx → EReal) =
      Spec.toVec2 (Spec.edgeStep (Spec.ofVec2 (a := 50000) (b := 128) (W (Proc.devRef .tc main_v528))) (Spec.ofVec2 (a := 50000) (b := 128) ((after (RefRun.chunk13 (F := Ideal)) (after (RefRun.chunk12 (F := Ideal)) W)) (Proc.devRef .tc main_v664)))
        (fun (e : Fin 50000) => (W (Proc.devRef .tc main_arg25) : S12x50000.Idx → BitVec 32) (ValueIdx.ix2 (6 : Fin 12) e))
        (fun (e : Fin 50000) => (W (Proc.devRef .tc main_arg26) : S12x50000.Idx → BitVec 32) (ValueIdx.ix2 (6 : Fin 12) e))
        (fun (p q : Fin 128) => (W (Proc.devRef .tc main_arg15) : S4x12x128x128.Idx → EReal) (ValueIdx.ix4 (1 : Fin 4) (6 : Fin 12) p q))) := by
  try simp only [RefRun.chunk12, RefRun.chunk13]
  after_results_simp
  try simp only [StableHlo.TRef.ofBuf, StableHlo.TRef.toBuf, cast_eq]
  exact RFuse.psEdgePrinted_eq 1 6 (by decide) (by decide) ..

set_option maxHeartbeats 1000000 in
/-- The same between the buffers' final contents. -/
theorem st_ps1_6 (V : Val) :
    (Rv V (Proc.devRef .tc main_v686) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v664))) ((argsOfV V).ps_u 6) ((argsOfV V).ps_v 6) ((argsOfV V).fuse_ps_w 1 6)) := by
  have e := win_ps1_6 (W12 V)
  have ho : Rv V (Proc.devRef .tc main_v686) = (after (RefRun.chunk13 (F := Ideal)) (after (RefRun.chunk12 (F := Ideal)) (W12 V))) (Proc.devRef .tc main_v686) := by
    rw [at13 V main_v686 ⟨by decide, by decide, by decide, by decide, by decide, by decide, by decide, by decide, by decide, by decide, by decide, by decide, by decide, by decide, by decide, by decide, by decide, by decide, by decide, by decide, by decide⟩, W13]
  have hg : Rv V (Proc.devRef .tc main_v528) = W12 V (Proc.devRef .tc main_v528) := pre12 V main_v528 ⟨by decide, by decide, by decide, by decide, by decide, by decide, by decide, by decide, by decide, by decide, by decide, by decide, by decide, by decide, by decide, by decide, by decide, by decide, by decide, by decide, by decide, by decide, by decide⟩
  have ht : Rv V (Proc.devRef .tc main_v664) = (after (RefRun.chunk13 (F := Ideal)) (after (RefRun.chunk12 (F := Ideal)) (W12 V))) (Proc.devRef .tc main_v664) := by
    rw [at13 V main_v664 ⟨by decide, by decide, by decide, by decide, by decide, by decide, by decide, by decide, by decide, by decide, by decide, by decide, by decide, by decide, by decide, by decide, by decide, by decide, by decide, by decide, by decide⟩, W13]
  have ha25 : W12 V (Proc.devRef .tc main_arg25) = V (Proc.devRef .tc main_arg25) := argW12 V main_arg25 unw_arg25
  have ha26 : W12 V (Proc.devRef .tc main_arg26) = V (Proc.devRef .tc main_arg26) := argW12 V main_arg26 unw_arg26
  have ha15 : W12 V (Proc.devRef .tc main_arg15) = V (Proc.devRef .tc main_arg15) := argW12 V main_arg15 unw_arg15
  rw [← ho, ← hg, ← ht, ha25, ha26, ha15] at e
  exact e

end Cert.RChain

end
-- ==== Proof.RChainL1c.lean ====
/-
  Fusion layer 1 of the reference, statements 805–908 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 805–830 of @main (window 13): one edge step of fusion layer 1. -/
theorem win_ps1_7 (W : Val) :
    ((after (RefRun.chunk13 (F := Ideal)) W) (Proc.devRef .tc main_v708) : S50000x128.Idx → EReal) =
      Spec.toVec2 (Spec.edgeStep (Spec.ofVec2 (a := 50000) (b := 128) (W (Proc.devRef .tc main_v528))) (Spec.ofVec2 (a := 50000) (b := 128) ((after (RefRun.chunk13 (F := Ideal)) W) (Proc.devRef .tc main_v686)))
        (fun (e : Fin 50000) => (W (Proc.devRef .tc main_arg25) : S12x50000.Idx → BitVec 32) (ValueIdx.ix2 (7 : Fin 12) e))
        (fun (e : Fin 50000) => (W (Proc.devRef .tc main_arg26) : S12x50000.Idx → BitVec 32) (ValueIdx.ix2 (7 : Fin 12) e))
        (fun (p q : Fin 128) => (W (Proc.devRef .tc main_arg15) : S4x12x128x128.Idx → EReal) (ValueIdx.ix4 (1 : Fin 4) (7 : Fin 12) p q))) := by
  try simp only [RefRun.chunk13]
  after_results_simp
  try simp only [StableHlo.TRef.ofBuf, StableHlo.TRef.toBuf, cast_eq]
  exact RFuse.psEdgePrinted_eq 1 7 (by decide) (by decide) ..

set_option maxHeartbeats 1000000 in
/-- The same between the buffers' final contents. -/
theorem st_ps1_7 (V : Val) :
    (Rv V (Proc.devRef .tc main_v708) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v686))) ((argsOfV V).ps_u 7) ((argsOfV V).ps_v 7) ((argsOfV V).fuse_ps_w 1 7)) := by
  have e := win_ps1_7 (W13 V)
  have ho : Rv V (Proc.devRef .tc main_v708) = (after (RefRun.chunk13 (F := Ideal)) (W13 V)) (Proc.devRef .tc main_v708) := by
    rw [at13 V main_v708 ⟨by decide, by decide, by decide, by decide, by decide, by decide, by decide, by decide, by decide, by decide, by decide, by decide, by decide, by decide, by decide, by decide, by decide, by decide, by decide, by decide, by decide⟩]
  have hg : Rv V (Proc.devRef .tc main_v528) = W13 V (Proc.devRef .tc main_v528) := pre13 V main_v528 ⟨by decide, by decide, by decide, by decide, by decide, by decide, by decide, by decide, by decide, by decide, by decide, by decide, by decide, by decide, by decide, by decide, by decide, by decide, by decide, by decide, by decide, by decide⟩
  have ht : Rv V (Proc.devRef .tc main_v686) = (after (RefRun.chunk13 (F := Ideal)) (W13 V)) (Proc.devRef .tc main_v686) := by
    rw [at13 V main_v686 ⟨by decide, by decide, by decide, by decide, by decide, by decide, by decide, by decide, by decide, by decide, by decide, by decide, by decide, by decide, by decide, by decide, by decide, by decide, by decide, by decide, by decide⟩]
  have ha25 : W13 V (Proc.devRef .tc main_arg25) = V (Proc.devRef .tc main_arg25) := argW13 V main_arg25 unw_arg25
  have ha26 : W13 V (Proc.devRef .tc main_arg26) = V (Proc.devRef .tc main_arg26) := argW13 V main_arg26 unw_arg26
  have ha15 : W13 V (Proc.devRef .tc main_arg15) = V (Proc.devRef .tc main_arg15) := argW13 V main_arg15 unw_arg15
  rw [← ho, ← hg, ← ht, ha25, ha26, ha15] at e
  exact e

set_option maxHeartbeats 4000000 in
set_option maxRecDepth 16384 in
/-- Statements 831–856 of @main (windows 13–14): one edge step of fusion layer 1. -/
theorem win_ps1_8 (W : Val) :
    ((after (RefRun.chunk14 (F := Ideal)) (after (RefRun.chunk13 (F := Ideal)) W)) (Proc.devRef .tc main_v730) : S50000x128.Idx → EReal) =
      Spec.toVec2 (Spec.edgeStep (Spec.ofVec2 (a := 50000) (b := 128) (W (Proc.devRef .tc main_v528))) (Spec.ofVec2 (a := 50000) (b := 128) ((after (RefRun.chunk14 (F := Ideal)) (after (RefRun.chunk13 (F := Ideal)) W)) (Proc.devRef .tc main_v708)))
        (fun (e : Fin 50000) => (W (Proc.devRef .tc main_arg25) : S12x50000.Idx → BitVec 32) (ValueIdx.ix2 (8 : Fin 12) e))
        (fun (e : Fin 50000) => (W (Proc.devRef .tc main_arg26) : S12x50000.Idx → BitVec 32) (ValueIdx.ix2 (8 : Fin 12) e))
        (fun (p q : Fin 128) => (W (Proc.devRef .tc main_arg15) : S4x12x128x128.Idx → EReal) (ValueIdx.ix4 (1 : Fin 4) (8 : Fin 12) p q))) := by
  try simp only [RefRun.chunk13, RefRun.chunk14]
  after_results_simp
  try simp only [StableHlo.TRef.ofBuf, StableHlo.TRef.toBuf, cast_eq]
  exact RFuse.psEdgePrinted_eq 1 8 (by decide) (by decide) ..

set_option maxHeartbeats 1000000 in
/-- The same between the buffers' final contents. -/
theorem st_ps1_8 (V : Val) :
    (Rv V (Proc.devRef .tc main_v730) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v708))) ((argsOfV V).ps_u 8) ((argsOfV V).ps_v 8) ((argsOfV V).fuse_ps_w 1 8)) := by
  have e := win_ps1_8 (W13 V)
  have ho : Rv V (Proc.devRef .tc main_v730) = (after (RefRun.chunk14 (F := Ideal)) (after (RefRun.chunk13 (F := Ideal)) (W13 V))) (Proc.devRef .tc main_v730) := by
    rw [at14 V main_v730 ⟨by decide, by decide, by decide, by decide, by decide, by decide, by decide, by decide, by decide, by decide, by decide, by decide, by decide, by decide, by decide, by decide, by decide, by decide, by decide, by decide⟩, W14]
  have hg : Rv V (Proc.devRef .tc main_v528) = W13 V (Proc.devRef .tc main_v528) := pre13 V main_v528 ⟨by decide, by decide, by decide, by decide, by decide, by decide, by decide, by decide, by decide, by decide, by decide, by decide, by decide, by decide, by decide, by decide, by decide, by decide, by decide, by decide, by decide, by decide⟩
  have ht : Rv V (Proc.devRef .tc main_v708) = (after (RefRun.chunk14 (F := Ideal)) (after (RefRun.chunk13 (F := Ideal)) (W13 V))) (Proc.devRef .tc main_v708) := by
    rw [at14 V main_v708 ⟨by decide, by decide, by decide, by decide, by decide, by decide, by decide, by decide, by decide, by decide, by decide, by decide, by decide, by decide, by decide, by decide, by decide, by decide, by decide, by decide⟩, W14]
  have ha25 : W13 V (Proc.devRef .tc main_arg25) = V (Proc.devRef .tc main_arg25) := argW13 V main_arg25 unw_arg25
  have ha26 : W13 V (Proc.devRef .tc main_arg26) = V (Proc.devRef .tc main_arg26) := argW13 V main_arg26 unw_arg26
  have ha15 : W13 V (Proc.devRef .tc main_arg15) = V (Proc.devRef .tc main_arg15) := argW13 V main_arg15 unw_arg15
  rw [← ho, ← hg, ← ht, ha25, ha26, ha15] at e
  exact e

set_option maxHeartbeats 4000000 in
set_option maxRecDepth 16384 in
/-- Statements 857–882 of @main (window 14): one edge step of fusion layer 1. -/
theorem win_ps1_9 (W : Val) :
    ((after (RefRun.chunk14 (F := Ideal)) W) (Proc.devRef .tc main_v752) : S50000x128.Idx → EReal) =
      Spec.toVec2 (Spec.edgeStep (Spec.ofVec2 (a := 50000) (b := 128) (W (Proc.devRef .tc main_v528))) (Spec.ofVec2 (a := 50000) (b := 128) ((after (RefRun.chunk14 (F := Ideal)) W) (Proc.devRef .tc main_v730)))
        (fun (e : Fin 50000) => (W (Proc.devRef .tc main_arg25) : S12x50000.Idx → BitVec 32) (ValueIdx.ix2 (9 : Fin 12) e))
        (fun (e : Fin 50000) => (W (Proc.devRef .tc main_arg26) : S12x50000.Idx → BitVec 32) (ValueIdx.ix2 (9 : Fin 12) e))
        (fun (p q : Fin 128) => (W (Proc.devRef .tc main_arg15) : S4x12x128x128.Idx → EReal) (ValueIdx.ix4 (1 : Fin 4) (9 : Fin 12) p q))) := by
  try simp only [RefRun.chunk14]
  after_results_simp
  try simp only [StableHlo.TRef.ofBuf, StableHlo.TRef.toBuf, cast_eq]
  exact RFuse.psEdgePrinted_eq 1 9 (by decide) (by decide) ..

set_option maxHeartbeats 1000000 in
/-- The same between the buffers' final contents. -/
theorem st_ps1_9 (V : Val) :
    (Rv V (Proc.devRef .tc main_v752) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v730))) ((argsOfV V).ps_u 9) ((argsOfV V).ps_v 9) ((argsOfV V).fuse_ps_w 1 9)) := by
  have e := win_ps1_9 (W14 V)
  have ho : Rv V (Proc.devRef .tc main_v752) = (after (RefRun.chunk14 (F := Ideal)) (W14 V)) (Proc.devRef .tc main_v752) := by
    rw [at14 V main_v752 ⟨by decide, by decide, by decide, by decide, by decide, by decide, by decide, by decide, by decide, by decide, by decide, by decide, by decide, by decide, by decide, by decide, by decide, by decide, by decide, by decide⟩]
  have hg : Rv V (Proc.devRef .tc main_v528) = W14 V (Proc.devRef .tc main_v528) := pre14 V main_v528 ⟨by decide, by decide, by decide, by decide, by decide, by decide, by decide, by decide, by decide, by decide, by decide, by decide, by decide, by decide, by decide, by decide, by decide, by decide, by decide, by decide, by decide⟩
  have ht : Rv V (Proc.devRef .tc main_v730) = (after (RefRun.chunk14 (F := Ideal)) (W14 V)) (Proc.devRef .tc main_v730) := by
    rw [at14 V main_v730 ⟨by decide, by decide, by decide, by decide, by decide, by decide, by decide, by decide, by decide, by decide, by decide, by decide, by decide, by decide, by decide, by decide, by decide, by decide, by decide, by decide⟩]
  have ha25 : W14 V (Proc.devRef .tc main_arg25) = V (Proc.devRef .tc main_arg25) := argW14 V main_arg25 unw_arg25
  have ha26 : W14 V (Proc.devRef .tc main_arg26) = V (Proc.devRef .tc main_arg26) := argW14 V main_arg26 unw_arg26
  have ha15 : W14 V (Proc.devRef .tc main_arg15) = V (Proc.devRef .tc main_arg15) := argW14 V main_arg15 unw_arg15
  rw [← ho, ← hg, ← ht, ha25, ha26, ha15] at e
  exact e

set_option maxHeartbeats 4000000 in
set_option maxRecDepth 16384 in
/-- Statements 883–908 of @main (windows 14–15): one edge step of fusion layer 1. -/
theorem win_ps1_10 (W : Val) :
    ((after (RefRun.chunk15 (F := Ideal)) (after (RefRun.chunk14 (F := Ideal)) W)) (Proc.devRef .tc main_v774) : S50000x128.Idx → EReal) =
      Spec.toVec2 (Spec.edgeStep (Spec.ofVec2 (a := 50000) (b := 128) (W (Proc.devRef .tc main_v528))) (Spec.ofVec2 (a := 50000) (b := 128) ((after (RefRun.chunk15 (F := Ideal)) (after (RefRun.chunk14 (F := Ideal)) W)) (Proc.devRef .tc main_v752)))
        (fun (e : Fin 50000) => (W (Proc.devRef .tc main_arg25) : S12x50000.Idx → BitVec 32) (ValueIdx.ix2 (10 : Fin 12) e))
        (fun (e : Fin 50000) => (W (Proc.devRef .tc main_arg26) : S12x50000.Idx → BitVec 32) (ValueIdx.ix2 (10 : Fin 12) e))
        (fun (p q : Fin 128) => (W (Proc.devRef .tc main_arg15) : S4x12x128x128.Idx → EReal) (ValueIdx.ix4 (1 : Fin 4) (10 : Fin 12) p q))) := by
  try simp only [RefRun.chunk14, RefRun.chunk15]
  after_results_simp
  try simp only [StableHlo.TRef.ofBuf, StableHlo.TRef.toBuf, cast_eq]
  exact RFuse.psEdgePrinted_eq 1 10 (by decide) (by decide) ..

set_option maxHeartbeats 1000000 in
/-- The same between the buffers' final contents. -/
theorem st_ps1_10 (V : Val) :
    (Rv V (Proc.devRef .tc main_v774) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v752))) ((argsOfV V).ps_u 10) ((argsOfV V).ps_v 10) ((argsOfV V).fuse_ps_w 1 10)) := by
  have e := win_ps1_10 (W14 V)
  have ho : Rv V (Proc.devRef .tc main_v774) = (after (RefRun.chunk15 (F := Ideal)) (after (RefRun.chunk14 (F := Ideal)) (W14 V))) (Proc.devRef .tc main_v774) := by
    rw [at15 V main_v774 ⟨by decide, by decide, by decide, by decide, by decide, by decide, by decide, by decide, by decide, by decide, by decide, by decide, by decide, by decide, by decide, by decide, by decide, by decide, by decide⟩, W15]
  have hg : Rv V (Proc.devRef .tc main_v528) = W14 V (Proc.devRef .tc main_v528) := pre14 V main_v528 ⟨by decide, by decide, by decide, by decide, by decide, by decide, by decide, by decide, by decide, by decide, by decide, by decide, by decide, by decide, by decide, by decide, by decide, by decide, by decide, by decide, by decide⟩
  have ht : Rv V (Proc.devRef .tc main_v752) = (after (RefRun.chunk15 (F := Ideal)) (after (RefRun.chunk14 (F := Ideal)) (W14 V))) (Proc.devRef .tc main_v752) := by
    rw [at15 V main_v752 ⟨by decide, by decide, by decide, by decide, by decide, by decide, by decide, by decide, by decide, by decide, by decide, by decide, by decide, by decide, by decide, by decide, by decide, by decide, by decide⟩, W15]
  have ha25 : W14 V (Proc.devRef .tc main_arg25) = V (Proc.devRef .tc main_arg25) := argW14 V main_arg25 unw_arg25
  have ha26 : W14 V (Proc.devRef .tc main_arg26) = V (Proc.devRef .tc main_arg26) := argW14 V main_arg26 unw_arg26
  have ha15 : W14 V (Proc.devRef .tc main_arg15) = V (Proc.devRef .tc main_arg15) := argW14 V main_arg15 unw_arg15
  rw [← ho, ← hg, ← ht, ha25, ha26, ha15] at e
  exact e

end Cert.RChain

end
-- ==== Proof.RChainL1d.lean ====
/-
  Fusion layer 1 of the reference, statements 909–1049 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 909–934 of @main (window 15): one edge step of fusion layer 1. -/
theorem win_ps1_11 (W : Val) :
    ((after (RefRun.chunk15 (F := Ideal)) W) (Proc.devRef .tc main_v796) : S50000x128.Idx → EReal) =
      Spec.toVec2 (Spec.edgeStep (Spec.ofVec2 (a := 50000) (b := 128) (W (Proc.devRef .tc main_v528))) (Spec.ofVec2 (a := 50000) (b := 128) ((after (RefRun.chunk15 (F := Ideal)) W) (Proc.devRef .tc main_v774)))
        (fun (e : Fin 50000) => (W (Proc.devRef .tc main_arg25) : S12x50000.Idx → BitVec 32) (ValueIdx.ix2 (11 : Fin 12) e))
        (fun (e : Fin 50000) => (W (Proc.devRef .tc main_arg26) : S12x50000.Idx → BitVec 32) (ValueIdx.ix2 (11 : Fin 12) e))
        (fun (p q : Fin 128) => (W (Proc.devRef .tc main_arg15) : S4x12x128x128.Idx → EReal) (ValueIdx.ix4 (1 : Fin 4) (11 : Fin 12) p q))) := by
  try simp only [RefRun.chunk15]
  after_results_simp
  try simp only [StableHlo.TRef.ofBuf, StableHlo.TRef.toBuf, cast_eq]
  exact RFuse.psEdgePrinted_eq 1 11 (by decide) (by decide) ..

set_option maxHeartbeats 1000000 in
/-- The same between the buffers' final contents. -/
theorem st_ps1_11 (V : Val) :
    (Rv V (Proc.devRef .tc main_v796) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v774))) ((argsOfV V).ps_u 11) ((argsOfV V).ps_v 11) ((argsOfV V).fuse_ps_w 1 11)) := by
  have e := win_ps1_11 (W15 V)
  have ho : Rv V (Proc.devRef .tc main_v796) = (after (RefRun.chunk15 (F := Ideal)) (W15 V)) (Proc.devRef .tc main_v796) := by
    rw [at15 V main_v796 ⟨by decide, by decide, by decide, by decide, by decide, by decide, by decide, by decide, by decide, by decide, by decide, by decide, by decide, by decide, by decide, by decide, by decide, by decide, by decide⟩]
  have hg : Rv V (Proc.devRef .tc main_v528) = W15 V (Proc.devRef .tc main_v528) := pre15 V main_v528 ⟨by decide, by decide, by decide, by decide, by decide, by decide, by decide, by decide, by decide, by decide, by decide, by decide, by decide, by decide, by decide, by decide, by decide, by decide, by decide, by decide⟩
  have ht : Rv V (Proc.devRef .tc main_v774) = (after (RefRun.chunk15 (F := Ideal)) (W15 V)) (Proc.devRef .tc main_v774) := by
    rw [at15 V main_v774 ⟨by decide, by decide, by decide, by decide, by decide, by decide, by decide, by decide, by decide, by decide, by decide, by decide, by decide, by decide, by decide, by decide, by decide, by decide, by decide⟩]
  have ha25 : W15 V (Proc.devRef .tc main_arg25) = V (Proc.devRef .tc main_arg25) := argW15 V main_arg25 unw_arg25
  have ha26 : W15 V (Proc.devRef .tc main_arg26) = V (Proc.devRef .tc main_arg26) := argW15 V main_arg26 unw_arg26
  have ha15 : W15 V (Proc.devRef .tc main_arg15) = V (Proc.devRef .tc main_arg15) := argW15 V main_arg15 unw_arg15
  rw [← ho, ← hg, ← ht, ha25, ha26, ha15] at e
  exact e

set_option maxHeartbeats 4000000 in
set_option maxRecDepth 16384 in
/-- Statements 935–960 of @main (window 15): one edge step of fusion layer 1. -/
theorem win_lr1_0 (W : Val) :
    ((after (RefRun.chunk15 (F := Ideal)) W) (Proc.devRef .tc main_v818) : S50000x128.Idx → EReal) =
      Spec.toVec2 (Spec.edgeStep (Spec.ofVec2 (a := 50000) (b := 128) (W (Proc.devRef .tc main_v528))) (Spec.ofVec2 (a := 50000) (b := 128) ((after (RefRun.chunk15 (F := Ideal)) W) (Proc.devRef .tc main_v796)))
        (fun (e : Fin 5000) => (W (Proc.devRef .tc main_arg27) : S2x5000.Idx → BitVec 32) (ValueIdx.ix2 (0 : Fin 2) e))
        (fun (e : Fin 5000) => (W (Proc.devRef .tc main_arg28) : S2x5000.Idx → BitVec 32) (ValueIdx.ix2 (0 : Fin 2) e))
        (fun (p q : Fin 128) => (W (Proc.devRef .tc main_arg16) : S4x128x128.Idx → EReal) (ValueIdx.ix3 (1 : Fin 4) p q))) := by
  try simp only [RefRun.chunk15]
  after_results_simp
  try simp only [StableHlo.TRef.ofBuf, StableHlo.TRef.toBuf, cast_eq]
  exact RFuse.lrEdgePrinted_eq 1 0 (by decide) (by decide) ..

set_option maxHeartbeats 1000000 in
/-- The same between the buffers' final contents. -/
theorem st_lr1_0 (V : Val) :
    (Rv V (Proc.devRef .tc main_v818) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v796))) ((argsOfV V).lr_u 0) ((argsOfV V).lr_v 0) ((argsOfV V).fuse_left_w 1)) := by
  have e := win_lr1_0 (W15 V)
  have ho : Rv V (Proc.devRef .tc main_v818) = (after (RefRun.chunk15 (F := Ideal)) (W15 V)) (Proc.devRef .tc main_v818) := by
    rw [at15 V main_v818 ⟨by decide, by decide, by decide, by decide, by decide, by decide, by decide, by decide, by decide, by decide, by decide, by decide, by decide, by decide, by decide, by decide, by decide, by decide, by decide⟩]
  have hg : Rv V (Proc.devRef .tc main_v528) = W15 V (Proc.devRef .tc main_v528) := pre15 V main_v528 ⟨by decide, by decide, by decide, by decide, by decide, by decide, by decide, by decide, by decide, by decide, by decide, by decide, by decide, by decide, by decide, by decide, by decide, by decide, by decide, by decide⟩
  have ht : Rv V (Proc.devRef .tc main_v796) = (after (RefRun.chunk15 (F := Ideal)) (W15 V)) (Proc.devRef .tc main_v796) := by
    rw [at15 V main_v796 ⟨by decide, by decide, by decide, by decide, by decide, by decide, by decide, by decide, by decide, by decide, by decide, by decide, by decide, by decide, by decide, by decide, by decide, by decide, by decide⟩]
  have ha27 : W15 V (Proc.devRef .tc main_arg27) = V (Proc.devRef .tc main_arg27) := argW15 V main_arg27 unw_arg27
  have ha28 : W15 V (Proc.devRef .tc main_arg28) = V (Proc.devRef .tc main_arg28) := argW15 V main_arg28 unw_arg28
  have ha16 : W15 V (Proc.devRef .tc main_arg16) = V (Proc.devRef .tc main_arg16) := argW15 V main_arg16 unw_arg16
  rw [← ho, ← hg, ← ht, ha27, ha28, ha16] at e
  exact e

set_option maxHeartbeats 4000000 in
set_option maxRecDepth 16384 in
/-- Statements 961–986 of @main (window 16): one edge step of fusion layer 1. -/
theorem win_lr1_1 (W : Val) :
    ((after (RefRun.chunk16 (F := Ideal)) W) (Proc.devRef .tc main_v840) : S50000x128.Idx → EReal) =
      Spec.toVec2 (Spec.edgeStep (Spec.ofVec2 (a := 50000) (b := 128) (W (Proc.devRef .tc main_v528))) (Spec.ofVec2 (a := 50000) (b := 128) (W (Proc.devRef .tc main_v818)))
        (fun (e : Fin 5000) => (W (Proc.devRef .tc main_arg27) : S2x5000.Idx → BitVec 32) (ValueIdx.ix2 (1 : Fin 2) e))
        (fun (e : Fin 5000) => (W (Proc.devRef .tc main_arg28) : S2x5000.Idx → BitVec 32) (ValueIdx.ix2 (1 : Fin 2) e))
        (fun (p q : Fin 128) => (W (Proc.devRef .tc main_arg17) : S4x128x128.Idx → EReal) (ValueIdx.ix3 (1 : Fin 4) p q))) := by
  try simp only [RefRun.chunk16]
  after_results_simp
  try simp only [StableHlo.TRef.ofBuf, StableHlo.TRef.toBuf, cast_eq]
  exact RFuse.lrEdgePrinted_eq 1 1 (by decide) (by decide) ..

set_option maxHeartbeats 1000000 in
/-- The same between the buffers' final contents. -/
theorem st_lr1_1 (V : Val) :
    (Rv V (Proc.devRef .tc main_v840) : S50000x128.Idx → EReal) =
      Spec.toVec2 (Spec.edgeStep (Spec.ofVec2 (a := 50000) (b := 128) (Rv V (Proc.devRef .tc main_v528))) (Spec.ofVec2 (a := 50000) (b := 128) (Rv V (Proc.devRef .tc main_v818))) ((argsOfV V).lr_u 1) ((argsOfV V).lr_v 1) ((argsOfV V).fuse_right_w 1)) := by
  have e := win_lr1_1 (W16 V)
  have ho : Rv V (Proc.devRef .tc main_v840) = (after (RefRun.chunk16 (F := Ideal)) (W16 V)) (Proc.devRef .tc main_v840) := by
    rw [at16 V main_v840 ⟨by decide, by decide, by decide, by decide, by decide, by decide, by decide, by decide, by decide, by decide, by decide, by decide, by decide, by decide, by decide, by decide, by decide, by decide⟩]
  have hg : Rv V (Proc.devRef .tc main_v528) = W16 V (Proc.devRef .tc main_v528) := pre16 V main_v528 ⟨by decide, by decide, by decide, by decide, by decide, by decide, by decide, by decide, by decide, by decide, by decide, by decide, by decide, by decide, by decide, by decide, by decide, by decide, by decide⟩
  have ht : Rv V (Proc.devRef .tc main_v818) = W16 V (Proc.devRef .tc main_v818) := pre16 V main_v818 ⟨by decide, by decide, by decide, by decide, by decide, by decide, by decide, by decide, by decide, by decide, by decide, by decide, by decide, by decide, by decide, by decide, by decide, by decide, by decide⟩
  have ha27 : W16 V (Proc.devRef .tc main_arg27) = V (Proc.devRef .tc main_arg27) := argW16 V main_arg27 unw_arg27
  have ha28 : W16 V (Proc.devRef .tc main_arg28) = V (Proc.devRef .tc main_arg28) := argW16 V main_arg28 unw_arg28
  have ha17 : W16 V (Proc.devRef .tc main_arg17) = V (Proc.devRef .tc main_arg17) := argW16 V main_arg17 unw_arg17
  rw [← ho, ← hg, ← ht, ha27, ha28, ha17] at e
  exact e

set_option maxHeartbeats 4000000 in
set_option maxRecDepth 16384 in
/-- Statements 987–1049 of @main (windows 16–17): the node stage of fusion layer 1. -/
theorem win_node1 (W : Val) :
    ((after (RefRun.chunk17 (F := Ideal)) (after (RefRun.chunk16 (F := Ideal)) W)) (Proc.devRef .tc main_v895) : S50000x128.Idx → EReal) =
      Spec.toVec2 (Spec.ggTail (Spec.ofVec2 (a := 50000) (b := 128) ((after (RefRun.chunk17 (F := Ideal)) (after (RefRun.chunk16 (F := Ideal)) W)) (Proc.devRef .tc main_v840))) (Spec.ofVec2 (a := 50000) (b := 128) (W (Proc.devRef .tc main_v528)))
        (fun (q : Fin 128) => (W (Proc.devRef .tc main_arg18) : S4x2x128.Idx → EReal) (ValueIdx.ix3 (1 : Fin 4) (0 : Fin 2) q))
        (fun (q : Fin 128) => (W (Proc.devRef .tc main_arg18) : S4x2x128.Idx → EReal) (ValueIdx.ix3 (1 : Fin 4) (1 : Fin 2) q))
        (fun (p q : Fin 128) => (W (Proc.devRef .tc main_arg19) : S4x128x128.Idx → EReal) (ValueIdx.ix3 (1 : Fin 4) p q))
        (fun (q : Fin 128) => (W (Proc.devRef .tc main_arg20) : S4x2x128.Idx → EReal) (ValueIdx.ix3 (1 : Fin 4) (0 : Fin 2) q))
        (fun (q : Fin 128) => (W (Proc.devRef .tc main_arg20) : S4x2x128.Idx → EReal) (ValueIdx.ix3 (1 : Fin 4) (1 : Fin 2) q))) := by
  try simp only [RefRun.chunk16, RefRun.chunk17]
  after_results_simp
  try simp only [StableHlo.TRef.ofBuf, StableHlo.TRef.toBuf, cast_eq]
  exact RFuse.nodePrinted_eq 1 (by decide) ..

set_option maxHeartbeats 1000000 in
/-- The same between the buffers' final contents. -/
theorem st_node1 (V : Val) :
    (Rv V (Proc.devRef .tc main_v895) : S50000x128.Idx → EReal) =
      Spec.toVec2 (Spec.ggTail (Spec.ofVec2 (a := 50000) (b := 128) (Rv V (Proc.devRef .tc main_v840))) (Spec.ofVec2 (a := 50000) (b := 128) (Rv V (Proc.devRef .tc main_v528))) ((argsOfV V).fuse_norm_gn 1 0) ((argsOfV V).fuse_norm_gn 1 1) ((argsOfV V).fuse_ctr2_w 1) ((argsOfV V).fuse_ctr2_gn 1 0) ((argsOfV V).fuse_ctr2_gn 1 1)) := by
  have e := win_node1 (W16 V)
  have ho : Rv V (Proc.devRef .tc main_v895) = (after (RefRun.chunk17 (F := Ideal)) (after (RefRun.chunk16 (F := Ideal)) (W16 V))) (Proc.devRef .tc main_v895) := by
    rw [at17 V main_v895 ⟨by decide, by decide, by decide, by decide, by decide, by decide, by decide, by decide, by decide, by decide, by decide, by decide, by decide, by decide, by decide, by decide, by decide⟩, W17]
  have hg : Rv V (Proc.devRef .tc main_v528) = W16 V (Proc.devRef .tc main_v528) := pre16 V main_v528 ⟨by decide, by decide, by decide, by decide, by decide, by decide, by decide, by decide, by decide, by decide, by decide, by decide, by decide, by decide, by decide, by decide, by decide, by decide, by decide⟩
  have ht : Rv V (Proc.devRef .tc main_v840) = (after (RefRun.chunk17 (F := Ideal)) (after (RefRun.chunk16 (F := Ideal)) (W16 V))) (Proc.devRef .tc main_v840) := by
    rw [at17 V main_v840 ⟨by decide, by decide, by decide, by decide, by decide, by decide, by decide, by decide, by decide, by decide, by decide, by decide, by decide, by decide, by decide, by decide, by decide⟩, W17]
  have ha18 : W16 V (Proc.devRef .tc main_arg18) = V (Proc.devRef .tc main_arg18) := argW16 V main_arg18 unw_arg18
  have ha19 : W16 V (Proc.devRef .tc main_arg19) = V (Proc.devRef .tc main_arg19) := argW16 V main_arg19 unw_arg19
  have ha20 : W16 V (Proc.devRef .tc main_arg20) = V (Proc.devRef .tc main_arg20) := argW16 V main_arg20 unw_arg20
  rw [← ho, ← hg, ← ht, ha18, ha19, ha20] at e
  exact e

end Cert.RChain

end
-- ==== Proof.RChainL2a.lean ====
/-
  Fusion layer 2 of the reference, statements 1050–1131 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1050–1053 of @main (window 17): the centre product of fusion layer 2. -/
theorem win_ctr2 (W : Val) :
    ((after (RefRun.chunk17 (F := Ideal)) W) (Proc.devRef .tc main_v899) : S50000x128.Idx → EReal) =
      Spec.toVec2 (Spec.lin (Spec.ofVec2 (a := 50000) (b := 128) ((after (RefRun.chunk17 (F := Ideal)) W) (Proc.devRef .tc main_v895)))
        (fun (p q : Fin 128) => (W (Proc.devRef .tc main_arg14) : S4x128x128.Idx → EReal) (ValueIdx.ix3 (2 : Fin 4) p q))) := by
  try simp only [RefRun.chunk17]
  after_results_simp
  try simp only [StableHlo.TRef.ofBuf, StableHlo.TRef.toBuf, cast_eq]
  exact RFuse.ctrPrinted_eq 2 (by decide) ..

set_option maxHeartbeats 1000000 in
/-- The same between the buffers' final contents. -/
theorem st_ctr2 (V : Val) :
    (Rv V (Proc.devRef .tc main_v899) : S50000x128.Idx → EReal) =
      Spec.toVec2 (Spec.lin (Spec.ofVec2 (a := 50000) (b := 128) (Rv V (Proc.devRef .tc main_v895))) ((argsOfV V).fuse_ctr_w 2)) := by
  have e := win_ctr2 (W17 V)
  have ho : Rv V (Proc.devRef .tc main_v899) = (after (RefRun.chunk17 (F := Ideal)) (W17 V)) (Proc.devRef .tc main_v899) := by
    rw [at17 V main_v899 ⟨by decide, by decide, by decide, by decide, by decide, by decide, by decide, by decide, by decide, by decide, by decide, by decide, by decide, by decide, by decide, by decide, by decide⟩]
  have hg : Rv V (Proc.devRef .tc main_v895) = (after (RefRun.chunk17 (F := Ideal)) (W17 V)) (Proc.devRef .tc main_v895) := by
    rw [at17 V main_v895 ⟨by decide, by decide, by decide, by decide, by decide, by decide, by decide, by decide, by decide, by decide, by decide, by decide, by decide, by decide, by decide, by decide, by decide⟩]
  have ha14 : W17 V (Proc.devRef .tc main_arg14) = V (Proc.devRef .tc main_arg14) := argW17 V main_arg14 unw_arg14
  rw [← ho, ← hg, ha14] at e
  exact e

set_option maxHeartbeats 4000000 in
set_option maxRecDepth 16384 in
/-- Statements 1054–1079 of @main (window 17): one edge step of fusion layer 2. -/
theorem win_ps2_0 (W : Val) :
    ((after (RefRun.chunk17 (F := Ideal)) W) (Proc.devRef .tc main_v921) : S50000x128.Idx → EReal) =
      Spec.toVec2 (Spec.edgeStep (Spec.ofVec2 (a := 50000) (b := 128) ((after (RefRun.chunk17 (F := Ideal)) W) (Proc.devRef .tc main_v895))) (Spec.ofVec2 (a := 50000) (b := 128) ((after (RefRun.chunk17 (F := Ideal)) W) (Proc.devRef .tc main_v899)))
        (fun (e : Fin 50000) => (W (Proc.devRef .tc main_arg25) : S12x50000.Idx → BitVec 32) (ValueIdx.ix2 (0 : Fin 12) e))
        (fun (e : Fin 50000) => (W (Proc.devRef .tc main_arg26) : S12x50000.Idx → BitVec 32) (ValueIdx.ix2 (0 : Fin 12) e))
        (fun (p q : Fin 128) => (W (Proc.devRef .tc main_arg15) : S4x12x128x128.Idx → EReal) (ValueIdx.ix4 (2 : Fin 4) (0 : Fin 12) p q))) := by
  try simp only [RefRun.chunk17]
  after_results_simp
  try simp only [StableHlo.TRef.ofBuf, StableHlo.TRef.toBuf, cast_eq]
  exact RFuse.psEdgePrinted_eq 2 0 (by decide) (by decide) ..

set_option maxHeartbeats 1000000 in
/-- The same between the buffers' final contents. -/
theorem st_ps2_0 (V : Val) :
    (Rv V (Proc.devRef .tc main_v921) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v899))) ((argsOfV V).ps_u 0) ((argsOfV V).ps_v 0) ((argsOfV V).fuse_ps_w 2 0)) := by
  have e := win_ps2_0 (W17 V)
  have ho : Rv V (Proc.devRef .tc main_v921) = (after (RefRun.chunk17 (F := Ideal)) (W17 V)) (Proc.devRef .tc main_v921) := by
    rw [at17 V main_v921 ⟨by decide, by decide, by decide, by decide, by decide, by decide, by decide, by decide, by decide, by decide, by decide, by decide, by decide, by decide, by decide, by decide, by decide⟩]
  have hg : Rv V (Proc.devRef .tc main_v895) = (after (RefRun.chunk17 (F := Ideal)) (W17 V)) (Proc.devRef .tc main_v895) := by
    rw [at17 V main_v895 ⟨by decide, by decide, by decide, by decide, by decide, by decide, by decide, by decide, by decide, by decide, by decide, by decide, by decide, by decide, by decide, by decide, by decide⟩]
  have ht : Rv V (Proc.devRef .tc main_v899) = (after (RefRun.chunk17 (F := Ideal)) (W17 V)) (Proc.devRef .tc main_v899) := by
    rw [at17 V main_v899 ⟨by decide, by decide, by decide, by decide, by decide, by decide, by decide, by decide, by decide, by decide, by decide, by decide, by decide, by decide, by decide, by decide, by decide⟩]
  have ha25 : W17 V (Proc.devRef .tc main_arg25) = V (Proc.devRef .tc main_arg25) := argW17 V main_arg25 unw_arg25
  have ha26 : W17 V (Proc.devRef .tc main_arg26) = V (Proc.devRef .tc main_arg26) := argW17 V main_arg26 unw_arg26
  have ha15 : W17 V (Proc.devRef .tc main_arg15) = V (Proc.devRef .tc main_arg15) := argW17 V main_arg15 unw_arg15
  rw [← ho, ← hg, ← ht, ha25, ha26, ha15] at e
  exact e

set_option maxHeartbeats 4000000 in
set_option maxRecDepth 16384 in
/-- Statements 1080–1105 of @main (windows 17–18): one edge step of fusion layer 2. -/
theorem win_ps2_1 (W : Val) :
    ((after (RefRun.chunk18 (F := Ideal)) (after (RefRun.chunk17 (F := Ideal)) W)) (Proc.devRef .tc main_v943) : S50000x128.Idx → EReal) =
      Spec.toVec2 (Spec.edgeStep (Spec.ofVec2 (a := 50000) (b := 128) ((after (RefRun.chunk18 (F := Ideal)) (after (RefRun.chunk17 (F := Ideal)) W)) (Proc.devRef .tc main_v895))) (Spec.ofVec2 (a := 50000) (b := 128) ((after (RefRun.chunk18 (F := Ideal)) (after (RefRun.chunk17 (F := Ideal)) W)) (Proc.devRef .tc main_v921)))
        (fun (e : Fin 50000) => (W (Proc.devRef .tc main_arg25) : S12x50000.Idx → BitVec 32) (ValueIdx.ix2 (1 : Fin 12) e))
        (fun (e : Fin 50000) => (W (Proc.devRef .tc main_arg26) : S12x50000.Idx → BitVec 32) (ValueIdx.ix2 (1 : Fin 12) e))
        (fun (p q : Fin 128) => (W (Proc.devRef .tc main_arg15) : S4x12x128x128.Idx → EReal) (ValueIdx.ix4 (2 : Fin 4) (1 : Fin 12) p q))) := by
  try simp only [RefRun.chunk17, RefRun.chunk18]
  after_results_simp
  try simp only [StableHlo.TRef.ofBuf, StableHlo.TRef.toBuf, cast_eq]
  exact RFuse.psEdgePrinted_eq 2 1 (by decide) (by decide) ..

set_option maxHeartbeats 1000000 in
/-- The same between the buffers' final contents. -/
theorem st_ps2_1 (V : Val) :
    (Rv V (Proc.devRef .tc main_v943) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v921))) ((argsOfV V).ps_u 1) ((argsOfV V).ps_v 1) ((argsOfV V).fuse_ps_w 2 1)) := by
  have e := win_ps2_1 (W17 V)
  have ho : Rv V (Proc.devRef .tc main_v943) = (after (RefRun.chunk18 (F := Ideal)) (after (RefRun.chunk17 (F := Ideal)) (W17 V))) (Proc.devRef .tc main_v943) := by
    rw [at18 V main_v943 ⟨by decide, by decide, by decide, by decide, by decide, by decide, by decide, by decide, by decide, by decide, by decide, by decide, by decide, by decide, by decide, by decide⟩, W18]
  have hg : Rv V (Proc.devRef .tc main_v895) = (after (RefRun.chunk18 (F := Ideal)) (after (RefRun.chunk17 (F := Ideal)) (W17 V))) (Proc.devRef .tc main_v895) := by
    rw [at18 V main_v895 ⟨by decide, by decide, by decide, by decide, by decide, by decide, by decide, by decide, by decide, by decide, by decide, by decide, by decide, by decide, by decide, by decide⟩, W18]
  have ht : Rv V (Proc.devRef .tc main_v921) = (after (RefRun.chunk18 (F := Ideal)) (after (RefRun.chunk17 (F := Ideal)) (W17 V))) (Proc.devRef .tc main_v921) := by
    rw [at18 V main_v921 ⟨by decide, by decide, by decide, by decide, by decide, by decide, by decide, by decide, by decide, by decide, by decide, by decide, by decide, by decide, by decide, by decide⟩, W18]
  have ha25 : W17 V (Proc.devRef .tc main_arg25) = V (Proc.devRef .tc main_arg25) := argW17 V main_arg25 unw_arg25
  have ha26 : W17 V (Proc.devRef .tc main_arg26) = V (Proc.devRef .tc main_arg26) := argW17 V main_arg26 unw_arg26
  have ha15 : W17 V (Proc.devRef .tc main_arg15) = V (Proc.devRef .tc main_arg15) := argW17 V main_arg15 unw_arg15
  rw [← ho, ← hg, ← ht, ha25, ha26, ha15] at e
  exact e

set_option maxHeartbeats 4000000 in
set_option maxRecDepth 16384 in
/-- Statements 1106–1131 of @main (window 18): one edge step of fusion layer 2. -/
theorem win_ps2_2 (W : Val) :
    ((after (RefRun.chunk18 (F := Ideal)) W) (Proc.devRef .tc main_v965) : S50000x128.Idx → EReal) =
      Spec.toVec2 (Spec.edgeStep (Spec.ofVec2 (a := 50000) (b := 128) (W (Proc.devRef .tc main_v895))) (Spec.ofVec2 (a := 50000) (b := 128) ((after (RefRun.chunk18 (F := Ideal)) W) (Proc.devRef .tc main_v943)))
        (fun (e : Fin 50000) => (W (Proc.devRef .tc main_arg25) : S12x50000.Idx → BitVec 32) (ValueIdx.ix2 (2 : Fin 12) e))
        (fun (e : Fin 50000) => (W (Proc.devRef .tc main_arg26) : S12x50000.Idx → BitVec 32) (ValueIdx.ix2 (2 : Fin 12) e))
        (fun (p q : Fin 128) => (W (Proc.devRef .tc main_arg15) : S4x12x128x128.Idx → EReal) (ValueIdx.ix4 (2 : Fin 4) (2 : Fin 12) p q))) := by
  try simp only [RefRun.chunk18]
  after_results_simp
  try simp only [StableHlo.TRef.ofBuf, StableHlo.TRef.toBuf, cast_eq]
  exact RFuse.psEdgePrinted_eq 2 2 (by decide) (by decide) ..

set_option maxHeartbeats 1000000 in
/-- The same between the buffers' final contents. -/
theorem st_ps2_2 (V : Val) :
    (Rv V (Proc.devRef .tc main_v965) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v943))) ((argsOfV V).ps_u 2) ((argsOfV V).ps_v 2) ((argsOfV V).fuse_ps_w 2 2)) := by
  have e := win_ps2_2 (W18 V)
  have ho : Rv V (Proc.devRef .tc main_v965) = (after (RefRun.chunk18 (F := Ideal)) (W18 V)) (Proc.devRef .tc main_v965) := by
    rw [at18 V main_v965 ⟨by decide, by decide, by decide, by decide, by decide, by decide, by decide, by decide, by decide, by decide, by decide, by decide, by decide, by decide, by decide, by decide⟩]
  have hg : Rv V (Proc.devRef .tc main_v895) = W18 V (Proc.devRef .tc main_v895) := pre18 V main_v895 ⟨by decide, by decide, by decide, by decide, by decide, by decide, by decide, by decide, by decide, by decide, by decide, by decide, by decide, by decide, by decide, by decide, by decide⟩
  have ht : Rv V (Proc.devRef .tc main_v943) = (after (RefRun.chunk18 (F := Ideal)) (W18 V)) (Proc.devRef .tc main_v943) := by
    rw [at18 V main_v943 ⟨by decide, by decide, by decide, by decide, by decide, by decide, by decide, by decide, by decide, by decide, by decide, by decide, by decide, by decide, by decide, by decide⟩]
  have ha25 : W18 V (Proc.devRef .tc main_arg25) = V (Proc.devRef .tc main_arg25) := argW18 V main_arg25 unw_arg25
  have ha26 : W18 V (Proc.devRef .tc main_arg26) = V (Proc.devRef .tc main_arg26) := argW18 V main_arg26 unw_arg26
  have ha15 : W18 V (Proc.devRef .tc main_arg15) = V (Proc.devRef .tc main_arg15) := argW18 V main_arg15 unw_arg15
  rw [← ho, ← hg, ← ht, ha25, ha26, ha15] at e
  exact e

end Cert.RChain

end
-- ==== Proof.RChainL2b.lean ====
/-
  Fusion layer 2 of the reference, statements 1132–1235 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1132–1157 of @main (windows 18–19): one edge step of fusion layer 2. -/
theorem win_ps2_3 (W : Val) :
    ((after (RefRun.chunk19 (F := Ideal)) (after (RefRun.chunk18 (F := Ideal)) W)) (Proc.devRef .tc main_v987) : S50000x128.Idx → EReal) =
      Spec.toVec2 (Spec.edgeStep (Spec.ofVec2 (a := 50000) (b := 128) (W (Proc.devRef .tc main_v895))) (Spec.ofVec2 (a := 50000) (b := 128) ((after (RefRun.chunk19 (F := Ideal)) (after (RefRun.chunk18 (F := Ideal)) W)) (Proc.devRef .tc main_v965)))
        (fun (e : Fin 50000) => (W (Proc.devRef .tc main_arg25) : S12x50000.Idx → BitVec 32) (ValueIdx.ix2 (3 : Fin 12) e))
        (fun (e : Fin 50000) => (W (Proc.devRef .tc main_arg26) : S12x50000.Idx → BitVec 32) (ValueIdx.ix2 (3 : Fin 12) e))
        (fun (p q : Fin 128) => (W (Proc.devRef .tc main_arg15) : S4x12x128x128.Idx → EReal) (ValueIdx.ix4 (2 : Fin 4) (3 : Fin 12) p q))) := by
  try simp only [RefRun.chunk18, RefRun.chunk19]
  after_results_simp
  try simp only [StableHlo.TRef.ofBuf, StableHlo.TRef.toBuf, cast_eq]
  exact RFuse.psEdgePrinted_eq 2 3 (by decide) (by decide) ..

set_option maxHeartbeats 1000000 in
/-- The same between the buffers' final contents. -/
theorem st_ps2_3 (V : Val) :
    (Rv V (Proc.devRef .tc main_v987) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v965))) ((argsOfV V).ps_u 3) ((argsOfV V).ps_v 3) ((argsOfV V).fuse_ps_w 2 3)) := by
  have e := win_ps2_3 (W18 V)
  have ho : Rv V (Proc.devRef .tc main_v987) = (after (RefRun.chunk19 (F := Ideal)) (after (RefRun.chunk18 (F := Ideal)) (W18 V))) (Proc.devRef .tc main_v987) := by
    rw [at19 V main_v987 ⟨by decide, by decide, by decide, by decide, by decide, by decide, by decide, by decide, by decide, by decide, by decide, by decide, by decide, by decide, by decide⟩, W19]
  have hg : Rv V (Proc.devRef .tc main_v895) = W18 V (Proc.devRef .tc main_v895) := pre18 V main_v895 ⟨by decide, by decide, by decide, by decide, by decide, by decide, by decide, by decide, by decide, by decide, by decide, by decide, by decide, by decide, by decide, by decide, by decide⟩
  have ht : Rv V (Proc.devRef .tc main_v965) = (after (RefRun.chunk19 (F := Ideal)) (after (RefRun.chunk18 (F := Ideal)) (W18 V))) (Proc.devRef .tc main_v965) := by
    rw [at19 V main_v965 ⟨by decide, by decide, by decide, by decide, by decide, by decide, by decide, by decide, by decide, by decide, by decide, by decide, by decide, by decide, by decide⟩, W19]
  have ha25 : W18 V (Proc.devRef .tc main_arg25) = V (Proc.devRef .tc main_arg25) := argW18 V main_arg25 unw_arg25
  have ha26 : W18 V (Proc.devRef .tc main_arg26) = V (Proc.devRef .tc main_arg26) := argW18 V main_arg26 unw_arg26
  have ha15 : W18 V (Proc.devRef .tc main_arg15) = V (Proc.devRef .tc main_arg15) := argW18 V main_arg15 unw_arg15
  rw [← ho, ← hg, ← ht, ha25, ha26, ha15] at e
  exact e

set_option maxHeartbeats 4000000 in
set_option maxRecDepth 16384 in
/-- Statements 1158–1183 of @main (window 19): one edge step of fusion layer 2. -/
theorem win_ps2_4 (W : Val) :
    ((after (RefRun.chunk19 (F := Ideal)) W) (Proc.devRef .tc main_v1009) : S50000x128.Idx → EReal) =
      Spec.toVec2 (Spec.edgeStep (Spec.ofVec2 (a := 50000) (b := 128) (W (Proc.devRef .tc main_v895))) (Spec.ofVec2 (a := 50000) (b := 128) ((after (RefRun.chunk19 (F := Ideal)) W) (Proc.devRef .tc main_v987)))
        (fun (e : Fin 50000) => (W (Proc.devRef .tc main_arg25) : S12x50000.Idx → BitVec 32) (ValueIdx.ix2 (4 : Fin 12) e))
        (fun (e : Fin 50000) => (W (Proc.devRef .tc main_arg26) : S12x50000.Idx → BitVec 32) (ValueIdx.ix2 (4 : Fin 12) e))
        (fun (p q : Fin 128) => (W (Proc.devRef .tc main_arg15) : S4x12x128x128.Idx → EReal) (ValueIdx.ix4 (2 : Fin 4) (4 : Fin 12) p q))) := by
  try simp only [RefRun.chunk19]
  after_results_simp
  try simp only [StableHlo.TRef.ofBuf, StableHlo.TRef.toBuf, cast_eq]
  exact RFuse.psEdgePrinted_eq 2 4 (by decide) (by decide) ..

set_option maxHeartbeats 1000000 in
/-- The same between the buffers' final contents. -/
theorem st_ps2_4 (V : Val) :
    (Rv V (Proc.devRef .tc main_v1009) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v987))) ((argsOfV V).ps_u 4) ((argsOfV V).ps_v 4) ((argsOfV V).fuse_ps_w 2 4)) := by
  have e := win_ps2_4 (W19 V)
  have ho : Rv V (Proc.devRef .tc main_v1009) = (after (RefRun.chunk19 (F := Ideal)) (W19 V)) (Proc.devRef .tc main_v1009) := by
    rw [at19 V main_v1009 ⟨by decide, by decide, by decide, by decide, by decide, by decide, by decide, by decide, by decide, by decide, by decide, by decide, by decide, by decide, by decide⟩]
  have hg : Rv V (Proc.devRef .tc main_v895) = W19 V (Proc.devRef .tc main_v895) := pre19 V main_v895 ⟨by decide, by decide, by decide, by decide, by decide, by decide, by decide, by decide, by decide, by decide, by decide, by decide, by decide, by decide, by decide, by decide⟩
  have ht : Rv V (Proc.devRef .tc main_v987) = (after (RefRun.chunk19 (F := Ideal)) (W19 V)) (Proc.devRef .tc main_v987) := by
    rw [at19 V main_v987 ⟨by decide, by decide, by decide, by decide, by decide, by decide, by decide, by decide, by decide, by decide, by decide, by decide, by decide, by decide, by decide⟩]
  have ha25 : W19 V (Proc.devRef .tc main_arg25) = V (Proc.devRef .tc main_arg25) := argW19 V main_arg25 unw_arg25
  have ha26 : W19 V (Proc.devRef .tc main_arg26) = V (Proc.devRef .tc main_arg26) := argW19 V main_arg26 unw_arg26
  have ha15 : W19 V (Proc.devRef .tc main_arg15) = V (Proc.devRef .tc main_arg15) := argW19 V main_arg15 unw_arg15
  rw [← ho, ← hg, ← ht, ha25, ha26, ha15] at e
  exact e

set_option maxHeartbeats 4000000 in
set_option maxRecDepth 16384 in
/-- Statements 1184–1209 of @main (windows 19–20): one edge step of fusion layer 2. -/
theorem win_ps2_5 (W : Val) :
    ((after (RefRun.chunk20 (F := Ideal)) (after (RefRun.chunk19 (F := Ideal)) W)) (Proc.devRef .tc main_v1031) : S50000x128.Idx → EReal) =
      Spec.toVec2 (Spec.edgeStep (Spec.ofVec2 (a := 50000) (b := 128) (W (Proc.devRef .tc main_v895))) (Spec.ofVec2 (a := 50000) (b := 128) ((after (RefRun.chunk20 (F := Ideal)) (after (RefRun.chunk19 (F := Ideal)) W)) (Proc.devRef .tc main_v1009)))
        (fun (e : Fin 50000) => (W (Proc.devRef .tc main_arg25) : S12x50000.Idx → BitVec 32) (ValueIdx.ix2 (5 : Fin 12) e))
        (fun (e : Fin 50000) => (W (Proc.devRef .tc main_arg26) : S12x50000.Idx → BitVec 32) (ValueIdx.ix2 (5 : Fin 12) e))
        (fun (p q : Fin 128) => (W (Proc.devRef .tc main_arg15) : S4x12x128x128.Idx → EReal) (ValueIdx.ix4 (2 : Fin 4) (5 : Fin 12) p q))) := by
  try simp only [RefRun.chunk19, RefRun.chunk20]
  after_results_simp
  try simp only [StableHlo.TRef.ofBuf, StableHlo.TRef.toBuf, cast_eq]
  exact RFuse.psEdgePrinted_eq 2 5 (by decide) (by decide) ..

set_option maxHeartbeats 1000000 in
/-- The same between the buffers' final contents. -/
theorem st_ps2_5 (V : Val) :
    (Rv V (Proc.devRef .tc main_v1031) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1009))) ((argsOfV V).ps_u 5) ((argsOfV V).ps_v 5) ((argsOfV V).fuse_ps_w 2 5)) := by
  have e := win_ps2_5 (W19 V)
  have ho : Rv V (Proc.devRef .tc main_v1031) = (after (RefRun.chunk20 (F := Ideal)) (after (RefRun.chunk19 (F := Ideal)) (W19 V))) (Proc.devRef .tc main_v1031) := by
    rw [at20 V main_v1031 ⟨by decide, by decide, by decide, by decide, by decide, by decide, by decide, by decide, by decide, by decide, by decide, by decide, by decide, by decide⟩, W20]
  have hg : Rv V (Proc.devRef .tc main_v895) = W19 V (Proc.devRef .tc main_v895) := pre19 V main_v895 ⟨by decide, by decide, by decide, by decide, by decide, by decide, by decide, by decide, by decide, by decide, by decide, by decide, by decide, by decide, by decide, by decide⟩
  have ht : Rv V (Proc.devRef .tc main_v1009) = (after (RefRun.chunk20 (F := Ideal)) (after (RefRun.chunk19 (F := Ideal)) (W19 V))) (Proc.devRef .tc main_v1009) := by
    rw [at20 V main_v1009 ⟨by decide, by decide, by decide, by decide, by decide, by decide, by decide, by decide, by decide, by decide, by decide, by decide, by decide, by decide⟩, W20]
  have ha25 : W19 V (Proc.devRef .tc main_arg25) = V (Proc.devRef .tc main_arg25) := argW19 V main_arg25 unw_arg25
  have ha26 : W19 V (Proc.devRef .tc main_arg26) = V (Proc.devRef .tc main_arg26) := argW19 V main_arg26 unw_arg26
  have ha15 : W19 V (Proc.devRef .tc main_arg15) = V (Proc.devRef .tc main_arg15) := argW19 V main_arg15 unw_arg15
  rw [← ho, ← hg, ← ht, ha25, ha26, ha15] at e
  exact e

set_option maxHeartbeats 4000000 in
set_option maxRecDepth 16384 in
/-- Statements 1210–1235 of @main (window 20): one edge step of fusion layer 2. -/
theorem win_ps2_6 (W : Val) :
    ((after (RefRun.chunk20 (F := Ideal)) W) (Proc.devRef .tc main_v1053) : S50000x128.Idx → EReal) =
      Spec.toVec2 (Spec.edgeStep (Spec.ofVec2 (a := 50000) (b := 128) (W (Proc.devRef .tc main_v895))) (Spec.ofVec2 (a := 50000) (b := 128) ((after (RefRun.chunk20 (F := Ideal)) W) (Proc.devRef .tc main_v1031)))
        (fun (e : Fin 50000) => (W (Proc.devRef .tc main_arg25) : S12x50000.Idx → BitVec 32) (ValueIdx.ix2 (6 : Fin 12) e))
        (fun (e : Fin 50000) => (W (Proc.devRef .tc main_arg26) : S12x50000.Idx → BitVec 32) (ValueIdx.ix2 (6 : Fin 12) e))
        (fun (p q : Fin 128) => (W (Proc.devRef .tc main_arg15) : S4x12x128x128.Idx → EReal) (ValueIdx.ix4 (2 : Fin 4) (6 : Fin 12) p q))) := by
  try simp only [RefRun.chunk20]
  after_results_simp
  try simp only [StableHlo.TRef.ofBuf, StableHlo.TRef.toBuf, cast_eq]
  exact RFuse.psEdgePrinted_eq 2 6 (by decide) (by decide) ..

set_option maxHeartbeats 1000000 in
/-- The same between the buffers' final contents. -/
theorem st_ps2_6 (V : Val) :
    (Rv V (Proc.devRef .tc main_v1053) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1031))) ((argsOfV V).ps_u 6) ((argsOfV V).ps_v 6) ((argsOfV V).fuse_ps_w 2 6)) := by
  have e := win_ps2_6 (W20 V)
  have ho : Rv V (Proc.devRef .tc main_v1053) = (after (RefRun.chunk20 (F := Ideal)) (W20 V)) (Proc.devRef .tc main_v1053) := by
    rw [at20 V main_v1053 ⟨by decide, by decide, by decide, by decide, by decide, by decide, by decide, by decide, by decide, by decide, by decide, by decide, by decide, by decide⟩]
  have hg : Rv V (Proc.devRef .tc main_v895) = W20 V (Proc.devRef .tc main_v895) := pre20 V main_v895 ⟨by decide, by decide, by decide, by decide, by decide, by decide, by decide, by decide, by decide, by decide, by decide, by decide, by decide, by decide, by decide⟩
  have ht : Rv V (Proc.devRef .tc main_v1031) = (after (RefRun.chunk20 (F := Ideal)) (W20 V)) (Proc.devRef .tc main_v1031) := by
    rw [at20 V main_v1031 ⟨by decide, by decide, by decide, by decide, by decide, by decide, by decide, by decide, by decide, by decide, by decide, by decide, by decide, by decide⟩]
  have ha25 : W20 V (Proc.devRef .tc main_arg25) = V (Proc.devRef .tc main_arg25) := argW20 V main_arg25 unw_arg25
  have ha26 : W20 V (Proc.devRef .tc main_arg26) = V (Proc.devRef .tc main_arg26) := argW20 V main_arg26 unw_arg26
  have ha15 : W20 V (Proc.devRef .tc main_arg15) = V (Proc.devRef .tc main_arg15) := argW20 V main_arg15 unw_arg15
  rw [← ho, ← hg, ← ht, ha25, ha26, ha15] at e
  exact e

end Cert.RChain

end
-- ==== Proof.RChainL2c.lean ====
/-
  Fusion layer 2 of the reference, statements 1236–1339 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1236–1261 of @main (windows 20–21): one edge step of fusion layer 2. -/
theorem win_ps2_7 (W : Val) :
    ((after (RefRun.chunk21 (F := Ideal)) (after (RefRun.chunk20 (F := Ideal)) W)) (Proc.devRef .tc main_v1075) : S50000x128.Idx → EReal) =
      Spec.toVec2 (Spec.edgeStep (Spec.ofVec2 (a := 50000) (b := 128) (W (Proc.devRef .tc main_v895))) (Spec.ofVec2 (a := 50000) (b := 128) ((after (RefRun.chunk21 (F := Ideal)) (after (RefRun.chunk20 (F := Ideal)) W)) (Proc.devRef .tc main_v1053)))
        (fun (e : Fin 50000) => (W (Proc.devRef .tc main_arg25) : S12x50000.Idx → BitVec 32) (ValueIdx.ix2 (7 : Fin 12) e))
        (fun (e : Fin 50000) => (W (Proc.devRef .tc main_arg26) : S12x50000.Idx → BitVec 32) (ValueIdx.ix2 (7 : Fin 12) e))
        (fun (p q : Fin 128) => (W (Proc.devRef .tc main_arg15) : S4x12x128x128.Idx → EReal) (ValueIdx.ix4 (2 : Fin 4) (7 : Fin 12) p q))) := by
  try simp only [RefRun.chunk20, RefRun.chunk21]
  after_results_simp
  try simp only [StableHlo.TRef.ofBuf, StableHlo.TRef.toBuf, cast_eq]
  exact RFuse.psEdgePrinted_eq 2 7 (by decide) (by decide) ..

set_option maxHeartbeats 1000000 in
/-- The same between the buffers' final contents. -/
theorem st_ps2_7 (V : Val) :
    (Rv V (Proc.devRef .tc main_v1075) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1053))) ((argsOfV V).ps_u 7) ((argsOfV V).ps_v 7) ((argsOfV V).fuse_ps_w 2 7)) := by
  have e := win_ps2_7 (W20 V)
  have ho : Rv V (Proc.devRef .tc main_v1075) = (after (RefRun.chunk21 (F := Ideal)) (after (RefRun.chunk20 (F := Ideal)) (W20 V))) (Proc.devRef .tc main_v1075) := by
    rw [at21 V main_v1075 ⟨by decide, by decide, by decide, by decide, by decide, by decide, by decide, by decide, by decide, by decide, by decide, by decide, by decide⟩, W21]
  have hg : Rv V (Proc.devRef .tc main_v895) = W20 V (Proc.devRef .tc main_v895) := pre20 V main_v895 ⟨by decide, by decide, by decide, by decide, by decide, by decide, by decide, by decide, by decide, by decide, by decide, by decide, by decide, by decide, by decide⟩
  have ht : Rv V (Proc.devRef .tc main_v1053) = (after (RefRun.chunk21 (F := Ideal)) (after (RefRun.chunk20 (F := Ideal)) (W20 V))) (Proc.devRef .tc main_v1053) := by
    rw [at21 V main_v1053 ⟨by decide, by decide, by decide, by decide, by decide, by decide, by decide, by decide, by decide, by decide, by decide, by decide, by decide⟩, W21]
  have ha25 : W20 V (Proc.devRef .tc main_arg25) = V (Proc.devRef .tc main_arg25) := argW20 V main_arg25 unw_arg25
  have ha26 : W20 V (Proc.devRef .tc main_arg26) = V (Proc.devRef .tc main_arg26) := argW20 V main_arg26 unw_arg26
  have ha15 : W20 V (Proc.devRef .tc main_arg15) = V (Proc.devRef .tc main_arg15) := argW20 V main_arg15 unw_arg15
  rw [← ho, ← hg, ← ht, ha25, ha26, ha15] at e
  exact e

set_option maxHeartbeats 4000000 in
set_option maxRecDepth 16384 in
/-- Statements 1262–1287 of @main (window 21): one edge step of fusion layer 2. -/
theorem win_ps2_8 (W : Val) :
    ((after (RefRun.chunk21 (F := Ideal)) W) (Proc.devRef .tc main_v1097) : S50000x128.Idx → EReal) =
      Spec.toVec2 (Spec.edgeStep (Spec.ofVec2 (a := 50000) (b := 128) (W (Proc.devRef .tc main_v895))) (Spec.ofVec2 (a := 50000) (b := 128) ((after (RefRun.chunk21 (F := Ideal)) W) (Proc.devRef .tc main_v1075)))
        (fun (e : Fin 50000) => (W (Proc.devRef .tc main_arg25) : S12x50000.Idx → BitVec 32) (ValueIdx.ix2 (8 : Fin 12) e))
        (fun (e : Fin 50000) => (W (Proc.devRef .tc main_arg26) : S12x50000.Idx → BitVec 32) (ValueIdx.ix2 (8 : Fin 12) e))
        (fun (p q : Fin 128) => (W (Proc.devRef .tc main_arg15) : S4x12x128x128.Idx → EReal) (ValueIdx.ix4 (2 : Fin 4) (8 : Fin 12) p q))) := by
  try simp only [RefRun.chunk21]
  after_results_simp
  try simp only [StableHlo.TRef.ofBuf, StableHlo.TRef.toBuf, cast_eq]
  exact RFuse.psEdgePrinted_eq 2 8 (by decide) (by decide) ..

set_option maxHeartbeats 1000000 in
/-- The same between the buffers' final contents. -/
theorem st_ps2_8 (V : Val) :
    (Rv V (Proc.devRef .tc main_v1097) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1075))) ((argsOfV V).ps_u 8) ((argsOfV V).ps_v 8) ((argsOfV V).fuse_ps_w 2 8)) := by
  have e := win_ps2_8 (W21 V)
  have ho : Rv V (Proc.devRef .tc main_v1097) = (after (RefRun.chunk21 (F := Ideal)) (W21 V)) (Proc.devRef .tc main_v1097) := by
    rw [at21 V main_v1097 ⟨by decide, by decide, by decide, by decide, by decide, by decide, by decide, by decide, by decide, by decide, by decide, by decide, by decide⟩]
  have hg : Rv V (Proc.devRef .tc main_v895) = W21 V (Proc.devRef .tc main_v895) := pre21 V main_v895 ⟨by decide, by decide, by decide, by decide, by decide, by decide, by decide, by decide, by decide, by decide, by decide, by decide, by decide, by decide⟩
  have ht : Rv V (Proc.devRef .tc main_v1075) = (after (RefRun.chunk21 (F := Ideal)) (W21 V)) (Proc.devRef .tc main_v1075) := by
    rw [at21 V main_v1075 ⟨by decide, by decide, by decide, by decide, by decide, by decide, by decide, by decide, by decide, by decide, by decide, by decide, by decide⟩]
  have ha25 : W21 V (Proc.devRef .tc main_arg25) = V (Proc.devRef .tc main_arg25) := argW21 V main_arg25 unw_arg25
  have ha26 : W21 V (Proc.devRef .tc main_arg26) = V (Proc.devRef .tc main_arg26) := argW21 V main_arg26 unw_arg26
  have ha15 : W21 V (Proc.devRef .tc main_arg15) = V (Proc.devRef .tc main_arg15) := argW21 V main_arg15 unw_arg15
  rw [← ho, ← hg, ← ht, ha25, ha26, ha15] at e
  exact e

set_option maxHeartbeats 4000000 in
set_option maxRecDepth 16384 in
/-- Statements 1288–1313 of @main (window 21): one edge step of fusion layer 2. -/
theorem win_ps2_9 (W : Val) :
    ((after (RefRun.chunk21 (F := Ideal)) W) (Proc.devRef .tc main_v1119) : S50000x128.Idx → EReal) =
      Spec.toVec2 (Spec.edgeStep (Spec.ofVec2 (a := 50000) (b := 128) (W (Proc.devRef .tc main_v895))) (Spec.ofVec2 (a := 50000) (b := 128) ((after (RefRun.chunk21 (F := Ideal)) W) (Proc.devRef .tc main_v1097)))
        (fun (e : Fin 50000) => (W (Proc.devRef .tc main_arg25) : S12x50000.Idx → BitVec 32) (ValueIdx.ix2 (9 : Fin 12) e))
        (fun (e : Fin 50000) => (W (Proc.devRef .tc main_arg26) : S12x50000.Idx → BitVec 32) (ValueIdx.ix2 (9 : Fin 12) e))
        (fun (p q : Fin 128) => (W (Proc.devRef .tc main_arg15) : S4x12x128x128.Idx → EReal) (ValueIdx.ix4 (2 : Fin 4) (9 : Fin 12) p q))) := by
  try simp only [RefRun.chunk21]
  after_results_simp
  try simp only [StableHlo.TRef.ofBuf, StableHlo.TRef.toBuf, cast_eq]
  exact RFuse.psEdgePrinted_eq 2 9 (by decide) (by decide) ..

set_option maxHeartbeats 1000000 in
/-- The same between the buffers' final contents. -/
theorem st_ps2_9 (V : Val) :
    (Rv V (Proc.devRef .tc main_v1119) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1097))) ((argsOfV V).ps_u 9) ((argsOfV V).ps_v 9) ((argsOfV V).fuse_ps_w 2 9)) := by
  have e := win_ps2_9 (W21 V)
  have ho : Rv V (Proc.devRef .tc main_v1119) = (after (RefRun.chunk21 (F := Ideal)) (W21 V)) (Proc.devRef .tc main_v1119) := by
    rw [at21 V main_v1119 ⟨by decide, by decide, by decide, by decide, by decide, by decide, by decide, by decide, by decide, by decide, by decide, by decide, by decide⟩]
  have hg : Rv V (Proc.devRef .tc main_v895) = W21 V (Proc.devRef .tc main_v895) := pre21 V main_v895 ⟨by decide, by decide, by decide, by decide, by decide, by decide, by decide, by decide, by decide, by decide, by decide, by decide, by decide, by decide⟩
  have ht : Rv V (Proc.devRef .tc main_v1097) = (after (RefRun.chunk21 (F := Ideal)) (W21 V)) (Proc.devRef .tc main_v1097) := by
    rw [at21 V main_v1097 ⟨by decide, by decide, by decide, by decide, by decide, by decide, by decide, by decide, by decide, by decide, by decide, by decide, by decide⟩]
  have ha25 : W21 V (Proc.devRef .tc main_arg25) = V (Proc.devRef .tc main_arg25) := argW21 V main_arg25 unw_arg25
  have ha26 : W21 V (Proc.devRef .tc main_arg26) = V (Proc.devRef .tc main_arg26) := argW21 V main_arg26 unw_arg26
  have ha15 : W21 V (Proc.devRef .tc main_arg15) = V (Proc.devRef .tc main_arg15) := argW21 V main_arg15 unw_arg15
  rw [← ho, ← hg, ← ht, ha25, ha26, ha15] at e
  exact e

set_option maxHeartbeats 4000000 in
set_option maxRecDepth 16384 in
/-- Statements 1314–1339 of @main (windows 21–22): one edge step of fusion layer 2. -/
theorem win_ps2_10 (W : Val) :
    ((after (RefRun.chunk22 (F := Ideal)) (after (RefRun.chunk21 (F := Ideal)) W)) (Proc.devRef .tc main_v1141) : S50000x128.Idx → EReal) =
      Spec.toVec2 (Spec.edgeStep (Spec.ofVec2 (a := 50000) (b := 128) (W (Proc.devRef .tc main_v895))) (Spec.ofVec2 (a := 50000) (b := 128) ((after (RefRun.chunk22 (F := Ideal)) (after (RefRun.chunk21 (F := Ideal)) W)) (Proc.devRef .tc main_v1119)))
        (fun (e : Fin 50000) => (W (Proc.devRef .tc main_arg25) : S12x50000.Idx → BitVec 32) (ValueIdx.ix2 (10 : Fin 12) e))
        (fun (e : Fin 50000) => (W (Proc.devRef .tc main_arg26) : S12x50000.Idx → BitVec 32) (ValueIdx.ix2 (10 : Fin 12) e))
        (fun (p q : Fin 128) => (W (Proc.devRef .tc main_arg15) : S4x12x128x128.Idx → EReal) (ValueIdx.ix4 (2 : Fin 4) (10 : Fin 12) p q))) := by
  try simp only [RefRun.chunk21, RefRun.chunk22]
  after_results_simp
  try simp only [StableHlo.TRef.ofBuf, StableHlo.TRef.toBuf, cast_eq]
  exact RFuse.psEdgePrinted_eq 2 10 (by decide) (by decide) ..

set_option maxHeartbeats 1000000 in
/-- The same between the buffers' final contents. -/
theorem st_ps2_10 (V : Val) :
    (Rv V (Proc.devRef .tc main_v1141) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1119))) ((argsOfV V).ps_u 10) ((argsOfV V).ps_v 10) ((argsOfV V).fuse_ps_w 2 10)) := by
  have e := win_ps2_10 (W21 V)
  have ho : Rv V (Proc.devRef .tc main_v1141) = (after (RefRun.chunk22 (F := Ideal)) (after (RefRun.chunk21 (F := Ideal)) (W21 V))) (Proc.devRef .tc main_v1141) := by
    rw [at22 V main_v1141 ⟨by decide, by decide, by decide, by decide, by decide, by decide, by decide, by decide, by decide, by decide, by decide, by decide⟩, W22]
  have hg : Rv V (Proc.devRef .tc main_v895) = W21 V (Proc.devRef .tc main_v895) := pre21 V main_v895 ⟨by decide, by decide, by decide, by decide, by decide, by decide, by decide, by decide, by decide, by decide, by decide, by decide, by decide, by decide⟩
  have ht : Rv V (Proc.devRef .tc main_v1119) = (after (RefRun.chunk22 (F := Ideal)) (after (RefRun.chunk21 (F := Ideal)) (W21 V))) (Proc.devRef .tc main_v1119) := by
    rw [at22 V main_v1119 ⟨by decide, by decide, by decide, by decide, by decide, by decide, by decide, by decide, by decide, by decide, by decide, by decide⟩, W22]
  have ha25 : W21 V (Proc.devRef .tc main_arg25) = V (Proc.devRef .tc main_arg25) := argW21 V main_arg25 unw_arg25
  have ha26 : W21 V (Proc.devRef .tc main_arg26) = V (Proc.devRef .tc main_arg26) := argW21 V main_arg26 unw_arg26
  have ha15 : W21 V (Proc.devRef .tc main_arg15) = V (Proc.devRef .tc main_arg15) := argW21 V main_arg15 unw_arg15
  rw [← ho, ← hg, ← ht, ha25, ha26, ha15] at e
  exact e

end Cert.RChain

end
-- ==== Proof.RChainL2d.lean ====
/-
  Fusion layer 2 of the reference, statements 1340–1480 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1340–1365 of @main (window 22): one edge step of fusion layer 2. -/
theorem win_ps2_11 (W : Val) :
    ((after (RefRun.chunk22 (F := Ideal)) W) (Proc.devRef .tc main_v1163) : S50000x128.Idx → EReal) =
      Spec.toVec2 (Spec.edgeStep (Spec.ofVec2 (a := 50000) (b := 128) (W (Proc.devRef .tc main_v895))) (Spec.ofVec2 (a := 50000) (b := 128) ((after (RefRun.chunk22 (F := Ideal)) W) (Proc.devRef .tc main_v1141)))
        (fun (e : Fin 50000) => (W (Proc.devRef .tc main_arg25) : S12x50000.Idx → BitVec 32) (ValueIdx.ix2 (11 : Fin 12) e))
        (fun (e : Fin 50000) => (W (Proc.devRef .tc main_arg26) : S12x50000.Idx → BitVec 32) (ValueIdx.ix2 (11 : Fin 12) e))
        (fun (p q : Fin 128) => (W (Proc.devRef .tc main_arg15) : S4x12x128x128.Idx → EReal) (ValueIdx.ix4 (2 : Fin 4) (11 : Fin 12) p q))) := by
  try simp only [RefRun.chunk22]
  after_results_simp
  try simp only [StableHlo.TRef.ofBuf, StableHlo.TRef.toBuf, cast_eq]
  exact RFuse.psEdgePrinted_eq 2 11 (by decide) (by decide) ..

set_option maxHeartbeats 1000000 in
/-- The same between the buffers' final contents. -/
theorem st_ps2_11 (V : Val) :
    (Rv V (Proc.devRef .tc main_v1163) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1141))) ((argsOfV V).ps_u 11) ((argsOfV V).ps_v 11) ((argsOfV V).fuse_ps_w 2 11)) := by
  have e := win_ps2_11 (W22 V)
  have ho : Rv V (Proc.devRef .tc main_v1163) = (after (RefRun.chunk22 (F := Ideal)) (W22 V)) (Proc.devRef .tc main_v1163) := by
    rw [at22 V main_v1163 ⟨by decide, by decide, by decide, by decide, by decide, by decide, by decide, by decide, by decide, by decide, by decide, by decide⟩]
  have hg : Rv V (Proc.devRef .tc main_v895) = W22 V (Proc.devRef .tc main_v895) := pre22 V main_v895 ⟨by decide, by decide, by decide, by decide, by decide, by decide, by decide, by decide, by decide, by decide, by decide, by decide, by decide⟩
  have ht : Rv V (Proc.devRef .tc main_v1141) = (after (RefRun.chunk22 (F := Ideal)) (W22 V)) (Proc.devRef .tc main_v1141) := by
    rw [at22 V main_v1141 ⟨by decide, by decide, by decide, by decide, by decide, by decide, by decide, by decide, by decide, by decide, by decide, by decide⟩]
  have ha25 : W22 V (Proc.devRef .tc main_arg25) = V (Proc.devRef .tc main_arg25) := argW22 V main_arg25 unw_arg25
  have ha26 : W22 V (Proc.devRef .tc main_arg26) = V (Proc.devRef .tc main_arg26) := argW22 V main_arg26 unw_arg26
  have ha15 : W22 V (Proc.devRef .tc main_arg15) = V (Proc.devRef .tc main_arg15) := argW22 V main_arg15 unw_arg15
  rw [← ho, ← hg, ← ht, ha25, ha26, ha15] at e
  exact e

set_option maxHeartbeats 4000000 in
set_option maxRecDepth 16384 in
/-- Statements 1366–1391 of @main (windows 22–23): one edge step of fusion layer 2. -/
theorem win_lr2_0 (W : Val) :
    ((after (RefRun.chunk23 (F := Ideal)) (after (RefRun.chunk22 (F := Ideal)) W)) (Proc.devRef .tc main_v1185) : S50000x128.Idx → EReal) =
      Spec.toVec2 (Spec.edgeStep (Spec.ofVec2 (a := 50000) (b := 128) (W (Proc.devRef .tc main_v895))) (Spec.ofVec2 (a := 50000) (b := 128) ((after (RefRun.chunk23 (F := Ideal)) (after (RefRun.chunk22 (F := Ideal)) W)) (Proc.devRef .tc main_v1163)))
        (fun (e : Fin 5000) => (W (Proc.devRef .tc main_arg27) : S2x5000.Idx → BitVec 32) (ValueIdx.ix2 (0 : Fin 2) e))
        (fun (e : Fin 5000) => (W (Proc.devRef .tc main_arg28) : S2x5000.Idx → BitVec 32) (ValueIdx.ix2 (0 : Fin 2) e))
        (fun (p q : Fin 128) => (W (Proc.devRef .tc main_arg16) : S4x128x128.Idx → EReal) (ValueIdx.ix3 (2 : Fin 4) p q))) := by
  try simp only [RefRun.chunk22, RefRun.chunk23]
  after_results_simp
  try simp only [StableHlo.TRef.ofBuf, StableHlo.TRef.toBuf, cast_eq]
  exact RFuse.lrEdgePrinted_eq 2 0 (by decide) (by decide) ..

set_option maxHeartbeats 1000000 in
/-- The same between the buffers' final contents. -/
theorem st_lr2_0 (V : Val) :
    (Rv V (Proc.devRef .tc main_v1185) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1163))) ((argsOfV V).lr_u 0) ((argsOfV V).lr_v 0) ((argsOfV V).fuse_left_w 2)) := by
  have e := win_lr2_0 (W22 V)
  have ho : Rv V (Proc.devRef .tc main_v1185) = (after (RefRun.chunk23 (F := Ideal)) (after (RefRun.chunk22 (F := Ideal)) (W22 V))) (Proc.devRef .tc main_v1185) := by
    rw [at23 V main_v1185 ⟨by decide, by decide, by decide, by decide, by decide, by decide, by decide, by decide, by decide, by decide, by decide⟩, W23]
  have hg : Rv V (Proc.devRef .tc main_v895) = W22 V (Proc.devRef .tc main_v895) := pre22 V main_v895 ⟨by decide, by decide, by decide, by decide, by decide, by decide, by decide, by decide, by decide, by decide, by decide, by decide, by decide⟩
  have ht : Rv V (Proc.devRef .tc main_v1163) = (after (RefRun.chunk23 (F := Ideal)) (after (RefRun.chunk22 (F := Ideal)) (W22 V))) (Proc.devRef .tc main_v1163) := by
    rw [at23 V main_v1163 ⟨by decide, by decide, by decide, by decide, by decide, by decide, by decide, by decide, by decide, by decide, by decide⟩, W23]
  have ha27 : W22 V (Proc.devRef .tc main_arg27) = V (Proc.devRef .tc main_arg27) := argW22 V main_arg27 unw_arg27
  have ha28 : W22 V (Proc.devRef .tc main_arg28) = V (Proc.devRef .tc main_arg28) := argW22 V main_arg28 unw_arg28
  have ha16 : W22 V (Proc.devRef .tc main_arg16) = V (Proc.devRef .tc main_arg16) := argW22 V main_arg16 unw_arg16
  rw [← ho, ← hg, ← ht, ha27, ha28, ha16] at e
  exact e

set_option maxHeartbeats 4000000 in
set_option maxRecDepth 16384 in
/-- Statements 1392–1417 of @main (window 23): one edge step of fusion layer 2. -/
theorem win_lr2_1 (W : Val) :
    ((after (RefRun.chunk23 (F := Ideal)) W) (Proc.devRef .tc main_v1207) : S50000x128.Idx → EReal) =
      Spec.toVec2 (Spec.edgeStep (Spec.ofVec2 (a := 50000) (b := 128) (W (Proc.devRef .tc main_v895))) (Spec.ofVec2 (a := 50000) (b := 128) ((after (RefRun.chunk23 (F := Ideal)) W) (Proc.devRef .tc main_v1185)))
        (fun (e : Fin 5000) => (W (Proc.devRef .tc main_arg27) : S2x5000.Idx → BitVec 32) (ValueIdx.ix2 (1 : Fin 2) e))
        (fun (e : Fin 5000) => (W (Proc.devRef .tc main_arg28) : S2x5000.Idx → BitVec 32) (ValueIdx.ix2 (1 : Fin 2) e))
        (fun (p q : Fin 128) => (W (Proc.devRef .tc main_arg17) : S4x128x128.Idx → EReal) (ValueIdx.ix3 (2 : Fin 4) p q))) := by
  try simp only [RefRun.chunk23]
  after_results_simp
  try simp only [StableHlo.TRef.ofBuf, StableHlo.TRef.toBuf, cast_eq]
  exact RFuse.lrEdgePrinted_eq 2 1 (by decide) (by decide) ..

set_option maxHeartbeats 1000000 in
/-- The same between the buffers' final contents. -/
theorem st_lr2_1 (V : Val) :
    (Rv V (Proc.devRef .tc main_v1207) : S50000x128.Idx → EReal) =
      Spec.toVec2 (Spec.edgeStep (Spec.ofVec2 (a := 50000) (b := 128) (Rv V (Proc.devRef .tc main_v895))) (Spec.ofVec2 (a := 50000) (b := 128) (Rv V (Proc.devRef .tc main_v1185))) ((argsOfV V).lr_u 1) ((argsOfV V).lr_v 1) ((argsOfV V).fuse_right_w 2)) := by
  have e := win_lr2_1 (W23 V)
  have ho : Rv V (Proc.devRef .tc main_v1207) = (after (RefRun.chunk23 (F := Ideal)) (W23 V)) (Proc.devRef .tc main_v1207) := by
    rw [at23 V main_v1207 ⟨by decide, by decide, by decide, by decide, by decide, by decide, by decide, by decide, by decide, by decide, by decide⟩]
  have hg : Rv V (Proc.devRef .tc main_v895) = W23 V (Proc.devRef .tc main_v895) := pre23 V main_v895 ⟨by decide, by decide, by decide, by decide, by decide, by decide, by decide, by decide, by decide, by decide, by decide, by decide⟩
  have ht : Rv V (Proc.devRef .tc main_v1185) = (after (RefRun.chunk23 (F := Ideal)) (W23 V)) (Proc.devRef .tc main_v1185) := by
    rw [at23 V main_v1185 ⟨by decide, by decide, by decide, by decide, by decide, by decide, by decide, by decide, by decide, by decide, by decide⟩]
  have ha27 : W23 V (Proc.devRef .tc main_arg27) = V (Proc.devRef .tc main_arg27) := argW23 V main_arg27 unw_arg27
  have ha28 : W23 V (Proc.devRef .tc main_arg28) = V (Proc.devRef .tc main_arg28) := argW23 V main_arg28 unw_arg28
  have ha17 : W23 V (Proc.devRef .tc main_arg17) = V (Proc.devRef .tc main_arg17) := argW23 V main_arg17 unw_arg17
  rw [← ho, ← hg, ← ht, ha27, ha28, ha17] at e
  exact e

set_option maxHeartbeats 4000000 in
set_option maxRecDepth 16384 in
/-- Statements 1418–1480 of @main (windows 23–24): the node stage of fusion layer 2. -/
theorem win_node2 (W : Val) :
    ((after (RefRun.chunk24 (F := Ideal)) (after (RefRun.chunk23 (F := Ideal)) W)) (Proc.devRef .tc main_v1262) : S50000x128.Idx → EReal) =
      Spec.toVec2 (Spec.ggTail (Spec.ofVec2 (a := 50000) (b := 128) ((after (RefRun.chunk24 (F := Ideal)) (after (RefRun.chunk23 (F := Ideal)) W)) (Proc.devRef .tc main_v1207))) (Spec.ofVec2 (a := 50000) (b := 128) (W (Proc.devRef .tc main_v895)))
        (fun (q : Fin 128) => (W (Proc.devRef .tc main_arg18) : S4x2x128.Idx → EReal) (ValueIdx.ix3 (2 : Fin 4) (0 : Fin 2) q))
        (fun (q : Fin 128) => (W (Proc.devRef .tc main_arg18) : S4x2x128.Idx → EReal) (ValueIdx.ix3 (2 : Fin 4) (1 : Fin 2) q))
        (fun (p q : Fin 128) => (W (Proc.devRef .tc main_arg19) : S4x128x128.Idx → EReal) (ValueIdx.ix3 (2 : Fin 4) p q))
        (fun (q : Fin 128) => (W (Proc.devRef .tc main_arg20) : S4x2x128.Idx → EReal) (ValueIdx.ix3 (2 : Fin 4) (0 : Fin 2) q))
        (fun (q : Fin 128) => (W (Proc.devRef .tc main_arg20) : S4x2x128.Idx → EReal) (ValueIdx.ix3 (2 : Fin 4) (1 : Fin 2) q))) := by
  try simp only [RefRun.chunk23, RefRun.chunk24]
  after_results_simp
  try simp only [StableHlo.TRef.ofBuf, StableHlo.TRef.toBuf, cast_eq]
  exact RFuse.nodePrinted_eq 2 (by decide) ..

set_option maxHeartbeats 1000000 in
/-- The same between the buffers' final contents. -/
theorem st_node2 (V : Val) :
    (Rv V (Proc.devRef .tc main_v1262) : S50000x128.Idx → EReal) =
      Spec.toVec2 (Spec.ggTail (Spec.ofVec2 (a := 50000) (b := 128) (Rv V (Proc.devRef .tc main_v1207))) (Spec.ofVec2 (a := 50000) (b := 128) (Rv V (Proc.devRef .tc main_v895))) ((argsOfV V).fuse_norm_gn 2 0) ((argsOfV V).fuse_norm_gn 2 1) ((argsOfV V).fuse_ctr2_w 2) ((argsOfV V).fuse_ctr2_gn 2 0) ((argsOfV V).fuse_ctr2_gn 2 1)) := by
  have e := win_node2 (W23 V)
  have ho : Rv V (Proc.devRef .tc main_v1262) = (after (RefRun.chunk24 (F := Ideal)) (after (RefRun.chunk23 (F := Ideal)) (W23 V))) (Proc.devRef .tc main_v1262) := by
    rw [at24 V main_v1262 ⟨by decide, by decide, by decide, by decide, by decide, by decide, by decide, by decide, by decide, by decide⟩, W24]
  have hg : Rv V (Proc.devRef .tc main_v895) = W23 V (Proc.devRef .tc main_v895) := pre23 V main_v895 ⟨by decide, by decide, by decide, by decide, by decide, by decide, by decide, by decide, by decide, by decide, by decide, by decide⟩
  have ht : Rv V (Proc.devRef .tc main_v1207) = (after (RefRun.chunk24 (F := Ideal)) (after (RefRun.chunk23 (F := Ideal)) (W23 V))) (Proc.devRef .tc main_v1207) := by
    rw [at24 V main_v1207 ⟨by decide, by decide, by decide, by decide, by decide, by decide, by decide, by decide, by decide, by decide⟩, W24]
  have ha18 : W23 V (Proc.devRef .tc main_arg18) = V (Proc.devRef .tc main_arg18) := argW23 V main_arg18 unw_arg18
  have ha19 : W23 V (Proc.devRef .tc main_arg19) = V (Proc.devRef .tc main_arg19) := argW23 V main_arg19 unw_arg19
  have ha20 : W23 V (Proc.devRef .tc main_arg20) = V (Proc.devRef .tc main_arg20) := argW23 V main_arg20 unw_arg20
  rw [← ho, ← hg, ← ht, ha18, ha19, ha20] at e
  exact e

end Cert.RChain

end
-- ==== Proof.RChainL3a.lean ====
/-
  Fusion layer 3 of the reference, statements 1481–1562 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1481–1484 of @main (window 24): the centre product of fusion layer 3. -/
theorem win_ctr3 (W : Val) :
    ((after (RefRun.chunk24 (F := Ideal)) W) (Proc.devRef .tc main_v1266) : S50000x128.Idx → EReal) =
      Spec.toVec2 (Spec.lin (Spec.ofVec2 (a := 50000) (b := 128) ((after (RefRun.chunk24 (F := Ideal)) W) (Proc.devRef .tc main_v1262)))
        (fun (p q : Fin 128) => (W (Proc.devRef .tc main_arg14) : S4x128x128.Idx → EReal) (ValueIdx.ix3 (3 : Fin 4) p q))) := by
  try simp only [RefRun.chunk24]
  after_results_simp
  try simp only [StableHlo.TRef.ofBuf, StableHlo.TRef.toBuf, cast_eq]
  exact RFuse.ctrPrinted_eq 3 (by decide) ..

set_option maxHeartbeats 1000000 in
/-- The same between the buffers' final contents. -/
theorem st_ctr3 (V : Val) :
    (Rv V (Proc.devRef .tc main_v1266) : S50000x128.Idx → EReal) =
      Spec.toVec2 (Spec.lin (Spec.ofVec2 (a := 50000) (b := 128) (Rv V (Proc.devRef .tc main_v1262))) ((argsOfV V).fuse_ctr_w 3)) := by
  have e := win_ctr3 (W24 V)
  have ho : Rv V (Proc.devRef .tc main_v1266) = (after (RefRun.chunk24 (F := Ideal)) (W24 V)) (Proc.devRef .tc main_v1266) := by
    rw [at24 V main_v1266 ⟨by decide, by decide, by decide, by decide, by decide, by decide, by decide, by decide, by decide, by decide⟩]
  have hg : Rv V (Proc.devRef .tc main_v1262) = (after (RefRun.chunk24 (F := Ideal)) (W24 V)) (Proc.devRef .tc main_v1262) := by
    rw [at24 V main_v1262 ⟨by decide, by decide, by decide, by decide, by decide, by decide, by decide, by decide, by decide, by decide⟩]
  have ha14 : W24 V (Proc.devRef .tc main_arg14) = V (Proc.devRef .tc main_arg14) := argW24 V main_arg14 unw_arg14
  rw [← ho, ← hg, ha14] at e
  exact e

set_option maxHeartbeats 4000000 in
set_option maxRecDepth 16384 in
/-- Statements 1485–1510 of @main (windows 24–25): one edge step of fusion layer 3. -/
theorem win_ps3_0 (W : Val) :
    ((after (RefRun.chunk25 (F := Ideal)) (after (RefRun.chunk24 (F := Ideal)) W)) (Proc.devRef .tc main_v1288) : S50000x128.Idx → EReal) =
      Spec.toVec2 (Spec.edgeStep (Spec.ofVec2 (a := 50000) (b := 128) ((after (RefRun.chunk25 (F := Ideal)) (after (RefRun.chunk24 (F := Ideal)) W)) (Proc.devRef .tc main_v1262))) (Spec.ofVec2 (a := 50000) (b := 128) ((after (RefRun.chunk25 (F := Ideal)) (after (RefRun.chunk24 (F := Ideal)) W)) (Proc.devRef .tc main_v1266)))
        (fun (e : Fin 50000) => (W (Proc.devRef .tc main_arg25) : S12x50000.Idx → BitVec 32) (ValueIdx.ix2 (0 : Fin 12) e))
        (fun (e : Fin 50000) => (W (Proc.devRef .tc main_arg26) : S12x50000.Idx → BitVec 32) (ValueIdx.ix2 (0 : Fin 12) e))
        (fun (p q : Fin 128) => (W (Proc.devRef .tc main_arg15) : S4x12x128x128.Idx → EReal) (ValueIdx.ix4 (3 : Fin 4) (0 : Fin 12) p q))) := by
  try simp only [RefRun.chunk24, RefRun.chunk25]
  after_results_simp
  try simp only [StableHlo.TRef.ofBuf, StableHlo.TRef.toBuf, cast_eq]
  exact RFuse.psEdgePrinted_eq 3 0 (by decide) (by decide) ..

set_option maxHeartbeats 1000000 in
/-- The same between the buffers' final contents. -/
theorem st_ps3_0 (V : Val) :
    (Rv V (Proc.devRef .tc main_v1288) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1266))) ((argsOfV V).ps_u 0) ((argsOfV V).ps_v 0) ((argsOfV V).fuse_ps_w 3 0)) := by
  have e := win_ps3_0 (W24 V)
  have ho : Rv V (Proc.devRef .tc main_v1288) = (after (RefRun.chunk25 (F := Ideal)) (after (RefRun.chunk24 (F := Ideal)) (W24 V))) (Proc.devRef .tc main_v1288) := by
    rw [at25 V main_v1288 ⟨by decide, by decide, by decide, by decide, by decide, by decide, by decide, by decide, by decide⟩, W25]
  have hg : Rv V (Proc.devRef .tc main_v1262) = (after (RefRun.chunk25 (F := Ideal)) (after (RefRun.chunk24 (F := Ideal)) (W24 V))) (Proc.devRef .tc main_v1262) := by
    rw [at25 V main_v1262 ⟨by decide, by decide, by decide, by decide, by decide, by decide, by decide, by decide, by decide⟩, W25]
  have ht : Rv V (Proc.devRef .tc main_v1266) = (after (RefRun.chunk25 (F := Ideal)) (after (RefRun.chunk24 (F := Ideal)) (W24 V))) (Proc.devRef .tc main_v1266) := by
    rw [at25 V main_v1266 ⟨by decide, by decide, by decide, by decide, by decide, by decide, by decide, by decide, by decide⟩, W25]
  have ha25 : W24 V (Proc.devRef .tc main_arg25) = V (Proc.devRef .tc main_arg25) := argW24 V main_arg25 unw_arg25
  have ha26 : W24 V (Proc.devRef .tc main_arg26) = V (Proc.devRef .tc main_arg26) := argW24 V main_arg26 unw_arg26
  have ha15 : W24 V (Proc.devRef .tc main_arg15) = V (Proc.devRef .tc main_arg15) := argW24 V main_arg15 unw_arg15
  rw [← ho, ← hg, ← ht, ha25, ha26, ha15] at e
  exact e

set_option maxHeartbeats 4000000 in
set_option maxRecDepth 16384 in
/-- Statements 1511–1536 of @main (window 25): one edge step of fusion layer 3. -/
theorem win_ps3_1 (W : Val) :
    ((after (RefRun.chunk25 (F := Ideal)) W) (Proc.devRef .tc main_v1310) : S50000x128.Idx → EReal) =
      Spec.toVec2 (Spec.edgeStep (Spec.ofVec2 (a := 50000) (b := 128) (W (Proc.devRef .tc main_v1262))) (Spec.ofVec2 (a := 50000) (b := 128) ((after (RefRun.chunk25 (F := Ideal)) W) (Proc.devRef .tc main_v1288)))
        (fun (e : Fin 50000) => (W (Proc.devRef .tc main_arg25) : S12x50000.Idx → BitVec 32) (ValueIdx.ix2 (1 : Fin 12) e))
        (fun (e : Fin 50000) => (W (Proc.devRef .tc main_arg26) : S12x50000.Idx → BitVec 32) (ValueIdx.ix2 (1 : Fin 12) e))
        (fun (p q : Fin 128) => (W (Proc.devRef .tc main_arg15) : S4x12x128x128.Idx → EReal) (ValueIdx.ix4 (3 : Fin 4) (1 : Fin 12) p q))) := by
  try simp only [RefRun.chunk25]
  after_results_simp
  try simp only [StableHlo.TRef.ofBuf, StableHlo.TRef.toBuf, cast_eq]
  exact RFuse.psEdgePrinted_eq 3 1 (by decide) (by decide) ..

set_option maxHeartbeats 1000000 in
/-- The same between the buffers' final contents. -/
theorem st_ps3_1 (V : Val) :
    (Rv V (Proc.devRef .tc main_v1310) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1288))) ((argsOfV V).ps_u 1) ((argsOfV V).ps_v 1) ((argsOfV V).fuse_ps_w 3 1)) := by
  have e := win_ps3_1 (W25 V)
  have ho : Rv V (Proc.devRef .tc main_v1310) = (after (RefRun.chunk25 (F := Ideal)) (W25 V)) (Proc.devRef .tc main_v1310) := by
    rw [at25 V main_v1310 ⟨by decide, by decide, by decide, by decide, by decide, by decide, by decide, by decide, by decide⟩]
  have hg : Rv V (Proc.devRef .tc main_v1262) = W25 V (Proc.devRef .tc main_v1262) := pre25 V main_v1262 ⟨by decide, by decide, by decide, by decide, by decide, by decide, by decide, by decide, by decide, by decide⟩
  have ht : Rv V (Proc.devRef .tc main_v1288) = (after (RefRun.chunk25 (F := Ideal)) (W25 V)) (Proc.devRef .tc main_v1288) := by
    rw [at25 V main_v1288 ⟨by decide, by decide, by decide, by decide, by decide, by decide, by decide, by decide, by decide⟩]
  have ha25 : W25 V (Proc.devRef .tc main_arg25) = V (Proc.devRef .tc main_arg25) := argW25 V main_arg25 unw_arg25
  have ha26 : W25 V (Proc.devRef .tc main_arg26) = V (Proc.devRef .tc main_arg26) := argW25 V main_arg26 unw_arg26
  have ha15 : W25 V (Proc.devRef .tc main_arg15) = V (Proc.devRef .tc main_arg15) := argW25 V main_arg15 unw_arg15
  rw [← ho, ← hg, ← ht, ha25, ha26, ha15] at e
  exact e

set_option maxHeartbeats 4000000 in
set_option maxRecDepth 16384 in
/-- Statements 1537–1562 of @main (windows 25–26): one edge step of fusion layer 3. -/
theorem win_ps3_2 (W : Val) :
    ((after (RefRun.chunk26 (F := Ideal)) (after (RefRun.chunk25 (F := Ideal)) W)) (Proc.devRef .tc main_v1332) : S50000x128.Idx → EReal) =
      Spec.toVec2 (Spec.edgeStep (Spec.ofVec2 (a := 50000) (b := 128) (W (Proc.devRef .tc main_v1262))) (Spec.ofVec2 (a := 50000) (b := 128) ((after (RefRun.chunk26 (F := Ideal)) (after (RefRun.chunk25 (F := Ideal)) W)) (Proc.devRef .tc main_v1310)))
        (fun (e : Fin 50000) => (W (Proc.devRef .tc main_arg25) : S12x50000.Idx → BitVec 32) (ValueIdx.ix2 (2 : Fin 12) e))
        (fun (e : Fin 50000) => (W (Proc.devRef .tc main_arg26) : S12x50000.Idx → BitVec 32) (ValueIdx.ix2 (2 : Fin 12) e))
        (fun (p q : Fin 128) => (W (Proc.devRef .tc main_arg15) : S4x12x128x128.Idx → EReal) (ValueIdx.ix4 (3 : Fin 4) (2 : Fin 12) p q))) := by
  try simp only [RefRun.chunk25, RefRun.chunk26]
  after_results_simp
  try simp only [StableHlo.TRef.ofBuf, StableHlo.TRef.toBuf, cast_eq]
  exact RFuse.psEdgePrinted_eq 3 2 (by decide) (by decide) ..

set_option maxHeartbeats 1000000 in
/-- The same between the buffers' final contents. -/
theorem st_ps3_2 (V : Val) :
    (Rv V (Proc.devRef .tc main_v1332) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1310))) ((argsOfV V).ps_u 2) ((argsOfV V).ps_v 2) ((argsOfV V).fuse_ps_w 3 2)) := by
  have e := win_ps3_2 (W25 V)
  have ho : Rv V (Proc.devRef .tc main_v1332) = (after (RefRun.chunk26 (F := Ideal)) (after (RefRun.chunk25 (F := Ideal)) (W25 V))) (Proc.devRef .tc main_v1332) := by
    rw [at26 V main_v1332 ⟨by decide, by decide, by decide, by decide, by decide, by decide, by decide, by decide⟩, W26]
  have hg : Rv V (Proc.devRef .tc main_v1262) = W25 V (Proc.devRef .tc main_v1262) := pre25 V main_v1262 ⟨by decide, by decide, by decide, by decide, by decide, by decide, by decide, by decide, by decide, by decide⟩
  have ht : Rv V (Proc.devRef .tc main_v1310) = (after (RefRun.chunk26 (F := Ideal)) (after (RefRun.chunk25 (F := Ideal)) (W25 V))) (Proc.devRef .tc main_v1310) := by
    rw [at26 V main_v1310 ⟨by decide, by decide, by decide, by decide, by decide, by decide, by decide, by decide⟩, W26]
  have ha25 : W25 V (Proc.devRef .tc main_arg25) = V (Proc.devRef .tc main_arg25) := argW25 V main_arg25 unw_arg25
  have ha26 : W25 V (Proc.devRef .tc main_arg26) = V (Proc.devRef .tc main_arg26) := argW25 V main_arg26 unw_arg26
  have ha15 : W25 V (Proc.devRef .tc main_arg15) = V (Proc.devRef .tc main_arg15) := argW25 V main_arg15 unw_arg15
  rw [← ho, ← hg, ← ht, ha25, ha26, ha15] at e
  exact e

end Cert.RChain

end
-- ==== Proof.RChainL3b.lean ====
/-
  Fusion layer 3 of the reference, statements 1563–1666 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1563–1588 of @main (window 26): one edge step of fusion layer 3. -/
theorem win_ps3_3 (W : Val) :
    ((after (RefRun.chunk26 (F := Ideal)) W) (Proc.devRef .tc main_v1354) : S50000x128.Idx → EReal) =
      Spec.toVec2 (Spec.edgeStep (Spec.ofVec2 (a := 50000) (b := 128) (W (Proc.devRef .tc main_v1262))) (Spec.ofVec2 (a := 50000) (b := 128) ((after (RefRun.chunk26 (F := Ideal)) W) (Proc.devRef .tc main_v1332)))
        (fun (e : Fin 50000) => (W (Proc.devRef .tc main_arg25) : S12x50000.Idx → BitVec 32) (ValueIdx.ix2 (3 : Fin 12) e))
        (fun (e : Fin 50000) => (W (Proc.devRef .tc main_arg26) : S12x50000.Idx → BitVec 32) (ValueIdx.ix2 (3 : Fin 12) e))
        (fun (p q : Fin 128) => (W (Proc.devRef .tc main_arg15) : S4x12x128x128.Idx → EReal) (ValueIdx.ix4 (3 : Fin 4) (3 : Fin 12) p q))) := by
  try simp only [RefRun.chunk26]
  after_results_simp
  try simp only [StableHlo.TRef.ofBuf, StableHlo.TRef.toBuf, cast_eq]
  exact RFuse.psEdgePrinted_eq 3 3 (by decide) (by decide) ..

set_option maxHeartbeats 1000000 in
/-- The same between the buffers' final contents. -/
theorem st_ps3_3 (V : Val) :
    (Rv V (Proc.devRef .tc main_v1354) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1332))) ((argsOfV V).ps_u 3) ((argsOfV V).ps_v 3) ((argsOfV V).fuse_ps_w 3 3)) := by
  have e := win_ps3_3 (W26 V)
  have ho : Rv V (Proc.devRef .tc main_v1354) = (after (RefRun.chunk26 (F := Ideal)) (W26 V)) (Proc.devRef .tc main_v1354) := by
    rw [at26 V main_v1354 ⟨by decide, by decide, by decide, by decide, by decide, by decide, by decide, by decide⟩]
  have hg : Rv V (Proc.devRef .tc main_v1262) = W26 V (Proc.devRef .tc main_v1262) := pre26 V main_v1262 ⟨by decide, by decide, by decide, by decide, by decide, by decide, by decide, by decide, by decide⟩
  have ht : Rv V (Proc.devRef .tc main_v1332) = (after (RefRun.chunk26 (F := Ideal)) (W26 V)) (Proc.devRef .tc main_v1332) := by
    rw [at26 V main_v1332 ⟨by decide, by decide, by decide, by decide, by decide, by decide, by decide, by decide⟩]
  have ha25 : W26 V (Proc.devRef .tc main_arg25) = V (Proc.devRef .tc main_arg25) := argW26 V main_arg25 unw_arg25
  have ha26 : W26 V (Proc.devRef .tc main_arg26) = V (Proc.devRef .tc main_arg26) := argW26 V main_arg26 unw_arg26
  have ha15 : W26 V (Proc.devRef .tc main_arg15) = V (Proc.devRef .tc main_arg15) := argW26 V main_arg15 unw_arg15
  rw [← ho, ← hg, ← ht, ha25, ha26, ha15] at e
  exact e

set_option maxHeartbeats 4000000 in
set_option maxRecDepth 16384 in
/-- Statements 1589–1614 of @main (window 26): one edge step of fusion layer 3. -/
theorem win_ps3_4 (W : Val) :
    ((after (RefRun.chunk26 (F := Ideal)) W) (Proc.devRef .tc main_v1376) : S50000x128.Idx → EReal) =
      Spec.toVec2 (Spec.edgeStep (Spec.ofVec2 (a := 50000) (b := 128) (W (Proc.devRef .tc main_v1262))) (Spec.ofVec2 (a := 50000) (b := 128) ((after (RefRun.chunk26 (F := Ideal)) W) (Proc.devRef .tc main_v1354)))
        (fun (e : Fin 50000) => (W (Proc.devRef .tc main_arg25) : S12x50000.Idx → BitVec 32) (ValueIdx.ix2 (4 : Fin 12) e))
        (fun (e : Fin 50000) => (W (Proc.devRef .tc main_arg26) : S12x50000.Idx → BitVec 32) (ValueIdx.ix2 (4 : Fin 12) e))
        (fun (p q : Fin 128) => (W (Proc.devRef .tc main_arg15) : S4x12x128x128.Idx → EReal) (ValueIdx.ix4 (3 : Fin 4) (4 : Fin 12) p q))) := by
  try simp only [RefRun.chunk26]
  after_results_simp
  try simp only [StableHlo.TRef.ofBuf, StableHlo.TRef.toBuf, cast_eq]
  exact RFuse.psEdgePrinted_eq 3 4 (by decide) (by decide) ..

set_option maxHeartbeats 1000000 in
/-- The same between the buffers' final contents. -/
theorem st_ps3_4 (V : Val) :
    (Rv V (Proc.devRef .tc main_v1376) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1354))) ((argsOfV V).ps_u 4) ((argsOfV V).ps_v 4) ((argsOfV V).fuse_ps_w 3 4)) := by
  have e := win_ps3_4 (W26 V)
  have ho : Rv V (Proc.devRef .tc main_v1376) = (after (RefRun.chunk26 (F := Ideal)) (W26 V)) (Proc.devRef .tc main_v1376) := by
    rw [at26 V main_v1376 ⟨by decide, by decide, by decide, by decide, by decide, by decide, by decide, by decide⟩]
  have hg : Rv V (Proc.devRef .tc main_v1262) = W26 V (Proc.devRef .tc main_v1262) := pre26 V main_v1262 ⟨by decide, by decide, by decide, by decide, by decide, by decide, by decide, by decide, by decide⟩
  have ht : Rv V (Proc.devRef .tc main_v1354) = (after (RefRun.chunk26 (F := Ideal)) (W26 V)) (Proc.devRef .tc main_v1354) := by
    rw [at26 V main_v1354 ⟨by decide, by decide, by decide, by decide, by decide, by decide, by decide, by decide⟩]
  have ha25 : W26 V (Proc.devRef .tc main_arg25) = V (Proc.devRef .tc main_arg25) := argW26 V main_arg25 unw_arg25
  have ha26 : W26 V (Proc.devRef .tc main_arg26) = V (Proc.devRef .tc main_arg26) := argW26 V main_arg26 unw_arg26
  have ha15 : W26 V (Proc.devRef .tc main_arg15) = V (Proc.devRef .tc main_arg15) := argW26 V main_arg15 unw_arg15
  rw [← ho, ← hg, ← ht, ha25, ha26, ha15] at e
  exact e

set_option maxHeartbeats 4000000 in
set_option maxRecDepth 16384 in
/-- Statements 1615–1640 of @main (windows 26–27): one edge step of fusion layer 3. -/
theorem win_ps3_5 (W : Val) :
    ((after (RefRun.chunk27 (F := Ideal)) (after (RefRun.chunk26 (F := Ideal)) W)) (Proc.devRef .tc main_v1398) : S50000x128.Idx → EReal) =
      Spec.toVec2 (Spec.edgeStep (Spec.ofVec2 (a := 50000) (b := 128) (W (Proc.devRef .tc main_v1262))) (Spec.ofVec2 (a := 50000) (b := 128) ((after (RefRun.chunk27 (F := Ideal)) (after (RefRun.chunk26 (F := Ideal)) W)) (Proc.devRef .tc main_v1376)))
        (fun (e : Fin 50000) => (W (Proc.devRef .tc main_arg25) : S12x50000.Idx → BitVec 32) (ValueIdx.ix2 (5 : Fin 12) e))
        (fun (e : Fin 50000) => (W (Proc.devRef .tc main_arg26) : S12x50000.Idx → BitVec 32) (ValueIdx.ix2 (5 : Fin 12) e))
        (fun (p q : Fin 128) => (W (Proc.devRef .tc main_arg15) : S4x12x128x128.Idx → EReal) (ValueIdx.ix4 (3 : Fin 4) (5 : Fin 12) p q))) := by
  try simp only [RefRun.chunk26, RefRun.chunk27]
  after_results_simp
  try simp only [StableHlo.TRef.ofBuf, StableHlo.TRef.toBuf, cast_eq]
  exact RFuse.psEdgePrinted_eq 3 5 (by decide) (by decide) ..

set_option maxHeartbeats 1000000 in
/-- The same between the buffers' final contents. -/
theorem st_ps3_5 (V : Val) :
    (Rv V (Proc.devRef .tc main_v1398) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1376))) ((argsOfV V).ps_u 5) ((argsOfV V).ps_v 5) ((argsOfV V).fuse_ps_w 3 5)) := by
  have e := win_ps3_5 (W26 V)
  have ho : Rv V (Proc.devRef .tc main_v1398) = (after (RefRun.chunk27 (F := Ideal)) (after (RefRun.chunk26 (F := Ideal)) (W26 V))) (Proc.devRef .tc main_v1398) := by
    rw [at27 V main_v1398 ⟨by decide, by decide, by decide, by decide, by decide, by decide, by decide⟩, W27]
  have hg : Rv V (Proc.devRef .tc main_v1262) = W26 V (Proc.devRef .tc main_v1262) := pre26 V main_v1262 ⟨by decide, by decide, by decide, by decide, by decide, by decide, by decide, by decide, by decide⟩
  have ht : Rv V (Proc.devRef .tc main_v1376) = (after (RefRun.chunk27 (F := Ideal)) (after (RefRun.chunk26 (F := Ideal)) (W26 V))) (Proc.devRef .tc main_v1376) := by
    rw [at27 V main_v1376 ⟨by decide, by decide, by decide, by decide, by decide, by decide, by decide⟩, W27]
  have ha25 : W26 V (Proc.devRef .tc main_arg25) = V (Proc.devRef .tc main_arg25) := argW26 V main_arg25 unw_arg25
  have ha26 : W26 V (Proc.devRef .tc main_arg26) = V (Proc.devRef .tc main_arg26) := argW26 V main_arg26 unw_arg26
  have ha15 : W26 V (Proc.devRef .tc main_arg15) = V (Proc.devRef .tc main_arg15) := argW26 V main_arg15 unw_arg15
  rw [← ho, ← hg, ← ht, ha25, ha26, ha15] at e
  exact e

set_option maxHeartbeats 4000000 in
set_option maxRecDepth 16384 in
/-- Statements 1641–1666 of @main (window 27): one edge step of fusion layer 3. -/
theorem win_ps3_6 (W : Val) :
    ((after (RefRun.chunk27 (F := Ideal)) W) (Proc.devRef .tc main_v1420) : S50000x128.Idx → EReal) =
      Spec.toVec2 (Spec.edgeStep (Spec.ofVec2 (a := 50000) (b := 128) (W (Proc.devRef .tc main_v1262))) (Spec.ofVec2 (a := 50000) (b := 128) ((after (RefRun.chunk27 (F := Ideal)) W) (Proc.devRef .tc main_v1398)))
        (fun (e : Fin 50000) => (W (Proc.devRef .tc main_arg25) : S12x50000.Idx → BitVec 32) (ValueIdx.ix2 (6 : Fin 12) e))
        (fun (e : Fin 50000) => (W (Proc.devRef .tc main_arg26) : S12x50000.Idx → BitVec 32) (ValueIdx.ix2 (6 : Fin 12) e))
        (fun (p q : Fin 128) => (W (Proc.devRef .tc main_arg15) : S4x12x128x128.Idx → EReal) (ValueIdx.ix4 (3 : Fin 4) (6 : Fin 12) p q))) := by
  try simp only [RefRun.chunk27]
  after_results_simp
  try simp only [StableHlo.TRef.ofBuf, StableHlo.TRef.toBuf, cast_eq]
  exact RFuse.psEdgePrinted_eq 3 6 (by decide) (by decide) ..

set_option maxHeartbeats 1000000 in
/-- The same between the buffers' final contents. -/
theorem st_ps3_6 (V : Val) :
    (Rv V (Proc.devRef .tc main_v1420) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1398))) ((argsOfV V).ps_u 6) ((argsOfV V).ps_v 6) ((argsOfV V).fuse_ps_w 3 6)) := by
  have e := win_ps3_6 (W27 V)
  have ho : Rv V (Proc.devRef .tc main_v1420) = (after (RefRun.chunk27 (F := Ideal)) (W27 V)) (Proc.devRef .tc main_v1420) := by
    rw [at27 V main_v1420 ⟨by decide, by decide, by decide, by decide, by decide, by decide, by decide⟩]
  have hg : Rv V (Proc.devRef .tc main_v1262) = W27 V (Proc.devRef .tc main_v1262) := pre27 V main_v1262 ⟨by decide, by decide, by decide, by decide, by decide, by decide, by decide, by decide⟩
  have ht : Rv V (Proc.devRef .tc main_v1398) = (after (RefRun.chunk27 (F := Ideal)) (W27 V)) (Proc.devRef .tc main_v1398) := by
    rw [at27 V main_v1398 ⟨by decide, by decide, by decide, by decide, by decide, by decide, by decide⟩]
  have ha25 : W27 V (Proc.devRef .tc main_arg25) = V (Proc.devRef .tc main_arg25) := argW27 V main_arg25 unw_arg25
  have ha26 : W27 V (Proc.devRef .tc main_arg26) = V (Proc.devRef .tc main_arg26) := argW27 V main_arg26 unw_arg26
  have ha15 : W27 V (Proc.devRef .tc main_arg15) = V (Proc.devRef .tc main_arg15) := argW27 V main_arg15 unw_arg15
  rw [← ho, ← hg, ← ht, ha25, ha26, ha15] at e
  exact e

end Cert.RChain

end
-- ==== Proof.RChainL3c.lean ====
/-
  Fusion layer 3 of the reference, statements 1667–1770 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1667–1692 of @main (windows 27–28): one edge step of fusion layer 3. -/
theorem win_ps3_7 (W : Val) :
    ((after (RefRun.chunk28 (F := Ideal)) (after (RefRun.chunk27 (F := Ideal)) W)) (Proc.devRef .tc main_v1442) : S50000x128.Idx → EReal) =
      Spec.toVec2 (Spec.edgeStep (Spec.ofVec2 (a := 50000) (b := 128) (W (Proc.devRef .tc main_v1262))) (Spec.ofVec2 (a := 50000) (b := 128) ((after (RefRun.chunk28 (F := Ideal)) (after (RefRun.chunk27 (F := Ideal)) W)) (Proc.devRef .tc main_v1420)))
        (fun (e : Fin 50000) => (W (Proc.devRef .tc main_arg25) : S12x50000.Idx → BitVec 32) (ValueIdx.ix2 (7 : Fin 12) e))
        (fun (e : Fin 50000) => (W (Proc.devRef .tc main_arg26) : S12x50000.Idx → BitVec 32) (ValueIdx.ix2 (7 : Fin 12) e))
        (fun (p q : Fin 128) => (W (Proc.devRef .tc main_arg15) : S4x12x128x128.Idx → EReal) (ValueIdx.ix4 (3 : Fin 4) (7 : Fin 12) p q))) := by
  try simp only [RefRun.chunk27, RefRun.chunk28]
  after_results_simp
  try simp only [StableHlo.TRef.ofBuf, StableHlo.TRef.toBuf, cast_eq]
  exact RFuse.psEdgePrinted_eq 3 7 (by decide) (by decide) ..

set_option maxHeartbeats 1000000 in
/-- The same between the buffers' final contents. -/
theorem st_ps3_7 (V : Val) :
    (Rv V (Proc.devRef .tc main_v1442) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1420))) ((argsOfV V).ps_u 7) ((argsOfV V).ps_v 7) ((argsOfV V).fuse_ps_w 3 7)) := by
  have e := win_ps3_7 (W27 V)
  have ho : Rv V (Proc.devRef .tc main_v1442) = (after (RefRun.chunk28 (F := Ideal)) (after (RefRun.chunk27 (F := Ideal)) (W27 V))) (Proc.devRef .tc main_v1442) := by
    rw [at28 V main_v1442 ⟨by decide, by decide, by decide, by decide, by decide, by decide⟩, W28]
  have hg : Rv V (Proc.devRef .tc main_v1262) = W27 V (Proc.devRef .tc main_v1262) := pre27 V main_v1262 ⟨by decide, by decide, by decide, by decide, by decide, by decide, by decide, by decide⟩
  have ht : Rv V (Proc.devRef .tc main_v1420) = (after (RefRun.chunk28 (F := Ideal)) (after (RefRun.chunk27 (F := Ideal)) (W27 V))) (Proc.devRef .tc main_v1420) := by
    rw [at28 V main_v1420 ⟨by decide, by decide, by decide, by decide, by decide, by decide⟩, W28]
  have ha25 : W27 V (Proc.devRef .tc main_arg25) = V (Proc.devRef .tc main_arg25) := argW27 V main_arg25 unw_arg25
  have ha26 : W27 V (Proc.devRef .tc main_arg26) = V (Proc.devRef .tc main_arg26) := argW27 V main_arg26 unw_arg26
  have ha15 : W27 V (Proc.devRef .tc main_arg15) = V (Proc.devRef .tc main_arg15) := argW27 V main_arg15 unw_arg15
  rw [← ho, ← hg, ← ht, ha25, ha26, ha15] at e
  exact e

set_option maxHeartbeats 4000000 in
set_option maxRecDepth 16384 in
/-- Statements 1693–1718 of @main (window 28): one edge step of fusion layer 3. -/
theorem win_ps3_8 (W : Val) :
    ((after (RefRun.chunk28 (F := Ideal)) W) (Proc.devRef .tc main_v1464) : S50000x128.Idx → EReal) =
      Spec.toVec2 (Spec.edgeStep (Spec.ofVec2 (a := 50000) (b := 128) (W (Proc.devRef .tc main_v1262))) (Spec.ofVec2 (a := 50000) (b := 128) ((after (RefRun.chunk28 (F := Ideal)) W) (Proc.devRef .tc main_v1442)))
        (fun (e : Fin 50000) => (W (Proc.devRef .tc main_arg25) : S12x50000.Idx → BitVec 32) (ValueIdx.ix2 (8 : Fin 12) e))
        (fun (e : Fin 50000) => (W (Proc.devRef .tc main_arg26) : S12x50000.Idx → BitVec 32) (ValueIdx.ix2 (8 : Fin 12) e))
        (fun (p q : Fin 128) => (W (Proc.devRef .tc main_arg15) : S4x12x128x128.Idx → EReal) (ValueIdx.ix4 (3 : Fin 4) (8 : Fin 12) p q))) := by
  try simp only [RefRun.chunk28]
  after_results_simp
  try simp only [StableHlo.TRef.ofBuf, StableHlo.TRef.toBuf, cast_eq]
  exact RFuse.psEdgePrinted_eq 3 8 (by decide) (by decide) ..

set_option maxHeartbeats 1000000 in
/-- The same between the buffers' final contents. -/
theorem st_ps3_8 (V : Val) :
    (Rv V (Proc.devRef .tc main_v1464) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1442))) ((argsOfV V).ps_u 8) ((argsOfV V).ps_v 8) ((argsOfV V).fuse_ps_w 3 8)) := by
  have e := win_ps3_8 (W28 V)
  have ho : Rv V (Proc.devRef .tc main_v1464) = (after (RefRun.chunk28 (F := Ideal)) (W28 V)) (Proc.devRef .tc main_v1464) := by
    rw [at28 V main_v1464 ⟨by decide, by decide, by decide, by decide, by decide, by decide⟩]
  have hg : Rv V (Proc.devRef .tc main_v1262) = W28 V (Proc.devRef .tc main_v1262) := pre28 V main_v1262 ⟨by decide, by decide, by decide, by decide, by decide, by decide, by decide⟩
  have ht : Rv V (Proc.devRef .tc main_v1442) = (after (RefRun.chunk28 (F := Ideal)) (W28 V)) (Proc.devRef .tc main_v1442) := by
    rw [at28 V main_v1442 ⟨by decide, by decide, by decide, by decide, by decide, by decide⟩]
  have ha25 : W28 V (Proc.devRef .tc main_arg25) = V (Proc.devRef .tc main_arg25) := argW28 V main_arg25 unw_arg25
  have ha26 : W28 V (Proc.devRef .tc main_arg26) = V (Proc.devRef .tc main_arg26) := argW28 V main_arg26 unw_arg26
  have ha15 : W28 V (Proc.devRef .tc main_arg15) = V (Proc.devRef .tc main_arg15) := argW28 V main_arg15 unw_arg15
  rw [← ho, ← hg, ← ht, ha25, ha26, ha15] at e
  exact e

set_option maxHeartbeats 4000000 in
set_option maxRecDepth 16384 in
/-- Statements 1719–1744 of @main (windows 28–29): one edge step of fusion layer 3. -/
theorem win_ps3_9 (W : Val) :
    ((after (RefRun.chunk29 (F := Ideal)) (after (RefRun.chunk28 (F := Ideal)) W)) (Proc.devRef .tc main_v1486) : S50000x128.Idx → EReal) =
      Spec.toVec2 (Spec.edgeStep (Spec.ofVec2 (a := 50000) (b := 128) (W (Proc.devRef .tc main_v1262))) (Spec.ofVec2 (a := 50000) (b := 128) ((after (RefRun.chunk29 (F := Ideal)) (after (RefRun.chunk28 (F := Ideal)) W)) (Proc.devRef .tc main_v1464)))
        (fun (e : Fin 50000) => (W (Proc.devRef .tc main_arg25) : S12x50000.Idx → BitVec 32) (ValueIdx.ix2 (9 : Fin 12) e))
        (fun (e : Fin 50000) => (W (Proc.devRef .tc main_arg26) : S12x50000.Idx → BitVec 32) (ValueIdx.ix2 (9 : Fin 12) e))
        (fun (p q : Fin 128) => (W (Proc.devRef .tc main_arg15) : S4x12x128x128.Idx → EReal) (ValueIdx.ix4 (3 : Fin 4) (9 : Fin 12) p q))) := by
  try simp only [RefRun.chunk28, RefRun.chunk29]
  after_results_simp
  try simp only [StableHlo.TRef.ofBuf, StableHlo.TRef.toBuf, cast_eq]
  exact RFuse.psEdgePrinted_eq 3 9 (by decide) (by decide) ..

set_option maxHeartbeats 1000000 in
/-- The same between the buffers' final contents. -/
theorem st_ps3_9 (V : Val) :
    (Rv V (Proc.devRef .tc main_v1486) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1464))) ((argsOfV V).ps_u 9) ((argsOfV V).ps_v 9) ((argsOfV V).fuse_ps_w 3 9)) := by
  have e := win_ps3_9 (W28 V)
  have ho : Rv V (Proc.devRef .tc main_v1486) = (after (RefRun.chunk29 (F := Ideal)) (after (RefRun.chunk28 (F := Ideal)) (W28 V))) (Proc.devRef .tc main_v1486) := by
    rw [at29 V main_v1486 ⟨by decide, by decide, by decide, by decide, by decide⟩, W29]
  have hg : Rv V (Proc.devRef .tc main_v1262) = W28 V (Proc.devRef .tc main_v1262) := pre28 V main_v1262 ⟨by decide, by decide, by decide, by decide, by decide, by decide, by decide⟩
  have ht : Rv V (Proc.devRef .tc main_v1464) = (after (RefRun.chunk29 (F := Ideal)) (after (RefRun.chunk28 (F := Ideal)) (W28 V))) (Proc.devRef .tc main_v1464) := by
    rw [at29 V main_v1464 ⟨by decide, by decide, by decide, by decide, by decide⟩, W29]
  have ha25 : W28 V (Proc.devRef .tc main_arg25) = V (Proc.devRef .tc main_arg25) := argW28 V main_arg25 unw_arg25
  have ha26 : W28 V (Proc.devRef .tc main_arg26) = V (Proc.devRef .tc main_arg26) := argW28 V main_arg26 unw_arg26
  have ha15 : W28 V (Proc.devRef .tc main_arg15) = V (Proc.devRef .tc main_arg15) := argW28 V main_arg15 unw_arg15
  rw [← ho, ← hg, ← ht, ha25, ha26, ha15] at e
  exact e

set_option maxHeartbeats 4000000 in
set_option maxRecDepth 16384 in
/-- Statements 1745–1770 of @main (window 29): one edge step of fusion layer 3. -/
theorem win_ps3_10 (W : Val) :
    ((after (RefRun.chunk29 (F := Ideal)) W) (Proc.devRef .tc main_v1508) : S50000x128.Idx → EReal) =
      Spec.toVec2 (Spec.edgeStep (Spec.ofVec2 (a := 50000) (b := 128) (W (Proc.devRef .tc main_v1262))) (Spec.ofVec2 (a := 50000) (b := 128) ((after (RefRun.chunk29 (F := Ideal)) W) (Proc.devRef .tc main_v1486)))
        (fun (e : Fin 50000) => (W (Proc.devRef .tc main_arg25) : S12x50000.Idx → BitVec 32) (ValueIdx.ix2 (10 : Fin 12) e))
        (fun (e : Fin 50000) => (W (Proc.devRef .tc main_arg26) : S12x50000.Idx → BitVec 32) (ValueIdx.ix2 (10 : Fin 12) e))
        (fun (p q : Fin 128) => (W (Proc.devRef .tc main_arg15) : S4x12x128x128.Idx → EReal) (ValueIdx.ix4 (3 : Fin 4) (10 : Fin 12) p q))) := by
  try simp only [RefRun.chunk29]
  after_results_simp
  try simp only [StableHlo.TRef.ofBuf, StableHlo.TRef.toBuf, cast_eq]
  exact RFuse.psEdgePrinted_eq 3 10 (by decide) (by decide) ..

set_option maxHeartbeats 1000000 in
/-- The same between the buffers' final contents. -/
theorem st_ps3_10 (V : Val) :
    (Rv V (Proc.devRef .tc main_v1508) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1486))) ((argsOfV V).ps_u 10) ((argsOfV V).ps_v 10) ((argsOfV V).fuse_ps_w 3 10)) := by
  have e := win_ps3_10 (W29 V)
  have ho : Rv V (Proc.devRef .tc main_v1508) = (after (RefRun.chunk29 (F := Ideal)) (W29 V)) (Proc.devRef .tc main_v1508) := by
    rw [at29 V main_v1508 ⟨by decide, by decide, by decide, by decide, by decide⟩]
  have hg : Rv V (Proc.devRef .tc main_v1262) = W29 V (Proc.devRef .tc main_v1262) := pre29 V main_v1262 ⟨by decide, by decide, by decide, by decide, by decide, by decide⟩
  have ht : Rv V (Proc.devRef .tc main_v1486) = (after (RefRun.chunk29 (F := Ideal)) (W29 V)) (Proc.devRef .tc main_v1486) := by
    rw [at29 V main_v1486 ⟨by decide, by decide, by decide, by decide, by decide⟩]
  have ha25 : W29 V (Proc.devRef .tc main_arg25) = V (Proc.devRef .tc main_arg25) := argW29 V main_arg25 unw_arg25
  have ha26 : W29 V (Proc.devRef .tc main_arg26) = V (Proc.devRef .tc main_arg26) := argW29 V main_arg26 unw_arg26
  have ha15 : W29 V (Proc.devRef .tc main_arg15) = V (Proc.devRef .tc main_arg15) := argW29 V main_arg15 unw_arg15
  rw [← ho, ← hg, ← ht, ha25, ha26, ha15] at e
  exact e

end Cert.RChain

end
-- ==== Proof.RChainL3d.lean ====
/-
  Fusion layer 3 of the reference, statements 1771–1911 of @main: each stretch's result buffer holds the
  stretch's function (centre product, edge step, node stage) of the buffers it read — first over the windows that hold
  the stretch, from any contents before them, then between the buffers' final contents.
-/
import proofs.«413166_j32323923870246_3_alg».proof.Proof.RChainBase
import proofs.«413166_j32323923870246_3_alg».proof.Proof.RFuse

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1771–1796 of @main (window 29): one edge step of fusion layer 3. -/
theorem win_ps3_11 (W : Val) :
    ((after (RefRun.chunk29 (F := Ideal)) W) (Proc.devRef .tc main_v1530) : S50000x128.Idx → EReal) =
      Spec.toVec2 (Spec.edgeStep (Spec.ofVec2 (a := 50000) (b := 128) (W (Proc.devRef .tc main_v1262))) (Spec.ofVec2 (a := 50000) (b := 128) ((after (RefRun.chunk29 (F := Ideal)) W) (Proc.devRef .tc main_v1508)))
        (fun (e : Fin 50000) => (W (Proc.devRef .tc main_arg25) : S12x50000.Idx → BitVec 32) (ValueIdx.ix2 (11 : Fin 12) e))
        (fun (e : Fin 50000) => (W (Proc.devRef .tc main_arg26) : S12x50000.Idx → BitVec 32) (ValueIdx.ix2 (11 : Fin 12) e))
        (fun (p q : Fin 128) => (W (Proc.devRef .tc main_arg15) : S4x12x128x128.Idx → EReal) (ValueIdx.ix4 (3 : Fin 4) (11 : Fin 12) p q))) := by
  try simp only [RefRun.chunk29]
  after_results_simp
  try simp only [StableHlo.TRef.ofBuf, StableHlo.TRef.toBuf, cast_eq]
  exact RFuse.psEdgePrinted_eq 3 11 (by decide) (by decide) ..

set_option maxHeartbeats 1000000 in
/-- The same between the buffers' final contents. -/
theorem st_ps3_11 (V : Val) :
    (Rv V (Proc.devRef .tc main_v1530) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1508))) ((argsOfV V).ps_u 11) ((argsOfV V).ps_v 11) ((argsOfV V).fuse_ps_w 3 11)) := by
  have e := win_ps3_11 (W29 V)
  have ho : Rv V (Proc.devRef .tc main_v1530) = (after (RefRun.chunk29 (F := Ideal)) (W29 V)) (Proc.devRef .tc main_v1530) := by
    rw [at29 V main_v1530 ⟨by decide, by decide, by decide, by decide, by decide⟩]
  have hg : Rv V (Proc.devRef .tc main_v1262) = W29 V (Proc.devRef .tc main_v1262) := pre29 V main_v1262 ⟨by decide, by decide, by decide, by decide, by decide, by decide⟩
  have ht : Rv V (Proc.devRef .tc main_v1508) = (after (RefRun.chunk29 (F := Ideal)) (W29 V)) (Proc.devRef .tc main_v1508) := by
    rw [at29 V main_v1508 ⟨by decide, by decide, by decide, by decide, by decide⟩]
  have ha25 : W29 V (Proc.devRef .tc main_arg25) = V (Proc.devRef .tc main_arg25) := argW29 V main_arg25 unw_arg25
  have ha26 : W29 V (Proc.devRef .tc main_arg26) = V (Proc.devRef .tc main_arg26) := argW29 V main_arg26 unw_arg26
  have ha15 : W29 V (Proc.devRef .tc main_arg15) = V (Proc.devRef .tc main_arg15) := argW29 V main_arg15 unw_arg15
  rw [← ho, ← hg, ← ht, ha25, ha26, ha15] at e
  exact e

set_option maxHeartbeats 4000000 in
set_option maxRecDepth 16384 in
/-- Statements 1797–1822 of @main (windows 29–30): one edge step of fusion layer 3. -/
theorem win_lr3_0 (W : Val) :
    ((after (RefRun.chunk30 (F := Ideal)) (after (RefRun.chunk29 (F := Ideal)) W)) (Proc.devRef .tc main_v1552) : S50000x128.Idx → EReal) =
      Spec.toVec2 (Spec.edgeStep (Spec.ofVec2 (a := 50000) (b := 128) (W (Proc.devRef .tc main_v1262))) (Spec.ofVec2 (a := 50000) (b := 128) ((after (RefRun.chunk30 (F := Ideal)) (after (RefRun.chunk29 (F := Ideal)) W)) (Proc.devRef .tc main_v1530)))
        (fun (e : Fin 5000) => (W (Proc.devRef .tc main_arg27) : S2x5000.Idx → BitVec 32) (ValueIdx.ix2 (0 : Fin 2) e))
        (fun (e : Fin 5000) => (W (Proc.devRef .tc main_arg28) : S2x5000.Idx → BitVec 32) (ValueIdx.ix2 (0 : Fin 2) e))
        (fun (p q : Fin 128) => (W (Proc.devRef .tc main_arg16) : S4x128x128.Idx → EReal) (ValueIdx.ix3 (3 : Fin 4) p q))) := by
  try simp only [RefRun.chunk29, RefRun.chunk30]
  after_results_simp
  try simp only [StableHlo.TRef.ofBuf, StableHlo.TRef.toBuf, cast_eq]
  exact RFuse.lrEdgePrinted_eq 3 0 (by decide) (by decide) ..

set_option maxHeartbeats 1000000 in
/-- The same between the buffers' final contents. -/
theorem st_lr3_0 (V : Val) :
    (Rv V (Proc.devRef .tc main_v1552) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1530))) ((argsOfV V).lr_u 0) ((argsOfV V).lr_v 0) ((argsOfV V).fuse_left_w 3)) := by
  have e := win_lr3_0 (W29 V)
  have ho : Rv V (Proc.devRef .tc main_v1552) = (after (RefRun.chunk30 (F := Ideal)) (after (RefRun.chunk29 (F := Ideal)) (W29 V))) (Proc.devRef .tc main_v1552) := by
    rw [at30 V main_v1552 ⟨by decide, by decide, by decide, by decide⟩, W30]
  have hg : Rv V (Proc.devRef .tc main_v1262) = W29 V (Proc.devRef .tc main_v1262) := pre29 V main_v1262 ⟨by decide, by decide, by decide, by decide, by decide, by decide⟩
  have ht : Rv V (Proc.devRef .tc main_v1530) = (after (RefRun.chunk30 (F := Ideal)) (after (RefRun.chunk29 (F := Ideal)) (W29 V))) (Proc.devRef .tc main_v1530) := by
    rw [at30 V main_v1530 ⟨by decide, by decide, by decide, by decide⟩, W30]
  have ha27 : W29 V (Proc.devRef .tc main_arg27) = V (Proc.devRef .tc main_arg27) := argW29 V main_arg27 unw_arg27
  have ha28 : W29 V (Proc.devRef .tc main_arg28) = V (Proc.devRef .tc main_arg28) := argW29 V main_arg28 unw_arg28
  have ha16 : W29 V (Proc.devRef .tc main_arg16) = V (Proc.devRef .tc main_arg16) := argW29 V main_arg16 unw_arg16
  rw [← ho, ← hg, ← ht, ha27, ha28, ha16] at e
  exact e

set_option maxHeartbeats 4000000 in
set_option maxRecDepth 16384 in
/-- Statements 1823–1848 of @main (window 30): one edge step of fusion layer 3. -/
theorem win_lr3_1 (W : Val) :
    ((after (RefRun.chunk30 (F := Ideal)) W) (Proc.devRef .tc main_v1574) : S50000x128.Idx → EReal) =
      Spec.toVec2 (Spec.edgeStep (Spec.ofVec2 (a := 50000) (b := 128) (W (Proc.devRef .tc main_v1262))) (Spec.ofVec2 (a := 50000) (b := 128) ((after (RefRun.chunk30 (F := Ideal)) W) (Proc.devRef .tc main_v1552)))
        (fun (e : Fin 5000) => (W (Proc.devRef .tc main_arg27) : S2x5000.Idx → BitVec 32) (ValueIdx.ix2 (1 : Fin 2) e))
        (fun (e : Fin 5000) => (W (Proc.devRef .tc main_arg28) : S2x5000.Idx → BitVec 32) (ValueIdx.ix2 (1 : Fin 2) e))
        (fun (p q : Fin 128) => (W (Proc.devRef .tc main_arg17) : S4x128x128.Idx → EReal) (ValueIdx.ix3 (3 : Fin 4) p q))) := by
  try simp only [RefRun.chunk30]
  after_results_simp
  try simp only [StableHlo.TRef.ofBuf, StableHlo.TRef.toBuf, cast_eq]
  exact RFuse.lrEdgePrinted_eq 3 1 (by decide) (by decide) ..

set_option maxHeartbeats 1000000 in
/-- The same between the buffers' final contents. -/
theorem st_lr3_1 (V : Val) :
    (Rv V (Proc.devRef .tc main_v1574) : S50000x128.Idx → EReal) =
      Spec.toVec2 (Spec.edgeStep (Spec.ofVec2 (a := 50000) (b := 128) (Rv V (Proc.devRef .tc main_v1262))) (Spec.ofVec2 (a := 50000) (b := 128) (Rv V (Proc.devRef .tc main_v1552))) ((argsOfV V).lr_u 1) ((argsOfV V).lr_v 1) ((argsOfV V).fuse_right_w 3)) := by
  have e := win_lr3_1 (W30 V)
  have ho : Rv V (Proc.devRef .tc main_v1574) = (after (RefRun.chunk30 (F := Ideal)) (W30 V)) (Proc.devRef .tc main_v1574) := by
    rw [at30 V main_v1574 ⟨by decide, by decide, by decide, by decide⟩]
  have hg : Rv V (Proc.devRef .tc main_v1262) = W30 V (Proc.devRef .tc main_v1262) := pre30 V main_v1262 ⟨by decide, by decide, by decide, by decide, by decide⟩
  have ht : Rv V (Proc.devRef .tc main_v1552) = (after (RefRun.chunk30 (F := Ideal)) (W30 V)) (Proc.devRef .tc main_v1552) := by
    rw [at30 V main_v1552 ⟨by decide, by decide, by decide, by decide⟩]
  have ha27 : W30 V (Proc.devRef .tc main_arg27) = V (Proc.devRef .tc main_arg27) := argW30 V main_arg27 unw_arg27
  have ha28 : W30 V (Proc.devRef .tc main_arg28) = V (Proc.devRef .tc main_arg28) := argW30 V main_arg28 unw_arg28
  have ha17 : W30 V (Proc.devRef .tc main_arg17) = V (Proc.devRef .tc main_arg17) := argW30 V main_arg17 unw_arg17
  rw [← ho, ← hg, ← ht, ha27, ha28, ha17] at e
  exact e

set_option maxHeartbeats 4000000 in
set_option maxRecDepth 16384 in
/-- Statements 1849–1911 of @main (windows 30–31): the node stage of fusion layer 3. -/
theorem win_node3 (W : Val) :
    ((after (RefRun.chunk31 (F := Ideal)) (after (RefRun.chunk30 (F := Ideal)) W)) (Proc.devRef .tc main_v1629) : S50000x128.Idx → EReal) =
      Spec.toVec2 (Spec.ggTail (Spec.ofVec2 (a := 50000) (b := 128) ((after (RefRun.chunk31 (F := Ideal)) (after (RefRun.chunk30 (F := Ideal)) W)) (Proc.devRef .tc main_v1574))) (Spec.ofVec2 (a := 50000) (b := 128) (W (Proc.devRef .tc main_v1262)))
        (fun (q : Fin 128) => (W (Proc.devRef .tc main_arg18) : S4x2x128.Idx → EReal) (ValueIdx.ix3 (3 : Fin 4) (0 : Fin 2) q))
        (fun (q : Fin 128) => (W (Proc.devRef .tc main_arg18) : S4x2x128.Idx → EReal) (ValueIdx.ix3 (3 : Fin 4) (1 : Fin 2) q))
        (fun (p q : Fin 128) => (W (Proc.devRef .tc main_arg19) : S4x128x128.Idx → EReal) (ValueIdx.ix3 (3 : Fin 4) p q))
        (fun (q : Fin 128) => (W (Proc.devRef .tc main_arg20) : S4x2x128.Idx → EReal) (ValueIdx.ix3 (3 : Fin 4) (0 : Fin 2) q))
        (fun (q : Fin 128) => (W (Proc.devRef .tc main_arg20) : S4x2x128.Idx → EReal) (ValueIdx.ix3 (3 : Fin 4) (1 : Fin 2) q))) := by
  try simp only [RefRun.chunk30, RefRun.chunk31]
  after_results_simp
  try simp only [StableHlo.TRef.ofBuf, StableHlo.TRef.toBuf, cast_eq]
  exact RFuse.nodePrinted_eq 3 (by decide) ..

set_option maxHeartbeats 1000000 in
/-- The same between the buffers' final contents. -/
theorem st_node3 (V : Val) :
    (Rv V (Proc.devRef .tc main_v1629) : S50000x128.Idx → EReal) =
      Spec.toVec2 (Spec.ggTail (Spec.ofVec2 (a := 50000) (b := 128) (Rv V (Proc.devRef .tc main_v1574))) (Spec.ofVec2 (a := 50000) (b := 128) (Rv V (Proc.devRef .tc main_v1262))) ((argsOfV V).fuse_norm_gn 3 0) ((argsOfV V).fuse_norm_gn 3 1) ((argsOfV V).fuse_ctr2_w 3) ((argsOfV V).fuse_ctr2_gn 3 0) ((argsOfV V).fuse_ctr2_gn 3 1)) := by
  have e := win_node3 (W30 V)
  have ho : Rv V (Proc.devRef .tc main_v1629) = (after (RefRun.chunk31 (F := Ideal)) (after (RefRun.chunk30 (F := Ideal)) (W30 V))) (Proc.devRef .tc main_v1629) := by
    rw [at31 V main_v1629 ⟨by decide, by decide, by decide⟩, W31]
  have hg : Rv V (Proc.devRef .tc main_v1262) = W30 V (Proc.devRef .tc main_v1262) := pre30 V main_v1262 ⟨by decide, by decide, by decide, by decide, by decide⟩
  have ht : Rv V (Proc.devRef .tc main_v1574) = (after (RefRun.chunk31 (F := Ideal)) (after (RefRun.chunk30 (F := Ideal)) (W30 V))) (Proc.devRef .tc main_v1574) := by
    rw [at31 V main_v1574 ⟨by decide, by decide, by decide⟩, W31]
  have ha18 : W30 V (Proc.devRef .tc main_arg18) = V (Proc.devRef .tc main_arg18) := argW30 V main_arg18 unw_arg18
  have ha19 : W30 V (Proc.devRef .tc main_arg19) = V (Proc.devRef .tc main_arg19) := argW30 V main_arg19 unw_arg19
  have ha20 : W30 V (Proc.devRef .tc main_arg20) = V (Proc.devRef .tc main_arg20) := argW30 V main_arg20 unw_arg20
  rw [← ho, ← hg, ← ht, ha18, ha19, ha20] at e
  exact e

end Cert.RChain

end
-- ==== Proof.RVal.lean ====
/-
  The host operations of a pooling layer of the reference, read at the ideal values as terms of the specification:
  the wrap of a negative index and the row gather, the accumulating row scatter, a product against a transposed
  weight as a linear layer, the 256-wide product of a concatenation as the sum of two linear layers, the positive
  part, a bias row, the row normalisation as printed (mean, mean squared deviation, square root, quotient, scale,
  shift), the cut of one layer or one row out of a packed weight, and the product of the zero matrix.
-/
import proofs.«413166_j32323923870246_3_alg».proof.Proof.Net
import proofs.«413166_j32323923870246_3_alg».proof.Proof.LibGn
import Idealize.ShloMosaic.Lib.IdealHost
import Idealize.ShloMosaic.Lib.ValueLayout
import Idealize.ShloMosaic.Lib.Pipeline.Value
import Idealize.ShloMosaic.PureOps.Ideal.Laws

noncomputable section

namespace Cert.RVal

open Idealize.ShloMosaic Idealize.ShloMosaic.ValueIdx
open scoped BigOperators

/-- Two rank-2 arrays that agree at every pair of coordinates are equal. -/
theorem funext_ix2 {a b : Nat} {α : Type} {f g : (⟨2, ![a, b]⟩ : Shape).Idx → α}
    (h : ∀ (p : Fin a) (q : Fin b), f (ix2 p q) = g (ix2 p q)) : f = g := by
  funext i
  rw [eq_ix2 i]
  exact h _ _

/-- The host's square root at an index. -/
theorem hostSqrt_apply {s : Shape} {φ : FTy} (a : FVec Ideal s φ) (i : s.Idx) : Host.sqrt a i = Ideal.sqrt (a i) := rfl

/-! ## Index words: the wrap of a negative index -/

/-- The word a negative index is replaced by: the index plus the table length, as words. -/
def wrapW (N : Nat) (i : BitVec 32) : BitVec 32 := if i.toInt < 0 then i + BitVec.ofNat 32 N else i

/-- The printed wrap (compare with zero, add the length, select) read at an index. -/
theorem wrapWord_apply {s : Shape} (N : Nat) (hb0 hbN : (⟨0, ![]⟩ : Shape).BroadcastsInDim s ![])
    (idx : IVec s 32) (i : s.Idx) :
    select (cmpi .slt idx (broadcastInDim s ![] hb0 (constantI ⟨0, ![]⟩ 32 0#32)))
      (addi idx (broadcastInDim s ![] hbN (constantI ⟨0, ![]⟩ 32 (BitVec.ofNat 32 N)))) idx i = wrapW N (idx i) := by
  rw [select_apply]
  show Scalar.select (IntOp.cmpi .slt (idx i) (broadcastInDim s ![] hb0 (constantI ⟨0, ![]⟩ 32 0#32) i))
    (idx i + broadcastInDim s ![] hbN (constantI ⟨0, ![]⟩ 32 (BitVec.ofNat 32 N)) i) (idx i) = _
  rw [broadcastInDim_scalar_apply, broadcastInDim_scalar_apply]
  show Scalar.select (BitVec.ofBool ((idx i).slt 0#32)) (idx i + BitVec.ofNat 32 N) (idx i) = _
  unfold wrapW Scalar.select
  rw [BitVec.slt_eq_decide]
  by_cases h : (idx i).toInt < 0
  · have h' : (idx i).toInt < (0#32 : BitVec 32).toInt := by simpa using h
    simp [h, h']
  · have h' : ¬ (idx i).toInt < (0#32 : BitVec 32).toInt := by simpa using h
    simp [h, h']

/-- The wrapped word read signed is the wrapped integer: no overflow for a table shorter than 2³¹. -/
theorem wrapW_toInt (N : Nat) (hN : N < 2147483648) (i : BitVec 32) : (wrapW N i).toInt = Cert.Spec.wrap N i := by
  have hlo : (-2147483648 : Int) ≤ i.toInt := by
    have := BitVec.le_toInt i
    norm_num at this
    exact this
  have hhi : i.toInt < 2147483648 := by
    have := BitVec.toInt_lt (x := i)
    norm_num at this
    exact this
  have hbm : ∀ z : Int, -2147483648 ≤ z → z < 2147483648 → Int.bmod z 4294967296 = z := by
    intro z h1 h2
    rw [Int.bmod_def]
    split <;> omega
  have hNi : (BitVec.ofNat 32 N).toInt = (N : Int) := by
    rw [BitVec.toInt_ofNat']
    norm_num
    exact hbm _ (by omega) (by omega)
  unfold wrapW Cert.Spec.wrap
  split
  · next h =>
    rw [BitVec.toInt_add, hNi]
    norm_num
    exact hbm _ (by omega) (by omega)
  · rfl

/-! ## A row gather -/

/-- The dimension numbers of a row gather: operand `[N, k]`, start indices `[e, 1]`, result `[e, k]`. -/
abbrev rowGatherDims (N k e : Nat)
    (wf : GatherDims.WF ⟨2, ![N, k]⟩ ⟨2, ![e, 1]⟩ ⟨2, ![e, k]⟩ [1] [0] [] [0] [] 1 ![1, k]) :
    GatherDims ⟨2, ![N, k]⟩ ⟨2, ![e, 1]⟩ ⟨2, ![e, k]⟩ where
  offsetDims := [1]
  collapsedSliceDims := [0]
  operandBatchingDims := []
  startIndicesBatchingDims := []
  startIndexMap := [0]
  indexVectorDim := 1
  sliceSizes := ![1, k]
  wf := wf

/-- A row gather read at `(p, q)`: column `q` of the operand's row at the start index of `p`, read signed and clamped. -/
theorem rowGather_apply {α : Type} {N k e w : Nat} (hN : 0 < N)
    (wf : GatherDims.WF ⟨2, ![N, k]⟩ ⟨2, ![e, 1]⟩ ⟨2, ![e, k]⟩ [1] [0] [] [0] [] 1 ![1, k])
    (x : (⟨2, ![N, k]⟩ : Shape).Idx → α) (idx : IVec ⟨2, ![e, 1]⟩ w) (p : Fin e) (q : Fin k) :
    Host.gather (rowGatherDims N k e wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowGatherDims N k e wf).start (ix2 p q) idx 0 + (rowGatherDims N k e wf).batchCoord (ix2 p q) 0
      + (rowGatherDims N k e wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N k e wf).startIndexMap from List.mem_singleton.mpr rfl)]
    have hsi : (rowGatherDims N k e wf).siIdx (ix2 p q) ⟨List.idxOf (0 : Fin 2) (rowGatherDims N k e wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowGatherDims N k e wf).start (ix2 p q) idx 1 + (rowGatherDims N k e wf).batchCoord (ix2 p q) 1
      + (rowGatherDims N k e wf).offCoord (ix2 p q) 1 = _
    rw [GatherDims.batchCoord_eq_zero _ _ _ List.not_mem_nil]
    unfold GatherDims.start
    rw [dif_neg (show ¬ (1 : Fin 2) ∈ (rowGatherDims N k e wf).startIndexMap from
      fun h => absurd (List.mem_singleton.mp h) (by decide : (1 : Fin 2) ≠ 0))]
    unfold GatherDims.offCoord
    rw [dif_pos (show (1 : Fin 2) ∈ (rowGatherDims N k e wf).sKept from
      (GatherDims.mem_sKept _ _).mpr
        ⟨fun h => absurd (List.mem_singleton.mp h) (by decide : (1 : Fin 2) ≠ 0), List.not_mem_nil⟩)]
    simp only [Nat.zero_add]
    rfl

/-- The row a clamped gather reads, from a word whose signed reading is the wrapped index. -/
theorem clampRow_val (N : Nat) (hN : 0 < N) (i v : BitVec 32) (hv : v.toInt = Cert.Spec.wrap N i) :
    min v.toInt.toNat (N - 1) = (Cert.Spec.clampRow N hN i).val := by
  show _ = (max 0 (min (Cert.Spec.wrap N i) ((N : Int) - 1))).toNat
  rw [hv]
  omega

/-! ## Broadcasts read at an index -/

/-- A vector laid out as an `[e, 1]` column reads, at `(p, u)`, the vector at `p`. -/
theorem vecCol_apply {α : Type} {e : Nat} (h : (⟨1, ![e]⟩ : Shape).BroadcastsInDim ⟨2, ![e, 1]⟩ ![0])
    (v : (⟨1, ![e]⟩ : Shape).Idx → α) (p : Fin e) (u : Fin 1) :
    broadcastInDim ⟨2, ![e, 1]⟩ ![0] h v (ix2 p u) = v (ix1 p) := by
  refine broadcastInDim_apply _ h v (ix2 p u) (ix1 p) fun a => ?_
  match a with
  | ⟨0, _⟩ =>
    show p.val = if e = 1 then 0 else p.val
    split
    · have := p.isLt; omega
    · rfl

/-- An `[n, 1]` column copied along the rows reads, at `(p, q)`, the column at `(p, 0)`. -/
theorem colBcast_apply {α : Type} {n k : Nat} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ =>
    show (0 : Nat) = if (1 : Nat) = 1 then 0 else q.val
    rfl

/-- A vector of length `k` copied down `n` rows (through a `[1, k]` row) reads, at `(p, q)`, the vector at `q`. -/
theorem rowBcast_apply {α : Type} {n k : Nat} (h1 : (⟨1, ![k]⟩ : Shape).BroadcastsInDim ⟨2, ![1, k]⟩ ![1])
    (h2 : (⟨2, ![1, k]⟩ : Shape).BroadcastsInDim ⟨2, ![n, k]⟩ ![0, 1])
    (b : (⟨1, ![k]⟩ : Shape).Idx → α) (p : Fin n) (q : Fin k) :
    broadcastInDim ⟨2, ![n, k]⟩ ![0, 1] h2 (broadcastInDim ⟨2, ![1, k]⟩ ![1] h1 b) (ix2 p q) = b (ix1 q) := by
  refine (broadcastInDim_apply _ h2 _ (ix2 p q) (ix2 (0 : Fin 1) q) fun a => ?_).trans ?_
  · match a with
    | ⟨0, _⟩ =>
      show (0 : Nat) = if (1 : Nat) = 1 then 0 else p.val
      rfl
    | ⟨1, _⟩ =>
      show q.val = if k = 1 then 0 else q.val
      split
      · have := q.isLt; omega
      · rfl
  · refine broadcastInDim_apply _ h1 b (ix2 (0 : Fin 1) q) (ix1 q) fun a => ?_
    match a with
    | ⟨0, _⟩ =>
      show q.val = if k = 1 then 0 else q.val
      split
      · have := q.isLt; omega
      · rfl

/-! ## The wrapped index column and the row gather as the specification's -/

/-- The column of wrapped start indices the host builds from an index vector `A` for a table of `N` rows. -/
abbrev wrappedCol {e : Nat} (N : Nat) (h0 : (⟨0, ![]⟩ : Shape).BroadcastsInDim ⟨1, ![e]⟩ ![])
    (hb : (⟨1, ![e]⟩ : Shape).BroadcastsInDim ⟨2, ![e, 1]⟩ ![0]) (A : IVec ⟨1, ![e]⟩ 32) : IVec ⟨2, ![e, 1]⟩ 32 :=
  broadcastInDim ⟨2, ![e, 1]⟩ ![0] hb
    (select (cmpi .slt A (broadcastInDim ⟨1, ![e]⟩ ![] h0 (constantI ⟨0, ![]⟩ 32 0#32)))
      (addi A (broadcastInDim ⟨1, ![e]⟩ ![] h0 (constantI ⟨0, ![]⟩ 32 (BitVec.ofNat 32 N)))) A)

/-- Entry `(p, 0)` of that column reads signed as the wrapped index of `A p`. -/
theorem wrappedCol_toInt {e : Nat} (N : Nat) (hN : N < 2147483648) (h0 : (⟨0, ![]⟩ : Shape).BroadcastsInDim ⟨1, ![e]⟩ ![])
    (hb : (⟨1, ![e]⟩ : Shape).BroadcastsInDim ⟨2, ![e, 1]⟩ ![0]) (A : IVec ⟨1, ![e]⟩ 32) (p : Fin e) :
    (wrappedCol N h0 hb A (ix2 p (0 : Fin 1))).toInt = Cert.Spec.wrap N (A (ix1 p)) := by
  unfold wrappedCol
  rw [vecCol_apply, wrapWord_apply N h0 h0 A (ix1 p)]
  exact wrapW_toInt N hN _

/-- The gather at the host's wrapped start indices is the specification's row gather. -/
theorem gather_wrapped_rows {N k e : Nat} (hN : 0 < N) (hN' : N < 2147483648)
    (wf : GatherDims.WF ⟨2, ![N, k]⟩ ⟨2, ![e, 1]⟩ ⟨2, ![e, k]⟩ [1] [0] [] [0] [] 1 ![1, k])
    (h0 : (⟨0, ![]⟩ : Shape).BroadcastsInDim ⟨1, ![e]⟩ ![])
    (hb : (⟨1, ![e]⟩ : Shape).BroadcastsInDim ⟨2, ![e, 1]⟩ ![0])
    (X : FVec Ideal ⟨2, ![N, k]⟩ .f32) (A : IVec ⟨1, ![e]⟩ 32) :
    Host.gather (rowGatherDims N k e wf) X (wrappedCol N h0 hb A)
      = Cert.Spec.toVec2 (Cert.Spec.gatherRows hN (Cert.Spec.ofVec2 X) (fun p => A (ix1 p))) := by
  apply funext_ix2
  intro p q
  rw [rowGather_apply hN wf X _ p q]
  show X (ix2 _ q) = X (ix2 (Cert.Spec.clampRow N hN (A (ix1 p))) q)
  exact congrArg (fun r => X (ix2 r q)) (Fin.ext (clampRow_val N hN _ _ (wrappedCol_toInt N hN' h0 hb A p)))

/-! ## An accumulating row scatter -/

/-- The dimension numbers of a scatter of whole rows: operand `[N, k]`, one scatter index per update row (`[e, 1]`). -/
abbrev rowScatterDims (N k e : Nat) (wf : ScatterDims.WF ⟨2, ![N, k]⟩ ⟨2, ![e, 1]⟩ ⟨2, ![e, k]⟩ [1] [0] [0] 1) :
    ScatterDims ⟨2, ![N, k]⟩ ⟨2, ![e, 1]⟩ ⟨2, ![e, k]⟩ where
  updateWindowDims := [1]
  insertedWindowDims := [0]
  scatterDimsToOperandDims := [0]
  indexVectorDim := 1
  wf := wf

/-- Update entry `(p, q)` lands on operand entry `(r, q')` exactly when index `p`, read signed, is `r` and the
    columns agree. -/
theorem rowScatter_resultIdx {N k e w : Nat}
    (wf : ScatterDims.WF ⟨2, ![N, k]⟩ ⟨2, ![e, 1]⟩ ⟨2, ![e, k]⟩ [1] [0] [0] 1)
    (idx : IVec ⟨2, ![e, 1]⟩ w) (p : Fin e) (q : Fin k) (r : Fin N) (q' : Fin k) :
    (rowScatterDims N k e wf).resultIdx? (ix2 p q) idx = some (ix2 r q')
      ↔ (idx (ix2 p (0 : Fin 1))).toInt = (r.val : Int) ∧ q = q' := by
  have hs0 : (rowScatterDims N k e wf).start (ix2 p q) idx 0 = (idx (ix2 p (0 : Fin 1))).toInt := by
    unfold ScatterDims.start
    rw [dif_pos (show (0 : Fin 2) ∈ (rowScatterDims N k e wf).scatterDimsToOperandDims from List.mem_singleton.mpr rfl)]
    have hsi : (rowScatterDims N k e wf).siIdx (ix2 p q)
        ⟨List.idxOf (0 : Fin 2) (rowScatterDims N k e wf).scatterDimsToOperandDims,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
  have hs1 : (rowScatterDims N k e wf).start (ix2 p q) idx 1 = 0 := by
    first
      | rfl
      | (unfold ScatterDims.start
         rw [dif_neg (show ¬ (1 : Fin 2) ∈ (rowScatterDims N k e wf).scatterDimsToOperandDims from by decide)])
  have hw0 : (rowScatterDims N k e wf).window (ix2 p q) 0 = 0 := by
    first
      | rfl
      | (unfold ScatterDims.window
         rw [dif_neg (show ¬ (0 : Fin 2) ∈ (rowScatterDims N k e wf).sKept from by decide)])
  have hw1 : (rowScatterDims N k e wf).window (ix2 p q) 1 = q.val := by
    first
      | rfl
      | (unfold ScatterDims.window
         rw [dif_pos (show (1 : Fin 2) ∈ (rowScatterDims N k e wf).sKept from by decide)]
         rfl)
  have hr := r.isLt
  have hq := q.isLt
  have hq' := q'.isLt
  unfold ScatterDims.resultIdx?
  constructor
  · intro h
    split at h
    · next hc =>
      have h' := Option.some.inj h
      have hc0 : 0 ≤ (rowScatterDims N k e wf).start (ix2 p q) idx 0
          + ((rowScatterDims N k e wf).window (ix2 p q) 0 : Nat) := (hc (0 : Fin 2)).1
      have hc1 : 0 ≤ (rowScatterDims N k e wf).start (ix2 p q) idx 1
          + ((rowScatterDims N k e wf).window (ix2 p q) 1 : Nat) := (hc (1 : Fin 2)).1
      have e0 : ((rowScatterDims N k e wf).start (ix2 p q) idx 0
          + ((rowScatterDims N k e wf).window (ix2 p q) 0 : Nat)).toNat = r.val :=
        congrArg Fin.val (congrFun h' (0 : Fin 2))
      have e1 : ((rowScatterDims N k e wf).start (ix2 p q) idx 1
          + ((rowScatterDims N k e wf).window (ix2 p q) 1 : Nat)).toNat = q'.val :=
        congrArg Fin.val (congrFun h' (1 : Fin 2))
      rw [hs0, hw0] at hc0 e0
      rw [hs1, hw1] at hc1 e1
      exact ⟨by omega, Fin.ext (by omega)⟩
    · exact absurd h (by simp)
  · rintro ⟨h0, hqq⟩
    have hqv : q.val = q'.val := congrArg Fin.val hqq
    have hc : ∀ a : Fin 2, 0 ≤ (rowScatterDims N k e wf).start (ix2 p q) idx a
          + ((rowScatterDims N k e wf).window (ix2 p q) a : Nat)
        ∧ (rowScatterDims N k e wf).start (ix2 p q) idx a + ((rowScatterDims N k e wf).window (ix2 p q) a : Nat)
          < ((⟨2, ![N, k]⟩ : Shape).size a : Nat) := by
      refine Fin.forall_fin_two.2 ⟨?_, ?_⟩
      · rw [hs0, hw0, h0]
        refine ⟨by omega, ?_⟩
        show (r.val : Int) + ((0 : Nat) : Int) < (N : Int)
        omega
      · rw [hs1, hw1]
        refine ⟨by omega, ?_⟩
        show (0 : Int) + (q.val : Int) < (k : Int)
        omega
    split
    · refine congrArg some (funext fun a => Fin.ext ?_)
      match a with
      | ⟨0, _⟩ =>
        show ((rowScatterDims N k e wf).start (ix2 p q) idx 0
          + ((rowScatterDims N k e wf).window (ix2 p q) 0 : Nat)).toNat = r.val
        rw [hs0, hw0, h0]
        omega
      | ⟨1, _⟩ =>
        show ((rowScatterDims N k e wf).start (ix2 p q) idx 1
          + ((rowScatterDims N k e wf).window (ix2 p q) 1 : Nat)).toNat = q'.val
        rw [hs1, hw1]
        omega
    · next hn => exact absurd hc hn

/-- The accumulating scatter at entry `(r, q)`: the operand's entry plus the updates' column `q` over the rows whose
    index, read signed, is `r`. -/
theorem hostScatterAdd_rows_apply {N k e w : Nat}
    (wf : ScatterDims.WF ⟨2, ![N, k]⟩ ⟨2, ![e, 1]⟩ ⟨2, ![e, k]⟩ [1] [0] [0] 1)
    (x : (⟨2, ![N, k]⟩ : Shape).Idx → EReal) (idx : IVec ⟨2, ![e, 1]⟩ w) (upd : (⟨2, ![e, k]⟩ : Shape).Idx → EReal)
    (r : Fin N) (q : Fin k) :
    Ideal.hostScatterAdd (rowScatterDims N k e wf) x idx upd (ix2 r q)
      = x (ix2 r q)
        + ∑ p ∈ Finset.univ.filter (fun p : Fin e => (idx (ix2 p (0 : Fin 1))).toInt = (r.val : Int)), upd (ix2 p q) := by
  unfold Ideal.hostScatterAdd
  refine congrArg (fun z => x (ix2 r q) + z) ?_
  rw [Finset.sum_filter, Finset.sum_filter, sum_idx2]
  refine Finset.sum_congr rfl fun p _ => ?_
  by_cases hA : (idx (ix2 p (0 : Fin 1))).toInt = (r.val : Int)
  · rw [if_pos hA]
    refine (Finset.sum_eq_single q (fun b _ hb => ?_) (fun h => absurd (Finset.mem_univ q) h)).trans ?_
    · exact if_neg fun h => hb ((rowScatter_resultIdx wf idx p b r q).1 h).2
    · exact if_pos ((rowScatter_resultIdx wf idx p q r q).2 ⟨hA, rfl⟩)
  · rw [if_neg hA]
    exact Finset.sum_eq_zero fun b _ => if_neg fun h => hA ((rowScatter_resultIdx wf idx p b r q).1 h).1

/-- The scatter at the host's wrapped indices is the specification's accumulating row scatter. -/
theorem scatter_wrapped_rows {N k e : Nat} (hN' : N < 2147483648)
    (wf : ScatterDims.WF ⟨2, ![N, k]⟩ ⟨2, ![e, 1]⟩ ⟨2, ![e, k]⟩ [1] [0] [0] 1)
    (h0 : (⟨0, ![]⟩ : Shape).BroadcastsInDim ⟨1, ![e]⟩ ![])
    (hb : (⟨1, ![e]⟩ : Shape).BroadcastsInDim ⟨2, ![e, 1]⟩ ![0])
    (X : FVec Ideal ⟨2, ![N, k]⟩ .f32) (A : IVec ⟨1, ![e]⟩ 32) (U : FVec Ideal ⟨2, ![e, k]⟩ .f32) :
    Host.scatterAdd (rowScatterDims N k e wf) X (wrappedCol N h0 hb A) U
      = Cert.Spec.toVec2 (Cert.Spec.scatterAddRows (Cert.Spec.ofVec2 X) (fun p => A (ix1 p)) (Cert.Spec.ofVec2 U)) := by
  apply funext_ix2
  intro r q
  show Ideal.hostScatterAdd (rowScatterDims N k e wf) X (wrappedCol N h0 hb A) U (ix2 r q) = _
  rw [hostScatterAdd_rows_apply]
  show X (ix2 r q) + _ = X (ix2 r q)
    + ∑ j ∈ Finset.univ.filter (fun j : Fin e => Cert.Spec.wrap N (A (ix1 j)) = (r.val : Int)), U (ix2 j q)
  refine congrArg (fun z => X (ix2 r q) + z) ?_
  refine Finset.sum_congr ?_ fun _ _ => rfl
  refine Finset.filter_congr fun p _ => ?_
  rw [wrappedCol_toInt N hN' h0 hb A p]

/-! ## Products -/

/-- The dimension numbers of a rows-by-columns product: `[n, k]` by `[k, o]`. -/
abbrev mmDims (n k o : Nat) (wf : DotDims.WF ⟨2, ![n, k]⟩ ⟨2, ![k, o]⟩ ⟨2, ![n, o]⟩ [1] [0] [0] [1] [] []) :
    DotDims ⟨2, ![n, k]⟩ ⟨2, ![k, o]⟩ ⟨2, ![n, o]⟩ where
  lhsContracting := [1]
  rhsContracting := [0]
  lhsNonContracting := [0]
  rhsNonContracting := [1]
  lhsBatch := []
  rhsBatch := []
  wf := wf

/-- The host's product read at `(p, q)`: the sum over the shared axis of the products of the entries. -/
theorem mm_apply {n k o : Nat} (wf : DotDims.WF ⟨2, ![n, k]⟩ ⟨2, ![k, o]⟩ ⟨2, ![n, o]⟩ [1] [0] [0] [1] [] [])
    (l : FVec Ideal ⟨2, ![n, k]⟩ .f32) (r : FVec Ideal ⟨2, ![k, o]⟩ .f32) (p : Fin n) (q : Fin o) :
    Host.dotGeneral (mmDims n k o wf) none l r (ix2 p q) = ∑ c : Fin k, l (ix2 p c) * r (ix2 c q) := by
  show FloatOps.dotGeneral (mmDims n k o wf) none .single l r (ix2 p q) = _
  rw [Ideal.dotGeneral_apply]
  have hr1 : (mmDims n k o wf).contr.rank = 1 := rfl
  have hs1 : (mmDims n k o wf).contr.size ⟨0, by omega⟩ = k := rfl
  rw [← Equiv.sum_comp (contrEquiv1 (mmDims n k o wf) k hr1 hs1).symm]
  refine Finset.sum_congr rfl fun c _ => ?_
  have hc : ((((contrEquiv1 (mmDims n k o wf) k hr1 hs1).symm c) ⟨0, by omega⟩ : Fin _) : Nat) = c.val :=
    contrEquiv1_symm_val _ k hr1 hs1 c
  have hl : (mmDims n k o wf).lhsIdx (ix2 p q) ((contrEquiv1 (mmDims n k o wf) k hr1 hs1).symm c) = ix2 p c := by
    funext a; refine Fin.ext ?_
    match a with
    | ⟨0, _⟩ => rfl
    | ⟨1, _⟩ => exact hc
  have hr : (mmDims n k o wf).rhsIdx (ix2 p q) ((contrEquiv1 (mmDims n k o wf) k hr1 hs1).symm c) = ix2 c q := by
    funext a; refine Fin.ext ?_
    match a with
    | ⟨0, _⟩ => exact hc
    | ⟨1, _⟩ => rfl
  show l ((mmDims n k o wf).lhsIdx (ix2 p q) ((contrEquiv1 (mmDims n k o wf) k hr1 hs1).symm c))
      * r ((mmDims n k o wf).rhsIdx (ix2 p q) ((contrEquiv1 (mmDims n k o wf) k hr1 hs1).symm c)) = _
  rw [hl, hr]

/-- A product against a transposed weight is the specification's linear layer. -/
theorem mm_transposed_eq_lin {n k o : Nat}
    (wf : DotDims.WF ⟨2, ![n, k]⟩ ⟨2, ![k, o]⟩ ⟨2, ![n, o]⟩ [1] [0] [0] [1] [] [])
    (ht : (⟨2, ![o, k]⟩ : Shape).Transposes [1, 0] ⟨2, ![k, o]⟩)
    (l : FVec Ideal ⟨2, ![n, k]⟩ .f32) (w : FVec Ideal ⟨2, ![o, k]⟩ .f32) :
    Host.dotGeneral (mmDims n k o wf) none l (transpose ⟨2, ![k, o]⟩ [1, 0] w ht)
      = Cert.Spec.toVec2 (Cert.Spec.lin (Cert.Spec.ofVec2 l) (Cert.Spec.ofVec2 w)) := by
  apply funext_ix2
  intro p q
  rw [mm_apply]
  show _ = ∑ j : Fin k, l (ix2 p j) * w (ix2 q j)
  refine Finset.sum_congr rfl fun c _ => ?_
  rw [transpose_ix2_apply]

/-- The product of the zero matrix is the zero matrix. -/
theorem mm_zero_left {n k o : Nat} (wf : DotDims.WF ⟨2, ![n, k]⟩ ⟨2, ![k, o]⟩ ⟨2, ![n, o]⟩ [1] [0] [0] [1] [] [])
    (hb : (⟨0, ![]⟩ : Shape).BroadcastsInDim ⟨2, ![n, k]⟩ ![]) (r : FVec Ideal ⟨2, ![k, o]⟩ .f32) :
    Host.dotGeneral (mmDims n k o wf) none
        (broadcastInDim ⟨2, ![n, k]⟩ ![] hb (constant (F := Ideal) ⟨0, ![]⟩ .f32 0x00000000#32)) r
      = Cert.Spec.toVec2 (fun (_ : Fin n) (_ : Fin o) => (0 : EReal)) := by
  apply funext_ix2
  intro p q
  rw [mm_apply]
  show _ = (0 : EReal)
  refine Finset.sum_eq_zero fun c _ => ?_
  rw [broadcastInDim_scalar_apply, constant_apply, Ideal.ofBits_zero_f32, zero_mul]

/-- The zero array the host broadcasts is the zero matrix. -/
theorem zeros_eq {n k : Nat} (hb : (⟨0, ![]⟩ : Shape).BroadcastsInDim ⟨2, ![n, k]⟩ ![]) :
    broadcastInDim ⟨2, ![n, k]⟩ ![] hb (constant (F := Ideal) ⟨0, ![]⟩ .f32 0x00000000#32)
      = Cert.Spec.toVec2 (fun (_ : Fin n) (_ : Fin k) => (0 : EReal)) := by
  apply funext_ix2
  intro p q
  rw [broadcastInDim_scalar_apply, constant_apply, Ideal.ofBits_zero_f32]
  rfl

/-! ## Cuts of packed weights -/

/-- Layer `l` cut out of a packed `[L, a, b]` array and viewed `[a, b]`, at `(p, q)`. -/
theorem layer3_apply {α : Type} {L a b : Nat} (l : Nat) (hl : l < L) (X : (⟨3, ![L, a, b]⟩ : Shape).Idx → α)
    (hs : (⟨3, ![L, a, b]⟩ : Shape).Slices ![l, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![l, 0, 0] X hs) hc (ix2 p q) = X (ix3 ⟨l, hl⟩ p q) := by
  rw [shapeCast_1ab_ab_apply]
  refine extractStridedSlice_apply _ X hs _ (ix3 ⟨l, hl⟩ p q) fun c => ?_
  match c with
  | ⟨0, _⟩ => rfl
  | ⟨1, _⟩ => exact (Nat.zero_add _).symm
  | ⟨2, _⟩ => exact (Nat.zero_add _).symm

/-- Row `t` cut out of an `[m, b]` array and flattened, at `q`. -/
theorem row1_apply {α : Type} {m b : Nat} (t : Nat) (ht : t < m) (X : (⟨2, ![m, b]⟩ : Shape).Idx → α)
    (hs : (⟨2, ![m, b]⟩ : Shape).Slices ![t, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![t, 0] X hs) hc (ix1 q) = X (ix2 ⟨t, ht⟩ q) := by
  rw [shapeCast_1a_a_apply]
  refine extractStridedSlice_apply _ X hs _ (ix2 ⟨t, ht⟩ q) fun c => ?_
  match c with
  | ⟨0, _⟩ => rfl
  | ⟨1, _⟩ => exact (Nat.zero_add _).symm

/-- Layer `l` of a packed weight, as the matrix the specification indexes. -/
theorem layer3_eq {L a b : Nat} (l : Nat) (hl : l < L) (X : FVec Ideal ⟨3, ![L, a, b]⟩ .f32)
    (hs : (⟨3, ![L, a, b]⟩ : Shape).Slices ![l, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![l, 0, 0] X hs) hc
      = Cert.Spec.toVec2 (fun p q => X (ix3 ⟨l, hl⟩ p q)) := by
  apply funext_ix2
  intro p q
  exact layer3_apply l hl X hs hc p q

/-! ## Pointwise stages -/

/-- The positive part as printed: the maximum with the broadcast zero. -/
theorem relu_eq {n k : Nat} (hb : (⟨0, ![]⟩ : Shape).BroadcastsInDim ⟨2, ![n, k]⟩ ![]) (x : FVec Ideal ⟨2, ![n, k]⟩ .f32) :
    maximumf x (broadcastInDim ⟨2, ![n, k]⟩ ![] hb (constant (F := Ideal) ⟨0, ![]⟩ .f32 0x00000000#32))
      = Cert.Spec.toVec2 (Cert.Spec.relu (Cert.Spec.ofVec2 x)) := by
  apply funext_ix2
  intro p q
  rw [maximumf_apply, broadcastInDim_scalar_apply, constant_apply, Ideal.ofBits_zero_f32]
  rfl

/-- A bias vector added to every row. -/
theorem addRow_eq {n k : Nat} (h1 : (⟨1, ![k]⟩ : Shape).BroadcastsInDim ⟨2, ![1, k]⟩ ![1])
    (h2 : (⟨2, ![1, k]⟩ : Shape).BroadcastsInDim ⟨2, ![n, k]⟩ ![0, 1])
    (x : FVec Ideal ⟨2, ![n, k]⟩ .f32) (b : FVec Ideal ⟨1, ![k]⟩ .f32) :
    addf x (broadcastInDim ⟨2, ![n, k]⟩ ![0, 1] h2 (broadcastInDim ⟨2, ![1, k]⟩ ![1] h1 b))
      = Cert.Spec.toVec2 (Cert.Spec.addRow (Cert.Spec.ofVec2 x) (fun q => b (ix1 q))) := by
  apply funext_ix2
  intro p q
  rw [addf_apply, rowBcast_apply]
  rfl

/-- Entrywise difference and sum. -/
theorem sub_eq {n k : Nat} (x y : FVec Ideal ⟨2, ![n, k]⟩ .f32) :
    subf x y = Cert.Spec.toVec2 (Cert.Spec.sub (Cert.Spec.ofVec2 x) (Cert.Spec.ofVec2 y)) := by
  apply funext_ix2
  intro p q
  rfl
theorem add_eq {n k : Nat} (x y : FVec Ideal ⟨2, ![n, k]⟩ .f32) :
    addf x y = Cert.Spec.toVec2 (Cert.Spec.add (Cert.Spec.ofVec2 x) (Cert.Spec.ofVec2 y)) := by
  apply funext_ix2
  intro p q
  rfl

/-! ## The 256-wide product of a concatenation -/

/-- Two `[n, 128]` arrays laid side by side, read at `(p, c)`. -/
theorem concat2_apply {n : Nat} (a b : FVec Ideal ⟨2, ![n, 128]⟩ .f32)
    (hcat : Shape.Concatenates [(⟨2, ![n, 128]⟩ : Shape), ⟨2, ![n, 128]⟩] ⟨2, ![n, 256]⟩ 1) (p : Fin n) (c : Fin 256) :
    concatenate ⟨2, ![n, 256]⟩ 1 [⟨(⟨2, ![n, 128]⟩ : Shape), a⟩, ⟨(⟨2, ![n, 128]⟩ : Shape), b⟩] hcat (ix2 p c)
      = if hc : c.val < 128 then a (ix2 p ⟨c.val, hc⟩) else b (ix2 p ⟨c.val - 128, by omega⟩) := by
  by_cases hc : c.val < 128
  · rw [dif_pos hc]
    refine concatenate_pair_apply_left 1 a b hcat (ix2 p c) rfl (ix2 p ⟨c.val, hc⟩) fun d => ?_
    match d with
    | ⟨0, _⟩ => rfl
    | ⟨1, _⟩ => rfl
  · rw [dif_neg hc]
    refine concatenate_pair_apply_right 1 a b hcat (ix2 p c) rfl rfl (ix2 p ⟨c.val - 128, by omega⟩) (fun d hd => ?_) ?_
    · match d with
      | ⟨0, _⟩ => rfl
      | ⟨1, _⟩ => exact absurd rfl hd
    · show (c.val - 128) + 128 = c.val
      omega

/-- The 256-wide product of the concatenation against the transposed first context weight is the sum of the two
    linear layers against the weight's two column halves. -/
theorem ctx1_eq {n : Nat} (wf : DotDims.WF ⟨2, ![n, 256]⟩ ⟨2, ![256, 128]⟩ ⟨2, ![n, 128]⟩ [1] [0] [0] [1] [] [])
    (ht : (⟨2, ![128, 256]⟩ : Shape).Transposes [1, 0] ⟨2, ![256, 128]⟩)
    (hcat : Shape.Concatenates [(⟨2, ![n, 128]⟩ : Shape), ⟨2, ![n, 128]⟩] ⟨2, ![n, 256]⟩ 1)
    (a b : FVec Ideal ⟨2, ![n, 128]⟩ .f32) (W : FVec Ideal ⟨2, ![128, 256]⟩ .f32) :
    Host.dotGeneral (mmDims n 256 128 wf) none
        (concatenate ⟨2, ![n, 256]⟩ 1 [⟨(⟨2, ![n, 128]⟩ : Shape), a⟩, ⟨(⟨2, ![n, 128]⟩ : Shape), b⟩] hcat)
        (transpose ⟨2, ![256, 128]⟩ [1, 0] W ht)
      = Cert.Spec.toVec2 (Cert.Spec.add
          (Cert.Spec.lin (Cert.Spec.ofVec2 a) (fun p q => Cert.Spec.ofVec2 W p ⟨q.val, by omega⟩))
          (Cert.Spec.lin (Cert.Spec.ofVec2 b) (fun p q => Cert.Spec.ofVec2 W p ⟨q.val + 128, by omega⟩))) := by
  apply funext_ix2
  intro p q
  rw [mm_apply]
  have hsplit := congrFun (congrFun (Cert.Spec.lin_split (Cert.Spec.ofVec2 a) (Cert.Spec.ofVec2 b) (Cert.Spec.ofVec2 W)) p) q
  refine Eq.trans ?_ hsplit
  refine Finset.sum_congr rfl fun c _ => ?_
  rw [transpose_ix2_apply, concat2_apply]
  rfl

/-- Row `t` cut out of an `[m, b]` array and flattened, as a vector. -/
theorem row1_eq {m b : Nat} (t : Nat) (ht : t < m) (X : FVec Ideal ⟨2, ![m, b]⟩ .f32)
    (hs : (⟨2, ![m, b]⟩ : Shape).Slices ![t, 0] ⟨2, ![1, b]⟩)
    (hc : (⟨2, ![1, b]⟩ : Shape).ShapeCasts ⟨1, ![b]⟩) :
    shapeCast ⟨1, ![b]⟩ (extractStridedSlice ⟨2, ![1, b]⟩ ![t, 0] X hs) hc = fun i => X (ix2 ⟨t, ht⟩ (i 0)) := by
  funext i
  rw [eq_ix1 i]
  exact row1_apply t ht X hs hc (i 0)

/-! ## The row normalisation as printed -/

/-- The host's sum over the columns, from a zero initial value, at row `p`. -/
theorem rowSum_apply {n k : Nat} (hr : (⟨2, ![n, k]⟩ : Shape).ReducesTo [1] ⟨1, ![n]⟩) (hu : 0 < (⟨0, ![]⟩ : Shape).numel)
    (x : FVec Ideal ⟨2, ![n, k]⟩ .f32) (p : Fin n) :
    Host.reduceAdd x (constant (F := Ideal) ⟨0, ![]⟩ .f32 0x00000000#32) hr hu (ix1 p) = ∑ j : Fin k, x (ix2 p j) := by
  rw [hostReduceAdd_apply]
  have h : (⟨2, ![n, k]⟩ : Shape).Reduces [1] ⟨1, ![n]⟩ := ⟨hr.1, Nat.one_pos, hr.2⟩
  rw [Ideal.hostReduceAdd_single hr h, constant_apply, Ideal.ofBits_zero_f32, zero_add]
  refine Finset.sum_congr rfl fun j _ => congrArg x ?_
  funext c; refine Fin.ext ?_
  match c with
  | ⟨0, _⟩ => rfl
  | ⟨1, _⟩ => rfl

/-- The literal 128 is positive. -/
theorem c128_pos : 0 < Cert.Spec.c128 := by
  rw [Cert.Spec.c128_eq]
  exact EReal.coe_pos.mpr (by norm_num)

/-- The divisor the printed variance takes: 128 minus the converted integer zero, which is 128. -/
theorem nn_apply (i : (⟨0, ![]⟩ : Shape).Idx) :
    subf (constant (F := Ideal) ⟨0, ![]⟩ .f32 0x43000000#32)
        (sitofp .f32 (constantI ⟨0, ![]⟩ 32 0#32) : FVec Ideal ⟨0, ![]⟩ .f32) i = Cert.Spec.c128 := by
  rw [subf_apply, constant_apply, sitofp_apply]
  show Cert.Spec.c128 - ((((0#32 : BitVec 32).toInt : ℝ)) : EReal) = Cert.Spec.c128
  rw [BitVec.toInt_zero, Int.cast_zero, EReal.coe_zero, sub_zero]

/-- The comparison "128 is greater than zero" is the bit one. -/
theorem c128_gt_bit : FloatOps.cmpf (F := Ideal) (φ := .f32) .ogt Cert.Spec.c128 (0 : EReal) = 1#1 := by
  show BitVec.ofBool (decide ((0 : EReal) < Cert.Spec.c128)) = 1#1
  rw [decide_eq_true c128_pos]
  rfl

/-- The mean column as printed: the row sums divided by the broadcast 128. -/
abbrev meanCol {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (x : FVec Ideal ⟨2, ![n, 128]⟩ .f32) : FVec Ideal ⟨2, ![n, 1]⟩ .f32 :=
  Host.divf (broadcastInDim ⟨2, ![n, 1]⟩ ![0] hv
      (Host.reduceAdd x (constant (F := Ideal) ⟨0, ![]⟩ .f32 0x00000000#32) hr hu))
    (broadcastInDim ⟨2, ![n, 1]⟩ ![] hs (constant (F := Ideal) ⟨0, ![]⟩ .f32 0x43000000#32))

theorem meanCol_apply {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (x : FVec Ideal ⟨2, ![n, 128]⟩ .f32) (p : Fin n) (u : Fin 1) :
    meanCol hr hu hv hs x (ix2 p u) = Cert.Spec.mean (Cert.Spec.ofVec2 x p) := by
  unfold meanCol
  rw [hostDivf_apply, vecCol_apply, rowSum_apply, broadcastInDim_scalar_apply, constant_apply]
  rfl

/-- The mean-squared-deviation column as printed (the outlined variance with its guard inlined): the deviations from
    the mean column, squared, summed over the columns, divided by 128 minus the converted integer zero, selected
    where that divisor is positive. -/
abbrev varCol {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (hc : (⟨2, ![n, 1]⟩ : Shape).BroadcastsInDim ⟨2, ![n, 128]⟩ ![0, 1])
    (x : FVec Ideal ⟨2, ![n, 128]⟩ .f32) : FVec Ideal ⟨2, ![n, 1]⟩ .f32 :=
  select
    (broadcastInDim ⟨2, ![n, 1]⟩ ![] hs
      (cmpf .ogt
        (subf (constant (F := Ideal) ⟨0, ![]⟩ .f32 0x43000000#32)
          (sitofp .f32 (constantI ⟨0, ![]⟩ 32 0#32) : FVec Ideal ⟨0, ![]⟩ .f32))
        (constant (F := Ideal) ⟨0, ![]⟩ .f32 0x00000000#32)))
    (Host.divf
      (broadcastInDim ⟨2, ![n, 1]⟩ ![0] hv
        (Host.reduceAdd
          (mulf (subf x (broadcastInDim ⟨2, ![n, 128]⟩ ![0, 1] hc (meanCol hr hu hv hs x)))
            (subf x (broadcastInDim ⟨2, ![n, 128]⟩ ![0, 1] hc (meanCol hr hu hv hs x))))
          (constant (F := Ideal) ⟨0, ![]⟩ .f32 0x00000000#32) hr hu))
      (broadcastInDim ⟨2, ![n, 1]⟩ ![] hs
        (subf (constant (F := Ideal) ⟨0, ![]⟩ .f32 0x43000000#32)
          (sitofp .f32 (constantI ⟨0, ![]⟩ 32 0#32) : FVec Ideal ⟨0, ![]⟩ .f32))))
    (broadcastInDim ⟨2, ![n, 1]⟩ ![] hs (id (constant (F := Ideal) ⟨0, ![]⟩ .f32 0x7FC00000#32)))

theorem varCol_apply {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (hc : (⟨2, ![n, 1]⟩ : Shape).BroadcastsInDim ⟨2, ![n, 128]⟩ ![0, 1])
    (x : FVec Ideal ⟨2, ![n, 128]⟩ .f32) (p : Fin n) (u : Fin 1) :
    varCol hr hu hv hs hc x (ix2 p u)
      = Cert.Spec.mean (fun j => (Cert.Spec.ofVec2 x p j - Cert.Spec.mean (Cert.Spec.ofVec2 x p))
          * (Cert.Spec.ofVec2 x p j - Cert.Spec.mean (Cert.Spec.ofVec2 x p))) := by
  unfold varCol
  rw [select_apply, broadcastInDim_scalar_apply, cmpf_apply, nn_apply, constant_apply, Ideal.ofBits_zero_f32,
    c128_gt_bit, select_one, hostDivf_apply, vecCol_apply, rowSum_apply, broadcastInDim_scalar_apply, nn_apply]
  show Ideal.div (∑ j : Fin 128, _) Cert.Spec.c128 = Ideal.div (∑ j : Fin 128, _) Cert.Spec.c128
  refine congrArg (fun z => Ideal.div z Cert.Spec.c128) (Finset.sum_congr rfl fun j _ => ?_)
  rw [mulf_apply, subf_apply, colBcast_apply, meanCol_apply]
  rfl

/-- The row normalisation as printed: the deviation from the mean column divided by the square root of the
    mean-squared-deviation column plus the small constant, times the scale row, plus the shift row; the scale and the
    shift are rows 0 and 1 of the packed pair `sb`. -/
abbrev gnTerm {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (hc : (⟨2, ![n, 1]⟩ : Shape).BroadcastsInDim ⟨2, ![n, 128]⟩ ![0, 1])
    (hs0 : (⟨2, ![2, 128]⟩ : Shape).Slices ![0, 0] ⟨2, ![1, 128]⟩)
    (hs1 : (⟨2, ![2, 128]⟩ : Shape).Slices ![1, 0] ⟨2, ![1, 128]⟩)
    (hsc : (⟨2, ![1, 128]⟩ : Shape).ShapeCasts ⟨1, ![128]⟩)
    (h1 : (⟨1, ![128]⟩ : Shape).BroadcastsInDim ⟨2, ![1, 128]⟩ ![1])
    (h2 : (⟨2, ![1, 128]⟩ : Shape).BroadcastsInDim ⟨2, ![n, 128]⟩ ![0, 1])
    (x : FVec Ideal ⟨2, ![n, 128]⟩ .f32) (sb : FVec Ideal ⟨2, ![2, 128]⟩ .f32) : FVec Ideal ⟨2, ![n, 128]⟩ .f32 :=
  addf
    (mulf
      (Host.divf (subf x (broadcastInDim ⟨2, ![n, 128]⟩ ![0, 1] hc (meanCol hr hu hv hs x)))
        (broadcastInDim ⟨2, ![n, 128]⟩ ![0, 1] hc
          (Host.sqrt (addf (varCol hr hu hv hs hc x)
            (broadcastInDim ⟨2, ![n, 1]⟩ ![] hs (constant (F := Ideal) ⟨0, ![]⟩ .f32 0x3727C5AC#32))))))
      (broadcastInDim ⟨2, ![n, 128]⟩ ![0, 1] h2 (broadcastInDim ⟨2, ![1, 128]⟩ ![1] h1
        (shapeCast ⟨1, ![128]⟩ (extractStridedSlice ⟨2, ![1, 128]⟩ ![0, 0] sb hs0) hsc))))
    (broadcastInDim ⟨2, ![n, 128]⟩ ![0, 1] h2 (broadcastInDim ⟨2, ![1, 128]⟩ ![1] h1
      (shapeCast ⟨1, ![128]⟩ (extractStridedSlice ⟨2, ![1, 128]⟩ ![1, 0] sb hs1) hsc)))

/-- The printed row normalisation is the specification's. -/
theorem gnTerm_eq {n : Nat} (hr : (⟨2, ![n, 128]⟩ : Shape).ReducesTo [1] ⟨1, ![n]⟩) (hu : 0 < (⟨0, ![]⟩ : Shape).numel)
    (hv : (⟨1, ![n]⟩ : Shape).BroadcastsInDim ⟨2, ![n, 1]⟩ ![0])
    (hs : (⟨0, ![]⟩ : Shape).BroadcastsInDim ⟨2, ![n, 1]⟩ ![])
    (hc : (⟨2, ![n, 1]⟩ : Shape).BroadcastsInDim ⟨2, ![n, 128]⟩ ![0, 1])
    (hs0 : (⟨2, ![2, 128]⟩ : Shape).Slices ![0, 0] ⟨2, ![1, 128]⟩)
    (hs1 : (⟨2, ![2, 128]⟩ : Shape).Slices ![1, 0] ⟨2, ![1, 128]⟩)
    (hsc : (⟨2, ![1, 128]⟩ : Shape).ShapeCasts ⟨1, ![128]⟩)
    (h1 : (⟨1, ![128]⟩ : Shape).BroadcastsInDim ⟨2, ![1, 128]⟩ ![1])
    (h2 : (⟨2, ![1, 128]⟩ : Shape).BroadcastsInDim ⟨2, ![n, 128]⟩ ![0, 1])
    (x : FVec Ideal ⟨2, ![n, 128]⟩ .f32) (sb : FVec Ideal ⟨2, ![2, 128]⟩ .f32) :
    gnTerm hr hu hv hs hc hs0 hs1 hsc h1 h2 x sb
      = Cert.Spec.toVec2 (Cert.Spec.gn (Cert.Spec.ofVec2 x) (fun q => sb (ix2 (0 : Fin 2) q)) (fun q => sb (ix2 (1 : Fin 2) q))) := by
  apply funext_ix2
  intro p q
  unfold gnTerm
  rw [addf_apply, mulf_apply, hostDivf_apply, subf_apply, colBcast_apply, meanCol_apply, colBcast_apply,
    hostSqrt_apply, addf_apply, varCol_apply, broadcastInDim_scalar_apply, constant_apply, rowBcast_apply,
    rowBcast_apply, row1_apply 0 (by omega) sb hs0 hsc q, row1_apply 1 (by omega) sb hs1 hsc q]
  exact Cert.Spec.gn_div_form (Cert.Spec.ofVec2 x) (fun q => sb (ix2 (0 : Fin 2) q)) (fun q => sb (ix2 (1 : Fin 2) q)) p q

/-! ## A whole pooling layer as printed -/

section Pool
variable {nc nt e : Nat}
-- the shape facts the printed operations cite, each a hypothesis here
variable (h0 : (⟨0, ![]⟩ : Shape).BroadcastsInDim ⟨1, ![e]⟩ ![])
  (hb : (⟨1, ![e]⟩ : Shape).BroadcastsInDim ⟨2, ![e, 1]⟩ ![0])
  (wgc4 : GatherDims.WF ⟨2, ![nc, 4]⟩ ⟨2, ![e, 1]⟩ ⟨2, ![e, 4]⟩ [1] [0] [] [0] [] 1 ![1, 4])
  (wgt4 : GatherDims.WF ⟨2, ![nt, 4]⟩ ⟨2, ![e, 1]⟩ ⟨2, ![e, 4]⟩ [1] [0] [] [0] [] 1 ![1, 4])
  (wgc : GatherDims.WF ⟨2, ![nc, 128]⟩ ⟨2, ![e, 1]⟩ ⟨2, ![e, 128]⟩ [1] [0] [] [0] [] 1 ![1, 128])
  (wd4 : DotDims.WF ⟨2, ![e, 4]⟩ ⟨2, ![4, 128]⟩ ⟨2, ![e, 128]⟩ [1] [0] [0] [1] [] [])
  (wd256 : DotDims.WF ⟨2, ![e, 256]⟩ ⟨2, ![256, 128]⟩ ⟨2, ![e, 128]⟩ [1] [0] [0] [1] [] [])
  (wde : DotDims.WF ⟨2, ![e, 128]⟩ ⟨2, ![128, 128]⟩ ⟨2, ![e, 128]⟩ [1] [0] [0] [1] [] [])
  (wdt : DotDims.WF ⟨2, ![nt, 128]⟩ ⟨2, ![128, 128]⟩ ⟨2, ![nt, 128]⟩ [1] [0] [0] [1] [] [])
  (wsc : ScatterDims.WF ⟨2, ![nt, 128]⟩ ⟨2, ![e, 1]⟩ ⟨2, ![e, 128]⟩ [1] [0] [0] 1)
  (ht4 : (⟨2, ![128, 4]⟩ : Shape).Transposes [1, 0] ⟨2, ![4, 128]⟩)
  (ht256 : (⟨2, ![128, 256]⟩ : Shape).Transposes [1, 0] ⟨2, ![256, 128]⟩)
  (ht128 : (⟨2, ![128, 128]⟩ : Shape).Transposes [1, 0] ⟨2, ![128, 128]⟩)
  (hcat : Shape.Concatenates [(⟨2, ![e, 128]⟩ : Shape), ⟨2, ![e, 128]⟩] ⟨2, ![e, 256]⟩ 1)
  (h1 : (⟨1, ![128]⟩ : Shape).BroadcastsInDim ⟨2, ![1, 128]⟩ ![1])
  (h2e : (⟨2, ![1, 128]⟩ : Shape).BroadcastsInDim ⟨2, ![e, 128]⟩ ![0, 1])
  (h2t : (⟨2, ![1, 128]⟩ : Shape).BroadcastsInDim ⟨2, ![nt, 128]⟩ ![0, 1])
  (hze : (⟨0, ![]⟩ : Shape).BroadcastsInDim ⟨2, ![e, 128]⟩ ![])
  (hzt : (⟨0, ![]⟩ : Shape).BroadcastsInDim ⟨2, ![nt, 128]⟩ ![])
  (hu : 0 < (⟨0, ![]⟩ : Shape).numel)
  (hre : (⟨2, ![e, 128]⟩ : Shape).ReducesTo [1] ⟨1, ![e]⟩)
  (hve : (⟨1, ![e]⟩ : Shape).BroadcastsInDim ⟨2, ![e, 1]⟩ ![0])
  (hse : (⟨0, ![]⟩ : Shape).BroadcastsInDim ⟨2, ![e, 1]⟩ ![])
  (hce : (⟨2, ![e, 1]⟩ : Shape).BroadcastsInDim ⟨2, ![e, 128]⟩ ![0, 1])
  (hrt : (⟨2, ![nt, 128]⟩ : Shape).ReducesTo [1] ⟨1, ![nt]⟩)
  (hvt : (⟨1, ![nt]⟩ : Shape).BroadcastsInDim ⟨2, ![nt, 1]⟩ ![0])
  (hst : (⟨0, ![]⟩ : Shape).BroadcastsInDim ⟨2, ![nt, 1]⟩ ![])
  (hct : (⟨2, ![nt, 1]⟩ : Shape).BroadcastsInDim ⟨2, ![nt, 128]⟩ ![0, 1])
  (hs0 : (⟨2, ![2, 128]⟩ : Shape).Slices ![0, 0] ⟨2, ![1, 128]⟩)
  (hs1 : (⟨2, ![2, 128]⟩ : Shape).Slices ![1, 0] ⟨2, ![1, 128]⟩)
  (hsc : (⟨2, ![1, 128]⟩ : Shape).ShapeCasts ⟨1, ![128]⟩)

/-- The edge stage of a pooling layer as printed: from the context features and poses, the target poses, the two index
    vectors and the layer's weights (each already cut out of its packed array) to the edge contributions. -/
abbrev edgeTerm (ctxFeat : FVec Ideal ⟨2, ![nc, 128]⟩ .f32) (ctxPose : FVec Ideal ⟨2, ![nc, 4]⟩ .f32)
    (tgtPose : FVec Ideal ⟨2, ![nt, 4]⟩ .f32) (hi wi : IVec ⟨1, ![e]⟩ 32)
    (rpw : FVec Ideal ⟨2, ![128, 4]⟩ .f32) (rpb : FVec Ideal ⟨1, ![128]⟩ .f32)
    (c1w : FVec Ideal ⟨2, ![128, 256]⟩ .f32) (c1gn : FVec Ideal ⟨2, ![2, 128]⟩ .f32)
    (c2w : FVec Ideal ⟨2, ![128, 128]⟩ .f32) : FVec Ideal ⟨2, ![e, 128]⟩ .f32 :=
  Host.dotGeneral (mmDims e 128 128 wde) none
    (maximumf
      (gnTerm hre hu hve hse hce hs0 hs1 hsc h1 h2e
        (Host.dotGeneral (mmDims e 256 128 wd256) none
          (concatenate ⟨2, ![e, 256]⟩ 1
            [⟨(⟨2, ![e, 128]⟩ : Shape), Host.gather (rowGatherDims nc 128 e wgc) ctxFeat (wrappedCol nc h0 hb hi)⟩,
             ⟨(⟨2, ![e, 128]⟩ : Shape),
              maximumf
                (addf
                  (Host.dotGeneral (mmDims e 4 128 wd4) none
                    (subf (Host.gather (rowGatherDims nc 4 e wgc4) ctxPose (wrappedCol nc h0 hb hi))
                      (Host.gather (rowGatherDims nt 4 e wgt4) tgtPose (wrappedCol nt h0 hb wi)))
                    (transpose ⟨2, ![4, 128]⟩ [1, 0] rpw ht4))
                  (broadcastInDim ⟨2, ![e, 128]⟩ ![0, 1] h2e (broadcastInDim ⟨2, ![1, 128]⟩ ![1] h1 rpb)))
                (broadcastInDim ⟨2, ![e, 128]⟩ ![] hze (constant (F := Ideal) ⟨0, ![]⟩ .f32 0x00000000#32))⟩] hcat)
          (transpose ⟨2, ![256, 128]⟩ [1, 0] c1w ht256))
        c1gn)
      (broadcastInDim ⟨2, ![e, 128]⟩ ![] hze (constant (F := Ideal) ⟨0, ![]⟩ .f32 0x00000000#32)))
    (transpose ⟨2, ![128, 128]⟩ [1, 0] c2w ht128)

/-- The printed edge stage is the specification's. -/
theorem edgeTerm_eq (hnc : 0 < nc) (hnt : 0 < nt) (hnc' : nc < 2147483648) (hnt' : nt < 2147483648)
    (ctxFeat : FVec Ideal ⟨2, ![nc, 128]⟩ .f32) (ctxPose : FVec Ideal ⟨2, ![nc, 4]⟩ .f32)
    (tgtPose : FVec Ideal ⟨2, ![nt, 4]⟩ .f32) (hi wi : IVec ⟨1, ![e]⟩ 32)
    (rpw : FVec Ideal ⟨2, ![128, 4]⟩ .f32) (rpb : FVec Ideal ⟨1, ![128]⟩ .f32)
    (c1w : FVec Ideal ⟨2, ![128, 256]⟩ .f32) (c1gn : FVec Ideal ⟨2, ![2, 128]⟩ .f32)
    (c2w : FVec Ideal ⟨2, ![128, 128]⟩ .f32) :
    edgeTerm h0 hb wgc4 wgt4 wgc wd4 wd256 wde ht4 ht256 ht128 hcat h1 h2e hze hu hre hve hse hce hs0 hs1 hsc
        ctxFeat ctxPose tgtPose hi wi rpw rpb c1w c1gn c2w
      = Cert.Spec.toVec2 (Cert.Spec.lpEdge
          (Cert.Spec.sub (Cert.Spec.gatherRows hnc (Cert.Spec.ofVec2 ctxPose) (fun p => hi (ix1 p)))
            (Cert.Spec.gatherRows hnt (Cert.Spec.ofVec2 tgtPose) (fun p => wi (ix1 p))))
          (Cert.Spec.gatherRows hnc (Cert.Spec.ofVec2 ctxFeat) (fun p => hi (ix1 p)))
          (Cert.Spec.ofVec2 rpw) (fun q => rpb (ix1 q))
          (fun p q => Cert.Spec.ofVec2 c1w p ⟨q.val, by omega⟩) (fun p q => Cert.Spec.ofVec2 c1w p ⟨q.val + 128, by omega⟩)
          (fun q => c1gn (ix2 (0 : Fin 2) q)) (fun q => c1gn (ix2 (1 : Fin 2) q)) (Cert.Spec.ofVec2 c2w)) := by
  unfold edgeTerm
  rw [gather_wrapped_rows hnc hnc' wgc4 h0 hb ctxPose hi, gather_wrapped_rows hnt hnt' wgt4 h0 hb tgtPose wi,
    gather_wrapped_rows hnc hnc' wgc h0 hb ctxFeat hi, sub_eq, ctx1_eq, mm_transposed_eq_lin, mm_transposed_eq_lin,
    addRow_eq, relu_eq, relu_eq, gnTerm_eq]
  rfl

/-- The node stage of a pooling layer as printed: the accumulating scatter of the edge contributions onto the
    transformed target features `t0`, three row normalisations with two linear layers between them, the residual
    `idn`, the positive part. -/
abbrev tailTerm (t0 idn : FVec Ideal ⟨2, ![nt, 128]⟩ .f32) (wi : IVec ⟨1, ![e]⟩ 32) (edge : FVec Ideal ⟨2, ![e, 128]⟩ .f32)
    (ngn : FVec Ideal ⟨2, ![2, 128]⟩ .f32) (m1w : FVec Ideal ⟨2, ![128, 128]⟩ .f32) (m1gn : FVec Ideal ⟨2, ![2, 128]⟩ .f32)
    (m2w : FVec Ideal ⟨2, ![128, 128]⟩ .f32) (m2gn : FVec Ideal ⟨2, ![2, 128]⟩ .f32) : FVec Ideal ⟨2, ![nt, 128]⟩ .f32 :=
  maximumf
    (addf
      (gnTerm hrt hu hvt hst hct hs0 hs1 hsc h1 h2t
        (Host.dotGeneral (mmDims nt 128 128 wdt) none
          (maximumf
            (gnTerm hrt hu hvt hst hct hs0 hs1 hsc h1 h2t
              (Host.dotGeneral (mmDims nt 128 128 wdt) none
                (maximumf
                  (gnTerm hrt hu hvt hst hct hs0 hs1 hsc h1 h2t
                    (Host.scatterAdd (rowScatterDims nt 128 e wsc) t0 (wrappedCol nt h0 hb wi) edge) ngn)
                  (broadcastInDim ⟨2, ![nt, 128]⟩ ![] hzt (constant (F := Ideal) ⟨0, ![]⟩ .f32 0x00000000#32)))
                (transpose ⟨2, ![128, 128]⟩ [1, 0] m1w ht128))
              m1gn)
            (broadcastInDim ⟨2, ![nt, 128]⟩ ![] hzt (constant (F := Ideal) ⟨0, ![]⟩ .f32 0x00000000#32)))
          (transpose ⟨2, ![128, 128]⟩ [1, 0] m2w ht128))
        m2gn)
      idn)
    (broadcastInDim ⟨2, ![nt, 128]⟩ ![] hzt (constant (F := Ideal) ⟨0, ![]⟩ .f32 0x00000000#32))

/-- The printed node stage is the specification's. -/
theorem tailTerm_eq (hnt' : nt < 2147483648)
    (t0 idn : FVec Ideal ⟨2, ![nt, 128]⟩ .f32) (wi : IVec ⟨1, ![e]⟩ 32) (edge : FVec Ideal ⟨2, ![e, 128]⟩ .f32)
    (ngn : FVec Ideal ⟨2, ![2, 128]⟩ .f32) (m1w : FVec Ideal ⟨2, ![128, 128]⟩ .f32) (m1gn : FVec Ideal ⟨2, ![2, 128]⟩ .f32)
    (m2w : FVec Ideal ⟨2, ![128, 128]⟩ .f32) (m2gn : FVec Ideal ⟨2, ![2, 128]⟩ .f32) :
    tailTerm h0 hb wdt wsc ht128 h1 h2t hzt hu hrt hvt hst hct hs0 hs1 hsc t0 idn wi edge ngn m1w m1gn m2w m2gn
      = Cert.Spec.toVec2 (Cert.Spec.lpTail
          (Cert.Spec.scatterAddRows (Cert.Spec.ofVec2 t0) (fun p => wi (ix1 p)) (Cert.Spec.ofVec2 edge)) (Cert.Spec.ofVec2 idn)
          (fun q => ngn (ix2 (0 : Fin 2) q)) (fun q => ngn (ix2 (1 : Fin 2) q)) (Cert.Spec.ofVec2 m1w)
          (fun q => m1gn (ix2 (0 : Fin 2) q)) (fun q => m1gn (ix2 (1 : Fin 2) q)) (Cert.Spec.ofVec2 m2w)
          (fun q => m2gn (ix2 (0 : Fin 2) q)) (fun q => m2gn (ix2 (1 : Fin 2) q))) := by
  unfold tailTerm
  rw [scatter_wrapped_rows hnt' wsc h0 hb t0 wi edge, gnTerm_eq, gnTerm_eq, gnTerm_eq, relu_eq, relu_eq, relu_eq,
    mm_transposed_eq_lin, mm_transposed_eq_lin, add_eq]
  rfl

end Pool

end Cert.RVal

end
-- ==== Proof.RValLp.lean ====
/-
  The two pooling layers of the reference as printed, over variables of the argument arrays' types, each in two
  stretches (the edge stage up to the second context product; the scatter and the node stage), equal to the
  specification's terms at the arguments built from the arrays.
-/
import proofs.«413166_j32323923870246_3_alg».proof.ReferenceIdeal
import proofs.«413166_j32323923870246_3_alg».proof.Proof.RVal
import proofs.«413166_j32323923870246_3_alg».proof.Proof.RValArgs

noncomputable section

namespace Cert.RVal

open Idealize.ShloMosaic Idealize.ShloMosaic.ValueIdx
open Cert.ReferenceIdeal Cert.ReferenceIdeal.Facts₀

variable [Facts₀]

/-- Layer `l` of a packed `[2, a, b]` weight, as printed: the slice and the reshape. -/
abbrev cut3 {a b : Nat} (l : Nat) (hs : (⟨3, ![2, a, b]⟩ : Shape).Slices ![l, 0, 0] ⟨3, ![1, a, b]⟩)
    (hc : (⟨3, ![1, a, b]⟩ : Shape).ShapeCasts ⟨2, ![a, b]⟩) (X : FVec Ideal ⟨3, ![2, a, b]⟩ .f32) :
    FVec Ideal ⟨2, ![a, b]⟩ .f32 :=
  shapeCast ⟨2, ![a, b]⟩ (extractStridedSlice ⟨3, ![1, a, b]⟩ ![l, 0, 0] X hs) hc

/-- Row `l` of the packed `[2, 128]` bias, as printed. -/
abbrev cutRow (l : Nat) (hs : S2x128.Slices ![l, 0] S1x128) (X : FVec Ideal S2x128 .f32) : FVec Ideal S128 .f32 :=
  shapeCast S128 (extractStridedSlice S1x128 ![l, 0] X hs) shapeCasts_S1x128_S128

/-- The zero lane features the reference starts from. -/
abbrev zeros50000 : FVec Ideal S50000x128 .f32 :=
  broadcastInDim S50000x128 ![] bcast_S_S50000x128 (constant S_ .f32 0x00000000#32)

/-! ## The first pooling layer: region nodes onto lane nodes -/

/-- Statements up to the second context product of the first pooling layer. -/
abbrev lpEdge0Printed (a0 : FVec Ideal S12000x128 .f32) (a1 : FVec Ideal S50000x4 .f32) (a2 : FVec Ideal S12000x4 .f32)
    (a21 a22 : IVec S150000 32) (a4 : FVec Ideal S2x128x4 .f32) (a5 : FVec Ideal S2x128 .f32)
    (a6 : FVec Ideal S2x128x256 .f32) (a7 : FVec Ideal S2x2x128 .f32) (a8 : FVec Ideal S2x128x128 .f32) :
    FVec Ideal S150000x128 .f32 :=
  edgeTerm (nc := 12000) (nt := 50000) (e := 150000) bcast_S_S150000 bcast_S150000_S150000x1_0
    gather_S12000x4_S150000x1_S150000x4_1_0_n_n_0_1_14_wf gather_S50000x4_S150000x1_S150000x4_1_0_n_n_0_1_14_wf
    gather_S12000x128_S150000x1_S150000x128_1_0_n_n_0_1_1128_wf
    dot_S150000x4_S4x128_S150000x128_1_0_0_1_n_n_wf dot_S150000x256_S256x128_S150000x128_1_0_0_1_n_n_wf
    dot_S150000x128_S128x128_S150000x128_1_0_0_1_n_n_wf
    transposes_S128x4_S4x128_1_0 transposes_S128x256_S256x128_1_0 transposes_S128x128_S128x128_1_0
    concatenates_S150000x128_S150000x128_S150000x256_d1 bcast_S128_S1x128_1 bcast_S1x128_S150000x128_0_1
    bcast_S_S150000x128 h_S_ reducesTo_S150000x128_S150000_d1 bcast_S150000_S150000x1_0 bcast_S_S150000x1
    bcast_S150000x1_S150000x128_0_1 slices_S2x128_S1x128_0_0 slices_S2x128_S1x128_1_0 shapeCasts_S1x128_S128
    a0 a2 a1 a21 a22
    (cut3 0 slices_S2x128x4_S1x128x4_0_0_0 shapeCasts_S1x128x4_S128x4 a4)
    (cutRow 0 slices_S2x128_S1x128_0_0 a5)
    (cut3 0 slices_S2x128x256_S1x128x256_0_0_0 shapeCasts_S1x128x256_S128x256 a6)
    (cut3 0 slices_S2x2x128_S1x2x128_0_0_0 shapeCasts_S1x2x128_S2x128 a7)
    (cut3 0 slices_S2x128x128_S1x128x128_0_0_0 shapeCasts_S1x128x128_S128x128 a8)

theorem lpEdge0Printed_eq
    (a0 : FVec Ideal S12000x128 .f32) (a1 : FVec Ideal S50000x4 .f32) (a2 : FVec Ideal S12000x4 .f32)
    (a3 : FVec Ideal S2x128x128 .f32) (a4 : FVec Ideal S2x128x4 .f32) (a5 : FVec Ideal S2x128 .f32)
    (a6 : FVec Ideal S2x128x256 .f32) (a7 : FVec Ideal S2x2x128 .f32) (a8 : FVec Ideal S2x128x128 .f32)
    (a9 : FVec Ideal S2x128x128 .f32) (a10 : FVec Ideal S2x2x128 .f32) (a11 : FVec Ideal S2x128x128 .f32)
    (a12 : FVec Ideal S2x2x128 .f32) (a13 : FVec Ideal S2x2x128 .f32) (a14 : FVec Ideal S4x128x128 .f32)
    (a15 : FVec Ideal S4x12x128x128 .f32) (a16 : FVec Ideal S4x128x128 .f32) (a17 : FVec Ideal S4x128x128 .f32)
    (a18 : FVec Ideal S4x2x128 .f32) (a19 : FVec Ideal S4x128x128 .f32) (a20 : FVec Ideal S4x2x128 .f32)
    (a21 a22 a23 a24 : IVec S150000 32) (a25 a26 : IVec S12x50000 32) (a27 a28 : IVec S2x5000 32) :
    lpEdge0Printed a0 a1 a2 a21 a22 a4 a5 a6 a7 a8
      = Cert.Spec.toVec2 (Cert.Spec.lpCtx (argsOf a0 a1 a2 a3 a4 a5 a6 a7 a8 a9 a10 a11 a12 a13 a14 a15 a16 a17 a18 a19 a20 a21 a22 a23 a24 a25 a26 a27 a28) 0 (by omega : 0 < 12000) (by omega : 0 < 50000)
          (argsOf a0 a1 a2 a3 a4 a5 a6 a7 a8 a9 a10 a11 a12 a13 a14 a15 a16 a17 a18 a19 a20 a21 a22 a23 a24 a25 a26 a27 a28).roi_feat (argsOf a0 a1 a2 a3 a4 a5 a6 a7 a8 a9 a10 a11 a12 a13 a14 a15 a16 a17 a18 a19 a20 a21 a22 a23 a24 a25 a26 a27 a28).roi_pose (argsOf a0 a1 a2 a3 a4 a5 a6 a7 a8 a9 a10 a11 a12 a13 a14 a15 a16 a17 a18 a19 a20 a21 a22 a23 a24 a25 a26 a27 a28).graph_pose
          (argsOf a0 a1 a2 a3 a4 a5 a6 a7 a8 a9 a10 a11 a12 a13 a14 a15 a16 a17 a18 a19 a20 a21 a22 a23 a24 a25 a26 a27 a28).e1_hi (argsOf a0 a1 a2 a3 a4 a5 a6 a7 a8 a9 a10 a11 a12 a13 a14 a15 a16 a17 a18 a19 a20 a21 a22 a23 a24 a25 a26 a27 a28).e1_wi) := by
  unfold lpEdge0Printed cut3 cutRow
  rw [edgeTerm_eq (nc := 12000) (nt := 50000) (e := 150000) _ _ _ _ _ _ _ _ _ _ _ _ _ _ _ _ _ _ _ _ _ _ _
    (by omega) (by omega) (by omega) (by omega)]
  rw [layer3_eq 0 (by omega) a4, row1_eq 0 (by omega) a5, layer3_eq 0 (by omega) a6, layer3_eq 0 (by omega) a7,
    layer3_eq 0 (by omega) a8]
  rfl

/-- Statements from the input transform of the zero lane features to the lane features after the first pooling
    layer; `ctx` is the edge stage's result. -/
abbrev lpTail0Printed (ctx : FVec Ideal S150000x128 .f32) (a22 : IVec S150000 32) (a3 : FVec Ideal S2x128x128 .f32)
    (a9 : FVec Ideal S2x128x128 .f32) (a10 : FVec Ideal S2x2x128 .f32) (a11 : FVec Ideal S2x128x128 .f32)
    (a12 : FVec Ideal S2x2x128 .f32) (a13 : FVec Ideal S2x2x128 .f32) : FVec Ideal S50000x128 .f32 :=
  tailTerm (nt := 50000) (e := 150000) bcast_S_S150000 bcast_S150000_S150000x1_0
    dot_S50000x128_S128x128_S50000x128_1_0_0_1_n_n_wf scatter_S50000x128_S150000x1_S150000x128_1_0_0_1_wf
    transposes_S128x128_S128x128_1_0 bcast_S128_S1x128_1 bcast_S1x128_S50000x128_0_1 bcast_S_S50000x128 h_S_
    reducesTo_S50000x128_S50000_d1 bcast_S50000_S50000x1_0 bcast_S_S50000x1 bcast_S50000x1_S50000x128_0_1
    slices_S2x128_S1x128_0_0 slices_S2x128_S1x128_1_0 shapeCasts_S1x128_S128
    (Host.dotGeneral (mmDims 50000 128 128 dot_S50000x128_S128x128_S50000x128_1_0_0_1_n_n_wf) none zeros50000
      (transpose S128x128 [1, 0] (cut3 0 slices_S2x128x128_S1x128x128_0_0_0 shapeCasts_S1x128x128_S128x128 a3)
        transposes_S128x128_S128x128_1_0))
    zeros50000 a22 ctx
    (cut3 0 slices_S2x2x128_S1x2x128_0_0_0 shapeCasts_S1x2x128_S2x128 a13)
    (cut3 0 slices_S2x128x128_S1x128x128_0_0_0 shapeCasts_S1x128x128_S128x128 a9)
    (cut3 0 slices_S2x2x128_S1x2x128_0_0_0 shapeCasts_S1x2x128_S2x128 a10)
    (cut3 0 slices_S2x128x128_S1x128x128_0_0_0 shapeCasts_S1x128x128_S128x128 a11)
    (cut3 0 slices_S2x2x128_S1x2x128_0_0_0 shapeCasts_S1x2x128_S2x128 a12)

theorem lpTail0Printed_eq
    (a0 : FVec Ideal S12000x128 .f32) (a1 : FVec Ideal S50000x4 .f32) (a2 : FVec Ideal S12000x4 .f32)
    (a3 : FVec Ideal S2x128x128 .f32) (a4 : FVec Ideal S2x128x4 .f32) (a5 : FVec Ideal S2x128 .f32)
    (a6 : FVec Ideal S2x128x256 .f32) (a7 : FVec Ideal S2x2x128 .f32) (a8 : FVec Ideal S2x128x128 .f32)
    (a9 : FVec Ideal S2x128x128 .f32) (a10 : FVec Ideal S2x2x128 .f32) (a11 : FVec Ideal S2x128x128 .f32)
    (a12 : FVec Ideal S2x2x128 .f32) (a13 : FVec Ideal S2x2x128 .f32) (a14 : FVec Ideal S4x128x128 .f32)
    (a15 : FVec Ideal S4x12x128x128 .f32) (a16 : FVec Ideal S4x128x128 .f32) (a17 : FVec Ideal S4x128x128 .f32)
    (a18 : FVec Ideal S4x2x128 .f32) (a19 : FVec Ideal S4x128x128 .f32) (a20 : FVec Ideal S4x2x128 .f32)
    (a21 a22 a23 a24 : IVec S150000 32) (a25 a26 : IVec S12x50000 32) (a27 a28 : IVec S2x5000 32)
    (ctx : FVec Ideal S150000x128 .f32)
    (hctx : ctx = Cert.Spec.toVec2 (Cert.Spec.lpCtx (argsOf a0 a1 a2 a3 a4 a5 a6 a7 a8 a9 a10 a11 a12 a13 a14 a15 a16 a17 a18 a19 a20 a21 a22 a23 a24 a25 a26 a27 a28) 0 (by omega : 0 < 12000) (by omega : 0 < 50000)
          (argsOf a0 a1 a2 a3 a4 a5 a6 a7 a8 a9 a10 a11 a12 a13 a14 a15 a16 a17 a18 a19 a20 a21 a22 a23 a24 a25 a26 a27 a28).roi_feat (argsOf a0 a1 a2 a3 a4 a5 a6 a7 a8 a9 a10 a11 a12 a13 a14 a15 a16 a17 a18 a19 a20 a21 a22 a23 a24 a25 a26 a27 a28).roi_pose (argsOf a0 a1 a2 a3 a4 a5 a6 a7 a8 a9 a10 a11 a12 a13 a14 a15 a16 a17 a18 a19 a20 a21 a22 a23 a24 a25 a26 a27 a28).graph_pose
          (argsOf a0 a1 a2 a3 a4 a5 a6 a7 a8 a9 a10 a11 a12 a13 a14 a15 a16 a17 a18 a19 a20 a21 a22 a23 a24 a25 a26 a27 a28).e1_hi (argsOf a0 a1 a2 a3 a4 a5 a6 a7 a8 a9 a10 a11 a12 a13 a14 a15 a16 a17 a18 a19 a20 a21 a22 a23 a24 a25 a26 a27 a28).e1_wi)) :
    lpTail0Printed ctx a22 a3 a9 a10 a11 a12 a13 = Cert.Spec.toVec2 (Cert.Spec.g0 (argsOf a0 a1 a2 a3 a4 a5 a6 a7 a8 a9 a10 a11 a12 a13 a14 a15 a16 a17 a18 a19 a20 a21 a22 a23 a24 a25 a26 a27 a28)) := by
  subst hctx
  unfold lpTail0Printed cut3 zeros50000
  rw [tailTerm_eq (nt := 50000) (e := 150000) _ _ _ _ _ _ _ _ _ _ _ _ _ _ _ _ (by omega)]
  rw [mm_zero_left, zeros_eq, layer3_eq 0 (by omega) a13, layer3_eq 0 (by omega) a9, layer3_eq 0 (by omega) a10,
    layer3_eq 0 (by omega) a11, layer3_eq 0 (by omega) a12]
  rfl

/-! ## The second pooling layer: lane nodes back onto region nodes -/

/-- Statements up to the second context product of the second pooling layer; `g4` is the lane features after the
    fusion layers. -/
abbrev lpEdge1Printed (g4 : FVec Ideal S50000x128 .f32) (a1 : FVec Ideal S50000x4 .f32) (a2 : FVec Ideal S12000x4 .f32)
    (a23 a24 : IVec S150000 32) (a4 : FVec Ideal S2x128x4 .f32) (a5 : FVec Ideal S2x128 .f32)
    (a6 : FVec Ideal S2x128x256 .f32) (a7 : FVec Ideal S2x2x128 .f32) (a8 : FVec Ideal S2x128x128 .f32) :
    FVec Ideal S150000x128 .f32 :=
  edgeTerm (nc := 50000) (nt := 12000) (e := 150000) bcast_S_S150000 bcast_S150000_S150000x1_0
    gather_S50000x4_S150000x1_S150000x4_1_0_n_n_0_1_14_wf gather_S12000x4_S150000x1_S150000x4_1_0_n_n_0_1_14_wf
    gather_S50000x128_S150000x1_S150000x128_1_0_n_n_0_1_1128_wf
    dot_S150000x4_S4x128_S150000x128_1_0_0_1_n_n_wf dot_S150000x256_S256x128_S150000x128_1_0_0_1_n_n_wf
    dot_S150000x128_S128x128_S150000x128_1_0_0_1_n_n_wf
    transposes_S128x4_S4x128_1_0 transposes_S128x256_S256x128_1_0 transposes_S128x128_S128x128_1_0
    concatenates_S150000x128_S150000x128_S150000x256_d1 bcast_S128_S1x128_1 bcast_S1x128_S150000x128_0_1
    bcast_S_S150000x128 h_S_ reducesTo_S150000x128_S150000_d1 bcast_S150000_S150000x1_0 bcast_S_S150000x1
    bcast_S150000x1_S150000x128_0_1 slices_S2x128_S1x128_0_0 slices_S2x128_S1x128_1_0 shapeCasts_S1x128_S128
    g4 a1 a2 a23 a24
    (cut3 1 slices_S2x128x4_S1x128x4_1_0_0 shapeCasts_S1x128x4_S128x4 a4)
    (cutRow 1 slices_S2x128_S1x128_1_0 a5)
    (cut3 1 slices_S2x128x256_S1x128x256_1_0_0 shapeCasts_S1x128x256_S128x256 a6)
    (cut3 1 slices_S2x2x128_S1x2x128_1_0_0 shapeCasts_S1x2x128_S2x128 a7)
    (cut3 1 slices_S2x128x128_S1x128x128_1_0_0 shapeCasts_S1x128x128_S128x128 a8)

theorem lpEdge1Printed_eq
    (a0 : FVec Ideal S12000x128 .f32) (a1 : FVec Ideal S50000x4 .f32) (a2 : FVec Ideal S12000x4 .f32)
    (a3 : FVec Ideal S2x128x128 .f32) (a4 : FVec Ideal S2x128x4 .f32) (a5 : FVec Ideal S2x128 .f32)
    (a6 : FVec Ideal S2x128x256 .f32) (a7 : FVec Ideal S2x2x128 .f32) (a8 : FVec Ideal S2x128x128 .f32)
    (a9 : FVec Ideal S2x128x128 .f32) (a10 : FVec Ideal S2x2x128 .f32) (a11 : FVec Ideal S2x128x128 .f32)
    (a12 : FVec Ideal S2x2x128 .f32) (a13 : FVec Ideal S2x2x128 .f32) (a14 : FVec Ideal S4x128x128 .f32)
    (a15 : FVec Ideal S4x12x128x128 .f32) (a16 : FVec Ideal S4x128x128 .f32) (a17 : FVec Ideal S4x128x128 .f32)
    (a18 : FVec Ideal S4x2x128 .f32) (a19 : FVec Ideal S4x128x128 .f32) (a20 : FVec Ideal S4x2x128 .f32)
    (a21 a22 a23 a24 : IVec S150000 32) (a25 a26 : IVec S12x50000 32) (a27 a28 : IVec S2x5000 32)
    (g4 : FVec Ideal S50000x128 .f32) :
    lpEdge1Printed g4 a1 a2 a23 a24 a4 a5 a6 a7 a8
      = Cert.Spec.toVec2 (Cert.Spec.lpCtx (argsOf a0 a1 a2 a3 a4 a5 a6 a7 a8 a9 a10 a11 a12 a13 a14 a15 a16 a17 a18 a19 a20 a21 a22 a23 a24 a25 a26 a27 a28) 1 (by omega : 0 < 50000) (by omega : 0 < 12000)
          (Cert.Spec.ofVec2 g4) (argsOf a0 a1 a2 a3 a4 a5 a6 a7 a8 a9 a10 a11 a12 a13 a14 a15 a16 a17 a18 a19 a20 a21 a22 a23 a24 a25 a26 a27 a28).graph_pose (argsOf a0 a1 a2 a3 a4 a5 a6 a7 a8 a9 a10 a11 a12 a13 a14 a15 a16 a17 a18 a19 a20 a21 a22 a23 a24 a25 a26 a27 a28).roi_pose
          (argsOf a0 a1 a2 a3 a4 a5 a6 a7 a8 a9 a10 a11 a12 a13 a14 a15 a16 a17 a18 a19 a20 a21 a22 a23 a24 a25 a26 a27 a28).e2_hi (argsOf a0 a1 a2 a3 a4 a5 a6 a7 a8 a9 a10 a11 a12 a13 a14 a15 a16 a17 a18 a19 a20 a21 a22 a23 a24 a25 a26 a27 a28).e2_wi) := by
  unfold lpEdge1Printed cut3 cutRow
  rw [edgeTerm_eq (nc := 50000) (nt := 12000) (e := 150000) _ _ _ _ _ _ _ _ _ _ _ _ _ _ _ _ _ _ _ _ _ _ _
    (by omega) (by omega) (by omega) (by omega)]
  rw [layer3_eq 1 (by omega) a4, row1_eq 1 (by omega) a5, layer3_eq 1 (by omega) a6, layer3_eq 1 (by omega) a7,
    layer3_eq 1 (by omega) a8]
  rfl

/-- Statements from the input transform of the region features to the result; `ctx` is the edge stage's result. -/
abbrev lpTail1Printed (ctx : FVec Ideal S150000x128 .f32) (a0 : FVec Ideal S12000x128 .f32) (a24 : IVec S150000 32)
    (a3 : FVec Ideal S2x128x128 .f32) (a9 : FVec Ideal S2x128x128 .f32) (a10 : FVec Ideal S2x2x128 .f32)
    (a11 : FVec Ideal S2x128x128 .f32) (a12 : FVec Ideal S2x2x128 .f32) (a13 : FVec Ideal S2x2x128 .f32) :
    FVec Ideal S12000x128 .f32 :=
  tailTerm (nt := 12000) (e := 150000) bcast_S_S150000 bcast_S150000_S150000x1_0
    dot_S12000x128_S128x128_S12000x128_1_0_0_1_n_n_wf scatter_S12000x128_S150000x1_S150000x128_1_0_0_1_wf
    transposes_S128x128_S128x128_1_0 bcast_S128_S1x128_1 bcast_S1x128_S12000x128_0_1 bcast_S_S12000x128 h_S_
    reducesTo_S12000x128_S12000_d1 bcast_S12000_S12000x1_0 bcast_S_S12000x1 bcast_S12000x1_S12000x128_0_1
    slices_S2x128_S1x128_0_0 slices_S2x128_S1x128_1_0 shapeCasts_S1x128_S128
    (Host.dotGeneral (mmDims 12000 128 128 dot_S12000x128_S128x128_S12000x128_1_0_0_1_n_n_wf) none a0
      (transpose S128x128 [1, 0] (cut3 1 slices_S2x128x128_S1x128x128_1_0_0 shapeCasts_S1x128x128_S128x128 a3)
        transposes_S128x128_S128x128_1_0))
    a0 a24 ctx
    (cut3 1 slices_S2x2x128_S1x2x128_1_0_0 shapeCasts_S1x2x128_S2x128 a13)
    (cut3 1 slices_S2x128x128_S1x128x128_1_0_0 shapeCasts_S1x128x128_S128x128 a9)
    (cut3 1 slices_S2x2x128_S1x2x128_1_0_0 shapeCasts_S1x2x128_S2x128 a10)
    (cut3 1 slices_S2x128x128_S1x128x128_1_0_0 shapeCasts_S1x128x128_S128x128 a11)
    (cut3 1 slices_S2x2x128_S1x2x128_1_0_0 shapeCasts_S1x2x128_S2x128 a12)

theorem lpTail1Printed_eq
    (a0 : FVec Ideal S12000x128 .f32) (a1 : FVec Ideal S50000x4 .f32) (a2 : FVec Ideal S12000x4 .f32)
    (a3 : FVec Ideal S2x128x128 .f32) (a4 : FVec Ideal S2x128x4 .f32) (a5 : FVec Ideal S2x128 .f32)
    (a6 : FVec Ideal S2x128x256 .f32) (a7 : FVec Ideal S2x2x128 .f32) (a8 : FVec Ideal S2x128x128 .f32)
    (a9 : FVec Ideal S2x128x128 .f32) (a10 : FVec Ideal S2x2x128 .f32) (a11 : FVec Ideal S2x128x128 .f32)
    (a12 : FVec Ideal S2x2x128 .f32) (a13 : FVec Ideal S2x2x128 .f32) (a14 : FVec Ideal S4x128x128 .f32)
    (a15 : FVec Ideal S4x12x128x128 .f32) (a16 : FVec Ideal S4x128x128 .f32) (a17 : FVec Ideal S4x128x128 .f32)
    (a18 : FVec Ideal S4x2x128 .f32) (a19 : FVec Ideal S4x128x128 .f32) (a20 : FVec Ideal S4x2x128 .f32)
    (a21 a22 a23 a24 : IVec S150000 32) (a25 a26 : IVec S12x50000 32) (a27 a28 : IVec S2x5000 32)
    (g4 : FVec Ideal S50000x128 .f32) (ctx : FVec Ideal S150000x128 .f32)
    (hctx : ctx = Cert.Spec.toVec2 (Cert.Spec.lpCtx (argsOf a0 a1 a2 a3 a4 a5 a6 a7 a8 a9 a10 a11 a12 a13 a14 a15 a16 a17 a18 a19 a20 a21 a22 a23 a24 a25 a26 a27 a28) 1 (by omega : 0 < 50000) (by omega : 0 < 12000)
          (Cert.Spec.ofVec2 g4) (argsOf a0 a1 a2 a3 a4 a5 a6 a7 a8 a9 a10 a11 a12 a13 a14 a15 a16 a17 a18 a19 a20 a21 a22 a23 a24 a25 a26 a27 a28).graph_pose (argsOf a0 a1 a2 a3 a4 a5 a6 a7 a8 a9 a10 a11 a12 a13 a14 a15 a16 a17 a18 a19 a20 a21 a22 a23 a24 a25 a26 a27 a28).roi_pose
          (argsOf a0 a1 a2 a3 a4 a5 a6 a7 a8 a9 a10 a11 a12 a13 a14 a15 a16 a17 a18 a19 a20 a21 a22 a23 a24 a25 a26 a27 a28).e2_hi (argsOf a0 a1 a2 a3 a4 a5 a6 a7 a8 a9 a10 a11 a12 a13 a14 a15 a16 a17 a18 a19 a20 a21 a22 a23 a24 a25 a26 a27 a28).e2_wi)) :
    lpTail1Printed ctx a0 a24 a3 a9 a10 a11 a12 a13
      = Cert.Spec.toVec2 (Cert.Spec.lanePool (argsOf a0 a1 a2 a3 a4 a5 a6 a7 a8 a9 a10 a11 a12 a13 a14 a15 a16 a17 a18 a19 a20 a21 a22 a23 a24 a25 a26 a27 a28) 1 (by omega : 0 < 50000) (by omega : 0 < 12000)
          (Cert.Spec.ofVec2 g4) (argsOf a0 a1 a2 a3 a4 a5 a6 a7 a8 a9 a10 a11 a12 a13 a14 a15 a16 a17 a18 a19 a20 a21 a22 a23 a24 a25 a26 a27 a28).graph_pose
          (Cert.Spec.lin (argsOf a0 a1 a2 a3 a4 a5 a6 a7 a8 a9 a10 a11 a12 a13 a14 a15 a16 a17 a18 a19 a20 a21 a22 a23 a24 a25 a26 a27 a28).roi_feat ((argsOf a0 a1 a2 a3 a4 a5 a6 a7 a8 a9 a10 a11 a12 a13 a14 a15 a16 a17 a18 a19 a20 a21 a22 a23 a24 a25 a26 a27 a28).lp_input_w 1)) (argsOf a0 a1 a2 a3 a4 a5 a6 a7 a8 a9 a10 a11 a12 a13 a14 a15 a16 a17 a18 a19 a20 a21 a22 a23 a24 a25 a26 a27 a28).roi_feat
          (argsOf a0 a1 a2 a3 a4 a5 a6 a7 a8 a9 a10 a11 a12 a13 a14 a15 a16 a17 a18 a19 a20 a21 a22 a23 a24 a25 a26 a27 a28).roi_pose (argsOf a0 a1 a2 a3 a4 a5 a6 a7 a8 a9 a10 a11 a12 a13 a14 a15 a16 a17 a18 a19 a20 a21 a22 a23 a24 a25 a26 a27 a28).e2_hi (argsOf a0 a1 a2 a3 a4 a5 a6 a7 a8 a9 a10 a11 a12 a13 a14 a15 a16 a17 a18 a19 a20 a21 a22 a23 a24 a25 a26 a27 a28).e2_wi) := by
  subst hctx
  unfold lpTail1Printed cut3
  rw [tailTerm_eq (nt := 12000) (e := 150000) _ _ _ _ _ _ _ _ _ _ _ _ _ _ _ _ (by omega)]
  rw [mm_transposed_eq_lin, layer3_eq 1 (by omega) a3, layer3_eq 1 (by omega) a13, layer3_eq 1 (by omega) a9,
    layer3_eq 1 (by omega) a10, layer3_eq 1 (by omega) a11, layer3_eq 1 (by omega) a12]
  rfl

end Cert.RVal

end
-- ==== Proof.RChainLP0.lean ====
/-
  The first pooling layer of the reference, statements 1–187 of @main (windows 0–3): from any contents before them, the
  buffer of the lane features holds the pooling of the region nodes onto zero lane features; then the same between
  the buffers' final contents.
-/
import proofs.«413166_j32323923870246_3_alg».proof.Proof.RChainBase
import proofs.«413166_j32323923870246_3_alg».proof.Proof.RValLp

set_option synthInstance.maxSize 4096

noncomputable section

namespace Cert.RChain

open Idealize.ShloMosaic Idealize.SL.Sem Idealize.ShloMosaic.StableHlo Cert.ReferenceIdeal

set_option maxHeartbeats 4000000 in
set_option maxRecDepth 16384 in
/-- Statements 1–187 of @main: the slices of the packed weights, the edge stage, the scatter and the node stage. -/
theorem win_lp0 (W : Val) :
    ((after (RefRun.chunk3 (F := Ideal)) (after (RefRun.chunk2 (F := Ideal)) (after (RefRun.chunk1 (F := Ideal)) (after (RefRun.chunk0 (F := Ideal)) W)))) (Proc.devRef .tc main_v161) : S50000x128.Idx → EReal) =
      Spec.toVec2 (Spec.g0 (argsOfV W)) := by
  try simp only [RefRun.chunk0, RefRun.chunk1, RefRun.chunk2, RefRun.chunk3]
  after_results_simp
  try simp only [StableHlo.TRef.ofBuf, StableHlo.TRef.toBuf, cast_eq]
  exact RVal.lpTail0Printed_eq (hctx := RVal.lpEdge0Printed_eq ..) ..

set_option maxHeartbeats 1000000 in
/-- The same between the buffers' final contents. -/
theorem st_lp0 (V : Val) :
    (Rv V (Proc.devRef .tc main_v161) : S50000x128.Idx → EReal) = Spec.toVec2 (Spec.g0 (argsOfV V)) := by
  have e := win_lp0 (W0 V)
  have ho : Rv V (Proc.devRef .tc main_v161) = (after (RefRun.chunk3 (F := Ideal)) (after (RefRun.chunk2 (F := Ideal)) (after (RefRun.chunk1 (F := Ideal)) (after (RefRun.chunk0 (F := Ideal)) (W0 V))))) (Proc.devRef .tc main_v161) := by
    rw [at3 V main_v161 ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩, W3, W2, W1]
  rw [← ho, argsOfV_W0 V] at e
  exact e

end Cert.RChain

end
-- ==== Proof.RChainLP1.lean ====
/-
  The second pooling layer of the reference, statements 1912–2096 of @main (windows 31–34): from any contents before them,
  the returned buffer holds the pooling of the lane nodes, at the features the last fusion layer left, onto the
  region nodes; then the same between the buffers' final contents.
-/
import proofs.«413166_j32323923870246_3_alg».proof.Proof.RChainBase
import proofs.«413166_j32323923870246_3_alg».proof.Proof.RValLp

set_option synthInstance.maxSize 4096

noncomputable section

namespace Cert.RChain

open Idealize.ShloMosaic Idealize.SL.Sem Idealize.ShloMosaic.StableHlo Cert.ReferenceIdeal

/-- The two-piece concatenation with its pieces as arguments of their own (the list of pieces carries the shapes its
    side condition speaks of, so a piece is not rewritten inside the list; here it is). -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem cat2_def {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 h x y := rfl

set_option maxHeartbeats 16000000 in
set_option maxRecDepth 16384 in
/-- Statements 1912–2096 of @main: the slices of the packed weights, the edge stage, the input weight, the scatter and the
    node stage. -/
theorem win_lp1 (W : Val) :
    ((after (RefRun.chunk34 (F := Ideal)) (after (RefRun.chunk33 (F := Ideal)) (after (RefRun.chunk32 (F := Ideal)) (after (RefRun.chunk31 (F := Ideal)) W)))) (Proc.devRef .tc main_v1790) : S12000x128.Idx → EReal) =
      Spec.toVec2 (Spec.lanePool (argsOfV W) 1 (by omega : 0 < 50000) (by omega : 0 < 12000) (Spec.ofVec2 (a := 50000) (b := 128) ((after (RefRun.chunk34 (F := Ideal)) (after (RefRun.chunk33 (F := Ideal)) (after (RefRun.chunk32 (F := Ideal)) (after (RefRun.chunk31 (F := Ideal)) W)))) (Proc.devRef .tc main_v1629))) (argsOfV W).graph_pose (Spec.lin (argsOfV W).roi_feat ((argsOfV W).lp_input_w 1)) (argsOfV W).roi_feat (argsOfV W).roi_pose (argsOfV W).e2_hi (argsOfV W).e2_wi) := by
  try simp only [RefRun.chunk31, RefRun.chunk32, RefRun.chunk33, RefRun.chunk34]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_def]
  try simp only [cat2]
  try simp only [StableHlo.TRef.ofBuf, StableHlo.TRef.toBuf, cast_eq]
  exact RVal.lpTail1Printed_eq (hctx := RVal.lpEdge1Printed_eq ..) ..

set_option maxHeartbeats 1000000 in
/-- The same between the buffers' final contents. -/
theorem st_lp1 (V : Val) :
    (Rv V (Proc.devRef .tc main_v1790) : S12000x128.Idx → EReal) =
      Spec.toVec2 (Spec.lanePool (argsOfV V) 1 (by omega : 0 < 50000) (by omega : 0 < 12000) (Spec.ofVec2 (a := 50000) (b := 128) (Rv V (Proc.devRef .tc main_v1629))) (argsOfV V).graph_pose (Spec.lin (argsOfV V).roi_feat ((argsOfV V).lp_input_w 1)) (argsOfV V).roi_feat (argsOfV V).roi_pose (argsOfV V).e2_hi (argsOfV V).e2_wi) := by
  have e := win_lp1 (W31 V)
  have ho : Rv V (Proc.devRef .tc main_v1790) = (after (RefRun.chunk34 (F := Ideal)) (after (RefRun.chunk33 (F := Ideal)) (after (RefRun.chunk32 (F := Ideal)) (after (RefRun.chunk31 (F := Ideal)) (W31 V))))) (Proc.devRef .tc main_v1790) := by
    rw [at34 V main_v1790 trivial, W34, W33, W32]
  have hg : Rv V (Proc.devRef .tc main_v1629) = (after (RefRun.chunk34 (F := Ideal)) (after (RefRun.chunk33 (F := Ideal)) (after (RefRun.chunk32 (F := Ideal)) (after (RefRun.chunk31 (F := Ideal)) (W31 V))))) (Proc.devRef .tc main_v1629) := by
    rw [at34 V main_v1629 trivial, W34, W33, W32]
  rw [← ho, ← hg, argsOfV_W31 V] at e
  exact e

end Cert.RChain

end
-- ==== Proof.RChain.lean ====
/-
  The reference's chain closed: every stage equation holds between the buffers' final contents, so the buffer the
  function returns holds the network of the arguments.
-/
import proofs.«413166_j32323923870246_3_alg».proof.Proof.RChainL0a
import proofs.«413166_j32323923870246_3_alg».proof.Proof.RChainL0b
import proofs.«413166_j32323923870246_3_alg».proof.Proof.RChainL0c
import proofs.«413166_j32323923870246_3_alg».proof.Proof.RChainL0d
import proofs.«413166_j32323923870246_3_alg».proof.Proof.RChainL1a
import proofs.«413166_j32323923870246_3_alg».proof.Proof.RChainL1b
import proofs.«413166_j32323923870246_3_alg».proof.Proof.RChainL1c
import proofs.«413166_j32323923870246_3_alg».proof.Proof.RChainL1d
import proofs.«413166_j32323923870246_3_alg».proof.Proof.RChainL2a
import proofs.«413166_j32323923870246_3_alg».proof.Proof.RChainL2b
import proofs.«413166_j32323923870246_3_alg».proof.Proof.RChainL2c
import proofs.«413166_j32323923870246_3_alg».proof.Proof.RChainL2d
import proofs.«413166_j32323923870246_3_alg».proof.Proof.RChainL3a
import proofs.«413166_j32323923870246_3_alg».proof.Proof.RChainL3b
import proofs.«413166_j32323923870246_3_alg».proof.Proof.RChainL3c
import proofs.«413166_j32323923870246_3_alg».proof.Proof.RChainL3d
import proofs.«413166_j32323923870246_3_alg».proof.Proof.RChainLP0
import proofs.«413166_j32323923870246_3_alg».proof.Proof.RChainLP1

noncomputable section

namespace Cert.RChain

open Idealize.ShloMosaic Idealize.SL.Sem Idealize.ShloMosaic.StableHlo Cert.ReferenceIdeal

/-- The stage equations of the run from contents `V`. -/
theorem stageEqs (V : Val) : StageEqs (argsOfV V) (Rv V) where
  lp0 := st_lp0 V
  ctr0 := st_ctr0 V
  ps0_0 := st_ps0_0 V
  ps0_1 := st_ps0_1 V
  ps0_2 := st_ps0_2 V
  ps0_3 := st_ps0_3 V
  ps0_4 := st_ps0_4 V
  ps0_5 := st_ps0_5 V
  ps0_6 := st_ps0_6 V
  ps0_7 := st_ps0_7 V
  ps0_8 := st_ps0_8 V
  ps0_9 := st_ps0_9 V
  ps0_10 := st_ps0_10 V
  ps0_11 := st_ps0_11 V
  lr0_0 := st_lr0_0 V
  lr0_1 := st_lr0_1 V
  node0 := st_node0 V
  ctr1 := st_ctr1 V
  ps1_0 := st_ps1_0 V
  ps1_1 := st_ps1_1 V
  ps1_2 := st_ps1_2 V
  ps1_3 := st_ps1_3 V
  ps1_4 := st_ps1_4 V
  ps1_5 := st_ps1_5 V
  ps1_6 := st_ps1_6 V
  ps1_7 := st_ps1_7 V
  ps1_8 := st_ps1_8 V
  ps1_9 := st_ps1_9 V
  ps1_10 := st_ps1_10 V
  ps1_11 := st_ps1_11 V
  lr1_0 := st_lr1_0 V
  lr1_1 := st_lr1_1 V
  node1 := st_node1 V
  ctr2 := st_ctr2 V
  ps2_0 := st_ps2_0 V
  ps2_1 := st_ps2_1 V
  ps2_2 := st_ps2_2 V
  ps2_3 := st_ps2_3 V
  ps2_4 := st_ps2_4 V
  ps2_5 := st_ps2_5 V
  ps2_6 := st_ps2_6 V
  ps2_7 := st_ps2_7 V
  ps2_8 := st_ps2_8 V
  ps2_9 := st_ps2_9 V
  ps2_10 := st_ps2_10 V
  ps2_11 := st_ps2_11 V
  lr2_0 := st_lr2_0 V
  lr2_1 := st_lr2_1 V
  node2 := st_node2 V
  ctr3 := st_ctr3 V
  ps3_0 := st_ps3_0 V
  ps3_1 := st_ps3_1 V
  ps3_2 := st_ps3_2 V
  ps3_3 := st_ps3_3 V
  ps3_4 := st_ps3_4 V
  ps3_5 := st_ps3_5 V
  ps3_6 := st_ps3_6 V
  ps3_7 := st_ps3_7 V
  ps3_8 := st_ps3_8 V
  ps3_9 := st_ps3_9 V
  ps3_10 := st_ps3_10 V
  ps3_11 := st_ps3_11 V
  lr3_0 := st_lr3_0 V
  lr3_1 := st_lr3_1 V
  node3 := st_node3 V
  lp1 := st_lp1 V

/-- The value of the reference: after its operations the returned buffer holds the network of the argument buffers. -/
theorem ref_value (V : Valuation τ sig (Elt Ideal)) :
    (StableHlo.after (RefRun.ops (F := Ideal)) V (Proc.devRef .tc main_v1790) : S12000x128.Idx → EReal) =
      Spec.toVec2 (Spec.net (argsOfV V)) := by
  rw [ops_eq]
  exact net_of_stage (stageEqs V)

end Cert.RChain

end
-- ==== Proof.lean ====
/-
  The certificate's five conjuncts. The two kernel programs' frames are the launch over the 21 regions and the host
  stretches between them; the reference's frame is its run as one chain of host operations, none of which writes an
  argument. The idealization's ledger is empty. For the equivalence both programs' result arrays are shown to be the
  network `Cert.Spec.net` of the arguments: on the kernel side each region's array is its stage of the network and each
  host stretch's gathers and scatters are the stage's row gathers and accumulating row scatters, the two scatters over
  concatenated edge lists being the fourteen edge steps one after the other; on the reference side each stretch of
  host operations is a stage directly. The laws used are regrouping of finite sums on the extended reals, a product
  with a zero matrix, and x / sqrt b = x * rsqrt b for the positive b of a row normalisation; the finiteness of the
  inputs is not used.
-/
import proofs.«413166_j32323923870246_3_alg».proof.Defs
import proofs.«413166_j32323923870246_3_alg».proof.Proof.Gen.Kernel
import proofs.«413166_j32323923870246_3_alg».proof.Proof.Gen.KernelIdeal
import proofs.«413166_j32323923870246_3_alg».proof.Proof.Gen.ReferenceIdeal
import proofs.«413166_j32323923870246_3_alg».proof.Proof.Gen.Pre_finite_inputs
import proofs.«413166_j32323923870246_3_alg».proof.Proof.KBFrameRun
import proofs.«413166_j32323923870246_3_alg».proof.Proof.KIFrameRun
import proofs.«413166_j32323923870246_3_alg».proof.Proof.KRun
import proofs.«413166_j32323923870246_3_alg».proof.Proof.KChain
import proofs.«413166_j32323923870246_3_alg».proof.Proof.RRun
import proofs.«413166_j32323923870246_3_alg».proof.Proof.RChain
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ

/-- Launch memories that agree on the twenty-nine arguments give the two programs the same specification arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20)))
    (h21 : (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21)))
    (h22 : (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22)))
    (h23 : (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23)))
    (h24 : (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24)))
    (h25 : (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25)))
    (h26 : (m' ((c.tc : Thread Cert.ReferenceIdeal.nD Cert.ReferenceIdeal.τ).loc Cert.ReferenceIdeal.main_arg26)) = (m ((c.tc : Thread Cert.KernelIdeal.nD Cert.KernelIdeal.τ).loc Cert.KernelIdeal.main_arg26)))
    (h27 : (m' ((c.tc : Thread Cert.ReferenceIdeal.nD Cert.ReferenceIdeal.τ).loc Cert.ReferenceIdeal.main_arg27)) = (m ((c.tc : Thread Cert.KernelIdeal.nD Cert.KernelIdeal.τ).loc Cert.KernelIdeal.main_arg27)))
    (h28 : (m' ((c.tc : Thread Cert.ReferenceIdeal.nD Cert.ReferenceIdeal.τ).loc Cert.ReferenceIdeal.main_arg28)) = (m ((c.tc : Thread Cert.KernelIdeal.nD Cert.KernelIdeal.τ).loc Cert.KernelIdeal.main_arg28))) :
    Cert.RChain.argsOfV (StableHlo.launchContents m' c) = Cert.KChain.argsOfK m c := by
  show Cert.RVal.argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28))
    = Cert.RVal.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))
  rw [h0, h1, h2, h3, h4, h5, h6, h7, h8, h9, h10, h11, h12, h13, h14, h15, h16, h17, h18, h19, h20, h21, h22, h23, h24, h25, h26, h27, h28]

set_option maxHeartbeats 16000000 in
/-- Both runs end with the result array at the network of the arguments, and the arguments agree. -/
theorem algebraic : Cert.algebraic_KernelIdeal_ReferenceIdeal := by
  intro m ρ m' ρ' _ hagree
  refine ⟨fun c => Cert.Spec.toVec2 (Cert.Spec.net (Cert.KChain.argsOfK m c)), ?_, ?_⟩
  · exact (θ_run (Cert.KernelIdeal.defs (F := Ideal)) _ _).mono
      (fun r h c => ⟨(h c).1.trans (Cert.KChain.kernel_value m ρ c), (h c).2⟩)
      (Cert.KernelIdeal.ValueRun.run_value (F := Ideal) m ρ)
  · refine (θ_run (Cert.ReferenceIdeal.defs (F := Ideal)) _ _).mono (fun r h c => ?_)
      (Cert.ReferenceIdeal.RefRun.run_main (F := Ideal) m' ρ')
    obtain ⟨h0, h1, h2, h3, h4, h5, h6, h7, h8, h9, h10, h11, h12, h13, h14, h15, h16, h17, h18, h19, h20, h21, h22, h23, h24, h25, h26, h27, h28⟩ := hagree c
    refine ⟨?_, (h c Cert.ReferenceIdeal.main_arg0).trans (Cert.ReferenceIdeal.RefRun.ops_keep _ Cert.ReferenceIdeal.main_arg0 (by decide)),
      (h c Cert.ReferenceIdeal.main_arg1).trans (Cert.ReferenceIdeal.RefRun.ops_keep _ Cert.ReferenceIdeal.main_arg1 (by decide)),
      (h c Cert.ReferenceIdeal.main_arg2).trans (Cert.ReferenceIdeal.RefRun.ops_keep _ Cert.ReferenceIdeal.main_arg2 (by decide)),
      (h c Cert.ReferenceIdeal.main_arg3).trans (Cert.ReferenceIdeal.RefRun.ops_keep _ Cert.ReferenceIdeal.main_arg3 (by decide)),
      (h c Cert.ReferenceIdeal.main_arg4).trans (Cert.ReferenceIdeal.RefRun.ops_keep _ Cert.ReferenceIdeal.main_arg4 (by decide)),
      (h c Cert.ReferenceIdeal.main_arg5).trans (Cert.ReferenceIdeal.RefRun.ops_keep _ Cert.ReferenceIdeal.main_arg5 (by decide)),
      (h c Cert.ReferenceIdeal.main_arg6).trans (Cert.ReferenceIdeal.RefRun.ops_keep _ Cert.ReferenceIdeal.main_arg6 (by decide)),
      (h c Cert.ReferenceIdeal.main_arg7).trans (Cert.ReferenceIdeal.RefRun.ops_keep _ Cert.ReferenceIdeal.main_arg7 (by decide)),
      (h c Cert.ReferenceIdeal.main_arg8).trans (Cert.ReferenceIdeal.RefRun.ops_keep _ Cert.ReferenceIdeal.main_arg8 (by decide)),
      (h c Cert.ReferenceIdeal.main_arg9).trans (Cert.ReferenceIdeal.RefRun.ops_keep _ Cert.ReferenceIdeal.main_arg9 (by decide)),
      (h c Cert.ReferenceIdeal.main_arg10).trans (Cert.ReferenceIdeal.RefRun.ops_keep _ Cert.ReferenceIdeal.main_arg10 (by decide)),
      (h c Cert.ReferenceIdeal.main_arg11).trans (Cert.ReferenceIdeal.RefRun.ops_keep _ Cert.ReferenceIdeal.main_arg11 (by decide)),
      (h c Cert.ReferenceIdeal.main_arg12).trans (Cert.ReferenceIdeal.RefRun.ops_keep _ Cert.ReferenceIdeal.main_arg12 (by decide)),
      (h c Cert.ReferenceIdeal.main_arg13).trans (Cert.ReferenceIdeal.RefRun.ops_keep _ Cert.ReferenceIdeal.main_arg13 (by decide)),
      (h c Cert.ReferenceIdeal.main_arg14).trans (Cert.ReferenceIdeal.RefRun.ops_keep _ Cert.ReferenceIdeal.main_arg14 (by decide)),
      (h c Cert.ReferenceIdeal.main_arg15).trans (Cert.ReferenceIdeal.RefRun.ops_keep _ Cert.ReferenceIdeal.main_arg15 (by decide)),
      (h c Cert.ReferenceIdeal.main_arg16).trans (Cert.ReferenceIdeal.RefRun.ops_keep _ Cert.ReferenceIdeal.main_arg16 (by decide)),
      (h c Cert.ReferenceIdeal.main_arg17).trans (Cert.ReferenceIdeal.RefRun.ops_keep _ Cert.ReferenceIdeal.main_arg17 (by decide)),
      (h c Cert.ReferenceIdeal.main_arg18).trans (Cert.ReferenceIdeal.RefRun.ops_keep _ Cert.ReferenceIdeal.main_arg18 (by decide)),
      (h c Cert.ReferenceIdeal.main_arg19).trans (Cert.ReferenceIdeal.RefRun.ops_keep _ Cert.ReferenceIdeal.main_arg19 (by decide)),
      (h c Cert.ReferenceIdeal.main_arg20).trans (Cert.ReferenceIdeal.RefRun.ops_keep _ Cert.ReferenceIdeal.main_arg20 (by decide)),
      (h c Cert.ReferenceIdeal.main_arg21).trans (Cert.ReferenceIdeal.RefRun.ops_keep _ Cert.ReferenceIdeal.main_arg21 (by decide)),
      (h c Cert.ReferenceIdeal.main_arg22).trans (Cert.ReferenceIdeal.RefRun.ops_keep _ Cert.ReferenceIdeal.main_arg22 (by decide)),
      (h c Cert.ReferenceIdeal.main_arg23).trans (Cert.ReferenceIdeal.RefRun.ops_keep _ Cert.ReferenceIdeal.main_arg23 (by decide)),
      (h c Cert.ReferenceIdeal.main_arg24).trans (Cert.ReferenceIdeal.RefRun.ops_keep _ Cert.ReferenceIdeal.main_arg24 (by decide)),
      (h c Cert.ReferenceIdeal.main_arg25).trans (Cert.ReferenceIdeal.RefRun.ops_keep _ Cert.ReferenceIdeal.main_arg25 (by decide)),
      (h c Cert.ReferenceIdeal.main_arg26).trans (Cert.ReferenceIdeal.RefRun.ops_keep _ Cert.ReferenceIdeal.main_arg26 (by decide)),
      (h c Cert.ReferenceIdeal.main_arg27).trans (Cert.ReferenceIdeal.RefRun.ops_keep _ Cert.ReferenceIdeal.main_arg27 (by decide)),
      (h c Cert.ReferenceIdeal.main_arg28).trans (Cert.ReferenceIdeal.RefRun.ops_keep _ Cert.ReferenceIdeal.main_arg28 (by decide))⟩
    refine (h c Cert.ReferenceIdeal.main_v1790).trans ((Cert.RChain.ref_value _).trans ?_)
    rw [args_agree m m' c h0 h1 h2 h3 h4 h5 h6 h7 h8 h9 h10 h11 h12 h13 h14 h15 h16 h17 h18 h19 h20 h21 h22 h23 h24 h25 h26 h27 h28]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ref, trivial, algebraic⟩

end Cert.Proof

end
